-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1024) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S409600x64 : Shape := ⟨2, ![409600, 64]⟩
abbrev S409600x3 : Shape := ⟨2, ![409600, 3]⟩
abbrev S3x3x64x64 : Shape := ⟨4, ![3, 3, 64, 64]⟩
abbrev S64 : Shape := ⟨1, ![64]⟩
abbrev S64x64 : Shape := ⟨2, ![64, 64]⟩
abbrev S_ : Shape := ⟨0, ![]⟩
abbrev S409600x1 : Shape := ⟨2, ![409600, 1]⟩
abbrev S409600 : Shape := ⟨1, ![409600]⟩

class Facts : Prop where
  bcast_S_S409600x64 : S_.BroadcastsInDim S409600x64 (![] : Fin 0 → Fin S409600x64.rank)
  reducesTo_S409600x64_S_d0_1 : S409600x64.ReducesTo [0, 1] S_
  h_S_ : 0 < S_.numel
  bcast_S_S3x3x64x64 : S_.BroadcastsInDim S3x3x64x64 (![] : Fin 0 → Fin S3x3x64x64.rank)
  reducesTo_S3x3x64x64_S_d0_1_2_3 : S3x3x64x64.ReducesTo [0, 1, 2, 3] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S409600x3_S409600x1_0_0 : S409600x3.Slices ![0, 0] S409600x1
  shapeCasts_S409600x1_S409600 : S409600x1.ShapeCasts S409600
  bcast_S_S409600 : S_.BroadcastsInDim S409600 (![] : Fin 0 → Fin S409600.rank)
  reducesTo_S409600_S_d0 : S409600.ReducesTo [0] S_
  slices_S409600x3_S409600x1_0_1 : S409600x3.Slices ![0, 1] S409600x1
  slices_S409600x3_S409600x1_0_2 : S409600x3.Slices ![0, 2] S409600x1

variable [Facts]

def fn_part3 {F : FTy → Type} [FloatOps F] (main_arg1 : IVec S409600x3 32) (main_v50 : IVec S_ 1) (main_v52 : IVec S409600 32) (main_c_16 : IVec S_ 32) : IVec S_ 1 :=
  let main_v53 : IVec S409600 32 := broadcastInDim S409600 ![] bcast_S_S409600 main_c_16
  let main_v54 : IVec S409600 1 := cmpi .sge main_v52 main_v53
  let main_v55 : IVec S409600x1 32 := (extractStridedSlice S409600x1 ![0, 2] · slices_S409600x3_S409600x1_0_2) main_arg1
  let main_v56 : IVec S409600 32 := shapeCast S409600 main_v55 shapeCasts_S409600x1_S409600
  let main_c_17 : IVec S_ 32 := constantI S_ 32 640#32
  let main_v57 : IVec S409600 32 := broadcastInDim S409600 ![] bcast_S_S409600 main_c_17
  let main_v58 : IVec S409600 1 := cmpi .slt main_v56 main_v57
  let main_v59 : IVec S409600 1 := andi main_v54 main_v58
  let main_c_18 : IVec S_ 1 := constantI S_ 1 1#1
  let main_v60 : IVec S_ 1 := (fun x v => Host.reduce IntOp.andi x v reducesTo_S409600_S_d0 h_S_) main_v59 main_c_18
  let main_v61 : IVec S_ 1 := andi main_v50 main_v60
  main_v61

def fn_part2 {F : FTy → Type} [FloatOps F] (main_arg1 : IVec S409600x3 32) (main_v28 : IVec S_ 1) (main_v32 : IVec S409600 1) (main_v34 : IVec S409600 32) : IVec S_ 1 :=
  let main_c_11 : IVec S_ 32 := constantI S_ 32 2#32
  let main_v35 : IVec S409600 32 := broadcastInDim S409600 ![] bcast_S_S409600 main_c_11
  let main_v36 : IVec S409600 1 := cmpi .slt main_v34 main_v35
  let main_v37 : IVec S409600 1 := andi main_v32 main_v36
  let main_c_12 : IVec S_ 1 := constantI S_ 1 1#1
  let main_v38 : IVec S_ 1 := (fun x v => Host.reduce IntOp.andi x v reducesTo_S409600_S_d0 h_S_) main_v37 main_c_12
  let main_v39 : IVec S_ 1 := andi main_v28 main_v38
  let main_v40 : IVec S409600x1 32 := (extractStridedSlice S409600x1 ![0, 1] · slices_S409600x3_S409600x1_0_1) main_arg1
  let main_v41 : IVec S409600 32 := shapeCast S409600 main_v40 shapeCasts_S409600x1_S409600
  let main_c_13 : IVec S_ 32 := constantI S_ 32 0#32
  let main_v42 : IVec S409600 32 := broadcastInDim S409600 ![] bcast_S_S409600 main_c_13
  let main_v43 : IVec S409600 1 := cmpi .sge main_v41 main_v42
  let main_v44 : IVec S409600x1 32 := (extractStridedSlice S409600x1 ![0, 1] · slices_S409600x3_S409600x1_0_1) main_arg1
  let main_v45 : IVec S409600 32 := shapeCast S409600 main_v44 shapeCasts_S409600x1_S409600
  let main_c_14 : IVec S_ 32 := constantI S_ 32 640#32
  let main_v46 : IVec S409600 32 := broadcastInDim S409600 ![] bcast_S_S409600 main_c_14
  let main_v47 : IVec S409600 1 := cmpi .slt main_v45 main_v46
  let main_v48 : IVec S409600 1 := andi main_v43 main_v47
  let main_c_15 : IVec S_ 1 := constantI S_ 1 1#1
  let main_v49 : IVec S_ 1 := (fun x v => Host.reduce IntOp.andi x v reducesTo_S409600_S_d0 h_S_) main_v48 main_c_15
  let main_v50 : IVec S_ 1 := andi main_v39 main_v49
  let main_v51 : IVec S409600x1 32 := (extractStridedSlice S409600x1 ![0, 2] · slices_S409600x3_S409600x1_0_2) main_arg1
  let main_v52 : IVec S409600 32 := shapeCast S409600 main_v51 shapeCasts_S409600x1_S409600
  let main_c_16 : IVec S_ 32 := constantI S_ 32 0#32
  fn_part3 (F := F) main_arg1 main_v50 main_v52 main_c_16

def fn_part1 {F : FTy → Type} [FloatOps F] (main_arg1 : IVec S409600x3 32) (main_arg5 : FVec F S64 .f32) (main_arg6 : FVec F S64x64 .f32) (main_v13 : IVec S_ 1) (main_v16 : IVec S3x3x64x64 1) : IVec S_ 1 :=
  let main_c_5 : IVec S_ 1 := constantI S_ 1 1#1
  let main_v17 : IVec S_ 1 := (fun x v => Host.reduce IntOp.andi x v reducesTo_S3x3x64x64_S_d0_1_2_3 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : IVec S409600x1 32 := (extractStridedSlice S409600x1 ![0, 0] · slices_S409600x3_S409600x1_0_0) main_arg1
  let main_v30 : IVec S409600 32 := shapeCast S409600 main_v29 shapeCasts_S409600x1_S409600
  let main_c_10 : IVec S_ 32 := constantI S_ 32 0#32
  let main_v31 : IVec S409600 32 := broadcastInDim S409600 ![] bcast_S_S409600 main_c_10
  let main_v32 : IVec S409600 1 := cmpi .sge main_v30 main_v31
  let main_v33 : IVec S409600x1 32 := (extractStridedSlice S409600x1 ![0, 0] · slices_S409600x3_S409600x1_0_0) main_arg1
  let main_v34 : IVec S409600 32 := shapeCast S409600 main_v33 shapeCasts_S409600x1_S409600
  fn_part2 (F := F) main_arg1 main_v28 main_v32 main_v34

def fn {F : FTy → Type} [FloatOps F] (main_arg0 : FVec F S409600x64 .f32) (main_arg1 : IVec S409600x3 32) (main_arg2 : FVec F S3x3x64x64 .f32) (main_arg3 : FVec F S64 .f32) (main_arg4 : FVec F S3x3x64x64 .f32) (main_arg5 : FVec F S64 .f32) (main_arg6 : FVec F S64x64 .f32) : IVec S_ 1 :=
  let main_v0 : FVec F S409600x64 .f32 := Host.absf main_arg0
  let main_cst : FVec F S_ .f32 := constant S_ .f32 0x7F800000#32
  let main_v1 : FVec F S409600x64 .f32 := broadcastInDim S409600x64 ![] bcast_S_S409600x64 main_cst
  let main_v2 : IVec S409600x64 1 := cmpf .olt main_v0 main_v1
  let main_c : IVec S_ 1 := constantI S_ 1 1#1
  let main_v3 : IVec S_ 1 := (fun x v => Host.reduce IntOp.andi x v reducesTo_S409600x64_S_d0_1 h_S_) main_v2 main_c
  let main_v4 : FVec F S3x3x64x64 .f32 := Host.absf main_arg2
  let main_cst_0 : FVec F S_ .f32 := constant S_ .f32 0x7F800000#32
  let main_v5 : FVec F S3x3x64x64 .f32 := broadcastInDim S3x3x64x64 ![] bcast_S_S3x3x64x64 main_cst_0
  let main_v6 : IVec S3x3x64x64 1 := cmpf .olt main_v4 main_v5
  let main_c_1 : IVec S_ 1 := constantI S_ 1 1#1
  let main_v7 : IVec S_ 1 := (fun x v => Host.reduce IntOp.andi x v reducesTo_S3x3x64x64_S_d0_1_2_3 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x3x64x64 .f32 := Host.absf main_arg4
  let main_cst_4 : FVec F S_ .f32 := constant S_ .f32 0x7F800000#32
  let main_v15 : FVec F S3x3x64x64 .f32 := broadcastInDim S3x3x64x64 ![] bcast_S_S3x3x64x64 main_cst_4
  let main_v16 : IVec S3x3x64x64 1 := cmpf .olt main_v14 main_v15
  fn_part1 (F := F) main_arg1 main_arg5 main_arg6 main_v13 main_v16
-- ==== Kernel.lean ====
abbrev S409600x64 : Shape := ⟨2, ![409600, 64]⟩
abbrev S409600x3 : Shape := ⟨2, ![409600, 3]⟩
abbrev S3x3x64x64 : Shape := ⟨4, ![3, 3, 64, 64]⟩
abbrev S64 : Shape := ⟨1, ![64]⟩
abbrev S64x64 : Shape := ⟨2, ![64, 64]⟩
abbrev S_ : Shape := ⟨0, ![]⟩
abbrev S2x640x640x64 : Shape := ⟨4, ![2, 640, 640, 64]⟩
abbrev S409600x1 : Shape := ⟨2, ![409600, 1]⟩
abbrev S409600 : Shape := ⟨1, ![409600]⟩
abbrev S2x640x640 : Shape := ⟨3, ![2, 640, 640]⟩
abbrev S2x640x640x1 : Shape := ⟨4, ![2, 640, 640, 1]⟩
abbrev S2x640x642x64 : Shape := ⟨4, ![2, 640, 642, 64]⟩
abbrev S2x1x640x64 : Shape := ⟨4, ![2, 1, 640, 64]⟩
abbrev S2x639x640x64 : Shape := ⟨4, ![2, 639, 640, 64]⟩
abbrev S1x64 : Shape := ⟨2, ![1, 64]⟩
abbrev S1x8x642x64 : Shape := ⟨4, ![1, 8, 642, 64]⟩
abbrev S1x8x640x1 : Shape := ⟨4, ![1, 8, 640, 1]⟩
abbrev S1x8x640x64 : Shape := ⟨4, ![1, 8, 640, 64]⟩
abbrev S8x642x64 : Shape := ⟨3, ![8, 642, 64]⟩
abbrev S5120x64 : Shape := ⟨2, ![5120, 64]⟩
abbrev S8x640x64 : Shape := ⟨3, ![8, 640, 64]⟩
abbrev S1x1x64x64 : Shape := ⟨4, ![1, 1, 64, 64]⟩
abbrev S8x640x1 : Shape := ⟨3, ![8, 640, 1]⟩
abbrev S5120x1 : Shape := ⟨2, ![5120, 1]⟩
abbrev S8192x64 : Shape := ⟨2, ![8192, 64]⟩

abbrev nBuf : Space → Nat
  | .hbm => 154
  | .vmem => 31
  | .smem => 0
  | _ => 0

abbrev hbmTy0_0 (i : Nat) : BufTy := match i % 128 with
  | 0 => ⟨S409600x64, .f32⟩
  | 1 => ⟨S409600x3, .i32⟩
  | 2 => ⟨S3x3x64x64, .f32⟩
  | 3 => ⟨S64, .f32⟩
  | 4 => ⟨S3x3x64x64, .f32⟩
  | 5 => ⟨S64, .f32⟩
  | 6 => ⟨S64x64, .f32⟩
  | 7 => ⟨S_, .bf16⟩
  | 8 => ⟨S2x640x640x64, .bf16⟩
  | 9 => ⟨S409600x1, .i32⟩
  | 10 => ⟨S409600, .i32⟩
  | 11 => ⟨S409600x1, .i32⟩
  | 12 => ⟨S409600, .i32⟩
  | 13 => ⟨S409600x1, .i32⟩
  | 14 => ⟨S409600, .i32⟩
  | 15 => ⟨S409600x64, .bf16⟩
  | 16 => ⟨S_, .i32⟩
  | 17 => ⟨S409600, .i32⟩
  | 18 => ⟨S409600, .i1⟩
  | 19 => ⟨S_, .i32⟩
  | 20 => ⟨S409600, .i32⟩
  | 21 => ⟨S409600, .i32⟩
  | 22 => ⟨S409600, .i32⟩
  | 23 => ⟨S_, .i32⟩
  | 24 => ⟨S409600, .i32⟩
  | 25 => ⟨S409600, .i1⟩
  | 26 => ⟨S_, .i32⟩
  | 27 => ⟨S409600, .i32⟩
  | 28 => ⟨S409600, .i32⟩
  | 29 => ⟨S409600, .i32⟩
  | 30 => ⟨S_, .i32⟩
  | 31 => ⟨S409600, .i32⟩
  | 32 => ⟨S409600, .i1⟩
  | 33 => ⟨S_, .i32⟩
  | 34 => ⟨S409600, .i32⟩
  | 35 => ⟨S409600, .i32⟩
  | 36 => ⟨S409600, .i32⟩
  | 37 => ⟨S409600x1, .i32⟩
  | 38 => ⟨S409600x1, .i32⟩
  | 39 => ⟨S409600x1, .i32⟩
  | 40 => ⟨S409600x3, .i32⟩
  | 41 => ⟨S2x640x640x64, .bf16⟩
  | 42 => ⟨S_, .f32⟩
  | 43 => ⟨S2x640x640, .f32⟩
  | 44 => ⟨S409600x1, .i32⟩
  | 45 => ⟨S409600, .i32⟩
  | 46 => ⟨S409600x1, .i32⟩
  | 47 => ⟨S409600, .i32⟩
  | 48 => ⟨S409600x1, .i32⟩
  | 49 => ⟨S409600, .i32⟩
  | 50 => ⟨S_, .i32⟩
  | 51 => ⟨S409600, .i32⟩
  | 52 => ⟨S409600, .i1⟩
  | 53 => ⟨S_, .i32⟩
  | 54 => ⟨S409600, .i32⟩
  | 55 => ⟨S409600, .i32⟩
  | 56 => ⟨S409600, .i32⟩
  | 57 => ⟨S_, .i32⟩
  | 58 => ⟨S409600, .i32⟩
  | 59 => ⟨S409600, .i1⟩
  | 60 => ⟨S_, .i32⟩
  | 61 => ⟨S409600, .i32⟩
  | 62 => ⟨S409600, .i32⟩
  | 63 => ⟨S409600, .i32⟩
  | 64 => ⟨S_, .i32⟩
  | 65 => ⟨S409600, .i32⟩
  | 66 => ⟨S409600, .i1⟩
  | 67 => ⟨S_, .i32⟩
  | 68 => ⟨S409600, .i32⟩
  | 69 => ⟨S409600, .i32⟩
  | 70 => ⟨S409600, .i32⟩
  | 71 => ⟨S409600x1, .i32⟩
  | 72 => ⟨S409600x1, .i32⟩
  | 73 => ⟨S409600x1, .i32⟩
  | 74 => ⟨S409600x3, .i32⟩
  | 75 => ⟨S_, .f32⟩
  | 76 => ⟨S409600, .f32⟩
  | 77 => ⟨S2x640x640, .f32⟩
  | 78 => ⟨S2x640x640x1, .f32⟩
  | 79 => ⟨S_, .i32⟩
  | 80 => ⟨S_, .bf16⟩
  | 81 => ⟨S2x640x642x64, .bf16⟩
  | 82 => ⟨S2x1x640x64, .bf16⟩
  | 83 => ⟨S_, .bf16⟩
  | 84 => ⟨S2x1x640x64, .bf16⟩
  | 85 => ⟨S2x639x640x64, .bf16⟩
  | 86 => ⟨S2x640x640x64, .bf16⟩
  | 87 => ⟨S_, .i32⟩
  | 88 => ⟨S_, .bf16⟩
  | 89 => ⟨S2x640x642x64, .bf16⟩
  | 90 => ⟨S2x1x640x64, .bf16⟩
  | 91 => ⟨S_, .bf16⟩
  | 92 => ⟨S2x1x640x64, .bf16⟩
  | 93 => ⟨S2x639x640x64, .bf16⟩
  | 94 => ⟨S2x640x640x64, .bf16⟩
  | 95 => ⟨S_, .i32⟩
  | 96 => ⟨S_, .bf16⟩
  | 97 => ⟨S2x640x642x64, .bf16⟩
  | 98 => ⟨S1x64, .f32⟩
  | 99 => ⟨S2x640x640x64, .bf16⟩
  | 100 => ⟨S_, .i32⟩
  | 101 => ⟨S_, .bf16⟩
  | 102 => ⟨S2x640x642x64, .bf16⟩
  | 103 => ⟨S2x1x640x64, .bf16⟩
  | 104 => ⟨S_, .bf16⟩
  | 105 => ⟨S2x1x640x64, .bf16⟩
  | 106 => ⟨S2x639x640x64, .bf16⟩
  | 107 => ⟨S2x640x640x64, .bf16⟩
  | 108 => ⟨S_, .i32⟩
  | 109 => ⟨S_, .bf16⟩
  | 110 => ⟨S2x640x642x64, .bf16⟩
  | 111 => ⟨S2x1x640x64, .bf16⟩
  | 112 => ⟨S_, .bf16⟩
  | 113 => ⟨S2x1x640x64, .bf16⟩
  | 114 => ⟨S2x639x640x64, .bf16⟩
  | 115 => ⟨S2x640x640x64, .bf16⟩
  | 116 => ⟨S_, .i32⟩
  | 117 => ⟨S_, .bf16⟩
  | 118 => ⟨S2x640x642x64, .bf16⟩
  | 119 => ⟨S1x64, .f32⟩
  | 120 => ⟨S2x640x640x64, .f32⟩
  | 121 => ⟨S409600x1, .i32⟩
  | 122 => ⟨S409600, .i32⟩
  | 123 => ⟨S409600x1, .i32⟩
  | 124 => ⟨S409600, .i32⟩
  | 125 => ⟨S409600x1, .i32⟩
  | 126 => ⟨S409600, .i32⟩
  | 127 => ⟨S_, .i32⟩
  | _ => ⟨S409600x64, .f32⟩

abbrev hbmTy0_1 (i : Nat) : BufTy := match i % 128 with
  | 0 => ⟨S409600, .i32⟩
  | 1 => ⟨S409600, .i1⟩
  | 2 => ⟨S_, .i32⟩
  | 3 => ⟨S409600, .i32⟩
  | 4 => ⟨S409600, .i32⟩
  | 5 => ⟨S409600, .i32⟩
  | 6 => ⟨S_, .i32⟩
  | 7 => ⟨S409600, .i32⟩
  | 8 => ⟨S409600, .i1⟩
  | 9 => ⟨S_, .i32⟩
  | 10 => ⟨S409600, .i32⟩
  | 11 => ⟨S409600, .i32⟩
  | 12 => ⟨S409600, .i32⟩
  | 13 => ⟨S_, .i32⟩
  | 14 => ⟨S409600, .i32⟩
  | 15 => ⟨S409600, .i1⟩
  | 16 => ⟨S_, .i32⟩
  | 17 => ⟨S409600, .i32⟩
  | 18 => ⟨S409600, .i32⟩
  | 19 => ⟨S409600, .i32⟩
  | 20 => ⟨S409600x1, .i32⟩
  | 21 => ⟨S409600x1, .i32⟩
  | 22 => ⟨S409600x1, .i32⟩
  | 23 => ⟨S409600x3, .i32⟩
  | 24 => ⟨S409600x64, .f32⟩
  | 25 => ⟨S409600x64, .f32⟩
  | _ => ⟨S409600x64, .f32⟩

abbrev hbmTy (i : Nat) : BufTy := match i / 128 with
  | 0 => hbmTy0_0 i
  | 1 => hbmTy0_1 i
  | _ => ⟨S409600x64, .f32⟩

abbrev bufTy : (tb : Table) → Fin (tcTables nBuf tb) → BufTy
  | .hbm, ⟨i, _⟩ => hbmTy i
  | .local _ .vmem, ⟨0, _⟩ => ⟨S1x8x642x64, .bf16⟩
  | .local _ .vmem, ⟨1, _⟩ => ⟨S1x8x642x64, .bf16⟩
  | .local _ .vmem, ⟨2, _⟩ => ⟨S1x8x642x64, .bf16⟩
  | .local _ .vmem, ⟨3, _⟩ => ⟨S1x8x642x64, .bf16⟩
  | .local _ .vmem, ⟨4, _⟩ => ⟨S1x8x642x64, .bf16⟩
  | .local _ .vmem, ⟨5, _⟩ => ⟨S1x8x642x64, .bf16⟩
  | .local _ .vmem, ⟨6, _⟩ => ⟨S3x3x64x64, .f32⟩
  | .local _ .vmem, ⟨7, _⟩ => ⟨S1x64, .f32⟩
  | .local _ .vmem, ⟨8, _⟩ => ⟨S1x8x640x1, .f32⟩
  | .local _ .vmem, ⟨9, _⟩ => ⟨S1x8x640x1, .f32⟩
  | .local _ .vmem, ⟨10, _⟩ => ⟨S1x8x640x64, .bf16⟩
  | .local _ .vmem, ⟨11, _⟩ => ⟨S1x8x640x64, .bf16⟩
  | .local _ .vmem, ⟨12, _⟩ => ⟨S1x8x642x64, .bf16⟩
  | .local _ .vmem, ⟨13, _⟩ => ⟨S1x8x642x64, .bf16⟩
  | .local _ .vmem, ⟨14, _⟩ => ⟨S1x8x642x64, .bf16⟩
  | .local _ .vmem, ⟨15, _⟩ => ⟨S1x8x642x64, .bf16⟩
  | .local _ .vmem, ⟨16, _⟩ => ⟨S1x8x642x64, .bf16⟩
  | .local _ .vmem, ⟨17, _⟩ => ⟨S1x8x642x64, .bf16⟩
  | .local _ .vmem, ⟨18, _⟩ => ⟨S3x3x64x64, .f32⟩
  | .local _ .vmem, ⟨19, _⟩ => ⟨S1x64, .f32⟩
  | .local _ .vmem, ⟨20, _⟩ => ⟨S1x8x640x1, .f32⟩
  | .local _ .vmem, ⟨21, _⟩ => ⟨S1x8x640x1, .f32⟩
  | .local _ .vmem, ⟨22, _⟩ => ⟨S1x8x640x64, .f32⟩
  | .local _ .vmem, ⟨23, _⟩ => ⟨S1x8x640x64, .f32⟩
  | .local _ .vmem, ⟨24, _⟩ => ⟨S8192x64, .f32⟩
  | .local _ .vmem, ⟨25, _⟩ => ⟨S8192x64, .f32⟩
  | .local _ .vmem, ⟨26, _⟩ => ⟨S64x64, .f32⟩
  | .local _ .vmem, ⟨27, _⟩ => ⟨S8192x64, .f32⟩
  | .local _ .vmem, ⟨28, _⟩ => ⟨S8192x64, .f32⟩
  | .local _ .vmem, ⟨29, _⟩ => ⟨S8192x64, .f32⟩
  | .local _ .vmem, ⟨30, _⟩ => ⟨S8192x64, .f32⟩
  | _, _ => ⟨S409600x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_call0_v0 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_15 : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_17 : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_18 : Ref sig .tc := ⟨.hbm, 100, rfl⟩
abbrev main_call3_v0 : Ref sig .tc := ⟨.hbm, 101, rfl⟩
abbrev main_v70 : Ref sig .tc := ⟨.hbm, 102, rfl⟩
abbrev main_v71 : Ref sig .tc := ⟨.hbm, 103, rfl⟩
abbrev main_cst_19 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_20 : Ref sig .tc := ⟨.hbm, 108, rfl⟩
abbrev main_call4_v0 : Ref sig .tc := ⟨.hbm, 109, rfl⟩
abbrev main_v75 : Ref sig .tc := ⟨.hbm, 110, rfl⟩
abbrev main_v76 : Ref sig .tc := ⟨.hbm, 111, rfl⟩
abbrev main_cst_21 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_22 : Ref sig .tc := ⟨.hbm, 116, rfl⟩
abbrev main_call5_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_23 : Ref sig .tc := ⟨.hbm, 127, rfl⟩
abbrev main_v89 : Ref sig .tc := ⟨.hbm, 128, rfl⟩
abbrev main_v90 : Ref sig .tc := ⟨.hbm, 129, rfl⟩
abbrev main_c_24 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_25 : Ref sig .tc := ⟨.hbm, 134, rfl⟩
abbrev main_v94 : Ref sig .tc := ⟨.hbm, 135, rfl⟩
abbrev main_v95 : Ref sig .tc := ⟨.hbm, 136, rfl⟩
abbrev main_c_26 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_27 : Ref sig .tc := ⟨.hbm, 141, rfl⟩
abbrev main_v99 : Ref sig .tc := ⟨.hbm, 142, rfl⟩
abbrev main_v100 : Ref sig .tc := ⟨.hbm, 143, rfl⟩
abbrev main_c_28 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨2, ![2, 80], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x642x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x642x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x642x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x640x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x640x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 80], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x8x642x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x642x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x642x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S3x3x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x8x640x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x8x640x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8192x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S2x640x640x64 : S_.BroadcastsInDim S2x640x640x64 (![] : Fin 0 → Fin S2x640x640x64.rank)
  slices_S409600x3_S409600x1_0_0 : S409600x3.Slices ![0, 0] S409600x1
  shapeCasts_S409600x1_S409600 : S409600x1.ShapeCasts S409600
  slices_S409600x3_S409600x1_0_1 : S409600x3.Slices ![0, 1] S409600x1
  slices_S409600x3_S409600x1_0_2 : S409600x3.Slices ![0, 2] S409600x1
  bitsLt_bf16_f32 : FTy.bits .bf16 < FTy.bits .f32
  bcast_S_S409600 : S_.BroadcastsInDim S409600 (![] : Fin 0 → Fin S409600.rank)
  bcast_S409600_S409600x1_0 : S409600.BroadcastsInDim S409600x1 (![0] : Fin 1 → Fin S409600x1.rank)
  concatenates_S409600x1_S409600x1_S409600x1_S409600x3_d1 : Shape.Concatenates [S409600x1, S409600x1, S409600x1] S409600x3 1
  bcast_S_S2x640x640 : S_.BroadcastsInDim S2x640x640 (![] : Fin 0 → Fin S2x640x640.rank)
  bcast_S2x640x640_S2x640x640x1_0_1_2 : S2x640x640.BroadcastsInDim S2x640x640x1 (![0, 1, 2] : Fin 3 → Fin S2x640x640x1.rank)
  pads_S2x640x640x64_S2x640x642x64_000_000_110_000 : S2x640x640x64.Pads (![0, 0, 1, 0] : Fin 4 → Nat) ![0, 0, 1, 0] ![0, 0, 0, 0] S2x640x642x64
  h_S_ : 0 < S_.numel
  slices_S2x640x640x64_S2x1x640x64_0_0_0_0 : S2x640x640x64.Slices ![0, 0, 0, 0] S2x1x640x64
  bcast_S_S2x1x640x64 : S_.BroadcastsInDim S2x1x640x64 (![] : Fin 0 → Fin S2x1x640x64.rank)
  slices_S2x640x640x64_S2x639x640x64_0_0_0_0 : S2x640x640x64.Slices ![0, 0, 0, 0] S2x639x640x64
  concatenates_S2x1x640x64_S2x639x640x64_S2x640x640x64_d1 : Shape.Concatenates [S2x1x640x64, S2x639x640x64] S2x640x640x64 1
  slices_S2x640x640x64_S2x639x640x64_0_1_0_0 : S2x640x640x64.Slices ![0, 1, 0, 0] S2x639x640x64
  concatenates_S2x639x640x64_S2x1x640x64_S2x640x640x64_d1 : Shape.Concatenates [S2x639x640x64, S2x1x640x64] S2x640x640x64 1
  shapeCasts_S64_S1x64 : S64.ShapeCasts S1x64
  inb_S3x3x64x64_S3x3x64x64_0_0_0_0 : ∀ a, (![0, 0, 0, 0] : Fin 4 → Nat) a + S3x3x64x64.size a ≤ S3x3x64x64.size a
  h_S3x3x64x64 : 0 < S3x3x64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x8x642x64_S1x8x642x64_0_0_0_0 : ∀ a, (![0, 0, 0, 0] : Fin 4 → Nat) a + S1x8x642x64.size a ≤ S1x8x642x64.size a
  h_S1x8x642x64 : 0 < S1x8x642x64.numel
  shapeCasts_S1x8x642x64_S8x642x64 : S1x8x642x64.ShapeCasts S8x642x64
  slices_S8x642x64_o0_0_0_S8x640x64 : S8x642x64.Slices ![0, 0, 0] S8x640x64
  shapeCasts_S8x640x64_S5120x64 : S8x640x64.ShapeCasts S5120x64
  slices_S3x3x64x64_o0_0_0_0_S1x1x64x64 : S3x3x64x64.Slices ![0, 0, 0, 0] S1x1x64x64
  shapeCasts_S1x1x64x64_S64x64 : S1x1x64x64.ShapeCasts S64x64
  slices_S8x642x64_o0_1_0_S8x640x64 : S8x642x64.Slices ![0, 1, 0] S8x640x64
  slices_S3x3x64x64_o0_1_0_0_S1x1x64x64 : S3x3x64x64.Slices ![0, 1, 0, 0] S1x1x64x64
  slices_S8x642x64_o0_2_0_S8x640x64 : S8x642x64.Slices ![0, 2, 0] S8x640x64
  slices_S3x3x64x64_o0_2_0_0_S1x1x64x64 : S3x3x64x64.Slices ![0, 2, 0, 0] S1x1x64x64
  slices_S3x3x64x64_o1_0_0_0_S1x1x64x64 : S3x3x64x64.Slices ![1, 0, 0, 0] S1x1x64x64
  slices_S3x3x64x64_o1_1_0_0_S1x1x64x64 : S3x3x64x64.Slices ![1, 1, 0, 0] S1x1x64x64
  slices_S3x3x64x64_o1_2_0_0_S1x1x64x64 : S3x3x64x64.Slices ![1, 2, 0, 0] S1x1x64x64
  slices_S3x3x64x64_o2_0_0_0_S1x1x64x64 : S3x3x64x64.Slices ![2, 0, 0, 0] S1x1x64x64
  slices_S3x3x64x64_o2_1_0_0_S1x1x64x64 : S3x3x64x64.Slices ![2, 1, 0, 0] S1x1x64x64
  slices_S3x3x64x64_o2_2_0_0_S1x1x64x64 : S3x3x64x64.Slices ![2, 2, 0, 0] S1x1x64x64
  broadcasts_S1x64_S5120x64 : S1x64.Broadcasts S5120x64
  inb_S1x8x640x1_S1x8x640x1_0_0_0_0 : ∀ a, (![0, 0, 0, 0] : Fin 4 → Nat) a + S1x8x640x1.size a ≤ S1x8x640x1.size a
  h_S1x8x640x1 : 0 < S1x8x640x1.numel
  shapeCasts_S1x8x640x1_S8x640x1 : S1x8x640x1.ShapeCasts S8x640x1
  shapeCasts_S8x640x1_S5120x1 : S8x640x1.ShapeCasts S5120x1
  broadcasts_S5120x1_S5120x64 : S5120x1.Broadcasts S5120x64
  shapeCasts_S5120x64_S8x640x64 : S5120x64.ShapeCasts S8x640x64
  inb_S1x8x640x64_S1x8x640x64_0_0_0_0 : ∀ a, (![0, 0, 0, 0] : Fin 4 → Nat) a + S1x8x640x64.size a ≤ S1x8x640x64.size a
  h_S1x8x640x64 : 0 < S1x8x640x64.numel
  shapeCasts_S1x8x640x64_S8x640x64 : S1x8x640x64.ShapeCasts S8x640x64
  shapeCasts_S8x640x64_S1x8x640x64 : S8x640x64.ShapeCasts S1x8x640x64
  packedbf16_S1x8x640x64_S1x8x640x64_0_0_0_0 : (Rect.unit (s := S1x8x640x64) ![0, 0, 0, 0] S1x8x640x64.size inb_S1x8x640x64_S1x8x640x64_0_0_0_0).PackedRows (EltTy.packing .bf16)
  inb_S8192x64_S8192x64_0_0 : ∀ a, (![0, 0] : Fin 2 → Nat) a + S8192x64.size a ≤ S8192x64.size a
  h_S8192x64 : 0 < S8192x64.numel
  inb_S64x64_S64x64_0_0 : ∀ a, (![0, 0] : Fin 2 → Nat) a + S64x64.size a ≤ S64x64.size a
  h_S64x64 : 0 < S64x64.numel
  shapeCasts_S8192x64_S8192x64 : S8192x64.ShapeCasts S8192x64
  scatter_S2x640x640x64_S409600x3_S409600x64_1_012_012_1_wf : ScatterDims.WF S2x640x640x64 S409600x3 S409600x64 [1] [0, 1, 2] [0, 1, 2] 1
  scatter_S2x640x640_S409600x3_S409600_n_012_012_1_wf : ScatterDims.WF S2x640x640 S409600x3 S409600 [] [0, 1, 2] [0, 1, 2] 1
  dot_S5120x64_S64x64_S5120x64_1_0_0_1_n_n_wf : DotDims.WF S5120x64 S64x64 S5120x64 [1] [0] [0] [1] [] []
  gather_S2x640x640x64_S409600x3_S409600x64_1_012_n_n_012_1_11164_wf : GatherDims.WF S2x640x640x64 S409600x3 S409600x64 [1] [0, 1, 2] [] [0, 1, 2] [] 1 ![1, 1, 1, 64]
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x642x64.size a ≤ S2x640x642x64.size a
  hwx0_0 : ∀ i : grid0.Coords, EltTy.bits .bf16 = 32 ∨ (Rect.block (s := S2x640x642x64) S1x8x642x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x642x64.size a ≤ S2x640x642x64.size a
  hwx0_1 : ∀ i : grid0.Coords, EltTy.bits .bf16 = 32 ∨ (Rect.block (s := S2x640x642x64) S1x8x642x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x642x64.size a ≤ S2x640x642x64.size a
  hwx0_2 : ∀ i : grid0.Coords, EltTy.bits .bf16 = 32 ∨ (Rect.block (s := S2x640x642x64) S1x8x642x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3x64x64.size a ≤ S3x3x64x64.size a
  hwx0_3 : ∀ i : grid0.Coords, EltTy.bits .f32 = 32 ∨ (Rect.block (s := S3x3x64x64) S3x3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x640x1.size a ≤ S2x640x640x1.size a
  hwx0_5 : ∀ i : grid0.Coords, EltTy.bits .f32 = 32 ∨ (Rect.block (s := S2x640x640x1) S1x8x640x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x640x64.size a ≤ S2x640x640x64.size a
  hwx0_6 : ∀ i : grid0.Coords, EltTy.bits .bf16 = 32 ∨ (Rect.block (s := S2x640x640x64) S1x8x640x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x642x64.size a ≤ S2x640x642x64.size a
  hwx1_0 : ∀ i : grid1.Coords, EltTy.bits .bf16 = 32 ∨ (Rect.block (s := S2x640x642x64) S1x8x642x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x642x64.size a ≤ S2x640x642x64.size a
  hwx1_1 : ∀ i : grid1.Coords, EltTy.bits .bf16 = 32 ∨ (Rect.block (s := S2x640x642x64) S1x8x642x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x642x64.size a ≤ S2x640x642x64.size a
  hwx1_2 : ∀ i : grid1.Coords, EltTy.bits .bf16 = 32 ∨ (Rect.block (s := S2x640x642x64) S1x8x642x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x3x64x64.size a ≤ S3x3x64x64.size a
  hwx1_3 : ∀ i : grid1.Coords, EltTy.bits .f32 = 32 ∨ (Rect.block (s := S3x3x64x64) S3x3x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x640x1.size a ≤ S2x640x640x1.size a
  hwx1_5 : ∀ i : grid1.Coords, EltTy.bits .f32 = 32 ∨ (Rect.block (s := S2x640x640x1) S1x8x640x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8x640x64.size a ≤ S2x640x640x64.size a
  hwx1_6 : ∀ i : grid1.Coords, EltTy.bits .f32 = 32 ∨ (Rect.block (s := S2x640x640x64) S1x8x640x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S409600x64.size a
  hwx2_0 : ∀ i : grid2.Coords, EltTy.bits .f32 = 32 ∨ (Rect.block (s := S409600x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S409600x64.size a
  hwx2_2 : ∀ i : grid2.Coords, EltTy.bits .f32 = 32 ∨ (Rect.block (s := S409600x64) S8192x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S409600x64.size a
  hwx2_3 : ∀ i : grid2.Coords, EltTy.bits .f32 = 32 ∨ (Rect.block (s := S409600x64) S8192x64.size (cc2_transform_3 i) (hinb2_3 i)).WholeWords (EltTy.packing .f32)

variable [Facts₀]

def scatter_S2x640x640x64_S409600x3_S409600x64_1_012_012_1 : ScatterDims S2x640x640x64 S409600x3 S409600x64 where
  updateWindowDims := [1]
  insertedWindowDims := [0, 1, 2]
  scatterDimsToOperandDims := [0, 1, 2]
  indexVectorDim := 1
  wf := scatter_S2x640x640x64_S409600x3_S409600x64_1_012_012_1_wf
def scatter_S2x640x640_S409600x3_S409600_n_012_012_1 : ScatterDims S2x640x640 S409600x3 S409600 where
  updateWindowDims := []
  insertedWindowDims := [0, 1, 2]
  scatterDimsToOperandDims := [0, 1, 2]
  indexVectorDim := 1
  wf := scatter_S2x640x640_S409600x3_S409600_n_012_012_1_wf
def dot_S5120x64_S64x64_S5120x64_1_0_0_1_n_n : DotDims S5120x64 S64x64 S5120x64 where
  lhsContracting := [1]
  rhsContracting := [0]
  lhsNonContracting := [0]
  rhsNonContracting := [1]
  lhsBatch := []
  rhsBatch := []
  wf := dot_S5120x64_S64x64_S5120x64_1_0_0_1_n_n_wf
def gather_S2x640x640x64_S409600x3_S409600x64_1_012_n_n_012_1_11164 : GatherDims S2x640x640x64 S409600x3 S409600x64 where
  offsetDims := [1]
  collapsedSliceDims := [0, 1, 2]
  operandBatchingDims := []
  startIndicesBatchingDims := []
  startIndexMap := [0, 1, 2]
  indexVectorDim := 1
  sliceSizes := ![1, 1, 1, 64]
  wf := gather_S2x640x640x64_S409600x3_S409600x64_1_012_n_n_012_1_11164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v62) S1x8x642x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S1x8x642x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S1x8x642x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S1x8x640x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v69) S1x8x640x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v75) S1x8x642x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S1x8x642x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v80) S1x8x642x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x3x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v81) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1x8x640x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v82) S1x8x640x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v108) S8192x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v109) S8192x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S409600x64 : Shape := ⟨2, ![409600, 64]⟩
abbrev S409600x3 : Shape := ⟨2, ![409600, 3]⟩
abbrev S3x3x64x64 : Shape := ⟨4, ![3, 3, 64, 64]⟩
abbrev S64 : Shape := ⟨1, ![64]⟩
abbrev S64x64 : Shape := ⟨2, ![64, 64]⟩
abbrev S_ : Shape := ⟨0, ![]⟩
abbrev S2x640x640 : Shape := ⟨3, ![2, 640, 640]⟩
abbrev S409600x1 : Shape := ⟨2, ![409600, 1]⟩
abbrev S409600 : Shape := ⟨1, ![409600]⟩
abbrev S1x1x64x64 : Shape := ⟨4, ![1, 1, 64, 64]⟩
abbrev S1x64 : Shape := ⟨2, ![1, 64]⟩

abbrev nBuf : Space → Nat
  | .hbm => 1695
  | .vmem => 0
  | .smem => 0
  | _ => 0

abbrev hbmTy0_0 (i : Nat) : BufTy := match i % 128 with
  | 0 => ⟨S409600x64, .f32⟩
  | 1 => ⟨S409600x3, .i32⟩
  | 2 => ⟨S3x3x64x64, .f32⟩
  | 3 => ⟨S64, .f32⟩
  | 4 => ⟨S3x3x64x64, .f32⟩
  | 5 => ⟨S64, .f32⟩
  | 6 => ⟨S64x64, .f32⟩
  | 7 => ⟨S_, .i32⟩
  | 8 => ⟨S2x640x640, .i32⟩
  | 9 => ⟨S409600x1, .i32⟩
  | 10 => ⟨S409600, .i32⟩
  | 11 => ⟨S409600x1, .i32⟩
  | 12 => ⟨S409600, .i32⟩
  | 13 => ⟨S409600x1, .i32⟩
  | 14 => ⟨S409600, .i32⟩
  | 15 => ⟨S409600, .i32⟩
  | 16 => ⟨S_, .i32⟩
  | 17 => ⟨S409600, .i32⟩
  | 18 => ⟨S409600, .i1⟩
  | 19 => ⟨S_, .i32⟩
  | 20 => ⟨S409600, .i32⟩
  | 21 => ⟨S409600, .i32⟩
  | 22 => ⟨S409600, .i32⟩
  | 23 => ⟨S_, .i32⟩
  | 24 => ⟨S409600, .i32⟩
  | 25 => ⟨S409600, .i1⟩
  | 26 => ⟨S_, .i32⟩
  | 27 => ⟨S409600, .i32⟩
  | 28 => ⟨S409600, .i32⟩
  | 29 => ⟨S409600, .i32⟩
  | 30 => ⟨S_, .i32⟩
  | 31 => ⟨S409600, .i32⟩
  | 32 => ⟨S409600, .i1⟩
  | 33 => ⟨S_, .i32⟩
  | 34 => ⟨S409600, .i32⟩
  | 35 => ⟨S409600, .i32⟩
  | 36 => ⟨S409600, .i32⟩
  | 37 => ⟨S409600x1, .i32⟩
  | 38 => ⟨S409600x1, .i32⟩
  | 39 => ⟨S409600x1, .i32⟩
  | 40 => ⟨S409600x3, .i32⟩
  | 41 => ⟨S2x640x640, .i32⟩
  | 42 => ⟨S409600x1, .i32⟩
  | 43 => ⟨S409600, .i32⟩
  | 44 => ⟨S409600x1, .i32⟩
  | 45 => ⟨S409600, .i32⟩
  | 46 => ⟨S409600x1, .i32⟩
  | 47 => ⟨S409600, .i32⟩
  | 48 => ⟨S_, .f32⟩
  | 49 => ⟨S409600x64, .f32⟩
  | 50 => ⟨S_, .i32⟩
  | 51 => ⟨S409600, .i32⟩
  | 52 => ⟨S409600, .i32⟩
  | 53 => ⟨S_, .i32⟩
  | 54 => ⟨S409600, .i32⟩
  | 55 => ⟨S409600, .i32⟩
  | 56 => ⟨S_, .i32⟩
  | 57 => ⟨S409600, .i32⟩
  | 58 => ⟨S409600, .i1⟩
  | 59 => ⟨S_, .i32⟩
  | 60 => ⟨S409600, .i32⟩
  | 61 => ⟨S409600, .i1⟩
  | 62 => ⟨S409600, .i1⟩
  | 63 => ⟨S_, .i32⟩
  | 64 => ⟨S409600, .i32⟩
  | 65 => ⟨S409600, .i1⟩
  | 66 => ⟨S409600, .i1⟩
  | 67 => ⟨S_, .i32⟩
  | 68 => ⟨S409600, .i32⟩
  | 69 => ⟨S409600, .i1⟩
  | 70 => ⟨S409600, .i1⟩
  | 71 => ⟨S_, .i32⟩
  | 72 => ⟨S_, .i32⟩
  | 73 => ⟨S_, .i32⟩
  | 74 => ⟨S409600, .i32⟩
  | 75 => ⟨S409600, .i32⟩
  | 76 => ⟨S_, .i32⟩
  | 77 => ⟨S409600, .i32⟩
  | 78 => ⟨S409600, .i32⟩
  | 79 => ⟨S_, .i32⟩
  | 80 => ⟨S_, .i32⟩
  | 81 => ⟨S_, .i32⟩
  | 82 => ⟨S409600, .i32⟩
  | 83 => ⟨S409600, .i32⟩
  | 84 => ⟨S_, .i32⟩
  | 85 => ⟨S409600, .i32⟩
  | 86 => ⟨S409600, .i32⟩
  | 87 => ⟨S_, .i32⟩
  | 88 => ⟨S409600, .i32⟩
  | 89 => ⟨S409600, .i1⟩
  | 90 => ⟨S_, .i32⟩
  | 91 => ⟨S409600, .i32⟩
  | 92 => ⟨S409600, .i32⟩
  | 93 => ⟨S409600, .i32⟩
  | 94 => ⟨S_, .i32⟩
  | 95 => ⟨S409600, .i32⟩
  | 96 => ⟨S409600, .i1⟩
  | 97 => ⟨S_, .i32⟩
  | 98 => ⟨S409600, .i32⟩
  | 99 => ⟨S409600, .i32⟩
  | 100 => ⟨S409600, .i32⟩
  | 101 => ⟨S_, .i32⟩
  | 102 => ⟨S409600, .i32⟩
  | 103 => ⟨S409600, .i1⟩
  | 104 => ⟨S_, .i32⟩
  | 105 => ⟨S409600, .i32⟩
  | 106 => ⟨S409600, .i32⟩
  | 107 => ⟨S409600, .i32⟩
  | 108 => ⟨S409600x1, .i32⟩
  | 109 => ⟨S409600x1, .i32⟩
  | 110 => ⟨S409600x1, .i32⟩
  | 111 => ⟨S409600x3, .i32⟩
  | 112 => ⟨S409600, .i32⟩
  | 113 => ⟨S_, .i32⟩
  | 114 => ⟨S409600, .i32⟩
  | 115 => ⟨S409600, .i1⟩
  | 116 => ⟨S409600, .i1⟩
  | 117 => ⟨S_, .i32⟩
  | 118 => ⟨S_, .i32⟩
  | 119 => ⟨S409600, .i32⟩
  | 120 => ⟨S409600, .i32⟩
  | 121 => ⟨S_, .i32⟩
  | 122 => ⟨S409600, .i32⟩
  | 123 => ⟨S409600, .i1⟩
  | 124 => ⟨S_, .i32⟩
  | 125 => ⟨S409600, .i32⟩
  | 126 => ⟨S409600, .i32⟩
  | 127 => ⟨S409600, .i32⟩
  | _ => ⟨S409600x64, .f32⟩

abbrev hbmTy0_1 (i : Nat) : BufTy := match i % 128 with
  | 0 => ⟨S409600x1, .i32⟩
  | 1 => ⟨S409600x64, .f32⟩
  | 2 => ⟨S409600x1, .i1⟩
  | 3 => ⟨S_, .f32⟩
  | 4 => ⟨S_, .f32⟩
  | 5 => ⟨S409600x64, .i1⟩
  | 6 => ⟨S409600x64, .f32⟩
  | 7 => ⟨S409600x64, .f32⟩
  | 8 => ⟨S1x1x64x64, .f32⟩
  | 9 => ⟨S64x64, .f32⟩
  | 10 => ⟨S409600x64, .f32⟩
  | 11 => ⟨S409600x64, .f32⟩
  | 12 => ⟨S_, .i32⟩
  | 13 => ⟨S409600, .i32⟩
  | 14 => ⟨S409600, .i32⟩
  | 15 => ⟨S_, .i32⟩
  | 16 => ⟨S409600, .i32⟩
  | 17 => ⟨S409600, .i32⟩
  | 18 => ⟨S_, .i32⟩
  | 19 => ⟨S409600, .i32⟩
  | 20 => ⟨S409600, .i1⟩
  | 21 => ⟨S_, .i32⟩
  | 22 => ⟨S409600, .i32⟩
  | 23 => ⟨S409600, .i1⟩
  | 24 => ⟨S409600, .i1⟩
  | 25 => ⟨S_, .i32⟩
  | 26 => ⟨S409600, .i32⟩
  | 27 => ⟨S409600, .i1⟩
  | 28 => ⟨S409600, .i1⟩
  | 29 => ⟨S_, .i32⟩
  | 30 => ⟨S409600, .i32⟩
  | 31 => ⟨S409600, .i1⟩
  | 32 => ⟨S409600, .i1⟩
  | 33 => ⟨S_, .i32⟩
  | 34 => ⟨S_, .i32⟩
  | 35 => ⟨S_, .i32⟩
  | 36 => ⟨S409600, .i32⟩
  | 37 => ⟨S409600, .i32⟩
  | 38 => ⟨S_, .i32⟩
  | 39 => ⟨S409600, .i32⟩
  | 40 => ⟨S409600, .i32⟩
  | 41 => ⟨S_, .i32⟩
  | 42 => ⟨S_, .i32⟩
  | 43 => ⟨S_, .i32⟩
  | 44 => ⟨S409600, .i32⟩
  | 45 => ⟨S409600, .i32⟩
  | 46 => ⟨S_, .i32⟩
  | 47 => ⟨S409600, .i32⟩
  | 48 => ⟨S409600, .i32⟩
  | 49 => ⟨S_, .i32⟩
  | 50 => ⟨S409600, .i32⟩
  | 51 => ⟨S409600, .i1⟩
  | 52 => ⟨S_, .i32⟩
  | 53 => ⟨S409600, .i32⟩
  | 54 => ⟨S409600, .i32⟩
  | 55 => ⟨S409600, .i32⟩
  | 56 => ⟨S_, .i32⟩
  | 57 => ⟨S409600, .i32⟩
  | 58 => ⟨S409600, .i1⟩
  | 59 => ⟨S_, .i32⟩
  | 60 => ⟨S409600, .i32⟩
  | 61 => ⟨S409600, .i32⟩
  | 62 => ⟨S409600, .i32⟩
  | 63 => ⟨S_, .i32⟩
  | 64 => ⟨S409600, .i32⟩
  | 65 => ⟨S409600, .i1⟩
  | 66 => ⟨S_, .i32⟩
  | 67 => ⟨S409600, .i32⟩
  | 68 => ⟨S409600, .i32⟩
  | 69 => ⟨S409600, .i32⟩
  | 70 => ⟨S409600x1, .i32⟩
  | 71 => ⟨S409600x1, .i32⟩
  | 72 => ⟨S409600x1, .i32⟩
  | 73 => ⟨S409600x3, .i32⟩
  | 74 => ⟨S409600, .i32⟩
  | 75 => ⟨S_, .i32⟩
  | 76 => ⟨S409600, .i32⟩
  | 77 => ⟨S409600, .i1⟩
  | 78 => ⟨S409600, .i1⟩
  | 79 => ⟨S_, .i32⟩
  | 80 => ⟨S_, .i32⟩
  | 81 => ⟨S409600, .i32⟩
  | 82 => ⟨S409600, .i32⟩
  | 83 => ⟨S_, .i32⟩
  | 84 => ⟨S409600, .i32⟩
  | 85 => ⟨S409600, .i1⟩
  | 86 => ⟨S_, .i32⟩
  | 87 => ⟨S409600, .i32⟩
  | 88 => ⟨S409600, .i32⟩
  | 89 => ⟨S409600, .i32⟩
  | 90 => ⟨S409600x1, .i32⟩
  | 91 => ⟨S409600x64, .f32⟩
  | 92 => ⟨S409600x1, .i1⟩
  | 93 => ⟨S_, .f32⟩
  | 94 => ⟨S_, .f32⟩
  | 95 => ⟨S409600x64, .i1⟩
  | 96 => ⟨S409600x64, .f32⟩
  | 97 => ⟨S409600x64, .f32⟩
  | 98 => ⟨S1x1x64x64, .f32⟩
  | 99 => ⟨S64x64, .f32⟩
  | 100 => ⟨S409600x64, .f32⟩
  | 101 => ⟨S409600x64, .f32⟩
  | 102 => ⟨S_, .i32⟩
  | 103 => ⟨S409600, .i32⟩
  | 104 => ⟨S409600, .i32⟩
  | 105 => ⟨S_, .i32⟩
  | 106 => ⟨S409600, .i32⟩
  | 107 => ⟨S409600, .i32⟩
  | 108 => ⟨S_, .i32⟩
  | 109 => ⟨S409600, .i32⟩
  | 110 => ⟨S409600, .i1⟩
  | 111 => ⟨S_, .i32⟩
  | 112 => ⟨S409600, .i32⟩
  | 113 => ⟨S409600, .i1⟩
  | 114 => ⟨S409600, .i1⟩
  | 115 => ⟨S_, .i32⟩
  | 116 => ⟨S409600, .i32⟩
  | 117 => ⟨S409600, .i1⟩
  | 118 => ⟨S409600, .i1⟩
  | 119 => ⟨S_, .i32⟩
  | 120 => ⟨S409600, .i32⟩
  | 121 => ⟨S409600, .i1⟩
  | 122 => ⟨S409600, .i1⟩
  | 123 => ⟨S_, .i32⟩
  | 124 => ⟨S_, .i32⟩
  | 125 => ⟨S_, .i32⟩
  | 126 => ⟨S409600, .i32⟩
  | 127 => ⟨S409600, .i32⟩
  | _ => ⟨S409600x64, .f32⟩

abbrev hbmTy0_2 (i : Nat) : BufTy := match i % 128 with
  | 0 => ⟨S_, .i32⟩
  | 1 => ⟨S409600, .i32⟩
  | 2 => ⟨S409600, .i32⟩
  | 3 => ⟨S_, .i32⟩
  | 4 => ⟨S_, .i32⟩
  | 5 => ⟨S_, .i32⟩
  | 6 => ⟨S409600, .i32⟩
  | 7 => ⟨S409600, .i32⟩
  | 8 => ⟨S_, .i32⟩
  | 9 => ⟨S409600, .i32⟩
  | 10 => ⟨S409600, .i32⟩
  | 11 => ⟨S_, .i32⟩
  | 12 => ⟨S409600, .i32⟩
  | 13 => ⟨S409600, .i1⟩
  | 14 => ⟨S_, .i32⟩
  | 15 => ⟨S409600, .i32⟩
  | 16 => ⟨S409600, .i32⟩
  | 17 => ⟨S409600, .i32⟩
  | 18 => ⟨S_, .i32⟩
  | 19 => ⟨S409600, .i32⟩
  | 20 => ⟨S409600, .i1⟩
  | 21 => ⟨S_, .i32⟩
  | 22 => ⟨S409600, .i32⟩
  | 23 => ⟨S409600, .i32⟩
  | 24 => ⟨S409600, .i32⟩
  | 25 => ⟨S_, .i32⟩
  | 26 => ⟨S409600, .i32⟩
  | 27 => ⟨S409600, .i1⟩
  | 28 => ⟨S_, .i32⟩
  | 29 => ⟨S409600, .i32⟩
  | 30 => ⟨S409600, .i32⟩
  | 31 => ⟨S409600, .i32⟩
  | 32 => ⟨S409600x1, .i32⟩
  | 33 => ⟨S409600x1, .i32⟩
  | 34 => ⟨S409600x1, .i32⟩
  | 35 => ⟨S409600x3, .i32⟩
  | 36 => ⟨S409600, .i32⟩
  | 37 => ⟨S_, .i32⟩
  | 38 => ⟨S409600, .i32⟩
  | 39 => ⟨S409600, .i1⟩
  | 40 => ⟨S409600, .i1⟩
  | 41 => ⟨S_, .i32⟩
  | 42 => ⟨S_, .i32⟩
  | 43 => ⟨S409600, .i32⟩
  | 44 => ⟨S409600, .i32⟩
  | 45 => ⟨S_, .i32⟩
  | 46 => ⟨S409600, .i32⟩
  | 47 => ⟨S409600, .i1⟩
  | 48 => ⟨S_, .i32⟩
  | 49 => ⟨S409600, .i32⟩
  | 50 => ⟨S409600, .i32⟩
  | 51 => ⟨S409600, .i32⟩
  | 52 => ⟨S409600x1, .i32⟩
  | 53 => ⟨S409600x64, .f32⟩
  | 54 => ⟨S409600x1, .i1⟩
  | 55 => ⟨S_, .f32⟩
  | 56 => ⟨S_, .f32⟩
  | 57 => ⟨S409600x64, .i1⟩
  | 58 => ⟨S409600x64, .f32⟩
  | 59 => ⟨S409600x64, .f32⟩
  | 60 => ⟨S1x1x64x64, .f32⟩
  | 61 => ⟨S64x64, .f32⟩
  | 62 => ⟨S409600x64, .f32⟩
  | 63 => ⟨S409600x64, .f32⟩
  | 64 => ⟨S_, .i32⟩
  | 65 => ⟨S409600, .i32⟩
  | 66 => ⟨S409600, .i32⟩
  | 67 => ⟨S_, .i32⟩
  | 68 => ⟨S409600, .i32⟩
  | 69 => ⟨S409600, .i32⟩
  | 70 => ⟨S_, .i32⟩
  | 71 => ⟨S409600, .i32⟩
  | 72 => ⟨S409600, .i1⟩
  | 73 => ⟨S_, .i32⟩
  | 74 => ⟨S409600, .i32⟩
  | 75 => ⟨S409600, .i1⟩
  | 76 => ⟨S409600, .i1⟩
  | 77 => ⟨S_, .i32⟩
  | 78 => ⟨S409600, .i32⟩
  | 79 => ⟨S409600, .i1⟩
  | 80 => ⟨S409600, .i1⟩
  | 81 => ⟨S_, .i32⟩
  | 82 => ⟨S409600, .i32⟩
  | 83 => ⟨S409600, .i1⟩
  | 84 => ⟨S409600, .i1⟩
  | 85 => ⟨S_, .i32⟩
  | 86 => ⟨S_, .i32⟩
  | 87 => ⟨S_, .i32⟩
  | 88 => ⟨S409600, .i32⟩
  | 89 => ⟨S409600, .i32⟩
  | 90 => ⟨S_, .i32⟩
  | 91 => ⟨S409600, .i32⟩
  | 92 => ⟨S409600, .i32⟩
  | 93 => ⟨S_, .i32⟩
  | 94 => ⟨S_, .i32⟩
  | 95 => ⟨S_, .i32⟩
  | 96 => ⟨S409600, .i32⟩
  | 97 => ⟨S409600, .i32⟩
  | 98 => ⟨S_, .i32⟩
  | 99 => ⟨S409600, .i32⟩
  | 100 => ⟨S409600, .i32⟩
  | 101 => ⟨S_, .i32⟩
  | 102 => ⟨S409600, .i32⟩
  | 103 => ⟨S409600, .i1⟩
  | 104 => ⟨S_, .i32⟩
  | 105 => ⟨S409600, .i32⟩
  | 106 => ⟨S409600, .i32⟩
  | 107 => ⟨S409600, .i32⟩
  | 108 => ⟨S_, .i32⟩
  | 109 => ⟨S409600, .i32⟩
  | 110 => ⟨S409600, .i1⟩
  | 111 => ⟨S_, .i32⟩
  | 112 => ⟨S409600, .i32⟩
  | 113 => ⟨S409600, .i32⟩
  | 114 => ⟨S409600, .i32⟩
  | 115 => ⟨S_, .i32⟩
  | 116 => ⟨S409600, .i32⟩
  | 117 => ⟨S409600, .i1⟩
  | 118 => ⟨S_, .i32⟩
  | 119 => ⟨S409600, .i32⟩
  | 120 => ⟨S409600, .i32⟩
  | 121 => ⟨S409600, .i32⟩
  | 122 => ⟨S409600x1, .i32⟩
  | 123 => ⟨S409600x1, .i32⟩
  | 124 => ⟨S409600x1, .i32⟩
  | 125 => ⟨S409600x3, .i32⟩
  | 126 => ⟨S409600, .i32⟩
  | 127 => ⟨S_, .i32⟩
  | _ => ⟨S409600x64, .f32⟩

abbrev hbmTy0_3 (i : Nat) : BufTy := match i % 128 with
  | 0 => ⟨S409600, .i32⟩
  | 1 => ⟨S409600, .i1⟩
  | 2 => ⟨S409600, .i1⟩
  | 3 => ⟨S_, .i32⟩
  | 4 => ⟨S_, .i32⟩
  | 5 => ⟨S409600, .i32⟩
  | 6 => ⟨S409600, .i32⟩
  | 7 => ⟨S_, .i32⟩
  | 8 => ⟨S409600, .i32⟩
  | 9 => ⟨S409600, .i1⟩
  | 10 => ⟨S_, .i32⟩
  | 11 => ⟨S409600, .i32⟩
  | 12 => ⟨S409600, .i32⟩
  | 13 => ⟨S409600, .i32⟩
  | 14 => ⟨S409600x1, .i32⟩
  | 15 => ⟨S409600x64, .f32⟩
  | 16 => ⟨S409600x1, .i1⟩
  | 17 => ⟨S_, .f32⟩
  | 18 => ⟨S_, .f32⟩
  | 19 => ⟨S409600x64, .i1⟩
  | 20 => ⟨S409600x64, .f32⟩
  | 21 => ⟨S409600x64, .f32⟩
  | 22 => ⟨S1x1x64x64, .f32⟩
  | 23 => ⟨S64x64, .f32⟩
  | 24 => ⟨S409600x64, .f32⟩
  | 25 => ⟨S409600x64, .f32⟩
  | 26 => ⟨S_, .i32⟩
  | 27 => ⟨S409600, .i32⟩
  | 28 => ⟨S409600, .i32⟩
  | 29 => ⟨S_, .i32⟩
  | 30 => ⟨S409600, .i32⟩
  | 31 => ⟨S409600, .i32⟩
  | 32 => ⟨S_, .i32⟩
  | 33 => ⟨S409600, .i32⟩
  | 34 => ⟨S409600, .i1⟩
  | 35 => ⟨S_, .i32⟩
  | 36 => ⟨S409600, .i32⟩
  | 37 => ⟨S409600, .i1⟩
  | 38 => ⟨S409600, .i1⟩
  | 39 => ⟨S_, .i32⟩
  | 40 => ⟨S409600, .i32⟩
  | 41 => ⟨S409600, .i1⟩
  | 42 => ⟨S409600, .i1⟩
  | 43 => ⟨S_, .i32⟩
  | 44 => ⟨S409600, .i32⟩
  | 45 => ⟨S409600, .i1⟩
  | 46 => ⟨S409600, .i1⟩
  | 47 => ⟨S_, .i32⟩
  | 48 => ⟨S_, .i32⟩
  | 49 => ⟨S_, .i32⟩
  | 50 => ⟨S409600, .i32⟩
  | 51 => ⟨S409600, .i32⟩
  | 52 => ⟨S_, .i32⟩
  | 53 => ⟨S409600, .i32⟩
  | 54 => ⟨S409600, .i32⟩
  | 55 => ⟨S_, .i32⟩
  | 56 => ⟨S_, .i32⟩
  | 57 => ⟨S_, .i32⟩
  | 58 => ⟨S409600, .i32⟩
  | 59 => ⟨S409600, .i32⟩
  | 60 => ⟨S_, .i32⟩
  | 61 => ⟨S409600, .i32⟩
  | 62 => ⟨S409600, .i32⟩
  | 63 => ⟨S_, .i32⟩
  | 64 => ⟨S409600, .i32⟩
  | 65 => ⟨S409600, .i1⟩
  | 66 => ⟨S_, .i32⟩
  | 67 => ⟨S409600, .i32⟩
  | 68 => ⟨S409600, .i32⟩
  | 69 => ⟨S409600, .i32⟩
  | 70 => ⟨S_, .i32⟩
  | 71 => ⟨S409600, .i32⟩
  | 72 => ⟨S409600, .i1⟩
  | 73 => ⟨S_, .i32⟩
  | 74 => ⟨S409600, .i32⟩
  | 75 => ⟨S409600, .i32⟩
  | 76 => ⟨S409600, .i32⟩
  | 77 => ⟨S_, .i32⟩
  | 78 => ⟨S409600, .i32⟩
  | 79 => ⟨S409600, .i1⟩
  | 80 => ⟨S_, .i32⟩
  | 81 => ⟨S409600, .i32⟩
  | 82 => ⟨S409600, .i32⟩
  | 83 => ⟨S409600, .i32⟩
  | 84 => ⟨S409600x1, .i32⟩
  | 85 => ⟨S409600x1, .i32⟩
  | 86 => ⟨S409600x1, .i32⟩
  | 87 => ⟨S409600x3, .i32⟩
  | 88 => ⟨S409600, .i32⟩
  | 89 => ⟨S_, .i32⟩
  | 90 => ⟨S409600, .i32⟩
  | 91 => ⟨S409600, .i1⟩
  | 92 => ⟨S409600, .i1⟩
  | 93 => ⟨S_, .i32⟩
  | 94 => ⟨S_, .i32⟩
  | 95 => ⟨S409600, .i32⟩
  | 96 => ⟨S409600, .i32⟩
  | 97 => ⟨S_, .i32⟩
  | 98 => ⟨S409600, .i32⟩
  | 99 => ⟨S409600, .i1⟩
  | 100 => ⟨S_, .i32⟩
  | 101 => ⟨S409600, .i32⟩
  | 102 => ⟨S409600, .i32⟩
  | 103 => ⟨S409600, .i32⟩
  | 104 => ⟨S409600x1, .i32⟩
  | 105 => ⟨S409600x64, .f32⟩
  | 106 => ⟨S409600x1, .i1⟩
  | 107 => ⟨S_, .f32⟩
  | 108 => ⟨S_, .f32⟩
  | 109 => ⟨S409600x64, .i1⟩
  | 110 => ⟨S409600x64, .f32⟩
  | 111 => ⟨S409600x64, .f32⟩
  | 112 => ⟨S1x1x64x64, .f32⟩
  | 113 => ⟨S64x64, .f32⟩
  | 114 => ⟨S409600x64, .f32⟩
  | 115 => ⟨S409600x64, .f32⟩
  | 116 => ⟨S_, .i32⟩
  | 117 => ⟨S409600, .i32⟩
  | 118 => ⟨S409600, .i32⟩
  | 119 => ⟨S_, .i32⟩
  | 120 => ⟨S409600, .i32⟩
  | 121 => ⟨S409600, .i32⟩
  | 122 => ⟨S_, .i32⟩
  | 123 => ⟨S409600, .i32⟩
  | 124 => ⟨S409600, .i1⟩
  | 125 => ⟨S_, .i32⟩
  | 126 => ⟨S409600, .i32⟩
  | 127 => ⟨S409600, .i1⟩
  | _ => ⟨S409600x64, .f32⟩

abbrev hbmTy0_4 (i : Nat) : BufTy := match i % 128 with
  | 0 => ⟨S409600, .i1⟩
  | 1 => ⟨S_, .i32⟩
  | 2 => ⟨S409600, .i32⟩
  | 3 => ⟨S409600, .i1⟩
  | 4 => ⟨S409600, .i1⟩
  | 5 => ⟨S_, .i32⟩
  | 6 => ⟨S409600, .i32⟩
  | 7 => ⟨S409600, .i1⟩
  | 8 => ⟨S409600, .i1⟩
  | 9 => ⟨S_, .i32⟩
  | 10 => ⟨S_, .i32⟩
  | 11 => ⟨S_, .i32⟩
  | 12 => ⟨S409600, .i32⟩
  | 13 => ⟨S409600, .i32⟩
  | 14 => ⟨S_, .i32⟩
  | 15 => ⟨S409600, .i32⟩
  | 16 => ⟨S409600, .i32⟩
  | 17 => ⟨S_, .i32⟩
  | 18 => ⟨S_, .i32⟩
  | 19 => ⟨S_, .i32⟩
  | 20 => ⟨S409600, .i32⟩
  | 21 => ⟨S409600, .i32⟩
  | 22 => ⟨S_, .i32⟩
  | 23 => ⟨S409600, .i32⟩
  | 24 => ⟨S409600, .i32⟩
  | 25 => ⟨S_, .i32⟩
  | 26 => ⟨S409600, .i32⟩
  | 27 => ⟨S409600, .i1⟩
  | 28 => ⟨S_, .i32⟩
  | 29 => ⟨S409600, .i32⟩
  | 30 => ⟨S409600, .i32⟩
  | 31 => ⟨S409600, .i32⟩
  | 32 => ⟨S_, .i32⟩
  | 33 => ⟨S409600, .i32⟩
  | 34 => ⟨S409600, .i1⟩
  | 35 => ⟨S_, .i32⟩
  | 36 => ⟨S409600, .i32⟩
  | 37 => ⟨S409600, .i32⟩
  | 38 => ⟨S409600, .i32⟩
  | 39 => ⟨S_, .i32⟩
  | 40 => ⟨S409600, .i32⟩
  | 41 => ⟨S409600, .i1⟩
  | 42 => ⟨S_, .i32⟩
  | 43 => ⟨S409600, .i32⟩
  | 44 => ⟨S409600, .i32⟩
  | 45 => ⟨S409600, .i32⟩
  | 46 => ⟨S409600x1, .i32⟩
  | 47 => ⟨S409600x1, .i32⟩
  | 48 => ⟨S409600x1, .i32⟩
  | 49 => ⟨S409600x3, .i32⟩
  | 50 => ⟨S409600, .i32⟩
  | 51 => ⟨S_, .i32⟩
  | 52 => ⟨S409600, .i32⟩
  | 53 => ⟨S409600, .i1⟩
  | 54 => ⟨S409600, .i1⟩
  | 55 => ⟨S_, .i32⟩
  | 56 => ⟨S_, .i32⟩
  | 57 => ⟨S409600, .i32⟩
  | 58 => ⟨S409600, .i32⟩
  | 59 => ⟨S_, .i32⟩
  | 60 => ⟨S409600, .i32⟩
  | 61 => ⟨S409600, .i1⟩
  | 62 => ⟨S_, .i32⟩
  | 63 => ⟨S409600, .i32⟩
  | 64 => ⟨S409600, .i32⟩
  | 65 => ⟨S409600, .i32⟩
  | 66 => ⟨S409600x1, .i32⟩
  | 67 => ⟨S409600x64, .f32⟩
  | 68 => ⟨S409600x1, .i1⟩
  | 69 => ⟨S_, .f32⟩
  | 70 => ⟨S_, .f32⟩
  | 71 => ⟨S409600x64, .i1⟩
  | 72 => ⟨S409600x64, .f32⟩
  | 73 => ⟨S409600x64, .f32⟩
  | 74 => ⟨S1x1x64x64, .f32⟩
  | 75 => ⟨S64x64, .f32⟩
  | 76 => ⟨S409600x64, .f32⟩
  | 77 => ⟨S409600x64, .f32⟩
  | 78 => ⟨S_, .i32⟩
  | 79 => ⟨S409600, .i32⟩
  | 80 => ⟨S409600, .i32⟩
  | 81 => ⟨S_, .i32⟩
  | 82 => ⟨S409600, .i32⟩
  | 83 => ⟨S409600, .i32⟩
  | 84 => ⟨S_, .i32⟩
  | 85 => ⟨S409600, .i32⟩
  | 86 => ⟨S409600, .i1⟩
  | 87 => ⟨S_, .i32⟩
  | 88 => ⟨S409600, .i32⟩
  | 89 => ⟨S409600, .i1⟩
  | 90 => ⟨S409600, .i1⟩
  | 91 => ⟨S_, .i32⟩
  | 92 => ⟨S409600, .i32⟩
  | 93 => ⟨S409600, .i1⟩
  | 94 => ⟨S409600, .i1⟩
  | 95 => ⟨S_, .i32⟩
  | 96 => ⟨S409600, .i32⟩
  | 97 => ⟨S409600, .i1⟩
  | 98 => ⟨S409600, .i1⟩
  | 99 => ⟨S_, .i32⟩
  | 100 => ⟨S_, .i32⟩
  | 101 => ⟨S_, .i32⟩
  | 102 => ⟨S409600, .i32⟩
  | 103 => ⟨S409600, .i32⟩
  | 104 => ⟨S_, .i32⟩
  | 105 => ⟨S409600, .i32⟩
  | 106 => ⟨S409600, .i32⟩
  | 107 => ⟨S_, .i32⟩
  | 108 => ⟨S_, .i32⟩
  | 109 => ⟨S_, .i32⟩
  | 110 => ⟨S409600, .i32⟩
  | 111 => ⟨S409600, .i32⟩
  | 112 => ⟨S_, .i32⟩
  | 113 => ⟨S409600, .i32⟩
  | 114 => ⟨S409600, .i32⟩
  | 115 => ⟨S_, .i32⟩
  | 116 => ⟨S409600, .i32⟩
  | 117 => ⟨S409600, .i1⟩
  | 118 => ⟨S_, .i32⟩
  | 119 => ⟨S409600, .i32⟩
  | 120 => ⟨S409600, .i32⟩
  | 121 => ⟨S409600, .i32⟩
  | 122 => ⟨S_, .i32⟩
  | 123 => ⟨S409600, .i32⟩
  | 124 => ⟨S409600, .i1⟩
  | 125 => ⟨S_, .i32⟩
  | 126 => ⟨S409600, .i32⟩
  | 127 => ⟨S409600, .i32⟩
  | _ => ⟨S409600x64, .f32⟩

abbrev hbmTy0_5 (i : Nat) : BufTy := match i % 128 with
  | 0 => ⟨S409600, .i32⟩
  | 1 => ⟨S_, .i32⟩
  | 2 => ⟨S409600, .i32⟩
  | 3 => ⟨S409600, .i1⟩
  | 4 => ⟨S_, .i32⟩
  | 5 => ⟨S409600, .i32⟩
  | 6 => ⟨S409600, .i32⟩
  | 7 => ⟨S409600, .i32⟩
  | 8 => ⟨S409600x1, .i32⟩
  | 9 => ⟨S409600x1, .i32⟩
  | 10 => ⟨S409600x1, .i32⟩
  | 11 => ⟨S409600x3, .i32⟩
  | 12 => ⟨S409600, .i32⟩
  | 13 => ⟨S_, .i32⟩
  | 14 => ⟨S409600, .i32⟩
  | 15 => ⟨S409600, .i1⟩
  | 16 => ⟨S409600, .i1⟩
  | 17 => ⟨S_, .i32⟩
  | 18 => ⟨S_, .i32⟩
  | 19 => ⟨S409600, .i32⟩
  | 20 => ⟨S409600, .i32⟩
  | 21 => ⟨S_, .i32⟩
  | 22 => ⟨S409600, .i32⟩
  | 23 => ⟨S409600, .i1⟩
  | 24 => ⟨S_, .i32⟩
  | 25 => ⟨S409600, .i32⟩
  | 26 => ⟨S409600, .i32⟩
  | 27 => ⟨S409600, .i32⟩
  | 28 => ⟨S409600x1, .i32⟩
  | 29 => ⟨S409600x64, .f32⟩
  | 30 => ⟨S409600x1, .i1⟩
  | 31 => ⟨S_, .f32⟩
  | 32 => ⟨S_, .f32⟩
  | 33 => ⟨S409600x64, .i1⟩
  | 34 => ⟨S409600x64, .f32⟩
  | 35 => ⟨S409600x64, .f32⟩
  | 36 => ⟨S1x1x64x64, .f32⟩
  | 37 => ⟨S64x64, .f32⟩
  | 38 => ⟨S409600x64, .f32⟩
  | 39 => ⟨S409600x64, .f32⟩
  | 40 => ⟨S_, .i32⟩
  | 41 => ⟨S409600, .i32⟩
  | 42 => ⟨S409600, .i32⟩
  | 43 => ⟨S_, .i32⟩
  | 44 => ⟨S409600, .i32⟩
  | 45 => ⟨S409600, .i32⟩
  | 46 => ⟨S_, .i32⟩
  | 47 => ⟨S409600, .i32⟩
  | 48 => ⟨S409600, .i1⟩
  | 49 => ⟨S_, .i32⟩
  | 50 => ⟨S409600, .i32⟩
  | 51 => ⟨S409600, .i1⟩
  | 52 => ⟨S409600, .i1⟩
  | 53 => ⟨S_, .i32⟩
  | 54 => ⟨S409600, .i32⟩
  | 55 => ⟨S409600, .i1⟩
  | 56 => ⟨S409600, .i1⟩
  | 57 => ⟨S_, .i32⟩
  | 58 => ⟨S409600, .i32⟩
  | 59 => ⟨S409600, .i1⟩
  | 60 => ⟨S409600, .i1⟩
  | 61 => ⟨S_, .i32⟩
  | 62 => ⟨S_, .i32⟩
  | 63 => ⟨S_, .i32⟩
  | 64 => ⟨S409600, .i32⟩
  | 65 => ⟨S409600, .i32⟩
  | 66 => ⟨S_, .i32⟩
  | 67 => ⟨S409600, .i32⟩
  | 68 => ⟨S409600, .i32⟩
  | 69 => ⟨S_, .i32⟩
  | 70 => ⟨S_, .i32⟩
  | 71 => ⟨S_, .i32⟩
  | 72 => ⟨S409600, .i32⟩
  | 73 => ⟨S409600, .i32⟩
  | 74 => ⟨S_, .i32⟩
  | 75 => ⟨S409600, .i32⟩
  | 76 => ⟨S409600, .i32⟩
  | 77 => ⟨S_, .i32⟩
  | 78 => ⟨S409600, .i32⟩
  | 79 => ⟨S409600, .i1⟩
  | 80 => ⟨S_, .i32⟩
  | 81 => ⟨S409600, .i32⟩
  | 82 => ⟨S409600, .i32⟩
  | 83 => ⟨S409600, .i32⟩
  | 84 => ⟨S_, .i32⟩
  | 85 => ⟨S409600, .i32⟩
  | 86 => ⟨S409600, .i1⟩
  | 87 => ⟨S_, .i32⟩
  | 88 => ⟨S409600, .i32⟩
  | 89 => ⟨S409600, .i32⟩
  | 90 => ⟨S409600, .i32⟩
  | 91 => ⟨S_, .i32⟩
  | 92 => ⟨S409600, .i32⟩
  | 93 => ⟨S409600, .i1⟩
  | 94 => ⟨S_, .i32⟩
  | 95 => ⟨S409600, .i32⟩
  | 96 => ⟨S409600, .i32⟩
  | 97 => ⟨S409600, .i32⟩
  | 98 => ⟨S409600x1, .i32⟩
  | 99 => ⟨S409600x1, .i32⟩
  | 100 => ⟨S409600x1, .i32⟩
  | 101 => ⟨S409600x3, .i32⟩
  | 102 => ⟨S409600, .i32⟩
  | 103 => ⟨S_, .i32⟩
  | 104 => ⟨S409600, .i32⟩
  | 105 => ⟨S409600, .i1⟩
  | 106 => ⟨S409600, .i1⟩
  | 107 => ⟨S_, .i32⟩
  | 108 => ⟨S_, .i32⟩
  | 109 => ⟨S409600, .i32⟩
  | 110 => ⟨S409600, .i32⟩
  | 111 => ⟨S_, .i32⟩
  | 112 => ⟨S409600, .i32⟩
  | 113 => ⟨S409600, .i1⟩
  | 114 => ⟨S_, .i32⟩
  | 115 => ⟨S409600, .i32⟩
  | 116 => ⟨S409600, .i32⟩
  | 117 => ⟨S409600, .i32⟩
  | 118 => ⟨S409600x1, .i32⟩
  | 119 => ⟨S409600x64, .f32⟩
  | 120 => ⟨S409600x1, .i1⟩
  | 121 => ⟨S_, .f32⟩
  | 122 => ⟨S_, .f32⟩
  | 123 => ⟨S409600x64, .i1⟩
  | 124 => ⟨S409600x64, .f32⟩
  | 125 => ⟨S409600x64, .f32⟩
  | 126 => ⟨S1x1x64x64, .f32⟩
  | 127 => ⟨S64x64, .f32⟩
  | _ => ⟨S409600x64, .f32⟩

abbrev hbmTy0_6 (i : Nat) : BufTy := match i % 128 with
  | 0 => ⟨S409600x64, .f32⟩
  | 1 => ⟨S409600x64, .f32⟩
  | 2 => ⟨S_, .i32⟩
  | 3 => ⟨S409600, .i32⟩
  | 4 => ⟨S409600, .i32⟩
  | 5 => ⟨S_, .i32⟩
  | 6 => ⟨S409600, .i32⟩
  | 7 => ⟨S409600, .i32⟩
  | 8 => ⟨S_, .i32⟩
  | 9 => ⟨S409600, .i32⟩
  | 10 => ⟨S409600, .i1⟩
  | 11 => ⟨S_, .i32⟩
  | 12 => ⟨S409600, .i32⟩
  | 13 => ⟨S409600, .i1⟩
  | 14 => ⟨S409600, .i1⟩
  | 15 => ⟨S_, .i32⟩
  | 16 => ⟨S409600, .i32⟩
  | 17 => ⟨S409600, .i1⟩
  | 18 => ⟨S409600, .i1⟩
  | 19 => ⟨S_, .i32⟩
  | 20 => ⟨S409600, .i32⟩
  | 21 => ⟨S409600, .i1⟩
  | 22 => ⟨S409600, .i1⟩
  | 23 => ⟨S_, .i32⟩
  | 24 => ⟨S_, .i32⟩
  | 25 => ⟨S_, .i32⟩
  | 26 => ⟨S409600, .i32⟩
  | 27 => ⟨S409600, .i32⟩
  | 28 => ⟨S_, .i32⟩
  | 29 => ⟨S409600, .i32⟩
  | 30 => ⟨S409600, .i32⟩
  | 31 => ⟨S_, .i32⟩
  | 32 => ⟨S_, .i32⟩
  | 33 => ⟨S_, .i32⟩
  | 34 => ⟨S409600, .i32⟩
  | 35 => ⟨S409600, .i32⟩
  | 36 => ⟨S_, .i32⟩
  | 37 => ⟨S409600, .i32⟩
  | 38 => ⟨S409600, .i32⟩
  | 39 => ⟨S_, .i32⟩
  | 40 => ⟨S409600, .i32⟩
  | 41 => ⟨S409600, .i1⟩
  | 42 => ⟨S_, .i32⟩
  | 43 => ⟨S409600, .i32⟩
  | 44 => ⟨S409600, .i32⟩
  | 45 => ⟨S409600, .i32⟩
  | 46 => ⟨S_, .i32⟩
  | 47 => ⟨S409600, .i32⟩
  | 48 => ⟨S409600, .i1⟩
  | 49 => ⟨S_, .i32⟩
  | 50 => ⟨S409600, .i32⟩
  | 51 => ⟨S409600, .i32⟩
  | 52 => ⟨S409600, .i32⟩
  | 53 => ⟨S_, .i32⟩
  | 54 => ⟨S409600, .i32⟩
  | 55 => ⟨S409600, .i1⟩
  | 56 => ⟨S_, .i32⟩
  | 57 => ⟨S409600, .i32⟩
  | 58 => ⟨S409600, .i32⟩
  | 59 => ⟨S409600, .i32⟩
  | 60 => ⟨S409600x1, .i32⟩
  | 61 => ⟨S409600x1, .i32⟩
  | 62 => ⟨S409600x1, .i32⟩
  | 63 => ⟨S409600x3, .i32⟩
  | 64 => ⟨S409600, .i32⟩
  | 65 => ⟨S_, .i32⟩
  | 66 => ⟨S409600, .i32⟩
  | 67 => ⟨S409600, .i1⟩
  | 68 => ⟨S409600, .i1⟩
  | 69 => ⟨S_, .i32⟩
  | 70 => ⟨S_, .i32⟩
  | 71 => ⟨S409600, .i32⟩
  | 72 => ⟨S409600, .i32⟩
  | 73 => ⟨S_, .i32⟩
  | 74 => ⟨S409600, .i32⟩
  | 75 => ⟨S409600, .i1⟩
  | 76 => ⟨S_, .i32⟩
  | 77 => ⟨S409600, .i32⟩
  | 78 => ⟨S409600, .i32⟩
  | 79 => ⟨S409600, .i32⟩
  | 80 => ⟨S409600x1, .i32⟩
  | 81 => ⟨S409600x64, .f32⟩
  | 82 => ⟨S409600x1, .i1⟩
  | 83 => ⟨S_, .f32⟩
  | 84 => ⟨S_, .f32⟩
  | 85 => ⟨S409600x64, .i1⟩
  | 86 => ⟨S409600x64, .f32⟩
  | 87 => ⟨S409600x64, .f32⟩
  | 88 => ⟨S1x1x64x64, .f32⟩
  | 89 => ⟨S64x64, .f32⟩
  | 90 => ⟨S409600x64, .f32⟩
  | 91 => ⟨S409600x64, .f32⟩
  | 92 => ⟨S1x64, .f32⟩
  | 93 => ⟨S409600x64, .f32⟩
  | 94 => ⟨S409600x64, .f32⟩
  | 95 => ⟨S_, .f32⟩
  | 96 => ⟨S409600x64, .f32⟩
  | 97 => ⟨S409600x64, .f32⟩
  | 98 => ⟨S409600x1, .i32⟩
  | 99 => ⟨S409600, .i32⟩
  | 100 => ⟨S409600x1, .i32⟩
  | 101 => ⟨S409600, .i32⟩
  | 102 => ⟨S409600x1, .i32⟩
  | 103 => ⟨S409600, .i32⟩
  | 104 => ⟨S_, .f32⟩
  | 105 => ⟨S409600x64, .f32⟩
  | 106 => ⟨S_, .i32⟩
  | 107 => ⟨S409600, .i32⟩
  | 108 => ⟨S409600, .i32⟩
  | 109 => ⟨S_, .i32⟩
  | 110 => ⟨S409600, .i32⟩
  | 111 => ⟨S409600, .i32⟩
  | 112 => ⟨S_, .i32⟩
  | 113 => ⟨S409600, .i32⟩
  | 114 => ⟨S409600, .i1⟩
  | 115 => ⟨S_, .i32⟩
  | 116 => ⟨S409600, .i32⟩
  | 117 => ⟨S409600, .i1⟩
  | 118 => ⟨S409600, .i1⟩
  | 119 => ⟨S_, .i32⟩
  | 120 => ⟨S409600, .i32⟩
  | 121 => ⟨S409600, .i1⟩
  | 122 => ⟨S409600, .i1⟩
  | 123 => ⟨S_, .i32⟩
  | 124 => ⟨S409600, .i32⟩
  | 125 => ⟨S409600, .i1⟩
  | 126 => ⟨S409600, .i1⟩
  | 127 => ⟨S_, .i32⟩
  | _ => ⟨S409600x64, .f32⟩

abbrev hbmTy0_7 (i : Nat) : BufTy := match i % 128 with
  | 0 => ⟨S_, .i32⟩
  | 1 => ⟨S_, .i32⟩
  | 2 => ⟨S409600, .i32⟩
  | 3 => ⟨S409600, .i32⟩
  | 4 => ⟨S_, .i32⟩
  | 5 => ⟨S409600, .i32⟩
  | 6 => ⟨S409600, .i32⟩
  | 7 => ⟨S_, .i32⟩
  | 8 => ⟨S_, .i32⟩
  | 9 => ⟨S_, .i32⟩
  | 10 => ⟨S409600, .i32⟩
  | 11 => ⟨S409600, .i32⟩
  | 12 => ⟨S_, .i32⟩
  | 13 => ⟨S409600, .i32⟩
  | 14 => ⟨S409600, .i32⟩
  | 15 => ⟨S_, .i32⟩
  | 16 => ⟨S409600, .i32⟩
  | 17 => ⟨S409600, .i1⟩
  | 18 => ⟨S_, .i32⟩
  | 19 => ⟨S409600, .i32⟩
  | 20 => ⟨S409600, .i32⟩
  | 21 => ⟨S409600, .i32⟩
  | 22 => ⟨S_, .i32⟩
  | 23 => ⟨S409600, .i32⟩
  | 24 => ⟨S409600, .i1⟩
  | 25 => ⟨S_, .i32⟩
  | 26 => ⟨S409600, .i32⟩
  | 27 => ⟨S409600, .i32⟩
  | 28 => ⟨S409600, .i32⟩
  | 29 => ⟨S_, .i32⟩
  | 30 => ⟨S409600, .i32⟩
  | 31 => ⟨S409600, .i1⟩
  | 32 => ⟨S_, .i32⟩
  | 33 => ⟨S409600, .i32⟩
  | 34 => ⟨S409600, .i32⟩
  | 35 => ⟨S409600, .i32⟩
  | 36 => ⟨S409600x1, .i32⟩
  | 37 => ⟨S409600x1, .i32⟩
  | 38 => ⟨S409600x1, .i32⟩
  | 39 => ⟨S409600x3, .i32⟩
  | 40 => ⟨S409600, .i32⟩
  | 41 => ⟨S_, .i32⟩
  | 42 => ⟨S409600, .i32⟩
  | 43 => ⟨S409600, .i1⟩
  | 44 => ⟨S409600, .i1⟩
  | 45 => ⟨S_, .i32⟩
  | 46 => ⟨S_, .i32⟩
  | 47 => ⟨S409600, .i32⟩
  | 48 => ⟨S409600, .i32⟩
  | 49 => ⟨S_, .i32⟩
  | 50 => ⟨S409600, .i32⟩
  | 51 => ⟨S409600, .i1⟩
  | 52 => ⟨S_, .i32⟩
  | 53 => ⟨S409600, .i32⟩
  | 54 => ⟨S409600, .i32⟩
  | 55 => ⟨S409600, .i32⟩
  | 56 => ⟨S409600x1, .i32⟩
  | 57 => ⟨S409600x64, .f32⟩
  | 58 => ⟨S409600x1, .i1⟩
  | 59 => ⟨S_, .f32⟩
  | 60 => ⟨S_, .f32⟩
  | 61 => ⟨S409600x64, .i1⟩
  | 62 => ⟨S409600x64, .f32⟩
  | 63 => ⟨S409600x64, .f32⟩
  | 64 => ⟨S1x1x64x64, .f32⟩
  | 65 => ⟨S64x64, .f32⟩
  | 66 => ⟨S409600x64, .f32⟩
  | 67 => ⟨S409600x64, .f32⟩
  | 68 => ⟨S_, .i32⟩
  | 69 => ⟨S409600, .i32⟩
  | 70 => ⟨S409600, .i32⟩
  | 71 => ⟨S_, .i32⟩
  | 72 => ⟨S409600, .i32⟩
  | 73 => ⟨S409600, .i32⟩
  | 74 => ⟨S_, .i32⟩
  | 75 => ⟨S409600, .i32⟩
  | 76 => ⟨S409600, .i1⟩
  | 77 => ⟨S_, .i32⟩
  | 78 => ⟨S409600, .i32⟩
  | 79 => ⟨S409600, .i1⟩
  | 80 => ⟨S409600, .i1⟩
  | 81 => ⟨S_, .i32⟩
  | 82 => ⟨S409600, .i32⟩
  | 83 => ⟨S409600, .i1⟩
  | 84 => ⟨S409600, .i1⟩
  | 85 => ⟨S_, .i32⟩
  | 86 => ⟨S409600, .i32⟩
  | 87 => ⟨S409600, .i1⟩
  | 88 => ⟨S409600, .i1⟩
  | 89 => ⟨S_, .i32⟩
  | 90 => ⟨S_, .i32⟩
  | 91 => ⟨S_, .i32⟩
  | 92 => ⟨S409600, .i32⟩
  | 93 => ⟨S409600, .i32⟩
  | 94 => ⟨S_, .i32⟩
  | 95 => ⟨S409600, .i32⟩
  | 96 => ⟨S409600, .i32⟩
  | 97 => ⟨S_, .i32⟩
  | 98 => ⟨S_, .i32⟩
  | 99 => ⟨S_, .i32⟩
  | 100 => ⟨S409600, .i32⟩
  | 101 => ⟨S409600, .i32⟩
  | 102 => ⟨S_, .i32⟩
  | 103 => ⟨S409600, .i32⟩
  | 104 => ⟨S409600, .i32⟩
  | 105 => ⟨S_, .i32⟩
  | 106 => ⟨S409600, .i32⟩
  | 107 => ⟨S409600, .i1⟩
  | 108 => ⟨S_, .i32⟩
  | 109 => ⟨S409600, .i32⟩
  | 110 => ⟨S409600, .i32⟩
  | 111 => ⟨S409600, .i32⟩
  | 112 => ⟨S_, .i32⟩
  | 113 => ⟨S409600, .i32⟩
  | 114 => ⟨S409600, .i1⟩
  | 115 => ⟨S_, .i32⟩
  | 116 => ⟨S409600, .i32⟩
  | 117 => ⟨S409600, .i32⟩
  | 118 => ⟨S409600, .i32⟩
  | 119 => ⟨S_, .i32⟩
  | 120 => ⟨S409600, .i32⟩
  | 121 => ⟨S409600, .i1⟩
  | 122 => ⟨S_, .i32⟩
  | 123 => ⟨S409600, .i32⟩
  | 124 => ⟨S409600, .i32⟩
  | 125 => ⟨S409600, .i32⟩
  | 126 => ⟨S409600x1, .i32⟩
  | 127 => ⟨S409600x1, .i32⟩
  | _ => ⟨S409600x64, .f32⟩

abbrev hbmTy0_8 (i : Nat) : BufTy := match i % 128 with
  | 0 => ⟨S409600x1, .i32⟩
  | 1 => ⟨S409600x3, .i32⟩
  | 2 => ⟨S409600, .i32⟩
  | 3 => ⟨S_, .i32⟩
  | 4 => ⟨S409600, .i32⟩
  | 5 => ⟨S409600, .i1⟩
  | 6 => ⟨S409600, .i1⟩
  | 7 => ⟨S_, .i32⟩
  | 8 => ⟨S_, .i32⟩
  | 9 => ⟨S409600, .i32⟩
  | 10 => ⟨S409600, .i32⟩
  | 11 => ⟨S_, .i32⟩
  | 12 => ⟨S409600, .i32⟩
  | 13 => ⟨S409600, .i1⟩
  | 14 => ⟨S_, .i32⟩
  | 15 => ⟨S409600, .i32⟩
  | 16 => ⟨S409600, .i32⟩
  | 17 => ⟨S409600, .i32⟩
  | 18 => ⟨S409600x1, .i32⟩
  | 19 => ⟨S409600x64, .f32⟩
  | 20 => ⟨S409600x1, .i1⟩
  | 21 => ⟨S_, .f32⟩
  | 22 => ⟨S_, .f32⟩
  | 23 => ⟨S409600x64, .i1⟩
  | 24 => ⟨S409600x64, .f32⟩
  | 25 => ⟨S409600x64, .f32⟩
  | 26 => ⟨S1x1x64x64, .f32⟩
  | 27 => ⟨S64x64, .f32⟩
  | 28 => ⟨S409600x64, .f32⟩
  | 29 => ⟨S409600x64, .f32⟩
  | 30 => ⟨S_, .i32⟩
  | 31 => ⟨S409600, .i32⟩
  | 32 => ⟨S409600, .i32⟩
  | 33 => ⟨S_, .i32⟩
  | 34 => ⟨S409600, .i32⟩
  | 35 => ⟨S409600, .i32⟩
  | 36 => ⟨S_, .i32⟩
  | 37 => ⟨S409600, .i32⟩
  | 38 => ⟨S409600, .i1⟩
  | 39 => ⟨S_, .i32⟩
  | 40 => ⟨S409600, .i32⟩
  | 41 => ⟨S409600, .i1⟩
  | 42 => ⟨S409600, .i1⟩
  | 43 => ⟨S_, .i32⟩
  | 44 => ⟨S409600, .i32⟩
  | 45 => ⟨S409600, .i1⟩
  | 46 => ⟨S409600, .i1⟩
  | 47 => ⟨S_, .i32⟩
  | 48 => ⟨S409600, .i32⟩
  | 49 => ⟨S409600, .i1⟩
  | 50 => ⟨S409600, .i1⟩
  | 51 => ⟨S_, .i32⟩
  | 52 => ⟨S_, .i32⟩
  | 53 => ⟨S_, .i32⟩
  | 54 => ⟨S409600, .i32⟩
  | 55 => ⟨S409600, .i32⟩
  | 56 => ⟨S_, .i32⟩
  | 57 => ⟨S409600, .i32⟩
  | 58 => ⟨S409600, .i32⟩
  | 59 => ⟨S_, .i32⟩
  | 60 => ⟨S_, .i32⟩
  | 61 => ⟨S_, .i32⟩
  | 62 => ⟨S409600, .i32⟩
  | 63 => ⟨S409600, .i32⟩
  | 64 => ⟨S_, .i32⟩
  | 65 => ⟨S409600, .i32⟩
  | 66 => ⟨S409600, .i32⟩
  | 67 => ⟨S_, .i32⟩
  | 68 => ⟨S409600, .i32⟩
  | 69 => ⟨S409600, .i1⟩
  | 70 => ⟨S_, .i32⟩
  | 71 => ⟨S409600, .i32⟩
  | 72 => ⟨S409600, .i32⟩
  | 73 => ⟨S409600, .i32⟩
  | 74 => ⟨S_, .i32⟩
  | 75 => ⟨S409600, .i32⟩
  | 76 => ⟨S409600, .i1⟩
  | 77 => ⟨S_, .i32⟩
  | 78 => ⟨S409600, .i32⟩
  | 79 => ⟨S409600, .i32⟩
  | 80 => ⟨S409600, .i32⟩
  | 81 => ⟨S_, .i32⟩
  | 82 => ⟨S409600, .i32⟩
  | 83 => ⟨S409600, .i1⟩
  | 84 => ⟨S_, .i32⟩
  | 85 => ⟨S409600, .i32⟩
  | 86 => ⟨S409600, .i32⟩
  | 87 => ⟨S409600, .i32⟩
  | 88 => ⟨S409600x1, .i32⟩
  | 89 => ⟨S409600x1, .i32⟩
  | 90 => ⟨S409600x1, .i32⟩
  | 91 => ⟨S409600x3, .i32⟩
  | 92 => ⟨S409600, .i32⟩
  | 93 => ⟨S_, .i32⟩
  | 94 => ⟨S409600, .i32⟩
  | 95 => ⟨S409600, .i1⟩
  | 96 => ⟨S409600, .i1⟩
  | 97 => ⟨S_, .i32⟩
  | 98 => ⟨S_, .i32⟩
  | 99 => ⟨S409600, .i32⟩
  | 100 => ⟨S409600, .i32⟩
  | 101 => ⟨S_, .i32⟩
  | 102 => ⟨S409600, .i32⟩
  | 103 => ⟨S409600, .i1⟩
  | 104 => ⟨S_, .i32⟩
  | 105 => ⟨S409600, .i32⟩
  | 106 => ⟨S409600, .i32⟩
  | 107 => ⟨S409600, .i32⟩
  | 108 => ⟨S409600x1, .i32⟩
  | 109 => ⟨S409600x64, .f32⟩
  | 110 => ⟨S409600x1, .i1⟩
  | 111 => ⟨S_, .f32⟩
  | 112 => ⟨S_, .f32⟩
  | 113 => ⟨S409600x64, .i1⟩
  | 114 => ⟨S409600x64, .f32⟩
  | 115 => ⟨S409600x64, .f32⟩
  | 116 => ⟨S1x1x64x64, .f32⟩
  | 117 => ⟨S64x64, .f32⟩
  | 118 => ⟨S409600x64, .f32⟩
  | 119 => ⟨S409600x64, .f32⟩
  | 120 => ⟨S_, .i32⟩
  | 121 => ⟨S409600, .i32⟩
  | 122 => ⟨S409600, .i32⟩
  | 123 => ⟨S_, .i32⟩
  | 124 => ⟨S409600, .i32⟩
  | 125 => ⟨S409600, .i32⟩
  | 126 => ⟨S_, .i32⟩
  | 127 => ⟨S409600, .i32⟩
  | _ => ⟨S409600x64, .f32⟩

abbrev hbmTy0_9 (i : Nat) : BufTy := match i % 128 with
  | 0 => ⟨S409600, .i1⟩
  | 1 => ⟨S_, .i32⟩
  | 2 => ⟨S409600, .i32⟩
  | 3 => ⟨S409600, .i1⟩
  | 4 => ⟨S409600, .i1⟩
  | 5 => ⟨S_, .i32⟩
  | 6 => ⟨S409600, .i32⟩
  | 7 => ⟨S409600, .i1⟩
  | 8 => ⟨S409600, .i1⟩
  | 9 => ⟨S_, .i32⟩
  | 10 => ⟨S409600, .i32⟩
  | 11 => ⟨S409600, .i1⟩
  | 12 => ⟨S409600, .i1⟩
  | 13 => ⟨S_, .i32⟩
  | 14 => ⟨S_, .i32⟩
  | 15 => ⟨S_, .i32⟩
  | 16 => ⟨S409600, .i32⟩
  | 17 => ⟨S409600, .i32⟩
  | 18 => ⟨S_, .i32⟩
  | 19 => ⟨S409600, .i32⟩
  | 20 => ⟨S409600, .i32⟩
  | 21 => ⟨S_, .i32⟩
  | 22 => ⟨S_, .i32⟩
  | 23 => ⟨S_, .i32⟩
  | 24 => ⟨S409600, .i32⟩
  | 25 => ⟨S409600, .i32⟩
  | 26 => ⟨S_, .i32⟩
  | 27 => ⟨S409600, .i32⟩
  | 28 => ⟨S409600, .i32⟩
  | 29 => ⟨S_, .i32⟩
  | 30 => ⟨S409600, .i32⟩
  | 31 => ⟨S409600, .i1⟩
  | 32 => ⟨S_, .i32⟩
  | 33 => ⟨S409600, .i32⟩
  | 34 => ⟨S409600, .i32⟩
  | 35 => ⟨S409600, .i32⟩
  | 36 => ⟨S_, .i32⟩
  | 37 => ⟨S409600, .i32⟩
  | 38 => ⟨S409600, .i1⟩
  | 39 => ⟨S_, .i32⟩
  | 40 => ⟨S409600, .i32⟩
  | 41 => ⟨S409600, .i32⟩
  | 42 => ⟨S409600, .i32⟩
  | 43 => ⟨S_, .i32⟩
  | 44 => ⟨S409600, .i32⟩
  | 45 => ⟨S409600, .i1⟩
  | 46 => ⟨S_, .i32⟩
  | 47 => ⟨S409600, .i32⟩
  | 48 => ⟨S409600, .i32⟩
  | 49 => ⟨S409600, .i32⟩
  | 50 => ⟨S409600x1, .i32⟩
  | 51 => ⟨S409600x1, .i32⟩
  | 52 => ⟨S409600x1, .i32⟩
  | 53 => ⟨S409600x3, .i32⟩
  | 54 => ⟨S409600, .i32⟩
  | 55 => ⟨S_, .i32⟩
  | 56 => ⟨S409600, .i32⟩
  | 57 => ⟨S409600, .i1⟩
  | 58 => ⟨S409600, .i1⟩
  | 59 => ⟨S_, .i32⟩
  | 60 => ⟨S_, .i32⟩
  | 61 => ⟨S409600, .i32⟩
  | 62 => ⟨S409600, .i32⟩
  | 63 => ⟨S_, .i32⟩
  | 64 => ⟨S409600, .i32⟩
  | 65 => ⟨S409600, .i1⟩
  | 66 => ⟨S_, .i32⟩
  | 67 => ⟨S409600, .i32⟩
  | 68 => ⟨S409600, .i32⟩
  | 69 => ⟨S409600, .i32⟩
  | 70 => ⟨S409600x1, .i32⟩
  | 71 => ⟨S409600x64, .f32⟩
  | 72 => ⟨S409600x1, .i1⟩
  | 73 => ⟨S_, .f32⟩
  | 74 => ⟨S_, .f32⟩
  | 75 => ⟨S409600x64, .i1⟩
  | 76 => ⟨S409600x64, .f32⟩
  | 77 => ⟨S409600x64, .f32⟩
  | 78 => ⟨S1x1x64x64, .f32⟩
  | 79 => ⟨S64x64, .f32⟩
  | 80 => ⟨S409600x64, .f32⟩
  | 81 => ⟨S409600x64, .f32⟩
  | 82 => ⟨S_, .i32⟩
  | 83 => ⟨S409600, .i32⟩
  | 84 => ⟨S409600, .i32⟩
  | 85 => ⟨S_, .i32⟩
  | 86 => ⟨S409600, .i32⟩
  | 87 => ⟨S409600, .i32⟩
  | 88 => ⟨S_, .i32⟩
  | 89 => ⟨S409600, .i32⟩
  | 90 => ⟨S409600, .i1⟩
  | 91 => ⟨S_, .i32⟩
  | 92 => ⟨S409600, .i32⟩
  | 93 => ⟨S409600, .i1⟩
  | 94 => ⟨S409600, .i1⟩
  | 95 => ⟨S_, .i32⟩
  | 96 => ⟨S409600, .i32⟩
  | 97 => ⟨S409600, .i1⟩
  | 98 => ⟨S409600, .i1⟩
  | 99 => ⟨S_, .i32⟩
  | 100 => ⟨S409600, .i32⟩
  | 101 => ⟨S409600, .i1⟩
  | 102 => ⟨S409600, .i1⟩
  | 103 => ⟨S_, .i32⟩
  | 104 => ⟨S_, .i32⟩
  | 105 => ⟨S_, .i32⟩
  | 106 => ⟨S409600, .i32⟩
  | 107 => ⟨S409600, .i32⟩
  | 108 => ⟨S_, .i32⟩
  | 109 => ⟨S409600, .i32⟩
  | 110 => ⟨S409600, .i32⟩
  | 111 => ⟨S_, .i32⟩
  | 112 => ⟨S_, .i32⟩
  | 113 => ⟨S_, .i32⟩
  | 114 => ⟨S409600, .i32⟩
  | 115 => ⟨S409600, .i32⟩
  | 116 => ⟨S_, .i32⟩
  | 117 => ⟨S409600, .i32⟩
  | 118 => ⟨S409600, .i32⟩
  | 119 => ⟨S_, .i32⟩
  | 120 => ⟨S409600, .i32⟩
  | 121 => ⟨S409600, .i1⟩
  | 122 => ⟨S_, .i32⟩
  | 123 => ⟨S409600, .i32⟩
  | 124 => ⟨S409600, .i32⟩
  | 125 => ⟨S409600, .i32⟩
  | 126 => ⟨S_, .i32⟩
  | 127 => ⟨S409600, .i32⟩
  | _ => ⟨S409600x64, .f32⟩

abbrev hbmTy0_10 (i : Nat) : BufTy := match i % 128 with
  | 0 => ⟨S409600, .i1⟩
  | 1 => ⟨S_, .i32⟩
  | 2 => ⟨S409600, .i32⟩
  | 3 => ⟨S409600, .i32⟩
  | 4 => ⟨S409600, .i32⟩
  | 5 => ⟨S_, .i32⟩
  | 6 => ⟨S409600, .i32⟩
  | 7 => ⟨S409600, .i1⟩
  | 8 => ⟨S_, .i32⟩
  | 9 => ⟨S409600, .i32⟩
  | 10 => ⟨S409600, .i32⟩
  | 11 => ⟨S409600, .i32⟩
  | 12 => ⟨S409600x1, .i32⟩
  | 13 => ⟨S409600x1, .i32⟩
  | 14 => ⟨S409600x1, .i32⟩
  | 15 => ⟨S409600x3, .i32⟩
  | 16 => ⟨S409600, .i32⟩
  | 17 => ⟨S_, .i32⟩
  | 18 => ⟨S409600, .i32⟩
  | 19 => ⟨S409600, .i1⟩
  | 20 => ⟨S409600, .i1⟩
  | 21 => ⟨S_, .i32⟩
  | 22 => ⟨S_, .i32⟩
  | 23 => ⟨S409600, .i32⟩
  | 24 => ⟨S409600, .i32⟩
  | 25 => ⟨S_, .i32⟩
  | 26 => ⟨S409600, .i32⟩
  | 27 => ⟨S409600, .i1⟩
  | 28 => ⟨S_, .i32⟩
  | 29 => ⟨S409600, .i32⟩
  | 30 => ⟨S409600, .i32⟩
  | 31 => ⟨S409600, .i32⟩
  | 32 => ⟨S409600x1, .i32⟩
  | 33 => ⟨S409600x64, .f32⟩
  | 34 => ⟨S409600x1, .i1⟩
  | 35 => ⟨S_, .f32⟩
  | 36 => ⟨S_, .f32⟩
  | 37 => ⟨S409600x64, .i1⟩
  | 38 => ⟨S409600x64, .f32⟩
  | 39 => ⟨S409600x64, .f32⟩
  | 40 => ⟨S1x1x64x64, .f32⟩
  | 41 => ⟨S64x64, .f32⟩
  | 42 => ⟨S409600x64, .f32⟩
  | 43 => ⟨S409600x64, .f32⟩
  | 44 => ⟨S_, .i32⟩
  | 45 => ⟨S409600, .i32⟩
  | 46 => ⟨S409600, .i32⟩
  | 47 => ⟨S_, .i32⟩
  | 48 => ⟨S409600, .i32⟩
  | 49 => ⟨S409600, .i32⟩
  | 50 => ⟨S_, .i32⟩
  | 51 => ⟨S409600, .i32⟩
  | 52 => ⟨S409600, .i1⟩
  | 53 => ⟨S_, .i32⟩
  | 54 => ⟨S409600, .i32⟩
  | 55 => ⟨S409600, .i1⟩
  | 56 => ⟨S409600, .i1⟩
  | 57 => ⟨S_, .i32⟩
  | 58 => ⟨S409600, .i32⟩
  | 59 => ⟨S409600, .i1⟩
  | 60 => ⟨S409600, .i1⟩
  | 61 => ⟨S_, .i32⟩
  | 62 => ⟨S409600, .i32⟩
  | 63 => ⟨S409600, .i1⟩
  | 64 => ⟨S409600, .i1⟩
  | 65 => ⟨S_, .i32⟩
  | 66 => ⟨S_, .i32⟩
  | 67 => ⟨S_, .i32⟩
  | 68 => ⟨S409600, .i32⟩
  | 69 => ⟨S409600, .i32⟩
  | 70 => ⟨S_, .i32⟩
  | 71 => ⟨S409600, .i32⟩
  | 72 => ⟨S409600, .i32⟩
  | 73 => ⟨S_, .i32⟩
  | 74 => ⟨S_, .i32⟩
  | 75 => ⟨S_, .i32⟩
  | 76 => ⟨S409600, .i32⟩
  | 77 => ⟨S409600, .i32⟩
  | 78 => ⟨S_, .i32⟩
  | 79 => ⟨S409600, .i32⟩
  | 80 => ⟨S409600, .i32⟩
  | 81 => ⟨S_, .i32⟩
  | 82 => ⟨S409600, .i32⟩
  | 83 => ⟨S409600, .i1⟩
  | 84 => ⟨S_, .i32⟩
  | 85 => ⟨S409600, .i32⟩
  | 86 => ⟨S409600, .i32⟩
  | 87 => ⟨S409600, .i32⟩
  | 88 => ⟨S_, .i32⟩
  | 89 => ⟨S409600, .i32⟩
  | 90 => ⟨S409600, .i1⟩
  | 91 => ⟨S_, .i32⟩
  | 92 => ⟨S409600, .i32⟩
  | 93 => ⟨S409600, .i32⟩
  | 94 => ⟨S409600, .i32⟩
  | 95 => ⟨S_, .i32⟩
  | 96 => ⟨S409600, .i32⟩
  | 97 => ⟨S409600, .i1⟩
  | 98 => ⟨S_, .i32⟩
  | 99 => ⟨S409600, .i32⟩
  | 100 => ⟨S409600, .i32⟩
  | 101 => ⟨S409600, .i32⟩
  | 102 => ⟨S409600x1, .i32⟩
  | 103 => ⟨S409600x1, .i32⟩
  | 104 => ⟨S409600x1, .i32⟩
  | 105 => ⟨S409600x3, .i32⟩
  | 106 => ⟨S409600, .i32⟩
  | 107 => ⟨S_, .i32⟩
  | 108 => ⟨S409600, .i32⟩
  | 109 => ⟨S409600, .i1⟩
  | 110 => ⟨S409600, .i1⟩
  | 111 => ⟨S_, .i32⟩
  | 112 => ⟨S_, .i32⟩
  | 113 => ⟨S409600, .i32⟩
  | 114 => ⟨S409600, .i32⟩
  | 115 => ⟨S_, .i32⟩
  | 116 => ⟨S409600, .i32⟩
  | 117 => ⟨S409600, .i1⟩
  | 118 => ⟨S_, .i32⟩
  | 119 => ⟨S409600, .i32⟩
  | 120 => ⟨S409600, .i32⟩
  | 121 => ⟨S409600, .i32⟩
  | 122 => ⟨S409600x1, .i32⟩
  | 123 => ⟨S409600x64, .f32⟩
  | 124 => ⟨S409600x1, .i1⟩
  | 125 => ⟨S_, .f32⟩
  | 126 => ⟨S_, .f32⟩
  | 127 => ⟨S409600x64, .i1⟩
  | _ => ⟨S409600x64, .f32⟩

abbrev hbmTy0_11 (i : Nat) : BufTy := match i % 128 with
  | 0 => ⟨S409600x64, .f32⟩
  | 1 => ⟨S409600x64, .f32⟩
  | 2 => ⟨S1x1x64x64, .f32⟩
  | 3 => ⟨S64x64, .f32⟩
  | 4 => ⟨S409600x64, .f32⟩
  | 5 => ⟨S409600x64, .f32⟩
  | 6 => ⟨S_, .i32⟩
  | 7 => ⟨S409600, .i32⟩
  | 8 => ⟨S409600, .i32⟩
  | 9 => ⟨S_, .i32⟩
  | 10 => ⟨S409600, .i32⟩
  | 11 => ⟨S409600, .i32⟩
  | 12 => ⟨S_, .i32⟩
  | 13 => ⟨S409600, .i32⟩
  | 14 => ⟨S409600, .i1⟩
  | 15 => ⟨S_, .i32⟩
  | 16 => ⟨S409600, .i32⟩
  | 17 => ⟨S409600, .i1⟩
  | 18 => ⟨S409600, .i1⟩
  | 19 => ⟨S_, .i32⟩
  | 20 => ⟨S409600, .i32⟩
  | 21 => ⟨S409600, .i1⟩
  | 22 => ⟨S409600, .i1⟩
  | 23 => ⟨S_, .i32⟩
  | 24 => ⟨S409600, .i32⟩
  | 25 => ⟨S409600, .i1⟩
  | 26 => ⟨S409600, .i1⟩
  | 27 => ⟨S_, .i32⟩
  | 28 => ⟨S_, .i32⟩
  | 29 => ⟨S_, .i32⟩
  | 30 => ⟨S409600, .i32⟩
  | 31 => ⟨S409600, .i32⟩
  | 32 => ⟨S_, .i32⟩
  | 33 => ⟨S409600, .i32⟩
  | 34 => ⟨S409600, .i32⟩
  | 35 => ⟨S_, .i32⟩
  | 36 => ⟨S_, .i32⟩
  | 37 => ⟨S_, .i32⟩
  | 38 => ⟨S409600, .i32⟩
  | 39 => ⟨S409600, .i32⟩
  | 40 => ⟨S_, .i32⟩
  | 41 => ⟨S409600, .i32⟩
  | 42 => ⟨S409600, .i32⟩
  | 43 => ⟨S_, .i32⟩
  | 44 => ⟨S409600, .i32⟩
  | 45 => ⟨S409600, .i1⟩
  | 46 => ⟨S_, .i32⟩
  | 47 => ⟨S409600, .i32⟩
  | 48 => ⟨S409600, .i32⟩
  | 49 => ⟨S409600, .i32⟩
  | 50 => ⟨S_, .i32⟩
  | 51 => ⟨S409600, .i32⟩
  | 52 => ⟨S409600, .i1⟩
  | 53 => ⟨S_, .i32⟩
  | 54 => ⟨S409600, .i32⟩
  | 55 => ⟨S409600, .i32⟩
  | 56 => ⟨S409600, .i32⟩
  | 57 => ⟨S_, .i32⟩
  | 58 => ⟨S409600, .i32⟩
  | 59 => ⟨S409600, .i1⟩
  | 60 => ⟨S_, .i32⟩
  | 61 => ⟨S409600, .i32⟩
  | 62 => ⟨S409600, .i32⟩
  | 63 => ⟨S409600, .i32⟩
  | 64 => ⟨S409600x1, .i32⟩
  | 65 => ⟨S409600x1, .i32⟩
  | 66 => ⟨S409600x1, .i32⟩
  | 67 => ⟨S409600x3, .i32⟩
  | 68 => ⟨S409600, .i32⟩
  | 69 => ⟨S_, .i32⟩
  | 70 => ⟨S409600, .i32⟩
  | 71 => ⟨S409600, .i1⟩
  | 72 => ⟨S409600, .i1⟩
  | 73 => ⟨S_, .i32⟩
  | 74 => ⟨S_, .i32⟩
  | 75 => ⟨S409600, .i32⟩
  | 76 => ⟨S409600, .i32⟩
  | 77 => ⟨S_, .i32⟩
  | 78 => ⟨S409600, .i32⟩
  | 79 => ⟨S409600, .i1⟩
  | 80 => ⟨S_, .i32⟩
  | 81 => ⟨S409600, .i32⟩
  | 82 => ⟨S409600, .i32⟩
  | 83 => ⟨S409600, .i32⟩
  | 84 => ⟨S409600x1, .i32⟩
  | 85 => ⟨S409600x64, .f32⟩
  | 86 => ⟨S409600x1, .i1⟩
  | 87 => ⟨S_, .f32⟩
  | 88 => ⟨S_, .f32⟩
  | 89 => ⟨S409600x64, .i1⟩
  | 90 => ⟨S409600x64, .f32⟩
  | 91 => ⟨S409600x64, .f32⟩
  | 92 => ⟨S1x1x64x64, .f32⟩
  | 93 => ⟨S64x64, .f32⟩
  | 94 => ⟨S409600x64, .f32⟩
  | 95 => ⟨S409600x64, .f32⟩
  | 96 => ⟨S_, .i32⟩
  | 97 => ⟨S409600, .i32⟩
  | 98 => ⟨S409600, .i32⟩
  | 99 => ⟨S_, .i32⟩
  | 100 => ⟨S409600, .i32⟩
  | 101 => ⟨S409600, .i32⟩
  | 102 => ⟨S_, .i32⟩
  | 103 => ⟨S409600, .i32⟩
  | 104 => ⟨S409600, .i1⟩
  | 105 => ⟨S_, .i32⟩
  | 106 => ⟨S409600, .i32⟩
  | 107 => ⟨S409600, .i1⟩
  | 108 => ⟨S409600, .i1⟩
  | 109 => ⟨S_, .i32⟩
  | 110 => ⟨S409600, .i32⟩
  | 111 => ⟨S409600, .i1⟩
  | 112 => ⟨S409600, .i1⟩
  | 113 => ⟨S_, .i32⟩
  | 114 => ⟨S409600, .i32⟩
  | 115 => ⟨S409600, .i1⟩
  | 116 => ⟨S409600, .i1⟩
  | 117 => ⟨S_, .i32⟩
  | 118 => ⟨S_, .i32⟩
  | 119 => ⟨S_, .i32⟩
  | 120 => ⟨S409600, .i32⟩
  | 121 => ⟨S409600, .i32⟩
  | 122 => ⟨S_, .i32⟩
  | 123 => ⟨S409600, .i32⟩
  | 124 => ⟨S409600, .i32⟩
  | 125 => ⟨S_, .i32⟩
  | 126 => ⟨S_, .i32⟩
  | 127 => ⟨S_, .i32⟩
  | _ => ⟨S409600x64, .f32⟩

abbrev hbmTy0_12 (i : Nat) : BufTy := match i % 128 with
  | 0 => ⟨S409600, .i32⟩
  | 1 => ⟨S409600, .i32⟩
  | 2 => ⟨S_, .i32⟩
  | 3 => ⟨S409600, .i32⟩
  | 4 => ⟨S409600, .i32⟩
  | 5 => ⟨S_, .i32⟩
  | 6 => ⟨S409600, .i32⟩
  | 7 => ⟨S409600, .i1⟩
  | 8 => ⟨S_, .i32⟩
  | 9 => ⟨S409600, .i32⟩
  | 10 => ⟨S409600, .i32⟩
  | 11 => ⟨S409600, .i32⟩
  | 12 => ⟨S_, .i32⟩
  | 13 => ⟨S409600, .i32⟩
  | 14 => ⟨S409600, .i1⟩
  | 15 => ⟨S_, .i32⟩
  | 16 => ⟨S409600, .i32⟩
  | 17 => ⟨S409600, .i32⟩
  | 18 => ⟨S409600, .i32⟩
  | 19 => ⟨S_, .i32⟩
  | 20 => ⟨S409600, .i32⟩
  | 21 => ⟨S409600, .i1⟩
  | 22 => ⟨S_, .i32⟩
  | 23 => ⟨S409600, .i32⟩
  | 24 => ⟨S409600, .i32⟩
  | 25 => ⟨S409600, .i32⟩
  | 26 => ⟨S409600x1, .i32⟩
  | 27 => ⟨S409600x1, .i32⟩
  | 28 => ⟨S409600x1, .i32⟩
  | 29 => ⟨S409600x3, .i32⟩
  | 30 => ⟨S409600, .i32⟩
  | 31 => ⟨S_, .i32⟩
  | 32 => ⟨S409600, .i32⟩
  | 33 => ⟨S409600, .i1⟩
  | 34 => ⟨S409600, .i1⟩
  | 35 => ⟨S_, .i32⟩
  | 36 => ⟨S_, .i32⟩
  | 37 => ⟨S409600, .i32⟩
  | 38 => ⟨S409600, .i32⟩
  | 39 => ⟨S_, .i32⟩
  | 40 => ⟨S409600, .i32⟩
  | 41 => ⟨S409600, .i1⟩
  | 42 => ⟨S_, .i32⟩
  | 43 => ⟨S409600, .i32⟩
  | 44 => ⟨S409600, .i32⟩
  | 45 => ⟨S409600, .i32⟩
  | 46 => ⟨S409600x1, .i32⟩
  | 47 => ⟨S409600x64, .f32⟩
  | 48 => ⟨S409600x1, .i1⟩
  | 49 => ⟨S_, .f32⟩
  | 50 => ⟨S_, .f32⟩
  | 51 => ⟨S409600x64, .i1⟩
  | 52 => ⟨S409600x64, .f32⟩
  | 53 => ⟨S409600x64, .f32⟩
  | 54 => ⟨S1x1x64x64, .f32⟩
  | 55 => ⟨S64x64, .f32⟩
  | 56 => ⟨S409600x64, .f32⟩
  | 57 => ⟨S409600x64, .f32⟩
  | 58 => ⟨S_, .i32⟩
  | 59 => ⟨S409600, .i32⟩
  | 60 => ⟨S409600, .i32⟩
  | 61 => ⟨S_, .i32⟩
  | 62 => ⟨S409600, .i32⟩
  | 63 => ⟨S409600, .i32⟩
  | 64 => ⟨S_, .i32⟩
  | 65 => ⟨S409600, .i32⟩
  | 66 => ⟨S409600, .i1⟩
  | 67 => ⟨S_, .i32⟩
  | 68 => ⟨S409600, .i32⟩
  | 69 => ⟨S409600, .i1⟩
  | 70 => ⟨S409600, .i1⟩
  | 71 => ⟨S_, .i32⟩
  | 72 => ⟨S409600, .i32⟩
  | 73 => ⟨S409600, .i1⟩
  | 74 => ⟨S409600, .i1⟩
  | 75 => ⟨S_, .i32⟩
  | 76 => ⟨S409600, .i32⟩
  | 77 => ⟨S409600, .i1⟩
  | 78 => ⟨S409600, .i1⟩
  | 79 => ⟨S_, .i32⟩
  | 80 => ⟨S_, .i32⟩
  | 81 => ⟨S_, .i32⟩
  | 82 => ⟨S409600, .i32⟩
  | 83 => ⟨S409600, .i32⟩
  | 84 => ⟨S_, .i32⟩
  | 85 => ⟨S409600, .i32⟩
  | 86 => ⟨S409600, .i32⟩
  | 87 => ⟨S_, .i32⟩
  | 88 => ⟨S_, .i32⟩
  | 89 => ⟨S_, .i32⟩
  | 90 => ⟨S409600, .i32⟩
  | 91 => ⟨S409600, .i32⟩
  | 92 => ⟨S_, .i32⟩
  | 93 => ⟨S409600, .i32⟩
  | 94 => ⟨S409600, .i32⟩
  | 95 => ⟨S_, .i32⟩
  | 96 => ⟨S409600, .i32⟩
  | 97 => ⟨S409600, .i1⟩
  | 98 => ⟨S_, .i32⟩
  | 99 => ⟨S409600, .i32⟩
  | 100 => ⟨S409600, .i32⟩
  | 101 => ⟨S409600, .i32⟩
  | 102 => ⟨S_, .i32⟩
  | 103 => ⟨S409600, .i32⟩
  | 104 => ⟨S409600, .i1⟩
  | 105 => ⟨S_, .i32⟩
  | 106 => ⟨S409600, .i32⟩
  | 107 => ⟨S409600, .i32⟩
  | 108 => ⟨S409600, .i32⟩
  | 109 => ⟨S_, .i32⟩
  | 110 => ⟨S409600, .i32⟩
  | 111 => ⟨S409600, .i1⟩
  | 112 => ⟨S_, .i32⟩
  | 113 => ⟨S409600, .i32⟩
  | 114 => ⟨S409600, .i32⟩
  | 115 => ⟨S409600, .i32⟩
  | 116 => ⟨S409600x1, .i32⟩
  | 117 => ⟨S409600x1, .i32⟩
  | 118 => ⟨S409600x1, .i32⟩
  | 119 => ⟨S409600x3, .i32⟩
  | 120 => ⟨S409600, .i32⟩
  | 121 => ⟨S_, .i32⟩
  | 122 => ⟨S409600, .i32⟩
  | 123 => ⟨S409600, .i1⟩
  | 124 => ⟨S409600, .i1⟩
  | 125 => ⟨S_, .i32⟩
  | 126 => ⟨S_, .i32⟩
  | 127 => ⟨S409600, .i32⟩
  | _ => ⟨S409600x64, .f32⟩

abbrev hbmTy0_13 (i : Nat) : BufTy := match i % 128 with
  | 0 => ⟨S409600, .i32⟩
  | 1 => ⟨S_, .i32⟩
  | 2 => ⟨S409600, .i32⟩
  | 3 => ⟨S409600, .i1⟩
  | 4 => ⟨S_, .i32⟩
  | 5 => ⟨S409600, .i32⟩
  | 6 => ⟨S409600, .i32⟩
  | 7 => ⟨S409600, .i32⟩
  | 8 => ⟨S409600x1, .i32⟩
  | 9 => ⟨S409600x64, .f32⟩
  | 10 => ⟨S409600x1, .i1⟩
  | 11 => ⟨S_, .f32⟩
  | 12 => ⟨S_, .f32⟩
  | 13 => ⟨S409600x64, .i1⟩
  | 14 => ⟨S409600x64, .f32⟩
  | 15 => ⟨S409600x64, .f32⟩
  | 16 => ⟨S1x1x64x64, .f32⟩
  | 17 => ⟨S64x64, .f32⟩
  | 18 => ⟨S409600x64, .f32⟩
  | 19 => ⟨S409600x64, .f32⟩
  | 20 => ⟨S1x64, .f32⟩
  | 21 => ⟨S409600x64, .f32⟩
  | 22 => ⟨S409600x64, .f32⟩
  | 23 => ⟨S_, .f32⟩
  | 24 => ⟨S409600x64, .f32⟩
  | 25 => ⟨S409600x64, .f32⟩
  | 26 => ⟨S409600x64, .f32⟩
  | 27 => ⟨S409600x64, .f32⟩
  | 28 => ⟨S_, .f32⟩
  | 29 => ⟨S409600x64, .f32⟩
  | 30 => ⟨S409600x64, .f32⟩
  | _ => ⟨S409600x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S409600x64, .f32⟩

abbrev bufTy : (tb : Table) → Fin (tcTables nBuf tb) → BufTy
  | .hbm, ⟨i, _⟩ => hbmTy i
  | _, _ => ⟨S409600x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_12 : Ref sig .tc := ⟨.hbm, 71, rfl⟩
abbrev main_c_13 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v50 : Ref sig .tc := ⟨.hbm, 78, rfl⟩
abbrev main_c_14 : Ref sig .tc := ⟨.hbm, 79, rfl⟩
abbrev main_c_15 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v51 : Ref sig .tc := ⟨.hbm, 86, rfl⟩
abbrev main_c_16 : Ref sig .tc := ⟨.hbm, 87, rfl⟩
abbrev main_v52 : Ref sig .tc := ⟨.hbm, 88, rfl⟩
abbrev main_v53 : Ref sig .tc := ⟨.hbm, 89, rfl⟩
abbrev main_c_17 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_18 : Ref sig .tc := ⟨.hbm, 94, rfl⟩
abbrev main_v57 : Ref sig .tc := ⟨.hbm, 95, rfl⟩
abbrev main_v58 : Ref sig .tc := ⟨.hbm, 96, rfl⟩
abbrev main_c_19 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_20 : Ref sig .tc := ⟨.hbm, 101, rfl⟩
abbrev main_v62 : Ref sig .tc := ⟨.hbm, 102, rfl⟩
abbrev main_v63 : Ref sig .tc := ⟨.hbm, 103, rfl⟩
abbrev main_c_21 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_22 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_23 : Ref sig .tc := ⟨.hbm, 117, rfl⟩
abbrev main_call2_v0 : Ref sig .tc := ⟨.hbm, 118, rfl⟩
abbrev main_call2_v1 : Ref sig .tc := ⟨.hbm, 119, rfl⟩
abbrev main_v75 : Ref sig .tc := ⟨.hbm, 120, rfl⟩
abbrev main_c_24 : Ref sig .tc := ⟨.hbm, 121, rfl⟩
abbrev main_v76 : Ref sig .tc := ⟨.hbm, 122, rfl⟩
abbrev main_v77 : Ref sig .tc := ⟨.hbm, 123, rfl⟩
abbrev main_c_25 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_26 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_27 : Ref sig .tc := ⟨.hbm, 140, rfl⟩
abbrev main_v89 : Ref sig .tc := ⟨.hbm, 141, rfl⟩
abbrev main_v90 : Ref sig .tc := ⟨.hbm, 142, rfl⟩
abbrev main_c_28 : Ref sig .tc := ⟨.hbm, 143, rfl⟩
abbrev main_v91 : Ref sig .tc := ⟨.hbm, 144, rfl⟩
abbrev main_v92 : Ref sig .tc := ⟨.hbm, 145, rfl⟩
abbrev main_c_29 : Ref sig .tc := ⟨.hbm, 146, rfl⟩
abbrev main_v93 : Ref sig .tc := ⟨.hbm, 147, rfl⟩
abbrev main_v94 : Ref sig .tc := ⟨.hbm, 148, rfl⟩
abbrev main_c_30 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_31 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_c_32 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_c_33 : Ref sig .tc := ⟨.hbm, 161, rfl⟩
abbrev main_c_34 : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_v104 : Ref sig .tc := ⟨.hbm, 168, rfl⟩
abbrev main_c_35 : Ref sig .tc := ⟨.hbm, 169, rfl⟩
abbrev main_c_36 : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_v105 : Ref sig .tc := ⟨.hbm, 176, rfl⟩
abbrev main_c_37 : Ref sig .tc := ⟨.hbm, 177, rfl⟩
abbrev main_v106 : Ref sig .tc := ⟨.hbm, 178, rfl⟩
abbrev main_v107 : Ref sig .tc := ⟨.hbm, 179, rfl⟩
abbrev main_c_38 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_c_39 : Ref sig .tc := ⟨.hbm, 184, rfl⟩
abbrev main_v111 : Ref sig .tc := ⟨.hbm, 185, rfl⟩
abbrev main_v112 : Ref sig .tc := ⟨.hbm, 186, rfl⟩
abbrev main_c_40 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_c_41 : Ref sig .tc := ⟨.hbm, 191, rfl⟩
abbrev main_v116 : Ref sig .tc := ⟨.hbm, 192, rfl⟩
abbrev main_v117 : Ref sig .tc := ⟨.hbm, 193, rfl⟩
abbrev main_c_42 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_c_43 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_c_44 : Ref sig .tc := ⟨.hbm, 207, rfl⟩
abbrev main_call6_v0 : Ref sig .tc := ⟨.hbm, 208, rfl⟩
abbrev main_call6_v1 : Ref sig .tc := ⟨.hbm, 209, rfl⟩
abbrev main_v129 : Ref sig .tc := ⟨.hbm, 210, rfl⟩
abbrev main_c_45 : Ref sig .tc := ⟨.hbm, 211, rfl⟩
abbrev main_v130 : Ref sig .tc := ⟨.hbm, 212, rfl⟩
abbrev main_v131 : Ref sig .tc := ⟨.hbm, 213, rfl⟩
abbrev main_c_46 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_cst_47 : Ref sig .tc := ⟨.hbm, 221, rfl⟩
abbrev main_call7_v0 : Ref sig .tc := ⟨.hbm, 222, rfl⟩
abbrev main_call7_v1 : Ref sig .tc := ⟨.hbm, 223, rfl⟩
abbrev main_call7_v2 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_c_48 : Ref sig .tc := ⟨.hbm, 230, rfl⟩
abbrev main_v143 : Ref sig .tc := ⟨.hbm, 231, rfl⟩
abbrev main_v144 : Ref sig .tc := ⟨.hbm, 232, rfl⟩
abbrev main_c_49 : Ref sig .tc := ⟨.hbm, 233, rfl⟩
abbrev main_v145 : Ref sig .tc := ⟨.hbm, 234, rfl⟩
abbrev main_v146 : Ref sig .tc := ⟨.hbm, 235, rfl⟩
abbrev main_c_50 : Ref sig .tc := ⟨.hbm, 236, rfl⟩
abbrev main_v147 : Ref sig .tc := ⟨.hbm, 237, rfl⟩
abbrev main_v148 : Ref sig .tc := ⟨.hbm, 238, rfl⟩
abbrev main_c_51 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_c_52 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_c_53 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_c_54 : Ref sig .tc := ⟨.hbm, 251, rfl⟩
abbrev main_c_55 : Ref sig .tc := ⟨.hbm, 252, rfl⟩
abbrev main_call8_v0 : Ref sig .tc := ⟨.hbm, 253, rfl⟩
abbrev main_call8_v1 : Ref sig .tc := ⟨.hbm, 254, rfl⟩
abbrev main_call8_v2 : Ref sig .tc := ⟨.hbm, 255, rfl⟩
abbrev main_call8_v3 : Ref sig .tc := ⟨.hbm, 256, rfl⟩
abbrev main_call8_v4 : Ref sig .tc := ⟨.hbm, 257, rfl⟩
abbrev main_v158 : Ref sig .tc := ⟨.hbm, 258, rfl⟩
abbrev main_c_56 : Ref sig .tc := ⟨.hbm, 259, rfl⟩
abbrev main_c_57 : Ref sig .tc := ⟨.hbm, 260, rfl⟩
abbrev main_call9_v0 : Ref sig .tc := ⟨.hbm, 261, rfl⟩
abbrev main_call9_v1 : Ref sig .tc := ⟨.hbm, 262, rfl⟩
abbrev main_call9_v2 : Ref sig .tc := ⟨.hbm, 263, rfl⟩
abbrev main_call9_v3 : Ref sig .tc := ⟨.hbm, 264, rfl⟩
abbrev main_call9_v4 : Ref sig .tc := ⟨.hbm, 265, rfl⟩
abbrev main_v159 : Ref sig .tc := ⟨.hbm, 266, rfl⟩
abbrev main_c_58 : Ref sig .tc := ⟨.hbm, 267, rfl⟩
abbrev main_v160 : Ref sig .tc := ⟨.hbm, 268, rfl⟩
abbrev main_v161 : Ref sig .tc := ⟨.hbm, 269, rfl⟩
abbrev main_c_59 : Ref sig .tc := ⟨.hbm, 270, rfl⟩
abbrev main_v162 : Ref sig .tc := ⟨.hbm, 271, rfl⟩
abbrev main_v163 : Ref sig .tc := ⟨.hbm, 272, rfl⟩
abbrev main_v164 : Ref sig .tc := ⟨.hbm, 273, rfl⟩
abbrev main_c_60 : Ref sig .tc := ⟨.hbm, 274, rfl⟩
abbrev main_v165 : Ref sig .tc := ⟨.hbm, 275, rfl⟩
abbrev main_v166 : Ref sig .tc := ⟨.hbm, 276, rfl⟩
abbrev main_c_61 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_c_62 : Ref sig .tc := ⟨.hbm, 281, rfl⟩
abbrev main_v170 : Ref sig .tc := ⟨.hbm, 282, rfl⟩
abbrev main_v171 : Ref sig .tc := ⟨.hbm, 283, rfl⟩
abbrev main_c_63 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_c_64 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_c_65 : Ref sig .tc := ⟨.hbm, 297, rfl⟩
abbrev main_call10_v0 : Ref sig .tc := ⟨.hbm, 298, rfl⟩
abbrev main_call10_v1 : Ref sig .tc := ⟨.hbm, 299, rfl⟩
abbrev main_v183 : Ref sig .tc := ⟨.hbm, 300, rfl⟩
abbrev main_c_66 : Ref sig .tc := ⟨.hbm, 301, rfl⟩
abbrev main_v184 : Ref sig .tc := ⟨.hbm, 302, rfl⟩
abbrev main_v185 : Ref sig .tc := ⟨.hbm, 303, rfl⟩
abbrev main_c_67 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_cst_68 : Ref sig .tc := ⟨.hbm, 311, rfl⟩
abbrev main_call11_v0 : Ref sig .tc := ⟨.hbm, 312, rfl⟩
abbrev main_call11_v1 : Ref sig .tc := ⟨.hbm, 313, rfl⟩
abbrev main_call11_v2 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_v196 : Ref sig .tc := ⟨.hbm, 319, rfl⟩
abbrev main_c_69 : Ref sig .tc := ⟨.hbm, 320, rfl⟩
abbrev main_v197 : Ref sig .tc := ⟨.hbm, 321, rfl⟩
abbrev main_v198 : Ref sig .tc := ⟨.hbm, 322, rfl⟩
abbrev main_c_70 : Ref sig .tc := ⟨.hbm, 323, rfl⟩
abbrev main_v199 : Ref sig .tc := ⟨.hbm, 324, rfl⟩
abbrev main_v200 : Ref sig .tc := ⟨.hbm, 325, rfl⟩
abbrev main_c_71 : Ref sig .tc := ⟨.hbm, 326, rfl⟩
abbrev main_v201 : Ref sig .tc := ⟨.hbm, 327, rfl⟩
abbrev main_v202 : Ref sig .tc := ⟨.hbm, 328, rfl⟩
abbrev main_c_72 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_c_73 : Ref sig .tc := ⟨.hbm, 333, rfl⟩
abbrev main_v206 : Ref sig .tc := ⟨.hbm, 334, rfl⟩
abbrev main_v207 : Ref sig .tc := ⟨.hbm, 335, rfl⟩
abbrev main_v208 : Ref sig .tc := ⟨.hbm, 336, rfl⟩
abbrev main_c_74 : Ref sig .tc := ⟨.hbm, 337, rfl⟩
abbrev main_v209 : Ref sig .tc := ⟨.hbm, 338, rfl⟩
abbrev main_v210 : Ref sig .tc := ⟨.hbm, 339, rfl⟩
abbrev main_v211 : Ref sig .tc := ⟨.hbm, 340, rfl⟩
abbrev main_c_75 : Ref sig .tc := ⟨.hbm, 341, rfl⟩
abbrev main_c_76 : Ref sig .tc := ⟨.hbm, 342, rfl⟩
abbrev main_call12_v0 : Ref sig .tc := ⟨.hbm, 343, rfl⟩
abbrev main_call12_v1 : Ref sig .tc := ⟨.hbm, 344, rfl⟩
abbrev main_call12_v2 : Ref sig .tc := ⟨.hbm, 345, rfl⟩
abbrev main_call12_v3 : Ref sig .tc := ⟨.hbm, 346, rfl⟩
abbrev main_call12_v4 : Ref sig .tc := ⟨.hbm, 347, rfl⟩
abbrev main_v212 : Ref sig .tc := ⟨.hbm, 348, rfl⟩
abbrev main_c_77 : Ref sig .tc := ⟨.hbm, 349, rfl⟩
abbrev main_c_78 : Ref sig .tc := ⟨.hbm, 350, rfl⟩
abbrev main_call13_v0 : Ref sig .tc := ⟨.hbm, 351, rfl⟩
abbrev main_call13_v1 : Ref sig .tc := ⟨.hbm, 352, rfl⟩
abbrev main_call13_v2 : Ref sig .tc := ⟨.hbm, 353, rfl⟩
abbrev main_call13_v3 : Ref sig .tc := ⟨.hbm, 354, rfl⟩
abbrev main_call13_v4 : Ref sig .tc := ⟨.hbm, 355, rfl⟩
abbrev main_v213 : Ref sig .tc := ⟨.hbm, 356, rfl⟩
abbrev main_c_79 : Ref sig .tc := ⟨.hbm, 357, rfl⟩
abbrev main_v214 : Ref sig .tc := ⟨.hbm, 358, rfl⟩
abbrev main_v215 : Ref sig .tc := ⟨.hbm, 359, rfl⟩
abbrev main_c_80 : Ref sig .tc := ⟨.hbm, 360, rfl⟩
abbrev main_v216 : Ref sig .tc := ⟨.hbm, 361, rfl⟩
abbrev main_v217 : Ref sig .tc := ⟨.hbm, 362, rfl⟩
abbrev main_v218 : Ref sig .tc := ⟨.hbm, 363, rfl⟩
abbrev main_c_81 : Ref sig .tc := ⟨.hbm, 364, rfl⟩
abbrev main_v219 : Ref sig .tc := ⟨.hbm, 365, rfl⟩
abbrev main_v220 : Ref sig .tc := ⟨.hbm, 366, rfl⟩
abbrev main_c_82 : Ref sig .tc := ⟨.hbm, 367, rfl⟩
abbrev main_v221 : Ref sig .tc := ⟨.hbm, 368, rfl⟩
abbrev main_v222 : Ref sig .tc := ⟨.hbm, 369, rfl⟩
abbrev main_v223 : Ref sig .tc := ⟨.hbm, 370, rfl⟩
abbrev main_c_83 : Ref sig .tc := ⟨.hbm, 371, rfl⟩
abbrev main_v224 : Ref sig .tc := ⟨.hbm, 372, rfl⟩
abbrev main_v225 : Ref sig .tc := ⟨.hbm, 373, rfl⟩
abbrev main_c_84 : Ref sig .tc := ⟨.hbm, 374, rfl⟩
abbrev main_v226 : Ref sig .tc := ⟨.hbm, 375, rfl⟩
abbrev main_v227 : Ref sig .tc := ⟨.hbm, 376, rfl⟩
abbrev main_v228 : Ref sig .tc := ⟨.hbm, 377, rfl⟩
abbrev main_v229 : Ref sig .tc := ⟨.hbm, 378, rfl⟩
abbrev main_v230 : Ref sig .tc := ⟨.hbm, 379, rfl⟩
abbrev main_v231 : Ref sig .tc := ⟨.hbm, 380, rfl⟩
abbrev main_v232 : Ref sig .tc := ⟨.hbm, 381, rfl⟩
abbrev main_v233 : Ref sig .tc := ⟨.hbm, 382, rfl⟩
abbrev main_c_85 : Ref sig .tc := ⟨.hbm, 383, rfl⟩
abbrev main_v234 : Ref sig .tc := ⟨.hbm, 384, rfl⟩
abbrev main_v235 : Ref sig .tc := ⟨.hbm, 385, rfl⟩
abbrev main_v236 : Ref sig .tc := ⟨.hbm, 386, rfl⟩
abbrev main_c_86 : Ref sig .tc := ⟨.hbm, 387, rfl⟩
abbrev main_call14_v0 : Ref sig .tc := ⟨.hbm, 388, rfl⟩
abbrev main_call14_v1 : Ref sig .tc := ⟨.hbm, 389, rfl⟩
abbrev main_v237 : Ref sig .tc := ⟨.hbm, 390, rfl⟩
abbrev main_c_87 : Ref sig .tc := ⟨.hbm, 391, rfl⟩
abbrev main_v238 : Ref sig .tc := ⟨.hbm, 392, rfl⟩
abbrev main_v239 : Ref sig .tc := ⟨.hbm, 393, rfl⟩
abbrev main_c_88 : Ref sig .tc := ⟨.hbm, 394, rfl⟩
abbrev main_v240 : Ref sig .tc := ⟨.hbm, 395, rfl⟩
abbrev main_v241 : Ref sig .tc := ⟨.hbm, 396, rfl⟩
abbrev main_v242 : Ref sig .tc := ⟨.hbm, 397, rfl⟩
abbrev main_v243 : Ref sig .tc := ⟨.hbm, 398, rfl⟩
abbrev main_v244 : Ref sig .tc := ⟨.hbm, 399, rfl⟩
abbrev main_v245 : Ref sig .tc := ⟨.hbm, 400, rfl⟩
abbrev main_cst_89 : Ref sig .tc := ⟨.hbm, 401, rfl⟩
abbrev main_call15_v0 : Ref sig .tc := ⟨.hbm, 402, rfl⟩
abbrev main_call15_v1 : Ref sig .tc := ⟨.hbm, 403, rfl⟩
abbrev main_call15_v2 : Ref sig .tc := ⟨.hbm, 404, rfl⟩
abbrev main_v246 : Ref sig .tc := ⟨.hbm, 405, rfl⟩
abbrev main_v247 : Ref sig .tc := ⟨.hbm, 406, rfl⟩
abbrev main_v248 : Ref sig .tc := ⟨.hbm, 407, rfl⟩
abbrev main_v249 : Ref sig .tc := ⟨.hbm, 408, rfl⟩
abbrev main_v250 : Ref sig .tc := ⟨.hbm, 409, rfl⟩
abbrev main_c_90 : Ref sig .tc := ⟨.hbm, 410, rfl⟩
abbrev main_v251 : Ref sig .tc := ⟨.hbm, 411, rfl⟩
abbrev main_v252 : Ref sig .tc := ⟨.hbm, 412, rfl⟩
abbrev main_c_91 : Ref sig .tc := ⟨.hbm, 413, rfl⟩
abbrev main_v253 : Ref sig .tc := ⟨.hbm, 414, rfl⟩
abbrev main_v254 : Ref sig .tc := ⟨.hbm, 415, rfl⟩
abbrev main_c_92 : Ref sig .tc := ⟨.hbm, 416, rfl⟩
abbrev main_v255 : Ref sig .tc := ⟨.hbm, 417, rfl⟩
abbrev main_v256 : Ref sig .tc := ⟨.hbm, 418, rfl⟩
abbrev main_c_93 : Ref sig .tc := ⟨.hbm, 419, rfl⟩
abbrev main_v257 : Ref sig .tc := ⟨.hbm, 420, rfl⟩
abbrev main_v258 : Ref sig .tc := ⟨.hbm, 421, rfl⟩
abbrev main_v259 : Ref sig .tc := ⟨.hbm, 422, rfl⟩
abbrev main_c_94 : Ref sig .tc := ⟨.hbm, 423, rfl⟩
abbrev main_v260 : Ref sig .tc := ⟨.hbm, 424, rfl⟩
abbrev main_v261 : Ref sig .tc := ⟨.hbm, 425, rfl⟩
abbrev main_v262 : Ref sig .tc := ⟨.hbm, 426, rfl⟩
abbrev main_c_95 : Ref sig .tc := ⟨.hbm, 427, rfl⟩
abbrev main_v263 : Ref sig .tc := ⟨.hbm, 428, rfl⟩
abbrev main_v264 : Ref sig .tc := ⟨.hbm, 429, rfl⟩
abbrev main_v265 : Ref sig .tc := ⟨.hbm, 430, rfl⟩
abbrev main_c_96 : Ref sig .tc := ⟨.hbm, 431, rfl⟩
abbrev main_c_97 : Ref sig .tc := ⟨.hbm, 432, rfl⟩
abbrev main_call16_v0 : Ref sig .tc := ⟨.hbm, 433, rfl⟩
abbrev main_call16_v1 : Ref sig .tc := ⟨.hbm, 434, rfl⟩
abbrev main_call16_v2 : Ref sig .tc := ⟨.hbm, 435, rfl⟩
abbrev main_call16_v3 : Ref sig .tc := ⟨.hbm, 436, rfl⟩
abbrev main_call16_v4 : Ref sig .tc := ⟨.hbm, 437, rfl⟩
abbrev main_v266 : Ref sig .tc := ⟨.hbm, 438, rfl⟩
abbrev main_c_98 : Ref sig .tc := ⟨.hbm, 439, rfl⟩
abbrev main_c_99 : Ref sig .tc := ⟨.hbm, 440, rfl⟩
abbrev main_call17_v0 : Ref sig .tc := ⟨.hbm, 441, rfl⟩
abbrev main_call17_v1 : Ref sig .tc := ⟨.hbm, 442, rfl⟩
abbrev main_call17_v2 : Ref sig .tc := ⟨.hbm, 443, rfl⟩
abbrev main_call17_v3 : Ref sig .tc := ⟨.hbm, 444, rfl⟩
abbrev main_call17_v4 : Ref sig .tc := ⟨.hbm, 445, rfl⟩
abbrev main_v267 : Ref sig .tc := ⟨.hbm, 446, rfl⟩
abbrev main_c_100 : Ref sig .tc := ⟨.hbm, 447, rfl⟩
abbrev main_v268 : Ref sig .tc := ⟨.hbm, 448, rfl⟩
abbrev main_v269 : Ref sig .tc := ⟨.hbm, 449, rfl⟩
abbrev main_c_101 : Ref sig .tc := ⟨.hbm, 450, rfl⟩
abbrev main_v270 : Ref sig .tc := ⟨.hbm, 451, rfl⟩
abbrev main_v271 : Ref sig .tc := ⟨.hbm, 452, rfl⟩
abbrev main_v272 : Ref sig .tc := ⟨.hbm, 453, rfl⟩
abbrev main_c_102 : Ref sig .tc := ⟨.hbm, 454, rfl⟩
abbrev main_v273 : Ref sig .tc := ⟨.hbm, 455, rfl⟩
abbrev main_v274 : Ref sig .tc := ⟨.hbm, 456, rfl⟩
abbrev main_c_103 : Ref sig .tc := ⟨.hbm, 457, rfl⟩
abbrev main_v275 : Ref sig .tc := ⟨.hbm, 458, rfl⟩
abbrev main_v276 : Ref sig .tc := ⟨.hbm, 459, rfl⟩
abbrev main_v277 : Ref sig .tc := ⟨.hbm, 460, rfl⟩
abbrev main_c_104 : Ref sig .tc := ⟨.hbm, 461, rfl⟩
abbrev main_v278 : Ref sig .tc := ⟨.hbm, 462, rfl⟩
abbrev main_v279 : Ref sig .tc := ⟨.hbm, 463, rfl⟩
abbrev main_c_105 : Ref sig .tc := ⟨.hbm, 464, rfl⟩
abbrev main_v280 : Ref sig .tc := ⟨.hbm, 465, rfl⟩
abbrev main_v281 : Ref sig .tc := ⟨.hbm, 466, rfl⟩
abbrev main_v282 : Ref sig .tc := ⟨.hbm, 467, rfl⟩
abbrev main_v283 : Ref sig .tc := ⟨.hbm, 468, rfl⟩
abbrev main_v284 : Ref sig .tc := ⟨.hbm, 469, rfl⟩
abbrev main_v285 : Ref sig .tc := ⟨.hbm, 470, rfl⟩
abbrev main_v286 : Ref sig .tc := ⟨.hbm, 471, rfl⟩
abbrev main_v287 : Ref sig .tc := ⟨.hbm, 472, rfl⟩
abbrev main_c_106 : Ref sig .tc := ⟨.hbm, 473, rfl⟩
abbrev main_v288 : Ref sig .tc := ⟨.hbm, 474, rfl⟩
abbrev main_v289 : Ref sig .tc := ⟨.hbm, 475, rfl⟩
abbrev main_v290 : Ref sig .tc := ⟨.hbm, 476, rfl⟩
abbrev main_c_107 : Ref sig .tc := ⟨.hbm, 477, rfl⟩
abbrev main_call18_v0 : Ref sig .tc := ⟨.hbm, 478, rfl⟩
abbrev main_call18_v1 : Ref sig .tc := ⟨.hbm, 479, rfl⟩
abbrev main_v291 : Ref sig .tc := ⟨.hbm, 480, rfl⟩
abbrev main_c_108 : Ref sig .tc := ⟨.hbm, 481, rfl⟩
abbrev main_v292 : Ref sig .tc := ⟨.hbm, 482, rfl⟩
abbrev main_v293 : Ref sig .tc := ⟨.hbm, 483, rfl⟩
abbrev main_c_109 : Ref sig .tc := ⟨.hbm, 484, rfl⟩
abbrev main_v294 : Ref sig .tc := ⟨.hbm, 485, rfl⟩
abbrev main_v295 : Ref sig .tc := ⟨.hbm, 486, rfl⟩
abbrev main_v296 : Ref sig .tc := ⟨.hbm, 487, rfl⟩
abbrev main_v297 : Ref sig .tc := ⟨.hbm, 488, rfl⟩
abbrev main_v298 : Ref sig .tc := ⟨.hbm, 489, rfl⟩
abbrev main_v299 : Ref sig .tc := ⟨.hbm, 490, rfl⟩
abbrev main_cst_110 : Ref sig .tc := ⟨.hbm, 491, rfl⟩
abbrev main_call19_v0 : Ref sig .tc := ⟨.hbm, 492, rfl⟩
abbrev main_call19_v1 : Ref sig .tc := ⟨.hbm, 493, rfl⟩
abbrev main_call19_v2 : Ref sig .tc := ⟨.hbm, 494, rfl⟩
abbrev main_v300 : Ref sig .tc := ⟨.hbm, 495, rfl⟩
abbrev main_v301 : Ref sig .tc := ⟨.hbm, 496, rfl⟩
abbrev main_v302 : Ref sig .tc := ⟨.hbm, 497, rfl⟩
abbrev main_v303 : Ref sig .tc := ⟨.hbm, 498, rfl⟩
abbrev main_v304 : Ref sig .tc := ⟨.hbm, 499, rfl⟩
abbrev main_c_111 : Ref sig .tc := ⟨.hbm, 500, rfl⟩
abbrev main_v305 : Ref sig .tc := ⟨.hbm, 501, rfl⟩
abbrev main_v306 : Ref sig .tc := ⟨.hbm, 502, rfl⟩
abbrev main_c_112 : Ref sig .tc := ⟨.hbm, 503, rfl⟩
abbrev main_v307 : Ref sig .tc := ⟨.hbm, 504, rfl⟩
abbrev main_v308 : Ref sig .tc := ⟨.hbm, 505, rfl⟩
abbrev main_c_113 : Ref sig .tc := ⟨.hbm, 506, rfl⟩
abbrev main_v309 : Ref sig .tc := ⟨.hbm, 507, rfl⟩
abbrev main_v310 : Ref sig .tc := ⟨.hbm, 508, rfl⟩
abbrev main_c_114 : Ref sig .tc := ⟨.hbm, 509, rfl⟩
abbrev main_v311 : Ref sig .tc := ⟨.hbm, 510, rfl⟩
abbrev main_v312 : Ref sig .tc := ⟨.hbm, 511, rfl⟩
abbrev main_v313 : Ref sig .tc := ⟨.hbm, 512, rfl⟩
abbrev main_c_115 : Ref sig .tc := ⟨.hbm, 513, rfl⟩
abbrev main_v314 : Ref sig .tc := ⟨.hbm, 514, rfl⟩
abbrev main_v315 : Ref sig .tc := ⟨.hbm, 515, rfl⟩
abbrev main_v316 : Ref sig .tc := ⟨.hbm, 516, rfl⟩
abbrev main_c_116 : Ref sig .tc := ⟨.hbm, 517, rfl⟩
abbrev main_v317 : Ref sig .tc := ⟨.hbm, 518, rfl⟩
abbrev main_v318 : Ref sig .tc := ⟨.hbm, 519, rfl⟩
abbrev main_v319 : Ref sig .tc := ⟨.hbm, 520, rfl⟩
abbrev main_c_117 : Ref sig .tc := ⟨.hbm, 521, rfl⟩
abbrev main_c_118 : Ref sig .tc := ⟨.hbm, 522, rfl⟩
abbrev main_call20_v0 : Ref sig .tc := ⟨.hbm, 523, rfl⟩
abbrev main_call20_v1 : Ref sig .tc := ⟨.hbm, 524, rfl⟩
abbrev main_call20_v2 : Ref sig .tc := ⟨.hbm, 525, rfl⟩
abbrev main_call20_v3 : Ref sig .tc := ⟨.hbm, 526, rfl⟩
abbrev main_call20_v4 : Ref sig .tc := ⟨.hbm, 527, rfl⟩
abbrev main_v320 : Ref sig .tc := ⟨.hbm, 528, rfl⟩
abbrev main_c_119 : Ref sig .tc := ⟨.hbm, 529, rfl⟩
abbrev main_c_120 : Ref sig .tc := ⟨.hbm, 530, rfl⟩
abbrev main_call21_v0 : Ref sig .tc := ⟨.hbm, 531, rfl⟩
abbrev main_call21_v1 : Ref sig .tc := ⟨.hbm, 532, rfl⟩
abbrev main_call21_v2 : Ref sig .tc := ⟨.hbm, 533, rfl⟩
abbrev main_call21_v3 : Ref sig .tc := ⟨.hbm, 534, rfl⟩
abbrev main_call21_v4 : Ref sig .tc := ⟨.hbm, 535, rfl⟩
abbrev main_v321 : Ref sig .tc := ⟨.hbm, 536, rfl⟩
abbrev main_c_121 : Ref sig .tc := ⟨.hbm, 537, rfl⟩
abbrev main_v322 : Ref sig .tc := ⟨.hbm, 538, rfl⟩
abbrev main_v323 : Ref sig .tc := ⟨.hbm, 539, rfl⟩
abbrev main_c_122 : Ref sig .tc := ⟨.hbm, 540, rfl⟩
abbrev main_v324 : Ref sig .tc := ⟨.hbm, 541, rfl⟩
abbrev main_v325 : Ref sig .tc := ⟨.hbm, 542, rfl⟩
abbrev main_v326 : Ref sig .tc := ⟨.hbm, 543, rfl⟩
abbrev main_c_123 : Ref sig .tc := ⟨.hbm, 544, rfl⟩
abbrev main_v327 : Ref sig .tc := ⟨.hbm, 545, rfl⟩
abbrev main_v328 : Ref sig .tc := ⟨.hbm, 546, rfl⟩
abbrev main_c_124 : Ref sig .tc := ⟨.hbm, 547, rfl⟩
abbrev main_v329 : Ref sig .tc := ⟨.hbm, 548, rfl⟩
abbrev main_v330 : Ref sig .tc := ⟨.hbm, 549, rfl⟩
abbrev main_v331 : Ref sig .tc := ⟨.hbm, 550, rfl⟩
abbrev main_c_125 : Ref sig .tc := ⟨.hbm, 551, rfl⟩
abbrev main_v332 : Ref sig .tc := ⟨.hbm, 552, rfl⟩
abbrev main_v333 : Ref sig .tc := ⟨.hbm, 553, rfl⟩
abbrev main_c_126 : Ref sig .tc := ⟨.hbm, 554, rfl⟩
abbrev main_v334 : Ref sig .tc := ⟨.hbm, 555, rfl⟩
abbrev main_v335 : Ref sig .tc := ⟨.hbm, 556, rfl⟩
abbrev main_v336 : Ref sig .tc := ⟨.hbm, 557, rfl⟩
abbrev main_v337 : Ref sig .tc := ⟨.hbm, 558, rfl⟩
abbrev main_v338 : Ref sig .tc := ⟨.hbm, 559, rfl⟩
abbrev main_v339 : Ref sig .tc := ⟨.hbm, 560, rfl⟩
abbrev main_v340 : Ref sig .tc := ⟨.hbm, 561, rfl⟩
abbrev main_v341 : Ref sig .tc := ⟨.hbm, 562, rfl⟩
abbrev main_c_127 : Ref sig .tc := ⟨.hbm, 563, rfl⟩
abbrev main_v342 : Ref sig .tc := ⟨.hbm, 564, rfl⟩
abbrev main_v343 : Ref sig .tc := ⟨.hbm, 565, rfl⟩
abbrev main_v344 : Ref sig .tc := ⟨.hbm, 566, rfl⟩
abbrev main_c_128 : Ref sig .tc := ⟨.hbm, 567, rfl⟩
abbrev main_call22_v0 : Ref sig .tc := ⟨.hbm, 568, rfl⟩
abbrev main_call22_v1 : Ref sig .tc := ⟨.hbm, 569, rfl⟩
abbrev main_v345 : Ref sig .tc := ⟨.hbm, 570, rfl⟩
abbrev main_c_129 : Ref sig .tc := ⟨.hbm, 571, rfl⟩
abbrev main_v346 : Ref sig .tc := ⟨.hbm, 572, rfl⟩
abbrev main_v347 : Ref sig .tc := ⟨.hbm, 573, rfl⟩
abbrev main_c_130 : Ref sig .tc := ⟨.hbm, 574, rfl⟩
abbrev main_v348 : Ref sig .tc := ⟨.hbm, 575, rfl⟩
abbrev main_v349 : Ref sig .tc := ⟨.hbm, 576, rfl⟩
abbrev main_v350 : Ref sig .tc := ⟨.hbm, 577, rfl⟩
abbrev main_v351 : Ref sig .tc := ⟨.hbm, 578, rfl⟩
abbrev main_v352 : Ref sig .tc := ⟨.hbm, 579, rfl⟩
abbrev main_v353 : Ref sig .tc := ⟨.hbm, 580, rfl⟩
abbrev main_cst_131 : Ref sig .tc := ⟨.hbm, 581, rfl⟩
abbrev main_call23_v0 : Ref sig .tc := ⟨.hbm, 582, rfl⟩
abbrev main_call23_v1 : Ref sig .tc := ⟨.hbm, 583, rfl⟩
abbrev main_call23_v2 : Ref sig .tc := ⟨.hbm, 584, rfl⟩
abbrev main_v354 : Ref sig .tc := ⟨.hbm, 585, rfl⟩
abbrev main_v355 : Ref sig .tc := ⟨.hbm, 586, rfl⟩
abbrev main_v356 : Ref sig .tc := ⟨.hbm, 587, rfl⟩
abbrev main_v357 : Ref sig .tc := ⟨.hbm, 588, rfl⟩
abbrev main_v358 : Ref sig .tc := ⟨.hbm, 589, rfl⟩
abbrev main_c_132 : Ref sig .tc := ⟨.hbm, 590, rfl⟩
abbrev main_v359 : Ref sig .tc := ⟨.hbm, 591, rfl⟩
abbrev main_v360 : Ref sig .tc := ⟨.hbm, 592, rfl⟩
abbrev main_c_133 : Ref sig .tc := ⟨.hbm, 593, rfl⟩
abbrev main_v361 : Ref sig .tc := ⟨.hbm, 594, rfl⟩
abbrev main_v362 : Ref sig .tc := ⟨.hbm, 595, rfl⟩
abbrev main_c_134 : Ref sig .tc := ⟨.hbm, 596, rfl⟩
abbrev main_v363 : Ref sig .tc := ⟨.hbm, 597, rfl⟩
abbrev main_v364 : Ref sig .tc := ⟨.hbm, 598, rfl⟩
abbrev main_c_135 : Ref sig .tc := ⟨.hbm, 599, rfl⟩
abbrev main_v365 : Ref sig .tc := ⟨.hbm, 600, rfl⟩
abbrev main_v366 : Ref sig .tc := ⟨.hbm, 601, rfl⟩
abbrev main_v367 : Ref sig .tc := ⟨.hbm, 602, rfl⟩
abbrev main_c_136 : Ref sig .tc := ⟨.hbm, 603, rfl⟩
abbrev main_v368 : Ref sig .tc := ⟨.hbm, 604, rfl⟩
abbrev main_v369 : Ref sig .tc := ⟨.hbm, 605, rfl⟩
abbrev main_v370 : Ref sig .tc := ⟨.hbm, 606, rfl⟩
abbrev main_c_137 : Ref sig .tc := ⟨.hbm, 607, rfl⟩
abbrev main_v371 : Ref sig .tc := ⟨.hbm, 608, rfl⟩
abbrev main_v372 : Ref sig .tc := ⟨.hbm, 609, rfl⟩
abbrev main_v373 : Ref sig .tc := ⟨.hbm, 610, rfl⟩
abbrev main_c_138 : Ref sig .tc := ⟨.hbm, 611, rfl⟩
abbrev main_c_139 : Ref sig .tc := ⟨.hbm, 612, rfl⟩
abbrev main_call24_v0 : Ref sig .tc := ⟨.hbm, 613, rfl⟩
abbrev main_call24_v1 : Ref sig .tc := ⟨.hbm, 614, rfl⟩
abbrev main_call24_v2 : Ref sig .tc := ⟨.hbm, 615, rfl⟩
abbrev main_call24_v3 : Ref sig .tc := ⟨.hbm, 616, rfl⟩
abbrev main_call24_v4 : Ref sig .tc := ⟨.hbm, 617, rfl⟩
abbrev main_v374 : Ref sig .tc := ⟨.hbm, 618, rfl⟩
abbrev main_c_140 : Ref sig .tc := ⟨.hbm, 619, rfl⟩
abbrev main_c_141 : Ref sig .tc := ⟨.hbm, 620, rfl⟩
abbrev main_call25_v0 : Ref sig .tc := ⟨.hbm, 621, rfl⟩
abbrev main_call25_v1 : Ref sig .tc := ⟨.hbm, 622, rfl⟩
abbrev main_call25_v2 : Ref sig .tc := ⟨.hbm, 623, rfl⟩
abbrev main_call25_v3 : Ref sig .tc := ⟨.hbm, 624, rfl⟩
abbrev main_call25_v4 : Ref sig .tc := ⟨.hbm, 625, rfl⟩
abbrev main_v375 : Ref sig .tc := ⟨.hbm, 626, rfl⟩
abbrev main_c_142 : Ref sig .tc := ⟨.hbm, 627, rfl⟩
abbrev main_v376 : Ref sig .tc := ⟨.hbm, 628, rfl⟩
abbrev main_v377 : Ref sig .tc := ⟨.hbm, 629, rfl⟩
abbrev main_c_143 : Ref sig .tc := ⟨.hbm, 630, rfl⟩
abbrev main_v378 : Ref sig .tc := ⟨.hbm, 631, rfl⟩
abbrev main_v379 : Ref sig .tc := ⟨.hbm, 632, rfl⟩
abbrev main_v380 : Ref sig .tc := ⟨.hbm, 633, rfl⟩
abbrev main_c_144 : Ref sig .tc := ⟨.hbm, 634, rfl⟩
abbrev main_v381 : Ref sig .tc := ⟨.hbm, 635, rfl⟩
abbrev main_v382 : Ref sig .tc := ⟨.hbm, 636, rfl⟩
abbrev main_c_145 : Ref sig .tc := ⟨.hbm, 637, rfl⟩
abbrev main_v383 : Ref sig .tc := ⟨.hbm, 638, rfl⟩
abbrev main_v384 : Ref sig .tc := ⟨.hbm, 639, rfl⟩
abbrev main_v385 : Ref sig .tc := ⟨.hbm, 640, rfl⟩
abbrev main_c_146 : Ref sig .tc := ⟨.hbm, 641, rfl⟩
abbrev main_v386 : Ref sig .tc := ⟨.hbm, 642, rfl⟩
abbrev main_v387 : Ref sig .tc := ⟨.hbm, 643, rfl⟩
abbrev main_c_147 : Ref sig .tc := ⟨.hbm, 644, rfl⟩
abbrev main_v388 : Ref sig .tc := ⟨.hbm, 645, rfl⟩
abbrev main_v389 : Ref sig .tc := ⟨.hbm, 646, rfl⟩
abbrev main_v390 : Ref sig .tc := ⟨.hbm, 647, rfl⟩
abbrev main_v391 : Ref sig .tc := ⟨.hbm, 648, rfl⟩
abbrev main_v392 : Ref sig .tc := ⟨.hbm, 649, rfl⟩
abbrev main_v393 : Ref sig .tc := ⟨.hbm, 650, rfl⟩
abbrev main_v394 : Ref sig .tc := ⟨.hbm, 651, rfl⟩
abbrev main_v395 : Ref sig .tc := ⟨.hbm, 652, rfl⟩
abbrev main_c_148 : Ref sig .tc := ⟨.hbm, 653, rfl⟩
abbrev main_v396 : Ref sig .tc := ⟨.hbm, 654, rfl⟩
abbrev main_v397 : Ref sig .tc := ⟨.hbm, 655, rfl⟩
abbrev main_v398 : Ref sig .tc := ⟨.hbm, 656, rfl⟩
abbrev main_c_149 : Ref sig .tc := ⟨.hbm, 657, rfl⟩
abbrev main_call26_v0 : Ref sig .tc := ⟨.hbm, 658, rfl⟩
abbrev main_call26_v1 : Ref sig .tc := ⟨.hbm, 659, rfl⟩
abbrev main_v399 : Ref sig .tc := ⟨.hbm, 660, rfl⟩
abbrev main_c_150 : Ref sig .tc := ⟨.hbm, 661, rfl⟩
abbrev main_v400 : Ref sig .tc := ⟨.hbm, 662, rfl⟩
abbrev main_v401 : Ref sig .tc := ⟨.hbm, 663, rfl⟩
abbrev main_c_151 : Ref sig .tc := ⟨.hbm, 664, rfl⟩
abbrev main_v402 : Ref sig .tc := ⟨.hbm, 665, rfl⟩
abbrev main_v403 : Ref sig .tc := ⟨.hbm, 666, rfl⟩
abbrev main_v404 : Ref sig .tc := ⟨.hbm, 667, rfl⟩
abbrev main_v405 : Ref sig .tc := ⟨.hbm, 668, rfl⟩
abbrev main_v406 : Ref sig .tc := ⟨.hbm, 669, rfl⟩
abbrev main_v407 : Ref sig .tc := ⟨.hbm, 670, rfl⟩
abbrev main_cst_152 : Ref sig .tc := ⟨.hbm, 671, rfl⟩
abbrev main_call27_v0 : Ref sig .tc := ⟨.hbm, 672, rfl⟩
abbrev main_call27_v1 : Ref sig .tc := ⟨.hbm, 673, rfl⟩
abbrev main_call27_v2 : Ref sig .tc := ⟨.hbm, 674, rfl⟩
abbrev main_v408 : Ref sig .tc := ⟨.hbm, 675, rfl⟩
abbrev main_v409 : Ref sig .tc := ⟨.hbm, 676, rfl⟩
abbrev main_v410 : Ref sig .tc := ⟨.hbm, 677, rfl⟩
abbrev main_v411 : Ref sig .tc := ⟨.hbm, 678, rfl⟩
abbrev main_v412 : Ref sig .tc := ⟨.hbm, 679, rfl⟩
abbrev main_c_153 : Ref sig .tc := ⟨.hbm, 680, rfl⟩
abbrev main_v413 : Ref sig .tc := ⟨.hbm, 681, rfl⟩
abbrev main_v414 : Ref sig .tc := ⟨.hbm, 682, rfl⟩
abbrev main_c_154 : Ref sig .tc := ⟨.hbm, 683, rfl⟩
abbrev main_v415 : Ref sig .tc := ⟨.hbm, 684, rfl⟩
abbrev main_v416 : Ref sig .tc := ⟨.hbm, 685, rfl⟩
abbrev main_c_155 : Ref sig .tc := ⟨.hbm, 686, rfl⟩
abbrev main_v417 : Ref sig .tc := ⟨.hbm, 687, rfl⟩
abbrev main_v418 : Ref sig .tc := ⟨.hbm, 688, rfl⟩
abbrev main_c_156 : Ref sig .tc := ⟨.hbm, 689, rfl⟩
abbrev main_v419 : Ref sig .tc := ⟨.hbm, 690, rfl⟩
abbrev main_v420 : Ref sig .tc := ⟨.hbm, 691, rfl⟩
abbrev main_v421 : Ref sig .tc := ⟨.hbm, 692, rfl⟩
abbrev main_c_157 : Ref sig .tc := ⟨.hbm, 693, rfl⟩
abbrev main_v422 : Ref sig .tc := ⟨.hbm, 694, rfl⟩
abbrev main_v423 : Ref sig .tc := ⟨.hbm, 695, rfl⟩
abbrev main_v424 : Ref sig .tc := ⟨.hbm, 696, rfl⟩
abbrev main_c_158 : Ref sig .tc := ⟨.hbm, 697, rfl⟩
abbrev main_v425 : Ref sig .tc := ⟨.hbm, 698, rfl⟩
abbrev main_v426 : Ref sig .tc := ⟨.hbm, 699, rfl⟩
abbrev main_v427 : Ref sig .tc := ⟨.hbm, 700, rfl⟩
abbrev main_c_159 : Ref sig .tc := ⟨.hbm, 701, rfl⟩
abbrev main_c_160 : Ref sig .tc := ⟨.hbm, 702, rfl⟩
abbrev main_call28_v0 : Ref sig .tc := ⟨.hbm, 703, rfl⟩
abbrev main_call28_v1 : Ref sig .tc := ⟨.hbm, 704, rfl⟩
abbrev main_call28_v2 : Ref sig .tc := ⟨.hbm, 705, rfl⟩
abbrev main_call28_v3 : Ref sig .tc := ⟨.hbm, 706, rfl⟩
abbrev main_call28_v4 : Ref sig .tc := ⟨.hbm, 707, rfl⟩
abbrev main_v428 : Ref sig .tc := ⟨.hbm, 708, rfl⟩
abbrev main_c_161 : Ref sig .tc := ⟨.hbm, 709, rfl⟩
abbrev main_c_162 : Ref sig .tc := ⟨.hbm, 710, rfl⟩
abbrev main_call29_v0 : Ref sig .tc := ⟨.hbm, 711, rfl⟩
abbrev main_call29_v1 : Ref sig .tc := ⟨.hbm, 712, rfl⟩
abbrev main_call29_v2 : Ref sig .tc := ⟨.hbm, 713, rfl⟩
abbrev main_call29_v3 : Ref sig .tc := ⟨.hbm, 714, rfl⟩
abbrev main_call29_v4 : Ref sig .tc := ⟨.hbm, 715, rfl⟩
abbrev main_v429 : Ref sig .tc := ⟨.hbm, 716, rfl⟩
abbrev main_c_163 : Ref sig .tc := ⟨.hbm, 717, rfl⟩
abbrev main_v430 : Ref sig .tc := ⟨.hbm, 718, rfl⟩
abbrev main_v431 : Ref sig .tc := ⟨.hbm, 719, rfl⟩
abbrev main_c_164 : Ref sig .tc := ⟨.hbm, 720, rfl⟩
abbrev main_v432 : Ref sig .tc := ⟨.hbm, 721, rfl⟩
abbrev main_v433 : Ref sig .tc := ⟨.hbm, 722, rfl⟩
abbrev main_v434 : Ref sig .tc := ⟨.hbm, 723, rfl⟩
abbrev main_c_165 : Ref sig .tc := ⟨.hbm, 724, rfl⟩
abbrev main_v435 : Ref sig .tc := ⟨.hbm, 725, rfl⟩
abbrev main_v436 : Ref sig .tc := ⟨.hbm, 726, rfl⟩
abbrev main_c_166 : Ref sig .tc := ⟨.hbm, 727, rfl⟩
abbrev main_v437 : Ref sig .tc := ⟨.hbm, 728, rfl⟩
abbrev main_v438 : Ref sig .tc := ⟨.hbm, 729, rfl⟩
abbrev main_v439 : Ref sig .tc := ⟨.hbm, 730, rfl⟩
abbrev main_c_167 : Ref sig .tc := ⟨.hbm, 731, rfl⟩
abbrev main_v440 : Ref sig .tc := ⟨.hbm, 732, rfl⟩
abbrev main_v441 : Ref sig .tc := ⟨.hbm, 733, rfl⟩
abbrev main_c_168 : Ref sig .tc := ⟨.hbm, 734, rfl⟩
abbrev main_v442 : Ref sig .tc := ⟨.hbm, 735, rfl⟩
abbrev main_v443 : Ref sig .tc := ⟨.hbm, 736, rfl⟩
abbrev main_v444 : Ref sig .tc := ⟨.hbm, 737, rfl⟩
abbrev main_v445 : Ref sig .tc := ⟨.hbm, 738, rfl⟩
abbrev main_v446 : Ref sig .tc := ⟨.hbm, 739, rfl⟩
abbrev main_v447 : Ref sig .tc := ⟨.hbm, 740, rfl⟩
abbrev main_v448 : Ref sig .tc := ⟨.hbm, 741, rfl⟩
abbrev main_v449 : Ref sig .tc := ⟨.hbm, 742, rfl⟩
abbrev main_c_169 : Ref sig .tc := ⟨.hbm, 743, rfl⟩
abbrev main_v450 : Ref sig .tc := ⟨.hbm, 744, rfl⟩
abbrev main_v451 : Ref sig .tc := ⟨.hbm, 745, rfl⟩
abbrev main_v452 : Ref sig .tc := ⟨.hbm, 746, rfl⟩
abbrev main_c_170 : Ref sig .tc := ⟨.hbm, 747, rfl⟩
abbrev main_call30_v0 : Ref sig .tc := ⟨.hbm, 748, rfl⟩
abbrev main_call30_v1 : Ref sig .tc := ⟨.hbm, 749, rfl⟩
abbrev main_v453 : Ref sig .tc := ⟨.hbm, 750, rfl⟩
abbrev main_c_171 : Ref sig .tc := ⟨.hbm, 751, rfl⟩
abbrev main_v454 : Ref sig .tc := ⟨.hbm, 752, rfl⟩
abbrev main_v455 : Ref sig .tc := ⟨.hbm, 753, rfl⟩
abbrev main_c_172 : Ref sig .tc := ⟨.hbm, 754, rfl⟩
abbrev main_v456 : Ref sig .tc := ⟨.hbm, 755, rfl⟩
abbrev main_v457 : Ref sig .tc := ⟨.hbm, 756, rfl⟩
abbrev main_v458 : Ref sig .tc := ⟨.hbm, 757, rfl⟩
abbrev main_v459 : Ref sig .tc := ⟨.hbm, 758, rfl⟩
abbrev main_v460 : Ref sig .tc := ⟨.hbm, 759, rfl⟩
abbrev main_v461 : Ref sig .tc := ⟨.hbm, 760, rfl⟩
abbrev main_cst_173 : Ref sig .tc := ⟨.hbm, 761, rfl⟩
abbrev main_call31_v0 : Ref sig .tc := ⟨.hbm, 762, rfl⟩
abbrev main_call31_v1 : Ref sig .tc := ⟨.hbm, 763, rfl⟩
abbrev main_call31_v2 : Ref sig .tc := ⟨.hbm, 764, rfl⟩
abbrev main_v462 : Ref sig .tc := ⟨.hbm, 765, rfl⟩
abbrev main_v463 : Ref sig .tc := ⟨.hbm, 766, rfl⟩
abbrev main_v464 : Ref sig .tc := ⟨.hbm, 767, rfl⟩
abbrev main_v465 : Ref sig .tc := ⟨.hbm, 768, rfl⟩
abbrev main_v466 : Ref sig .tc := ⟨.hbm, 769, rfl⟩
abbrev main_c_174 : Ref sig .tc := ⟨.hbm, 770, rfl⟩
abbrev main_v467 : Ref sig .tc := ⟨.hbm, 771, rfl⟩
abbrev main_v468 : Ref sig .tc := ⟨.hbm, 772, rfl⟩
abbrev main_c_175 : Ref sig .tc := ⟨.hbm, 773, rfl⟩
abbrev main_v469 : Ref sig .tc := ⟨.hbm, 774, rfl⟩
abbrev main_v470 : Ref sig .tc := ⟨.hbm, 775, rfl⟩
abbrev main_c_176 : Ref sig .tc := ⟨.hbm, 776, rfl⟩
abbrev main_v471 : Ref sig .tc := ⟨.hbm, 777, rfl⟩
abbrev main_v472 : Ref sig .tc := ⟨.hbm, 778, rfl⟩
abbrev main_c_177 : Ref sig .tc := ⟨.hbm, 779, rfl⟩
abbrev main_v473 : Ref sig .tc := ⟨.hbm, 780, rfl⟩
abbrev main_v474 : Ref sig .tc := ⟨.hbm, 781, rfl⟩
abbrev main_v475 : Ref sig .tc := ⟨.hbm, 782, rfl⟩
abbrev main_c_178 : Ref sig .tc := ⟨.hbm, 783, rfl⟩
abbrev main_v476 : Ref sig .tc := ⟨.hbm, 784, rfl⟩
abbrev main_v477 : Ref sig .tc := ⟨.hbm, 785, rfl⟩
abbrev main_v478 : Ref sig .tc := ⟨.hbm, 786, rfl⟩
abbrev main_c_179 : Ref sig .tc := ⟨.hbm, 787, rfl⟩
abbrev main_v479 : Ref sig .tc := ⟨.hbm, 788, rfl⟩
abbrev main_v480 : Ref sig .tc := ⟨.hbm, 789, rfl⟩
abbrev main_v481 : Ref sig .tc := ⟨.hbm, 790, rfl⟩
abbrev main_c_180 : Ref sig .tc := ⟨.hbm, 791, rfl⟩
abbrev main_c_181 : Ref sig .tc := ⟨.hbm, 792, rfl⟩
abbrev main_call32_v0 : Ref sig .tc := ⟨.hbm, 793, rfl⟩
abbrev main_call32_v1 : Ref sig .tc := ⟨.hbm, 794, rfl⟩
abbrev main_call32_v2 : Ref sig .tc := ⟨.hbm, 795, rfl⟩
abbrev main_call32_v3 : Ref sig .tc := ⟨.hbm, 796, rfl⟩
abbrev main_call32_v4 : Ref sig .tc := ⟨.hbm, 797, rfl⟩
abbrev main_v482 : Ref sig .tc := ⟨.hbm, 798, rfl⟩
abbrev main_c_182 : Ref sig .tc := ⟨.hbm, 799, rfl⟩
abbrev main_c_183 : Ref sig .tc := ⟨.hbm, 800, rfl⟩
abbrev main_call33_v0 : Ref sig .tc := ⟨.hbm, 801, rfl⟩
abbrev main_call33_v1 : Ref sig .tc := ⟨.hbm, 802, rfl⟩
abbrev main_call33_v2 : Ref sig .tc := ⟨.hbm, 803, rfl⟩
abbrev main_call33_v3 : Ref sig .tc := ⟨.hbm, 804, rfl⟩
abbrev main_call33_v4 : Ref sig .tc := ⟨.hbm, 805, rfl⟩
abbrev main_v483 : Ref sig .tc := ⟨.hbm, 806, rfl⟩
abbrev main_c_184 : Ref sig .tc := ⟨.hbm, 807, rfl⟩
abbrev main_v484 : Ref sig .tc := ⟨.hbm, 808, rfl⟩
abbrev main_v485 : Ref sig .tc := ⟨.hbm, 809, rfl⟩
abbrev main_c_185 : Ref sig .tc := ⟨.hbm, 810, rfl⟩
abbrev main_v486 : Ref sig .tc := ⟨.hbm, 811, rfl⟩
abbrev main_v487 : Ref sig .tc := ⟨.hbm, 812, rfl⟩
abbrev main_v488 : Ref sig .tc := ⟨.hbm, 813, rfl⟩
abbrev main_c_186 : Ref sig .tc := ⟨.hbm, 814, rfl⟩
abbrev main_v489 : Ref sig .tc := ⟨.hbm, 815, rfl⟩
abbrev main_v490 : Ref sig .tc := ⟨.hbm, 816, rfl⟩
abbrev main_c_187 : Ref sig .tc := ⟨.hbm, 817, rfl⟩
abbrev main_v491 : Ref sig .tc := ⟨.hbm, 818, rfl⟩
abbrev main_v492 : Ref sig .tc := ⟨.hbm, 819, rfl⟩
abbrev main_v493 : Ref sig .tc := ⟨.hbm, 820, rfl⟩
abbrev main_c_188 : Ref sig .tc := ⟨.hbm, 821, rfl⟩
abbrev main_v494 : Ref sig .tc := ⟨.hbm, 822, rfl⟩
abbrev main_v495 : Ref sig .tc := ⟨.hbm, 823, rfl⟩
abbrev main_c_189 : Ref sig .tc := ⟨.hbm, 824, rfl⟩
abbrev main_v496 : Ref sig .tc := ⟨.hbm, 825, rfl⟩
abbrev main_v497 : Ref sig .tc := ⟨.hbm, 826, rfl⟩
abbrev main_v498 : Ref sig .tc := ⟨.hbm, 827, rfl⟩
abbrev main_v499 : Ref sig .tc := ⟨.hbm, 828, rfl⟩
abbrev main_v500 : Ref sig .tc := ⟨.hbm, 829, rfl⟩
abbrev main_v501 : Ref sig .tc := ⟨.hbm, 830, rfl⟩
abbrev main_v502 : Ref sig .tc := ⟨.hbm, 831, rfl⟩
abbrev main_v503 : Ref sig .tc := ⟨.hbm, 832, rfl⟩
abbrev main_c_190 : Ref sig .tc := ⟨.hbm, 833, rfl⟩
abbrev main_v504 : Ref sig .tc := ⟨.hbm, 834, rfl⟩
abbrev main_v505 : Ref sig .tc := ⟨.hbm, 835, rfl⟩
abbrev main_v506 : Ref sig .tc := ⟨.hbm, 836, rfl⟩
abbrev main_c_191 : Ref sig .tc := ⟨.hbm, 837, rfl⟩
abbrev main_call34_v0 : Ref sig .tc := ⟨.hbm, 838, rfl⟩
abbrev main_call34_v1 : Ref sig .tc := ⟨.hbm, 839, rfl⟩
abbrev main_v507 : Ref sig .tc := ⟨.hbm, 840, rfl⟩
abbrev main_c_192 : Ref sig .tc := ⟨.hbm, 841, rfl⟩
abbrev main_v508 : Ref sig .tc := ⟨.hbm, 842, rfl⟩
abbrev main_v509 : Ref sig .tc := ⟨.hbm, 843, rfl⟩
abbrev main_c_193 : Ref sig .tc := ⟨.hbm, 844, rfl⟩
abbrev main_v510 : Ref sig .tc := ⟨.hbm, 845, rfl⟩
abbrev main_v511 : Ref sig .tc := ⟨.hbm, 846, rfl⟩
abbrev main_v512 : Ref sig .tc := ⟨.hbm, 847, rfl⟩
abbrev main_v513 : Ref sig .tc := ⟨.hbm, 848, rfl⟩
abbrev main_v514 : Ref sig .tc := ⟨.hbm, 849, rfl⟩
abbrev main_v515 : Ref sig .tc := ⟨.hbm, 850, rfl⟩
abbrev main_cst_194 : Ref sig .tc := ⟨.hbm, 851, rfl⟩
abbrev main_call35_v0 : Ref sig .tc := ⟨.hbm, 852, rfl⟩
abbrev main_call35_v1 : Ref sig .tc := ⟨.hbm, 853, rfl⟩
abbrev main_call35_v2 : Ref sig .tc := ⟨.hbm, 854, rfl⟩
abbrev main_v516 : Ref sig .tc := ⟨.hbm, 855, rfl⟩
abbrev main_v517 : Ref sig .tc := ⟨.hbm, 856, rfl⟩
abbrev main_v518 : Ref sig .tc := ⟨.hbm, 857, rfl⟩
abbrev main_v519 : Ref sig .tc := ⟨.hbm, 858, rfl⟩
abbrev main_v520 : Ref sig .tc := ⟨.hbm, 859, rfl⟩
abbrev main_v521 : Ref sig .tc := ⟨.hbm, 860, rfl⟩
abbrev main_v522 : Ref sig .tc := ⟨.hbm, 861, rfl⟩
abbrev main_v523 : Ref sig .tc := ⟨.hbm, 862, rfl⟩
abbrev main_call36_cst : Ref sig .tc := ⟨.hbm, 863, rfl⟩
abbrev main_call36_v0 : Ref sig .tc := ⟨.hbm, 864, rfl⟩
abbrev main_v524 : Ref sig .tc := ⟨.hbm, 865, rfl⟩
abbrev main_v525 : Ref sig .tc := ⟨.hbm, 866, rfl⟩
abbrev main_v526 : Ref sig .tc := ⟨.hbm, 867, rfl⟩
abbrev main_v527 : Ref sig .tc := ⟨.hbm, 868, rfl⟩
abbrev main_v528 : Ref sig .tc := ⟨.hbm, 869, rfl⟩
abbrev main_v529 : Ref sig .tc := ⟨.hbm, 870, rfl⟩
abbrev main_v530 : Ref sig .tc := ⟨.hbm, 871, rfl⟩
abbrev main_cst_195 : Ref sig .tc := ⟨.hbm, 872, rfl⟩
abbrev main_v531 : Ref sig .tc := ⟨.hbm, 873, rfl⟩
abbrev main_c_196 : Ref sig .tc := ⟨.hbm, 874, rfl⟩
abbrev main_v532 : Ref sig .tc := ⟨.hbm, 875, rfl⟩
abbrev main_v533 : Ref sig .tc := ⟨.hbm, 876, rfl⟩
abbrev main_c_197 : Ref sig .tc := ⟨.hbm, 877, rfl⟩
abbrev main_v534 : Ref sig .tc := ⟨.hbm, 878, rfl⟩
abbrev main_v535 : Ref sig .tc := ⟨.hbm, 879, rfl⟩
abbrev main_c_198 : Ref sig .tc := ⟨.hbm, 880, rfl⟩
abbrev main_v536 : Ref sig .tc := ⟨.hbm, 881, rfl⟩
abbrev main_v537 : Ref sig .tc := ⟨.hbm, 882, rfl⟩
abbrev main_c_199 : Ref sig .tc := ⟨.hbm, 883, rfl⟩
abbrev main_v538 : Ref sig .tc := ⟨.hbm, 884, rfl⟩
abbrev main_v539 : Ref sig .tc := ⟨.hbm, 885, rfl⟩
abbrev main_v540 : Ref sig .tc := ⟨.hbm, 886, rfl⟩
abbrev main_c_200 : Ref sig .tc := ⟨.hbm, 887, rfl⟩
abbrev main_v541 : Ref sig .tc := ⟨.hbm, 888, rfl⟩
abbrev main_v542 : Ref sig .tc := ⟨.hbm, 889, rfl⟩
abbrev main_v543 : Ref sig .tc := ⟨.hbm, 890, rfl⟩
abbrev main_c_201 : Ref sig .tc := ⟨.hbm, 891, rfl⟩
abbrev main_v544 : Ref sig .tc := ⟨.hbm, 892, rfl⟩
abbrev main_v545 : Ref sig .tc := ⟨.hbm, 893, rfl⟩
abbrev main_v546 : Ref sig .tc := ⟨.hbm, 894, rfl⟩
abbrev main_c_202 : Ref sig .tc := ⟨.hbm, 895, rfl⟩
abbrev main_c_203 : Ref sig .tc := ⟨.hbm, 896, rfl⟩
abbrev main_call37_v0 : Ref sig .tc := ⟨.hbm, 897, rfl⟩
abbrev main_call37_v1 : Ref sig .tc := ⟨.hbm, 898, rfl⟩
abbrev main_call37_v2 : Ref sig .tc := ⟨.hbm, 899, rfl⟩
abbrev main_call37_v3 : Ref sig .tc := ⟨.hbm, 900, rfl⟩
abbrev main_call37_v4 : Ref sig .tc := ⟨.hbm, 901, rfl⟩
abbrev main_v547 : Ref sig .tc := ⟨.hbm, 902, rfl⟩
abbrev main_c_204 : Ref sig .tc := ⟨.hbm, 903, rfl⟩
abbrev main_c_205 : Ref sig .tc := ⟨.hbm, 904, rfl⟩
abbrev main_call38_v0 : Ref sig .tc := ⟨.hbm, 905, rfl⟩
abbrev main_call38_v1 : Ref sig .tc := ⟨.hbm, 906, rfl⟩
abbrev main_call38_v2 : Ref sig .tc := ⟨.hbm, 907, rfl⟩
abbrev main_call38_v3 : Ref sig .tc := ⟨.hbm, 908, rfl⟩
abbrev main_call38_v4 : Ref sig .tc := ⟨.hbm, 909, rfl⟩
abbrev main_v548 : Ref sig .tc := ⟨.hbm, 910, rfl⟩
abbrev main_c_206 : Ref sig .tc := ⟨.hbm, 911, rfl⟩
abbrev main_v549 : Ref sig .tc := ⟨.hbm, 912, rfl⟩
abbrev main_v550 : Ref sig .tc := ⟨.hbm, 913, rfl⟩
abbrev main_c_207 : Ref sig .tc := ⟨.hbm, 914, rfl⟩
abbrev main_v551 : Ref sig .tc := ⟨.hbm, 915, rfl⟩
abbrev main_v552 : Ref sig .tc := ⟨.hbm, 916, rfl⟩
abbrev main_v553 : Ref sig .tc := ⟨.hbm, 917, rfl⟩
abbrev main_c_208 : Ref sig .tc := ⟨.hbm, 918, rfl⟩
abbrev main_v554 : Ref sig .tc := ⟨.hbm, 919, rfl⟩
abbrev main_v555 : Ref sig .tc := ⟨.hbm, 920, rfl⟩
abbrev main_c_209 : Ref sig .tc := ⟨.hbm, 921, rfl⟩
abbrev main_v556 : Ref sig .tc := ⟨.hbm, 922, rfl⟩
abbrev main_v557 : Ref sig .tc := ⟨.hbm, 923, rfl⟩
abbrev main_v558 : Ref sig .tc := ⟨.hbm, 924, rfl⟩
abbrev main_c_210 : Ref sig .tc := ⟨.hbm, 925, rfl⟩
abbrev main_v559 : Ref sig .tc := ⟨.hbm, 926, rfl⟩
abbrev main_v560 : Ref sig .tc := ⟨.hbm, 927, rfl⟩
abbrev main_c_211 : Ref sig .tc := ⟨.hbm, 928, rfl⟩
abbrev main_v561 : Ref sig .tc := ⟨.hbm, 929, rfl⟩
abbrev main_v562 : Ref sig .tc := ⟨.hbm, 930, rfl⟩
abbrev main_v563 : Ref sig .tc := ⟨.hbm, 931, rfl⟩
abbrev main_v564 : Ref sig .tc := ⟨.hbm, 932, rfl⟩
abbrev main_v565 : Ref sig .tc := ⟨.hbm, 933, rfl⟩
abbrev main_v566 : Ref sig .tc := ⟨.hbm, 934, rfl⟩
abbrev main_v567 : Ref sig .tc := ⟨.hbm, 935, rfl⟩
abbrev main_v568 : Ref sig .tc := ⟨.hbm, 936, rfl⟩
abbrev main_c_212 : Ref sig .tc := ⟨.hbm, 937, rfl⟩
abbrev main_v569 : Ref sig .tc := ⟨.hbm, 938, rfl⟩
abbrev main_v570 : Ref sig .tc := ⟨.hbm, 939, rfl⟩
abbrev main_v571 : Ref sig .tc := ⟨.hbm, 940, rfl⟩
abbrev main_c_213 : Ref sig .tc := ⟨.hbm, 941, rfl⟩
abbrev main_call39_v0 : Ref sig .tc := ⟨.hbm, 942, rfl⟩
abbrev main_call39_v1 : Ref sig .tc := ⟨.hbm, 943, rfl⟩
abbrev main_v572 : Ref sig .tc := ⟨.hbm, 944, rfl⟩
abbrev main_c_214 : Ref sig .tc := ⟨.hbm, 945, rfl⟩
abbrev main_v573 : Ref sig .tc := ⟨.hbm, 946, rfl⟩
abbrev main_v574 : Ref sig .tc := ⟨.hbm, 947, rfl⟩
abbrev main_c_215 : Ref sig .tc := ⟨.hbm, 948, rfl⟩
abbrev main_v575 : Ref sig .tc := ⟨.hbm, 949, rfl⟩
abbrev main_v576 : Ref sig .tc := ⟨.hbm, 950, rfl⟩
abbrev main_v577 : Ref sig .tc := ⟨.hbm, 951, rfl⟩
abbrev main_v578 : Ref sig .tc := ⟨.hbm, 952, rfl⟩
abbrev main_v579 : Ref sig .tc := ⟨.hbm, 953, rfl⟩
abbrev main_v580 : Ref sig .tc := ⟨.hbm, 954, rfl⟩
abbrev main_cst_216 : Ref sig .tc := ⟨.hbm, 955, rfl⟩
abbrev main_call40_v0 : Ref sig .tc := ⟨.hbm, 956, rfl⟩
abbrev main_call40_v1 : Ref sig .tc := ⟨.hbm, 957, rfl⟩
abbrev main_call40_v2 : Ref sig .tc := ⟨.hbm, 958, rfl⟩
abbrev main_v581 : Ref sig .tc := ⟨.hbm, 959, rfl⟩
abbrev main_v582 : Ref sig .tc := ⟨.hbm, 960, rfl⟩
abbrev main_v583 : Ref sig .tc := ⟨.hbm, 961, rfl⟩
abbrev main_v584 : Ref sig .tc := ⟨.hbm, 962, rfl⟩
abbrev main_v585 : Ref sig .tc := ⟨.hbm, 963, rfl⟩
abbrev main_c_217 : Ref sig .tc := ⟨.hbm, 964, rfl⟩
abbrev main_v586 : Ref sig .tc := ⟨.hbm, 965, rfl⟩
abbrev main_v587 : Ref sig .tc := ⟨.hbm, 966, rfl⟩
abbrev main_c_218 : Ref sig .tc := ⟨.hbm, 967, rfl⟩
abbrev main_v588 : Ref sig .tc := ⟨.hbm, 968, rfl⟩
abbrev main_v589 : Ref sig .tc := ⟨.hbm, 969, rfl⟩
abbrev main_c_219 : Ref sig .tc := ⟨.hbm, 970, rfl⟩
abbrev main_v590 : Ref sig .tc := ⟨.hbm, 971, rfl⟩
abbrev main_v591 : Ref sig .tc := ⟨.hbm, 972, rfl⟩
abbrev main_c_220 : Ref sig .tc := ⟨.hbm, 973, rfl⟩
abbrev main_v592 : Ref sig .tc := ⟨.hbm, 974, rfl⟩
abbrev main_v593 : Ref sig .tc := ⟨.hbm, 975, rfl⟩
abbrev main_v594 : Ref sig .tc := ⟨.hbm, 976, rfl⟩
abbrev main_c_221 : Ref sig .tc := ⟨.hbm, 977, rfl⟩
abbrev main_v595 : Ref sig .tc := ⟨.hbm, 978, rfl⟩
abbrev main_v596 : Ref sig .tc := ⟨.hbm, 979, rfl⟩
abbrev main_v597 : Ref sig .tc := ⟨.hbm, 980, rfl⟩
abbrev main_c_222 : Ref sig .tc := ⟨.hbm, 981, rfl⟩
abbrev main_v598 : Ref sig .tc := ⟨.hbm, 982, rfl⟩
abbrev main_v599 : Ref sig .tc := ⟨.hbm, 983, rfl⟩
abbrev main_v600 : Ref sig .tc := ⟨.hbm, 984, rfl⟩
abbrev main_c_223 : Ref sig .tc := ⟨.hbm, 985, rfl⟩
abbrev main_c_224 : Ref sig .tc := ⟨.hbm, 986, rfl⟩
abbrev main_call41_v0 : Ref sig .tc := ⟨.hbm, 987, rfl⟩
abbrev main_call41_v1 : Ref sig .tc := ⟨.hbm, 988, rfl⟩
abbrev main_call41_v2 : Ref sig .tc := ⟨.hbm, 989, rfl⟩
abbrev main_call41_v3 : Ref sig .tc := ⟨.hbm, 990, rfl⟩
abbrev main_call41_v4 : Ref sig .tc := ⟨.hbm, 991, rfl⟩
abbrev main_v601 : Ref sig .tc := ⟨.hbm, 992, rfl⟩
abbrev main_c_225 : Ref sig .tc := ⟨.hbm, 993, rfl⟩
abbrev main_c_226 : Ref sig .tc := ⟨.hbm, 994, rfl⟩
abbrev main_call42_v0 : Ref sig .tc := ⟨.hbm, 995, rfl⟩
abbrev main_call42_v1 : Ref sig .tc := ⟨.hbm, 996, rfl⟩
abbrev main_call42_v2 : Ref sig .tc := ⟨.hbm, 997, rfl⟩
abbrev main_call42_v3 : Ref sig .tc := ⟨.hbm, 998, rfl⟩
abbrev main_call42_v4 : Ref sig .tc := ⟨.hbm, 999, rfl⟩
abbrev main_v602 : Ref sig .tc := ⟨.hbm, 1000, rfl⟩
abbrev main_c_227 : Ref sig .tc := ⟨.hbm, 1001, rfl⟩
abbrev main_v603 : Ref sig .tc := ⟨.hbm, 1002, rfl⟩
abbrev main_v604 : Ref sig .tc := ⟨.hbm, 1003, rfl⟩
abbrev main_c_228 : Ref sig .tc := ⟨.hbm, 1004, rfl⟩
abbrev main_v605 : Ref sig .tc := ⟨.hbm, 1005, rfl⟩
abbrev main_v606 : Ref sig .tc := ⟨.hbm, 1006, rfl⟩
abbrev main_v607 : Ref sig .tc := ⟨.hbm, 1007, rfl⟩
abbrev main_c_229 : Ref sig .tc := ⟨.hbm, 1008, rfl⟩
abbrev main_v608 : Ref sig .tc := ⟨.hbm, 1009, rfl⟩
abbrev main_v609 : Ref sig .tc := ⟨.hbm, 1010, rfl⟩
abbrev main_c_230 : Ref sig .tc := ⟨.hbm, 1011, rfl⟩
abbrev main_v610 : Ref sig .tc := ⟨.hbm, 1012, rfl⟩
abbrev main_v611 : Ref sig .tc := ⟨.hbm, 1013, rfl⟩
abbrev main_v612 : Ref sig .tc := ⟨.hbm, 1014, rfl⟩
abbrev main_c_231 : Ref sig .tc := ⟨.hbm, 1015, rfl⟩
abbrev main_v613 : Ref sig .tc := ⟨.hbm, 1016, rfl⟩
abbrev main_v614 : Ref sig .tc := ⟨.hbm, 1017, rfl⟩
abbrev main_c_232 : Ref sig .tc := ⟨.hbm, 1018, rfl⟩
abbrev main_v615 : Ref sig .tc := ⟨.hbm, 1019, rfl⟩
abbrev main_v616 : Ref sig .tc := ⟨.hbm, 1020, rfl⟩
abbrev main_v617 : Ref sig .tc := ⟨.hbm, 1021, rfl⟩
abbrev main_v618 : Ref sig .tc := ⟨.hbm, 1022, rfl⟩
abbrev main_v619 : Ref sig .tc := ⟨.hbm, 1023, rfl⟩
abbrev main_v620 : Ref sig .tc := ⟨.hbm, 1024, rfl⟩
abbrev main_v621 : Ref sig .tc := ⟨.hbm, 1025, rfl⟩
abbrev main_v622 : Ref sig .tc := ⟨.hbm, 1026, rfl⟩
abbrev main_c_233 : Ref sig .tc := ⟨.hbm, 1027, rfl⟩
abbrev main_v623 : Ref sig .tc := ⟨.hbm, 1028, rfl⟩
abbrev main_v624 : Ref sig .tc := ⟨.hbm, 1029, rfl⟩
abbrev main_v625 : Ref sig .tc := ⟨.hbm, 1030, rfl⟩
abbrev main_c_234 : Ref sig .tc := ⟨.hbm, 1031, rfl⟩
abbrev main_call43_v0 : Ref sig .tc := ⟨.hbm, 1032, rfl⟩
abbrev main_call43_v1 : Ref sig .tc := ⟨.hbm, 1033, rfl⟩
abbrev main_v626 : Ref sig .tc := ⟨.hbm, 1034, rfl⟩
abbrev main_c_235 : Ref sig .tc := ⟨.hbm, 1035, rfl⟩
abbrev main_v627 : Ref sig .tc := ⟨.hbm, 1036, rfl⟩
abbrev main_v628 : Ref sig .tc := ⟨.hbm, 1037, rfl⟩
abbrev main_c_236 : Ref sig .tc := ⟨.hbm, 1038, rfl⟩
abbrev main_v629 : Ref sig .tc := ⟨.hbm, 1039, rfl⟩
abbrev main_v630 : Ref sig .tc := ⟨.hbm, 1040, rfl⟩
abbrev main_v631 : Ref sig .tc := ⟨.hbm, 1041, rfl⟩
abbrev main_v632 : Ref sig .tc := ⟨.hbm, 1042, rfl⟩
abbrev main_v633 : Ref sig .tc := ⟨.hbm, 1043, rfl⟩
abbrev main_v634 : Ref sig .tc := ⟨.hbm, 1044, rfl⟩
abbrev main_cst_237 : Ref sig .tc := ⟨.hbm, 1045, rfl⟩
abbrev main_call44_v0 : Ref sig .tc := ⟨.hbm, 1046, rfl⟩
abbrev main_call44_v1 : Ref sig .tc := ⟨.hbm, 1047, rfl⟩
abbrev main_call44_v2 : Ref sig .tc := ⟨.hbm, 1048, rfl⟩
abbrev main_v635 : Ref sig .tc := ⟨.hbm, 1049, rfl⟩
abbrev main_v636 : Ref sig .tc := ⟨.hbm, 1050, rfl⟩
abbrev main_v637 : Ref sig .tc := ⟨.hbm, 1051, rfl⟩
abbrev main_v638 : Ref sig .tc := ⟨.hbm, 1052, rfl⟩
abbrev main_v639 : Ref sig .tc := ⟨.hbm, 1053, rfl⟩
abbrev main_c_238 : Ref sig .tc := ⟨.hbm, 1054, rfl⟩
abbrev main_v640 : Ref sig .tc := ⟨.hbm, 1055, rfl⟩
abbrev main_v641 : Ref sig .tc := ⟨.hbm, 1056, rfl⟩
abbrev main_c_239 : Ref sig .tc := ⟨.hbm, 1057, rfl⟩
abbrev main_v642 : Ref sig .tc := ⟨.hbm, 1058, rfl⟩
abbrev main_v643 : Ref sig .tc := ⟨.hbm, 1059, rfl⟩
abbrev main_c_240 : Ref sig .tc := ⟨.hbm, 1060, rfl⟩
abbrev main_v644 : Ref sig .tc := ⟨.hbm, 1061, rfl⟩
abbrev main_v645 : Ref sig .tc := ⟨.hbm, 1062, rfl⟩
abbrev main_c_241 : Ref sig .tc := ⟨.hbm, 1063, rfl⟩
abbrev main_v646 : Ref sig .tc := ⟨.hbm, 1064, rfl⟩
abbrev main_v647 : Ref sig .tc := ⟨.hbm, 1065, rfl⟩
abbrev main_v648 : Ref sig .tc := ⟨.hbm, 1066, rfl⟩
abbrev main_c_242 : Ref sig .tc := ⟨.hbm, 1067, rfl⟩
abbrev main_v649 : Ref sig .tc := ⟨.hbm, 1068, rfl⟩
abbrev main_v650 : Ref sig .tc := ⟨.hbm, 1069, rfl⟩
abbrev main_v651 : Ref sig .tc := ⟨.hbm, 1070, rfl⟩
abbrev main_c_243 : Ref sig .tc := ⟨.hbm, 1071, rfl⟩
abbrev main_v652 : Ref sig .tc := ⟨.hbm, 1072, rfl⟩
abbrev main_v653 : Ref sig .tc := ⟨.hbm, 1073, rfl⟩
abbrev main_v654 : Ref sig .tc := ⟨.hbm, 1074, rfl⟩
abbrev main_c_244 : Ref sig .tc := ⟨.hbm, 1075, rfl⟩
abbrev main_c_245 : Ref sig .tc := ⟨.hbm, 1076, rfl⟩
abbrev main_call45_v0 : Ref sig .tc := ⟨.hbm, 1077, rfl⟩
abbrev main_call45_v1 : Ref sig .tc := ⟨.hbm, 1078, rfl⟩
abbrev main_call45_v2 : Ref sig .tc := ⟨.hbm, 1079, rfl⟩
abbrev main_call45_v3 : Ref sig .tc := ⟨.hbm, 1080, rfl⟩
abbrev main_call45_v4 : Ref sig .tc := ⟨.hbm, 1081, rfl⟩
abbrev main_v655 : Ref sig .tc := ⟨.hbm, 1082, rfl⟩
abbrev main_c_246 : Ref sig .tc := ⟨.hbm, 1083, rfl⟩
abbrev main_c_247 : Ref sig .tc := ⟨.hbm, 1084, rfl⟩
abbrev main_call46_v0 : Ref sig .tc := ⟨.hbm, 1085, rfl⟩
abbrev main_call46_v1 : Ref sig .tc := ⟨.hbm, 1086, rfl⟩
abbrev main_call46_v2 : Ref sig .tc := ⟨.hbm, 1087, rfl⟩
abbrev main_call46_v3 : Ref sig .tc := ⟨.hbm, 1088, rfl⟩
abbrev main_call46_v4 : Ref sig .tc := ⟨.hbm, 1089, rfl⟩
abbrev main_v656 : Ref sig .tc := ⟨.hbm, 1090, rfl⟩
abbrev main_c_248 : Ref sig .tc := ⟨.hbm, 1091, rfl⟩
abbrev main_v657 : Ref sig .tc := ⟨.hbm, 1092, rfl⟩
abbrev main_v658 : Ref sig .tc := ⟨.hbm, 1093, rfl⟩
abbrev main_c_249 : Ref sig .tc := ⟨.hbm, 1094, rfl⟩
abbrev main_v659 : Ref sig .tc := ⟨.hbm, 1095, rfl⟩
abbrev main_v660 : Ref sig .tc := ⟨.hbm, 1096, rfl⟩
abbrev main_v661 : Ref sig .tc := ⟨.hbm, 1097, rfl⟩
abbrev main_c_250 : Ref sig .tc := ⟨.hbm, 1098, rfl⟩
abbrev main_v662 : Ref sig .tc := ⟨.hbm, 1099, rfl⟩
abbrev main_v663 : Ref sig .tc := ⟨.hbm, 1100, rfl⟩
abbrev main_c_251 : Ref sig .tc := ⟨.hbm, 1101, rfl⟩
abbrev main_v664 : Ref sig .tc := ⟨.hbm, 1102, rfl⟩
abbrev main_v665 : Ref sig .tc := ⟨.hbm, 1103, rfl⟩
abbrev main_v666 : Ref sig .tc := ⟨.hbm, 1104, rfl⟩
abbrev main_c_252 : Ref sig .tc := ⟨.hbm, 1105, rfl⟩
abbrev main_v667 : Ref sig .tc := ⟨.hbm, 1106, rfl⟩
abbrev main_v668 : Ref sig .tc := ⟨.hbm, 1107, rfl⟩
abbrev main_c_253 : Ref sig .tc := ⟨.hbm, 1108, rfl⟩
abbrev main_v669 : Ref sig .tc := ⟨.hbm, 1109, rfl⟩
abbrev main_v670 : Ref sig .tc := ⟨.hbm, 1110, rfl⟩
abbrev main_v671 : Ref sig .tc := ⟨.hbm, 1111, rfl⟩
abbrev main_v672 : Ref sig .tc := ⟨.hbm, 1112, rfl⟩
abbrev main_v673 : Ref sig .tc := ⟨.hbm, 1113, rfl⟩
abbrev main_v674 : Ref sig .tc := ⟨.hbm, 1114, rfl⟩
abbrev main_v675 : Ref sig .tc := ⟨.hbm, 1115, rfl⟩
abbrev main_v676 : Ref sig .tc := ⟨.hbm, 1116, rfl⟩
abbrev main_c_254 : Ref sig .tc := ⟨.hbm, 1117, rfl⟩
abbrev main_v677 : Ref sig .tc := ⟨.hbm, 1118, rfl⟩
abbrev main_v678 : Ref sig .tc := ⟨.hbm, 1119, rfl⟩
abbrev main_v679 : Ref sig .tc := ⟨.hbm, 1120, rfl⟩
abbrev main_c_255 : Ref sig .tc := ⟨.hbm, 1121, rfl⟩
abbrev main_call47_v0 : Ref sig .tc := ⟨.hbm, 1122, rfl⟩
abbrev main_call47_v1 : Ref sig .tc := ⟨.hbm, 1123, rfl⟩
abbrev main_v680 : Ref sig .tc := ⟨.hbm, 1124, rfl⟩
abbrev main_c_256 : Ref sig .tc := ⟨.hbm, 1125, rfl⟩
abbrev main_v681 : Ref sig .tc := ⟨.hbm, 1126, rfl⟩
abbrev main_v682 : Ref sig .tc := ⟨.hbm, 1127, rfl⟩
abbrev main_c_257 : Ref sig .tc := ⟨.hbm, 1128, rfl⟩
abbrev main_v683 : Ref sig .tc := ⟨.hbm, 1129, rfl⟩
abbrev main_v684 : Ref sig .tc := ⟨.hbm, 1130, rfl⟩
abbrev main_v685 : Ref sig .tc := ⟨.hbm, 1131, rfl⟩
abbrev main_v686 : Ref sig .tc := ⟨.hbm, 1132, rfl⟩
abbrev main_v687 : Ref sig .tc := ⟨.hbm, 1133, rfl⟩
abbrev main_v688 : Ref sig .tc := ⟨.hbm, 1134, rfl⟩
abbrev main_cst_258 : Ref sig .tc := ⟨.hbm, 1135, rfl⟩
abbrev main_call48_v0 : Ref sig .tc := ⟨.hbm, 1136, rfl⟩
abbrev main_call48_v1 : Ref sig .tc := ⟨.hbm, 1137, rfl⟩
abbrev main_call48_v2 : Ref sig .tc := ⟨.hbm, 1138, rfl⟩
abbrev main_v689 : Ref sig .tc := ⟨.hbm, 1139, rfl⟩
abbrev main_v690 : Ref sig .tc := ⟨.hbm, 1140, rfl⟩
abbrev main_v691 : Ref sig .tc := ⟨.hbm, 1141, rfl⟩
abbrev main_v692 : Ref sig .tc := ⟨.hbm, 1142, rfl⟩
abbrev main_v693 : Ref sig .tc := ⟨.hbm, 1143, rfl⟩
abbrev main_c_259 : Ref sig .tc := ⟨.hbm, 1144, rfl⟩
abbrev main_v694 : Ref sig .tc := ⟨.hbm, 1145, rfl⟩
abbrev main_v695 : Ref sig .tc := ⟨.hbm, 1146, rfl⟩
abbrev main_c_260 : Ref sig .tc := ⟨.hbm, 1147, rfl⟩
abbrev main_v696 : Ref sig .tc := ⟨.hbm, 1148, rfl⟩
abbrev main_v697 : Ref sig .tc := ⟨.hbm, 1149, rfl⟩
abbrev main_c_261 : Ref sig .tc := ⟨.hbm, 1150, rfl⟩
abbrev main_v698 : Ref sig .tc := ⟨.hbm, 1151, rfl⟩
abbrev main_v699 : Ref sig .tc := ⟨.hbm, 1152, rfl⟩
abbrev main_c_262 : Ref sig .tc := ⟨.hbm, 1153, rfl⟩
abbrev main_v700 : Ref sig .tc := ⟨.hbm, 1154, rfl⟩
abbrev main_v701 : Ref sig .tc := ⟨.hbm, 1155, rfl⟩
abbrev main_v702 : Ref sig .tc := ⟨.hbm, 1156, rfl⟩
abbrev main_c_263 : Ref sig .tc := ⟨.hbm, 1157, rfl⟩
abbrev main_v703 : Ref sig .tc := ⟨.hbm, 1158, rfl⟩
abbrev main_v704 : Ref sig .tc := ⟨.hbm, 1159, rfl⟩
abbrev main_v705 : Ref sig .tc := ⟨.hbm, 1160, rfl⟩
abbrev main_c_264 : Ref sig .tc := ⟨.hbm, 1161, rfl⟩
abbrev main_v706 : Ref sig .tc := ⟨.hbm, 1162, rfl⟩
abbrev main_v707 : Ref sig .tc := ⟨.hbm, 1163, rfl⟩
abbrev main_v708 : Ref sig .tc := ⟨.hbm, 1164, rfl⟩
abbrev main_c_265 : Ref sig .tc := ⟨.hbm, 1165, rfl⟩
abbrev main_c_266 : Ref sig .tc := ⟨.hbm, 1166, rfl⟩
abbrev main_call49_v0 : Ref sig .tc := ⟨.hbm, 1167, rfl⟩
abbrev main_call49_v1 : Ref sig .tc := ⟨.hbm, 1168, rfl⟩
abbrev main_call49_v2 : Ref sig .tc := ⟨.hbm, 1169, rfl⟩
abbrev main_call49_v3 : Ref sig .tc := ⟨.hbm, 1170, rfl⟩
abbrev main_call49_v4 : Ref sig .tc := ⟨.hbm, 1171, rfl⟩
abbrev main_v709 : Ref sig .tc := ⟨.hbm, 1172, rfl⟩
abbrev main_c_267 : Ref sig .tc := ⟨.hbm, 1173, rfl⟩
abbrev main_c_268 : Ref sig .tc := ⟨.hbm, 1174, rfl⟩
abbrev main_call50_v0 : Ref sig .tc := ⟨.hbm, 1175, rfl⟩
abbrev main_call50_v1 : Ref sig .tc := ⟨.hbm, 1176, rfl⟩
abbrev main_call50_v2 : Ref sig .tc := ⟨.hbm, 1177, rfl⟩
abbrev main_call50_v3 : Ref sig .tc := ⟨.hbm, 1178, rfl⟩
abbrev main_call50_v4 : Ref sig .tc := ⟨.hbm, 1179, rfl⟩
abbrev main_v710 : Ref sig .tc := ⟨.hbm, 1180, rfl⟩
abbrev main_c_269 : Ref sig .tc := ⟨.hbm, 1181, rfl⟩
abbrev main_v711 : Ref sig .tc := ⟨.hbm, 1182, rfl⟩
abbrev main_v712 : Ref sig .tc := ⟨.hbm, 1183, rfl⟩
abbrev main_c_270 : Ref sig .tc := ⟨.hbm, 1184, rfl⟩
abbrev main_v713 : Ref sig .tc := ⟨.hbm, 1185, rfl⟩
abbrev main_v714 : Ref sig .tc := ⟨.hbm, 1186, rfl⟩
abbrev main_v715 : Ref sig .tc := ⟨.hbm, 1187, rfl⟩
abbrev main_c_271 : Ref sig .tc := ⟨.hbm, 1188, rfl⟩
abbrev main_v716 : Ref sig .tc := ⟨.hbm, 1189, rfl⟩
abbrev main_v717 : Ref sig .tc := ⟨.hbm, 1190, rfl⟩
abbrev main_c_272 : Ref sig .tc := ⟨.hbm, 1191, rfl⟩
abbrev main_v718 : Ref sig .tc := ⟨.hbm, 1192, rfl⟩
abbrev main_v719 : Ref sig .tc := ⟨.hbm, 1193, rfl⟩
abbrev main_v720 : Ref sig .tc := ⟨.hbm, 1194, rfl⟩
abbrev main_c_273 : Ref sig .tc := ⟨.hbm, 1195, rfl⟩
abbrev main_v721 : Ref sig .tc := ⟨.hbm, 1196, rfl⟩
abbrev main_v722 : Ref sig .tc := ⟨.hbm, 1197, rfl⟩
abbrev main_c_274 : Ref sig .tc := ⟨.hbm, 1198, rfl⟩
abbrev main_v723 : Ref sig .tc := ⟨.hbm, 1199, rfl⟩
abbrev main_v724 : Ref sig .tc := ⟨.hbm, 1200, rfl⟩
abbrev main_v725 : Ref sig .tc := ⟨.hbm, 1201, rfl⟩
abbrev main_v726 : Ref sig .tc := ⟨.hbm, 1202, rfl⟩
abbrev main_v727 : Ref sig .tc := ⟨.hbm, 1203, rfl⟩
abbrev main_v728 : Ref sig .tc := ⟨.hbm, 1204, rfl⟩
abbrev main_v729 : Ref sig .tc := ⟨.hbm, 1205, rfl⟩
abbrev main_v730 : Ref sig .tc := ⟨.hbm, 1206, rfl⟩
abbrev main_c_275 : Ref sig .tc := ⟨.hbm, 1207, rfl⟩
abbrev main_v731 : Ref sig .tc := ⟨.hbm, 1208, rfl⟩
abbrev main_v732 : Ref sig .tc := ⟨.hbm, 1209, rfl⟩
abbrev main_v733 : Ref sig .tc := ⟨.hbm, 1210, rfl⟩
abbrev main_c_276 : Ref sig .tc := ⟨.hbm, 1211, rfl⟩
abbrev main_call51_v0 : Ref sig .tc := ⟨.hbm, 1212, rfl⟩
abbrev main_call51_v1 : Ref sig .tc := ⟨.hbm, 1213, rfl⟩
abbrev main_v734 : Ref sig .tc := ⟨.hbm, 1214, rfl⟩
abbrev main_c_277 : Ref sig .tc := ⟨.hbm, 1215, rfl⟩
abbrev main_v735 : Ref sig .tc := ⟨.hbm, 1216, rfl⟩
abbrev main_v736 : Ref sig .tc := ⟨.hbm, 1217, rfl⟩
abbrev main_c_278 : Ref sig .tc := ⟨.hbm, 1218, rfl⟩
abbrev main_v737 : Ref sig .tc := ⟨.hbm, 1219, rfl⟩
abbrev main_v738 : Ref sig .tc := ⟨.hbm, 1220, rfl⟩
abbrev main_v739 : Ref sig .tc := ⟨.hbm, 1221, rfl⟩
abbrev main_v740 : Ref sig .tc := ⟨.hbm, 1222, rfl⟩
abbrev main_v741 : Ref sig .tc := ⟨.hbm, 1223, rfl⟩
abbrev main_v742 : Ref sig .tc := ⟨.hbm, 1224, rfl⟩
abbrev main_cst_279 : Ref sig .tc := ⟨.hbm, 1225, rfl⟩
abbrev main_call52_v0 : Ref sig .tc := ⟨.hbm, 1226, rfl⟩
abbrev main_call52_v1 : Ref sig .tc := ⟨.hbm, 1227, rfl⟩
abbrev main_call52_v2 : Ref sig .tc := ⟨.hbm, 1228, rfl⟩
abbrev main_v743 : Ref sig .tc := ⟨.hbm, 1229, rfl⟩
abbrev main_v744 : Ref sig .tc := ⟨.hbm, 1230, rfl⟩
abbrev main_v745 : Ref sig .tc := ⟨.hbm, 1231, rfl⟩
abbrev main_v746 : Ref sig .tc := ⟨.hbm, 1232, rfl⟩
abbrev main_v747 : Ref sig .tc := ⟨.hbm, 1233, rfl⟩
abbrev main_c_280 : Ref sig .tc := ⟨.hbm, 1234, rfl⟩
abbrev main_v748 : Ref sig .tc := ⟨.hbm, 1235, rfl⟩
abbrev main_v749 : Ref sig .tc := ⟨.hbm, 1236, rfl⟩
abbrev main_c_281 : Ref sig .tc := ⟨.hbm, 1237, rfl⟩
abbrev main_v750 : Ref sig .tc := ⟨.hbm, 1238, rfl⟩
abbrev main_v751 : Ref sig .tc := ⟨.hbm, 1239, rfl⟩
abbrev main_c_282 : Ref sig .tc := ⟨.hbm, 1240, rfl⟩
abbrev main_v752 : Ref sig .tc := ⟨.hbm, 1241, rfl⟩
abbrev main_v753 : Ref sig .tc := ⟨.hbm, 1242, rfl⟩
abbrev main_c_283 : Ref sig .tc := ⟨.hbm, 1243, rfl⟩
abbrev main_v754 : Ref sig .tc := ⟨.hbm, 1244, rfl⟩
abbrev main_v755 : Ref sig .tc := ⟨.hbm, 1245, rfl⟩
abbrev main_v756 : Ref sig .tc := ⟨.hbm, 1246, rfl⟩
abbrev main_c_284 : Ref sig .tc := ⟨.hbm, 1247, rfl⟩
abbrev main_v757 : Ref sig .tc := ⟨.hbm, 1248, rfl⟩
abbrev main_v758 : Ref sig .tc := ⟨.hbm, 1249, rfl⟩
abbrev main_v759 : Ref sig .tc := ⟨.hbm, 1250, rfl⟩
abbrev main_c_285 : Ref sig .tc := ⟨.hbm, 1251, rfl⟩
abbrev main_v760 : Ref sig .tc := ⟨.hbm, 1252, rfl⟩
abbrev main_v761 : Ref sig .tc := ⟨.hbm, 1253, rfl⟩
abbrev main_v762 : Ref sig .tc := ⟨.hbm, 1254, rfl⟩
abbrev main_c_286 : Ref sig .tc := ⟨.hbm, 1255, rfl⟩
abbrev main_c_287 : Ref sig .tc := ⟨.hbm, 1256, rfl⟩
abbrev main_call53_v0 : Ref sig .tc := ⟨.hbm, 1257, rfl⟩
abbrev main_call53_v1 : Ref sig .tc := ⟨.hbm, 1258, rfl⟩
abbrev main_call53_v2 : Ref sig .tc := ⟨.hbm, 1259, rfl⟩
abbrev main_call53_v3 : Ref sig .tc := ⟨.hbm, 1260, rfl⟩
abbrev main_call53_v4 : Ref sig .tc := ⟨.hbm, 1261, rfl⟩
abbrev main_v763 : Ref sig .tc := ⟨.hbm, 1262, rfl⟩
abbrev main_c_288 : Ref sig .tc := ⟨.hbm, 1263, rfl⟩
abbrev main_c_289 : Ref sig .tc := ⟨.hbm, 1264, rfl⟩
abbrev main_call54_v0 : Ref sig .tc := ⟨.hbm, 1265, rfl⟩
abbrev main_call54_v1 : Ref sig .tc := ⟨.hbm, 1266, rfl⟩
abbrev main_call54_v2 : Ref sig .tc := ⟨.hbm, 1267, rfl⟩
abbrev main_call54_v3 : Ref sig .tc := ⟨.hbm, 1268, rfl⟩
abbrev main_call54_v4 : Ref sig .tc := ⟨.hbm, 1269, rfl⟩
abbrev main_v764 : Ref sig .tc := ⟨.hbm, 1270, rfl⟩
abbrev main_c_290 : Ref sig .tc := ⟨.hbm, 1271, rfl⟩
abbrev main_v765 : Ref sig .tc := ⟨.hbm, 1272, rfl⟩
abbrev main_v766 : Ref sig .tc := ⟨.hbm, 1273, rfl⟩
abbrev main_c_291 : Ref sig .tc := ⟨.hbm, 1274, rfl⟩
abbrev main_v767 : Ref sig .tc := ⟨.hbm, 1275, rfl⟩
abbrev main_v768 : Ref sig .tc := ⟨.hbm, 1276, rfl⟩
abbrev main_v769 : Ref sig .tc := ⟨.hbm, 1277, rfl⟩
abbrev main_c_292 : Ref sig .tc := ⟨.hbm, 1278, rfl⟩
abbrev main_v770 : Ref sig .tc := ⟨.hbm, 1279, rfl⟩
abbrev main_v771 : Ref sig .tc := ⟨.hbm, 1280, rfl⟩
abbrev main_c_293 : Ref sig .tc := ⟨.hbm, 1281, rfl⟩
abbrev main_v772 : Ref sig .tc := ⟨.hbm, 1282, rfl⟩
abbrev main_v773 : Ref sig .tc := ⟨.hbm, 1283, rfl⟩
abbrev main_v774 : Ref sig .tc := ⟨.hbm, 1284, rfl⟩
abbrev main_c_294 : Ref sig .tc := ⟨.hbm, 1285, rfl⟩
abbrev main_v775 : Ref sig .tc := ⟨.hbm, 1286, rfl⟩
abbrev main_v776 : Ref sig .tc := ⟨.hbm, 1287, rfl⟩
abbrev main_c_295 : Ref sig .tc := ⟨.hbm, 1288, rfl⟩
abbrev main_v777 : Ref sig .tc := ⟨.hbm, 1289, rfl⟩
abbrev main_v778 : Ref sig .tc := ⟨.hbm, 1290, rfl⟩
abbrev main_v779 : Ref sig .tc := ⟨.hbm, 1291, rfl⟩
abbrev main_v780 : Ref sig .tc := ⟨.hbm, 1292, rfl⟩
abbrev main_v781 : Ref sig .tc := ⟨.hbm, 1293, rfl⟩
abbrev main_v782 : Ref sig .tc := ⟨.hbm, 1294, rfl⟩
abbrev main_v783 : Ref sig .tc := ⟨.hbm, 1295, rfl⟩
abbrev main_v784 : Ref sig .tc := ⟨.hbm, 1296, rfl⟩
abbrev main_c_296 : Ref sig .tc := ⟨.hbm, 1297, rfl⟩
abbrev main_v785 : Ref sig .tc := ⟨.hbm, 1298, rfl⟩
abbrev main_v786 : Ref sig .tc := ⟨.hbm, 1299, rfl⟩
abbrev main_v787 : Ref sig .tc := ⟨.hbm, 1300, rfl⟩
abbrev main_c_297 : Ref sig .tc := ⟨.hbm, 1301, rfl⟩
abbrev main_call55_v0 : Ref sig .tc := ⟨.hbm, 1302, rfl⟩
abbrev main_call55_v1 : Ref sig .tc := ⟨.hbm, 1303, rfl⟩
abbrev main_v788 : Ref sig .tc := ⟨.hbm, 1304, rfl⟩
abbrev main_c_298 : Ref sig .tc := ⟨.hbm, 1305, rfl⟩
abbrev main_v789 : Ref sig .tc := ⟨.hbm, 1306, rfl⟩
abbrev main_v790 : Ref sig .tc := ⟨.hbm, 1307, rfl⟩
abbrev main_c_299 : Ref sig .tc := ⟨.hbm, 1308, rfl⟩
abbrev main_v791 : Ref sig .tc := ⟨.hbm, 1309, rfl⟩
abbrev main_v792 : Ref sig .tc := ⟨.hbm, 1310, rfl⟩
abbrev main_v793 : Ref sig .tc := ⟨.hbm, 1311, rfl⟩
abbrev main_v794 : Ref sig .tc := ⟨.hbm, 1312, rfl⟩
abbrev main_v795 : Ref sig .tc := ⟨.hbm, 1313, rfl⟩
abbrev main_v796 : Ref sig .tc := ⟨.hbm, 1314, rfl⟩
abbrev main_cst_300 : Ref sig .tc := ⟨.hbm, 1315, rfl⟩
abbrev main_call56_v0 : Ref sig .tc := ⟨.hbm, 1316, rfl⟩
abbrev main_call56_v1 : Ref sig .tc := ⟨.hbm, 1317, rfl⟩
abbrev main_call56_v2 : Ref sig .tc := ⟨.hbm, 1318, rfl⟩
abbrev main_v797 : Ref sig .tc := ⟨.hbm, 1319, rfl⟩
abbrev main_v798 : Ref sig .tc := ⟨.hbm, 1320, rfl⟩
abbrev main_v799 : Ref sig .tc := ⟨.hbm, 1321, rfl⟩
abbrev main_v800 : Ref sig .tc := ⟨.hbm, 1322, rfl⟩
abbrev main_v801 : Ref sig .tc := ⟨.hbm, 1323, rfl⟩
abbrev main_c_301 : Ref sig .tc := ⟨.hbm, 1324, rfl⟩
abbrev main_v802 : Ref sig .tc := ⟨.hbm, 1325, rfl⟩
abbrev main_v803 : Ref sig .tc := ⟨.hbm, 1326, rfl⟩
abbrev main_c_302 : Ref sig .tc := ⟨.hbm, 1327, rfl⟩
abbrev main_v804 : Ref sig .tc := ⟨.hbm, 1328, rfl⟩
abbrev main_v805 : Ref sig .tc := ⟨.hbm, 1329, rfl⟩
abbrev main_c_303 : Ref sig .tc := ⟨.hbm, 1330, rfl⟩
abbrev main_v806 : Ref sig .tc := ⟨.hbm, 1331, rfl⟩
abbrev main_v807 : Ref sig .tc := ⟨.hbm, 1332, rfl⟩
abbrev main_c_304 : Ref sig .tc := ⟨.hbm, 1333, rfl⟩
abbrev main_v808 : Ref sig .tc := ⟨.hbm, 1334, rfl⟩
abbrev main_v809 : Ref sig .tc := ⟨.hbm, 1335, rfl⟩
abbrev main_v810 : Ref sig .tc := ⟨.hbm, 1336, rfl⟩
abbrev main_c_305 : Ref sig .tc := ⟨.hbm, 1337, rfl⟩
abbrev main_v811 : Ref sig .tc := ⟨.hbm, 1338, rfl⟩
abbrev main_v812 : Ref sig .tc := ⟨.hbm, 1339, rfl⟩
abbrev main_v813 : Ref sig .tc := ⟨.hbm, 1340, rfl⟩
abbrev main_c_306 : Ref sig .tc := ⟨.hbm, 1341, rfl⟩
abbrev main_v814 : Ref sig .tc := ⟨.hbm, 1342, rfl⟩
abbrev main_v815 : Ref sig .tc := ⟨.hbm, 1343, rfl⟩
abbrev main_v816 : Ref sig .tc := ⟨.hbm, 1344, rfl⟩
abbrev main_c_307 : Ref sig .tc := ⟨.hbm, 1345, rfl⟩
abbrev main_c_308 : Ref sig .tc := ⟨.hbm, 1346, rfl⟩
abbrev main_call57_v0 : Ref sig .tc := ⟨.hbm, 1347, rfl⟩
abbrev main_call57_v1 : Ref sig .tc := ⟨.hbm, 1348, rfl⟩
abbrev main_call57_v2 : Ref sig .tc := ⟨.hbm, 1349, rfl⟩
abbrev main_call57_v3 : Ref sig .tc := ⟨.hbm, 1350, rfl⟩
abbrev main_call57_v4 : Ref sig .tc := ⟨.hbm, 1351, rfl⟩
abbrev main_v817 : Ref sig .tc := ⟨.hbm, 1352, rfl⟩
abbrev main_c_309 : Ref sig .tc := ⟨.hbm, 1353, rfl⟩
abbrev main_c_310 : Ref sig .tc := ⟨.hbm, 1354, rfl⟩
abbrev main_call58_v0 : Ref sig .tc := ⟨.hbm, 1355, rfl⟩
abbrev main_call58_v1 : Ref sig .tc := ⟨.hbm, 1356, rfl⟩
abbrev main_call58_v2 : Ref sig .tc := ⟨.hbm, 1357, rfl⟩
abbrev main_call58_v3 : Ref sig .tc := ⟨.hbm, 1358, rfl⟩
abbrev main_call58_v4 : Ref sig .tc := ⟨.hbm, 1359, rfl⟩
abbrev main_v818 : Ref sig .tc := ⟨.hbm, 1360, rfl⟩
abbrev main_c_311 : Ref sig .tc := ⟨.hbm, 1361, rfl⟩
abbrev main_v819 : Ref sig .tc := ⟨.hbm, 1362, rfl⟩
abbrev main_v820 : Ref sig .tc := ⟨.hbm, 1363, rfl⟩
abbrev main_c_312 : Ref sig .tc := ⟨.hbm, 1364, rfl⟩
abbrev main_v821 : Ref sig .tc := ⟨.hbm, 1365, rfl⟩
abbrev main_v822 : Ref sig .tc := ⟨.hbm, 1366, rfl⟩
abbrev main_v823 : Ref sig .tc := ⟨.hbm, 1367, rfl⟩
abbrev main_c_313 : Ref sig .tc := ⟨.hbm, 1368, rfl⟩
abbrev main_v824 : Ref sig .tc := ⟨.hbm, 1369, rfl⟩
abbrev main_v825 : Ref sig .tc := ⟨.hbm, 1370, rfl⟩
abbrev main_c_314 : Ref sig .tc := ⟨.hbm, 1371, rfl⟩
abbrev main_v826 : Ref sig .tc := ⟨.hbm, 1372, rfl⟩
abbrev main_v827 : Ref sig .tc := ⟨.hbm, 1373, rfl⟩
abbrev main_v828 : Ref sig .tc := ⟨.hbm, 1374, rfl⟩
abbrev main_c_315 : Ref sig .tc := ⟨.hbm, 1375, rfl⟩
abbrev main_v829 : Ref sig .tc := ⟨.hbm, 1376, rfl⟩
abbrev main_v830 : Ref sig .tc := ⟨.hbm, 1377, rfl⟩
abbrev main_c_316 : Ref sig .tc := ⟨.hbm, 1378, rfl⟩
abbrev main_v831 : Ref sig .tc := ⟨.hbm, 1379, rfl⟩
abbrev main_v832 : Ref sig .tc := ⟨.hbm, 1380, rfl⟩
abbrev main_v833 : Ref sig .tc := ⟨.hbm, 1381, rfl⟩
abbrev main_v834 : Ref sig .tc := ⟨.hbm, 1382, rfl⟩
abbrev main_v835 : Ref sig .tc := ⟨.hbm, 1383, rfl⟩
abbrev main_v836 : Ref sig .tc := ⟨.hbm, 1384, rfl⟩
abbrev main_v837 : Ref sig .tc := ⟨.hbm, 1385, rfl⟩
abbrev main_v838 : Ref sig .tc := ⟨.hbm, 1386, rfl⟩
abbrev main_c_317 : Ref sig .tc := ⟨.hbm, 1387, rfl⟩
abbrev main_v839 : Ref sig .tc := ⟨.hbm, 1388, rfl⟩
abbrev main_v840 : Ref sig .tc := ⟨.hbm, 1389, rfl⟩
abbrev main_v841 : Ref sig .tc := ⟨.hbm, 1390, rfl⟩
abbrev main_c_318 : Ref sig .tc := ⟨.hbm, 1391, rfl⟩
abbrev main_call59_v0 : Ref sig .tc := ⟨.hbm, 1392, rfl⟩
abbrev main_call59_v1 : Ref sig .tc := ⟨.hbm, 1393, rfl⟩
abbrev main_v842 : Ref sig .tc := ⟨.hbm, 1394, rfl⟩
abbrev main_c_319 : Ref sig .tc := ⟨.hbm, 1395, rfl⟩
abbrev main_v843 : Ref sig .tc := ⟨.hbm, 1396, rfl⟩
abbrev main_v844 : Ref sig .tc := ⟨.hbm, 1397, rfl⟩
abbrev main_c_320 : Ref sig .tc := ⟨.hbm, 1398, rfl⟩
abbrev main_v845 : Ref sig .tc := ⟨.hbm, 1399, rfl⟩
abbrev main_v846 : Ref sig .tc := ⟨.hbm, 1400, rfl⟩
abbrev main_v847 : Ref sig .tc := ⟨.hbm, 1401, rfl⟩
abbrev main_v848 : Ref sig .tc := ⟨.hbm, 1402, rfl⟩
abbrev main_v849 : Ref sig .tc := ⟨.hbm, 1403, rfl⟩
abbrev main_v850 : Ref sig .tc := ⟨.hbm, 1404, rfl⟩
abbrev main_cst_321 : Ref sig .tc := ⟨.hbm, 1405, rfl⟩
abbrev main_call60_v0 : Ref sig .tc := ⟨.hbm, 1406, rfl⟩
abbrev main_call60_v1 : Ref sig .tc := ⟨.hbm, 1407, rfl⟩
abbrev main_call60_v2 : Ref sig .tc := ⟨.hbm, 1408, rfl⟩
abbrev main_v851 : Ref sig .tc := ⟨.hbm, 1409, rfl⟩
abbrev main_v852 : Ref sig .tc := ⟨.hbm, 1410, rfl⟩
abbrev main_v853 : Ref sig .tc := ⟨.hbm, 1411, rfl⟩
abbrev main_v854 : Ref sig .tc := ⟨.hbm, 1412, rfl⟩
abbrev main_v855 : Ref sig .tc := ⟨.hbm, 1413, rfl⟩
abbrev main_c_322 : Ref sig .tc := ⟨.hbm, 1414, rfl⟩
abbrev main_v856 : Ref sig .tc := ⟨.hbm, 1415, rfl⟩
abbrev main_v857 : Ref sig .tc := ⟨.hbm, 1416, rfl⟩
abbrev main_c_323 : Ref sig .tc := ⟨.hbm, 1417, rfl⟩
abbrev main_v858 : Ref sig .tc := ⟨.hbm, 1418, rfl⟩
abbrev main_v859 : Ref sig .tc := ⟨.hbm, 1419, rfl⟩
abbrev main_c_324 : Ref sig .tc := ⟨.hbm, 1420, rfl⟩
abbrev main_v860 : Ref sig .tc := ⟨.hbm, 1421, rfl⟩
abbrev main_v861 : Ref sig .tc := ⟨.hbm, 1422, rfl⟩
abbrev main_c_325 : Ref sig .tc := ⟨.hbm, 1423, rfl⟩
abbrev main_v862 : Ref sig .tc := ⟨.hbm, 1424, rfl⟩
abbrev main_v863 : Ref sig .tc := ⟨.hbm, 1425, rfl⟩
abbrev main_v864 : Ref sig .tc := ⟨.hbm, 1426, rfl⟩
abbrev main_c_326 : Ref sig .tc := ⟨.hbm, 1427, rfl⟩
abbrev main_v865 : Ref sig .tc := ⟨.hbm, 1428, rfl⟩
abbrev main_v866 : Ref sig .tc := ⟨.hbm, 1429, rfl⟩
abbrev main_v867 : Ref sig .tc := ⟨.hbm, 1430, rfl⟩
abbrev main_c_327 : Ref sig .tc := ⟨.hbm, 1431, rfl⟩
abbrev main_v868 : Ref sig .tc := ⟨.hbm, 1432, rfl⟩
abbrev main_v869 : Ref sig .tc := ⟨.hbm, 1433, rfl⟩
abbrev main_v870 : Ref sig .tc := ⟨.hbm, 1434, rfl⟩
abbrev main_c_328 : Ref sig .tc := ⟨.hbm, 1435, rfl⟩
abbrev main_c_329 : Ref sig .tc := ⟨.hbm, 1436, rfl⟩
abbrev main_call61_v0 : Ref sig .tc := ⟨.hbm, 1437, rfl⟩
abbrev main_call61_v1 : Ref sig .tc := ⟨.hbm, 1438, rfl⟩
abbrev main_call61_v2 : Ref sig .tc := ⟨.hbm, 1439, rfl⟩
abbrev main_call61_v3 : Ref sig .tc := ⟨.hbm, 1440, rfl⟩
abbrev main_call61_v4 : Ref sig .tc := ⟨.hbm, 1441, rfl⟩
abbrev main_v871 : Ref sig .tc := ⟨.hbm, 1442, rfl⟩
abbrev main_c_330 : Ref sig .tc := ⟨.hbm, 1443, rfl⟩
abbrev main_c_331 : Ref sig .tc := ⟨.hbm, 1444, rfl⟩
abbrev main_call62_v0 : Ref sig .tc := ⟨.hbm, 1445, rfl⟩
abbrev main_call62_v1 : Ref sig .tc := ⟨.hbm, 1446, rfl⟩
abbrev main_call62_v2 : Ref sig .tc := ⟨.hbm, 1447, rfl⟩
abbrev main_call62_v3 : Ref sig .tc := ⟨.hbm, 1448, rfl⟩
abbrev main_call62_v4 : Ref sig .tc := ⟨.hbm, 1449, rfl⟩
abbrev main_v872 : Ref sig .tc := ⟨.hbm, 1450, rfl⟩
abbrev main_c_332 : Ref sig .tc := ⟨.hbm, 1451, rfl⟩
abbrev main_v873 : Ref sig .tc := ⟨.hbm, 1452, rfl⟩
abbrev main_v874 : Ref sig .tc := ⟨.hbm, 1453, rfl⟩
abbrev main_c_333 : Ref sig .tc := ⟨.hbm, 1454, rfl⟩
abbrev main_v875 : Ref sig .tc := ⟨.hbm, 1455, rfl⟩
abbrev main_v876 : Ref sig .tc := ⟨.hbm, 1456, rfl⟩
abbrev main_v877 : Ref sig .tc := ⟨.hbm, 1457, rfl⟩
abbrev main_c_334 : Ref sig .tc := ⟨.hbm, 1458, rfl⟩
abbrev main_v878 : Ref sig .tc := ⟨.hbm, 1459, rfl⟩
abbrev main_v879 : Ref sig .tc := ⟨.hbm, 1460, rfl⟩
abbrev main_c_335 : Ref sig .tc := ⟨.hbm, 1461, rfl⟩
abbrev main_v880 : Ref sig .tc := ⟨.hbm, 1462, rfl⟩
abbrev main_v881 : Ref sig .tc := ⟨.hbm, 1463, rfl⟩
abbrev main_v882 : Ref sig .tc := ⟨.hbm, 1464, rfl⟩
abbrev main_c_336 : Ref sig .tc := ⟨.hbm, 1465, rfl⟩
abbrev main_v883 : Ref sig .tc := ⟨.hbm, 1466, rfl⟩
abbrev main_v884 : Ref sig .tc := ⟨.hbm, 1467, rfl⟩
abbrev main_c_337 : Ref sig .tc := ⟨.hbm, 1468, rfl⟩
abbrev main_v885 : Ref sig .tc := ⟨.hbm, 1469, rfl⟩
abbrev main_v886 : Ref sig .tc := ⟨.hbm, 1470, rfl⟩
abbrev main_v887 : Ref sig .tc := ⟨.hbm, 1471, rfl⟩
abbrev main_v888 : Ref sig .tc := ⟨.hbm, 1472, rfl⟩
abbrev main_v889 : Ref sig .tc := ⟨.hbm, 1473, rfl⟩
abbrev main_v890 : Ref sig .tc := ⟨.hbm, 1474, rfl⟩
abbrev main_v891 : Ref sig .tc := ⟨.hbm, 1475, rfl⟩
abbrev main_v892 : Ref sig .tc := ⟨.hbm, 1476, rfl⟩
abbrev main_c_338 : Ref sig .tc := ⟨.hbm, 1477, rfl⟩
abbrev main_v893 : Ref sig .tc := ⟨.hbm, 1478, rfl⟩
abbrev main_v894 : Ref sig .tc := ⟨.hbm, 1479, rfl⟩
abbrev main_v895 : Ref sig .tc := ⟨.hbm, 1480, rfl⟩
abbrev main_c_339 : Ref sig .tc := ⟨.hbm, 1481, rfl⟩
abbrev main_call63_v0 : Ref sig .tc := ⟨.hbm, 1482, rfl⟩
abbrev main_call63_v1 : Ref sig .tc := ⟨.hbm, 1483, rfl⟩
abbrev main_v896 : Ref sig .tc := ⟨.hbm, 1484, rfl⟩
abbrev main_c_340 : Ref sig .tc := ⟨.hbm, 1485, rfl⟩
abbrev main_v897 : Ref sig .tc := ⟨.hbm, 1486, rfl⟩
abbrev main_v898 : Ref sig .tc := ⟨.hbm, 1487, rfl⟩
abbrev main_c_341 : Ref sig .tc := ⟨.hbm, 1488, rfl⟩
abbrev main_v899 : Ref sig .tc := ⟨.hbm, 1489, rfl⟩
abbrev main_v900 : Ref sig .tc := ⟨.hbm, 1490, rfl⟩
abbrev main_v901 : Ref sig .tc := ⟨.hbm, 1491, rfl⟩
abbrev main_v902 : Ref sig .tc := ⟨.hbm, 1492, rfl⟩
abbrev main_v903 : Ref sig .tc := ⟨.hbm, 1493, rfl⟩
abbrev main_v904 : Ref sig .tc := ⟨.hbm, 1494, rfl⟩
abbrev main_cst_342 : Ref sig .tc := ⟨.hbm, 1495, rfl⟩
abbrev main_call64_v0 : Ref sig .tc := ⟨.hbm, 1496, rfl⟩
abbrev main_call64_v1 : Ref sig .tc := ⟨.hbm, 1497, rfl⟩
abbrev main_call64_v2 : Ref sig .tc := ⟨.hbm, 1498, rfl⟩
abbrev main_v905 : Ref sig .tc := ⟨.hbm, 1499, rfl⟩
abbrev main_v906 : Ref sig .tc := ⟨.hbm, 1500, rfl⟩
abbrev main_v907 : Ref sig .tc := ⟨.hbm, 1501, rfl⟩
abbrev main_v908 : Ref sig .tc := ⟨.hbm, 1502, rfl⟩
abbrev main_v909 : Ref sig .tc := ⟨.hbm, 1503, rfl⟩
abbrev main_c_343 : Ref sig .tc := ⟨.hbm, 1504, rfl⟩
abbrev main_v910 : Ref sig .tc := ⟨.hbm, 1505, rfl⟩
abbrev main_v911 : Ref sig .tc := ⟨.hbm, 1506, rfl⟩
abbrev main_c_344 : Ref sig .tc := ⟨.hbm, 1507, rfl⟩
abbrev main_v912 : Ref sig .tc := ⟨.hbm, 1508, rfl⟩
abbrev main_v913 : Ref sig .tc := ⟨.hbm, 1509, rfl⟩
abbrev main_c_345 : Ref sig .tc := ⟨.hbm, 1510, rfl⟩
abbrev main_v914 : Ref sig .tc := ⟨.hbm, 1511, rfl⟩
abbrev main_v915 : Ref sig .tc := ⟨.hbm, 1512, rfl⟩
abbrev main_c_346 : Ref sig .tc := ⟨.hbm, 1513, rfl⟩
abbrev main_v916 : Ref sig .tc := ⟨.hbm, 1514, rfl⟩
abbrev main_v917 : Ref sig .tc := ⟨.hbm, 1515, rfl⟩
abbrev main_v918 : Ref sig .tc := ⟨.hbm, 1516, rfl⟩
abbrev main_c_347 : Ref sig .tc := ⟨.hbm, 1517, rfl⟩
abbrev main_v919 : Ref sig .tc := ⟨.hbm, 1518, rfl⟩
abbrev main_v920 : Ref sig .tc := ⟨.hbm, 1519, rfl⟩
abbrev main_v921 : Ref sig .tc := ⟨.hbm, 1520, rfl⟩
abbrev main_c_348 : Ref sig .tc := ⟨.hbm, 1521, rfl⟩
abbrev main_v922 : Ref sig .tc := ⟨.hbm, 1522, rfl⟩
abbrev main_v923 : Ref sig .tc := ⟨.hbm, 1523, rfl⟩
abbrev main_v924 : Ref sig .tc := ⟨.hbm, 1524, rfl⟩
abbrev main_c_349 : Ref sig .tc := ⟨.hbm, 1525, rfl⟩
abbrev main_c_350 : Ref sig .tc := ⟨.hbm, 1526, rfl⟩
abbrev main_call65_v0 : Ref sig .tc := ⟨.hbm, 1527, rfl⟩
abbrev main_call65_v1 : Ref sig .tc := ⟨.hbm, 1528, rfl⟩
abbrev main_call65_v2 : Ref sig .tc := ⟨.hbm, 1529, rfl⟩
abbrev main_call65_v3 : Ref sig .tc := ⟨.hbm, 1530, rfl⟩
abbrev main_call65_v4 : Ref sig .tc := ⟨.hbm, 1531, rfl⟩
abbrev main_v925 : Ref sig .tc := ⟨.hbm, 1532, rfl⟩
abbrev main_c_351 : Ref sig .tc := ⟨.hbm, 1533, rfl⟩
abbrev main_c_352 : Ref sig .tc := ⟨.hbm, 1534, rfl⟩
abbrev main_call66_v0 : Ref sig .tc := ⟨.hbm, 1535, rfl⟩
abbrev main_call66_v1 : Ref sig .tc := ⟨.hbm, 1536, rfl⟩
abbrev main_call66_v2 : Ref sig .tc := ⟨.hbm, 1537, rfl⟩
abbrev main_call66_v3 : Ref sig .tc := ⟨.hbm, 1538, rfl⟩
abbrev main_call66_v4 : Ref sig .tc := ⟨.hbm, 1539, rfl⟩
abbrev main_v926 : Ref sig .tc := ⟨.hbm, 1540, rfl⟩
abbrev main_c_353 : Ref sig .tc := ⟨.hbm, 1541, rfl⟩
abbrev main_v927 : Ref sig .tc := ⟨.hbm, 1542, rfl⟩
abbrev main_v928 : Ref sig .tc := ⟨.hbm, 1543, rfl⟩
abbrev main_c_354 : Ref sig .tc := ⟨.hbm, 1544, rfl⟩
abbrev main_v929 : Ref sig .tc := ⟨.hbm, 1545, rfl⟩
abbrev main_v930 : Ref sig .tc := ⟨.hbm, 1546, rfl⟩
abbrev main_v931 : Ref sig .tc := ⟨.hbm, 1547, rfl⟩
abbrev main_c_355 : Ref sig .tc := ⟨.hbm, 1548, rfl⟩
abbrev main_v932 : Ref sig .tc := ⟨.hbm, 1549, rfl⟩
abbrev main_v933 : Ref sig .tc := ⟨.hbm, 1550, rfl⟩
abbrev main_c_356 : Ref sig .tc := ⟨.hbm, 1551, rfl⟩
abbrev main_v934 : Ref sig .tc := ⟨.hbm, 1552, rfl⟩
abbrev main_v935 : Ref sig .tc := ⟨.hbm, 1553, rfl⟩
abbrev main_v936 : Ref sig .tc := ⟨.hbm, 1554, rfl⟩
abbrev main_c_357 : Ref sig .tc := ⟨.hbm, 1555, rfl⟩
abbrev main_v937 : Ref sig .tc := ⟨.hbm, 1556, rfl⟩
abbrev main_v938 : Ref sig .tc := ⟨.hbm, 1557, rfl⟩
abbrev main_c_358 : Ref sig .tc := ⟨.hbm, 1558, rfl⟩
abbrev main_v939 : Ref sig .tc := ⟨.hbm, 1559, rfl⟩
abbrev main_v940 : Ref sig .tc := ⟨.hbm, 1560, rfl⟩
abbrev main_v941 : Ref sig .tc := ⟨.hbm, 1561, rfl⟩
abbrev main_v942 : Ref sig .tc := ⟨.hbm, 1562, rfl⟩
abbrev main_v943 : Ref sig .tc := ⟨.hbm, 1563, rfl⟩
abbrev main_v944 : Ref sig .tc := ⟨.hbm, 1564, rfl⟩
abbrev main_v945 : Ref sig .tc := ⟨.hbm, 1565, rfl⟩
abbrev main_v946 : Ref sig .tc := ⟨.hbm, 1566, rfl⟩
abbrev main_c_359 : Ref sig .tc := ⟨.hbm, 1567, rfl⟩
abbrev main_v947 : Ref sig .tc := ⟨.hbm, 1568, rfl⟩
abbrev main_v948 : Ref sig .tc := ⟨.hbm, 1569, rfl⟩
abbrev main_v949 : Ref sig .tc := ⟨.hbm, 1570, rfl⟩
abbrev main_c_360 : Ref sig .tc := ⟨.hbm, 1571, rfl⟩
abbrev main_call67_v0 : Ref sig .tc := ⟨.hbm, 1572, rfl⟩
abbrev main_call67_v1 : Ref sig .tc := ⟨.hbm, 1573, rfl⟩
abbrev main_v950 : Ref sig .tc := ⟨.hbm, 1574, rfl⟩
abbrev main_c_361 : Ref sig .tc := ⟨.hbm, 1575, rfl⟩
abbrev main_v951 : Ref sig .tc := ⟨.hbm, 1576, rfl⟩
abbrev main_v952 : Ref sig .tc := ⟨.hbm, 1577, rfl⟩
abbrev main_c_362 : Ref sig .tc := ⟨.hbm, 1578, rfl⟩
abbrev main_v953 : Ref sig .tc := ⟨.hbm, 1579, rfl⟩
abbrev main_v954 : Ref sig .tc := ⟨.hbm, 1580, rfl⟩
abbrev main_v955 : Ref sig .tc := ⟨.hbm, 1581, rfl⟩
abbrev main_v956 : Ref sig .tc := ⟨.hbm, 1582, rfl⟩
abbrev main_v957 : Ref sig .tc := ⟨.hbm, 1583, rfl⟩
abbrev main_v958 : Ref sig .tc := ⟨.hbm, 1584, rfl⟩
abbrev main_cst_363 : Ref sig .tc := ⟨.hbm, 1585, rfl⟩
abbrev main_call68_v0 : Ref sig .tc := ⟨.hbm, 1586, rfl⟩
abbrev main_call68_v1 : Ref sig .tc := ⟨.hbm, 1587, rfl⟩
abbrev main_call68_v2 : Ref sig .tc := ⟨.hbm, 1588, rfl⟩
abbrev main_v959 : Ref sig .tc := ⟨.hbm, 1589, rfl⟩
abbrev main_v960 : Ref sig .tc := ⟨.hbm, 1590, rfl⟩
abbrev main_v961 : Ref sig .tc := ⟨.hbm, 1591, rfl⟩
abbrev main_v962 : Ref sig .tc := ⟨.hbm, 1592, rfl⟩
abbrev main_v963 : Ref sig .tc := ⟨.hbm, 1593, rfl⟩
abbrev main_c_364 : Ref sig .tc := ⟨.hbm, 1594, rfl⟩
abbrev main_v964 : Ref sig .tc := ⟨.hbm, 1595, rfl⟩
abbrev main_v965 : Ref sig .tc := ⟨.hbm, 1596, rfl⟩
abbrev main_c_365 : Ref sig .tc := ⟨.hbm, 1597, rfl⟩
abbrev main_v966 : Ref sig .tc := ⟨.hbm, 1598, rfl⟩
abbrev main_v967 : Ref sig .tc := ⟨.hbm, 1599, rfl⟩
abbrev main_c_366 : Ref sig .tc := ⟨.hbm, 1600, rfl⟩
abbrev main_v968 : Ref sig .tc := ⟨.hbm, 1601, rfl⟩
abbrev main_v969 : Ref sig .tc := ⟨.hbm, 1602, rfl⟩
abbrev main_c_367 : Ref sig .tc := ⟨.hbm, 1603, rfl⟩
abbrev main_v970 : Ref sig .tc := ⟨.hbm, 1604, rfl⟩
abbrev main_v971 : Ref sig .tc := ⟨.hbm, 1605, rfl⟩
abbrev main_v972 : Ref sig .tc := ⟨.hbm, 1606, rfl⟩
abbrev main_c_368 : Ref sig .tc := ⟨.hbm, 1607, rfl⟩
abbrev main_v973 : Ref sig .tc := ⟨.hbm, 1608, rfl⟩
abbrev main_v974 : Ref sig .tc := ⟨.hbm, 1609, rfl⟩
abbrev main_v975 : Ref sig .tc := ⟨.hbm, 1610, rfl⟩
abbrev main_c_369 : Ref sig .tc := ⟨.hbm, 1611, rfl⟩
abbrev main_v976 : Ref sig .tc := ⟨.hbm, 1612, rfl⟩
abbrev main_v977 : Ref sig .tc := ⟨.hbm, 1613, rfl⟩
abbrev main_v978 : Ref sig .tc := ⟨.hbm, 1614, rfl⟩
abbrev main_c_370 : Ref sig .tc := ⟨.hbm, 1615, rfl⟩
abbrev main_c_371 : Ref sig .tc := ⟨.hbm, 1616, rfl⟩
abbrev main_call69_v0 : Ref sig .tc := ⟨.hbm, 1617, rfl⟩
abbrev main_call69_v1 : Ref sig .tc := ⟨.hbm, 1618, rfl⟩
abbrev main_call69_v2 : Ref sig .tc := ⟨.hbm, 1619, rfl⟩
abbrev main_call69_v3 : Ref sig .tc := ⟨.hbm, 1620, rfl⟩
abbrev main_call69_v4 : Ref sig .tc := ⟨.hbm, 1621, rfl⟩
abbrev main_v979 : Ref sig .tc := ⟨.hbm, 1622, rfl⟩
abbrev main_c_372 : Ref sig .tc := ⟨.hbm, 1623, rfl⟩
abbrev main_c_373 : Ref sig .tc := ⟨.hbm, 1624, rfl⟩
abbrev main_call70_v0 : Ref sig .tc := ⟨.hbm, 1625, rfl⟩
abbrev main_call70_v1 : Ref sig .tc := ⟨.hbm, 1626, rfl⟩
abbrev main_call70_v2 : Ref sig .tc := ⟨.hbm, 1627, rfl⟩
abbrev main_call70_v3 : Ref sig .tc := ⟨.hbm, 1628, rfl⟩
abbrev main_call70_v4 : Ref sig .tc := ⟨.hbm, 1629, rfl⟩
abbrev main_v980 : Ref sig .tc := ⟨.hbm, 1630, rfl⟩
abbrev main_c_374 : Ref sig .tc := ⟨.hbm, 1631, rfl⟩
abbrev main_v981 : Ref sig .tc := ⟨.hbm, 1632, rfl⟩
abbrev main_v982 : Ref sig .tc := ⟨.hbm, 1633, rfl⟩
abbrev main_c_375 : Ref sig .tc := ⟨.hbm, 1634, rfl⟩
abbrev main_v983 : Ref sig .tc := ⟨.hbm, 1635, rfl⟩
abbrev main_v984 : Ref sig .tc := ⟨.hbm, 1636, rfl⟩
abbrev main_v985 : Ref sig .tc := ⟨.hbm, 1637, rfl⟩
abbrev main_c_376 : Ref sig .tc := ⟨.hbm, 1638, rfl⟩
abbrev main_v986 : Ref sig .tc := ⟨.hbm, 1639, rfl⟩
abbrev main_v987 : Ref sig .tc := ⟨.hbm, 1640, rfl⟩
abbrev main_c_377 : Ref sig .tc := ⟨.hbm, 1641, rfl⟩
abbrev main_v988 : Ref sig .tc := ⟨.hbm, 1642, rfl⟩
abbrev main_v989 : Ref sig .tc := ⟨.hbm, 1643, rfl⟩
abbrev main_v990 : Ref sig .tc := ⟨.hbm, 1644, rfl⟩
abbrev main_c_378 : Ref sig .tc := ⟨.hbm, 1645, rfl⟩
abbrev main_v991 : Ref sig .tc := ⟨.hbm, 1646, rfl⟩
abbrev main_v992 : Ref sig .tc := ⟨.hbm, 1647, rfl⟩
abbrev main_c_379 : Ref sig .tc := ⟨.hbm, 1648, rfl⟩
abbrev main_v993 : Ref sig .tc := ⟨.hbm, 1649, rfl⟩
abbrev main_v994 : Ref sig .tc := ⟨.hbm, 1650, rfl⟩
abbrev main_v995 : Ref sig .tc := ⟨.hbm, 1651, rfl⟩
abbrev main_v996 : Ref sig .tc := ⟨.hbm, 1652, rfl⟩
abbrev main_v997 : Ref sig .tc := ⟨.hbm, 1653, rfl⟩
abbrev main_v998 : Ref sig .tc := ⟨.hbm, 1654, rfl⟩
abbrev main_v999 : Ref sig .tc := ⟨.hbm, 1655, rfl⟩
abbrev main_v1000 : Ref sig .tc := ⟨.hbm, 1656, rfl⟩
abbrev main_c_380 : Ref sig .tc := ⟨.hbm, 1657, rfl⟩
abbrev main_v1001 : Ref sig .tc := ⟨.hbm, 1658, rfl⟩
abbrev main_v1002 : Ref sig .tc := ⟨.hbm, 1659, rfl⟩
abbrev main_v1003 : Ref sig .tc := ⟨.hbm, 1660, rfl⟩
abbrev main_c_381 : Ref sig .tc := ⟨.hbm, 1661, rfl⟩
abbrev main_call71_v0 : Ref sig .tc := ⟨.hbm, 1662, rfl⟩
abbrev main_call71_v1 : Ref sig .tc := ⟨.hbm, 1663, rfl⟩
abbrev main_v1004 : Ref sig .tc := ⟨.hbm, 1664, rfl⟩
abbrev main_c_382 : Ref sig .tc := ⟨.hbm, 1665, rfl⟩
abbrev main_v1005 : Ref sig .tc := ⟨.hbm, 1666, rfl⟩
abbrev main_v1006 : Ref sig .tc := ⟨.hbm, 1667, rfl⟩
abbrev main_c_383 : Ref sig .tc := ⟨.hbm, 1668, rfl⟩
abbrev main_v1007 : Ref sig .tc := ⟨.hbm, 1669, rfl⟩
abbrev main_v1008 : Ref sig .tc := ⟨.hbm, 1670, rfl⟩
abbrev main_v1009 : Ref sig .tc := ⟨.hbm, 1671, rfl⟩
abbrev main_v1010 : Ref sig .tc := ⟨.hbm, 1672, rfl⟩
abbrev main_v1011 : Ref sig .tc := ⟨.hbm, 1673, rfl⟩
abbrev main_v1012 : Ref sig .tc := ⟨.hbm, 1674, rfl⟩
abbrev main_cst_384 : Ref sig .tc := ⟨.hbm, 1675, rfl⟩
abbrev main_call72_v0 : Ref sig .tc := ⟨.hbm, 1676, rfl⟩
abbrev main_call72_v1 : Ref sig .tc := ⟨.hbm, 1677, rfl⟩
abbrev main_call72_v2 : Ref sig .tc := ⟨.hbm, 1678, rfl⟩
abbrev main_v1013 : Ref sig .tc := ⟨.hbm, 1679, rfl⟩
abbrev main_v1014 : Ref sig .tc := ⟨.hbm, 1680, rfl⟩
abbrev main_v1015 : Ref sig .tc := ⟨.hbm, 1681, rfl⟩
abbrev main_v1016 : Ref sig .tc := ⟨.hbm, 1682, rfl⟩
abbrev main_v1017 : Ref sig .tc := ⟨.hbm, 1683, rfl⟩
abbrev main_v1018 : Ref sig .tc := ⟨.hbm, 1684, rfl⟩
abbrev main_v1019 : Ref sig .tc := ⟨.hbm, 1685, rfl⟩
abbrev main_v1020 : Ref sig .tc := ⟨.hbm, 1686, rfl⟩
abbrev main_call73_cst : Ref sig .tc := ⟨.hbm, 1687, rfl⟩
abbrev main_call73_v0 : Ref sig .tc := ⟨.hbm, 1688, rfl⟩
abbrev main_v1021 : Ref sig .tc := ⟨.hbm, 1689, rfl⟩
abbrev main_v1022 : Ref sig .tc := ⟨.hbm, 1690, rfl⟩
abbrev main_v1023 : Ref sig .tc := ⟨.hbm, 1691, rfl⟩
abbrev main_call74_cst : Ref sig .tc := ⟨.hbm, 1692, rfl⟩
abbrev main_call74_v0 : Ref sig .tc := ⟨.hbm, 1693, rfl⟩
abbrev main_v1024 : Ref sig .tc := ⟨.hbm, 1694, rfl⟩

abbrev nD : Nat := 1
abbrev τ : Topo := Topo.v7x

variable {F : FTy → Type} [FloatOps F]

class Facts₀ : Prop where
  bcast_S_S2x640x640 : S_.BroadcastsInDim S2x640x640 (![] : Fin 0 → Fin S2x640x640.rank)
  slices_S409600x3_S409600x1_0_0 : S409600x3.Slices ![0, 0] S409600x1
  shapeCasts_S409600x1_S409600 : S409600x1.ShapeCasts S409600
  slices_S409600x3_S409600x1_0_1 : S409600x3.Slices ![0, 1] S409600x1
  slices_S409600x3_S409600x1_0_2 : S409600x3.Slices ![0, 2] S409600x1
  bcast_S_S409600 : S_.BroadcastsInDim S409600 (![] : Fin 0 → Fin S409600.rank)
  bcast_S409600_S409600x1_0 : S409600.BroadcastsInDim S409600x1 (![0] : Fin 1 → Fin S409600x1.rank)
  concatenates_S409600x1_S409600x1_S409600x1_S409600x3_d1 : Shape.Concatenates [S409600x1, S409600x1, S409600x1] S409600x3 1
  bcast_S_S409600x64 : S_.BroadcastsInDim S409600x64 (![] : Fin 0 → Fin S409600x64.rank)
  bcast_S409600x1_S409600x64_0_1 : S409600x1.BroadcastsInDim S409600x64 (![0, 1] : Fin 2 → Fin S409600x64.rank)
  slices_S3x3x64x64_S1x1x64x64_0_0_0_0 : S3x3x64x64.Slices ![0, 0, 0, 0] S1x1x64x64
  shapeCasts_S1x1x64x64_S64x64 : S1x1x64x64.ShapeCasts S64x64
  slices_S3x3x64x64_S1x1x64x64_0_1_0_0 : S3x3x64x64.Slices ![0, 1, 0, 0] S1x1x64x64
  slices_S3x3x64x64_S1x1x64x64_0_2_0_0 : S3x3x64x64.Slices ![0, 2, 0, 0] S1x1x64x64
  slices_S3x3x64x64_S1x1x64x64_1_0_0_0 : S3x3x64x64.Slices ![1, 0, 0, 0] S1x1x64x64
  slices_S3x3x64x64_S1x1x64x64_1_1_0_0 : S3x3x64x64.Slices ![1, 1, 0, 0] S1x1x64x64
  slices_S3x3x64x64_S1x1x64x64_1_2_0_0 : S3x3x64x64.Slices ![1, 2, 0, 0] S1x1x64x64
  slices_S3x3x64x64_S1x1x64x64_2_0_0_0 : S3x3x64x64.Slices ![2, 0, 0, 0] S1x1x64x64
  slices_S3x3x64x64_S1x1x64x64_2_1_0_0 : S3x3x64x64.Slices ![2, 1, 0, 0] S1x1x64x64
  slices_S3x3x64x64_S1x1x64x64_2_2_0_0 : S3x3x64x64.Slices ![2, 2, 0, 0] S1x1x64x64
  bcast_S64_S1x64_1 : S64.BroadcastsInDim S1x64 (![1] : Fin 1 → Fin S1x64.rank)
  bcast_S1x64_S409600x64_0_1 : S1x64.BroadcastsInDim S409600x64 (![0, 1] : Fin 2 → Fin S409600x64.rank)
  scatter_S2x640x640_S409600x3_S409600_n_012_012_1_wf : ScatterDims.WF S2x640x640 S409600x3 S409600 [] [0, 1, 2] [0, 1, 2] 1
  gather_S2x640x640_S409600x3_S409600_n_012_n_n_012_1_111_wf : GatherDims.WF S2x640x640 S409600x3 S409600 [] [0, 1, 2] [] [0, 1, 2] [] 1 ![1, 1, 1]
  gather_S409600x64_S409600x1_S409600x64_1_0_n_n_0_1_164_wf : GatherDims.WF S409600x64 S409600x1 S409600x64 [1] [0] [] [0] [] 1 ![1, 64]
  dot_S409600x64_S64x64_S409600x64_1_0_0_1_n_n_wf : DotDims.WF S409600x64 S64x64 S409600x64 [1] [0] [0] [1] [] []

variable [Facts₀]

def scatter_S2x640x640_S409600x3_S409600_n_012_012_1 : ScatterDims S2x640x640 S409600x3 S409600 where
  updateWindowDims := []
  insertedWindowDims := [0, 1, 2]
  scatterDimsToOperandDims := [0, 1, 2]
  indexVectorDim := 1
  wf := scatter_S2x640x640_S409600x3_S409600_n_012_012_1_wf
def gather_S2x640x640_S409600x3_S409600_n_012_n_n_012_1_111 : GatherDims S2x640x640 S409600x3 S409600 where
  offsetDims := []
  collapsedSliceDims := [0, 1, 2]
  operandBatchingDims := []
  startIndicesBatchingDims := []
  startIndexMap := [0, 1, 2]
  indexVectorDim := 1
  sliceSizes := ![1, 1, 1]
  wf := gather_S2x640x640_S409600x3_S409600_n_012_n_n_012_1_111_wf
def gather_S409600x64_S409600x1_S409600x64_1_0_n_n_0_1_164 : GatherDims S409600x64 S409600x1 S409600x64 where
  offsetDims := [1]
  collapsedSliceDims := [0]
  operandBatchingDims := []
  startIndicesBatchingDims := []
  startIndexMap := [0]
  indexVectorDim := 1
  sliceSizes := ![1, 64]
  wf := gather_S409600x64_S409600x1_S409600x64_1_0_n_n_0_1_164_wf
def dot_S409600x64_S64x64_S409600x64_1_0_0_1_n_n : DotDims S409600x64 S64x64 S409600x64 where
  lhsContracting := [1]
  rhsContracting := [0]
  lhsNonContracting := [0]
  rhsNonContracting := [1]
  lhsBatch := []
  rhsBatch := []
  wf := dot_S409600x64_S64x64_S409600x64_1_0_0_1_n_n_wf

class Facts : Prop extends Facts₀ where

variable [Facts]
-- ==== Proof.K.Region0.lean ====
import proofs.«412627_j82471962018590_2_alg».proof.Proof.Gen.Kernel.Launch
import proofs.«412627_j82471962018590_2_alg».proof.Proof.Gen.Kernel.Skeleton
import proofs.«412627_j82471962018590_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The body of convolution call 0, at a parameter of entry contents

For the TensorCore's buffer contents `V` at the moment the call is entered: each window's block at a grid
point, the output block the body leaves as a function of the six input blocks, the body's triple, the proof
data of the call's pipeline and its body obligation. Generic in the float family. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the call is entered
variable (V : (c : Dev nD) → (b : Ref sig .tc) → Buf (Elt F) ((c : Thread nD τ).loc b))

/-! ## The windows' blocks -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the block was
    fetched there (where it was not, the block index has not moved), for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the block was
    fetched there (where it was not, the block index has not moved), for any proof data whose array is the
    entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the block was
    fetched there (where it was not, the block index has not moved), for any proof data whose array is the
    entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not the block was
    fetched there (where it was not, the block index has not moved), for any proof data whose array is the
    entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether or not the block was
    fetched there (where it was not, the block index has not moved), for any proof data whose array is the
    entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, whether or not the block was
    fetched there (where it was not, the block index has not moved), for any proof data whose array is the
    entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole staging buffer -/

abbrev r0_0 : Rect S1x8x642x64 := Rect.unit (s := S1x8x642x64) ![0, 0, 0, 0] S1x8x642x64.size inb_S1x8x642x64_S1x8x642x64_0_0_0_0
abbrev r0_1 : Rect S3x3x64x64 := Rect.unit (s := S3x3x64x64) ![0, 0, 0, 0] S3x3x64x64.size inb_S3x3x64x64_S3x3x64x64_0_0_0_0
abbrev r0_2 : Rect S1x64 := Rect.unit (s := S1x64) ![0, 0] S1x64.size inb_S1x64_S1x64_0_0
abbrev r0_3 : Rect S1x8x640x1 := Rect.unit (s := S1x8x640x1) ![0, 0, 0, 0] S1x8x640x1.size inb_S1x8x640x1_S1x8x640x1_0_0_0_0
abbrev r0_4 : Rect S1x8x640x64 := Rect.unit (s := S1x8x640x64) ![0, 0, 0, 0] S1x8x640x64.size inb_S1x8x640x64_S1x8x640x64_0_0_0_0

/-! ## What the body leaves in the output window's buffer -/

/-- The output staging buffer after the body, from the six input blocks in window order (up, centre and down
    row blocks, weights, bias, mask): its one store, of the masked rectified nine-tap sum. -/
def out0_6 (x0 : Vec F S1x8x642x64 .bf16) (x1 : Vec F S1x8x642x64 .bf16) (x2 : Vec F S1x8x642x64 .bf16) (x3 : Vec F S3x3x64x64 .f32) (x4 : Vec F S1x64 .f32) (x5 : Vec F S1x8x640x1 .f32) : Vec F S1x8x640x64 .bf16 :=
  View.canon [⟨r0_4, k0_pay1 (k0_pay8 (View.ld x3 r0_1) (k0_pay2 (View.ld x4 r0_2)) (k0_pay3 (View.ld x1 r0_0)) (k0_pay4 (View.ld x2 r0_0)) (k0_pay5 (View.ld x3 r0_1) (View.ld x0 r0_0)) (k0_pay6 (View.ld x1 r0_0)) (k0_pay7 (View.ld x3 r0_1)) (View.ld x5 r0_3))⟩]

/-- The one store takes the whole buffer, so it covers it. -/
theorem cover0_6 (p0 : Vec F S1x8x640x64 .bf16) (y : S1x8x640x64.Idx) :
    ∃ pc ∈ ([⟨r0_4, p0⟩] : List (View.Piece (Elt F) S1x8x640x64 .bf16)), y ∈ pc.1.set :=
  View.cover_of_tiled [⟨r0_4, p0⟩] S1x8x640x64.size (by rfl) y

/-! ## The body's triple -/

set_option maxHeartbeats 4000000 in
/-- The kernel body on whole staging memrefs, the inputs' at read contents `xW` and the output's at anything, runs
    to the continuation holding the inputs' as they were and the output's at `out0_6` of the inputs. The body
    reads the output buffer once before it stores it; the value read is not used. -/
theorem sound_kernel0 (c : Dev nD) (E : Set ℕ) (i : grid0.Coords) (arg2 : Memref sig .tc .vmem S1x8x642x64 .bf16) (harg2 : arg2.IsWhole) (arg3 : Memref sig .tc .vmem S1x8x642x64 .bf16) (harg3 : arg3.IsWhole) (arg4 : Memref sig .tc .vmem S1x8x642x64 .bf16) (harg4 : arg4.IsWhole) (arg5 : Memref sig .tc .vmem S3x3x64x64 .f32) (harg5 : arg5.IsWhole) (arg6 : Memref sig .tc .vmem S1x64 .f32) (harg6 : arg6.IsWhole) (arg7 : Memref sig .tc .vmem S1x8x640x1 .f32) (harg7 : arg7.IsWhole) (arg8 : Memref sig .tc .vmem S1x8x640x64 .bf16) (harg8 : arg8.IsWhole)
    (x0 : Vec F S1x8x642x64 .bf16) (x1 : Vec F S1x8x642x64 .bf16) (x2 : Vec F S1x8x642x64 .bf16) (x3 : Vec F S3x3x64x64 .f32) (x4 : Vec F S1x64 .f32) (x5 : Vec F S1x8x640x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0__conv_kernel i arg2 harg2 arg3 harg3 arg4 harg4 arg5 harg5 arg6 harg6 arg7 harg7 arg8 harg8) K := by
  simp only [cc0__conv_kernel_eq_skeleton]; unfold cc0__conv_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the call's pipeline on core `c`: the arrays at the entry contents; after the body at point
    `t` each input's buffer at its block and the output's at `out0_6` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1.lean ====
import proofs.«412627_j82471962018590_2_alg».proof.Proof.Gen.Kernel.Launch
import proofs.«412627_j82471962018590_2_alg».proof.Proof.Gen.Kernel.Skeleton
import proofs.«412627_j82471962018590_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The body of convolution call 1, at a parameter of entry contents

For the TensorCore's buffer contents `V` at the moment the call is entered: each window's block at a grid
point, the output block the body leaves as a function of the six input blocks, the body's triple, the proof
data of the call's pipeline and its body obligation. Generic in the float family. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the call is entered
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the block was
    fetched there (where it was not, the block index has not moved), for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the block was
    fetched there (where it was not, the block index has not moved), for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the block was
    fetched there (where it was not, the block index has not moved), for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the block was
    fetched there (where it was not, the block index has not moved), for any proof data whose array is the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the block was
    fetched there (where it was not, the block index has not moved), for any proof data whose array is the
    entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether or not the block was
    fetched there (where it was not, the block index has not moved), for any proof data whose array is the
    entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole staging buffer -/

abbrev r1_0 : Rect S1x8x642x64 := Rect.unit (s := S1x8x642x64) ![0, 0, 0, 0] S1x8x642x64.size inb_S1x8x642x64_S1x8x642x64_0_0_0_0
abbrev r1_1 : Rect S3x3x64x64 := Rect.unit (s := S3x3x64x64) ![0, 0, 0, 0] S3x3x64x64.size inb_S3x3x64x64_S3x3x64x64_0_0_0_0
abbrev r1_2 : Rect S1x64 := Rect.unit (s := S1x64) ![0, 0] S1x64.size inb_S1x64_S1x64_0_0
abbrev r1_3 : Rect S1x8x640x1 := Rect.unit (s := S1x8x640x1) ![0, 0, 0, 0] S1x8x640x1.size inb_S1x8x640x1_S1x8x640x1_0_0_0_0
abbrev r1_4 : Rect S1x8x640x64 := Rect.unit (s := S1x8x640x64) ![0, 0, 0, 0] S1x8x640x64.size inb_S1x8x640x64_S1x8x640x64_0_0_0_0

/-! ## What the body leaves in the output window's buffer -/

/-- The output staging buffer after the body, from the six input blocks in window order (up, centre and down
    row blocks, weights, bias, mask): its one store, of the masked rectified nine-tap sum. -/
def out1_6 (x0 : Vec F S1x8x642x64 .bf16) (x1 : Vec F S1x8x642x64 .bf16) (x2 : Vec F S1x8x642x64 .bf16) (x3 : Vec F S3x3x64x64 .f32) (x4 : Vec F S1x64 .f32) (x5 : Vec F S1x8x640x1 .f32) : Vec F S1x8x640x64 .f32 :=
  View.canon [⟨r1_4, k1_pay1 (k1_pay8 (View.ld x3 r1_1) (k1_pay2 (View.ld x4 r1_2)) (k1_pay3 (View.ld x1 r1_0)) (k1_pay4 (View.ld x2 r1_0)) (k1_pay5 (View.ld x3 r1_1) (View.ld x0 r1_0)) (k1_pay6 (View.ld x1 r1_0)) (k1_pay7 (View.ld x3 r1_1)) (View.ld x5 r1_3))⟩]

/-- The one store takes the whole buffer, so it covers it. -/
theorem cover1_6 (p0 : Vec F S1x8x640x64 .f32) (y : S1x8x640x64.Idx) :
    ∃ pc ∈ ([⟨r1_4, p0⟩] : List (View.Piece (Elt F) S1x8x640x64 .f32)), y ∈ pc.1.set :=
  View.cover_of_tiled [⟨r1_4, p0⟩] S1x8x640x64.size (by rfl) y

/-! ## The body's triple -/

set_option maxHeartbeats 4000000 in
/-- The kernel body on whole staging memrefs, the inputs' at read contents `xW` and the output's at anything, runs
    to the continuation holding the inputs' as they were and the output's at `out1_6` of the inputs. The body
    reads the output buffer once before it stores it; the value read is not used. -/
theorem sound_kernel1 (c : Dev nD) (E : Set ℕ) (i : grid1.Coords) (arg2 : Memref sig .tc .vmem S1x8x642x64 .bf16) (harg2 : arg2.IsWhole) (arg3 : Memref sig .tc .vmem S1x8x642x64 .bf16) (harg3 : arg3.IsWhole) (arg4 : Memref sig .tc .vmem S1x8x642x64 .bf16) (harg4 : arg4.IsWhole) (arg5 : Memref sig .tc .vmem S3x3x64x64 .f32) (harg5 : arg5.IsWhole) (arg6 : Memref sig .tc .vmem S1x64 .f32) (harg6 : arg6.IsWhole) (arg7 : Memref sig .tc .vmem S1x8x640x1 .f32) (harg7 : arg7.IsWhole) (arg8 : Memref sig .tc .vmem S1x8x640x64 .f32) (harg8 : arg8.IsWhole)
    (x0 : Vec F S1x8x642x64 .bf16) (x1 : Vec F S1x8x642x64 .bf16) (x2 : Vec F S1x8x642x64 .bf16) (x3 : Vec F S3x3x64x64 .f32) (x4 : Vec F S1x64 .f32) (x5 : Vec F S1x8x640x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1__conv_kernel i arg2 harg2 arg3 harg3 arg4 harg4 arg5 harg5 arg6 harg6 arg7 harg7 arg8 harg8) K := by
  simp only [cc1__conv_kernel_eq_skeleton]; unfold cc1__conv_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-! ## The pipeline's proof data -/

/-- The proof data of the call's pipeline on core `c`: the arrays at the entry contents; after the body at point
    `t` each input's buffer at its block and the output's at `out1_6` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Region2.lean ====
import proofs.«412627_j82471962018590_2_alg».proof.Proof.Gen.Kernel.Launch
import proofs.«412627_j82471962018590_2_alg».proof.Proof.Gen.Kernel.Skeleton
import proofs.«412627_j82471962018590_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third pallas_call's body, at any entry contents

The residual kernel reads three blocks (the features block, the whole dense weight, the gathered block), and stores
`max(features · weight + gathered, 0)` over the whole output block. Stated at a parameter `V` — the TensorCore's
buffer contents when the call is entered — and at any float model `F`: each window's block at a point, what the body
leaves in the output window's buffer as a function of the three input blocks, the body's triple, the pipeline's proof
data and its body obligation. -/

-- membership in a rectangle of production extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the call is entered
variable (V : (c : Dev nD) → (b : Ref sig .tc) → Buf (Elt F) ((c : Thread nD τ).loc b))

/-! ## The windows' blocks -/

/-- Window `w`'s block at point `t`, read off its array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s (`hA`) and whose body leaves the block in place (`hafter`): unfetched, the block index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s (`hA`) and whose body leaves the block in place (`hafter`): unfetched, the block index has
    not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s (`hA`) and whose body leaves the block in place (`hafter`): unfetched, the block index has
    not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S8192x64 := Rect.unit (s := S8192x64) ![0, 0] S8192x64.size inb_S8192x64_S8192x64_0_0
abbrev r2_1 : Rect S64x64 := Rect.unit (s := S64x64) ![0, 0] S64x64.size inb_S64x64_S64x64_0_0

/-! ## What the body leaves in the output window's buffer -/

/-- Window 3's staging buffer after the body, from the three input windows' blocks: its one store, over the whole
    block, of `max(x0 · x1 + x2, 0)` (the product on the inputs rounded to bf16, accumulated in f32). -/
def out2_3 (x0 : Vec F S8192x64 .f32) (x1 : Vec F S64x64 .f32) (x2 : Vec F S8192x64 .f32) : Vec F S8192x64 .f32 :=
  View.canon [⟨r2_0, k2_pay1 (View.ld x0 r2_0) (View.ld x1 r2_1) (View.ld x2 r2_0)⟩]

/-- The store tiles the buffer (checked by evaluation), so it covers it. -/
theorem cover2_3 (p0 : Vec F S8192x64 .f32) (y : S8192x64.Idx) :
    ∃ pc ∈ ([⟨r2_0, p0⟩] : List (View.Piece (Elt F) S8192x64 .f32)), y ∈ pc.1.set :=
  View.cover_of_tiled [⟨r2_0, p0⟩] S8192x64.size (by rfl) y

/-! ## The body's triple -/

set_option maxHeartbeats 1000000 in
/-- The kernel body on whole staging memrefs, the inputs' at read contents `xW` and the output's at anything, runs to
    the continuation holding the inputs' as they were and the output's at `out2_3` of the inputs'. The body loads the
    output block before storing over it; the loaded value is not used. -/
theorem sound_kernel2 (c : Dev nD) (E : Set ℕ) (i : grid2.Coords)
    (arg0 : Memref sig .tc .vmem S8192x64 .f32) (harg0 : arg0.IsWhole) (arg1 : Memref sig .tc .vmem S64x64 .f32) (harg1 : arg1.IsWhole)
    (arg2 : Memref sig .tc .vmem S8192x64 .f32) (harg2 : arg2.IsWhole) (arg3 : Memref sig .tc .vmem S8192x64 .f32) (harg3 : arg3.IsWhole)
    (x0 : Vec F S8192x64 .f32) (x1 : Vec F S64x64 .f32) (x2 : Vec F S8192x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__res_kernel i arg0 harg0 arg1 harg1 arg2 harg2 arg3 harg3) K := by
  simp only [cc2__res_kernel_eq_skeleton]; unfold cc2__res_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the third pipeline on core `c`: the arrays as the call finds them (`V`); after the body at point
    `t` each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.K.Run.lean ====
import proofs.«412627_j82471962018590_2_alg».proof.Proof.Gen.Kernel.Launch
import proofs.«412627_j82471962018590_2_alg».proof.Proof.Gen.Kernel.Skeleton
import proofs.«412627_j82471962018590_2_alg».proof.Proof.Gen.Kernel.Points
import proofs.«412627_j82471962018590_2_alg».proof.Proof.K.Region0
import proofs.«412627_j82471962018590_2_alg».proof.Proof.K.Region1
import proofs.«412627_j82471962018590_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: eighteen items from the launch to the return

The buffer contents at every boundary between two items (a fold from the launch memory: a stretch of host operations
maps the contents through its operations; a pallas_call leaves its arrays at what its write-backs fold to and every
other buffer as entered), each argument array read back through the fold to its launch contents, the three
pallas_calls as regions over the thread state "every unscoped buffer at the boundary's contents", and the run:
every weakly fair execution terminates, the result buffer ends at the fold's last contents and the arguments end
as launched. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After `hostOps0_1`. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
/-- After `hostOps0_2`. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- After `hostOps0_3`. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b
/-- After `hostOps0_4`. -/
abbrev W5 : Dev nD → Valuation τ sig (Elt F) := fun c => StableHlo.after hostOps0_4 (W4 m ρ c)
/-- The same read at the TensorCore's references. -/
abbrev V5 : (c : Dev nD) → (b : Ref sig .tc) → Buf (Elt F) ((c : Thread nD τ).loc b) := fun c b => W5 m ρ c b
/-- After `hostOps0_5`. -/
abbrev W6 : Dev nD → Valuation τ sig (Elt F) := fun c => StableHlo.after hostOps0_5 (W5 m ρ c)
/-- The same read at the TensorCore's references. -/
abbrev V6 : (c : Dev nD) → (b : Ref sig .tc) → Buf (Elt F) ((c : Thread nD τ).loc b) := fun c b => W6 m ρ c b
/-- After `hostOps0_6`. -/
abbrev W7 : Dev nD → Valuation τ sig (Elt F) := fun c => StableHlo.after hostOps0_6 (W6 m ρ c)
/-- The same read at the TensorCore's references. -/
abbrev V7 : (c : Dev nD) → (b : Ref sig .tc) → Buf (Elt F) ((c : Thread nD τ).loc b) := fun c b => W7 m ρ c b
/-- At pallas_call 0's exit: its arrays at what the pipeline leaves (the inputs as entered, the output's
    write-backs folded), every other buffer as entered. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
/-- The same read at the TensorCore's references (pallas_call 0's exit contents). -/
abbrev V8 : (c : Dev nD) → (b : Ref sig .tc) → Buf (Elt F) ((c : Thread nD τ).loc b) := fun c b => W8 m ρ c b
/-- At the exit each array holds what the pipeline leaves, and every other buffer what it held at entry. -/
theorem hF8 (c : Dev nD) (w : Fin cfg0.W) : (dat0 (V7 m ρ) c).arrAt w cfg0.N = V8 m ρ c (Pipeline.arrRef spec0 w) :=
  (W8_arr m ρ c w).symm
theorem hrest8 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)
/-- After `hostOps1`. -/
abbrev W9 : Dev nD → Valuation τ sig (Elt F) := fun c => StableHlo.after hostOps1 (W8 m ρ c)
/-- The same read at the TensorCore's references. -/
abbrev V9 : (c : Dev nD) → (b : Ref sig .tc) → Buf (Elt F) ((c : Thread nD τ).loc b) := fun c b => W9 m ρ c b
/-- After `hostOps1_1`. -/
abbrev W10 : Dev nD → Valuation τ sig (Elt F) := fun c => StableHlo.after hostOps1_1 (W9 m ρ c)
/-- The same read at the TensorCore's references. -/
abbrev V10 : (c : Dev nD) → (b : Ref sig .tc) → Buf (Elt F) ((c : Thread nD τ).loc b) := fun c b => W10 m ρ c b
/-- After `hostOps1_2`. -/
abbrev W11 : Dev nD → Valuation τ sig (Elt F) := fun c => StableHlo.after hostOps1_2 (W10 m ρ c)
/-- The same read at the TensorCore's references. -/
abbrev V11 : (c : Dev nD) → (b : Ref sig .tc) → Buf (Elt F) ((c : Thread nD τ).loc b) := fun c b => W11 m ρ c b
/-- After `hostOps1_3`. -/
abbrev W12 : Dev nD → Valuation τ sig (Elt F) := fun c => StableHlo.after hostOps1_3 (W11 m ρ c)
/-- The same read at the TensorCore's references. -/
abbrev V12 : (c : Dev nD) → (b : Ref sig .tc) → Buf (Elt F) ((c : Thread nD τ).loc b) := fun c b => W12 m ρ c b
/-- After `hostOps1_4`. -/
abbrev W13 : Dev nD → Valuation τ sig (Elt F) := fun c => StableHlo.after hostOps1_4 (W12 m ρ c)
/-- The same read at the TensorCore's references. -/
abbrev V13 : (c : Dev nD) → (b : Ref sig .tc) → Buf (Elt F) ((c : Thread nD τ).loc b) := fun c b => W13 m ρ c b
/-- After `hostOps1_5`. -/
abbrev W14 : Dev nD → Valuation τ sig (Elt F) := fun c => StableHlo.after hostOps1_5 (W13 m ρ c)
/-- The same read at the TensorCore's references. -/
abbrev V14 : (c : Dev nD) → (b : Ref sig .tc) → Buf (Elt F) ((c : Thread nD τ).loc b) := fun c b => W14 m ρ c b
/-- After `hostOps1_6`. -/
abbrev W15 : Dev nD → Valuation τ sig (Elt F) := fun c => StableHlo.after hostOps1_6 (W14 m ρ c)
/-- The same read at the TensorCore's references. -/
abbrev V15 : (c : Dev nD) → (b : Ref sig .tc) → Buf (Elt F) ((c : Thread nD τ).loc b) := fun c b => W15 m ρ c b
/-- At pallas_call 1's exit: its arrays at what the pipeline leaves (the inputs as entered, the output's
    write-backs folded), every other buffer as entered. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
/-- The same read at the TensorCore's references (pallas_call 1's exit contents). -/
abbrev V16 : (c : Dev nD) → (b : Ref sig .tc) → Buf (Elt F) ((c : Thread nD τ).loc b) := fun c b => W16 m ρ c b
/-- At the exit each array holds what the pipeline leaves, and every other buffer what it held at entry. -/
theorem hF16 (c : Dev nD) (w : Fin cfg1.W) : (dat1 (V15 m ρ) c).arrAt w cfg1.N = V16 m ρ c (Pipeline.arrRef spec1 w) :=
  (W16_arr m ρ c w).symm
theorem hrest16 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)
/-- After `hostOps2`. -/
abbrev W17 : Dev nD → Valuation τ sig (Elt F) := fun c => StableHlo.after hostOps2 (W16 m ρ c)
/-- The same read at the TensorCore's references. -/
abbrev V17 : (c : Dev nD) → (b : Ref sig .tc) → Buf (Elt F) ((c : Thread nD τ).loc b) := fun c b => W17 m ρ c b
/-- At pallas_call 2's exit: its arrays at what the pipeline leaves (the inputs as entered, the output's
    write-backs folded), every other buffer as entered. -/
def W18 (c : Dev nD) : Valuation τ sig (Elt F) :=
  Pipeline.withArrays spec2 c (W17 m ρ c) fun w => (dat2 (V17 m ρ) c).arrAt w cfg2.N
theorem W18_arr (c : Dev nD) (w : Fin cfg2.W) :
    W18 m ρ c (Proc.devRef .tc (Pipeline.arrRef spec2 w)) = (dat2 (V17 m ρ) c).arrAt w cfg2.N := by
  unfold W18; exact Pipeline.withArrays_arr spec2 launch2.win.arr_inj c _ _ w
theorem W18_of_ne (c : Dev nD) (b : Ref sig .tc) (hb : ∀ w, Pipeline.arrRef spec2 w ≠ b) :
    W18 m ρ c (Proc.devRef .tc b) = W17 m ρ c (Proc.devRef .tc b) := by
  unfold W18; exact Pipeline.withArrays_of_ne spec2 c _ _ b hb
/-- The same read at the TensorCore's references (pallas_call 2's exit contents). -/
abbrev V18 : (c : Dev nD) → (b : Ref sig .tc) → Buf (Elt F) ((c : Thread nD τ).loc b) := fun c b => W18 m ρ c b
/-- At the exit each array holds what the pipeline leaves, and every other buffer what it held at entry. -/
theorem hF18 (c : Dev nD) (w : Fin cfg2.W) : (dat2 (V17 m ρ) c).arrAt w cfg2.N = V18 m ρ c (Pipeline.arrRef spec2 w) :=
  (W18_arr m ρ c w).symm
theorem hrest18 (c : Dev nD) : ∀ b, b ∉ Finset.univ.image (Pipeline.arrRef spec2) → V18 m ρ c b = V17 m ρ c b :=
  fun b hb => W18_of_ne m ρ c b fun w e => hb (Finset.mem_image.mpr ⟨w, Finset.mem_univ _, e⟩)

/-! ## The arguments end as launched

No host operation writes an argument and a pallas_call reads one through an input window or not at all, so the fold
at an argument's buffer walks back to the launch memory. -/

/-- A stretch none of whose operations writes the buffer leaves it as found. -/
local macro "keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

theorem W18_main_arg0 (c : Dev nD) : W18 m ρ c (Proc.devRef .tc main_arg0) = m ((c : Thread nD τ).loc main_arg0) :=
  calc W18 m ρ c (Proc.devRef .tc main_arg0)
    _ = W17 m ρ c (Proc.devRef .tc main_arg0) := (W18_arr m ρ c 0).trans (((dat2 (V17 m ρ) c).arrAt_in 0 rfl _).trans (A_eq2 (V17 m ρ) c 0))
    _ = W16 m ρ c (Proc.devRef .tc main_arg0) := by keeps hostOps2
    _ = W15 m ρ c (Proc.devRef .tc main_arg0) := W16_of_ne m ρ c main_arg0 (by decide)
    _ = W14 m ρ c (Proc.devRef .tc main_arg0) := by keeps hostOps1_6
    _ = W13 m ρ c (Proc.devRef .tc main_arg0) := by keeps hostOps1_5
    _ = W12 m ρ c (Proc.devRef .tc main_arg0) := by keeps hostOps1_4
    _ = W11 m ρ c (Proc.devRef .tc main_arg0) := by keeps hostOps1_3
    _ = W10 m ρ c (Proc.devRef .tc main_arg0) := by keeps hostOps1_2
    _ = W9 m ρ c (Proc.devRef .tc main_arg0) := by keeps hostOps1_1
    _ = W8 m ρ c (Proc.devRef .tc main_arg0) := by keeps hostOps1
    _ = W7 m ρ c (Proc.devRef .tc main_arg0) := W8_of_ne m ρ c main_arg0 (by decide)
    _ = W6 m ρ c (Proc.devRef .tc main_arg0) := by keeps hostOps0_6
    _ = W5 m ρ c (Proc.devRef .tc main_arg0) := by keeps hostOps0_5
    _ = W4 m ρ c (Proc.devRef .tc main_arg0) := by keeps hostOps0_4
    _ = W3 m ρ c (Proc.devRef .tc main_arg0) := by keeps hostOps0_3
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

theorem W18_main_arg1 (c : Dev nD) : W18 m ρ c (Proc.devRef .tc main_arg1) = m ((c : Thread nD τ).loc main_arg1) :=
  calc W18 m ρ c (Proc.devRef .tc main_arg1)
    _ = W17 m ρ c (Proc.devRef .tc main_arg1) := W18_of_ne m ρ c main_arg1 (by decide)
    _ = W16 m ρ c (Proc.devRef .tc main_arg1) := by keeps hostOps2
    _ = W15 m ρ c (Proc.devRef .tc main_arg1) := W16_of_ne m ρ c main_arg1 (by decide)
    _ = W14 m ρ c (Proc.devRef .tc main_arg1) := by keeps hostOps1_6
    _ = W13 m ρ c (Proc.devRef .tc main_arg1) := by keeps hostOps1_5
    _ = W12 m ρ c (Proc.devRef .tc main_arg1) := by keeps hostOps1_4
    _ = W11 m ρ c (Proc.devRef .tc main_arg1) := by keeps hostOps1_3
    _ = W10 m ρ c (Proc.devRef .tc main_arg1) := by keeps hostOps1_2
    _ = W9 m ρ c (Proc.devRef .tc main_arg1) := by keeps hostOps1_1
    _ = W8 m ρ c (Proc.devRef .tc main_arg1) := by keeps hostOps1
    _ = W7 m ρ c (Proc.devRef .tc main_arg1) := W8_of_ne m ρ c main_arg1 (by decide)
    _ = W6 m ρ c (Proc.devRef .tc main_arg1) := by keeps hostOps0_6
    _ = W5 m ρ c (Proc.devRef .tc main_arg1) := by keeps hostOps0_5
    _ = W4 m ρ c (Proc.devRef .tc main_arg1) := by keeps hostOps0_4
    _ = W3 m ρ c (Proc.devRef .tc main_arg1) := by keeps hostOps0_3
    _ = W2 m ρ c (Proc.devRef .tc main_arg1) := by keeps hostOps0_2
    _ = W1 m ρ c (Proc.devRef .tc main_arg1) := by keeps hostOps0_1
    _ = W0 m ρ c (Proc.devRef .tc main_arg1) := by keeps hostOps0
    _ = m ((c : Thread nD τ).loc main_arg1) := rfl

theorem W18_main_arg2 (c : Dev nD) : W18 m ρ c (Proc.devRef .tc main_arg2) = m ((c : Thread nD τ).loc main_arg2) :=
  calc W18 m ρ c (Proc.devRef .tc main_arg2)
    _ = W17 m ρ c (Proc.devRef .tc main_arg2) := W18_of_ne m ρ c main_arg2 (by decide)
    _ = W16 m ρ c (Proc.devRef .tc main_arg2) := by keeps hostOps2
    _ = W15 m ρ c (Proc.devRef .tc main_arg2) := W16_of_ne m ρ c main_arg2 (by decide)
    _ = W14 m ρ c (Proc.devRef .tc main_arg2) := by keeps hostOps1_6
    _ = W13 m ρ c (Proc.devRef .tc main_arg2) := by keeps hostOps1_5
    _ = W12 m ρ c (Proc.devRef .tc main_arg2) := by keeps hostOps1_4
    _ = W11 m ρ c (Proc.devRef .tc main_arg2) := by keeps hostOps1_3
    _ = W10 m ρ c (Proc.devRef .tc main_arg2) := by keeps hostOps1_2
    _ = W9 m ρ c (Proc.devRef .tc main_arg2) := by keeps hostOps1_1
    _ = W8 m ρ c (Proc.devRef .tc main_arg2) := by keeps hostOps1
    _ = W7 m ρ c (Proc.devRef .tc main_arg2) := (W8_arr m ρ c 3).trans (((dat0 (V7 m ρ) c).arrAt_in 3 rfl _).trans (A_eq0 (V7 m ρ) c 3))
    _ = W6 m ρ c (Proc.devRef .tc main_arg2) := by keeps hostOps0_6
    _ = W5 m ρ c (Proc.devRef .tc main_arg2) := by keeps hostOps0_5
    _ = W4 m ρ c (Proc.devRef .tc main_arg2) := by keeps hostOps0_4
    _ = W3 m ρ c (Proc.devRef .tc main_arg2) := by keeps hostOps0_3
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

theorem W18_main_arg3 (c : Dev nD) : W18 m ρ c (Proc.devRef .tc main_arg3) = m ((c : Thread nD τ).loc main_arg3) :=
  calc W18 m ρ c (Proc.devRef .tc main_arg3)
    _ = W17 m ρ c (Proc.devRef .tc main_arg3) := W18_of_ne m ρ c main_arg3 (by decide)
    _ = W16 m ρ c (Proc.devRef .tc main_arg3) := by keeps hostOps2
    _ = W15 m ρ c (Proc.devRef .tc main_arg3) := W16_of_ne m ρ c main_arg3 (by decide)
    _ = W14 m ρ c (Proc.devRef .tc main_arg3) := by keeps hostOps1_6
    _ = W13 m ρ c (Proc.devRef .tc main_arg3) := by keeps hostOps1_5
    _ = W12 m ρ c (Proc.devRef .tc main_arg3) := by keeps hostOps1_4
    _ = W11 m ρ c (Proc.devRef .tc main_arg3) := by keeps hostOps1_3
    _ = W10 m ρ c (Proc.devRef .tc main_arg3) := by keeps hostOps1_2
    _ = W9 m ρ c (Proc.devRef .tc main_arg3) := by keeps hostOps1_1
    _ = W8 m ρ c (Proc.devRef .tc main_arg3) := by keeps hostOps1
    _ = W7 m ρ c (Proc.devRef .tc main_arg3) := W8_of_ne m ρ c main_arg3 (by decide)
    _ = W6 m ρ c (Proc.devRef .tc main_arg3) := by keeps hostOps0_6
    _ = W5 m ρ c (Proc.devRef .tc main_arg3) := by keeps hostOps0_5
    _ = W4 m ρ c (Proc.devRef .tc main_arg3) := by keeps hostOps0_4
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

theorem W18_main_arg4 (c : Dev nD) : W18 m ρ c (Proc.devRef .tc main_arg4) = m ((c : Thread nD τ).loc main_arg4) :=
  calc W18 m ρ c (Proc.devRef .tc main_arg4)
    _ = W17 m ρ c (Proc.devRef .tc main_arg4) := W18_of_ne m ρ c main_arg4 (by decide)
    _ = W16 m ρ c (Proc.devRef .tc main_arg4) := by keeps hostOps2
    _ = W15 m ρ c (Proc.devRef .tc main_arg4) := (W16_arr m ρ c 3).trans (((dat1 (V15 m ρ) c).arrAt_in 3 rfl _).trans (A_eq1 (V15 m ρ) c 3))
    _ = W14 m ρ c (Proc.devRef .tc main_arg4) := by keeps hostOps1_6
    _ = W13 m ρ c (Proc.devRef .tc main_arg4) := by keeps hostOps1_5
    _ = W12 m ρ c (Proc.devRef .tc main_arg4) := by keeps hostOps1_4
    _ = W11 m ρ c (Proc.devRef .tc main_arg4) := by keeps hostOps1_3
    _ = W10 m ρ c (Proc.devRef .tc main_arg4) := by keeps hostOps1_2
    _ = W9 m ρ c (Proc.devRef .tc main_arg4) := by keeps hostOps1_1
    _ = W8 m ρ c (Proc.devRef .tc main_arg4) := by keeps hostOps1
    _ = W7 m ρ c (Proc.devRef .tc main_arg4) := W8_of_ne m ρ c main_arg4 (by decide)
    _ = W6 m ρ c (Proc.devRef .tc main_arg4) := by keeps hostOps0_6
    _ = W5 m ρ c (Proc.devRef .tc main_arg4) := by keeps hostOps0_5
    _ = W4 m ρ c (Proc.devRef .tc main_arg4) := by keeps hostOps0_4
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c : Thread nD τ).loc main_arg4) := rfl

theorem W18_main_arg5 (c : Dev nD) : W18 m ρ c (Proc.devRef .tc main_arg5) = m ((c : Thread nD τ).loc main_arg5) :=
  calc W18 m ρ c (Proc.devRef .tc main_arg5)
    _ = W17 m ρ c (Proc.devRef .tc main_arg5) := W18_of_ne m ρ c main_arg5 (by decide)
    _ = W16 m ρ c (Proc.devRef .tc main_arg5) := by keeps hostOps2
    _ = W15 m ρ c (Proc.devRef .tc main_arg5) := W16_of_ne m ρ c main_arg5 (by decide)
    _ = W14 m ρ c (Proc.devRef .tc main_arg5) := by keeps hostOps1_6
    _ = W13 m ρ c (Proc.devRef .tc main_arg5) := by keeps hostOps1_5
    _ = W12 m ρ c (Proc.devRef .tc main_arg5) := by keeps hostOps1_4
    _ = W11 m ρ c (Proc.devRef .tc main_arg5) := by keeps hostOps1_3
    _ = W10 m ρ c (Proc.devRef .tc main_arg5) := by keeps hostOps1_2
    _ = W9 m ρ c (Proc.devRef .tc main_arg5) := by keeps hostOps1_1
    _ = W8 m ρ c (Proc.devRef .tc main_arg5) := by keeps hostOps1
    _ = W7 m ρ c (Proc.devRef .tc main_arg5) := W8_of_ne m ρ c main_arg5 (by decide)
    _ = W6 m ρ c (Proc.devRef .tc main_arg5) := by keeps hostOps0_6
    _ = W5 m ρ c (Proc.devRef .tc main_arg5) := by keeps hostOps0_5
    _ = W4 m ρ c (Proc.devRef .tc main_arg5) := by keeps hostOps0_4
    _ = W3 m ρ c (Proc.devRef .tc main_arg5) := by keeps hostOps0_3
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c : Thread nD τ).loc main_arg5) := rfl

theorem W18_main_arg6 (c : Dev nD) : W18 m ρ c (Proc.devRef .tc main_arg6) = m ((c : Thread nD τ).loc main_arg6) :=
  calc W18 m ρ c (Proc.devRef .tc main_arg6)
    _ = W17 m ρ c (Proc.devRef .tc main_arg6) := (W18_arr m ρ c 1).trans (((dat2 (V17 m ρ) c).arrAt_in 1 rfl _).trans (A_eq2 (V17 m ρ) c 1))
    _ = W16 m ρ c (Proc.devRef .tc main_arg6) := by keeps hostOps2
    _ = W15 m ρ c (Proc.devRef .tc main_arg6) := W16_of_ne m ρ c main_arg6 (by decide)
    _ = W14 m ρ c (Proc.devRef .tc main_arg6) := by keeps hostOps1_6
    _ = W13 m ρ c (Proc.devRef .tc main_arg6) := by keeps hostOps1_5
    _ = W12 m ρ c (Proc.devRef .tc main_arg6) := by keeps hostOps1_4
    _ = W11 m ρ c (Proc.devRef .tc main_arg6) := by keeps hostOps1_3
    _ = W10 m ρ c (Proc.devRef .tc main_arg6) := by keeps hostOps1_2
    _ = W9 m ρ c (Proc.devRef .tc main_arg6) := by keeps hostOps1_1
    _ = W8 m ρ c (Proc.devRef .tc main_arg6) := by keeps hostOps1
    _ = W7 m ρ c (Proc.devRef .tc main_arg6) := W8_of_ne m ρ c main_arg6 (by decide)
    _ = W6 m ρ c (Proc.devRef .tc main_arg6) := by keeps hostOps0_6
    _ = W5 m ρ c (Proc.devRef .tc main_arg6) := by keeps hostOps0_5
    _ = W4 m ρ c (Proc.devRef .tc main_arg6) := by keeps hostOps0_4
    _ = W3 m ρ c (Proc.devRef .tc main_arg6) := by keeps hostOps0_3
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = m ((c : Thread nD τ).loc main_arg6) := rfl

/-! ## The proof data family and the thread state -/

/-- The prefetched tables' admissible contents: no pipeline has a table. -/
abbrev adm : (p : Fin 3) → (pcfgs (F := F) p).Adm := fun p => (cfgs p).toPCfg_adm
/-- Every pipeline's proof data, each at its pallas_call's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V15 m ρ) c
  | ⟨2, _⟩ => fun c => dat2 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it ends at those references at the stretch's fold of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 40000000 in
/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps1_1` allocates a buffer. -/
theorem hostOps1_1_fresh : (hostOps1_1 : List (HloOp τ sig (Elt F))).Forall fun op => op.fresh = ∅ := by
  simp only [List.Forall]; repeat' constructor
/-- No operation of `hostOps1_2` allocates a buffer. -/
theorem hostOps1_2_fresh : (hostOps1_2 : List (HloOp τ sig (Elt F))).Forall fun op => op.fresh = ∅ := by
  simp only [List.Forall]; repeat' constructor
/-- No operation of `hostOps1_3` allocates a buffer. -/
theorem hostOps1_3_fresh : (hostOps1_3 : List (HloOp τ sig (Elt F))).Forall fun op => op.fresh = ∅ := by
  simp only [List.Forall]; repeat' constructor
/-- No operation of `hostOps1_4` allocates a buffer. -/
theorem hostOps1_4_fresh : (hostOps1_4 : List (HloOp τ sig (Elt F))).Forall fun op => op.fresh = ∅ := by
  simp only [List.Forall]; repeat' constructor
/-- No operation of `hostOps1_5` allocates a buffer. -/
theorem hostOps1_5_fresh : (hostOps1_5 : List (HloOp τ sig (Elt F))).Forall fun op => op.fresh = ∅ := by
  simp only [List.Forall]; repeat' constructor
/-- No operation of `hostOps1_6` allocates a buffer. -/
theorem hostOps1_6_fresh : (hostOps1_6 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W18`, the
    generator register at some state. -/
abbrev Tₙ (c : Dev nD) : sProp 𝕄 := iprop(StableHlo.held (c : Thread nD τ) (Pipeline.ucRefs τ sig) (W18 m ρ c) ∗ ∃ r, prngReg c r)

/-! ## The pallas_calls as regions -/

-- applying a library lemma stated over the pinned configuration unifies only when unification may unfold plain
-- definitions in a metavariable's type
set_option backward.isDefEq.respectTransparency.types false in
/-- pallas_call 0 over the thread state: entered from every unscoped buffer at `W7`, left at `W8`. Its arrays
    split out of the unscoped buffers and put back at the exit contents; the generator register into the class
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when unification may unfold plain
-- definitions in a metavariable's type
set_option backward.isDefEq.respectTransparency.types false in
/-- pallas_call 1 over the thread state: entered from every unscoped buffer at `W15`, left at `W16`. Its arrays
    split out of the unscoped buffers and put back at the exit contents; the generator register into the class
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when unification may unfold plain
-- definitions in a metavariable's type
set_option backward.isDefEq.respectTransparency.types false in
/-- pallas_call 2 over the thread state: entered from every unscoped buffer at `W17`, left at `W18`. Its arrays
    split out of the unscoped buffers and put back at the exit contents; the generator register into the class
    invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V17 m ρ) c).loose
  hwaits := Pipeline.hwaits_of_owed_zero _ _ _ _ L lv 2 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V17 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V17 m ρ c) (V18 m ρ c) ((pdats m ρ 2 c).arrAt · cfg2.N) (hF18 m ρ c) (hrest18 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eighteen segments in order: a host segment per stretch from its boundary's contents, a region per
    pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .host (hseg hostOps1_3 hostOps1_3_sub hostOps1_3_fresh (W11 m ρ)),
    .host (hseg hostOps1_4 hostOps1_4_sub hostOps1_4_fresh (W12 m ρ)),
    .host (hseg hostOps1_5 hostOps1_5_sub hostOps1_5_fresh (W13 m ρ)),
    .host (hseg hostOps1_6 hostOps1_6_sub hostOps1_6_fresh (W14 m ρ)),
    .region (reg1 m ρ),
    .host (hseg hostOps2 hostOps2_sub hostOps2_fresh (W16 m ρ)),
    .region (reg2 m ρ) ]
/-- @main IS the run of the segments: @main is the chain of its items, and the segments' run is that chain by the
    kernel's definitional check. -/
theorem main_run (c : Dev nD) : main (F := F) c = Pipeline.Seg.run (segs m ρ) := (main_chain c).trans (by chain_rfl)

/-- The result buffer's contents at the return, on core `c`. -/
def outK (c : Dev nD) : Buf (Elt F) ((c.tc : Thread nD τ).loc main_v109) := W18 m ρ c (Proc.devRef .tc main_v109)
/-- It is what the last pallas_call's write-backs fold to at its output window. -/
theorem outK_eq (c : Dev nD) : outK m ρ c = (dat2 (V17 m ρ) c).arrAt 3 cfg2.N := W18_arr m ρ c 3

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has the result buffer at `outK` and the argument
    arrays as launched. -/
theorem run : θ_run defs (onTc (τ := τ) (main (F := F))) ⟨m, fun _ => 0, ρ⟩ (fun r => ∀ c : Dev nD,
      r.2.mem ((c.tc : Thread nD τ).loc main_v109) = outK m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v109 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c)⟩)

/-- THE FRAME: the run, read at the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => (h c).2) (run m ρ)

end Cert.Kernel.Hand

end
-- ==== Proof.KI.Region0.lean ====
import proofs.«412627_j82471962018590_2_alg».proof.Proof.Gen.KernelIdeal.Launch
import proofs.«412627_j82471962018590_2_alg».proof.Proof.Gen.KernelIdeal.Skeleton
import proofs.«412627_j82471962018590_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The body of convolution call 0, at a parameter of entry contents

For the TensorCore's buffer contents `V` at the moment the call is entered: each window's block at a grid
point, the output block the body leaves as a function of the six input blocks, the body's triple, the proof
data of the call's pipeline and its body obligation. Generic in the float family. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the call is entered
variable (V : (c : Dev nD) → (b : Ref sig .tc) → Buf (Elt F) ((c : Thread nD τ).loc b))

/-! ## The windows' blocks -/

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the block was
    fetched there (where it was not, the block index has not moved), for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not the block was
    fetched there (where it was not, the block index has not moved), for any proof data whose array is the
    entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not the block was
    fetched there (where it was not, the block index has not moved), for any proof data whose array is the
    entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not the block was
    fetched there (where it was not, the block index has not moved), for any proof data whose array is the
    entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether or not the block was
    fetched there (where it was not, the block index has not moved), for any proof data whose array is the
    entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, whether or not the block was
    fetched there (where it was not, the block index has not moved), for any proof data whose array is the
    entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole staging buffer -/

abbrev r0_0 : Rect S1x8x642x64 := Rect.unit (s := S1x8x642x64) ![0, 0, 0, 0] S1x8x642x64.size inb_S1x8x642x64_S1x8x642x64_0_0_0_0
abbrev r0_1 : Rect S3x3x64x64 := Rect.unit (s := S3x3x64x64) ![0, 0, 0, 0] S3x3x64x64.size inb_S3x3x64x64_S3x3x64x64_0_0_0_0
abbrev r0_2 : Rect S1x64 := Rect.unit (s := S1x64) ![0, 0] S1x64.size inb_S1x64_S1x64_0_0
abbrev r0_3 : Rect S1x8x640x1 := Rect.unit (s := S1x8x640x1) ![0, 0, 0, 0] S1x8x640x1.size inb_S1x8x640x1_S1x8x640x1_0_0_0_0
abbrev r0_4 : Rect S1x8x640x64 := Rect.unit (s := S1x8x640x64) ![0, 0, 0, 0] S1x8x640x64.size inb_S1x8x640x64_S1x8x640x64_0_0_0_0

/-! ## What the body leaves in the output window's buffer -/

/-- The output staging buffer after the body, from the six input blocks in window order (up, centre and down
    row blocks, weights, bias, mask): its one store, of the masked rectified nine-tap sum. -/
def out0_6 (x0 : Vec F S1x8x642x64 .bf16) (x1 : Vec F S1x8x642x64 .bf16) (x2 : Vec F S1x8x642x64 .bf16) (x3 : Vec F S3x3x64x64 .f32) (x4 : Vec F S1x64 .f32) (x5 : Vec F S1x8x640x1 .f32) : Vec F S1x8x640x64 .bf16 :=
  View.canon [⟨r0_4, k0_pay1 (k0_pay8 (View.ld x3 r0_1) (k0_pay2 (View.ld x4 r0_2)) (k0_pay3 (View.ld x1 r0_0)) (k0_pay4 (View.ld x2 r0_0)) (k0_pay5 (View.ld x3 r0_1) (View.ld x0 r0_0)) (k0_pay6 (View.ld x1 r0_0)) (k0_pay7 (View.ld x3 r0_1)) (View.ld x5 r0_3))⟩]

/-- The one store takes the whole buffer, so it covers it. -/
theorem cover0_6 (p0 : Vec F S1x8x640x64 .bf16) (y : S1x8x640x64.Idx) :
    ∃ pc ∈ ([⟨r0_4, p0⟩] : List (View.Piece (Elt F) S1x8x640x64 .bf16)), y ∈ pc.1.set :=
  View.cover_of_tiled [⟨r0_4, p0⟩] S1x8x640x64.size (by rfl) y

/-! ## The body's triple -/

set_option maxHeartbeats 4000000 in
/-- The kernel body on whole staging memrefs, the inputs' at read contents `xW` and the output's at anything, runs
    to the continuation holding the inputs' as they were and the output's at `out0_6` of the inputs. The body
    reads the output buffer once before it stores it; the value read is not used. -/
theorem sound_kernel0 (c : Dev nD) (E : Set ℕ) (i : grid0.Coords) (arg2 : Memref sig .tc .vmem S1x8x642x64 .bf16) (harg2 : arg2.IsWhole) (arg3 : Memref sig .tc .vmem S1x8x642x64 .bf16) (harg3 : arg3.IsWhole) (arg4 : Memref sig .tc .vmem S1x8x642x64 .bf16) (harg4 : arg4.IsWhole) (arg5 : Memref sig .tc .vmem S3x3x64x64 .f32) (harg5 : arg5.IsWhole) (arg6 : Memref sig .tc .vmem S1x64 .f32) (harg6 : arg6.IsWhole) (arg7 : Memref sig .tc .vmem S1x8x640x1 .f32) (harg7 : arg7.IsWhole) (arg8 : Memref sig .tc .vmem S1x8x640x64 .bf16) (harg8 : arg8.IsWhole)
    (x0 : Vec F S1x8x642x64 .bf16) (x1 : Vec F S1x8x642x64 .bf16) (x2 : Vec F S1x8x642x64 .bf16) (x3 : Vec F S3x3x64x64 .f32) (x4 : Vec F S1x64 .f32) (x5 : Vec F S1x8x640x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0__conv_kernel i arg2 harg2 arg3 harg3 arg4 harg4 arg5 harg5 arg6 harg6 arg7 harg7 arg8 harg8) K := by
  simp only [cc0__conv_kernel_eq_skeleton]; unfold cc0__conv_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover0_6 _)

/-! ## The pipeline's proof data -/

/-- The proof data of the call's pipeline on core `c`: the arrays at the entry contents; after the body at point
    `t` each input's buffer at its block and the output's at `out0_6` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
import proofs.«412627_j82471962018590_2_alg».proof.Proof.Gen.KernelIdeal.Launch
import proofs.«412627_j82471962018590_2_alg».proof.Proof.Gen.KernelIdeal.Skeleton
import proofs.«412627_j82471962018590_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The body of convolution call 1, at a parameter of entry contents

For the TensorCore's buffer contents `V` at the moment the call is entered: each window's block at a grid
point, the output block the body leaves as a function of the six input blocks, the body's triple, the proof
data of the call's pipeline and its body obligation. Generic in the float family. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the call is entered
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the block was
    fetched there (where it was not, the block index has not moved), for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the block was
    fetched there (where it was not, the block index has not moved), for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the block was
    fetched there (where it was not, the block index has not moved), for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the block was
    fetched there (where it was not, the block index has not moved), for any proof data whose array is the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the block was
    fetched there (where it was not, the block index has not moved), for any proof data whose array is the
    entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether or not the block was
    fetched there (where it was not, the block index has not moved), for any proof data whose array is the
    entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole staging buffer -/

abbrev r1_0 : Rect S1x8x642x64 := Rect.unit (s := S1x8x642x64) ![0, 0, 0, 0] S1x8x642x64.size inb_S1x8x642x64_S1x8x642x64_0_0_0_0
abbrev r1_1 : Rect S3x3x64x64 := Rect.unit (s := S3x3x64x64) ![0, 0, 0, 0] S3x3x64x64.size inb_S3x3x64x64_S3x3x64x64_0_0_0_0
abbrev r1_2 : Rect S1x64 := Rect.unit (s := S1x64) ![0, 0] S1x64.size inb_S1x64_S1x64_0_0
abbrev r1_3 : Rect S1x8x640x1 := Rect.unit (s := S1x8x640x1) ![0, 0, 0, 0] S1x8x640x1.size inb_S1x8x640x1_S1x8x640x1_0_0_0_0
abbrev r1_4 : Rect S1x8x640x64 := Rect.unit (s := S1x8x640x64) ![0, 0, 0, 0] S1x8x640x64.size inb_S1x8x640x64_S1x8x640x64_0_0_0_0

/-! ## What the body leaves in the output window's buffer -/

/-- The output staging buffer after the body, from the six input blocks in window order (up, centre and down
    row blocks, weights, bias, mask): its one store, of the masked rectified nine-tap sum. -/
def out1_6 (x0 : Vec F S1x8x642x64 .bf16) (x1 : Vec F S1x8x642x64 .bf16) (x2 : Vec F S1x8x642x64 .bf16) (x3 : Vec F S3x3x64x64 .f32) (x4 : Vec F S1x64 .f32) (x5 : Vec F S1x8x640x1 .f32) : Vec F S1x8x640x64 .f32 :=
  View.canon [⟨r1_4, k1_pay1 (k1_pay8 (View.ld x3 r1_1) (k1_pay2 (View.ld x4 r1_2)) (k1_pay3 (View.ld x1 r1_0)) (k1_pay4 (View.ld x2 r1_0)) (k1_pay5 (View.ld x3 r1_1) (View.ld x0 r1_0)) (k1_pay6 (View.ld x1 r1_0)) (k1_pay7 (View.ld x3 r1_1)) (View.ld x5 r1_3))⟩]

/-- The one store takes the whole buffer, so it covers it. -/
theorem cover1_6 (p0 : Vec F S1x8x640x64 .f32) (y : S1x8x640x64.Idx) :
    ∃ pc ∈ ([⟨r1_4, p0⟩] : List (View.Piece (Elt F) S1x8x640x64 .f32)), y ∈ pc.1.set :=
  View.cover_of_tiled [⟨r1_4, p0⟩] S1x8x640x64.size (by rfl) y

/-! ## The body's triple -/

set_option maxHeartbeats 4000000 in
/-- The kernel body on whole staging memrefs, the inputs' at read contents `xW` and the output's at anything, runs
    to the continuation holding the inputs' as they were and the output's at `out1_6` of the inputs. The body
    reads the output buffer once before it stores it; the value read is not used. -/
theorem sound_kernel1 (c : Dev nD) (E : Set ℕ) (i : grid1.Coords) (arg2 : Memref sig .tc .vmem S1x8x642x64 .bf16) (harg2 : arg2.IsWhole) (arg3 : Memref sig .tc .vmem S1x8x642x64 .bf16) (harg3 : arg3.IsWhole) (arg4 : Memref sig .tc .vmem S1x8x642x64 .bf16) (harg4 : arg4.IsWhole) (arg5 : Memref sig .tc .vmem S3x3x64x64 .f32) (harg5 : arg5.IsWhole) (arg6 : Memref sig .tc .vmem S1x64 .f32) (harg6 : arg6.IsWhole) (arg7 : Memref sig .tc .vmem S1x8x640x1 .f32) (harg7 : arg7.IsWhole) (arg8 : Memref sig .tc .vmem S1x8x640x64 .f32) (harg8 : arg8.IsWhole)
    (x0 : Vec F S1x8x642x64 .bf16) (x1 : Vec F S1x8x642x64 .bf16) (x2 : Vec F S1x8x642x64 .bf16) (x3 : Vec F S3x3x64x64 .f32) (x4 : Vec F S1x64 .f32) (x5 : Vec F S1x8x640x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1__conv_kernel i arg2 harg2 arg3 harg3 arg4 harg4 arg5 harg5 arg6 harg6 arg7 harg7 arg8 harg8) K := by
  simp only [cc1__conv_kernel_eq_skeleton]; unfold cc1__conv_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-! ## The pipeline's proof data -/

/-- The proof data of the call's pipeline on core `c`: the arrays at the entry contents; after the body at point
    `t` each input's buffer at its block and the output's at `out1_6` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Region2.lean ====
import proofs.«412627_j82471962018590_2_alg».proof.Proof.Gen.KernelIdeal.Launch
import proofs.«412627_j82471962018590_2_alg».proof.Proof.Gen.KernelIdeal.Skeleton
import proofs.«412627_j82471962018590_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third pallas_call's body, at any entry contents

The residual kernel reads three blocks (the features block, the whole dense weight, the gathered block), and stores
`max(features · weight + gathered, 0)` over the whole output block. Stated at a parameter `V` — the TensorCore's
buffer contents when the call is entered — and at any float model `F`: each window's block at a point, what the body
leaves in the output window's buffer as a function of the three input blocks, the body's triple, the pipeline's proof
data and its body obligation. -/

-- membership in a rectangle of production extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the call is entered
variable (V : (c : Dev nD) → (b : Ref sig .tc) → Buf (Elt F) ((c : Thread nD τ).loc b))

/-! ## The windows' blocks -/

/-- Window `w`'s block at point `t`, read off its array as the call finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s (`hA`) and whose body leaves the block in place (`hafter`): unfetched, the block index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s (`hA`) and whose body leaves the block in place (`hafter`): unfetched, the block index has
    not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s (`hA`) and whose body leaves the block in place (`hafter`): unfetched, the block index has
    not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S8192x64 := Rect.unit (s := S8192x64) ![0, 0] S8192x64.size inb_S8192x64_S8192x64_0_0
abbrev r2_1 : Rect S64x64 := Rect.unit (s := S64x64) ![0, 0] S64x64.size inb_S64x64_S64x64_0_0

/-! ## What the body leaves in the output window's buffer -/

/-- Window 3's staging buffer after the body, from the three input windows' blocks: its one store, over the whole
    block, of `max(x0 · x1 + x2, 0)` (the product on the inputs rounded to bf16, accumulated in f32). -/
def out2_3 (x0 : Vec F S8192x64 .f32) (x1 : Vec F S64x64 .f32) (x2 : Vec F S8192x64 .f32) : Vec F S8192x64 .f32 :=
  View.canon [⟨r2_0, k2_pay1 (View.ld x0 r2_0) (View.ld x1 r2_1) (View.ld x2 r2_0)⟩]

/-- The store tiles the buffer (checked by evaluation), so it covers it. -/
theorem cover2_3 (p0 : Vec F S8192x64 .f32) (y : S8192x64.Idx) :
    ∃ pc ∈ ([⟨r2_0, p0⟩] : List (View.Piece (Elt F) S8192x64 .f32)), y ∈ pc.1.set :=
  View.cover_of_tiled [⟨r2_0, p0⟩] S8192x64.size (by rfl) y

/-! ## The body's triple -/

set_option maxHeartbeats 1000000 in
/-- The kernel body on whole staging memrefs, the inputs' at read contents `xW` and the output's at anything, runs to
    the continuation holding the inputs' as they were and the output's at `out2_3` of the inputs'. The body loads the
    output block before storing over it; the loaded value is not used. -/
theorem sound_kernel2 (c : Dev nD) (E : Set ℕ) (i : grid2.Coords)
    (arg0 : Memref sig .tc .vmem S8192x64 .f32) (harg0 : arg0.IsWhole) (arg1 : Memref sig .tc .vmem S64x64 .f32) (harg1 : arg1.IsWhole)
    (arg2 : Memref sig .tc .vmem S8192x64 .f32) (harg2 : arg2.IsWhole) (arg3 : Memref sig .tc .vmem S8192x64 .f32) (harg3 : arg3.IsWhole)
    (x0 : Vec F S8192x64 .f32) (x1 : Vec F S64x64 .f32) (x2 : Vec F S8192x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__res_kernel i arg0 harg0 arg1 harg1 arg2 harg2 arg3 harg3) K := by
  simp only [cc2__res_kernel_eq_skeleton]; unfold cc2__res_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the third pipeline on core `c`: the arrays as the call finds them (`V`); after the body at point
    `t` each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KI.Run.lean ====
import proofs.«412627_j82471962018590_2_alg».proof.Proof.Gen.KernelIdeal.Launch
import proofs.«412627_j82471962018590_2_alg».proof.Proof.Gen.KernelIdeal.Skeleton
import proofs.«412627_j82471962018590_2_alg».proof.Proof.Gen.KernelIdeal.Points
import proofs.«412627_j82471962018590_2_alg».proof.Proof.KI.Region0
import proofs.«412627_j82471962018590_2_alg».proof.Proof.KI.Region1
import proofs.«412627_j82471962018590_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: eighteen items from the launch to the return

The buffer contents at every boundary between two items (a fold from the launch memory: a stretch of host operations
maps the contents through its operations; a pallas_call leaves its arrays at what its write-backs fold to and every
other buffer as entered), each argument array read back through the fold to its launch contents, the three
pallas_calls as regions over the thread state "every unscoped buffer at the boundary's contents", and the run:
every weakly fair execution terminates, the result buffer ends at the fold's last contents and the arguments end
as launched. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After `hostOps0_1`. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
/-- After `hostOps0_2`. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- After `hostOps0_3`. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b
/-- After `hostOps0_4`. -/
abbrev W5 : Dev nD → Valuation τ sig (Elt F) := fun c => StableHlo.after hostOps0_4 (W4 m ρ c)
/-- The same read at the TensorCore's references. -/
abbrev V5 : (c : Dev nD) → (b : Ref sig .tc) → Buf (Elt F) ((c : Thread nD τ).loc b) := fun c b => W5 m ρ c b
/-- After `hostOps0_5`. -/
abbrev W6 : Dev nD → Valuation τ sig (Elt F) := fun c => StableHlo.after hostOps0_5 (W5 m ρ c)
/-- The same read at the TensorCore's references. -/
abbrev V6 : (c : Dev nD) → (b : Ref sig .tc) → Buf (Elt F) ((c : Thread nD τ).loc b) := fun c b => W6 m ρ c b
/-- After `hostOps0_6`. -/
abbrev W7 : Dev nD → Valuation τ sig (Elt F) := fun c => StableHlo.after hostOps0_6 (W6 m ρ c)
/-- The same read at the TensorCore's references. -/
abbrev V7 : (c : Dev nD) → (b : Ref sig .tc) → Buf (Elt F) ((c : Thread nD τ).loc b) := fun c b => W7 m ρ c b
/-- At pallas_call 0's exit: its arrays at what the pipeline leaves (the inputs as entered, the output's
    write-backs folded), every other buffer as entered. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
/-- The same read at the TensorCore's references (pallas_call 0's exit contents). -/
abbrev V8 : (c : Dev nD) → (b : Ref sig .tc) → Buf (Elt F) ((c : Thread nD τ).loc b) := fun c b => W8 m ρ c b
/-- At the exit each array holds what the pipeline leaves, and every other buffer what it held at entry. -/
theorem hF8 (c : Dev nD) (w : Fin cfg0.W) : (dat0 (V7 m ρ) c).arrAt w cfg0.N = V8 m ρ c (Pipeline.arrRef spec0 w) :=
  (W8_arr m ρ c w).symm
theorem hrest8 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)
/-- After `hostOps1`. -/
abbrev W9 : Dev nD → Valuation τ sig (Elt F) := fun c => StableHlo.after hostOps1 (W8 m ρ c)
/-- The same read at the TensorCore's references. -/
abbrev V9 : (c : Dev nD) → (b : Ref sig .tc) → Buf (Elt F) ((c : Thread nD τ).loc b) := fun c b => W9 m ρ c b
/-- After `hostOps1_1`. -/
abbrev W10 : Dev nD → Valuation τ sig (Elt F) := fun c => StableHlo.after hostOps1_1 (W9 m ρ c)
/-- The same read at the TensorCore's references. -/
abbrev V10 : (c : Dev nD) → (b : Ref sig .tc) → Buf (Elt F) ((c : Thread nD τ).loc b) := fun c b => W10 m ρ c b
/-- After `hostOps1_2`. -/
abbrev W11 : Dev nD → Valuation τ sig (Elt F) := fun c => StableHlo.after hostOps1_2 (W10 m ρ c)
/-- The same read at the TensorCore's references. -/
abbrev V11 : (c : Dev nD) → (b : Ref sig .tc) → Buf (Elt F) ((c : Thread nD τ).loc b) := fun c b => W11 m ρ c b
/-- After `hostOps1_3`. -/
abbrev W12 : Dev nD → Valuation τ sig (Elt F) := fun c => StableHlo.after hostOps1_3 (W11 m ρ c)
/-- The same read at the TensorCore's references. -/
abbrev V12 : (c : Dev nD) → (b : Ref sig .tc) → Buf (Elt F) ((c : Thread nD τ).loc b) := fun c b => W12 m ρ c b
/-- After `hostOps1_4`. -/
abbrev W13 : Dev nD → Valuation τ sig (Elt F) := fun c => StableHlo.after hostOps1_4 (W12 m ρ c)
/-- The same read at the TensorCore's references. -/
abbrev V13 : (c : Dev nD) → (b : Ref sig .tc) → Buf (Elt F) ((c : Thread nD τ).loc b) := fun c b => W13 m ρ c b
/-- After `hostOps1_5`. -/
abbrev W14 : Dev nD → Valuation τ sig (Elt F) := fun c => StableHlo.after hostOps1_5 (W13 m ρ c)
/-- The same read at the TensorCore's references. -/
abbrev V14 : (c : Dev nD) → (b : Ref sig .tc) → Buf (Elt F) ((c : Thread nD τ).loc b) := fun c b => W14 m ρ c b
/-- After `hostOps1_6`. -/
abbrev W15 : Dev nD → Valuation τ sig (Elt F) := fun c => StableHlo.after hostOps1_6 (W14 m ρ c)
/-- The same read at the TensorCore's references. -/
abbrev V15 : (c : Dev nD) → (b : Ref sig .tc) → Buf (Elt F) ((c : Thread nD τ).loc b) := fun c b => W15 m ρ c b
/-- At pallas_call 1's exit: its arrays at what the pipeline leaves (the inputs as entered, the output's
    write-backs folded), every other buffer as entered. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
/-- The same read at the TensorCore's references (pallas_call 1's exit contents). -/
abbrev V16 : (c : Dev nD) → (b : Ref sig .tc) → Buf (Elt F) ((c : Thread nD τ).loc b) := fun c b => W16 m ρ c b
/-- At the exit each array holds what the pipeline leaves, and every other buffer what it held at entry. -/
theorem hF16 (c : Dev nD) (w : Fin cfg1.W) : (dat1 (V15 m ρ) c).arrAt w cfg1.N = V16 m ρ c (Pipeline.arrRef spec1 w) :=
  (W16_arr m ρ c w).symm
theorem hrest16 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)
/-- After `hostOps2`. -/
abbrev W17 : Dev nD → Valuation τ sig (Elt F) := fun c => StableHlo.after hostOps2 (W16 m ρ c)
/-- The same read at the TensorCore's references. -/
abbrev V17 : (c : Dev nD) → (b : Ref sig .tc) → Buf (Elt F) ((c : Thread nD τ).loc b) := fun c b => W17 m ρ c b
/-- At pallas_call 2's exit: its arrays at what the pipeline leaves (the inputs as entered, the output's
    write-backs folded), every other buffer as entered. -/
def W18 (c : Dev nD) : Valuation τ sig (Elt F) :=
  Pipeline.withArrays spec2 c (W17 m ρ c) fun w => (dat2 (V17 m ρ) c).arrAt w cfg2.N
theorem W18_arr (c : Dev nD) (w : Fin cfg2.W) :
    W18 m ρ c (Proc.devRef .tc (Pipeline.arrRef spec2 w)) = (dat2 (V17 m ρ) c).arrAt w cfg2.N := by
  unfold W18; exact Pipeline.withArrays_arr spec2 launch2.win.arr_inj c _ _ w
theorem W18_of_ne (c : Dev nD) (b : Ref sig .tc) (hb : ∀ w, Pipeline.arrRef spec2 w ≠ b) :
    W18 m ρ c (Proc.devRef .tc b) = W17 m ρ c (Proc.devRef .tc b) := by
  unfold W18; exact Pipeline.withArrays_of_ne spec2 c _ _ b hb
/-- The same read at the TensorCore's references (pallas_call 2's exit contents). -/
abbrev V18 : (c : Dev nD) → (b : Ref sig .tc) → Buf (Elt F) ((c : Thread nD τ).loc b) := fun c b => W18 m ρ c b
/-- At the exit each array holds what the pipeline leaves, and every other buffer what it held at entry. -/
theorem hF18 (c : Dev nD) (w : Fin cfg2.W) : (dat2 (V17 m ρ) c).arrAt w cfg2.N = V18 m ρ c (Pipeline.arrRef spec2 w) :=
  (W18_arr m ρ c w).symm
theorem hrest18 (c : Dev nD) : ∀ b, b ∉ Finset.univ.image (Pipeline.arrRef spec2) → V18 m ρ c b = V17 m ρ c b :=
  fun b hb => W18_of_ne m ρ c b fun w e => hb (Finset.mem_image.mpr ⟨w, Finset.mem_univ _, e⟩)

/-! ## The arguments end as launched

No host operation writes an argument and a pallas_call reads one through an input window or not at all, so the fold
at an argument's buffer walks back to the launch memory. -/

/-- A stretch none of whose operations writes the buffer leaves it as found. -/
local macro "keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

theorem W18_main_arg0 (c : Dev nD) : W18 m ρ c (Proc.devRef .tc main_arg0) = m ((c : Thread nD τ).loc main_arg0) :=
  calc W18 m ρ c (Proc.devRef .tc main_arg0)
    _ = W17 m ρ c (Proc.devRef .tc main_arg0) := (W18_arr m ρ c 0).trans (((dat2 (V17 m ρ) c).arrAt_in 0 rfl _).trans (A_eq2 (V17 m ρ) c 0))
    _ = W16 m ρ c (Proc.devRef .tc main_arg0) := by keeps hostOps2
    _ = W15 m ρ c (Proc.devRef .tc main_arg0) := W16_of_ne m ρ c main_arg0 (by decide)
    _ = W14 m ρ c (Proc.devRef .tc main_arg0) := by keeps hostOps1_6
    _ = W13 m ρ c (Proc.devRef .tc main_arg0) := by keeps hostOps1_5
    _ = W12 m ρ c (Proc.devRef .tc main_arg0) := by keeps hostOps1_4
    _ = W11 m ρ c (Proc.devRef .tc main_arg0) := by keeps hostOps1_3
    _ = W10 m ρ c (Proc.devRef .tc main_arg0) := by keeps hostOps1_2
    _ = W9 m ρ c (Proc.devRef .tc main_arg0) := by keeps hostOps1_1
    _ = W8 m ρ c (Proc.devRef .tc main_arg0) := by keeps hostOps1
    _ = W7 m ρ c (Proc.devRef .tc main_arg0) := W8_of_ne m ρ c main_arg0 (by decide)
    _ = W6 m ρ c (Proc.devRef .tc main_arg0) := by keeps hostOps0_6
    _ = W5 m ρ c (Proc.devRef .tc main_arg0) := by keeps hostOps0_5
    _ = W4 m ρ c (Proc.devRef .tc main_arg0) := by keeps hostOps0_4
    _ = W3 m ρ c (Proc.devRef .tc main_arg0) := by keeps hostOps0_3
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

theorem W18_main_arg1 (c : Dev nD) : W18 m ρ c (Proc.devRef .tc main_arg1) = m ((c : Thread nD τ).loc main_arg1) :=
  calc W18 m ρ c (Proc.devRef .tc main_arg1)
    _ = W17 m ρ c (Proc.devRef .tc main_arg1) := W18_of_ne m ρ c main_arg1 (by decide)
    _ = W16 m ρ c (Proc.devRef .tc main_arg1) := by keeps hostOps2
    _ = W15 m ρ c (Proc.devRef .tc main_arg1) := W16_of_ne m ρ c main_arg1 (by decide)
    _ = W14 m ρ c (Proc.devRef .tc main_arg1) := by keeps hostOps1_6
    _ = W13 m ρ c (Proc.devRef .tc main_arg1) := by keeps hostOps1_5
    _ = W12 m ρ c (Proc.devRef .tc main_arg1) := by keeps hostOps1_4
    _ = W11 m ρ c (Proc.devRef .tc main_arg1) := by keeps hostOps1_3
    _ = W10 m ρ c (Proc.devRef .tc main_arg1) := by keeps hostOps1_2
    _ = W9 m ρ c (Proc.devRef .tc main_arg1) := by keeps hostOps1_1
    _ = W8 m ρ c (Proc.devRef .tc main_arg1) := by keeps hostOps1
    _ = W7 m ρ c (Proc.devRef .tc main_arg1) := W8_of_ne m ρ c main_arg1 (by decide)
    _ = W6 m ρ c (Proc.devRef .tc main_arg1) := by keeps hostOps0_6
    _ = W5 m ρ c (Proc.devRef .tc main_arg1) := by keeps hostOps0_5
    _ = W4 m ρ c (Proc.devRef .tc main_arg1) := by keeps hostOps0_4
    _ = W3 m ρ c (Proc.devRef .tc main_arg1) := by keeps hostOps0_3
    _ = W2 m ρ c (Proc.devRef .tc main_arg1) := by keeps hostOps0_2
    _ = W1 m ρ c (Proc.devRef .tc main_arg1) := by keeps hostOps0_1
    _ = W0 m ρ c (Proc.devRef .tc main_arg1) := by keeps hostOps0
    _ = m ((c : Thread nD τ).loc main_arg1) := rfl

theorem W18_main_arg2 (c : Dev nD) : W18 m ρ c (Proc.devRef .tc main_arg2) = m ((c : Thread nD τ).loc main_arg2) :=
  calc W18 m ρ c (Proc.devRef .tc main_arg2)
    _ = W17 m ρ c (Proc.devRef .tc main_arg2) := W18_of_ne m ρ c main_arg2 (by decide)
    _ = W16 m ρ c (Proc.devRef .tc main_arg2) := by keeps hostOps2
    _ = W15 m ρ c (Proc.devRef .tc main_arg2) := W16_of_ne m ρ c main_arg2 (by decide)
    _ = W14 m ρ c (Proc.devRef .tc main_arg2) := by keeps hostOps1_6
    _ = W13 m ρ c (Proc.devRef .tc main_arg2) := by keeps hostOps1_5
    _ = W12 m ρ c (Proc.devRef .tc main_arg2) := by keeps hostOps1_4
    _ = W11 m ρ c (Proc.devRef .tc main_arg2) := by keeps hostOps1_3
    _ = W10 m ρ c (Proc.devRef .tc main_arg2) := by keeps hostOps1_2
    _ = W9 m ρ c (Proc.devRef .tc main_arg2) := by keeps hostOps1_1
    _ = W8 m ρ c (Proc.devRef .tc main_arg2) := by keeps hostOps1
    _ = W7 m ρ c (Proc.devRef .tc main_arg2) := (W8_arr m ρ c 3).trans (((dat0 (V7 m ρ) c).arrAt_in 3 rfl _).trans (A_eq0 (V7 m ρ) c 3))
    _ = W6 m ρ c (Proc.devRef .tc main_arg2) := by keeps hostOps0_6
    _ = W5 m ρ c (Proc.devRef .tc main_arg2) := by keeps hostOps0_5
    _ = W4 m ρ c (Proc.devRef .tc main_arg2) := by keeps hostOps0_4
    _ = W3 m ρ c (Proc.devRef .tc main_arg2) := by keeps hostOps0_3
    _ = W2 m ρ c (Proc.devRef .tc main_arg2) := by keeps hostOps0_2
    _ = W1 m ρ c (Proc.devRef .tc main_arg2) := by keeps hostOps0_1
    _ = W0 m ρ c (Proc.devRef .tc main_arg2) := by keeps hostOps0
    _ = m ((c : Thread nD τ).loc main_arg2) := rfl

theorem W18_main_arg3 (c : Dev nD) : W18 m ρ c (Proc.devRef .tc main_arg3) = m ((c : Thread nD τ).loc main_arg3) :=
  calc W18 m ρ c (Proc.devRef .tc main_arg3)
    _ = W17 m ρ c (Proc.devRef .tc main_arg3) := W18_of_ne m ρ c main_arg3 (by decide)
    _ = W16 m ρ c (Proc.devRef .tc main_arg3) := by keeps hostOps2
    _ = W15 m ρ c (Proc.devRef .tc main_arg3) := W16_of_ne m ρ c main_arg3 (by decide)
    _ = W14 m ρ c (Proc.devRef .tc main_arg3) := by keeps hostOps1_6
    _ = W13 m ρ c (Proc.devRef .tc main_arg3) := by keeps hostOps1_5
    _ = W12 m ρ c (Proc.devRef .tc main_arg3) := by keeps hostOps1_4
    _ = W11 m ρ c (Proc.devRef .tc main_arg3) := by keeps hostOps1_3
    _ = W10 m ρ c (Proc.devRef .tc main_arg3) := by keeps hostOps1_2
    _ = W9 m ρ c (Proc.devRef .tc main_arg3) := by keeps hostOps1_1
    _ = W8 m ρ c (Proc.devRef .tc main_arg3) := by keeps hostOps1
    _ = W7 m ρ c (Proc.devRef .tc main_arg3) := W8_of_ne m ρ c main_arg3 (by decide)
    _ = W6 m ρ c (Proc.devRef .tc main_arg3) := by keeps hostOps0_6
    _ = W5 m ρ c (Proc.devRef .tc main_arg3) := by keeps hostOps0_5
    _ = W4 m ρ c (Proc.devRef .tc main_arg3) := by keeps hostOps0_4
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

theorem W18_main_arg4 (c : Dev nD) : W18 m ρ c (Proc.devRef .tc main_arg4) = m ((c : Thread nD τ).loc main_arg4) :=
  calc W18 m ρ c (Proc.devRef .tc main_arg4)
    _ = W17 m ρ c (Proc.devRef .tc main_arg4) := W18_of_ne m ρ c main_arg4 (by decide)
    _ = W16 m ρ c (Proc.devRef .tc main_arg4) := by keeps hostOps2
    _ = W15 m ρ c (Proc.devRef .tc main_arg4) := (W16_arr m ρ c 3).trans (((dat1 (V15 m ρ) c).arrAt_in 3 rfl _).trans (A_eq1 (V15 m ρ) c 3))
    _ = W14 m ρ c (Proc.devRef .tc main_arg4) := by keeps hostOps1_6
    _ = W13 m ρ c (Proc.devRef .tc main_arg4) := by keeps hostOps1_5
    _ = W12 m ρ c (Proc.devRef .tc main_arg4) := by keeps hostOps1_4
    _ = W11 m ρ c (Proc.devRef .tc main_arg4) := by keeps hostOps1_3
    _ = W10 m ρ c (Proc.devRef .tc main_arg4) := by keeps hostOps1_2
    _ = W9 m ρ c (Proc.devRef .tc main_arg4) := by keeps hostOps1_1
    _ = W8 m ρ c (Proc.devRef .tc main_arg4) := by keeps hostOps1
    _ = W7 m ρ c (Proc.devRef .tc main_arg4) := W8_of_ne m ρ c main_arg4 (by decide)
    _ = W6 m ρ c (Proc.devRef .tc main_arg4) := by keeps hostOps0_6
    _ = W5 m ρ c (Proc.devRef .tc main_arg4) := by keeps hostOps0_5
    _ = W4 m ρ c (Proc.devRef .tc main_arg4) := by keeps hostOps0_4
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0
    _ = m ((c : Thread nD τ).loc main_arg4) := rfl

theorem W18_main_arg5 (c : Dev nD) : W18 m ρ c (Proc.devRef .tc main_arg5) = m ((c : Thread nD τ).loc main_arg5) :=
  calc W18 m ρ c (Proc.devRef .tc main_arg5)
    _ = W17 m ρ c (Proc.devRef .tc main_arg5) := W18_of_ne m ρ c main_arg5 (by decide)
    _ = W16 m ρ c (Proc.devRef .tc main_arg5) := by keeps hostOps2
    _ = W15 m ρ c (Proc.devRef .tc main_arg5) := W16_of_ne m ρ c main_arg5 (by decide)
    _ = W14 m ρ c (Proc.devRef .tc main_arg5) := by keeps hostOps1_6
    _ = W13 m ρ c (Proc.devRef .tc main_arg5) := by keeps hostOps1_5
    _ = W12 m ρ c (Proc.devRef .tc main_arg5) := by keeps hostOps1_4
    _ = W11 m ρ c (Proc.devRef .tc main_arg5) := by keeps hostOps1_3
    _ = W10 m ρ c (Proc.devRef .tc main_arg5) := by keeps hostOps1_2
    _ = W9 m ρ c (Proc.devRef .tc main_arg5) := by keeps hostOps1_1
    _ = W8 m ρ c (Proc.devRef .tc main_arg5) := by keeps hostOps1
    _ = W7 m ρ c (Proc.devRef .tc main_arg5) := W8_of_ne m ρ c main_arg5 (by decide)
    _ = W6 m ρ c (Proc.devRef .tc main_arg5) := by keeps hostOps0_6
    _ = W5 m ρ c (Proc.devRef .tc main_arg5) := by keeps hostOps0_5
    _ = W4 m ρ c (Proc.devRef .tc main_arg5) := by keeps hostOps0_4
    _ = W3 m ρ c (Proc.devRef .tc main_arg5) := by keeps hostOps0_3
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c : Thread nD τ).loc main_arg5) := rfl

theorem W18_main_arg6 (c : Dev nD) : W18 m ρ c (Proc.devRef .tc main_arg6) = m ((c : Thread nD τ).loc main_arg6) :=
  calc W18 m ρ c (Proc.devRef .tc main_arg6)
    _ = W17 m ρ c (Proc.devRef .tc main_arg6) := (W18_arr m ρ c 1).trans (((dat2 (V17 m ρ) c).arrAt_in 1 rfl _).trans (A_eq2 (V17 m ρ) c 1))
    _ = W16 m ρ c (Proc.devRef .tc main_arg6) := by keeps hostOps2
    _ = W15 m ρ c (Proc.devRef .tc main_arg6) := W16_of_ne m ρ c main_arg6 (by decide)
    _ = W14 m ρ c (Proc.devRef .tc main_arg6) := by keeps hostOps1_6
    _ = W13 m ρ c (Proc.devRef .tc main_arg6) := by keeps hostOps1_5
    _ = W12 m ρ c (Proc.devRef .tc main_arg6) := by keeps hostOps1_4
    _ = W11 m ρ c (Proc.devRef .tc main_arg6) := by keeps hostOps1_3
    _ = W10 m ρ c (Proc.devRef .tc main_arg6) := by keeps hostOps1_2
    _ = W9 m ρ c (Proc.devRef .tc main_arg6) := by keeps hostOps1_1
    _ = W8 m ρ c (Proc.devRef .tc main_arg6) := by keeps hostOps1
    _ = W7 m ρ c (Proc.devRef .tc main_arg6) := W8_of_ne m ρ c main_arg6 (by decide)
    _ = W6 m ρ c (Proc.devRef .tc main_arg6) := by keeps hostOps0_6
    _ = W5 m ρ c (Proc.devRef .tc main_arg6) := by keeps hostOps0_5
    _ = W4 m ρ c (Proc.devRef .tc main_arg6) := by keeps hostOps0_4
    _ = W3 m ρ c (Proc.devRef .tc main_arg6) := by keeps hostOps0_3
    _ = W2 m ρ c (Proc.devRef .tc main_arg6) := by keeps hostOps0_2
    _ = W1 m ρ c (Proc.devRef .tc main_arg6) := by keeps hostOps0_1
    _ = W0 m ρ c (Proc.devRef .tc main_arg6) := by keeps hostOps0
    _ = m ((c : Thread nD τ).loc main_arg6) := rfl

/-! ## The proof data family and the thread state -/

/-- The prefetched tables' admissible contents: no pipeline has a table. -/
abbrev adm : (p : Fin 3) → (pcfgs (F := F) p).Adm := fun p => (cfgs p).toPCfg_adm
/-- Every pipeline's proof data, each at its pallas_call's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V15 m ρ) c
  | ⟨2, _⟩ => fun c => dat2 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it ends at those references at the stretch's fold of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 40000000 in
/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps1_1` allocates a buffer. -/
theorem hostOps1_1_fresh : (hostOps1_1 : List (HloOp τ sig (Elt F))).Forall fun op => op.fresh = ∅ := by
  simp only [List.Forall]; repeat' constructor
/-- No operation of `hostOps1_2` allocates a buffer. -/
theorem hostOps1_2_fresh : (hostOps1_2 : List (HloOp τ sig (Elt F))).Forall fun op => op.fresh = ∅ := by
  simp only [List.Forall]; repeat' constructor
/-- No operation of `hostOps1_3` allocates a buffer. -/
theorem hostOps1_3_fresh : (hostOps1_3 : List (HloOp τ sig (Elt F))).Forall fun op => op.fresh = ∅ := by
  simp only [List.Forall]; repeat' constructor
/-- No operation of `hostOps1_4` allocates a buffer. -/
theorem hostOps1_4_fresh : (hostOps1_4 : List (HloOp τ sig (Elt F))).Forall fun op => op.fresh = ∅ := by
  simp only [List.Forall]; repeat' constructor
/-- No operation of `hostOps1_5` allocates a buffer. -/
theorem hostOps1_5_fresh : (hostOps1_5 : List (HloOp τ sig (Elt F))).Forall fun op => op.fresh = ∅ := by
  simp only [List.Forall]; repeat' constructor
/-- No operation of `hostOps1_6` allocates a buffer. -/
theorem hostOps1_6_fresh : (hostOps1_6 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W18`, the
    generator register at some state. -/
abbrev Tₙ (c : Dev nD) : sProp 𝕄 := iprop(StableHlo.held (c : Thread nD τ) (Pipeline.ucRefs τ sig) (W18 m ρ c) ∗ ∃ r, prngReg c r)

/-! ## The pallas_calls as regions -/

-- applying a library lemma stated over the pinned configuration unifies only when unification may unfold plain
-- definitions in a metavariable's type
set_option backward.isDefEq.respectTransparency.types false in
/-- pallas_call 0 over the thread state: entered from every unscoped buffer at `W7`, left at `W8`. Its arrays
    split out of the unscoped buffers and put back at the exit contents; the generator register into the class
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when unification may unfold plain
-- definitions in a metavariable's type
set_option backward.isDefEq.respectTransparency.types false in
/-- pallas_call 1 over the thread state: entered from every unscoped buffer at `W15`, left at `W16`. Its arrays
    split out of the unscoped buffers and put back at the exit contents; the generator register into the class
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies only when unification may unfold plain
-- definitions in a metavariable's type
set_option backward.isDefEq.respectTransparency.types false in
/-- pallas_call 2 over the thread state: entered from every unscoped buffer at `W17`, left at `W18`. Its arrays
    split out of the unscoped buffers and put back at the exit contents; the generator register into the class
    invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V17 m ρ) c).loose
  hwaits := Pipeline.hwaits_of_owed_zero _ _ _ _ L lv 2 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V17 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V17 m ρ c) (V18 m ρ c) ((pdats m ρ 2 c).arrAt · cfg2.N) (hF18 m ρ c) (hrest18 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eighteen segments in order: a host segment per stretch from its boundary's contents, a region per
    pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .host (hseg hostOps1_3 hostOps1_3_sub hostOps1_3_fresh (W11 m ρ)),
    .host (hseg hostOps1_4 hostOps1_4_sub hostOps1_4_fresh (W12 m ρ)),
    .host (hseg hostOps1_5 hostOps1_5_sub hostOps1_5_fresh (W13 m ρ)),
    .host (hseg hostOps1_6 hostOps1_6_sub hostOps1_6_fresh (W14 m ρ)),
    .region (reg1 m ρ),
    .host (hseg hostOps2 hostOps2_sub hostOps2_fresh (W16 m ρ)),
    .region (reg2 m ρ) ]
/-- @main IS the run of the segments: @main is the chain of its items, and the segments' run is that chain by the
    kernel's definitional check. -/
theorem main_run (c : Dev nD) : main (F := F) c = Pipeline.Seg.run (segs m ρ) := (main_chain c).trans (by chain_rfl)

/-- The result buffer's contents at the return, on core `c`. -/
def outK (c : Dev nD) : Buf (Elt F) ((c.tc : Thread nD τ).loc main_v109) := W18 m ρ c (Proc.devRef .tc main_v109)
/-- It is what the last pallas_call's write-backs fold to at its output window. -/
theorem outK_eq (c : Dev nD) : outK m ρ c = (dat2 (V17 m ρ) c).arrAt 3 cfg2.N := W18_arr m ρ c 3

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has the result buffer at `outK` and the argument
    arrays as launched. -/
theorem run : θ_run defs (onTc (τ := τ) (main (F := F))) ⟨m, fun _ => 0, ρ⟩ (fun r => ∀ c : Dev nD,
      r.2.mem ((c.tc : Thread nD τ).loc main_v109) = outK m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v109 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c)⟩)

/-- THE FRAME: the run, read at the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => (h c).2) (run m ρ)

end Cert.KernelIdeal.Hand

end
-- ==== Proof.KI.GlueDef.lean ====
/- The kernel's host constants and the three padded copies of a grid, as pure functions over the extended reals:
   the zero and one arrays the host broadcasts, the grid with one zero column on either side, and the same after a
   shift down or up by one row. -/
import proofs.«412627_j82471962018590_2_alg».proof.Proof.Gen.KernelIdeal
import Idealize.ShloMosaic.Lib.ValueIdx
import Idealize.ShloMosaic.Lib.IdealHost

noncomputable section

namespace Cert.KernelIdeal.Glue

open Idealize.ShloMosaic Idealize.ShloMosaic.ValueIdx
open Cert.KernelIdeal Cert.KernelIdeal.Gen

/-! ## The constants the host broadcasts -/

/-- The bf16 zero pattern broadcast to any shape is the zero array. -/
theorem zeros_bf16 (T : Shape) (h : S_.BroadcastsInDim T ![]) :
    broadcastInDim T ![] h (constant (F := Ideal) S_ .bf16 0x0000#16) = fun _ => (0 : EReal) := by
  funext j
  rw [broadcastInDim_scalar_apply h _ j, constant_apply]
  exact Ideal.ofBits_zero_bf16

/-- The f32 zero pattern broadcast to any shape is the zero array. -/
theorem zeros_f32 (T : Shape) (h : S_.BroadcastsInDim T ![]) :
    broadcastInDim T ![] h (constant (F := Ideal) S_ .f32 0x00000000#32) = fun _ => (0 : EReal) := by
  funext j
  rw [broadcastInDim_scalar_apply h _ j, constant_apply]
  exact Ideal.ofBits_zero_f32

/-- The f32 one pattern broadcast to any shape is the array of ones. -/
theorem ones_f32 (T : Shape) (h : S_.BroadcastsInDim T ![]) :
    broadcastInDim T ![] h (constant (F := Ideal) S_ .f32 0x3F800000#32) = fun _ => (1 : EReal) := by
  funext j
  rw [broadcastInDim_scalar_apply h _ j, constant_apply]
  exact Ideal.ofBits_one_f32

/-- The integer zero converted to bf16 is the zero scalar. -/
theorem zeroScalar_bf16 :
    (sitofp .bf16 (constantI S_ 32 0#32) : FVec Ideal S_ .bf16) = fun _ => (0 : EReal) := by
  funext j
  show (((0#32 : BitVec 32).toInt : ℝ) : EReal) = 0
  simp

/-! ## The three padded copies -/

/-- The grid with one zero column on either side. -/
def ceOf (D : S2x640x640x64.Idx → EReal) : S2x640x642x64.Idx → EReal :=
  pad S2x640x642x64 ![0, 0, 1, 0] ![0, 0, 1, 0] ![0, 0, 0, 0] D (fun _ : S_.Idx => (0 : EReal))
    pads_S2x640x640x64_S2x640x642x64_000_000_110_000 h_S_

/-- The grid shifted down by one row (a zero row first), with one zero column on either side. -/
def upOf (D : S2x640x640x64.Idx → EReal) : S2x640x642x64.Idx → EReal :=
  pad S2x640x642x64 ![0, 0, 1, 0] ![0, 0, 1, 0] ![0, 0, 0, 0]
    (concatenate S2x640x640x64 1
      [⟨S2x1x640x64, fun _ => (0 : EReal)⟩,
       ⟨S2x639x640x64, extractStridedSlice S2x639x640x64 ![0, 0, 0, 0] D slices_S2x640x640x64_S2x639x640x64_0_0_0_0⟩]
      concatenates_S2x1x640x64_S2x639x640x64_S2x640x640x64_d1)
    (fun _ : S_.Idx => (0 : EReal)) pads_S2x640x640x64_S2x640x642x64_000_000_110_000 h_S_

/-- The grid shifted up by one row (a zero row last), with one zero column on either side. -/
def dnOf (D : S2x640x640x64.Idx → EReal) : S2x640x642x64.Idx → EReal :=
  pad S2x640x642x64 ![0, 0, 1, 0] ![0, 0, 1, 0] ![0, 0, 0, 0]
    (concatenate S2x640x640x64 1
      [⟨S2x639x640x64, extractStridedSlice S2x639x640x64 ![0, 1, 0, 0] D slices_S2x640x640x64_S2x639x640x64_0_1_0_0⟩,
       ⟨S2x1x640x64, fun _ => (0 : EReal)⟩]
      concatenates_S2x639x640x64_S2x1x640x64_S2x640x640x64_d1)
    (fun _ : S_.Idx => (0 : EReal)) pads_S2x640x640x64_S2x640x642x64_000_000_110_000 h_S_

end Cert.KernelIdeal.Glue

end
-- ==== Proof.KI.Stages0.lean ====
import proofs.«412627_j82471962018590_2_alg».proof.Proof.KI.Run
import Idealize.ShloMosaic.Lib.StableHlo.Run
import Idealize.ShloMosaic.PureOps.Ideal

/-! # The two scatters and the gather, as functions of the launch contents

The index array each of them takes is rebuilt by the host from the coordinate words (three columns cut out, each
moved into range, laid side by side again): the same function `normIdx` of the launch coordinates at all three
places. The dense grid is the feature rows scattered over zeros at it, the mask ones scattered over zeros at it,
the gathered rows the second convolution's output read at it. -/

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL

/-! ## An operation over three literal operands -/

section Three
variable {nD : Nat} {τ : Topo} {sig : RefSig} {Val : EltTy → Type}

/-- An operation over the literal family `![x, a, b]`: its result buffer takes the function of the three operands'
    contents, each read at its own reference. -/
theorem nary3_result (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k
  match k with
  | ⟨0, _⟩ => rfl
  | ⟨1, _⟩ => rfl
  | ⟨2, _⟩ => rfl

/-- The same, with the result reference left out of the simplifier's index. -/
theorem nary3_result' (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result x a b y f hxs hy F

/-- Three contents, one per reference of the literal family `![x, a, b]`, as the family over its three positions: the
    three are plain arguments, so a rewrite reaches each. -/
def nary3Args (x a b : Ref sig .tc) (vx : x.ty.Contents Val) (va : a.ty.Contents Val) (vb : b.ty.Contents Val) :
    (k : Fin 3) → ((![x, a, b] : Fin 3 → Ref sig .tc) k).ty.Contents Val :=
  Fin.cons vx (Fin.cons va (Fin.cons vb (fun i => i.elim0)))

theorem nary3Args_zero (x a b : Ref sig .tc) (vx : x.ty.Contents Val) (va : a.ty.Contents Val) (vb : b.ty.Contents Val) :
    nary3Args x a b vx va vb 0 = vx := rfl
theorem nary3Args_one (x a b : Ref sig .tc) (vx : x.ty.Contents Val) (va : a.ty.Contents Val) (vb : b.ty.Contents Val) :
    nary3Args x a b vx va vb 1 = va := rfl
theorem nary3Args_two (x a b : Ref sig .tc) (vx : x.ty.Contents Val) (va : a.ty.Contents Val) (vb : b.ty.Contents Val) :
    nary3Args x a b vx va vb 2 = vb := rfl

/-- The same result with the operands' contents as plain arguments, the result reference left out of the
    simplifier's index. -/
theorem nary3_result'' (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (nary3Args x a b (F (Proc.devRef .tc x)) (F (Proc.devRef .tc a)) (F (Proc.devRef .tc b))) :=
  nary3_result x a b y f hxs hy F

/-- A three-piece concatenation depends on its pieces only through their contents. -/
theorem concatenate3_congr {α : Type} (t : Shape) (a : Fin t.rank) (s0 s1 s2 : Shape)
    (x0 x0' : s0.Idx → α) (x1 x1' : s1.Idx → α) (x2 x2' : s2.Idx → α) (h : Shape.Concatenates [s0, s1, s2] t a)
    (e0 : x0 = x0') (e1 : x1 = x1') (e2 : x2 = x2') :
    concatenate t a [⟨s0, x0⟩, ⟨s1, x1⟩, ⟨s2, x2⟩] h = concatenate t a [⟨s0, x0'⟩, ⟨s1, x1'⟩, ⟨s2, x2'⟩] h := by
  subst e0 e1 e2; rfl

end Three

attribute [local congr] concatenate3_congr

/-- A stretch's contents at one reference in one simplifier pass: each operation's result at its own result buffer is
    its function's value, at any other reference what was there; a three-operand operation by the lemma above. -/
local macro "results3" : tactic =>
  `(tactic| (simp (disch := decide) only [after_cons, after_nil, nary3Args_zero, nary3Args_one, nary3Args_two,
      nullary_result', unary_result', binary_result', ternary_result', quaternary_result', reshape_result', nary4_result', nary3_result'',
      unaryIndexed_result', binaryIndexed_result',
      nullary_result_ne', unary_result_ne', binary_result_ne', ternary_result_ne', quaternary_result_ne', reshape_result_ne',
      nary_result_ne', unaryIndexed_result_ne', binaryIndexed_result_ne']))

/-- A stretch none of whose operations writes the buffer leaves it as found. -/
local macro "keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

/-- The index array the host builds from the coordinate words: each column cut out, a negative word moved up by
    the axis size, the three columns laid side by side again. -/
def normIdx (x1 : S409600x3.Idx → BitVec 32) : S409600x3.Idx → BitVec 32 :=
  concatenate S409600x3 1
    [⟨S409600x1, broadcastInDim S409600x1 ![0] bcast_S409600_S409600x1_0
        (select (cmpi .slt (shapeCast S409600 (extractStridedSlice S409600x1 ![0, 0] x1 slices_S409600x3_S409600x1_0_0) shapeCasts_S409600x1_S409600)
            (broadcastInDim S409600 ![] bcast_S_S409600 (constantI S_ 32 0#32)))
          (addi (shapeCast S409600 (extractStridedSlice S409600x1 ![0, 0] x1 slices_S409600x3_S409600x1_0_0) shapeCasts_S409600x1_S409600)
            (broadcastInDim S409600 ![] bcast_S_S409600 (constantI S_ 32 2#32)))
          (shapeCast S409600 (extractStridedSlice S409600x1 ![0, 0] x1 slices_S409600x3_S409600x1_0_0) shapeCasts_S409600x1_S409600))⟩,
     ⟨S409600x1, broadcastInDim S409600x1 ![0] bcast_S409600_S409600x1_0
        (select (cmpi .slt (shapeCast S409600 (extractStridedSlice S409600x1 ![0, 1] x1 slices_S409600x3_S409600x1_0_1) shapeCasts_S409600x1_S409600)
            (broadcastInDim S409600 ![] bcast_S_S409600 (constantI S_ 32 0#32)))
          (addi (shapeCast S409600 (extractStridedSlice S409600x1 ![0, 1] x1 slices_S409600x3_S409600x1_0_1) shapeCasts_S409600x1_S409600)
            (broadcastInDim S409600 ![] bcast_S_S409600 (constantI S_ 32 640#32)))
          (shapeCast S409600 (extractStridedSlice S409600x1 ![0, 1] x1 slices_S409600x3_S409600x1_0_1) shapeCasts_S409600x1_S409600))⟩,
     ⟨S409600x1, broadcastInDim S409600x1 ![0] bcast_S409600_S409600x1_0
        (select (cmpi .slt (shapeCast S409600 (extractStridedSlice S409600x1 ![0, 2] x1 slices_S409600x3_S409600x1_0_2) shapeCasts_S409600x1_S409600)
            (broadcastInDim S409600 ![] bcast_S_S409600 (constantI S_ 32 0#32)))
          (addi (shapeCast S409600 (extractStridedSlice S409600x1 ![0, 2] x1 slices_S409600x3_S409600x1_0_2) shapeCasts_S409600x1_S409600)
            (broadcastInDim S409600 ![] bcast_S_S409600 (constantI S_ 32 640#32)))
          (shapeCast S409600 (extractStridedSlice S409600x1 ![0, 2] x1 slices_S409600x3_S409600x1_0_2) shapeCasts_S409600x1_S409600))⟩]
    concatenates_S409600x1_S409600x1_S409600x1_S409600x3_d1

variable (m : (ℓ : Loc nD τ sig) → Buf (Elt Ideal) ℓ) (ρ : Dev nD → PrngReg)

/-! ## The first stretch: the two scatters -/

set_option maxHeartbeats 8000000 in
/-- The dense grid: the feature rows scattered over the zero grid at the rebuilt index array. -/
theorem v27_eq (c : Dev nD) :
    (V1 m ρ c main_v27 : S2x640x640x64.Idx → EReal)
      = Host.scatter scatter_S2x640x640x64_S409600x3_S409600x64_1_012_012_1 (fun _ b => b)
          (broadcastInDim S2x640x640x64 ![] bcast_S_S2x640x640x64 (constant (F := Ideal) S_ .bf16 0x0000#16))
          (normIdx (m ((c.tc : Thread nD τ).loc main_arg1))) (m ((c.tc : Thread nD τ).loc main_arg0)) := by
  show StableHlo.after hostOps0 (W0 m ρ c) (Proc.devRef .tc main_v27) = _
  results3
  rfl

set_option maxHeartbeats 8000000 in
/-- The occupancy mask with its unit channel axis: ones scattered over the zero grid at the rebuilt index array. -/
theorem v56_eq (c : Dev nD) :
    (V1 m ρ c main_v56 : S2x640x640x1.Idx → EReal)
      = broadcastInDim S2x640x640x1 ![0, 1, 2] bcast_S2x640x640_S2x640x640x1_0_1_2
          (Host.scatter scatter_S2x640x640_S409600x3_S409600_n_012_012_1 (fun _ b => b)
            (broadcastInDim S2x640x640 ![] bcast_S_S2x640x640 (constant (F := Ideal) S_ .f32 0x00000000#32))
            (normIdx (m ((c.tc : Thread nD τ).loc main_arg1)))
            (broadcastInDim S409600 ![] bcast_S_S409600 (constant (F := Ideal) S_ .f32 0x3F800000#32))) := by
  show StableHlo.after hostOps0 (W0 m ρ c) (Proc.devRef .tc main_v56) = _
  results3
  rfl

/-! ## What the last call finds -/

/-- The coordinate words when the last stretch starts are the launch's. -/
theorem W16_main_arg1 (c : Dev nD) : W16 m ρ c (Proc.devRef .tc main_arg1) = m ((c.tc : Thread nD τ).loc main_arg1) := by
  have hk : W17 m ρ c (Proc.devRef .tc main_arg1) = W16 m ρ c (Proc.devRef .tc main_arg1) := by keeps hostOps2
  exact ((W18_of_ne m ρ c main_arg1 (by decide)).trans hk).symm.trans (W18_main_arg1 m ρ c)

set_option maxHeartbeats 4000000 in
/-- The gathered rows: the second convolution's output read at the rebuilt index array. -/
theorem v108_eq (c : Dev nD) :
    (V17 m ρ c main_v108 : S409600x64.Idx → EReal)
      = Host.gather gather_S2x640x640x64_S409600x3_S409600x64_1_012_n_n_012_1_11164
          (W16 m ρ c (Proc.devRef .tc main_v82)) (normIdx (m ((c.tc : Thread nD τ).loc main_arg1))) := by
  show StableHlo.after hostOps2 (W16 m ρ c) (Proc.devRef .tc main_v108) = _
  results3
  rw [W16_main_arg1]
  rfl

end Cert.KernelIdeal.Hand

end
-- ==== Proof.KI.Stages.lean ====
import proofs.«412627_j82471962018590_2_alg».proof.Proof.KI.Run
import proofs.«412627_j82471962018590_2_alg».proof.Proof.KI.GlueDef
import proofs.«412627_j82471962018590_2_alg».proof.Proof.KI.Stages0
import Idealize.ShloMosaic.Lib.StableHlo.Run
import Idealize.ShloMosaic.PureOps.Ideal

/-! # The contents a pallas_call finds, as the host operations' terms of earlier contents

Each buffer a call reads was written by a host operation of an earlier stretch (or is an argument): its contents at
the call's entry, read back through the stretches that do not write it, is that operation's function of the
contents its operands held. -/

set_option maxRecDepth 16384

noncomputable section

namespace Cert.KernelIdeal.Hand

open Cert.KernelIdeal Cert.KernelIdeal.Gen
open Idealize.ShloMosaic Idealize.ShloMosaic.TcCoe
open Idealize.SL

/-! ## A stretch's contents at one buffer, over any contents it starts from -/

section Pure

variable (X : Valuation τ sig (Elt Ideal))

/-- `hostOps0_1`: the grid at `main_v27` with one column of the converted scalar at `main_c_13` on either side. -/
theorem hostOps0_1_at_main_v57 :
    (StableHlo.after (hostOps0_1 (F := Ideal)) X (Proc.devRef .tc main_v57) : S2x640x642x64.Idx → EReal)
      = pad S2x640x642x64 ![0, 0, 1, 0] ![0, 0, 1, 0] ![0, 0, 0, 0] (X (Proc.devRef .tc main_v27) : S2x640x640x64.Idx → EReal) (sitofp .bf16 (X (Proc.devRef .tc main_c_13) : S_.Idx → BitVec 32) : FVec Ideal S_ .bf16) pads_S2x640x640x64_S2x640x642x64_000_000_110_000 h_S_ := by
  after_results
  simp only [StableHlo.TRef.ofBuf, StableHlo.TRef.toBuf, cast_eq]
/-- `hostOps0_3`: the grid at `main_v61` with one column of the converted scalar at `main_c_15` on either side. -/
theorem hostOps0_3_at_main_v62 :
    (StableHlo.after (hostOps0_3 (F := Ideal)) X (Proc.devRef .tc main_v62) : S2x640x642x64.Idx → EReal)
      = pad S2x640x642x64 ![0, 0, 1, 0] ![0, 0, 1, 0] ![0, 0, 0, 0] (X (Proc.devRef .tc main_v61) : S2x640x640x64.Idx → EReal) (sitofp .bf16 (X (Proc.devRef .tc main_c_15) : S_.Idx → BitVec 32) : FVec Ideal S_ .bf16) pads_S2x640x640x64_S2x640x642x64_000_000_110_000 h_S_ := by
  after_results
  simp only [StableHlo.TRef.ofBuf, StableHlo.TRef.toBuf, cast_eq]
/-- `hostOps0_5`: the grid at `main_v66` with one column of the converted scalar at `main_c_17` on either side. -/
theorem hostOps0_5_at_main_v67 :
    (StableHlo.after (hostOps0_5 (F := Ideal)) X (Proc.devRef .tc main_v67) : S2x640x642x64.Idx → EReal)
      = pad S2x640x642x64 ![0, 0, 1, 0] ![0, 0, 1, 0] ![0, 0, 0, 0] (X (Proc.devRef .tc main_v66) : S2x640x640x64.Idx → EReal) (sitofp .bf16 (X (Proc.devRef .tc main_c_17) : S_.Idx → BitVec 32) : FVec Ideal S_ .bf16) pads_S2x640x640x64_S2x640x642x64_000_000_110_000 h_S_ := by
  after_results
  simp only [StableHlo.TRef.ofBuf, StableHlo.TRef.toBuf, cast_eq]
/-- `hostOps1_1`: the grid at `main_v69` with one column of the converted scalar at `main_c_18` on either side. -/
theorem hostOps1_1_at_main_v70 :
    (StableHlo.after (hostOps1_1 (F := Ideal)) X (Proc.devRef .tc main_v70) : S2x640x642x64.Idx → EReal)
      = pad S2x640x642x64 ![0, 0, 1, 0] ![0, 0, 1, 0] ![0, 0, 0, 0] (X (Proc.devRef .tc main_v69) : S2x640x640x64.Idx → EReal) (sitofp .bf16 (X (Proc.devRef .tc main_c_18) : S_.Idx → BitVec 32) : FVec Ideal S_ .bf16) pads_S2x640x640x64_S2x640x642x64_000_000_110_000 h_S_ := by
  after_results
  simp only [StableHlo.TRef.ofBuf, StableHlo.TRef.toBuf, cast_eq]
/-- `hostOps1_3`: the grid at `main_v74` with one column of the converted scalar at `main_c_20` on either side. -/
theorem hostOps1_3_at_main_v75 :
    (StableHlo.after (hostOps1_3 (F := Ideal)) X (Proc.devRef .tc main_v75) : S2x640x642x64.Idx → EReal)
      = pad S2x640x642x64 ![0, 0, 1, 0] ![0, 0, 1, 0] ![0, 0, 0, 0] (X (Proc.devRef .tc main_v74) : S2x640x640x64.Idx → EReal) (sitofp .bf16 (X (Proc.devRef .tc main_c_20) : S_.Idx → BitVec 32) : FVec Ideal S_ .bf16) pads_S2x640x640x64_S2x640x642x64_000_000_110_000 h_S_ := by
  after_results
  simp only [StableHlo.TRef.ofBuf, StableHlo.TRef.toBuf, cast_eq]
/-- `hostOps1_5`: the grid at `main_v79` with one column of the converted scalar at `main_c_22` on either side. -/
theorem hostOps1_5_at_main_v80 :
    (StableHlo.after (hostOps1_5 (F := Ideal)) X (Proc.devRef .tc main_v80) : S2x640x642x64.Idx → EReal)
      = pad S2x640x642x64 ![0, 0, 1, 0] ![0, 0, 1, 0] ![0, 0, 0, 0] (X (Proc.devRef .tc main_v79) : S2x640x640x64.Idx → EReal) (sitofp .bf16 (X (Proc.devRef .tc main_c_22) : S_.Idx → BitVec 32) : FVec Ideal S_ .bf16) pads_S2x640x640x64_S2x640x642x64_000_000_110_000 h_S_ := by
  after_results
  simp only [StableHlo.TRef.ofBuf, StableHlo.TRef.toBuf, cast_eq]
/-- `hostOps0_2`: the grid at `main_v27` shifted down by one row behind a zero row. -/
theorem hostOps0_2_at_main_v61 :
    (StableHlo.after (hostOps0_2 (F := Ideal)) X (Proc.devRef .tc main_v61) : S2x640x640x64.Idx → EReal)
      = concatenate S2x640x640x64 1 [⟨S2x1x640x64, broadcastInDim S2x1x640x64 ![] bcast_S_S2x1x640x64 (constant (F := Ideal) S_ .bf16 0x0000#16)⟩, ⟨S2x639x640x64, extractStridedSlice S2x639x640x64 ![0, 0, 0, 0] (X (Proc.devRef .tc main_v27) : S2x640x640x64.Idx → EReal) slices_S2x640x640x64_S2x639x640x64_0_0_0_0⟩] concatenates_S2x1x640x64_S2x639x640x64_S2x640x640x64_d1 := by
  after_results
/-- `hostOps0_2` ends by writing the integer zero at `main_c_15`. -/
theorem hostOps0_2_at_main_c_15 : (StableHlo.after (hostOps0_2 (F := Ideal)) X (Proc.devRef .tc main_c_15) : S_.Idx → BitVec 32) = constantI S_ 32 0#32 := by
  after_results
/-- `hostOps0_4`: the grid at `main_v27` shifted up by one row before a zero row. -/
theorem hostOps0_4_at_main_v66 :
    (StableHlo.after (hostOps0_4 (F := Ideal)) X (Proc.devRef .tc main_v66) : S2x640x640x64.Idx → EReal)
      = concatenate S2x640x640x64 1 [⟨S2x639x640x64, extractStridedSlice S2x639x640x64 ![0, 1, 0, 0] (X (Proc.devRef .tc main_v27) : S2x640x640x64.Idx → EReal) slices_S2x640x640x64_S2x639x640x64_0_1_0_0⟩, ⟨S2x1x640x64, broadcastInDim S2x1x640x64 ![] bcast_S_S2x1x640x64 (constant (F := Ideal) S_ .bf16 0x0000#16)⟩] concatenates_S2x639x640x64_S2x1x640x64_S2x640x640x64_d1 := by
  after_results
/-- `hostOps0_4` ends by writing the integer zero at `main_c_17`. -/
theorem hostOps0_4_at_main_c_17 : (StableHlo.after (hostOps0_4 (F := Ideal)) X (Proc.devRef .tc main_c_17) : S_.Idx → BitVec 32) = constantI S_ 32 0#32 := by
  after_results
/-- `hostOps1_2`: the grid at `main_v69` shifted down by one row behind a zero row. -/
theorem hostOps1_2_at_main_v74 :
    (StableHlo.after (hostOps1_2 (F := Ideal)) X (Proc.devRef .tc main_v74) : S2x640x640x64.Idx → EReal)
      = concatenate S2x640x640x64 1 [⟨S2x1x640x64, broadcastInDim S2x1x640x64 ![] bcast_S_S2x1x640x64 (constant (F := Ideal) S_ .bf16 0x0000#16)⟩, ⟨S2x639x640x64, extractStridedSlice S2x639x640x64 ![0, 0, 0, 0] (X (Proc.devRef .tc main_v69) : S2x640x640x64.Idx → EReal) slices_S2x640x640x64_S2x639x640x64_0_0_0_0⟩] concatenates_S2x1x640x64_S2x639x640x64_S2x640x640x64_d1 := by
  after_results
/-- `hostOps1_2` ends by writing the integer zero at `main_c_20`. -/
theorem hostOps1_2_at_main_c_20 : (StableHlo.after (hostOps1_2 (F := Ideal)) X (Proc.devRef .tc main_c_20) : S_.Idx → BitVec 32) = constantI S_ 32 0#32 := by
  after_results
/-- `hostOps1_4`: the grid at `main_v69` shifted up by one row before a zero row. -/
theorem hostOps1_4_at_main_v79 :
    (StableHlo.after (hostOps1_4 (F := Ideal)) X (Proc.devRef .tc main_v79) : S2x640x640x64.Idx → EReal)
      = concatenate S2x640x640x64 1 [⟨S2x639x640x64, extractStridedSlice S2x639x640x64 ![0, 1, 0, 0] (X (Proc.devRef .tc main_v69) : S2x640x640x64.Idx → EReal) slices_S2x640x640x64_S2x639x640x64_0_1_0_0⟩, ⟨S2x1x640x64, broadcastInDim S2x1x640x64 ![] bcast_S_S2x1x640x64 (constant (F := Ideal) S_ .bf16 0x0000#16)⟩] concatenates_S2x639x640x64_S2x1x640x64_S2x640x640x64_d1 := by
  after_results
/-- `hostOps1_4` ends by writing the integer zero at `main_c_22`. -/
theorem hostOps1_4_at_main_c_22 : (StableHlo.after (hostOps1_4 (F := Ideal)) X (Proc.devRef .tc main_c_22) : S_.Idx → BitVec 32) = constantI S_ 32 0#32 := by
  after_results
/-- `hostOps1` writes the integer zero at `main_c_18`. -/
theorem hostOps1_at_main_c_18 : (StableHlo.after (hostOps1 (F := Ideal)) X (Proc.devRef .tc main_c_18) : S_.Idx → BitVec 32) = constantI S_ 32 0#32 := by
  after_results
set_option maxHeartbeats 4000000 in
/-- The first stretch ends by writing the integer zero at `main_c_13`. -/
theorem hostOps0_at_main_c_13 : (StableHlo.after (hostOps0 (F := Ideal)) X (Proc.devRef .tc main_c_13) : S_.Idx → BitVec 32) = constantI S_ 32 0#32 := by
  after_results

end Pure

variable (m : (ℓ : Loc nD τ sig) → Buf (Elt Ideal) ℓ) (ρ : Dev nD → PrngReg)

/-- A stretch none of whose operations writes the buffer leaves it as found. -/
local macro "keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

/-! ## What the first convolution call finds -/

/-- The centre copy: the dense grid with a zero column on either side. -/
theorem v57_eq (c : Dev nD) : (V7 m ρ c main_v57 : S2x640x642x64.Idx → EReal) = Glue.ceOf (V1 m ρ c main_v27) := by
  have k : (V7 m ρ c main_v57 : S2x640x642x64.Idx → EReal) = W2 m ρ c (Proc.devRef .tc main_v57) :=
    calc (V7 m ρ c main_v57 : S2x640x642x64.Idx → EReal)
      _ = W6 m ρ c (Proc.devRef .tc main_v57) := by keeps hostOps0_6
      _ = W5 m ρ c (Proc.devRef .tc main_v57) := by keeps hostOps0_5
      _ = W4 m ρ c (Proc.devRef .tc main_v57) := by keeps hostOps0_4
      _ = W3 m ρ c (Proc.devRef .tc main_v57) := by keeps hostOps0_3
      _ = W2 m ρ c (Proc.devRef .tc main_v57) := by keeps hostOps0_2
  have hc : (W1 m ρ c (Proc.devRef .tc main_c_13) : S_.Idx → BitVec 32) = constantI S_ 32 0#32 := hostOps0_at_main_c_13 (W0 m ρ c)
  refine k.trans ((hostOps0_1_at_main_v57 (W1 m ρ c)).trans ?_)
  rw [hc, Glue.zeroScalar_bf16]; rfl

/-- The copy shifted down by one row. -/
theorem v62_eq (c : Dev nD) : (V7 m ρ c main_v62 : S2x640x642x64.Idx → EReal) = Glue.upOf (V1 m ρ c main_v27) := by
  have k : (V7 m ρ c main_v62 : S2x640x642x64.Idx → EReal) = W4 m ρ c (Proc.devRef .tc main_v62) :=
    calc (V7 m ρ c main_v62 : S2x640x642x64.Idx → EReal)
      _ = W6 m ρ c (Proc.devRef .tc main_v62) := by keeps hostOps0_6
      _ = W5 m ρ c (Proc.devRef .tc main_v62) := by keeps hostOps0_5
      _ = W4 m ρ c (Proc.devRef .tc main_v62) := by keeps hostOps0_4
  have hc : (W3 m ρ c (Proc.devRef .tc main_c_15) : S_.Idx → BitVec 32) = constantI S_ 32 0#32 := hostOps0_2_at_main_c_15 (W2 m ρ c)
  have hs : (W3 m ρ c (Proc.devRef .tc main_v61) : S2x640x640x64.Idx → EReal) = concatenate S2x640x640x64 1 [⟨S2x1x640x64, broadcastInDim S2x1x640x64 ![] bcast_S_S2x1x640x64 (constant (F := Ideal) S_ .bf16 0x0000#16)⟩, ⟨S2x639x640x64, extractStridedSlice S2x639x640x64 ![0, 0, 0, 0] (W2 m ρ c (Proc.devRef .tc main_v27) : S2x640x640x64.Idx → EReal) slices_S2x640x640x64_S2x639x640x64_0_0_0_0⟩] concatenates_S2x1x640x64_S2x639x640x64_S2x640x640x64_d1 :=
    hostOps0_2_at_main_v61 (W2 m ρ c)
  have hg : (W2 m ρ c (Proc.devRef .tc main_v27) : S2x640x640x64.Idx → EReal) = W1 m ρ c (Proc.devRef .tc main_v27) :=
    calc (W2 m ρ c (Proc.devRef .tc main_v27) : S2x640x640x64.Idx → EReal)
      _ = W1 m ρ c (Proc.devRef .tc main_v27) := by keeps hostOps0_1
  refine k.trans ((hostOps0_3_at_main_v62 (W3 m ρ c)).trans ?_)
  rw [hc, hs, hg, Glue.zeroScalar_bf16, Glue.zeros_bf16]; rfl

/-- The copy shifted up by one row. -/
theorem v67_eq (c : Dev nD) : (V7 m ρ c main_v67 : S2x640x642x64.Idx → EReal) = Glue.dnOf (V1 m ρ c main_v27) := by
  have k : (V7 m ρ c main_v67 : S2x640x642x64.Idx → EReal) = W6 m ρ c (Proc.devRef .tc main_v67) :=
    calc (V7 m ρ c main_v67 : S2x640x642x64.Idx → EReal)
      _ = W6 m ρ c (Proc.devRef .tc main_v67) := by keeps hostOps0_6
  have hc : (W5 m ρ c (Proc.devRef .tc main_c_17) : S_.Idx → BitVec 32) = constantI S_ 32 0#32 := hostOps0_4_at_main_c_17 (W4 m ρ c)
  have hs : (W5 m ρ c (Proc.devRef .tc main_v66) : S2x640x640x64.Idx → EReal) = concatenate S2x640x640x64 1 [⟨S2x639x640x64, extractStridedSlice S2x639x640x64 ![0, 1, 0, 0] (W4 m ρ c (Proc.devRef .tc main_v27) : S2x640x640x64.Idx → EReal) slices_S2x640x640x64_S2x639x640x64_0_1_0_0⟩, ⟨S2x1x640x64, broadcastInDim S2x1x640x64 ![] bcast_S_S2x1x640x64 (constant (F := Ideal) S_ .bf16 0x0000#16)⟩] concatenates_S2x639x640x64_S2x1x640x64_S2x640x640x64_d1 :=
    hostOps0_4_at_main_v66 (W4 m ρ c)
  have hg : (W4 m ρ c (Proc.devRef .tc main_v27) : S2x640x640x64.Idx → EReal) = W1 m ρ c (Proc.devRef .tc main_v27) :=
    calc (W4 m ρ c (Proc.devRef .tc main_v27) : S2x640x640x64.Idx → EReal)
      _ = W3 m ρ c (Proc.devRef .tc main_v27) := by keeps hostOps0_3
      _ = W2 m ρ c (Proc.devRef .tc main_v27) := by keeps hostOps0_2
      _ = W1 m ρ c (Proc.devRef .tc main_v27) := by keeps hostOps0_1
  refine k.trans ((hostOps0_5_at_main_v67 (W5 m ρ c)).trans ?_)
  rw [hc, hs, hg, Glue.zeroScalar_bf16, Glue.zeros_bf16]; rfl

set_option maxHeartbeats 4000000 in
/-- The first bias as a one-row array. -/
theorem v68_eq (c : Dev nD) :
    (V7 m ρ c main_v68 : S1x64.Idx → EReal) = shapeCast S1x64 (m ((c.tc : Thread nD τ).loc main_arg3)) shapeCasts_S64_S1x64 := by
  show StableHlo.after hostOps0_6 (W6 m ρ c) (Proc.devRef .tc main_v68) = _
  after_results
  rfl

set_option maxHeartbeats 4000000 in
/-- The first weights are the argument as launched. -/
theorem V7_arg2 (c : Dev nD) : V7 m ρ c main_arg2 = m ((c.tc : Thread nD τ).loc main_arg2) := by
  show StableHlo.after hostOps0_6 (W6 m ρ c) (Proc.devRef .tc main_arg2) = _
  after_results

/-- The mask is not written between the first stretch and the first call. -/
theorem V7_v56 (c : Dev nD) : V7 m ρ c main_v56 = V1 m ρ c main_v56 :=
  calc V7 m ρ c main_v56
      _ = W6 m ρ c (Proc.devRef .tc main_v56) := by keeps hostOps0_6
      _ = W5 m ρ c (Proc.devRef .tc main_v56) := by keeps hostOps0_5
      _ = W4 m ρ c (Proc.devRef .tc main_v56) := by keeps hostOps0_4
      _ = W3 m ρ c (Proc.devRef .tc main_v56) := by keeps hostOps0_3
      _ = W2 m ρ c (Proc.devRef .tc main_v56) := by keeps hostOps0_2
      _ = W1 m ρ c (Proc.devRef .tc main_v56) := by keeps hostOps0_1

/-! ## What the second convolution call finds -/

/-- The centre copy of the first call's output. -/
theorem v70_eq (c : Dev nD) : (V15 m ρ c main_v70 : S2x640x642x64.Idx → EReal) = Glue.ceOf (W8 m ρ c (Proc.devRef .tc main_v69)) := by
  have k : (V15 m ρ c main_v70 : S2x640x642x64.Idx → EReal) = W10 m ρ c (Proc.devRef .tc main_v70) :=
    calc (V15 m ρ c main_v70 : S2x640x642x64.Idx → EReal)
      _ = W14 m ρ c (Proc.devRef .tc main_v70) := by keeps hostOps1_6
      _ = W13 m ρ c (Proc.devRef .tc main_v70) := by keeps hostOps1_5
      _ = W12 m ρ c (Proc.devRef .tc main_v70) := by keeps hostOps1_4
      _ = W11 m ρ c (Proc.devRef .tc main_v70) := by keeps hostOps1_3
      _ = W10 m ρ c (Proc.devRef .tc main_v70) := by keeps hostOps1_2
  have hc : (W9 m ρ c (Proc.devRef .tc main_c_18) : S_.Idx → BitVec 32) = constantI S_ 32 0#32 := hostOps1_at_main_c_18 (W8 m ρ c)
  have hg : (W9 m ρ c (Proc.devRef .tc main_v69) : S2x640x640x64.Idx → EReal) = W8 m ρ c (Proc.devRef .tc main_v69) := by keeps hostOps1
  refine k.trans ((hostOps1_1_at_main_v70 (W9 m ρ c)).trans ?_)
  rw [hc, hg, Glue.zeroScalar_bf16]; rfl

/-- The first call's output shifted down by one row. -/
theorem v75_eq (c : Dev nD) : (V15 m ρ c main_v75 : S2x640x642x64.Idx → EReal) = Glue.upOf (W8 m ρ c (Proc.devRef .tc main_v69)) := by
  have k : (V15 m ρ c main_v75 : S2x640x642x64.Idx → EReal) = W12 m ρ c (Proc.devRef .tc main_v75) :=
    calc (V15 m ρ c main_v75 : S2x640x642x64.Idx → EReal)
      _ = W14 m ρ c (Proc.devRef .tc main_v75) := by keeps hostOps1_6
      _ = W13 m ρ c (Proc.devRef .tc main_v75) := by keeps hostOps1_5
      _ = W12 m ρ c (Proc.devRef .tc main_v75) := by keeps hostOps1_4
  have hc : (W11 m ρ c (Proc.devRef .tc main_c_20) : S_.Idx → BitVec 32) = constantI S_ 32 0#32 := hostOps1_2_at_main_c_20 (W10 m ρ c)
  have hs : (W11 m ρ c (Proc.devRef .tc main_v74) : S2x640x640x64.Idx → EReal) = concatenate S2x640x640x64 1 [⟨S2x1x640x64, broadcastInDim S2x1x640x64 ![] bcast_S_S2x1x640x64 (constant (F := Ideal) S_ .bf16 0x0000#16)⟩, ⟨S2x639x640x64, extractStridedSlice S2x639x640x64 ![0, 0, 0, 0] (W10 m ρ c (Proc.devRef .tc main_v69) : S2x640x640x64.Idx → EReal) slices_S2x640x640x64_S2x639x640x64_0_0_0_0⟩] concatenates_S2x1x640x64_S2x639x640x64_S2x640x640x64_d1 :=
    hostOps1_2_at_main_v74 (W10 m ρ c)
  have hg : (W10 m ρ c (Proc.devRef .tc main_v69) : S2x640x640x64.Idx → EReal) = W8 m ρ c (Proc.devRef .tc main_v69) :=
    calc (W10 m ρ c (Proc.devRef .tc main_v69) : S2x640x640x64.Idx → EReal)
      _ = W9 m ρ c (Proc.devRef .tc main_v69) := by keeps hostOps1_1
      _ = W8 m ρ c (Proc.devRef .tc main_v69) := by keeps hostOps1
  refine k.trans ((hostOps1_3_at_main_v75 (W11 m ρ c)).trans ?_)
  rw [hc, hs, hg, Glue.zeroScalar_bf16, Glue.zeros_bf16]; rfl

/-- The first call's output shifted up by one row. -/
theorem v80_eq (c : Dev nD) : (V15 m ρ c main_v80 : S2x640x642x64.Idx → EReal) = Glue.dnOf (W8 m ρ c (Proc.devRef .tc main_v69)) := by
  have k : (V15 m ρ c main_v80 : S2x640x642x64.Idx → EReal) = W14 m ρ c (Proc.devRef .tc main_v80) :=
    calc (V15 m ρ c main_v80 : S2x640x642x64.Idx → EReal)
      _ = W14 m ρ c (Proc.devRef .tc main_v80) := by keeps hostOps1_6
  have hc : (W13 m ρ c (Proc.devRef .tc main_c_22) : S_.Idx → BitVec 32) = constantI S_ 32 0#32 := hostOps1_4_at_main_c_22 (W12 m ρ c)
  have hs : (W13 m ρ c (Proc.devRef .tc main_v79) : S2x640x640x64.Idx → EReal) = concatenate S2x640x640x64 1 [⟨S2x639x640x64, extractStridedSlice S2x639x640x64 ![0, 1, 0, 0] (W12 m ρ c (Proc.devRef .tc main_v69) : S2x640x640x64.Idx → EReal) slices_S2x640x640x64_S2x639x640x64_0_1_0_0⟩, ⟨S2x1x640x64, broadcastInDim S2x1x640x64 ![] bcast_S_S2x1x640x64 (constant (F := Ideal) S_ .bf16 0x0000#16)⟩] concatenates_S2x639x640x64_S2x1x640x64_S2x640x640x64_d1 :=
    hostOps1_4_at_main_v79 (W12 m ρ c)
  have hg : (W12 m ρ c (Proc.devRef .tc main_v69) : S2x640x640x64.Idx → EReal) = W8 m ρ c (Proc.devRef .tc main_v69) :=
    calc (W12 m ρ c (Proc.devRef .tc main_v69) : S2x640x640x64.Idx → EReal)
      _ = W11 m ρ c (Proc.devRef .tc main_v69) := by keeps hostOps1_3
      _ = W10 m ρ c (Proc.devRef .tc main_v69) := by keeps hostOps1_2
      _ = W9 m ρ c (Proc.devRef .tc main_v69) := by keeps hostOps1_1
      _ = W8 m ρ c (Proc.devRef .tc main_v69) := by keeps hostOps1
  refine k.trans ((hostOps1_5_at_main_v80 (W13 m ρ c)).trans ?_)
  rw [hc, hs, hg, Glue.zeroScalar_bf16, Glue.zeros_bf16]; rfl

set_option maxHeartbeats 4000000 in
/-- The second bias as a one-row array. -/
theorem v81_eq (c : Dev nD) :
    (V15 m ρ c main_v81 : S1x64.Idx → EReal) = shapeCast S1x64 (m ((c.tc : Thread nD τ).loc main_arg5)) shapeCasts_S64_S1x64 := by
  have h5 : W8 m ρ c (Proc.devRef .tc main_arg5) = m ((c.tc : Thread nD τ).loc main_arg5) := by
    refine (W8_of_ne m ρ c main_arg5 (by decide)).trans ?_
    show StableHlo.after hostOps0_6 (W6 m ρ c) (Proc.devRef .tc main_arg5) = _
    after_results
  show StableHlo.after hostOps1_6 (W14 m ρ c) (Proc.devRef .tc main_v81) = _
  after_results
  rw [h5]
  rfl

/-- The second weights are the argument as launched. -/
theorem V15_arg4 (c : Dev nD) : V15 m ρ c main_arg4 = m ((c.tc : Thread nD τ).loc main_arg4) :=
  calc V15 m ρ c main_arg4
      _ = W16 m ρ c (Proc.devRef .tc main_arg4) :=
        ((W16_arr m ρ c 3).trans (((dat1 (V15 m ρ) c).arrAt_in 3 rfl _).trans (A_eq1 (V15 m ρ) c 3))).symm
      _ = W17 m ρ c (Proc.devRef .tc main_arg4) := (by keeps hostOps2 : W17 m ρ c (Proc.devRef .tc main_arg4) = W16 m ρ c (Proc.devRef .tc main_arg4)).symm
      _ = W18 m ρ c (Proc.devRef .tc main_arg4) := (W18_of_ne m ρ c main_arg4 (by decide)).symm
      _ = m ((c.tc : Thread nD τ).loc main_arg4) := W18_main_arg4 m ρ c

/-- The mask the second call finds is the one the first stretch wrote: the first call only reads it. -/
theorem V15_v56 (c : Dev nD) : V15 m ρ c main_v56 = V1 m ρ c main_v56 :=
  calc V15 m ρ c main_v56
      _ = W14 m ρ c (Proc.devRef .tc main_v56) := by keeps hostOps1_6
      _ = W13 m ρ c (Proc.devRef .tc main_v56) := by keeps hostOps1_5
      _ = W12 m ρ c (Proc.devRef .tc main_v56) := by keeps hostOps1_4
      _ = W11 m ρ c (Proc.devRef .tc main_v56) := by keeps hostOps1_3
      _ = W10 m ρ c (Proc.devRef .tc main_v56) := by keeps hostOps1_2
      _ = W9 m ρ c (Proc.devRef .tc main_v56) := by keeps hostOps1_1
      _ = W8 m ρ c (Proc.devRef .tc main_v56) := by keeps hostOps1
      _ = V7 m ρ c main_v56 := (W8_arr m ρ c 5).trans (((dat0 (V7 m ρ) c).arrAt_in 5 rfl _).trans (A_eq0 (V7 m ρ) c 5))
      _ = V1 m ρ c main_v56 := V7_v56 m ρ c

/-! ## What the last call finds -/

/-- The feature rows are the argument as launched. -/
theorem V17_arg0 (c : Dev nD) : V17 m ρ c main_arg0 = m ((c.tc : Thread nD τ).loc main_arg0) :=
  ((W18_arr m ρ c 0).trans (((dat2 (V17 m ρ) c).arrAt_in 0 rfl _).trans (A_eq2 (V17 m ρ) c 0))).symm.trans (W18_main_arg0 m ρ c)
/-- The dense weights are the argument as launched. -/
theorem V17_arg6 (c : Dev nD) : V17 m ρ c main_arg6 = m ((c.tc : Thread nD τ).loc main_arg6) :=
  ((W18_arr m ρ c 1).trans (((dat2 (V17 m ρ) c).arrAt_in 1 rfl _).trans (A_eq2 (V17 m ρ) c 1))).symm.trans (W18_main_arg6 m ρ c)

end Cert.KernelIdeal.Hand

end
-- ==== Proof.LastSat.lean ====
/- The last position of a finite range at which a decidable property holds, and the facts that characterise it.
   It is computed by a left fold over the range, but it is introduced as "some value equal to that fold", so that
   nothing can evaluate the fold over a long range: every use goes through the characterising facts. -/
import Mathlib.Data.List.Range
import Mathlib.Data.Fin.Basic

namespace Cert.Spec

/-- The left fold over `0, 1, …, N − 1` that remembers the latest `n` with `p n`. -/
def lastSatFold {N : Nat} (p : Fin N → Prop) [DecidablePred p] : Option (Fin N) :=
  (List.finRange N).foldl (fun acc n => if p n then some n else acc) none

theorem lastSat_exists {N : Nat} (p : Fin N → Prop) [DecidablePred p] : ∃ r : Option (Fin N), r = lastSatFold p :=
  ⟨_, rfl⟩

/-- The last `n : Fin N` with `p n`, if there is one: a value equal to the fold, chosen rather than computed. -/
noncomputable def lastSat {N : Nat} (p : Fin N → Prop) [DecidablePred p] : Option (Fin N) :=
  Classical.choose (lastSat_exists p)

/-- The chosen value is the fold's. -/
theorem lastSat_eq_fold {N : Nat} (p : Fin N → Prop) [DecidablePred p] : lastSat p = lastSatFold p :=
  Classical.choose_spec (lastSat_exists p)

/-- The fold over any list, from any start: either no element is a hit and the start comes back, or the list
    splits at its last hit, which is what comes back. -/
theorem foldl_lastHit {α : Type} (p : α → Prop) [DecidablePred p] (l : List α) (acc : Option α) :
    ((∀ x ∈ l, ¬ p x) ∧ l.foldl (fun acc n => if p n then some n else acc) acc = acc)
    ∨ ∃ l1 x l2, l = l1 ++ x :: l2 ∧ p x ∧ (∀ y ∈ l2, ¬ p y)
        ∧ l.foldl (fun acc n => if p n then some n else acc) acc = some x := by
  induction l using List.reverseRecOn with
  | nil => exact Or.inl ⟨fun x hx => absurd hx List.not_mem_nil, rfl⟩
  | append_singleton l x ih =>
    rw [List.foldl_append]
    by_cases hx : p x
    · refine Or.inr ⟨l, x, [], rfl, hx, fun y hy => absurd hy List.not_mem_nil, ?_⟩
      show (if p x then some x else _) = some x
      rw [if_pos hx]
    · have hstep : List.foldl (fun acc n => if p n then some n else acc)
          (List.foldl (fun acc n => if p n then some n else acc) acc l) [x]
          = List.foldl (fun acc n => if p n then some n else acc) acc l := by
        show (if p x then some x else _) = _
        rw [if_neg hx]
      rw [hstep]
      rcases ih with ⟨hno, heq⟩ | ⟨l1, y, l2, hl, hy, hl2, heq⟩
      · refine Or.inl ⟨fun z hz => ?_, heq⟩
        rcases List.mem_append.1 hz with hz | hz
        · exact hno z hz
        · rw [List.mem_singleton.1 hz]; exact hx
      · refine Or.inr ⟨l1, y, l2 ++ [x], ?_, hy, fun z hz => ?_, heq⟩
        · rw [hl]; simp
        · rcases List.mem_append.1 hz with hz | hz
          · exact hl2 z hz
          · rw [List.mem_singleton.1 hz]; exact hx

/-- In the range split as `l1 ++ x :: l2`, everything after `x` in order sits in `l2`. -/
theorem mem_tail_of_finRange_split {N : Nat} {l1 l2 : List (Fin N)} {x : Fin N}
    (hl : List.finRange N = l1 ++ x :: l2) (n' : Fin N) (h : x < n') : n' ∈ l2 := by
  have hpw : List.Pairwise (· < ·) (List.finRange N) := List.pairwise_lt_finRange N
  rw [hl] at hpw
  have hmem : n' ∈ l1 ++ x :: l2 := by rw [← hl]; exact List.mem_finRange n'
  rcases List.mem_append.1 hmem with h1 | h1
  · have h2 : n' < x := (List.pairwise_append.1 hpw).2.2 n' h1 x (List.mem_cons_self)
    exact absurd (Fin.lt_def.1 h) (Nat.lt_asymm (Fin.lt_def.1 h2))
  · rcases List.mem_cons.1 h1 with h2 | h2
    · rw [h2] at h; exact absurd (Fin.lt_def.1 h) (Nat.lt_irrefl _)
    · exact h2

/-- What the fold remembers is a hit, and no later position is one. -/
theorem lastSat_some {N : Nat} (p : Fin N → Prop) [DecidablePred p] (n : Fin N) (h : lastSat p = some n) :
    p n ∧ ∀ n' : Fin N, n < n' → ¬ p n' := by
  rw [lastSat_eq_fold] at h
  unfold lastSatFold at h
  rcases foldl_lastHit p (List.finRange N) none with ⟨_, heq⟩ | ⟨l1, x, l2, hl, hx, hl2, heq⟩
  · rw [heq] at h; exact absurd h (by simp)
  · rw [heq] at h
    have hxn : x = n := Option.some.inj h
    subst hxn
    exact ⟨hx, fun n' hn' => hl2 n' (mem_tail_of_finRange_split hl n' hn')⟩

/-- If the fold remembers nothing, nothing is a hit. -/
theorem lastSat_none {N : Nat} (p : Fin N → Prop) [DecidablePred p] (h : lastSat p = none) :
    ∀ n : Fin N, ¬ p n := by
  rw [lastSat_eq_fold] at h
  unfold lastSatFold at h
  rcases foldl_lastHit p (List.finRange N) none with ⟨hno, _⟩ | ⟨l1, x, l2, hl, hx, hl2, heq⟩
  · exact fun n => hno n (List.mem_finRange n)
  · rw [heq] at h; exact absurd h (by simp)

/-- Conversely a hit with no later hit is what the fold remembers. -/
theorem lastSat_eq_some {N : Nat} (p : Fin N → Prop) [DecidablePred p] (n : Fin N) (hp : p n)
    (hlast : ∀ n' : Fin N, n < n' → ¬ p n') : lastSat p = some n := by
  cases hm : lastSat p with
  | none => exact absurd hp (lastSat_none p hm n)
  | some m =>
    obtain ⟨hpm, hlm⟩ := lastSat_some p m hm
    rcases Nat.lt_trichotomy n.val m.val with hlt | heq | hgt
    · exact absurd hpm (hlast m (Fin.lt_def.2 hlt))
    · rw [Fin.ext heq]
    · exact absurd hp (hlm n (Fin.lt_def.2 hgt))

/-- With no hit the fold remembers nothing. -/
theorem lastSat_eq_none {N : Nat} (p : Fin N → Prop) [DecidablePred p] (h : ∀ n : Fin N, ¬ p n) :
    lastSat p = none := by
  cases hm : lastSat p with
  | none => rfl
  | some m => exact absurd (lastSat_some p m hm).1 (h m)

/-- Some hit makes the fold remember one. -/
theorem lastSat_ne_none {N : Nat} (p : Fin N → Prop) [DecidablePred p] (n : Fin N) (hp : p n) :
    lastSat p ≠ none := fun h => lastSat_none p h n hp

/-- Two properties with the same hits have the same last hit. -/
theorem lastSat_congr {N : Nat} (p q : Fin N → Prop) [DecidablePred p] [DecidablePred q] (h : ∀ n, p n ↔ q n) :
    lastSat p = lastSat q := by
  rw [lastSat_eq_fold, lastSat_eq_fold]
  unfold lastSatFold
  congr 1
  funext acc n
  exact if_congr (h n) rfl rfl

end Cert.Spec
-- ==== Proof.Spec.lean ====
/- The two programs as functions of their arguments, over the extended reals.

   A site `n` sits at the cell `(b, y, x)` its three coordinate words name. Both programs scatter by cell: the
   later site wins a cell that several sites name. `lastAt` is that winner.

   The kernel scatters the feature rows into a dense grid (zero at an empty cell) beside a 0/1 occupancy mask,
   runs two 3 × 3 convolutions over the zero-padded dense grid, each followed by bias, ReLU and the mask, reads
   the second layer back at every site's cell, and adds the pointwise product with `wd` under a last ReLU.

   The reference scatters the site NUMBERS into a grid (−1 at an empty cell), and per site and per tap looks the
   neighbouring cell's site up, taking that site's row when the neighbour is inside the grid and occupied and a
   zero row otherwise; bias, ReLU; twice; then the same last step. -/
import Idealize.ShloMosaic.PureOps.Ideal
import Idealize.ShloMosaic.Lib.ValueIdx
import proofs.«412627_j82471962018590_2_alg».proof.Proof.LastSat

noncomputable section

namespace Cert.Spec

open Idealize.ShloMosaic Idealize.ShloMosaic.ValueIdx
open scoped BigOperators

/-- The number of sites. -/
abbrev NS : Nat := 409600
/-- A cell of the grid: batch, row, column. -/
abbrev Loc : Type := Fin 2 × Fin 640 × Fin 640
/-- The coordinate words: three per site. -/
abbrev Coords : Type := (⟨2, ![409600, 3]⟩ : Shape).Idx → BitVec 32

/-- An index word read signed and clamped into `[0, N − 1]`. -/
def clampW (N : Nat) (hN : 0 < N) {w : Nat} (x : BitVec w) : Fin N := ⟨min x.toInt.toNat (N - 1), by omega⟩

/-- The cell three index words name, when each, read signed, is inside its axis. -/
def tgt3 (A B C : Nat) {w : Nat} (x y z : BitVec w) : Option (Fin A × Fin B × Fin C) :=
  if h : (0 ≤ x.toInt ∧ x.toInt < (A : Int)) ∧ (0 ≤ y.toInt ∧ y.toInt < (B : Int)) ∧ (0 ≤ z.toInt ∧ z.toInt < (C : Int)) then
    some (⟨x.toInt.toNat, by omega⟩, ⟨y.toInt.toNat, by omega⟩, ⟨z.toInt.toNat, by omega⟩)
  else none

/-- Every site's coordinate words are inside the grid. -/
def InRange (coords : Coords) : Prop :=
  ∀ n : Fin NS, (0 ≤ (coords (ix2 n 0)).toInt ∧ (coords (ix2 n 0)).toInt < 2)
    ∧ (0 ≤ (coords (ix2 n 1)).toInt ∧ (coords (ix2 n 1)).toInt < 640)
    ∧ (0 ≤ (coords (ix2 n 2)).toInt ∧ (coords (ix2 n 2)).toInt < 640)

/-- Site `n`'s cell (its words clamped into the grid: the words themselves when in range). -/
def cell (coords : Coords) (n : Fin NS) : Loc :=
  (clampW 2 (by decide) (coords (ix2 n 0)), clampW 640 (by decide) (coords (ix2 n 1)), clampW 640 (by decide) (coords (ix2 n 2)))

/-- The cell site `n`'s words name for a scatter: none when a word is out of range (the update is dropped). -/
def cellOf (coords : Coords) (n : Fin NS) : Option Loc :=
  tgt3 2 640 640 (coords (ix2 n 0)) (coords (ix2 n 1)) (coords (ix2 n 2))

/-- The site that wins cell `l`: the last one whose words name it. -/
def lastAt (coords : Coords) (l : Loc) : Option (Fin NS) := lastSat (fun n => cellOf coords n = some l)

/-- The neighbour of row (or column) `y` at tap `k ∈ {0, 1, 2}`, offset `k − 1`, when inside `[0, 640)`. -/
def nbr (y : Fin 640) (k : Fin 3) : Option (Fin 640) :=
  if h : 1 ≤ y.val + k.val ∧ y.val + k.val < 641 then some ⟨y.val + k.val - 1, by omega⟩ else none

/-! ## The kernel -/

/-- Per-site rows scattered into the dense grid: the winner's row, zero at an empty cell. -/
def dense (X : Fin NS → Fin 64 → EReal) (coords : Coords) : Loc → Fin 64 → EReal :=
  fun l ch => match lastAt coords l with | some n => X n ch | none => 0

/-- The occupancy mask: one at a cell some site names, zero elsewhere. -/
def mask (coords : Coords) : Loc → EReal :=
  fun l => match lastAt coords l with | some _ => 1 | none => 0

/-- The dense grid read at a tap of cell `(b, y, x)`, zero outside the grid. -/
def padRead (D : Loc → Fin 64 → EReal) (b : Fin 2) (y x : Fin 640) (ky kx : Fin 3) (ci : Fin 64) : EReal :=
  match nbr y ky, nbr x kx with
  | some y', some x' => D (b, y', x') ci
  | _, _ => 0

/-- One dense layer: the nine-tap contraction, bias, ReLU, mask. -/
def convK (D : Loc → Fin 64 → EReal) (M : Loc → EReal) (w : Fin 3 → Fin 3 → Fin 64 → Fin 64 → EReal)
    (bias : Fin 64 → EReal) : Loc → Fin 64 → EReal :=
  fun l co => max ((∑ ky : Fin 3, ∑ kx : Fin 3, ∑ ci : Fin 64, padRead D l.1 l.2.1 l.2.2 ky kx ci * w ky kx ci co) + bias co) 0 * M l

/-- The kernel's result. -/
def KSpec (feat : Fin NS → Fin 64 → EReal) (coords : Coords) (w1 : Fin 3 → Fin 3 → Fin 64 → Fin 64 → EReal)
    (b1 : Fin 64 → EReal) (w2 : Fin 3 → Fin 3 → Fin 64 → Fin 64 → EReal) (b2 : Fin 64 → EReal)
    (wd : Fin 64 → Fin 64 → EReal) : Fin NS → Fin 64 → EReal :=
  fun n co => max ((∑ ci : Fin 64, feat n ci * wd ci co)
    + convK (convK (dense feat coords) (mask coords) w1 b1) (mask coords) w2 b2 (cell coords n) co) 0

/-! ## The reference -/

/-- Site `n`'s tap `(ky, kx)`: the row of the site at the neighbouring cell, zero when that cell is outside the
    grid or empty. -/
def tapR (X : Fin NS → Fin 64 → EReal) (coords : Coords) (n : Fin NS) (ky kx : Fin 3) (ci : Fin 64) : EReal :=
  match nbr (cell coords n).2.1 ky, nbr (cell coords n).2.2 kx with
  | some y', some x' => (match lastAt coords ((cell coords n).1, y', x') with | some n' => X n' ci | none => 0)
  | _, _ => 0

/-- One sparse layer: the nine-tap contraction and the bias. -/
def convR (X : Fin NS → Fin 64 → EReal) (coords : Coords) (w : Fin 3 → Fin 3 → Fin 64 → Fin 64 → EReal)
    (bias : Fin 64 → EReal) : Fin NS → Fin 64 → EReal :=
  fun n co => (∑ ky : Fin 3, ∑ kx : Fin 3, ∑ ci : Fin 64, tapR X coords n ky kx ci * w ky kx ci co) + bias co

/-- ReLU of per-site rows. -/
def reluR (X : Fin NS → Fin 64 → EReal) : Fin NS → Fin 64 → EReal := fun n c => max (X n c) 0

/-- The reference's result. -/
def RSpec (feat : Fin NS → Fin 64 → EReal) (coords : Coords) (w1 : Fin 3 → Fin 3 → Fin 64 → Fin 64 → EReal)
    (b1 : Fin 64 → EReal) (w2 : Fin 3 → Fin 3 → Fin 64 → Fin 64 → EReal) (b2 : Fin 64 → EReal)
    (wd : Fin 64 → Fin 64 → EReal) : Fin NS → Fin 64 → EReal :=
  fun n co => max (reluR (convR (reluR (convR feat coords w1 b1)) coords w2 b2) n co
    + ∑ ci : Fin 64, feat n ci * wd ci co) 0

end Cert.Spec

end
-- ==== Proof.LibScatter3.lean ====
/- The host's overwriting scatter, read at one index: for any shapes, the operand's entry unless some update lands
   there, in which case the update latest in row-major order; and the two shapes a scatter by three coordinate
   words per site takes, a grid of scalars and a grid of rows, where "lands there" is "the site's three words
   name the cell". -/
import Idealize.ShloMosaic.PureOps.Ideal
import Idealize.ShloMosaic.Lib.ValueIdx
import proofs.«412627_j82471962018590_2_alg».proof.Proof.Spec

noncomputable section

namespace Cert.Scatter3

open Idealize.ShloMosaic Idealize.ShloMosaic.ValueIdx Cert.Spec

/-! ## Any shapes -/

/-- The fold of the overwriting step over any list of positions, read at `i`, beside the fold that remembers the
    latest position landing on `i`: if the two agree at the start they agree at the end. -/
theorem foldl_set_apply {s si u : Shape} {α : Type} {w : Nat} (d : ScatterDims s si u) (idx : IVec si w)
    (upd : u.Idx → α) (i : s.Idx) (x0 : α) (l : List (Fin u.numel)) (r : s.Idx → α) (acc : Option (Fin u.numel))
    (hr : r i = match acc with | some n => upd (u.rowMajor.symm n) | none => x0) :
    (l.foldl (fun r n =>
        match d.resultIdx? (u.rowMajor.symm n) idx with
        | some j => fun i' => if i' = j then (fun _ b => b) (r j) (upd (u.rowMajor.symm n)) else r i'
        | none => r) r) i
      = match l.foldl (fun acc n => if d.resultIdx? (u.rowMajor.symm n) idx = some i then some n else acc) acc with
        | some n => upd (u.rowMajor.symm n)
        | none => x0 := by
  induction l generalizing r acc with
  | nil => exact hr
  | cons n t ih =>
    rw [List.foldl_cons, List.foldl_cons]
    apply ih
    cases hres : d.resultIdx? (u.rowMajor.symm n) idx with
    | none =>
      rw [if_neg (by simp)]
      exact hr
    | some j =>
      by_cases hij : i = j
      · subst hij
        rw [if_pos rfl]
        show (if i = i then _ else _) = _
        rw [if_pos rfl]
      · rw [if_neg (fun h => hij (Option.some.inj h).symm)]
        show (if i = j then _ else _) = _
        rw [if_neg hij]
        exact hr

/-- The overwriting scatter at index `i`: the update at the last row-major position that lands on `i`, the
    operand's entry when none does. -/
theorem scatter_set_apply {s si u : Shape} {α : Type} {w : Nat} (d : ScatterDims s si u) (x : s.Idx → α)
    (idx : IVec si w) (upd : u.Idx → α) (i : s.Idx) :
    Host.scatter d (fun _ b => b) x idx upd i
      = match lastSat (fun n : Fin u.numel => d.resultIdx? (u.rowMajor.symm n) idx = some i) with
        | some n => upd (u.rowMajor.symm n)
        | none => x i := by
  rw [lastSat_eq_fold]
  unfold Host.scatter lastSatFold
  exact foldl_set_apply d idx upd i (x i) _ x none rfl

/-! ## Moving the last hit along an order-preserving correspondence -/

/-- If the hits of `P` are exactly the images under `ψ` of the hits of `Q`, and `ψ` keeps the order of hits, the
    last hit of `P` is the image of the last hit of `Q`. -/
theorem lastSat_map {N M : Nat} (P : Fin N → Prop) (Q : Fin M → Prop) [DecidablePred P] [DecidablePred Q]
    (ψ : Fin M → Fin N) (hPQ : ∀ e, Q e → P (ψ e)) (hQP : ∀ n, P n → ∃ e, Q e ∧ ψ e = n)
    (hmono : ∀ e e', Q e → Q e' → ψ e < ψ e' → e < e') :
    lastSat P = (lastSat Q).map ψ := by
  cases hQ : lastSat Q with
  | none =>
    show lastSat P = none
    refine lastSat_eq_none P fun n hn => ?_
    obtain ⟨e, he, _⟩ := hQP n hn
    exact lastSat_none Q hQ e he
  | some e =>
    show lastSat P = some (ψ e)
    obtain ⟨hqe, hlast⟩ := lastSat_some Q e hQ
    refine lastSat_eq_some P (ψ e) (hPQ e hqe) fun n' hn' hpn' => ?_
    obtain ⟨e', he', rfl⟩ := hQP n' hpn'
    exact hlast e' (hmono e e' hqe he' hn') he'

/-! ## Three coordinate words per site -/

/-- A statement about each of three axes is its three instances. -/
theorem forall_fin3 {P : Fin 3 → Prop} : (∀ a, P a) ↔ P 0 ∧ P 1 ∧ P 2 :=
  ⟨fun h => ⟨h 0, h 1, h 2⟩, fun ⟨h0, h1, h2⟩ a => by
    match a with
    | ⟨0, _⟩ => exact h0
    | ⟨1, _⟩ => exact h1
    | ⟨2, _⟩ => exact h2⟩

/-- A statement about each of four axes is its four instances. -/
theorem forall_fin4 {P : Fin 4 → Prop} : (∀ a, P a) ↔ P 0 ∧ P 1 ∧ P 2 ∧ P 3 :=
  ⟨fun h => ⟨h 0, h 1, h 2, h 3⟩, fun ⟨h0, h1, h2, h3⟩ a => by
    match a with
    | ⟨0, _⟩ => exact h0
    | ⟨1, _⟩ => exact h1
    | ⟨2, _⟩ => exact h2
    | ⟨3, _⟩ => exact h3⟩

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Start

variable {s u : Shape} {E w : Nat} (d : ScatterDims s ⟨2, ![E, 3]⟩ u)

/-- An update index whose scatter coordinate is `e` reads component `k` of its start index at `(e, k)`. -/
theorem siIdx_eq (hv : d.indexVectorDim = 1) (j : u.Idx) (e : Fin E)
    (he : ∀ X ∈ d.uScatter, (j X).val = e.val) (c : Fin d.scatterDimsToOperandDims.length) (k : Fin 3)
    (hc : c.val = k.val) : d.siIdx j c = ix2 e k := by
  funext b
  match b with
  | ⟨0, _⟩ =>
    unfold ScatterDims.siIdx
    rw [dif_neg (by rw [hv]; simp)]
    unfold ScatterDims.siCoord
    apply Fin.ext
    simp only [Fin.val_cast]
    exact he _ (List.getElem_mem _)
  | ⟨1, _⟩ =>
    unfold ScatterDims.siIdx
    rw [dif_pos (by rw [hv])]
    apply Fin.ext
    exact hc

/-- The start of the window on an operand axis that the map names in position `k`: the word at `(e, k)`, read
    signed. -/
theorem start_eq (hv : d.indexVectorDim = 1) (idx : IVec ⟨2, ![E, 3]⟩ w) (j : u.Idx) (e : Fin E)
    (he : ∀ X ∈ d.uScatter, (j X).val = e.val) (a : Fin s.rank) (k : Fin 3)
    (ha : a ∈ d.scatterDimsToOperandDims) (hk : d.scatterDimsToOperandDims.idxOf a = k.val) :
    d.start j idx a = (idx (ix2 e k)).toInt := by
  unfold ScatterDims.start
  rw [dif_pos ha, siIdx_eq d hv j e he _ k hk]

end Start

/-! ### A grid of scalars -/

section Vec

variable {A B C E w : Nat} (d : ScatterDims ⟨3, ![A, B, C]⟩ ⟨2, ![E, 3]⟩ ⟨1, ![E]⟩)

/-- The start of site `e`'s window on operand axis `k`: its `k`-th word, read signed. -/
theorem start_vec3 (hs : d.scatterDimsToOperandDims = [0, 1, 2]) (hv : d.indexVectorDim = 1)
    (idx : IVec ⟨2, ![E, 3]⟩ w) (e : Fin E) (k : Fin 3) :
    d.start (ix1 e) idx k = (idx (ix2 e k)).toInt := by
  have hmem : ∀ k : Fin 3, k ∈ ([0, 1, 2] : List (Fin 3)) := by decide
  have hidx : ∀ k : Fin 3, List.idxOf k ([0, 1, 2] : List (Fin 3)) = k.val := by decide
  refine start_eq d hv idx (ix1 e) e (fun (X : Fin 1) _ => ?_) k k (by rw [hs]; exact hmem k) (by rw [hs]; exact hidx k)
  obtain rfl : X = 0 := Subsingleton.elim _ _
  rfl

/-- Every operand axis is inserted: the window coordinate is 0 everywhere. -/
theorem window_vec3 (hi : d.insertedWindowDims = [0, 1, 2]) (j : (⟨1, ![E]⟩ : Shape).Idx) (a : Fin 3) :
    d.window j a = 0 := by
  have hk : a ∉ d.sKept := by
    show a ∉ (List.finRange 3).filter (fun a => a ∉ d.insertedWindowDims)
    rw [hi]
    exact (by decide : ∀ a : Fin 3, a ∉ (List.finRange 3).filter (fun a : Fin 3 => a ∉ [(0 : Fin 3), 1, 2])) a
  unfold ScatterDims.window
  rw [dif_neg hk]

/-- Where site `e`'s update lands: the cell its three words name, when they name one. -/
theorem resultIdx?_vec3 (hi : d.insertedWindowDims = [0, 1, 2])
    (hs : d.scatterDimsToOperandDims = [0, 1, 2]) (hv : d.indexVectorDim = 1)
    (idx : IVec ⟨2, ![E, 3]⟩ w) (e : Fin E) :
    d.resultIdx? (ix1 e) idx
      = (tgt3 A B C (idx (ix2 e 0)) (idx (ix2 e 1)) (idx (ix2 e 2))).map (fun l => ix3 l.1 l.2.1 l.2.2) := by
  have hst := start_vec3 d hs hv idx e
  have hwi := window_vec3 d hi (ix1 e)
  unfold ScatterDims.resultIdx? tgt3
  by_cases hx : (0 ≤ (idx (ix2 e 0)).toInt ∧ (idx (ix2 e 0)).toInt < (A : Int))
      ∧ (0 ≤ (idx (ix2 e 1)).toInt ∧ (idx (ix2 e 1)).toInt < (B : Int))
      ∧ (0 ≤ (idx (ix2 e 2)).toInt ∧ (idx (ix2 e 2)).toInt < (C : Int))
  · have hall : ∀ a : Fin 3, 0 ≤ d.start (ix1 e) idx a + d.window (ix1 e) a ∧
        d.start (ix1 e) idx a + d.window (ix1 e) a < (⟨3, ![A, B, C]⟩ : Shape).size a := by
      refine forall_fin3.2 ⟨?_, ?_, ?_⟩
      · rw [hst 0, hwi 0]
        show 0 ≤ (idx (ix2 e 0)).toInt + ((0 : Nat) : Int) ∧ (idx (ix2 e 0)).toInt + ((0 : Nat) : Int) < (A : Int)
        omega
      · rw [hst 1, hwi 1]
        show 0 ≤ (idx (ix2 e 1)).toInt + ((0 : Nat) : Int) ∧ (idx (ix2 e 1)).toInt + ((0 : Nat) : Int) < (B : Int)
        omega
      · rw [hst 2, hwi 2]
        show 0 ≤ (idx (ix2 e 2)).toInt + ((0 : Nat) : Int) ∧ (idx (ix2 e 2)).toInt + ((0 : Nat) : Int) < (C : Int)
        omega
    rw [dif_pos hall, dif_pos hx]
    show some _ = some _
    congr 1
    have hpt : ∀ a : Fin 3,
        (⟨(d.start (ix1 e) idx a + d.window (ix1 e) a).toNat, by have := hall a; omega⟩ :
          Fin ((⟨3, ![A, B, C]⟩ : Shape).size a))
        = (ix3 (⟨(idx (ix2 e 0)).toInt.toNat, by omega⟩ : Fin A) (⟨(idx (ix2 e 1)).toInt.toNat, by omega⟩ : Fin B)
            (⟨(idx (ix2 e 2)).toInt.toNat, by omega⟩ : Fin C) : (⟨3, ![A, B, C]⟩ : Shape).Idx) a := by
      refine forall_fin3.2 ⟨?_, ?_, ?_⟩
      · apply Fin.ext
        show (d.start (ix1 e) idx 0 + d.window (ix1 e) 0).toNat = (idx (ix2 e 0)).toInt.toNat
        rw [hst 0, hwi 0]
        simp
      · apply Fin.ext
        show (d.start (ix1 e) idx 1 + d.window (ix1 e) 1).toNat = (idx (ix2 e 1)).toInt.toNat
        rw [hst 1, hwi 1]
        simp
      · apply Fin.ext
        show (d.start (ix1 e) idx 2 + d.window (ix1 e) 2).toNat = (idx (ix2 e 2)).toInt.toNat
        rw [hst 2, hwi 2]
        simp
    funext a
    exact hpt a
  · have hnall : ¬ ∀ a : Fin 3, 0 ≤ d.start (ix1 e) idx a + d.window (ix1 e) a ∧
        d.start (ix1 e) idx a + d.window (ix1 e) a < (⟨3, ![A, B, C]⟩ : Shape).size a := fun hall => by
      have h0 := hall 0
      have h1 := hall 1
      have h2 := hall 2
      rw [hst 0, hwi 0] at h0
      rw [hst 1, hwi 1] at h1
      rw [hst 2, hwi 2] at h2
      apply hx
      have h0' : 0 ≤ (idx (ix2 e 0)).toInt + ((0 : Nat) : Int) ∧ (idx (ix2 e 0)).toInt + ((0 : Nat) : Int) < (A : Int) := h0
      have h1' : 0 ≤ (idx (ix2 e 1)).toInt + ((0 : Nat) : Int) ∧ (idx (ix2 e 1)).toInt + ((0 : Nat) : Int) < (B : Int) := h1
      have h2' : 0 ≤ (idx (ix2 e 2)).toInt + ((0 : Nat) : Int) ∧ (idx (ix2 e 2)).toInt + ((0 : Nat) : Int) < (C : Int) := h2
      omega
    rw [dif_neg hnall, dif_neg hx]
    rfl

end Vec

/-- Scalars scattered into a three-axis grid by three words per site, at cell `(a, b, c)`: the last site whose
    words name the cell gives its scalar; the operand's entry stays when no site does. -/
theorem scatter3_set_apply {α : Type} {A B C E w : Nat}
    (d : ScatterDims ⟨3, ![A, B, C]⟩ ⟨2, ![E, 3]⟩ ⟨1, ![E]⟩)
    (hu : d.updateWindowDims = []) (hi : d.insertedWindowDims = [0, 1, 2])
    (hs : d.scatterDimsToOperandDims = [0, 1, 2]) (hv : d.indexVectorDim = 1)
    (x : (⟨3, ![A, B, C]⟩ : Shape).Idx → α) (idx : IVec ⟨2, ![E, 3]⟩ w) (upd : (⟨1, ![E]⟩ : Shape).Idx → α)
    (a : Fin A) (b : Fin B) (c : Fin C) :
    Host.scatter d (fun _ b => b) x idx upd (ix3 a b c)
      = match lastSat (fun e : Fin E => tgt3 A B C (idx (ix2 e 0)) (idx (ix2 e 1)) (idx (ix2 e 2)) = some (a, b, c)) with
        | some e => upd (ix1 e)
        | none => x (ix3 a b c) := by
  have hiff : ∀ e : Fin E, d.resultIdx? (ix1 e) idx = some (ix3 a b c)
      ↔ tgt3 A B C (idx (ix2 e 0)) (idx (ix2 e 1)) (idx (ix2 e 2)) = some (a, b, c) := by
    intro e
    rw [resultIdx?_vec3 d hi hs hv idx e]
    cases tgt3 A B C (idx (ix2 e 0)) (idx (ix2 e 1)) (idx (ix2 e 2)) with
    | none => simp
    | some l =>
      simp only [Option.map_some, Option.some.injEq]
      constructor
      · intro h'
        exact Prod.ext (congrFun h' 0) (Prod.ext (congrFun h' 1) (congrFun h' 2))
      · intro h'
        rw [h']
  have hval : ∀ e : Fin E, ((⟨1, ![E]⟩ : Shape).rowMajor (ix1 e)).val = e.val := fun e =>
    Shape.rowMajor_val_one (ix1 e)
  have key : lastSat (fun n : Fin (⟨1, ![E]⟩ : Shape).numel =>
        d.resultIdx? ((⟨1, ![E]⟩ : Shape).rowMajor.symm n) idx = some (ix3 a b c))
      = (lastSat (fun e : Fin E => tgt3 A B C (idx (ix2 e 0)) (idx (ix2 e 1)) (idx (ix2 e 2)) = some (a, b, c))).map
          (fun e => (⟨1, ![E]⟩ : Shape).rowMajor (ix1 e)) := by
    refine lastSat_map _ _ _ (fun e he => ?_) (fun n hn => ?_) (fun e e' _ _ hlt => ?_)
    · show d.resultIdx? ((⟨1, ![E]⟩ : Shape).rowMajor.symm ((⟨1, ![E]⟩ : Shape).rowMajor (ix1 e))) idx = _
      rw [Equiv.symm_apply_apply]
      exact (hiff e).2 he
    · have hn' : d.resultIdx? ((⟨1, ![E]⟩ : Shape).rowMajor.symm n) idx = some (ix3 a b c) := hn
      have hj := eq_ix1 ((⟨1, ![E]⟩ : Shape).rowMajor.symm n)
      refine ⟨((⟨1, ![E]⟩ : Shape).rowMajor.symm n) 0, ?_, ?_⟩
      · rw [hj] at hn'
        exact (hiff _).1 hn'
      · exact (congrArg (⟨1, ![E]⟩ : Shape).rowMajor hj).symm.trans (Equiv.apply_symm_apply _ n)
    · have h1 := hval e
      have h2 := hval e'
      have h3 := Fin.lt_def.1 hlt
      exact Fin.lt_def.2 (by omega)
  rw [scatter_set_apply d x idx upd (ix3 a b c), key]
  cases lastSat (fun e : Fin E => tgt3 A B C (idx (ix2 e 0)) (idx (ix2 e 1)) (idx (ix2 e 2)) = some (a, b, c)) with
  | none => rfl
  | some e =>
    show upd ((⟨1, ![E]⟩ : Shape).rowMajor.symm ((⟨1, ![E]⟩ : Shape).rowMajor (ix1 e))) = upd (ix1 e)
    rw [Equiv.symm_apply_apply]

/-! ### A grid of rows -/

section Rows

variable {A B C H E w : Nat} (d : ScatterDims ⟨4, ![A, B, C, H]⟩ ⟨2, ![E, 3]⟩ ⟨2, ![E, H]⟩)

/-- The updates' scatter axis is axis 0 (axis 1 is the window axis). -/
theorem uScatter_rows3 (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is the last one (the three cell axes are inserted). -/
theorem sKept_rows3 (hi : d.insertedWindowDims = [0, 1, 2]) : d.sKept = [3] := by
  show (List.finRange 4).filter (fun a => a ∉ d.insertedWindowDims) = [3]
  rw [hi]
  exact (by decide : (List.finRange 4).filter (fun a : Fin 4 => a ∉ [(0 : Fin 4), 1, 2]) = [(3 : Fin 4)])

/-- The start of update `(e, h)`'s window on cell axis `k`: site `e`'s `k`-th word, read signed. -/
theorem start_rows3 (hu : d.updateWindowDims = [1]) (hs : d.scatterDimsToOperandDims = [0, 1, 2])
    (hv : d.indexVectorDim = 1) (idx : IVec ⟨2, ![E, 3]⟩ w) (e : Fin E) (h : Fin H) (k : Fin 3) :
    d.start (ix2 e h) idx k.castSucc = (idx (ix2 e k)).toInt := by
  have hmem : ∀ k : Fin 3, k.castSucc ∈ ([0, 1, 2] : List (Fin 4)) := by decide
  have hidx : ∀ k : Fin 3, List.idxOf k.castSucc ([0, 1, 2] : List (Fin 4)) = k.val := by decide
  refine start_eq d hv idx (ix2 e h) e (fun (X : Fin 2) hX => ?_) k.castSucc k (by rw [hs]; exact hmem k)
    (by rw [hs]; exact hidx k)
  refine ix2_val_axis0 e h X ?_
  rw [uScatter_rows3 d hu] at hX
  exact List.mem_singleton.mp hX

/-- The start index names no column: the window starts at column 0. -/
theorem start_rows3_col (hs : d.scatterDimsToOperandDims = [0, 1, 2])
    (idx : IVec ⟨2, ![E, 3]⟩ w) (j : (⟨2, ![E, H]⟩ : Shape).Idx) : d.start j idx 3 = 0 := by
  have hm : (3 : Fin 4) ∉ d.scatterDimsToOperandDims := by
    rw [hs]; exact (by decide : (3 : Fin 4) ∉ [(0 : Fin 4), 1, 2])
  unfold ScatterDims.start
  rw [dif_neg hm]

/-- The cell axes are inserted: the window coordinate there is 0. -/
theorem window_rows3 (hi : d.insertedWindowDims = [0, 1, 2]) (j : (⟨2, ![E, H]⟩ : Shape).Idx) (k : Fin 3) :
    d.window j k.castSucc = 0 := by
  have hk : k.castSucc ∉ d.sKept := by
    rw [sKept_rows3 d hi]
    exact (by decide : ∀ k : Fin 3, k.castSucc ∉ [(3 : Fin 4)]) k
  unfold ScatterDims.window
  rw [dif_neg hk]

/-- The column axis is the window axis: the window coordinate there is the update's column. -/
theorem window_rows3_col (hu : d.updateWindowDims = [1]) (hi : d.insertedWindowDims = [0, 1, 2])
    (e : Fin E) (h : Fin H) : d.window (ix2 e h) 3 = h.val := by
  have hk : (3 : Fin 4) ∈ d.sKept := by rw [sKept_rows3 d hi]; exact List.mem_singleton.mpr rfl
  unfold ScatterDims.window
  rw [dif_pos hk]
  refine ix2_val_axis1 e h _ ?_
  have hall : ∀ X ∈ d.updateWindowDims, X = 1 := by
    rw [hu]; intro X hX; exact List.mem_singleton.mp hX
  exact hall _ (List.getElem_mem _)

/-- Where update `(e, h)` lands: column `h` of the cell site `e`'s three words name, when they name one. -/
theorem resultIdx?_rows3 (hu : d.updateWindowDims = [1]) (hi : d.insertedWindowDims = [0, 1, 2])
    (hs : d.scatterDimsToOperandDims = [0, 1, 2]) (hv : d.indexVectorDim = 1)
    (idx : IVec ⟨2, ![E, 3]⟩ w) (e : Fin E) (h : Fin H) :
    d.resultIdx? (ix2 e h) idx
      = (tgt3 A B C (idx (ix2 e 0)) (idx (ix2 e 1)) (idx (ix2 e 2))).map (fun l => ix4 l.1 l.2.1 l.2.2 h) := by
  have hst0 : d.start (ix2 e h) idx 0 = (idx (ix2 e 0)).toInt := start_rows3 d hu hs hv idx e h 0
  have hst1 : d.start (ix2 e h) idx 1 = (idx (ix2 e 1)).toInt := start_rows3 d hu hs hv idx e h 1
  have hst2 : d.start (ix2 e h) idx 2 = (idx (ix2 e 2)).toInt := start_rows3 d hu hs hv idx e h 2
  have hst3 := start_rows3_col d hs idx (ix2 e h)
  have hwi0 : d.window (ix2 e h) 0 = 0 := window_rows3 d hi (ix2 e h) 0
  have hwi1 : d.window (ix2 e h) 1 = 0 := window_rows3 d hi (ix2 e h) 1
  have hwi2 : d.window (ix2 e h) 2 = 0 := window_rows3 d hi (ix2 e h) 2
  have hwi3 := window_rows3_col d hu hi e h
  have hh := h.isLt
  unfold ScatterDims.resultIdx? tgt3
  by_cases hx : (0 ≤ (idx (ix2 e 0)).toInt ∧ (idx (ix2 e 0)).toInt < (A : Int))
      ∧ (0 ≤ (idx (ix2 e 1)).toInt ∧ (idx (ix2 e 1)).toInt < (B : Int))
      ∧ (0 ≤ (idx (ix2 e 2)).toInt ∧ (idx (ix2 e 2)).toInt < (C : Int))
  · have hall : ∀ a : Fin 4, 0 ≤ d.start (ix2 e h) idx a + d.window (ix2 e h) a ∧
        d.start (ix2 e h) idx a + d.window (ix2 e h) a < (⟨4, ![A, B, C, H]⟩ : Shape).size a := by
      refine forall_fin4.2 ⟨?_, ?_, ?_, ?_⟩
      · rw [hst0, hwi0]
        show 0 ≤ (idx (ix2 e 0)).toInt + ((0 : Nat) : Int) ∧ (idx (ix2 e 0)).toInt + ((0 : Nat) : Int) < (A : Int)
        omega
      · rw [hst1, hwi1]
        show 0 ≤ (idx (ix2 e 1)).toInt + ((0 : Nat) : Int) ∧ (idx (ix2 e 1)).toInt + ((0 : Nat) : Int) < (B : Int)
        omega
      · rw [hst2, hwi2]
        show 0 ≤ (idx (ix2 e 2)).toInt + ((0 : Nat) : Int) ∧ (idx (ix2 e 2)).toInt + ((0 : Nat) : Int) < (C : Int)
        omega
      · rw [hst3, hwi3]
        show 0 ≤ (0 : Int) + (h.val : Int) ∧ (0 : Int) + (h.val : Int) < (H : Int)
        omega
    rw [dif_pos hall, dif_pos hx]
    show some _ = some _
    congr 1
    have hpt : ∀ a : Fin 4,
        (⟨(d.start (ix2 e h) idx a + d.window (ix2 e h) a).toNat, by have := hall a; omega⟩ :
          Fin ((⟨4, ![A, B, C, H]⟩ : Shape).size a))
        = (ix4 (⟨(idx (ix2 e 0)).toInt.toNat, by omega⟩ : Fin A) (⟨(idx (ix2 e 1)).toInt.toNat, by omega⟩ : Fin B)
            (⟨(idx (ix2 e 2)).toInt.toNat, by omega⟩ : Fin C) h : (⟨4, ![A, B, C, H]⟩ : Shape).Idx) a := by
      refine forall_fin4.2 ⟨?_, ?_, ?_, ?_⟩
      · apply Fin.ext
        show (d.start (ix2 e h) idx 0 + d.window (ix2 e h) 0).toNat = (idx (ix2 e 0)).toInt.toNat
        rw [hst0, hwi0]
        simp
      · apply Fin.ext
        show (d.start (ix2 e h) idx 1 + d.window (ix2 e h) 1).toNat = (idx (ix2 e 1)).toInt.toNat
        rw [hst1, hwi1]
        simp
      · apply Fin.ext
        show (d.start (ix2 e h) idx 2 + d.window (ix2 e h) 2).toNat = (idx (ix2 e 2)).toInt.toNat
        rw [hst2, hwi2]
        simp
      · apply Fin.ext
        show (d.start (ix2 e h) idx 3 + d.window (ix2 e h) 3).toNat = h.val
        rw [hst3, hwi3]
        simp
    funext a
    exact hpt a
  · have hnall : ¬ ∀ a : Fin 4, 0 ≤ d.start (ix2 e h) idx a + d.window (ix2 e h) a ∧
        d.start (ix2 e h) idx a + d.window (ix2 e h) a < (⟨4, ![A, B, C, H]⟩ : Shape).size a := fun hall => by
      have h0 := hall 0
      have h1 := hall 1
      have h2 := hall 2
      rw [hst0, hwi0] at h0
      rw [hst1, hwi1] at h1
      rw [hst2, hwi2] at h2
      apply hx
      have h0' : 0 ≤ (idx (ix2 e 0)).toInt + ((0 : Nat) : Int) ∧ (idx (ix2 e 0)).toInt + ((0 : Nat) : Int) < (A : Int) := h0
      have h1' : 0 ≤ (idx (ix2 e 1)).toInt + ((0 : Nat) : Int) ∧ (idx (ix2 e 1)).toInt + ((0 : Nat) : Int) < (B : Int) := h1
      have h2' : 0 ≤ (idx (ix2 e 2)).toInt + ((0 : Nat) : Int) ∧ (idx (ix2 e 2)).toInt + ((0 : Nat) : Int) < (C : Int) := h2
      omega
    rw [dif_neg hnall, dif_neg hx]
    rfl

end Rows

/-- Rows scattered into a three-axis grid of rows by three words per site, at cell `(a, b, c)`, column `h`: the
    last site whose words name the cell gives its row's column `h`; the operand's entry stays when no site does. -/
theorem scatter3_rows_set_apply {α : Type} {A B C H E w : Nat}
    (d : ScatterDims ⟨4, ![A, B, C, H]⟩ ⟨2, ![E, 3]⟩ ⟨2, ![E, H]⟩)
    (hu : d.updateWindowDims = [1]) (hi : d.insertedWindowDims = [0, 1, 2])
    (hs : d.scatterDimsToOperandDims = [0, 1, 2]) (hv : d.indexVectorDim = 1)
    (x : (⟨4, ![A, B, C, H]⟩ : Shape).Idx → α) (idx : IVec ⟨2, ![E, 3]⟩ w) (upd : (⟨2, ![E, H]⟩ : Shape).Idx → α)
    (a : Fin A) (b : Fin B) (c : Fin C) (h : Fin H) :
    Host.scatter d (fun _ b => b) x idx upd (ix4 a b c h)
      = match lastSat (fun e : Fin E => tgt3 A B C (idx (ix2 e 0)) (idx (ix2 e 1)) (idx (ix2 e 2)) = some (a, b, c)) with
        | some e => upd (ix2 e h)
        | none => x (ix4 a b c h) := by
  have hiff : ∀ (e : Fin E) (h' : Fin H), d.resultIdx? (ix2 e h') idx = some (ix4 a b c h)
      ↔ (tgt3 A B C (idx (ix2 e 0)) (idx (ix2 e 1)) (idx (ix2 e 2)) = some (a, b, c) ∧ h' = h) := by
    intro e h'
    rw [resultIdx?_rows3 d hu hi hs hv idx e h']
    cases tgt3 A B C (idx (ix2 e 0)) (idx (ix2 e 1)) (idx (ix2 e 2)) with
    | none => simp
    | some l =>
      simp only [Option.map_some, Option.some.injEq]
      constructor
      · intro h''
        exact ⟨Prod.ext (congrFun h'' 0) (Prod.ext (congrFun h'' 1) (congrFun h'' 2)), congrFun h'' 3⟩
      · rintro ⟨h1, h2⟩
        rw [h1, h2]
  have hval : ∀ (e : Fin E) (h' : Fin H), ((⟨2, ![E, H]⟩ : Shape).rowMajor (ix2 e h')).val = e.val * H + h'.val :=
    fun e h' => Shape.rowMajor_val_two (ix2 e h')
  have key : lastSat (fun n : Fin (⟨2, ![E, H]⟩ : Shape).numel =>
        d.resultIdx? ((⟨2, ![E, H]⟩ : Shape).rowMajor.symm n) idx = some (ix4 a b c h))
      = (lastSat (fun e : Fin E => tgt3 A B C (idx (ix2 e 0)) (idx (ix2 e 1)) (idx (ix2 e 2)) = some (a, b, c))).map
          (fun e => (⟨2, ![E, H]⟩ : Shape).rowMajor (ix2 e h)) := by
    refine lastSat_map _ _ _ (fun e he => ?_) (fun n hn => ?_) (fun e e' _ _ hlt => ?_)
    · show d.resultIdx? ((⟨2, ![E, H]⟩ : Shape).rowMajor.symm ((⟨2, ![E, H]⟩ : Shape).rowMajor (ix2 e h))) idx = _
      rw [Equiv.symm_apply_apply]
      exact (hiff e h).2 ⟨he, rfl⟩
    · have hn' : d.resultIdx? ((⟨2, ![E, H]⟩ : Shape).rowMajor.symm n) idx = some (ix4 a b c h) := hn
      have hj := eq_ix2 ((⟨2, ![E, H]⟩ : Shape).rowMajor.symm n)
      rw [hj] at hn'
      obtain ⟨hq, hcol⟩ := (hiff _ _).1 hn'
      refine ⟨((⟨2, ![E, H]⟩ : Shape).rowMajor.symm n) 0, hq, ?_⟩
      exact (congrArg (fun y : Fin H => (⟨2, ![E, H]⟩ : Shape).rowMajor
          (ix2 (((⟨2, ![E, H]⟩ : Shape).rowMajor.symm n) 0) y)) hcol).symm.trans
        ((congrArg (⟨2, ![E, H]⟩ : Shape).rowMajor hj).symm.trans (Equiv.apply_symm_apply _ n))
    · have h1 := hval e h
      have h2 := hval e' h
      have h3 := Fin.lt_def.1 hlt
      refine Fin.lt_def.2 ?_
      rcases Nat.lt_or_ge e.val e'.val with hlt' | hge
      · exact hlt'
      · have := Nat.mul_le_mul_right H hge
        omega
  rw [scatter_set_apply d x idx upd (ix4 a b c h), key]
  cases lastSat (fun e : Fin E => tgt3 A B C (idx (ix2 e 0)) (idx (ix2 e 1)) (idx (ix2 e 2)) = some (a, b, c)) with
  | none => rfl
  | some e =>
    show upd ((⟨2, ![E, H]⟩ : Shape).rowMajor.symm ((⟨2, ![E, H]⟩ : Shape).rowMajor (ix2 e h))) = upd (ix2 e h)
    rw [Equiv.symm_apply_apply]

end Cert.Scatter3

end
-- ==== Proof.LibScatterGather.lean ====
/- The host's accumulating scatter and its row gather, read at one index, for the shapes that a segment sum
   over a list of edges and a row lookup by a list of edges take: a vector or a matrix of rows indexed by an
   [E × 1] column of signed index words.

   An update whose index word, read signed, lies in [0, N) is added into that row; any other update is dropped.
   A gathered row is the row at the index word read signed and clamped into [0, N − 1]. -/
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

/-- The row an index word names for a scatter into `N` rows: the word read signed, when it lies in [0, N);
    no row otherwise (the update is dropped). -/
def tgtW (N : Nat) {w : Nat} (x : BitVec w) : Option (Fin N) :=
  if h : 0 ≤ x.toInt ∧ x.toInt < (N : Int) then some ⟨x.toInt.toNat, by omega⟩ else none

/-- The row an index word names for a gather from `N` rows: the word read signed and clamped into [0, N − 1]. -/
def rowW (N : Nat) (hN : 0 < N) {w : Nat} (x : BitVec w) : Fin N := ⟨min x.toInt.toNat (N - 1), by omega⟩

/-- A word that names row `i` for the scatter names the same row for the gather. -/
theorem rowW_of_tgtW {N : Nat} (hN : 0 < N) {w : Nat} (x : BitVec w) (i : Fin N) (h : tgtW N x = some i) :
    rowW N hN x = i := by
  unfold tgtW at h
  split at h
  · next hx =>
    have hi : (⟨x.toInt.toNat, by omega⟩ : Fin N) = i := Option.some.inj h
    subst hi
    apply Fin.ext
    show min x.toInt.toNat (N - 1) = x.toInt.toNat
    omega
  · exact absurd h (by simp)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into a vector -/

section Vec

variable {N E w : Nat} (d : ScatterDims ⟨1, ![N]⟩ ⟨2, ![E, 1]⟩ ⟨1, ![E]⟩)

/-- The start of update `e`'s window on the operand's one axis: the e-th index word, read signed. -/
theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

/-- The operand's one axis is inserted: the window coordinate there is 0. -/
theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

/-- Where update `e` lands: the row its index word names, when it names one. -/
theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

/-- The scatter-add into a vector, at row `i`: the operand there plus the updates whose index word names row `i`. -/
theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

/-! ## The scatter of rows into a matrix -/

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

/-- The updates' scatter axis is axis 0 (axis 1 is the window axis). -/
theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is axis 1 (axis 0 is inserted). -/
theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

/-- The start of update (e, c)'s window on the operand's row axis: the e-th index word, read signed. -/
theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

/-- The start index names no column: the window starts at column 0. -/
theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

/-- The operand's row axis is inserted: the window coordinate there is 0. -/
theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

/-- The operand's column axis is the window axis: the window coordinate there is the update's column. -/
theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

/-- Where update (e, c) lands: column `c` of the row its index word names, when it names one. -/
theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

/-- The scatter-add of rows into a matrix, at (i, j): the operand there plus column `j` of the update rows whose
    index word names row `i`. -/
theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

/-! ## The row gather -/

section GatherRows

variable {N H E w : Nat} (d : GatherDims ⟨2, ![N, H]⟩ ⟨2, ![E, 1]⟩ ⟨2, ![E, H]⟩)

/-- The operand's kept axis is the column axis (the row axis is collapsed). -/
theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

/-- The result's batch axis is axis 0 (axis 1 is the offset axis). -/
theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

/-- Result index (e, j) reads its start index at row `e` of the column of index words. -/
theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the row axis: the e-th index word read signed and clamped into [0, N − 1]. -/
theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

/-- The start index names no column: the slice starts at column 0. -/
theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

/-- The offset coordinate on the column axis is the result's column. -/
theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

/-- The gather of rows of a matrix, at (e, j): column `j` of the row the e-th index word names. -/
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

/-- The gather of entries of a vector, at `e`: the entry the e-th index word names (the library's take, restated
    with `rowW`). -/
theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.LibGather3.lean ====
/- The host's gather whose start index is three coordinate words per row, read at one index: the entry (or the
   row) of a rank-3 (rank-4) operand at the cell the three words name, each word read signed and clamped into
   its axis. Beside it, the one-word row gather restated with the same clamp. -/
import Idealize.ShloMosaic.PureOps.Ideal
import Idealize.ShloMosaic.Lib.ValueIdx
import Idealize.ShloMosaic.Lib.StableHlo.Predicate
import proofs.«412627_j82471962018590_2_alg».proof.Proof.Spec
import proofs.«412627_j82471962018590_2_alg».proof.Proof.LibScatterGather

noncomputable section

namespace Cert.Gather3

open Idealize.ShloMosaic Idealize.ShloMosaic.ValueIdx Cert.Spec

/-! ## Facts about the three cell axes -/

theorem fin3_mem : ∀ a : Fin 3, a ∈ [(0 : Fin 3), 1, 2] := by decide
theorem fin3_idxOf : ∀ a : Fin 3, a.val = List.idxOf a [(0 : Fin 3), 1, 2] := by decide
theorem fin4_mem : ∀ a : Fin 4, a ≠ 3 → a ∈ [(0 : Fin 4), 1, 2] := by decide
theorem fin4_idxOf : ∀ a : Fin 4, a ≠ 3 → a.val = List.idxOf a [(0 : Fin 4), 1, 2] := by decide

/-! ## The start index of a row of index words -/

section General

variable {s t : Shape} {E K w : Nat} (d : GatherDims s ⟨2, ![E, K]⟩ t)

/-- When every batch axis of the result carries the row number `e`, the result index reads component `c` of its
    start index at (e, c). -/
theorem siIdx_row (hivd : d.indexVectorDim = 1) (j : t.Idx) (e : Fin E)
    (hj : ∀ X ∈ d.batchDims, (j X).val = e.val) (c : Fin d.startIndexMap.length) (k : Fin K) (hk : k.val = c.val) :
    d.siIdx j c = ix2 e k := by
  funext b
  match b with
  | ⟨0, _⟩ =>
    unfold GatherDims.siIdx
    rw [dif_neg (by rw [hivd]; simp)]
    unfold GatherDims.siCoord
    apply Fin.ext
    simp only [Fin.val_cast]
    exact hj _ (List.getElem_mem _)
  | ⟨1, _⟩ =>
    unfold GatherDims.siIdx
    rw [dif_pos (by rw [hivd])]
    apply Fin.ext
    show c.val = k.val
    exact hk.symm

/-- The start of the slice on an operand axis the start index names, with slice size one there: the word for
    that axis read signed and clamped into the axis. -/
theorem start_row (hivd : d.indexVectorDim = 1) (j : t.Idx) (e : Fin E)
    (hj : ∀ X ∈ d.batchDims, (j X).val = e.val) (idx : IVec ⟨2, ![E, K]⟩ w) (a : Fin s.rank)
    (ha : a ∈ d.startIndexMap) (hsl : d.sliceSizes a = 1) (k : Fin K) (hk : k.val = d.startIndexMap.idxOf a) :
    d.start j idx a = min (idx (ix2 e k)).toInt.toNat (s.size a - 1) := by
  unfold GatherDims.start
  rw [dif_pos ha, siIdx_row d hivd j e hj _ k hk, hsl]

end General

/-! ## Entries of a rank-3 array -/

/-- The gather of entries of a rank-3 array, at `e`: the entry at the cell the e-th triple of index words names. -/
theorem gather3_apply {α : Type} {A B C E w : Nat} (hA : 0 < A) (hB : 0 < B) (hC : 0 < C)
    (d : GatherDims ⟨3, ![A, B, C]⟩ ⟨2, ![E, 3]⟩ ⟨1, ![E]⟩)
    (hoff : d.offsetDims = []) (hcoll : d.collapsedSliceDims = [0, 1, 2]) (hob : d.operandBatchingDims = [])
    (hsb : d.startIndicesBatchingDims = []) (hsim : d.startIndexMap = [0, 1, 2]) (hivd : d.indexVectorDim = 1)
    (x : (⟨3, ![A, B, C]⟩ : Shape).Idx → α) (idx : IVec ⟨2, ![E, 3]⟩ w) (e : Fin E) :
    Host.gather d x idx (ix1 e)
      = x (ix3 (clampW A hA (idx (ix2 e 0))) (clampW B hB (idx (ix2 e 1))) (clampW C hC (idx (ix2 e 2)))) := by
  unfold Host.gather
  congr 1
  have hb : ∀ a : Fin 3, a ∉ d.operandBatchingDims := fun a => by rw [hob]; exact List.not_mem_nil
  have hk : ∀ a : Fin 3, a ∉ d.sKept := fun a hmem => by
    have h1 := ((d.mem_sKept a).1 hmem).1
    rw [hcoll] at h1
    exact h1 (fin3_mem a)
  have hj : ∀ X ∈ d.batchDims, ((ix1 e : (⟨1, ![E]⟩ : Shape).Idx) X).val = e.val := fun X _ => by
    match X with
    | ⟨0, _⟩ => rfl
  have hm : ∀ a : Fin 3, a ∈ d.startIndexMap := fun a => by rw [hsim]; exact fin3_mem a
  have hsl : ∀ a : Fin 3, d.sliceSizes a = 1 := fun a =>
    d.slice_collapsed a (by rw [hcoll]; exact fin3_mem a)
  have hix : ∀ a : Fin 3, a.val = d.startIndexMap.idxOf a := fun a => by rw [hsim]; exact fin3_idxOf a
  have hst : ∀ a : Fin 3, d.operandIdx (ix1 e) idx a
      = ⟨min (idx (ix2 e a)).toInt.toNat ((⟨3, ![A, B, C]⟩ : Shape).size a - 1), by
          have := (d.operandIdx (ix1 e) idx a).isLt
          have h0 : 0 < (⟨3, ![A, B, C]⟩ : Shape).size a := by
            match a with
            | ⟨0, _⟩ => exact hA
            | ⟨1, _⟩ => exact hB
            | ⟨2, _⟩ => exact hC
          omega⟩ := fun a => by
    apply Fin.ext
    show d.start (ix1 e) idx a + d.batchCoord (ix1 e) a + d.offCoord (ix1 e) a = _
    rw [GatherDims.batchCoord_eq_zero _ _ _ (hb a), GatherDims.offCoord_eq_zero _ _ _ (hk a),
      start_row d hivd (ix1 e) e hj idx a (hm a) (hsl a) a (hix a)]
    simp only [Nat.add_zero]
  funext a
  rw [hst a]
  match a with
  | ⟨0, _⟩ => rfl
  | ⟨1, _⟩ => rfl
  | ⟨2, _⟩ => rfl

/-! ## Rows of a rank-4 array -/

/-- The gather of rows of a rank-4 array, at (e, h): entry `h` of the row at the cell the e-th triple of index
    words names. -/
theorem gather3_rows_apply {α : Type} {A B C H E w : Nat} (hA : 0 < A) (hB : 0 < B) (hC : 0 < C)
    (d : GatherDims ⟨4, ![A, B, C, H]⟩ ⟨2, ![E, 3]⟩ ⟨2, ![E, H]⟩)
    (hoff : d.offsetDims = [1]) (hcoll : d.collapsedSliceDims = [0, 1, 2]) (hob : d.operandBatchingDims = [])
    (hsb : d.startIndicesBatchingDims = []) (hsim : d.startIndexMap = [0, 1, 2]) (hivd : d.indexVectorDim = 1)
    (hss : d.sliceSizes = ![1, 1, 1, H])
    (x : (⟨4, ![A, B, C, H]⟩ : Shape).Idx → α) (idx : IVec ⟨2, ![E, 3]⟩ w) (e : Fin E) (h : Fin H) :
    Host.gather d x idx (ix2 e h)
      = x (ix4 (clampW A hA (idx (ix2 e 0))) (clampW B hB (idx (ix2 e 1))) (clampW C hC (idx (ix2 e 2))) h) := by
  unfold Host.gather
  congr 1
  have hb : ∀ a : Fin 4, a ∉ d.operandBatchingDims := fun a => by rw [hob]; exact List.not_mem_nil
  have hsk : d.sKept = [3] := by
    show (List.finRange 4).filter (fun a => a ∉ d.collapsedSliceDims ++ d.operandBatchingDims) = [3]
    rw [hcoll, hob]
    exact (by decide : (List.finRange 4).filter (fun a : Fin 4 => a ∉ [(0 : Fin 4), 1, 2] ++ []) = [(3 : Fin 4)])
  have hbd : d.batchDims = [0] := by
    show (List.finRange 2).filter (fun a => a ∉ d.offsetDims) = [0]
    rw [hoff]
    exact (by decide : (List.finRange 2).filter (fun a : Fin 2 => a ∉ [(1 : Fin 2)]) = [(0 : Fin 2)])
  have hj : ∀ X ∈ d.batchDims, ((ix2 e h : (⟨2, ![E, H]⟩ : Shape).Idx) X).val = e.val := fun X hX => by
    rw [hbd] at hX
    have : X = 0 := List.mem_singleton.mp hX
    subst this
    rfl
  -- the three cell axes: start = the clamped word, no batching, no offset
  have hcell : ∀ (a : Fin 4) (k : Fin 3), a.val = k.val →
      (d.operandIdx (ix2 e h) idx a).val
        = min (idx (ix2 e k)).toInt.toNat ((⟨4, ![A, B, C, H]⟩ : Shape).size a - 1) := fun a k hak => by
    have ha3 : a ≠ 3 := fun h3 => by subst h3; have := k.isLt; simp at hak; omega
    have hk : a ∉ d.sKept := by
      rw [hsk]; intro hmem; exact ha3 (List.mem_singleton.mp hmem)
    have hm : a ∈ d.startIndexMap := by
      rw [hsim]; exact fin4_mem a ha3
    have hc : a ∈ d.collapsedSliceDims := by
      rw [hcoll]; exact fin4_mem a ha3
    have hix : k.val = d.startIndexMap.idxOf a := by
      rw [hsim, ← hak]; exact fin4_idxOf a ha3
    show d.start (ix2 e h) idx a + d.batchCoord (ix2 e h) a + d.offCoord (ix2 e h) a = _
    rw [GatherDims.batchCoord_eq_zero _ _ _ (hb a), GatherDims.offCoord_eq_zero _ _ _ hk,
      start_row d hivd (ix2 e h) e hj idx a hm (d.slice_collapsed a hc) k hix]
    simp only [Nat.add_zero]
  -- the row axis: start 0, offset the result's column
  have hrow : (d.operandIdx (ix2 e h) idx 3).val = h.val := by
    have hm : (3 : Fin 4) ∉ d.startIndexMap := by
      rw [hsim]; exact (by decide : (3 : Fin 4) ∉ [(0 : Fin 4), 1, 2])
    have hk : (3 : Fin 4) ∈ d.sKept := by rw [hsk]; exact List.mem_singleton.mpr rfl
    have hst : d.start (ix2 e h) idx 3 = 0 := by
      unfold GatherDims.start
      rw [dif_neg hm]
    have hoc : d.offCoord (ix2 e h) 3 = h.val := by
      unfold GatherDims.offCoord
      rw [dif_pos hk]
      have hall : ∀ X ∈ d.offsetDims, ((ix2 e h : (⟨2, ![E, H]⟩ : Shape).Idx) X).val = h.val := by
        rw [hoff]; intro X hX
        have : X = 1 := List.mem_singleton.mp hX
        subst this
        rfl
      exact hall _ (List.getElem_mem _)
    show d.start (ix2 e h) idx 3 + d.batchCoord (ix2 e h) 3 + d.offCoord (ix2 e h) 3 = _
    rw [GatherDims.batchCoord_eq_zero _ _ _ (hb 3), hst, hoc]
    omega
  funext a
  apply Fin.ext
  match a with
  | ⟨0, _⟩ => exact hcell 0 0 rfl
  | ⟨1, _⟩ => exact hcell 1 1 rfl
  | ⟨2, _⟩ => exact hcell 2 2 rfl
  | ⟨3, _⟩ => exact hrow

/-! ## Rows of a matrix, one index word per row -/

/-- The gather of rows of a matrix, at (e, j): column `j` of the row the e-th index word names. -/
theorem gather_rows_clamp {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (clampW N hN (idx (ix2 e 0))) j) :=
  Cert.ScatterGather.gather_rows_apply hN d hoff hcoll hob hsb hsim hivd hss x idx e j

end Cert.Gather3

end
-- ==== Proof.KI.Glue.lean ====
/- The kernel's scatters, gather and two re-shapings as pure functions over the extended reals: the two overwriting
   scatters are the dense grid and the occupancy mask; the gather reads every site's cell; the bias as a one-row
   array and the mask with a unit channel axis read the arrays they are made from. -/
import proofs.«412627_j82471962018590_2_alg».proof.Proof.Gen.KernelIdeal
import proofs.«412627_j82471962018590_2_alg».proof.Proof.Spec
import proofs.«412627_j82471962018590_2_alg».proof.Proof.LibScatter3
import proofs.«412627_j82471962018590_2_alg».proof.Proof.LibGather3
import Idealize.ShloMosaic.Lib.Pipeline.Value
import Idealize.ShloMosaic.Lib.ValueIdx
import Idealize.ShloMosaic.Lib.ValueLayout

noncomputable section

namespace Cert.KernelIdeal.Glue

open Idealize.ShloMosaic Idealize.ShloMosaic.ValueIdx
open Cert.KernelIdeal Cert.KernelIdeal.Gen

/-! ## The winner of a cell, and the dense grid and the mask at a cell with or without one -/

/-- The winner of cell (a, b, c) is the last site whose three words name it. -/
theorem lastAt_eq (coords : S409600x3.Idx → BitVec 32) (a : Fin 2) (b c : Fin 640) :
    Cert.Spec.lastAt coords (a, b, c)
      = Cert.Spec.lastSat (fun e : Fin 409600 =>
          Cert.Spec.tgt3 2 640 640 (coords (ix2 e 0)) (coords (ix2 e 1)) (coords (ix2 e 2)) = some (a, b, c)) := rfl

/-- The dense grid at a cell with a winner: the winner's row. -/
theorem dense_some (X : Fin 409600 → Fin 64 → EReal) (coords : S409600x3.Idx → BitVec 32) (l : Cert.Spec.Loc)
    (n : Fin 409600) (hL : Cert.Spec.lastAt coords l = some n) (ch : Fin 64) :
    Cert.Spec.dense X coords l ch = X n ch := by
  unfold Cert.Spec.dense
  rw [hL]

/-- The dense grid at an empty cell: zero. -/
theorem dense_none (X : Fin 409600 → Fin 64 → EReal) (coords : S409600x3.Idx → BitVec 32) (l : Cert.Spec.Loc)
    (hL : Cert.Spec.lastAt coords l = none) (ch : Fin 64) :
    Cert.Spec.dense X coords l ch = 0 := by
  unfold Cert.Spec.dense
  rw [hL]

/-- The mask at a cell with a winner: one. -/
theorem mask_some (coords : S409600x3.Idx → BitVec 32) (l : Cert.Spec.Loc) (n : Fin 409600)
    (hL : Cert.Spec.lastAt coords l = some n) : Cert.Spec.mask coords l = 1 := by
  unfold Cert.Spec.mask
  rw [hL]

/-- The mask at an empty cell: zero. -/
theorem mask_none (coords : S409600x3.Idx → BitVec 32) (l : Cert.Spec.Loc)
    (hL : Cert.Spec.lastAt coords l = none) : Cert.Spec.mask coords l = 0 := by
  unfold Cert.Spec.mask
  rw [hL]

/-! ## The two scatters -/

/-- The feature rows scattered over any grid that is zero at (a, b, c, h): the dense grid there. -/
theorem dense_of_scatter_of (x : S2x640x640x64.Idx → EReal) (X : S409600x64.Idx → EReal)
    (idx coords : S409600x3.Idx → BitVec 32) (hidx : ∀ e k, idx (ix2 e k) = coords (ix2 e k))
    (a : Fin 2) (b c : Fin 640) (h : Fin 64) (hx : x (ix4 a b c h) = 0) :
    Host.scatter scatter_S2x640x640x64_S409600x3_S409600x64_1_012_012_1 (fun _ b => b) x idx X (ix4 a b c h)
      = Cert.Spec.dense (fun n ch => X (ix2 n ch)) coords (a, b, c) h := by
  have hic : idx = coords := funext fun j => by rw [eq_ix2 j]; exact hidx _ _
  subst hic
  have key := Cert.Scatter3.scatter3_rows_set_apply scatter_S2x640x640x64_S409600x3_S409600x64_1_012_012_1
    rfl rfl rfl rfl x idx X a b c h
  rw [← lastAt_eq idx a b c] at key
  rw [key]
  cases hL : Cert.Spec.lastAt idx (a, b, c) with
  | none =>
    rw [dense_none _ _ _ hL]
    exact hx
  | some e =>
    rw [dense_some _ _ _ e hL]

/-- Any updates that are all one scattered over any grid that is zero at (a, b, c): the occupancy mask there. -/
theorem mask_of_scatter_of (x : S2x640x640.Idx → EReal) (u : S409600.Idx → EReal) (hu : ∀ i, u i = 1)
    (idx coords : S409600x3.Idx → BitVec 32) (hidx : ∀ e k, idx (ix2 e k) = coords (ix2 e k))
    (a : Fin 2) (b c : Fin 640) (hx : x (ix3 a b c) = 0) :
    Host.scatter scatter_S2x640x640_S409600x3_S409600_n_012_012_1 (fun _ b => b) x idx u (ix3 a b c)
      = Cert.Spec.mask coords (a, b, c) := by
  have hic : idx = coords := funext fun j => by rw [eq_ix2 j]; exact hidx _ _
  subst hic
  have key := Cert.Scatter3.scatter3_set_apply scatter_S2x640x640_S409600x3_S409600_n_012_012_1
    rfl rfl rfl rfl x idx u a b c
  rw [← lastAt_eq idx a b c] at key
  rw [key]
  cases hL : Cert.Spec.lastAt idx (a, b, c) with
  | none =>
    rw [mask_none _ _ hL]
    exact hx
  | some e =>
    rw [mask_some _ _ e hL]
    exact hu _

/-- The feature rows scattered over the zero grid: the dense grid. -/
theorem dense_of_scatter (X : S409600x64.Idx → EReal) (idx coords : S409600x3.Idx → BitVec 32)
    (hidx : ∀ e k, idx (ix2 e k) = coords (ix2 e k)) (a : Fin 2) (b c : Fin 640) (h : Fin 64) :
    Host.scatter scatter_S2x640x640x64_S409600x3_S409600x64_1_012_012_1 (fun _ b => b) (fun _ => (0 : EReal)) idx X
        (ix4 a b c h)
      = Cert.Spec.dense (fun n ch => X (ix2 n ch)) coords (a, b, c) h :=
  dense_of_scatter_of (fun _ => (0 : EReal)) X idx coords hidx a b c h rfl

/-- Ones scattered over the zero grid: the occupancy mask. -/
theorem mask_of_scatter (idx coords : S409600x3.Idx → BitVec 32)
    (hidx : ∀ e k, idx (ix2 e k) = coords (ix2 e k)) (a : Fin 2) (b c : Fin 640) :
    Host.scatter scatter_S2x640x640_S409600x3_S409600_n_012_012_1 (fun _ b => b) (fun _ => (0 : EReal)) idx
        (fun _ => (1 : EReal)) (ix3 a b c)
      = Cert.Spec.mask coords (a, b, c) :=
  mask_of_scatter_of (fun _ => (0 : EReal)) (fun _ => (1 : EReal)) (fun _ => rfl) idx coords hidx a b c rfl

/-! ## The gather -/

/-- The rows gathered back: row n is the grid's row at site n's cell. -/
theorem gather_cell (E : S2x640x640x64.Idx → EReal) (idx coords : S409600x3.Idx → BitVec 32)
    (hidx : ∀ e k, idx (ix2 e k) = coords (ix2 e k)) (n : Fin 409600) (co : Fin 64) :
    Host.gather gather_S2x640x640x64_S409600x3_S409600x64_1_012_n_n_012_1_11164 E idx (ix2 n co)
      = E (ix4 (Cert.Spec.cell coords n).1 (Cert.Spec.cell coords n).2.1 (Cert.Spec.cell coords n).2.2 co) := by
  have hic : idx = coords := funext fun j => by rw [eq_ix2 j]; exact hidx _ _
  subst hic
  exact Cert.Gather3.gather3_rows_apply (by decide) (by decide) (by decide) _ rfl rfl rfl rfl rfl rfl rfl E idx n co

/-! ## The bias as one row, the mask with a unit channel axis -/

/-- The bias cast to one row reads the bias. -/
theorem bias_row_apply (bias : S64.Idx → EReal) (u : Fin 1) (c : Fin 64) :
    shapeCast S1x64 bias shapeCasts_S64_S1x64 (ix2 u c) = bias (ix1 c) :=
  shapeCast_a_1a_apply bias shapeCasts_S64_S1x64 u c

/-- The mask broadcast to a unit channel axis reads the mask. -/
theorem mask_chan_apply (M : S2x640x640.Idx → EReal) (b : Fin 2) (y x : Fin 640) (u : Fin 1) :
    broadcastInDim S2x640x640x1 ![0, 1, 2] bcast_S2x640x640_S2x640x640x1_0_1_2 M (ix4 b y x u) = M (ix3 b y x) :=
  broadcastInDim_apply _ _ M _ _ (fun a => by
    match a with
    | ⟨0, _⟩ => rfl
    | ⟨1, _⟩ => rfl
    | ⟨2, _⟩ => rfl)

end Cert.KernelIdeal.Glue

end
-- ==== Proof.KI.GluePad.lean ====
/- The three padded copies of a grid read at an index: one zero column on either side; behind a zero row the rows
   0 … 638; the rows 1 … 639 with a zero row behind. -/
import proofs.«412627_j82471962018590_2_alg».proof.Proof.KI.GlueDef
import Idealize.ShloMosaic.Lib.Pipeline.Value
import Idealize.ShloMosaic.Lib.KernelVsHost
import Idealize.ShloMosaic.Lib.ValueLayout

noncomputable section

namespace Cert.KernelIdeal.Glue

open Idealize.ShloMosaic Idealize.ShloMosaic.ValueIdx
open Cert.KernelIdeal Cert.KernelIdeal.Gen

/-! ## The two layout operations at an index -/

/-- One zero column on either side of any grid, read at padded column xx. -/
theorem padCols_apply (G : S2x640x640x64.Idx → EReal) (b : Fin 2) (y : Fin 640) (xx : Fin 642) (ci : Fin 64) :
    pad S2x640x642x64 ![0, 0, 1, 0] ![0, 0, 1, 0] ![0, 0, 0, 0] G (fun _ : S_.Idx => (0 : EReal))
        pads_S2x640x640x64_S2x640x642x64_000_000_110_000 h_S_ (ix4 b y xx ci)
      = if h : 1 ≤ xx.val ∧ xx.val ≤ 640 then G (ix4 b y (⟨xx.val - 1, by omega⟩ : Fin 640) ci) else 0 := by
  by_cases h : 1 ≤ xx.val ∧ xx.val ≤ 640
  · rw [dif_pos h]
    refine pad_apply_of_inside _ _ _ G _ _ _ _ (ix4 b y (⟨xx.val - 1, by omega⟩ : Fin 640) ci) (fun a => ?_)
    match a with
    | ⟨0, _⟩ => show b.val = 0 + b.val * 1; omega
    | ⟨1, _⟩ => show y.val = 0 + y.val * 1; omega
    | ⟨2, _⟩ => show xx.val = 1 + (xx.val - 1) * 1; omega
    | ⟨3, _⟩ => show ci.val = 0 + ci.val * 1; omega
  · rw [dif_neg h]
    refine pad_apply_of_not_inside _ _ _ G _ _ _ (ix4 b y xx ci) 2 (fun hin => h ?_)
    have hin' : 1 ≤ xx.val ∧ (xx.val - 1) % 1 = 0 ∧ (xx.val - 1) / 1 < 640 := hin
    omega

/-- A zero row in front of rows 0 … 638 of a grid: row y reads the grid's row y − 1, row 0 is zero. -/
theorem shiftDown_apply (D : S2x640x640x64.Idx → EReal) (b : Fin 2) (y x : Fin 640) (ci : Fin 64) :
    concatenate S2x640x640x64 1
        [⟨S2x1x640x64, fun _ => (0 : EReal)⟩,
         ⟨S2x639x640x64, extractStridedSlice S2x639x640x64 ![0, 0, 0, 0] D slices_S2x640x640x64_S2x639x640x64_0_0_0_0⟩]
        concatenates_S2x1x640x64_S2x639x640x64_S2x640x640x64_d1 (ix4 b y x ci)
      = if h : 1 ≤ y.val then D (ix4 b (⟨y.val - 1, by omega⟩ : Fin 640) x ci) else 0 := by
  by_cases h : 1 ≤ y.val
  · rw [dif_pos h]
    refine (concatenate_pair_apply_right (t := S2x640x640x64) (s₁ := S2x1x640x64) (s₂ := S2x639x640x64) _ _ _ _ (ix4 b y x ci) rfl rfl
      (ix4 b (⟨y.val - 1, by omega⟩ : Fin 639) x ci) (fun a ha => ?_) ?_).trans ?_
    · match a with
      | ⟨0, _⟩ => rfl
      | ⟨1, _⟩ => exact absurd rfl ha
      | ⟨2, _⟩ => rfl
      | ⟨3, _⟩ => rfl
    · show (y.val - 1) + 1 = y.val
      omega
    · exact slice4_axis1_apply 0 D _ b _ x ci _ (by show y.val - 1 = 0 + (y.val - 1); omega)
  · rw [dif_neg h]
    exact concatenate_pair_apply_left (t := S2x640x640x64) (s₁ := S2x1x640x64) (s₂ := S2x639x640x64) _ _ _ _ (ix4 b y x ci) rfl (ix4 b (⟨0, by omega⟩ : Fin 1) x ci) (fun a => by
      match a with
      | ⟨0, _⟩ => rfl
      | ⟨1, _⟩ => show 0 = y.val; omega
      | ⟨2, _⟩ => rfl
      | ⟨3, _⟩ => rfl)

/-- Rows 1 … 639 of a grid with a zero row behind: row y reads the grid's row y + 1, the last row is zero. -/
theorem shiftUp_apply (D : S2x640x640x64.Idx → EReal) (b : Fin 2) (y x : Fin 640) (ci : Fin 64) :
    concatenate S2x640x640x64 1
        [⟨S2x639x640x64, extractStridedSlice S2x639x640x64 ![0, 1, 0, 0] D slices_S2x640x640x64_S2x639x640x64_0_1_0_0⟩,
         ⟨S2x1x640x64, fun _ => (0 : EReal)⟩]
        concatenates_S2x639x640x64_S2x1x640x64_S2x640x640x64_d1 (ix4 b y x ci)
      = if h : y.val + 1 < 640 then D (ix4 b (⟨y.val + 1, h⟩ : Fin 640) x ci) else 0 := by
  by_cases h : y.val + 1 < 640
  · rw [dif_pos h]
    refine (concatenate_pair_apply_left (t := S2x640x640x64) (s₁ := S2x639x640x64) (s₂ := S2x1x640x64) _ _ _ _ (ix4 b y x ci) rfl
      (ix4 b (⟨y.val, by omega⟩ : Fin 639) x ci) (fun a => ?_)).trans ?_
    · match a with
      | ⟨0, _⟩ => rfl
      | ⟨1, _⟩ => rfl
      | ⟨2, _⟩ => rfl
      | ⟨3, _⟩ => rfl
    · exact slice4_axis1_apply 1 D _ b _ x ci _ (by show y.val + 1 = 1 + y.val; omega)
  · rw [dif_neg h]
    exact concatenate_pair_apply_right (t := S2x640x640x64) (s₁ := S2x639x640x64) (s₂ := S2x1x640x64) _ _ _ _ (ix4 b y x ci) rfl rfl (ix4 b (⟨0, by omega⟩ : Fin 1) x ci) (fun a ha => by
      match a with
      | ⟨0, _⟩ => rfl
      | ⟨1, _⟩ => exact absurd rfl ha
      | ⟨2, _⟩ => rfl
      | ⟨3, _⟩ => rfl) (by show 0 + 639 = y.val; omega)

/-! ## The three copies at an index -/

/-- The column-padded grid at padded column xx: the grid at column xx − 1, zero in the two pad columns. -/
theorem ceOf_apply (D : S2x640x640x64.Idx → EReal) (b : Fin 2) (y : Fin 640) (xx : Fin 642) (ci : Fin 64) :
    ceOf D (ix4 b y xx ci)
      = if h : 1 ≤ xx.val ∧ xx.val ≤ 640 then D (ix4 b y (⟨xx.val - 1, by omega⟩ : Fin 640) ci) else 0 := by
  unfold ceOf
  exact padCols_apply D b y xx ci

/-- The copy shifted down at row y: the grid at row y − 1, zero in row 0 and in the two pad columns. -/
theorem upOf_apply (D : S2x640x640x64.Idx → EReal) (b : Fin 2) (y : Fin 640) (xx : Fin 642) (ci : Fin 64) :
    upOf D (ix4 b y xx ci)
      = if h : (1 ≤ xx.val ∧ xx.val ≤ 640) ∧ 1 ≤ y.val then
          D (ix4 b (⟨y.val - 1, by omega⟩ : Fin 640) (⟨xx.val - 1, by omega⟩ : Fin 640) ci)
        else 0 := by
  unfold upOf
  rw [padCols_apply]
  by_cases hx : 1 ≤ xx.val ∧ xx.val ≤ 640
  · rw [dif_pos hx, shiftDown_apply]
    by_cases hy : 1 ≤ y.val
    · rw [dif_pos hy, dif_pos ⟨hx, hy⟩]
    · rw [dif_neg hy, dif_neg (fun h => hy h.2)]
  · rw [dif_neg hx, dif_neg (fun h => hx h.1)]

/-- The copy shifted up at row y: the grid at row y + 1, zero in the last row and in the two pad columns. -/
theorem dnOf_apply (D : S2x640x640x64.Idx → EReal) (b : Fin 2) (y : Fin 640) (xx : Fin 642) (ci : Fin 64) :
    dnOf D (ix4 b y xx ci)
      = if h : (1 ≤ xx.val ∧ xx.val ≤ 640) ∧ y.val + 1 < 640 then
          D (ix4 b (⟨y.val + 1, h.2⟩ : Fin 640) (⟨xx.val - 1, by omega⟩ : Fin 640) ci)
        else 0 := by
  unfold dnOf
  rw [padCols_apply]
  by_cases hx : 1 ≤ xx.val ∧ xx.val ≤ 640
  · rw [dif_pos hx, shiftUp_apply]
    by_cases hy : y.val + 1 < 640
    · rw [dif_pos hy, dif_pos ⟨hx, hy⟩]
    · rw [dif_neg hy, dif_neg (fun h => hy h.2)]
  · rw [dif_neg hx, dif_neg (fun h => hx h.1)]

end Cert.KernelIdeal.Glue

end
-- ==== Proof.KI.ConvArr.lean ====
/- What one pallas_call leaves in its output array, as a function of the arrays it reads: the 3 × 3 contraction over
   the three row-shifted, column-padded copies of the dense grid, bias, ReLU and mask (calls 0 and 1), and the
   row-wise product with `wd` plus the gathered rows under a ReLU (call 2). -/
import Idealize.ShloMosaic.PureOps.Ideal
import Idealize.ShloMosaic.Lib.ValueIdx

noncomputable section

namespace Cert.Spec

open Idealize.ShloMosaic Idealize.ShloMosaic.ValueIdx
open scoped BigOperators

/-- The row-tap's array: tap 0 reads the copy shifted down by one row, tap 1 the grid itself, tap 2 the copy
    shifted up by one row. -/
def rowTap (up ce dn : (⟨4, ![2, 640, 642, 64]⟩ : Shape).Idx → EReal) (ky : Fin 3) :
    (⟨4, ![2, 640, 642, 64]⟩ : Shape).Idx → EReal :=
  match ky with
  | 0 => up
  | 1 => ce
  | 2 => dn

/-- A convolution call's output at `(b, y, x, co)`: column tap `kx` reads padded column `x + kx`. -/
def convAt (up ce dn : (⟨4, ![2, 640, 642, 64]⟩ : Shape).Idx → EReal) (w : (⟨4, ![3, 3, 64, 64]⟩ : Shape).Idx → EReal)
    (bias : (⟨2, ![1, 64]⟩ : Shape).Idx → EReal) (msk : (⟨4, ![2, 640, 640, 1]⟩ : Shape).Idx → EReal)
    (b : Fin 2) (y : Fin 640) (x : Fin 640) (co : Fin 64) : EReal :=
  max ((∑ ky : Fin 3, ∑ kx : Fin 3, ∑ ci : Fin 64,
      rowTap up ce dn ky (ix4 b y (⟨x.val + kx.val, by omega⟩ : Fin 642) ci) * w (ix4 ky kx ci co)) + bias (ix2 0 co)) 0
    * msk (ix4 b y x 0)

/-- A convolution call's output array. -/
def convArr (up ce dn : (⟨4, ![2, 640, 642, 64]⟩ : Shape).Idx → EReal) (w : (⟨4, ![3, 3, 64, 64]⟩ : Shape).Idx → EReal)
    (bias : (⟨2, ![1, 64]⟩ : Shape).Idx → EReal) (msk : (⟨4, ![2, 640, 640, 1]⟩ : Shape).Idx → EReal) :
    (⟨4, ![2, 640, 640, 64]⟩ : Shape).Idx → EReal :=
  fun j => convAt up ce dn w bias msk (j 0) (j 1) (j 2) (j 3)

/-- The last call's output at `(n, co)`. -/
def resAt (feat : (⟨2, ![409600, 64]⟩ : Shape).Idx → EReal) (wd : (⟨2, ![64, 64]⟩ : Shape).Idx → EReal)
    (ext : (⟨2, ![409600, 64]⟩ : Shape).Idx → EReal) (n : Fin 409600) (co : Fin 64) : EReal :=
  max ((∑ ci : Fin 64, feat (ix2 n ci) * wd (ix2 ci co)) + ext (ix2 n co)) 0

/-- The last call's output array. -/
def resArr (feat : (⟨2, ![409600, 64]⟩ : Shape).Idx → EReal) (wd : (⟨2, ![64, 64]⟩ : Shape).Idx → EReal)
    (ext : (⟨2, ![409600, 64]⟩ : Shape).Idx → EReal) : (⟨2, ![409600, 64]⟩ : Shape).Idx → EReal :=
  fun j => resAt feat wd ext (j 0) (j 1)

end Cert.Spec

end
-- ==== Proof.KI.GlueConv.lean ====
/- The 3 × 3 contraction over the three shifted, column-padded copies of a grid is the contraction over the
   zero-padded grid: the copy a row tap reads, at padded column x + kx, holds the grid's cell (y + ky − 1, x + kx − 1)
   when that cell is inside the grid and zero otherwise. -/
import proofs.«412627_j82471962018590_2_alg».proof.Proof.KI.GluePad
import proofs.«412627_j82471962018590_2_alg».proof.Proof.Spec
import proofs.«412627_j82471962018590_2_alg».proof.Proof.KI.ConvArr

noncomputable section

namespace Cert.KernelIdeal.Glue

open Idealize.ShloMosaic Idealize.ShloMosaic.ValueIdx
open Cert.KernelIdeal Cert.KernelIdeal.Gen
open scoped BigOperators

/-! ## The zero-padded read as one conditional -/

/-- The zero-padded grid at tap `(ky, kx)` of cell `(b, y, x)`: the grid's cell `(y + ky − 1, x + kx − 1)` when both
    coordinates are inside `[0, 640)`, zero otherwise. -/
theorem padRead_eq (G : Cert.Spec.Loc → Fin 64 → EReal) (b : Fin 2) (y x : Fin 640) (ky kx : Fin 3) (ci : Fin 64) :
    Cert.Spec.padRead G b y x ky kx ci
      = if h : (1 ≤ y.val + ky.val ∧ y.val + ky.val < 641) ∧ (1 ≤ x.val + kx.val ∧ x.val + kx.val < 641) then
          G (b, (⟨y.val + ky.val - 1, by omega⟩ : Fin 640), (⟨x.val + kx.val - 1, by omega⟩ : Fin 640)) ci
        else 0 := by
  unfold Cert.Spec.padRead Cert.Spec.nbr
  by_cases hy : 1 ≤ y.val + ky.val ∧ y.val + ky.val < 641
  · by_cases hx : 1 ≤ x.val + kx.val ∧ x.val + kx.val < 641
    · rw [dif_pos hy, dif_pos hx, dif_pos ⟨hy, hx⟩]
    · rw [dif_pos hy, dif_neg hx, dif_neg (fun h => hx h.2)]
  · by_cases hx : 1 ≤ x.val + kx.val ∧ x.val + kx.val < 641
    · rw [dif_neg hy, dif_pos hx, dif_neg (fun h => hy h.1)]
    · rw [dif_neg hy, dif_neg hx, dif_neg (fun h => hy h.1)]

/-- The grid read at two cells with equal coordinates. -/
theorem grid_congr (D : S2x640x640x64.Idx → EReal) (b : Fin 2) (y y' x x' : Fin 640) (ci : Fin 64)
    (hy : y.val = y'.val) (hx : x.val = x'.val) : D (ix4 b y x ci) = D (ix4 b y' x' ci) := by
  obtain rfl : y = y' := Fin.ext hy
  obtain rfl : x = x' := Fin.ext hx
  rfl

/-! ## A row tap over the three copies -/

/-- The row tap's copy at padded column `xx = x + kx` is the zero-padded grid's tap `(ky, kx)` at `(b, y, x)`. -/
theorem rowTap_shifted_at (D : S2x640x640x64.Idx → EReal) (b : Fin 2) (y x : Fin 640) (ky kx : Fin 3) (ci : Fin 64)
    (xx : Fin 642) (hxx : xx.val = x.val + kx.val) :
    Cert.Spec.rowTap (upOf D) (ceOf D) (dnOf D) ky (ix4 b y xx ci)
      = Cert.Spec.padRead (fun l ch => D (ix4 l.1 l.2.1 l.2.2 ch)) b y x ky kx ci := by
  rw [padRead_eq]
  have hy : y.val < 640 := y.isLt
  have hx : x.val < 640 := x.isLt
  have hkx : kx.val < 3 := kx.isLt
  have hky : ky.val = 0 ∨ ky.val = 1 ∨ ky.val = 2 := by have := ky.isLt; omega
  rcases hky with h0 | h1 | h2
  · -- the copy shifted down by a row: the grid's row `y − 1`
    have hr : Cert.Spec.rowTap (upOf D) (ceOf D) (dnOf D) ky = upOf D := by
      rw [show ky = 0 from Fin.ext h0]; rfl
    rw [hr, upOf_apply]
    by_cases h : (1 ≤ xx.val ∧ xx.val ≤ 640) ∧ 1 ≤ y.val
    · rw [dif_pos h, dif_pos (by omega)]
      exact grid_congr D b _ _ _ _ ci (by show y.val - 1 = y.val + ky.val - 1; omega)
        (by show xx.val - 1 = x.val + kx.val - 1; omega)
    · rw [dif_neg h, dif_neg (by omega)]
  · -- the grid itself: row `y`
    have hr : Cert.Spec.rowTap (upOf D) (ceOf D) (dnOf D) ky = ceOf D := by
      rw [show ky = 1 from Fin.ext h1]; rfl
    rw [hr, ceOf_apply]
    by_cases h : 1 ≤ xx.val ∧ xx.val ≤ 640
    · rw [dif_pos h, dif_pos (by omega)]
      exact grid_congr D b _ _ _ _ ci (by show y.val = y.val + ky.val - 1; omega)
        (by show xx.val - 1 = x.val + kx.val - 1; omega)
    · rw [dif_neg h, dif_neg (by omega)]
  · -- the copy shifted up by a row: the grid's row `y + 1`
    have hr : Cert.Spec.rowTap (upOf D) (ceOf D) (dnOf D) ky = dnOf D := by
      rw [show ky = 2 from Fin.ext h2]; rfl
    rw [hr, dnOf_apply]
    by_cases h : (1 ≤ xx.val ∧ xx.val ≤ 640) ∧ y.val + 1 < 640
    · rw [dif_pos h, dif_pos (by omega)]
      exact grid_congr D b _ _ _ _ ci (by show y.val + 1 = y.val + ky.val - 1; omega)
        (by show xx.val - 1 = x.val + kx.val - 1; omega)
    · rw [dif_neg h, dif_neg (by omega)]

/-- The row tap over the three copies at padded column x + kx is the zero-padded grid's tap (ky, kx) at (b, y, x). -/
theorem rowTap_shifted (D : S2x640x640x64.Idx → EReal) (b : Fin 2) (y x : Fin 640) (ky kx : Fin 3) (ci : Fin 64) :
    Cert.Spec.rowTap (upOf D) (ceOf D) (dnOf D) ky (ix4 b y (⟨x.val + kx.val, by omega⟩ : Fin 642) ci)
      = Cert.Spec.padRead (fun l ch => D (ix4 l.1 l.2.1 l.2.2 ch)) b y x ky kx ci :=
  rowTap_shifted_at D b y x ky kx ci _ rfl

/-! ## The contraction -/

/-- Equal tap sums give equal masked rectified results. -/
theorem relu_mask_congr (s s' β μ : EReal) (h : s = s') : max (s + β) 0 * μ = max (s' + β) 0 * μ := by rw [h]

/-- The contraction over the three shifted copies is the dense layer over the zero-padded grid. -/
theorem conv_of_shifted (D : S2x640x640x64.Idx → EReal) (w : S3x3x64x64.Idx → EReal) (bias1 : S1x64.Idx → EReal)
    (msk : S2x640x640x1.Idx → EReal) (b : Fin 2) (y x : Fin 640) (co : Fin 64) :
    Cert.Spec.convAt (upOf D) (ceOf D) (dnOf D) w bias1 msk b y x co
      = Cert.Spec.convK (fun l ch => D (ix4 l.1 l.2.1 l.2.2 ch)) (fun l => msk (ix4 l.1 l.2.1 l.2.2 0))
          (fun ky kx ci co => w (ix4 ky kx ci co)) (fun c => bias1 (ix2 0 c)) (b, y, x) co := by
  unfold Cert.Spec.convAt Cert.Spec.convK
  exact relu_mask_congr _ _ _ _ (Finset.sum_congr rfl fun ky _ => Finset.sum_congr rfl fun kx _ =>
    Finset.sum_congr rfl fun ci _ => congrArg (· * w (ix4 ky kx ci co)) (rowTap_shifted D b y x ky kx ci))

end Cert.KernelIdeal.Glue

end
-- ==== Proof.KI.ConvPay.lean ====
/- The value the convolution body stores, at one index of its output block: the masked rectified sum, over the
   three row blocks and the three column offsets, of the contractions of the padded rows with the weight slices,
   plus the bias. At the ideal values. -/
import proofs.«412627_j82471962018590_2_alg».proof.Proof.KI.Region0
import proofs.«412627_j82471962018590_2_alg».proof.Proof.KI.Region1
import proofs.«412627_j82471962018590_2_alg».proof.Proof.KI.ConvArr
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## Whole-buffer rectangles -/

theorem zeros4 : (![0, 0, 0, 0] : Fin 4 → Nat) = fun _ => 0 :=
  funext fun a => match a with | ⟨0, _⟩ => rfl | ⟨1, _⟩ => rfl | ⟨2, _⟩ => rfl | ⟨3, _⟩ => rfl
theorem zeros2 : (![0, 0] : Fin 2 → Nat) = fun _ => 0 :=
  funext fun a => match a with | ⟨0, _⟩ => rfl | ⟨1, _⟩ => rfl

/-! ## The layout operations at an index -/

section Layout
variable {α : Type}

/-- [8,640,64] seen as [1,8,640,64]. -/
theorem cast_1x8x640x64 (v : S8x640x64.Idx → α) (r : Fin 8) (x : Fin 640) (co : Fin 64) :
    shapeCast S1x8x640x64 v shapeCasts_S8x640x64_S1x8x640x64 (ix4 0 r x co) = v (ix3 r x co) :=
  shapeCast_apply v shapeCasts_S8x640x64_S1x8x640x64 _ _ (by
    rw [Shape.rowMajor_val_three, Shape.rowMajor_val_four]
    show (r.val * 640 + x.val) * 64 + co.val = (((0 * 8 + r.val) * 640 + x.val) * 64 + co.val); omega)

/-- [5120,64] seen as [8,640,64]: row `r * 640 + x`. -/
theorem cast_8x640x64 (v : S5120x64.Idx → α) (r : Fin 8) (x : Fin 640) (co : Fin 64) :
    shapeCast S8x640x64 v shapeCasts_S5120x64_S8x640x64 (ix3 r x co)
      = v (ix2 (⟨r.val * 640 + x.val, by omega⟩ : Fin 5120) co) :=
  shapeCast_apply v shapeCasts_S5120x64_S8x640x64 _ _ (by
    rw [Shape.rowMajor_val_two, Shape.rowMajor_val_three]
    show (r.val * 640 + x.val) * 64 + co.val = (r.val * 640 + x.val) * 64 + co.val; rfl)

/-- [8,640,64] seen as [5120,64]. -/
theorem cast_5120x64 (v : S8x640x64.Idx → α) (r : Fin 8) (x : Fin 640) (ci : Fin 64) (h : r.val * 640 + x.val < 5120) :
    shapeCast S5120x64 v shapeCasts_S8x640x64_S5120x64 (ix2 (⟨r.val * 640 + x.val, h⟩ : Fin 5120) ci) = v (ix3 r x ci) :=
  shapeCast_apply v shapeCasts_S8x640x64_S5120x64 _ _ (by
    rw [Shape.rowMajor_val_two, Shape.rowMajor_val_three]
    show (r.val * 640 + x.val) * 64 + ci.val = (r.val * 640 + x.val) * 64 + ci.val; rfl)

/-- [1,8,642,64] seen as [8,642,64]. -/
theorem cast_8x642x64 (v : S1x8x642x64.Idx → α) (r : Fin 8) (x : Fin 642) (ci : Fin 64) :
    shapeCast S8x642x64 v shapeCasts_S1x8x642x64_S8x642x64 (ix3 r x ci) = v (ix4 0 r x ci) :=
  shapeCast_apply v shapeCasts_S1x8x642x64_S8x642x64 _ _ (by
    rw [Shape.rowMajor_val_three, Shape.rowMajor_val_four]
    show (((0 * 8 + r.val) * 642 + x.val) * 64 + ci.val) = (r.val * 642 + x.val) * 64 + ci.val; omega)

/-- The 640 columns from column `kx` of a padded row block. -/
theorem slice_cols (v : S8x642x64.Idx → α) (kx : ℕ) (hs : S8x642x64.Slices ![0, kx, 0] S8x640x64)
    (r : Fin 8) (x : Fin 640) (ci : Fin 64) (h : x.val + kx < 642) :
    extractStridedSlice S8x640x64 ![0, kx, 0] v hs (ix3 r x ci) = v (ix3 r (⟨x.val + kx, h⟩ : Fin 642) ci) :=
  extractStridedSlice_apply _ v hs _ _ (fun a => match a with
    | ⟨0, _⟩ => by show r.val = 0 + r.val; omega
    | ⟨1, _⟩ => by show x.val + kx = kx + x.val; omega
    | ⟨2, _⟩ => by show ci.val = 0 + ci.val; omega)

/-- The weight slice of tap `(ky, kx)`, as a [64,64] matrix. -/
theorem slice_tap (w : S3x3x64x64.Idx → α) (ky kx : ℕ) (hw : S3x3x64x64.Slices ![ky, kx, 0, 0] S1x1x64x64)
    (ci co : Fin 64) (hky : ky < 3) (hkx : kx < 3) :
    shapeCast S64x64 (extractStridedSlice S1x1x64x64 ![ky, kx, 0, 0] w hw) shapeCasts_S1x1x64x64_S64x64 (ix2 ci co)
      = w (ix4 (⟨ky, hky⟩ : Fin 3) (⟨kx, hkx⟩ : Fin 3) ci co) := by
  refine (shapeCast_apply _ shapeCasts_S1x1x64x64_S64x64 _ (ix4 0 0 ci co) (by
    rw [Shape.rowMajor_val_four, Shape.rowMajor_val_two]
    show ((0 * 1 + 0) * 64 + ci.val) * 64 + co.val = ci.val * 64 + co.val; omega)).trans ?_
  exact extractStridedSlice_apply _ w hw _ _ (fun a => match a with
    | ⟨0, _⟩ => by show ky = ky + 0; omega
    | ⟨1, _⟩ => by show kx = kx + 0; omega
    | ⟨2, _⟩ => by show ci.val = 0 + ci.val; omega
    | ⟨3, _⟩ => by show co.val = 0 + co.val; omega)

/-- The bias row over all 5120 rows. -/
theorem bias_rows (v : S1x64.Idx → α) (p : Fin 5120) (co : Fin 64) :
    broadcastTo S5120x64 (shapeCast S1x64 v shapeCasts_S1x64_S1x64) broadcasts_S1x64_S5120x64 (ix2 p co) = v (ix2 0 co) := by
  rw [shapeCast_self]
  exact broadcastTo_apply v broadcasts_S1x64_S5120x64 _ _ (fun a => match a with
    | ⟨0, _⟩ => rfl
    | ⟨1, _⟩ => rfl)

/-- The mask column over all 64 channels. -/
theorem mask_cols (v : S1x8x640x1.Idx → α) (r : Fin 8) (x : Fin 640) (co : Fin 64) (h : r.val * 640 + x.val < 5120) :
    broadcastTo S5120x64 (shapeCast S5120x1 (shapeCast S8x640x1 v shapeCasts_S1x8x640x1_S8x640x1) shapeCasts_S8x640x1_S5120x1)
        broadcasts_S5120x1_S5120x64 (ix2 (⟨r.val * 640 + x.val, h⟩ : Fin 5120) co) = v (ix4 0 r x 0) := by
  refine (broadcastTo_apply _ broadcasts_S5120x1_S5120x64 _ (ix2 (⟨r.val * 640 + x.val, h⟩ : Fin 5120) 0) (fun a => match a with
    | ⟨0, _⟩ => rfl
    | ⟨1, _⟩ => rfl)).trans ?_
  refine (shapeCast_apply _ shapeCasts_S8x640x1_S5120x1 _ (ix3 r x 0) (by
    rw [Shape.rowMajor_val_three, Shape.rowMajor_val_two]
    show (r.val * 640 + x.val) * 1 + 0 = (r.val * 640 + x.val) * 1 + 0; rfl)).trans ?_
  exact shapeCast_apply v shapeCasts_S1x8x640x1_S8x640x1 _ (ix4 0 r x 0) (by
    rw [Shape.rowMajor_val_four, Shape.rowMajor_val_three]
    show (((0 * 8 + r.val) * 640 + x.val) * 1 + 0) = (r.val * 640 + x.val) * 1 + 0; omega)

end Layout

/-! ## One matrix product into a zero accumulator -/

theorem lhs_rows_0 (i : S5120x64.Idx) (q : dot_S5120x64_S64x64_S5120x64_1_0_0_1_n_n.contr.Idx) :
    (dot_S5120x64_S64x64_S5120x64_1_0_0_1_n_n.lhsIdx i q 0).val = (i 0).val := by
  unfold DotDims.lhsIdx
  rw [dif_neg (show ¬(0 : Fin S5120x64.rank) ∈ dot_S5120x64_S64x64_S5120x64_1_0_0_1_n_n.lhsBatch by decide), dif_pos (show (0 : Fin S5120x64.rank) ∈ dot_S5120x64_S64x64_S5120x64_1_0_0_1_n_n.lhsNonContracting by decide)]
  rfl
theorem lhs_rows_1 (i : S5120x64.Idx) (q : dot_S5120x64_S64x64_S5120x64_1_0_0_1_n_n.contr.Idx) :
    (dot_S5120x64_S64x64_S5120x64_1_0_0_1_n_n.lhsIdx i q 1).val = (q ⟨0, by decide⟩).val :=
  dot_S5120x64_S64x64_S5120x64_1_0_0_1_n_n.lhsIdx_val_of_single rfl i q
theorem rhs_rows_0 (i : S5120x64.Idx) (q : dot_S5120x64_S64x64_S5120x64_1_0_0_1_n_n.contr.Idx) :
    (dot_S5120x64_S64x64_S5120x64_1_0_0_1_n_n.rhsIdx i q 0).val = (q ⟨0, by decide⟩).val :=
  dot_S5120x64_S64x64_S5120x64_1_0_0_1_n_n.rhsIdx_val_of_single rfl i q
theorem rhs_rows_1 (i : S5120x64.Idx) (q : dot_S5120x64_S64x64_S5120x64_1_0_0_1_n_n.contr.Idx) :
    (dot_S5120x64_S64x64_S5120x64_1_0_0_1_n_n.rhsIdx i q 1).val = (i 1).val := by
  unfold DotDims.rhsIdx
  rw [dif_neg (show ¬(1 : Fin S64x64.rank) ∈ dot_S5120x64_S64x64_S5120x64_1_0_0_1_n_n.rhsBatch by decide), dif_pos (show (1 : Fin S64x64.rank) ∈ dot_S5120x64_S64x64_S5120x64_1_0_0_1_n_n.rhsNonContracting by decide)]
  rfl

/-- A [5120,64] by [64,64] product into the zero accumulator, at row `p` and column `co`: the sum over the
    contracted channel. -/
theorem rows_matmul_apply (L : FVec Ideal S5120x64 .bf16) (R : FVec Ideal S64x64 .bf16) (p : Fin 5120) (co : Fin 64) :
    matmul dot_S5120x64_S64x64_S5120x64_1_0_0_1_n_n none L R (constant (F := Ideal) S5120x64 .f32 0x00000000#32) (ix2 p co)
      = ∑ ci : Fin 64, L (ix2 p ci) * R (ix2 ci co) := by
  simp only [matmul]
  rw [Ideal.matmul_constant_zero_apply, ← Equiv.sum_comp (ValueIdx.contrEquiv1 dot_S5120x64_S64x64_S5120x64_1_0_0_1_n_n 64 rfl rfl).symm]
  refine Finset.sum_congr rfl fun k _ => ?_
  have hk := ValueIdx.contrEquiv1_symm_val dot_S5120x64_S64x64_S5120x64_1_0_0_1_n_n 64 rfl rfl k
  have el : dot_S5120x64_S64x64_S5120x64_1_0_0_1_n_n.lhsIdx (ix2 p co) ((ValueIdx.contrEquiv1 dot_S5120x64_S64x64_S5120x64_1_0_0_1_n_n 64 rfl rfl).symm k) = ix2 p k := funext fun a => Fin.ext (by
    match a with
    | ⟨0, _⟩ => exact lhs_rows_0 _ _
    | ⟨1, _⟩ => exact (lhs_rows_1 _ _).trans hk)
  have er : dot_S5120x64_S64x64_S5120x64_1_0_0_1_n_n.rhsIdx (ix2 p co) ((ValueIdx.contrEquiv1 dot_S5120x64_S64x64_S5120x64_1_0_0_1_n_n 64 rfl rfl).symm k) = ix2 k co := funext fun a => Fin.ext (by
    match a with
    | ⟨0, _⟩ => exact (rhs_rows_0 _ _).trans hk
    | ⟨1, _⟩ => exact rhs_rows_1 _ _)
  rw [el, er]

/-! ## One tap -/

/-- A padded row block cut at column offset `kx`, its 5120 rows times the weight slice of tap `(ky, kx)`, at row
    `r * 640 + x` and column `co`: the contraction over the input channel of the block at column `x + kx` with
    the weights of the tap. -/
theorem tap_apply (xb : Vec Ideal S1x8x642x64 .bf16) (w : Vec Ideal S3x3x64x64 .f32) (ky kx : ℕ) (kyF kxF : Fin 3)
    (hky : kyF.val = ky) (hkx : kxF.val = kx)
    (hs : S8x642x64.Slices ![0, kx, 0] S8x640x64) (hw : S3x3x64x64.Slices ![ky, kx, 0, 0] S1x1x64x64)
    (r : Fin 8) (x : Fin 640) (co : Fin 64) (h : r.val * 640 + x.val < 5120) :
    matmul dot_S5120x64_S64x64_S5120x64_1_0_0_1_n_n none
        (shapeCast S5120x64 (extractStridedSlice S8x640x64 ![0, kx, 0] (shapeCast S8x642x64 xb shapeCasts_S1x8x642x64_S8x642x64) hs) shapeCasts_S8x640x64_S5120x64 : FVec Ideal S5120x64 .bf16)
        (truncf .bf16 (shapeCast S64x64 (extractStridedSlice S1x1x64x64 ![ky, kx, 0, 0] w hw) shapeCasts_S1x1x64x64_S64x64) bitsLt_bf16_f32)
        (constant (F := Ideal) S5120x64 .f32 0x00000000#32) (ix2 (⟨r.val * 640 + x.val, h⟩ : Fin 5120) co)
      = ∑ ci : Fin 64, xb (ix4 0 r (⟨x.val + kxF.val, by omega⟩ : Fin 642) ci) * w (ix4 kyF kxF ci co) := by
  subst hky hkx
  rw [rows_matmul_apply]
  refine Finset.sum_congr rfl fun ci _ => ?_
  rw [cast_5120x64, slice_cols _ _ hs r x ci (by omega), cast_8x642x64, truncf_apply, slice_tap w _ _ hw ci co kyF.isLt kxF.isLt]

/-- Call 0's output block at row `r`, column `x`, channel `co`, from the six input blocks. -/
theorem out0_6_apply (x0 x1 x2 : Vec Ideal S1x8x642x64 .bf16) (x3 : Vec Ideal S3x3x64x64 .f32) (x4 : Vec Ideal S1x64 .f32)
    (x5 : Vec Ideal S1x8x640x1 .f32) (r : Fin 8) (x : Fin 640) (co : Fin 64) :
    out0_6 (F := Ideal) x0 x1 x2 x3 x4 x5 (ix4 0 r x co)
      = max ((∑ ky : Fin 3, ∑ kx : Fin 3, ∑ ci : Fin 64,
          (match ky with | 0 => x0 | 1 => x1 | 2 => x2) (ix4 0 r (⟨x.val + kx.val, by omega⟩ : Fin 642) ci) * x3 (ix4 ky kx ci co))
          + x4 (ix2 0 co)) 0 * x5 (ix4 0 r x 0) := by
  have hp : r.val * 640 + x.val < 5120 := by omega
  have t00 := tap_apply x0 x3 0 0 0 0 rfl rfl slices_S8x642x64_o0_0_0_S8x640x64 slices_S3x3x64x64_o0_0_0_0_S1x1x64x64 r x co hp
  have t01 := tap_apply x0 x3 0 1 0 1 rfl rfl slices_S8x642x64_o0_1_0_S8x640x64 slices_S3x3x64x64_o0_1_0_0_S1x1x64x64 r x co hp
  have t02 := tap_apply x0 x3 0 2 0 2 rfl rfl slices_S8x642x64_o0_2_0_S8x640x64 slices_S3x3x64x64_o0_2_0_0_S1x1x64x64 r x co hp
  have t10 := tap_apply x1 x3 1 0 1 0 rfl rfl slices_S8x642x64_o0_0_0_S8x640x64 slices_S3x3x64x64_o1_0_0_0_S1x1x64x64 r x co hp
  have t11 := tap_apply x1 x3 1 1 1 1 rfl rfl slices_S8x642x64_o0_1_0_S8x640x64 slices_S3x3x64x64_o1_1_0_0_S1x1x64x64 r x co hp
  have t12 := tap_apply x1 x3 1 2 1 2 rfl rfl slices_S8x642x64_o0_2_0_S8x640x64 slices_S3x3x64x64_o1_2_0_0_S1x1x64x64 r x co hp
  have t20 := tap_apply x2 x3 2 0 2 0 rfl rfl slices_S8x642x64_o0_0_0_S8x640x64 slices_S3x3x64x64_o2_0_0_0_S1x1x64x64 r x co hp
  have t21 := tap_apply x2 x3 2 1 2 1 rfl rfl slices_S8x642x64_o0_1_0_S8x640x64 slices_S3x3x64x64_o2_1_0_0_S1x1x64x64 r x co hp
  have t22 := tap_apply x2 x3 2 2 2 2 rfl rfl slices_S8x642x64_o0_2_0_S8x640x64 slices_S3x3x64x64_o2_2_0_0_S1x1x64x64 r x co hp
  have hz : Scalar.ofBits (F := Ideal) .f32 0x00000000#32 = (0 : EReal) := Ideal.ofBits_zero_f32
  unfold out0_6
  rw [View.canon_unit_zero zeros4]
  simp only [View.ld_unit_zero (S := S1x8x642x64) zeros4, View.ld_unit_zero (S := S3x3x64x64) zeros4, View.ld_unit_zero (S := S1x64) zeros2, View.ld_unit_zero (S := S1x8x640x1) zeros4]
  unfold k0_pay1 k0_pay8 k0_pay5 k0_pay6 k0_pay7 k0_pay2 k0_pay3 k0_pay4
  simp only [cast_1x8x640x64, truncf_apply, cast_8x640x64, mulf_apply, maximumf_apply, addf_apply, broadcast_apply, bias_rows, mask_cols,
    t00, t01, t02, t10, t11, t12, t20, t21, t22, hz]
  simp only [Fin.sum_univ_three, zero_add, add_assoc]

/-- Call 1's output block at row `r`, column `x`, channel `co`, from the six input blocks. -/
theorem out1_6_apply (x0 x1 x2 : Vec Ideal S1x8x642x64 .bf16) (x3 : Vec Ideal S3x3x64x64 .f32) (x4 : Vec Ideal S1x64 .f32)
    (x5 : Vec Ideal S1x8x640x1 .f32) (r : Fin 8) (x : Fin 640) (co : Fin 64) :
    out1_6 (F := Ideal) x0 x1 x2 x3 x4 x5 (ix4 0 r x co)
      = max ((∑ ky : Fin 3, ∑ kx : Fin 3, ∑ ci : Fin 64,
          (match ky with | 0 => x0 | 1 => x1 | 2 => x2) (ix4 0 r (⟨x.val + kx.val, by omega⟩ : Fin 642) ci) * x3 (ix4 ky kx ci co))
          + x4 (ix2 0 co)) 0 * x5 (ix4 0 r x 0) := by
  have hp : r.val * 640 + x.val < 5120 := by omega
  have t00 := tap_apply x0 x3 0 0 0 0 rfl rfl slices_S8x642x64_o0_0_0_S8x640x64 slices_S3x3x64x64_o0_0_0_0_S1x1x64x64 r x co hp
  have t01 := tap_apply x0 x3 0 1 0 1 rfl rfl slices_S8x642x64_o0_1_0_S8x640x64 slices_S3x3x64x64_o0_1_0_0_S1x1x64x64 r x co hp
  have t02 := tap_apply x0 x3 0 2 0 2 rfl rfl slices_S8x642x64_o0_2_0_S8x640x64 slices_S3x3x64x64_o0_2_0_0_S1x1x64x64 r x co hp
  have t10 := tap_apply x1 x3 1 0 1 0 rfl rfl slices_S8x642x64_o0_0_0_S8x640x64 slices_S3x3x64x64_o1_0_0_0_S1x1x64x64 r x co hp
  have t11 := tap_apply x1 x3 1 1 1 1 rfl rfl slices_S8x642x64_o0_1_0_S8x640x64 slices_S3x3x64x64_o1_1_0_0_S1x1x64x64 r x co hp
  have t12 := tap_apply x1 x3 1 2 1 2 rfl rfl slices_S8x642x64_o0_2_0_S8x640x64 slices_S3x3x64x64_o1_2_0_0_S1x1x64x64 r x co hp
  have t20 := tap_apply x2 x3 2 0 2 0 rfl rfl slices_S8x642x64_o0_0_0_S8x640x64 slices_S3x3x64x64_o2_0_0_0_S1x1x64x64 r x co hp
  have t21 := tap_apply x2 x3 2 1 2 1 rfl rfl slices_S8x642x64_o0_1_0_S8x640x64 slices_S3x3x64x64_o2_1_0_0_S1x1x64x64 r x co hp
  have t22 := tap_apply x2 x3 2 2 2 2 rfl rfl slices_S8x642x64_o0_2_0_S8x640x64 slices_S3x3x64x64_o2_2_0_0_S1x1x64x64 r x co hp
  have hz : Scalar.ofBits (F := Ideal) .f32 0x00000000#32 = (0 : EReal) := Ideal.ofBits_zero_f32
  unfold out1_6
  rw [View.canon_unit_zero zeros4]
  simp only [View.ld_unit_zero (S := S1x8x642x64) zeros4, View.ld_unit_zero (S := S3x3x64x64) zeros4, View.ld_unit_zero (S := S1x64) zeros2, View.ld_unit_zero (S := S1x8x640x1) zeros4]
  unfold k1_pay1 k1_pay8 k1_pay5 k1_pay6 k1_pay7 k1_pay2 k1_pay3 k1_pay4
  simp only [cast_1x8x640x64, truncf_apply, cast_8x640x64, mulf_apply, maximumf_apply, addf_apply, broadcast_apply, bias_rows, mask_cols,
    t00, t01, t02, t10, t11, t12, t20, t21, t22, hz]
  simp only [Fin.sum_univ_three, zero_add, add_assoc]

end Cert.KernelIdeal.Hand

end
-- ==== Proof.KI.RegionVal0.lean ====
import proofs.«412627_j82471962018590_2_alg».proof.Proof.KI.Region0
import proofs.«412627_j82471962018590_2_alg».proof.Proof.KI.ConvPay
import proofs.«412627_j82471962018590_2_alg».proof.Proof.KI.ConvArr
import Idealize.ShloMosaic.Lib.Pipeline.Value
import Idealize.ShloMosaic.Lib.ValueIdx
import Idealize.ShloMosaic.PureOps.Ideal.Laws

/-! # What the first convolution call leaves in its output array

At the ideal values. The body's stored block at `(0, r, x, co)` is the masked rectified nine-tap sum of the three row
blocks (the copy shifted down by a row, the grid, the copy shifted up by a row), each tap a product with the weight's
slice; the row blocks and the mask's block at point `t` are rows `8 (t % 80) … 8 (t % 80) + 7` of batch `t / 80`,
the weight and the bias whole; the output's blocks tile the array, so the array ends holding `convArr` of the six
arrays the call reads. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

/-! ## A block of the body's result, index by index -/

/-- Equal tap sums give equal masked rectified results. -/
theorem conv_close0 (s s' β μ : EReal) (h : s = s') : max (s + β) 0 * μ = max (s' + β) 0 * μ := by rw [h]

/-- The body's stored block at `(0, r, x, co)` is `convAt` at `(b, y, x, co)` when row `r` of each row block is row `y` of
    batch `b` of its array, the mask's likewise, and the weight's and the bias's blocks are the arrays. -/
theorem conv_block_apply0 (up ce dn : S2x640x642x64.Idx → EReal) (w : S3x3x64x64.Idx → EReal) (bias : S1x64.Idx → EReal)
    (msk : S2x640x640x1.Idx → EReal)
    (x0 x1 x2 : Vec Ideal S1x8x642x64 .bf16) (x3 : Vec Ideal S3x3x64x64 .f32) (x4 : Vec Ideal S1x64 .f32)
    (x5 : Vec Ideal S1x8x640x1 .f32) (b : Fin 2) (y : Fin 640) (r : Fin 8) (x : Fin 640) (co : Fin 64)
    (h0 : ∀ (xx : Fin 642) (ci : Fin 64), x0 (ix4 0 r xx ci) = up (ix4 b y xx ci))
    (h1 : ∀ (xx : Fin 642) (ci : Fin 64), x1 (ix4 0 r xx ci) = ce (ix4 b y xx ci))
    (h2 : ∀ (xx : Fin 642) (ci : Fin 64), x2 (ix4 0 r xx ci) = dn (ix4 b y xx ci))
    (h3 : ∀ k : S3x3x64x64.Idx, x3 k = w k) (h4 : ∀ k : S1x64.Idx, x4 k = bias k)
    (h5 : x5 (ix4 0 r x 0) = msk (ix4 b y x 0)) :
    out0_6 (F := Ideal) x0 x1 x2 x3 x4 x5 (ix4 0 r x co) = Cert.Spec.convAt up ce dn w bias msk b y x co := by
  rw [out0_6_apply]
  unfold Cert.Spec.convAt
  rw [h5, h4]
  refine conv_close0 _ _ _ _ (Finset.sum_congr rfl fun ky _ => Finset.sum_congr rfl fun kx _ =>
    Finset.sum_congr rfl fun ci _ => ?_)
  rw [h3]
  match ky with
  | 0 => show x0 _ * _ = up _ * _; rw [h0]
  | 1 => show x1 _ * _ = ce _ * _; rw [h1]
  | 2 => show x2 _ * _ = dn _ * _; rw [h2]

/-! ## From the blocks to the array -/

/-- The printed index maps over the grid: the row blocks', the mask's and the output's block is `(t / 80, t % 80, 0, 0)`;
    the weight's and the bias's is the origin. -/
theorem idx_conv0 : ∀ t : Fin cfg0.N,
    (win0_0.index t (0 : Fin 4) = t.val / 80 ∧ win0_0.index t (1 : Fin 4) = t.val % 80 ∧ win0_0.index t (2 : Fin 4) = 0 ∧ win0_0.index t (3 : Fin 4) = 0)
    ∧ (win0_1.index t (0 : Fin 4) = t.val / 80 ∧ win0_1.index t (1 : Fin 4) = t.val % 80 ∧ win0_1.index t (2 : Fin 4) = 0 ∧ win0_1.index t (3 : Fin 4) = 0)
    ∧ (win0_2.index t (0 : Fin 4) = t.val / 80 ∧ win0_2.index t (1 : Fin 4) = t.val % 80 ∧ win0_2.index t (2 : Fin 4) = 0 ∧ win0_2.index t (3 : Fin 4) = 0)
    ∧ (win0_3.index t (0 : Fin 4) = 0 ∧ win0_3.index t (1 : Fin 4) = 0 ∧ win0_3.index t (2 : Fin 4) = 0 ∧ win0_3.index t (3 : Fin 4) = 0)
    ∧ (win0_4.index t (0 : Fin 2) = 0 ∧ win0_4.index t (1 : Fin 2) = 0)
    ∧ (win0_5.index t (0 : Fin 4) = t.val / 80 ∧ win0_5.index t (1 : Fin 4) = t.val % 80 ∧ win0_5.index t (2 : Fin 4) = 0 ∧ win0_5.index t (3 : Fin 4) = 0)
    ∧ (win0_6.index t (0 : Fin 4) = t.val / 80 ∧ win0_6.index t (1 : Fin 4) = t.val % 80 ∧ win0_6.index t (2 : Fin 4) = 0 ∧ win0_6.index t (3 : Fin 4) = 0) :=
  (by decide +kernel : ∀ t : Fin grid0.N, _)

variable (V : (c : Dev nD) → (b : Ref sig .tc) → Buf (Elt Ideal) ((c : Thread nD τ).loc b))

/-- What point `t` writes back is block `t` of `convArr` of the arrays as the call finds them. -/
theorem flushed0_6_eq (c : Dev nD) (t : Fin cfg0.N) :
    (dat0 (F := Ideal) V c).flushed 6 t
      = ((cfg0.win 6).blk t).view.read (Elt Ideal)
          (Cert.Spec.convArr (V c main_v62) (V c main_v57) (V c main_v67) (V c main_arg2) (V c main_v68) (V c main_v56)) := by
  show (cfg0.win 6).cut (grid0.coords t) ((dat0 (F := Ideal) V c).after 6 t) = _
  rw [after0_6]
  obtain ⟨⟨a00, a01, a02, a03⟩, ⟨a10, a11, a12, a13⟩, ⟨a20, a21, a22, a23⟩, ⟨a30, a31, a32, a33⟩, ⟨a40, a41⟩,
    ⟨a50, a51, a52, a53⟩, ⟨a60, a61, a62, a63⟩⟩ := idx_conv0 t
  have ht : t.val < 160 := t.isLt
  refine funext fun (j : S1x8x640x64.Idx) => ?_
  obtain ⟨z, r, x, co, rfl⟩ : ∃ (z : Fin 1) (r : Fin 8) (x : Fin 640) (co : Fin 64), j = ix4 z r x co :=
    ⟨j 0, j 1, j 2, j 3, eq_ix4 j⟩
  obtain rfl : z = 0 := Subsingleton.elim _ _
  have hr : r.val < 8 := r.isLt
  have hx : x.val < 640 := x.isLt
  have hco : co.val < 64 := co.isLt
  -- the place in the array of entry `(0, r, x, co)` of block `t`
  have hemb : ((cfg0.win 6).blk t).view.emb (ix4 0 r x co)
      = ix4 (⟨t.val / 80, by omega⟩ : Fin 2) (⟨t.val % 80 * 8 + r.val, by omega⟩ : Fin 640) x co :=
    funext fun a => Fin.ext (by
      match a with
      | ⟨0, _⟩ => show win0_6.index t (0 : Fin 4) * 1 + 1 * 0 = t.val / 80; omega
      | ⟨1, _⟩ => show win0_6.index t (1 : Fin 4) * 8 + 1 * r.val = t.val % 80 * 8 + r.val; omega
      | ⟨2, _⟩ => show win0_6.index t (2 : Fin 4) * 640 + 1 * x.val = x.val; omega
      | ⟨3, _⟩ => show win0_6.index t (3 : Fin 4) * 64 + 1 * co.val = co.val; omega)
  show out0_6 (F := Ideal) (iblk0 V c 0 t) (iblk0 V c 1 t) (iblk0 V c 2 t) (iblk0 V c 3 t) (iblk0 V c 4 t) (iblk0 V c 5 t) (ix4 0 r x co)
    = Cert.Spec.convArr (V c main_v62) (V c main_v57) (V c main_v67) (V c main_arg2) (V c main_v68) (V c main_v56)
        (((cfg0.win 6).blk t).view.emb (ix4 0 r x co))
  rw [hemb]
  show _ = Cert.Spec.convAt (V c main_v62) (V c main_v57) (V c main_v67) (V c main_arg2) (V c main_v68) (V c main_v56)
    (⟨t.val / 80, by omega⟩ : Fin 2) (⟨t.val % 80 * 8 + r.val, by omega⟩ : Fin 640) x co
  refine conv_block_apply0 _ _ _ _ _ _ _ _ _ _ _ _ _ _ r x co (fun xx ci => ?_) (fun xx ci => ?_) (fun xx ci => ?_)
    (fun k => ?_) (fun k => ?_) ?_
  · show V c main_v62 (((cfg0.win 0).blk t).view.emb (ix4 0 r xx ci)) = _
    refine congrArg _ (funext fun a => Fin.ext ?_)
    match a with
    | ⟨0, _⟩ => show win0_0.index t (0 : Fin 4) * 1 + 1 * 0 = t.val / 80; omega
    | ⟨1, _⟩ => show win0_0.index t (1 : Fin 4) * 8 + 1 * r.val = t.val % 80 * 8 + r.val; omega
    | ⟨2, _⟩ => show win0_0.index t (2 : Fin 4) * 642 + 1 * xx.val = xx.val; omega
    | ⟨3, _⟩ => show win0_0.index t (3 : Fin 4) * 64 + 1 * ci.val = ci.val; omega
  · show V c main_v57 (((cfg0.win 1).blk t).view.emb (ix4 0 r xx ci)) = _
    refine congrArg _ (funext fun a => Fin.ext ?_)
    match a with
    | ⟨0, _⟩ => show win0_1.index t (0 : Fin 4) * 1 + 1 * 0 = t.val / 80; omega
    | ⟨1, _⟩ => show win0_1.index t (1 : Fin 4) * 8 + 1 * r.val = t.val % 80 * 8 + r.val; omega
    | ⟨2, _⟩ => show win0_1.index t (2 : Fin 4) * 642 + 1 * xx.val = xx.val; omega
    | ⟨3, _⟩ => show win0_1.index t (3 : Fin 4) * 64 + 1 * ci.val = ci.val; omega
  · show V c main_v67 (((cfg0.win 2).blk t).view.emb (ix4 0 r xx ci)) = _
    refine congrArg _ (funext fun a => Fin.ext ?_)
    match a with
    | ⟨0, _⟩ => show win0_2.index t (0 : Fin 4) * 1 + 1 * 0 = t.val / 80; omega
    | ⟨1, _⟩ => show win0_2.index t (1 : Fin 4) * 8 + 1 * r.val = t.val % 80 * 8 + r.val; omega
    | ⟨2, _⟩ => show win0_2.index t (2 : Fin 4) * 642 + 1 * xx.val = xx.val; omega
    | ⟨3, _⟩ => show win0_2.index t (3 : Fin 4) * 64 + 1 * ci.val = ci.val; omega
  · show V c main_arg2 (((cfg0.win 3).blk t).view.emb k) = V c main_arg2 k
    refine congrArg _ (funext fun a => Fin.ext ?_)
    match a with
    | ⟨0, _⟩ => show win0_3.index t (0 : Fin 4) * 3 + 1 * (k 0).val = (k 0).val; omega
    | ⟨1, _⟩ => show win0_3.index t (1 : Fin 4) * 3 + 1 * (k 1).val = (k 1).val; omega
    | ⟨2, _⟩ => show win0_3.index t (2 : Fin 4) * 64 + 1 * (k 2).val = (k 2).val; omega
    | ⟨3, _⟩ => show win0_3.index t (3 : Fin 4) * 64 + 1 * (k 3).val = (k 3).val; omega
  · show V c main_v68 (((cfg0.win 4).blk t).view.emb k) = V c main_v68 k
    refine congrArg _ (funext fun a => Fin.ext ?_)
    match a with
    | ⟨0, _⟩ => show win0_4.index t (0 : Fin 2) * 1 + 1 * (k 0).val = (k 0).val; omega
    | ⟨1, _⟩ => show win0_4.index t (1 : Fin 2) * 64 + 1 * (k 1).val = (k 1).val; omega
  · show V c main_v56 (((cfg0.win 5).blk t).view.emb (ix4 0 r x 0)) = _
    refine congrArg _ (funext fun a => Fin.ext ?_)
    match a with
    | ⟨0, _⟩ => show win0_5.index t (0 : Fin 4) * 1 + 1 * 0 = t.val / 80; omega
    | ⟨1, _⟩ => show win0_5.index t (1 : Fin 4) * 8 + 1 * r.val = t.val % 80 * 8 + r.val; omega
    | ⟨2, _⟩ => show win0_5.index t (2 : Fin 4) * 640 + 1 * x.val = x.val; omega
    | ⟨3, _⟩ => show win0_5.index t (3 : Fin 4) * 1 + 1 * 0 = 0; omega

/-- An index of the array is in point `t`'s block iff each coordinate is in the block's range on its axis. -/
theorem mem_blk0_6 (t : Fin cfg0.N) (i : S2x640x640x64.Idx) :
    i ∈ ((cfg0.win 6).blk t).view.set ↔ ∀ a : Fin 4, win0_6.index t a * S1x8x640x64.size a ≤ (i a).val ∧ (i a).val < win0_6.index t a * S1x8x640x64.size a + S1x8x640x64.size a := by
  show i ∈ ((View.whole main_v69).slice (win0_6.rect t)).set ↔ _
  rw [View.set_slice_whole, Rect.mem_set_unit]
  exact Iff.rfl

/-- Every index of the array is in some point's block: row `y` of batch `b` in point `80 b + y / 8`'s. -/
theorem cover0_6_arr (i : S2x640x640x64.Idx) :
    ∃ t : Fin cfg0.N, (cfg0.win 6).flush t = true ∧ i ∈ ((cfg0.win 6).blk t).view.set := by
  have hi0 : (i 0).val < 2 := (i 0).isLt
  have hi1 : (i 1).val < 640 := (i 1).isLt
  have hi2 : (i 2).val < 640 := (i 2).isLt
  have hi3 : (i 3).val < 64 := (i 3).isLt
  let t : Fin cfg0.N := ⟨(i 0).val * 80 + (i 1).val / 8, by show (i 0).val * 80 + (i 1).val / 8 < 160; omega⟩
  obtain ⟨-, -, -, -, -, -, ⟨a60, a61, a62, a63⟩⟩ := idx_conv0 t
  have htv : t.val = (i 0).val * 80 + (i 1).val / 8 := rfl
  refine ⟨t, flush0_6 t, ?_⟩
  rw [mem_blk0_6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 8 ≤ (i 1).val ∧ (i 1).val < win0_6.index t (1 : Fin 4) * 8 + 8; omega
  | ⟨2, _⟩ => show win0_6.index t (2 : Fin 4) * 640 ≤ (i 2).val ∧ (i 2).val < win0_6.index t (2 : Fin 4) * 640 + 640; omega
  | ⟨3, _⟩ => show win0_6.index t (3 : Fin 4) * 64 ≤ (i 3).val ∧ (i 3).val < win0_6.index t (3 : Fin 4) * 64 + 64; omega

/-- The call's output array after the call. -/
theorem region0_value (c : Dev nD) :
    (dat0 (F := Ideal) V c).arrAt 6 cfg0.N
      = Cert.Spec.convArr (V c main_v62) (V c main_v57) (V c main_v67) (V c main_arg2) (V c main_v68) (V c main_v56) :=
  (dat0 (F := Ideal) V c).arrAt_eq_of_cover 6 _ (fun t _ => flushed0_6_eq V c t) cover0_6_arr

end Cert.KernelIdeal.Hand

end
-- ==== Proof.KI.RegionVal1.lean ====
import proofs.«412627_j82471962018590_2_alg».proof.Proof.KI.Region1
import proofs.«412627_j82471962018590_2_alg».proof.Proof.KI.ConvPay
import proofs.«412627_j82471962018590_2_alg».proof.Proof.KI.ConvArr
import Idealize.ShloMosaic.Lib.Pipeline.Value
import Idealize.ShloMosaic.Lib.ValueIdx
import Idealize.ShloMosaic.PureOps.Ideal.Laws

/-! # What the second convolution call leaves in its output array

At the ideal values. The body's stored block at `(0, r, x, co)` is the masked rectified nine-tap sum of the three row
blocks (the copy shifted down by a row, the grid, the copy shifted up by a row), each tap a product with the weight's
slice; the row blocks and the mask's block at point `t` are rows `8 (t % 80) … 8 (t % 80) + 7` of batch `t / 80`,
the weight and the bias whole; the output's blocks tile the array, so the array ends holding `convArr` of the six
arrays the call reads. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

/-! ## A block of the body's result, index by index -/

/-- Equal tap sums give equal masked rectified results. -/
theorem conv_close1 (s s' β μ : EReal) (h : s = s') : max (s + β) 0 * μ = max (s' + β) 0 * μ := by rw [h]

/-- The body's stored block at `(0, r, x, co)` is `convAt` at `(b, y, x, co)` when row `r` of each row block is row `y` of
    batch `b` of its array, the mask's likewise, and the weight's and the bias's blocks are the arrays. -/
theorem conv_block_apply1 (up ce dn : S2x640x642x64.Idx → EReal) (w : S3x3x64x64.Idx → EReal) (bias : S1x64.Idx → EReal)
    (msk : S2x640x640x1.Idx → EReal)
    (x0 x1 x2 : Vec Ideal S1x8x642x64 .bf16) (x3 : Vec Ideal S3x3x64x64 .f32) (x4 : Vec Ideal S1x64 .f32)
    (x5 : Vec Ideal S1x8x640x1 .f32) (b : Fin 2) (y : Fin 640) (r : Fin 8) (x : Fin 640) (co : Fin 64)
    (h0 : ∀ (xx : Fin 642) (ci : Fin 64), x0 (ix4 0 r xx ci) = up (ix4 b y xx ci))
    (h1 : ∀ (xx : Fin 642) (ci : Fin 64), x1 (ix4 0 r xx ci) = ce (ix4 b y xx ci))
    (h2 : ∀ (xx : Fin 642) (ci : Fin 64), x2 (ix4 0 r xx ci) = dn (ix4 b y xx ci))
    (h3 : ∀ k : S3x3x64x64.Idx, x3 k = w k) (h4 : ∀ k : S1x64.Idx, x4 k = bias k)
    (h5 : x5 (ix4 0 r x 0) = msk (ix4 b y x 0)) :
    out1_6 (F := Ideal) x0 x1 x2 x3 x4 x5 (ix4 0 r x co) = Cert.Spec.convAt up ce dn w bias msk b y x co := by
  rw [out1_6_apply]
  unfold Cert.Spec.convAt
  rw [h5, h4]
  refine conv_close1 _ _ _ _ (Finset.sum_congr rfl fun ky _ => Finset.sum_congr rfl fun kx _ =>
    Finset.sum_congr rfl fun ci _ => ?_)
  rw [h3]
  match ky with
  | 0 => show x0 _ * _ = up _ * _; rw [h0]
  | 1 => show x1 _ * _ = ce _ * _; rw [h1]
  | 2 => show x2 _ * _ = dn _ * _; rw [h2]

/-! ## From the blocks to the array -/

/-- The printed index maps over the grid: the row blocks', the mask's and the output's block is `(t / 80, t % 80, 0, 0)`;
    the weight's and the bias's is the origin. -/
theorem idx_conv1 : ∀ t : Fin cfg1.N,
    (win1_0.index t (0 : Fin 4) = t.val / 80 ∧ win1_0.index t (1 : Fin 4) = t.val % 80 ∧ win1_0.index t (2 : Fin 4) = 0 ∧ win1_0.index t (3 : Fin 4) = 0)
    ∧ (win1_1.index t (0 : Fin 4) = t.val / 80 ∧ win1_1.index t (1 : Fin 4) = t.val % 80 ∧ win1_1.index t (2 : Fin 4) = 0 ∧ win1_1.index t (3 : Fin 4) = 0)
    ∧ (win1_2.index t (0 : Fin 4) = t.val / 80 ∧ win1_2.index t (1 : Fin 4) = t.val % 80 ∧ win1_2.index t (2 : Fin 4) = 0 ∧ win1_2.index t (3 : Fin 4) = 0)
    ∧ (win1_3.index t (0 : Fin 4) = 0 ∧ win1_3.index t (1 : Fin 4) = 0 ∧ win1_3.index t (2 : Fin 4) = 0 ∧ win1_3.index t (3 : Fin 4) = 0)
    ∧ (win1_4.index t (0 : Fin 2) = 0 ∧ win1_4.index t (1 : Fin 2) = 0)
    ∧ (win1_5.index t (0 : Fin 4) = t.val / 80 ∧ win1_5.index t (1 : Fin 4) = t.val % 80 ∧ win1_5.index t (2 : Fin 4) = 0 ∧ win1_5.index t (3 : Fin 4) = 0)
    ∧ (win1_6.index t (0 : Fin 4) = t.val / 80 ∧ win1_6.index t (1 : Fin 4) = t.val % 80 ∧ win1_6.index t (2 : Fin 4) = 0 ∧ win1_6.index t (3 : Fin 4) = 0) :=
  (by decide +kernel : ∀ t : Fin grid1.N, _)

variable (V : (c : Dev nD) → (b : Ref sig .tc) → Buf (Elt Ideal) ((c : Thread nD τ).loc b))

/-- What point `t` writes back is block `t` of `convArr` of the arrays as the call finds them. -/
theorem flushed1_6_eq (c : Dev nD) (t : Fin cfg1.N) :
    (dat1 (F := Ideal) V c).flushed 6 t
      = ((cfg1.win 6).blk t).view.read (Elt Ideal)
          (Cert.Spec.convArr (V c main_v75) (V c main_v70) (V c main_v80) (V c main_arg4) (V c main_v81) (V c main_v56)) := by
  show (cfg1.win 6).cut (grid1.coords t) ((dat1 (F := Ideal) V c).after 6 t) = _
  rw [after1_6]
  obtain ⟨⟨a00, a01, a02, a03⟩, ⟨a10, a11, a12, a13⟩, ⟨a20, a21, a22, a23⟩, ⟨a30, a31, a32, a33⟩, ⟨a40, a41⟩,
    ⟨a50, a51, a52, a53⟩, ⟨a60, a61, a62, a63⟩⟩ := idx_conv1 t
  have ht : t.val < 160 := t.isLt
  refine funext fun (j : S1x8x640x64.Idx) => ?_
  obtain ⟨z, r, x, co, rfl⟩ : ∃ (z : Fin 1) (r : Fin 8) (x : Fin 640) (co : Fin 64), j = ix4 z r x co :=
    ⟨j 0, j 1, j 2, j 3, eq_ix4 j⟩
  obtain rfl : z = 0 := Subsingleton.elim _ _
  have hr : r.val < 8 := r.isLt
  have hx : x.val < 640 := x.isLt
  have hco : co.val < 64 := co.isLt
  -- the place in the array of entry `(0, r, x, co)` of block `t`
  have hemb : ((cfg1.win 6).blk t).view.emb (ix4 0 r x co)
      = ix4 (⟨t.val / 80, by omega⟩ : Fin 2) (⟨t.val % 80 * 8 + r.val, by omega⟩ : Fin 640) x co :=
    funext fun a => Fin.ext (by
      match a with
      | ⟨0, _⟩ => show win1_6.index t (0 : Fin 4) * 1 + 1 * 0 = t.val / 80; omega
      | ⟨1, _⟩ => show win1_6.index t (1 : Fin 4) * 8 + 1 * r.val = t.val % 80 * 8 + r.val; omega
      | ⟨2, _⟩ => show win1_6.index t (2 : Fin 4) * 640 + 1 * x.val = x.val; omega
      | ⟨3, _⟩ => show win1_6.index t (3 : Fin 4) * 64 + 1 * co.val = co.val; omega)
  show out1_6 (F := Ideal) (iblk1 V c 0 t) (iblk1 V c 1 t) (iblk1 V c 2 t) (iblk1 V c 3 t) (iblk1 V c 4 t) (iblk1 V c 5 t) (ix4 0 r x co)
    = Cert.Spec.convArr (V c main_v75) (V c main_v70) (V c main_v80) (V c main_arg4) (V c main_v81) (V c main_v56)
        (((cfg1.win 6).blk t).view.emb (ix4 0 r x co))
  rw [hemb]
  show _ = Cert.Spec.convAt (V c main_v75) (V c main_v70) (V c main_v80) (V c main_arg4) (V c main_v81) (V c main_v56)
    (⟨t.val / 80, by omega⟩ : Fin 2) (⟨t.val % 80 * 8 + r.val, by omega⟩ : Fin 640) x co
  refine conv_block_apply1 _ _ _ _ _ _ _ _ _ _ _ _ _ _ r x co (fun xx ci => ?_) (fun xx ci => ?_) (fun xx ci => ?_)
    (fun k => ?_) (fun k => ?_) ?_
  · show V c main_v75 (((cfg1.win 0).blk t).view.emb (ix4 0 r xx ci)) = _
    refine congrArg _ (funext fun a => Fin.ext ?_)
    match a with
    | ⟨0, _⟩ => show win1_0.index t (0 : Fin 4) * 1 + 1 * 0 = t.val / 80; omega
    | ⟨1, _⟩ => show win1_0.index t (1 : Fin 4) * 8 + 1 * r.val = t.val % 80 * 8 + r.val; omega
    | ⟨2, _⟩ => show win1_0.index t (2 : Fin 4) * 642 + 1 * xx.val = xx.val; omega
    | ⟨3, _⟩ => show win1_0.index t (3 : Fin 4) * 64 + 1 * ci.val = ci.val; omega
  · show V c main_v70 (((cfg1.win 1).blk t).view.emb (ix4 0 r xx ci)) = _
    refine congrArg _ (funext fun a => Fin.ext ?_)
    match a with
    | ⟨0, _⟩ => show win1_1.index t (0 : Fin 4) * 1 + 1 * 0 = t.val / 80; omega
    | ⟨1, _⟩ => show win1_1.index t (1 : Fin 4) * 8 + 1 * r.val = t.val % 80 * 8 + r.val; omega
    | ⟨2, _⟩ => show win1_1.index t (2 : Fin 4) * 642 + 1 * xx.val = xx.val; omega
    | ⟨3, _⟩ => show win1_1.index t (3 : Fin 4) * 64 + 1 * ci.val = ci.val; omega
  · show V c main_v80 (((cfg1.win 2).blk t).view.emb (ix4 0 r xx ci)) = _
    refine congrArg _ (funext fun a => Fin.ext ?_)
    match a with
    | ⟨0, _⟩ => show win1_2.index t (0 : Fin 4) * 1 + 1 * 0 = t.val / 80; omega
    | ⟨1, _⟩ => show win1_2.index t (1 : Fin 4) * 8 + 1 * r.val = t.val % 80 * 8 + r.val; omega
    | ⟨2, _⟩ => show win1_2.index t (2 : Fin 4) * 642 + 1 * xx.val = xx.val; omega
    | ⟨3, _⟩ => show win1_2.index t (3 : Fin 4) * 64 + 1 * ci.val = ci.val; omega
  · show V c main_arg4 (((cfg1.win 3).blk t).view.emb k) = V c main_arg4 k
    refine congrArg _ (funext fun a => Fin.ext ?_)
    match a with
    | ⟨0, _⟩ => show win1_3.index t (0 : Fin 4) * 3 + 1 * (k 0).val = (k 0).val; omega
    | ⟨1, _⟩ => show win1_3.index t (1 : Fin 4) * 3 + 1 * (k 1).val = (k 1).val; omega
    | ⟨2, _⟩ => show win1_3.index t (2 : Fin 4) * 64 + 1 * (k 2).val = (k 2).val; omega
    | ⟨3, _⟩ => show win1_3.index t (3 : Fin 4) * 64 + 1 * (k 3).val = (k 3).val; omega
  · show V c main_v81 (((cfg1.win 4).blk t).view.emb k) = V c main_v81 k
    refine congrArg _ (funext fun a => Fin.ext ?_)
    match a with
    | ⟨0, _⟩ => show win1_4.index t (0 : Fin 2) * 1 + 1 * (k 0).val = (k 0).val; omega
    | ⟨1, _⟩ => show win1_4.index t (1 : Fin 2) * 64 + 1 * (k 1).val = (k 1).val; omega
  · show V c main_v56 (((cfg1.win 5).blk t).view.emb (ix4 0 r x 0)) = _
    refine congrArg _ (funext fun a => Fin.ext ?_)
    match a with
    | ⟨0, _⟩ => show win1_5.index t (0 : Fin 4) * 1 + 1 * 0 = t.val / 80; omega
    | ⟨1, _⟩ => show win1_5.index t (1 : Fin 4) * 8 + 1 * r.val = t.val % 80 * 8 + r.val; omega
    | ⟨2, _⟩ => show win1_5.index t (2 : Fin 4) * 640 + 1 * x.val = x.val; omega
    | ⟨3, _⟩ => show win1_5.index t (3 : Fin 4) * 1 + 1 * 0 = 0; omega

/-- An index of the array is in point `t`'s block iff each coordinate is in the block's range on its axis. -/
theorem mem_blk1_6 (t : Fin cfg1.N) (i : S2x640x640x64.Idx) :
    i ∈ ((cfg1.win 6).blk t).view.set ↔ ∀ a : Fin 4, win1_6.index t a * S1x8x640x64.size a ≤ (i a).val ∧ (i a).val < win1_6.index t a * S1x8x640x64.size a + S1x8x640x64.size a := by
  show i ∈ ((View.whole main_v82).slice (win1_6.rect t)).set ↔ _
  rw [View.set_slice_whole, Rect.mem_set_unit]
  exact Iff.rfl

/-- Every index of the array is in some point's block: row `y` of batch `b` in point `80 b + y / 8`'s. -/
theorem cover1_6_arr (i : S2x640x640x64.Idx) :
    ∃ t : Fin cfg1.N, (cfg1.win 6).flush t = true ∧ i ∈ ((cfg1.win 6).blk t).view.set := by
  have hi0 : (i 0).val < 2 := (i 0).isLt
  have hi1 : (i 1).val < 640 := (i 1).isLt
  have hi2 : (i 2).val < 640 := (i 2).isLt
  have hi3 : (i 3).val < 64 := (i 3).isLt
  let t : Fin cfg1.N := ⟨(i 0).val * 80 + (i 1).val / 8, by show (i 0).val * 80 + (i 1).val / 8 < 160; omega⟩
  obtain ⟨-, -, -, -, -, -, ⟨a60, a61, a62, a63⟩⟩ := idx_conv1 t
  have htv : t.val = (i 0).val * 80 + (i 1).val / 8 := rfl
  refine ⟨t, flush1_6 t, ?_⟩
  rw [mem_blk1_6]
  intro a
  match a with
  | ⟨0, _⟩ => show win1_6.index t (0 : Fin 4) * 1 ≤ (i 0).val ∧ (i 0).val < win1_6.index t (0 : Fin 4) * 1 + 1; omega
  | ⟨1, _⟩ => show win1_6.index t (1 : Fin 4) * 8 ≤ (i 1).val ∧ (i 1).val < win1_6.index t (1 : Fin 4) * 8 + 8; omega
  | ⟨2, _⟩ => show win1_6.index t (2 : Fin 4) * 640 ≤ (i 2).val ∧ (i 2).val < win1_6.index t (2 : Fin 4) * 640 + 640; omega
  | ⟨3, _⟩ => show win1_6.index t (3 : Fin 4) * 64 ≤ (i 3).val ∧ (i 3).val < win1_6.index t (3 : Fin 4) * 64 + 64; omega

/-- The call's output array after the call. -/
theorem region1_value (c : Dev nD) :
    (dat1 (F := Ideal) V c).arrAt 6 cfg1.N
      = Cert.Spec.convArr (V c main_v75) (V c main_v70) (V c main_v80) (V c main_arg4) (V c main_v81) (V c main_v56) :=
  (dat1 (F := Ideal) V c).arrAt_eq_of_cover 6 _ (fun t _ => flushed1_6_eq V c t) cover1_6_arr

end Cert.KernelIdeal.Hand

end
-- ==== Proof.KI.RegionVal2.lean ====
import proofs.«412627_j82471962018590_2_alg».proof.Proof.KI.Region2
import proofs.«412627_j82471962018590_2_alg».proof.Proof.KI.ConvArr
import Idealize.ShloMosaic.Lib.Pipeline.Value
import Idealize.ShloMosaic.Lib.ValueIdx
import Idealize.ShloMosaic.PureOps.Ideal.Laws

/-! # What the third pallas_call leaves in its output array

At the ideal values. The body's stored block at an index is `max (∑ ci, x0 (n, ci) * x1 (ci, co) + x2 (n, co)) 0`;
the three input windows' blocks at a point are the arrays' rows `8192 t … 8192 t + 8191` (the weight whole); the
output's blocks tile the array, so the array ends holding `resArr` of the three arrays the call reads. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

/-! ## The body's stored block at an index

The contraction's index functions on the two axes of each operand, then the product into a zero accumulator as a sum
over the contracted axis, then the whole body. -/

theorem lhs_res_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_res_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_res_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_res_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The product of a block of rows with the weight, into a zero accumulator, at `(n, co)`. -/
theorem matmul_res_apply (y0 : FVec Ideal S8192x64 .bf16) (y1 : FVec Ideal S64x64 .bf16) (n : Fin 8192) (co : Fin 64) :
    FloatOps.matmul dot_S8192x64_S64x64_S8192x64_1_0_0_1_n_n none y0 y1 (constant S8192x64 .f32 0x00000000#32) (ix2 n co)
      = ∑ ci : Fin 64, y0 (ix2 n ci) * y1 (ix2 ci co) := by
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 n co) ((ValueIdx.contrEquiv1 dot_S8192x64_S64x64_S8192x64_1_0_0_1_n_n 64 rfl rfl).symm k) = ix2 n k := funext fun a => Fin.ext (by
    match a with
    | ⟨0, _⟩ => exact lhs_res_0 _ _
    | ⟨1, _⟩ => exact (lhs_res_1 _ _).trans hk)
  have er : dot_S8192x64_S64x64_S8192x64_1_0_0_1_n_n.rhsIdx (ix2 n co) ((ValueIdx.contrEquiv1 dot_S8192x64_S64x64_S8192x64_1_0_0_1_n_n 64 rfl rfl).symm k) = ix2 k co := funext fun a => Fin.ext (by
    match a with
    | ⟨0, _⟩ => exact (rhs_res_0 _ _).trans hk
    | ⟨1, _⟩ => exact rhs_res_1 _ _)
  rw [el, er]

theorem k2_pay1_apply (x0 : Vec Ideal S8192x64 .f32) (x1 : Vec Ideal S64x64 .f32) (x2 : Vec Ideal S8192x64 .f32)
    (n : Fin 8192) (co : Fin 64) :
    k2_pay1 (F := Ideal) x0 x1 x2 (ix2 n co) = max ((∑ ci : Fin 64, x0 (ix2 n ci) * x1 (ix2 ci co)) + x2 (ix2 n co)) 0 := by
  unfold k2_pay1
  simp only [matmul]
  rw [maximumf_apply, addf_apply, broadcast_apply, shapeCast_self, matmul_res_apply]
  simp only [truncf_apply]
  show max _ (Ideal.ofBits .f32 0x00000000#32) = _
  rw [Ideal.ofBits_zero_f32]

/-! ## From the blocks to the array -/

theorem zero_off2 : (![0, 0] : Fin 2 → Nat) = fun _ => 0 := funext fun a => by fin_cases a <;> rfl

/-- The printed index maps over the grid: the features', the gathered rows' and the output's block is the point's
    number along the rows and `0` along the channels; the weight's block is `(0, 0)`. -/
theorem idx_res : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- A block of the body's result, index by index, when each input block's entries are the arrays' at the matching
    places: row `j 0` of the features' and of the gathered rows' block is row `i 0` of the array, the weight whole. -/
theorem res_block_apply (A0 : S409600x64.Idx → EReal) (A1 : S64x64.Idx → EReal) (A2 : S409600x64.Idx → EReal)
    (x0 : Vec Ideal S8192x64 .f32) (x1 : Vec Ideal S64x64 .f32) (x2 : Vec Ideal S8192x64 .f32)
    (i : S409600x64.Idx) (j : S8192x64.Idx)
    (h0 : ∀ ci : Fin 64, x0 (ix2 (j 0) ci) = A0 (ix2 (i 0) ci))
    (h1 : ∀ ci : Fin 64, x1 (ix2 ci (j 1)) = A1 (ix2 ci (i 1)))
    (h2 : x2 j = A2 (ix2 (i 0) (i 1))) :
    k2_pay1 (F := Ideal) x0 x1 x2 j = Cert.Spec.resArr A0 A1 A2 i := by
  obtain ⟨n, co, rfl⟩ : ∃ (n : Fin 8192) (co : Fin 64), j = ix2 n co := ⟨j 0, j 1, eq_ix2 j⟩
  have h0' : ∀ ci : Fin 64, x0 (ix2 n ci) = A0 (ix2 (i 0) ci) := h0
  have h1' : ∀ ci : Fin 64, x1 (ix2 ci co) = A1 (ix2 ci (i 1)) := h1
  rw [k2_pay1_apply]
  unfold Cert.Spec.resArr Cert.Spec.resAt
  simp only [h0', h1', h2]

variable (V : (c : Dev nD) → (b : Ref sig .tc) → Buf (Elt Ideal) ((c : Thread nD τ).loc b))

/-- What point `t` writes back is block `t` of `resArr` of the arrays as the call finds them. -/
theorem flushed2_3_eq (c : Dev nD) (t : Fin cfg2.N) :
    (dat2 (F := Ideal) V c).flushed 3 t
      = ((cfg2.win 3).blk t).view.read (Elt Ideal) (Cert.Spec.resArr (V c main_arg0) (V c main_arg6) (V c main_v108)) := by
  show (cfg2.win 3).cut (grid2.coords t) ((dat2 (F := Ideal) V c).after 3 t) = _
  rw [after2_3]
  unfold out2_3
  rw [View.canon_unit_zero zero_off2]
  simp only [View.ld_unit_zero (S := S8192x64) zero_off2, View.ld_unit_zero (S := S64x64) zero_off2]
  obtain ⟨e00, e01, e10, e11, e20, e21, e30, e31⟩ := idx_res t
  have ht : t.val < 50 := t.isLt
  refine funext fun (j : S8192x64.Idx) => ?_
  have hj0 : (j 0).val < 8192 := (j 0).isLt
  have hj1 : (j 1).val < 64 := (j 1).isLt
  show k2_pay1 (F := Ideal) (iblk2 V c 0 t) (iblk2 V c 1 t) (iblk2 V c 2 t) j
    = Cert.Spec.resArr (V c main_arg0) (V c main_arg6) (V c main_v108) (((cfg2.win 3).blk t).view.emb j)
  -- the place in the array of entry `j` of block `t`: row `8192 t + j 0`, channel `j 1`
  have hrow : ((((cfg2.win 3).blk t).view.emb j) 0).val = t.val * 8192 + (j 0).val := by
    show win2_3.index t (0 : Fin 2) * 8192 + 1 * (j 0).val = _; omega
  have hcol : ((((cfg2.win 3).blk t).view.emb j) 1).val = (j 1).val := by
    show win2_3.index t (1 : Fin 2) * 64 + 1 * (j 1).val = _; omega
  refine res_block_apply _ _ _ _ _ _ (((cfg2.win 3).blk t).view.emb j) j (fun ci => ?_) (fun ci => ?_) ?_
  · show V c main_arg0 (((cfg2.win 0).blk t).view.emb (ix2 (j 0) ci)) = _
    refine congrArg _ (funext fun a => Fin.ext ?_)
    match a with
    | ⟨0, _⟩ => show win2_0.index t (0 : Fin 2) * 8192 + 1 * (j 0).val = ((((cfg2.win 3).blk t).view.emb j) 0).val; rw [hrow]; omega
    | ⟨1, _⟩ => show win2_0.index t (1 : Fin 2) * 64 + 1 * ci.val = ci.val; omega
  · show V c main_arg6 (((cfg2.win 1).blk t).view.emb (ix2 ci (j 1))) = _
    refine congrArg _ (funext fun a => Fin.ext ?_)
    match a with
    | ⟨0, _⟩ => show win2_1.index t (0 : Fin 2) * 64 + 1 * ci.val = ci.val; omega
    | ⟨1, _⟩ => show win2_1.index t (1 : Fin 2) * 64 + 1 * (j 1).val = ((((cfg2.win 3).blk t).view.emb j) 1).val; rw [hcol]; omega
  · show V c main_v108 (((cfg2.win 2).blk t).view.emb j) = _
    refine congrArg _ (funext fun a => Fin.ext ?_)
    match a with
    | ⟨0, _⟩ => show win2_2.index t (0 : Fin 2) * 8192 + 1 * (j 0).val = ((((cfg2.win 3).blk t).view.emb j) 0).val; rw [hrow]; omega
    | ⟨1, _⟩ => show win2_2.index t (1 : Fin 2) * 64 + 1 * (j 1).val = ((((cfg2.win 3).blk t).view.emb j) 1).val; rw [hcol]; omega

/-- An index of the array is in point `t`'s block iff each coordinate is in the block's range on its axis. -/
theorem mem_blk2_3 (t : Fin cfg2.N) (i : S409600x64.Idx) :
    i ∈ ((cfg2.win 3).blk t).view.set ↔ ∀ a : Fin 2, win2_3.index t a * S8192x64.size a ≤ (i a).val ∧ (i a).val < win2_3.index t a * S8192x64.size a + S8192x64.size a := by
  show i ∈ ((View.whole main_v109).slice (win2_3.rect t)).set ↔ _
  rw [View.set_slice_whole, Rect.mem_set_unit]
  exact Iff.rfl

/-- Every row of the array is in some point's block: row `n` in point `n / 8192`'s. -/
theorem cover2_3_arr (i : S409600x64.Idx) :
    ∃ t : Fin cfg2.N, (cfg2.win 3).flush t = true ∧ i ∈ ((cfg2.win 3).blk t).view.set := by
  have hi0 : (i 0).val < 409600 := (i 0).isLt
  have hi1 : (i 1).val < 64 := (i 1).isLt
  let t : Fin cfg2.N := ⟨(i 0).val / 8192, by show (i 0).val / 8192 < 50; omega⟩
  obtain ⟨e00, e01, e10, e11, e20, e21, e30, e31⟩ := idx_res t
  have htv : t.val = (i 0).val / 8192 := rfl
  refine ⟨t, flush2_3 t, ?_⟩
  rw [mem_blk2_3]
  intro a
  match a with
  | ⟨0, _⟩ => show win2_3.index t (0 : Fin 2) * 8192 ≤ (i 0).val ∧ (i 0).val < win2_3.index t (0 : Fin 2) * 8192 + 8192; omega
  | ⟨1, _⟩ => show win2_3.index t (1 : Fin 2) * 64 ≤ (i 1).val ∧ (i 1).val < win2_3.index t (1 : Fin 2) * 64 + 64; omega

/-- The third call's output array after the call. -/
theorem region2_value (c : Dev nD) :
    (dat2 (F := Ideal) V c).arrAt 3 cfg2.N = Cert.Spec.resArr (V c main_arg0) (V c main_arg6) (V c main_v108) :=
  (dat2 (F := Ideal) V c).arrAt_eq_of_cover 3 _ (fun t _ => flushed2_3_eq V c t) cover2_3_arr

end Cert.KernelIdeal.Hand

end
-- ==== Proof.LibCols.lean ====
/- The index columns both programs build from the coordinate words before a scatter or a gather: column K of the
   [N × 3] array of words as a vector, normalised (a negative word has the axis size added), set back as an
   [N × 1] column, the three columns laid side by side. Each layout step is read at one index; on words that
   are not negative the rebuilt [N × 3] array is the array of words itself. -/
import Idealize.ShloMosaic.PureOps.Ideal
import Idealize.ShloMosaic.Lib.ValueIdx
import Idealize.ShloMosaic.Lib.Pipeline.Value
import Idealize.ShloMosaic.Lib.ValueLayout
import Idealize.ShloMosaic.Lib.StableHlo.Predicate
import proofs.«412627_j82471962018590_2_alg».proof.Proof.Spec

noncomputable section

namespace Cert.Cols

open Idealize.ShloMosaic Idealize.ShloMosaic.ValueIdx Cert.Spec

/-! ## The steps, each read at one index -/

/-- Column `K` of a matrix, cut out as an [N × 1] block and recast as a vector, reads the matrix at (e, K). -/
theorem col_apply {α : Type} {N M : Nat} (K : Nat) (x1 : (⟨2, ![N, M]⟩ : Shape).Idx → α)
    (hs : (⟨2, ![N, M]⟩ : Shape).Slices ![0, K] ⟨2, ![N, 1]⟩) (hc : (⟨2, ![N, 1]⟩ : Shape).ShapeCasts ⟨1, ![N]⟩)
    (e : Fin N) (k : Fin M) (hk : k.val = K) :
    shapeCast ⟨1, ![N]⟩ (extractStridedSlice ⟨2, ![N, 1]⟩ ![0, K] x1 hs) hc (ix1 e) = x1 (ix2 e k) := by
  rw [shapeCast_apply _ hc (ix1 e) (ix2 e (0 : Fin 1))
    (by rw [Shape.rowMajor_val_two, Shape.rowMajor_val_one]; show e.val * 1 + 0 = e.val; omega)]
  exact extractStridedSlice_apply _ x1 hs (ix2 e (0 : Fin 1)) (ix2 e k) (fun ax => by
    match ax with
    | ⟨0, _⟩ => exact (Nat.zero_add _).symm
    | ⟨1, _⟩ => show k.val = K + 0; omega)

/-- Column 0 of an [N × 3] matrix. -/
theorem col0_apply {α : Type} {N : Nat} (x1 : (⟨2, ![N, 3]⟩ : Shape).Idx → α)
    (hs : (⟨2, ![N, 3]⟩ : Shape).Slices ![0, 0] ⟨2, ![N, 1]⟩) (hc : (⟨2, ![N, 1]⟩ : Shape).ShapeCasts ⟨1, ![N]⟩) (e : Fin N) :
    shapeCast ⟨1, ![N]⟩ (extractStridedSlice ⟨2, ![N, 1]⟩ ![0, 0] x1 hs) hc (ix1 e) = x1 (ix2 e 0) :=
  col_apply 0 x1 hs hc e 0 rfl

/-- Column 1 of an [N × 3] matrix. -/
theorem col1_apply {α : Type} {N : Nat} (x1 : (⟨2, ![N, 3]⟩ : Shape).Idx → α)
    (hs : (⟨2, ![N, 3]⟩ : Shape).Slices ![0, 1] ⟨2, ![N, 1]⟩) (hc : (⟨2, ![N, 1]⟩ : Shape).ShapeCasts ⟨1, ![N]⟩) (e : Fin N) :
    shapeCast ⟨1, ![N]⟩ (extractStridedSlice ⟨2, ![N, 1]⟩ ![0, 1] x1 hs) hc (ix1 e) = x1 (ix2 e 1) :=
  col_apply 1 x1 hs hc e 1 rfl

/-- Column 2 of an [N × 3] matrix. -/
theorem col2_apply {α : Type} {N : Nat} (x1 : (⟨2, ![N, 3]⟩ : Shape).Idx → α)
    (hs : (⟨2, ![N, 3]⟩ : Shape).Slices ![0, 2] ⟨2, ![N, 1]⟩) (hc : (⟨2, ![N, 1]⟩ : Shape).ShapeCasts ⟨1, ![N]⟩) (e : Fin N) :
    shapeCast ⟨1, ![N]⟩ (extractStridedSlice ⟨2, ![N, 1]⟩ ![0, 2] x1 hs) hc (ix1 e) = x1 (ix2 e 2) :=
  col_apply 2 x1 hs hc e 2 rfl

/-- The normalised word (the axis size added to a negative word) is the word itself when it is not negative. -/
theorem norm_apply {N : Nat} (SIZE : BitVec 32) (col : IVec ⟨1, ![N]⟩ 32)
    (hz ha : (⟨0, ![]⟩ : Shape).BroadcastsInDim ⟨1, ![N]⟩ ![]) (j : (⟨1, ![N]⟩ : Shape).Idx) (h0 : 0 ≤ (col j).toInt) :
    select (cmpi .slt col (broadcastInDim ⟨1, ![N]⟩ ![] hz (constantI ⟨0, ![]⟩ 32 0#32)))
      (addi col (broadcastInDim ⟨1, ![N]⟩ ![] ha (constantI ⟨0, ![]⟩ 32 SIZE))) col j = col j := by
  have hslt : (col j).slt 0#32 = false := by
    unfold BitVec.slt
    have hz0 : (0#32 : BitVec 32).toInt = 0 := by decide
    rw [hz0]
    exact decide_eq_false (by omega)
  have hcmp : IntOp.cmpi .slt (col j) 0#32 = 0#1 := by
    show BitVec.ofBool ((col j).slt 0#32) = 0#1
    rw [hslt]; rfl
  show Scalar.select (IntOp.cmpi .slt (col j) 0#32) (IntOp.addi (col j) SIZE) (col j) = col j
  unfold Scalar.select
  rw [hcmp]
  exact if_neg (by decide)

/-- A vector set as an [N × 1] column reads, at (e, 0), the vector at `e`. -/
theorem bcol_apply {α : Type} {N : Nat} (hb : (⟨1, ![N]⟩ : Shape).BroadcastsInDim ⟨2, ![N, 1]⟩ ![0])
    (v : (⟨1, ![N]⟩ : Shape).Idx → α) (e : Fin N) :
    broadcastInDim ⟨2, ![N, 1]⟩ ![0] hb v (ix2 e 0) = v (ix1 e) := by
  exact broadcastInDim_apply _ hb v (ix2 e (0 : Fin 1)) (ix1 e) (fun a => by
    match a with
    | ⟨0, _⟩ =>
      show e.val = if N = 1 then 0 else e.val
      split
      · have := e.isLt; omega
      · rfl)

/-- Three [N × 1] columns laid side by side read, at (e, 0), the first at (e, 0). -/
theorem concat3_apply0 {α : Type} {N : Nat} (b0 b1 b2 : (⟨2, ![N, 1]⟩ : Shape).Idx → α)
    (hcat : Shape.Concatenates [⟨2, ![N, 1]⟩, ⟨2, ![N, 1]⟩, ⟨2, ![N, 1]⟩] ⟨2, ![N, 3]⟩ 1) (e : Fin N) :
    concatenate ⟨2, ![N, 3]⟩ 1 [⟨⟨2, ![N, 1]⟩, b0⟩, ⟨⟨2, ![N, 1]⟩, b1⟩, ⟨⟨2, ![N, 1]⟩, b2⟩] hcat (ix2 e 0) = b0 (ix2 e 0) := by
  exact concatenate_apply_piece (t := ⟨2, ![N, 3]⟩) 1 [⟨⟨2, ![N, 1]⟩, b0⟩, ⟨⟨2, ![N, 1]⟩, b1⟩, ⟨⟨2, ![N, 1]⟩, b2⟩] hcat (ix2 e 0) 0 (by simp)
    ⟨2, ![N, 1]⟩ b0 rfl rfl 0 rfl (ix2 e (0 : Fin 1))
    (fun b hb => by
      match b with
      | ⟨0, _⟩ => rfl
      | ⟨1, _⟩ => exact absurd rfl hb) rfl

/-- … at (e, 1), the second at (e, 0). -/
theorem concat3_apply1 {α : Type} {N : Nat} (b0 b1 b2 : (⟨2, ![N, 1]⟩ : Shape).Idx → α)
    (hcat : Shape.Concatenates [⟨2, ![N, 1]⟩, ⟨2, ![N, 1]⟩, ⟨2, ![N, 1]⟩] ⟨2, ![N, 3]⟩ 1) (e : Fin N) :
    concatenate ⟨2, ![N, 3]⟩ 1 [⟨⟨2, ![N, 1]⟩, b0⟩, ⟨⟨2, ![N, 1]⟩, b1⟩, ⟨⟨2, ![N, 1]⟩, b2⟩] hcat (ix2 e 1) = b1 (ix2 e 0) := by
  exact concatenate_apply_piece (t := ⟨2, ![N, 3]⟩) 1 [⟨⟨2, ![N, 1]⟩, b0⟩, ⟨⟨2, ![N, 1]⟩, b1⟩, ⟨⟨2, ![N, 1]⟩, b2⟩] hcat (ix2 e 1) 1 (by simp)
    ⟨2, ![N, 1]⟩ b1 rfl rfl 1 rfl (ix2 e (0 : Fin 1))
    (fun b hb => by
      match b with
      | ⟨0, _⟩ => rfl
      | ⟨1, _⟩ => exact absurd rfl hb) rfl

/-- … at (e, 2), the third at (e, 0). -/
theorem concat3_apply2 {α : Type} {N : Nat} (b0 b1 b2 : (⟨2, ![N, 1]⟩ : Shape).Idx → α)
    (hcat : Shape.Concatenates [⟨2, ![N, 1]⟩, ⟨2, ![N, 1]⟩, ⟨2, ![N, 1]⟩] ⟨2, ![N, 3]⟩ 1) (e : Fin N) :
    concatenate ⟨2, ![N, 3]⟩ 1 [⟨⟨2, ![N, 1]⟩, b0⟩, ⟨⟨2, ![N, 1]⟩, b1⟩, ⟨⟨2, ![N, 1]⟩, b2⟩] hcat (ix2 e 2) = b2 (ix2 e 0) := by
  exact concatenate_apply_piece (t := ⟨2, ![N, 3]⟩) 1 [⟨⟨2, ![N, 1]⟩, b0⟩, ⟨⟨2, ![N, 1]⟩, b1⟩, ⟨⟨2, ![N, 1]⟩, b2⟩] hcat (ix2 e 2) 2 (by simp)
    ⟨2, ![N, 1]⟩ b2 rfl rfl 2 rfl (ix2 e (0 : Fin 1))
    (fun b hb => by
      match b with
      | ⟨0, _⟩ => rfl
      | ⟨1, _⟩ => exact absurd rfl hb) rfl

/-- Three [N × 1] columns laid side by side read, at (e, k), column `k` at (e, 0). -/
theorem concat3_apply {α : Type} {N : Nat} (b0 b1 b2 : (⟨2, ![N, 1]⟩ : Shape).Idx → α)
    (hcat : Shape.Concatenates [⟨2, ![N, 1]⟩, ⟨2, ![N, 1]⟩, ⟨2, ![N, 1]⟩] ⟨2, ![N, 3]⟩ 1) (e : Fin N) (k : Fin 3) :
    concatenate ⟨2, ![N, 3]⟩ 1 [⟨⟨2, ![N, 1]⟩, b0⟩, ⟨⟨2, ![N, 1]⟩, b1⟩, ⟨⟨2, ![N, 1]⟩, b2⟩] hcat (ix2 e k)
      = (![b0, b1, b2] k) (ix2 e 0) := by
  match k with
  | ⟨0, _⟩ => exact concat3_apply0 b0 b1 b2 hcat e
  | ⟨1, _⟩ => exact concat3_apply1 b0 b1 b2 hcat e
  | ⟨2, _⟩ => exact concat3_apply2 b0 b1 b2 hcat e

/-! ## The rebuilt index array -/

/-- On words none of which is negative, the three normalised columns laid side by side are the array of words. -/
theorem normIdx_apply_of_nonneg {N : Nat} (Z0 Z1 Z2 : BitVec 32) (x1 : IVec ⟨2, ![N, 3]⟩ 32)
    (hnn : ∀ (e : Fin N) (k : Fin 3), 0 ≤ (x1 (ix2 e k)).toInt)
    (hs0 : (⟨2, ![N, 3]⟩ : Shape).Slices ![0, 0] ⟨2, ![N, 1]⟩) (hs1 : (⟨2, ![N, 3]⟩ : Shape).Slices ![0, 1] ⟨2, ![N, 1]⟩)
    (hs2 : (⟨2, ![N, 3]⟩ : Shape).Slices ![0, 2] ⟨2, ![N, 1]⟩)
    (hc0 hc1 hc2 : (⟨2, ![N, 1]⟩ : Shape).ShapeCasts ⟨1, ![N]⟩)
    (hz0 ha0 hz1 ha1 hz2 ha2 : (⟨0, ![]⟩ : Shape).BroadcastsInDim ⟨1, ![N]⟩ ![])
    (hb0 hb1 hb2 : (⟨1, ![N]⟩ : Shape).BroadcastsInDim ⟨2, ![N, 1]⟩ ![0])
    (hcat : Shape.Concatenates [⟨2, ![N, 1]⟩, ⟨2, ![N, 1]⟩, ⟨2, ![N, 1]⟩] ⟨2, ![N, 3]⟩ 1)
    (e : Fin N) (k : Fin 3) :
    concatenate ⟨2, ![N, 3]⟩ 1
      [⟨⟨2, ![N, 1]⟩, (broadcastInDim ⟨2, ![N, 1]⟩ ![0] hb0 (select (cmpi .slt (shapeCast ⟨1, ![N]⟩ (extractStridedSlice ⟨2, ![N, 1]⟩ ![0, 0] x1 hs0) hc0) (broadcastInDim ⟨1, ![N]⟩ ![] hz0 (constantI ⟨0, ![]⟩ 32 0#32)))
          (addi (shapeCast ⟨1, ![N]⟩ (extractStridedSlice ⟨2, ![N, 1]⟩ ![0, 0] x1 hs0) hc0) (broadcastInDim ⟨1, ![N]⟩ ![] ha0 (constantI ⟨0, ![]⟩ 32 Z0))) (shapeCast ⟨1, ![N]⟩ (extractStridedSlice ⟨2, ![N, 1]⟩ ![0, 0] x1 hs0) hc0)))⟩,
       ⟨⟨2, ![N, 1]⟩, (broadcastInDim ⟨2, ![N, 1]⟩ ![0] hb1 (select (cmpi .slt (shapeCast ⟨1, ![N]⟩ (extractStridedSlice ⟨2, ![N, 1]⟩ ![0, 1] x1 hs1) hc1) (broadcastInDim ⟨1, ![N]⟩ ![] hz1 (constantI ⟨0, ![]⟩ 32 0#32)))
          (addi (shapeCast ⟨1, ![N]⟩ (extractStridedSlice ⟨2, ![N, 1]⟩ ![0, 1] x1 hs1) hc1) (broadcastInDim ⟨1, ![N]⟩ ![] ha1 (constantI ⟨0, ![]⟩ 32 Z1))) (shapeCast ⟨1, ![N]⟩ (extractStridedSlice ⟨2, ![N, 1]⟩ ![0, 1] x1 hs1) hc1)))⟩,
       ⟨⟨2, ![N, 1]⟩, (broadcastInDim ⟨2, ![N, 1]⟩ ![0] hb2 (select (cmpi .slt (shapeCast ⟨1, ![N]⟩ (extractStridedSlice ⟨2, ![N, 1]⟩ ![0, 2] x1 hs2) hc2) (broadcastInDim ⟨1, ![N]⟩ ![] hz2 (constantI ⟨0, ![]⟩ 32 0#32)))
          (addi (shapeCast ⟨1, ![N]⟩ (extractStridedSlice ⟨2, ![N, 1]⟩ ![0, 2] x1 hs2) hc2) (broadcastInDim ⟨1, ![N]⟩ ![] ha2 (constantI ⟨0, ![]⟩ 32 Z2))) (shapeCast ⟨1, ![N]⟩ (extractStridedSlice ⟨2, ![N, 1]⟩ ![0, 2] x1 hs2) hc2)))⟩] hcat (ix2 e k) = x1 (ix2 e k) := by
  match k with
  | ⟨0, _⟩ =>
    refine (concat3_apply0 _ _ _ hcat e).trans ?_
    refine (bcol_apply hb0 _ e).trans ?_
    have hcol := col0_apply x1 hs0 hc0 e
    exact (norm_apply Z0 _ hz0 ha0 (ix1 e) (by rw [hcol]; exact hnn e 0)).trans hcol
  | ⟨1, _⟩ =>
    refine (concat3_apply1 _ _ _ hcat e).trans ?_
    refine (bcol_apply hb1 _ e).trans ?_
    have hcol := col1_apply x1 hs1 hc1 e
    exact (norm_apply Z1 _ hz1 ha1 (ix1 e) (by rw [hcol]; exact hnn e 1)).trans hcol
  | ⟨2, _⟩ =>
    refine (concat3_apply2 _ _ _ hcat e).trans ?_
    refine (bcol_apply hb2 _ e).trans ?_
    have hcol := col2_apply x1 hs2 hc2 e
    exact (norm_apply Z2 _ hz2 ha2 (ix1 e) (by rw [hcol]; exact hnn e 2)).trans hcol

/-- On coordinate words inside the grid, the index array both programs build is the array of words. -/
theorem normIdx_apply (x1 : Coords) (hin : InRange x1)
    (hs0 : (⟨2, ![409600, 3]⟩ : Shape).Slices ![0, 0] ⟨2, ![409600, 1]⟩) (hs1 : (⟨2, ![409600, 3]⟩ : Shape).Slices ![0, 1] ⟨2, ![409600, 1]⟩)
    (hs2 : (⟨2, ![409600, 3]⟩ : Shape).Slices ![0, 2] ⟨2, ![409600, 1]⟩)
    (hc0 hc1 hc2 : (⟨2, ![409600, 1]⟩ : Shape).ShapeCasts ⟨1, ![409600]⟩)
    (hz0 ha0 hz1 ha1 hz2 ha2 : (⟨0, ![]⟩ : Shape).BroadcastsInDim ⟨1, ![409600]⟩ ![])
    (hb0 hb1 hb2 : (⟨1, ![409600]⟩ : Shape).BroadcastsInDim ⟨2, ![409600, 1]⟩ ![0])
    (hcat : Shape.Concatenates [⟨2, ![409600, 1]⟩, ⟨2, ![409600, 1]⟩, ⟨2, ![409600, 1]⟩] ⟨2, ![409600, 3]⟩ 1)
    (e : Fin 409600) (k : Fin 3) :
    concatenate ⟨2, ![409600, 3]⟩ 1
      [⟨⟨2, ![409600, 1]⟩, (broadcastInDim ⟨2, ![409600, 1]⟩ ![0] hb0 (select (cmpi .slt (shapeCast ⟨1, ![409600]⟩ (extractStridedSlice ⟨2, ![409600, 1]⟩ ![0, 0] x1 hs0) hc0) (broadcastInDim ⟨1, ![409600]⟩ ![] hz0 (constantI ⟨0, ![]⟩ 32 0#32)))
          (addi (shapeCast ⟨1, ![409600]⟩ (extractStridedSlice ⟨2, ![409600, 1]⟩ ![0, 0] x1 hs0) hc0) (broadcastInDim ⟨1, ![409600]⟩ ![] ha0 (constantI ⟨0, ![]⟩ 32 2#32))) (shapeCast ⟨1, ![409600]⟩ (extractStridedSlice ⟨2, ![409600, 1]⟩ ![0, 0] x1 hs0) hc0)))⟩,
       ⟨⟨2, ![409600, 1]⟩, (broadcastInDim ⟨2, ![409600, 1]⟩ ![0] hb1 (select (cmpi .slt (shapeCast ⟨1, ![409600]⟩ (extractStridedSlice ⟨2, ![409600, 1]⟩ ![0, 1] x1 hs1) hc1) (broadcastInDim ⟨1, ![409600]⟩ ![] hz1 (constantI ⟨0, ![]⟩ 32 0#32)))
          (addi (shapeCast ⟨1, ![409600]⟩ (extractStridedSlice ⟨2, ![409600, 1]⟩ ![0, 1] x1 hs1) hc1) (broadcastInDim ⟨1, ![409600]⟩ ![] ha1 (constantI ⟨0, ![]⟩ 32 640#32))) (shapeCast ⟨1, ![409600]⟩ (extractStridedSlice ⟨2, ![409600, 1]⟩ ![0, 1] x1 hs1) hc1)))⟩,
       ⟨⟨2, ![409600, 1]⟩, (broadcastInDim ⟨2, ![409600, 1]⟩ ![0] hb2 (select (cmpi .slt (shapeCast ⟨1, ![409600]⟩ (extractStridedSlice ⟨2, ![409600, 1]⟩ ![0, 2] x1 hs2) hc2) (broadcastInDim ⟨1, ![409600]⟩ ![] hz2 (constantI ⟨0, ![]⟩ 32 0#32)))
          (addi (shapeCast ⟨1, ![409600]⟩ (extractStridedSlice ⟨2, ![409600, 1]⟩ ![0, 2] x1 hs2) hc2) (broadcastInDim ⟨1, ![409600]⟩ ![] ha2 (constantI ⟨0, ![]⟩ 32 640#32))) (shapeCast ⟨1, ![409600]⟩ (extractStridedSlice ⟨2, ![409600, 1]⟩ ![0, 2] x1 hs2) hc2)))⟩] hcat (ix2 e k) = x1 (ix2 e k) := by
  exact normIdx_apply_of_nonneg 2#32 640#32 640#32 x1
    (fun e k => by
      match k with
      | ⟨0, _⟩ => exact (hin e).1.1
      | ⟨1, _⟩ => exact (hin e).2.1.1
      | ⟨2, _⟩ => exact (hin e).2.2.1)
    hs0 hs1 hs2 hc0 hc1 hc2 hz0 ha0 hz1 ha1 hz2 ha2 hb0 hb1 hb2 hcat e k

end Cert.Cols

end
-- ==== Proof.KI.Value.lean ====
import proofs.«412627_j82471962018590_2_alg».proof.Proof.KI.Run
import proofs.«412627_j82471962018590_2_alg».proof.Proof.KI.Stages
import proofs.«412627_j82471962018590_2_alg».proof.Proof.KI.Glue
import proofs.«412627_j82471962018590_2_alg».proof.Proof.KI.GlueConv
import proofs.«412627_j82471962018590_2_alg».proof.Proof.KI.RegionVal0
import proofs.«412627_j82471962018590_2_alg».proof.Proof.KI.RegionVal1
import proofs.«412627_j82471962018590_2_alg».proof.Proof.KI.RegionVal2
import proofs.«412627_j82471962018590_2_alg».proof.Proof.LibCols
import proofs.«412627_j82471962018590_2_alg».proof.Proof.Spec
import Idealize.ShloMosaic.Lib.ValueIdx
import Idealize.ShloMosaic.PureOps.Ideal

/-! # The kernel's value

The result buffer at the end of the run, read back to the specification. The last call leaves
`max (features · wd + gathered) 0`; the gathered rows are the second convolution's output read at every site's cell;
each convolution call leaves the dense layer (nine taps over the zero-padded grid, bias, ReLU, mask) of the grid it
was given as three shifted and padded copies; the first grid is the feature rows scattered by cell and the mask the
ones scattered by cell. On coordinate words inside the grid the index array the host rebuilds is the array of words,
so every scatter and the gather go by the sites' own cells. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL
open scoped BigOperators

variable (m : (ℓ : Loc nD τ sig) → Buf (Elt Ideal) ℓ) (ρ : Dev nD → PrngReg)

/-- On coordinate words inside the grid the rebuilt index array is the array of words. -/
theorem normIdx_apply (x1 : Cert.Spec.Coords) (hin : Cert.Spec.InRange x1) (e : Fin 409600) (k : Fin 3) :
    normIdx x1 (ix2 e k) = x1 (ix2 e k) := by
  unfold normIdx
  exact Cert.Cols.normIdx_apply x1 hin _ _ _ _ _ _ _ _ _ _ _ _ _ _ _ _ e k

/-- Two dense layers agree when their grids, masks, weights and biases do. -/
theorem convK_congr {D D' : Cert.Spec.Loc → Fin 64 → EReal} {M M' : Cert.Spec.Loc → EReal}
    {w w' : Fin 3 → Fin 3 → Fin 64 → Fin 64 → EReal} {b b' : Fin 64 → EReal}
    (hD : D = D') (hM : M = M') (hw : w = w') (hb : b = b') :
    Cert.Spec.convK D M w b = Cert.Spec.convK D' M' w' b' := by
  subst hD; subst hM; subst hw; subst hb; rfl

/-- Two convolution outputs agree when the arrays they are made from do. -/
theorem convArr_congr {up up' ce ce' dn dn' : S2x640x642x64.Idx → EReal} {w w' : S3x3x64x64.Idx → EReal}
    {b b' : S1x64.Idx → EReal} {k k' : S2x640x640x1.Idx → EReal}
    (hup : up = up') (hce : ce = ce') (hdn : dn = dn') (hw : w = w') (hb : b = b') (hk : k = k') :
    Cert.Spec.convArr up ce dn w b k = Cert.Spec.convArr up' ce' dn' w' b' k' := by
  subst hup; subst hce; subst hdn; subst hw; subst hb; subst hk; rfl

/-- Two last-call outputs agree when the arrays they are made from do. -/
theorem resArr_congr {f f' : S409600x64.Idx → EReal} {w w' : S64x64.Idx → EReal} {e e' : S409600x64.Idx → EReal}
    (hf : f = f') (hw : w = w') (he : e = e') :
    Cert.Spec.resArr f w e = Cert.Spec.resArr f' w' e' := by
  subst hf; subst hw; subst he; rfl

/-- A convolution output read at a cell. -/
theorem convArr_apply (up ce dn : S2x640x642x64.Idx → EReal) (w : S3x3x64x64.Idx → EReal) (b : S1x64.Idx → EReal)
    (k : S2x640x640x1.Idx → EReal) (a : Fin 2) (y x : Fin 640) (co : Fin 64) :
    Cert.Spec.convArr up ce dn w b k (ix4 a y x co) = Cert.Spec.convAt up ce dn w b k a y x co := rfl

/-- The last call's output read at a site and a channel. -/
theorem resArr_apply (f : S409600x64.Idx → EReal) (w : S64x64.Idx → EReal) (e : S409600x64.Idx → EReal)
    (n : Fin 409600) (co : Fin 64) :
    Cert.Spec.resArr f w e (ix2 n co) = max ((∑ ci : Fin 64, f (ix2 n ci) * w (ix2 ci co)) + e (ix2 n co)) 0 := rfl

/-- The specification read at a site and a channel. -/
theorem KSpec_apply (feat : Fin 409600 → Fin 64 → EReal) (coords : Cert.Spec.Coords)
    (w1 : Fin 3 → Fin 3 → Fin 64 → Fin 64 → EReal) (b1 : Fin 64 → EReal)
    (w2 : Fin 3 → Fin 3 → Fin 64 → Fin 64 → EReal) (b2 : Fin 64 → EReal) (wd : Fin 64 → Fin 64 → EReal)
    (n : Fin 409600) (co : Fin 64) :
    Cert.Spec.KSpec feat coords w1 b1 w2 b2 wd n co
      = max ((∑ ci : Fin 64, feat n ci * wd ci co)
          + Cert.Spec.convK (Cert.Spec.convK (Cert.Spec.dense feat coords) (Cert.Spec.mask coords) w1 b1)
              (Cert.Spec.mask coords) w2 b2 (Cert.Spec.cell coords n) co) 0 := rfl

section Chain

variable (c : Dev nD)

/-! ## What each call leaves, over the arrays it was given -/

/-- What the first call leaves, as the contraction over the three copies of the dense grid. -/
theorem v69_eq :
    (W8 m ρ c (Proc.devRef .tc main_v69) : S2x640x640x64.Idx → EReal)
      = Cert.Spec.convArr (Glue.upOf (V1 m ρ c main_v27)) (Glue.ceOf (V1 m ρ c main_v27)) (Glue.dnOf (V1 m ρ c main_v27))
          (m ((c.tc : Thread nD τ).loc main_arg2))
          (shapeCast S1x64 (m ((c.tc : Thread nD τ).loc main_arg3)) shapeCasts_S64_S1x64)
          (V1 m ρ c main_v56) :=
  (W8_arr m ρ c 6).trans ((region0_value (V7 m ρ) c).trans
    (convArr_congr (v62_eq m ρ c) (v57_eq m ρ c) (v67_eq m ρ c) (V7_arg2 m ρ c) (v68_eq m ρ c) (V7_v56 m ρ c)))

/-- What the second call leaves, as the contraction over the three copies of the first call's output. -/
theorem v82_eq :
    (W16 m ρ c (Proc.devRef .tc main_v82) : S2x640x640x64.Idx → EReal)
      = Cert.Spec.convArr (Glue.upOf (W8 m ρ c (Proc.devRef .tc main_v69))) (Glue.ceOf (W8 m ρ c (Proc.devRef .tc main_v69)))
          (Glue.dnOf (W8 m ρ c (Proc.devRef .tc main_v69)))
          (m ((c.tc : Thread nD τ).loc main_arg4))
          (shapeCast S1x64 (m ((c.tc : Thread nD τ).loc main_arg5)) shapeCasts_S64_S1x64)
          (V1 m ρ c main_v56) :=
  (W16_arr m ρ c 6).trans ((region1_value (V15 m ρ) c).trans
    (convArr_congr (v75_eq m ρ c) (v70_eq m ρ c) (v80_eq m ρ c) (V15_arg4 m ρ c) (v81_eq m ρ c) (V15_v56 m ρ c)))

/-- What the last call leaves: the row-wise product with `wd` plus the gathered rows, under a ReLU. -/
theorem outK_resArr :
    (outK (F := Ideal) m ρ c : S409600x64.Idx → EReal)
      = Cert.Spec.resArr (m ((c.tc : Thread nD τ).loc main_arg0)) (m ((c.tc : Thread nD τ).loc main_arg6))
          (Host.gather gather_S2x640x640x64_S409600x3_S409600x64_1_012_n_n_012_1_11164
            (W16 m ρ c (Proc.devRef .tc main_v82)) (normIdx (m ((c.tc : Thread nD τ).loc main_arg1)))) :=
  (outK_eq m ρ c).trans ((region2_value (V17 m ρ) c).trans
    (resArr_congr (V17_arg0 m ρ c) (V17_arg6 m ρ c) (v108_eq m ρ c)))

/-! ## Read at a cell, on coordinate words inside the grid -/

variable (hin : Cert.Spec.InRange (m ((c.tc : Thread nD τ).loc main_arg1)))
include hin

/-! ## The dense grid and the mask -/

/-- The first scatter's grid at a cell is the specification's dense grid. -/
theorem v27_apply (a : Fin 2) (y x : Fin 640) (h : Fin 64) :
    (V1 m ρ c main_v27 : S2x640x640x64.Idx → EReal) (ix4 a y x h)
      = Cert.Spec.dense (fun n ch => m ((c.tc : Thread nD τ).loc main_arg0) (ix2 n ch))
          (m ((c.tc : Thread nD τ).loc main_arg1)) (a, y, x) h := by
  refine (congrFun (v27_eq m ρ c) _).trans ?_
  rw [Glue.zeros_bf16]
  exact Glue.dense_of_scatter _ _ _ (fun e k => normIdx_apply _ hin e k) a y x h

/-- The same, at a cell given as one triple. -/
theorem v27_apply_loc (l : Cert.Spec.Loc) (h : Fin 64) :
    (V1 m ρ c main_v27 : S2x640x640x64.Idx → EReal) (ix4 l.1 l.2.1 l.2.2 h)
      = Cert.Spec.dense (fun n ch => m ((c.tc : Thread nD τ).loc main_arg0) (ix2 n ch))
          (m ((c.tc : Thread nD τ).loc main_arg1)) l h := by
  obtain ⟨a, y, x⟩ := l
  exact v27_apply m ρ c hin a y x h

/-- The second scatter's grid, with its unit channel axis, at a cell is the specification's mask. -/
theorem v56_apply (a : Fin 2) (y x : Fin 640) (u : Fin 1) :
    (V1 m ρ c main_v56 : S2x640x640x1.Idx → EReal) (ix4 a y x u)
      = Cert.Spec.mask (m ((c.tc : Thread nD τ).loc main_arg1)) (a, y, x) := by
  refine (congrFun (v56_eq m ρ c) _).trans ?_
  rw [Glue.mask_chan_apply, Glue.zeros_f32, Glue.ones_f32]
  exact Glue.mask_of_scatter _ _ (fun e k => normIdx_apply _ hin e k) a y x

/-- The same, at a cell given as one triple. -/
theorem v56_apply_loc (l : Cert.Spec.Loc) (u : Fin 1) :
    (V1 m ρ c main_v56 : S2x640x640x1.Idx → EReal) (ix4 l.1 l.2.1 l.2.2 u)
      = Cert.Spec.mask (m ((c.tc : Thread nD τ).loc main_arg1)) l := by
  obtain ⟨a, y, x⟩ := l
  exact v56_apply m ρ c hin a y x u

/-! ## The first convolution call -/

/-- The first call's output at a cell is the first dense layer. -/
theorem v69_apply (a : Fin 2) (y x : Fin 640) (co : Fin 64) :
    (W8 m ρ c (Proc.devRef .tc main_v69) : S2x640x640x64.Idx → EReal) (ix4 a y x co)
      = Cert.Spec.convK
          (Cert.Spec.dense (fun n ch => m ((c.tc : Thread nD τ).loc main_arg0) (ix2 n ch)) (m ((c.tc : Thread nD τ).loc main_arg1)))
          (Cert.Spec.mask (m ((c.tc : Thread nD τ).loc main_arg1)))
          (fun ky kx ci co => m ((c.tc : Thread nD τ).loc main_arg2) (ix4 ky kx ci co))
          (fun k => m ((c.tc : Thread nD τ).loc main_arg3) (ix1 k)) (a, y, x) co := by
  refine (congrFun (v69_eq m ρ c) _).trans ?_
  refine (convArr_apply _ _ _ _ _ _ a y x co).trans ?_
  refine (Glue.conv_of_shifted _ _ _ _ a y x co).trans ?_
  refine congrFun (congrFun (convK_congr ?_ ?_ ?_ ?_) _) _
  · funext l ch; exact v27_apply_loc m ρ c hin l ch
  · funext l; exact v56_apply_loc m ρ c hin l 0
  · rfl
  · funext k; exact Glue.bias_row_apply _ 0 k

/-- The same, at a cell given as one triple. -/
theorem v69_apply_loc (l : Cert.Spec.Loc) (co : Fin 64) :
    (W8 m ρ c (Proc.devRef .tc main_v69) : S2x640x640x64.Idx → EReal) (ix4 l.1 l.2.1 l.2.2 co)
      = Cert.Spec.convK
          (Cert.Spec.dense (fun n ch => m ((c.tc : Thread nD τ).loc main_arg0) (ix2 n ch)) (m ((c.tc : Thread nD τ).loc main_arg1)))
          (Cert.Spec.mask (m ((c.tc : Thread nD τ).loc main_arg1)))
          (fun ky kx ci co => m ((c.tc : Thread nD τ).loc main_arg2) (ix4 ky kx ci co))
          (fun k => m ((c.tc : Thread nD τ).loc main_arg3) (ix1 k)) l co := by
  obtain ⟨a, y, x⟩ := l
  exact v69_apply m ρ c hin a y x co

/-! ## The second convolution call -/

/-- The second call's output at a cell is the second dense layer over the first. -/
theorem v82_apply (a : Fin 2) (y x : Fin 640) (co : Fin 64) :
    (W16 m ρ c (Proc.devRef .tc main_v82) : S2x640x640x64.Idx → EReal) (ix4 a y x co)
      = Cert.Spec.convK
          (Cert.Spec.convK
            (Cert.Spec.dense (fun n ch => m ((c.tc : Thread nD τ).loc main_arg0) (ix2 n ch)) (m ((c.tc : Thread nD τ).loc main_arg1)))
            (Cert.Spec.mask (m ((c.tc : Thread nD τ).loc main_arg1)))
            (fun ky kx ci co => m ((c.tc : Thread nD τ).loc main_arg2) (ix4 ky kx ci co))
            (fun k => m ((c.tc : Thread nD τ).loc main_arg3) (ix1 k)))
          (Cert.Spec.mask (m ((c.tc : Thread nD τ).loc main_arg1)))
          (fun ky kx ci co => m ((c.tc : Thread nD τ).loc main_arg4) (ix4 ky kx ci co))
          (fun k => m ((c.tc : Thread nD τ).loc main_arg5) (ix1 k)) (a, y, x) co := by
  refine (congrFun (v82_eq m ρ c) _).trans ?_
  refine (convArr_apply _ _ _ _ _ _ a y x co).trans ?_
  refine (Glue.conv_of_shifted _ _ _ _ a y x co).trans ?_
  refine congrFun (congrFun (convK_congr ?_ ?_ ?_ ?_) _) _
  · funext l ch; exact v69_apply_loc m ρ c hin l ch
  · funext l; exact v56_apply_loc m ρ c hin l 0
  · rfl
  · funext k; exact Glue.bias_row_apply _ 0 k

/-- The same, at a cell given as one triple. -/
theorem v82_apply_loc (l : Cert.Spec.Loc) (co : Fin 64) :
    (W16 m ρ c (Proc.devRef .tc main_v82) : S2x640x640x64.Idx → EReal) (ix4 l.1 l.2.1 l.2.2 co)
      = Cert.Spec.convK
          (Cert.Spec.convK
            (Cert.Spec.dense (fun n ch => m ((c.tc : Thread nD τ).loc main_arg0) (ix2 n ch)) (m ((c.tc : Thread nD τ).loc main_arg1)))
            (Cert.Spec.mask (m ((c.tc : Thread nD τ).loc main_arg1)))
            (fun ky kx ci co => m ((c.tc : Thread nD τ).loc main_arg2) (ix4 ky kx ci co))
            (fun k => m ((c.tc : Thread nD τ).loc main_arg3) (ix1 k)))
          (Cert.Spec.mask (m ((c.tc : Thread nD τ).loc main_arg1)))
          (fun ky kx ci co => m ((c.tc : Thread nD τ).loc main_arg4) (ix4 ky kx ci co))
          (fun k => m ((c.tc : Thread nD τ).loc main_arg5) (ix1 k)) l co := by
  obtain ⟨a, y, x⟩ := l
  exact v82_apply m ρ c hin a y x co

/-! ## The last call -/

/-- The kernel's result is the specification's. -/
theorem outK_eq_KSpec (n : Fin 409600) (co : Fin 64) :
    outK (F := Ideal) m ρ c (ix2 n co)
      = Cert.Spec.KSpec (fun n ch => m ((c.tc : Thread nD τ).loc main_arg0) (ix2 n ch))
          (m ((c.tc : Thread nD τ).loc main_arg1))
          (fun ky kx ci co => m ((c.tc : Thread nD τ).loc main_arg2) (ix4 ky kx ci co))
          (fun k => m ((c.tc : Thread nD τ).loc main_arg3) (ix1 k))
          (fun ky kx ci co => m ((c.tc : Thread nD τ).loc main_arg4) (ix4 ky kx ci co))
          (fun k => m ((c.tc : Thread nD τ).loc main_arg5) (ix1 k))
          (fun ci co => m ((c.tc : Thread nD τ).loc main_arg6) (ix2 ci co)) n co := by
  refine (congrFun (outK_resArr m ρ c) _).trans ?_
  rw [resArr_apply, KSpec_apply, Glue.gather_cell _ _ _ (fun e k => normIdx_apply _ hin e k) n co,
    v82_apply_loc m ρ c hin]

end Chain

end Cert.KernelIdeal.Hand

end
-- ==== Proof.Ref.Inv.lean ====
import proofs.«412627_j82471962018590_2_alg».proof.Proof.Ref.ReadP

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- What the buffers read from boundary 0 on hold there: each the value the reference's staged reading gives it. -/
structure Inv0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6

/-- What the buffers read from boundary 1 on hold there: each the value the reference's staged reading gives it. -/
structure Inv1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v36 : V (Proc.devRef .tc main_v36) = val_main_v36 (F := F) x1
  main_v38 : V (Proc.devRef .tc main_v38) = val_main_v38 (F := F) x1
  main_v46 : V (Proc.devRef .tc main_v46) = val_main_v46 (F := F) x1

/-- What the buffers read from boundary 2 on hold there: each the value the reference's staged reading gives it. -/
structure Inv2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v89 : V (Proc.devRef .tc main_v89) = val_main_v89 (F := F)

/-- What the buffers read from boundary 3 on hold there: each the value the reference's staged reading gives it. -/
structure Inv3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v128 : V (Proc.devRef .tc main_v128) = val_main_v128 (F := F) x1
  main_v129 : V (Proc.devRef .tc main_v129) = val_main_v129 (F := F) x1
  main_v131 : V (Proc.devRef .tc main_v131) = val_main_v131 (F := F) x1

/-- What the buffers read from boundary 4 on hold there: each the value the reference's staged reading gives it. -/
structure Inv4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v157 : V (Proc.devRef .tc main_v157) = val_main_v157 (F := F) x1
  main_v159 : V (Proc.devRef .tc main_v159) = val_main_v159 (F := F) x1
  main_v164 : V (Proc.devRef .tc main_v164) = val_main_v164 (F := F) x1
  main_v169 : V (Proc.devRef .tc main_v169) = val_main_v169 (F := F) x1
  main_v171 : V (Proc.devRef .tc main_v171) = val_main_v171 (F := F) x1
  main_v173 : V (Proc.devRef .tc main_v173) = val_main_v173 (F := F) x1

/-- What the buffers read from boundary 5 on hold there: each the value the reference's staged reading gives it. -/
structure Inv5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v211 : V (Proc.devRef .tc main_v211) = val_main_v211 (F := F) x1
  main_v212 : V (Proc.devRef .tc main_v212) = val_main_v212 (F := F) x1
  main_v213 : V (Proc.devRef .tc main_v213) = val_main_v213 (F := F) x1
  main_v215 : V (Proc.devRef .tc main_v215) = val_main_v215 (F := F) x1
  main_v216 : V (Proc.devRef .tc main_v216) = val_main_v216 (F := F)

/-- What the buffers read from boundary 6 on hold there: each the value the reference's staged reading gives it. -/
structure Inv6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v252 : V (Proc.devRef .tc main_v252) = val_main_v252 (F := F) x1
  main_v254 : V (Proc.devRef .tc main_v254) = val_main_v254 (F := F) x1
  main_v262 : V (Proc.devRef .tc main_v262) = val_main_v262 (F := F) x1

/-- What the buffers read from boundary 7 on hold there: each the value the reference's staged reading gives it. -/
structure Inv7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v305 : V (Proc.devRef .tc main_v305) = val_main_v305 (F := F)

/-- What the buffers read from boundary 8 on hold there: each the value the reference's staged reading gives it. -/
structure Inv8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v344 : V (Proc.devRef .tc main_v344) = val_main_v344 (F := F) x1
  main_v345 : V (Proc.devRef .tc main_v345) = val_main_v345 (F := F) x1
  main_v347 : V (Proc.devRef .tc main_v347) = val_main_v347 (F := F) x1

/-- What the buffers read from boundary 9 on hold there: each the value the reference's staged reading gives it. -/
structure Inv9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v373 : V (Proc.devRef .tc main_v373) = val_main_v373 (F := F) x1
  main_v375 : V (Proc.devRef .tc main_v375) = val_main_v375 (F := F) x1
  main_v380 : V (Proc.devRef .tc main_v380) = val_main_v380 (F := F) x1
  main_v385 : V (Proc.devRef .tc main_v385) = val_main_v385 (F := F) x1
  main_v387 : V (Proc.devRef .tc main_v387) = val_main_v387 (F := F) x1
  main_v389 : V (Proc.devRef .tc main_v389) = val_main_v389 (F := F) x1

/-- What the buffers read from boundary 10 on hold there: each the value the reference's staged reading gives it. -/
structure Inv10 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v427 : V (Proc.devRef .tc main_v427) = val_main_v427 (F := F) x1
  main_v428 : V (Proc.devRef .tc main_v428) = val_main_v428 (F := F) x1
  main_v429 : V (Proc.devRef .tc main_v429) = val_main_v429 (F := F) x1
  main_v431 : V (Proc.devRef .tc main_v431) = val_main_v431 (F := F) x1
  main_v432 : V (Proc.devRef .tc main_v432) = val_main_v432 (F := F)

/-- What the buffers read from boundary 11 on hold there: each the value the reference's staged reading gives it. -/
structure Inv11 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v466 : V (Proc.devRef .tc main_v466) = val_main_v466 (F := F) x0 x1 x2
  main_v468 : V (Proc.devRef .tc main_v468) = val_main_v468 (F := F) x1
  main_v470 : V (Proc.devRef .tc main_v470) = val_main_v470 (F := F) x1
  main_v478 : V (Proc.devRef .tc main_v478) = val_main_v478 (F := F) x1

/-- What the buffers read from boundary 12 on hold there: each the value the reference's staged reading gives it. -/
structure Inv12 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v520 : V (Proc.devRef .tc main_v520) = val_main_v520 (F := F) x0 x1 x2
  main_v522 : V (Proc.devRef .tc main_v522) = val_main_v522 (F := F) x3

/-- What the buffers read from boundary 13 on hold there: each the value the reference's staged reading gives it. -/
structure Inv13 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v546 : V (Proc.devRef .tc main_v546) = val_main_v546 (F := F) x1
  main_v563 : V (Proc.devRef .tc main_v563) = val_main_v563 (F := F) x1
  main_v564 : V (Proc.devRef .tc main_v564) = val_main_v564 (F := F) x1
  main_v565 : V (Proc.devRef .tc main_v565) = val_main_v565 (F := F) x1

/-- What the buffers read from boundary 14 on hold there: each the value the reference's staged reading gives it. -/
structure Inv14 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v600 : V (Proc.devRef .tc main_v600) = val_main_v600 (F := F) x1
  main_v601 : V (Proc.devRef .tc main_v601) = val_main_v601 (F := F) x1
  main_v602 : V (Proc.devRef .tc main_v602) = val_main_v602 (F := F) x1
  main_v607 : V (Proc.devRef .tc main_v607) = val_main_v607 (F := F) x1
  main_c_229 : V (Proc.devRef .tc main_c_229) = val_main_c_229 (F := F)

/-- What the buffers read from boundary 15 on hold there: each the value the reference's staged reading gives it. -/
structure Inv15 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v641 : V (Proc.devRef .tc main_v641) = val_main_v641 (F := F) x1
  main_v643 : V (Proc.devRef .tc main_v643) = val_main_v643 (F := F) x1
  main_v651 : V (Proc.devRef .tc main_v651) = val_main_v651 (F := F) x1
  main_v653 : V (Proc.devRef .tc main_v653) = val_main_v653 (F := F) x1

/-- What the buffers read from boundary 16 on hold there: each the value the reference's staged reading gives it. -/
structure Inv16 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v695 : V (Proc.devRef .tc main_v695) = val_main_v695 (F := F) x1
  main_v696 : V (Proc.devRef .tc main_v696) = val_main_v696 (F := F)

/-- What the buffers read from boundary 17 on hold there: each the value the reference's staged reading gives it. -/
structure Inv17 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v733 : V (Proc.devRef .tc main_v733) = val_main_v733 (F := F) x1
  main_v734 : V (Proc.devRef .tc main_v734) = val_main_v734 (F := F) x1
  main_v736 : V (Proc.devRef .tc main_v736) = val_main_v736 (F := F) x1
  main_v738 : V (Proc.devRef .tc main_v738) = val_main_v738 (F := F) x1

/-- What the buffers read from boundary 18 on hold there: each the value the reference's staged reading gives it. -/
structure Inv18 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v762 : V (Proc.devRef .tc main_v762) = val_main_v762 (F := F) x1
  main_v779 : V (Proc.devRef .tc main_v779) = val_main_v779 (F := F) x1
  main_v780 : V (Proc.devRef .tc main_v780) = val_main_v780 (F := F) x1
  main_v781 : V (Proc.devRef .tc main_v781) = val_main_v781 (F := F) x1

/-- What the buffers read from boundary 19 on hold there: each the value the reference's staged reading gives it. -/
structure Inv19 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v816 : V (Proc.devRef .tc main_v816) = val_main_v816 (F := F) x1
  main_v817 : V (Proc.devRef .tc main_v817) = val_main_v817 (F := F) x1
  main_v818 : V (Proc.devRef .tc main_v818) = val_main_v818 (F := F) x1
  main_v823 : V (Proc.devRef .tc main_v823) = val_main_v823 (F := F) x1
  main_c_313 : V (Proc.devRef .tc main_c_313) = val_main_c_313 (F := F)

/-- What the buffers read from boundary 20 on hold there: each the value the reference's staged reading gives it. -/
structure Inv20 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v857 : V (Proc.devRef .tc main_v857) = val_main_v857 (F := F) x1
  main_v859 : V (Proc.devRef .tc main_v859) = val_main_v859 (F := F) x1
  main_v867 : V (Proc.devRef .tc main_v867) = val_main_v867 (F := F) x1
  main_v869 : V (Proc.devRef .tc main_v869) = val_main_v869 (F := F) x1

/-- What the buffers read from boundary 21 on hold there: each the value the reference's staged reading gives it. -/
structure Inv21 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v911 : V (Proc.devRef .tc main_v911) = val_main_v911 (F := F) x1
  main_v912 : V (Proc.devRef .tc main_v912) = val_main_v912 (F := F)

/-- What the buffers read from boundary 22 on hold there: each the value the reference's staged reading gives it. -/
structure Inv22 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v949 : V (Proc.devRef .tc main_v949) = val_main_v949 (F := F) x1
  main_v950 : V (Proc.devRef .tc main_v950) = val_main_v950 (F := F) x1
  main_v952 : V (Proc.devRef .tc main_v952) = val_main_v952 (F := F) x1
  main_v954 : V (Proc.devRef .tc main_v954) = val_main_v954 (F := F) x1

/-- What the buffers read from boundary 23 on hold there: each the value the reference's staged reading gives it. -/
structure Inv23 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v963 : V (Proc.devRef .tc main_v963) = val_main_v963 (F := F) x0 x1 x2 x3 x4
  main_v978 : V (Proc.devRef .tc main_v978) = val_main_v978 (F := F) x1
  main_v995 : V (Proc.devRef .tc main_v995) = val_main_v995 (F := F) x1
  main_v996 : V (Proc.devRef .tc main_v996) = val_main_v996 (F := F) x1
  main_v997 : V (Proc.devRef .tc main_v997) = val_main_v997 (F := F) x1

/-- What the buffers read from boundary 24 on hold there: each the value the reference's staged reading gives it. -/
structure Inv24 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v1024 : V (Proc.devRef .tc main_v1024) = val_main_v1024 (F := F) x0 x1 x2 x3 x4 x5 x6

end Cert.ReferenceIdeal.Hand

end
-- ==== Proof.Ref.Nary3.lean ====
/- The result of a three-operand host operation over a literal family of references, with each operand's contents
   at its own reference, and the one-pass computation of a line's results that uses it. -/
import Idealize.ShloMosaic.Lib.StableHlo.Run

noncomputable section

namespace Cert.ReferenceIdeal.Hand

open Idealize.ShloMosaic Idealize.ShloMosaic.StableHlo

variable {nD : Nat} {τ : Topo} {sig : RefSig} {Val : EltTy → Type}

/-- An operation over the literal family `![x, a, b]`: its result buffer takes the function of the three operands'
    contents, each read at its own reference. -/
theorem nary3_result (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Three contents, one per reference of the literal family `![x, a, b]`, as the family over its three positions: the
    three are plain arguments, so a rewrite reaches each. -/
def nary3Args (x a b : Ref sig .tc) (vx : x.ty.Contents Val) (va : a.ty.Contents Val) (vb : b.ty.Contents Val) :
    (k : Fin 3) → ((![x, a, b] : Fin 3 → Ref sig .tc) k).ty.Contents Val :=
  Fin.cons vx (Fin.cons va (Fin.cons vb (fun i => i.elim0)))

theorem nary3Args_zero (x a b : Ref sig .tc) (vx : x.ty.Contents Val) (va : a.ty.Contents Val) (vb : b.ty.Contents Val) :
    nary3Args x a b vx va vb 0 = vx := rfl
theorem nary3Args_one (x a b : Ref sig .tc) (vx : x.ty.Contents Val) (va : a.ty.Contents Val) (vb : b.ty.Contents Val) :
    nary3Args x a b vx va vb 1 = va := rfl
theorem nary3Args_two (x a b : Ref sig .tc) (vx : x.ty.Contents Val) (va : a.ty.Contents Val) (vb : b.ty.Contents Val) :
    nary3Args x a b vx va vb 2 = vb := rfl

/-- The same result, for the simplifier: the result reference left out of its index, the operands' contents through
    `nary3Args`. -/
theorem nary3_result' (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (nary3Args x a b (F (Proc.devRef .tc x)) (F (Proc.devRef .tc a)) (F (Proc.devRef .tc b))) :=
  nary3_result x a b y f hxs hy F

/-- A three-piece concatenation depends on its pieces only through their contents: equal pieces, equal results.
    (The side condition's statement mentions the list of pieces, which keeps the simplifier out of the list; this
    congruence, active where this namespace is open, lets it in.) -/
theorem concatenate3_congr {α : Type} (t : Shape) (a : Fin t.rank) (s0 s1 s2 : Shape)
    (x0 x0' : s0.Idx → α) (x1 x1' : s1.Idx → α) (x2 x2' : s2.Idx → α) (h : Shape.Concatenates [s0, s1, s2] t a)
    (e0 : x0 = x0') (e1 : x1 = x1') (e2 : x2 = x2') :
    concatenate t a [⟨s0, x0⟩, ⟨s1, x1⟩, ⟨s2, x2⟩] h = concatenate t a [⟨s0, x0'⟩, ⟨s1, x1'⟩, ⟨s2, x2'⟩] h := by
  subst e0 e1 e2; rfl

attribute [scoped congr] concatenate3_congr

/-- A line's contents at one reference in one simplifier pass: each operation's result at its own result buffer is
    its function's value, at any other reference what was there; a three-operand operation by the lemmas above. -/
macro "after_results_w" : tactic =>
  `(tactic| (simp (disch := decide) only [after_cons, after_nil, nary3Args_zero, nary3Args_one, nary3Args_two,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Cert.ReferenceIdeal.Hand

end
-- ==== Proof.Ref.W0.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 0 of @main: its operations 1 … 60 of 1688, in order. -/
def ops_p0 : List (HloOp τ sig (Elt F)) :=
  [ nullary main_c (constantI S_ 32 4294967295#32),
    unary main_c main_v0 (broadcastInDim S2x640x640 ![] bcast_S_S2x640x640 : (⟨S_, .i32⟩ : BufTy).Contents (Elt F) → (⟨S2x640x640, .i32⟩ : BufTy).Contents (Elt F)),
    unary main_arg1 main_v1 ((extractStridedSlice S409600x1 ![0, 0] · slices_S409600x3_S409600x1_0_0) : (⟨S409600x3, .i32⟩ : BufTy).Contents (Elt F) → (⟨S409600x1, .i32⟩ : BufTy).Contents (Elt F)),
    reshape main_v1 main_v2 rfl shapeCasts_S409600x1_S409600,
    unary main_arg1 main_v3 ((extractStridedSlice S409600x1 ![0, 1] · slices_S409600x3_S409600x1_0_1) : (⟨S409600x3, .i32⟩ : BufTy).Contents (Elt F) → (⟨S409600x1, .i32⟩ : BufTy).Contents (Elt F)),
    reshape main_v3 main_v4 rfl shapeCasts_S409600x1_S409600,
    unary main_arg1 main_v5 ((extractStridedSlice S409600x1 ![0, 2] · slices_S409600x3_S409600x1_0_2) : (⟨S409600x3, .i32⟩ : BufTy).Contents (Elt F) → (⟨S409600x1, .i32⟩ : BufTy).Contents (Elt F)),
    reshape main_v5 main_v6 rfl shapeCasts_S409600x1_S409600,
    nullary main_v7 (iotaInDim S409600 32 0),
    nullary main_c_0 (constantI S_ 32 0#32),
    unary main_c_0 main_v8 (broadcastInDim S409600 ![] bcast_S_S409600 : (⟨S_, .i32⟩ : BufTy).Contents (Elt F) → (⟨S409600, .i32⟩ : BufTy).Contents (Elt F)),
    binary main_v2 main_v8 main_v9 (cmpi .slt : (⟨S409600, .i32⟩ : BufTy).Contents (Elt F) → (⟨S409600, .i32⟩ : BufTy).Contents (Elt F) → (⟨S409600, .i1⟩ : BufTy).Contents (Elt F)),
    nullary main_c_1 (constantI S_ 32 2#32),
    unary main_c_1 main_v10 (broadcastInDim S409600 ![] bcast_S_S409600 : (⟨S_, .i32⟩ : BufTy).Contents (Elt F) → (⟨S409600, .i32⟩ : BufTy).Contents (Elt F)),
    binary main_v2 main_v10 main_v11 (addi : (⟨S409600, .i32⟩ : BufTy).Contents (Elt F) → (⟨S409600, .i32⟩ : BufTy).Contents (Elt F) → (⟨S409600, .i32⟩ : BufTy).Contents (Elt F)),
    ternary main_v9 main_v11 main_v2 main_v12 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_2 (constantI S_ 32 0#32),
    unary main_c_2 main_v13 (broadcastInDim S409600 ![] bcast_S_S409600 : (⟨S_, .i32⟩ : BufTy).Contents (Elt F) → (⟨S409600, .i32⟩ : BufTy).Contents (Elt F)),
    binary main_v4 main_v13 main_v14 (cmpi .slt : (⟨S409600, .i32⟩ : BufTy).Contents (Elt F) → (⟨S409600, .i32⟩ : BufTy).Contents (Elt F) → (⟨S409600, .i1⟩ : BufTy).Contents (Elt F)),
    nullary main_c_3 (constantI S_ 32 640#32),
    unary main_c_3 main_v15 (broadcastInDim S409600 ![] bcast_S_S409600 : (⟨S_, .i32⟩ : BufTy).Contents (Elt F) → (⟨S409600, .i32⟩ : BufTy).Contents (Elt F)),
    binary main_v4 main_v15 main_v16 (addi : (⟨S409600, .i32⟩ : BufTy).Contents (Elt F) → (⟨S409600, .i32⟩ : BufTy).Contents (Elt F) → (⟨S409600, .i32⟩ : BufTy).Contents (Elt F)),
    ternary main_v14 main_v16 main_v4 main_v17 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_4 (constantI S_ 32 0#32),
    unary main_c_4 main_v18 (broadcastInDim S409600 ![] bcast_S_S409600 : (⟨S_, .i32⟩ : BufTy).Contents (Elt F) → (⟨S409600, .i32⟩ : BufTy).Contents (Elt F)),
    binary main_v6 main_v18 main_v19 (cmpi .slt : (⟨S409600, .i32⟩ : BufTy).Contents (Elt F) → (⟨S409600, .i32⟩ : BufTy).Contents (Elt F) → (⟨S409600, .i1⟩ : BufTy).Contents (Elt F)),
    nullary main_c_5 (constantI S_ 32 640#32),
    unary main_c_5 main_v20 (broadcastInDim S409600 ![] bcast_S_S409600 : (⟨S_, .i32⟩ : BufTy).Contents (Elt F) → (⟨S409600, .i32⟩ : BufTy).Contents (Elt F)),
    binary main_v6 main_v20 main_v21 (addi : (⟨S409600, .i32⟩ : BufTy).Contents (Elt F) → (⟨S409600, .i32⟩ : BufTy).Contents (Elt F) → (⟨S409600, .i32⟩ : BufTy).Contents (Elt F)),
    ternary main_v19 main_v21 main_v6 main_v22 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v12 main_v23 (broadcastInDim S409600x1 ![0] bcast_S409600_S409600x1_0 : (⟨S409600, .i32⟩ : BufTy).Contents (Elt F) → (⟨S409600x1, .i32⟩ : BufTy).Contents (Elt F)),
    unary main_v17 main_v24 (broadcastInDim S409600x1 ![0] bcast_S409600_S409600x1_0 : (⟨S409600, .i32⟩ : BufTy).Contents (Elt F) → (⟨S409600x1, .i32⟩ : BufTy).Contents (Elt F)),
    unary main_v22 main_v25 (broadcastInDim S409600x1 ![0] bcast_S409600_S409600x1_0 : (⟨S409600, .i32⟩ : BufTy).Contents (Elt F) → (⟨S409600x1, .i32⟩ : BufTy).Contents (Elt F)),
    nary ![main_v23, main_v24, main_v25] main_v26 (fun u => concatenate S409600x3 1 [⟨S409600x1, u 0⟩, ⟨S409600x1, u 1⟩, ⟨S409600x1, u 2⟩] concatenates_S409600x1_S409600x1_S409600x1_S409600x3_d1),
    ternary main_v0 main_v26 main_v7 main_v27 ((fun x i u => Host.scatter scatter_S2x640x640_S409600x3_S409600_n_012_012_1 (fun _ b => b) x i u) : (⟨S2x640x640, .i32⟩ : BufTy).Contents (Elt F) → (⟨S409600x3, .i32⟩ : BufTy).Contents (Elt F) → (⟨S409600, .i32⟩ : BufTy).Contents (Elt F) → (⟨S2x640x640, .i32⟩ : BufTy).Contents (Elt F)),
    unary main_arg1 main_v28 ((extractStridedSlice S409600x1 ![0, 0] · slices_S409600x3_S409600x1_0_0) : (⟨S409600x3, .i32⟩ : BufTy).Contents (Elt F) → (⟨S409600x1, .i32⟩ : BufTy).Contents (Elt F)),
    reshape main_v28 main_v29 rfl shapeCasts_S409600x1_S409600,
    unary main_arg1 main_v30 ((extractStridedSlice S409600x1 ![0, 1] · slices_S409600x3_S409600x1_0_1) : (⟨S409600x3, .i32⟩ : BufTy).Contents (Elt F) → (⟨S409600x1, .i32⟩ : BufTy).Contents (Elt F)),
    reshape main_v30 main_v31 rfl shapeCasts_S409600x1_S409600,
    unary main_arg1 main_v32 ((extractStridedSlice S409600x1 ![0, 2] · slices_S409600x3_S409600x1_0_2) : (⟨S409600x3, .i32⟩ : BufTy).Contents (Elt F) → (⟨S409600x1, .i32⟩ : BufTy).Contents (Elt F)),
    reshape main_v32 main_v33 rfl shapeCasts_S409600x1_S409600,
    nullary main_cst (constant S_ .f32 0x00000000#32),
    unary main_cst main_v34 (broadcastInDim S409600x64 ![] bcast_S_S409600x64 : (⟨S_, .f32⟩ : BufTy).Contents (Elt F) → (⟨S409600x64, .f32⟩ : BufTy).Contents (Elt F)),
    nullary main_c_6 (constantI S_ 32 4294967295#32),
    unary main_c_6 main_v35 (broadcastInDim S409600 ![] bcast_S_S409600 : (⟨S_, .i32⟩ : BufTy).Contents (Elt F) → (⟨S409600, .i32⟩ : BufTy).Contents (Elt F)),
    binary main_v31 main_v35 main_v36 (addi : (⟨S409600, .i32⟩ : BufTy).Contents (Elt F) → (⟨S409600, .i32⟩ : BufTy).Contents (Elt F) → (⟨S409600, .i32⟩ : BufTy).Contents (Elt F)),
    nullary main_c_7 (constantI S_ 32 4294967295#32),
    unary main_c_7 main_v37 (broadcastInDim S409600 ![] bcast_S_S409600 : (⟨S_, .i32⟩ : BufTy).Contents (Elt F) → (⟨S409600, .i32⟩ : BufTy).Contents (Elt F)),
    binary main_v33 main_v37 main_v38 (addi : (⟨S409600, .i32⟩ : BufTy).Contents (Elt F) → (⟨S409600, .i32⟩ : BufTy).Contents (Elt F) → (⟨S409600, .i32⟩ : BufTy).Contents (Elt F)),
    nullary main_c_8 (constantI S_ 32 0#32),
    unary main_c_8 main_v39 (broadcastInDim S409600 ![] bcast_S_S409600 : (⟨S_, .i32⟩ : BufTy).Contents (Elt F) → (⟨S409600, .i32⟩ : BufTy).Contents (Elt F)),
    binary main_v36 main_v39 main_v40 (cmpi .sge : (⟨S409600, .i32⟩ : BufTy).Contents (Elt F) → (⟨S409600, .i32⟩ : BufTy).Contents (Elt F) → (⟨S409600, .i1⟩ : BufTy).Contents (Elt F)),
    nullary main_c_9 (constantI S_ 32 640#32),
    unary main_c_9 main_v41 (broadcastInDim S409600 ![] bcast_S_S409600 : (⟨S_, .i32⟩ : BufTy).Contents (Elt F) → (⟨S409600, .i32⟩ : BufTy).Contents (Elt F)),
    binary main_v36 main_v41 main_v42 (cmpi .slt : (⟨S409600, .i32⟩ : BufTy).Contents (Elt F) → (⟨S409600, .i32⟩ : BufTy).Contents (Elt F) → (⟨S409600, .i1⟩ : BufTy).Contents (Elt F)),
    binary main_v40 main_v42 main_v43 (andi : (⟨S409600, .i1⟩ : BufTy).Contents (Elt F) → (⟨S409600, .i1⟩ : BufTy).Contents (Elt F) → (⟨S409600, .i1⟩ : BufTy).Contents (Elt F)),
    nullary main_c_10 (constantI S_ 32 0#32),
    unary main_c_10 main_v44 (broadcastInDim S409600 ![] bcast_S_S409600 : (⟨S_, .i32⟩ : BufTy).Contents (Elt F) → (⟨S409600, .i32⟩ : BufTy).Contents (Elt F)),
    binary main_v38 main_v44 main_v45 (cmpi .sge : (⟨S409600, .i32⟩ : BufTy).Contents (Elt F) → (⟨S409600, .i32⟩ : BufTy).Contents (Elt F) → (⟨S409600, .i1⟩ : BufTy).Contents (Elt F)),
    binary main_v43 main_v45 main_v46 (andi : (⟨S409600, .i1⟩ : BufTy).Contents (Elt F) → (⟨S409600, .i1⟩ : BufTy).Contents (Elt F) → (⟨S409600, .i1⟩ : BufTy).Contents (Elt F)) ]

set_option maxRecDepth 8192 in
set_option maxHeartbeats 4000000 in
theorem main_part0_eq (c : Dev nD) : main_part0 (F := F) c = seq ops_p0 := by
  simp only [main_part0, ops_p0, fn_clip.body, fn_where.body, fn_where_0.body, fn_relu.body, seq, bind_assoc, pure_bind]
  rfl

set_option maxRecDepth 8192 in
theorem ops_p0_sub : (ops_p0 : List (HloOp τ sig (Elt F))).Forall fun op => op.bufs ⊆ tcRefs τ sig :=
  ⟨nullary_bufs_sub .., unary_bufs_sub .., unary_bufs_sub .., reshape_bufs_sub .., unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., ternary_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩

set_option maxRecDepth 8192 in
theorem ops_p0_fresh : ∀ op ∈ (ops_p0 : List (HloOp τ sig (Elt F))), op.fresh = ∅ := by
  unfold ops_p0; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 9 on hold before it. -/
structure Inv0_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v0 : V (Proc.devRef .tc main_v0) = val_main_v0 (F := F)
  main_v2 : V (Proc.devRef .tc main_v2) = val_main_v2 (F := F) x1
  main_v4 : V (Proc.devRef .tc main_v4) = val_main_v4 (F := F) x1
  main_v6 : V (Proc.devRef .tc main_v6) = val_main_v6 (F := F) x1

/-- What the buffers read from operation 17 on hold before it. -/
structure Inv0_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v0 : V (Proc.devRef .tc main_v0) = val_main_v0 (F := F)
  main_v4 : V (Proc.devRef .tc main_v4) = val_main_v4 (F := F) x1
  main_v6 : V (Proc.devRef .tc main_v6) = val_main_v6 (F := F) x1
  main_v7 : V (Proc.devRef .tc main_v7) = val_main_v7 (F := F)
  main_v12 : V (Proc.devRef .tc main_v12) = val_main_v12 (F := F) x1

/-- What the buffers read from operation 25 on hold before it. -/
structure Inv0_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v0 : V (Proc.devRef .tc main_v0) = val_main_v0 (F := F)
  main_v6 : V (Proc.devRef .tc main_v6) = val_main_v6 (F := F) x1
  main_v7 : V (Proc.devRef .tc main_v7) = val_main_v7 (F := F)
  main_v12 : V (Proc.devRef .tc main_v12) = val_main_v12 (F := F) x1
  main_v17 : V (Proc.devRef .tc main_v17) = val_main_v17 (F := F) x1
  main_c_4 : V (Proc.devRef .tc main_c_4) = val_main_c_4 (F := F)

/-- What the buffers read from operation 33 on hold before it. -/
structure Inv0_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v0 : V (Proc.devRef .tc main_v0) = val_main_v0 (F := F)
  main_v7 : V (Proc.devRef .tc main_v7) = val_main_v7 (F := F)
  main_v22 : V (Proc.devRef .tc main_v22) = val_main_v22 (F := F) x1
  main_v23 : V (Proc.devRef .tc main_v23) = val_main_v23 (F := F) x1
  main_v24 : V (Proc.devRef .tc main_v24) = val_main_v24 (F := F) x1

/-- What the buffers read from operation 41 on hold before it. -/
structure Inv0_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v32 : V (Proc.devRef .tc main_v32) = val_main_v32 (F := F) x1

/-- What the buffers read from operation 49 on hold before it. -/
structure Inv0_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v36 : V (Proc.devRef .tc main_v36) = val_main_v36 (F := F) x1
  main_v37 : V (Proc.devRef .tc main_v37) = val_main_v37 (F := F)

/-- What the buffers read from operation 57 on hold before it. -/
structure Inv0_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v36 : V (Proc.devRef .tc main_v36) = val_main_v36 (F := F) x1
  main_v38 : V (Proc.devRef .tc main_v38) = val_main_v38 (F := F) x1
  main_v43 : V (Proc.devRef .tc main_v43) = val_main_v43 (F := F) x1

/-- Stretch 0 of window 0: @main's operations 1 … 8. -/
def ops_p0_0 : List (HloOp τ sig (Elt F)) :=
  [ nullary main_c (constantI S_ 32 4294967295#32),
    unary main_c main_v0 (broadcastInDim S2x640x640 ![] bcast_S_S2x640x640 : (⟨S_, .i32⟩ : BufTy).Contents (Elt F) → (⟨S2x640x640, .i32⟩ : BufTy).Contents (Elt F)),
    unary main_arg1 main_v1 ((extractStridedSlice S409600x1 ![0, 0] · slices_S409600x3_S409600x1_0_0) : (⟨S409600x3, .i32⟩ : BufTy).Contents (Elt F) → (⟨S409600x1, .i32⟩ : BufTy).Contents (Elt F)),
    reshape main_v1 main_v2 rfl shapeCasts_S409600x1_S409600,
    unary main_arg1 main_v3 ((extractStridedSlice S409600x1 ![0, 1] · slices_S409600x3_S409600x1_0_1) : (⟨S409600x3, .i32⟩ : BufTy).Contents (Elt F) → (⟨S409600x1, .i32⟩ : BufTy).Contents (Elt F)),
    reshape main_v3 main_v4 rfl shapeCasts_S409600x1_S409600,
    unary main_arg1 main_v5 ((extractStridedSlice S409600x1 ![0, 2] · slices_S409600x3_S409600x1_0_2) : (⟨S409600x3, .i32⟩ : BufTy).Contents (Elt F) → (⟨S409600x1, .i32⟩ : BufTy).Contents (Elt F)),
    reshape main_v5 main_v6 rfl shapeCasts_S409600x1_S409600 ]
abbrev ops_p0_0_W : List (Ref sig .tc) := [main_c, main_v0, main_v1, main_v2, main_v3, main_v4, main_v5, main_v6]
theorem ops_p0_0_writes : (ops_p0_0 : List (HloOp τ sig (Elt F))).Forall fun op => op.writes ⊆ (ops_p0_0_W.map (Proc.devRef (τ := τ) .tc)).toFinset := by
  simp only [ops_p0_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p0_0_keep (V : Valuation τ sig (Elt F)) (r : Ref sig .tc) (h : r ∉ ops_p0_0_W) :
    after ops_p0_0 V (Proc.devRef .tc r) = V (Proc.devRef .tc r) :=
  after_of_writes_sub ops_p0_0 _ ops_p0_0_writes h

set_option maxRecDepth 8192 in
set_option maxHeartbeats 1000000 in
theorem w0_0_main_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0 V x0 x1 x2 x3 x4 x5 x6) :
    after ops_p0_0 V (Proc.devRef .tc main_v0) = val_main_v0 (F := F) := by
  simp only [ops_p0_0]
  after_results_w
  rfl

set_option maxRecDepth 8192 in
set_option maxHeartbeats 1000000 in
theorem w0_0_main_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0 V x0 x1 x2 x3 x4 x5 x6) :
    after ops_p0_0 V (Proc.devRef .tc main_v2) = val_main_v2 (F := F) x1 := by
  simp only [ops_p0_0]
  after_results_w
  simp only [h.main_arg1]
  rfl

set_option maxRecDepth 8192 in
set_option maxHeartbeats 1000000 in
theorem w0_0_main_v4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0 V x0 x1 x2 x3 x4 x5 x6) :
    after ops_p0_0 V (Proc.devRef .tc main_v4) = val_main_v4 (F := F) x1 := by
  simp only [ops_p0_0]
  after_results_w
  simp only [h.main_arg1]
  rfl

set_option maxRecDepth 8192 in
set_option maxHeartbeats 1000000 in
theorem w0_0_main_v6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0 V x0 x1 x2 x3 x4 x5 x6) :
    after ops_p0_0 V (Proc.devRef .tc main_v6) = val_main_v6 (F := F) x1 := by
  simp only [ops_p0_0]
  after_results_w
  simp only [h.main_arg1]
  rfl

theorem step0_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0 V x0 x1 x2 x3 x4 x5 x6) : Inv0_1 (after ops_p0_0 V) x0 x1 x2 x3 x4 x5 x6 where
  main_arg0 := (ops_p0_0_keep V main_arg0 (by decide)).trans h.main_arg0
  main_arg1 := (ops_p0_0_keep V main_arg1 (by decide)).trans h.main_arg1
  main_arg2 := (ops_p0_0_keep V main_arg2 (by decide)).trans h.main_arg2
  main_arg3 := (ops_p0_0_keep V main_arg3 (by decide)).trans h.main_arg3
  main_arg4 := (ops_p0_0_keep V main_arg4 (by decide)).trans h.main_arg4
  main_arg5 := (ops_p0_0_keep V main_arg5 (by decide)).trans h.main_arg5
  main_arg6 := (ops_p0_0_keep V main_arg6 (by decide)).trans h.main_arg6
  main_v0 := w0_0_main_v0 V x0 x1 x2 x3 x4 x5 x6 h
  main_v2 := w0_0_main_v2 V x0 x1 x2 x3 x4 x5 x6 h
  main_v4 := w0_0_main_v4 V x0 x1 x2 x3 x4 x5 x6 h
  main_v6 := w0_0_main_v6 V x0 x1 x2 x3 x4 x5 x6 h

/-- Stretch 1 of window 0: @main's operations 9 … 16. -/
def ops_p0_1 : List (HloOp τ sig (Elt F)) :=
  [ nullary main_v7 (iotaInDim S409600 32 0),
    nullary main_c_0 (constantI S_ 32 0#32),
    unary main_c_0 main_v8 (broadcastInDim S409600 ![] bcast_S_S409600 : (⟨S_, .i32⟩ : BufTy).Contents (Elt F) → (⟨S409600, .i32⟩ : BufTy).Contents (Elt F)),
    binary main_v2 main_v8 main_v9 (cmpi .slt : (⟨S409600, .i32⟩ : BufTy).Contents (Elt F) → (⟨S409600, .i32⟩ : BufTy).Contents (Elt F) → (⟨S409600, .i1⟩ : BufTy).Contents (Elt F)),
    nullary main_c_1 (constantI S_ 32 2#32),
    unary main_c_1 main_v10 (broadcastInDim S409600 ![] bcast_S_S409600 : (⟨S_, .i32⟩ : BufTy).Contents (Elt F) → (⟨S409600, .i32⟩ : BufTy).Contents (Elt F)),
    binary main_v2 main_v10 main_v11 (addi : (⟨S409600, .i32⟩ : BufTy).Contents (Elt F) → (⟨S409600, .i32⟩ : BufTy).Contents (Elt F) → (⟨S409600, .i32⟩ : BufTy).Contents (Elt F)),
    ternary main_v9 main_v11 main_v2 main_v12 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)) ]
abbrev ops_p0_1_W : List (Ref sig .tc) := [main_v7, main_c_0, main_v8, main_v9, main_c_1, main_v10, main_v11, main_v12]
theorem ops_p0_1_writes : (ops_p0_1 : List (HloOp τ sig (Elt F))).Forall fun op => op.writes ⊆ (ops_p0_1_W.map (Proc.devRef (τ := τ) .tc)).toFinset := by
  simp only [ops_p0_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p0_1_keep (V : Valuation τ sig (Elt F)) (r : Ref sig .tc) (h : r ∉ ops_p0_1_W) :
    after ops_p0_1 V (Proc.devRef .tc r) = V (Proc.devRef .tc r) :=
  after_of_writes_sub ops_p0_1 _ ops_p0_1_writes h

set_option maxRecDepth 8192 in
set_option maxHeartbeats 1000000 in
theorem w0_1_main_v7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_1 V x0 x1 x2 x3 x4 x5 x6) :
    after ops_p0_1 V (Proc.devRef .tc main_v7) = val_main_v7 (F := F) := by
  simp only [ops_p0_1]
  after_results_w
  rfl

set_option maxRecDepth 8192 in
set_option maxHeartbeats 1000000 in
theorem w0_1_main_v12 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_1 V x0 x1 x2 x3 x4 x5 x6) :
    after ops_p0_1 V (Proc.devRef .tc main_v12) = val_main_v12 (F := F) x1 := by
  simp only [ops_p0_1]
  after_results_w
  simp only [h.main_v2]
  rfl

theorem step0_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_1 V x0 x1 x2 x3 x4 x5 x6) : Inv0_2 (after ops_p0_1 V) x0 x1 x2 x3 x4 x5 x6 where
  main_arg0 := (ops_p0_1_keep V main_arg0 (by decide)).trans h.main_arg0
  main_arg1 := (ops_p0_1_keep V main_arg1 (by decide)).trans h.main_arg1
  main_arg2 := (ops_p0_1_keep V main_arg2 (by decide)).trans h.main_arg2
  main_arg3 := (ops_p0_1_keep V main_arg3 (by decide)).trans h.main_arg3
  main_arg4 := (ops_p0_1_keep V main_arg4 (by decide)).trans h.main_arg4
  main_arg5 := (ops_p0_1_keep V main_arg5 (by decide)).trans h.main_arg5
  main_arg6 := (ops_p0_1_keep V main_arg6 (by decide)).trans h.main_arg6
  main_v0 := (ops_p0_1_keep V main_v0 (by decide)).trans h.main_v0
  main_v4 := (ops_p0_1_keep V main_v4 (by decide)).trans h.main_v4
  main_v6 := (ops_p0_1_keep V main_v6 (by decide)).trans h.main_v6
  main_v7 := w0_1_main_v7 V x0 x1 x2 x3 x4 x5 x6 h
  main_v12 := w0_1_main_v12 V x0 x1 x2 x3 x4 x5 x6 h

/-- Stretch 2 of window 0: @main's operations 17 … 24. -/
def ops_p0_2 : List (HloOp τ sig (Elt F)) :=
  [ nullary main_c_2 (constantI S_ 32 0#32),
    unary main_c_2 main_v13 (broadcastInDim S409600 ![] bcast_S_S409600 : (⟨S_, .i32⟩ : BufTy).Contents (Elt F) → (⟨S409600, .i32⟩ : BufTy).Contents (Elt F)),
    binary main_v4 main_v13 main_v14 (cmpi .slt : (⟨S409600, .i32⟩ : BufTy).Contents (Elt F) → (⟨S409600, .i32⟩ : BufTy).Contents (Elt F) → (⟨S409600, .i1⟩ : BufTy).Contents (Elt F)),
    nullary main_c_3 (constantI S_ 32 640#32),
    unary main_c_3 main_v15 (broadcastInDim S409600 ![] bcast_S_S409600 : (⟨S_, .i32⟩ : BufTy).Contents (Elt F) → (⟨S409600, .i32⟩ : BufTy).Contents (Elt F)),
    binary main_v4 main_v15 main_v16 (addi : (⟨S409600, .i32⟩ : BufTy).Contents (Elt F) → (⟨S409600, .i32⟩ : BufTy).Contents (Elt F) → (⟨S409600, .i32⟩ : BufTy).Contents (Elt F)),
    ternary main_v14 main_v16 main_v4 main_v17 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_4 (constantI S_ 32 0#32) ]
abbrev ops_p0_2_W : List (Ref sig .tc) := [main_c_2, main_v13, main_v14, main_c_3, main_v15, main_v16, main_v17, main_c_4]
theorem ops_p0_2_writes : (ops_p0_2 : List (HloOp τ sig (Elt F))).Forall fun op => op.writes ⊆ (ops_p0_2_W.map (Proc.devRef (τ := τ) .tc)).toFinset := by
  simp only [ops_p0_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p0_2_keep (V : Valuation τ sig (Elt F)) (r : Ref sig .tc) (h : r ∉ ops_p0_2_W) :
    after ops_p0_2 V (Proc.devRef .tc r) = V (Proc.devRef .tc r) :=
  after_of_writes_sub ops_p0_2 _ ops_p0_2_writes h

set_option maxRecDepth 8192 in
set_option maxHeartbeats 1000000 in
theorem w0_2_main_v17 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_2 V x0 x1 x2 x3 x4 x5 x6) :
    after ops_p0_2 V (Proc.devRef .tc main_v17) = val_main_v17 (F := F) x1 := by
  simp only [ops_p0_2]
  after_results_w
  simp only [h.main_v4]
  rfl

set_option maxRecDepth 8192 in
set_option maxHeartbeats 1000000 in
theorem w0_2_main_c_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_2 V x0 x1 x2 x3 x4 x5 x6) :
    after ops_p0_2 V (Proc.devRef .tc main_c_4) = val_main_c_4 (F := F) := by
  simp only [ops_p0_2]
  after_results_w
  rfl

theorem step0_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_2 V x0 x1 x2 x3 x4 x5 x6) : Inv0_3 (after ops_p0_2 V) x0 x1 x2 x3 x4 x5 x6 where
  main_arg0 := (ops_p0_2_keep V main_arg0 (by decide)).trans h.main_arg0
  main_arg1 := (ops_p0_2_keep V main_arg1 (by decide)).trans h.main_arg1
  main_arg2 := (ops_p0_2_keep V main_arg2 (by decide)).trans h.main_arg2
  main_arg3 := (ops_p0_2_keep V main_arg3 (by decide)).trans h.main_arg3
  main_arg4 := (ops_p0_2_keep V main_arg4 (by decide)).trans h.main_arg4
  main_arg5 := (ops_p0_2_keep V main_arg5 (by decide)).trans h.main_arg5
  main_arg6 := (ops_p0_2_keep V main_arg6 (by decide)).trans h.main_arg6
  main_v0 := (ops_p0_2_keep V main_v0 (by decide)).trans h.main_v0
  main_v6 := (ops_p0_2_keep V main_v6 (by decide)).trans h.main_v6
  main_v7 := (ops_p0_2_keep V main_v7 (by decide)).trans h.main_v7
  main_v12 := (ops_p0_2_keep V main_v12 (by decide)).trans h.main_v12
  main_v17 := w0_2_main_v17 V x0 x1 x2 x3 x4 x5 x6 h
  main_c_4 := w0_2_main_c_4 V x0 x1 x2 x3 x4 x5 x6 h

/-- Stretch 3 of window 0: @main's operations 25 … 32. -/
def ops_p0_3 : List (HloOp τ sig (Elt F)) :=
  [ unary main_c_4 main_v18 (broadcastInDim S409600 ![] bcast_S_S409600 : (⟨S_, .i32⟩ : BufTy).Contents (Elt F) → (⟨S409600, .i32⟩ : BufTy).Contents (Elt F)),
    binary main_v6 main_v18 main_v19 (cmpi .slt : (⟨S409600, .i32⟩ : BufTy).Contents (Elt F) → (⟨S409600, .i32⟩ : BufTy).Contents (Elt F) → (⟨S409600, .i1⟩ : BufTy).Contents (Elt F)),
    nullary main_c_5 (constantI S_ 32 640#32),
    unary main_c_5 main_v20 (broadcastInDim S409600 ![] bcast_S_S409600 : (⟨S_, .i32⟩ : BufTy).Contents (Elt F) → (⟨S409600, .i32⟩ : BufTy).Contents (Elt F)),
    binary main_v6 main_v20 main_v21 (addi : (⟨S409600, .i32⟩ : BufTy).Contents (Elt F) → (⟨S409600, .i32⟩ : BufTy).Contents (Elt F) → (⟨S409600, .i32⟩ : BufTy).Contents (Elt F)),
    ternary main_v19 main_v21 main_v6 main_v22 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v12 main_v23 (broadcastInDim S409600x1 ![0] bcast_S409600_S409600x1_0 : (⟨S409600, .i32⟩ : BufTy).Contents (Elt F) → (⟨S409600x1, .i32⟩ : BufTy).Contents (Elt F)),
    unary main_v17 main_v24 (broadcastInDim S409600x1 ![0] bcast_S409600_S409600x1_0 : (⟨S409600, .i32⟩ : BufTy).Contents (Elt F) → (⟨S409600x1, .i32⟩ : BufTy).Contents (Elt F)) ]
abbrev ops_p0_3_W : List (Ref sig .tc) := [main_v18, main_v19, main_c_5, main_v20, main_v21, main_v22, main_v23, main_v24]
theorem ops_p0_3_writes : (ops_p0_3 : List (HloOp τ sig (Elt F))).Forall fun op => op.writes ⊆ (ops_p0_3_W.map (Proc.devRef (τ := τ) .tc)).toFinset := by
  simp only [ops_p0_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p0_3_keep (V : Valuation τ sig (Elt F)) (r : Ref sig .tc) (h : r ∉ ops_p0_3_W) :
    after ops_p0_3 V (Proc.devRef .tc r) = V (Proc.devRef .tc r) :=
  after_of_writes_sub ops_p0_3 _ ops_p0_3_writes h

set_option maxRecDepth 8192 in
set_option maxHeartbeats 1000000 in
theorem w0_3_main_v22 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_3 V x0 x1 x2 x3 x4 x5 x6) :
    after ops_p0_3 V (Proc.devRef .tc main_v22) = val_main_v22 (F := F) x1 := by
  simp only [ops_p0_3]
  after_results_w
  simp only [h.main_v6, h.main_c_4]
  rfl

set_option maxRecDepth 8192 in
set_option maxHeartbeats 1000000 in
theorem w0_3_main_v23 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_3 V x0 x1 x2 x3 x4 x5 x6) :
    after ops_p0_3 V (Proc.devRef .tc main_v23) = val_main_v23 (F := F) x1 := by
  simp only [ops_p0_3]
  after_results_w
  simp only [h.main_v12]
  rfl

set_option maxRecDepth 8192 in
set_option maxHeartbeats 1000000 in
theorem w0_3_main_v24 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_3 V x0 x1 x2 x3 x4 x5 x6) :
    after ops_p0_3 V (Proc.devRef .tc main_v24) = val_main_v24 (F := F) x1 := by
  simp only [ops_p0_3]
  after_results_w
  simp only [h.main_v17]
  rfl

theorem step0_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_3 V x0 x1 x2 x3 x4 x5 x6) : Inv0_4 (after ops_p0_3 V) x0 x1 x2 x3 x4 x5 x6 where
  main_arg0 := (ops_p0_3_keep V main_arg0 (by decide)).trans h.main_arg0
  main_arg1 := (ops_p0_3_keep V main_arg1 (by decide)).trans h.main_arg1
  main_arg2 := (ops_p0_3_keep V main_arg2 (by decide)).trans h.main_arg2
  main_arg3 := (ops_p0_3_keep V main_arg3 (by decide)).trans h.main_arg3
  main_arg4 := (ops_p0_3_keep V main_arg4 (by decide)).trans h.main_arg4
  main_arg5 := (ops_p0_3_keep V main_arg5 (by decide)).trans h.main_arg5
  main_arg6 := (ops_p0_3_keep V main_arg6 (by decide)).trans h.main_arg6
  main_v0 := (ops_p0_3_keep V main_v0 (by decide)).trans h.main_v0
  main_v7 := (ops_p0_3_keep V main_v7 (by decide)).trans h.main_v7
  main_v22 := w0_3_main_v22 V x0 x1 x2 x3 x4 x5 x6 h
  main_v23 := w0_3_main_v23 V x0 x1 x2 x3 x4 x5 x6 h
  main_v24 := w0_3_main_v24 V x0 x1 x2 x3 x4 x5 x6 h

/-- Stretch 4 of window 0: @main's operations 33 … 40. -/
def ops_p0_4 : List (HloOp τ sig (Elt F)) :=
  [ unary main_v22 main_v25 (broadcastInDim S409600x1 ![0] bcast_S409600_S409600x1_0 : (⟨S409600, .i32⟩ : BufTy).Contents (Elt F) → (⟨S409600x1, .i32⟩ : BufTy).Contents (Elt F)),
    nary ![main_v23, main_v24, main_v25] main_v26 (fun u => concatenate S409600x3 1 [⟨S409600x1, u 0⟩, ⟨S409600x1, u 1⟩, ⟨S409600x1, u 2⟩] concatenates_S409600x1_S409600x1_S409600x1_S409600x3_d1),
    ternary main_v0 main_v26 main_v7 main_v27 ((fun x i u => Host.scatter scatter_S2x640x640_S409600x3_S409600_n_012_012_1 (fun _ b => b) x i u) : (⟨S2x640x640, .i32⟩ : BufTy).Contents (Elt F) → (⟨S409600x3, .i32⟩ : BufTy).Contents (Elt F) → (⟨S409600, .i32⟩ : BufTy).Contents (Elt F) → (⟨S2x640x640, .i32⟩ : BufTy).Contents (Elt F)),
    unary main_arg1 main_v28 ((extractStridedSlice S409600x1 ![0, 0] · slices_S409600x3_S409600x1_0_0) : (⟨S409600x3, .i32⟩ : BufTy).Contents (Elt F) → (⟨S409600x1, .i32⟩ : BufTy).Contents (Elt F)),
    reshape main_v28 main_v29 rfl shapeCasts_S409600x1_S409600,
    unary main_arg1 main_v30 ((extractStridedSlice S409600x1 ![0, 1] · slices_S409600x3_S409600x1_0_1) : (⟨S409600x3, .i32⟩ : BufTy).Contents (Elt F) → (⟨S409600x1, .i32⟩ : BufTy).Contents (Elt F)),
    reshape main_v30 main_v31 rfl shapeCasts_S409600x1_S409600,
    unary main_arg1 main_v32 ((extractStridedSlice S409600x1 ![0, 2] · slices_S409600x3_S409600x1_0_2) : (⟨S409600x3, .i32⟩ : BufTy).Contents (Elt F) → (⟨S409600x1, .i32⟩ : BufTy).Contents (Elt F)) ]
abbrev ops_p0_4_W : List (Ref sig .tc) := [main_v25, main_v26, main_v27, main_v28, main_v29, main_v30, main_v31, main_v32]
theorem ops_p0_4_writes : (ops_p0_4 : List (HloOp τ sig (Elt F))).Forall fun op => op.writes ⊆ (ops_p0_4_W.map (Proc.devRef (τ := τ) .tc)).toFinset := by
  simp only [ops_p0_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p0_4_keep (V : Valuation τ sig (Elt F)) (r : Ref sig .tc) (h : r ∉ ops_p0_4_W) :
    after ops_p0_4 V (Proc.devRef .tc r) = V (Proc.devRef .tc r) :=
  after_of_writes_sub ops_p0_4 _ ops_p0_4_writes h

set_option maxRecDepth 8192 in
set_option maxHeartbeats 1000000 in
theorem w0_4_main_v27 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_4 V x0 x1 x2 x3 x4 x5 x6) :
    after ops_p0_4 V (Proc.devRef .tc main_v27) = val_main_v27 (F := F) x1 := by
  simp only [ops_p0_4]
  after_results_w
  simp only [h.main_v7, h.main_v22, h.main_v24, h.main_v23, h.main_v0]
  rfl

set_option maxRecDepth 8192 in
set_option maxHeartbeats 1000000 in
theorem w0_4_main_v29 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_4 V x0 x1 x2 x3 x4 x5 x6) :
    after ops_p0_4 V (Proc.devRef .tc main_v29) = val_main_v29 (F := F) x1 := by
  simp only [ops_p0_4]
  after_results_w
  simp only [h.main_arg1]
  rfl

set_option maxRecDepth 8192 in
set_option maxHeartbeats 1000000 in
theorem w0_4_main_v31 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_4 V x0 x1 x2 x3 x4 x5 x6) :
    after ops_p0_4 V (Proc.devRef .tc main_v31) = val_main_v31 (F := F) x1 := by
  simp only [ops_p0_4]
  after_results_w
  simp only [h.main_arg1]
  rfl

set_option maxRecDepth 8192 in
set_option maxHeartbeats 1000000 in
theorem w0_4_main_v32 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_4 V x0 x1 x2 x3 x4 x5 x6) :
    after ops_p0_4 V (Proc.devRef .tc main_v32) = val_main_v32 (F := F) x1 := by
  simp only [ops_p0_4]
  after_results_w
  simp only [h.main_arg1]
  rfl

theorem step0_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_4 V x0 x1 x2 x3 x4 x5 x6) : Inv0_5 (after ops_p0_4 V) x0 x1 x2 x3 x4 x5 x6 where
  main_arg0 := (ops_p0_4_keep V main_arg0 (by decide)).trans h.main_arg0
  main_arg1 := (ops_p0_4_keep V main_arg1 (by decide)).trans h.main_arg1
  main_arg2 := (ops_p0_4_keep V main_arg2 (by decide)).trans h.main_arg2
  main_arg3 := (ops_p0_4_keep V main_arg3 (by decide)).trans h.main_arg3
  main_arg4 := (ops_p0_4_keep V main_arg4 (by decide)).trans h.main_arg4
  main_arg5 := (ops_p0_4_keep V main_arg5 (by decide)).trans h.main_arg5
  main_arg6 := (ops_p0_4_keep V main_arg6 (by decide)).trans h.main_arg6
  main_v27 := w0_4_main_v27 V x0 x1 x2 x3 x4 x5 x6 h
  main_v29 := w0_4_main_v29 V x0 x1 x2 x3 x4 x5 x6 h
  main_v31 := w0_4_main_v31 V x0 x1 x2 x3 x4 x5 x6 h
  main_v32 := w0_4_main_v32 V x0 x1 x2 x3 x4 x5 x6 h

/-- Stretch 5 of window 0: @main's operations 41 … 48. -/
def ops_p0_5 : List (HloOp τ sig (Elt F)) :=
  [ reshape main_v32 main_v33 rfl shapeCasts_S409600x1_S409600,
    nullary main_cst (constant S_ .f32 0x00000000#32),
    unary main_cst main_v34 (broadcastInDim S409600x64 ![] bcast_S_S409600x64 : (⟨S_, .f32⟩ : BufTy).Contents (Elt F) → (⟨S409600x64, .f32⟩ : BufTy).Contents (Elt F)),
    nullary main_c_6 (constantI S_ 32 4294967295#32),
    unary main_c_6 main_v35 (broadcastInDim S409600 ![] bcast_S_S409600 : (⟨S_, .i32⟩ : BufTy).Contents (Elt F) → (⟨S409600, .i32⟩ : BufTy).Contents (Elt F)),
    binary main_v31 main_v35 main_v36 (addi : (⟨S409600, .i32⟩ : BufTy).Contents (Elt F) → (⟨S409600, .i32⟩ : BufTy).Contents (Elt F) → (⟨S409600, .i32⟩ : BufTy).Contents (Elt F)),
    nullary main_c_7 (constantI S_ 32 4294967295#32),
    unary main_c_7 main_v37 (broadcastInDim S409600 ![] bcast_S_S409600 : (⟨S_, .i32⟩ : BufTy).Contents (Elt F) → (⟨S409600, .i32⟩ : BufTy).Contents (Elt F)) ]
abbrev ops_p0_5_W : List (Ref sig .tc) := [main_v33, main_cst, main_v34, main_c_6, main_v35, main_v36, main_c_7, main_v37]
theorem ops_p0_5_writes : (ops_p0_5 : List (HloOp τ sig (Elt F))).Forall fun op => op.writes ⊆ (ops_p0_5_W.map (Proc.devRef (τ := τ) .tc)).toFinset := by
  simp only [ops_p0_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p0_5_keep (V : Valuation τ sig (Elt F)) (r : Ref sig .tc) (h : r ∉ ops_p0_5_W) :
    after ops_p0_5 V (Proc.devRef .tc r) = V (Proc.devRef .tc r) :=
  after_of_writes_sub ops_p0_5 _ ops_p0_5_writes h

set_option maxRecDepth 8192 in
set_option maxHeartbeats 1000000 in
theorem w0_5_main_v33 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_5 V x0 x1 x2 x3 x4 x5 x6) :
    after ops_p0_5 V (Proc.devRef .tc main_v33) = val_main_v33 (F := F) x1 := by
  simp only [ops_p0_5]
  after_results_w
  simp only [h.main_v32]
  rfl

set_option maxRecDepth 8192 in
set_option maxHeartbeats 1000000 in
theorem w0_5_main_v34 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_5 V x0 x1 x2 x3 x4 x5 x6) :
    after ops_p0_5 V (Proc.devRef .tc main_v34) = val_main_v34 (F := F) := by
  simp only [ops_p0_5]
  after_results_w
  rfl

set_option maxRecDepth 8192 in
set_option maxHeartbeats 1000000 in
theorem w0_5_main_v36 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_5 V x0 x1 x2 x3 x4 x5 x6) :
    after ops_p0_5 V (Proc.devRef .tc main_v36) = val_main_v36 (F := F) x1 := by
  simp only [ops_p0_5]
  after_results_w
  simp only [h.main_v31]
  rfl

set_option maxRecDepth 8192 in
set_option maxHeartbeats 1000000 in
theorem w0_5_main_v37 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_5 V x0 x1 x2 x3 x4 x5 x6) :
    after ops_p0_5 V (Proc.devRef .tc main_v37) = val_main_v37 (F := F) := by
  simp only [ops_p0_5]
  after_results_w
  rfl

theorem step0_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_5 V x0 x1 x2 x3 x4 x5 x6) : Inv0_6 (after ops_p0_5 V) x0 x1 x2 x3 x4 x5 x6 where
  main_arg0 := (ops_p0_5_keep V main_arg0 (by decide)).trans h.main_arg0
  main_arg1 := (ops_p0_5_keep V main_arg1 (by decide)).trans h.main_arg1
  main_arg2 := (ops_p0_5_keep V main_arg2 (by decide)).trans h.main_arg2
  main_arg3 := (ops_p0_5_keep V main_arg3 (by decide)).trans h.main_arg3
  main_arg4 := (ops_p0_5_keep V main_arg4 (by decide)).trans h.main_arg4
  main_arg5 := (ops_p0_5_keep V main_arg5 (by decide)).trans h.main_arg5
  main_arg6 := (ops_p0_5_keep V main_arg6 (by decide)).trans h.main_arg6
  main_v27 := (ops_p0_5_keep V main_v27 (by decide)).trans h.main_v27
  main_v29 := (ops_p0_5_keep V main_v29 (by decide)).trans h.main_v29
  main_v31 := (ops_p0_5_keep V main_v31 (by decide)).trans h.main_v31
  main_v33 := w0_5_main_v33 V x0 x1 x2 x3 x4 x5 x6 h
  main_v34 := w0_5_main_v34 V x0 x1 x2 x3 x4 x5 x6 h
  main_v36 := w0_5_main_v36 V x0 x1 x2 x3 x4 x5 x6 h
  main_v37 := w0_5_main_v37 V x0 x1 x2 x3 x4 x5 x6 h

/-- Stretch 6 of window 0: @main's operations 49 … 56. -/
def ops_p0_6 : List (HloOp τ sig (Elt F)) :=
  [ binary main_v33 main_v37 main_v38 (addi : (⟨S409600, .i32⟩ : BufTy).Contents (Elt F) → (⟨S409600, .i32⟩ : BufTy).Contents (Elt F) → (⟨S409600, .i32⟩ : BufTy).Contents (Elt F)),
    nullary main_c_8 (constantI S_ 32 0#32),
    unary main_c_8 main_v39 (broadcastInDim S409600 ![] bcast_S_S409600 : (⟨S_, .i32⟩ : BufTy).Contents (Elt F) → (⟨S409600, .i32⟩ : BufTy).Contents (Elt F)),
    binary main_v36 main_v39 main_v40 (cmpi .sge : (⟨S409600, .i32⟩ : BufTy).Contents (Elt F) → (⟨S409600, .i32⟩ : BufTy).Contents (Elt F) → (⟨S409600, .i1⟩ : BufTy).Contents (Elt F)),
    nullary main_c_9 (constantI S_ 32 640#32),
    unary main_c_9 main_v41 (broadcastInDim S409600 ![] bcast_S_S409600 : (⟨S_, .i32⟩ : BufTy).Contents (Elt F) → (⟨S409600, .i32⟩ : BufTy).Contents (Elt F)),
    binary main_v36 main_v41 main_v42 (cmpi .slt : (⟨S409600, .i32⟩ : BufTy).Contents (Elt F) → (⟨S409600, .i32⟩ : BufTy).Contents (Elt F) → (⟨S409600, .i1⟩ : BufTy).Contents (Elt F)),
    binary main_v40 main_v42 main_v43 (andi : (⟨S409600, .i1⟩ : BufTy).Contents (Elt F) → (⟨S409600, .i1⟩ : BufTy).Contents (Elt F) → (⟨S409600, .i1⟩ : BufTy).Contents (Elt F)) ]
abbrev ops_p0_6_W : List (Ref sig .tc) := [main_v38, main_c_8, main_v39, main_v40, main_c_9, main_v41, main_v42, main_v43]
theorem ops_p0_6_writes : (ops_p0_6 : List (HloOp τ sig (Elt F))).Forall fun op => op.writes ⊆ (ops_p0_6_W.map (Proc.devRef (τ := τ) .tc)).toFinset := by
  simp only [ops_p0_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p0_6_keep (V : Valuation τ sig (Elt F)) (r : Ref sig .tc) (h : r ∉ ops_p0_6_W) :
    after ops_p0_6 V (Proc.devRef .tc r) = V (Proc.devRef .tc r) :=
  after_of_writes_sub ops_p0_6 _ ops_p0_6_writes h

set_option maxRecDepth 8192 in
set_option maxHeartbeats 1000000 in
theorem w0_6_main_v38 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_6 V x0 x1 x2 x3 x4 x5 x6) :
    after ops_p0_6 V (Proc.devRef .tc main_v38) = val_main_v38 (F := F) x1 := by
  simp only [ops_p0_6]
  after_results_w
  simp only [h.main_v37, h.main_v33]
  rfl

set_option maxRecDepth 8192 in
set_option maxHeartbeats 1000000 in
theorem w0_6_main_v43 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_6 V x0 x1 x2 x3 x4 x5 x6) :
    after ops_p0_6 V (Proc.devRef .tc main_v43) = val_main_v43 (F := F) x1 := by
  simp only [ops_p0_6]
  after_results_w
  simp only [h.main_v36]
  rfl

theorem step0_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_6 V x0 x1 x2 x3 x4 x5 x6) : Inv0_7 (after ops_p0_6 V) x0 x1 x2 x3 x4 x5 x6 where
  main_arg0 := (ops_p0_6_keep V main_arg0 (by decide)).trans h.main_arg0
  main_arg1 := (ops_p0_6_keep V main_arg1 (by decide)).trans h.main_arg1
  main_arg2 := (ops_p0_6_keep V main_arg2 (by decide)).trans h.main_arg2
  main_arg3 := (ops_p0_6_keep V main_arg3 (by decide)).trans h.main_arg3
  main_arg4 := (ops_p0_6_keep V main_arg4 (by decide)).trans h.main_arg4
  main_arg5 := (ops_p0_6_keep V main_arg5 (by decide)).trans h.main_arg5
  main_arg6 := (ops_p0_6_keep V main_arg6 (by decide)).trans h.main_arg6
  main_v27 := (ops_p0_6_keep V main_v27 (by decide)).trans h.main_v27
  main_v29 := (ops_p0_6_keep V main_v29 (by decide)).trans h.main_v29
  main_v31 := (ops_p0_6_keep V main_v31 (by decide)).trans h.main_v31
  main_v33 := (ops_p0_6_keep V main_v33 (by decide)).trans h.main_v33
  main_v34 := (ops_p0_6_keep V main_v34 (by decide)).trans h.main_v34
  main_v36 := (ops_p0_6_keep V main_v36 (by decide)).trans h.main_v36
  main_v38 := w0_6_main_v38 V x0 x1 x2 x3 x4 x5 x6 h
  main_v43 := w0_6_main_v43 V x0 x1 x2 x3 x4 x5 x6 h

/-- Stretch 7 of window 0: @main's operations 57 … 60. -/
def ops_p0_7 : List (HloOp τ sig (Elt F)) :=
  [ nullary main_c_10 (constantI S_ 32 0#32),
    unary main_c_10 main_v44 (broadcastInDim S409600 ![] bcast_S_S409600 : (⟨S_, .i32⟩ : BufTy).Contents (Elt F) → (⟨S409600, .i32⟩ : BufTy).Contents (Elt F)),
    binary main_v38 main_v44 main_v45 (cmpi .sge : (⟨S409600, .i32⟩ : BufTy).Contents (Elt F) → (⟨S409600, .i32⟩ : BufTy).Contents (Elt F) → (⟨S409600, .i1⟩ : BufTy).Contents (Elt F)),
    binary main_v43 main_v45 main_v46 (andi : (⟨S409600, .i1⟩ : BufTy).Contents (Elt F) → (⟨S409600, .i1⟩ : BufTy).Contents (Elt F) → (⟨S409600, .i1⟩ : BufTy).Contents (Elt F)) ]
abbrev ops_p0_7_W : List (Ref sig .tc) := [main_c_10, main_v44, main_v45, main_v46]
theorem ops_p0_7_writes : (ops_p0_7 : List (HloOp τ sig (Elt F))).Forall fun op => op.writes ⊆ (ops_p0_7_W.map (Proc.devRef (τ := τ) .tc)).toFinset := by
  simp only [ops_p0_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p0_7_keep (V : Valuation τ sig (Elt F)) (r : Ref sig .tc) (h : r ∉ ops_p0_7_W) :
    after ops_p0_7 V (Proc.devRef .tc r) = V (Proc.devRef .tc r) :=
  after_of_writes_sub ops_p0_7 _ ops_p0_7_writes h

set_option maxRecDepth 8192 in
set_option maxHeartbeats 1000000 in
theorem w0_7_main_v46 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_7 V x0 x1 x2 x3 x4 x5 x6) :
    after ops_p0_7 V (Proc.devRef .tc main_v46) = val_main_v46 (F := F) x1 := by
  simp only [ops_p0_7]
  after_results_w
  simp only [h.main_v38, h.main_v43]
  rfl

theorem step0_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0_7 V x0 x1 x2 x3 x4 x5 x6) : Inv1 (after ops_p0_7 V) x0 x1 x2 x3 x4 x5 x6 where
  main_arg0 := (ops_p0_7_keep V main_arg0 (by decide)).trans h.main_arg0
  main_arg1 := (ops_p0_7_keep V main_arg1 (by decide)).trans h.main_arg1
  main_arg2 := (ops_p0_7_keep V main_arg2 (by decide)).trans h.main_arg2
  main_arg3 := (ops_p0_7_keep V main_arg3 (by decide)).trans h.main_arg3
  main_arg4 := (ops_p0_7_keep V main_arg4 (by decide)).trans h.main_arg4
  main_arg5 := (ops_p0_7_keep V main_arg5 (by decide)).trans h.main_arg5
  main_arg6 := (ops_p0_7_keep V main_arg6 (by decide)).trans h.main_arg6
  main_v27 := (ops_p0_7_keep V main_v27 (by decide)).trans h.main_v27
  main_v29 := (ops_p0_7_keep V main_v29 (by decide)).trans h.main_v29
  main_v31 := (ops_p0_7_keep V main_v31 (by decide)).trans h.main_v31
  main_v33 := (ops_p0_7_keep V main_v33 (by decide)).trans h.main_v33
  main_v34 := (ops_p0_7_keep V main_v34 (by decide)).trans h.main_v34
  main_v36 := (ops_p0_7_keep V main_v36 (by decide)).trans h.main_v36
  main_v38 := (ops_p0_7_keep V main_v38 (by decide)).trans h.main_v38
  main_v46 := w0_7_main_v46 V x0 x1 x2 x3 x4 x5 x6 h

set_option maxRecDepth 8192 in
theorem ops_p0_split : (ops_p0 : List (HloOp τ sig (Elt F))) = ops_p0_0 ++ (ops_p0_1 ++ (ops_p0_2 ++ (ops_p0_3 ++ (ops_p0_4 ++ (ops_p0_5 ++ (ops_p0_6 ++ (ops_p0_7))))))) := rfl

/-- Window 0 carries the staged reading from boundary 0 to boundary 1. -/
theorem step0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv0 V x0 x1 x2 x3 x4 x5 x6) : Inv1 (after ops_p0 V) x0 x1 x2 x3 x4 x5 x6 := by
  rw [ops_p0_split]; simp only [after_app]
  exact step0_7 _ x0 x1 x2 x3 x4 x5 x6 (step0_6 _ x0 x1 x2 x3 x4 x5 x6 (step0_5 _ x0 x1 x2 x3 x4 x5 x6 (step0_4 _ x0 x1 x2 x3 x4 x5 x6 (step0_3 _ x0 x1 x2 x3 x4 x5 x6 (step0_2 _ x0 x1 x2 x3 x4 x5 x6 (step0_1 _ x0 x1 x2 x3 x4 x5 x6 (step0_0 V x0 x1 x2 x3 x4 x5 x6 h)))))))

end Cert.ReferenceIdeal.Hand

end
-- ==== Proof.Ref.W1.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 1 of @main: its operations 61 … 135 of 1688, in order. -/
def ops_p1 : List (HloOp τ sig (Elt F)) :=
  [ nullary main_c_11 (constantI S_ 32 640#32),
    unary main_c_11 main_v47 (broadcastInDim S409600 ![] bcast_S_S409600 : (⟨S_, .i32⟩ : BufTy).Contents (Elt F) → (⟨S409600, .i32⟩ : BufTy).Contents (Elt F)),
    binary main_v38 main_v47 main_v48 (cmpi .slt : (⟨S409600, .i32⟩ : BufTy).Contents (Elt F) → (⟨S409600, .i32⟩ : BufTy).Contents (Elt F) → (⟨S409600, .i1⟩ : BufTy).Contents (Elt F)),
    binary main_v46 main_v48 main_v49 (andi : (⟨S409600, .i1⟩ : BufTy).Contents (Elt F) → (⟨S409600, .i1⟩ : BufTy).Contents (Elt F) → (⟨S409600, .i1⟩ : BufTy).Contents (Elt F)),
    nullary main_c_12 (constantI S_ 32 0#32),
    nullary main_c_13 (constantI S_ 32 639#32),
    unary main_c_12 main_call0_v0 (id : (⟨S_, .i32⟩ : BufTy).Contents (Elt F) → (⟨S_, .i32⟩ : BufTy).Contents (Elt F)),
    unary main_call0_v0 main_call0_v1 ((broadcastInDim S409600 ![] bcast_S_S409600) : (⟨S_, .i32⟩ : BufTy).Contents (Elt F) → (⟨S409600, .i32⟩ : BufTy).Contents (Elt F)),
    binary main_call0_v1 main_v36 main_call0_v2 (maxsi : (⟨S409600, .i32⟩ : BufTy).Contents (Elt F) → (⟨S409600, .i32⟩ : BufTy).Contents (Elt F) → (⟨S409600, .i32⟩ : BufTy).Contents (Elt F)),
    unary main_c_13 main_call0_v3 (id : (⟨S_, .i32⟩ : BufTy).Contents (Elt F) → (⟨S_, .i32⟩ : BufTy).Contents (Elt F)),
    unary main_call0_v3 main_call0_v4 ((broadcastInDim S409600 ![] bcast_S_S409600) : (⟨S_, .i32⟩ : BufTy).Contents (Elt F) → (⟨S409600, .i32⟩ : BufTy).Contents (Elt F)),
    binary main_call0_v4 main_call0_v2 main_v50 (minsi : (⟨S409600, .i32⟩ : BufTy).Contents (Elt F) → (⟨S409600, .i32⟩ : BufTy).Contents (Elt F) → (⟨S409600, .i32⟩ : BufTy).Contents (Elt F)),
    nullary main_c_14 (constantI S_ 32 0#32),
    nullary main_c_15 (constantI S_ 32 639#32),
    unary main_c_14 main_call1_v0 (id : (⟨S_, .i32⟩ : BufTy).Contents (Elt F) → (⟨S_, .i32⟩ : BufTy).Contents (Elt F)),
    unary main_call1_v0 main_call1_v1 ((broadcastInDim S409600 ![] bcast_S_S409600) : (⟨S_, .i32⟩ : BufTy).Contents (Elt F) → (⟨S409600, .i32⟩ : BufTy).Contents (Elt F)),
    binary main_call1_v1 main_v38 main_call1_v2 (maxsi : (⟨S409600, .i32⟩ : BufTy).Contents (Elt F) → (⟨S409600, .i32⟩ : BufTy).Contents (Elt F) → (⟨S409600, .i32⟩ : BufTy).Contents (Elt F)),
    unary main_c_15 main_call1_v3 (id : (⟨S_, .i32⟩ : BufTy).Contents (Elt F) → (⟨S_, .i32⟩ : BufTy).Contents (Elt F)),
    unary main_call1_v3 main_call1_v4 ((broadcastInDim S409600 ![] bcast_S_S409600) : (⟨S_, .i32⟩ : BufTy).Contents (Elt F) → (⟨S409600, .i32⟩ : BufTy).Contents (Elt F)),
    binary main_call1_v4 main_call1_v2 main_v51 (minsi : (⟨S409600, .i32⟩ : BufTy).Contents (Elt F) → (⟨S409600, .i32⟩ : BufTy).Contents (Elt F) → (⟨S409600, .i32⟩ : BufTy).Contents (Elt F)),
    nullary main_c_16 (constantI S_ 32 0#32),
    unary main_c_16 main_v52 (broadcastInDim S409600 ![] bcast_S_S409600 : (⟨S_, .i32⟩ : BufTy).Contents (Elt F) → (⟨S409600, .i32⟩ : BufTy).Contents (Elt F)),
    binary main_v29 main_v52 main_v53 (cmpi .slt : (⟨S409600, .i32⟩ : BufTy).Contents (Elt F) → (⟨S409600, .i32⟩ : BufTy).Contents (Elt F) → (⟨S409600, .i1⟩ : BufTy).Contents (Elt F)),
    nullary main_c_17 (constantI S_ 32 2#32),
    unary main_c_17 main_v54 (broadcastInDim S409600 ![] bcast_S_S409600 : (⟨S_, .i32⟩ : BufTy).Contents (Elt F) → (⟨S409600, .i32⟩ : BufTy).Contents (Elt F)),
    binary main_v29 main_v54 main_v55 (addi : (⟨S409600, .i32⟩ : BufTy).Contents (Elt F) → (⟨S409600, .i32⟩ : BufTy).Contents (Elt F) → (⟨S409600, .i32⟩ : BufTy).Contents (Elt F)),
    ternary main_v53 main_v55 main_v29 main_v56 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_18 (constantI S_ 32 0#32),
    unary main_c_18 main_v57 (broadcastInDim S409600 ![] bcast_S_S409600 : (⟨S_, .i32⟩ : BufTy).Contents (Elt F) → (⟨S409600, .i32⟩ : BufTy).Contents (Elt F)),
    binary main_v50 main_v57 main_v58 (cmpi .slt : (⟨S409600, .i32⟩ : BufTy).Contents (Elt F) → (⟨S409600, .i32⟩ : BufTy).Contents (Elt F) → (⟨S409600, .i1⟩ : BufTy).Contents (Elt F)),
    nullary main_c_19 (constantI S_ 32 640#32),
    unary main_c_19 main_v59 (broadcastInDim S409600 ![] bcast_S_S409600 : (⟨S_, .i32⟩ : BufTy).Contents (Elt F) → (⟨S409600, .i32⟩ : BufTy).Contents (Elt F)),
    binary main_v50 main_v59 main_v60 (addi : (⟨S409600, .i32⟩ : BufTy).Contents (Elt F) → (⟨S409600, .i32⟩ : BufTy).Contents (Elt F) → (⟨S409600, .i32⟩ : BufTy).Contents (Elt F)),
    ternary main_v58 main_v60 main_v50 main_v61 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_20 (constantI S_ 32 0#32),
    unary main_c_20 main_v62 (broadcastInDim S409600 ![] bcast_S_S409600 : (⟨S_, .i32⟩ : BufTy).Contents (Elt F) → (⟨S409600, .i32⟩ : BufTy).Contents (Elt F)),
    binary main_v51 main_v62 main_v63 (cmpi .slt : (⟨S409600, .i32⟩ : BufTy).Contents (Elt F) → (⟨S409600, .i32⟩ : BufTy).Contents (Elt F) → (⟨S409600, .i1⟩ : BufTy).Contents (Elt F)),
    nullary main_c_21 (constantI S_ 32 640#32),
    unary main_c_21 main_v64 (broadcastInDim S409600 ![] bcast_S_S409600 : (⟨S_, .i32⟩ : BufTy).Contents (Elt F) → (⟨S409600, .i32⟩ : BufTy).Contents (Elt F)),
    binary main_v51 main_v64 main_v65 (addi : (⟨S409600, .i32⟩ : BufTy).Contents (Elt F) → (⟨S409600, .i32⟩ : BufTy).Contents (Elt F) → (⟨S409600, .i32⟩ : BufTy).Contents (Elt F)),
    ternary main_v63 main_v65 main_v51 main_v66 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v56 main_v67 (broadcastInDim S409600x1 ![0] bcast_S409600_S409600x1_0 : (⟨S409600, .i32⟩ : BufTy).Contents (Elt F) → (⟨S409600x1, .i32⟩ : BufTy).Contents (Elt F)),
    unary main_v61 main_v68 (broadcastInDim S409600x1 ![0] bcast_S409600_S409600x1_0 : (⟨S409600, .i32⟩ : BufTy).Contents (Elt F) → (⟨S409600x1, .i32⟩ : BufTy).Contents (Elt F)),
    unary main_v66 main_v69 (broadcastInDim S409600x1 ![0] bcast_S409600_S409600x1_0 : (⟨S409600, .i32⟩ : BufTy).Contents (Elt F) → (⟨S409600x1, .i32⟩ : BufTy).Contents (Elt F)),
    nary ![main_v67, main_v68, main_v69] main_v70 (fun u => concatenate S409600x3 1 [⟨S409600x1, u 0⟩, ⟨S409600x1, u 1⟩, ⟨S409600x1, u 2⟩] concatenates_S409600x1_S409600x1_S409600x1_S409600x3_d1),
    binary main_v27 main_v70 main_v71 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_22 (constantI S_ 32 0#32),
    unary main_c_22 main_v72 (broadcastInDim S409600 ![] bcast_S_S409600 : (⟨S_, .i32⟩ : BufTy).Contents (Elt F) → (⟨S409600, .i32⟩ : BufTy).Contents (Elt F)),
    binary main_v71 main_v72 main_v73 (cmpi .sge : (⟨S409600, .i32⟩ : BufTy).Contents (Elt F) → (⟨S409600, .i32⟩ : BufTy).Contents (Elt F) → (⟨S409600, .i1⟩ : BufTy).Contents (Elt F)),
    binary main_v49 main_v73 main_v74 (andi : (⟨S409600, .i1⟩ : BufTy).Contents (Elt F) → (⟨S409600, .i1⟩ : BufTy).Contents (Elt F) → (⟨S409600, .i1⟩ : BufTy).Contents (Elt F)),
    nullary main_c_23 (constantI S_ 32 0#32),
    unary main_c_23 main_call2_v0 (id : (⟨S_, .i32⟩ : BufTy).Contents (Elt F) → (⟨S_, .i32⟩ : BufTy).Contents (Elt F)),
    unary main_call2_v0 main_call2_v1 ((broadcastInDim S409600 ![] bcast_S_S409600) : (⟨S_, .i32⟩ : BufTy).Contents (Elt F) → (⟨S409600, .i32⟩ : BufTy).Contents (Elt F)),
    ternary main_v74 main_v71 main_call2_v1 main_v75 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_24 (constantI S_ 32 0#32),
    unary main_c_24 main_v76 (broadcastInDim S409600 ![] bcast_S_S409600 : (⟨S_, .i32⟩ : BufTy).Contents (Elt F) → (⟨S409600, .i32⟩ : BufTy).Contents (Elt F)),
    binary main_v75 main_v76 main_v77 (cmpi .slt : (⟨S409600, .i32⟩ : BufTy).Contents (Elt F) → (⟨S409600, .i32⟩ : BufTy).Contents (Elt F) → (⟨S409600, .i1⟩ : BufTy).Contents (Elt F)),
    nullary main_c_25 (constantI S_ 32 409600#32),
    unary main_c_25 main_v78 (broadcastInDim S409600 ![] bcast_S_S409600 : (⟨S_, .i32⟩ : BufTy).Contents (Elt F) → (⟨S409600, .i32⟩ : BufTy).Contents (Elt F)),
    binary main_v75 main_v78 main_v79 (addi : (⟨S409600, .i32⟩ : BufTy).Contents (Elt F) → (⟨S409600, .i32⟩ : BufTy).Contents (Elt F) → (⟨S409600, .i32⟩ : BufTy).Contents (Elt F)),
    ternary main_v77 main_v79 main_v75 main_v80 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v80 main_v81 (broadcastInDim S409600x1 ![0] bcast_S409600_S409600x1_0 : (⟨S409600, .i32⟩ : BufTy).Contents (Elt F) → (⟨S409600x1, .i32⟩ : BufTy).Contents (Elt F)),
    binary main_arg0 main_v81 main_v82 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v74 main_v83 (broadcastInDim S409600x1 ![0] bcast_S409600_S409600x1_0 : (⟨S409600, .i1⟩ : BufTy).Contents (Elt F) → (⟨S409600x1, .i1⟩ : BufTy).Contents (Elt F)),
    nullary main_cst_26 (constant S_ .f32 0x00000000#32),
    unary main_cst_26 main_call3_v0 (id : (⟨S_, .f32⟩ : BufTy).Contents (Elt F) → (⟨S_, .f32⟩ : BufTy).Contents (Elt F)),
    unary main_v83 main_call3_v1 ((broadcastInDim S409600x64 ![0, 1] bcast_S409600x1_S409600x64_0_1) : (⟨S409600x1, .i1⟩ : BufTy).Contents (Elt F) → (⟨S409600x64, .i1⟩ : BufTy).Contents (Elt F)),
    unary main_call3_v0 main_call3_v2 ((broadcastInDim S409600x64 ![] bcast_S_S409600x64) : (⟨S_, .f32⟩ : BufTy).Contents (Elt F) → (⟨S409600x64, .f32⟩ : BufTy).Contents (Elt F)),
    ternary main_call3_v1 main_v82 main_call3_v2 main_v84 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v85 ((extractStridedSlice S1x1x64x64 ![0, 0, 0, 0] · slices_S3x3x64x64_S1x1x64x64_0_0_0_0) : (⟨S3x3x64x64, .f32⟩ : BufTy).Contents (Elt F) → (⟨S1x1x64x64, .f32⟩ : BufTy).Contents (Elt F)),
    reshape main_v85 main_v86 rfl shapeCasts_S1x1x64x64_S64x64,
    binary main_v84 main_v86 main_v87 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v34 main_v87 main_v88 (addf : (⟨S409600x64, .f32⟩ : BufTy).Contents (Elt F) → (⟨S409600x64, .f32⟩ : BufTy).Contents (Elt F) → (⟨S409600x64, .f32⟩ : BufTy).Contents (Elt F)),
    nullary main_c_27 (constantI S_ 32 4294967295#32),
    unary main_c_27 main_v89 (broadcastInDim S409600 ![] bcast_S_S409600 : (⟨S_, .i32⟩ : BufTy).Contents (Elt F) → (⟨S409600, .i32⟩ : BufTy).Contents (Elt F)) ]

set_option maxRecDepth 8192 in
set_option maxHeartbeats 4000000 in
theorem main_part1_eq (c : Dev nD) : main_part1 (F := F) c = seq ops_p1 := by
  simp only [main_part1, ops_p1, fn_clip.body, fn_where.body, fn_where_0.body, fn_relu.body, seq, bind_assoc, pure_bind]
  rfl

set_option maxRecDepth 8192 in
theorem ops_p1_sub : (ops_p1 : List (HloOp τ sig (Elt F))).Forall fun op => op.bufs ⊆ tcRefs τ sig :=
  ⟨nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub ..⟩

set_option maxRecDepth 8192 in
theorem ops_p1_fresh : ∀ op ∈ (ops_p1 : List (HloOp τ sig (Elt F))), op.fresh = ∅ := by
  unfold ops_p1; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 69 on hold before it. -/
structure Inv1_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v36 : V (Proc.devRef .tc main_v36) = val_main_v36 (F := F) x1
  main_v38 : V (Proc.devRef .tc main_v38) = val_main_v38 (F := F) x1
  main_v49 : V (Proc.devRef .tc main_v49) = val_main_v49 (F := F) x1
  main_c_13 : V (Proc.devRef .tc main_c_13) = val_main_c_13 (F := F)
  main_call0_v1 : V (Proc.devRef .tc main_call0_v1) = val_main_call0_v1 (F := F)

/-- What the buffers read from operation 77 on hold before it. -/
structure Inv1_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v38 : V (Proc.devRef .tc main_v38) = val_main_v38 (F := F) x1
  main_v49 : V (Proc.devRef .tc main_v49) = val_main_v49 (F := F) x1
  main_v50 : V (Proc.devRef .tc main_v50) = val_main_v50 (F := F) x1
  main_c_15 : V (Proc.devRef .tc main_c_15) = val_main_c_15 (F := F)
  main_call1_v1 : V (Proc.devRef .tc main_call1_v1) = val_main_call1_v1 (F := F)

/-- What the buffers read from operation 85 on hold before it. -/
structure Inv1_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v49 : V (Proc.devRef .tc main_v49) = val_main_v49 (F := F) x1
  main_v50 : V (Proc.devRef .tc main_v50) = val_main_v50 (F := F) x1
  main_v51 : V (Proc.devRef .tc main_v51) = val_main_v51 (F := F) x1
  main_v53 : V (Proc.devRef .tc main_v53) = val_main_v53 (F := F) x1
  main_c_17 : V (Proc.devRef .tc main_c_17) = val_main_c_17 (F := F)

/-- What the buffers read from operation 93 on hold before it. -/
structure Inv1_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v49 : V (Proc.devRef .tc main_v49) = val_main_v49 (F := F) x1
  main_v50 : V (Proc.devRef .tc main_v50) = val_main_v50 (F := F) x1
  main_v51 : V (Proc.devRef .tc main_v51) = val_main_v51 (F := F) x1
  main_v56 : V (Proc.devRef .tc main_v56) = val_main_v56 (F := F) x1
  main_v58 : V (Proc.devRef .tc main_v58) = val_main_v58 (F := F) x1
  main_v59 : V (Proc.devRef .tc main_v59) = val_main_v59 (F := F)

/-- What the buffers read from operation 101 on hold before it. -/
structure Inv1_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v49 : V (Proc.devRef .tc main_v49) = val_main_v49 (F := F) x1
  main_v51 : V (Proc.devRef .tc main_v51) = val_main_v51 (F := F) x1
  main_v56 : V (Proc.devRef .tc main_v56) = val_main_v56 (F := F) x1
  main_v61 : V (Proc.devRef .tc main_v61) = val_main_v61 (F := F) x1
  main_v63 : V (Proc.devRef .tc main_v63) = val_main_v63 (F := F) x1
  main_v65 : V (Proc.devRef .tc main_v65) = val_main_v65 (F := F) x1

/-- What the buffers read from operation 109 on hold before it. -/
structure Inv1_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v49 : V (Proc.devRef .tc main_v49) = val_main_v49 (F := F) x1
  main_v71 : V (Proc.devRef .tc main_v71) = val_main_v71 (F := F) x1
  main_v72 : V (Proc.devRef .tc main_v72) = val_main_v72 (F := F)

/-- What the buffers read from operation 117 on hold before it. -/
structure Inv1_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v74 : V (Proc.devRef .tc main_v74) = val_main_v74 (F := F) x1
  main_v75 : V (Proc.devRef .tc main_v75) = val_main_v75 (F := F) x1
  main_v76 : V (Proc.devRef .tc main_v76) = val_main_v76 (F := F)

/-- What the buffers read from operation 125 on hold before it. -/
structure Inv1_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v82 : V (Proc.devRef .tc main_v82) = val_main_v82 (F := F) x0 x1
  main_v83 : V (Proc.devRef .tc main_v83) = val_main_v83 (F := F) x1

/-- What the buffers read from operation 133 on hold before it. -/
structure Inv1_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v34 : V (Proc.devRef .tc main_v34) = val_main_v34 (F := F)
  main_v87 : V (Proc.devRef .tc main_v87) = val_main_v87 (F := F) x0 x1 x2

/-- Stretch 0 of window 1: @main's operations 61 … 68. -/
def ops_p1_0 : List (HloOp τ sig (Elt F)) :=
  [ nullary main_c_11 (constantI S_ 32 640#32),
    unary main_c_11 main_v47 (broadcastInDim S409600 ![] bcast_S_S409600 : (⟨S_, .i32⟩ : BufTy).Contents (Elt F) → (⟨S409600, .i32⟩ : BufTy).Contents (Elt F)),
    binary main_v38 main_v47 main_v48 (cmpi .slt : (⟨S409600, .i32⟩ : BufTy).Contents (Elt F) → (⟨S409600, .i32⟩ : BufTy).Contents (Elt F) → (⟨S409600, .i1⟩ : BufTy).Contents (Elt F)),
    binary main_v46 main_v48 main_v49 (andi : (⟨S409600, .i1⟩ : BufTy).Contents (Elt F) → (⟨S409600, .i1⟩ : BufTy).Contents (Elt F) → (⟨S409600, .i1⟩ : BufTy).Contents (Elt F)),
    nullary main_c_12 (constantI S_ 32 0#32),
    nullary main_c_13 (constantI S_ 32 639#32),
    unary main_c_12 main_call0_v0 (id : (⟨S_, .i32⟩ : BufTy).Contents (Elt F) → (⟨S_, .i32⟩ : BufTy).Contents (Elt F)),
    unary main_call0_v0 main_call0_v1 ((broadcastInDim S409600 ![] bcast_S_S409600) : (⟨S_, .i32⟩ : BufTy).Contents (Elt F) → (⟨S409600, .i32⟩ : BufTy).Contents (Elt F)) ]
abbrev ops_p1_0_W : List (Ref sig .tc) := [main_c_11, main_v47, main_v48, main_v49, main_c_12, main_c_13, main_call0_v0, main_call0_v1]
theorem ops_p1_0_writes : (ops_p1_0 : List (HloOp τ sig (Elt F))).Forall fun op => op.writes ⊆ (ops_p1_0_W.map (Proc.devRef (τ := τ) .tc)).toFinset := by
  simp only [ops_p1_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p1_0_keep (V : Valuation τ sig (Elt F)) (r : Ref sig .tc) (h : r ∉ ops_p1_0_W) :
    after ops_p1_0 V (Proc.devRef .tc r) = V (Proc.devRef .tc r) :=
  after_of_writes_sub ops_p1_0 _ ops_p1_0_writes h

set_option maxRecDepth 8192 in
set_option maxHeartbeats 1000000 in
theorem w1_0_main_v49 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1 V x0 x1 x2 x3 x4 x5 x6) :
    after ops_p1_0 V (Proc.devRef .tc main_v49) = val_main_v49 (F := F) x1 := by
  simp only [ops_p1_0]
  after_results_w
  simp only [h.main_v38, h.main_v46]
  rfl

set_option maxRecDepth 8192 in
set_option maxHeartbeats 1000000 in
theorem w1_0_main_c_13 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1 V x0 x1 x2 x3 x4 x5 x6) :
    after ops_p1_0 V (Proc.devRef .tc main_c_13) = val_main_c_13 (F := F) := by
  simp only [ops_p1_0]
  after_results_w
  rfl

set_option maxRecDepth 8192 in
set_option maxHeartbeats 1000000 in
theorem w1_0_main_call0_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1 V x0 x1 x2 x3 x4 x5 x6) :
    after ops_p1_0 V (Proc.devRef .tc main_call0_v1) = val_main_call0_v1 (F := F) := by
  simp only [ops_p1_0]
  after_results_w
  rfl

theorem step1_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1 V x0 x1 x2 x3 x4 x5 x6) : Inv1_1 (after ops_p1_0 V) x0 x1 x2 x3 x4 x5 x6 where
  main_arg0 := (ops_p1_0_keep V main_arg0 (by decide)).trans h.main_arg0
  main_arg1 := (ops_p1_0_keep V main_arg1 (by decide)).trans h.main_arg1
  main_arg2 := (ops_p1_0_keep V main_arg2 (by decide)).trans h.main_arg2
  main_arg3 := (ops_p1_0_keep V main_arg3 (by decide)).trans h.main_arg3
  main_arg4 := (ops_p1_0_keep V main_arg4 (by decide)).trans h.main_arg4
  main_arg5 := (ops_p1_0_keep V main_arg5 (by decide)).trans h.main_arg5
  main_arg6 := (ops_p1_0_keep V main_arg6 (by decide)).trans h.main_arg6
  main_v27 := (ops_p1_0_keep V main_v27 (by decide)).trans h.main_v27
  main_v29 := (ops_p1_0_keep V main_v29 (by decide)).trans h.main_v29
  main_v31 := (ops_p1_0_keep V main_v31 (by decide)).trans h.main_v31
  main_v33 := (ops_p1_0_keep V main_v33 (by decide)).trans h.main_v33
  main_v34 := (ops_p1_0_keep V main_v34 (by decide)).trans h.main_v34
  main_v36 := (ops_p1_0_keep V main_v36 (by decide)).trans h.main_v36
  main_v38 := (ops_p1_0_keep V main_v38 (by decide)).trans h.main_v38
  main_v49 := w1_0_main_v49 V x0 x1 x2 x3 x4 x5 x6 h
  main_c_13 := w1_0_main_c_13 V x0 x1 x2 x3 x4 x5 x6 h
  main_call0_v1 := w1_0_main_call0_v1 V x0 x1 x2 x3 x4 x5 x6 h

/-- Stretch 1 of window 1: @main's operations 69 … 76. -/
def ops_p1_1 : List (HloOp τ sig (Elt F)) :=
  [ binary main_call0_v1 main_v36 main_call0_v2 (maxsi : (⟨S409600, .i32⟩ : BufTy).Contents (Elt F) → (⟨S409600, .i32⟩ : BufTy).Contents (Elt F) → (⟨S409600, .i32⟩ : BufTy).Contents (Elt F)),
    unary main_c_13 main_call0_v3 (id : (⟨S_, .i32⟩ : BufTy).Contents (Elt F) → (⟨S_, .i32⟩ : BufTy).Contents (Elt F)),
    unary main_call0_v3 main_call0_v4 ((broadcastInDim S409600 ![] bcast_S_S409600) : (⟨S_, .i32⟩ : BufTy).Contents (Elt F) → (⟨S409600, .i32⟩ : BufTy).Contents (Elt F)),
    binary main_call0_v4 main_call0_v2 main_v50 (minsi : (⟨S409600, .i32⟩ : BufTy).Contents (Elt F) → (⟨S409600, .i32⟩ : BufTy).Contents (Elt F) → (⟨S409600, .i32⟩ : BufTy).Contents (Elt F)),
    nullary main_c_14 (constantI S_ 32 0#32),
    nullary main_c_15 (constantI S_ 32 639#32),
    unary main_c_14 main_call1_v0 (id : (⟨S_, .i32⟩ : BufTy).Contents (Elt F) → (⟨S_, .i32⟩ : BufTy).Contents (Elt F)),
    unary main_call1_v0 main_call1_v1 ((broadcastInDim S409600 ![] bcast_S_S409600) : (⟨S_, .i32⟩ : BufTy).Contents (Elt F) → (⟨S409600, .i32⟩ : BufTy).Contents (Elt F)) ]
abbrev ops_p1_1_W : List (Ref sig .tc) := [main_call0_v2, main_call0_v3, main_call0_v4, main_v50, main_c_14, main_c_15, main_call1_v0, main_call1_v1]
theorem ops_p1_1_writes : (ops_p1_1 : List (HloOp τ sig (Elt F))).Forall fun op => op.writes ⊆ (ops_p1_1_W.map (Proc.devRef (τ := τ) .tc)).toFinset := by
  simp only [ops_p1_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p1_1_keep (V : Valuation τ sig (Elt F)) (r : Ref sig .tc) (h : r ∉ ops_p1_1_W) :
    after ops_p1_1 V (Proc.devRef .tc r) = V (Proc.devRef .tc r) :=
  after_of_writes_sub ops_p1_1 _ ops_p1_1_writes h

set_option maxRecDepth 8192 in
set_option maxHeartbeats 1000000 in
theorem w1_1_main_v50 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_1 V x0 x1 x2 x3 x4 x5 x6) :
    after ops_p1_1 V (Proc.devRef .tc main_v50) = val_main_v50 (F := F) x1 := by
  simp only [ops_p1_1]
  after_results_w
  simp only [h.main_v36, h.main_call0_v1, h.main_c_13]
  rfl

set_option maxRecDepth 8192 in
set_option maxHeartbeats 1000000 in
theorem w1_1_main_c_15 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_1 V x0 x1 x2 x3 x4 x5 x6) :
    after ops_p1_1 V (Proc.devRef .tc main_c_15) = val_main_c_15 (F := F) := by
  simp only [ops_p1_1]
  after_results_w
  rfl

set_option maxRecDepth 8192 in
set_option maxHeartbeats 1000000 in
theorem w1_1_main_call1_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_1 V x0 x1 x2 x3 x4 x5 x6) :
    after ops_p1_1 V (Proc.devRef .tc main_call1_v1) = val_main_call1_v1 (F := F) := by
  simp only [ops_p1_1]
  after_results_w
  rfl

theorem step1_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_1 V x0 x1 x2 x3 x4 x5 x6) : Inv1_2 (after ops_p1_1 V) x0 x1 x2 x3 x4 x5 x6 where
  main_arg0 := (ops_p1_1_keep V main_arg0 (by decide)).trans h.main_arg0
  main_arg1 := (ops_p1_1_keep V main_arg1 (by decide)).trans h.main_arg1
  main_arg2 := (ops_p1_1_keep V main_arg2 (by decide)).trans h.main_arg2
  main_arg3 := (ops_p1_1_keep V main_arg3 (by decide)).trans h.main_arg3
  main_arg4 := (ops_p1_1_keep V main_arg4 (by decide)).trans h.main_arg4
  main_arg5 := (ops_p1_1_keep V main_arg5 (by decide)).trans h.main_arg5
  main_arg6 := (ops_p1_1_keep V main_arg6 (by decide)).trans h.main_arg6
  main_v27 := (ops_p1_1_keep V main_v27 (by decide)).trans h.main_v27
  main_v29 := (ops_p1_1_keep V main_v29 (by decide)).trans h.main_v29
  main_v31 := (ops_p1_1_keep V main_v31 (by decide)).trans h.main_v31
  main_v33 := (ops_p1_1_keep V main_v33 (by decide)).trans h.main_v33
  main_v34 := (ops_p1_1_keep V main_v34 (by decide)).trans h.main_v34
  main_v38 := (ops_p1_1_keep V main_v38 (by decide)).trans h.main_v38
  main_v49 := (ops_p1_1_keep V main_v49 (by decide)).trans h.main_v49
  main_v50 := w1_1_main_v50 V x0 x1 x2 x3 x4 x5 x6 h
  main_c_15 := w1_1_main_c_15 V x0 x1 x2 x3 x4 x5 x6 h
  main_call1_v1 := w1_1_main_call1_v1 V x0 x1 x2 x3 x4 x5 x6 h

/-- Stretch 2 of window 1: @main's operations 77 … 84. -/
def ops_p1_2 : List (HloOp τ sig (Elt F)) :=
  [ binary main_call1_v1 main_v38 main_call1_v2 (maxsi : (⟨S409600, .i32⟩ : BufTy).Contents (Elt F) → (⟨S409600, .i32⟩ : BufTy).Contents (Elt F) → (⟨S409600, .i32⟩ : BufTy).Contents (Elt F)),
    unary main_c_15 main_call1_v3 (id : (⟨S_, .i32⟩ : BufTy).Contents (Elt F) → (⟨S_, .i32⟩ : BufTy).Contents (Elt F)),
    unary main_call1_v3 main_call1_v4 ((broadcastInDim S409600 ![] bcast_S_S409600) : (⟨S_, .i32⟩ : BufTy).Contents (Elt F) → (⟨S409600, .i32⟩ : BufTy).Contents (Elt F)),
    binary main_call1_v4 main_call1_v2 main_v51 (minsi : (⟨S409600, .i32⟩ : BufTy).Contents (Elt F) → (⟨S409600, .i32⟩ : BufTy).Contents (Elt F) → (⟨S409600, .i32⟩ : BufTy).Contents (Elt F)),
    nullary main_c_16 (constantI S_ 32 0#32),
    unary main_c_16 main_v52 (broadcastInDim S409600 ![] bcast_S_S409600 : (⟨S_, .i32⟩ : BufTy).Contents (Elt F) → (⟨S409600, .i32⟩ : BufTy).Contents (Elt F)),
    binary main_v29 main_v52 main_v53 (cmpi .slt : (⟨S409600, .i32⟩ : BufTy).Contents (Elt F) → (⟨S409600, .i32⟩ : BufTy).Contents (Elt F) → (⟨S409600, .i1⟩ : BufTy).Contents (Elt F)),
    nullary main_c_17 (constantI S_ 32 2#32) ]
abbrev ops_p1_2_W : List (Ref sig .tc) := [main_call1_v2, main_call1_v3, main_call1_v4, main_v51, main_c_16, main_v52, main_v53, main_c_17]
theorem ops_p1_2_writes : (ops_p1_2 : List (HloOp τ sig (Elt F))).Forall fun op => op.writes ⊆ (ops_p1_2_W.map (Proc.devRef (τ := τ) .tc)).toFinset := by
  simp only [ops_p1_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p1_2_keep (V : Valuation τ sig (Elt F)) (r : Ref sig .tc) (h : r ∉ ops_p1_2_W) :
    after ops_p1_2 V (Proc.devRef .tc r) = V (Proc.devRef .tc r) :=
  after_of_writes_sub ops_p1_2 _ ops_p1_2_writes h

set_option maxRecDepth 8192 in
set_option maxHeartbeats 1000000 in
theorem w1_2_main_v51 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_2 V x0 x1 x2 x3 x4 x5 x6) :
    after ops_p1_2 V (Proc.devRef .tc main_v51) = val_main_v51 (F := F) x1 := by
  simp only [ops_p1_2]
  after_results_w
  simp only [h.main_v38, h.main_call1_v1, h.main_c_15]
  rfl

set_option maxRecDepth 8192 in
set_option maxHeartbeats 1000000 in
theorem w1_2_main_v53 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_2 V x0 x1 x2 x3 x4 x5 x6) :
    after ops_p1_2 V (Proc.devRef .tc main_v53) = val_main_v53 (F := F) x1 := by
  simp only [ops_p1_2]
  after_results_w
  simp only [h.main_v29]
  rfl

set_option maxRecDepth 8192 in
set_option maxHeartbeats 1000000 in
theorem w1_2_main_c_17 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_2 V x0 x1 x2 x3 x4 x5 x6) :
    after ops_p1_2 V (Proc.devRef .tc main_c_17) = val_main_c_17 (F := F) := by
  simp only [ops_p1_2]
  after_results_w
  rfl

theorem step1_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_2 V x0 x1 x2 x3 x4 x5 x6) : Inv1_3 (after ops_p1_2 V) x0 x1 x2 x3 x4 x5 x6 where
  main_arg0 := (ops_p1_2_keep V main_arg0 (by decide)).trans h.main_arg0
  main_arg1 := (ops_p1_2_keep V main_arg1 (by decide)).trans h.main_arg1
  main_arg2 := (ops_p1_2_keep V main_arg2 (by decide)).trans h.main_arg2
  main_arg3 := (ops_p1_2_keep V main_arg3 (by decide)).trans h.main_arg3
  main_arg4 := (ops_p1_2_keep V main_arg4 (by decide)).trans h.main_arg4
  main_arg5 := (ops_p1_2_keep V main_arg5 (by decide)).trans h.main_arg5
  main_arg6 := (ops_p1_2_keep V main_arg6 (by decide)).trans h.main_arg6
  main_v27 := (ops_p1_2_keep V main_v27 (by decide)).trans h.main_v27
  main_v29 := (ops_p1_2_keep V main_v29 (by decide)).trans h.main_v29
  main_v31 := (ops_p1_2_keep V main_v31 (by decide)).trans h.main_v31
  main_v33 := (ops_p1_2_keep V main_v33 (by decide)).trans h.main_v33
  main_v34 := (ops_p1_2_keep V main_v34 (by decide)).trans h.main_v34
  main_v49 := (ops_p1_2_keep V main_v49 (by decide)).trans h.main_v49
  main_v50 := (ops_p1_2_keep V main_v50 (by decide)).trans h.main_v50
  main_v51 := w1_2_main_v51 V x0 x1 x2 x3 x4 x5 x6 h
  main_v53 := w1_2_main_v53 V x0 x1 x2 x3 x4 x5 x6 h
  main_c_17 := w1_2_main_c_17 V x0 x1 x2 x3 x4 x5 x6 h

/-- Stretch 3 of window 1: @main's operations 85 … 92. -/
def ops_p1_3 : List (HloOp τ sig (Elt F)) :=
  [ unary main_c_17 main_v54 (broadcastInDim S409600 ![] bcast_S_S409600 : (⟨S_, .i32⟩ : BufTy).Contents (Elt F) → (⟨S409600, .i32⟩ : BufTy).Contents (Elt F)),
    binary main_v29 main_v54 main_v55 (addi : (⟨S409600, .i32⟩ : BufTy).Contents (Elt F) → (⟨S409600, .i32⟩ : BufTy).Contents (Elt F) → (⟨S409600, .i32⟩ : BufTy).Contents (Elt F)),
    ternary main_v53 main_v55 main_v29 main_v56 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_18 (constantI S_ 32 0#32),
    unary main_c_18 main_v57 (broadcastInDim S409600 ![] bcast_S_S409600 : (⟨S_, .i32⟩ : BufTy).Contents (Elt F) → (⟨S409600, .i32⟩ : BufTy).Contents (Elt F)),
    binary main_v50 main_v57 main_v58 (cmpi .slt : (⟨S409600, .i32⟩ : BufTy).Contents (Elt F) → (⟨S409600, .i32⟩ : BufTy).Contents (Elt F) → (⟨S409600, .i1⟩ : BufTy).Contents (Elt F)),
    nullary main_c_19 (constantI S_ 32 640#32),
    unary main_c_19 main_v59 (broadcastInDim S409600 ![] bcast_S_S409600 : (⟨S_, .i32⟩ : BufTy).Contents (Elt F) → (⟨S409600, .i32⟩ : BufTy).Contents (Elt F)) ]
abbrev ops_p1_3_W : List (Ref sig .tc) := [main_v54, main_v55, main_v56, main_c_18, main_v57, main_v58, main_c_19, main_v59]
theorem ops_p1_3_writes : (ops_p1_3 : List (HloOp τ sig (Elt F))).Forall fun op => op.writes ⊆ (ops_p1_3_W.map (Proc.devRef (τ := τ) .tc)).toFinset := by
  simp only [ops_p1_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p1_3_keep (V : Valuation τ sig (Elt F)) (r : Ref sig .tc) (h : r ∉ ops_p1_3_W) :
    after ops_p1_3 V (Proc.devRef .tc r) = V (Proc.devRef .tc r) :=
  after_of_writes_sub ops_p1_3 _ ops_p1_3_writes h

set_option maxRecDepth 8192 in
set_option maxHeartbeats 1000000 in
theorem w1_3_main_v56 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_3 V x0 x1 x2 x3 x4 x5 x6) :
    after ops_p1_3 V (Proc.devRef .tc main_v56) = val_main_v56 (F := F) x1 := by
  simp only [ops_p1_3]
  after_results_w
  simp only [h.main_v29, h.main_c_17, h.main_v53]
  rfl

set_option maxRecDepth 8192 in
set_option maxHeartbeats 1000000 in
theorem w1_3_main_v58 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_3 V x0 x1 x2 x3 x4 x5 x6) :
    after ops_p1_3 V (Proc.devRef .tc main_v58) = val_main_v58 (F := F) x1 := by
  simp only [ops_p1_3]
  after_results_w
  simp only [h.main_v50]
  rfl

set_option maxRecDepth 8192 in
set_option maxHeartbeats 1000000 in
theorem w1_3_main_v59 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_3 V x0 x1 x2 x3 x4 x5 x6) :
    after ops_p1_3 V (Proc.devRef .tc main_v59) = val_main_v59 (F := F) := by
  simp only [ops_p1_3]
  after_results_w
  rfl

theorem step1_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_3 V x0 x1 x2 x3 x4 x5 x6) : Inv1_4 (after ops_p1_3 V) x0 x1 x2 x3 x4 x5 x6 where
  main_arg0 := (ops_p1_3_keep V main_arg0 (by decide)).trans h.main_arg0
  main_arg1 := (ops_p1_3_keep V main_arg1 (by decide)).trans h.main_arg1
  main_arg2 := (ops_p1_3_keep V main_arg2 (by decide)).trans h.main_arg2
  main_arg3 := (ops_p1_3_keep V main_arg3 (by decide)).trans h.main_arg3
  main_arg4 := (ops_p1_3_keep V main_arg4 (by decide)).trans h.main_arg4
  main_arg5 := (ops_p1_3_keep V main_arg5 (by decide)).trans h.main_arg5
  main_arg6 := (ops_p1_3_keep V main_arg6 (by decide)).trans h.main_arg6
  main_v27 := (ops_p1_3_keep V main_v27 (by decide)).trans h.main_v27
  main_v29 := (ops_p1_3_keep V main_v29 (by decide)).trans h.main_v29
  main_v31 := (ops_p1_3_keep V main_v31 (by decide)).trans h.main_v31
  main_v33 := (ops_p1_3_keep V main_v33 (by decide)).trans h.main_v33
  main_v34 := (ops_p1_3_keep V main_v34 (by decide)).trans h.main_v34
  main_v49 := (ops_p1_3_keep V main_v49 (by decide)).trans h.main_v49
  main_v50 := (ops_p1_3_keep V main_v50 (by decide)).trans h.main_v50
  main_v51 := (ops_p1_3_keep V main_v51 (by decide)).trans h.main_v51
  main_v56 := w1_3_main_v56 V x0 x1 x2 x3 x4 x5 x6 h
  main_v58 := w1_3_main_v58 V x0 x1 x2 x3 x4 x5 x6 h
  main_v59 := w1_3_main_v59 V x0 x1 x2 x3 x4 x5 x6 h

/-- Stretch 4 of window 1: @main's operations 93 … 100. -/
def ops_p1_4 : List (HloOp τ sig (Elt F)) :=
  [ binary main_v50 main_v59 main_v60 (addi : (⟨S409600, .i32⟩ : BufTy).Contents (Elt F) → (⟨S409600, .i32⟩ : BufTy).Contents (Elt F) → (⟨S409600, .i32⟩ : BufTy).Contents (Elt F)),
    ternary main_v58 main_v60 main_v50 main_v61 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_20 (constantI S_ 32 0#32),
    unary main_c_20 main_v62 (broadcastInDim S409600 ![] bcast_S_S409600 : (⟨S_, .i32⟩ : BufTy).Contents (Elt F) → (⟨S409600, .i32⟩ : BufTy).Contents (Elt F)),
    binary main_v51 main_v62 main_v63 (cmpi .slt : (⟨S409600, .i32⟩ : BufTy).Contents (Elt F) → (⟨S409600, .i32⟩ : BufTy).Contents (Elt F) → (⟨S409600, .i1⟩ : BufTy).Contents (Elt F)),
    nullary main_c_21 (constantI S_ 32 640#32),
    unary main_c_21 main_v64 (broadcastInDim S409600 ![] bcast_S_S409600 : (⟨S_, .i32⟩ : BufTy).Contents (Elt F) → (⟨S409600, .i32⟩ : BufTy).Contents (Elt F)),
    binary main_v51 main_v64 main_v65 (addi : (⟨S409600, .i32⟩ : BufTy).Contents (Elt F) → (⟨S409600, .i32⟩ : BufTy).Contents (Elt F) → (⟨S409600, .i32⟩ : BufTy).Contents (Elt F)) ]
abbrev ops_p1_4_W : List (Ref sig .tc) := [main_v60, main_v61, main_c_20, main_v62, main_v63, main_c_21, main_v64, main_v65]
theorem ops_p1_4_writes : (ops_p1_4 : List (HloOp τ sig (Elt F))).Forall fun op => op.writes ⊆ (ops_p1_4_W.map (Proc.devRef (τ := τ) .tc)).toFinset := by
  simp only [ops_p1_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p1_4_keep (V : Valuation τ sig (Elt F)) (r : Ref sig .tc) (h : r ∉ ops_p1_4_W) :
    after ops_p1_4 V (Proc.devRef .tc r) = V (Proc.devRef .tc r) :=
  after_of_writes_sub ops_p1_4 _ ops_p1_4_writes h

set_option maxRecDepth 8192 in
set_option maxHeartbeats 1000000 in
theorem w1_4_main_v61 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_4 V x0 x1 x2 x3 x4 x5 x6) :
    after ops_p1_4 V (Proc.devRef .tc main_v61) = val_main_v61 (F := F) x1 := by
  simp only [ops_p1_4]
  after_results_w
  simp only [h.main_v50, h.main_v59, h.main_v58]
  rfl

set_option maxRecDepth 8192 in
set_option maxHeartbeats 1000000 in
theorem w1_4_main_v63 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_4 V x0 x1 x2 x3 x4 x5 x6) :
    after ops_p1_4 V (Proc.devRef .tc main_v63) = val_main_v63 (F := F) x1 := by
  simp only [ops_p1_4]
  after_results_w
  simp only [h.main_v51]
  rfl

set_option maxRecDepth 8192 in
set_option maxHeartbeats 1000000 in
theorem w1_4_main_v65 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_4 V x0 x1 x2 x3 x4 x5 x6) :
    after ops_p1_4 V (Proc.devRef .tc main_v65) = val_main_v65 (F := F) x1 := by
  simp only [ops_p1_4]
  after_results_w
  simp only [h.main_v51]
  rfl

theorem step1_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_4 V x0 x1 x2 x3 x4 x5 x6) : Inv1_5 (after ops_p1_4 V) x0 x1 x2 x3 x4 x5 x6 where
  main_arg0 := (ops_p1_4_keep V main_arg0 (by decide)).trans h.main_arg0
  main_arg1 := (ops_p1_4_keep V main_arg1 (by decide)).trans h.main_arg1
  main_arg2 := (ops_p1_4_keep V main_arg2 (by decide)).trans h.main_arg2
  main_arg3 := (ops_p1_4_keep V main_arg3 (by decide)).trans h.main_arg3
  main_arg4 := (ops_p1_4_keep V main_arg4 (by decide)).trans h.main_arg4
  main_arg5 := (ops_p1_4_keep V main_arg5 (by decide)).trans h.main_arg5
  main_arg6 := (ops_p1_4_keep V main_arg6 (by decide)).trans h.main_arg6
  main_v27 := (ops_p1_4_keep V main_v27 (by decide)).trans h.main_v27
  main_v29 := (ops_p1_4_keep V main_v29 (by decide)).trans h.main_v29
  main_v31 := (ops_p1_4_keep V main_v31 (by decide)).trans h.main_v31
  main_v33 := (ops_p1_4_keep V main_v33 (by decide)).trans h.main_v33
  main_v34 := (ops_p1_4_keep V main_v34 (by decide)).trans h.main_v34
  main_v49 := (ops_p1_4_keep V main_v49 (by decide)).trans h.main_v49
  main_v51 := (ops_p1_4_keep V main_v51 (by decide)).trans h.main_v51
  main_v56 := (ops_p1_4_keep V main_v56 (by decide)).trans h.main_v56
  main_v61 := w1_4_main_v61 V x0 x1 x2 x3 x4 x5 x6 h
  main_v63 := w1_4_main_v63 V x0 x1 x2 x3 x4 x5 x6 h
  main_v65 := w1_4_main_v65 V x0 x1 x2 x3 x4 x5 x6 h

/-- Stretch 5 of window 1: @main's operations 101 … 108. -/
def ops_p1_5 : List (HloOp τ sig (Elt F)) :=
  [ ternary main_v63 main_v65 main_v51 main_v66 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v56 main_v67 (broadcastInDim S409600x1 ![0] bcast_S409600_S409600x1_0 : (⟨S409600, .i32⟩ : BufTy).Contents (Elt F) → (⟨S409600x1, .i32⟩ : BufTy).Contents (Elt F)),
    unary main_v61 main_v68 (broadcastInDim S409600x1 ![0] bcast_S409600_S409600x1_0 : (⟨S409600, .i32⟩ : BufTy).Contents (Elt F) → (⟨S409600x1, .i32⟩ : BufTy).Contents (Elt F)),
    unary main_v66 main_v69 (broadcastInDim S409600x1 ![0] bcast_S409600_S409600x1_0 : (⟨S409600, .i32⟩ : BufTy).Contents (Elt F) → (⟨S409600x1, .i32⟩ : BufTy).Contents (Elt F)),
    nary ![main_v67, main_v68, main_v69] main_v70 (fun u => concatenate S409600x3 1 [⟨S409600x1, u 0⟩, ⟨S409600x1, u 1⟩, ⟨S409600x1, u 2⟩] concatenates_S409600x1_S409600x1_S409600x1_S409600x3_d1),
    binary main_v27 main_v70 main_v71 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_22 (constantI S_ 32 0#32),
    unary main_c_22 main_v72 (broadcastInDim S409600 ![] bcast_S_S409600 : (⟨S_, .i32⟩ : BufTy).Contents (Elt F) → (⟨S409600, .i32⟩ : BufTy).Contents (Elt F)) ]
abbrev ops_p1_5_W : List (Ref sig .tc) := [main_v66, main_v67, main_v68, main_v69, main_v70, main_v71, main_c_22, main_v72]
theorem ops_p1_5_writes : (ops_p1_5 : List (HloOp τ sig (Elt F))).Forall fun op => op.writes ⊆ (ops_p1_5_W.map (Proc.devRef (τ := τ) .tc)).toFinset := by
  simp only [ops_p1_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p1_5_keep (V : Valuation τ sig (Elt F)) (r : Ref sig .tc) (h : r ∉ ops_p1_5_W) :
    after ops_p1_5 V (Proc.devRef .tc r) = V (Proc.devRef .tc r) :=
  after_of_writes_sub ops_p1_5 _ ops_p1_5_writes h

set_option maxRecDepth 8192 in
set_option maxHeartbeats 1000000 in
theorem w1_5_main_v71 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_5 V x0 x1 x2 x3 x4 x5 x6) :
    after ops_p1_5 V (Proc.devRef .tc main_v71) = val_main_v71 (F := F) x1 := by
  simp only [ops_p1_5]
  after_results_w
  simp only [h.main_v51, h.main_v65, h.main_v63, h.main_v61, h.main_v56, h.main_v27]
  rfl

set_option maxRecDepth 8192 in
set_option maxHeartbeats 1000000 in
theorem w1_5_main_v72 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_5 V x0 x1 x2 x3 x4 x5 x6) :
    after ops_p1_5 V (Proc.devRef .tc main_v72) = val_main_v72 (F := F) := by
  simp only [ops_p1_5]
  after_results_w
  rfl

theorem step1_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_5 V x0 x1 x2 x3 x4 x5 x6) : Inv1_6 (after ops_p1_5 V) x0 x1 x2 x3 x4 x5 x6 where
  main_arg0 := (ops_p1_5_keep V main_arg0 (by decide)).trans h.main_arg0
  main_arg1 := (ops_p1_5_keep V main_arg1 (by decide)).trans h.main_arg1
  main_arg2 := (ops_p1_5_keep V main_arg2 (by decide)).trans h.main_arg2
  main_arg3 := (ops_p1_5_keep V main_arg3 (by decide)).trans h.main_arg3
  main_arg4 := (ops_p1_5_keep V main_arg4 (by decide)).trans h.main_arg4
  main_arg5 := (ops_p1_5_keep V main_arg5 (by decide)).trans h.main_arg5
  main_arg6 := (ops_p1_5_keep V main_arg6 (by decide)).trans h.main_arg6
  main_v27 := (ops_p1_5_keep V main_v27 (by decide)).trans h.main_v27
  main_v29 := (ops_p1_5_keep V main_v29 (by decide)).trans h.main_v29
  main_v31 := (ops_p1_5_keep V main_v31 (by decide)).trans h.main_v31
  main_v33 := (ops_p1_5_keep V main_v33 (by decide)).trans h.main_v33
  main_v34 := (ops_p1_5_keep V main_v34 (by decide)).trans h.main_v34
  main_v49 := (ops_p1_5_keep V main_v49 (by decide)).trans h.main_v49
  main_v71 := w1_5_main_v71 V x0 x1 x2 x3 x4 x5 x6 h
  main_v72 := w1_5_main_v72 V x0 x1 x2 x3 x4 x5 x6 h

/-- Stretch 6 of window 1: @main's operations 109 … 116. -/
def ops_p1_6 : List (HloOp τ sig (Elt F)) :=
  [ binary main_v71 main_v72 main_v73 (cmpi .sge : (⟨S409600, .i32⟩ : BufTy).Contents (Elt F) → (⟨S409600, .i32⟩ : BufTy).Contents (Elt F) → (⟨S409600, .i1⟩ : BufTy).Contents (Elt F)),
    binary main_v49 main_v73 main_v74 (andi : (⟨S409600, .i1⟩ : BufTy).Contents (Elt F) → (⟨S409600, .i1⟩ : BufTy).Contents (Elt F) → (⟨S409600, .i1⟩ : BufTy).Contents (Elt F)),
    nullary main_c_23 (constantI S_ 32 0#32),
    unary main_c_23 main_call2_v0 (id : (⟨S_, .i32⟩ : BufTy).Contents (Elt F) → (⟨S_, .i32⟩ : BufTy).Contents (Elt F)),
    unary main_call2_v0 main_call2_v1 ((broadcastInDim S409600 ![] bcast_S_S409600) : (⟨S_, .i32⟩ : BufTy).Contents (Elt F) → (⟨S409600, .i32⟩ : BufTy).Contents (Elt F)),
    ternary main_v74 main_v71 main_call2_v1 main_v75 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_24 (constantI S_ 32 0#32),
    unary main_c_24 main_v76 (broadcastInDim S409600 ![] bcast_S_S409600 : (⟨S_, .i32⟩ : BufTy).Contents (Elt F) → (⟨S409600, .i32⟩ : BufTy).Contents (Elt F)) ]
abbrev ops_p1_6_W : List (Ref sig .tc) := [main_v73, main_v74, main_c_23, main_call2_v0, main_call2_v1, main_v75, main_c_24, main_v76]
theorem ops_p1_6_writes : (ops_p1_6 : List (HloOp τ sig (Elt F))).Forall fun op => op.writes ⊆ (ops_p1_6_W.map (Proc.devRef (τ := τ) .tc)).toFinset := by
  simp only [ops_p1_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p1_6_keep (V : Valuation τ sig (Elt F)) (r : Ref sig .tc) (h : r ∉ ops_p1_6_W) :
    after ops_p1_6 V (Proc.devRef .tc r) = V (Proc.devRef .tc r) :=
  after_of_writes_sub ops_p1_6 _ ops_p1_6_writes h

set_option maxRecDepth 8192 in
set_option maxHeartbeats 1000000 in
theorem w1_6_main_v74 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_6 V x0 x1 x2 x3 x4 x5 x6) :
    after ops_p1_6 V (Proc.devRef .tc main_v74) = val_main_v74 (F := F) x1 := by
  simp only [ops_p1_6]
  after_results_w
  simp only [h.main_v72, h.main_v71, h.main_v49]
  rfl

set_option maxRecDepth 8192 in
set_option maxHeartbeats 1000000 in
theorem w1_6_main_v75 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_6 V x0 x1 x2 x3 x4 x5 x6) :
    after ops_p1_6 V (Proc.devRef .tc main_v75) = val_main_v75 (F := F) x1 := by
  simp only [ops_p1_6]
  after_results_w
  simp only [h.main_v71, h.main_v72, h.main_v49]
  rfl

set_option maxRecDepth 8192 in
set_option maxHeartbeats 1000000 in
theorem w1_6_main_v76 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_6 V x0 x1 x2 x3 x4 x5 x6) :
    after ops_p1_6 V (Proc.devRef .tc main_v76) = val_main_v76 (F := F) := by
  simp only [ops_p1_6]
  after_results_w
  rfl

theorem step1_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_6 V x0 x1 x2 x3 x4 x5 x6) : Inv1_7 (after ops_p1_6 V) x0 x1 x2 x3 x4 x5 x6 where
  main_arg0 := (ops_p1_6_keep V main_arg0 (by decide)).trans h.main_arg0
  main_arg1 := (ops_p1_6_keep V main_arg1 (by decide)).trans h.main_arg1
  main_arg2 := (ops_p1_6_keep V main_arg2 (by decide)).trans h.main_arg2
  main_arg3 := (ops_p1_6_keep V main_arg3 (by decide)).trans h.main_arg3
  main_arg4 := (ops_p1_6_keep V main_arg4 (by decide)).trans h.main_arg4
  main_arg5 := (ops_p1_6_keep V main_arg5 (by decide)).trans h.main_arg5
  main_arg6 := (ops_p1_6_keep V main_arg6 (by decide)).trans h.main_arg6
  main_v27 := (ops_p1_6_keep V main_v27 (by decide)).trans h.main_v27
  main_v29 := (ops_p1_6_keep V main_v29 (by decide)).trans h.main_v29
  main_v31 := (ops_p1_6_keep V main_v31 (by decide)).trans h.main_v31
  main_v33 := (ops_p1_6_keep V main_v33 (by decide)).trans h.main_v33
  main_v34 := (ops_p1_6_keep V main_v34 (by decide)).trans h.main_v34
  main_v74 := w1_6_main_v74 V x0 x1 x2 x3 x4 x5 x6 h
  main_v75 := w1_6_main_v75 V x0 x1 x2 x3 x4 x5 x6 h
  main_v76 := w1_6_main_v76 V x0 x1 x2 x3 x4 x5 x6 h

/-- Stretch 7 of window 1: @main's operations 117 … 124. -/
def ops_p1_7 : List (HloOp τ sig (Elt F)) :=
  [ binary main_v75 main_v76 main_v77 (cmpi .slt : (⟨S409600, .i32⟩ : BufTy).Contents (Elt F) → (⟨S409600, .i32⟩ : BufTy).Contents (Elt F) → (⟨S409600, .i1⟩ : BufTy).Contents (Elt F)),
    nullary main_c_25 (constantI S_ 32 409600#32),
    unary main_c_25 main_v78 (broadcastInDim S409600 ![] bcast_S_S409600 : (⟨S_, .i32⟩ : BufTy).Contents (Elt F) → (⟨S409600, .i32⟩ : BufTy).Contents (Elt F)),
    binary main_v75 main_v78 main_v79 (addi : (⟨S409600, .i32⟩ : BufTy).Contents (Elt F) → (⟨S409600, .i32⟩ : BufTy).Contents (Elt F) → (⟨S409600, .i32⟩ : BufTy).Contents (Elt F)),
    ternary main_v77 main_v79 main_v75 main_v80 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v80 main_v81 (broadcastInDim S409600x1 ![0] bcast_S409600_S409600x1_0 : (⟨S409600, .i32⟩ : BufTy).Contents (Elt F) → (⟨S409600x1, .i32⟩ : BufTy).Contents (Elt F)),
    binary main_arg0 main_v81 main_v82 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v74 main_v83 (broadcastInDim S409600x1 ![0] bcast_S409600_S409600x1_0 : (⟨S409600, .i1⟩ : BufTy).Contents (Elt F) → (⟨S409600x1, .i1⟩ : BufTy).Contents (Elt F)) ]
abbrev ops_p1_7_W : List (Ref sig .tc) := [main_v77, main_c_25, main_v78, main_v79, main_v80, main_v81, main_v82, main_v83]
theorem ops_p1_7_writes : (ops_p1_7 : List (HloOp τ sig (Elt F))).Forall fun op => op.writes ⊆ (ops_p1_7_W.map (Proc.devRef (τ := τ) .tc)).toFinset := by
  simp only [ops_p1_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p1_7_keep (V : Valuation τ sig (Elt F)) (r : Ref sig .tc) (h : r ∉ ops_p1_7_W) :
    after ops_p1_7 V (Proc.devRef .tc r) = V (Proc.devRef .tc r) :=
  after_of_writes_sub ops_p1_7 _ ops_p1_7_writes h

set_option maxRecDepth 8192 in
set_option maxHeartbeats 1000000 in
theorem w1_7_main_v82 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_7 V x0 x1 x2 x3 x4 x5 x6) :
    after ops_p1_7 V (Proc.devRef .tc main_v82) = val_main_v82 (F := F) x0 x1 := by
  simp only [ops_p1_7]
  after_results_w
  simp only [h.main_v75, h.main_v76, h.main_arg0]
  rfl

set_option maxRecDepth 8192 in
set_option maxHeartbeats 1000000 in
theorem w1_7_main_v83 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_7 V x0 x1 x2 x3 x4 x5 x6) :
    after ops_p1_7 V (Proc.devRef .tc main_v83) = val_main_v83 (F := F) x1 := by
  simp only [ops_p1_7]
  after_results_w
  simp only [h.main_v74]
  rfl

theorem step1_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_7 V x0 x1 x2 x3 x4 x5 x6) : Inv1_8 (after ops_p1_7 V) x0 x1 x2 x3 x4 x5 x6 where
  main_arg0 := (ops_p1_7_keep V main_arg0 (by decide)).trans h.main_arg0
  main_arg1 := (ops_p1_7_keep V main_arg1 (by decide)).trans h.main_arg1
  main_arg2 := (ops_p1_7_keep V main_arg2 (by decide)).trans h.main_arg2
  main_arg3 := (ops_p1_7_keep V main_arg3 (by decide)).trans h.main_arg3
  main_arg4 := (ops_p1_7_keep V main_arg4 (by decide)).trans h.main_arg4
  main_arg5 := (ops_p1_7_keep V main_arg5 (by decide)).trans h.main_arg5
  main_arg6 := (ops_p1_7_keep V main_arg6 (by decide)).trans h.main_arg6
  main_v27 := (ops_p1_7_keep V main_v27 (by decide)).trans h.main_v27
  main_v29 := (ops_p1_7_keep V main_v29 (by decide)).trans h.main_v29
  main_v31 := (ops_p1_7_keep V main_v31 (by decide)).trans h.main_v31
  main_v33 := (ops_p1_7_keep V main_v33 (by decide)).trans h.main_v33
  main_v34 := (ops_p1_7_keep V main_v34 (by decide)).trans h.main_v34
  main_v82 := w1_7_main_v82 V x0 x1 x2 x3 x4 x5 x6 h
  main_v83 := w1_7_main_v83 V x0 x1 x2 x3 x4 x5 x6 h

/-- Stretch 8 of window 1: @main's operations 125 … 132. -/
def ops_p1_8 : List (HloOp τ sig (Elt F)) :=
  [ nullary main_cst_26 (constant S_ .f32 0x00000000#32),
    unary main_cst_26 main_call3_v0 (id : (⟨S_, .f32⟩ : BufTy).Contents (Elt F) → (⟨S_, .f32⟩ : BufTy).Contents (Elt F)),
    unary main_v83 main_call3_v1 ((broadcastInDim S409600x64 ![0, 1] bcast_S409600x1_S409600x64_0_1) : (⟨S409600x1, .i1⟩ : BufTy).Contents (Elt F) → (⟨S409600x64, .i1⟩ : BufTy).Contents (Elt F)),
    unary main_call3_v0 main_call3_v2 ((broadcastInDim S409600x64 ![] bcast_S_S409600x64) : (⟨S_, .f32⟩ : BufTy).Contents (Elt F) → (⟨S409600x64, .f32⟩ : BufTy).Contents (Elt F)),
    ternary main_call3_v1 main_v82 main_call3_v2 main_v84 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v85 ((extractStridedSlice S1x1x64x64 ![0, 0, 0, 0] · slices_S3x3x64x64_S1x1x64x64_0_0_0_0) : (⟨S3x3x64x64, .f32⟩ : BufTy).Contents (Elt F) → (⟨S1x1x64x64, .f32⟩ : BufTy).Contents (Elt F)),
    reshape main_v85 main_v86 rfl shapeCasts_S1x1x64x64_S64x64,
    binary main_v84 main_v86 main_v87 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)) ]
abbrev ops_p1_8_W : List (Ref sig .tc) := [main_cst_26, main_call3_v0, main_call3_v1, main_call3_v2, main_v84, main_v85, main_v86, main_v87]
theorem ops_p1_8_writes : (ops_p1_8 : List (HloOp τ sig (Elt F))).Forall fun op => op.writes ⊆ (ops_p1_8_W.map (Proc.devRef (τ := τ) .tc)).toFinset := by
  simp only [ops_p1_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p1_8_keep (V : Valuation τ sig (Elt F)) (r : Ref sig .tc) (h : r ∉ ops_p1_8_W) :
    after ops_p1_8 V (Proc.devRef .tc r) = V (Proc.devRef .tc r) :=
  after_of_writes_sub ops_p1_8 _ ops_p1_8_writes h

set_option maxRecDepth 8192 in
set_option maxHeartbeats 1000000 in
theorem w1_8_main_v87 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_8 V x0 x1 x2 x3 x4 x5 x6) :
    after ops_p1_8 V (Proc.devRef .tc main_v87) = val_main_v87 (F := F) x0 x1 x2 := by
  simp only [ops_p1_8]
  after_results_w
  simp only [h.main_arg2, h.main_v82, h.main_v83]
  rfl

theorem step1_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_8 V x0 x1 x2 x3 x4 x5 x6) : Inv1_9 (after ops_p1_8 V) x0 x1 x2 x3 x4 x5 x6 where
  main_arg0 := (ops_p1_8_keep V main_arg0 (by decide)).trans h.main_arg0
  main_arg1 := (ops_p1_8_keep V main_arg1 (by decide)).trans h.main_arg1
  main_arg2 := (ops_p1_8_keep V main_arg2 (by decide)).trans h.main_arg2
  main_arg3 := (ops_p1_8_keep V main_arg3 (by decide)).trans h.main_arg3
  main_arg4 := (ops_p1_8_keep V main_arg4 (by decide)).trans h.main_arg4
  main_arg5 := (ops_p1_8_keep V main_arg5 (by decide)).trans h.main_arg5
  main_arg6 := (ops_p1_8_keep V main_arg6 (by decide)).trans h.main_arg6
  main_v27 := (ops_p1_8_keep V main_v27 (by decide)).trans h.main_v27
  main_v29 := (ops_p1_8_keep V main_v29 (by decide)).trans h.main_v29
  main_v31 := (ops_p1_8_keep V main_v31 (by decide)).trans h.main_v31
  main_v33 := (ops_p1_8_keep V main_v33 (by decide)).trans h.main_v33
  main_v34 := (ops_p1_8_keep V main_v34 (by decide)).trans h.main_v34
  main_v87 := w1_8_main_v87 V x0 x1 x2 x3 x4 x5 x6 h

/-- Stretch 9 of window 1: @main's operations 133 … 135. -/
def ops_p1_9 : List (HloOp τ sig (Elt F)) :=
  [ binary main_v34 main_v87 main_v88 (addf : (⟨S409600x64, .f32⟩ : BufTy).Contents (Elt F) → (⟨S409600x64, .f32⟩ : BufTy).Contents (Elt F) → (⟨S409600x64, .f32⟩ : BufTy).Contents (Elt F)),
    nullary main_c_27 (constantI S_ 32 4294967295#32),
    unary main_c_27 main_v89 (broadcastInDim S409600 ![] bcast_S_S409600 : (⟨S_, .i32⟩ : BufTy).Contents (Elt F) → (⟨S409600, .i32⟩ : BufTy).Contents (Elt F)) ]
abbrev ops_p1_9_W : List (Ref sig .tc) := [main_v88, main_c_27, main_v89]
theorem ops_p1_9_writes : (ops_p1_9 : List (HloOp τ sig (Elt F))).Forall fun op => op.writes ⊆ (ops_p1_9_W.map (Proc.devRef (τ := τ) .tc)).toFinset := by
  simp only [ops_p1_9, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p1_9_keep (V : Valuation τ sig (Elt F)) (r : Ref sig .tc) (h : r ∉ ops_p1_9_W) :
    after ops_p1_9 V (Proc.devRef .tc r) = V (Proc.devRef .tc r) :=
  after_of_writes_sub ops_p1_9 _ ops_p1_9_writes h

set_option maxRecDepth 8192 in
set_option maxHeartbeats 1000000 in
theorem w1_9_main_v88 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_9 V x0 x1 x2 x3 x4 x5 x6) :
    after ops_p1_9 V (Proc.devRef .tc main_v88) = val_main_v88 (F := F) x0 x1 x2 := by
  simp only [ops_p1_9]
  after_results_w
  simp only [h.main_v87, h.main_v34]
  rfl

set_option maxRecDepth 8192 in
set_option maxHeartbeats 1000000 in
theorem w1_9_main_v89 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_9 V x0 x1 x2 x3 x4 x5 x6) :
    after ops_p1_9 V (Proc.devRef .tc main_v89) = val_main_v89 (F := F) := by
  simp only [ops_p1_9]
  after_results_w
  rfl

theorem step1_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1_9 V x0 x1 x2 x3 x4 x5 x6) : Inv2 (after ops_p1_9 V) x0 x1 x2 x3 x4 x5 x6 where
  main_arg0 := (ops_p1_9_keep V main_arg0 (by decide)).trans h.main_arg0
  main_arg1 := (ops_p1_9_keep V main_arg1 (by decide)).trans h.main_arg1
  main_arg2 := (ops_p1_9_keep V main_arg2 (by decide)).trans h.main_arg2
  main_arg3 := (ops_p1_9_keep V main_arg3 (by decide)).trans h.main_arg3
  main_arg4 := (ops_p1_9_keep V main_arg4 (by decide)).trans h.main_arg4
  main_arg5 := (ops_p1_9_keep V main_arg5 (by decide)).trans h.main_arg5
  main_arg6 := (ops_p1_9_keep V main_arg6 (by decide)).trans h.main_arg6
  main_v27 := (ops_p1_9_keep V main_v27 (by decide)).trans h.main_v27
  main_v29 := (ops_p1_9_keep V main_v29 (by decide)).trans h.main_v29
  main_v31 := (ops_p1_9_keep V main_v31 (by decide)).trans h.main_v31
  main_v33 := (ops_p1_9_keep V main_v33 (by decide)).trans h.main_v33
  main_v88 := w1_9_main_v88 V x0 x1 x2 x3 x4 x5 x6 h
  main_v89 := w1_9_main_v89 V x0 x1 x2 x3 x4 x5 x6 h

set_option maxRecDepth 8192 in
theorem ops_p1_split : (ops_p1 : List (HloOp τ sig (Elt F))) = ops_p1_0 ++ (ops_p1_1 ++ (ops_p1_2 ++ (ops_p1_3 ++ (ops_p1_4 ++ (ops_p1_5 ++ (ops_p1_6 ++ (ops_p1_7 ++ (ops_p1_8 ++ (ops_p1_9))))))))) := rfl

/-- Window 1 carries the staged reading from boundary 1 to boundary 2. -/
theorem step1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv1 V x0 x1 x2 x3 x4 x5 x6) : Inv2 (after ops_p1 V) x0 x1 x2 x3 x4 x5 x6 := by
  rw [ops_p1_split]; simp only [after_app]
  exact step1_9 _ x0 x1 x2 x3 x4 x5 x6 (step1_8 _ x0 x1 x2 x3 x4 x5 x6 (step1_7 _ x0 x1 x2 x3 x4 x5 x6 (step1_6 _ x0 x1 x2 x3 x4 x5 x6 (step1_5 _ x0 x1 x2 x3 x4 x5 x6 (step1_4 _ x0 x1 x2 x3 x4 x5 x6 (step1_3 _ x0 x1 x2 x3 x4 x5 x6 (step1_2 _ x0 x1 x2 x3 x4 x5 x6 (step1_1 _ x0 x1 x2 x3 x4 x5 x6 (step1_0 V x0 x1 x2 x3 x4 x5 x6 h)))))))))

end Cert.ReferenceIdeal.Hand

end
-- ==== Proof.Ref.W2.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 2 of @main: its operations 136 … 207 of 1688, in order. -/
def ops_p2 : List (HloOp τ sig (Elt F)) :=
  [ binary main_v31 main_v89 main_v90 (addi : (⟨S409600, .i32⟩ : BufTy).Contents (Elt F) → (⟨S409600, .i32⟩ : BufTy).Contents (Elt F) → (⟨S409600, .i32⟩ : BufTy).Contents (Elt F)),
    nullary main_c_28 (constantI S_ 32 0#32),
    unary main_c_28 main_v91 (broadcastInDim S409600 ![] bcast_S_S409600 : (⟨S_, .i32⟩ : BufTy).Contents (Elt F) → (⟨S409600, .i32⟩ : BufTy).Contents (Elt F)),
    binary main_v33 main_v91 main_v92 (addi : (⟨S409600, .i32⟩ : BufTy).Contents (Elt F) → (⟨S409600, .i32⟩ : BufTy).Contents (Elt F) → (⟨S409600, .i32⟩ : BufTy).Contents (Elt F)),
    nullary main_c_29 (constantI S_ 32 0#32),
    unary main_c_29 main_v93 (broadcastInDim S409600 ![] bcast_S_S409600 : (⟨S_, .i32⟩ : BufTy).Contents (Elt F) → (⟨S409600, .i32⟩ : BufTy).Contents (Elt F)),
    binary main_v90 main_v93 main_v94 (cmpi .sge : (⟨S409600, .i32⟩ : BufTy).Contents (Elt F) → (⟨S409600, .i32⟩ : BufTy).Contents (Elt F) → (⟨S409600, .i1⟩ : BufTy).Contents (Elt F)),
    nullary main_c_30 (constantI S_ 32 640#32),
    unary main_c_30 main_v95 (broadcastInDim S409600 ![] bcast_S_S409600 : (⟨S_, .i32⟩ : BufTy).Contents (Elt F) → (⟨S409600, .i32⟩ : BufTy).Contents (Elt F)),
    binary main_v90 main_v95 main_v96 (cmpi .slt : (⟨S409600, .i32⟩ : BufTy).Contents (Elt F) → (⟨S409600, .i32⟩ : BufTy).Contents (Elt F) → (⟨S409600, .i1⟩ : BufTy).Contents (Elt F)),
    binary main_v94 main_v96 main_v97 (andi : (⟨S409600, .i1⟩ : BufTy).Contents (Elt F) → (⟨S409600, .i1⟩ : BufTy).Contents (Elt F) → (⟨S409600, .i1⟩ : BufTy).Contents (Elt F)),
    nullary main_c_31 (constantI S_ 32 0#32),
    unary main_c_31 main_v98 (broadcastInDim S409600 ![] bcast_S_S409600 : (⟨S_, .i32⟩ : BufTy).Contents (Elt F) → (⟨S409600, .i32⟩ : BufTy).Contents (Elt F)),
    binary main_v92 main_v98 main_v99 (cmpi .sge : (⟨S409600, .i32⟩ : BufTy).Contents (Elt F) → (⟨S409600, .i32⟩ : BufTy).Contents (Elt F) → (⟨S409600, .i1⟩ : BufTy).Contents (Elt F)),
    binary main_v97 main_v99 main_v100 (andi : (⟨S409600, .i1⟩ : BufTy).Contents (Elt F) → (⟨S409600, .i1⟩ : BufTy).Contents (Elt F) → (⟨S409600, .i1⟩ : BufTy).Contents (Elt F)),
    nullary main_c_32 (constantI S_ 32 640#32),
    unary main_c_32 main_v101 (broadcastInDim S409600 ![] bcast_S_S409600 : (⟨S_, .i32⟩ : BufTy).Contents (Elt F) → (⟨S409600, .i32⟩ : BufTy).Contents (Elt F)),
    binary main_v92 main_v101 main_v102 (cmpi .slt : (⟨S409600, .i32⟩ : BufTy).Contents (Elt F) → (⟨S409600, .i32⟩ : BufTy).Contents (Elt F) → (⟨S409600, .i1⟩ : BufTy).Contents (Elt F)),
    binary main_v100 main_v102 main_v103 (andi : (⟨S409600, .i1⟩ : BufTy).Contents (Elt F) → (⟨S409600, .i1⟩ : BufTy).Contents (Elt F) → (⟨S409600, .i1⟩ : BufTy).Contents (Elt F)),
    nullary main_c_33 (constantI S_ 32 0#32),
    nullary main_c_34 (constantI S_ 32 639#32),
    unary main_c_33 main_call4_v0 (id : (⟨S_, .i32⟩ : BufTy).Contents (Elt F) → (⟨S_, .i32⟩ : BufTy).Contents (Elt F)),
    unary main_call4_v0 main_call4_v1 ((broadcastInDim S409600 ![] bcast_S_S409600) : (⟨S_, .i32⟩ : BufTy).Contents (Elt F) → (⟨S409600, .i32⟩ : BufTy).Contents (Elt F)),
    binary main_call4_v1 main_v90 main_call4_v2 (maxsi : (⟨S409600, .i32⟩ : BufTy).Contents (Elt F) → (⟨S409600, .i32⟩ : BufTy).Contents (Elt F) → (⟨S409600, .i32⟩ : BufTy).Contents (Elt F)),
    unary main_c_34 main_call4_v3 (id : (⟨S_, .i32⟩ : BufTy).Contents (Elt F) → (⟨S_, .i32⟩ : BufTy).Contents (Elt F)),
    unary main_call4_v3 main_call4_v4 ((broadcastInDim S409600 ![] bcast_S_S409600) : (⟨S_, .i32⟩ : BufTy).Contents (Elt F) → (⟨S409600, .i32⟩ : BufTy).Contents (Elt F)),
    binary main_call4_v4 main_call4_v2 main_v104 (minsi : (⟨S409600, .i32⟩ : BufTy).Contents (Elt F) → (⟨S409600, .i32⟩ : BufTy).Contents (Elt F) → (⟨S409600, .i32⟩ : BufTy).Contents (Elt F)),
    nullary main_c_35 (constantI S_ 32 0#32),
    nullary main_c_36 (constantI S_ 32 639#32),
    unary main_c_35 main_call5_v0 (id : (⟨S_, .i32⟩ : BufTy).Contents (Elt F) → (⟨S_, .i32⟩ : BufTy).Contents (Elt F)),
    unary main_call5_v0 main_call5_v1 ((broadcastInDim S409600 ![] bcast_S_S409600) : (⟨S_, .i32⟩ : BufTy).Contents (Elt F) → (⟨S409600, .i32⟩ : BufTy).Contents (Elt F)),
    binary main_call5_v1 main_v92 main_call5_v2 (maxsi : (⟨S409600, .i32⟩ : BufTy).Contents (Elt F) → (⟨S409600, .i32⟩ : BufTy).Contents (Elt F) → (⟨S409600, .i32⟩ : BufTy).Contents (Elt F)),
    unary main_c_36 main_call5_v3 (id : (⟨S_, .i32⟩ : BufTy).Contents (Elt F) → (⟨S_, .i32⟩ : BufTy).Contents (Elt F)),
    unary main_call5_v3 main_call5_v4 ((broadcastInDim S409600 ![] bcast_S_S409600) : (⟨S_, .i32⟩ : BufTy).Contents (Elt F) → (⟨S409600, .i32⟩ : BufTy).Contents (Elt F)),
    binary main_call5_v4 main_call5_v2 main_v105 (minsi : (⟨S409600, .i32⟩ : BufTy).Contents (Elt F) → (⟨S409600, .i32⟩ : BufTy).Contents (Elt F) → (⟨S409600, .i32⟩ : BufTy).Contents (Elt F)),
    nullary main_c_37 (constantI S_ 32 0#32),
    unary main_c_37 main_v106 (broadcastInDim S409600 ![] bcast_S_S409600 : (⟨S_, .i32⟩ : BufTy).Contents (Elt F) → (⟨S409600, .i32⟩ : BufTy).Contents (Elt F)),
    binary main_v29 main_v106 main_v107 (cmpi .slt : (⟨S409600, .i32⟩ : BufTy).Contents (Elt F) → (⟨S409600, .i32⟩ : BufTy).Contents (Elt F) → (⟨S409600, .i1⟩ : BufTy).Contents (Elt F)),
    nullary main_c_38 (constantI S_ 32 2#32),
    unary main_c_38 main_v108 (broadcastInDim S409600 ![] bcast_S_S409600 : (⟨S_, .i32⟩ : BufTy).Contents (Elt F) → (⟨S409600, .i32⟩ : BufTy).Contents (Elt F)),
    binary main_v29 main_v108 main_v109 (addi : (⟨S409600, .i32⟩ : BufTy).Contents (Elt F) → (⟨S409600, .i32⟩ : BufTy).Contents (Elt F) → (⟨S409600, .i32⟩ : BufTy).Contents (Elt F)),
    ternary main_v107 main_v109 main_v29 main_v110 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_39 (constantI S_ 32 0#32),
    unary main_c_39 main_v111 (broadcastInDim S409600 ![] bcast_S_S409600 : (⟨S_, .i32⟩ : BufTy).Contents (Elt F) → (⟨S409600, .i32⟩ : BufTy).Contents (Elt F)),
    binary main_v104 main_v111 main_v112 (cmpi .slt : (⟨S409600, .i32⟩ : BufTy).Contents (Elt F) → (⟨S409600, .i32⟩ : BufTy).Contents (Elt F) → (⟨S409600, .i1⟩ : BufTy).Contents (Elt F)),
    nullary main_c_40 (constantI S_ 32 640#32),
    unary main_c_40 main_v113 (broadcastInDim S409600 ![] bcast_S_S409600 : (⟨S_, .i32⟩ : BufTy).Contents (Elt F) → (⟨S409600, .i32⟩ : BufTy).Contents (Elt F)),
    binary main_v104 main_v113 main_v114 (addi : (⟨S409600, .i32⟩ : BufTy).Contents (Elt F) → (⟨S409600, .i32⟩ : BufTy).Contents (Elt F) → (⟨S409600, .i32⟩ : BufTy).Contents (Elt F)),
    ternary main_v112 main_v114 main_v104 main_v115 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_41 (constantI S_ 32 0#32),
    unary main_c_41 main_v116 (broadcastInDim S409600 ![] bcast_S_S409600 : (⟨S_, .i32⟩ : BufTy).Contents (Elt F) → (⟨S409600, .i32⟩ : BufTy).Contents (Elt F)),
    binary main_v105 main_v116 main_v117 (cmpi .slt : (⟨S409600, .i32⟩ : BufTy).Contents (Elt F) → (⟨S409600, .i32⟩ : BufTy).Contents (Elt F) → (⟨S409600, .i1⟩ : BufTy).Contents (Elt F)),
    nullary main_c_42 (constantI S_ 32 640#32),
    unary main_c_42 main_v118 (broadcastInDim S409600 ![] bcast_S_S409600 : (⟨S_, .i32⟩ : BufTy).Contents (Elt F) → (⟨S409600, .i32⟩ : BufTy).Contents (Elt F)),
    binary main_v105 main_v118 main_v119 (addi : (⟨S409600, .i32⟩ : BufTy).Contents (Elt F) → (⟨S409600, .i32⟩ : BufTy).Contents (Elt F) → (⟨S409600, .i32⟩ : BufTy).Contents (Elt F)),
    ternary main_v117 main_v119 main_v105 main_v120 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v110 main_v121 (broadcastInDim S409600x1 ![0] bcast_S409600_S409600x1_0 : (⟨S409600, .i32⟩ : BufTy).Contents (Elt F) → (⟨S409600x1, .i32⟩ : BufTy).Contents (Elt F)),
    unary main_v115 main_v122 (broadcastInDim S409600x1 ![0] bcast_S409600_S409600x1_0 : (⟨S409600, .i32⟩ : BufTy).Contents (Elt F) → (⟨S409600x1, .i32⟩ : BufTy).Contents (Elt F)),
    unary main_v120 main_v123 (broadcastInDim S409600x1 ![0] bcast_S409600_S409600x1_0 : (⟨S409600, .i32⟩ : BufTy).Contents (Elt F) → (⟨S409600x1, .i32⟩ : BufTy).Contents (Elt F)),
    nary ![main_v121, main_v122, main_v123] main_v124 (fun u => concatenate S409600x3 1 [⟨S409600x1, u 0⟩, ⟨S409600x1, u 1⟩, ⟨S409600x1, u 2⟩] concatenates_S409600x1_S409600x1_S409600x1_S409600x3_d1),
    binary main_v27 main_v124 main_v125 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_43 (constantI S_ 32 0#32),
    unary main_c_43 main_v126 (broadcastInDim S409600 ![] bcast_S_S409600 : (⟨S_, .i32⟩ : BufTy).Contents (Elt F) → (⟨S409600, .i32⟩ : BufTy).Contents (Elt F)),
    binary main_v125 main_v126 main_v127 (cmpi .sge : (⟨S409600, .i32⟩ : BufTy).Contents (Elt F) → (⟨S409600, .i32⟩ : BufTy).Contents (Elt F) → (⟨S409600, .i1⟩ : BufTy).Contents (Elt F)),
    binary main_v103 main_v127 main_v128 (andi : (⟨S409600, .i1⟩ : BufTy).Contents (Elt F) → (⟨S409600, .i1⟩ : BufTy).Contents (Elt F) → (⟨S409600, .i1⟩ : BufTy).Contents (Elt F)),
    nullary main_c_44 (constantI S_ 32 0#32),
    unary main_c_44 main_call6_v0 (id : (⟨S_, .i32⟩ : BufTy).Contents (Elt F) → (⟨S_, .i32⟩ : BufTy).Contents (Elt F)),
    unary main_call6_v0 main_call6_v1 ((broadcastInDim S409600 ![] bcast_S_S409600) : (⟨S_, .i32⟩ : BufTy).Contents (Elt F) → (⟨S409600, .i32⟩ : BufTy).Contents (Elt F)),
    ternary main_v128 main_v125 main_call6_v1 main_v129 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_45 (constantI S_ 32 0#32),
    unary main_c_45 main_v130 (broadcastInDim S409600 ![] bcast_S_S409600 : (⟨S_, .i32⟩ : BufTy).Contents (Elt F) → (⟨S409600, .i32⟩ : BufTy).Contents (Elt F)),
    binary main_v129 main_v130 main_v131 (cmpi .slt : (⟨S409600, .i32⟩ : BufTy).Contents (Elt F) → (⟨S409600, .i32⟩ : BufTy).Contents (Elt F) → (⟨S409600, .i1⟩ : BufTy).Contents (Elt F)) ]

set_option maxRecDepth 8192 in
set_option maxHeartbeats 4000000 in
theorem main_part2_eq (c : Dev nD) : main_part2 (F := F) c = seq ops_p2 := by
  simp only [main_part2, ops_p2, fn_clip.body, fn_where.body, fn_where_0.body, fn_relu.body, seq, bind_assoc, pure_bind]
  rfl

set_option maxRecDepth 8192 in
theorem ops_p2_sub : (ops_p2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub ..⟩

set_option maxRecDepth 8192 in
theorem ops_p2_fresh : ∀ op ∈ (ops_p2 : List (HloOp τ sig (Elt F))), op.fresh = ∅ := by
  unfold ops_p2; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 144 on hold before it. -/
structure Inv2_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v90 : V (Proc.devRef .tc main_v90) = val_main_v90 (F := F) x1
  main_v92 : V (Proc.devRef .tc main_v92) = val_main_v92 (F := F) x1
  main_v94 : V (Proc.devRef .tc main_v94) = val_main_v94 (F := F) x1
  main_c_30 : V (Proc.devRef .tc main_c_30) = val_main_c_30 (F := F)

/-- What the buffers read from operation 152 on hold before it. -/
structure Inv2_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v90 : V (Proc.devRef .tc main_v90) = val_main_v90 (F := F) x1
  main_v92 : V (Proc.devRef .tc main_v92) = val_main_v92 (F := F) x1
  main_v100 : V (Proc.devRef .tc main_v100) = val_main_v100 (F := F) x1
  main_c_32 : V (Proc.devRef .tc main_c_32) = val_main_c_32 (F := F)

/-- What the buffers read from operation 160 on hold before it. -/
structure Inv2_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v92 : V (Proc.devRef .tc main_v92) = val_main_v92 (F := F) x1
  main_v103 : V (Proc.devRef .tc main_v103) = val_main_v103 (F := F) x1
  main_c_34 : V (Proc.devRef .tc main_c_34) = val_main_c_34 (F := F)
  main_call4_v2 : V (Proc.devRef .tc main_call4_v2) = val_main_call4_v2 (F := F) x1

/-- What the buffers read from operation 168 on hold before it. -/
structure Inv2_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v103 : V (Proc.devRef .tc main_v103) = val_main_v103 (F := F) x1
  main_v104 : V (Proc.devRef .tc main_v104) = val_main_v104 (F := F) x1
  main_c_36 : V (Proc.devRef .tc main_c_36) = val_main_c_36 (F := F)
  main_call5_v2 : V (Proc.devRef .tc main_call5_v2) = val_main_call5_v2 (F := F) x1

/-- What the buffers read from operation 176 on hold before it. -/
structure Inv2_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v103 : V (Proc.devRef .tc main_v103) = val_main_v103 (F := F) x1
  main_v104 : V (Proc.devRef .tc main_v104) = val_main_v104 (F := F) x1
  main_v105 : V (Proc.devRef .tc main_v105) = val_main_v105 (F := F) x1
  main_v107 : V (Proc.devRef .tc main_v107) = val_main_v107 (F := F) x1
  main_v108 : V (Proc.devRef .tc main_v108) = val_main_v108 (F := F)

/-- What the buffers read from operation 184 on hold before it. -/
structure Inv2_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v103 : V (Proc.devRef .tc main_v103) = val_main_v103 (F := F) x1
  main_v104 : V (Proc.devRef .tc main_v104) = val_main_v104 (F := F) x1
  main_v105 : V (Proc.devRef .tc main_v105) = val_main_v105 (F := F) x1
  main_v110 : V (Proc.devRef .tc main_v110) = val_main_v110 (F := F) x1
  main_v112 : V (Proc.devRef .tc main_v112) = val_main_v112 (F := F) x1
  main_v114 : V (Proc.devRef .tc main_v114) = val_main_v114 (F := F) x1

/-- What the buffers read from operation 192 on hold before it. -/
structure Inv2_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v103 : V (Proc.devRef .tc main_v103) = val_main_v103 (F := F) x1
  main_v110 : V (Proc.devRef .tc main_v110) = val_main_v110 (F := F) x1
  main_v115 : V (Proc.devRef .tc main_v115) = val_main_v115 (F := F) x1
  main_v120 : V (Proc.devRef .tc main_v120) = val_main_v120 (F := F) x1

/-- What the buffers read from operation 200 on hold before it. -/
structure Inv2_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v103 : V (Proc.devRef .tc main_v103) = val_main_v103 (F := F) x1
  main_v125 : V (Proc.devRef .tc main_v125) = val_main_v125 (F := F) x1
  main_v127 : V (Proc.devRef .tc main_v127) = val_main_v127 (F := F) x1

/-- Stretch 0 of window 2: @main's operations 136 … 143. -/
def ops_p2_0 : List (HloOp τ sig (Elt F)) :=
  [ binary main_v31 main_v89 main_v90 (addi : (⟨S409600, .i32⟩ : BufTy).Contents (Elt F) → (⟨S409600, .i32⟩ : BufTy).Contents (Elt F) → (⟨S409600, .i32⟩ : BufTy).Contents (Elt F)),
    nullary main_c_28 (constantI S_ 32 0#32),
    unary main_c_28 main_v91 (broadcastInDim S409600 ![] bcast_S_S409600 : (⟨S_, .i32⟩ : BufTy).Contents (Elt F) → (⟨S409600, .i32⟩ : BufTy).Contents (Elt F)),
    binary main_v33 main_v91 main_v92 (addi : (⟨S409600, .i32⟩ : BufTy).Contents (Elt F) → (⟨S409600, .i32⟩ : BufTy).Contents (Elt F) → (⟨S409600, .i32⟩ : BufTy).Contents (Elt F)),
    nullary main_c_29 (constantI S_ 32 0#32),
    unary main_c_29 main_v93 (broadcastInDim S409600 ![] bcast_S_S409600 : (⟨S_, .i32⟩ : BufTy).Contents (Elt F) → (⟨S409600, .i32⟩ : BufTy).Contents (Elt F)),
    binary main_v90 main_v93 main_v94 (cmpi .sge : (⟨S409600, .i32⟩ : BufTy).Contents (Elt F) → (⟨S409600, .i32⟩ : BufTy).Contents (Elt F) → (⟨S409600, .i1⟩ : BufTy).Contents (Elt F)),
    nullary main_c_30 (constantI S_ 32 640#32) ]
abbrev ops_p2_0_W : List (Ref sig .tc) := [main_v90, main_c_28, main_v91, main_v92, main_c_29, main_v93, main_v94, main_c_30]
theorem ops_p2_0_writes : (ops_p2_0 : List (HloOp τ sig (Elt F))).Forall fun op => op.writes ⊆ (ops_p2_0_W.map (Proc.devRef (τ := τ) .tc)).toFinset := by
  simp only [ops_p2_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p2_0_keep (V : Valuation τ sig (Elt F)) (r : Ref sig .tc) (h : r ∉ ops_p2_0_W) :
    after ops_p2_0 V (Proc.devRef .tc r) = V (Proc.devRef .tc r) :=
  after_of_writes_sub ops_p2_0 _ ops_p2_0_writes h

set_option maxRecDepth 8192 in
set_option maxHeartbeats 1000000 in
theorem w2_0_main_v90 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2 V x0 x1 x2 x3 x4 x5 x6) :
    after ops_p2_0 V (Proc.devRef .tc main_v90) = val_main_v90 (F := F) x1 := by
  simp only [ops_p2_0]
  after_results_w
  simp only [h.main_v89, h.main_v31]
  rfl

set_option maxRecDepth 8192 in
set_option maxHeartbeats 1000000 in
theorem w2_0_main_v92 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2 V x0 x1 x2 x3 x4 x5 x6) :
    after ops_p2_0 V (Proc.devRef .tc main_v92) = val_main_v92 (F := F) x1 := by
  simp only [ops_p2_0]
  after_results_w
  simp only [h.main_v33]
  rfl

set_option maxRecDepth 8192 in
set_option maxHeartbeats 1000000 in
theorem w2_0_main_v94 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2 V x0 x1 x2 x3 x4 x5 x6) :
    after ops_p2_0 V (Proc.devRef .tc main_v94) = val_main_v94 (F := F) x1 := by
  simp only [ops_p2_0]
  after_results_w
  simp only [h.main_v89, h.main_v31]
  rfl

set_option maxRecDepth 8192 in
set_option maxHeartbeats 1000000 in
theorem w2_0_main_c_30 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2 V x0 x1 x2 x3 x4 x5 x6) :
    after ops_p2_0 V (Proc.devRef .tc main_c_30) = val_main_c_30 (F := F) := by
  simp only [ops_p2_0]
  after_results_w
  rfl

theorem step2_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2 V x0 x1 x2 x3 x4 x5 x6) : Inv2_1 (after ops_p2_0 V) x0 x1 x2 x3 x4 x5 x6 where
  main_arg0 := (ops_p2_0_keep V main_arg0 (by decide)).trans h.main_arg0
  main_arg1 := (ops_p2_0_keep V main_arg1 (by decide)).trans h.main_arg1
  main_arg2 := (ops_p2_0_keep V main_arg2 (by decide)).trans h.main_arg2
  main_arg3 := (ops_p2_0_keep V main_arg3 (by decide)).trans h.main_arg3
  main_arg4 := (ops_p2_0_keep V main_arg4 (by decide)).trans h.main_arg4
  main_arg5 := (ops_p2_0_keep V main_arg5 (by decide)).trans h.main_arg5
  main_arg6 := (ops_p2_0_keep V main_arg6 (by decide)).trans h.main_arg6
  main_v27 := (ops_p2_0_keep V main_v27 (by decide)).trans h.main_v27
  main_v29 := (ops_p2_0_keep V main_v29 (by decide)).trans h.main_v29
  main_v31 := (ops_p2_0_keep V main_v31 (by decide)).trans h.main_v31
  main_v33 := (ops_p2_0_keep V main_v33 (by decide)).trans h.main_v33
  main_v88 := (ops_p2_0_keep V main_v88 (by decide)).trans h.main_v88
  main_v90 := w2_0_main_v90 V x0 x1 x2 x3 x4 x5 x6 h
  main_v92 := w2_0_main_v92 V x0 x1 x2 x3 x4 x5 x6 h
  main_v94 := w2_0_main_v94 V x0 x1 x2 x3 x4 x5 x6 h
  main_c_30 := w2_0_main_c_30 V x0 x1 x2 x3 x4 x5 x6 h

/-- Stretch 1 of window 2: @main's operations 144 … 151. -/
def ops_p2_1 : List (HloOp τ sig (Elt F)) :=
  [ unary main_c_30 main_v95 (broadcastInDim S409600 ![] bcast_S_S409600 : (⟨S_, .i32⟩ : BufTy).Contents (Elt F) → (⟨S409600, .i32⟩ : BufTy).Contents (Elt F)),
    binary main_v90 main_v95 main_v96 (cmpi .slt : (⟨S409600, .i32⟩ : BufTy).Contents (Elt F) → (⟨S409600, .i32⟩ : BufTy).Contents (Elt F) → (⟨S409600, .i1⟩ : BufTy).Contents (Elt F)),
    binary main_v94 main_v96 main_v97 (andi : (⟨S409600, .i1⟩ : BufTy).Contents (Elt F) → (⟨S409600, .i1⟩ : BufTy).Contents (Elt F) → (⟨S409600, .i1⟩ : BufTy).Contents (Elt F)),
    nullary main_c_31 (constantI S_ 32 0#32),
    unary main_c_31 main_v98 (broadcastInDim S409600 ![] bcast_S_S409600 : (⟨S_, .i32⟩ : BufTy).Contents (Elt F) → (⟨S409600, .i32⟩ : BufTy).Contents (Elt F)),
    binary main_v92 main_v98 main_v99 (cmpi .sge : (⟨S409600, .i32⟩ : BufTy).Contents (Elt F) → (⟨S409600, .i32⟩ : BufTy).Contents (Elt F) → (⟨S409600, .i1⟩ : BufTy).Contents (Elt F)),
    binary main_v97 main_v99 main_v100 (andi : (⟨S409600, .i1⟩ : BufTy).Contents (Elt F) → (⟨S409600, .i1⟩ : BufTy).Contents (Elt F) → (⟨S409600, .i1⟩ : BufTy).Contents (Elt F)),
    nullary main_c_32 (constantI S_ 32 640#32) ]
abbrev ops_p2_1_W : List (Ref sig .tc) := [main_v95, main_v96, main_v97, main_c_31, main_v98, main_v99, main_v100, main_c_32]
theorem ops_p2_1_writes : (ops_p2_1 : List (HloOp τ sig (Elt F))).Forall fun op => op.writes ⊆ (ops_p2_1_W.map (Proc.devRef (τ := τ) .tc)).toFinset := by
  simp only [ops_p2_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p2_1_keep (V : Valuation τ sig (Elt F)) (r : Ref sig .tc) (h : r ∉ ops_p2_1_W) :
    after ops_p2_1 V (Proc.devRef .tc r) = V (Proc.devRef .tc r) :=
  after_of_writes_sub ops_p2_1 _ ops_p2_1_writes h

set_option maxRecDepth 8192 in
set_option maxHeartbeats 1000000 in
theorem w2_1_main_v100 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_1 V x0 x1 x2 x3 x4 x5 x6) :
    after ops_p2_1 V (Proc.devRef .tc main_v100) = val_main_v100 (F := F) x1 := by
  simp only [ops_p2_1]
  after_results_w
  simp only [h.main_v92, h.main_c_30, h.main_v90, h.main_v94]
  rfl

set_option maxRecDepth 8192 in
set_option maxHeartbeats 1000000 in
theorem w2_1_main_c_32 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_1 V x0 x1 x2 x3 x4 x5 x6) :
    after ops_p2_1 V (Proc.devRef .tc main_c_32) = val_main_c_32 (F := F) := by
  simp only [ops_p2_1]
  after_results_w
  rfl

theorem step2_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_1 V x0 x1 x2 x3 x4 x5 x6) : Inv2_2 (after ops_p2_1 V) x0 x1 x2 x3 x4 x5 x6 where
  main_arg0 := (ops_p2_1_keep V main_arg0 (by decide)).trans h.main_arg0
  main_arg1 := (ops_p2_1_keep V main_arg1 (by decide)).trans h.main_arg1
  main_arg2 := (ops_p2_1_keep V main_arg2 (by decide)).trans h.main_arg2
  main_arg3 := (ops_p2_1_keep V main_arg3 (by decide)).trans h.main_arg3
  main_arg4 := (ops_p2_1_keep V main_arg4 (by decide)).trans h.main_arg4
  main_arg5 := (ops_p2_1_keep V main_arg5 (by decide)).trans h.main_arg5
  main_arg6 := (ops_p2_1_keep V main_arg6 (by decide)).trans h.main_arg6
  main_v27 := (ops_p2_1_keep V main_v27 (by decide)).trans h.main_v27
  main_v29 := (ops_p2_1_keep V main_v29 (by decide)).trans h.main_v29
  main_v31 := (ops_p2_1_keep V main_v31 (by decide)).trans h.main_v31
  main_v33 := (ops_p2_1_keep V main_v33 (by decide)).trans h.main_v33
  main_v88 := (ops_p2_1_keep V main_v88 (by decide)).trans h.main_v88
  main_v90 := (ops_p2_1_keep V main_v90 (by decide)).trans h.main_v90
  main_v92 := (ops_p2_1_keep V main_v92 (by decide)).trans h.main_v92
  main_v100 := w2_1_main_v100 V x0 x1 x2 x3 x4 x5 x6 h
  main_c_32 := w2_1_main_c_32 V x0 x1 x2 x3 x4 x5 x6 h

/-- Stretch 2 of window 2: @main's operations 152 … 159. -/
def ops_p2_2 : List (HloOp τ sig (Elt F)) :=
  [ unary main_c_32 main_v101 (broadcastInDim S409600 ![] bcast_S_S409600 : (⟨S_, .i32⟩ : BufTy).Contents (Elt F) → (⟨S409600, .i32⟩ : BufTy).Contents (Elt F)),
    binary main_v92 main_v101 main_v102 (cmpi .slt : (⟨S409600, .i32⟩ : BufTy).Contents (Elt F) → (⟨S409600, .i32⟩ : BufTy).Contents (Elt F) → (⟨S409600, .i1⟩ : BufTy).Contents (Elt F)),
    binary main_v100 main_v102 main_v103 (andi : (⟨S409600, .i1⟩ : BufTy).Contents (Elt F) → (⟨S409600, .i1⟩ : BufTy).Contents (Elt F) → (⟨S409600, .i1⟩ : BufTy).Contents (Elt F)),
    nullary main_c_33 (constantI S_ 32 0#32),
    nullary main_c_34 (constantI S_ 32 639#32),
    unary main_c_33 main_call4_v0 (id : (⟨S_, .i32⟩ : BufTy).Contents (Elt F) → (⟨S_, .i32⟩ : BufTy).Contents (Elt F)),
    unary main_call4_v0 main_call4_v1 ((broadcastInDim S409600 ![] bcast_S_S409600) : (⟨S_, .i32⟩ : BufTy).Contents (Elt F) → (⟨S409600, .i32⟩ : BufTy).Contents (Elt F)),
    binary main_call4_v1 main_v90 main_call4_v2 (maxsi : (⟨S409600, .i32⟩ : BufTy).Contents (Elt F) → (⟨S409600, .i32⟩ : BufTy).Contents (Elt F) → (⟨S409600, .i32⟩ : BufTy).Contents (Elt F)) ]
abbrev ops_p2_2_W : List (Ref sig .tc) := [main_v101, main_v102, main_v103, main_c_33, main_c_34, main_call4_v0, main_call4_v1, main_call4_v2]
theorem ops_p2_2_writes : (ops_p2_2 : List (HloOp τ sig (Elt F))).Forall fun op => op.writes ⊆ (ops_p2_2_W.map (Proc.devRef (τ := τ) .tc)).toFinset := by
  simp only [ops_p2_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p2_2_keep (V : Valuation τ sig (Elt F)) (r : Ref sig .tc) (h : r ∉ ops_p2_2_W) :
    after ops_p2_2 V (Proc.devRef .tc r) = V (Proc.devRef .tc r) :=
  after_of_writes_sub ops_p2_2 _ ops_p2_2_writes h

set_option maxRecDepth 8192 in
set_option maxHeartbeats 1000000 in
theorem w2_2_main_v103 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_2 V x0 x1 x2 x3 x4 x5 x6) :
    after ops_p2_2 V (Proc.devRef .tc main_v103) = val_main_v103 (F := F) x1 := by
  simp only [ops_p2_2]
  after_results_w
  simp only [h.main_c_32, h.main_v92, h.main_v100]
  rfl

set_option maxRecDepth 8192 in
set_option maxHeartbeats 1000000 in
theorem w2_2_main_c_34 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_2 V x0 x1 x2 x3 x4 x5 x6) :
    after ops_p2_2 V (Proc.devRef .tc main_c_34) = val_main_c_34 (F := F) := by
  simp only [ops_p2_2]
  after_results_w
  rfl

set_option maxRecDepth 8192 in
set_option maxHeartbeats 1000000 in
theorem w2_2_main_call4_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_2 V x0 x1 x2 x3 x4 x5 x6) :
    after ops_p2_2 V (Proc.devRef .tc main_call4_v2) = val_main_call4_v2 (F := F) x1 := by
  simp only [ops_p2_2]
  after_results_w
  simp only [h.main_v90]
  rfl

theorem step2_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_2 V x0 x1 x2 x3 x4 x5 x6) : Inv2_3 (after ops_p2_2 V) x0 x1 x2 x3 x4 x5 x6 where
  main_arg0 := (ops_p2_2_keep V main_arg0 (by decide)).trans h.main_arg0
  main_arg1 := (ops_p2_2_keep V main_arg1 (by decide)).trans h.main_arg1
  main_arg2 := (ops_p2_2_keep V main_arg2 (by decide)).trans h.main_arg2
  main_arg3 := (ops_p2_2_keep V main_arg3 (by decide)).trans h.main_arg3
  main_arg4 := (ops_p2_2_keep V main_arg4 (by decide)).trans h.main_arg4
  main_arg5 := (ops_p2_2_keep V main_arg5 (by decide)).trans h.main_arg5
  main_arg6 := (ops_p2_2_keep V main_arg6 (by decide)).trans h.main_arg6
  main_v27 := (ops_p2_2_keep V main_v27 (by decide)).trans h.main_v27
  main_v29 := (ops_p2_2_keep V main_v29 (by decide)).trans h.main_v29
  main_v31 := (ops_p2_2_keep V main_v31 (by decide)).trans h.main_v31
  main_v33 := (ops_p2_2_keep V main_v33 (by decide)).trans h.main_v33
  main_v88 := (ops_p2_2_keep V main_v88 (by decide)).trans h.main_v88
  main_v92 := (ops_p2_2_keep V main_v92 (by decide)).trans h.main_v92
  main_v103 := w2_2_main_v103 V x0 x1 x2 x3 x4 x5 x6 h
  main_c_34 := w2_2_main_c_34 V x0 x1 x2 x3 x4 x5 x6 h
  main_call4_v2 := w2_2_main_call4_v2 V x0 x1 x2 x3 x4 x5 x6 h

/-- Stretch 3 of window 2: @main's operations 160 … 167. -/
def ops_p2_3 : List (HloOp τ sig (Elt F)) :=
  [ unary main_c_34 main_call4_v3 (id : (⟨S_, .i32⟩ : BufTy).Contents (Elt F) → (⟨S_, .i32⟩ : BufTy).Contents (Elt F)),
    unary main_call4_v3 main_call4_v4 ((broadcastInDim S409600 ![] bcast_S_S409600) : (⟨S_, .i32⟩ : BufTy).Contents (Elt F) → (⟨S409600, .i32⟩ : BufTy).Contents (Elt F)),
    binary main_call4_v4 main_call4_v2 main_v104 (minsi : (⟨S409600, .i32⟩ : BufTy).Contents (Elt F) → (⟨S409600, .i32⟩ : BufTy).Contents (Elt F) → (⟨S409600, .i32⟩ : BufTy).Contents (Elt F)),
    nullary main_c_35 (constantI S_ 32 0#32),
    nullary main_c_36 (constantI S_ 32 639#32),
    unary main_c_35 main_call5_v0 (id : (⟨S_, .i32⟩ : BufTy).Contents (Elt F) → (⟨S_, .i32⟩ : BufTy).Contents (Elt F)),
    unary main_call5_v0 main_call5_v1 ((broadcastInDim S409600 ![] bcast_S_S409600) : (⟨S_, .i32⟩ : BufTy).Contents (Elt F) → (⟨S409600, .i32⟩ : BufTy).Contents (Elt F)),
    binary main_call5_v1 main_v92 main_call5_v2 (maxsi : (⟨S409600, .i32⟩ : BufTy).Contents (Elt F) → (⟨S409600, .i32⟩ : BufTy).Contents (Elt F) → (⟨S409600, .i32⟩ : BufTy).Contents (Elt F)) ]
abbrev ops_p2_3_W : List (Ref sig .tc) := [main_call4_v3, main_call4_v4, main_v104, main_c_35, main_c_36, main_call5_v0, main_call5_v1, main_call5_v2]
theorem ops_p2_3_writes : (ops_p2_3 : List (HloOp τ sig (Elt F))).Forall fun op => op.writes ⊆ (ops_p2_3_W.map (Proc.devRef (τ := τ) .tc)).toFinset := by
  simp only [ops_p2_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p2_3_keep (V : Valuation τ sig (Elt F)) (r : Ref sig .tc) (h : r ∉ ops_p2_3_W) :
    after ops_p2_3 V (Proc.devRef .tc r) = V (Proc.devRef .tc r) :=
  after_of_writes_sub ops_p2_3 _ ops_p2_3_writes h

set_option maxRecDepth 8192 in
set_option maxHeartbeats 1000000 in
theorem w2_3_main_v104 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_3 V x0 x1 x2 x3 x4 x5 x6) :
    after ops_p2_3 V (Proc.devRef .tc main_v104) = val_main_v104 (F := F) x1 := by
  simp only [ops_p2_3]
  after_results_w
  simp only [h.main_call4_v2, h.main_c_34]
  rfl

set_option maxRecDepth 8192 in
set_option maxHeartbeats 1000000 in
theorem w2_3_main_c_36 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_3 V x0 x1 x2 x3 x4 x5 x6) :
    after ops_p2_3 V (Proc.devRef .tc main_c_36) = val_main_c_36 (F := F) := by
  simp only [ops_p2_3]
  after_results_w
  rfl

set_option maxRecDepth 8192 in
set_option maxHeartbeats 1000000 in
theorem w2_3_main_call5_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_3 V x0 x1 x2 x3 x4 x5 x6) :
    after ops_p2_3 V (Proc.devRef .tc main_call5_v2) = val_main_call5_v2 (F := F) x1 := by
  simp only [ops_p2_3]
  after_results_w
  simp only [h.main_v92]
  rfl

theorem step2_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_3 V x0 x1 x2 x3 x4 x5 x6) : Inv2_4 (after ops_p2_3 V) x0 x1 x2 x3 x4 x5 x6 where
  main_arg0 := (ops_p2_3_keep V main_arg0 (by decide)).trans h.main_arg0
  main_arg1 := (ops_p2_3_keep V main_arg1 (by decide)).trans h.main_arg1
  main_arg2 := (ops_p2_3_keep V main_arg2 (by decide)).trans h.main_arg2
  main_arg3 := (ops_p2_3_keep V main_arg3 (by decide)).trans h.main_arg3
  main_arg4 := (ops_p2_3_keep V main_arg4 (by decide)).trans h.main_arg4
  main_arg5 := (ops_p2_3_keep V main_arg5 (by decide)).trans h.main_arg5
  main_arg6 := (ops_p2_3_keep V main_arg6 (by decide)).trans h.main_arg6
  main_v27 := (ops_p2_3_keep V main_v27 (by decide)).trans h.main_v27
  main_v29 := (ops_p2_3_keep V main_v29 (by decide)).trans h.main_v29
  main_v31 := (ops_p2_3_keep V main_v31 (by decide)).trans h.main_v31
  main_v33 := (ops_p2_3_keep V main_v33 (by decide)).trans h.main_v33
  main_v88 := (ops_p2_3_keep V main_v88 (by decide)).trans h.main_v88
  main_v103 := (ops_p2_3_keep V main_v103 (by decide)).trans h.main_v103
  main_v104 := w2_3_main_v104 V x0 x1 x2 x3 x4 x5 x6 h
  main_c_36 := w2_3_main_c_36 V x0 x1 x2 x3 x4 x5 x6 h
  main_call5_v2 := w2_3_main_call5_v2 V x0 x1 x2 x3 x4 x5 x6 h

/-- Stretch 4 of window 2: @main's operations 168 … 175. -/
def ops_p2_4 : List (HloOp τ sig (Elt F)) :=
  [ unary main_c_36 main_call5_v3 (id : (⟨S_, .i32⟩ : BufTy).Contents (Elt F) → (⟨S_, .i32⟩ : BufTy).Contents (Elt F)),
    unary main_call5_v3 main_call5_v4 ((broadcastInDim S409600 ![] bcast_S_S409600) : (⟨S_, .i32⟩ : BufTy).Contents (Elt F) → (⟨S409600, .i32⟩ : BufTy).Contents (Elt F)),
    binary main_call5_v4 main_call5_v2 main_v105 (minsi : (⟨S409600, .i32⟩ : BufTy).Contents (Elt F) → (⟨S409600, .i32⟩ : BufTy).Contents (Elt F) → (⟨S409600, .i32⟩ : BufTy).Contents (Elt F)),
    nullary main_c_37 (constantI S_ 32 0#32),
    unary main_c_37 main_v106 (broadcastInDim S409600 ![] bcast_S_S409600 : (⟨S_, .i32⟩ : BufTy).Contents (Elt F) → (⟨S409600, .i32⟩ : BufTy).Contents (Elt F)),
    binary main_v29 main_v106 main_v107 (cmpi .slt : (⟨S409600, .i32⟩ : BufTy).Contents (Elt F) → (⟨S409600, .i32⟩ : BufTy).Contents (Elt F) → (⟨S409600, .i1⟩ : BufTy).Contents (Elt F)),
    nullary main_c_38 (constantI S_ 32 2#32),
    unary main_c_38 main_v108 (broadcastInDim S409600 ![] bcast_S_S409600 : (⟨S_, .i32⟩ : BufTy).Contents (Elt F) → (⟨S409600, .i32⟩ : BufTy).Contents (Elt F)) ]
abbrev ops_p2_4_W : List (Ref sig .tc) := [main_call5_v3, main_call5_v4, main_v105, main_c_37, main_v106, main_v107, main_c_38, main_v108]
theorem ops_p2_4_writes : (ops_p2_4 : List (HloOp τ sig (Elt F))).Forall fun op => op.writes ⊆ (ops_p2_4_W.map (Proc.devRef (τ := τ) .tc)).toFinset := by
  simp only [ops_p2_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p2_4_keep (V : Valuation τ sig (Elt F)) (r : Ref sig .tc) (h : r ∉ ops_p2_4_W) :
    after ops_p2_4 V (Proc.devRef .tc r) = V (Proc.devRef .tc r) :=
  after_of_writes_sub ops_p2_4 _ ops_p2_4_writes h

set_option maxRecDepth 8192 in
set_option maxHeartbeats 1000000 in
theorem w2_4_main_v105 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_4 V x0 x1 x2 x3 x4 x5 x6) :
    after ops_p2_4 V (Proc.devRef .tc main_v105) = val_main_v105 (F := F) x1 := by
  simp only [ops_p2_4]
  after_results_w
  simp only [h.main_call5_v2, h.main_c_36]
  rfl

set_option maxRecDepth 8192 in
set_option maxHeartbeats 1000000 in
theorem w2_4_main_v107 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_4 V x0 x1 x2 x3 x4 x5 x6) :
    after ops_p2_4 V (Proc.devRef .tc main_v107) = val_main_v107 (F := F) x1 := by
  simp only [ops_p2_4]
  after_results_w
  simp only [h.main_v29]
  rfl

set_option maxRecDepth 8192 in
set_option maxHeartbeats 1000000 in
theorem w2_4_main_v108 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_4 V x0 x1 x2 x3 x4 x5 x6) :
    after ops_p2_4 V (Proc.devRef .tc main_v108) = val_main_v108 (F := F) := by
  simp only [ops_p2_4]
  after_results_w
  rfl

theorem step2_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_4 V x0 x1 x2 x3 x4 x5 x6) : Inv2_5 (after ops_p2_4 V) x0 x1 x2 x3 x4 x5 x6 where
  main_arg0 := (ops_p2_4_keep V main_arg0 (by decide)).trans h.main_arg0
  main_arg1 := (ops_p2_4_keep V main_arg1 (by decide)).trans h.main_arg1
  main_arg2 := (ops_p2_4_keep V main_arg2 (by decide)).trans h.main_arg2
  main_arg3 := (ops_p2_4_keep V main_arg3 (by decide)).trans h.main_arg3
  main_arg4 := (ops_p2_4_keep V main_arg4 (by decide)).trans h.main_arg4
  main_arg5 := (ops_p2_4_keep V main_arg5 (by decide)).trans h.main_arg5
  main_arg6 := (ops_p2_4_keep V main_arg6 (by decide)).trans h.main_arg6
  main_v27 := (ops_p2_4_keep V main_v27 (by decide)).trans h.main_v27
  main_v29 := (ops_p2_4_keep V main_v29 (by decide)).trans h.main_v29
  main_v31 := (ops_p2_4_keep V main_v31 (by decide)).trans h.main_v31
  main_v33 := (ops_p2_4_keep V main_v33 (by decide)).trans h.main_v33
  main_v88 := (ops_p2_4_keep V main_v88 (by decide)).trans h.main_v88
  main_v103 := (ops_p2_4_keep V main_v103 (by decide)).trans h.main_v103
  main_v104 := (ops_p2_4_keep V main_v104 (by decide)).trans h.main_v104
  main_v105 := w2_4_main_v105 V x0 x1 x2 x3 x4 x5 x6 h
  main_v107 := w2_4_main_v107 V x0 x1 x2 x3 x4 x5 x6 h
  main_v108 := w2_4_main_v108 V x0 x1 x2 x3 x4 x5 x6 h

/-- Stretch 5 of window 2: @main's operations 176 … 183. -/
def ops_p2_5 : List (HloOp τ sig (Elt F)) :=
  [ binary main_v29 main_v108 main_v109 (addi : (⟨S409600, .i32⟩ : BufTy).Contents (Elt F) → (⟨S409600, .i32⟩ : BufTy).Contents (Elt F) → (⟨S409600, .i32⟩ : BufTy).Contents (Elt F)),
    ternary main_v107 main_v109 main_v29 main_v110 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_39 (constantI S_ 32 0#32),
    unary main_c_39 main_v111 (broadcastInDim S409600 ![] bcast_S_S409600 : (⟨S_, .i32⟩ : BufTy).Contents (Elt F) → (⟨S409600, .i32⟩ : BufTy).Contents (Elt F)),
    binary main_v104 main_v111 main_v112 (cmpi .slt : (⟨S409600, .i32⟩ : BufTy).Contents (Elt F) → (⟨S409600, .i32⟩ : BufTy).Contents (Elt F) → (⟨S409600, .i1⟩ : BufTy).Contents (Elt F)),
    nullary main_c_40 (constantI S_ 32 640#32),
    unary main_c_40 main_v113 (broadcastInDim S409600 ![] bcast_S_S409600 : (⟨S_, .i32⟩ : BufTy).Contents (Elt F) → (⟨S409600, .i32⟩ : BufTy).Contents (Elt F)),
    binary main_v104 main_v113 main_v114 (addi : (⟨S409600, .i32⟩ : BufTy).Contents (Elt F) → (⟨S409600, .i32⟩ : BufTy).Contents (Elt F) → (⟨S409600, .i32⟩ : BufTy).Contents (Elt F)) ]
abbrev ops_p2_5_W : List (Ref sig .tc) := [main_v109, main_v110, main_c_39, main_v111, main_v112, main_c_40, main_v113, main_v114]
theorem ops_p2_5_writes : (ops_p2_5 : List (HloOp τ sig (Elt F))).Forall fun op => op.writes ⊆ (ops_p2_5_W.map (Proc.devRef (τ := τ) .tc)).toFinset := by
  simp only [ops_p2_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p2_5_keep (V : Valuation τ sig (Elt F)) (r : Ref sig .tc) (h : r ∉ ops_p2_5_W) :
    after ops_p2_5 V (Proc.devRef .tc r) = V (Proc.devRef .tc r) :=
  after_of_writes_sub ops_p2_5 _ ops_p2_5_writes h

set_option maxRecDepth 8192 in
set_option maxHeartbeats 1000000 in
theorem w2_5_main_v110 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_5 V x0 x1 x2 x3 x4 x5 x6) :
    after ops_p2_5 V (Proc.devRef .tc main_v110) = val_main_v110 (F := F) x1 := by
  simp only [ops_p2_5]
  after_results_w
  simp only [h.main_v29, h.main_v108, h.main_v107]
  rfl

set_option maxRecDepth 8192 in
set_option maxHeartbeats 1000000 in
theorem w2_5_main_v112 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_5 V x0 x1 x2 x3 x4 x5 x6) :
    after ops_p2_5 V (Proc.devRef .tc main_v112) = val_main_v112 (F := F) x1 := by
  simp only [ops_p2_5]
  after_results_w
  simp only [h.main_v104]
  rfl

set_option maxRecDepth 8192 in
set_option maxHeartbeats 1000000 in
theorem w2_5_main_v114 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_5 V x0 x1 x2 x3 x4 x5 x6) :
    after ops_p2_5 V (Proc.devRef .tc main_v114) = val_main_v114 (F := F) x1 := by
  simp only [ops_p2_5]
  after_results_w
  simp only [h.main_v104]
  rfl

theorem step2_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_5 V x0 x1 x2 x3 x4 x5 x6) : Inv2_6 (after ops_p2_5 V) x0 x1 x2 x3 x4 x5 x6 where
  main_arg0 := (ops_p2_5_keep V main_arg0 (by decide)).trans h.main_arg0
  main_arg1 := (ops_p2_5_keep V main_arg1 (by decide)).trans h.main_arg1
  main_arg2 := (ops_p2_5_keep V main_arg2 (by decide)).trans h.main_arg2
  main_arg3 := (ops_p2_5_keep V main_arg3 (by decide)).trans h.main_arg3
  main_arg4 := (ops_p2_5_keep V main_arg4 (by decide)).trans h.main_arg4
  main_arg5 := (ops_p2_5_keep V main_arg5 (by decide)).trans h.main_arg5
  main_arg6 := (ops_p2_5_keep V main_arg6 (by decide)).trans h.main_arg6
  main_v27 := (ops_p2_5_keep V main_v27 (by decide)).trans h.main_v27
  main_v29 := (ops_p2_5_keep V main_v29 (by decide)).trans h.main_v29
  main_v31 := (ops_p2_5_keep V main_v31 (by decide)).trans h.main_v31
  main_v33 := (ops_p2_5_keep V main_v33 (by decide)).trans h.main_v33
  main_v88 := (ops_p2_5_keep V main_v88 (by decide)).trans h.main_v88
  main_v103 := (ops_p2_5_keep V main_v103 (by decide)).trans h.main_v103
  main_v104 := (ops_p2_5_keep V main_v104 (by decide)).trans h.main_v104
  main_v105 := (ops_p2_5_keep V main_v105 (by decide)).trans h.main_v105
  main_v110 := w2_5_main_v110 V x0 x1 x2 x3 x4 x5 x6 h
  main_v112 := w2_5_main_v112 V x0 x1 x2 x3 x4 x5 x6 h
  main_v114 := w2_5_main_v114 V x0 x1 x2 x3 x4 x5 x6 h

/-- Stretch 6 of window 2: @main's operations 184 … 191. -/
def ops_p2_6 : List (HloOp τ sig (Elt F)) :=
  [ ternary main_v112 main_v114 main_v104 main_v115 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_41 (constantI S_ 32 0#32),
    unary main_c_41 main_v116 (broadcastInDim S409600 ![] bcast_S_S409600 : (⟨S_, .i32⟩ : BufTy).Contents (Elt F) → (⟨S409600, .i32⟩ : BufTy).Contents (Elt F)),
    binary main_v105 main_v116 main_v117 (cmpi .slt : (⟨S409600, .i32⟩ : BufTy).Contents (Elt F) → (⟨S409600, .i32⟩ : BufTy).Contents (Elt F) → (⟨S409600, .i1⟩ : BufTy).Contents (Elt F)),
    nullary main_c_42 (constantI S_ 32 640#32),
    unary main_c_42 main_v118 (broadcastInDim S409600 ![] bcast_S_S409600 : (⟨S_, .i32⟩ : BufTy).Contents (Elt F) → (⟨S409600, .i32⟩ : BufTy).Contents (Elt F)),
    binary main_v105 main_v118 main_v119 (addi : (⟨S409600, .i32⟩ : BufTy).Contents (Elt F) → (⟨S409600, .i32⟩ : BufTy).Contents (Elt F) → (⟨S409600, .i32⟩ : BufTy).Contents (Elt F)),
    ternary main_v117 main_v119 main_v105 main_v120 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)) ]
abbrev ops_p2_6_W : List (Ref sig .tc) := [main_v115, main_c_41, main_v116, main_v117, main_c_42, main_v118, main_v119, main_v120]
theorem ops_p2_6_writes : (ops_p2_6 : List (HloOp τ sig (Elt F))).Forall fun op => op.writes ⊆ (ops_p2_6_W.map (Proc.devRef (τ := τ) .tc)).toFinset := by
  simp only [ops_p2_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p2_6_keep (V : Valuation τ sig (Elt F)) (r : Ref sig .tc) (h : r ∉ ops_p2_6_W) :
    after ops_p2_6 V (Proc.devRef .tc r) = V (Proc.devRef .tc r) :=
  after_of_writes_sub ops_p2_6 _ ops_p2_6_writes h

set_option maxRecDepth 8192 in
set_option maxHeartbeats 1000000 in
theorem w2_6_main_v115 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_6 V x0 x1 x2 x3 x4 x5 x6) :
    after ops_p2_6 V (Proc.devRef .tc main_v115) = val_main_v115 (F := F) x1 := by
  simp only [ops_p2_6]
  after_results_w
  simp only [h.main_v104, h.main_v114, h.main_v112]
  rfl

set_option maxRecDepth 8192 in
set_option maxHeartbeats 1000000 in
theorem w2_6_main_v120 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_6 V x0 x1 x2 x3 x4 x5 x6) :
    after ops_p2_6 V (Proc.devRef .tc main_v120) = val_main_v120 (F := F) x1 := by
  simp only [ops_p2_6]
  after_results_w
  simp only [h.main_v105]
  rfl

theorem step2_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_6 V x0 x1 x2 x3 x4 x5 x6) : Inv2_7 (after ops_p2_6 V) x0 x1 x2 x3 x4 x5 x6 where
  main_arg0 := (ops_p2_6_keep V main_arg0 (by decide)).trans h.main_arg0
  main_arg1 := (ops_p2_6_keep V main_arg1 (by decide)).trans h.main_arg1
  main_arg2 := (ops_p2_6_keep V main_arg2 (by decide)).trans h.main_arg2
  main_arg3 := (ops_p2_6_keep V main_arg3 (by decide)).trans h.main_arg3
  main_arg4 := (ops_p2_6_keep V main_arg4 (by decide)).trans h.main_arg4
  main_arg5 := (ops_p2_6_keep V main_arg5 (by decide)).trans h.main_arg5
  main_arg6 := (ops_p2_6_keep V main_arg6 (by decide)).trans h.main_arg6
  main_v27 := (ops_p2_6_keep V main_v27 (by decide)).trans h.main_v27
  main_v29 := (ops_p2_6_keep V main_v29 (by decide)).trans h.main_v29
  main_v31 := (ops_p2_6_keep V main_v31 (by decide)).trans h.main_v31
  main_v33 := (ops_p2_6_keep V main_v33 (by decide)).trans h.main_v33
  main_v88 := (ops_p2_6_keep V main_v88 (by decide)).trans h.main_v88
  main_v103 := (ops_p2_6_keep V main_v103 (by decide)).trans h.main_v103
  main_v110 := (ops_p2_6_keep V main_v110 (by decide)).trans h.main_v110
  main_v115 := w2_6_main_v115 V x0 x1 x2 x3 x4 x5 x6 h
  main_v120 := w2_6_main_v120 V x0 x1 x2 x3 x4 x5 x6 h

/-- Stretch 7 of window 2: @main's operations 192 … 199. -/
def ops_p2_7 : List (HloOp τ sig (Elt F)) :=
  [ unary main_v110 main_v121 (broadcastInDim S409600x1 ![0] bcast_S409600_S409600x1_0 : (⟨S409600, .i32⟩ : BufTy).Contents (Elt F) → (⟨S409600x1, .i32⟩ : BufTy).Contents (Elt F)),
    unary main_v115 main_v122 (broadcastInDim S409600x1 ![0] bcast_S409600_S409600x1_0 : (⟨S409600, .i32⟩ : BufTy).Contents (Elt F) → (⟨S409600x1, .i32⟩ : BufTy).Contents (Elt F)),
    unary main_v120 main_v123 (broadcastInDim S409600x1 ![0] bcast_S409600_S409600x1_0 : (⟨S409600, .i32⟩ : BufTy).Contents (Elt F) → (⟨S409600x1, .i32⟩ : BufTy).Contents (Elt F)),
    nary ![main_v121, main_v122, main_v123] main_v124 (fun u => concatenate S409600x3 1 [⟨S409600x1, u 0⟩, ⟨S409600x1, u 1⟩, ⟨S409600x1, u 2⟩] concatenates_S409600x1_S409600x1_S409600x1_S409600x3_d1),
    binary main_v27 main_v124 main_v125 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_43 (constantI S_ 32 0#32),
    unary main_c_43 main_v126 (broadcastInDim S409600 ![] bcast_S_S409600 : (⟨S_, .i32⟩ : BufTy).Contents (Elt F) → (⟨S409600, .i32⟩ : BufTy).Contents (Elt F)),
    binary main_v125 main_v126 main_v127 (cmpi .sge : (⟨S409600, .i32⟩ : BufTy).Contents (Elt F) → (⟨S409600, .i32⟩ : BufTy).Contents (Elt F) → (⟨S409600, .i1⟩ : BufTy).Contents (Elt F)) ]
abbrev ops_p2_7_W : List (Ref sig .tc) := [main_v121, main_v122, main_v123, main_v124, main_v125, main_c_43, main_v126, main_v127]
theorem ops_p2_7_writes : (ops_p2_7 : List (HloOp τ sig (Elt F))).Forall fun op => op.writes ⊆ (ops_p2_7_W.map (Proc.devRef (τ := τ) .tc)).toFinset := by
  simp only [ops_p2_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p2_7_keep (V : Valuation τ sig (Elt F)) (r : Ref sig .tc) (h : r ∉ ops_p2_7_W) :
    after ops_p2_7 V (Proc.devRef .tc r) = V (Proc.devRef .tc r) :=
  after_of_writes_sub ops_p2_7 _ ops_p2_7_writes h

set_option maxRecDepth 8192 in
set_option maxHeartbeats 1000000 in
theorem w2_7_main_v125 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_7 V x0 x1 x2 x3 x4 x5 x6) :
    after ops_p2_7 V (Proc.devRef .tc main_v125) = val_main_v125 (F := F) x1 := by
  simp only [ops_p2_7]
  after_results_w
  simp only [h.main_v120, h.main_v115, h.main_v110, h.main_v27]
  rfl

set_option maxRecDepth 8192 in
set_option maxHeartbeats 1000000 in
theorem w2_7_main_v127 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_7 V x0 x1 x2 x3 x4 x5 x6) :
    after ops_p2_7 V (Proc.devRef .tc main_v127) = val_main_v127 (F := F) x1 := by
  simp only [ops_p2_7]
  after_results_w
  simp only [h.main_v120, h.main_v115, h.main_v110, h.main_v27]
  rfl

theorem step2_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_7 V x0 x1 x2 x3 x4 x5 x6) : Inv2_8 (after ops_p2_7 V) x0 x1 x2 x3 x4 x5 x6 where
  main_arg0 := (ops_p2_7_keep V main_arg0 (by decide)).trans h.main_arg0
  main_arg1 := (ops_p2_7_keep V main_arg1 (by decide)).trans h.main_arg1
  main_arg2 := (ops_p2_7_keep V main_arg2 (by decide)).trans h.main_arg2
  main_arg3 := (ops_p2_7_keep V main_arg3 (by decide)).trans h.main_arg3
  main_arg4 := (ops_p2_7_keep V main_arg4 (by decide)).trans h.main_arg4
  main_arg5 := (ops_p2_7_keep V main_arg5 (by decide)).trans h.main_arg5
  main_arg6 := (ops_p2_7_keep V main_arg6 (by decide)).trans h.main_arg6
  main_v27 := (ops_p2_7_keep V main_v27 (by decide)).trans h.main_v27
  main_v29 := (ops_p2_7_keep V main_v29 (by decide)).trans h.main_v29
  main_v31 := (ops_p2_7_keep V main_v31 (by decide)).trans h.main_v31
  main_v33 := (ops_p2_7_keep V main_v33 (by decide)).trans h.main_v33
  main_v88 := (ops_p2_7_keep V main_v88 (by decide)).trans h.main_v88
  main_v103 := (ops_p2_7_keep V main_v103 (by decide)).trans h.main_v103
  main_v125 := w2_7_main_v125 V x0 x1 x2 x3 x4 x5 x6 h
  main_v127 := w2_7_main_v127 V x0 x1 x2 x3 x4 x5 x6 h

/-- Stretch 8 of window 2: @main's operations 200 … 207. -/
def ops_p2_8 : List (HloOp τ sig (Elt F)) :=
  [ binary main_v103 main_v127 main_v128 (andi : (⟨S409600, .i1⟩ : BufTy).Contents (Elt F) → (⟨S409600, .i1⟩ : BufTy).Contents (Elt F) → (⟨S409600, .i1⟩ : BufTy).Contents (Elt F)),
    nullary main_c_44 (constantI S_ 32 0#32),
    unary main_c_44 main_call6_v0 (id : (⟨S_, .i32⟩ : BufTy).Contents (Elt F) → (⟨S_, .i32⟩ : BufTy).Contents (Elt F)),
    unary main_call6_v0 main_call6_v1 ((broadcastInDim S409600 ![] bcast_S_S409600) : (⟨S_, .i32⟩ : BufTy).Contents (Elt F) → (⟨S409600, .i32⟩ : BufTy).Contents (Elt F)),
    ternary main_v128 main_v125 main_call6_v1 main_v129 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_45 (constantI S_ 32 0#32),
    unary main_c_45 main_v130 (broadcastInDim S409600 ![] bcast_S_S409600 : (⟨S_, .i32⟩ : BufTy).Contents (Elt F) → (⟨S409600, .i32⟩ : BufTy).Contents (Elt F)),
    binary main_v129 main_v130 main_v131 (cmpi .slt : (⟨S409600, .i32⟩ : BufTy).Contents (Elt F) → (⟨S409600, .i32⟩ : BufTy).Contents (Elt F) → (⟨S409600, .i1⟩ : BufTy).Contents (Elt F)) ]
abbrev ops_p2_8_W : List (Ref sig .tc) := [main_v128, main_c_44, main_call6_v0, main_call6_v1, main_v129, main_c_45, main_v130, main_v131]
theorem ops_p2_8_writes : (ops_p2_8 : List (HloOp τ sig (Elt F))).Forall fun op => op.writes ⊆ (ops_p2_8_W.map (Proc.devRef (τ := τ) .tc)).toFinset := by
  simp only [ops_p2_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p2_8_keep (V : Valuation τ sig (Elt F)) (r : Ref sig .tc) (h : r ∉ ops_p2_8_W) :
    after ops_p2_8 V (Proc.devRef .tc r) = V (Proc.devRef .tc r) :=
  after_of_writes_sub ops_p2_8 _ ops_p2_8_writes h

set_option maxRecDepth 8192 in
set_option maxHeartbeats 1000000 in
theorem w2_8_main_v128 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_8 V x0 x1 x2 x3 x4 x5 x6) :
    after ops_p2_8 V (Proc.devRef .tc main_v128) = val_main_v128 (F := F) x1 := by
  simp only [ops_p2_8]
  after_results_w
  simp only [h.main_v127, h.main_v103]
  rfl

set_option maxRecDepth 8192 in
set_option maxHeartbeats 1000000 in
theorem w2_8_main_v129 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_8 V x0 x1 x2 x3 x4 x5 x6) :
    after ops_p2_8 V (Proc.devRef .tc main_v129) = val_main_v129 (F := F) x1 := by
  simp only [ops_p2_8]
  after_results_w
  simp only [h.main_v125, h.main_v127, h.main_v103]
  rfl

set_option maxRecDepth 8192 in
set_option maxHeartbeats 1000000 in
theorem w2_8_main_v131 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_8 V x0 x1 x2 x3 x4 x5 x6) :
    after ops_p2_8 V (Proc.devRef .tc main_v131) = val_main_v131 (F := F) x1 := by
  simp only [ops_p2_8]
  after_results_w
  simp only [h.main_v125, h.main_v127, h.main_v103]
  rfl

theorem step2_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2_8 V x0 x1 x2 x3 x4 x5 x6) : Inv3 (after ops_p2_8 V) x0 x1 x2 x3 x4 x5 x6 where
  main_arg0 := (ops_p2_8_keep V main_arg0 (by decide)).trans h.main_arg0
  main_arg1 := (ops_p2_8_keep V main_arg1 (by decide)).trans h.main_arg1
  main_arg2 := (ops_p2_8_keep V main_arg2 (by decide)).trans h.main_arg2
  main_arg3 := (ops_p2_8_keep V main_arg3 (by decide)).trans h.main_arg3
  main_arg4 := (ops_p2_8_keep V main_arg4 (by decide)).trans h.main_arg4
  main_arg5 := (ops_p2_8_keep V main_arg5 (by decide)).trans h.main_arg5
  main_arg6 := (ops_p2_8_keep V main_arg6 (by decide)).trans h.main_arg6
  main_v27 := (ops_p2_8_keep V main_v27 (by decide)).trans h.main_v27
  main_v29 := (ops_p2_8_keep V main_v29 (by decide)).trans h.main_v29
  main_v31 := (ops_p2_8_keep V main_v31 (by decide)).trans h.main_v31
  main_v33 := (ops_p2_8_keep V main_v33 (by decide)).trans h.main_v33
  main_v88 := (ops_p2_8_keep V main_v88 (by decide)).trans h.main_v88
  main_v128 := w2_8_main_v128 V x0 x1 x2 x3 x4 x5 x6 h
  main_v129 := w2_8_main_v129 V x0 x1 x2 x3 x4 x5 x6 h
  main_v131 := w2_8_main_v131 V x0 x1 x2 x3 x4 x5 x6 h

set_option maxRecDepth 8192 in
theorem ops_p2_split : (ops_p2 : List (HloOp τ sig (Elt F))) = ops_p2_0 ++ (ops_p2_1 ++ (ops_p2_2 ++ (ops_p2_3 ++ (ops_p2_4 ++ (ops_p2_5 ++ (ops_p2_6 ++ (ops_p2_7 ++ (ops_p2_8)))))))) := rfl

/-- Window 2 carries the staged reading from boundary 2 to boundary 3. -/
theorem step2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv2 V x0 x1 x2 x3 x4 x5 x6) : Inv3 (after ops_p2 V) x0 x1 x2 x3 x4 x5 x6 := by
  rw [ops_p2_split]; simp only [after_app]
  exact step2_8 _ x0 x1 x2 x3 x4 x5 x6 (step2_7 _ x0 x1 x2 x3 x4 x5 x6 (step2_6 _ x0 x1 x2 x3 x4 x5 x6 (step2_5 _ x0 x1 x2 x3 x4 x5 x6 (step2_4 _ x0 x1 x2 x3 x4 x5 x6 (step2_3 _ x0 x1 x2 x3 x4 x5 x6 (step2_2 _ x0 x1 x2 x3 x4 x5 x6 (step2_1 _ x0 x1 x2 x3 x4 x5 x6 (step2_0 V x0 x1 x2 x3 x4 x5 x6 h))))))))

end Cert.ReferenceIdeal.Hand

end
-- ==== Proof.Ref.W3.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 3 of @main: its operations 208 … 280 of 1688, in order. -/
def ops_p3 : List (HloOp τ sig (Elt F)) :=
  [ nullary main_c_46 (constantI S_ 32 409600#32),
    unary main_c_46 main_v132 (broadcastInDim S409600 ![] bcast_S_S409600 : (⟨S_, .i32⟩ : BufTy).Contents (Elt F) → (⟨S409600, .i32⟩ : BufTy).Contents (Elt F)),
    binary main_v129 main_v132 main_v133 (addi : (⟨S409600, .i32⟩ : BufTy).Contents (Elt F) → (⟨S409600, .i32⟩ : BufTy).Contents (Elt F) → (⟨S409600, .i32⟩ : BufTy).Contents (Elt F)),
    ternary main_v131 main_v133 main_v129 main_v134 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v134 main_v135 (broadcastInDim S409600x1 ![0] bcast_S409600_S409600x1_0 : (⟨S409600, .i32⟩ : BufTy).Contents (Elt F) → (⟨S409600x1, .i32⟩ : BufTy).Contents (Elt F)),
    binary main_arg0 main_v135 main_v136 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v128 main_v137 (broadcastInDim S409600x1 ![0] bcast_S409600_S409600x1_0 : (⟨S409600, .i1⟩ : BufTy).Contents (Elt F) → (⟨S409600x1, .i1⟩ : BufTy).Contents (Elt F)),
    nullary main_cst_47 (constant S_ .f32 0x00000000#32),
    unary main_cst_47 main_call7_v0 (id : (⟨S_, .f32⟩ : BufTy).Contents (Elt F) → (⟨S_, .f32⟩ : BufTy).Contents (Elt F)),
    unary main_v137 main_call7_v1 ((broadcastInDim S409600x64 ![0, 1] bcast_S409600x1_S409600x64_0_1) : (⟨S409600x1, .i1⟩ : BufTy).Contents (Elt F) → (⟨S409600x64, .i1⟩ : BufTy).Contents (Elt F)),
    unary main_call7_v0 main_call7_v2 ((broadcastInDim S409600x64 ![] bcast_S_S409600x64) : (⟨S_, .f32⟩ : BufTy).Contents (Elt F) → (⟨S409600x64, .f32⟩ : BufTy).Contents (Elt F)),
    ternary main_call7_v1 main_v136 main_call7_v2 main_v138 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v139 ((extractStridedSlice S1x1x64x64 ![0, 1, 0, 0] · slices_S3x3x64x64_S1x1x64x64_0_1_0_0) : (⟨S3x3x64x64, .f32⟩ : BufTy).Contents (Elt F) → (⟨S1x1x64x64, .f32⟩ : BufTy).Contents (Elt F)),
    reshape main_v139 main_v140 rfl shapeCasts_S1x1x64x64_S64x64,
    binary main_v138 main_v140 main_v141 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v88 main_v141 main_v142 (addf : (⟨S409600x64, .f32⟩ : BufTy).Contents (Elt F) → (⟨S409600x64, .f32⟩ : BufTy).Contents (Elt F) → (⟨S409600x64, .f32⟩ : BufTy).Contents (Elt F)),
    nullary main_c_48 (constantI S_ 32 4294967295#32),
    unary main_c_48 main_v143 (broadcastInDim S409600 ![] bcast_S_S409600 : (⟨S_, .i32⟩ : BufTy).Contents (Elt F) → (⟨S409600, .i32⟩ : BufTy).Contents (Elt F)),
    binary main_v31 main_v143 main_v144 (addi : (⟨S409600, .i32⟩ : BufTy).Contents (Elt F) → (⟨S409600, .i32⟩ : BufTy).Contents (Elt F) → (⟨S409600, .i32⟩ : BufTy).Contents (Elt F)),
    nullary main_c_49 (constantI S_ 32 1#32),
    unary main_c_49 main_v145 (broadcastInDim S409600 ![] bcast_S_S409600 : (⟨S_, .i32⟩ : BufTy).Contents (Elt F) → (⟨S409600, .i32⟩ : BufTy).Contents (Elt F)),
    binary main_v33 main_v145 main_v146 (addi : (⟨S409600, .i32⟩ : BufTy).Contents (Elt F) → (⟨S409600, .i32⟩ : BufTy).Contents (Elt F) → (⟨S409600, .i32⟩ : BufTy).Contents (Elt F)),
    nullary main_c_50 (constantI S_ 32 0#32),
    unary main_c_50 main_v147 (broadcastInDim S409600 ![] bcast_S_S409600 : (⟨S_, .i32⟩ : BufTy).Contents (Elt F) → (⟨S409600, .i32⟩ : BufTy).Contents (Elt F)),
    binary main_v144 main_v147 main_v148 (cmpi .sge : (⟨S409600, .i32⟩ : BufTy).Contents (Elt F) → (⟨S409600, .i32⟩ : BufTy).Contents (Elt F) → (⟨S409600, .i1⟩ : BufTy).Contents (Elt F)),
    nullary main_c_51 (constantI S_ 32 640#32),
    unary main_c_51 main_v149 (broadcastInDim S409600 ![] bcast_S_S409600 : (⟨S_, .i32⟩ : BufTy).Contents (Elt F) → (⟨S409600, .i32⟩ : BufTy).Contents (Elt F)),
    binary main_v144 main_v149 main_v150 (cmpi .slt : (⟨S409600, .i32⟩ : BufTy).Contents (Elt F) → (⟨S409600, .i32⟩ : BufTy).Contents (Elt F) → (⟨S409600, .i1⟩ : BufTy).Contents (Elt F)),
    binary main_v148 main_v150 main_v151 (andi : (⟨S409600, .i1⟩ : BufTy).Contents (Elt F) → (⟨S409600, .i1⟩ : BufTy).Contents (Elt F) → (⟨S409600, .i1⟩ : BufTy).Contents (Elt F)),
    nullary main_c_52 (constantI S_ 32 0#32),
    unary main_c_52 main_v152 (broadcastInDim S409600 ![] bcast_S_S409600 : (⟨S_, .i32⟩ : BufTy).Contents (Elt F) → (⟨S409600, .i32⟩ : BufTy).Contents (Elt F)),
    binary main_v146 main_v152 main_v153 (cmpi .sge : (⟨S409600, .i32⟩ : BufTy).Contents (Elt F) → (⟨S409600, .i32⟩ : BufTy).Contents (Elt F) → (⟨S409600, .i1⟩ : BufTy).Contents (Elt F)),
    binary main_v151 main_v153 main_v154 (andi : (⟨S409600, .i1⟩ : BufTy).Contents (Elt F) → (⟨S409600, .i1⟩ : BufTy).Contents (Elt F) → (⟨S409600, .i1⟩ : BufTy).Contents (Elt F)),
    nullary main_c_53 (constantI S_ 32 640#32),
    unary main_c_53 main_v155 (broadcastInDim S409600 ![] bcast_S_S409600 : (⟨S_, .i32⟩ : BufTy).Contents (Elt F) → (⟨S409600, .i32⟩ : BufTy).Contents (Elt F)),
    binary main_v146 main_v155 main_v156 (cmpi .slt : (⟨S409600, .i32⟩ : BufTy).Contents (Elt F) → (⟨S409600, .i32⟩ : BufTy).Contents (Elt F) → (⟨S409600, .i1⟩ : BufTy).Contents (Elt F)),
    binary main_v154 main_v156 main_v157 (andi : (⟨S409600, .i1⟩ : BufTy).Contents (Elt F) → (⟨S409600, .i1⟩ : BufTy).Contents (Elt F) → (⟨S409600, .i1⟩ : BufTy).Contents (Elt F)),
    nullary main_c_54 (constantI S_ 32 0#32),
    nullary main_c_55 (constantI S_ 32 639#32),
    unary main_c_54 main_call8_v0 (id : (⟨S_, .i32⟩ : BufTy).Contents (Elt F) → (⟨S_, .i32⟩ : BufTy).Contents (Elt F)),
    unary main_call8_v0 main_call8_v1 ((broadcastInDim S409600 ![] bcast_S_S409600) : (⟨S_, .i32⟩ : BufTy).Contents (Elt F) → (⟨S409600, .i32⟩ : BufTy).Contents (Elt F)),
    binary main_call8_v1 main_v144 main_call8_v2 (maxsi : (⟨S409600, .i32⟩ : BufTy).Contents (Elt F) → (⟨S409600, .i32⟩ : BufTy).Contents (Elt F) → (⟨S409600, .i32⟩ : BufTy).Contents (Elt F)),
    unary main_c_55 main_call8_v3 (id : (⟨S_, .i32⟩ : BufTy).Contents (Elt F) → (⟨S_, .i32⟩ : BufTy).Contents (Elt F)),
    unary main_call8_v3 main_call8_v4 ((broadcastInDim S409600 ![] bcast_S_S409600) : (⟨S_, .i32⟩ : BufTy).Contents (Elt F) → (⟨S409600, .i32⟩ : BufTy).Contents (Elt F)),
    binary main_call8_v4 main_call8_v2 main_v158 (minsi : (⟨S409600, .i32⟩ : BufTy).Contents (Elt F) → (⟨S409600, .i32⟩ : BufTy).Contents (Elt F) → (⟨S409600, .i32⟩ : BufTy).Contents (Elt F)),
    nullary main_c_56 (constantI S_ 32 0#32),
    nullary main_c_57 (constantI S_ 32 639#32),
    unary main_c_56 main_call9_v0 (id : (⟨S_, .i32⟩ : BufTy).Contents (Elt F) → (⟨S_, .i32⟩ : BufTy).Contents (Elt F)),
    unary main_call9_v0 main_call9_v1 ((broadcastInDim S409600 ![] bcast_S_S409600) : (⟨S_, .i32⟩ : BufTy).Contents (Elt F) → (⟨S409600, .i32⟩ : BufTy).Contents (Elt F)),
    binary main_call9_v1 main_v146 main_call9_v2 (maxsi : (⟨S409600, .i32⟩ : BufTy).Contents (Elt F) → (⟨S409600, .i32⟩ : BufTy).Contents (Elt F) → (⟨S409600, .i32⟩ : BufTy).Contents (Elt F)),
    unary main_c_57 main_call9_v3 (id : (⟨S_, .i32⟩ : BufTy).Contents (Elt F) → (⟨S_, .i32⟩ : BufTy).Contents (Elt F)),
    unary main_call9_v3 main_call9_v4 ((broadcastInDim S409600 ![] bcast_S_S409600) : (⟨S_, .i32⟩ : BufTy).Contents (Elt F) → (⟨S409600, .i32⟩ : BufTy).Contents (Elt F)),
    binary main_call9_v4 main_call9_v2 main_v159 (minsi : (⟨S409600, .i32⟩ : BufTy).Contents (Elt F) → (⟨S409600, .i32⟩ : BufTy).Contents (Elt F) → (⟨S409600, .i32⟩ : BufTy).Contents (Elt F)),
    nullary main_c_58 (constantI S_ 32 0#32),
    unary main_c_58 main_v160 (broadcastInDim S409600 ![] bcast_S_S409600 : (⟨S_, .i32⟩ : BufTy).Contents (Elt F) → (⟨S409600, .i32⟩ : BufTy).Contents (Elt F)),
    binary main_v29 main_v160 main_v161 (cmpi .slt : (⟨S409600, .i32⟩ : BufTy).Contents (Elt F) → (⟨S409600, .i32⟩ : BufTy).Contents (Elt F) → (⟨S409600, .i1⟩ : BufTy).Contents (Elt F)),
    nullary main_c_59 (constantI S_ 32 2#32),
    unary main_c_59 main_v162 (broadcastInDim S409600 ![] bcast_S_S409600 : (⟨S_, .i32⟩ : BufTy).Contents (Elt F) → (⟨S409600, .i32⟩ : BufTy).Contents (Elt F)),
    binary main_v29 main_v162 main_v163 (addi : (⟨S409600, .i32⟩ : BufTy).Contents (Elt F) → (⟨S409600, .i32⟩ : BufTy).Contents (Elt F) → (⟨S409600, .i32⟩ : BufTy).Contents (Elt F)),
    ternary main_v161 main_v163 main_v29 main_v164 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_60 (constantI S_ 32 0#32),
    unary main_c_60 main_v165 (broadcastInDim S409600 ![] bcast_S_S409600 : (⟨S_, .i32⟩ : BufTy).Contents (Elt F) → (⟨S409600, .i32⟩ : BufTy).Contents (Elt F)),
    binary main_v158 main_v165 main_v166 (cmpi .slt : (⟨S409600, .i32⟩ : BufTy).Contents (Elt F) → (⟨S409600, .i32⟩ : BufTy).Contents (Elt F) → (⟨S409600, .i1⟩ : BufTy).Contents (Elt F)),
    nullary main_c_61 (constantI S_ 32 640#32),
    unary main_c_61 main_v167 (broadcastInDim S409600 ![] bcast_S_S409600 : (⟨S_, .i32⟩ : BufTy).Contents (Elt F) → (⟨S409600, .i32⟩ : BufTy).Contents (Elt F)),
    binary main_v158 main_v167 main_v168 (addi : (⟨S409600, .i32⟩ : BufTy).Contents (Elt F) → (⟨S409600, .i32⟩ : BufTy).Contents (Elt F) → (⟨S409600, .i32⟩ : BufTy).Contents (Elt F)),
    ternary main_v166 main_v168 main_v158 main_v169 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_62 (constantI S_ 32 0#32),
    unary main_c_62 main_v170 (broadcastInDim S409600 ![] bcast_S_S409600 : (⟨S_, .i32⟩ : BufTy).Contents (Elt F) → (⟨S409600, .i32⟩ : BufTy).Contents (Elt F)),
    binary main_v159 main_v170 main_v171 (cmpi .slt : (⟨S409600, .i32⟩ : BufTy).Contents (Elt F) → (⟨S409600, .i32⟩ : BufTy).Contents (Elt F) → (⟨S409600, .i1⟩ : BufTy).Contents (Elt F)),
    nullary main_c_63 (constantI S_ 32 640#32),
    unary main_c_63 main_v172 (broadcastInDim S409600 ![] bcast_S_S409600 : (⟨S_, .i32⟩ : BufTy).Contents (Elt F) → (⟨S409600, .i32⟩ : BufTy).Contents (Elt F)),
    binary main_v159 main_v172 main_v173 (addi : (⟨S409600, .i32⟩ : BufTy).Contents (Elt F) → (⟨S409600, .i32⟩ : BufTy).Contents (Elt F) → (⟨S409600, .i32⟩ : BufTy).Contents (Elt F)) ]

set_option maxRecDepth 8192 in
set_option maxHeartbeats 4000000 in
theorem main_part3_eq (c : Dev nD) : main_part3 (F := F) c = seq ops_p3 := by
  simp only [main_part3, ops_p3, fn_clip.body, fn_where.body, fn_where_0.body, fn_relu.body, seq, bind_assoc, pure_bind]
  rfl

set_option maxRecDepth 8192 in
theorem ops_p3_sub : (ops_p3 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩

set_option maxRecDepth 8192 in
theorem ops_p3_fresh : ∀ op ∈ (ops_p3 : List (HloOp τ sig (Elt F))), op.fresh = ∅ := by
  unfold ops_p3; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 216 on hold before it. -/
structure Inv3_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v88 : V (Proc.devRef .tc main_v88) = val_main_v88 (F := F) x0 x1 x2
  main_v136 : V (Proc.devRef .tc main_v136) = val_main_v136 (F := F) x0 x1
  main_v137 : V (Proc.devRef .tc main_v137) = val_main_v137 (F := F) x1
  main_cst_47 : V (Proc.devRef .tc main_cst_47) = val_main_cst_47 (F := F)

/-- What the buffers read from operation 224 on hold before it. -/
structure Inv3_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2

/-- What the buffers read from operation 232 on hold before it. -/
structure Inv3_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v144 : V (Proc.devRef .tc main_v144) = val_main_v144 (F := F) x1
  main_v146 : V (Proc.devRef .tc main_v146) = val_main_v146 (F := F) x1
  main_v147 : V (Proc.devRef .tc main_v147) = val_main_v147 (F := F)

/-- What the buffers read from operation 240 on hold before it. -/
structure Inv3_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v144 : V (Proc.devRef .tc main_v144) = val_main_v144 (F := F) x1
  main_v146 : V (Proc.devRef .tc main_v146) = val_main_v146 (F := F) x1
  main_v151 : V (Proc.devRef .tc main_v151) = val_main_v151 (F := F) x1
  main_v153 : V (Proc.devRef .tc main_v153) = val_main_v153 (F := F) x1

/-- What the buffers read from operation 248 on hold before it. -/
structure Inv3_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v144 : V (Proc.devRef .tc main_v144) = val_main_v144 (F := F) x1
  main_v146 : V (Proc.devRef .tc main_v146) = val_main_v146 (F := F) x1
  main_v157 : V (Proc.devRef .tc main_v157) = val_main_v157 (F := F) x1
  main_c_55 : V (Proc.devRef .tc main_c_55) = val_main_c_55 (F := F)
  main_call8_v0 : V (Proc.devRef .tc main_call8_v0) = val_main_call8_v0 (F := F)

/-- What the buffers read from operation 256 on hold before it. -/
structure Inv3_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v146 : V (Proc.devRef .tc main_v146) = val_main_v146 (F := F) x1
  main_v157 : V (Proc.devRef .tc main_v157) = val_main_v157 (F := F) x1
  main_v158 : V (Proc.devRef .tc main_v158) = val_main_v158 (F := F) x1
  main_c_57 : V (Proc.devRef .tc main_c_57) = val_main_c_57 (F := F)
  main_call9_v0 : V (Proc.devRef .tc main_call9_v0) = val_main_call9_v0 (F := F)

/-- What the buffers read from operation 264 on hold before it. -/
structure Inv3_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v157 : V (Proc.devRef .tc main_v157) = val_main_v157 (F := F) x1
  main_v158 : V (Proc.devRef .tc main_v158) = val_main_v158 (F := F) x1
  main_v159 : V (Proc.devRef .tc main_v159) = val_main_v159 (F := F) x1
  main_v161 : V (Proc.devRef .tc main_v161) = val_main_v161 (F := F) x1

/-- What the buffers read from operation 272 on hold before it. -/
structure Inv3_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v157 : V (Proc.devRef .tc main_v157) = val_main_v157 (F := F) x1
  main_v158 : V (Proc.devRef .tc main_v158) = val_main_v158 (F := F) x1
  main_v159 : V (Proc.devRef .tc main_v159) = val_main_v159 (F := F) x1
  main_v164 : V (Proc.devRef .tc main_v164) = val_main_v164 (F := F) x1
  main_v166 : V (Proc.devRef .tc main_v166) = val_main_v166 (F := F) x1
  main_c_61 : V (Proc.devRef .tc main_c_61) = val_main_c_61 (F := F)

/-- Stretch 0 of window 3: @main's operations 208 … 215. -/
def ops_p3_0 : List (HloOp τ sig (Elt F)) :=
  [ nullary main_c_46 (constantI S_ 32 409600#32),
    unary main_c_46 main_v132 (broadcastInDim S409600 ![] bcast_S_S409600 : (⟨S_, .i32⟩ : BufTy).Contents (Elt F) → (⟨S409600, .i32⟩ : BufTy).Contents (Elt F)),
    binary main_v129 main_v132 main_v133 (addi : (⟨S409600, .i32⟩ : BufTy).Contents (Elt F) → (⟨S409600, .i32⟩ : BufTy).Contents (Elt F) → (⟨S409600, .i32⟩ : BufTy).Contents (Elt F)),
    ternary main_v131 main_v133 main_v129 main_v134 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v134 main_v135 (broadcastInDim S409600x1 ![0] bcast_S409600_S409600x1_0 : (⟨S409600, .i32⟩ : BufTy).Contents (Elt F) → (⟨S409600x1, .i32⟩ : BufTy).Contents (Elt F)),
    binary main_arg0 main_v135 main_v136 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v128 main_v137 (broadcastInDim S409600x1 ![0] bcast_S409600_S409600x1_0 : (⟨S409600, .i1⟩ : BufTy).Contents (Elt F) → (⟨S409600x1, .i1⟩ : BufTy).Contents (Elt F)),
    nullary main_cst_47 (constant S_ .f32 0x00000000#32) ]
abbrev ops_p3_0_W : List (Ref sig .tc) := [main_c_46, main_v132, main_v133, main_v134, main_v135, main_v136, main_v137, main_cst_47]
theorem ops_p3_0_writes : (ops_p3_0 : List (HloOp τ sig (Elt F))).Forall fun op => op.writes ⊆ (ops_p3_0_W.map (Proc.devRef (τ := τ) .tc)).toFinset := by
  simp only [ops_p3_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p3_0_keep (V : Valuation τ sig (Elt F)) (r : Ref sig .tc) (h : r ∉ ops_p3_0_W) :
    after ops_p3_0 V (Proc.devRef .tc r) = V (Proc.devRef .tc r) :=
  after_of_writes_sub ops_p3_0 _ ops_p3_0_writes h

set_option maxRecDepth 8192 in
set_option maxHeartbeats 1000000 in
theorem w3_0_main_v136 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3 V x0 x1 x2 x3 x4 x5 x6) :
    after ops_p3_0 V (Proc.devRef .tc main_v136) = val_main_v136 (F := F) x0 x1 := by
  simp only [ops_p3_0]
  after_results_w
  simp only [h.main_v129, h.main_v131, h.main_arg0]
  rfl

set_option maxRecDepth 8192 in
set_option maxHeartbeats 1000000 in
theorem w3_0_main_v137 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3 V x0 x1 x2 x3 x4 x5 x6) :
    after ops_p3_0 V (Proc.devRef .tc main_v137) = val_main_v137 (F := F) x1 := by
  simp only [ops_p3_0]
  after_results_w
  simp only [h.main_v128]
  rfl

set_option maxRecDepth 8192 in
set_option maxHeartbeats 1000000 in
theorem w3_0_main_cst_47 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3 V x0 x1 x2 x3 x4 x5 x6) :
    after ops_p3_0 V (Proc.devRef .tc main_cst_47) = val_main_cst_47 (F := F) := by
  simp only [ops_p3_0]
  after_results_w
  rfl

theorem step3_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3 V x0 x1 x2 x3 x4 x5 x6) : Inv3_1 (after ops_p3_0 V) x0 x1 x2 x3 x4 x5 x6 where
  main_arg0 := (ops_p3_0_keep V main_arg0 (by decide)).trans h.main_arg0
  main_arg1 := (ops_p3_0_keep V main_arg1 (by decide)).trans h.main_arg1
  main_arg2 := (ops_p3_0_keep V main_arg2 (by decide)).trans h.main_arg2
  main_arg3 := (ops_p3_0_keep V main_arg3 (by decide)).trans h.main_arg3
  main_arg4 := (ops_p3_0_keep V main_arg4 (by decide)).trans h.main_arg4
  main_arg5 := (ops_p3_0_keep V main_arg5 (by decide)).trans h.main_arg5
  main_arg6 := (ops_p3_0_keep V main_arg6 (by decide)).trans h.main_arg6
  main_v27 := (ops_p3_0_keep V main_v27 (by decide)).trans h.main_v27
  main_v29 := (ops_p3_0_keep V main_v29 (by decide)).trans h.main_v29
  main_v31 := (ops_p3_0_keep V main_v31 (by decide)).trans h.main_v31
  main_v33 := (ops_p3_0_keep V main_v33 (by decide)).trans h.main_v33
  main_v88 := (ops_p3_0_keep V main_v88 (by decide)).trans h.main_v88
  main_v136 := w3_0_main_v136 V x0 x1 x2 x3 x4 x5 x6 h
  main_v137 := w3_0_main_v137 V x0 x1 x2 x3 x4 x5 x6 h
  main_cst_47 := w3_0_main_cst_47 V x0 x1 x2 x3 x4 x5 x6 h

/-- Stretch 1 of window 3: @main's operations 216 … 223. -/
def ops_p3_1 : List (HloOp τ sig (Elt F)) :=
  [ unary main_cst_47 main_call7_v0 (id : (⟨S_, .f32⟩ : BufTy).Contents (Elt F) → (⟨S_, .f32⟩ : BufTy).Contents (Elt F)),
    unary main_v137 main_call7_v1 ((broadcastInDim S409600x64 ![0, 1] bcast_S409600x1_S409600x64_0_1) : (⟨S409600x1, .i1⟩ : BufTy).Contents (Elt F) → (⟨S409600x64, .i1⟩ : BufTy).Contents (Elt F)),
    unary main_call7_v0 main_call7_v2 ((broadcastInDim S409600x64 ![] bcast_S_S409600x64) : (⟨S_, .f32⟩ : BufTy).Contents (Elt F) → (⟨S409600x64, .f32⟩ : BufTy).Contents (Elt F)),
    ternary main_call7_v1 main_v136 main_call7_v2 main_v138 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v139 ((extractStridedSlice S1x1x64x64 ![0, 1, 0, 0] · slices_S3x3x64x64_S1x1x64x64_0_1_0_0) : (⟨S3x3x64x64, .f32⟩ : BufTy).Contents (Elt F) → (⟨S1x1x64x64, .f32⟩ : BufTy).Contents (Elt F)),
    reshape main_v139 main_v140 rfl shapeCasts_S1x1x64x64_S64x64,
    binary main_v138 main_v140 main_v141 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v88 main_v141 main_v142 (addf : (⟨S409600x64, .f32⟩ : BufTy).Contents (Elt F) → (⟨S409600x64, .f32⟩ : BufTy).Contents (Elt F) → (⟨S409600x64, .f32⟩ : BufTy).Contents (Elt F)) ]
abbrev ops_p3_1_W : List (Ref sig .tc) := [main_call7_v0, main_call7_v1, main_call7_v2, main_v138, main_v139, main_v140, main_v141, main_v142]
theorem ops_p3_1_writes : (ops_p3_1 : List (HloOp τ sig (Elt F))).Forall fun op => op.writes ⊆ (ops_p3_1_W.map (Proc.devRef (τ := τ) .tc)).toFinset := by
  simp only [ops_p3_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p3_1_keep (V : Valuation τ sig (Elt F)) (r : Ref sig .tc) (h : r ∉ ops_p3_1_W) :
    after ops_p3_1 V (Proc.devRef .tc r) = V (Proc.devRef .tc r) :=
  after_of_writes_sub ops_p3_1 _ ops_p3_1_writes h

set_option maxRecDepth 8192 in
set_option maxHeartbeats 1000000 in
theorem w3_1_main_v142 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_1 V x0 x1 x2 x3 x4 x5 x6) :
    after ops_p3_1 V (Proc.devRef .tc main_v142) = val_main_v142 (F := F) x0 x1 x2 := by
  simp only [ops_p3_1]
  after_results_w
  simp only [h.main_arg2, h.main_cst_47, h.main_v136, h.main_v137, h.main_v88]
  rfl

theorem step3_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_1 V x0 x1 x2 x3 x4 x5 x6) : Inv3_2 (after ops_p3_1 V) x0 x1 x2 x3 x4 x5 x6 where
  main_arg0 := (ops_p3_1_keep V main_arg0 (by decide)).trans h.main_arg0
  main_arg1 := (ops_p3_1_keep V main_arg1 (by decide)).trans h.main_arg1
  main_arg2 := (ops_p3_1_keep V main_arg2 (by decide)).trans h.main_arg2
  main_arg3 := (ops_p3_1_keep V main_arg3 (by decide)).trans h.main_arg3
  main_arg4 := (ops_p3_1_keep V main_arg4 (by decide)).trans h.main_arg4
  main_arg5 := (ops_p3_1_keep V main_arg5 (by decide)).trans h.main_arg5
  main_arg6 := (ops_p3_1_keep V main_arg6 (by decide)).trans h.main_arg6
  main_v27 := (ops_p3_1_keep V main_v27 (by decide)).trans h.main_v27
  main_v29 := (ops_p3_1_keep V main_v29 (by decide)).trans h.main_v29
  main_v31 := (ops_p3_1_keep V main_v31 (by decide)).trans h.main_v31
  main_v33 := (ops_p3_1_keep V main_v33 (by decide)).trans h.main_v33
  main_v142 := w3_1_main_v142 V x0 x1 x2 x3 x4 x5 x6 h

/-- Stretch 2 of window 3: @main's operations 224 … 231. -/
def ops_p3_2 : List (HloOp τ sig (Elt F)) :=
  [ nullary main_c_48 (constantI S_ 32 4294967295#32),
    unary main_c_48 main_v143 (broadcastInDim S409600 ![] bcast_S_S409600 : (⟨S_, .i32⟩ : BufTy).Contents (Elt F) → (⟨S409600, .i32⟩ : BufTy).Contents (Elt F)),
    binary main_v31 main_v143 main_v144 (addi : (⟨S409600, .i32⟩ : BufTy).Contents (Elt F) → (⟨S409600, .i32⟩ : BufTy).Contents (Elt F) → (⟨S409600, .i32⟩ : BufTy).Contents (Elt F)),
    nullary main_c_49 (constantI S_ 32 1#32),
    unary main_c_49 main_v145 (broadcastInDim S409600 ![] bcast_S_S409600 : (⟨S_, .i32⟩ : BufTy).Contents (Elt F) → (⟨S409600, .i32⟩ : BufTy).Contents (Elt F)),
    binary main_v33 main_v145 main_v146 (addi : (⟨S409600, .i32⟩ : BufTy).Contents (Elt F) → (⟨S409600, .i32⟩ : BufTy).Contents (Elt F) → (⟨S409600, .i32⟩ : BufTy).Contents (Elt F)),
    nullary main_c_50 (constantI S_ 32 0#32),
    unary main_c_50 main_v147 (broadcastInDim S409600 ![] bcast_S_S409600 : (⟨S_, .i32⟩ : BufTy).Contents (Elt F) → (⟨S409600, .i32⟩ : BufTy).Contents (Elt F)) ]
abbrev ops_p3_2_W : List (Ref sig .tc) := [main_c_48, main_v143, main_v144, main_c_49, main_v145, main_v146, main_c_50, main_v147]
theorem ops_p3_2_writes : (ops_p3_2 : List (HloOp τ sig (Elt F))).Forall fun op => op.writes ⊆ (ops_p3_2_W.map (Proc.devRef (τ := τ) .tc)).toFinset := by
  simp only [ops_p3_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p3_2_keep (V : Valuation τ sig (Elt F)) (r : Ref sig .tc) (h : r ∉ ops_p3_2_W) :
    after ops_p3_2 V (Proc.devRef .tc r) = V (Proc.devRef .tc r) :=
  after_of_writes_sub ops_p3_2 _ ops_p3_2_writes h

set_option maxRecDepth 8192 in
set_option maxHeartbeats 1000000 in
theorem w3_2_main_v144 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_2 V x0 x1 x2 x3 x4 x5 x6) :
    after ops_p3_2 V (Proc.devRef .tc main_v144) = val_main_v144 (F := F) x1 := by
  simp only [ops_p3_2]
  after_results_w
  simp only [h.main_v31]
  rfl

set_option maxRecDepth 8192 in
set_option maxHeartbeats 1000000 in
theorem w3_2_main_v146 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_2 V x0 x1 x2 x3 x4 x5 x6) :
    after ops_p3_2 V (Proc.devRef .tc main_v146) = val_main_v146 (F := F) x1 := by
  simp only [ops_p3_2]
  after_results_w
  simp only [h.main_v33]
  rfl

set_option maxRecDepth 8192 in
set_option maxHeartbeats 1000000 in
theorem w3_2_main_v147 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_2 V x0 x1 x2 x3 x4 x5 x6) :
    after ops_p3_2 V (Proc.devRef .tc main_v147) = val_main_v147 (F := F) := by
  simp only [ops_p3_2]
  after_results_w
  rfl

theorem step3_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_2 V x0 x1 x2 x3 x4 x5 x6) : Inv3_3 (after ops_p3_2 V) x0 x1 x2 x3 x4 x5 x6 where
  main_arg0 := (ops_p3_2_keep V main_arg0 (by decide)).trans h.main_arg0
  main_arg1 := (ops_p3_2_keep V main_arg1 (by decide)).trans h.main_arg1
  main_arg2 := (ops_p3_2_keep V main_arg2 (by decide)).trans h.main_arg2
  main_arg3 := (ops_p3_2_keep V main_arg3 (by decide)).trans h.main_arg3
  main_arg4 := (ops_p3_2_keep V main_arg4 (by decide)).trans h.main_arg4
  main_arg5 := (ops_p3_2_keep V main_arg5 (by decide)).trans h.main_arg5
  main_arg6 := (ops_p3_2_keep V main_arg6 (by decide)).trans h.main_arg6
  main_v27 := (ops_p3_2_keep V main_v27 (by decide)).trans h.main_v27
  main_v29 := (ops_p3_2_keep V main_v29 (by decide)).trans h.main_v29
  main_v31 := (ops_p3_2_keep V main_v31 (by decide)).trans h.main_v31
  main_v33 := (ops_p3_2_keep V main_v33 (by decide)).trans h.main_v33
  main_v142 := (ops_p3_2_keep V main_v142 (by decide)).trans h.main_v142
  main_v144 := w3_2_main_v144 V x0 x1 x2 x3 x4 x5 x6 h
  main_v146 := w3_2_main_v146 V x0 x1 x2 x3 x4 x5 x6 h
  main_v147 := w3_2_main_v147 V x0 x1 x2 x3 x4 x5 x6 h

/-- Stretch 3 of window 3: @main's operations 232 … 239. -/
def ops_p3_3 : List (HloOp τ sig (Elt F)) :=
  [ binary main_v144 main_v147 main_v148 (cmpi .sge : (⟨S409600, .i32⟩ : BufTy).Contents (Elt F) → (⟨S409600, .i32⟩ : BufTy).Contents (Elt F) → (⟨S409600, .i1⟩ : BufTy).Contents (Elt F)),
    nullary main_c_51 (constantI S_ 32 640#32),
    unary main_c_51 main_v149 (broadcastInDim S409600 ![] bcast_S_S409600 : (⟨S_, .i32⟩ : BufTy).Contents (Elt F) → (⟨S409600, .i32⟩ : BufTy).Contents (Elt F)),
    binary main_v144 main_v149 main_v150 (cmpi .slt : (⟨S409600, .i32⟩ : BufTy).Contents (Elt F) → (⟨S409600, .i32⟩ : BufTy).Contents (Elt F) → (⟨S409600, .i1⟩ : BufTy).Contents (Elt F)),
    binary main_v148 main_v150 main_v151 (andi : (⟨S409600, .i1⟩ : BufTy).Contents (Elt F) → (⟨S409600, .i1⟩ : BufTy).Contents (Elt F) → (⟨S409600, .i1⟩ : BufTy).Contents (Elt F)),
    nullary main_c_52 (constantI S_ 32 0#32),
    unary main_c_52 main_v152 (broadcastInDim S409600 ![] bcast_S_S409600 : (⟨S_, .i32⟩ : BufTy).Contents (Elt F) → (⟨S409600, .i32⟩ : BufTy).Contents (Elt F)),
    binary main_v146 main_v152 main_v153 (cmpi .sge : (⟨S409600, .i32⟩ : BufTy).Contents (Elt F) → (⟨S409600, .i32⟩ : BufTy).Contents (Elt F) → (⟨S409600, .i1⟩ : BufTy).Contents (Elt F)) ]
abbrev ops_p3_3_W : List (Ref sig .tc) := [main_v148, main_c_51, main_v149, main_v150, main_v151, main_c_52, main_v152, main_v153]
theorem ops_p3_3_writes : (ops_p3_3 : List (HloOp τ sig (Elt F))).Forall fun op => op.writes ⊆ (ops_p3_3_W.map (Proc.devRef (τ := τ) .tc)).toFinset := by
  simp only [ops_p3_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p3_3_keep (V : Valuation τ sig (Elt F)) (r : Ref sig .tc) (h : r ∉ ops_p3_3_W) :
    after ops_p3_3 V (Proc.devRef .tc r) = V (Proc.devRef .tc r) :=
  after_of_writes_sub ops_p3_3 _ ops_p3_3_writes h

set_option maxRecDepth 8192 in
set_option maxHeartbeats 1000000 in
theorem w3_3_main_v151 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_3 V x0 x1 x2 x3 x4 x5 x6) :
    after ops_p3_3 V (Proc.devRef .tc main_v151) = val_main_v151 (F := F) x1 := by
  simp only [ops_p3_3]
  after_results_w
  simp only [h.main_v144, h.main_v147]
  rfl

set_option maxRecDepth 8192 in
set_option maxHeartbeats 1000000 in
theorem w3_3_main_v153 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_3 V x0 x1 x2 x3 x4 x5 x6) :
    after ops_p3_3 V (Proc.devRef .tc main_v153) = val_main_v153 (F := F) x1 := by
  simp only [ops_p3_3]
  after_results_w
  simp only [h.main_v146]
  rfl

theorem step3_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_3 V x0 x1 x2 x3 x4 x5 x6) : Inv3_4 (after ops_p3_3 V) x0 x1 x2 x3 x4 x5 x6 where
  main_arg0 := (ops_p3_3_keep V main_arg0 (by decide)).trans h.main_arg0
  main_arg1 := (ops_p3_3_keep V main_arg1 (by decide)).trans h.main_arg1
  main_arg2 := (ops_p3_3_keep V main_arg2 (by decide)).trans h.main_arg2
  main_arg3 := (ops_p3_3_keep V main_arg3 (by decide)).trans h.main_arg3
  main_arg4 := (ops_p3_3_keep V main_arg4 (by decide)).trans h.main_arg4
  main_arg5 := (ops_p3_3_keep V main_arg5 (by decide)).trans h.main_arg5
  main_arg6 := (ops_p3_3_keep V main_arg6 (by decide)).trans h.main_arg6
  main_v27 := (ops_p3_3_keep V main_v27 (by decide)).trans h.main_v27
  main_v29 := (ops_p3_3_keep V main_v29 (by decide)).trans h.main_v29
  main_v31 := (ops_p3_3_keep V main_v31 (by decide)).trans h.main_v31
  main_v33 := (ops_p3_3_keep V main_v33 (by decide)).trans h.main_v33
  main_v142 := (ops_p3_3_keep V main_v142 (by decide)).trans h.main_v142
  main_v144 := (ops_p3_3_keep V main_v144 (by decide)).trans h.main_v144
  main_v146 := (ops_p3_3_keep V main_v146 (by decide)).trans h.main_v146
  main_v151 := w3_3_main_v151 V x0 x1 x2 x3 x4 x5 x6 h
  main_v153 := w3_3_main_v153 V x0 x1 x2 x3 x4 x5 x6 h

/-- Stretch 4 of window 3: @main's operations 240 … 247. -/
def ops_p3_4 : List (HloOp τ sig (Elt F)) :=
  [ binary main_v151 main_v153 main_v154 (andi : (⟨S409600, .i1⟩ : BufTy).Contents (Elt F) → (⟨S409600, .i1⟩ : BufTy).Contents (Elt F) → (⟨S409600, .i1⟩ : BufTy).Contents (Elt F)),
    nullary main_c_53 (constantI S_ 32 640#32),
    unary main_c_53 main_v155 (broadcastInDim S409600 ![] bcast_S_S409600 : (⟨S_, .i32⟩ : BufTy).Contents (Elt F) → (⟨S409600, .i32⟩ : BufTy).Contents (Elt F)),
    binary main_v146 main_v155 main_v156 (cmpi .slt : (⟨S409600, .i32⟩ : BufTy).Contents (Elt F) → (⟨S409600, .i32⟩ : BufTy).Contents (Elt F) → (⟨S409600, .i1⟩ : BufTy).Contents (Elt F)),
    binary main_v154 main_v156 main_v157 (andi : (⟨S409600, .i1⟩ : BufTy).Contents (Elt F) → (⟨S409600, .i1⟩ : BufTy).Contents (Elt F) → (⟨S409600, .i1⟩ : BufTy).Contents (Elt F)),
    nullary main_c_54 (constantI S_ 32 0#32),
    nullary main_c_55 (constantI S_ 32 639#32),
    unary main_c_54 main_call8_v0 (id : (⟨S_, .i32⟩ : BufTy).Contents (Elt F) → (⟨S_, .i32⟩ : BufTy).Contents (Elt F)) ]
abbrev ops_p3_4_W : List (Ref sig .tc) := [main_v154, main_c_53, main_v155, main_v156, main_v157, main_c_54, main_c_55, main_call8_v0]
theorem ops_p3_4_writes : (ops_p3_4 : List (HloOp τ sig (Elt F))).Forall fun op => op.writes ⊆ (ops_p3_4_W.map (Proc.devRef (τ := τ) .tc)).toFinset := by
  simp only [ops_p3_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p3_4_keep (V : Valuation τ sig (Elt F)) (r : Ref sig .tc) (h : r ∉ ops_p3_4_W) :
    after ops_p3_4 V (Proc.devRef .tc r) = V (Proc.devRef .tc r) :=
  after_of_writes_sub ops_p3_4 _ ops_p3_4_writes h

set_option maxRecDepth 8192 in
set_option maxHeartbeats 1000000 in
theorem w3_4_main_v157 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_4 V x0 x1 x2 x3 x4 x5 x6) :
    after ops_p3_4 V (Proc.devRef .tc main_v157) = val_main_v157 (F := F) x1 := by
  simp only [ops_p3_4]
  after_results_w
  simp only [h.main_v146, h.main_v153, h.main_v151]
  rfl

set_option maxRecDepth 8192 in
set_option maxHeartbeats 1000000 in
theorem w3_4_main_c_55 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_4 V x0 x1 x2 x3 x4 x5 x6) :
    after ops_p3_4 V (Proc.devRef .tc main_c_55) = val_main_c_55 (F := F) := by
  simp only [ops_p3_4]
  after_results_w
  rfl

set_option maxRecDepth 8192 in
set_option maxHeartbeats 1000000 in
theorem w3_4_main_call8_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_4 V x0 x1 x2 x3 x4 x5 x6) :
    after ops_p3_4 V (Proc.devRef .tc main_call8_v0) = val_main_call8_v0 (F := F) := by
  simp only [ops_p3_4]
  after_results_w
  rfl

theorem step3_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_4 V x0 x1 x2 x3 x4 x5 x6) : Inv3_5 (after ops_p3_4 V) x0 x1 x2 x3 x4 x5 x6 where
  main_arg0 := (ops_p3_4_keep V main_arg0 (by decide)).trans h.main_arg0
  main_arg1 := (ops_p3_4_keep V main_arg1 (by decide)).trans h.main_arg1
  main_arg2 := (ops_p3_4_keep V main_arg2 (by decide)).trans h.main_arg2
  main_arg3 := (ops_p3_4_keep V main_arg3 (by decide)).trans h.main_arg3
  main_arg4 := (ops_p3_4_keep V main_arg4 (by decide)).trans h.main_arg4
  main_arg5 := (ops_p3_4_keep V main_arg5 (by decide)).trans h.main_arg5
  main_arg6 := (ops_p3_4_keep V main_arg6 (by decide)).trans h.main_arg6
  main_v27 := (ops_p3_4_keep V main_v27 (by decide)).trans h.main_v27
  main_v29 := (ops_p3_4_keep V main_v29 (by decide)).trans h.main_v29
  main_v31 := (ops_p3_4_keep V main_v31 (by decide)).trans h.main_v31
  main_v33 := (ops_p3_4_keep V main_v33 (by decide)).trans h.main_v33
  main_v142 := (ops_p3_4_keep V main_v142 (by decide)).trans h.main_v142
  main_v144 := (ops_p3_4_keep V main_v144 (by decide)).trans h.main_v144
  main_v146 := (ops_p3_4_keep V main_v146 (by decide)).trans h.main_v146
  main_v157 := w3_4_main_v157 V x0 x1 x2 x3 x4 x5 x6 h
  main_c_55 := w3_4_main_c_55 V x0 x1 x2 x3 x4 x5 x6 h
  main_call8_v0 := w3_4_main_call8_v0 V x0 x1 x2 x3 x4 x5 x6 h

/-- Stretch 5 of window 3: @main's operations 248 … 255. -/
def ops_p3_5 : List (HloOp τ sig (Elt F)) :=
  [ unary main_call8_v0 main_call8_v1 ((broadcastInDim S409600 ![] bcast_S_S409600) : (⟨S_, .i32⟩ : BufTy).Contents (Elt F) → (⟨S409600, .i32⟩ : BufTy).Contents (Elt F)),
    binary main_call8_v1 main_v144 main_call8_v2 (maxsi : (⟨S409600, .i32⟩ : BufTy).Contents (Elt F) → (⟨S409600, .i32⟩ : BufTy).Contents (Elt F) → (⟨S409600, .i32⟩ : BufTy).Contents (Elt F)),
    unary main_c_55 main_call8_v3 (id : (⟨S_, .i32⟩ : BufTy).Contents (Elt F) → (⟨S_, .i32⟩ : BufTy).Contents (Elt F)),
    unary main_call8_v3 main_call8_v4 ((broadcastInDim S409600 ![] bcast_S_S409600) : (⟨S_, .i32⟩ : BufTy).Contents (Elt F) → (⟨S409600, .i32⟩ : BufTy).Contents (Elt F)),
    binary main_call8_v4 main_call8_v2 main_v158 (minsi : (⟨S409600, .i32⟩ : BufTy).Contents (Elt F) → (⟨S409600, .i32⟩ : BufTy).Contents (Elt F) → (⟨S409600, .i32⟩ : BufTy).Contents (Elt F)),
    nullary main_c_56 (constantI S_ 32 0#32),
    nullary main_c_57 (constantI S_ 32 639#32),
    unary main_c_56 main_call9_v0 (id : (⟨S_, .i32⟩ : BufTy).Contents (Elt F) → (⟨S_, .i32⟩ : BufTy).Contents (Elt F)) ]
abbrev ops_p3_5_W : List (Ref sig .tc) := [main_call8_v1, main_call8_v2, main_call8_v3, main_call8_v4, main_v158, main_c_56, main_c_57, main_call9_v0]
theorem ops_p3_5_writes : (ops_p3_5 : List (HloOp τ sig (Elt F))).Forall fun op => op.writes ⊆ (ops_p3_5_W.map (Proc.devRef (τ := τ) .tc)).toFinset := by
  simp only [ops_p3_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p3_5_keep (V : Valuation τ sig (Elt F)) (r : Ref sig .tc) (h : r ∉ ops_p3_5_W) :
    after ops_p3_5 V (Proc.devRef .tc r) = V (Proc.devRef .tc r) :=
  after_of_writes_sub ops_p3_5 _ ops_p3_5_writes h

set_option maxRecDepth 8192 in
set_option maxHeartbeats 1000000 in
theorem w3_5_main_v158 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_5 V x0 x1 x2 x3 x4 x5 x6) :
    after ops_p3_5 V (Proc.devRef .tc main_v158) = val_main_v158 (F := F) x1 := by
  simp only [ops_p3_5]
  after_results_w
  simp only [h.main_v144, h.main_call8_v0, h.main_c_55]
  rfl

set_option maxRecDepth 8192 in
set_option maxHeartbeats 1000000 in
theorem w3_5_main_c_57 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_5 V x0 x1 x2 x3 x4 x5 x6) :
    after ops_p3_5 V (Proc.devRef .tc main_c_57) = val_main_c_57 (F := F) := by
  simp only [ops_p3_5]
  after_results_w
  rfl

set_option maxRecDepth 8192 in
set_option maxHeartbeats 1000000 in
theorem w3_5_main_call9_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_5 V x0 x1 x2 x3 x4 x5 x6) :
    after ops_p3_5 V (Proc.devRef .tc main_call9_v0) = val_main_call9_v0 (F := F) := by
  simp only [ops_p3_5]
  after_results_w
  rfl

theorem step3_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_5 V x0 x1 x2 x3 x4 x5 x6) : Inv3_6 (after ops_p3_5 V) x0 x1 x2 x3 x4 x5 x6 where
  main_arg0 := (ops_p3_5_keep V main_arg0 (by decide)).trans h.main_arg0
  main_arg1 := (ops_p3_5_keep V main_arg1 (by decide)).trans h.main_arg1
  main_arg2 := (ops_p3_5_keep V main_arg2 (by decide)).trans h.main_arg2
  main_arg3 := (ops_p3_5_keep V main_arg3 (by decide)).trans h.main_arg3
  main_arg4 := (ops_p3_5_keep V main_arg4 (by decide)).trans h.main_arg4
  main_arg5 := (ops_p3_5_keep V main_arg5 (by decide)).trans h.main_arg5
  main_arg6 := (ops_p3_5_keep V main_arg6 (by decide)).trans h.main_arg6
  main_v27 := (ops_p3_5_keep V main_v27 (by decide)).trans h.main_v27
  main_v29 := (ops_p3_5_keep V main_v29 (by decide)).trans h.main_v29
  main_v31 := (ops_p3_5_keep V main_v31 (by decide)).trans h.main_v31
  main_v33 := (ops_p3_5_keep V main_v33 (by decide)).trans h.main_v33
  main_v142 := (ops_p3_5_keep V main_v142 (by decide)).trans h.main_v142
  main_v146 := (ops_p3_5_keep V main_v146 (by decide)).trans h.main_v146
  main_v157 := (ops_p3_5_keep V main_v157 (by decide)).trans h.main_v157
  main_v158 := w3_5_main_v158 V x0 x1 x2 x3 x4 x5 x6 h
  main_c_57 := w3_5_main_c_57 V x0 x1 x2 x3 x4 x5 x6 h
  main_call9_v0 := w3_5_main_call9_v0 V x0 x1 x2 x3 x4 x5 x6 h

/-- Stretch 6 of window 3: @main's operations 256 … 263. -/
def ops_p3_6 : List (HloOp τ sig (Elt F)) :=
  [ unary main_call9_v0 main_call9_v1 ((broadcastInDim S409600 ![] bcast_S_S409600) : (⟨S_, .i32⟩ : BufTy).Contents (Elt F) → (⟨S409600, .i32⟩ : BufTy).Contents (Elt F)),
    binary main_call9_v1 main_v146 main_call9_v2 (maxsi : (⟨S409600, .i32⟩ : BufTy).Contents (Elt F) → (⟨S409600, .i32⟩ : BufTy).Contents (Elt F) → (⟨S409600, .i32⟩ : BufTy).Contents (Elt F)),
    unary main_c_57 main_call9_v3 (id : (⟨S_, .i32⟩ : BufTy).Contents (Elt F) → (⟨S_, .i32⟩ : BufTy).Contents (Elt F)),
    unary main_call9_v3 main_call9_v4 ((broadcastInDim S409600 ![] bcast_S_S409600) : (⟨S_, .i32⟩ : BufTy).Contents (Elt F) → (⟨S409600, .i32⟩ : BufTy).Contents (Elt F)),
    binary main_call9_v4 main_call9_v2 main_v159 (minsi : (⟨S409600, .i32⟩ : BufTy).Contents (Elt F) → (⟨S409600, .i32⟩ : BufTy).Contents (Elt F) → (⟨S409600, .i32⟩ : BufTy).Contents (Elt F)),
    nullary main_c_58 (constantI S_ 32 0#32),
    unary main_c_58 main_v160 (broadcastInDim S409600 ![] bcast_S_S409600 : (⟨S_, .i32⟩ : BufTy).Contents (Elt F) → (⟨S409600, .i32⟩ : BufTy).Contents (Elt F)),
    binary main_v29 main_v160 main_v161 (cmpi .slt : (⟨S409600, .i32⟩ : BufTy).Contents (Elt F) → (⟨S409600, .i32⟩ : BufTy).Contents (Elt F) → (⟨S409600, .i1⟩ : BufTy).Contents (Elt F)) ]
abbrev ops_p3_6_W : List (Ref sig .tc) := [main_call9_v1, main_call9_v2, main_call9_v3, main_call9_v4, main_v159, main_c_58, main_v160, main_v161]
theorem ops_p3_6_writes : (ops_p3_6 : List (HloOp τ sig (Elt F))).Forall fun op => op.writes ⊆ (ops_p3_6_W.map (Proc.devRef (τ := τ) .tc)).toFinset := by
  simp only [ops_p3_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p3_6_keep (V : Valuation τ sig (Elt F)) (r : Ref sig .tc) (h : r ∉ ops_p3_6_W) :
    after ops_p3_6 V (Proc.devRef .tc r) = V (Proc.devRef .tc r) :=
  after_of_writes_sub ops_p3_6 _ ops_p3_6_writes h

set_option maxRecDepth 8192 in
set_option maxHeartbeats 1000000 in
theorem w3_6_main_v159 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_6 V x0 x1 x2 x3 x4 x5 x6) :
    after ops_p3_6 V (Proc.devRef .tc main_v159) = val_main_v159 (F := F) x1 := by
  simp only [ops_p3_6]
  after_results_w
  simp only [h.main_v146, h.main_call9_v0, h.main_c_57]
  rfl

set_option maxRecDepth 8192 in
set_option maxHeartbeats 1000000 in
theorem w3_6_main_v161 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_6 V x0 x1 x2 x3 x4 x5 x6) :
    after ops_p3_6 V (Proc.devRef .tc main_v161) = val_main_v161 (F := F) x1 := by
  simp only [ops_p3_6]
  after_results_w
  simp only [h.main_v29]
  rfl

theorem step3_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_6 V x0 x1 x2 x3 x4 x5 x6) : Inv3_7 (after ops_p3_6 V) x0 x1 x2 x3 x4 x5 x6 where
  main_arg0 := (ops_p3_6_keep V main_arg0 (by decide)).trans h.main_arg0
  main_arg1 := (ops_p3_6_keep V main_arg1 (by decide)).trans h.main_arg1
  main_arg2 := (ops_p3_6_keep V main_arg2 (by decide)).trans h.main_arg2
  main_arg3 := (ops_p3_6_keep V main_arg3 (by decide)).trans h.main_arg3
  main_arg4 := (ops_p3_6_keep V main_arg4 (by decide)).trans h.main_arg4
  main_arg5 := (ops_p3_6_keep V main_arg5 (by decide)).trans h.main_arg5
  main_arg6 := (ops_p3_6_keep V main_arg6 (by decide)).trans h.main_arg6
  main_v27 := (ops_p3_6_keep V main_v27 (by decide)).trans h.main_v27
  main_v29 := (ops_p3_6_keep V main_v29 (by decide)).trans h.main_v29
  main_v31 := (ops_p3_6_keep V main_v31 (by decide)).trans h.main_v31
  main_v33 := (ops_p3_6_keep V main_v33 (by decide)).trans h.main_v33
  main_v142 := (ops_p3_6_keep V main_v142 (by decide)).trans h.main_v142
  main_v157 := (ops_p3_6_keep V main_v157 (by decide)).trans h.main_v157
  main_v158 := (ops_p3_6_keep V main_v158 (by decide)).trans h.main_v158
  main_v159 := w3_6_main_v159 V x0 x1 x2 x3 x4 x5 x6 h
  main_v161 := w3_6_main_v161 V x0 x1 x2 x3 x4 x5 x6 h

/-- Stretch 7 of window 3: @main's operations 264 … 271. -/
def ops_p3_7 : List (HloOp τ sig (Elt F)) :=
  [ nullary main_c_59 (constantI S_ 32 2#32),
    unary main_c_59 main_v162 (broadcastInDim S409600 ![] bcast_S_S409600 : (⟨S_, .i32⟩ : BufTy).Contents (Elt F) → (⟨S409600, .i32⟩ : BufTy).Contents (Elt F)),
    binary main_v29 main_v162 main_v163 (addi : (⟨S409600, .i32⟩ : BufTy).Contents (Elt F) → (⟨S409600, .i32⟩ : BufTy).Contents (Elt F) → (⟨S409600, .i32⟩ : BufTy).Contents (Elt F)),
    ternary main_v161 main_v163 main_v29 main_v164 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_60 (constantI S_ 32 0#32),
    unary main_c_60 main_v165 (broadcastInDim S409600 ![] bcast_S_S409600 : (⟨S_, .i32⟩ : BufTy).Contents (Elt F) → (⟨S409600, .i32⟩ : BufTy).Contents (Elt F)),
    binary main_v158 main_v165 main_v166 (cmpi .slt : (⟨S409600, .i32⟩ : BufTy).Contents (Elt F) → (⟨S409600, .i32⟩ : BufTy).Contents (Elt F) → (⟨S409600, .i1⟩ : BufTy).Contents (Elt F)),
    nullary main_c_61 (constantI S_ 32 640#32) ]
abbrev ops_p3_7_W : List (Ref sig .tc) := [main_c_59, main_v162, main_v163, main_v164, main_c_60, main_v165, main_v166, main_c_61]
theorem ops_p3_7_writes : (ops_p3_7 : List (HloOp τ sig (Elt F))).Forall fun op => op.writes ⊆ (ops_p3_7_W.map (Proc.devRef (τ := τ) .tc)).toFinset := by
  simp only [ops_p3_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p3_7_keep (V : Valuation τ sig (Elt F)) (r : Ref sig .tc) (h : r ∉ ops_p3_7_W) :
    after ops_p3_7 V (Proc.devRef .tc r) = V (Proc.devRef .tc r) :=
  after_of_writes_sub ops_p3_7 _ ops_p3_7_writes h

set_option maxRecDepth 8192 in
set_option maxHeartbeats 1000000 in
theorem w3_7_main_v164 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_7 V x0 x1 x2 x3 x4 x5 x6) :
    after ops_p3_7 V (Proc.devRef .tc main_v164) = val_main_v164 (F := F) x1 := by
  simp only [ops_p3_7]
  after_results_w
  simp only [h.main_v29, h.main_v161]
  rfl

set_option maxRecDepth 8192 in
set_option maxHeartbeats 1000000 in
theorem w3_7_main_v166 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_7 V x0 x1 x2 x3 x4 x5 x6) :
    after ops_p3_7 V (Proc.devRef .tc main_v166) = val_main_v166 (F := F) x1 := by
  simp only [ops_p3_7]
  after_results_w
  simp only [h.main_v158]
  rfl

set_option maxRecDepth 8192 in
set_option maxHeartbeats 1000000 in
theorem w3_7_main_c_61 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_7 V x0 x1 x2 x3 x4 x5 x6) :
    after ops_p3_7 V (Proc.devRef .tc main_c_61) = val_main_c_61 (F := F) := by
  simp only [ops_p3_7]
  after_results_w
  rfl

theorem step3_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_7 V x0 x1 x2 x3 x4 x5 x6) : Inv3_8 (after ops_p3_7 V) x0 x1 x2 x3 x4 x5 x6 where
  main_arg0 := (ops_p3_7_keep V main_arg0 (by decide)).trans h.main_arg0
  main_arg1 := (ops_p3_7_keep V main_arg1 (by decide)).trans h.main_arg1
  main_arg2 := (ops_p3_7_keep V main_arg2 (by decide)).trans h.main_arg2
  main_arg3 := (ops_p3_7_keep V main_arg3 (by decide)).trans h.main_arg3
  main_arg4 := (ops_p3_7_keep V main_arg4 (by decide)).trans h.main_arg4
  main_arg5 := (ops_p3_7_keep V main_arg5 (by decide)).trans h.main_arg5
  main_arg6 := (ops_p3_7_keep V main_arg6 (by decide)).trans h.main_arg6
  main_v27 := (ops_p3_7_keep V main_v27 (by decide)).trans h.main_v27
  main_v29 := (ops_p3_7_keep V main_v29 (by decide)).trans h.main_v29
  main_v31 := (ops_p3_7_keep V main_v31 (by decide)).trans h.main_v31
  main_v33 := (ops_p3_7_keep V main_v33 (by decide)).trans h.main_v33
  main_v142 := (ops_p3_7_keep V main_v142 (by decide)).trans h.main_v142
  main_v157 := (ops_p3_7_keep V main_v157 (by decide)).trans h.main_v157
  main_v158 := (ops_p3_7_keep V main_v158 (by decide)).trans h.main_v158
  main_v159 := (ops_p3_7_keep V main_v159 (by decide)).trans h.main_v159
  main_v164 := w3_7_main_v164 V x0 x1 x2 x3 x4 x5 x6 h
  main_v166 := w3_7_main_v166 V x0 x1 x2 x3 x4 x5 x6 h
  main_c_61 := w3_7_main_c_61 V x0 x1 x2 x3 x4 x5 x6 h

/-- Stretch 8 of window 3: @main's operations 272 … 280. -/
def ops_p3_8 : List (HloOp τ sig (Elt F)) :=
  [ unary main_c_61 main_v167 (broadcastInDim S409600 ![] bcast_S_S409600 : (⟨S_, .i32⟩ : BufTy).Contents (Elt F) → (⟨S409600, .i32⟩ : BufTy).Contents (Elt F)),
    binary main_v158 main_v167 main_v168 (addi : (⟨S409600, .i32⟩ : BufTy).Contents (Elt F) → (⟨S409600, .i32⟩ : BufTy).Contents (Elt F) → (⟨S409600, .i32⟩ : BufTy).Contents (Elt F)),
    ternary main_v166 main_v168 main_v158 main_v169 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_62 (constantI S_ 32 0#32),
    unary main_c_62 main_v170 (broadcastInDim S409600 ![] bcast_S_S409600 : (⟨S_, .i32⟩ : BufTy).Contents (Elt F) → (⟨S409600, .i32⟩ : BufTy).Contents (Elt F)),
    binary main_v159 main_v170 main_v171 (cmpi .slt : (⟨S409600, .i32⟩ : BufTy).Contents (Elt F) → (⟨S409600, .i32⟩ : BufTy).Contents (Elt F) → (⟨S409600, .i1⟩ : BufTy).Contents (Elt F)),
    nullary main_c_63 (constantI S_ 32 640#32),
    unary main_c_63 main_v172 (broadcastInDim S409600 ![] bcast_S_S409600 : (⟨S_, .i32⟩ : BufTy).Contents (Elt F) → (⟨S409600, .i32⟩ : BufTy).Contents (Elt F)),
    binary main_v159 main_v172 main_v173 (addi : (⟨S409600, .i32⟩ : BufTy).Contents (Elt F) → (⟨S409600, .i32⟩ : BufTy).Contents (Elt F) → (⟨S409600, .i32⟩ : BufTy).Contents (Elt F)) ]
abbrev ops_p3_8_W : List (Ref sig .tc) := [main_v167, main_v168, main_v169, main_c_62, main_v170, main_v171, main_c_63, main_v172, main_v173]
theorem ops_p3_8_writes : (ops_p3_8 : List (HloOp τ sig (Elt F))).Forall fun op => op.writes ⊆ (ops_p3_8_W.map (Proc.devRef (τ := τ) .tc)).toFinset := by
  simp only [ops_p3_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p3_8_keep (V : Valuation τ sig (Elt F)) (r : Ref sig .tc) (h : r ∉ ops_p3_8_W) :
    after ops_p3_8 V (Proc.devRef .tc r) = V (Proc.devRef .tc r) :=
  after_of_writes_sub ops_p3_8 _ ops_p3_8_writes h

set_option maxRecDepth 8192 in
set_option maxHeartbeats 1000000 in
theorem w3_8_main_v169 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_8 V x0 x1 x2 x3 x4 x5 x6) :
    after ops_p3_8 V (Proc.devRef .tc main_v169) = val_main_v169 (F := F) x1 := by
  simp only [ops_p3_8]
  after_results_w
  simp only [h.main_v158, h.main_c_61, h.main_v166]
  rfl

set_option maxRecDepth 8192 in
set_option maxHeartbeats 1000000 in
theorem w3_8_main_v171 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_8 V x0 x1 x2 x3 x4 x5 x6) :
    after ops_p3_8 V (Proc.devRef .tc main_v171) = val_main_v171 (F := F) x1 := by
  simp only [ops_p3_8]
  after_results_w
  simp only [h.main_v159]
  rfl

set_option maxRecDepth 8192 in
set_option maxHeartbeats 1000000 in
theorem w3_8_main_v173 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_8 V x0 x1 x2 x3 x4 x5 x6) :
    after ops_p3_8 V (Proc.devRef .tc main_v173) = val_main_v173 (F := F) x1 := by
  simp only [ops_p3_8]
  after_results_w
  simp only [h.main_v159]
  rfl

theorem step3_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3_8 V x0 x1 x2 x3 x4 x5 x6) : Inv4 (after ops_p3_8 V) x0 x1 x2 x3 x4 x5 x6 where
  main_arg0 := (ops_p3_8_keep V main_arg0 (by decide)).trans h.main_arg0
  main_arg1 := (ops_p3_8_keep V main_arg1 (by decide)).trans h.main_arg1
  main_arg2 := (ops_p3_8_keep V main_arg2 (by decide)).trans h.main_arg2
  main_arg3 := (ops_p3_8_keep V main_arg3 (by decide)).trans h.main_arg3
  main_arg4 := (ops_p3_8_keep V main_arg4 (by decide)).trans h.main_arg4
  main_arg5 := (ops_p3_8_keep V main_arg5 (by decide)).trans h.main_arg5
  main_arg6 := (ops_p3_8_keep V main_arg6 (by decide)).trans h.main_arg6
  main_v27 := (ops_p3_8_keep V main_v27 (by decide)).trans h.main_v27
  main_v29 := (ops_p3_8_keep V main_v29 (by decide)).trans h.main_v29
  main_v31 := (ops_p3_8_keep V main_v31 (by decide)).trans h.main_v31
  main_v33 := (ops_p3_8_keep V main_v33 (by decide)).trans h.main_v33
  main_v142 := (ops_p3_8_keep V main_v142 (by decide)).trans h.main_v142
  main_v157 := (ops_p3_8_keep V main_v157 (by decide)).trans h.main_v157
  main_v159 := (ops_p3_8_keep V main_v159 (by decide)).trans h.main_v159
  main_v164 := (ops_p3_8_keep V main_v164 (by decide)).trans h.main_v164
  main_v169 := w3_8_main_v169 V x0 x1 x2 x3 x4 x5 x6 h
  main_v171 := w3_8_main_v171 V x0 x1 x2 x3 x4 x5 x6 h
  main_v173 := w3_8_main_v173 V x0 x1 x2 x3 x4 x5 x6 h

set_option maxRecDepth 8192 in
theorem ops_p3_split : (ops_p3 : List (HloOp τ sig (Elt F))) = ops_p3_0 ++ (ops_p3_1 ++ (ops_p3_2 ++ (ops_p3_3 ++ (ops_p3_4 ++ (ops_p3_5 ++ (ops_p3_6 ++ (ops_p3_7 ++ (ops_p3_8)))))))) := rfl

/-- Window 3 carries the staged reading from boundary 3 to boundary 4. -/
theorem step3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv3 V x0 x1 x2 x3 x4 x5 x6) : Inv4 (after ops_p3 V) x0 x1 x2 x3 x4 x5 x6 := by
  rw [ops_p3_split]; simp only [after_app]
  exact step3_8 _ x0 x1 x2 x3 x4 x5 x6 (step3_7 _ x0 x1 x2 x3 x4 x5 x6 (step3_6 _ x0 x1 x2 x3 x4 x5 x6 (step3_5 _ x0 x1 x2 x3 x4 x5 x6 (step3_4 _ x0 x1 x2 x3 x4 x5 x6 (step3_3 _ x0 x1 x2 x3 x4 x5 x6 (step3_2 _ x0 x1 x2 x3 x4 x5 x6 (step3_1 _ x0 x1 x2 x3 x4 x5 x6 (step3_0 V x0 x1 x2 x3 x4 x5 x6 h))))))))

end Cert.ReferenceIdeal.Hand

end
-- ==== Proof.Ref.W4.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 4 of @main: its operations 281 … 355 of 1688, in order. -/
def ops_p4 : List (HloOp τ sig (Elt F)) :=
  [ ternary main_v171 main_v173 main_v159 main_v174 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v164 main_v175 (broadcastInDim S409600x1 ![0] bcast_S409600_S409600x1_0 : (⟨S409600, .i32⟩ : BufTy).Contents (Elt F) → (⟨S409600x1, .i32⟩ : BufTy).Contents (Elt F)),
    unary main_v169 main_v176 (broadcastInDim S409600x1 ![0] bcast_S409600_S409600x1_0 : (⟨S409600, .i32⟩ : BufTy).Contents (Elt F) → (⟨S409600x1, .i32⟩ : BufTy).Contents (Elt F)),
    unary main_v174 main_v177 (broadcastInDim S409600x1 ![0] bcast_S409600_S409600x1_0 : (⟨S409600, .i32⟩ : BufTy).Contents (Elt F) → (⟨S409600x1, .i32⟩ : BufTy).Contents (Elt F)),
    nary ![main_v175, main_v176, main_v177] main_v178 (fun u => concatenate S409600x3 1 [⟨S409600x1, u 0⟩, ⟨S409600x1, u 1⟩, ⟨S409600x1, u 2⟩] concatenates_S409600x1_S409600x1_S409600x1_S409600x3_d1),
    binary main_v27 main_v178 main_v179 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_64 (constantI S_ 32 0#32),
    unary main_c_64 main_v180 (broadcastInDim S409600 ![] bcast_S_S409600 : (⟨S_, .i32⟩ : BufTy).Contents (Elt F) → (⟨S409600, .i32⟩ : BufTy).Contents (Elt F)),
    binary main_v179 main_v180 main_v181 (cmpi .sge : (⟨S409600, .i32⟩ : BufTy).Contents (Elt F) → (⟨S409600, .i32⟩ : BufTy).Contents (Elt F) → (⟨S409600, .i1⟩ : BufTy).Contents (Elt F)),
    binary main_v157 main_v181 main_v182 (andi : (⟨S409600, .i1⟩ : BufTy).Contents (Elt F) → (⟨S409600, .i1⟩ : BufTy).Contents (Elt F) → (⟨S409600, .i1⟩ : BufTy).Contents (Elt F)),
    nullary main_c_65 (constantI S_ 32 0#32),
    unary main_c_65 main_call10_v0 (id : (⟨S_, .i32⟩ : BufTy).Contents (Elt F) → (⟨S_, .i32⟩ : BufTy).Contents (Elt F)),
    unary main_call10_v0 main_call10_v1 ((broadcastInDim S409600 ![] bcast_S_S409600) : (⟨S_, .i32⟩ : BufTy).Contents (Elt F) → (⟨S409600, .i32⟩ : BufTy).Contents (Elt F)),
    ternary main_v182 main_v179 main_call10_v1 main_v183 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_66 (constantI S_ 32 0#32),
    unary main_c_66 main_v184 (broadcastInDim S409600 ![] bcast_S_S409600 : (⟨S_, .i32⟩ : BufTy).Contents (Elt F) → (⟨S409600, .i32⟩ : BufTy).Contents (Elt F)),
    binary main_v183 main_v184 main_v185 (cmpi .slt : (⟨S409600, .i32⟩ : BufTy).Contents (Elt F) → (⟨S409600, .i32⟩ : BufTy).Contents (Elt F) → (⟨S409600, .i1⟩ : BufTy).Contents (Elt F)),
    nullary main_c_67 (constantI S_ 32 409600#32),
    unary main_c_67 main_v186 (broadcastInDim S409600 ![] bcast_S_S409600 : (⟨S_, .i32⟩ : BufTy).Contents (Elt F) → (⟨S409600, .i32⟩ : BufTy).Contents (Elt F)),
    binary main_v183 main_v186 main_v187 (addi : (⟨S409600, .i32⟩ : BufTy).Contents (Elt F) → (⟨S409600, .i32⟩ : BufTy).Contents (Elt F) → (⟨S409600, .i32⟩ : BufTy).Contents (Elt F)),
    ternary main_v185 main_v187 main_v183 main_v188 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v188 main_v189 (broadcastInDim S409600x1 ![0] bcast_S409600_S409600x1_0 : (⟨S409600, .i32⟩ : BufTy).Contents (Elt F) → (⟨S409600x1, .i32⟩ : BufTy).Contents (Elt F)),
    binary main_arg0 main_v189 main_v190 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v182 main_v191 (broadcastInDim S409600x1 ![0] bcast_S409600_S409600x1_0 : (⟨S409600, .i1⟩ : BufTy).Contents (Elt F) → (⟨S409600x1, .i1⟩ : BufTy).Contents (Elt F)),
    nullary main_cst_68 (constant S_ .f32 0x00000000#32),
    unary main_cst_68 main_call11_v0 (id : (⟨S_, .f32⟩ : BufTy).Contents (Elt F) → (⟨S_, .f32⟩ : BufTy).Contents (Elt F)),
    unary main_v191 main_call11_v1 ((broadcastInDim S409600x64 ![0, 1] bcast_S409600x1_S409600x64_0_1) : (⟨S409600x1, .i1⟩ : BufTy).Contents (Elt F) → (⟨S409600x64, .i1⟩ : BufTy).Contents (Elt F)),
    unary main_call11_v0 main_call11_v2 ((broadcastInDim S409600x64 ![] bcast_S_S409600x64) : (⟨S_, .f32⟩ : BufTy).Contents (Elt F) → (⟨S409600x64, .f32⟩ : BufTy).Contents (Elt F)),
    ternary main_call11_v1 main_v190 main_call11_v2 main_v192 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v193 ((extractStridedSlice S1x1x64x64 ![0, 2, 0, 0] · slices_S3x3x64x64_S1x1x64x64_0_2_0_0) : (⟨S3x3x64x64, .f32⟩ : BufTy).Contents (Elt F) → (⟨S1x1x64x64, .f32⟩ : BufTy).Contents (Elt F)),
    reshape main_v193 main_v194 rfl shapeCasts_S1x1x64x64_S64x64,
    binary main_v192 main_v194 main_v195 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v142 main_v195 main_v196 (addf : (⟨S409600x64, .f32⟩ : BufTy).Contents (Elt F) → (⟨S409600x64, .f32⟩ : BufTy).Contents (Elt F) → (⟨S409600x64, .f32⟩ : BufTy).Contents (Elt F)),
    nullary main_c_69 (constantI S_ 32 0#32),
    unary main_c_69 main_v197 (broadcastInDim S409600 ![] bcast_S_S409600 : (⟨S_, .i32⟩ : BufTy).Contents (Elt F) → (⟨S409600, .i32⟩ : BufTy).Contents (Elt F)),
    binary main_v31 main_v197 main_v198 (addi : (⟨S409600, .i32⟩ : BufTy).Contents (Elt F) → (⟨S409600, .i32⟩ : BufTy).Contents (Elt F) → (⟨S409600, .i32⟩ : BufTy).Contents (Elt F)),
    nullary main_c_70 (constantI S_ 32 4294967295#32),
    unary main_c_70 main_v199 (broadcastInDim S409600 ![] bcast_S_S409600 : (⟨S_, .i32⟩ : BufTy).Contents (Elt F) → (⟨S409600, .i32⟩ : BufTy).Contents (Elt F)),
    binary main_v33 main_v199 main_v200 (addi : (⟨S409600, .i32⟩ : BufTy).Contents (Elt F) → (⟨S409600, .i32⟩ : BufTy).Contents (Elt F) → (⟨S409600, .i32⟩ : BufTy).Contents (Elt F)),
    nullary main_c_71 (constantI S_ 32 0#32),
    unary main_c_71 main_v201 (broadcastInDim S409600 ![] bcast_S_S409600 : (⟨S_, .i32⟩ : BufTy).Contents (Elt F) → (⟨S409600, .i32⟩ : BufTy).Contents (Elt F)),
    binary main_v198 main_v201 main_v202 (cmpi .sge : (⟨S409600, .i32⟩ : BufTy).Contents (Elt F) → (⟨S409600, .i32⟩ : BufTy).Contents (Elt F) → (⟨S409600, .i1⟩ : BufTy).Contents (Elt F)),
    nullary main_c_72 (constantI S_ 32 640#32),
    unary main_c_72 main_v203 (broadcastInDim S409600 ![] bcast_S_S409600 : (⟨S_, .i32⟩ : BufTy).Contents (Elt F) → (⟨S409600, .i32⟩ : BufTy).Contents (Elt F)),
    binary main_v198 main_v203 main_v204 (cmpi .slt : (⟨S409600, .i32⟩ : BufTy).Contents (Elt F) → (⟨S409600, .i32⟩ : BufTy).Contents (Elt F) → (⟨S409600, .i1⟩ : BufTy).Contents (Elt F)),
    binary main_v202 main_v204 main_v205 (andi : (⟨S409600, .i1⟩ : BufTy).Contents (Elt F) → (⟨S409600, .i1⟩ : BufTy).Contents (Elt F) → (⟨S409600, .i1⟩ : BufTy).Contents (Elt F)),
    nullary main_c_73 (constantI S_ 32 0#32),
    unary main_c_73 main_v206 (broadcastInDim S409600 ![] bcast_S_S409600 : (⟨S_, .i32⟩ : BufTy).Contents (Elt F) → (⟨S409600, .i32⟩ : BufTy).Contents (Elt F)),
    binary main_v200 main_v206 main_v207 (cmpi .sge : (⟨S409600, .i32⟩ : BufTy).Contents (Elt F) → (⟨S409600, .i32⟩ : BufTy).Contents (Elt F) → (⟨S409600, .i1⟩ : BufTy).Contents (Elt F)),
    binary main_v205 main_v207 main_v208 (andi : (⟨S409600, .i1⟩ : BufTy).Contents (Elt F) → (⟨S409600, .i1⟩ : BufTy).Contents (Elt F) → (⟨S409600, .i1⟩ : BufTy).Contents (Elt F)),
    nullary main_c_74 (constantI S_ 32 640#32),
    unary main_c_74 main_v209 (broadcastInDim S409600 ![] bcast_S_S409600 : (⟨S_, .i32⟩ : BufTy).Contents (Elt F) → (⟨S409600, .i32⟩ : BufTy).Contents (Elt F)),
    binary main_v200 main_v209 main_v210 (cmpi .slt : (⟨S409600, .i32⟩ : BufTy).Contents (Elt F) → (⟨S409600, .i32⟩ : BufTy).Contents (Elt F) → (⟨S409600, .i1⟩ : BufTy).Contents (Elt F)),
    binary main_v208 main_v210 main_v211 (andi : (⟨S409600, .i1⟩ : BufTy).Contents (Elt F) → (⟨S409600, .i1⟩ : BufTy).Contents (Elt F) → (⟨S409600, .i1⟩ : BufTy).Contents (Elt F)),
    nullary main_c_75 (constantI S_ 32 0#32),
    nullary main_c_76 (constantI S_ 32 639#32),
    unary main_c_75 main_call12_v0 (id : (⟨S_, .i32⟩ : BufTy).Contents (Elt F) → (⟨S_, .i32⟩ : BufTy).Contents (Elt F)),
    unary main_call12_v0 main_call12_v1 ((broadcastInDim S409600 ![] bcast_S_S409600) : (⟨S_, .i32⟩ : BufTy).Contents (Elt F) → (⟨S409600, .i32⟩ : BufTy).Contents (Elt F)),
    binary main_call12_v1 main_v198 main_call12_v2 (maxsi : (⟨S409600, .i32⟩ : BufTy).Contents (Elt F) → (⟨S409600, .i32⟩ : BufTy).Contents (Elt F) → (⟨S409600, .i32⟩ : BufTy).Contents (Elt F)),
    unary main_c_76 main_call12_v3 (id : (⟨S_, .i32⟩ : BufTy).Contents (Elt F) → (⟨S_, .i32⟩ : BufTy).Contents (Elt F)),
    unary main_call12_v3 main_call12_v4 ((broadcastInDim S409600 ![] bcast_S_S409600) : (⟨S_, .i32⟩ : BufTy).Contents (Elt F) → (⟨S409600, .i32⟩ : BufTy).Contents (Elt F)),
    binary main_call12_v4 main_call12_v2 main_v212 (minsi : (⟨S409600, .i32⟩ : BufTy).Contents (Elt F) → (⟨S409600, .i32⟩ : BufTy).Contents (Elt F) → (⟨S409600, .i32⟩ : BufTy).Contents (Elt F)),
    nullary main_c_77 (constantI S_ 32 0#32),
    nullary main_c_78 (constantI S_ 32 639#32),
    unary main_c_77 main_call13_v0 (id : (⟨S_, .i32⟩ : BufTy).Contents (Elt F) → (⟨S_, .i32⟩ : BufTy).Contents (Elt F)),
    unary main_call13_v0 main_call13_v1 ((broadcastInDim S409600 ![] bcast_S_S409600) : (⟨S_, .i32⟩ : BufTy).Contents (Elt F) → (⟨S409600, .i32⟩ : BufTy).Contents (Elt F)),
    binary main_call13_v1 main_v200 main_call13_v2 (maxsi : (⟨S409600, .i32⟩ : BufTy).Contents (Elt F) → (⟨S409600, .i32⟩ : BufTy).Contents (Elt F) → (⟨S409600, .i32⟩ : BufTy).Contents (Elt F)),
    unary main_c_78 main_call13_v3 (id : (⟨S_, .i32⟩ : BufTy).Contents (Elt F) → (⟨S_, .i32⟩ : BufTy).Contents (Elt F)),
    unary main_call13_v3 main_call13_v4 ((broadcastInDim S409600 ![] bcast_S_S409600) : (⟨S_, .i32⟩ : BufTy).Contents (Elt F) → (⟨S409600, .i32⟩ : BufTy).Contents (Elt F)),
    binary main_call13_v4 main_call13_v2 main_v213 (minsi : (⟨S409600, .i32⟩ : BufTy).Contents (Elt F) → (⟨S409600, .i32⟩ : BufTy).Contents (Elt F) → (⟨S409600, .i32⟩ : BufTy).Contents (Elt F)),
    nullary main_c_79 (constantI S_ 32 0#32),
    unary main_c_79 main_v214 (broadcastInDim S409600 ![] bcast_S_S409600 : (⟨S_, .i32⟩ : BufTy).Contents (Elt F) → (⟨S409600, .i32⟩ : BufTy).Contents (Elt F)),
    binary main_v29 main_v214 main_v215 (cmpi .slt : (⟨S409600, .i32⟩ : BufTy).Contents (Elt F) → (⟨S409600, .i32⟩ : BufTy).Contents (Elt F) → (⟨S409600, .i1⟩ : BufTy).Contents (Elt F)),
    nullary main_c_80 (constantI S_ 32 2#32),
    unary main_c_80 main_v216 (broadcastInDim S409600 ![] bcast_S_S409600 : (⟨S_, .i32⟩ : BufTy).Contents (Elt F) → (⟨S409600, .i32⟩ : BufTy).Contents (Elt F)) ]

set_option maxRecDepth 8192 in
set_option maxHeartbeats 4000000 in
theorem main_part4_eq (c : Dev nD) : main_part4 (F := F) c = seq ops_p4 := by
  simp only [main_part4, ops_p4, fn_clip.body, fn_where.body, fn_where_0.body, fn_relu.body, seq, bind_assoc, pure_bind]
  rfl

set_option maxRecDepth 8192 in
theorem ops_p4_sub : (ops_p4 : List (HloOp τ sig (Elt F))).Forall fun op => op.bufs ⊆ tcRefs τ sig :=
  ⟨ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub ..⟩

set_option maxRecDepth 8192 in
theorem ops_p4_fresh : ∀ op ∈ (ops_p4 : List (HloOp τ sig (Elt F))), op.fresh = ∅ := by
  unfold ops_p4; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 289 on hold before it. -/
structure Inv4_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v157 : V (Proc.devRef .tc main_v157) = val_main_v157 (F := F) x1
  main_v179 : V (Proc.devRef .tc main_v179) = val_main_v179 (F := F) x1
  main_v180 : V (Proc.devRef .tc main_v180) = val_main_v180 (F := F)

/-- What the buffers read from operation 297 on hold before it. -/
structure Inv4_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v182 : V (Proc.devRef .tc main_v182) = val_main_v182 (F := F) x1
  main_v183 : V (Proc.devRef .tc main_v183) = val_main_v183 (F := F) x1
  main_v184 : V (Proc.devRef .tc main_v184) = val_main_v184 (F := F)

/-- What the buffers read from operation 305 on hold before it. -/
structure Inv4_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v190 : V (Proc.devRef .tc main_v190) = val_main_v190 (F := F) x0 x1
  main_v191 : V (Proc.devRef .tc main_v191) = val_main_v191 (F := F) x1

/-- What the buffers read from operation 313 on hold before it. -/
structure Inv4_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v142 : V (Proc.devRef .tc main_v142) = val_main_v142 (F := F) x0 x1 x2
  main_v195 : V (Proc.devRef .tc main_v195) = val_main_v195 (F := F) x0 x1 x2

/-- What the buffers read from operation 321 on hold before it. -/
structure Inv4_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v198 : V (Proc.devRef .tc main_v198) = val_main_v198 (F := F) x1
  main_v200 : V (Proc.devRef .tc main_v200) = val_main_v200 (F := F) x1
  main_c_71 : V (Proc.devRef .tc main_c_71) = val_main_c_71 (F := F)

/-- What the buffers read from operation 329 on hold before it. -/
structure Inv4_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v198 : V (Proc.devRef .tc main_v198) = val_main_v198 (F := F) x1
  main_v200 : V (Proc.devRef .tc main_v200) = val_main_v200 (F := F) x1
  main_v205 : V (Proc.devRef .tc main_v205) = val_main_v205 (F := F) x1
  main_v206 : V (Proc.devRef .tc main_v206) = val_main_v206 (F := F)

/-- What the buffers read from operation 337 on hold before it. -/
structure Inv4_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v198 : V (Proc.devRef .tc main_v198) = val_main_v198 (F := F) x1
  main_v200 : V (Proc.devRef .tc main_v200) = val_main_v200 (F := F) x1
  main_v211 : V (Proc.devRef .tc main_v211) = val_main_v211 (F := F) x1
  main_c_75 : V (Proc.devRef .tc main_c_75) = val_main_c_75 (F := F)
  main_c_76 : V (Proc.devRef .tc main_c_76) = val_main_c_76 (F := F)

/-- What the buffers read from operation 345 on hold before it. -/
structure Inv4_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v200 : V (Proc.devRef .tc main_v200) = val_main_v200 (F := F) x1
  main_v211 : V (Proc.devRef .tc main_v211) = val_main_v211 (F := F) x1
  main_v212 : V (Proc.devRef .tc main_v212) = val_main_v212 (F := F) x1
  main_c_77 : V (Proc.devRef .tc main_c_77) = val_main_c_77 (F := F)
  main_c_78 : V (Proc.devRef .tc main_c_78) = val_main_c_78 (F := F)

/-- What the buffers read from operation 353 on hold before it. -/
structure Inv4_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v211 : V (Proc.devRef .tc main_v211) = val_main_v211 (F := F) x1
  main_v212 : V (Proc.devRef .tc main_v212) = val_main_v212 (F := F) x1
  main_v213 : V (Proc.devRef .tc main_v213) = val_main_v213 (F := F) x1
  main_v214 : V (Proc.devRef .tc main_v214) = val_main_v214 (F := F)

/-- Stretch 0 of window 4: @main's operations 281 … 288. -/
def ops_p4_0 : List (HloOp τ sig (Elt F)) :=
  [ ternary main_v171 main_v173 main_v159 main_v174 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v164 main_v175 (broadcastInDim S409600x1 ![0] bcast_S409600_S409600x1_0 : (⟨S409600, .i32⟩ : BufTy).Contents (Elt F) → (⟨S409600x1, .i32⟩ : BufTy).Contents (Elt F)),
    unary main_v169 main_v176 (broadcastInDim S409600x1 ![0] bcast_S409600_S409600x1_0 : (⟨S409600, .i32⟩ : BufTy).Contents (Elt F) → (⟨S409600x1, .i32⟩ : BufTy).Contents (Elt F)),
    unary main_v174 main_v177 (broadcastInDim S409600x1 ![0] bcast_S409600_S409600x1_0 : (⟨S409600, .i32⟩ : BufTy).Contents (Elt F) → (⟨S409600x1, .i32⟩ : BufTy).Contents (Elt F)),
    nary ![main_v175, main_v176, main_v177] main_v178 (fun u => concatenate S409600x3 1 [⟨S409600x1, u 0⟩, ⟨S409600x1, u 1⟩, ⟨S409600x1, u 2⟩] concatenates_S409600x1_S409600x1_S409600x1_S409600x3_d1),
    binary main_v27 main_v178 main_v179 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_64 (constantI S_ 32 0#32),
    unary main_c_64 main_v180 (broadcastInDim S409600 ![] bcast_S_S409600 : (⟨S_, .i32⟩ : BufTy).Contents (Elt F) → (⟨S409600, .i32⟩ : BufTy).Contents (Elt F)) ]
abbrev ops_p4_0_W : List (Ref sig .tc) := [main_v174, main_v175, main_v176, main_v177, main_v178, main_v179, main_c_64, main_v180]
theorem ops_p4_0_writes : (ops_p4_0 : List (HloOp τ sig (Elt F))).Forall fun op => op.writes ⊆ (ops_p4_0_W.map (Proc.devRef (τ := τ) .tc)).toFinset := by
  simp only [ops_p4_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p4_0_keep (V : Valuation τ sig (Elt F)) (r : Ref sig .tc) (h : r ∉ ops_p4_0_W) :
    after ops_p4_0 V (Proc.devRef .tc r) = V (Proc.devRef .tc r) :=
  after_of_writes_sub ops_p4_0 _ ops_p4_0_writes h

set_option maxRecDepth 8192 in
set_option maxHeartbeats 1000000 in
theorem w4_0_main_v179 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4 V x0 x1 x2 x3 x4 x5 x6) :
    after ops_p4_0 V (Proc.devRef .tc main_v179) = val_main_v179 (F := F) x1 := by
  simp only [ops_p4_0]
  after_results_w
  simp only [h.main_v159, h.main_v173, h.main_v171, h.main_v169, h.main_v164, h.main_v27]
  rfl

set_option maxRecDepth 8192 in
set_option maxHeartbeats 1000000 in
theorem w4_0_main_v180 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4 V x0 x1 x2 x3 x4 x5 x6) :
    after ops_p4_0 V (Proc.devRef .tc main_v180) = val_main_v180 (F := F) := by
  simp only [ops_p4_0]
  after_results_w
  rfl

theorem step4_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4 V x0 x1 x2 x3 x4 x5 x6) : Inv4_1 (after ops_p4_0 V) x0 x1 x2 x3 x4 x5 x6 where
  main_arg0 := (ops_p4_0_keep V main_arg0 (by decide)).trans h.main_arg0
  main_arg1 := (ops_p4_0_keep V main_arg1 (by decide)).trans h.main_arg1
  main_arg2 := (ops_p4_0_keep V main_arg2 (by decide)).trans h.main_arg2
  main_arg3 := (ops_p4_0_keep V main_arg3 (by decide)).trans h.main_arg3
  main_arg4 := (ops_p4_0_keep V main_arg4 (by decide)).trans h.main_arg4
  main_arg5 := (ops_p4_0_keep V main_arg5 (by decide)).trans h.main_arg5
  main_arg6 := (ops_p4_0_keep V main_arg6 (by decide)).trans h.main_arg6
  main_v27 := (ops_p4_0_keep V main_v27 (by decide)).trans h.main_v27
  main_v29 := (ops_p4_0_keep V main_v29 (by decide)).trans h.main_v29
  main_v31 := (ops_p4_0_keep V main_v31 (by decide)).trans h.main_v31
  main_v33 := (ops_p4_0_keep V main_v33 (by decide)).trans h.main_v33
  main_v142 := (ops_p4_0_keep V main_v142 (by decide)).trans h.main_v142
  main_v157 := (ops_p4_0_keep V main_v157 (by decide)).trans h.main_v157
  main_v179 := w4_0_main_v179 V x0 x1 x2 x3 x4 x5 x6 h
  main_v180 := w4_0_main_v180 V x0 x1 x2 x3 x4 x5 x6 h

/-- Stretch 1 of window 4: @main's operations 289 … 296. -/
def ops_p4_1 : List (HloOp τ sig (Elt F)) :=
  [ binary main_v179 main_v180 main_v181 (cmpi .sge : (⟨S409600, .i32⟩ : BufTy).Contents (Elt F) → (⟨S409600, .i32⟩ : BufTy).Contents (Elt F) → (⟨S409600, .i1⟩ : BufTy).Contents (Elt F)),
    binary main_v157 main_v181 main_v182 (andi : (⟨S409600, .i1⟩ : BufTy).Contents (Elt F) → (⟨S409600, .i1⟩ : BufTy).Contents (Elt F) → (⟨S409600, .i1⟩ : BufTy).Contents (Elt F)),
    nullary main_c_65 (constantI S_ 32 0#32),
    unary main_c_65 main_call10_v0 (id : (⟨S_, .i32⟩ : BufTy).Contents (Elt F) → (⟨S_, .i32⟩ : BufTy).Contents (Elt F)),
    unary main_call10_v0 main_call10_v1 ((broadcastInDim S409600 ![] bcast_S_S409600) : (⟨S_, .i32⟩ : BufTy).Contents (Elt F) → (⟨S409600, .i32⟩ : BufTy).Contents (Elt F)),
    ternary main_v182 main_v179 main_call10_v1 main_v183 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_66 (constantI S_ 32 0#32),
    unary main_c_66 main_v184 (broadcastInDim S409600 ![] bcast_S_S409600 : (⟨S_, .i32⟩ : BufTy).Contents (Elt F) → (⟨S409600, .i32⟩ : BufTy).Contents (Elt F)) ]
abbrev ops_p4_1_W : List (Ref sig .tc) := [main_v181, main_v182, main_c_65, main_call10_v0, main_call10_v1, main_v183, main_c_66, main_v184]
theorem ops_p4_1_writes : (ops_p4_1 : List (HloOp τ sig (Elt F))).Forall fun op => op.writes ⊆ (ops_p4_1_W.map (Proc.devRef (τ := τ) .tc)).toFinset := by
  simp only [ops_p4_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p4_1_keep (V : Valuation τ sig (Elt F)) (r : Ref sig .tc) (h : r ∉ ops_p4_1_W) :
    after ops_p4_1 V (Proc.devRef .tc r) = V (Proc.devRef .tc r) :=
  after_of_writes_sub ops_p4_1 _ ops_p4_1_writes h

set_option maxRecDepth 8192 in
set_option maxHeartbeats 1000000 in
theorem w4_1_main_v182 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_1 V x0 x1 x2 x3 x4 x5 x6) :
    after ops_p4_1 V (Proc.devRef .tc main_v182) = val_main_v182 (F := F) x1 := by
  simp only [ops_p4_1]
  after_results_w
  simp only [h.main_v180, h.main_v179, h.main_v157]
  rfl

set_option maxRecDepth 8192 in
set_option maxHeartbeats 1000000 in
theorem w4_1_main_v183 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_1 V x0 x1 x2 x3 x4 x5 x6) :
    after ops_p4_1 V (Proc.devRef .tc main_v183) = val_main_v183 (F := F) x1 := by
  simp only [ops_p4_1]
  after_results_w
  simp only [h.main_v179, h.main_v180, h.main_v157]
  rfl

set_option maxRecDepth 8192 in
set_option maxHeartbeats 1000000 in
theorem w4_1_main_v184 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_1 V x0 x1 x2 x3 x4 x5 x6) :
    after ops_p4_1 V (Proc.devRef .tc main_v184) = val_main_v184 (F := F) := by
  simp only [ops_p4_1]
  after_results_w
  rfl

theorem step4_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_1 V x0 x1 x2 x3 x4 x5 x6) : Inv4_2 (after ops_p4_1 V) x0 x1 x2 x3 x4 x5 x6 where
  main_arg0 := (ops_p4_1_keep V main_arg0 (by decide)).trans h.main_arg0
  main_arg1 := (ops_p4_1_keep V main_arg1 (by decide)).trans h.main_arg1
  main_arg2 := (ops_p4_1_keep V main_arg2 (by decide)).trans h.main_arg2
  main_arg3 := (ops_p4_1_keep V main_arg3 (by decide)).trans h.main_arg3
  main_arg4 := (ops_p4_1_keep V main_arg4 (by decide)).trans h.main_arg4
  main_arg5 := (ops_p4_1_keep V main_arg5 (by decide)).trans h.main_arg5
  main_arg6 := (ops_p4_1_keep V main_arg6 (by decide)).trans h.main_arg6
  main_v27 := (ops_p4_1_keep V main_v27 (by decide)).trans h.main_v27
  main_v29 := (ops_p4_1_keep V main_v29 (by decide)).trans h.main_v29
  main_v31 := (ops_p4_1_keep V main_v31 (by decide)).trans h.main_v31
  main_v33 := (ops_p4_1_keep V main_v33 (by decide)).trans h.main_v33
  main_v142 := (ops_p4_1_keep V main_v142 (by decide)).trans h.main_v142
  main_v182 := w4_1_main_v182 V x0 x1 x2 x3 x4 x5 x6 h
  main_v183 := w4_1_main_v183 V x0 x1 x2 x3 x4 x5 x6 h
  main_v184 := w4_1_main_v184 V x0 x1 x2 x3 x4 x5 x6 h

/-- Stretch 2 of window 4: @main's operations 297 … 304. -/
def ops_p4_2 : List (HloOp τ sig (Elt F)) :=
  [ binary main_v183 main_v184 main_v185 (cmpi .slt : (⟨S409600, .i32⟩ : BufTy).Contents (Elt F) → (⟨S409600, .i32⟩ : BufTy).Contents (Elt F) → (⟨S409600, .i1⟩ : BufTy).Contents (Elt F)),
    nullary main_c_67 (constantI S_ 32 409600#32),
    unary main_c_67 main_v186 (broadcastInDim S409600 ![] bcast_S_S409600 : (⟨S_, .i32⟩ : BufTy).Contents (Elt F) → (⟨S409600, .i32⟩ : BufTy).Contents (Elt F)),
    binary main_v183 main_v186 main_v187 (addi : (⟨S409600, .i32⟩ : BufTy).Contents (Elt F) → (⟨S409600, .i32⟩ : BufTy).Contents (Elt F) → (⟨S409600, .i32⟩ : BufTy).Contents (Elt F)),
    ternary main_v185 main_v187 main_v183 main_v188 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v188 main_v189 (broadcastInDim S409600x1 ![0] bcast_S409600_S409600x1_0 : (⟨S409600, .i32⟩ : BufTy).Contents (Elt F) → (⟨S409600x1, .i32⟩ : BufTy).Contents (Elt F)),
    binary main_arg0 main_v189 main_v190 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v182 main_v191 (broadcastInDim S409600x1 ![0] bcast_S409600_S409600x1_0 : (⟨S409600, .i1⟩ : BufTy).Contents (Elt F) → (⟨S409600x1, .i1⟩ : BufTy).Contents (Elt F)) ]
abbrev ops_p4_2_W : List (Ref sig .tc) := [main_v185, main_c_67, main_v186, main_v187, main_v188, main_v189, main_v190, main_v191]
theorem ops_p4_2_writes : (ops_p4_2 : List (HloOp τ sig (Elt F))).Forall fun op => op.writes ⊆ (ops_p4_2_W.map (Proc.devRef (τ := τ) .tc)).toFinset := by
  simp only [ops_p4_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p4_2_keep (V : Valuation τ sig (Elt F)) (r : Ref sig .tc) (h : r ∉ ops_p4_2_W) :
    after ops_p4_2 V (Proc.devRef .tc r) = V (Proc.devRef .tc r) :=
  after_of_writes_sub ops_p4_2 _ ops_p4_2_writes h

set_option maxRecDepth 8192 in
set_option maxHeartbeats 1000000 in
theorem w4_2_main_v190 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_2 V x0 x1 x2 x3 x4 x5 x6) :
    after ops_p4_2 V (Proc.devRef .tc main_v190) = val_main_v190 (F := F) x0 x1 := by
  simp only [ops_p4_2]
  after_results_w
  simp only [h.main_v183, h.main_v184, h.main_arg0]
  rfl

set_option maxRecDepth 8192 in
set_option maxHeartbeats 1000000 in
theorem w4_2_main_v191 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_2 V x0 x1 x2 x3 x4 x5 x6) :
    after ops_p4_2 V (Proc.devRef .tc main_v191) = val_main_v191 (F := F) x1 := by
  simp only [ops_p4_2]
  after_results_w
  simp only [h.main_v182]
  rfl

theorem step4_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_2 V x0 x1 x2 x3 x4 x5 x6) : Inv4_3 (after ops_p4_2 V) x0 x1 x2 x3 x4 x5 x6 where
  main_arg0 := (ops_p4_2_keep V main_arg0 (by decide)).trans h.main_arg0
  main_arg1 := (ops_p4_2_keep V main_arg1 (by decide)).trans h.main_arg1
  main_arg2 := (ops_p4_2_keep V main_arg2 (by decide)).trans h.main_arg2
  main_arg3 := (ops_p4_2_keep V main_arg3 (by decide)).trans h.main_arg3
  main_arg4 := (ops_p4_2_keep V main_arg4 (by decide)).trans h.main_arg4
  main_arg5 := (ops_p4_2_keep V main_arg5 (by decide)).trans h.main_arg5
  main_arg6 := (ops_p4_2_keep V main_arg6 (by decide)).trans h.main_arg6
  main_v27 := (ops_p4_2_keep V main_v27 (by decide)).trans h.main_v27
  main_v29 := (ops_p4_2_keep V main_v29 (by decide)).trans h.main_v29
  main_v31 := (ops_p4_2_keep V main_v31 (by decide)).trans h.main_v31
  main_v33 := (ops_p4_2_keep V main_v33 (by decide)).trans h.main_v33
  main_v142 := (ops_p4_2_keep V main_v142 (by decide)).trans h.main_v142
  main_v190 := w4_2_main_v190 V x0 x1 x2 x3 x4 x5 x6 h
  main_v191 := w4_2_main_v191 V x0 x1 x2 x3 x4 x5 x6 h

/-- Stretch 3 of window 4: @main's operations 305 … 312. -/
def ops_p4_3 : List (HloOp τ sig (Elt F)) :=
  [ nullary main_cst_68 (constant S_ .f32 0x00000000#32),
    unary main_cst_68 main_call11_v0 (id : (⟨S_, .f32⟩ : BufTy).Contents (Elt F) → (⟨S_, .f32⟩ : BufTy).Contents (Elt F)),
    unary main_v191 main_call11_v1 ((broadcastInDim S409600x64 ![0, 1] bcast_S409600x1_S409600x64_0_1) : (⟨S409600x1, .i1⟩ : BufTy).Contents (Elt F) → (⟨S409600x64, .i1⟩ : BufTy).Contents (Elt F)),
    unary main_call11_v0 main_call11_v2 ((broadcastInDim S409600x64 ![] bcast_S_S409600x64) : (⟨S_, .f32⟩ : BufTy).Contents (Elt F) → (⟨S409600x64, .f32⟩ : BufTy).Contents (Elt F)),
    ternary main_call11_v1 main_v190 main_call11_v2 main_v192 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v193 ((extractStridedSlice S1x1x64x64 ![0, 2, 0, 0] · slices_S3x3x64x64_S1x1x64x64_0_2_0_0) : (⟨S3x3x64x64, .f32⟩ : BufTy).Contents (Elt F) → (⟨S1x1x64x64, .f32⟩ : BufTy).Contents (Elt F)),
    reshape main_v193 main_v194 rfl shapeCasts_S1x1x64x64_S64x64,
    binary main_v192 main_v194 main_v195 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)) ]
abbrev ops_p4_3_W : List (Ref sig .tc) := [main_cst_68, main_call11_v0, main_call11_v1, main_call11_v2, main_v192, main_v193, main_v194, main_v195]
theorem ops_p4_3_writes : (ops_p4_3 : List (HloOp τ sig (Elt F))).Forall fun op => op.writes ⊆ (ops_p4_3_W.map (Proc.devRef (τ := τ) .tc)).toFinset := by
  simp only [ops_p4_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p4_3_keep (V : Valuation τ sig (Elt F)) (r : Ref sig .tc) (h : r ∉ ops_p4_3_W) :
    after ops_p4_3 V (Proc.devRef .tc r) = V (Proc.devRef .tc r) :=
  after_of_writes_sub ops_p4_3 _ ops_p4_3_writes h

set_option maxRecDepth 8192 in
set_option maxHeartbeats 1000000 in
theorem w4_3_main_v195 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_3 V x0 x1 x2 x3 x4 x5 x6) :
    after ops_p4_3 V (Proc.devRef .tc main_v195) = val_main_v195 (F := F) x0 x1 x2 := by
  simp only [ops_p4_3]
  after_results_w
  simp only [h.main_arg2, h.main_v190, h.main_v191]
  rfl

theorem step4_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_3 V x0 x1 x2 x3 x4 x5 x6) : Inv4_4 (after ops_p4_3 V) x0 x1 x2 x3 x4 x5 x6 where
  main_arg0 := (ops_p4_3_keep V main_arg0 (by decide)).trans h.main_arg0
  main_arg1 := (ops_p4_3_keep V main_arg1 (by decide)).trans h.main_arg1
  main_arg2 := (ops_p4_3_keep V main_arg2 (by decide)).trans h.main_arg2
  main_arg3 := (ops_p4_3_keep V main_arg3 (by decide)).trans h.main_arg3
  main_arg4 := (ops_p4_3_keep V main_arg4 (by decide)).trans h.main_arg4
  main_arg5 := (ops_p4_3_keep V main_arg5 (by decide)).trans h.main_arg5
  main_arg6 := (ops_p4_3_keep V main_arg6 (by decide)).trans h.main_arg6
  main_v27 := (ops_p4_3_keep V main_v27 (by decide)).trans h.main_v27
  main_v29 := (ops_p4_3_keep V main_v29 (by decide)).trans h.main_v29
  main_v31 := (ops_p4_3_keep V main_v31 (by decide)).trans h.main_v31
  main_v33 := (ops_p4_3_keep V main_v33 (by decide)).trans h.main_v33
  main_v142 := (ops_p4_3_keep V main_v142 (by decide)).trans h.main_v142
  main_v195 := w4_3_main_v195 V x0 x1 x2 x3 x4 x5 x6 h

/-- Stretch 4 of window 4: @main's operations 313 … 320. -/
def ops_p4_4 : List (HloOp τ sig (Elt F)) :=
  [ binary main_v142 main_v195 main_v196 (addf : (⟨S409600x64, .f32⟩ : BufTy).Contents (Elt F) → (⟨S409600x64, .f32⟩ : BufTy).Contents (Elt F) → (⟨S409600x64, .f32⟩ : BufTy).Contents (Elt F)),
    nullary main_c_69 (constantI S_ 32 0#32),
    unary main_c_69 main_v197 (broadcastInDim S409600 ![] bcast_S_S409600 : (⟨S_, .i32⟩ : BufTy).Contents (Elt F) → (⟨S409600, .i32⟩ : BufTy).Contents (Elt F)),
    binary main_v31 main_v197 main_v198 (addi : (⟨S409600, .i32⟩ : BufTy).Contents (Elt F) → (⟨S409600, .i32⟩ : BufTy).Contents (Elt F) → (⟨S409600, .i32⟩ : BufTy).Contents (Elt F)),
    nullary main_c_70 (constantI S_ 32 4294967295#32),
    unary main_c_70 main_v199 (broadcastInDim S409600 ![] bcast_S_S409600 : (⟨S_, .i32⟩ : BufTy).Contents (Elt F) → (⟨S409600, .i32⟩ : BufTy).Contents (Elt F)),
    binary main_v33 main_v199 main_v200 (addi : (⟨S409600, .i32⟩ : BufTy).Contents (Elt F) → (⟨S409600, .i32⟩ : BufTy).Contents (Elt F) → (⟨S409600, .i32⟩ : BufTy).Contents (Elt F)),
    nullary main_c_71 (constantI S_ 32 0#32) ]
abbrev ops_p4_4_W : List (Ref sig .tc) := [main_v196, main_c_69, main_v197, main_v198, main_c_70, main_v199, main_v200, main_c_71]
theorem ops_p4_4_writes : (ops_p4_4 : List (HloOp τ sig (Elt F))).Forall fun op => op.writes ⊆ (ops_p4_4_W.map (Proc.devRef (τ := τ) .tc)).toFinset := by
  simp only [ops_p4_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p4_4_keep (V : Valuation τ sig (Elt F)) (r : Ref sig .tc) (h : r ∉ ops_p4_4_W) :
    after ops_p4_4 V (Proc.devRef .tc r) = V (Proc.devRef .tc r) :=
  after_of_writes_sub ops_p4_4 _ ops_p4_4_writes h

set_option maxRecDepth 8192 in
set_option maxHeartbeats 1000000 in
theorem w4_4_main_v196 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_4 V x0 x1 x2 x3 x4 x5 x6) :
    after ops_p4_4 V (Proc.devRef .tc main_v196) = val_main_v196 (F := F) x0 x1 x2 := by
  simp only [ops_p4_4]
  after_results_w
  simp only [h.main_v195, h.main_v142]
  rfl

set_option maxRecDepth 8192 in
set_option maxHeartbeats 1000000 in
theorem w4_4_main_v198 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_4 V x0 x1 x2 x3 x4 x5 x6) :
    after ops_p4_4 V (Proc.devRef .tc main_v198) = val_main_v198 (F := F) x1 := by
  simp only [ops_p4_4]
  after_results_w
  simp only [h.main_v31]
  rfl

set_option maxRecDepth 8192 in
set_option maxHeartbeats 1000000 in
theorem w4_4_main_v200 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_4 V x0 x1 x2 x3 x4 x5 x6) :
    after ops_p4_4 V (Proc.devRef .tc main_v200) = val_main_v200 (F := F) x1 := by
  simp only [ops_p4_4]
  after_results_w
  simp only [h.main_v33]
  rfl

set_option maxRecDepth 8192 in
set_option maxHeartbeats 1000000 in
theorem w4_4_main_c_71 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_4 V x0 x1 x2 x3 x4 x5 x6) :
    after ops_p4_4 V (Proc.devRef .tc main_c_71) = val_main_c_71 (F := F) := by
  simp only [ops_p4_4]
  after_results_w
  rfl

theorem step4_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_4 V x0 x1 x2 x3 x4 x5 x6) : Inv4_5 (after ops_p4_4 V) x0 x1 x2 x3 x4 x5 x6 where
  main_arg0 := (ops_p4_4_keep V main_arg0 (by decide)).trans h.main_arg0
  main_arg1 := (ops_p4_4_keep V main_arg1 (by decide)).trans h.main_arg1
  main_arg2 := (ops_p4_4_keep V main_arg2 (by decide)).trans h.main_arg2
  main_arg3 := (ops_p4_4_keep V main_arg3 (by decide)).trans h.main_arg3
  main_arg4 := (ops_p4_4_keep V main_arg4 (by decide)).trans h.main_arg4
  main_arg5 := (ops_p4_4_keep V main_arg5 (by decide)).trans h.main_arg5
  main_arg6 := (ops_p4_4_keep V main_arg6 (by decide)).trans h.main_arg6
  main_v27 := (ops_p4_4_keep V main_v27 (by decide)).trans h.main_v27
  main_v29 := (ops_p4_4_keep V main_v29 (by decide)).trans h.main_v29
  main_v31 := (ops_p4_4_keep V main_v31 (by decide)).trans h.main_v31
  main_v33 := (ops_p4_4_keep V main_v33 (by decide)).trans h.main_v33
  main_v196 := w4_4_main_v196 V x0 x1 x2 x3 x4 x5 x6 h
  main_v198 := w4_4_main_v198 V x0 x1 x2 x3 x4 x5 x6 h
  main_v200 := w4_4_main_v200 V x0 x1 x2 x3 x4 x5 x6 h
  main_c_71 := w4_4_main_c_71 V x0 x1 x2 x3 x4 x5 x6 h

/-- Stretch 5 of window 4: @main's operations 321 … 328. -/
def ops_p4_5 : List (HloOp τ sig (Elt F)) :=
  [ unary main_c_71 main_v201 (broadcastInDim S409600 ![] bcast_S_S409600 : (⟨S_, .i32⟩ : BufTy).Contents (Elt F) → (⟨S409600, .i32⟩ : BufTy).Contents (Elt F)),
    binary main_v198 main_v201 main_v202 (cmpi .sge : (⟨S409600, .i32⟩ : BufTy).Contents (Elt F) → (⟨S409600, .i32⟩ : BufTy).Contents (Elt F) → (⟨S409600, .i1⟩ : BufTy).Contents (Elt F)),
    nullary main_c_72 (constantI S_ 32 640#32),
    unary main_c_72 main_v203 (broadcastInDim S409600 ![] bcast_S_S409600 : (⟨S_, .i32⟩ : BufTy).Contents (Elt F) → (⟨S409600, .i32⟩ : BufTy).Contents (Elt F)),
    binary main_v198 main_v203 main_v204 (cmpi .slt : (⟨S409600, .i32⟩ : BufTy).Contents (Elt F) → (⟨S409600, .i32⟩ : BufTy).Contents (Elt F) → (⟨S409600, .i1⟩ : BufTy).Contents (Elt F)),
    binary main_v202 main_v204 main_v205 (andi : (⟨S409600, .i1⟩ : BufTy).Contents (Elt F) → (⟨S409600, .i1⟩ : BufTy).Contents (Elt F) → (⟨S409600, .i1⟩ : BufTy).Contents (Elt F)),
    nullary main_c_73 (constantI S_ 32 0#32),
    unary main_c_73 main_v206 (broadcastInDim S409600 ![] bcast_S_S409600 : (⟨S_, .i32⟩ : BufTy).Contents (Elt F) → (⟨S409600, .i32⟩ : BufTy).Contents (Elt F)) ]
abbrev ops_p4_5_W : List (Ref sig .tc) := [main_v201, main_v202, main_c_72, main_v203, main_v204, main_v205, main_c_73, main_v206]
theorem ops_p4_5_writes : (ops_p4_5 : List (HloOp τ sig (Elt F))).Forall fun op => op.writes ⊆ (ops_p4_5_W.map (Proc.devRef (τ := τ) .tc)).toFinset := by
  simp only [ops_p4_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p4_5_keep (V : Valuation τ sig (Elt F)) (r : Ref sig .tc) (h : r ∉ ops_p4_5_W) :
    after ops_p4_5 V (Proc.devRef .tc r) = V (Proc.devRef .tc r) :=
  after_of_writes_sub ops_p4_5 _ ops_p4_5_writes h

set_option maxRecDepth 8192 in
set_option maxHeartbeats 1000000 in
theorem w4_5_main_v205 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_5 V x0 x1 x2 x3 x4 x5 x6) :
    after ops_p4_5 V (Proc.devRef .tc main_v205) = val_main_v205 (F := F) x1 := by
  simp only [ops_p4_5]
  after_results_w
  simp only [h.main_v198, h.main_c_71]
  rfl

set_option maxRecDepth 8192 in
set_option maxHeartbeats 1000000 in
theorem w4_5_main_v206 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_5 V x0 x1 x2 x3 x4 x5 x6) :
    after ops_p4_5 V (Proc.devRef .tc main_v206) = val_main_v206 (F := F) := by
  simp only [ops_p4_5]
  after_results_w
  rfl

theorem step4_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_5 V x0 x1 x2 x3 x4 x5 x6) : Inv4_6 (after ops_p4_5 V) x0 x1 x2 x3 x4 x5 x6 where
  main_arg0 := (ops_p4_5_keep V main_arg0 (by decide)).trans h.main_arg0
  main_arg1 := (ops_p4_5_keep V main_arg1 (by decide)).trans h.main_arg1
  main_arg2 := (ops_p4_5_keep V main_arg2 (by decide)).trans h.main_arg2
  main_arg3 := (ops_p4_5_keep V main_arg3 (by decide)).trans h.main_arg3
  main_arg4 := (ops_p4_5_keep V main_arg4 (by decide)).trans h.main_arg4
  main_arg5 := (ops_p4_5_keep V main_arg5 (by decide)).trans h.main_arg5
  main_arg6 := (ops_p4_5_keep V main_arg6 (by decide)).trans h.main_arg6
  main_v27 := (ops_p4_5_keep V main_v27 (by decide)).trans h.main_v27
  main_v29 := (ops_p4_5_keep V main_v29 (by decide)).trans h.main_v29
  main_v31 := (ops_p4_5_keep V main_v31 (by decide)).trans h.main_v31
  main_v33 := (ops_p4_5_keep V main_v33 (by decide)).trans h.main_v33
  main_v196 := (ops_p4_5_keep V main_v196 (by decide)).trans h.main_v196
  main_v198 := (ops_p4_5_keep V main_v198 (by decide)).trans h.main_v198
  main_v200 := (ops_p4_5_keep V main_v200 (by decide)).trans h.main_v200
  main_v205 := w4_5_main_v205 V x0 x1 x2 x3 x4 x5 x6 h
  main_v206 := w4_5_main_v206 V x0 x1 x2 x3 x4 x5 x6 h

/-- Stretch 6 of window 4: @main's operations 329 … 336. -/
def ops_p4_6 : List (HloOp τ sig (Elt F)) :=
  [ binary main_v200 main_v206 main_v207 (cmpi .sge : (⟨S409600, .i32⟩ : BufTy).Contents (Elt F) → (⟨S409600, .i32⟩ : BufTy).Contents (Elt F) → (⟨S409600, .i1⟩ : BufTy).Contents (Elt F)),
    binary main_v205 main_v207 main_v208 (andi : (⟨S409600, .i1⟩ : BufTy).Contents (Elt F) → (⟨S409600, .i1⟩ : BufTy).Contents (Elt F) → (⟨S409600, .i1⟩ : BufTy).Contents (Elt F)),
    nullary main_c_74 (constantI S_ 32 640#32),
    unary main_c_74 main_v209 (broadcastInDim S409600 ![] bcast_S_S409600 : (⟨S_, .i32⟩ : BufTy).Contents (Elt F) → (⟨S409600, .i32⟩ : BufTy).Contents (Elt F)),
    binary main_v200 main_v209 main_v210 (cmpi .slt : (⟨S409600, .i32⟩ : BufTy).Contents (Elt F) → (⟨S409600, .i32⟩ : BufTy).Contents (Elt F) → (⟨S409600, .i1⟩ : BufTy).Contents (Elt F)),
    binary main_v208 main_v210 main_v211 (andi : (⟨S409600, .i1⟩ : BufTy).Contents (Elt F) → (⟨S409600, .i1⟩ : BufTy).Contents (Elt F) → (⟨S409600, .i1⟩ : BufTy).Contents (Elt F)),
    nullary main_c_75 (constantI S_ 32 0#32),
    nullary main_c_76 (constantI S_ 32 639#32) ]
abbrev ops_p4_6_W : List (Ref sig .tc) := [main_v207, main_v208, main_c_74, main_v209, main_v210, main_v211, main_c_75, main_c_76]
theorem ops_p4_6_writes : (ops_p4_6 : List (HloOp τ sig (Elt F))).Forall fun op => op.writes ⊆ (ops_p4_6_W.map (Proc.devRef (τ := τ) .tc)).toFinset := by
  simp only [ops_p4_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p4_6_keep (V : Valuation τ sig (Elt F)) (r : Ref sig .tc) (h : r ∉ ops_p4_6_W) :
    after ops_p4_6 V (Proc.devRef .tc r) = V (Proc.devRef .tc r) :=
  after_of_writes_sub ops_p4_6 _ ops_p4_6_writes h

set_option maxRecDepth 8192 in
set_option maxHeartbeats 1000000 in
theorem w4_6_main_v211 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_6 V x0 x1 x2 x3 x4 x5 x6) :
    after ops_p4_6 V (Proc.devRef .tc main_v211) = val_main_v211 (F := F) x1 := by
  simp only [ops_p4_6]
  after_results_w
  simp only [h.main_v200, h.main_v206, h.main_v205]
  rfl

set_option maxRecDepth 8192 in
set_option maxHeartbeats 1000000 in
theorem w4_6_main_c_75 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_6 V x0 x1 x2 x3 x4 x5 x6) :
    after ops_p4_6 V (Proc.devRef .tc main_c_75) = val_main_c_75 (F := F) := by
  simp only [ops_p4_6]
  after_results_w
  rfl

set_option maxRecDepth 8192 in
set_option maxHeartbeats 1000000 in
theorem w4_6_main_c_76 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_6 V x0 x1 x2 x3 x4 x5 x6) :
    after ops_p4_6 V (Proc.devRef .tc main_c_76) = val_main_c_76 (F := F) := by
  simp only [ops_p4_6]
  after_results_w
  rfl

theorem step4_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_6 V x0 x1 x2 x3 x4 x5 x6) : Inv4_7 (after ops_p4_6 V) x0 x1 x2 x3 x4 x5 x6 where
  main_arg0 := (ops_p4_6_keep V main_arg0 (by decide)).trans h.main_arg0
  main_arg1 := (ops_p4_6_keep V main_arg1 (by decide)).trans h.main_arg1
  main_arg2 := (ops_p4_6_keep V main_arg2 (by decide)).trans h.main_arg2
  main_arg3 := (ops_p4_6_keep V main_arg3 (by decide)).trans h.main_arg3
  main_arg4 := (ops_p4_6_keep V main_arg4 (by decide)).trans h.main_arg4
  main_arg5 := (ops_p4_6_keep V main_arg5 (by decide)).trans h.main_arg5
  main_arg6 := (ops_p4_6_keep V main_arg6 (by decide)).trans h.main_arg6
  main_v27 := (ops_p4_6_keep V main_v27 (by decide)).trans h.main_v27
  main_v29 := (ops_p4_6_keep V main_v29 (by decide)).trans h.main_v29
  main_v31 := (ops_p4_6_keep V main_v31 (by decide)).trans h.main_v31
  main_v33 := (ops_p4_6_keep V main_v33 (by decide)).trans h.main_v33
  main_v196 := (ops_p4_6_keep V main_v196 (by decide)).trans h.main_v196
  main_v198 := (ops_p4_6_keep V main_v198 (by decide)).trans h.main_v198
  main_v200 := (ops_p4_6_keep V main_v200 (by decide)).trans h.main_v200
  main_v211 := w4_6_main_v211 V x0 x1 x2 x3 x4 x5 x6 h
  main_c_75 := w4_6_main_c_75 V x0 x1 x2 x3 x4 x5 x6 h
  main_c_76 := w4_6_main_c_76 V x0 x1 x2 x3 x4 x5 x6 h

/-- Stretch 7 of window 4: @main's operations 337 … 344. -/
def ops_p4_7 : List (HloOp τ sig (Elt F)) :=
  [ unary main_c_75 main_call12_v0 (id : (⟨S_, .i32⟩ : BufTy).Contents (Elt F) → (⟨S_, .i32⟩ : BufTy).Contents (Elt F)),
    unary main_call12_v0 main_call12_v1 ((broadcastInDim S409600 ![] bcast_S_S409600) : (⟨S_, .i32⟩ : BufTy).Contents (Elt F) → (⟨S409600, .i32⟩ : BufTy).Contents (Elt F)),
    binary main_call12_v1 main_v198 main_call12_v2 (maxsi : (⟨S409600, .i32⟩ : BufTy).Contents (Elt F) → (⟨S409600, .i32⟩ : BufTy).Contents (Elt F) → (⟨S409600, .i32⟩ : BufTy).Contents (Elt F)),
    unary main_c_76 main_call12_v3 (id : (⟨S_, .i32⟩ : BufTy).Contents (Elt F) → (⟨S_, .i32⟩ : BufTy).Contents (Elt F)),
    unary main_call12_v3 main_call12_v4 ((broadcastInDim S409600 ![] bcast_S_S409600) : (⟨S_, .i32⟩ : BufTy).Contents (Elt F) → (⟨S409600, .i32⟩ : BufTy).Contents (Elt F)),
    binary main_call12_v4 main_call12_v2 main_v212 (minsi : (⟨S409600, .i32⟩ : BufTy).Contents (Elt F) → (⟨S409600, .i32⟩ : BufTy).Contents (Elt F) → (⟨S409600, .i32⟩ : BufTy).Contents (Elt F)),
    nullary main_c_77 (constantI S_ 32 0#32),
    nullary main_c_78 (constantI S_ 32 639#32) ]
abbrev ops_p4_7_W : List (Ref sig .tc) := [main_call12_v0, main_call12_v1, main_call12_v2, main_call12_v3, main_call12_v4, main_v212, main_c_77, main_c_78]
theorem ops_p4_7_writes : (ops_p4_7 : List (HloOp τ sig (Elt F))).Forall fun op => op.writes ⊆ (ops_p4_7_W.map (Proc.devRef (τ := τ) .tc)).toFinset := by
  simp only [ops_p4_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p4_7_keep (V : Valuation τ sig (Elt F)) (r : Ref sig .tc) (h : r ∉ ops_p4_7_W) :
    after ops_p4_7 V (Proc.devRef .tc r) = V (Proc.devRef .tc r) :=
  after_of_writes_sub ops_p4_7 _ ops_p4_7_writes h

set_option maxRecDepth 8192 in
set_option maxHeartbeats 1000000 in
theorem w4_7_main_v212 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_7 V x0 x1 x2 x3 x4 x5 x6) :
    after ops_p4_7 V (Proc.devRef .tc main_v212) = val_main_v212 (F := F) x1 := by
  simp only [ops_p4_7]
  after_results_w
  simp only [h.main_v198, h.main_c_75, h.main_c_76]
  rfl

set_option maxRecDepth 8192 in
set_option maxHeartbeats 1000000 in
theorem w4_7_main_c_77 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_7 V x0 x1 x2 x3 x4 x5 x6) :
    after ops_p4_7 V (Proc.devRef .tc main_c_77) = val_main_c_77 (F := F) := by
  simp only [ops_p4_7]
  after_results_w
  rfl

set_option maxRecDepth 8192 in
set_option maxHeartbeats 1000000 in
theorem w4_7_main_c_78 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_7 V x0 x1 x2 x3 x4 x5 x6) :
    after ops_p4_7 V (Proc.devRef .tc main_c_78) = val_main_c_78 (F := F) := by
  simp only [ops_p4_7]
  after_results_w
  rfl

theorem step4_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_7 V x0 x1 x2 x3 x4 x5 x6) : Inv4_8 (after ops_p4_7 V) x0 x1 x2 x3 x4 x5 x6 where
  main_arg0 := (ops_p4_7_keep V main_arg0 (by decide)).trans h.main_arg0
  main_arg1 := (ops_p4_7_keep V main_arg1 (by decide)).trans h.main_arg1
  main_arg2 := (ops_p4_7_keep V main_arg2 (by decide)).trans h.main_arg2
  main_arg3 := (ops_p4_7_keep V main_arg3 (by decide)).trans h.main_arg3
  main_arg4 := (ops_p4_7_keep V main_arg4 (by decide)).trans h.main_arg4
  main_arg5 := (ops_p4_7_keep V main_arg5 (by decide)).trans h.main_arg5
  main_arg6 := (ops_p4_7_keep V main_arg6 (by decide)).trans h.main_arg6
  main_v27 := (ops_p4_7_keep V main_v27 (by decide)).trans h.main_v27
  main_v29 := (ops_p4_7_keep V main_v29 (by decide)).trans h.main_v29
  main_v31 := (ops_p4_7_keep V main_v31 (by decide)).trans h.main_v31
  main_v33 := (ops_p4_7_keep V main_v33 (by decide)).trans h.main_v33
  main_v196 := (ops_p4_7_keep V main_v196 (by decide)).trans h.main_v196
  main_v200 := (ops_p4_7_keep V main_v200 (by decide)).trans h.main_v200
  main_v211 := (ops_p4_7_keep V main_v211 (by decide)).trans h.main_v211
  main_v212 := w4_7_main_v212 V x0 x1 x2 x3 x4 x5 x6 h
  main_c_77 := w4_7_main_c_77 V x0 x1 x2 x3 x4 x5 x6 h
  main_c_78 := w4_7_main_c_78 V x0 x1 x2 x3 x4 x5 x6 h

/-- Stretch 8 of window 4: @main's operations 345 … 352. -/
def ops_p4_8 : List (HloOp τ sig (Elt F)) :=
  [ unary main_c_77 main_call13_v0 (id : (⟨S_, .i32⟩ : BufTy).Contents (Elt F) → (⟨S_, .i32⟩ : BufTy).Contents (Elt F)),
    unary main_call13_v0 main_call13_v1 ((broadcastInDim S409600 ![] bcast_S_S409600) : (⟨S_, .i32⟩ : BufTy).Contents (Elt F) → (⟨S409600, .i32⟩ : BufTy).Contents (Elt F)),
    binary main_call13_v1 main_v200 main_call13_v2 (maxsi : (⟨S409600, .i32⟩ : BufTy).Contents (Elt F) → (⟨S409600, .i32⟩ : BufTy).Contents (Elt F) → (⟨S409600, .i32⟩ : BufTy).Contents (Elt F)),
    unary main_c_78 main_call13_v3 (id : (⟨S_, .i32⟩ : BufTy).Contents (Elt F) → (⟨S_, .i32⟩ : BufTy).Contents (Elt F)),
    unary main_call13_v3 main_call13_v4 ((broadcastInDim S409600 ![] bcast_S_S409600) : (⟨S_, .i32⟩ : BufTy).Contents (Elt F) → (⟨S409600, .i32⟩ : BufTy).Contents (Elt F)),
    binary main_call13_v4 main_call13_v2 main_v213 (minsi : (⟨S409600, .i32⟩ : BufTy).Contents (Elt F) → (⟨S409600, .i32⟩ : BufTy).Contents (Elt F) → (⟨S409600, .i32⟩ : BufTy).Contents (Elt F)),
    nullary main_c_79 (constantI S_ 32 0#32),
    unary main_c_79 main_v214 (broadcastInDim S409600 ![] bcast_S_S409600 : (⟨S_, .i32⟩ : BufTy).Contents (Elt F) → (⟨S409600, .i32⟩ : BufTy).Contents (Elt F)) ]
abbrev ops_p4_8_W : List (Ref sig .tc) := [main_call13_v0, main_call13_v1, main_call13_v2, main_call13_v3, main_call13_v4, main_v213, main_c_79, main_v214]
theorem ops_p4_8_writes : (ops_p4_8 : List (HloOp τ sig (Elt F))).Forall fun op => op.writes ⊆ (ops_p4_8_W.map (Proc.devRef (τ := τ) .tc)).toFinset := by
  simp only [ops_p4_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p4_8_keep (V : Valuation τ sig (Elt F)) (r : Ref sig .tc) (h : r ∉ ops_p4_8_W) :
    after ops_p4_8 V (Proc.devRef .tc r) = V (Proc.devRef .tc r) :=
  after_of_writes_sub ops_p4_8 _ ops_p4_8_writes h

set_option maxRecDepth 8192 in
set_option maxHeartbeats 1000000 in
theorem w4_8_main_v213 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_8 V x0 x1 x2 x3 x4 x5 x6) :
    after ops_p4_8 V (Proc.devRef .tc main_v213) = val_main_v213 (F := F) x1 := by
  simp only [ops_p4_8]
  after_results_w
  simp only [h.main_v200, h.main_c_77, h.main_c_78]
  rfl

set_option maxRecDepth 8192 in
set_option maxHeartbeats 1000000 in
theorem w4_8_main_v214 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_8 V x0 x1 x2 x3 x4 x5 x6) :
    after ops_p4_8 V (Proc.devRef .tc main_v214) = val_main_v214 (F := F) := by
  simp only [ops_p4_8]
  after_results_w
  rfl

theorem step4_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_8 V x0 x1 x2 x3 x4 x5 x6) : Inv4_9 (after ops_p4_8 V) x0 x1 x2 x3 x4 x5 x6 where
  main_arg0 := (ops_p4_8_keep V main_arg0 (by decide)).trans h.main_arg0
  main_arg1 := (ops_p4_8_keep V main_arg1 (by decide)).trans h.main_arg1
  main_arg2 := (ops_p4_8_keep V main_arg2 (by decide)).trans h.main_arg2
  main_arg3 := (ops_p4_8_keep V main_arg3 (by decide)).trans h.main_arg3
  main_arg4 := (ops_p4_8_keep V main_arg4 (by decide)).trans h.main_arg4
  main_arg5 := (ops_p4_8_keep V main_arg5 (by decide)).trans h.main_arg5
  main_arg6 := (ops_p4_8_keep V main_arg6 (by decide)).trans h.main_arg6
  main_v27 := (ops_p4_8_keep V main_v27 (by decide)).trans h.main_v27
  main_v29 := (ops_p4_8_keep V main_v29 (by decide)).trans h.main_v29
  main_v31 := (ops_p4_8_keep V main_v31 (by decide)).trans h.main_v31
  main_v33 := (ops_p4_8_keep V main_v33 (by decide)).trans h.main_v33
  main_v196 := (ops_p4_8_keep V main_v196 (by decide)).trans h.main_v196
  main_v211 := (ops_p4_8_keep V main_v211 (by decide)).trans h.main_v211
  main_v212 := (ops_p4_8_keep V main_v212 (by decide)).trans h.main_v212
  main_v213 := w4_8_main_v213 V x0 x1 x2 x3 x4 x5 x6 h
  main_v214 := w4_8_main_v214 V x0 x1 x2 x3 x4 x5 x6 h

/-- Stretch 9 of window 4: @main's operations 353 … 355. -/
def ops_p4_9 : List (HloOp τ sig (Elt F)) :=
  [ binary main_v29 main_v214 main_v215 (cmpi .slt : (⟨S409600, .i32⟩ : BufTy).Contents (Elt F) → (⟨S409600, .i32⟩ : BufTy).Contents (Elt F) → (⟨S409600, .i1⟩ : BufTy).Contents (Elt F)),
    nullary main_c_80 (constantI S_ 32 2#32),
    unary main_c_80 main_v216 (broadcastInDim S409600 ![] bcast_S_S409600 : (⟨S_, .i32⟩ : BufTy).Contents (Elt F) → (⟨S409600, .i32⟩ : BufTy).Contents (Elt F)) ]
abbrev ops_p4_9_W : List (Ref sig .tc) := [main_v215, main_c_80, main_v216]
theorem ops_p4_9_writes : (ops_p4_9 : List (HloOp τ sig (Elt F))).Forall fun op => op.writes ⊆ (ops_p4_9_W.map (Proc.devRef (τ := τ) .tc)).toFinset := by
  simp only [ops_p4_9, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p4_9_keep (V : Valuation τ sig (Elt F)) (r : Ref sig .tc) (h : r ∉ ops_p4_9_W) :
    after ops_p4_9 V (Proc.devRef .tc r) = V (Proc.devRef .tc r) :=
  after_of_writes_sub ops_p4_9 _ ops_p4_9_writes h

set_option maxRecDepth 8192 in
set_option maxHeartbeats 1000000 in
theorem w4_9_main_v215 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_9 V x0 x1 x2 x3 x4 x5 x6) :
    after ops_p4_9 V (Proc.devRef .tc main_v215) = val_main_v215 (F := F) x1 := by
  simp only [ops_p4_9]
  after_results_w
  simp only [h.main_v214, h.main_v29]
  rfl

set_option maxRecDepth 8192 in
set_option maxHeartbeats 1000000 in
theorem w4_9_main_v216 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_9 V x0 x1 x2 x3 x4 x5 x6) :
    after ops_p4_9 V (Proc.devRef .tc main_v216) = val_main_v216 (F := F) := by
  simp only [ops_p4_9]
  after_results_w
  rfl

theorem step4_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4_9 V x0 x1 x2 x3 x4 x5 x6) : Inv5 (after ops_p4_9 V) x0 x1 x2 x3 x4 x5 x6 where
  main_arg0 := (ops_p4_9_keep V main_arg0 (by decide)).trans h.main_arg0
  main_arg1 := (ops_p4_9_keep V main_arg1 (by decide)).trans h.main_arg1
  main_arg2 := (ops_p4_9_keep V main_arg2 (by decide)).trans h.main_arg2
  main_arg3 := (ops_p4_9_keep V main_arg3 (by decide)).trans h.main_arg3
  main_arg4 := (ops_p4_9_keep V main_arg4 (by decide)).trans h.main_arg4
  main_arg5 := (ops_p4_9_keep V main_arg5 (by decide)).trans h.main_arg5
  main_arg6 := (ops_p4_9_keep V main_arg6 (by decide)).trans h.main_arg6
  main_v27 := (ops_p4_9_keep V main_v27 (by decide)).trans h.main_v27
  main_v29 := (ops_p4_9_keep V main_v29 (by decide)).trans h.main_v29
  main_v31 := (ops_p4_9_keep V main_v31 (by decide)).trans h.main_v31
  main_v33 := (ops_p4_9_keep V main_v33 (by decide)).trans h.main_v33
  main_v196 := (ops_p4_9_keep V main_v196 (by decide)).trans h.main_v196
  main_v211 := (ops_p4_9_keep V main_v211 (by decide)).trans h.main_v211
  main_v212 := (ops_p4_9_keep V main_v212 (by decide)).trans h.main_v212
  main_v213 := (ops_p4_9_keep V main_v213 (by decide)).trans h.main_v213
  main_v215 := w4_9_main_v215 V x0 x1 x2 x3 x4 x5 x6 h
  main_v216 := w4_9_main_v216 V x0 x1 x2 x3 x4 x5 x6 h

set_option maxRecDepth 8192 in
theorem ops_p4_split : (ops_p4 : List (HloOp τ sig (Elt F))) = ops_p4_0 ++ (ops_p4_1 ++ (ops_p4_2 ++ (ops_p4_3 ++ (ops_p4_4 ++ (ops_p4_5 ++ (ops_p4_6 ++ (ops_p4_7 ++ (ops_p4_8 ++ (ops_p4_9))))))))) := rfl

/-- Window 4 carries the staged reading from boundary 4 to boundary 5. -/
theorem step4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv4 V x0 x1 x2 x3 x4 x5 x6) : Inv5 (after ops_p4 V) x0 x1 x2 x3 x4 x5 x6 := by
  rw [ops_p4_split]; simp only [after_app]
  exact step4_9 _ x0 x1 x2 x3 x4 x5 x6 (step4_8 _ x0 x1 x2 x3 x4 x5 x6 (step4_7 _ x0 x1 x2 x3 x4 x5 x6 (step4_6 _ x0 x1 x2 x3 x4 x5 x6 (step4_5 _ x0 x1 x2 x3 x4 x5 x6 (step4_4 _ x0 x1 x2 x3 x4 x5 x6 (step4_3 _ x0 x1 x2 x3 x4 x5 x6 (step4_2 _ x0 x1 x2 x3 x4 x5 x6 (step4_1 _ x0 x1 x2 x3 x4 x5 x6 (step4_0 V x0 x1 x2 x3 x4 x5 x6 h)))))))))

end Cert.ReferenceIdeal.Hand

end
-- ==== Proof.Ref.W5.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 5 of @main: its operations 356 … 420 of 1688, in order. -/
def ops_p5 : List (HloOp τ sig (Elt F)) :=
  [ binary main_v29 main_v216 main_v217 (addi : (⟨S409600, .i32⟩ : BufTy).Contents (Elt F) → (⟨S409600, .i32⟩ : BufTy).Contents (Elt F) → (⟨S409600, .i32⟩ : BufTy).Contents (Elt F)),
    ternary main_v215 main_v217 main_v29 main_v218 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_81 (constantI S_ 32 0#32),
    unary main_c_81 main_v219 (broadcastInDim S409600 ![] bcast_S_S409600 : (⟨S_, .i32⟩ : BufTy).Contents (Elt F) → (⟨S409600, .i32⟩ : BufTy).Contents (Elt F)),
    binary main_v212 main_v219 main_v220 (cmpi .slt : (⟨S409600, .i32⟩ : BufTy).Contents (Elt F) → (⟨S409600, .i32⟩ : BufTy).Contents (Elt F) → (⟨S409600, .i1⟩ : BufTy).Contents (Elt F)),
    nullary main_c_82 (constantI S_ 32 640#32),
    unary main_c_82 main_v221 (broadcastInDim S409600 ![] bcast_S_S409600 : (⟨S_, .i32⟩ : BufTy).Contents (Elt F) → (⟨S409600, .i32⟩ : BufTy).Contents (Elt F)),
    binary main_v212 main_v221 main_v222 (addi : (⟨S409600, .i32⟩ : BufTy).Contents (Elt F) → (⟨S409600, .i32⟩ : BufTy).Contents (Elt F) → (⟨S409600, .i32⟩ : BufTy).Contents (Elt F)),
    ternary main_v220 main_v222 main_v212 main_v223 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_83 (constantI S_ 32 0#32),
    unary main_c_83 main_v224 (broadcastInDim S409600 ![] bcast_S_S409600 : (⟨S_, .i32⟩ : BufTy).Contents (Elt F) → (⟨S409600, .i32⟩ : BufTy).Contents (Elt F)),
    binary main_v213 main_v224 main_v225 (cmpi .slt : (⟨S409600, .i32⟩ : BufTy).Contents (Elt F) → (⟨S409600, .i32⟩ : BufTy).Contents (Elt F) → (⟨S409600, .i1⟩ : BufTy).Contents (Elt F)),
    nullary main_c_84 (constantI S_ 32 640#32),
    unary main_c_84 main_v226 (broadcastInDim S409600 ![] bcast_S_S409600 : (⟨S_, .i32⟩ : BufTy).Contents (Elt F) → (⟨S409600, .i32⟩ : BufTy).Contents (Elt F)),
    binary main_v213 main_v226 main_v227 (addi : (⟨S409600, .i32⟩ : BufTy).Contents (Elt F) → (⟨S409600, .i32⟩ : BufTy).Contents (Elt F) → (⟨S409600, .i32⟩ : BufTy).Contents (Elt F)),
    ternary main_v225 main_v227 main_v213 main_v228 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v218 main_v229 (broadcastInDim S409600x1 ![0] bcast_S409600_S409600x1_0 : (⟨S409600, .i32⟩ : BufTy).Contents (Elt F) → (⟨S409600x1, .i32⟩ : BufTy).Contents (Elt F)),
    unary main_v223 main_v230 (broadcastInDim S409600x1 ![0] bcast_S409600_S409600x1_0 : (⟨S409600, .i32⟩ : BufTy).Contents (Elt F) → (⟨S409600x1, .i32⟩ : BufTy).Contents (Elt F)),
    unary main_v228 main_v231 (broadcastInDim S409600x1 ![0] bcast_S409600_S409600x1_0 : (⟨S409600, .i32⟩ : BufTy).Contents (Elt F) → (⟨S409600x1, .i32⟩ : BufTy).Contents (Elt F)),
    nary ![main_v229, main_v230, main_v231] main_v232 (fun u => concatenate S409600x3 1 [⟨S409600x1, u 0⟩, ⟨S409600x1, u 1⟩, ⟨S409600x1, u 2⟩] concatenates_S409600x1_S409600x1_S409600x1_S409600x3_d1),
    binary main_v27 main_v232 main_v233 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_85 (constantI S_ 32 0#32),
    unary main_c_85 main_v234 (broadcastInDim S409600 ![] bcast_S_S409600 : (⟨S_, .i32⟩ : BufTy).Contents (Elt F) → (⟨S409600, .i32⟩ : BufTy).Contents (Elt F)),
    binary main_v233 main_v234 main_v235 (cmpi .sge : (⟨S409600, .i32⟩ : BufTy).Contents (Elt F) → (⟨S409600, .i32⟩ : BufTy).Contents (Elt F) → (⟨S409600, .i1⟩ : BufTy).Contents (Elt F)),
    binary main_v211 main_v235 main_v236 (andi : (⟨S409600, .i1⟩ : BufTy).Contents (Elt F) → (⟨S409600, .i1⟩ : BufTy).Contents (Elt F) → (⟨S409600, .i1⟩ : BufTy).Contents (Elt F)),
    nullary main_c_86 (constantI S_ 32 0#32),
    unary main_c_86 main_call14_v0 (id : (⟨S_, .i32⟩ : BufTy).Contents (Elt F) → (⟨S_, .i32⟩ : BufTy).Contents (Elt F)),
    unary main_call14_v0 main_call14_v1 ((broadcastInDim S409600 ![] bcast_S_S409600) : (⟨S_, .i32⟩ : BufTy).Contents (Elt F) → (⟨S409600, .i32⟩ : BufTy).Contents (Elt F)),
    ternary main_v236 main_v233 main_call14_v1 main_v237 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_87 (constantI S_ 32 0#32),
    unary main_c_87 main_v238 (broadcastInDim S409600 ![] bcast_S_S409600 : (⟨S_, .i32⟩ : BufTy).Contents (Elt F) → (⟨S409600, .i32⟩ : BufTy).Contents (Elt F)),
    binary main_v237 main_v238 main_v239 (cmpi .slt : (⟨S409600, .i32⟩ : BufTy).Contents (Elt F) → (⟨S409600, .i32⟩ : BufTy).Contents (Elt F) → (⟨S409600, .i1⟩ : BufTy).Contents (Elt F)),
    nullary main_c_88 (constantI S_ 32 409600#32),
    unary main_c_88 main_v240 (broadcastInDim S409600 ![] bcast_S_S409600 : (⟨S_, .i32⟩ : BufTy).Contents (Elt F) → (⟨S409600, .i32⟩ : BufTy).Contents (Elt F)),
    binary main_v237 main_v240 main_v241 (addi : (⟨S409600, .i32⟩ : BufTy).Contents (Elt F) → (⟨S409600, .i32⟩ : BufTy).Contents (Elt F) → (⟨S409600, .i32⟩ : BufTy).Contents (Elt F)),
    ternary main_v239 main_v241 main_v237 main_v242 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v242 main_v243 (broadcastInDim S409600x1 ![0] bcast_S409600_S409600x1_0 : (⟨S409600, .i32⟩ : BufTy).Contents (Elt F) → (⟨S409600x1, .i32⟩ : BufTy).Contents (Elt F)),
    binary main_arg0 main_v243 main_v244 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v236 main_v245 (broadcastInDim S409600x1 ![0] bcast_S409600_S409600x1_0 : (⟨S409600, .i1⟩ : BufTy).Contents (Elt F) → (⟨S409600x1, .i1⟩ : BufTy).Contents (Elt F)),
    nullary main_cst_89 (constant S_ .f32 0x00000000#32),
    unary main_cst_89 main_call15_v0 (id : (⟨S_, .f32⟩ : BufTy).Contents (Elt F) → (⟨S_, .f32⟩ : BufTy).Contents (Elt F)),
    unary main_v245 main_call15_v1 ((broadcastInDim S409600x64 ![0, 1] bcast_S409600x1_S409600x64_0_1) : (⟨S409600x1, .i1⟩ : BufTy).Contents (Elt F) → (⟨S409600x64, .i1⟩ : BufTy).Contents (Elt F)),
    unary main_call15_v0 main_call15_v2 ((broadcastInDim S409600x64 ![] bcast_S_S409600x64) : (⟨S_, .f32⟩ : BufTy).Contents (Elt F) → (⟨S409600x64, .f32⟩ : BufTy).Contents (Elt F)),
    ternary main_call15_v1 main_v244 main_call15_v2 main_v246 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v247 ((extractStridedSlice S1x1x64x64 ![1, 0, 0, 0] · slices_S3x3x64x64_S1x1x64x64_1_0_0_0) : (⟨S3x3x64x64, .f32⟩ : BufTy).Contents (Elt F) → (⟨S1x1x64x64, .f32⟩ : BufTy).Contents (Elt F)),
    reshape main_v247 main_v248 rfl shapeCasts_S1x1x64x64_S64x64,
    binary main_v246 main_v248 main_v249 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v196 main_v249 main_v250 (addf : (⟨S409600x64, .f32⟩ : BufTy).Contents (Elt F) → (⟨S409600x64, .f32⟩ : BufTy).Contents (Elt F) → (⟨S409600x64, .f32⟩ : BufTy).Contents (Elt F)),
    nullary main_c_90 (constantI S_ 32 0#32),
    unary main_c_90 main_v251 (broadcastInDim S409600 ![] bcast_S_S409600 : (⟨S_, .i32⟩ : BufTy).Contents (Elt F) → (⟨S409600, .i32⟩ : BufTy).Contents (Elt F)),
    binary main_v31 main_v251 main_v252 (addi : (⟨S409600, .i32⟩ : BufTy).Contents (Elt F) → (⟨S409600, .i32⟩ : BufTy).Contents (Elt F) → (⟨S409600, .i32⟩ : BufTy).Contents (Elt F)),
    nullary main_c_91 (constantI S_ 32 0#32),
    unary main_c_91 main_v253 (broadcastInDim S409600 ![] bcast_S_S409600 : (⟨S_, .i32⟩ : BufTy).Contents (Elt F) → (⟨S409600, .i32⟩ : BufTy).Contents (Elt F)),
    binary main_v33 main_v253 main_v254 (addi : (⟨S409600, .i32⟩ : BufTy).Contents (Elt F) → (⟨S409600, .i32⟩ : BufTy).Contents (Elt F) → (⟨S409600, .i32⟩ : BufTy).Contents (Elt F)),
    nullary main_c_92 (constantI S_ 32 0#32),
    unary main_c_92 main_v255 (broadcastInDim S409600 ![] bcast_S_S409600 : (⟨S_, .i32⟩ : BufTy).Contents (Elt F) → (⟨S409600, .i32⟩ : BufTy).Contents (Elt F)),
    binary main_v252 main_v255 main_v256 (cmpi .sge : (⟨S409600, .i32⟩ : BufTy).Contents (Elt F) → (⟨S409600, .i32⟩ : BufTy).Contents (Elt F) → (⟨S409600, .i1⟩ : BufTy).Contents (Elt F)),
    nullary main_c_93 (constantI S_ 32 640#32),
    unary main_c_93 main_v257 (broadcastInDim S409600 ![] bcast_S_S409600 : (⟨S_, .i32⟩ : BufTy).Contents (Elt F) → (⟨S409600, .i32⟩ : BufTy).Contents (Elt F)),
    binary main_v252 main_v257 main_v258 (cmpi .slt : (⟨S409600, .i32⟩ : BufTy).Contents (Elt F) → (⟨S409600, .i32⟩ : BufTy).Contents (Elt F) → (⟨S409600, .i1⟩ : BufTy).Contents (Elt F)),
    binary main_v256 main_v258 main_v259 (andi : (⟨S409600, .i1⟩ : BufTy).Contents (Elt F) → (⟨S409600, .i1⟩ : BufTy).Contents (Elt F) → (⟨S409600, .i1⟩ : BufTy).Contents (Elt F)),
    nullary main_c_94 (constantI S_ 32 0#32),
    unary main_c_94 main_v260 (broadcastInDim S409600 ![] bcast_S_S409600 : (⟨S_, .i32⟩ : BufTy).Contents (Elt F) → (⟨S409600, .i32⟩ : BufTy).Contents (Elt F)),
    binary main_v254 main_v260 main_v261 (cmpi .sge : (⟨S409600, .i32⟩ : BufTy).Contents (Elt F) → (⟨S409600, .i32⟩ : BufTy).Contents (Elt F) → (⟨S409600, .i1⟩ : BufTy).Contents (Elt F)),
    binary main_v259 main_v261 main_v262 (andi : (⟨S409600, .i1⟩ : BufTy).Contents (Elt F) → (⟨S409600, .i1⟩ : BufTy).Contents (Elt F) → (⟨S409600, .i1⟩ : BufTy).Contents (Elt F)) ]

set_option maxRecDepth 8192 in
set_option maxHeartbeats 4000000 in
theorem main_part5_eq (c : Dev nD) : main_part5 (F := F) c = seq ops_p5 := by
  simp only [main_part5, ops_p5, fn_clip.body, fn_where.body, fn_where_0.body, fn_relu.body, seq, bind_assoc, pure_bind]
  rfl

set_option maxRecDepth 8192 in
theorem ops_p5_sub : (ops_p5 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩

set_option maxRecDepth 8192 in
theorem ops_p5_fresh : ∀ op ∈ (ops_p5 : List (HloOp τ sig (Elt F))), op.fresh = ∅ := by
  unfold ops_p5; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 364 on hold before it. -/
structure Inv5_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v211 : V (Proc.devRef .tc main_v211) = val_main_v211 (F := F) x1
  main_v212 : V (Proc.devRef .tc main_v212) = val_main_v212 (F := F) x1
  main_v213 : V (Proc.devRef .tc main_v213) = val_main_v213 (F := F) x1
  main_v218 : V (Proc.devRef .tc main_v218) = val_main_v218 (F := F) x1
  main_v220 : V (Proc.devRef .tc main_v220) = val_main_v220 (F := F) x1
  main_v222 : V (Proc.devRef .tc main_v222) = val_main_v222 (F := F) x1

/-- What the buffers read from operation 372 on hold before it. -/
structure Inv5_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v211 : V (Proc.devRef .tc main_v211) = val_main_v211 (F := F) x1
  main_v218 : V (Proc.devRef .tc main_v218) = val_main_v218 (F := F) x1
  main_v223 : V (Proc.devRef .tc main_v223) = val_main_v223 (F := F) x1
  main_v228 : V (Proc.devRef .tc main_v228) = val_main_v228 (F := F) x1

/-- What the buffers read from operation 380 on hold before it. -/
structure Inv5_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v211 : V (Proc.devRef .tc main_v211) = val_main_v211 (F := F) x1
  main_v233 : V (Proc.devRef .tc main_v233) = val_main_v233 (F := F) x1
  main_v235 : V (Proc.devRef .tc main_v235) = val_main_v235 (F := F) x1

/-- What the buffers read from operation 388 on hold before it. -/
structure Inv5_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v236 : V (Proc.devRef .tc main_v236) = val_main_v236 (F := F) x1
  main_v237 : V (Proc.devRef .tc main_v237) = val_main_v237 (F := F) x1
  main_v239 : V (Proc.devRef .tc main_v239) = val_main_v239 (F := F) x1

/-- What the buffers read from operation 396 on hold before it. -/
structure Inv5_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v196 : V (Proc.devRef .tc main_v196) = val_main_v196 (F := F) x0 x1 x2
  main_v244 : V (Proc.devRef .tc main_v244) = val_main_v244 (F := F) x0 x1
  main_v245 : V (Proc.devRef .tc main_v245) = val_main_v245 (F := F) x1
  main_cst_89 : V (Proc.devRef .tc main_cst_89) = val_main_cst_89 (F := F)

/-- What the buffers read from operation 404 on hold before it. -/
structure Inv5_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2

/-- What the buffers read from operation 412 on hold before it. -/
structure Inv5_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v252 : V (Proc.devRef .tc main_v252) = val_main_v252 (F := F) x1
  main_v254 : V (Proc.devRef .tc main_v254) = val_main_v254 (F := F) x1
  main_v255 : V (Proc.devRef .tc main_v255) = val_main_v255 (F := F)

/-- Stretch 0 of window 5: @main's operations 356 … 363. -/
def ops_p5_0 : List (HloOp τ sig (Elt F)) :=
  [ binary main_v29 main_v216 main_v217 (addi : (⟨S409600, .i32⟩ : BufTy).Contents (Elt F) → (⟨S409600, .i32⟩ : BufTy).Contents (Elt F) → (⟨S409600, .i32⟩ : BufTy).Contents (Elt F)),
    ternary main_v215 main_v217 main_v29 main_v218 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_81 (constantI S_ 32 0#32),
    unary main_c_81 main_v219 (broadcastInDim S409600 ![] bcast_S_S409600 : (⟨S_, .i32⟩ : BufTy).Contents (Elt F) → (⟨S409600, .i32⟩ : BufTy).Contents (Elt F)),
    binary main_v212 main_v219 main_v220 (cmpi .slt : (⟨S409600, .i32⟩ : BufTy).Contents (Elt F) → (⟨S409600, .i32⟩ : BufTy).Contents (Elt F) → (⟨S409600, .i1⟩ : BufTy).Contents (Elt F)),
    nullary main_c_82 (constantI S_ 32 640#32),
    unary main_c_82 main_v221 (broadcastInDim S409600 ![] bcast_S_S409600 : (⟨S_, .i32⟩ : BufTy).Contents (Elt F) → (⟨S409600, .i32⟩ : BufTy).Contents (Elt F)),
    binary main_v212 main_v221 main_v222 (addi : (⟨S409600, .i32⟩ : BufTy).Contents (Elt F) → (⟨S409600, .i32⟩ : BufTy).Contents (Elt F) → (⟨S409600, .i32⟩ : BufTy).Contents (Elt F)) ]
abbrev ops_p5_0_W : List (Ref sig .tc) := [main_v217, main_v218, main_c_81, main_v219, main_v220, main_c_82, main_v221, main_v222]
theorem ops_p5_0_writes : (ops_p5_0 : List (HloOp τ sig (Elt F))).Forall fun op => op.writes ⊆ (ops_p5_0_W.map (Proc.devRef (τ := τ) .tc)).toFinset := by
  simp only [ops_p5_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p5_0_keep (V : Valuation τ sig (Elt F)) (r : Ref sig .tc) (h : r ∉ ops_p5_0_W) :
    after ops_p5_0 V (Proc.devRef .tc r) = V (Proc.devRef .tc r) :=
  after_of_writes_sub ops_p5_0 _ ops_p5_0_writes h

set_option maxRecDepth 8192 in
set_option maxHeartbeats 1000000 in
theorem w5_0_main_v218 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5 V x0 x1 x2 x3 x4 x5 x6) :
    after ops_p5_0 V (Proc.devRef .tc main_v218) = val_main_v218 (F := F) x1 := by
  simp only [ops_p5_0]
  after_results_w
  simp only [h.main_v29, h.main_v216, h.main_v215]
  rfl

set_option maxRecDepth 8192 in
set_option maxHeartbeats 1000000 in
theorem w5_0_main_v220 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5 V x0 x1 x2 x3 x4 x5 x6) :
    after ops_p5_0 V (Proc.devRef .tc main_v220) = val_main_v220 (F := F) x1 := by
  simp only [ops_p5_0]
  after_results_w
  simp only [h.main_v212]
  rfl

set_option maxRecDepth 8192 in
set_option maxHeartbeats 1000000 in
theorem w5_0_main_v222 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5 V x0 x1 x2 x3 x4 x5 x6) :
    after ops_p5_0 V (Proc.devRef .tc main_v222) = val_main_v222 (F := F) x1 := by
  simp only [ops_p5_0]
  after_results_w
  simp only [h.main_v212]
  rfl

theorem step5_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5 V x0 x1 x2 x3 x4 x5 x6) : Inv5_1 (after ops_p5_0 V) x0 x1 x2 x3 x4 x5 x6 where
  main_arg0 := (ops_p5_0_keep V main_arg0 (by decide)).trans h.main_arg0
  main_arg1 := (ops_p5_0_keep V main_arg1 (by decide)).trans h.main_arg1
  main_arg2 := (ops_p5_0_keep V main_arg2 (by decide)).trans h.main_arg2
  main_arg3 := (ops_p5_0_keep V main_arg3 (by decide)).trans h.main_arg3
  main_arg4 := (ops_p5_0_keep V main_arg4 (by decide)).trans h.main_arg4
  main_arg5 := (ops_p5_0_keep V main_arg5 (by decide)).trans h.main_arg5
  main_arg6 := (ops_p5_0_keep V main_arg6 (by decide)).trans h.main_arg6
  main_v27 := (ops_p5_0_keep V main_v27 (by decide)).trans h.main_v27
  main_v29 := (ops_p5_0_keep V main_v29 (by decide)).trans h.main_v29
  main_v31 := (ops_p5_0_keep V main_v31 (by decide)).trans h.main_v31
  main_v33 := (ops_p5_0_keep V main_v33 (by decide)).trans h.main_v33
  main_v196 := (ops_p5_0_keep V main_v196 (by decide)).trans h.main_v196
  main_v211 := (ops_p5_0_keep V main_v211 (by decide)).trans h.main_v211
  main_v212 := (ops_p5_0_keep V main_v212 (by decide)).trans h.main_v212
  main_v213 := (ops_p5_0_keep V main_v213 (by decide)).trans h.main_v213
  main_v218 := w5_0_main_v218 V x0 x1 x2 x3 x4 x5 x6 h
  main_v220 := w5_0_main_v220 V x0 x1 x2 x3 x4 x5 x6 h
  main_v222 := w5_0_main_v222 V x0 x1 x2 x3 x4 x5 x6 h

/-- Stretch 1 of window 5: @main's operations 364 … 371. -/
def ops_p5_1 : List (HloOp τ sig (Elt F)) :=
  [ ternary main_v220 main_v222 main_v212 main_v223 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_83 (constantI S_ 32 0#32),
    unary main_c_83 main_v224 (broadcastInDim S409600 ![] bcast_S_S409600 : (⟨S_, .i32⟩ : BufTy).Contents (Elt F) → (⟨S409600, .i32⟩ : BufTy).Contents (Elt F)),
    binary main_v213 main_v224 main_v225 (cmpi .slt : (⟨S409600, .i32⟩ : BufTy).Contents (Elt F) → (⟨S409600, .i32⟩ : BufTy).Contents (Elt F) → (⟨S409600, .i1⟩ : BufTy).Contents (Elt F)),
    nullary main_c_84 (constantI S_ 32 640#32),
    unary main_c_84 main_v226 (broadcastInDim S409600 ![] bcast_S_S409600 : (⟨S_, .i32⟩ : BufTy).Contents (Elt F) → (⟨S409600, .i32⟩ : BufTy).Contents (Elt F)),
    binary main_v213 main_v226 main_v227 (addi : (⟨S409600, .i32⟩ : BufTy).Contents (Elt F) → (⟨S409600, .i32⟩ : BufTy).Contents (Elt F) → (⟨S409600, .i32⟩ : BufTy).Contents (Elt F)),
    ternary main_v225 main_v227 main_v213 main_v228 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)) ]
abbrev ops_p5_1_W : List (Ref sig .tc) := [main_v223, main_c_83, main_v224, main_v225, main_c_84, main_v226, main_v227, main_v228]
theorem ops_p5_1_writes : (ops_p5_1 : List (HloOp τ sig (Elt F))).Forall fun op => op.writes ⊆ (ops_p5_1_W.map (Proc.devRef (τ := τ) .tc)).toFinset := by
  simp only [ops_p5_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p5_1_keep (V : Valuation τ sig (Elt F)) (r : Ref sig .tc) (h : r ∉ ops_p5_1_W) :
    after ops_p5_1 V (Proc.devRef .tc r) = V (Proc.devRef .tc r) :=
  after_of_writes_sub ops_p5_1 _ ops_p5_1_writes h

set_option maxRecDepth 8192 in
set_option maxHeartbeats 1000000 in
theorem w5_1_main_v223 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_1 V x0 x1 x2 x3 x4 x5 x6) :
    after ops_p5_1 V (Proc.devRef .tc main_v223) = val_main_v223 (F := F) x1 := by
  simp only [ops_p5_1]
  after_results_w
  simp only [h.main_v212, h.main_v222, h.main_v220]
  rfl

set_option maxRecDepth 8192 in
set_option maxHeartbeats 1000000 in
theorem w5_1_main_v228 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_1 V x0 x1 x2 x3 x4 x5 x6) :
    after ops_p5_1 V (Proc.devRef .tc main_v228) = val_main_v228 (F := F) x1 := by
  simp only [ops_p5_1]
  after_results_w
  simp only [h.main_v213]
  rfl

theorem step5_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_1 V x0 x1 x2 x3 x4 x5 x6) : Inv5_2 (after ops_p5_1 V) x0 x1 x2 x3 x4 x5 x6 where
  main_arg0 := (ops_p5_1_keep V main_arg0 (by decide)).trans h.main_arg0
  main_arg1 := (ops_p5_1_keep V main_arg1 (by decide)).trans h.main_arg1
  main_arg2 := (ops_p5_1_keep V main_arg2 (by decide)).trans h.main_arg2
  main_arg3 := (ops_p5_1_keep V main_arg3 (by decide)).trans h.main_arg3
  main_arg4 := (ops_p5_1_keep V main_arg4 (by decide)).trans h.main_arg4
  main_arg5 := (ops_p5_1_keep V main_arg5 (by decide)).trans h.main_arg5
  main_arg6 := (ops_p5_1_keep V main_arg6 (by decide)).trans h.main_arg6
  main_v27 := (ops_p5_1_keep V main_v27 (by decide)).trans h.main_v27
  main_v29 := (ops_p5_1_keep V main_v29 (by decide)).trans h.main_v29
  main_v31 := (ops_p5_1_keep V main_v31 (by decide)).trans h.main_v31
  main_v33 := (ops_p5_1_keep V main_v33 (by decide)).trans h.main_v33
  main_v196 := (ops_p5_1_keep V main_v196 (by decide)).trans h.main_v196
  main_v211 := (ops_p5_1_keep V main_v211 (by decide)).trans h.main_v211
  main_v218 := (ops_p5_1_keep V main_v218 (by decide)).trans h.main_v218
  main_v223 := w5_1_main_v223 V x0 x1 x2 x3 x4 x5 x6 h
  main_v228 := w5_1_main_v228 V x0 x1 x2 x3 x4 x5 x6 h

/-- Stretch 2 of window 5: @main's operations 372 … 379. -/
def ops_p5_2 : List (HloOp τ sig (Elt F)) :=
  [ unary main_v218 main_v229 (broadcastInDim S409600x1 ![0] bcast_S409600_S409600x1_0 : (⟨S409600, .i32⟩ : BufTy).Contents (Elt F) → (⟨S409600x1, .i32⟩ : BufTy).Contents (Elt F)),
    unary main_v223 main_v230 (broadcastInDim S409600x1 ![0] bcast_S409600_S409600x1_0 : (⟨S409600, .i32⟩ : BufTy).Contents (Elt F) → (⟨S409600x1, .i32⟩ : BufTy).Contents (Elt F)),
    unary main_v228 main_v231 (broadcastInDim S409600x1 ![0] bcast_S409600_S409600x1_0 : (⟨S409600, .i32⟩ : BufTy).Contents (Elt F) → (⟨S409600x1, .i32⟩ : BufTy).Contents (Elt F)),
    nary ![main_v229, main_v230, main_v231] main_v232 (fun u => concatenate S409600x3 1 [⟨S409600x1, u 0⟩, ⟨S409600x1, u 1⟩, ⟨S409600x1, u 2⟩] concatenates_S409600x1_S409600x1_S409600x1_S409600x3_d1),
    binary main_v27 main_v232 main_v233 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_85 (constantI S_ 32 0#32),
    unary main_c_85 main_v234 (broadcastInDim S409600 ![] bcast_S_S409600 : (⟨S_, .i32⟩ : BufTy).Contents (Elt F) → (⟨S409600, .i32⟩ : BufTy).Contents (Elt F)),
    binary main_v233 main_v234 main_v235 (cmpi .sge : (⟨S409600, .i32⟩ : BufTy).Contents (Elt F) → (⟨S409600, .i32⟩ : BufTy).Contents (Elt F) → (⟨S409600, .i1⟩ : BufTy).Contents (Elt F)) ]
abbrev ops_p5_2_W : List (Ref sig .tc) := [main_v229, main_v230, main_v231, main_v232, main_v233, main_c_85, main_v234, main_v235]
theorem ops_p5_2_writes : (ops_p5_2 : List (HloOp τ sig (Elt F))).Forall fun op => op.writes ⊆ (ops_p5_2_W.map (Proc.devRef (τ := τ) .tc)).toFinset := by
  simp only [ops_p5_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p5_2_keep (V : Valuation τ sig (Elt F)) (r : Ref sig .tc) (h : r ∉ ops_p5_2_W) :
    after ops_p5_2 V (Proc.devRef .tc r) = V (Proc.devRef .tc r) :=
  after_of_writes_sub ops_p5_2 _ ops_p5_2_writes h

set_option maxRecDepth 8192 in
set_option maxHeartbeats 1000000 in
theorem w5_2_main_v233 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_2 V x0 x1 x2 x3 x4 x5 x6) :
    after ops_p5_2 V (Proc.devRef .tc main_v233) = val_main_v233 (F := F) x1 := by
  simp only [ops_p5_2]
  after_results_w
  simp only [h.main_v228, h.main_v223, h.main_v218, h.main_v27]
  rfl

set_option maxRecDepth 8192 in
set_option maxHeartbeats 1000000 in
theorem w5_2_main_v235 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_2 V x0 x1 x2 x3 x4 x5 x6) :
    after ops_p5_2 V (Proc.devRef .tc main_v235) = val_main_v235 (F := F) x1 := by
  simp only [ops_p5_2]
  after_results_w
  simp only [h.main_v228, h.main_v223, h.main_v218, h.main_v27]
  rfl

theorem step5_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_2 V x0 x1 x2 x3 x4 x5 x6) : Inv5_3 (after ops_p5_2 V) x0 x1 x2 x3 x4 x5 x6 where
  main_arg0 := (ops_p5_2_keep V main_arg0 (by decide)).trans h.main_arg0
  main_arg1 := (ops_p5_2_keep V main_arg1 (by decide)).trans h.main_arg1
  main_arg2 := (ops_p5_2_keep V main_arg2 (by decide)).trans h.main_arg2
  main_arg3 := (ops_p5_2_keep V main_arg3 (by decide)).trans h.main_arg3
  main_arg4 := (ops_p5_2_keep V main_arg4 (by decide)).trans h.main_arg4
  main_arg5 := (ops_p5_2_keep V main_arg5 (by decide)).trans h.main_arg5
  main_arg6 := (ops_p5_2_keep V main_arg6 (by decide)).trans h.main_arg6
  main_v27 := (ops_p5_2_keep V main_v27 (by decide)).trans h.main_v27
  main_v29 := (ops_p5_2_keep V main_v29 (by decide)).trans h.main_v29
  main_v31 := (ops_p5_2_keep V main_v31 (by decide)).trans h.main_v31
  main_v33 := (ops_p5_2_keep V main_v33 (by decide)).trans h.main_v33
  main_v196 := (ops_p5_2_keep V main_v196 (by decide)).trans h.main_v196
  main_v211 := (ops_p5_2_keep V main_v211 (by decide)).trans h.main_v211
  main_v233 := w5_2_main_v233 V x0 x1 x2 x3 x4 x5 x6 h
  main_v235 := w5_2_main_v235 V x0 x1 x2 x3 x4 x5 x6 h

/-- Stretch 3 of window 5: @main's operations 380 … 387. -/
def ops_p5_3 : List (HloOp τ sig (Elt F)) :=
  [ binary main_v211 main_v235 main_v236 (andi : (⟨S409600, .i1⟩ : BufTy).Contents (Elt F) → (⟨S409600, .i1⟩ : BufTy).Contents (Elt F) → (⟨S409600, .i1⟩ : BufTy).Contents (Elt F)),
    nullary main_c_86 (constantI S_ 32 0#32),
    unary main_c_86 main_call14_v0 (id : (⟨S_, .i32⟩ : BufTy).Contents (Elt F) → (⟨S_, .i32⟩ : BufTy).Contents (Elt F)),
    unary main_call14_v0 main_call14_v1 ((broadcastInDim S409600 ![] bcast_S_S409600) : (⟨S_, .i32⟩ : BufTy).Contents (Elt F) → (⟨S409600, .i32⟩ : BufTy).Contents (Elt F)),
    ternary main_v236 main_v233 main_call14_v1 main_v237 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_87 (constantI S_ 32 0#32),
    unary main_c_87 main_v238 (broadcastInDim S409600 ![] bcast_S_S409600 : (⟨S_, .i32⟩ : BufTy).Contents (Elt F) → (⟨S409600, .i32⟩ : BufTy).Contents (Elt F)),
    binary main_v237 main_v238 main_v239 (cmpi .slt : (⟨S409600, .i32⟩ : BufTy).Contents (Elt F) → (⟨S409600, .i32⟩ : BufTy).Contents (Elt F) → (⟨S409600, .i1⟩ : BufTy).Contents (Elt F)) ]
abbrev ops_p5_3_W : List (Ref sig .tc) := [main_v236, main_c_86, main_call14_v0, main_call14_v1, main_v237, main_c_87, main_v238, main_v239]
theorem ops_p5_3_writes : (ops_p5_3 : List (HloOp τ sig (Elt F))).Forall fun op => op.writes ⊆ (ops_p5_3_W.map (Proc.devRef (τ := τ) .tc)).toFinset := by
  simp only [ops_p5_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p5_3_keep (V : Valuation τ sig (Elt F)) (r : Ref sig .tc) (h : r ∉ ops_p5_3_W) :
    after ops_p5_3 V (Proc.devRef .tc r) = V (Proc.devRef .tc r) :=
  after_of_writes_sub ops_p5_3 _ ops_p5_3_writes h

set_option maxRecDepth 8192 in
set_option maxHeartbeats 1000000 in
theorem w5_3_main_v236 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_3 V x0 x1 x2 x3 x4 x5 x6) :
    after ops_p5_3 V (Proc.devRef .tc main_v236) = val_main_v236 (F := F) x1 := by
  simp only [ops_p5_3]
  after_results_w
  simp only [h.main_v235, h.main_v211]
  rfl

set_option maxRecDepth 8192 in
set_option maxHeartbeats 1000000 in
theorem w5_3_main_v237 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_3 V x0 x1 x2 x3 x4 x5 x6) :
    after ops_p5_3 V (Proc.devRef .tc main_v237) = val_main_v237 (F := F) x1 := by
  simp only [ops_p5_3]
  after_results_w
  simp only [h.main_v233, h.main_v235, h.main_v211]
  rfl

set_option maxRecDepth 8192 in
set_option maxHeartbeats 1000000 in
theorem w5_3_main_v239 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_3 V x0 x1 x2 x3 x4 x5 x6) :
    after ops_p5_3 V (Proc.devRef .tc main_v239) = val_main_v239 (F := F) x1 := by
  simp only [ops_p5_3]
  after_results_w
  simp only [h.main_v233, h.main_v235, h.main_v211]
  rfl

theorem step5_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_3 V x0 x1 x2 x3 x4 x5 x6) : Inv5_4 (after ops_p5_3 V) x0 x1 x2 x3 x4 x5 x6 where
  main_arg0 := (ops_p5_3_keep V main_arg0 (by decide)).trans h.main_arg0
  main_arg1 := (ops_p5_3_keep V main_arg1 (by decide)).trans h.main_arg1
  main_arg2 := (ops_p5_3_keep V main_arg2 (by decide)).trans h.main_arg2
  main_arg3 := (ops_p5_3_keep V main_arg3 (by decide)).trans h.main_arg3
  main_arg4 := (ops_p5_3_keep V main_arg4 (by decide)).trans h.main_arg4
  main_arg5 := (ops_p5_3_keep V main_arg5 (by decide)).trans h.main_arg5
  main_arg6 := (ops_p5_3_keep V main_arg6 (by decide)).trans h.main_arg6
  main_v27 := (ops_p5_3_keep V main_v27 (by decide)).trans h.main_v27
  main_v29 := (ops_p5_3_keep V main_v29 (by decide)).trans h.main_v29
  main_v31 := (ops_p5_3_keep V main_v31 (by decide)).trans h.main_v31
  main_v33 := (ops_p5_3_keep V main_v33 (by decide)).trans h.main_v33
  main_v196 := (ops_p5_3_keep V main_v196 (by decide)).trans h.main_v196
  main_v236 := w5_3_main_v236 V x0 x1 x2 x3 x4 x5 x6 h
  main_v237 := w5_3_main_v237 V x0 x1 x2 x3 x4 x5 x6 h
  main_v239 := w5_3_main_v239 V x0 x1 x2 x3 x4 x5 x6 h

/-- Stretch 4 of window 5: @main's operations 388 … 395. -/
def ops_p5_4 : List (HloOp τ sig (Elt F)) :=
  [ nullary main_c_88 (constantI S_ 32 409600#32),
    unary main_c_88 main_v240 (broadcastInDim S409600 ![] bcast_S_S409600 : (⟨S_, .i32⟩ : BufTy).Contents (Elt F) → (⟨S409600, .i32⟩ : BufTy).Contents (Elt F)),
    binary main_v237 main_v240 main_v241 (addi : (⟨S409600, .i32⟩ : BufTy).Contents (Elt F) → (⟨S409600, .i32⟩ : BufTy).Contents (Elt F) → (⟨S409600, .i32⟩ : BufTy).Contents (Elt F)),
    ternary main_v239 main_v241 main_v237 main_v242 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v242 main_v243 (broadcastInDim S409600x1 ![0] bcast_S409600_S409600x1_0 : (⟨S409600, .i32⟩ : BufTy).Contents (Elt F) → (⟨S409600x1, .i32⟩ : BufTy).Contents (Elt F)),
    binary main_arg0 main_v243 main_v244 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v236 main_v245 (broadcastInDim S409600x1 ![0] bcast_S409600_S409600x1_0 : (⟨S409600, .i1⟩ : BufTy).Contents (Elt F) → (⟨S409600x1, .i1⟩ : BufTy).Contents (Elt F)),
    nullary main_cst_89 (constant S_ .f32 0x00000000#32) ]
abbrev ops_p5_4_W : List (Ref sig .tc) := [main_c_88, main_v240, main_v241, main_v242, main_v243, main_v244, main_v245, main_cst_89]
theorem ops_p5_4_writes : (ops_p5_4 : List (HloOp τ sig (Elt F))).Forall fun op => op.writes ⊆ (ops_p5_4_W.map (Proc.devRef (τ := τ) .tc)).toFinset := by
  simp only [ops_p5_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p5_4_keep (V : Valuation τ sig (Elt F)) (r : Ref sig .tc) (h : r ∉ ops_p5_4_W) :
    after ops_p5_4 V (Proc.devRef .tc r) = V (Proc.devRef .tc r) :=
  after_of_writes_sub ops_p5_4 _ ops_p5_4_writes h

set_option maxRecDepth 8192 in
set_option maxHeartbeats 1000000 in
theorem w5_4_main_v244 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_4 V x0 x1 x2 x3 x4 x5 x6) :
    after ops_p5_4 V (Proc.devRef .tc main_v244) = val_main_v244 (F := F) x0 x1 := by
  simp only [ops_p5_4]
  after_results_w
  simp only [h.main_v237, h.main_v239, h.main_arg0]
  rfl

set_option maxRecDepth 8192 in
set_option maxHeartbeats 1000000 in
theorem w5_4_main_v245 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_4 V x0 x1 x2 x3 x4 x5 x6) :
    after ops_p5_4 V (Proc.devRef .tc main_v245) = val_main_v245 (F := F) x1 := by
  simp only [ops_p5_4]
  after_results_w
  simp only [h.main_v236]
  rfl

set_option maxRecDepth 8192 in
set_option maxHeartbeats 1000000 in
theorem w5_4_main_cst_89 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_4 V x0 x1 x2 x3 x4 x5 x6) :
    after ops_p5_4 V (Proc.devRef .tc main_cst_89) = val_main_cst_89 (F := F) := by
  simp only [ops_p5_4]
  after_results_w
  rfl

theorem step5_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_4 V x0 x1 x2 x3 x4 x5 x6) : Inv5_5 (after ops_p5_4 V) x0 x1 x2 x3 x4 x5 x6 where
  main_arg0 := (ops_p5_4_keep V main_arg0 (by decide)).trans h.main_arg0
  main_arg1 := (ops_p5_4_keep V main_arg1 (by decide)).trans h.main_arg1
  main_arg2 := (ops_p5_4_keep V main_arg2 (by decide)).trans h.main_arg2
  main_arg3 := (ops_p5_4_keep V main_arg3 (by decide)).trans h.main_arg3
  main_arg4 := (ops_p5_4_keep V main_arg4 (by decide)).trans h.main_arg4
  main_arg5 := (ops_p5_4_keep V main_arg5 (by decide)).trans h.main_arg5
  main_arg6 := (ops_p5_4_keep V main_arg6 (by decide)).trans h.main_arg6
  main_v27 := (ops_p5_4_keep V main_v27 (by decide)).trans h.main_v27
  main_v29 := (ops_p5_4_keep V main_v29 (by decide)).trans h.main_v29
  main_v31 := (ops_p5_4_keep V main_v31 (by decide)).trans h.main_v31
  main_v33 := (ops_p5_4_keep V main_v33 (by decide)).trans h.main_v33
  main_v196 := (ops_p5_4_keep V main_v196 (by decide)).trans h.main_v196
  main_v244 := w5_4_main_v244 V x0 x1 x2 x3 x4 x5 x6 h
  main_v245 := w5_4_main_v245 V x0 x1 x2 x3 x4 x5 x6 h
  main_cst_89 := w5_4_main_cst_89 V x0 x1 x2 x3 x4 x5 x6 h

/-- Stretch 5 of window 5: @main's operations 396 … 403. -/
def ops_p5_5 : List (HloOp τ sig (Elt F)) :=
  [ unary main_cst_89 main_call15_v0 (id : (⟨S_, .f32⟩ : BufTy).Contents (Elt F) → (⟨S_, .f32⟩ : BufTy).Contents (Elt F)),
    unary main_v245 main_call15_v1 ((broadcastInDim S409600x64 ![0, 1] bcast_S409600x1_S409600x64_0_1) : (⟨S409600x1, .i1⟩ : BufTy).Contents (Elt F) → (⟨S409600x64, .i1⟩ : BufTy).Contents (Elt F)),
    unary main_call15_v0 main_call15_v2 ((broadcastInDim S409600x64 ![] bcast_S_S409600x64) : (⟨S_, .f32⟩ : BufTy).Contents (Elt F) → (⟨S409600x64, .f32⟩ : BufTy).Contents (Elt F)),
    ternary main_call15_v1 main_v244 main_call15_v2 main_v246 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v247 ((extractStridedSlice S1x1x64x64 ![1, 0, 0, 0] · slices_S3x3x64x64_S1x1x64x64_1_0_0_0) : (⟨S3x3x64x64, .f32⟩ : BufTy).Contents (Elt F) → (⟨S1x1x64x64, .f32⟩ : BufTy).Contents (Elt F)),
    reshape main_v247 main_v248 rfl shapeCasts_S1x1x64x64_S64x64,
    binary main_v246 main_v248 main_v249 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v196 main_v249 main_v250 (addf : (⟨S409600x64, .f32⟩ : BufTy).Contents (Elt F) → (⟨S409600x64, .f32⟩ : BufTy).Contents (Elt F) → (⟨S409600x64, .f32⟩ : BufTy).Contents (Elt F)) ]
abbrev ops_p5_5_W : List (Ref sig .tc) := [main_call15_v0, main_call15_v1, main_call15_v2, main_v246, main_v247, main_v248, main_v249, main_v250]
theorem ops_p5_5_writes : (ops_p5_5 : List (HloOp τ sig (Elt F))).Forall fun op => op.writes ⊆ (ops_p5_5_W.map (Proc.devRef (τ := τ) .tc)).toFinset := by
  simp only [ops_p5_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p5_5_keep (V : Valuation τ sig (Elt F)) (r : Ref sig .tc) (h : r ∉ ops_p5_5_W) :
    after ops_p5_5 V (Proc.devRef .tc r) = V (Proc.devRef .tc r) :=
  after_of_writes_sub ops_p5_5 _ ops_p5_5_writes h

set_option maxRecDepth 8192 in
set_option maxHeartbeats 1000000 in
theorem w5_5_main_v250 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_5 V x0 x1 x2 x3 x4 x5 x6) :
    after ops_p5_5 V (Proc.devRef .tc main_v250) = val_main_v250 (F := F) x0 x1 x2 := by
  simp only [ops_p5_5]
  after_results_w
  simp only [h.main_arg2, h.main_cst_89, h.main_v244, h.main_v245, h.main_v196]
  rfl

theorem step5_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_5 V x0 x1 x2 x3 x4 x5 x6) : Inv5_6 (after ops_p5_5 V) x0 x1 x2 x3 x4 x5 x6 where
  main_arg0 := (ops_p5_5_keep V main_arg0 (by decide)).trans h.main_arg0
  main_arg1 := (ops_p5_5_keep V main_arg1 (by decide)).trans h.main_arg1
  main_arg2 := (ops_p5_5_keep V main_arg2 (by decide)).trans h.main_arg2
  main_arg3 := (ops_p5_5_keep V main_arg3 (by decide)).trans h.main_arg3
  main_arg4 := (ops_p5_5_keep V main_arg4 (by decide)).trans h.main_arg4
  main_arg5 := (ops_p5_5_keep V main_arg5 (by decide)).trans h.main_arg5
  main_arg6 := (ops_p5_5_keep V main_arg6 (by decide)).trans h.main_arg6
  main_v27 := (ops_p5_5_keep V main_v27 (by decide)).trans h.main_v27
  main_v29 := (ops_p5_5_keep V main_v29 (by decide)).trans h.main_v29
  main_v31 := (ops_p5_5_keep V main_v31 (by decide)).trans h.main_v31
  main_v33 := (ops_p5_5_keep V main_v33 (by decide)).trans h.main_v33
  main_v250 := w5_5_main_v250 V x0 x1 x2 x3 x4 x5 x6 h

/-- Stretch 6 of window 5: @main's operations 404 … 411. -/
def ops_p5_6 : List (HloOp τ sig (Elt F)) :=
  [ nullary main_c_90 (constantI S_ 32 0#32),
    unary main_c_90 main_v251 (broadcastInDim S409600 ![] bcast_S_S409600 : (⟨S_, .i32⟩ : BufTy).Contents (Elt F) → (⟨S409600, .i32⟩ : BufTy).Contents (Elt F)),
    binary main_v31 main_v251 main_v252 (addi : (⟨S409600, .i32⟩ : BufTy).Contents (Elt F) → (⟨S409600, .i32⟩ : BufTy).Contents (Elt F) → (⟨S409600, .i32⟩ : BufTy).Contents (Elt F)),
    nullary main_c_91 (constantI S_ 32 0#32),
    unary main_c_91 main_v253 (broadcastInDim S409600 ![] bcast_S_S409600 : (⟨S_, .i32⟩ : BufTy).Contents (Elt F) → (⟨S409600, .i32⟩ : BufTy).Contents (Elt F)),
    binary main_v33 main_v253 main_v254 (addi : (⟨S409600, .i32⟩ : BufTy).Contents (Elt F) → (⟨S409600, .i32⟩ : BufTy).Contents (Elt F) → (⟨S409600, .i32⟩ : BufTy).Contents (Elt F)),
    nullary main_c_92 (constantI S_ 32 0#32),
    unary main_c_92 main_v255 (broadcastInDim S409600 ![] bcast_S_S409600 : (⟨S_, .i32⟩ : BufTy).Contents (Elt F) → (⟨S409600, .i32⟩ : BufTy).Contents (Elt F)) ]
abbrev ops_p5_6_W : List (Ref sig .tc) := [main_c_90, main_v251, main_v252, main_c_91, main_v253, main_v254, main_c_92, main_v255]
theorem ops_p5_6_writes : (ops_p5_6 : List (HloOp τ sig (Elt F))).Forall fun op => op.writes ⊆ (ops_p5_6_W.map (Proc.devRef (τ := τ) .tc)).toFinset := by
  simp only [ops_p5_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p5_6_keep (V : Valuation τ sig (Elt F)) (r : Ref sig .tc) (h : r ∉ ops_p5_6_W) :
    after ops_p5_6 V (Proc.devRef .tc r) = V (Proc.devRef .tc r) :=
  after_of_writes_sub ops_p5_6 _ ops_p5_6_writes h

set_option maxRecDepth 8192 in
set_option maxHeartbeats 1000000 in
theorem w5_6_main_v252 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_6 V x0 x1 x2 x3 x4 x5 x6) :
    after ops_p5_6 V (Proc.devRef .tc main_v252) = val_main_v252 (F := F) x1 := by
  simp only [ops_p5_6]
  after_results_w
  simp only [h.main_v31]
  rfl

set_option maxRecDepth 8192 in
set_option maxHeartbeats 1000000 in
theorem w5_6_main_v254 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_6 V x0 x1 x2 x3 x4 x5 x6) :
    after ops_p5_6 V (Proc.devRef .tc main_v254) = val_main_v254 (F := F) x1 := by
  simp only [ops_p5_6]
  after_results_w
  simp only [h.main_v33]
  rfl

set_option maxRecDepth 8192 in
set_option maxHeartbeats 1000000 in
theorem w5_6_main_v255 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_6 V x0 x1 x2 x3 x4 x5 x6) :
    after ops_p5_6 V (Proc.devRef .tc main_v255) = val_main_v255 (F := F) := by
  simp only [ops_p5_6]
  after_results_w
  rfl

theorem step5_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_6 V x0 x1 x2 x3 x4 x5 x6) : Inv5_7 (after ops_p5_6 V) x0 x1 x2 x3 x4 x5 x6 where
  main_arg0 := (ops_p5_6_keep V main_arg0 (by decide)).trans h.main_arg0
  main_arg1 := (ops_p5_6_keep V main_arg1 (by decide)).trans h.main_arg1
  main_arg2 := (ops_p5_6_keep V main_arg2 (by decide)).trans h.main_arg2
  main_arg3 := (ops_p5_6_keep V main_arg3 (by decide)).trans h.main_arg3
  main_arg4 := (ops_p5_6_keep V main_arg4 (by decide)).trans h.main_arg4
  main_arg5 := (ops_p5_6_keep V main_arg5 (by decide)).trans h.main_arg5
  main_arg6 := (ops_p5_6_keep V main_arg6 (by decide)).trans h.main_arg6
  main_v27 := (ops_p5_6_keep V main_v27 (by decide)).trans h.main_v27
  main_v29 := (ops_p5_6_keep V main_v29 (by decide)).trans h.main_v29
  main_v31 := (ops_p5_6_keep V main_v31 (by decide)).trans h.main_v31
  main_v33 := (ops_p5_6_keep V main_v33 (by decide)).trans h.main_v33
  main_v250 := (ops_p5_6_keep V main_v250 (by decide)).trans h.main_v250
  main_v252 := w5_6_main_v252 V x0 x1 x2 x3 x4 x5 x6 h
  main_v254 := w5_6_main_v254 V x0 x1 x2 x3 x4 x5 x6 h
  main_v255 := w5_6_main_v255 V x0 x1 x2 x3 x4 x5 x6 h

/-- Stretch 7 of window 5: @main's operations 412 … 420. -/
def ops_p5_7 : List (HloOp τ sig (Elt F)) :=
  [ binary main_v252 main_v255 main_v256 (cmpi .sge : (⟨S409600, .i32⟩ : BufTy).Contents (Elt F) → (⟨S409600, .i32⟩ : BufTy).Contents (Elt F) → (⟨S409600, .i1⟩ : BufTy).Contents (Elt F)),
    nullary main_c_93 (constantI S_ 32 640#32),
    unary main_c_93 main_v257 (broadcastInDim S409600 ![] bcast_S_S409600 : (⟨S_, .i32⟩ : BufTy).Contents (Elt F) → (⟨S409600, .i32⟩ : BufTy).Contents (Elt F)),
    binary main_v252 main_v257 main_v258 (cmpi .slt : (⟨S409600, .i32⟩ : BufTy).Contents (Elt F) → (⟨S409600, .i32⟩ : BufTy).Contents (Elt F) → (⟨S409600, .i1⟩ : BufTy).Contents (Elt F)),
    binary main_v256 main_v258 main_v259 (andi : (⟨S409600, .i1⟩ : BufTy).Contents (Elt F) → (⟨S409600, .i1⟩ : BufTy).Contents (Elt F) → (⟨S409600, .i1⟩ : BufTy).Contents (Elt F)),
    nullary main_c_94 (constantI S_ 32 0#32),
    unary main_c_94 main_v260 (broadcastInDim S409600 ![] bcast_S_S409600 : (⟨S_, .i32⟩ : BufTy).Contents (Elt F) → (⟨S409600, .i32⟩ : BufTy).Contents (Elt F)),
    binary main_v254 main_v260 main_v261 (cmpi .sge : (⟨S409600, .i32⟩ : BufTy).Contents (Elt F) → (⟨S409600, .i32⟩ : BufTy).Contents (Elt F) → (⟨S409600, .i1⟩ : BufTy).Contents (Elt F)),
    binary main_v259 main_v261 main_v262 (andi : (⟨S409600, .i1⟩ : BufTy).Contents (Elt F) → (⟨S409600, .i1⟩ : BufTy).Contents (Elt F) → (⟨S409600, .i1⟩ : BufTy).Contents (Elt F)) ]
abbrev ops_p5_7_W : List (Ref sig .tc) := [main_v256, main_c_93, main_v257, main_v258, main_v259, main_c_94, main_v260, main_v261, main_v262]
theorem ops_p5_7_writes : (ops_p5_7 : List (HloOp τ sig (Elt F))).Forall fun op => op.writes ⊆ (ops_p5_7_W.map (Proc.devRef (τ := τ) .tc)).toFinset := by
  simp only [ops_p5_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p5_7_keep (V : Valuation τ sig (Elt F)) (r : Ref sig .tc) (h : r ∉ ops_p5_7_W) :
    after ops_p5_7 V (Proc.devRef .tc r) = V (Proc.devRef .tc r) :=
  after_of_writes_sub ops_p5_7 _ ops_p5_7_writes h

set_option maxRecDepth 8192 in
set_option maxHeartbeats 1000000 in
theorem w5_7_main_v262 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_7 V x0 x1 x2 x3 x4 x5 x6) :
    after ops_p5_7 V (Proc.devRef .tc main_v262) = val_main_v262 (F := F) x1 := by
  simp only [ops_p5_7]
  after_results_w
  simp only [h.main_v254, h.main_v252, h.main_v255]
  rfl

theorem step5_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5_7 V x0 x1 x2 x3 x4 x5 x6) : Inv6 (after ops_p5_7 V) x0 x1 x2 x3 x4 x5 x6 where
  main_arg0 := (ops_p5_7_keep V main_arg0 (by decide)).trans h.main_arg0
  main_arg1 := (ops_p5_7_keep V main_arg1 (by decide)).trans h.main_arg1
  main_arg2 := (ops_p5_7_keep V main_arg2 (by decide)).trans h.main_arg2
  main_arg3 := (ops_p5_7_keep V main_arg3 (by decide)).trans h.main_arg3
  main_arg4 := (ops_p5_7_keep V main_arg4 (by decide)).trans h.main_arg4
  main_arg5 := (ops_p5_7_keep V main_arg5 (by decide)).trans h.main_arg5
  main_arg6 := (ops_p5_7_keep V main_arg6 (by decide)).trans h.main_arg6
  main_v27 := (ops_p5_7_keep V main_v27 (by decide)).trans h.main_v27
  main_v29 := (ops_p5_7_keep V main_v29 (by decide)).trans h.main_v29
  main_v31 := (ops_p5_7_keep V main_v31 (by decide)).trans h.main_v31
  main_v33 := (ops_p5_7_keep V main_v33 (by decide)).trans h.main_v33
  main_v250 := (ops_p5_7_keep V main_v250 (by decide)).trans h.main_v250
  main_v252 := (ops_p5_7_keep V main_v252 (by decide)).trans h.main_v252
  main_v254 := (ops_p5_7_keep V main_v254 (by decide)).trans h.main_v254
  main_v262 := w5_7_main_v262 V x0 x1 x2 x3 x4 x5 x6 h

set_option maxRecDepth 8192 in
theorem ops_p5_split : (ops_p5 : List (HloOp τ sig (Elt F))) = ops_p5_0 ++ (ops_p5_1 ++ (ops_p5_2 ++ (ops_p5_3 ++ (ops_p5_4 ++ (ops_p5_5 ++ (ops_p5_6 ++ (ops_p5_7))))))) := rfl

/-- Window 5 carries the staged reading from boundary 5 to boundary 6. -/
theorem step5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv5 V x0 x1 x2 x3 x4 x5 x6) : Inv6 (after ops_p5 V) x0 x1 x2 x3 x4 x5 x6 := by
  rw [ops_p5_split]; simp only [after_app]
  exact step5_7 _ x0 x1 x2 x3 x4 x5 x6 (step5_6 _ x0 x1 x2 x3 x4 x5 x6 (step5_5 _ x0 x1 x2 x3 x4 x5 x6 (step5_4 _ x0 x1 x2 x3 x4 x5 x6 (step5_3 _ x0 x1 x2 x3 x4 x5 x6 (step5_2 _ x0 x1 x2 x3 x4 x5 x6 (step5_1 _ x0 x1 x2 x3 x4 x5 x6 (step5_0 V x0 x1 x2 x3 x4 x5 x6 h)))))))

end Cert.ReferenceIdeal.Hand

end
-- ==== Proof.Ref.W6.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 6 of @main: its operations 421 … 495 of 1688, in order. -/
def ops_p6 : List (HloOp τ sig (Elt F)) :=
  [ nullary main_c_95 (constantI S_ 32 640#32),
    unary main_c_95 main_v263 (broadcastInDim S409600 ![] bcast_S_S409600 : (⟨S_, .i32⟩ : BufTy).Contents (Elt F) → (⟨S409600, .i32⟩ : BufTy).Contents (Elt F)),
    binary main_v254 main_v263 main_v264 (cmpi .slt : (⟨S409600, .i32⟩ : BufTy).Contents (Elt F) → (⟨S409600, .i32⟩ : BufTy).Contents (Elt F) → (⟨S409600, .i1⟩ : BufTy).Contents (Elt F)),
    binary main_v262 main_v264 main_v265 (andi : (⟨S409600, .i1⟩ : BufTy).Contents (Elt F) → (⟨S409600, .i1⟩ : BufTy).Contents (Elt F) → (⟨S409600, .i1⟩ : BufTy).Contents (Elt F)),
    nullary main_c_96 (constantI S_ 32 0#32),
    nullary main_c_97 (constantI S_ 32 639#32),
    unary main_c_96 main_call16_v0 (id : (⟨S_, .i32⟩ : BufTy).Contents (Elt F) → (⟨S_, .i32⟩ : BufTy).Contents (Elt F)),
    unary main_call16_v0 main_call16_v1 ((broadcastInDim S409600 ![] bcast_S_S409600) : (⟨S_, .i32⟩ : BufTy).Contents (Elt F) → (⟨S409600, .i32⟩ : BufTy).Contents (Elt F)),
    binary main_call16_v1 main_v252 main_call16_v2 (maxsi : (⟨S409600, .i32⟩ : BufTy).Contents (Elt F) → (⟨S409600, .i32⟩ : BufTy).Contents (Elt F) → (⟨S409600, .i32⟩ : BufTy).Contents (Elt F)),
    unary main_c_97 main_call16_v3 (id : (⟨S_, .i32⟩ : BufTy).Contents (Elt F) → (⟨S_, .i32⟩ : BufTy).Contents (Elt F)),
    unary main_call16_v3 main_call16_v4 ((broadcastInDim S409600 ![] bcast_S_S409600) : (⟨S_, .i32⟩ : BufTy).Contents (Elt F) → (⟨S409600, .i32⟩ : BufTy).Contents (Elt F)),
    binary main_call16_v4 main_call16_v2 main_v266 (minsi : (⟨S409600, .i32⟩ : BufTy).Contents (Elt F) → (⟨S409600, .i32⟩ : BufTy).Contents (Elt F) → (⟨S409600, .i32⟩ : BufTy).Contents (Elt F)),
    nullary main_c_98 (constantI S_ 32 0#32),
    nullary main_c_99 (constantI S_ 32 639#32),
    unary main_c_98 main_call17_v0 (id : (⟨S_, .i32⟩ : BufTy).Contents (Elt F) → (⟨S_, .i32⟩ : BufTy).Contents (Elt F)),
    unary main_call17_v0 main_call17_v1 ((broadcastInDim S409600 ![] bcast_S_S409600) : (⟨S_, .i32⟩ : BufTy).Contents (Elt F) → (⟨S409600, .i32⟩ : BufTy).Contents (Elt F)),
    binary main_call17_v1 main_v254 main_call17_v2 (maxsi : (⟨S409600, .i32⟩ : BufTy).Contents (Elt F) → (⟨S409600, .i32⟩ : BufTy).Contents (Elt F) → (⟨S409600, .i32⟩ : BufTy).Contents (Elt F)),
    unary main_c_99 main_call17_v3 (id : (⟨S_, .i32⟩ : BufTy).Contents (Elt F) → (⟨S_, .i32⟩ : BufTy).Contents (Elt F)),
    unary main_call17_v3 main_call17_v4 ((broadcastInDim S409600 ![] bcast_S_S409600) : (⟨S_, .i32⟩ : BufTy).Contents (Elt F) → (⟨S409600, .i32⟩ : BufTy).Contents (Elt F)),
    binary main_call17_v4 main_call17_v2 main_v267 (minsi : (⟨S409600, .i32⟩ : BufTy).Contents (Elt F) → (⟨S409600, .i32⟩ : BufTy).Contents (Elt F) → (⟨S409600, .i32⟩ : BufTy).Contents (Elt F)),
    nullary main_c_100 (constantI S_ 32 0#32),
    unary main_c_100 main_v268 (broadcastInDim S409600 ![] bcast_S_S409600 : (⟨S_, .i32⟩ : BufTy).Contents (Elt F) → (⟨S409600, .i32⟩ : BufTy).Contents (Elt F)),
    binary main_v29 main_v268 main_v269 (cmpi .slt : (⟨S409600, .i32⟩ : BufTy).Contents (Elt F) → (⟨S409600, .i32⟩ : BufTy).Contents (Elt F) → (⟨S409600, .i1⟩ : BufTy).Contents (Elt F)),
    nullary main_c_101 (constantI S_ 32 2#32),
    unary main_c_101 main_v270 (broadcastInDim S409600 ![] bcast_S_S409600 : (⟨S_, .i32⟩ : BufTy).Contents (Elt F) → (⟨S409600, .i32⟩ : BufTy).Contents (Elt F)),
    binary main_v29 main_v270 main_v271 (addi : (⟨S409600, .i32⟩ : BufTy).Contents (Elt F) → (⟨S409600, .i32⟩ : BufTy).Contents (Elt F) → (⟨S409600, .i32⟩ : BufTy).Contents (Elt F)),
    ternary main_v269 main_v271 main_v29 main_v272 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_102 (constantI S_ 32 0#32),
    unary main_c_102 main_v273 (broadcastInDim S409600 ![] bcast_S_S409600 : (⟨S_, .i32⟩ : BufTy).Contents (Elt F) → (⟨S409600, .i32⟩ : BufTy).Contents (Elt F)),
    binary main_v266 main_v273 main_v274 (cmpi .slt : (⟨S409600, .i32⟩ : BufTy).Contents (Elt F) → (⟨S409600, .i32⟩ : BufTy).Contents (Elt F) → (⟨S409600, .i1⟩ : BufTy).Contents (Elt F)),
    nullary main_c_103 (constantI S_ 32 640#32),
    unary main_c_103 main_v275 (broadcastInDim S409600 ![] bcast_S_S409600 : (⟨S_, .i32⟩ : BufTy).Contents (Elt F) → (⟨S409600, .i32⟩ : BufTy).Contents (Elt F)),
    binary main_v266 main_v275 main_v276 (addi : (⟨S409600, .i32⟩ : BufTy).Contents (Elt F) → (⟨S409600, .i32⟩ : BufTy).Contents (Elt F) → (⟨S409600, .i32⟩ : BufTy).Contents (Elt F)),
    ternary main_v274 main_v276 main_v266 main_v277 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_104 (constantI S_ 32 0#32),
    unary main_c_104 main_v278 (broadcastInDim S409600 ![] bcast_S_S409600 : (⟨S_, .i32⟩ : BufTy).Contents (Elt F) → (⟨S409600, .i32⟩ : BufTy).Contents (Elt F)),
    binary main_v267 main_v278 main_v279 (cmpi .slt : (⟨S409600, .i32⟩ : BufTy).Contents (Elt F) → (⟨S409600, .i32⟩ : BufTy).Contents (Elt F) → (⟨S409600, .i1⟩ : BufTy).Contents (Elt F)),
    nullary main_c_105 (constantI S_ 32 640#32),
    unary main_c_105 main_v280 (broadcastInDim S409600 ![] bcast_S_S409600 : (⟨S_, .i32⟩ : BufTy).Contents (Elt F) → (⟨S409600, .i32⟩ : BufTy).Contents (Elt F)),
    binary main_v267 main_v280 main_v281 (addi : (⟨S409600, .i32⟩ : BufTy).Contents (Elt F) → (⟨S409600, .i32⟩ : BufTy).Contents (Elt F) → (⟨S409600, .i32⟩ : BufTy).Contents (Elt F)),
    ternary main_v279 main_v281 main_v267 main_v282 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v272 main_v283 (broadcastInDim S409600x1 ![0] bcast_S409600_S409600x1_0 : (⟨S409600, .i32⟩ : BufTy).Contents (Elt F) → (⟨S409600x1, .i32⟩ : BufTy).Contents (Elt F)),
    unary main_v277 main_v284 (broadcastInDim S409600x1 ![0] bcast_S409600_S409600x1_0 : (⟨S409600, .i32⟩ : BufTy).Contents (Elt F) → (⟨S409600x1, .i32⟩ : BufTy).Contents (Elt F)),
    unary main_v282 main_v285 (broadcastInDim S409600x1 ![0] bcast_S409600_S409600x1_0 : (⟨S409600, .i32⟩ : BufTy).Contents (Elt F) → (⟨S409600x1, .i32⟩ : BufTy).Contents (Elt F)),
    nary ![main_v283, main_v284, main_v285] main_v286 (fun u => concatenate S409600x3 1 [⟨S409600x1, u 0⟩, ⟨S409600x1, u 1⟩, ⟨S409600x1, u 2⟩] concatenates_S409600x1_S409600x1_S409600x1_S409600x3_d1),
    binary main_v27 main_v286 main_v287 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_106 (constantI S_ 32 0#32),
    unary main_c_106 main_v288 (broadcastInDim S409600 ![] bcast_S_S409600 : (⟨S_, .i32⟩ : BufTy).Contents (Elt F) → (⟨S409600, .i32⟩ : BufTy).Contents (Elt F)),
    binary main_v287 main_v288 main_v289 (cmpi .sge : (⟨S409600, .i32⟩ : BufTy).Contents (Elt F) → (⟨S409600, .i32⟩ : BufTy).Contents (Elt F) → (⟨S409600, .i1⟩ : BufTy).Contents (Elt F)),
    binary main_v265 main_v289 main_v290 (andi : (⟨S409600, .i1⟩ : BufTy).Contents (Elt F) → (⟨S409600, .i1⟩ : BufTy).Contents (Elt F) → (⟨S409600, .i1⟩ : BufTy).Contents (Elt F)),
    nullary main_c_107 (constantI S_ 32 0#32),
    unary main_c_107 main_call18_v0 (id : (⟨S_, .i32⟩ : BufTy).Contents (Elt F) → (⟨S_, .i32⟩ : BufTy).Contents (Elt F)),
    unary main_call18_v0 main_call18_v1 ((broadcastInDim S409600 ![] bcast_S_S409600) : (⟨S_, .i32⟩ : BufTy).Contents (Elt F) → (⟨S409600, .i32⟩ : BufTy).Contents (Elt F)),
    ternary main_v290 main_v287 main_call18_v1 main_v291 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_108 (constantI S_ 32 0#32),
    unary main_c_108 main_v292 (broadcastInDim S409600 ![] bcast_S_S409600 : (⟨S_, .i32⟩ : BufTy).Contents (Elt F) → (⟨S409600, .i32⟩ : BufTy).Contents (Elt F)),
    binary main_v291 main_v292 main_v293 (cmpi .slt : (⟨S409600, .i32⟩ : BufTy).Contents (Elt F) → (⟨S409600, .i32⟩ : BufTy).Contents (Elt F) → (⟨S409600, .i1⟩ : BufTy).Contents (Elt F)),
    nullary main_c_109 (constantI S_ 32 409600#32),
    unary main_c_109 main_v294 (broadcastInDim S409600 ![] bcast_S_S409600 : (⟨S_, .i32⟩ : BufTy).Contents (Elt F) → (⟨S409600, .i32⟩ : BufTy).Contents (Elt F)),
    binary main_v291 main_v294 main_v295 (addi : (⟨S409600, .i32⟩ : BufTy).Contents (Elt F) → (⟨S409600, .i32⟩ : BufTy).Contents (Elt F) → (⟨S409600, .i32⟩ : BufTy).Contents (Elt F)),
    ternary main_v293 main_v295 main_v291 main_v296 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v296 main_v297 (broadcastInDim S409600x1 ![0] bcast_S409600_S409600x1_0 : (⟨S409600, .i32⟩ : BufTy).Contents (Elt F) → (⟨S409600x1, .i32⟩ : BufTy).Contents (Elt F)),
    binary main_arg0 main_v297 main_v298 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v290 main_v299 (broadcastInDim S409600x1 ![0] bcast_S409600_S409600x1_0 : (⟨S409600, .i1⟩ : BufTy).Contents (Elt F) → (⟨S409600x1, .i1⟩ : BufTy).Contents (Elt F)),
    nullary main_cst_110 (constant S_ .f32 0x00000000#32),
    unary main_cst_110 main_call19_v0 (id : (⟨S_, .f32⟩ : BufTy).Contents (Elt F) → (⟨S_, .f32⟩ : BufTy).Contents (Elt F)),
    unary main_v299 main_call19_v1 ((broadcastInDim S409600x64 ![0, 1] bcast_S409600x1_S409600x64_0_1) : (⟨S409600x1, .i1⟩ : BufTy).Contents (Elt F) → (⟨S409600x64, .i1⟩ : BufTy).Contents (Elt F)),
    unary main_call19_v0 main_call19_v2 ((broadcastInDim S409600x64 ![] bcast_S_S409600x64) : (⟨S_, .f32⟩ : BufTy).Contents (Elt F) → (⟨S409600x64, .f32⟩ : BufTy).Contents (Elt F)),
    ternary main_call19_v1 main_v298 main_call19_v2 main_v300 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v301 ((extractStridedSlice S1x1x64x64 ![1, 1, 0, 0] · slices_S3x3x64x64_S1x1x64x64_1_1_0_0) : (⟨S3x3x64x64, .f32⟩ : BufTy).Contents (Elt F) → (⟨S1x1x64x64, .f32⟩ : BufTy).Contents (Elt F)),
    reshape main_v301 main_v302 rfl shapeCasts_S1x1x64x64_S64x64,
    binary main_v300 main_v302 main_v303 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v250 main_v303 main_v304 (addf : (⟨S409600x64, .f32⟩ : BufTy).Contents (Elt F) → (⟨S409600x64, .f32⟩ : BufTy).Contents (Elt F) → (⟨S409600x64, .f32⟩ : BufTy).Contents (Elt F)),
    nullary main_c_111 (constantI S_ 32 0#32),
    unary main_c_111 main_v305 (broadcastInDim S409600 ![] bcast_S_S409600 : (⟨S_, .i32⟩ : BufTy).Contents (Elt F) → (⟨S409600, .i32⟩ : BufTy).Contents (Elt F)) ]

set_option maxRecDepth 8192 in
set_option maxHeartbeats 4000000 in
theorem main_part6_eq (c : Dev nD) : main_part6 (F := F) c = seq ops_p6 := by
  simp only [main_part6, ops_p6, fn_clip.body, fn_where.body, fn_where_0.body, fn_relu.body, seq, bind_assoc, pure_bind]
  rfl

set_option maxRecDepth 8192 in
theorem ops_p6_sub : (ops_p6 : List (HloOp τ sig (Elt F))).Forall fun op => op.bufs ⊆ tcRefs τ sig :=
  ⟨nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub ..⟩

set_option maxRecDepth 8192 in
theorem ops_p6_fresh : ∀ op ∈ (ops_p6 : List (HloOp τ sig (Elt F))), op.fresh = ∅ := by
  unfold ops_p6; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 429 on hold before it. -/
structure Inv6_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v252 : V (Proc.devRef .tc main_v252) = val_main_v252 (F := F) x1
  main_v254 : V (Proc.devRef .tc main_v254) = val_main_v254 (F := F) x1
  main_v265 : V (Proc.devRef .tc main_v265) = val_main_v265 (F := F) x1
  main_c_97 : V (Proc.devRef .tc main_c_97) = val_main_c_97 (F := F)
  main_call16_v1 : V (Proc.devRef .tc main_call16_v1) = val_main_call16_v1 (F := F)

/-- What the buffers read from operation 437 on hold before it. -/
structure Inv6_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v254 : V (Proc.devRef .tc main_v254) = val_main_v254 (F := F) x1
  main_v265 : V (Proc.devRef .tc main_v265) = val_main_v265 (F := F) x1
  main_v266 : V (Proc.devRef .tc main_v266) = val_main_v266 (F := F) x1
  main_c_99 : V (Proc.devRef .tc main_c_99) = val_main_c_99 (F := F)
  main_call17_v1 : V (Proc.devRef .tc main_call17_v1) = val_main_call17_v1 (F := F)

/-- What the buffers read from operation 445 on hold before it. -/
structure Inv6_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v265 : V (Proc.devRef .tc main_v265) = val_main_v265 (F := F) x1
  main_v266 : V (Proc.devRef .tc main_v266) = val_main_v266 (F := F) x1
  main_v267 : V (Proc.devRef .tc main_v267) = val_main_v267 (F := F) x1
  main_v269 : V (Proc.devRef .tc main_v269) = val_main_v269 (F := F) x1
  main_c_101 : V (Proc.devRef .tc main_c_101) = val_main_c_101 (F := F)

/-- What the buffers read from operation 453 on hold before it. -/
structure Inv6_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v265 : V (Proc.devRef .tc main_v265) = val_main_v265 (F := F) x1
  main_v266 : V (Proc.devRef .tc main_v266) = val_main_v266 (F := F) x1
  main_v267 : V (Proc.devRef .tc main_v267) = val_main_v267 (F := F) x1
  main_v272 : V (Proc.devRef .tc main_v272) = val_main_v272 (F := F) x1
  main_v274 : V (Proc.devRef .tc main_v274) = val_main_v274 (F := F) x1
  main_v275 : V (Proc.devRef .tc main_v275) = val_main_v275 (F := F)

/-- What the buffers read from operation 461 on hold before it. -/
structure Inv6_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v265 : V (Proc.devRef .tc main_v265) = val_main_v265 (F := F) x1
  main_v267 : V (Proc.devRef .tc main_v267) = val_main_v267 (F := F) x1
  main_v272 : V (Proc.devRef .tc main_v272) = val_main_v272 (F := F) x1
  main_v277 : V (Proc.devRef .tc main_v277) = val_main_v277 (F := F) x1
  main_v279 : V (Proc.devRef .tc main_v279) = val_main_v279 (F := F) x1
  main_v281 : V (Proc.devRef .tc main_v281) = val_main_v281 (F := F) x1

/-- What the buffers read from operation 469 on hold before it. -/
structure Inv6_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v265 : V (Proc.devRef .tc main_v265) = val_main_v265 (F := F) x1
  main_v287 : V (Proc.devRef .tc main_v287) = val_main_v287 (F := F) x1
  main_v288 : V (Proc.devRef .tc main_v288) = val_main_v288 (F := F)

/-- What the buffers read from operation 477 on hold before it. -/
structure Inv6_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v290 : V (Proc.devRef .tc main_v290) = val_main_v290 (F := F) x1
  main_v291 : V (Proc.devRef .tc main_v291) = val_main_v291 (F := F) x1
  main_v292 : V (Proc.devRef .tc main_v292) = val_main_v292 (F := F)

/-- What the buffers read from operation 485 on hold before it. -/
structure Inv6_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v298 : V (Proc.devRef .tc main_v298) = val_main_v298 (F := F) x0 x1
  main_v299 : V (Proc.devRef .tc main_v299) = val_main_v299 (F := F) x1

/-- What the buffers read from operation 493 on hold before it. -/
structure Inv6_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v250 : V (Proc.devRef .tc main_v250) = val_main_v250 (F := F) x0 x1 x2
  main_v303 : V (Proc.devRef .tc main_v303) = val_main_v303 (F := F) x0 x1 x2

/-- Stretch 0 of window 6: @main's operations 421 … 428. -/
def ops_p6_0 : List (HloOp τ sig (Elt F)) :=
  [ nullary main_c_95 (constantI S_ 32 640#32),
    unary main_c_95 main_v263 (broadcastInDim S409600 ![] bcast_S_S409600 : (⟨S_, .i32⟩ : BufTy).Contents (Elt F) → (⟨S409600, .i32⟩ : BufTy).Contents (Elt F)),
    binary main_v254 main_v263 main_v264 (cmpi .slt : (⟨S409600, .i32⟩ : BufTy).Contents (Elt F) → (⟨S409600, .i32⟩ : BufTy).Contents (Elt F) → (⟨S409600, .i1⟩ : BufTy).Contents (Elt F)),
    binary main_v262 main_v264 main_v265 (andi : (⟨S409600, .i1⟩ : BufTy).Contents (Elt F) → (⟨S409600, .i1⟩ : BufTy).Contents (Elt F) → (⟨S409600, .i1⟩ : BufTy).Contents (Elt F)),
    nullary main_c_96 (constantI S_ 32 0#32),
    nullary main_c_97 (constantI S_ 32 639#32),
    unary main_c_96 main_call16_v0 (id : (⟨S_, .i32⟩ : BufTy).Contents (Elt F) → (⟨S_, .i32⟩ : BufTy).Contents (Elt F)),
    unary main_call16_v0 main_call16_v1 ((broadcastInDim S409600 ![] bcast_S_S409600) : (⟨S_, .i32⟩ : BufTy).Contents (Elt F) → (⟨S409600, .i32⟩ : BufTy).Contents (Elt F)) ]
abbrev ops_p6_0_W : List (Ref sig .tc) := [main_c_95, main_v263, main_v264, main_v265, main_c_96, main_c_97, main_call16_v0, main_call16_v1]
theorem ops_p6_0_writes : (ops_p6_0 : List (HloOp τ sig (Elt F))).Forall fun op => op.writes ⊆ (ops_p6_0_W.map (Proc.devRef (τ := τ) .tc)).toFinset := by
  simp only [ops_p6_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p6_0_keep (V : Valuation τ sig (Elt F)) (r : Ref sig .tc) (h : r ∉ ops_p6_0_W) :
    after ops_p6_0 V (Proc.devRef .tc r) = V (Proc.devRef .tc r) :=
  after_of_writes_sub ops_p6_0 _ ops_p6_0_writes h

set_option maxRecDepth 8192 in
set_option maxHeartbeats 1000000 in
theorem w6_0_main_v265 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6 V x0 x1 x2 x3 x4 x5 x6) :
    after ops_p6_0 V (Proc.devRef .tc main_v265) = val_main_v265 (F := F) x1 := by
  simp only [ops_p6_0]
  after_results_w
  simp only [h.main_v254, h.main_v262]
  rfl

set_option maxRecDepth 8192 in
set_option maxHeartbeats 1000000 in
theorem w6_0_main_c_97 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6 V x0 x1 x2 x3 x4 x5 x6) :
    after ops_p6_0 V (Proc.devRef .tc main_c_97) = val_main_c_97 (F := F) := by
  simp only [ops_p6_0]
  after_results_w
  rfl

set_option maxRecDepth 8192 in
set_option maxHeartbeats 1000000 in
theorem w6_0_main_call16_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6 V x0 x1 x2 x3 x4 x5 x6) :
    after ops_p6_0 V (Proc.devRef .tc main_call16_v1) = val_main_call16_v1 (F := F) := by
  simp only [ops_p6_0]
  after_results_w
  rfl

theorem step6_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6 V x0 x1 x2 x3 x4 x5 x6) : Inv6_1 (after ops_p6_0 V) x0 x1 x2 x3 x4 x5 x6 where
  main_arg0 := (ops_p6_0_keep V main_arg0 (by decide)).trans h.main_arg0
  main_arg1 := (ops_p6_0_keep V main_arg1 (by decide)).trans h.main_arg1
  main_arg2 := (ops_p6_0_keep V main_arg2 (by decide)).trans h.main_arg2
  main_arg3 := (ops_p6_0_keep V main_arg3 (by decide)).trans h.main_arg3
  main_arg4 := (ops_p6_0_keep V main_arg4 (by decide)).trans h.main_arg4
  main_arg5 := (ops_p6_0_keep V main_arg5 (by decide)).trans h.main_arg5
  main_arg6 := (ops_p6_0_keep V main_arg6 (by decide)).trans h.main_arg6
  main_v27 := (ops_p6_0_keep V main_v27 (by decide)).trans h.main_v27
  main_v29 := (ops_p6_0_keep V main_v29 (by decide)).trans h.main_v29
  main_v31 := (ops_p6_0_keep V main_v31 (by decide)).trans h.main_v31
  main_v33 := (ops_p6_0_keep V main_v33 (by decide)).trans h.main_v33
  main_v250 := (ops_p6_0_keep V main_v250 (by decide)).trans h.main_v250
  main_v252 := (ops_p6_0_keep V main_v252 (by decide)).trans h.main_v252
  main_v254 := (ops_p6_0_keep V main_v254 (by decide)).trans h.main_v254
  main_v265 := w6_0_main_v265 V x0 x1 x2 x3 x4 x5 x6 h
  main_c_97 := w6_0_main_c_97 V x0 x1 x2 x3 x4 x5 x6 h
  main_call16_v1 := w6_0_main_call16_v1 V x0 x1 x2 x3 x4 x5 x6 h

/-- Stretch 1 of window 6: @main's operations 429 … 436. -/
def ops_p6_1 : List (HloOp τ sig (Elt F)) :=
  [ binary main_call16_v1 main_v252 main_call16_v2 (maxsi : (⟨S409600, .i32⟩ : BufTy).Contents (Elt F) → (⟨S409600, .i32⟩ : BufTy).Contents (Elt F) → (⟨S409600, .i32⟩ : BufTy).Contents (Elt F)),
    unary main_c_97 main_call16_v3 (id : (⟨S_, .i32⟩ : BufTy).Contents (Elt F) → (⟨S_, .i32⟩ : BufTy).Contents (Elt F)),
    unary main_call16_v3 main_call16_v4 ((broadcastInDim S409600 ![] bcast_S_S409600) : (⟨S_, .i32⟩ : BufTy).Contents (Elt F) → (⟨S409600, .i32⟩ : BufTy).Contents (Elt F)),
    binary main_call16_v4 main_call16_v2 main_v266 (minsi : (⟨S409600, .i32⟩ : BufTy).Contents (Elt F) → (⟨S409600, .i32⟩ : BufTy).Contents (Elt F) → (⟨S409600, .i32⟩ : BufTy).Contents (Elt F)),
    nullary main_c_98 (constantI S_ 32 0#32),
    nullary main_c_99 (constantI S_ 32 639#32),
    unary main_c_98 main_call17_v0 (id : (⟨S_, .i32⟩ : BufTy).Contents (Elt F) → (⟨S_, .i32⟩ : BufTy).Contents (Elt F)),
    unary main_call17_v0 main_call17_v1 ((broadcastInDim S409600 ![] bcast_S_S409600) : (⟨S_, .i32⟩ : BufTy).Contents (Elt F) → (⟨S409600, .i32⟩ : BufTy).Contents (Elt F)) ]
abbrev ops_p6_1_W : List (Ref sig .tc) := [main_call16_v2, main_call16_v3, main_call16_v4, main_v266, main_c_98, main_c_99, main_call17_v0, main_call17_v1]
theorem ops_p6_1_writes : (ops_p6_1 : List (HloOp τ sig (Elt F))).Forall fun op => op.writes ⊆ (ops_p6_1_W.map (Proc.devRef (τ := τ) .tc)).toFinset := by
  simp only [ops_p6_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p6_1_keep (V : Valuation τ sig (Elt F)) (r : Ref sig .tc) (h : r ∉ ops_p6_1_W) :
    after ops_p6_1 V (Proc.devRef .tc r) = V (Proc.devRef .tc r) :=
  after_of_writes_sub ops_p6_1 _ ops_p6_1_writes h

set_option maxRecDepth 8192 in
set_option maxHeartbeats 1000000 in
theorem w6_1_main_v266 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_1 V x0 x1 x2 x3 x4 x5 x6) :
    after ops_p6_1 V (Proc.devRef .tc main_v266) = val_main_v266 (F := F) x1 := by
  simp only [ops_p6_1]
  after_results_w
  simp only [h.main_v252, h.main_call16_v1, h.main_c_97]
  rfl

set_option maxRecDepth 8192 in
set_option maxHeartbeats 1000000 in
theorem w6_1_main_c_99 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_1 V x0 x1 x2 x3 x4 x5 x6) :
    after ops_p6_1 V (Proc.devRef .tc main_c_99) = val_main_c_99 (F := F) := by
  simp only [ops_p6_1]
  after_results_w
  rfl

set_option maxRecDepth 8192 in
set_option maxHeartbeats 1000000 in
theorem w6_1_main_call17_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_1 V x0 x1 x2 x3 x4 x5 x6) :
    after ops_p6_1 V (Proc.devRef .tc main_call17_v1) = val_main_call17_v1 (F := F) := by
  simp only [ops_p6_1]
  after_results_w
  rfl

theorem step6_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_1 V x0 x1 x2 x3 x4 x5 x6) : Inv6_2 (after ops_p6_1 V) x0 x1 x2 x3 x4 x5 x6 where
  main_arg0 := (ops_p6_1_keep V main_arg0 (by decide)).trans h.main_arg0
  main_arg1 := (ops_p6_1_keep V main_arg1 (by decide)).trans h.main_arg1
  main_arg2 := (ops_p6_1_keep V main_arg2 (by decide)).trans h.main_arg2
  main_arg3 := (ops_p6_1_keep V main_arg3 (by decide)).trans h.main_arg3
  main_arg4 := (ops_p6_1_keep V main_arg4 (by decide)).trans h.main_arg4
  main_arg5 := (ops_p6_1_keep V main_arg5 (by decide)).trans h.main_arg5
  main_arg6 := (ops_p6_1_keep V main_arg6 (by decide)).trans h.main_arg6
  main_v27 := (ops_p6_1_keep V main_v27 (by decide)).trans h.main_v27
  main_v29 := (ops_p6_1_keep V main_v29 (by decide)).trans h.main_v29
  main_v31 := (ops_p6_1_keep V main_v31 (by decide)).trans h.main_v31
  main_v33 := (ops_p6_1_keep V main_v33 (by decide)).trans h.main_v33
  main_v250 := (ops_p6_1_keep V main_v250 (by decide)).trans h.main_v250
  main_v254 := (ops_p6_1_keep V main_v254 (by decide)).trans h.main_v254
  main_v265 := (ops_p6_1_keep V main_v265 (by decide)).trans h.main_v265
  main_v266 := w6_1_main_v266 V x0 x1 x2 x3 x4 x5 x6 h
  main_c_99 := w6_1_main_c_99 V x0 x1 x2 x3 x4 x5 x6 h
  main_call17_v1 := w6_1_main_call17_v1 V x0 x1 x2 x3 x4 x5 x6 h

/-- Stretch 2 of window 6: @main's operations 437 … 444. -/
def ops_p6_2 : List (HloOp τ sig (Elt F)) :=
  [ binary main_call17_v1 main_v254 main_call17_v2 (maxsi : (⟨S409600, .i32⟩ : BufTy).Contents (Elt F) → (⟨S409600, .i32⟩ : BufTy).Contents (Elt F) → (⟨S409600, .i32⟩ : BufTy).Contents (Elt F)),
    unary main_c_99 main_call17_v3 (id : (⟨S_, .i32⟩ : BufTy).Contents (Elt F) → (⟨S_, .i32⟩ : BufTy).Contents (Elt F)),
    unary main_call17_v3 main_call17_v4 ((broadcastInDim S409600 ![] bcast_S_S409600) : (⟨S_, .i32⟩ : BufTy).Contents (Elt F) → (⟨S409600, .i32⟩ : BufTy).Contents (Elt F)),
    binary main_call17_v4 main_call17_v2 main_v267 (minsi : (⟨S409600, .i32⟩ : BufTy).Contents (Elt F) → (⟨S409600, .i32⟩ : BufTy).Contents (Elt F) → (⟨S409600, .i32⟩ : BufTy).Contents (Elt F)),
    nullary main_c_100 (constantI S_ 32 0#32),
    unary main_c_100 main_v268 (broadcastInDim S409600 ![] bcast_S_S409600 : (⟨S_, .i32⟩ : BufTy).Contents (Elt F) → (⟨S409600, .i32⟩ : BufTy).Contents (Elt F)),
    binary main_v29 main_v268 main_v269 (cmpi .slt : (⟨S409600, .i32⟩ : BufTy).Contents (Elt F) → (⟨S409600, .i32⟩ : BufTy).Contents (Elt F) → (⟨S409600, .i1⟩ : BufTy).Contents (Elt F)),
    nullary main_c_101 (constantI S_ 32 2#32) ]
abbrev ops_p6_2_W : List (Ref sig .tc) := [main_call17_v2, main_call17_v3, main_call17_v4, main_v267, main_c_100, main_v268, main_v269, main_c_101]
theorem ops_p6_2_writes : (ops_p6_2 : List (HloOp τ sig (Elt F))).Forall fun op => op.writes ⊆ (ops_p6_2_W.map (Proc.devRef (τ := τ) .tc)).toFinset := by
  simp only [ops_p6_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p6_2_keep (V : Valuation τ sig (Elt F)) (r : Ref sig .tc) (h : r ∉ ops_p6_2_W) :
    after ops_p6_2 V (Proc.devRef .tc r) = V (Proc.devRef .tc r) :=
  after_of_writes_sub ops_p6_2 _ ops_p6_2_writes h

set_option maxRecDepth 8192 in
set_option maxHeartbeats 1000000 in
theorem w6_2_main_v267 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_2 V x0 x1 x2 x3 x4 x5 x6) :
    after ops_p6_2 V (Proc.devRef .tc main_v267) = val_main_v267 (F := F) x1 := by
  simp only [ops_p6_2]
  after_results_w
  simp only [h.main_v254, h.main_call17_v1, h.main_c_99]
  rfl

set_option maxRecDepth 8192 in
set_option maxHeartbeats 1000000 in
theorem w6_2_main_v269 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_2 V x0 x1 x2 x3 x4 x5 x6) :
    after ops_p6_2 V (Proc.devRef .tc main_v269) = val_main_v269 (F := F) x1 := by
  simp only [ops_p6_2]
  after_results_w
  simp only [h.main_v29]
  rfl

set_option maxRecDepth 8192 in
set_option maxHeartbeats 1000000 in
theorem w6_2_main_c_101 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_2 V x0 x1 x2 x3 x4 x5 x6) :
    after ops_p6_2 V (Proc.devRef .tc main_c_101) = val_main_c_101 (F := F) := by
  simp only [ops_p6_2]
  after_results_w
  rfl

theorem step6_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_2 V x0 x1 x2 x3 x4 x5 x6) : Inv6_3 (after ops_p6_2 V) x0 x1 x2 x3 x4 x5 x6 where
  main_arg0 := (ops_p6_2_keep V main_arg0 (by decide)).trans h.main_arg0
  main_arg1 := (ops_p6_2_keep V main_arg1 (by decide)).trans h.main_arg1
  main_arg2 := (ops_p6_2_keep V main_arg2 (by decide)).trans h.main_arg2
  main_arg3 := (ops_p6_2_keep V main_arg3 (by decide)).trans h.main_arg3
  main_arg4 := (ops_p6_2_keep V main_arg4 (by decide)).trans h.main_arg4
  main_arg5 := (ops_p6_2_keep V main_arg5 (by decide)).trans h.main_arg5
  main_arg6 := (ops_p6_2_keep V main_arg6 (by decide)).trans h.main_arg6
  main_v27 := (ops_p6_2_keep V main_v27 (by decide)).trans h.main_v27
  main_v29 := (ops_p6_2_keep V main_v29 (by decide)).trans h.main_v29
  main_v31 := (ops_p6_2_keep V main_v31 (by decide)).trans h.main_v31
  main_v33 := (ops_p6_2_keep V main_v33 (by decide)).trans h.main_v33
  main_v250 := (ops_p6_2_keep V main_v250 (by decide)).trans h.main_v250
  main_v265 := (ops_p6_2_keep V main_v265 (by decide)).trans h.main_v265
  main_v266 := (ops_p6_2_keep V main_v266 (by decide)).trans h.main_v266
  main_v267 := w6_2_main_v267 V x0 x1 x2 x3 x4 x5 x6 h
  main_v269 := w6_2_main_v269 V x0 x1 x2 x3 x4 x5 x6 h
  main_c_101 := w6_2_main_c_101 V x0 x1 x2 x3 x4 x5 x6 h

/-- Stretch 3 of window 6: @main's operations 445 … 452. -/
def ops_p6_3 : List (HloOp τ sig (Elt F)) :=
  [ unary main_c_101 main_v270 (broadcastInDim S409600 ![] bcast_S_S409600 : (⟨S_, .i32⟩ : BufTy).Contents (Elt F) → (⟨S409600, .i32⟩ : BufTy).Contents (Elt F)),
    binary main_v29 main_v270 main_v271 (addi : (⟨S409600, .i32⟩ : BufTy).Contents (Elt F) → (⟨S409600, .i32⟩ : BufTy).Contents (Elt F) → (⟨S409600, .i32⟩ : BufTy).Contents (Elt F)),
    ternary main_v269 main_v271 main_v29 main_v272 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_102 (constantI S_ 32 0#32),
    unary main_c_102 main_v273 (broadcastInDim S409600 ![] bcast_S_S409600 : (⟨S_, .i32⟩ : BufTy).Contents (Elt F) → (⟨S409600, .i32⟩ : BufTy).Contents (Elt F)),
    binary main_v266 main_v273 main_v274 (cmpi .slt : (⟨S409600, .i32⟩ : BufTy).Contents (Elt F) → (⟨S409600, .i32⟩ : BufTy).Contents (Elt F) → (⟨S409600, .i1⟩ : BufTy).Contents (Elt F)),
    nullary main_c_103 (constantI S_ 32 640#32),
    unary main_c_103 main_v275 (broadcastInDim S409600 ![] bcast_S_S409600 : (⟨S_, .i32⟩ : BufTy).Contents (Elt F) → (⟨S409600, .i32⟩ : BufTy).Contents (Elt F)) ]
abbrev ops_p6_3_W : List (Ref sig .tc) := [main_v270, main_v271, main_v272, main_c_102, main_v273, main_v274, main_c_103, main_v275]
theorem ops_p6_3_writes : (ops_p6_3 : List (HloOp τ sig (Elt F))).Forall fun op => op.writes ⊆ (ops_p6_3_W.map (Proc.devRef (τ := τ) .tc)).toFinset := by
  simp only [ops_p6_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p6_3_keep (V : Valuation τ sig (Elt F)) (r : Ref sig .tc) (h : r ∉ ops_p6_3_W) :
    after ops_p6_3 V (Proc.devRef .tc r) = V (Proc.devRef .tc r) :=
  after_of_writes_sub ops_p6_3 _ ops_p6_3_writes h

set_option maxRecDepth 8192 in
set_option maxHeartbeats 1000000 in
theorem w6_3_main_v272 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_3 V x0 x1 x2 x3 x4 x5 x6) :
    after ops_p6_3 V (Proc.devRef .tc main_v272) = val_main_v272 (F := F) x1 := by
  simp only [ops_p6_3]
  after_results_w
  simp only [h.main_v29, h.main_c_101, h.main_v269]
  rfl

set_option maxRecDepth 8192 in
set_option maxHeartbeats 1000000 in
theorem w6_3_main_v274 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_3 V x0 x1 x2 x3 x4 x5 x6) :
    after ops_p6_3 V (Proc.devRef .tc main_v274) = val_main_v274 (F := F) x1 := by
  simp only [ops_p6_3]
  after_results_w
  simp only [h.main_v266]
  rfl

set_option maxRecDepth 8192 in
set_option maxHeartbeats 1000000 in
theorem w6_3_main_v275 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_3 V x0 x1 x2 x3 x4 x5 x6) :
    after ops_p6_3 V (Proc.devRef .tc main_v275) = val_main_v275 (F := F) := by
  simp only [ops_p6_3]
  after_results_w
  rfl

theorem step6_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_3 V x0 x1 x2 x3 x4 x5 x6) : Inv6_4 (after ops_p6_3 V) x0 x1 x2 x3 x4 x5 x6 where
  main_arg0 := (ops_p6_3_keep V main_arg0 (by decide)).trans h.main_arg0
  main_arg1 := (ops_p6_3_keep V main_arg1 (by decide)).trans h.main_arg1
  main_arg2 := (ops_p6_3_keep V main_arg2 (by decide)).trans h.main_arg2
  main_arg3 := (ops_p6_3_keep V main_arg3 (by decide)).trans h.main_arg3
  main_arg4 := (ops_p6_3_keep V main_arg4 (by decide)).trans h.main_arg4
  main_arg5 := (ops_p6_3_keep V main_arg5 (by decide)).trans h.main_arg5
  main_arg6 := (ops_p6_3_keep V main_arg6 (by decide)).trans h.main_arg6
  main_v27 := (ops_p6_3_keep V main_v27 (by decide)).trans h.main_v27
  main_v29 := (ops_p6_3_keep V main_v29 (by decide)).trans h.main_v29
  main_v31 := (ops_p6_3_keep V main_v31 (by decide)).trans h.main_v31
  main_v33 := (ops_p6_3_keep V main_v33 (by decide)).trans h.main_v33
  main_v250 := (ops_p6_3_keep V main_v250 (by decide)).trans h.main_v250
  main_v265 := (ops_p6_3_keep V main_v265 (by decide)).trans h.main_v265
  main_v266 := (ops_p6_3_keep V main_v266 (by decide)).trans h.main_v266
  main_v267 := (ops_p6_3_keep V main_v267 (by decide)).trans h.main_v267
  main_v272 := w6_3_main_v272 V x0 x1 x2 x3 x4 x5 x6 h
  main_v274 := w6_3_main_v274 V x0 x1 x2 x3 x4 x5 x6 h
  main_v275 := w6_3_main_v275 V x0 x1 x2 x3 x4 x5 x6 h

/-- Stretch 4 of window 6: @main's operations 453 … 460. -/
def ops_p6_4 : List (HloOp τ sig (Elt F)) :=
  [ binary main_v266 main_v275 main_v276 (addi : (⟨S409600, .i32⟩ : BufTy).Contents (Elt F) → (⟨S409600, .i32⟩ : BufTy).Contents (Elt F) → (⟨S409600, .i32⟩ : BufTy).Contents (Elt F)),
    ternary main_v274 main_v276 main_v266 main_v277 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_104 (constantI S_ 32 0#32),
    unary main_c_104 main_v278 (broadcastInDim S409600 ![] bcast_S_S409600 : (⟨S_, .i32⟩ : BufTy).Contents (Elt F) → (⟨S409600, .i32⟩ : BufTy).Contents (Elt F)),
    binary main_v267 main_v278 main_v279 (cmpi .slt : (⟨S409600, .i32⟩ : BufTy).Contents (Elt F) → (⟨S409600, .i32⟩ : BufTy).Contents (Elt F) → (⟨S409600, .i1⟩ : BufTy).Contents (Elt F)),
    nullary main_c_105 (constantI S_ 32 640#32),
    unary main_c_105 main_v280 (broadcastInDim S409600 ![] bcast_S_S409600 : (⟨S_, .i32⟩ : BufTy).Contents (Elt F) → (⟨S409600, .i32⟩ : BufTy).Contents (Elt F)),
    binary main_v267 main_v280 main_v281 (addi : (⟨S409600, .i32⟩ : BufTy).Contents (Elt F) → (⟨S409600, .i32⟩ : BufTy).Contents (Elt F) → (⟨S409600, .i32⟩ : BufTy).Contents (Elt F)) ]
abbrev ops_p6_4_W : List (Ref sig .tc) := [main_v276, main_v277, main_c_104, main_v278, main_v279, main_c_105, main_v280, main_v281]
theorem ops_p6_4_writes : (ops_p6_4 : List (HloOp τ sig (Elt F))).Forall fun op => op.writes ⊆ (ops_p6_4_W.map (Proc.devRef (τ := τ) .tc)).toFinset := by
  simp only [ops_p6_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p6_4_keep (V : Valuation τ sig (Elt F)) (r : Ref sig .tc) (h : r ∉ ops_p6_4_W) :
    after ops_p6_4 V (Proc.devRef .tc r) = V (Proc.devRef .tc r) :=
  after_of_writes_sub ops_p6_4 _ ops_p6_4_writes h

set_option maxRecDepth 8192 in
set_option maxHeartbeats 1000000 in
theorem w6_4_main_v277 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_4 V x0 x1 x2 x3 x4 x5 x6) :
    after ops_p6_4 V (Proc.devRef .tc main_v277) = val_main_v277 (F := F) x1 := by
  simp only [ops_p6_4]
  after_results_w
  simp only [h.main_v266, h.main_v275, h.main_v274]
  rfl

set_option maxRecDepth 8192 in
set_option maxHeartbeats 1000000 in
theorem w6_4_main_v279 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_4 V x0 x1 x2 x3 x4 x5 x6) :
    after ops_p6_4 V (Proc.devRef .tc main_v279) = val_main_v279 (F := F) x1 := by
  simp only [ops_p6_4]
  after_results_w
  simp only [h.main_v267]
  rfl

set_option maxRecDepth 8192 in
set_option maxHeartbeats 1000000 in
theorem w6_4_main_v281 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_4 V x0 x1 x2 x3 x4 x5 x6) :
    after ops_p6_4 V (Proc.devRef .tc main_v281) = val_main_v281 (F := F) x1 := by
  simp only [ops_p6_4]
  after_results_w
  simp only [h.main_v267]
  rfl

theorem step6_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_4 V x0 x1 x2 x3 x4 x5 x6) : Inv6_5 (after ops_p6_4 V) x0 x1 x2 x3 x4 x5 x6 where
  main_arg0 := (ops_p6_4_keep V main_arg0 (by decide)).trans h.main_arg0
  main_arg1 := (ops_p6_4_keep V main_arg1 (by decide)).trans h.main_arg1
  main_arg2 := (ops_p6_4_keep V main_arg2 (by decide)).trans h.main_arg2
  main_arg3 := (ops_p6_4_keep V main_arg3 (by decide)).trans h.main_arg3
  main_arg4 := (ops_p6_4_keep V main_arg4 (by decide)).trans h.main_arg4
  main_arg5 := (ops_p6_4_keep V main_arg5 (by decide)).trans h.main_arg5
  main_arg6 := (ops_p6_4_keep V main_arg6 (by decide)).trans h.main_arg6
  main_v27 := (ops_p6_4_keep V main_v27 (by decide)).trans h.main_v27
  main_v29 := (ops_p6_4_keep V main_v29 (by decide)).trans h.main_v29
  main_v31 := (ops_p6_4_keep V main_v31 (by decide)).trans h.main_v31
  main_v33 := (ops_p6_4_keep V main_v33 (by decide)).trans h.main_v33
  main_v250 := (ops_p6_4_keep V main_v250 (by decide)).trans h.main_v250
  main_v265 := (ops_p6_4_keep V main_v265 (by decide)).trans h.main_v265
  main_v267 := (ops_p6_4_keep V main_v267 (by decide)).trans h.main_v267
  main_v272 := (ops_p6_4_keep V main_v272 (by decide)).trans h.main_v272
  main_v277 := w6_4_main_v277 V x0 x1 x2 x3 x4 x5 x6 h
  main_v279 := w6_4_main_v279 V x0 x1 x2 x3 x4 x5 x6 h
  main_v281 := w6_4_main_v281 V x0 x1 x2 x3 x4 x5 x6 h

/-- Stretch 5 of window 6: @main's operations 461 … 468. -/
def ops_p6_5 : List (HloOp τ sig (Elt F)) :=
  [ ternary main_v279 main_v281 main_v267 main_v282 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v272 main_v283 (broadcastInDim S409600x1 ![0] bcast_S409600_S409600x1_0 : (⟨S409600, .i32⟩ : BufTy).Contents (Elt F) → (⟨S409600x1, .i32⟩ : BufTy).Contents (Elt F)),
    unary main_v277 main_v284 (broadcastInDim S409600x1 ![0] bcast_S409600_S409600x1_0 : (⟨S409600, .i32⟩ : BufTy).Contents (Elt F) → (⟨S409600x1, .i32⟩ : BufTy).Contents (Elt F)),
    unary main_v282 main_v285 (broadcastInDim S409600x1 ![0] bcast_S409600_S409600x1_0 : (⟨S409600, .i32⟩ : BufTy).Contents (Elt F) → (⟨S409600x1, .i32⟩ : BufTy).Contents (Elt F)),
    nary ![main_v283, main_v284, main_v285] main_v286 (fun u => concatenate S409600x3 1 [⟨S409600x1, u 0⟩, ⟨S409600x1, u 1⟩, ⟨S409600x1, u 2⟩] concatenates_S409600x1_S409600x1_S409600x1_S409600x3_d1),
    binary main_v27 main_v286 main_v287 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_106 (constantI S_ 32 0#32),
    unary main_c_106 main_v288 (broadcastInDim S409600 ![] bcast_S_S409600 : (⟨S_, .i32⟩ : BufTy).Contents (Elt F) → (⟨S409600, .i32⟩ : BufTy).Contents (Elt F)) ]
abbrev ops_p6_5_W : List (Ref sig .tc) := [main_v282, main_v283, main_v284, main_v285, main_v286, main_v287, main_c_106, main_v288]
theorem ops_p6_5_writes : (ops_p6_5 : List (HloOp τ sig (Elt F))).Forall fun op => op.writes ⊆ (ops_p6_5_W.map (Proc.devRef (τ := τ) .tc)).toFinset := by
  simp only [ops_p6_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p6_5_keep (V : Valuation τ sig (Elt F)) (r : Ref sig .tc) (h : r ∉ ops_p6_5_W) :
    after ops_p6_5 V (Proc.devRef .tc r) = V (Proc.devRef .tc r) :=
  after_of_writes_sub ops_p6_5 _ ops_p6_5_writes h

set_option maxRecDepth 8192 in
set_option maxHeartbeats 1000000 in
theorem w6_5_main_v287 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_5 V x0 x1 x2 x3 x4 x5 x6) :
    after ops_p6_5 V (Proc.devRef .tc main_v287) = val_main_v287 (F := F) x1 := by
  simp only [ops_p6_5]
  after_results_w
  simp only [h.main_v267, h.main_v281, h.main_v279, h.main_v277, h.main_v272, h.main_v27]
  rfl

set_option maxRecDepth 8192 in
set_option maxHeartbeats 1000000 in
theorem w6_5_main_v288 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_5 V x0 x1 x2 x3 x4 x5 x6) :
    after ops_p6_5 V (Proc.devRef .tc main_v288) = val_main_v288 (F := F) := by
  simp only [ops_p6_5]
  after_results_w
  rfl

theorem step6_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_5 V x0 x1 x2 x3 x4 x5 x6) : Inv6_6 (after ops_p6_5 V) x0 x1 x2 x3 x4 x5 x6 where
  main_arg0 := (ops_p6_5_keep V main_arg0 (by decide)).trans h.main_arg0
  main_arg1 := (ops_p6_5_keep V main_arg1 (by decide)).trans h.main_arg1
  main_arg2 := (ops_p6_5_keep V main_arg2 (by decide)).trans h.main_arg2
  main_arg3 := (ops_p6_5_keep V main_arg3 (by decide)).trans h.main_arg3
  main_arg4 := (ops_p6_5_keep V main_arg4 (by decide)).trans h.main_arg4
  main_arg5 := (ops_p6_5_keep V main_arg5 (by decide)).trans h.main_arg5
  main_arg6 := (ops_p6_5_keep V main_arg6 (by decide)).trans h.main_arg6
  main_v27 := (ops_p6_5_keep V main_v27 (by decide)).trans h.main_v27
  main_v29 := (ops_p6_5_keep V main_v29 (by decide)).trans h.main_v29
  main_v31 := (ops_p6_5_keep V main_v31 (by decide)).trans h.main_v31
  main_v33 := (ops_p6_5_keep V main_v33 (by decide)).trans h.main_v33
  main_v250 := (ops_p6_5_keep V main_v250 (by decide)).trans h.main_v250
  main_v265 := (ops_p6_5_keep V main_v265 (by decide)).trans h.main_v265
  main_v287 := w6_5_main_v287 V x0 x1 x2 x3 x4 x5 x6 h
  main_v288 := w6_5_main_v288 V x0 x1 x2 x3 x4 x5 x6 h

/-- Stretch 6 of window 6: @main's operations 469 … 476. -/
def ops_p6_6 : List (HloOp τ sig (Elt F)) :=
  [ binary main_v287 main_v288 main_v289 (cmpi .sge : (⟨S409600, .i32⟩ : BufTy).Contents (Elt F) → (⟨S409600, .i32⟩ : BufTy).Contents (Elt F) → (⟨S409600, .i1⟩ : BufTy).Contents (Elt F)),
    binary main_v265 main_v289 main_v290 (andi : (⟨S409600, .i1⟩ : BufTy).Contents (Elt F) → (⟨S409600, .i1⟩ : BufTy).Contents (Elt F) → (⟨S409600, .i1⟩ : BufTy).Contents (Elt F)),
    nullary main_c_107 (constantI S_ 32 0#32),
    unary main_c_107 main_call18_v0 (id : (⟨S_, .i32⟩ : BufTy).Contents (Elt F) → (⟨S_, .i32⟩ : BufTy).Contents (Elt F)),
    unary main_call18_v0 main_call18_v1 ((broadcastInDim S409600 ![] bcast_S_S409600) : (⟨S_, .i32⟩ : BufTy).Contents (Elt F) → (⟨S409600, .i32⟩ : BufTy).Contents (Elt F)),
    ternary main_v290 main_v287 main_call18_v1 main_v291 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_108 (constantI S_ 32 0#32),
    unary main_c_108 main_v292 (broadcastInDim S409600 ![] bcast_S_S409600 : (⟨S_, .i32⟩ : BufTy).Contents (Elt F) → (⟨S409600, .i32⟩ : BufTy).Contents (Elt F)) ]
abbrev ops_p6_6_W : List (Ref sig .tc) := [main_v289, main_v290, main_c_107, main_call18_v0, main_call18_v1, main_v291, main_c_108, main_v292]
theorem ops_p6_6_writes : (ops_p6_6 : List (HloOp τ sig (Elt F))).Forall fun op => op.writes ⊆ (ops_p6_6_W.map (Proc.devRef (τ := τ) .tc)).toFinset := by
  simp only [ops_p6_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p6_6_keep (V : Valuation τ sig (Elt F)) (r : Ref sig .tc) (h : r ∉ ops_p6_6_W) :
    after ops_p6_6 V (Proc.devRef .tc r) = V (Proc.devRef .tc r) :=
  after_of_writes_sub ops_p6_6 _ ops_p6_6_writes h

set_option maxRecDepth 8192 in
set_option maxHeartbeats 1000000 in
theorem w6_6_main_v290 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_6 V x0 x1 x2 x3 x4 x5 x6) :
    after ops_p6_6 V (Proc.devRef .tc main_v290) = val_main_v290 (F := F) x1 := by
  simp only [ops_p6_6]
  after_results_w
  simp only [h.main_v288, h.main_v287, h.main_v265]
  rfl

set_option maxRecDepth 8192 in
set_option maxHeartbeats 1000000 in
theorem w6_6_main_v291 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_6 V x0 x1 x2 x3 x4 x5 x6) :
    after ops_p6_6 V (Proc.devRef .tc main_v291) = val_main_v291 (F := F) x1 := by
  simp only [ops_p6_6]
  after_results_w
  simp only [h.main_v287, h.main_v288, h.main_v265]
  rfl

set_option maxRecDepth 8192 in
set_option maxHeartbeats 1000000 in
theorem w6_6_main_v292 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_6 V x0 x1 x2 x3 x4 x5 x6) :
    after ops_p6_6 V (Proc.devRef .tc main_v292) = val_main_v292 (F := F) := by
  simp only [ops_p6_6]
  after_results_w
  rfl

theorem step6_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_6 V x0 x1 x2 x3 x4 x5 x6) : Inv6_7 (after ops_p6_6 V) x0 x1 x2 x3 x4 x5 x6 where
  main_arg0 := (ops_p6_6_keep V main_arg0 (by decide)).trans h.main_arg0
  main_arg1 := (ops_p6_6_keep V main_arg1 (by decide)).trans h.main_arg1
  main_arg2 := (ops_p6_6_keep V main_arg2 (by decide)).trans h.main_arg2
  main_arg3 := (ops_p6_6_keep V main_arg3 (by decide)).trans h.main_arg3
  main_arg4 := (ops_p6_6_keep V main_arg4 (by decide)).trans h.main_arg4
  main_arg5 := (ops_p6_6_keep V main_arg5 (by decide)).trans h.main_arg5
  main_arg6 := (ops_p6_6_keep V main_arg6 (by decide)).trans h.main_arg6
  main_v27 := (ops_p6_6_keep V main_v27 (by decide)).trans h.main_v27
  main_v29 := (ops_p6_6_keep V main_v29 (by decide)).trans h.main_v29
  main_v31 := (ops_p6_6_keep V main_v31 (by decide)).trans h.main_v31
  main_v33 := (ops_p6_6_keep V main_v33 (by decide)).trans h.main_v33
  main_v250 := (ops_p6_6_keep V main_v250 (by decide)).trans h.main_v250
  main_v290 := w6_6_main_v290 V x0 x1 x2 x3 x4 x5 x6 h
  main_v291 := w6_6_main_v291 V x0 x1 x2 x3 x4 x5 x6 h
  main_v292 := w6_6_main_v292 V x0 x1 x2 x3 x4 x5 x6 h

/-- Stretch 7 of window 6: @main's operations 477 … 484. -/
def ops_p6_7 : List (HloOp τ sig (Elt F)) :=
  [ binary main_v291 main_v292 main_v293 (cmpi .slt : (⟨S409600, .i32⟩ : BufTy).Contents (Elt F) → (⟨S409600, .i32⟩ : BufTy).Contents (Elt F) → (⟨S409600, .i1⟩ : BufTy).Contents (Elt F)),
    nullary main_c_109 (constantI S_ 32 409600#32),
    unary main_c_109 main_v294 (broadcastInDim S409600 ![] bcast_S_S409600 : (⟨S_, .i32⟩ : BufTy).Contents (Elt F) → (⟨S409600, .i32⟩ : BufTy).Contents (Elt F)),
    binary main_v291 main_v294 main_v295 (addi : (⟨S409600, .i32⟩ : BufTy).Contents (Elt F) → (⟨S409600, .i32⟩ : BufTy).Contents (Elt F) → (⟨S409600, .i32⟩ : BufTy).Contents (Elt F)),
    ternary main_v293 main_v295 main_v291 main_v296 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v296 main_v297 (broadcastInDim S409600x1 ![0] bcast_S409600_S409600x1_0 : (⟨S409600, .i32⟩ : BufTy).Contents (Elt F) → (⟨S409600x1, .i32⟩ : BufTy).Contents (Elt F)),
    binary main_arg0 main_v297 main_v298 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v290 main_v299 (broadcastInDim S409600x1 ![0] bcast_S409600_S409600x1_0 : (⟨S409600, .i1⟩ : BufTy).Contents (Elt F) → (⟨S409600x1, .i1⟩ : BufTy).Contents (Elt F)) ]
abbrev ops_p6_7_W : List (Ref sig .tc) := [main_v293, main_c_109, main_v294, main_v295, main_v296, main_v297, main_v298, main_v299]
theorem ops_p6_7_writes : (ops_p6_7 : List (HloOp τ sig (Elt F))).Forall fun op => op.writes ⊆ (ops_p6_7_W.map (Proc.devRef (τ := τ) .tc)).toFinset := by
  simp only [ops_p6_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p6_7_keep (V : Valuation τ sig (Elt F)) (r : Ref sig .tc) (h : r ∉ ops_p6_7_W) :
    after ops_p6_7 V (Proc.devRef .tc r) = V (Proc.devRef .tc r) :=
  after_of_writes_sub ops_p6_7 _ ops_p6_7_writes h

set_option maxRecDepth 8192 in
set_option maxHeartbeats 1000000 in
theorem w6_7_main_v298 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_7 V x0 x1 x2 x3 x4 x5 x6) :
    after ops_p6_7 V (Proc.devRef .tc main_v298) = val_main_v298 (F := F) x0 x1 := by
  simp only [ops_p6_7]
  after_results_w
  simp only [h.main_v291, h.main_v292, h.main_arg0]
  rfl

set_option maxRecDepth 8192 in
set_option maxHeartbeats 1000000 in
theorem w6_7_main_v299 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_7 V x0 x1 x2 x3 x4 x5 x6) :
    after ops_p6_7 V (Proc.devRef .tc main_v299) = val_main_v299 (F := F) x1 := by
  simp only [ops_p6_7]
  after_results_w
  simp only [h.main_v290]
  rfl

theorem step6_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_7 V x0 x1 x2 x3 x4 x5 x6) : Inv6_8 (after ops_p6_7 V) x0 x1 x2 x3 x4 x5 x6 where
  main_arg0 := (ops_p6_7_keep V main_arg0 (by decide)).trans h.main_arg0
  main_arg1 := (ops_p6_7_keep V main_arg1 (by decide)).trans h.main_arg1
  main_arg2 := (ops_p6_7_keep V main_arg2 (by decide)).trans h.main_arg2
  main_arg3 := (ops_p6_7_keep V main_arg3 (by decide)).trans h.main_arg3
  main_arg4 := (ops_p6_7_keep V main_arg4 (by decide)).trans h.main_arg4
  main_arg5 := (ops_p6_7_keep V main_arg5 (by decide)).trans h.main_arg5
  main_arg6 := (ops_p6_7_keep V main_arg6 (by decide)).trans h.main_arg6
  main_v27 := (ops_p6_7_keep V main_v27 (by decide)).trans h.main_v27
  main_v29 := (ops_p6_7_keep V main_v29 (by decide)).trans h.main_v29
  main_v31 := (ops_p6_7_keep V main_v31 (by decide)).trans h.main_v31
  main_v33 := (ops_p6_7_keep V main_v33 (by decide)).trans h.main_v33
  main_v250 := (ops_p6_7_keep V main_v250 (by decide)).trans h.main_v250
  main_v298 := w6_7_main_v298 V x0 x1 x2 x3 x4 x5 x6 h
  main_v299 := w6_7_main_v299 V x0 x1 x2 x3 x4 x5 x6 h

/-- Stretch 8 of window 6: @main's operations 485 … 492. -/
def ops_p6_8 : List (HloOp τ sig (Elt F)) :=
  [ nullary main_cst_110 (constant S_ .f32 0x00000000#32),
    unary main_cst_110 main_call19_v0 (id : (⟨S_, .f32⟩ : BufTy).Contents (Elt F) → (⟨S_, .f32⟩ : BufTy).Contents (Elt F)),
    unary main_v299 main_call19_v1 ((broadcastInDim S409600x64 ![0, 1] bcast_S409600x1_S409600x64_0_1) : (⟨S409600x1, .i1⟩ : BufTy).Contents (Elt F) → (⟨S409600x64, .i1⟩ : BufTy).Contents (Elt F)),
    unary main_call19_v0 main_call19_v2 ((broadcastInDim S409600x64 ![] bcast_S_S409600x64) : (⟨S_, .f32⟩ : BufTy).Contents (Elt F) → (⟨S409600x64, .f32⟩ : BufTy).Contents (Elt F)),
    ternary main_call19_v1 main_v298 main_call19_v2 main_v300 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v301 ((extractStridedSlice S1x1x64x64 ![1, 1, 0, 0] · slices_S3x3x64x64_S1x1x64x64_1_1_0_0) : (⟨S3x3x64x64, .f32⟩ : BufTy).Contents (Elt F) → (⟨S1x1x64x64, .f32⟩ : BufTy).Contents (Elt F)),
    reshape main_v301 main_v302 rfl shapeCasts_S1x1x64x64_S64x64,
    binary main_v300 main_v302 main_v303 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)) ]
abbrev ops_p6_8_W : List (Ref sig .tc) := [main_cst_110, main_call19_v0, main_call19_v1, main_call19_v2, main_v300, main_v301, main_v302, main_v303]
theorem ops_p6_8_writes : (ops_p6_8 : List (HloOp τ sig (Elt F))).Forall fun op => op.writes ⊆ (ops_p6_8_W.map (Proc.devRef (τ := τ) .tc)).toFinset := by
  simp only [ops_p6_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p6_8_keep (V : Valuation τ sig (Elt F)) (r : Ref sig .tc) (h : r ∉ ops_p6_8_W) :
    after ops_p6_8 V (Proc.devRef .tc r) = V (Proc.devRef .tc r) :=
  after_of_writes_sub ops_p6_8 _ ops_p6_8_writes h

set_option maxRecDepth 8192 in
set_option maxHeartbeats 1000000 in
theorem w6_8_main_v303 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_8 V x0 x1 x2 x3 x4 x5 x6) :
    after ops_p6_8 V (Proc.devRef .tc main_v303) = val_main_v303 (F := F) x0 x1 x2 := by
  simp only [ops_p6_8]
  after_results_w
  simp only [h.main_arg2, h.main_v298, h.main_v299]
  rfl

theorem step6_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_8 V x0 x1 x2 x3 x4 x5 x6) : Inv6_9 (after ops_p6_8 V) x0 x1 x2 x3 x4 x5 x6 where
  main_arg0 := (ops_p6_8_keep V main_arg0 (by decide)).trans h.main_arg0
  main_arg1 := (ops_p6_8_keep V main_arg1 (by decide)).trans h.main_arg1
  main_arg2 := (ops_p6_8_keep V main_arg2 (by decide)).trans h.main_arg2
  main_arg3 := (ops_p6_8_keep V main_arg3 (by decide)).trans h.main_arg3
  main_arg4 := (ops_p6_8_keep V main_arg4 (by decide)).trans h.main_arg4
  main_arg5 := (ops_p6_8_keep V main_arg5 (by decide)).trans h.main_arg5
  main_arg6 := (ops_p6_8_keep V main_arg6 (by decide)).trans h.main_arg6
  main_v27 := (ops_p6_8_keep V main_v27 (by decide)).trans h.main_v27
  main_v29 := (ops_p6_8_keep V main_v29 (by decide)).trans h.main_v29
  main_v31 := (ops_p6_8_keep V main_v31 (by decide)).trans h.main_v31
  main_v33 := (ops_p6_8_keep V main_v33 (by decide)).trans h.main_v33
  main_v250 := (ops_p6_8_keep V main_v250 (by decide)).trans h.main_v250
  main_v303 := w6_8_main_v303 V x0 x1 x2 x3 x4 x5 x6 h

/-- Stretch 9 of window 6: @main's operations 493 … 495. -/
def ops_p6_9 : List (HloOp τ sig (Elt F)) :=
  [ binary main_v250 main_v303 main_v304 (addf : (⟨S409600x64, .f32⟩ : BufTy).Contents (Elt F) → (⟨S409600x64, .f32⟩ : BufTy).Contents (Elt F) → (⟨S409600x64, .f32⟩ : BufTy).Contents (Elt F)),
    nullary main_c_111 (constantI S_ 32 0#32),
    unary main_c_111 main_v305 (broadcastInDim S409600 ![] bcast_S_S409600 : (⟨S_, .i32⟩ : BufTy).Contents (Elt F) → (⟨S409600, .i32⟩ : BufTy).Contents (Elt F)) ]
abbrev ops_p6_9_W : List (Ref sig .tc) := [main_v304, main_c_111, main_v305]
theorem ops_p6_9_writes : (ops_p6_9 : List (HloOp τ sig (Elt F))).Forall fun op => op.writes ⊆ (ops_p6_9_W.map (Proc.devRef (τ := τ) .tc)).toFinset := by
  simp only [ops_p6_9, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p6_9_keep (V : Valuation τ sig (Elt F)) (r : Ref sig .tc) (h : r ∉ ops_p6_9_W) :
    after ops_p6_9 V (Proc.devRef .tc r) = V (Proc.devRef .tc r) :=
  after_of_writes_sub ops_p6_9 _ ops_p6_9_writes h

set_option maxRecDepth 8192 in
set_option maxHeartbeats 1000000 in
theorem w6_9_main_v304 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_9 V x0 x1 x2 x3 x4 x5 x6) :
    after ops_p6_9 V (Proc.devRef .tc main_v304) = val_main_v304 (F := F) x0 x1 x2 := by
  simp only [ops_p6_9]
  after_results_w
  simp only [h.main_v303, h.main_v250]
  rfl

set_option maxRecDepth 8192 in
set_option maxHeartbeats 1000000 in
theorem w6_9_main_v305 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_9 V x0 x1 x2 x3 x4 x5 x6) :
    after ops_p6_9 V (Proc.devRef .tc main_v305) = val_main_v305 (F := F) := by
  simp only [ops_p6_9]
  after_results_w
  rfl

theorem step6_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6_9 V x0 x1 x2 x3 x4 x5 x6) : Inv7 (after ops_p6_9 V) x0 x1 x2 x3 x4 x5 x6 where
  main_arg0 := (ops_p6_9_keep V main_arg0 (by decide)).trans h.main_arg0
  main_arg1 := (ops_p6_9_keep V main_arg1 (by decide)).trans h.main_arg1
  main_arg2 := (ops_p6_9_keep V main_arg2 (by decide)).trans h.main_arg2
  main_arg3 := (ops_p6_9_keep V main_arg3 (by decide)).trans h.main_arg3
  main_arg4 := (ops_p6_9_keep V main_arg4 (by decide)).trans h.main_arg4
  main_arg5 := (ops_p6_9_keep V main_arg5 (by decide)).trans h.main_arg5
  main_arg6 := (ops_p6_9_keep V main_arg6 (by decide)).trans h.main_arg6
  main_v27 := (ops_p6_9_keep V main_v27 (by decide)).trans h.main_v27
  main_v29 := (ops_p6_9_keep V main_v29 (by decide)).trans h.main_v29
  main_v31 := (ops_p6_9_keep V main_v31 (by decide)).trans h.main_v31
  main_v33 := (ops_p6_9_keep V main_v33 (by decide)).trans h.main_v33
  main_v304 := w6_9_main_v304 V x0 x1 x2 x3 x4 x5 x6 h
  main_v305 := w6_9_main_v305 V x0 x1 x2 x3 x4 x5 x6 h

set_option maxRecDepth 8192 in
theorem ops_p6_split : (ops_p6 : List (HloOp τ sig (Elt F))) = ops_p6_0 ++ (ops_p6_1 ++ (ops_p6_2 ++ (ops_p6_3 ++ (ops_p6_4 ++ (ops_p6_5 ++ (ops_p6_6 ++ (ops_p6_7 ++ (ops_p6_8 ++ (ops_p6_9))))))))) := rfl

/-- Window 6 carries the staged reading from boundary 6 to boundary 7. -/
theorem step6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv6 V x0 x1 x2 x3 x4 x5 x6) : Inv7 (after ops_p6 V) x0 x1 x2 x3 x4 x5 x6 := by
  rw [ops_p6_split]; simp only [after_app]
  exact step6_9 _ x0 x1 x2 x3 x4 x5 x6 (step6_8 _ x0 x1 x2 x3 x4 x5 x6 (step6_7 _ x0 x1 x2 x3 x4 x5 x6 (step6_6 _ x0 x1 x2 x3 x4 x5 x6 (step6_5 _ x0 x1 x2 x3 x4 x5 x6 (step6_4 _ x0 x1 x2 x3 x4 x5 x6 (step6_3 _ x0 x1 x2 x3 x4 x5 x6 (step6_2 _ x0 x1 x2 x3 x4 x5 x6 (step6_1 _ x0 x1 x2 x3 x4 x5 x6 (step6_0 V x0 x1 x2 x3 x4 x5 x6 h)))))))))

end Cert.ReferenceIdeal.Hand

end
-- ==== Proof.Ref.W7.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 7 of @main: its operations 496 … 567 of 1688, in order. -/
def ops_p7 : List (HloOp τ sig (Elt F)) :=
  [ binary main_v31 main_v305 main_v306 (addi : (⟨S409600, .i32⟩ : BufTy).Contents (Elt F) → (⟨S409600, .i32⟩ : BufTy).Contents (Elt F) → (⟨S409600, .i32⟩ : BufTy).Contents (Elt F)),
    nullary main_c_112 (constantI S_ 32 1#32),
    unary main_c_112 main_v307 (broadcastInDim S409600 ![] bcast_S_S409600 : (⟨S_, .i32⟩ : BufTy).Contents (Elt F) → (⟨S409600, .i32⟩ : BufTy).Contents (Elt F)),
    binary main_v33 main_v307 main_v308 (addi : (⟨S409600, .i32⟩ : BufTy).Contents (Elt F) → (⟨S409600, .i32⟩ : BufTy).Contents (Elt F) → (⟨S409600, .i32⟩ : BufTy).Contents (Elt F)),
    nullary main_c_113 (constantI S_ 32 0#32),
    unary main_c_113 main_v309 (broadcastInDim S409600 ![] bcast_S_S409600 : (⟨S_, .i32⟩ : BufTy).Contents (Elt F) → (⟨S409600, .i32⟩ : BufTy).Contents (Elt F)),
    binary main_v306 main_v309 main_v310 (cmpi .sge : (⟨S409600, .i32⟩ : BufTy).Contents (Elt F) → (⟨S409600, .i32⟩ : BufTy).Contents (Elt F) → (⟨S409600, .i1⟩ : BufTy).Contents (Elt F)),
    nullary main_c_114 (constantI S_ 32 640#32),
    unary main_c_114 main_v311 (broadcastInDim S409600 ![] bcast_S_S409600 : (⟨S_, .i32⟩ : BufTy).Contents (Elt F) → (⟨S409600, .i32⟩ : BufTy).Contents (Elt F)),
    binary main_v306 main_v311 main_v312 (cmpi .slt : (⟨S409600, .i32⟩ : BufTy).Contents (Elt F) → (⟨S409600, .i32⟩ : BufTy).Contents (Elt F) → (⟨S409600, .i1⟩ : BufTy).Contents (Elt F)),
    binary main_v310 main_v312 main_v313 (andi : (⟨S409600, .i1⟩ : BufTy).Contents (Elt F) → (⟨S409600, .i1⟩ : BufTy).Contents (Elt F) → (⟨S409600, .i1⟩ : BufTy).Contents (Elt F)),
    nullary main_c_115 (constantI S_ 32 0#32),
    unary main_c_115 main_v314 (broadcastInDim S409600 ![] bcast_S_S409600 : (⟨S_, .i32⟩ : BufTy).Contents (Elt F) → (⟨S409600, .i32⟩ : BufTy).Contents (Elt F)),
    binary main_v308 main_v314 main_v315 (cmpi .sge : (⟨S409600, .i32⟩ : BufTy).Contents (Elt F) → (⟨S409600, .i32⟩ : BufTy).Contents (Elt F) → (⟨S409600, .i1⟩ : BufTy).Contents (Elt F)),
    binary main_v313 main_v315 main_v316 (andi : (⟨S409600, .i1⟩ : BufTy).Contents (Elt F) → (⟨S409600, .i1⟩ : BufTy).Contents (Elt F) → (⟨S409600, .i1⟩ : BufTy).Contents (Elt F)),
    nullary main_c_116 (constantI S_ 32 640#32),
    unary main_c_116 main_v317 (broadcastInDim S409600 ![] bcast_S_S409600 : (⟨S_, .i32⟩ : BufTy).Contents (Elt F) → (⟨S409600, .i32⟩ : BufTy).Contents (Elt F)),
    binary main_v308 main_v317 main_v318 (cmpi .slt : (⟨S409600, .i32⟩ : BufTy).Contents (Elt F) → (⟨S409600, .i32⟩ : BufTy).Contents (Elt F) → (⟨S409600, .i1⟩ : BufTy).Contents (Elt F)),
    binary main_v316 main_v318 main_v319 (andi : (⟨S409600, .i1⟩ : BufTy).Contents (Elt F) → (⟨S409600, .i1⟩ : BufTy).Contents (Elt F) → (⟨S409600, .i1⟩ : BufTy).Contents (Elt F)),
    nullary main_c_117 (constantI S_ 32 0#32),
    nullary main_c_118 (constantI S_ 32 639#32),
    unary main_c_117 main_call20_v0 (id : (⟨S_, .i32⟩ : BufTy).Contents (Elt F) → (⟨S_, .i32⟩ : BufTy).Contents (Elt F)),
    unary main_call20_v0 main_call20_v1 ((broadcastInDim S409600 ![] bcast_S_S409600) : (⟨S_, .i32⟩ : BufTy).Contents (Elt F) → (⟨S409600, .i32⟩ : BufTy).Contents (Elt F)),
    binary main_call20_v1 main_v306 main_call20_v2 (maxsi : (⟨S409600, .i32⟩ : BufTy).Contents (Elt F) → (⟨S409600, .i32⟩ : BufTy).Contents (Elt F) → (⟨S409600, .i32⟩ : BufTy).Contents (Elt F)),
    unary main_c_118 main_call20_v3 (id : (⟨S_, .i32⟩ : BufTy).Contents (Elt F) → (⟨S_, .i32⟩ : BufTy).Contents (Elt F)),
    unary main_call20_v3 main_call20_v4 ((broadcastInDim S409600 ![] bcast_S_S409600) : (⟨S_, .i32⟩ : BufTy).Contents (Elt F) → (⟨S409600, .i32⟩ : BufTy).Contents (Elt F)),
    binary main_call20_v4 main_call20_v2 main_v320 (minsi : (⟨S409600, .i32⟩ : BufTy).Contents (Elt F) → (⟨S409600, .i32⟩ : BufTy).Contents (Elt F) → (⟨S409600, .i32⟩ : BufTy).Contents (Elt F)),
    nullary main_c_119 (constantI S_ 32 0#32),
    nullary main_c_120 (constantI S_ 32 639#32),
    unary main_c_119 main_call21_v0 (id : (⟨S_, .i32⟩ : BufTy).Contents (Elt F) → (⟨S_, .i32⟩ : BufTy).Contents (Elt F)),
    unary main_call21_v0 main_call21_v1 ((broadcastInDim S409600 ![] bcast_S_S409600) : (⟨S_, .i32⟩ : BufTy).Contents (Elt F) → (⟨S409600, .i32⟩ : BufTy).Contents (Elt F)),
    binary main_call21_v1 main_v308 main_call21_v2 (maxsi : (⟨S409600, .i32⟩ : BufTy).Contents (Elt F) → (⟨S409600, .i32⟩ : BufTy).Contents (Elt F) → (⟨S409600, .i32⟩ : BufTy).Contents (Elt F)),
    unary main_c_120 main_call21_v3 (id : (⟨S_, .i32⟩ : BufTy).Contents (Elt F) → (⟨S_, .i32⟩ : BufTy).Contents (Elt F)),
    unary main_call21_v3 main_call21_v4 ((broadcastInDim S409600 ![] bcast_S_S409600) : (⟨S_, .i32⟩ : BufTy).Contents (Elt F) → (⟨S409600, .i32⟩ : BufTy).Contents (Elt F)),
    binary main_call21_v4 main_call21_v2 main_v321 (minsi : (⟨S409600, .i32⟩ : BufTy).Contents (Elt F) → (⟨S409600, .i32⟩ : BufTy).Contents (Elt F) → (⟨S409600, .i32⟩ : BufTy).Contents (Elt F)),
    nullary main_c_121 (constantI S_ 32 0#32),
    unary main_c_121 main_v322 (broadcastInDim S409600 ![] bcast_S_S409600 : (⟨S_, .i32⟩ : BufTy).Contents (Elt F) → (⟨S409600, .i32⟩ : BufTy).Contents (Elt F)),
    binary main_v29 main_v322 main_v323 (cmpi .slt : (⟨S409600, .i32⟩ : BufTy).Contents (Elt F) → (⟨S409600, .i32⟩ : BufTy).Contents (Elt F) → (⟨S409600, .i1⟩ : BufTy).Contents (Elt F)),
    nullary main_c_122 (constantI S_ 32 2#32),
    unary main_c_122 main_v324 (broadcastInDim S409600 ![] bcast_S_S409600 : (⟨S_, .i32⟩ : BufTy).Contents (Elt F) → (⟨S409600, .i32⟩ : BufTy).Contents (Elt F)),
    binary main_v29 main_v324 main_v325 (addi : (⟨S409600, .i32⟩ : BufTy).Contents (Elt F) → (⟨S409600, .i32⟩ : BufTy).Contents (Elt F) → (⟨S409600, .i32⟩ : BufTy).Contents (Elt F)),
    ternary main_v323 main_v325 main_v29 main_v326 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_123 (constantI S_ 32 0#32),
    unary main_c_123 main_v327 (broadcastInDim S409600 ![] bcast_S_S409600 : (⟨S_, .i32⟩ : BufTy).Contents (Elt F) → (⟨S409600, .i32⟩ : BufTy).Contents (Elt F)),
    binary main_v320 main_v327 main_v328 (cmpi .slt : (⟨S409600, .i32⟩ : BufTy).Contents (Elt F) → (⟨S409600, .i32⟩ : BufTy).Contents (Elt F) → (⟨S409600, .i1⟩ : BufTy).Contents (Elt F)),
    nullary main_c_124 (constantI S_ 32 640#32),
    unary main_c_124 main_v329 (broadcastInDim S409600 ![] bcast_S_S409600 : (⟨S_, .i32⟩ : BufTy).Contents (Elt F) → (⟨S409600, .i32⟩ : BufTy).Contents (Elt F)),
    binary main_v320 main_v329 main_v330 (addi : (⟨S409600, .i32⟩ : BufTy).Contents (Elt F) → (⟨S409600, .i32⟩ : BufTy).Contents (Elt F) → (⟨S409600, .i32⟩ : BufTy).Contents (Elt F)),
    ternary main_v328 main_v330 main_v320 main_v331 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_125 (constantI S_ 32 0#32),
    unary main_c_125 main_v332 (broadcastInDim S409600 ![] bcast_S_S409600 : (⟨S_, .i32⟩ : BufTy).Contents (Elt F) → (⟨S409600, .i32⟩ : BufTy).Contents (Elt F)),
    binary main_v321 main_v332 main_v333 (cmpi .slt : (⟨S409600, .i32⟩ : BufTy).Contents (Elt F) → (⟨S409600, .i32⟩ : BufTy).Contents (Elt F) → (⟨S409600, .i1⟩ : BufTy).Contents (Elt F)),
    nullary main_c_126 (constantI S_ 32 640#32),
    unary main_c_126 main_v334 (broadcastInDim S409600 ![] bcast_S_S409600 : (⟨S_, .i32⟩ : BufTy).Contents (Elt F) → (⟨S409600, .i32⟩ : BufTy).Contents (Elt F)),
    binary main_v321 main_v334 main_v335 (addi : (⟨S409600, .i32⟩ : BufTy).Contents (Elt F) → (⟨S409600, .i32⟩ : BufTy).Contents (Elt F) → (⟨S409600, .i32⟩ : BufTy).Contents (Elt F)),
    ternary main_v333 main_v335 main_v321 main_v336 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v326 main_v337 (broadcastInDim S409600x1 ![0] bcast_S409600_S409600x1_0 : (⟨S409600, .i32⟩ : BufTy).Contents (Elt F) → (⟨S409600x1, .i32⟩ : BufTy).Contents (Elt F)),
    unary main_v331 main_v338 (broadcastInDim S409600x1 ![0] bcast_S409600_S409600x1_0 : (⟨S409600, .i32⟩ : BufTy).Contents (Elt F) → (⟨S409600x1, .i32⟩ : BufTy).Contents (Elt F)),
    unary main_v336 main_v339 (broadcastInDim S409600x1 ![0] bcast_S409600_S409600x1_0 : (⟨S409600, .i32⟩ : BufTy).Contents (Elt F) → (⟨S409600x1, .i32⟩ : BufTy).Contents (Elt F)),
    nary ![main_v337, main_v338, main_v339] main_v340 (fun u => concatenate S409600x3 1 [⟨S409600x1, u 0⟩, ⟨S409600x1, u 1⟩, ⟨S409600x1, u 2⟩] concatenates_S409600x1_S409600x1_S409600x1_S409600x3_d1),
    binary main_v27 main_v340 main_v341 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_127 (constantI S_ 32 0#32),
    unary main_c_127 main_v342 (broadcastInDim S409600 ![] bcast_S_S409600 : (⟨S_, .i32⟩ : BufTy).Contents (Elt F) → (⟨S409600, .i32⟩ : BufTy).Contents (Elt F)),
    binary main_v341 main_v342 main_v343 (cmpi .sge : (⟨S409600, .i32⟩ : BufTy).Contents (Elt F) → (⟨S409600, .i32⟩ : BufTy).Contents (Elt F) → (⟨S409600, .i1⟩ : BufTy).Contents (Elt F)),
    binary main_v319 main_v343 main_v344 (andi : (⟨S409600, .i1⟩ : BufTy).Contents (Elt F) → (⟨S409600, .i1⟩ : BufTy).Contents (Elt F) → (⟨S409600, .i1⟩ : BufTy).Contents (Elt F)),
    nullary main_c_128 (constantI S_ 32 0#32),
    unary main_c_128 main_call22_v0 (id : (⟨S_, .i32⟩ : BufTy).Contents (Elt F) → (⟨S_, .i32⟩ : BufTy).Contents (Elt F)),
    unary main_call22_v0 main_call22_v1 ((broadcastInDim S409600 ![] bcast_S_S409600) : (⟨S_, .i32⟩ : BufTy).Contents (Elt F) → (⟨S409600, .i32⟩ : BufTy).Contents (Elt F)),
    ternary main_v344 main_v341 main_call22_v1 main_v345 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_129 (constantI S_ 32 0#32),
    unary main_c_129 main_v346 (broadcastInDim S409600 ![] bcast_S_S409600 : (⟨S_, .i32⟩ : BufTy).Contents (Elt F) → (⟨S409600, .i32⟩ : BufTy).Contents (Elt F)),
    binary main_v345 main_v346 main_v347 (cmpi .slt : (⟨S409600, .i32⟩ : BufTy).Contents (Elt F) → (⟨S409600, .i32⟩ : BufTy).Contents (Elt F) → (⟨S409600, .i1⟩ : BufTy).Contents (Elt F)) ]

set_option maxRecDepth 8192 in
set_option maxHeartbeats 4000000 in
theorem main_part7_eq (c : Dev nD) : main_part7 (F := F) c = seq ops_p7 := by
  simp only [main_part7, ops_p7, fn_clip.body, fn_where.body, fn_where_0.body, fn_relu.body, seq, bind_assoc, pure_bind]
  rfl

set_option maxRecDepth 8192 in
theorem ops_p7_sub : (ops_p7 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub ..⟩

set_option maxRecDepth 8192 in
theorem ops_p7_fresh : ∀ op ∈ (ops_p7 : List (HloOp τ sig (Elt F))), op.fresh = ∅ := by
  unfold ops_p7; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 504 on hold before it. -/
structure Inv7_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v306 : V (Proc.devRef .tc main_v306) = val_main_v306 (F := F) x1
  main_v308 : V (Proc.devRef .tc main_v308) = val_main_v308 (F := F) x1
  main_v310 : V (Proc.devRef .tc main_v310) = val_main_v310 (F := F) x1
  main_c_114 : V (Proc.devRef .tc main_c_114) = val_main_c_114 (F := F)

/-- What the buffers read from operation 512 on hold before it. -/
structure Inv7_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v306 : V (Proc.devRef .tc main_v306) = val_main_v306 (F := F) x1
  main_v308 : V (Proc.devRef .tc main_v308) = val_main_v308 (F := F) x1
  main_v316 : V (Proc.devRef .tc main_v316) = val_main_v316 (F := F) x1
  main_c_116 : V (Proc.devRef .tc main_c_116) = val_main_c_116 (F := F)

/-- What the buffers read from operation 520 on hold before it. -/
structure Inv7_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v308 : V (Proc.devRef .tc main_v308) = val_main_v308 (F := F) x1
  main_v319 : V (Proc.devRef .tc main_v319) = val_main_v319 (F := F) x1
  main_c_118 : V (Proc.devRef .tc main_c_118) = val_main_c_118 (F := F)
  main_call20_v2 : V (Proc.devRef .tc main_call20_v2) = val_main_call20_v2 (F := F) x1

/-- What the buffers read from operation 528 on hold before it. -/
structure Inv7_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v319 : V (Proc.devRef .tc main_v319) = val_main_v319 (F := F) x1
  main_v320 : V (Proc.devRef .tc main_v320) = val_main_v320 (F := F) x1
  main_c_120 : V (Proc.devRef .tc main_c_120) = val_main_c_120 (F := F)
  main_call21_v2 : V (Proc.devRef .tc main_call21_v2) = val_main_call21_v2 (F := F) x1

/-- What the buffers read from operation 536 on hold before it. -/
structure Inv7_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v319 : V (Proc.devRef .tc main_v319) = val_main_v319 (F := F) x1
  main_v320 : V (Proc.devRef .tc main_v320) = val_main_v320 (F := F) x1
  main_v321 : V (Proc.devRef .tc main_v321) = val_main_v321 (F := F) x1
  main_v323 : V (Proc.devRef .tc main_v323) = val_main_v323 (F := F) x1
  main_v324 : V (Proc.devRef .tc main_v324) = val_main_v324 (F := F)

/-- What the buffers read from operation 544 on hold before it. -/
structure Inv7_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v319 : V (Proc.devRef .tc main_v319) = val_main_v319 (F := F) x1
  main_v320 : V (Proc.devRef .tc main_v320) = val_main_v320 (F := F) x1
  main_v321 : V (Proc.devRef .tc main_v321) = val_main_v321 (F := F) x1
  main_v326 : V (Proc.devRef .tc main_v326) = val_main_v326 (F := F) x1
  main_v328 : V (Proc.devRef .tc main_v328) = val_main_v328 (F := F) x1
  main_v330 : V (Proc.devRef .tc main_v330) = val_main_v330 (F := F) x1

/-- What the buffers read from operation 552 on hold before it. -/
structure Inv7_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v319 : V (Proc.devRef .tc main_v319) = val_main_v319 (F := F) x1
  main_v326 : V (Proc.devRef .tc main_v326) = val_main_v326 (F := F) x1
  main_v331 : V (Proc.devRef .tc main_v331) = val_main_v331 (F := F) x1
  main_v336 : V (Proc.devRef .tc main_v336) = val_main_v336 (F := F) x1

/-- What the buffers read from operation 560 on hold before it. -/
structure Inv7_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v319 : V (Proc.devRef .tc main_v319) = val_main_v319 (F := F) x1
  main_v341 : V (Proc.devRef .tc main_v341) = val_main_v341 (F := F) x1
  main_v343 : V (Proc.devRef .tc main_v343) = val_main_v343 (F := F) x1

/-- Stretch 0 of window 7: @main's operations 496 … 503. -/
def ops_p7_0 : List (HloOp τ sig (Elt F)) :=
  [ binary main_v31 main_v305 main_v306 (addi : (⟨S409600, .i32⟩ : BufTy).Contents (Elt F) → (⟨S409600, .i32⟩ : BufTy).Contents (Elt F) → (⟨S409600, .i32⟩ : BufTy).Contents (Elt F)),
    nullary main_c_112 (constantI S_ 32 1#32),
    unary main_c_112 main_v307 (broadcastInDim S409600 ![] bcast_S_S409600 : (⟨S_, .i32⟩ : BufTy).Contents (Elt F) → (⟨S409600, .i32⟩ : BufTy).Contents (Elt F)),
    binary main_v33 main_v307 main_v308 (addi : (⟨S409600, .i32⟩ : BufTy).Contents (Elt F) → (⟨S409600, .i32⟩ : BufTy).Contents (Elt F) → (⟨S409600, .i32⟩ : BufTy).Contents (Elt F)),
    nullary main_c_113 (constantI S_ 32 0#32),
    unary main_c_113 main_v309 (broadcastInDim S409600 ![] bcast_S_S409600 : (⟨S_, .i32⟩ : BufTy).Contents (Elt F) → (⟨S409600, .i32⟩ : BufTy).Contents (Elt F)),
    binary main_v306 main_v309 main_v310 (cmpi .sge : (⟨S409600, .i32⟩ : BufTy).Contents (Elt F) → (⟨S409600, .i32⟩ : BufTy).Contents (Elt F) → (⟨S409600, .i1⟩ : BufTy).Contents (Elt F)),
    nullary main_c_114 (constantI S_ 32 640#32) ]
abbrev ops_p7_0_W : List (Ref sig .tc) := [main_v306, main_c_112, main_v307, main_v308, main_c_113, main_v309, main_v310, main_c_114]
theorem ops_p7_0_writes : (ops_p7_0 : List (HloOp τ sig (Elt F))).Forall fun op => op.writes ⊆ (ops_p7_0_W.map (Proc.devRef (τ := τ) .tc)).toFinset := by
  simp only [ops_p7_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p7_0_keep (V : Valuation τ sig (Elt F)) (r : Ref sig .tc) (h : r ∉ ops_p7_0_W) :
    after ops_p7_0 V (Proc.devRef .tc r) = V (Proc.devRef .tc r) :=
  after_of_writes_sub ops_p7_0 _ ops_p7_0_writes h

set_option maxRecDepth 8192 in
set_option maxHeartbeats 1000000 in
theorem w7_0_main_v306 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7 V x0 x1 x2 x3 x4 x5 x6) :
    after ops_p7_0 V (Proc.devRef .tc main_v306) = val_main_v306 (F := F) x1 := by
  simp only [ops_p7_0]
  after_results_w
  simp only [h.main_v305, h.main_v31]
  rfl

set_option maxRecDepth 8192 in
set_option maxHeartbeats 1000000 in
theorem w7_0_main_v308 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7 V x0 x1 x2 x3 x4 x5 x6) :
    after ops_p7_0 V (Proc.devRef .tc main_v308) = val_main_v308 (F := F) x1 := by
  simp only [ops_p7_0]
  after_results_w
  simp only [h.main_v33]
  rfl

set_option maxRecDepth 8192 in
set_option maxHeartbeats 1000000 in
theorem w7_0_main_v310 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7 V x0 x1 x2 x3 x4 x5 x6) :
    after ops_p7_0 V (Proc.devRef .tc main_v310) = val_main_v310 (F := F) x1 := by
  simp only [ops_p7_0]
  after_results_w
  simp only [h.main_v305, h.main_v31]
  rfl

set_option maxRecDepth 8192 in
set_option maxHeartbeats 1000000 in
theorem w7_0_main_c_114 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7 V x0 x1 x2 x3 x4 x5 x6) :
    after ops_p7_0 V (Proc.devRef .tc main_c_114) = val_main_c_114 (F := F) := by
  simp only [ops_p7_0]
  after_results_w
  rfl

theorem step7_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7 V x0 x1 x2 x3 x4 x5 x6) : Inv7_1 (after ops_p7_0 V) x0 x1 x2 x3 x4 x5 x6 where
  main_arg0 := (ops_p7_0_keep V main_arg0 (by decide)).trans h.main_arg0
  main_arg1 := (ops_p7_0_keep V main_arg1 (by decide)).trans h.main_arg1
  main_arg2 := (ops_p7_0_keep V main_arg2 (by decide)).trans h.main_arg2
  main_arg3 := (ops_p7_0_keep V main_arg3 (by decide)).trans h.main_arg3
  main_arg4 := (ops_p7_0_keep V main_arg4 (by decide)).trans h.main_arg4
  main_arg5 := (ops_p7_0_keep V main_arg5 (by decide)).trans h.main_arg5
  main_arg6 := (ops_p7_0_keep V main_arg6 (by decide)).trans h.main_arg6
  main_v27 := (ops_p7_0_keep V main_v27 (by decide)).trans h.main_v27
  main_v29 := (ops_p7_0_keep V main_v29 (by decide)).trans h.main_v29
  main_v31 := (ops_p7_0_keep V main_v31 (by decide)).trans h.main_v31
  main_v33 := (ops_p7_0_keep V main_v33 (by decide)).trans h.main_v33
  main_v304 := (ops_p7_0_keep V main_v304 (by decide)).trans h.main_v304
  main_v306 := w7_0_main_v306 V x0 x1 x2 x3 x4 x5 x6 h
  main_v308 := w7_0_main_v308 V x0 x1 x2 x3 x4 x5 x6 h
  main_v310 := w7_0_main_v310 V x0 x1 x2 x3 x4 x5 x6 h
  main_c_114 := w7_0_main_c_114 V x0 x1 x2 x3 x4 x5 x6 h

/-- Stretch 1 of window 7: @main's operations 504 … 511. -/
def ops_p7_1 : List (HloOp τ sig (Elt F)) :=
  [ unary main_c_114 main_v311 (broadcastInDim S409600 ![] bcast_S_S409600 : (⟨S_, .i32⟩ : BufTy).Contents (Elt F) → (⟨S409600, .i32⟩ : BufTy).Contents (Elt F)),
    binary main_v306 main_v311 main_v312 (cmpi .slt : (⟨S409600, .i32⟩ : BufTy).Contents (Elt F) → (⟨S409600, .i32⟩ : BufTy).Contents (Elt F) → (⟨S409600, .i1⟩ : BufTy).Contents (Elt F)),
    binary main_v310 main_v312 main_v313 (andi : (⟨S409600, .i1⟩ : BufTy).Contents (Elt F) → (⟨S409600, .i1⟩ : BufTy).Contents (Elt F) → (⟨S409600, .i1⟩ : BufTy).Contents (Elt F)),
    nullary main_c_115 (constantI S_ 32 0#32),
    unary main_c_115 main_v314 (broadcastInDim S409600 ![] bcast_S_S409600 : (⟨S_, .i32⟩ : BufTy).Contents (Elt F) → (⟨S409600, .i32⟩ : BufTy).Contents (Elt F)),
    binary main_v308 main_v314 main_v315 (cmpi .sge : (⟨S409600, .i32⟩ : BufTy).Contents (Elt F) → (⟨S409600, .i32⟩ : BufTy).Contents (Elt F) → (⟨S409600, .i1⟩ : BufTy).Contents (Elt F)),
    binary main_v313 main_v315 main_v316 (andi : (⟨S409600, .i1⟩ : BufTy).Contents (Elt F) → (⟨S409600, .i1⟩ : BufTy).Contents (Elt F) → (⟨S409600, .i1⟩ : BufTy).Contents (Elt F)),
    nullary main_c_116 (constantI S_ 32 640#32) ]
abbrev ops_p7_1_W : List (Ref sig .tc) := [main_v311, main_v312, main_v313, main_c_115, main_v314, main_v315, main_v316, main_c_116]
theorem ops_p7_1_writes : (ops_p7_1 : List (HloOp τ sig (Elt F))).Forall fun op => op.writes ⊆ (ops_p7_1_W.map (Proc.devRef (τ := τ) .tc)).toFinset := by
  simp only [ops_p7_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p7_1_keep (V : Valuation τ sig (Elt F)) (r : Ref sig .tc) (h : r ∉ ops_p7_1_W) :
    after ops_p7_1 V (Proc.devRef .tc r) = V (Proc.devRef .tc r) :=
  after_of_writes_sub ops_p7_1 _ ops_p7_1_writes h

set_option maxRecDepth 8192 in
set_option maxHeartbeats 1000000 in
theorem w7_1_main_v316 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_1 V x0 x1 x2 x3 x4 x5 x6) :
    after ops_p7_1 V (Proc.devRef .tc main_v316) = val_main_v316 (F := F) x1 := by
  simp only [ops_p7_1]
  after_results_w
  simp only [h.main_v308, h.main_c_114, h.main_v306, h.main_v310]
  rfl

set_option maxRecDepth 8192 in
set_option maxHeartbeats 1000000 in
theorem w7_1_main_c_116 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_1 V x0 x1 x2 x3 x4 x5 x6) :
    after ops_p7_1 V (Proc.devRef .tc main_c_116) = val_main_c_116 (F := F) := by
  simp only [ops_p7_1]
  after_results_w
  rfl

theorem step7_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_1 V x0 x1 x2 x3 x4 x5 x6) : Inv7_2 (after ops_p7_1 V) x0 x1 x2 x3 x4 x5 x6 where
  main_arg0 := (ops_p7_1_keep V main_arg0 (by decide)).trans h.main_arg0
  main_arg1 := (ops_p7_1_keep V main_arg1 (by decide)).trans h.main_arg1
  main_arg2 := (ops_p7_1_keep V main_arg2 (by decide)).trans h.main_arg2
  main_arg3 := (ops_p7_1_keep V main_arg3 (by decide)).trans h.main_arg3
  main_arg4 := (ops_p7_1_keep V main_arg4 (by decide)).trans h.main_arg4
  main_arg5 := (ops_p7_1_keep V main_arg5 (by decide)).trans h.main_arg5
  main_arg6 := (ops_p7_1_keep V main_arg6 (by decide)).trans h.main_arg6
  main_v27 := (ops_p7_1_keep V main_v27 (by decide)).trans h.main_v27
  main_v29 := (ops_p7_1_keep V main_v29 (by decide)).trans h.main_v29
  main_v31 := (ops_p7_1_keep V main_v31 (by decide)).trans h.main_v31
  main_v33 := (ops_p7_1_keep V main_v33 (by decide)).trans h.main_v33
  main_v304 := (ops_p7_1_keep V main_v304 (by decide)).trans h.main_v304
  main_v306 := (ops_p7_1_keep V main_v306 (by decide)).trans h.main_v306
  main_v308 := (ops_p7_1_keep V main_v308 (by decide)).trans h.main_v308
  main_v316 := w7_1_main_v316 V x0 x1 x2 x3 x4 x5 x6 h
  main_c_116 := w7_1_main_c_116 V x0 x1 x2 x3 x4 x5 x6 h

/-- Stretch 2 of window 7: @main's operations 512 … 519. -/
def ops_p7_2 : List (HloOp τ sig (Elt F)) :=
  [ unary main_c_116 main_v317 (broadcastInDim S409600 ![] bcast_S_S409600 : (⟨S_, .i32⟩ : BufTy).Contents (Elt F) → (⟨S409600, .i32⟩ : BufTy).Contents (Elt F)),
    binary main_v308 main_v317 main_v318 (cmpi .slt : (⟨S409600, .i32⟩ : BufTy).Contents (Elt F) → (⟨S409600, .i32⟩ : BufTy).Contents (Elt F) → (⟨S409600, .i1⟩ : BufTy).Contents (Elt F)),
    binary main_v316 main_v318 main_v319 (andi : (⟨S409600, .i1⟩ : BufTy).Contents (Elt F) → (⟨S409600, .i1⟩ : BufTy).Contents (Elt F) → (⟨S409600, .i1⟩ : BufTy).Contents (Elt F)),
    nullary main_c_117 (constantI S_ 32 0#32),
    nullary main_c_118 (constantI S_ 32 639#32),
    unary main_c_117 main_call20_v0 (id : (⟨S_, .i32⟩ : BufTy).Contents (Elt F) → (⟨S_, .i32⟩ : BufTy).Contents (Elt F)),
    unary main_call20_v0 main_call20_v1 ((broadcastInDim S409600 ![] bcast_S_S409600) : (⟨S_, .i32⟩ : BufTy).Contents (Elt F) → (⟨S409600, .i32⟩ : BufTy).Contents (Elt F)),
    binary main_call20_v1 main_v306 main_call20_v2 (maxsi : (⟨S409600, .i32⟩ : BufTy).Contents (Elt F) → (⟨S409600, .i32⟩ : BufTy).Contents (Elt F) → (⟨S409600, .i32⟩ : BufTy).Contents (Elt F)) ]
abbrev ops_p7_2_W : List (Ref sig .tc) := [main_v317, main_v318, main_v319, main_c_117, main_c_118, main_call20_v0, main_call20_v1, main_call20_v2]
theorem ops_p7_2_writes : (ops_p7_2 : List (HloOp τ sig (Elt F))).Forall fun op => op.writes ⊆ (ops_p7_2_W.map (Proc.devRef (τ := τ) .tc)).toFinset := by
  simp only [ops_p7_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p7_2_keep (V : Valuation τ sig (Elt F)) (r : Ref sig .tc) (h : r ∉ ops_p7_2_W) :
    after ops_p7_2 V (Proc.devRef .tc r) = V (Proc.devRef .tc r) :=
  after_of_writes_sub ops_p7_2 _ ops_p7_2_writes h

set_option maxRecDepth 8192 in
set_option maxHeartbeats 1000000 in
theorem w7_2_main_v319 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_2 V x0 x1 x2 x3 x4 x5 x6) :
    after ops_p7_2 V (Proc.devRef .tc main_v319) = val_main_v319 (F := F) x1 := by
  simp only [ops_p7_2]
  after_results_w
  simp only [h.main_c_116, h.main_v308, h.main_v316]
  rfl

set_option maxRecDepth 8192 in
set_option maxHeartbeats 1000000 in
theorem w7_2_main_c_118 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_2 V x0 x1 x2 x3 x4 x5 x6) :
    after ops_p7_2 V (Proc.devRef .tc main_c_118) = val_main_c_118 (F := F) := by
  simp only [ops_p7_2]
  after_results_w
  rfl

set_option maxRecDepth 8192 in
set_option maxHeartbeats 1000000 in
theorem w7_2_main_call20_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_2 V x0 x1 x2 x3 x4 x5 x6) :
    after ops_p7_2 V (Proc.devRef .tc main_call20_v2) = val_main_call20_v2 (F := F) x1 := by
  simp only [ops_p7_2]
  after_results_w
  simp only [h.main_v306]
  rfl

theorem step7_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_2 V x0 x1 x2 x3 x4 x5 x6) : Inv7_3 (after ops_p7_2 V) x0 x1 x2 x3 x4 x5 x6 where
  main_arg0 := (ops_p7_2_keep V main_arg0 (by decide)).trans h.main_arg0
  main_arg1 := (ops_p7_2_keep V main_arg1 (by decide)).trans h.main_arg1
  main_arg2 := (ops_p7_2_keep V main_arg2 (by decide)).trans h.main_arg2
  main_arg3 := (ops_p7_2_keep V main_arg3 (by decide)).trans h.main_arg3
  main_arg4 := (ops_p7_2_keep V main_arg4 (by decide)).trans h.main_arg4
  main_arg5 := (ops_p7_2_keep V main_arg5 (by decide)).trans h.main_arg5
  main_arg6 := (ops_p7_2_keep V main_arg6 (by decide)).trans h.main_arg6
  main_v27 := (ops_p7_2_keep V main_v27 (by decide)).trans h.main_v27
  main_v29 := (ops_p7_2_keep V main_v29 (by decide)).trans h.main_v29
  main_v31 := (ops_p7_2_keep V main_v31 (by decide)).trans h.main_v31
  main_v33 := (ops_p7_2_keep V main_v33 (by decide)).trans h.main_v33
  main_v304 := (ops_p7_2_keep V main_v304 (by decide)).trans h.main_v304
  main_v308 := (ops_p7_2_keep V main_v308 (by decide)).trans h.main_v308
  main_v319 := w7_2_main_v319 V x0 x1 x2 x3 x4 x5 x6 h
  main_c_118 := w7_2_main_c_118 V x0 x1 x2 x3 x4 x5 x6 h
  main_call20_v2 := w7_2_main_call20_v2 V x0 x1 x2 x3 x4 x5 x6 h

/-- Stretch 3 of window 7: @main's operations 520 … 527. -/
def ops_p7_3 : List (HloOp τ sig (Elt F)) :=
  [ unary main_c_118 main_call20_v3 (id : (⟨S_, .i32⟩ : BufTy).Contents (Elt F) → (⟨S_, .i32⟩ : BufTy).Contents (Elt F)),
    unary main_call20_v3 main_call20_v4 ((broadcastInDim S409600 ![] bcast_S_S409600) : (⟨S_, .i32⟩ : BufTy).Contents (Elt F) → (⟨S409600, .i32⟩ : BufTy).Contents (Elt F)),
    binary main_call20_v4 main_call20_v2 main_v320 (minsi : (⟨S409600, .i32⟩ : BufTy).Contents (Elt F) → (⟨S409600, .i32⟩ : BufTy).Contents (Elt F) → (⟨S409600, .i32⟩ : BufTy).Contents (Elt F)),
    nullary main_c_119 (constantI S_ 32 0#32),
    nullary main_c_120 (constantI S_ 32 639#32),
    unary main_c_119 main_call21_v0 (id : (⟨S_, .i32⟩ : BufTy).Contents (Elt F) → (⟨S_, .i32⟩ : BufTy).Contents (Elt F)),
    unary main_call21_v0 main_call21_v1 ((broadcastInDim S409600 ![] bcast_S_S409600) : (⟨S_, .i32⟩ : BufTy).Contents (Elt F) → (⟨S409600, .i32⟩ : BufTy).Contents (Elt F)),
    binary main_call21_v1 main_v308 main_call21_v2 (maxsi : (⟨S409600, .i32⟩ : BufTy).Contents (Elt F) → (⟨S409600, .i32⟩ : BufTy).Contents (Elt F) → (⟨S409600, .i32⟩ : BufTy).Contents (Elt F)) ]
abbrev ops_p7_3_W : List (Ref sig .tc) := [main_call20_v3, main_call20_v4, main_v320, main_c_119, main_c_120, main_call21_v0, main_call21_v1, main_call21_v2]
theorem ops_p7_3_writes : (ops_p7_3 : List (HloOp τ sig (Elt F))).Forall fun op => op.writes ⊆ (ops_p7_3_W.map (Proc.devRef (τ := τ) .tc)).toFinset := by
  simp only [ops_p7_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p7_3_keep (V : Valuation τ sig (Elt F)) (r : Ref sig .tc) (h : r ∉ ops_p7_3_W) :
    after ops_p7_3 V (Proc.devRef .tc r) = V (Proc.devRef .tc r) :=
  after_of_writes_sub ops_p7_3 _ ops_p7_3_writes h

set_option maxRecDepth 8192 in
set_option maxHeartbeats 1000000 in
theorem w7_3_main_v320 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_3 V x0 x1 x2 x3 x4 x5 x6) :
    after ops_p7_3 V (Proc.devRef .tc main_v320) = val_main_v320 (F := F) x1 := by
  simp only [ops_p7_3]
  after_results_w
  simp only [h.main_call20_v2, h.main_c_118]
  rfl

set_option maxRecDepth 8192 in
set_option maxHeartbeats 1000000 in
theorem w7_3_main_c_120 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_3 V x0 x1 x2 x3 x4 x5 x6) :
    after ops_p7_3 V (Proc.devRef .tc main_c_120) = val_main_c_120 (F := F) := by
  simp only [ops_p7_3]
  after_results_w
  rfl

set_option maxRecDepth 8192 in
set_option maxHeartbeats 1000000 in
theorem w7_3_main_call21_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_3 V x0 x1 x2 x3 x4 x5 x6) :
    after ops_p7_3 V (Proc.devRef .tc main_call21_v2) = val_main_call21_v2 (F := F) x1 := by
  simp only [ops_p7_3]
  after_results_w
  simp only [h.main_v308]
  rfl

theorem step7_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_3 V x0 x1 x2 x3 x4 x5 x6) : Inv7_4 (after ops_p7_3 V) x0 x1 x2 x3 x4 x5 x6 where
  main_arg0 := (ops_p7_3_keep V main_arg0 (by decide)).trans h.main_arg0
  main_arg1 := (ops_p7_3_keep V main_arg1 (by decide)).trans h.main_arg1
  main_arg2 := (ops_p7_3_keep V main_arg2 (by decide)).trans h.main_arg2
  main_arg3 := (ops_p7_3_keep V main_arg3 (by decide)).trans h.main_arg3
  main_arg4 := (ops_p7_3_keep V main_arg4 (by decide)).trans h.main_arg4
  main_arg5 := (ops_p7_3_keep V main_arg5 (by decide)).trans h.main_arg5
  main_arg6 := (ops_p7_3_keep V main_arg6 (by decide)).trans h.main_arg6
  main_v27 := (ops_p7_3_keep V main_v27 (by decide)).trans h.main_v27
  main_v29 := (ops_p7_3_keep V main_v29 (by decide)).trans h.main_v29
  main_v31 := (ops_p7_3_keep V main_v31 (by decide)).trans h.main_v31
  main_v33 := (ops_p7_3_keep V main_v33 (by decide)).trans h.main_v33
  main_v304 := (ops_p7_3_keep V main_v304 (by decide)).trans h.main_v304
  main_v319 := (ops_p7_3_keep V main_v319 (by decide)).trans h.main_v319
  main_v320 := w7_3_main_v320 V x0 x1 x2 x3 x4 x5 x6 h
  main_c_120 := w7_3_main_c_120 V x0 x1 x2 x3 x4 x5 x6 h
  main_call21_v2 := w7_3_main_call21_v2 V x0 x1 x2 x3 x4 x5 x6 h

/-- Stretch 4 of window 7: @main's operations 528 … 535. -/
def ops_p7_4 : List (HloOp τ sig (Elt F)) :=
  [ unary main_c_120 main_call21_v3 (id : (⟨S_, .i32⟩ : BufTy).Contents (Elt F) → (⟨S_, .i32⟩ : BufTy).Contents (Elt F)),
    unary main_call21_v3 main_call21_v4 ((broadcastInDim S409600 ![] bcast_S_S409600) : (⟨S_, .i32⟩ : BufTy).Contents (Elt F) → (⟨S409600, .i32⟩ : BufTy).Contents (Elt F)),
    binary main_call21_v4 main_call21_v2 main_v321 (minsi : (⟨S409600, .i32⟩ : BufTy).Contents (Elt F) → (⟨S409600, .i32⟩ : BufTy).Contents (Elt F) → (⟨S409600, .i32⟩ : BufTy).Contents (Elt F)),
    nullary main_c_121 (constantI S_ 32 0#32),
    unary main_c_121 main_v322 (broadcastInDim S409600 ![] bcast_S_S409600 : (⟨S_, .i32⟩ : BufTy).Contents (Elt F) → (⟨S409600, .i32⟩ : BufTy).Contents (Elt F)),
    binary main_v29 main_v322 main_v323 (cmpi .slt : (⟨S409600, .i32⟩ : BufTy).Contents (Elt F) → (⟨S409600, .i32⟩ : BufTy).Contents (Elt F) → (⟨S409600, .i1⟩ : BufTy).Contents (Elt F)),
    nullary main_c_122 (constantI S_ 32 2#32),
    unary main_c_122 main_v324 (broadcastInDim S409600 ![] bcast_S_S409600 : (⟨S_, .i32⟩ : BufTy).Contents (Elt F) → (⟨S409600, .i32⟩ : BufTy).Contents (Elt F)) ]
abbrev ops_p7_4_W : List (Ref sig .tc) := [main_call21_v3, main_call21_v4, main_v321, main_c_121, main_v322, main_v323, main_c_122, main_v324]
theorem ops_p7_4_writes : (ops_p7_4 : List (HloOp τ sig (Elt F))).Forall fun op => op.writes ⊆ (ops_p7_4_W.map (Proc.devRef (τ := τ) .tc)).toFinset := by
  simp only [ops_p7_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p7_4_keep (V : Valuation τ sig (Elt F)) (r : Ref sig .tc) (h : r ∉ ops_p7_4_W) :
    after ops_p7_4 V (Proc.devRef .tc r) = V (Proc.devRef .tc r) :=
  after_of_writes_sub ops_p7_4 _ ops_p7_4_writes h

set_option maxRecDepth 8192 in
set_option maxHeartbeats 1000000 in
theorem w7_4_main_v321 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_4 V x0 x1 x2 x3 x4 x5 x6) :
    after ops_p7_4 V (Proc.devRef .tc main_v321) = val_main_v321 (F := F) x1 := by
  simp only [ops_p7_4]
  after_results_w
  simp only [h.main_call21_v2, h.main_c_120]
  rfl

set_option maxRecDepth 8192 in
set_option maxHeartbeats 1000000 in
theorem w7_4_main_v323 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_4 V x0 x1 x2 x3 x4 x5 x6) :
    after ops_p7_4 V (Proc.devRef .tc main_v323) = val_main_v323 (F := F) x1 := by
  simp only [ops_p7_4]
  after_results_w
  simp only [h.main_v29]
  rfl

set_option maxRecDepth 8192 in
set_option maxHeartbeats 1000000 in
theorem w7_4_main_v324 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_4 V x0 x1 x2 x3 x4 x5 x6) :
    after ops_p7_4 V (Proc.devRef .tc main_v324) = val_main_v324 (F := F) := by
  simp only [ops_p7_4]
  after_results_w
  rfl

theorem step7_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_4 V x0 x1 x2 x3 x4 x5 x6) : Inv7_5 (after ops_p7_4 V) x0 x1 x2 x3 x4 x5 x6 where
  main_arg0 := (ops_p7_4_keep V main_arg0 (by decide)).trans h.main_arg0
  main_arg1 := (ops_p7_4_keep V main_arg1 (by decide)).trans h.main_arg1
  main_arg2 := (ops_p7_4_keep V main_arg2 (by decide)).trans h.main_arg2
  main_arg3 := (ops_p7_4_keep V main_arg3 (by decide)).trans h.main_arg3
  main_arg4 := (ops_p7_4_keep V main_arg4 (by decide)).trans h.main_arg4
  main_arg5 := (ops_p7_4_keep V main_arg5 (by decide)).trans h.main_arg5
  main_arg6 := (ops_p7_4_keep V main_arg6 (by decide)).trans h.main_arg6
  main_v27 := (ops_p7_4_keep V main_v27 (by decide)).trans h.main_v27
  main_v29 := (ops_p7_4_keep V main_v29 (by decide)).trans h.main_v29
  main_v31 := (ops_p7_4_keep V main_v31 (by decide)).trans h.main_v31
  main_v33 := (ops_p7_4_keep V main_v33 (by decide)).trans h.main_v33
  main_v304 := (ops_p7_4_keep V main_v304 (by decide)).trans h.main_v304
  main_v319 := (ops_p7_4_keep V main_v319 (by decide)).trans h.main_v319
  main_v320 := (ops_p7_4_keep V main_v320 (by decide)).trans h.main_v320
  main_v321 := w7_4_main_v321 V x0 x1 x2 x3 x4 x5 x6 h
  main_v323 := w7_4_main_v323 V x0 x1 x2 x3 x4 x5 x6 h
  main_v324 := w7_4_main_v324 V x0 x1 x2 x3 x4 x5 x6 h

/-- Stretch 5 of window 7: @main's operations 536 … 543. -/
def ops_p7_5 : List (HloOp τ sig (Elt F)) :=
  [ binary main_v29 main_v324 main_v325 (addi : (⟨S409600, .i32⟩ : BufTy).Contents (Elt F) → (⟨S409600, .i32⟩ : BufTy).Contents (Elt F) → (⟨S409600, .i32⟩ : BufTy).Contents (Elt F)),
    ternary main_v323 main_v325 main_v29 main_v326 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_123 (constantI S_ 32 0#32),
    unary main_c_123 main_v327 (broadcastInDim S409600 ![] bcast_S_S409600 : (⟨S_, .i32⟩ : BufTy).Contents (Elt F) → (⟨S409600, .i32⟩ : BufTy).Contents (Elt F)),
    binary main_v320 main_v327 main_v328 (cmpi .slt : (⟨S409600, .i32⟩ : BufTy).Contents (Elt F) → (⟨S409600, .i32⟩ : BufTy).Contents (Elt F) → (⟨S409600, .i1⟩ : BufTy).Contents (Elt F)),
    nullary main_c_124 (constantI S_ 32 640#32),
    unary main_c_124 main_v329 (broadcastInDim S409600 ![] bcast_S_S409600 : (⟨S_, .i32⟩ : BufTy).Contents (Elt F) → (⟨S409600, .i32⟩ : BufTy).Contents (Elt F)),
    binary main_v320 main_v329 main_v330 (addi : (⟨S409600, .i32⟩ : BufTy).Contents (Elt F) → (⟨S409600, .i32⟩ : BufTy).Contents (Elt F) → (⟨S409600, .i32⟩ : BufTy).Contents (Elt F)) ]
abbrev ops_p7_5_W : List (Ref sig .tc) := [main_v325, main_v326, main_c_123, main_v327, main_v328, main_c_124, main_v329, main_v330]
theorem ops_p7_5_writes : (ops_p7_5 : List (HloOp τ sig (Elt F))).Forall fun op => op.writes ⊆ (ops_p7_5_W.map (Proc.devRef (τ := τ) .tc)).toFinset := by
  simp only [ops_p7_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p7_5_keep (V : Valuation τ sig (Elt F)) (r : Ref sig .tc) (h : r ∉ ops_p7_5_W) :
    after ops_p7_5 V (Proc.devRef .tc r) = V (Proc.devRef .tc r) :=
  after_of_writes_sub ops_p7_5 _ ops_p7_5_writes h

set_option maxRecDepth 8192 in
set_option maxHeartbeats 1000000 in
theorem w7_5_main_v326 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_5 V x0 x1 x2 x3 x4 x5 x6) :
    after ops_p7_5 V (Proc.devRef .tc main_v326) = val_main_v326 (F := F) x1 := by
  simp only [ops_p7_5]
  after_results_w
  simp only [h.main_v29, h.main_v324, h.main_v323]
  rfl

set_option maxRecDepth 8192 in
set_option maxHeartbeats 1000000 in
theorem w7_5_main_v328 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_5 V x0 x1 x2 x3 x4 x5 x6) :
    after ops_p7_5 V (Proc.devRef .tc main_v328) = val_main_v328 (F := F) x1 := by
  simp only [ops_p7_5]
  after_results_w
  simp only [h.main_v320]
  rfl

set_option maxRecDepth 8192 in
set_option maxHeartbeats 1000000 in
theorem w7_5_main_v330 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_5 V x0 x1 x2 x3 x4 x5 x6) :
    after ops_p7_5 V (Proc.devRef .tc main_v330) = val_main_v330 (F := F) x1 := by
  simp only [ops_p7_5]
  after_results_w
  simp only [h.main_v320]
  rfl

theorem step7_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_5 V x0 x1 x2 x3 x4 x5 x6) : Inv7_6 (after ops_p7_5 V) x0 x1 x2 x3 x4 x5 x6 where
  main_arg0 := (ops_p7_5_keep V main_arg0 (by decide)).trans h.main_arg0
  main_arg1 := (ops_p7_5_keep V main_arg1 (by decide)).trans h.main_arg1
  main_arg2 := (ops_p7_5_keep V main_arg2 (by decide)).trans h.main_arg2
  main_arg3 := (ops_p7_5_keep V main_arg3 (by decide)).trans h.main_arg3
  main_arg4 := (ops_p7_5_keep V main_arg4 (by decide)).trans h.main_arg4
  main_arg5 := (ops_p7_5_keep V main_arg5 (by decide)).trans h.main_arg5
  main_arg6 := (ops_p7_5_keep V main_arg6 (by decide)).trans h.main_arg6
  main_v27 := (ops_p7_5_keep V main_v27 (by decide)).trans h.main_v27
  main_v29 := (ops_p7_5_keep V main_v29 (by decide)).trans h.main_v29
  main_v31 := (ops_p7_5_keep V main_v31 (by decide)).trans h.main_v31
  main_v33 := (ops_p7_5_keep V main_v33 (by decide)).trans h.main_v33
  main_v304 := (ops_p7_5_keep V main_v304 (by decide)).trans h.main_v304
  main_v319 := (ops_p7_5_keep V main_v319 (by decide)).trans h.main_v319
  main_v320 := (ops_p7_5_keep V main_v320 (by decide)).trans h.main_v320
  main_v321 := (ops_p7_5_keep V main_v321 (by decide)).trans h.main_v321
  main_v326 := w7_5_main_v326 V x0 x1 x2 x3 x4 x5 x6 h
  main_v328 := w7_5_main_v328 V x0 x1 x2 x3 x4 x5 x6 h
  main_v330 := w7_5_main_v330 V x0 x1 x2 x3 x4 x5 x6 h

/-- Stretch 6 of window 7: @main's operations 544 … 551. -/
def ops_p7_6 : List (HloOp τ sig (Elt F)) :=
  [ ternary main_v328 main_v330 main_v320 main_v331 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_125 (constantI S_ 32 0#32),
    unary main_c_125 main_v332 (broadcastInDim S409600 ![] bcast_S_S409600 : (⟨S_, .i32⟩ : BufTy).Contents (Elt F) → (⟨S409600, .i32⟩ : BufTy).Contents (Elt F)),
    binary main_v321 main_v332 main_v333 (cmpi .slt : (⟨S409600, .i32⟩ : BufTy).Contents (Elt F) → (⟨S409600, .i32⟩ : BufTy).Contents (Elt F) → (⟨S409600, .i1⟩ : BufTy).Contents (Elt F)),
    nullary main_c_126 (constantI S_ 32 640#32),
    unary main_c_126 main_v334 (broadcastInDim S409600 ![] bcast_S_S409600 : (⟨S_, .i32⟩ : BufTy).Contents (Elt F) → (⟨S409600, .i32⟩ : BufTy).Contents (Elt F)),
    binary main_v321 main_v334 main_v335 (addi : (⟨S409600, .i32⟩ : BufTy).Contents (Elt F) → (⟨S409600, .i32⟩ : BufTy).Contents (Elt F) → (⟨S409600, .i32⟩ : BufTy).Contents (Elt F)),
    ternary main_v333 main_v335 main_v321 main_v336 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)) ]
abbrev ops_p7_6_W : List (Ref sig .tc) := [main_v331, main_c_125, main_v332, main_v333, main_c_126, main_v334, main_v335, main_v336]
theorem ops_p7_6_writes : (ops_p7_6 : List (HloOp τ sig (Elt F))).Forall fun op => op.writes ⊆ (ops_p7_6_W.map (Proc.devRef (τ := τ) .tc)).toFinset := by
  simp only [ops_p7_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p7_6_keep (V : Valuation τ sig (Elt F)) (r : Ref sig .tc) (h : r ∉ ops_p7_6_W) :
    after ops_p7_6 V (Proc.devRef .tc r) = V (Proc.devRef .tc r) :=
  after_of_writes_sub ops_p7_6 _ ops_p7_6_writes h

set_option maxRecDepth 8192 in
set_option maxHeartbeats 1000000 in
theorem w7_6_main_v331 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_6 V x0 x1 x2 x3 x4 x5 x6) :
    after ops_p7_6 V (Proc.devRef .tc main_v331) = val_main_v331 (F := F) x1 := by
  simp only [ops_p7_6]
  after_results_w
  simp only [h.main_v320, h.main_v330, h.main_v328]
  rfl

set_option maxRecDepth 8192 in
set_option maxHeartbeats 1000000 in
theorem w7_6_main_v336 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_6 V x0 x1 x2 x3 x4 x5 x6) :
    after ops_p7_6 V (Proc.devRef .tc main_v336) = val_main_v336 (F := F) x1 := by
  simp only [ops_p7_6]
  after_results_w
  simp only [h.main_v321]
  rfl

theorem step7_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_6 V x0 x1 x2 x3 x4 x5 x6) : Inv7_7 (after ops_p7_6 V) x0 x1 x2 x3 x4 x5 x6 where
  main_arg0 := (ops_p7_6_keep V main_arg0 (by decide)).trans h.main_arg0
  main_arg1 := (ops_p7_6_keep V main_arg1 (by decide)).trans h.main_arg1
  main_arg2 := (ops_p7_6_keep V main_arg2 (by decide)).trans h.main_arg2
  main_arg3 := (ops_p7_6_keep V main_arg3 (by decide)).trans h.main_arg3
  main_arg4 := (ops_p7_6_keep V main_arg4 (by decide)).trans h.main_arg4
  main_arg5 := (ops_p7_6_keep V main_arg5 (by decide)).trans h.main_arg5
  main_arg6 := (ops_p7_6_keep V main_arg6 (by decide)).trans h.main_arg6
  main_v27 := (ops_p7_6_keep V main_v27 (by decide)).trans h.main_v27
  main_v29 := (ops_p7_6_keep V main_v29 (by decide)).trans h.main_v29
  main_v31 := (ops_p7_6_keep V main_v31 (by decide)).trans h.main_v31
  main_v33 := (ops_p7_6_keep V main_v33 (by decide)).trans h.main_v33
  main_v304 := (ops_p7_6_keep V main_v304 (by decide)).trans h.main_v304
  main_v319 := (ops_p7_6_keep V main_v319 (by decide)).trans h.main_v319
  main_v326 := (ops_p7_6_keep V main_v326 (by decide)).trans h.main_v326
  main_v331 := w7_6_main_v331 V x0 x1 x2 x3 x4 x5 x6 h
  main_v336 := w7_6_main_v336 V x0 x1 x2 x3 x4 x5 x6 h

/-- Stretch 7 of window 7: @main's operations 552 … 559. -/
def ops_p7_7 : List (HloOp τ sig (Elt F)) :=
  [ unary main_v326 main_v337 (broadcastInDim S409600x1 ![0] bcast_S409600_S409600x1_0 : (⟨S409600, .i32⟩ : BufTy).Contents (Elt F) → (⟨S409600x1, .i32⟩ : BufTy).Contents (Elt F)),
    unary main_v331 main_v338 (broadcastInDim S409600x1 ![0] bcast_S409600_S409600x1_0 : (⟨S409600, .i32⟩ : BufTy).Contents (Elt F) → (⟨S409600x1, .i32⟩ : BufTy).Contents (Elt F)),
    unary main_v336 main_v339 (broadcastInDim S409600x1 ![0] bcast_S409600_S409600x1_0 : (⟨S409600, .i32⟩ : BufTy).Contents (Elt F) → (⟨S409600x1, .i32⟩ : BufTy).Contents (Elt F)),
    nary ![main_v337, main_v338, main_v339] main_v340 (fun u => concatenate S409600x3 1 [⟨S409600x1, u 0⟩, ⟨S409600x1, u 1⟩, ⟨S409600x1, u 2⟩] concatenates_S409600x1_S409600x1_S409600x1_S409600x3_d1),
    binary main_v27 main_v340 main_v341 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_127 (constantI S_ 32 0#32),
    unary main_c_127 main_v342 (broadcastInDim S409600 ![] bcast_S_S409600 : (⟨S_, .i32⟩ : BufTy).Contents (Elt F) → (⟨S409600, .i32⟩ : BufTy).Contents (Elt F)),
    binary main_v341 main_v342 main_v343 (cmpi .sge : (⟨S409600, .i32⟩ : BufTy).Contents (Elt F) → (⟨S409600, .i32⟩ : BufTy).Contents (Elt F) → (⟨S409600, .i1⟩ : BufTy).Contents (Elt F)) ]
abbrev ops_p7_7_W : List (Ref sig .tc) := [main_v337, main_v338, main_v339, main_v340, main_v341, main_c_127, main_v342, main_v343]
theorem ops_p7_7_writes : (ops_p7_7 : List (HloOp τ sig (Elt F))).Forall fun op => op.writes ⊆ (ops_p7_7_W.map (Proc.devRef (τ := τ) .tc)).toFinset := by
  simp only [ops_p7_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p7_7_keep (V : Valuation τ sig (Elt F)) (r : Ref sig .tc) (h : r ∉ ops_p7_7_W) :
    after ops_p7_7 V (Proc.devRef .tc r) = V (Proc.devRef .tc r) :=
  after_of_writes_sub ops_p7_7 _ ops_p7_7_writes h

set_option maxRecDepth 8192 in
set_option maxHeartbeats 1000000 in
theorem w7_7_main_v341 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_7 V x0 x1 x2 x3 x4 x5 x6) :
    after ops_p7_7 V (Proc.devRef .tc main_v341) = val_main_v341 (F := F) x1 := by
  simp only [ops_p7_7]
  after_results_w
  simp only [h.main_v336, h.main_v331, h.main_v326, h.main_v27]
  rfl

set_option maxRecDepth 8192 in
set_option maxHeartbeats 1000000 in
theorem w7_7_main_v343 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_7 V x0 x1 x2 x3 x4 x5 x6) :
    after ops_p7_7 V (Proc.devRef .tc main_v343) = val_main_v343 (F := F) x1 := by
  simp only [ops_p7_7]
  after_results_w
  simp only [h.main_v336, h.main_v331, h.main_v326, h.main_v27]
  rfl

theorem step7_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_7 V x0 x1 x2 x3 x4 x5 x6) : Inv7_8 (after ops_p7_7 V) x0 x1 x2 x3 x4 x5 x6 where
  main_arg0 := (ops_p7_7_keep V main_arg0 (by decide)).trans h.main_arg0
  main_arg1 := (ops_p7_7_keep V main_arg1 (by decide)).trans h.main_arg1
  main_arg2 := (ops_p7_7_keep V main_arg2 (by decide)).trans h.main_arg2
  main_arg3 := (ops_p7_7_keep V main_arg3 (by decide)).trans h.main_arg3
  main_arg4 := (ops_p7_7_keep V main_arg4 (by decide)).trans h.main_arg4
  main_arg5 := (ops_p7_7_keep V main_arg5 (by decide)).trans h.main_arg5
  main_arg6 := (ops_p7_7_keep V main_arg6 (by decide)).trans h.main_arg6
  main_v27 := (ops_p7_7_keep V main_v27 (by decide)).trans h.main_v27
  main_v29 := (ops_p7_7_keep V main_v29 (by decide)).trans h.main_v29
  main_v31 := (ops_p7_7_keep V main_v31 (by decide)).trans h.main_v31
  main_v33 := (ops_p7_7_keep V main_v33 (by decide)).trans h.main_v33
  main_v304 := (ops_p7_7_keep V main_v304 (by decide)).trans h.main_v304
  main_v319 := (ops_p7_7_keep V main_v319 (by decide)).trans h.main_v319
  main_v341 := w7_7_main_v341 V x0 x1 x2 x3 x4 x5 x6 h
  main_v343 := w7_7_main_v343 V x0 x1 x2 x3 x4 x5 x6 h

/-- Stretch 8 of window 7: @main's operations 560 … 567. -/
def ops_p7_8 : List (HloOp τ sig (Elt F)) :=
  [ binary main_v319 main_v343 main_v344 (andi : (⟨S409600, .i1⟩ : BufTy).Contents (Elt F) → (⟨S409600, .i1⟩ : BufTy).Contents (Elt F) → (⟨S409600, .i1⟩ : BufTy).Contents (Elt F)),
    nullary main_c_128 (constantI S_ 32 0#32),
    unary main_c_128 main_call22_v0 (id : (⟨S_, .i32⟩ : BufTy).Contents (Elt F) → (⟨S_, .i32⟩ : BufTy).Contents (Elt F)),
    unary main_call22_v0 main_call22_v1 ((broadcastInDim S409600 ![] bcast_S_S409600) : (⟨S_, .i32⟩ : BufTy).Contents (Elt F) → (⟨S409600, .i32⟩ : BufTy).Contents (Elt F)),
    ternary main_v344 main_v341 main_call22_v1 main_v345 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_129 (constantI S_ 32 0#32),
    unary main_c_129 main_v346 (broadcastInDim S409600 ![] bcast_S_S409600 : (⟨S_, .i32⟩ : BufTy).Contents (Elt F) → (⟨S409600, .i32⟩ : BufTy).Contents (Elt F)),
    binary main_v345 main_v346 main_v347 (cmpi .slt : (⟨S409600, .i32⟩ : BufTy).Contents (Elt F) → (⟨S409600, .i32⟩ : BufTy).Contents (Elt F) → (⟨S409600, .i1⟩ : BufTy).Contents (Elt F)) ]
abbrev ops_p7_8_W : List (Ref sig .tc) := [main_v344, main_c_128, main_call22_v0, main_call22_v1, main_v345, main_c_129, main_v346, main_v347]
theorem ops_p7_8_writes : (ops_p7_8 : List (HloOp τ sig (Elt F))).Forall fun op => op.writes ⊆ (ops_p7_8_W.map (Proc.devRef (τ := τ) .tc)).toFinset := by
  simp only [ops_p7_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p7_8_keep (V : Valuation τ sig (Elt F)) (r : Ref sig .tc) (h : r ∉ ops_p7_8_W) :
    after ops_p7_8 V (Proc.devRef .tc r) = V (Proc.devRef .tc r) :=
  after_of_writes_sub ops_p7_8 _ ops_p7_8_writes h

set_option maxRecDepth 8192 in
set_option maxHeartbeats 1000000 in
theorem w7_8_main_v344 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_8 V x0 x1 x2 x3 x4 x5 x6) :
    after ops_p7_8 V (Proc.devRef .tc main_v344) = val_main_v344 (F := F) x1 := by
  simp only [ops_p7_8]
  after_results_w
  simp only [h.main_v343, h.main_v319]
  rfl

set_option maxRecDepth 8192 in
set_option maxHeartbeats 1000000 in
theorem w7_8_main_v345 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_8 V x0 x1 x2 x3 x4 x5 x6) :
    after ops_p7_8 V (Proc.devRef .tc main_v345) = val_main_v345 (F := F) x1 := by
  simp only [ops_p7_8]
  after_results_w
  simp only [h.main_v341, h.main_v343, h.main_v319]
  rfl

set_option maxRecDepth 8192 in
set_option maxHeartbeats 1000000 in
theorem w7_8_main_v347 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_8 V x0 x1 x2 x3 x4 x5 x6) :
    after ops_p7_8 V (Proc.devRef .tc main_v347) = val_main_v347 (F := F) x1 := by
  simp only [ops_p7_8]
  after_results_w
  simp only [h.main_v341, h.main_v343, h.main_v319]
  rfl

theorem step7_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7_8 V x0 x1 x2 x3 x4 x5 x6) : Inv8 (after ops_p7_8 V) x0 x1 x2 x3 x4 x5 x6 where
  main_arg0 := (ops_p7_8_keep V main_arg0 (by decide)).trans h.main_arg0
  main_arg1 := (ops_p7_8_keep V main_arg1 (by decide)).trans h.main_arg1
  main_arg2 := (ops_p7_8_keep V main_arg2 (by decide)).trans h.main_arg2
  main_arg3 := (ops_p7_8_keep V main_arg3 (by decide)).trans h.main_arg3
  main_arg4 := (ops_p7_8_keep V main_arg4 (by decide)).trans h.main_arg4
  main_arg5 := (ops_p7_8_keep V main_arg5 (by decide)).trans h.main_arg5
  main_arg6 := (ops_p7_8_keep V main_arg6 (by decide)).trans h.main_arg6
  main_v27 := (ops_p7_8_keep V main_v27 (by decide)).trans h.main_v27
  main_v29 := (ops_p7_8_keep V main_v29 (by decide)).trans h.main_v29
  main_v31 := (ops_p7_8_keep V main_v31 (by decide)).trans h.main_v31
  main_v33 := (ops_p7_8_keep V main_v33 (by decide)).trans h.main_v33
  main_v304 := (ops_p7_8_keep V main_v304 (by decide)).trans h.main_v304
  main_v344 := w7_8_main_v344 V x0 x1 x2 x3 x4 x5 x6 h
  main_v345 := w7_8_main_v345 V x0 x1 x2 x3 x4 x5 x6 h
  main_v347 := w7_8_main_v347 V x0 x1 x2 x3 x4 x5 x6 h

set_option maxRecDepth 8192 in
theorem ops_p7_split : (ops_p7 : List (HloOp τ sig (Elt F))) = ops_p7_0 ++ (ops_p7_1 ++ (ops_p7_2 ++ (ops_p7_3 ++ (ops_p7_4 ++ (ops_p7_5 ++ (ops_p7_6 ++ (ops_p7_7 ++ (ops_p7_8)))))))) := rfl

/-- Window 7 carries the staged reading from boundary 7 to boundary 8. -/
theorem step7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv7 V x0 x1 x2 x3 x4 x5 x6) : Inv8 (after ops_p7 V) x0 x1 x2 x3 x4 x5 x6 := by
  rw [ops_p7_split]; simp only [after_app]
  exact step7_8 _ x0 x1 x2 x3 x4 x5 x6 (step7_7 _ x0 x1 x2 x3 x4 x5 x6 (step7_6 _ x0 x1 x2 x3 x4 x5 x6 (step7_5 _ x0 x1 x2 x3 x4 x5 x6 (step7_4 _ x0 x1 x2 x3 x4 x5 x6 (step7_3 _ x0 x1 x2 x3 x4 x5 x6 (step7_2 _ x0 x1 x2 x3 x4 x5 x6 (step7_1 _ x0 x1 x2 x3 x4 x5 x6 (step7_0 V x0 x1 x2 x3 x4 x5 x6 h))))))))

end Cert.ReferenceIdeal.Hand

end
-- ==== Proof.Ref.W8.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 8 of @main: its operations 568 … 640 of 1688, in order. -/
def ops_p8 : List (HloOp τ sig (Elt F)) :=
  [ nullary main_c_130 (constantI S_ 32 409600#32),
    unary main_c_130 main_v348 (broadcastInDim S409600 ![] bcast_S_S409600 : (⟨S_, .i32⟩ : BufTy).Contents (Elt F) → (⟨S409600, .i32⟩ : BufTy).Contents (Elt F)),
    binary main_v345 main_v348 main_v349 (addi : (⟨S409600, .i32⟩ : BufTy).Contents (Elt F) → (⟨S409600, .i32⟩ : BufTy).Contents (Elt F) → (⟨S409600, .i32⟩ : BufTy).Contents (Elt F)),
    ternary main_v347 main_v349 main_v345 main_v350 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v350 main_v351 (broadcastInDim S409600x1 ![0] bcast_S409600_S409600x1_0 : (⟨S409600, .i32⟩ : BufTy).Contents (Elt F) → (⟨S409600x1, .i32⟩ : BufTy).Contents (Elt F)),
    binary main_arg0 main_v351 main_v352 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v344 main_v353 (broadcastInDim S409600x1 ![0] bcast_S409600_S409600x1_0 : (⟨S409600, .i1⟩ : BufTy).Contents (Elt F) → (⟨S409600x1, .i1⟩ : BufTy).Contents (Elt F)),
    nullary main_cst_131 (constant S_ .f32 0x00000000#32),
    unary main_cst_131 main_call23_v0 (id : (⟨S_, .f32⟩ : BufTy).Contents (Elt F) → (⟨S_, .f32⟩ : BufTy).Contents (Elt F)),
    unary main_v353 main_call23_v1 ((broadcastInDim S409600x64 ![0, 1] bcast_S409600x1_S409600x64_0_1) : (⟨S409600x1, .i1⟩ : BufTy).Contents (Elt F) → (⟨S409600x64, .i1⟩ : BufTy).Contents (Elt F)),
    unary main_call23_v0 main_call23_v2 ((broadcastInDim S409600x64 ![] bcast_S_S409600x64) : (⟨S_, .f32⟩ : BufTy).Contents (Elt F) → (⟨S409600x64, .f32⟩ : BufTy).Contents (Elt F)),
    ternary main_call23_v1 main_v352 main_call23_v2 main_v354 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v355 ((extractStridedSlice S1x1x64x64 ![1, 2, 0, 0] · slices_S3x3x64x64_S1x1x64x64_1_2_0_0) : (⟨S3x3x64x64, .f32⟩ : BufTy).Contents (Elt F) → (⟨S1x1x64x64, .f32⟩ : BufTy).Contents (Elt F)),
    reshape main_v355 main_v356 rfl shapeCasts_S1x1x64x64_S64x64,
    binary main_v354 main_v356 main_v357 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v304 main_v357 main_v358 (addf : (⟨S409600x64, .f32⟩ : BufTy).Contents (Elt F) → (⟨S409600x64, .f32⟩ : BufTy).Contents (Elt F) → (⟨S409600x64, .f32⟩ : BufTy).Contents (Elt F)),
    nullary main_c_132 (constantI S_ 32 1#32),
    unary main_c_132 main_v359 (broadcastInDim S409600 ![] bcast_S_S409600 : (⟨S_, .i32⟩ : BufTy).Contents (Elt F) → (⟨S409600, .i32⟩ : BufTy).Contents (Elt F)),
    binary main_v31 main_v359 main_v360 (addi : (⟨S409600, .i32⟩ : BufTy).Contents (Elt F) → (⟨S409600, .i32⟩ : BufTy).Contents (Elt F) → (⟨S409600, .i32⟩ : BufTy).Contents (Elt F)),
    nullary main_c_133 (constantI S_ 32 4294967295#32),
    unary main_c_133 main_v361 (broadcastInDim S409600 ![] bcast_S_S409600 : (⟨S_, .i32⟩ : BufTy).Contents (Elt F) → (⟨S409600, .i32⟩ : BufTy).Contents (Elt F)),
    binary main_v33 main_v361 main_v362 (addi : (⟨S409600, .i32⟩ : BufTy).Contents (Elt F) → (⟨S409600, .i32⟩ : BufTy).Contents (Elt F) → (⟨S409600, .i32⟩ : BufTy).Contents (Elt F)),
    nullary main_c_134 (constantI S_ 32 0#32),
    unary main_c_134 main_v363 (broadcastInDim S409600 ![] bcast_S_S409600 : (⟨S_, .i32⟩ : BufTy).Contents (Elt F) → (⟨S409600, .i32⟩ : BufTy).Contents (Elt F)),
    binary main_v360 main_v363 main_v364 (cmpi .sge : (⟨S409600, .i32⟩ : BufTy).Contents (Elt F) → (⟨S409600, .i32⟩ : BufTy).Contents (Elt F) → (⟨S409600, .i1⟩ : BufTy).Contents (Elt F)),
    nullary main_c_135 (constantI S_ 32 640#32),
    unary main_c_135 main_v365 (broadcastInDim S409600 ![] bcast_S_S409600 : (⟨S_, .i32⟩ : BufTy).Contents (Elt F) → (⟨S409600, .i32⟩ : BufTy).Contents (Elt F)),
    binary main_v360 main_v365 main_v366 (cmpi .slt : (⟨S409600, .i32⟩ : BufTy).Contents (Elt F) → (⟨S409600, .i32⟩ : BufTy).Contents (Elt F) → (⟨S409600, .i1⟩ : BufTy).Contents (Elt F)),
    binary main_v364 main_v366 main_v367 (andi : (⟨S409600, .i1⟩ : BufTy).Contents (Elt F) → (⟨S409600, .i1⟩ : BufTy).Contents (Elt F) → (⟨S409600, .i1⟩ : BufTy).Contents (Elt F)),
    nullary main_c_136 (constantI S_ 32 0#32),
    unary main_c_136 main_v368 (broadcastInDim S409600 ![] bcast_S_S409600 : (⟨S_, .i32⟩ : BufTy).Contents (Elt F) → (⟨S409600, .i32⟩ : BufTy).Contents (Elt F)),
    binary main_v362 main_v368 main_v369 (cmpi .sge : (⟨S409600, .i32⟩ : BufTy).Contents (Elt F) → (⟨S409600, .i32⟩ : BufTy).Contents (Elt F) → (⟨S409600, .i1⟩ : BufTy).Contents (Elt F)),
    binary main_v367 main_v369 main_v370 (andi : (⟨S409600, .i1⟩ : BufTy).Contents (Elt F) → (⟨S409600, .i1⟩ : BufTy).Contents (Elt F) → (⟨S409600, .i1⟩ : BufTy).Contents (Elt F)),
    nullary main_c_137 (constantI S_ 32 640#32),
    unary main_c_137 main_v371 (broadcastInDim S409600 ![] bcast_S_S409600 : (⟨S_, .i32⟩ : BufTy).Contents (Elt F) → (⟨S409600, .i32⟩ : BufTy).Contents (Elt F)),
    binary main_v362 main_v371 main_v372 (cmpi .slt : (⟨S409600, .i32⟩ : BufTy).Contents (Elt F) → (⟨S409600, .i32⟩ : BufTy).Contents (Elt F) → (⟨S409600, .i1⟩ : BufTy).Contents (Elt F)),
    binary main_v370 main_v372 main_v373 (andi : (⟨S409600, .i1⟩ : BufTy).Contents (Elt F) → (⟨S409600, .i1⟩ : BufTy).Contents (Elt F) → (⟨S409600, .i1⟩ : BufTy).Contents (Elt F)),
    nullary main_c_138 (constantI S_ 32 0#32),
    nullary main_c_139 (constantI S_ 32 639#32),
    unary main_c_138 main_call24_v0 (id : (⟨S_, .i32⟩ : BufTy).Contents (Elt F) → (⟨S_, .i32⟩ : BufTy).Contents (Elt F)),
    unary main_call24_v0 main_call24_v1 ((broadcastInDim S409600 ![] bcast_S_S409600) : (⟨S_, .i32⟩ : BufTy).Contents (Elt F) → (⟨S409600, .i32⟩ : BufTy).Contents (Elt F)),
    binary main_call24_v1 main_v360 main_call24_v2 (maxsi : (⟨S409600, .i32⟩ : BufTy).Contents (Elt F) → (⟨S409600, .i32⟩ : BufTy).Contents (Elt F) → (⟨S409600, .i32⟩ : BufTy).Contents (Elt F)),
    unary main_c_139 main_call24_v3 (id : (⟨S_, .i32⟩ : BufTy).Contents (Elt F) → (⟨S_, .i32⟩ : BufTy).Contents (Elt F)),
    unary main_call24_v3 main_call24_v4 ((broadcastInDim S409600 ![] bcast_S_S409600) : (⟨S_, .i32⟩ : BufTy).Contents (Elt F) → (⟨S409600, .i32⟩ : BufTy).Contents (Elt F)),
    binary main_call24_v4 main_call24_v2 main_v374 (minsi : (⟨S409600, .i32⟩ : BufTy).Contents (Elt F) → (⟨S409600, .i32⟩ : BufTy).Contents (Elt F) → (⟨S409600, .i32⟩ : BufTy).Contents (Elt F)),
    nullary main_c_140 (constantI S_ 32 0#32),
    nullary main_c_141 (constantI S_ 32 639#32),
    unary main_c_140 main_call25_v0 (id : (⟨S_, .i32⟩ : BufTy).Contents (Elt F) → (⟨S_, .i32⟩ : BufTy).Contents (Elt F)),
    unary main_call25_v0 main_call25_v1 ((broadcastInDim S409600 ![] bcast_S_S409600) : (⟨S_, .i32⟩ : BufTy).Contents (Elt F) → (⟨S409600, .i32⟩ : BufTy).Contents (Elt F)),
    binary main_call25_v1 main_v362 main_call25_v2 (maxsi : (⟨S409600, .i32⟩ : BufTy).Contents (Elt F) → (⟨S409600, .i32⟩ : BufTy).Contents (Elt F) → (⟨S409600, .i32⟩ : BufTy).Contents (Elt F)),
    unary main_c_141 main_call25_v3 (id : (⟨S_, .i32⟩ : BufTy).Contents (Elt F) → (⟨S_, .i32⟩ : BufTy).Contents (Elt F)),
    unary main_call25_v3 main_call25_v4 ((broadcastInDim S409600 ![] bcast_S_S409600) : (⟨S_, .i32⟩ : BufTy).Contents (Elt F) → (⟨S409600, .i32⟩ : BufTy).Contents (Elt F)),
    binary main_call25_v4 main_call25_v2 main_v375 (minsi : (⟨S409600, .i32⟩ : BufTy).Contents (Elt F) → (⟨S409600, .i32⟩ : BufTy).Contents (Elt F) → (⟨S409600, .i32⟩ : BufTy).Contents (Elt F)),
    nullary main_c_142 (constantI S_ 32 0#32),
    unary main_c_142 main_v376 (broadcastInDim S409600 ![] bcast_S_S409600 : (⟨S_, .i32⟩ : BufTy).Contents (Elt F) → (⟨S409600, .i32⟩ : BufTy).Contents (Elt F)),
    binary main_v29 main_v376 main_v377 (cmpi .slt : (⟨S409600, .i32⟩ : BufTy).Contents (Elt F) → (⟨S409600, .i32⟩ : BufTy).Contents (Elt F) → (⟨S409600, .i1⟩ : BufTy).Contents (Elt F)),
    nullary main_c_143 (constantI S_ 32 2#32),
    unary main_c_143 main_v378 (broadcastInDim S409600 ![] bcast_S_S409600 : (⟨S_, .i32⟩ : BufTy).Contents (Elt F) → (⟨S409600, .i32⟩ : BufTy).Contents (Elt F)),
    binary main_v29 main_v378 main_v379 (addi : (⟨S409600, .i32⟩ : BufTy).Contents (Elt F) → (⟨S409600, .i32⟩ : BufTy).Contents (Elt F) → (⟨S409600, .i32⟩ : BufTy).Contents (Elt F)),
    ternary main_v377 main_v379 main_v29 main_v380 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_144 (constantI S_ 32 0#32),
    unary main_c_144 main_v381 (broadcastInDim S409600 ![] bcast_S_S409600 : (⟨S_, .i32⟩ : BufTy).Contents (Elt F) → (⟨S409600, .i32⟩ : BufTy).Contents (Elt F)),
    binary main_v374 main_v381 main_v382 (cmpi .slt : (⟨S409600, .i32⟩ : BufTy).Contents (Elt F) → (⟨S409600, .i32⟩ : BufTy).Contents (Elt F) → (⟨S409600, .i1⟩ : BufTy).Contents (Elt F)),
    nullary main_c_145 (constantI S_ 32 640#32),
    unary main_c_145 main_v383 (broadcastInDim S409600 ![] bcast_S_S409600 : (⟨S_, .i32⟩ : BufTy).Contents (Elt F) → (⟨S409600, .i32⟩ : BufTy).Contents (Elt F)),
    binary main_v374 main_v383 main_v384 (addi : (⟨S409600, .i32⟩ : BufTy).Contents (Elt F) → (⟨S409600, .i32⟩ : BufTy).Contents (Elt F) → (⟨S409600, .i32⟩ : BufTy).Contents (Elt F)),
    ternary main_v382 main_v384 main_v374 main_v385 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_146 (constantI S_ 32 0#32),
    unary main_c_146 main_v386 (broadcastInDim S409600 ![] bcast_S_S409600 : (⟨S_, .i32⟩ : BufTy).Contents (Elt F) → (⟨S409600, .i32⟩ : BufTy).Contents (Elt F)),
    binary main_v375 main_v386 main_v387 (cmpi .slt : (⟨S409600, .i32⟩ : BufTy).Contents (Elt F) → (⟨S409600, .i32⟩ : BufTy).Contents (Elt F) → (⟨S409600, .i1⟩ : BufTy).Contents (Elt F)),
    nullary main_c_147 (constantI S_ 32 640#32),
    unary main_c_147 main_v388 (broadcastInDim S409600 ![] bcast_S_S409600 : (⟨S_, .i32⟩ : BufTy).Contents (Elt F) → (⟨S409600, .i32⟩ : BufTy).Contents (Elt F)),
    binary main_v375 main_v388 main_v389 (addi : (⟨S409600, .i32⟩ : BufTy).Contents (Elt F) → (⟨S409600, .i32⟩ : BufTy).Contents (Elt F) → (⟨S409600, .i32⟩ : BufTy).Contents (Elt F)) ]

set_option maxRecDepth 8192 in
set_option maxHeartbeats 4000000 in
theorem main_part8_eq (c : Dev nD) : main_part8 (F := F) c = seq ops_p8 := by
  simp only [main_part8, ops_p8, fn_clip.body, fn_where.body, fn_where_0.body, fn_relu.body, seq, bind_assoc, pure_bind]
  rfl

set_option maxRecDepth 8192 in
theorem ops_p8_sub : (ops_p8 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩

set_option maxRecDepth 8192 in
theorem ops_p8_fresh : ∀ op ∈ (ops_p8 : List (HloOp τ sig (Elt F))), op.fresh = ∅ := by
  unfold ops_p8; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 576 on hold before it. -/
structure Inv8_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v304 : V (Proc.devRef .tc main_v304) = val_main_v304 (F := F) x0 x1 x2
  main_v352 : V (Proc.devRef .tc main_v352) = val_main_v352 (F := F) x0 x1
  main_v353 : V (Proc.devRef .tc main_v353) = val_main_v353 (F := F) x1
  main_cst_131 : V (Proc.devRef .tc main_cst_131) = val_main_cst_131 (F := F)

/-- What the buffers read from operation 584 on hold before it. -/
structure Inv8_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2

/-- What the buffers read from operation 592 on hold before it. -/
structure Inv8_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v360 : V (Proc.devRef .tc main_v360) = val_main_v360 (F := F) x1
  main_v362 : V (Proc.devRef .tc main_v362) = val_main_v362 (F := F) x1
  main_v363 : V (Proc.devRef .tc main_v363) = val_main_v363 (F := F)

/-- What the buffers read from operation 600 on hold before it. -/
structure Inv8_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v360 : V (Proc.devRef .tc main_v360) = val_main_v360 (F := F) x1
  main_v362 : V (Proc.devRef .tc main_v362) = val_main_v362 (F := F) x1
  main_v367 : V (Proc.devRef .tc main_v367) = val_main_v367 (F := F) x1
  main_v369 : V (Proc.devRef .tc main_v369) = val_main_v369 (F := F) x1

/-- What the buffers read from operation 608 on hold before it. -/
structure Inv8_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v360 : V (Proc.devRef .tc main_v360) = val_main_v360 (F := F) x1
  main_v362 : V (Proc.devRef .tc main_v362) = val_main_v362 (F := F) x1
  main_v373 : V (Proc.devRef .tc main_v373) = val_main_v373 (F := F) x1
  main_c_139 : V (Proc.devRef .tc main_c_139) = val_main_c_139 (F := F)
  main_call24_v0 : V (Proc.devRef .tc main_call24_v0) = val_main_call24_v0 (F := F)

/-- What the buffers read from operation 616 on hold before it. -/
structure Inv8_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v362 : V (Proc.devRef .tc main_v362) = val_main_v362 (F := F) x1
  main_v373 : V (Proc.devRef .tc main_v373) = val_main_v373 (F := F) x1
  main_v374 : V (Proc.devRef .tc main_v374) = val_main_v374 (F := F) x1
  main_c_141 : V (Proc.devRef .tc main_c_141) = val_main_c_141 (F := F)
  main_call25_v0 : V (Proc.devRef .tc main_call25_v0) = val_main_call25_v0 (F := F)

/-- What the buffers read from operation 624 on hold before it. -/
structure Inv8_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v373 : V (Proc.devRef .tc main_v373) = val_main_v373 (F := F) x1
  main_v374 : V (Proc.devRef .tc main_v374) = val_main_v374 (F := F) x1
  main_v375 : V (Proc.devRef .tc main_v375) = val_main_v375 (F := F) x1
  main_v377 : V (Proc.devRef .tc main_v377) = val_main_v377 (F := F) x1

/-- What the buffers read from operation 632 on hold before it. -/
structure Inv8_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v373 : V (Proc.devRef .tc main_v373) = val_main_v373 (F := F) x1
  main_v374 : V (Proc.devRef .tc main_v374) = val_main_v374 (F := F) x1
  main_v375 : V (Proc.devRef .tc main_v375) = val_main_v375 (F := F) x1
  main_v380 : V (Proc.devRef .tc main_v380) = val_main_v380 (F := F) x1
  main_v382 : V (Proc.devRef .tc main_v382) = val_main_v382 (F := F) x1
  main_c_145 : V (Proc.devRef .tc main_c_145) = val_main_c_145 (F := F)

/-- Stretch 0 of window 8: @main's operations 568 … 575. -/
def ops_p8_0 : List (HloOp τ sig (Elt F)) :=
  [ nullary main_c_130 (constantI S_ 32 409600#32),
    unary main_c_130 main_v348 (broadcastInDim S409600 ![] bcast_S_S409600 : (⟨S_, .i32⟩ : BufTy).Contents (Elt F) → (⟨S409600, .i32⟩ : BufTy).Contents (Elt F)),
    binary main_v345 main_v348 main_v349 (addi : (⟨S409600, .i32⟩ : BufTy).Contents (Elt F) → (⟨S409600, .i32⟩ : BufTy).Contents (Elt F) → (⟨S409600, .i32⟩ : BufTy).Contents (Elt F)),
    ternary main_v347 main_v349 main_v345 main_v350 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v350 main_v351 (broadcastInDim S409600x1 ![0] bcast_S409600_S409600x1_0 : (⟨S409600, .i32⟩ : BufTy).Contents (Elt F) → (⟨S409600x1, .i32⟩ : BufTy).Contents (Elt F)),
    binary main_arg0 main_v351 main_v352 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v344 main_v353 (broadcastInDim S409600x1 ![0] bcast_S409600_S409600x1_0 : (⟨S409600, .i1⟩ : BufTy).Contents (Elt F) → (⟨S409600x1, .i1⟩ : BufTy).Contents (Elt F)),
    nullary main_cst_131 (constant S_ .f32 0x00000000#32) ]
abbrev ops_p8_0_W : List (Ref sig .tc) := [main_c_130, main_v348, main_v349, main_v350, main_v351, main_v352, main_v353, main_cst_131]
theorem ops_p8_0_writes : (ops_p8_0 : List (HloOp τ sig (Elt F))).Forall fun op => op.writes ⊆ (ops_p8_0_W.map (Proc.devRef (τ := τ) .tc)).toFinset := by
  simp only [ops_p8_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p8_0_keep (V : Valuation τ sig (Elt F)) (r : Ref sig .tc) (h : r ∉ ops_p8_0_W) :
    after ops_p8_0 V (Proc.devRef .tc r) = V (Proc.devRef .tc r) :=
  after_of_writes_sub ops_p8_0 _ ops_p8_0_writes h

set_option maxRecDepth 8192 in
set_option maxHeartbeats 1000000 in
theorem w8_0_main_v352 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8 V x0 x1 x2 x3 x4 x5 x6) :
    after ops_p8_0 V (Proc.devRef .tc main_v352) = val_main_v352 (F := F) x0 x1 := by
  simp only [ops_p8_0]
  after_results_w
  simp only [h.main_v345, h.main_v347, h.main_arg0]
  rfl

set_option maxRecDepth 8192 in
set_option maxHeartbeats 1000000 in
theorem w8_0_main_v353 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8 V x0 x1 x2 x3 x4 x5 x6) :
    after ops_p8_0 V (Proc.devRef .tc main_v353) = val_main_v353 (F := F) x1 := by
  simp only [ops_p8_0]
  after_results_w
  simp only [h.main_v344]
  rfl

set_option maxRecDepth 8192 in
set_option maxHeartbeats 1000000 in
theorem w8_0_main_cst_131 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8 V x0 x1 x2 x3 x4 x5 x6) :
    after ops_p8_0 V (Proc.devRef .tc main_cst_131) = val_main_cst_131 (F := F) := by
  simp only [ops_p8_0]
  after_results_w
  rfl

theorem step8_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8 V x0 x1 x2 x3 x4 x5 x6) : Inv8_1 (after ops_p8_0 V) x0 x1 x2 x3 x4 x5 x6 where
  main_arg0 := (ops_p8_0_keep V main_arg0 (by decide)).trans h.main_arg0
  main_arg1 := (ops_p8_0_keep V main_arg1 (by decide)).trans h.main_arg1
  main_arg2 := (ops_p8_0_keep V main_arg2 (by decide)).trans h.main_arg2
  main_arg3 := (ops_p8_0_keep V main_arg3 (by decide)).trans h.main_arg3
  main_arg4 := (ops_p8_0_keep V main_arg4 (by decide)).trans h.main_arg4
  main_arg5 := (ops_p8_0_keep V main_arg5 (by decide)).trans h.main_arg5
  main_arg6 := (ops_p8_0_keep V main_arg6 (by decide)).trans h.main_arg6
  main_v27 := (ops_p8_0_keep V main_v27 (by decide)).trans h.main_v27
  main_v29 := (ops_p8_0_keep V main_v29 (by decide)).trans h.main_v29
  main_v31 := (ops_p8_0_keep V main_v31 (by decide)).trans h.main_v31
  main_v33 := (ops_p8_0_keep V main_v33 (by decide)).trans h.main_v33
  main_v304 := (ops_p8_0_keep V main_v304 (by decide)).trans h.main_v304
  main_v352 := w8_0_main_v352 V x0 x1 x2 x3 x4 x5 x6 h
  main_v353 := w8_0_main_v353 V x0 x1 x2 x3 x4 x5 x6 h
  main_cst_131 := w8_0_main_cst_131 V x0 x1 x2 x3 x4 x5 x6 h

/-- Stretch 1 of window 8: @main's operations 576 … 583. -/
def ops_p8_1 : List (HloOp τ sig (Elt F)) :=
  [ unary main_cst_131 main_call23_v0 (id : (⟨S_, .f32⟩ : BufTy).Contents (Elt F) → (⟨S_, .f32⟩ : BufTy).Contents (Elt F)),
    unary main_v353 main_call23_v1 ((broadcastInDim S409600x64 ![0, 1] bcast_S409600x1_S409600x64_0_1) : (⟨S409600x1, .i1⟩ : BufTy).Contents (Elt F) → (⟨S409600x64, .i1⟩ : BufTy).Contents (Elt F)),
    unary main_call23_v0 main_call23_v2 ((broadcastInDim S409600x64 ![] bcast_S_S409600x64) : (⟨S_, .f32⟩ : BufTy).Contents (Elt F) → (⟨S409600x64, .f32⟩ : BufTy).Contents (Elt F)),
    ternary main_call23_v1 main_v352 main_call23_v2 main_v354 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v355 ((extractStridedSlice S1x1x64x64 ![1, 2, 0, 0] · slices_S3x3x64x64_S1x1x64x64_1_2_0_0) : (⟨S3x3x64x64, .f32⟩ : BufTy).Contents (Elt F) → (⟨S1x1x64x64, .f32⟩ : BufTy).Contents (Elt F)),
    reshape main_v355 main_v356 rfl shapeCasts_S1x1x64x64_S64x64,
    binary main_v354 main_v356 main_v357 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v304 main_v357 main_v358 (addf : (⟨S409600x64, .f32⟩ : BufTy).Contents (Elt F) → (⟨S409600x64, .f32⟩ : BufTy).Contents (Elt F) → (⟨S409600x64, .f32⟩ : BufTy).Contents (Elt F)) ]
abbrev ops_p8_1_W : List (Ref sig .tc) := [main_call23_v0, main_call23_v1, main_call23_v2, main_v354, main_v355, main_v356, main_v357, main_v358]
theorem ops_p8_1_writes : (ops_p8_1 : List (HloOp τ sig (Elt F))).Forall fun op => op.writes ⊆ (ops_p8_1_W.map (Proc.devRef (τ := τ) .tc)).toFinset := by
  simp only [ops_p8_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p8_1_keep (V : Valuation τ sig (Elt F)) (r : Ref sig .tc) (h : r ∉ ops_p8_1_W) :
    after ops_p8_1 V (Proc.devRef .tc r) = V (Proc.devRef .tc r) :=
  after_of_writes_sub ops_p8_1 _ ops_p8_1_writes h

set_option maxRecDepth 8192 in
set_option maxHeartbeats 1000000 in
theorem w8_1_main_v358 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_1 V x0 x1 x2 x3 x4 x5 x6) :
    after ops_p8_1 V (Proc.devRef .tc main_v358) = val_main_v358 (F := F) x0 x1 x2 := by
  simp only [ops_p8_1]
  after_results_w
  simp only [h.main_arg2, h.main_cst_131, h.main_v352, h.main_v353, h.main_v304]
  rfl

theorem step8_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_1 V x0 x1 x2 x3 x4 x5 x6) : Inv8_2 (after ops_p8_1 V) x0 x1 x2 x3 x4 x5 x6 where
  main_arg0 := (ops_p8_1_keep V main_arg0 (by decide)).trans h.main_arg0
  main_arg1 := (ops_p8_1_keep V main_arg1 (by decide)).trans h.main_arg1
  main_arg2 := (ops_p8_1_keep V main_arg2 (by decide)).trans h.main_arg2
  main_arg3 := (ops_p8_1_keep V main_arg3 (by decide)).trans h.main_arg3
  main_arg4 := (ops_p8_1_keep V main_arg4 (by decide)).trans h.main_arg4
  main_arg5 := (ops_p8_1_keep V main_arg5 (by decide)).trans h.main_arg5
  main_arg6 := (ops_p8_1_keep V main_arg6 (by decide)).trans h.main_arg6
  main_v27 := (ops_p8_1_keep V main_v27 (by decide)).trans h.main_v27
  main_v29 := (ops_p8_1_keep V main_v29 (by decide)).trans h.main_v29
  main_v31 := (ops_p8_1_keep V main_v31 (by decide)).trans h.main_v31
  main_v33 := (ops_p8_1_keep V main_v33 (by decide)).trans h.main_v33
  main_v358 := w8_1_main_v358 V x0 x1 x2 x3 x4 x5 x6 h

/-- Stretch 2 of window 8: @main's operations 584 … 591. -/
def ops_p8_2 : List (HloOp τ sig (Elt F)) :=
  [ nullary main_c_132 (constantI S_ 32 1#32),
    unary main_c_132 main_v359 (broadcastInDim S409600 ![] bcast_S_S409600 : (⟨S_, .i32⟩ : BufTy).Contents (Elt F) → (⟨S409600, .i32⟩ : BufTy).Contents (Elt F)),
    binary main_v31 main_v359 main_v360 (addi : (⟨S409600, .i32⟩ : BufTy).Contents (Elt F) → (⟨S409600, .i32⟩ : BufTy).Contents (Elt F) → (⟨S409600, .i32⟩ : BufTy).Contents (Elt F)),
    nullary main_c_133 (constantI S_ 32 4294967295#32),
    unary main_c_133 main_v361 (broadcastInDim S409600 ![] bcast_S_S409600 : (⟨S_, .i32⟩ : BufTy).Contents (Elt F) → (⟨S409600, .i32⟩ : BufTy).Contents (Elt F)),
    binary main_v33 main_v361 main_v362 (addi : (⟨S409600, .i32⟩ : BufTy).Contents (Elt F) → (⟨S409600, .i32⟩ : BufTy).Contents (Elt F) → (⟨S409600, .i32⟩ : BufTy).Contents (Elt F)),
    nullary main_c_134 (constantI S_ 32 0#32),
    unary main_c_134 main_v363 (broadcastInDim S409600 ![] bcast_S_S409600 : (⟨S_, .i32⟩ : BufTy).Contents (Elt F) → (⟨S409600, .i32⟩ : BufTy).Contents (Elt F)) ]
abbrev ops_p8_2_W : List (Ref sig .tc) := [main_c_132, main_v359, main_v360, main_c_133, main_v361, main_v362, main_c_134, main_v363]
theorem ops_p8_2_writes : (ops_p8_2 : List (HloOp τ sig (Elt F))).Forall fun op => op.writes ⊆ (ops_p8_2_W.map (Proc.devRef (τ := τ) .tc)).toFinset := by
  simp only [ops_p8_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p8_2_keep (V : Valuation τ sig (Elt F)) (r : Ref sig .tc) (h : r ∉ ops_p8_2_W) :
    after ops_p8_2 V (Proc.devRef .tc r) = V (Proc.devRef .tc r) :=
  after_of_writes_sub ops_p8_2 _ ops_p8_2_writes h

set_option maxRecDepth 8192 in
set_option maxHeartbeats 1000000 in
theorem w8_2_main_v360 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_2 V x0 x1 x2 x3 x4 x5 x6) :
    after ops_p8_2 V (Proc.devRef .tc main_v360) = val_main_v360 (F := F) x1 := by
  simp only [ops_p8_2]
  after_results_w
  simp only [h.main_v31]
  rfl

set_option maxRecDepth 8192 in
set_option maxHeartbeats 1000000 in
theorem w8_2_main_v362 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_2 V x0 x1 x2 x3 x4 x5 x6) :
    after ops_p8_2 V (Proc.devRef .tc main_v362) = val_main_v362 (F := F) x1 := by
  simp only [ops_p8_2]
  after_results_w
  simp only [h.main_v33]
  rfl

set_option maxRecDepth 8192 in
set_option maxHeartbeats 1000000 in
theorem w8_2_main_v363 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_2 V x0 x1 x2 x3 x4 x5 x6) :
    after ops_p8_2 V (Proc.devRef .tc main_v363) = val_main_v363 (F := F) := by
  simp only [ops_p8_2]
  after_results_w
  rfl

theorem step8_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_2 V x0 x1 x2 x3 x4 x5 x6) : Inv8_3 (after ops_p8_2 V) x0 x1 x2 x3 x4 x5 x6 where
  main_arg0 := (ops_p8_2_keep V main_arg0 (by decide)).trans h.main_arg0
  main_arg1 := (ops_p8_2_keep V main_arg1 (by decide)).trans h.main_arg1
  main_arg2 := (ops_p8_2_keep V main_arg2 (by decide)).trans h.main_arg2
  main_arg3 := (ops_p8_2_keep V main_arg3 (by decide)).trans h.main_arg3
  main_arg4 := (ops_p8_2_keep V main_arg4 (by decide)).trans h.main_arg4
  main_arg5 := (ops_p8_2_keep V main_arg5 (by decide)).trans h.main_arg5
  main_arg6 := (ops_p8_2_keep V main_arg6 (by decide)).trans h.main_arg6
  main_v27 := (ops_p8_2_keep V main_v27 (by decide)).trans h.main_v27
  main_v29 := (ops_p8_2_keep V main_v29 (by decide)).trans h.main_v29
  main_v31 := (ops_p8_2_keep V main_v31 (by decide)).trans h.main_v31
  main_v33 := (ops_p8_2_keep V main_v33 (by decide)).trans h.main_v33
  main_v358 := (ops_p8_2_keep V main_v358 (by decide)).trans h.main_v358
  main_v360 := w8_2_main_v360 V x0 x1 x2 x3 x4 x5 x6 h
  main_v362 := w8_2_main_v362 V x0 x1 x2 x3 x4 x5 x6 h
  main_v363 := w8_2_main_v363 V x0 x1 x2 x3 x4 x5 x6 h

/-- Stretch 3 of window 8: @main's operations 592 … 599. -/
def ops_p8_3 : List (HloOp τ sig (Elt F)) :=
  [ binary main_v360 main_v363 main_v364 (cmpi .sge : (⟨S409600, .i32⟩ : BufTy).Contents (Elt F) → (⟨S409600, .i32⟩ : BufTy).Contents (Elt F) → (⟨S409600, .i1⟩ : BufTy).Contents (Elt F)),
    nullary main_c_135 (constantI S_ 32 640#32),
    unary main_c_135 main_v365 (broadcastInDim S409600 ![] bcast_S_S409600 : (⟨S_, .i32⟩ : BufTy).Contents (Elt F) → (⟨S409600, .i32⟩ : BufTy).Contents (Elt F)),
    binary main_v360 main_v365 main_v366 (cmpi .slt : (⟨S409600, .i32⟩ : BufTy).Contents (Elt F) → (⟨S409600, .i32⟩ : BufTy).Contents (Elt F) → (⟨S409600, .i1⟩ : BufTy).Contents (Elt F)),
    binary main_v364 main_v366 main_v367 (andi : (⟨S409600, .i1⟩ : BufTy).Contents (Elt F) → (⟨S409600, .i1⟩ : BufTy).Contents (Elt F) → (⟨S409600, .i1⟩ : BufTy).Contents (Elt F)),
    nullary main_c_136 (constantI S_ 32 0#32),
    unary main_c_136 main_v368 (broadcastInDim S409600 ![] bcast_S_S409600 : (⟨S_, .i32⟩ : BufTy).Contents (Elt F) → (⟨S409600, .i32⟩ : BufTy).Contents (Elt F)),
    binary main_v362 main_v368 main_v369 (cmpi .sge : (⟨S409600, .i32⟩ : BufTy).Contents (Elt F) → (⟨S409600, .i32⟩ : BufTy).Contents (Elt F) → (⟨S409600, .i1⟩ : BufTy).Contents (Elt F)) ]
abbrev ops_p8_3_W : List (Ref sig .tc) := [main_v364, main_c_135, main_v365, main_v366, main_v367, main_c_136, main_v368, main_v369]
theorem ops_p8_3_writes : (ops_p8_3 : List (HloOp τ sig (Elt F))).Forall fun op => op.writes ⊆ (ops_p8_3_W.map (Proc.devRef (τ := τ) .tc)).toFinset := by
  simp only [ops_p8_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p8_3_keep (V : Valuation τ sig (Elt F)) (r : Ref sig .tc) (h : r ∉ ops_p8_3_W) :
    after ops_p8_3 V (Proc.devRef .tc r) = V (Proc.devRef .tc r) :=
  after_of_writes_sub ops_p8_3 _ ops_p8_3_writes h

set_option maxRecDepth 8192 in
set_option maxHeartbeats 1000000 in
theorem w8_3_main_v367 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_3 V x0 x1 x2 x3 x4 x5 x6) :
    after ops_p8_3 V (Proc.devRef .tc main_v367) = val_main_v367 (F := F) x1 := by
  simp only [ops_p8_3]
  after_results_w
  simp only [h.main_v360, h.main_v363]
  rfl

set_option maxRecDepth 8192 in
set_option maxHeartbeats 1000000 in
theorem w8_3_main_v369 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_3 V x0 x1 x2 x3 x4 x5 x6) :
    after ops_p8_3 V (Proc.devRef .tc main_v369) = val_main_v369 (F := F) x1 := by
  simp only [ops_p8_3]
  after_results_w
  simp only [h.main_v362]
  rfl

theorem step8_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_3 V x0 x1 x2 x3 x4 x5 x6) : Inv8_4 (after ops_p8_3 V) x0 x1 x2 x3 x4 x5 x6 where
  main_arg0 := (ops_p8_3_keep V main_arg0 (by decide)).trans h.main_arg0
  main_arg1 := (ops_p8_3_keep V main_arg1 (by decide)).trans h.main_arg1
  main_arg2 := (ops_p8_3_keep V main_arg2 (by decide)).trans h.main_arg2
  main_arg3 := (ops_p8_3_keep V main_arg3 (by decide)).trans h.main_arg3
  main_arg4 := (ops_p8_3_keep V main_arg4 (by decide)).trans h.main_arg4
  main_arg5 := (ops_p8_3_keep V main_arg5 (by decide)).trans h.main_arg5
  main_arg6 := (ops_p8_3_keep V main_arg6 (by decide)).trans h.main_arg6
  main_v27 := (ops_p8_3_keep V main_v27 (by decide)).trans h.main_v27
  main_v29 := (ops_p8_3_keep V main_v29 (by decide)).trans h.main_v29
  main_v31 := (ops_p8_3_keep V main_v31 (by decide)).trans h.main_v31
  main_v33 := (ops_p8_3_keep V main_v33 (by decide)).trans h.main_v33
  main_v358 := (ops_p8_3_keep V main_v358 (by decide)).trans h.main_v358
  main_v360 := (ops_p8_3_keep V main_v360 (by decide)).trans h.main_v360
  main_v362 := (ops_p8_3_keep V main_v362 (by decide)).trans h.main_v362
  main_v367 := w8_3_main_v367 V x0 x1 x2 x3 x4 x5 x6 h
  main_v369 := w8_3_main_v369 V x0 x1 x2 x3 x4 x5 x6 h

/-- Stretch 4 of window 8: @main's operations 600 … 607. -/
def ops_p8_4 : List (HloOp τ sig (Elt F)) :=
  [ binary main_v367 main_v369 main_v370 (andi : (⟨S409600, .i1⟩ : BufTy).Contents (Elt F) → (⟨S409600, .i1⟩ : BufTy).Contents (Elt F) → (⟨S409600, .i1⟩ : BufTy).Contents (Elt F)),
    nullary main_c_137 (constantI S_ 32 640#32),
    unary main_c_137 main_v371 (broadcastInDim S409600 ![] bcast_S_S409600 : (⟨S_, .i32⟩ : BufTy).Contents (Elt F) → (⟨S409600, .i32⟩ : BufTy).Contents (Elt F)),
    binary main_v362 main_v371 main_v372 (cmpi .slt : (⟨S409600, .i32⟩ : BufTy).Contents (Elt F) → (⟨S409600, .i32⟩ : BufTy).Contents (Elt F) → (⟨S409600, .i1⟩ : BufTy).Contents (Elt F)),
    binary main_v370 main_v372 main_v373 (andi : (⟨S409600, .i1⟩ : BufTy).Contents (Elt F) → (⟨S409600, .i1⟩ : BufTy).Contents (Elt F) → (⟨S409600, .i1⟩ : BufTy).Contents (Elt F)),
    nullary main_c_138 (constantI S_ 32 0#32),
    nullary main_c_139 (constantI S_ 32 639#32),
    unary main_c_138 main_call24_v0 (id : (⟨S_, .i32⟩ : BufTy).Contents (Elt F) → (⟨S_, .i32⟩ : BufTy).Contents (Elt F)) ]
abbrev ops_p8_4_W : List (Ref sig .tc) := [main_v370, main_c_137, main_v371, main_v372, main_v373, main_c_138, main_c_139, main_call24_v0]
theorem ops_p8_4_writes : (ops_p8_4 : List (HloOp τ sig (Elt F))).Forall fun op => op.writes ⊆ (ops_p8_4_W.map (Proc.devRef (τ := τ) .tc)).toFinset := by
  simp only [ops_p8_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p8_4_keep (V : Valuation τ sig (Elt F)) (r : Ref sig .tc) (h : r ∉ ops_p8_4_W) :
    after ops_p8_4 V (Proc.devRef .tc r) = V (Proc.devRef .tc r) :=
  after_of_writes_sub ops_p8_4 _ ops_p8_4_writes h

set_option maxRecDepth 8192 in
set_option maxHeartbeats 1000000 in
theorem w8_4_main_v373 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_4 V x0 x1 x2 x3 x4 x5 x6) :
    after ops_p8_4 V (Proc.devRef .tc main_v373) = val_main_v373 (F := F) x1 := by
  simp only [ops_p8_4]
  after_results_w
  simp only [h.main_v362, h.main_v369, h.main_v367]
  rfl

set_option maxRecDepth 8192 in
set_option maxHeartbeats 1000000 in
theorem w8_4_main_c_139 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_4 V x0 x1 x2 x3 x4 x5 x6) :
    after ops_p8_4 V (Proc.devRef .tc main_c_139) = val_main_c_139 (F := F) := by
  simp only [ops_p8_4]
  after_results_w
  rfl

set_option maxRecDepth 8192 in
set_option maxHeartbeats 1000000 in
theorem w8_4_main_call24_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_4 V x0 x1 x2 x3 x4 x5 x6) :
    after ops_p8_4 V (Proc.devRef .tc main_call24_v0) = val_main_call24_v0 (F := F) := by
  simp only [ops_p8_4]
  after_results_w
  rfl

theorem step8_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_4 V x0 x1 x2 x3 x4 x5 x6) : Inv8_5 (after ops_p8_4 V) x0 x1 x2 x3 x4 x5 x6 where
  main_arg0 := (ops_p8_4_keep V main_arg0 (by decide)).trans h.main_arg0
  main_arg1 := (ops_p8_4_keep V main_arg1 (by decide)).trans h.main_arg1
  main_arg2 := (ops_p8_4_keep V main_arg2 (by decide)).trans h.main_arg2
  main_arg3 := (ops_p8_4_keep V main_arg3 (by decide)).trans h.main_arg3
  main_arg4 := (ops_p8_4_keep V main_arg4 (by decide)).trans h.main_arg4
  main_arg5 := (ops_p8_4_keep V main_arg5 (by decide)).trans h.main_arg5
  main_arg6 := (ops_p8_4_keep V main_arg6 (by decide)).trans h.main_arg6
  main_v27 := (ops_p8_4_keep V main_v27 (by decide)).trans h.main_v27
  main_v29 := (ops_p8_4_keep V main_v29 (by decide)).trans h.main_v29
  main_v31 := (ops_p8_4_keep V main_v31 (by decide)).trans h.main_v31
  main_v33 := (ops_p8_4_keep V main_v33 (by decide)).trans h.main_v33
  main_v358 := (ops_p8_4_keep V main_v358 (by decide)).trans h.main_v358
  main_v360 := (ops_p8_4_keep V main_v360 (by decide)).trans h.main_v360
  main_v362 := (ops_p8_4_keep V main_v362 (by decide)).trans h.main_v362
  main_v373 := w8_4_main_v373 V x0 x1 x2 x3 x4 x5 x6 h
  main_c_139 := w8_4_main_c_139 V x0 x1 x2 x3 x4 x5 x6 h
  main_call24_v0 := w8_4_main_call24_v0 V x0 x1 x2 x3 x4 x5 x6 h

/-- Stretch 5 of window 8: @main's operations 608 … 615. -/
def ops_p8_5 : List (HloOp τ sig (Elt F)) :=
  [ unary main_call24_v0 main_call24_v1 ((broadcastInDim S409600 ![] bcast_S_S409600) : (⟨S_, .i32⟩ : BufTy).Contents (Elt F) → (⟨S409600, .i32⟩ : BufTy).Contents (Elt F)),
    binary main_call24_v1 main_v360 main_call24_v2 (maxsi : (⟨S409600, .i32⟩ : BufTy).Contents (Elt F) → (⟨S409600, .i32⟩ : BufTy).Contents (Elt F) → (⟨S409600, .i32⟩ : BufTy).Contents (Elt F)),
    unary main_c_139 main_call24_v3 (id : (⟨S_, .i32⟩ : BufTy).Contents (Elt F) → (⟨S_, .i32⟩ : BufTy).Contents (Elt F)),
    unary main_call24_v3 main_call24_v4 ((broadcastInDim S409600 ![] bcast_S_S409600) : (⟨S_, .i32⟩ : BufTy).Contents (Elt F) → (⟨S409600, .i32⟩ : BufTy).Contents (Elt F)),
    binary main_call24_v4 main_call24_v2 main_v374 (minsi : (⟨S409600, .i32⟩ : BufTy).Contents (Elt F) → (⟨S409600, .i32⟩ : BufTy).Contents (Elt F) → (⟨S409600, .i32⟩ : BufTy).Contents (Elt F)),
    nullary main_c_140 (constantI S_ 32 0#32),
    nullary main_c_141 (constantI S_ 32 639#32),
    unary main_c_140 main_call25_v0 (id : (⟨S_, .i32⟩ : BufTy).Contents (Elt F) → (⟨S_, .i32⟩ : BufTy).Contents (Elt F)) ]
abbrev ops_p8_5_W : List (Ref sig .tc) := [main_call24_v1, main_call24_v2, main_call24_v3, main_call24_v4, main_v374, main_c_140, main_c_141, main_call25_v0]
theorem ops_p8_5_writes : (ops_p8_5 : List (HloOp τ sig (Elt F))).Forall fun op => op.writes ⊆ (ops_p8_5_W.map (Proc.devRef (τ := τ) .tc)).toFinset := by
  simp only [ops_p8_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p8_5_keep (V : Valuation τ sig (Elt F)) (r : Ref sig .tc) (h : r ∉ ops_p8_5_W) :
    after ops_p8_5 V (Proc.devRef .tc r) = V (Proc.devRef .tc r) :=
  after_of_writes_sub ops_p8_5 _ ops_p8_5_writes h

set_option maxRecDepth 8192 in
set_option maxHeartbeats 1000000 in
theorem w8_5_main_v374 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_5 V x0 x1 x2 x3 x4 x5 x6) :
    after ops_p8_5 V (Proc.devRef .tc main_v374) = val_main_v374 (F := F) x1 := by
  simp only [ops_p8_5]
  after_results_w
  simp only [h.main_v360, h.main_call24_v0, h.main_c_139]
  rfl

set_option maxRecDepth 8192 in
set_option maxHeartbeats 1000000 in
theorem w8_5_main_c_141 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_5 V x0 x1 x2 x3 x4 x5 x6) :
    after ops_p8_5 V (Proc.devRef .tc main_c_141) = val_main_c_141 (F := F) := by
  simp only [ops_p8_5]
  after_results_w
  rfl

set_option maxRecDepth 8192 in
set_option maxHeartbeats 1000000 in
theorem w8_5_main_call25_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_5 V x0 x1 x2 x3 x4 x5 x6) :
    after ops_p8_5 V (Proc.devRef .tc main_call25_v0) = val_main_call25_v0 (F := F) := by
  simp only [ops_p8_5]
  after_results_w
  rfl

theorem step8_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_5 V x0 x1 x2 x3 x4 x5 x6) : Inv8_6 (after ops_p8_5 V) x0 x1 x2 x3 x4 x5 x6 where
  main_arg0 := (ops_p8_5_keep V main_arg0 (by decide)).trans h.main_arg0
  main_arg1 := (ops_p8_5_keep V main_arg1 (by decide)).trans h.main_arg1
  main_arg2 := (ops_p8_5_keep V main_arg2 (by decide)).trans h.main_arg2
  main_arg3 := (ops_p8_5_keep V main_arg3 (by decide)).trans h.main_arg3
  main_arg4 := (ops_p8_5_keep V main_arg4 (by decide)).trans h.main_arg4
  main_arg5 := (ops_p8_5_keep V main_arg5 (by decide)).trans h.main_arg5
  main_arg6 := (ops_p8_5_keep V main_arg6 (by decide)).trans h.main_arg6
  main_v27 := (ops_p8_5_keep V main_v27 (by decide)).trans h.main_v27
  main_v29 := (ops_p8_5_keep V main_v29 (by decide)).trans h.main_v29
  main_v31 := (ops_p8_5_keep V main_v31 (by decide)).trans h.main_v31
  main_v33 := (ops_p8_5_keep V main_v33 (by decide)).trans h.main_v33
  main_v358 := (ops_p8_5_keep V main_v358 (by decide)).trans h.main_v358
  main_v362 := (ops_p8_5_keep V main_v362 (by decide)).trans h.main_v362
  main_v373 := (ops_p8_5_keep V main_v373 (by decide)).trans h.main_v373
  main_v374 := w8_5_main_v374 V x0 x1 x2 x3 x4 x5 x6 h
  main_c_141 := w8_5_main_c_141 V x0 x1 x2 x3 x4 x5 x6 h
  main_call25_v0 := w8_5_main_call25_v0 V x0 x1 x2 x3 x4 x5 x6 h

/-- Stretch 6 of window 8: @main's operations 616 … 623. -/
def ops_p8_6 : List (HloOp τ sig (Elt F)) :=
  [ unary main_call25_v0 main_call25_v1 ((broadcastInDim S409600 ![] bcast_S_S409600) : (⟨S_, .i32⟩ : BufTy).Contents (Elt F) → (⟨S409600, .i32⟩ : BufTy).Contents (Elt F)),
    binary main_call25_v1 main_v362 main_call25_v2 (maxsi : (⟨S409600, .i32⟩ : BufTy).Contents (Elt F) → (⟨S409600, .i32⟩ : BufTy).Contents (Elt F) → (⟨S409600, .i32⟩ : BufTy).Contents (Elt F)),
    unary main_c_141 main_call25_v3 (id : (⟨S_, .i32⟩ : BufTy).Contents (Elt F) → (⟨S_, .i32⟩ : BufTy).Contents (Elt F)),
    unary main_call25_v3 main_call25_v4 ((broadcastInDim S409600 ![] bcast_S_S409600) : (⟨S_, .i32⟩ : BufTy).Contents (Elt F) → (⟨S409600, .i32⟩ : BufTy).Contents (Elt F)),
    binary main_call25_v4 main_call25_v2 main_v375 (minsi : (⟨S409600, .i32⟩ : BufTy).Contents (Elt F) → (⟨S409600, .i32⟩ : BufTy).Contents (Elt F) → (⟨S409600, .i32⟩ : BufTy).Contents (Elt F)),
    nullary main_c_142 (constantI S_ 32 0#32),
    unary main_c_142 main_v376 (broadcastInDim S409600 ![] bcast_S_S409600 : (⟨S_, .i32⟩ : BufTy).Contents (Elt F) → (⟨S409600, .i32⟩ : BufTy).Contents (Elt F)),
    binary main_v29 main_v376 main_v377 (cmpi .slt : (⟨S409600, .i32⟩ : BufTy).Contents (Elt F) → (⟨S409600, .i32⟩ : BufTy).Contents (Elt F) → (⟨S409600, .i1⟩ : BufTy).Contents (Elt F)) ]
abbrev ops_p8_6_W : List (Ref sig .tc) := [main_call25_v1, main_call25_v2, main_call25_v3, main_call25_v4, main_v375, main_c_142, main_v376, main_v377]
theorem ops_p8_6_writes : (ops_p8_6 : List (HloOp τ sig (Elt F))).Forall fun op => op.writes ⊆ (ops_p8_6_W.map (Proc.devRef (τ := τ) .tc)).toFinset := by
  simp only [ops_p8_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p8_6_keep (V : Valuation τ sig (Elt F)) (r : Ref sig .tc) (h : r ∉ ops_p8_6_W) :
    after ops_p8_6 V (Proc.devRef .tc r) = V (Proc.devRef .tc r) :=
  after_of_writes_sub ops_p8_6 _ ops_p8_6_writes h

set_option maxRecDepth 8192 in
set_option maxHeartbeats 1000000 in
theorem w8_6_main_v375 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_6 V x0 x1 x2 x3 x4 x5 x6) :
    after ops_p8_6 V (Proc.devRef .tc main_v375) = val_main_v375 (F := F) x1 := by
  simp only [ops_p8_6]
  after_results_w
  simp only [h.main_v362, h.main_call25_v0, h.main_c_141]
  rfl

set_option maxRecDepth 8192 in
set_option maxHeartbeats 1000000 in
theorem w8_6_main_v377 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_6 V x0 x1 x2 x3 x4 x5 x6) :
    after ops_p8_6 V (Proc.devRef .tc main_v377) = val_main_v377 (F := F) x1 := by
  simp only [ops_p8_6]
  after_results_w
  simp only [h.main_v29]
  rfl

theorem step8_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_6 V x0 x1 x2 x3 x4 x5 x6) : Inv8_7 (after ops_p8_6 V) x0 x1 x2 x3 x4 x5 x6 where
  main_arg0 := (ops_p8_6_keep V main_arg0 (by decide)).trans h.main_arg0
  main_arg1 := (ops_p8_6_keep V main_arg1 (by decide)).trans h.main_arg1
  main_arg2 := (ops_p8_6_keep V main_arg2 (by decide)).trans h.main_arg2
  main_arg3 := (ops_p8_6_keep V main_arg3 (by decide)).trans h.main_arg3
  main_arg4 := (ops_p8_6_keep V main_arg4 (by decide)).trans h.main_arg4
  main_arg5 := (ops_p8_6_keep V main_arg5 (by decide)).trans h.main_arg5
  main_arg6 := (ops_p8_6_keep V main_arg6 (by decide)).trans h.main_arg6
  main_v27 := (ops_p8_6_keep V main_v27 (by decide)).trans h.main_v27
  main_v29 := (ops_p8_6_keep V main_v29 (by decide)).trans h.main_v29
  main_v31 := (ops_p8_6_keep V main_v31 (by decide)).trans h.main_v31
  main_v33 := (ops_p8_6_keep V main_v33 (by decide)).trans h.main_v33
  main_v358 := (ops_p8_6_keep V main_v358 (by decide)).trans h.main_v358
  main_v373 := (ops_p8_6_keep V main_v373 (by decide)).trans h.main_v373
  main_v374 := (ops_p8_6_keep V main_v374 (by decide)).trans h.main_v374
  main_v375 := w8_6_main_v375 V x0 x1 x2 x3 x4 x5 x6 h
  main_v377 := w8_6_main_v377 V x0 x1 x2 x3 x4 x5 x6 h

/-- Stretch 7 of window 8: @main's operations 624 … 631. -/
def ops_p8_7 : List (HloOp τ sig (Elt F)) :=
  [ nullary main_c_143 (constantI S_ 32 2#32),
    unary main_c_143 main_v378 (broadcastInDim S409600 ![] bcast_S_S409600 : (⟨S_, .i32⟩ : BufTy).Contents (Elt F) → (⟨S409600, .i32⟩ : BufTy).Contents (Elt F)),
    binary main_v29 main_v378 main_v379 (addi : (⟨S409600, .i32⟩ : BufTy).Contents (Elt F) → (⟨S409600, .i32⟩ : BufTy).Contents (Elt F) → (⟨S409600, .i32⟩ : BufTy).Contents (Elt F)),
    ternary main_v377 main_v379 main_v29 main_v380 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_144 (constantI S_ 32 0#32),
    unary main_c_144 main_v381 (broadcastInDim S409600 ![] bcast_S_S409600 : (⟨S_, .i32⟩ : BufTy).Contents (Elt F) → (⟨S409600, .i32⟩ : BufTy).Contents (Elt F)),
    binary main_v374 main_v381 main_v382 (cmpi .slt : (⟨S409600, .i32⟩ : BufTy).Contents (Elt F) → (⟨S409600, .i32⟩ : BufTy).Contents (Elt F) → (⟨S409600, .i1⟩ : BufTy).Contents (Elt F)),
    nullary main_c_145 (constantI S_ 32 640#32) ]
abbrev ops_p8_7_W : List (Ref sig .tc) := [main_c_143, main_v378, main_v379, main_v380, main_c_144, main_v381, main_v382, main_c_145]
theorem ops_p8_7_writes : (ops_p8_7 : List (HloOp τ sig (Elt F))).Forall fun op => op.writes ⊆ (ops_p8_7_W.map (Proc.devRef (τ := τ) .tc)).toFinset := by
  simp only [ops_p8_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p8_7_keep (V : Valuation τ sig (Elt F)) (r : Ref sig .tc) (h : r ∉ ops_p8_7_W) :
    after ops_p8_7 V (Proc.devRef .tc r) = V (Proc.devRef .tc r) :=
  after_of_writes_sub ops_p8_7 _ ops_p8_7_writes h

set_option maxRecDepth 8192 in
set_option maxHeartbeats 1000000 in
theorem w8_7_main_v380 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_7 V x0 x1 x2 x3 x4 x5 x6) :
    after ops_p8_7 V (Proc.devRef .tc main_v380) = val_main_v380 (F := F) x1 := by
  simp only [ops_p8_7]
  after_results_w
  simp only [h.main_v29, h.main_v377]
  rfl

set_option maxRecDepth 8192 in
set_option maxHeartbeats 1000000 in
theorem w8_7_main_v382 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_7 V x0 x1 x2 x3 x4 x5 x6) :
    after ops_p8_7 V (Proc.devRef .tc main_v382) = val_main_v382 (F := F) x1 := by
  simp only [ops_p8_7]
  after_results_w
  simp only [h.main_v374]
  rfl

set_option maxRecDepth 8192 in
set_option maxHeartbeats 1000000 in
theorem w8_7_main_c_145 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_7 V x0 x1 x2 x3 x4 x5 x6) :
    after ops_p8_7 V (Proc.devRef .tc main_c_145) = val_main_c_145 (F := F) := by
  simp only [ops_p8_7]
  after_results_w
  rfl

theorem step8_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_7 V x0 x1 x2 x3 x4 x5 x6) : Inv8_8 (after ops_p8_7 V) x0 x1 x2 x3 x4 x5 x6 where
  main_arg0 := (ops_p8_7_keep V main_arg0 (by decide)).trans h.main_arg0
  main_arg1 := (ops_p8_7_keep V main_arg1 (by decide)).trans h.main_arg1
  main_arg2 := (ops_p8_7_keep V main_arg2 (by decide)).trans h.main_arg2
  main_arg3 := (ops_p8_7_keep V main_arg3 (by decide)).trans h.main_arg3
  main_arg4 := (ops_p8_7_keep V main_arg4 (by decide)).trans h.main_arg4
  main_arg5 := (ops_p8_7_keep V main_arg5 (by decide)).trans h.main_arg5
  main_arg6 := (ops_p8_7_keep V main_arg6 (by decide)).trans h.main_arg6
  main_v27 := (ops_p8_7_keep V main_v27 (by decide)).trans h.main_v27
  main_v29 := (ops_p8_7_keep V main_v29 (by decide)).trans h.main_v29
  main_v31 := (ops_p8_7_keep V main_v31 (by decide)).trans h.main_v31
  main_v33 := (ops_p8_7_keep V main_v33 (by decide)).trans h.main_v33
  main_v358 := (ops_p8_7_keep V main_v358 (by decide)).trans h.main_v358
  main_v373 := (ops_p8_7_keep V main_v373 (by decide)).trans h.main_v373
  main_v374 := (ops_p8_7_keep V main_v374 (by decide)).trans h.main_v374
  main_v375 := (ops_p8_7_keep V main_v375 (by decide)).trans h.main_v375
  main_v380 := w8_7_main_v380 V x0 x1 x2 x3 x4 x5 x6 h
  main_v382 := w8_7_main_v382 V x0 x1 x2 x3 x4 x5 x6 h
  main_c_145 := w8_7_main_c_145 V x0 x1 x2 x3 x4 x5 x6 h

/-- Stretch 8 of window 8: @main's operations 632 … 640. -/
def ops_p8_8 : List (HloOp τ sig (Elt F)) :=
  [ unary main_c_145 main_v383 (broadcastInDim S409600 ![] bcast_S_S409600 : (⟨S_, .i32⟩ : BufTy).Contents (Elt F) → (⟨S409600, .i32⟩ : BufTy).Contents (Elt F)),
    binary main_v374 main_v383 main_v384 (addi : (⟨S409600, .i32⟩ : BufTy).Contents (Elt F) → (⟨S409600, .i32⟩ : BufTy).Contents (Elt F) → (⟨S409600, .i32⟩ : BufTy).Contents (Elt F)),
    ternary main_v382 main_v384 main_v374 main_v385 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_146 (constantI S_ 32 0#32),
    unary main_c_146 main_v386 (broadcastInDim S409600 ![] bcast_S_S409600 : (⟨S_, .i32⟩ : BufTy).Contents (Elt F) → (⟨S409600, .i32⟩ : BufTy).Contents (Elt F)),
    binary main_v375 main_v386 main_v387 (cmpi .slt : (⟨S409600, .i32⟩ : BufTy).Contents (Elt F) → (⟨S409600, .i32⟩ : BufTy).Contents (Elt F) → (⟨S409600, .i1⟩ : BufTy).Contents (Elt F)),
    nullary main_c_147 (constantI S_ 32 640#32),
    unary main_c_147 main_v388 (broadcastInDim S409600 ![] bcast_S_S409600 : (⟨S_, .i32⟩ : BufTy).Contents (Elt F) → (⟨S409600, .i32⟩ : BufTy).Contents (Elt F)),
    binary main_v375 main_v388 main_v389 (addi : (⟨S409600, .i32⟩ : BufTy).Contents (Elt F) → (⟨S409600, .i32⟩ : BufTy).Contents (Elt F) → (⟨S409600, .i32⟩ : BufTy).Contents (Elt F)) ]
abbrev ops_p8_8_W : List (Ref sig .tc) := [main_v383, main_v384, main_v385, main_c_146, main_v386, main_v387, main_c_147, main_v388, main_v389]
theorem ops_p8_8_writes : (ops_p8_8 : List (HloOp τ sig (Elt F))).Forall fun op => op.writes ⊆ (ops_p8_8_W.map (Proc.devRef (τ := τ) .tc)).toFinset := by
  simp only [ops_p8_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p8_8_keep (V : Valuation τ sig (Elt F)) (r : Ref sig .tc) (h : r ∉ ops_p8_8_W) :
    after ops_p8_8 V (Proc.devRef .tc r) = V (Proc.devRef .tc r) :=
  after_of_writes_sub ops_p8_8 _ ops_p8_8_writes h

set_option maxRecDepth 8192 in
set_option maxHeartbeats 1000000 in
theorem w8_8_main_v385 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_8 V x0 x1 x2 x3 x4 x5 x6) :
    after ops_p8_8 V (Proc.devRef .tc main_v385) = val_main_v385 (F := F) x1 := by
  simp only [ops_p8_8]
  after_results_w
  simp only [h.main_v374, h.main_c_145, h.main_v382]
  rfl

set_option maxRecDepth 8192 in
set_option maxHeartbeats 1000000 in
theorem w8_8_main_v387 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_8 V x0 x1 x2 x3 x4 x5 x6) :
    after ops_p8_8 V (Proc.devRef .tc main_v387) = val_main_v387 (F := F) x1 := by
  simp only [ops_p8_8]
  after_results_w
  simp only [h.main_v375]
  rfl

set_option maxRecDepth 8192 in
set_option maxHeartbeats 1000000 in
theorem w8_8_main_v389 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_8 V x0 x1 x2 x3 x4 x5 x6) :
    after ops_p8_8 V (Proc.devRef .tc main_v389) = val_main_v389 (F := F) x1 := by
  simp only [ops_p8_8]
  after_results_w
  simp only [h.main_v375]
  rfl

theorem step8_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8_8 V x0 x1 x2 x3 x4 x5 x6) : Inv9 (after ops_p8_8 V) x0 x1 x2 x3 x4 x5 x6 where
  main_arg0 := (ops_p8_8_keep V main_arg0 (by decide)).trans h.main_arg0
  main_arg1 := (ops_p8_8_keep V main_arg1 (by decide)).trans h.main_arg1
  main_arg2 := (ops_p8_8_keep V main_arg2 (by decide)).trans h.main_arg2
  main_arg3 := (ops_p8_8_keep V main_arg3 (by decide)).trans h.main_arg3
  main_arg4 := (ops_p8_8_keep V main_arg4 (by decide)).trans h.main_arg4
  main_arg5 := (ops_p8_8_keep V main_arg5 (by decide)).trans h.main_arg5
  main_arg6 := (ops_p8_8_keep V main_arg6 (by decide)).trans h.main_arg6
  main_v27 := (ops_p8_8_keep V main_v27 (by decide)).trans h.main_v27
  main_v29 := (ops_p8_8_keep V main_v29 (by decide)).trans h.main_v29
  main_v31 := (ops_p8_8_keep V main_v31 (by decide)).trans h.main_v31
  main_v33 := (ops_p8_8_keep V main_v33 (by decide)).trans h.main_v33
  main_v358 := (ops_p8_8_keep V main_v358 (by decide)).trans h.main_v358
  main_v373 := (ops_p8_8_keep V main_v373 (by decide)).trans h.main_v373
  main_v375 := (ops_p8_8_keep V main_v375 (by decide)).trans h.main_v375
  main_v380 := (ops_p8_8_keep V main_v380 (by decide)).trans h.main_v380
  main_v385 := w8_8_main_v385 V x0 x1 x2 x3 x4 x5 x6 h
  main_v387 := w8_8_main_v387 V x0 x1 x2 x3 x4 x5 x6 h
  main_v389 := w8_8_main_v389 V x0 x1 x2 x3 x4 x5 x6 h

set_option maxRecDepth 8192 in
theorem ops_p8_split : (ops_p8 : List (HloOp τ sig (Elt F))) = ops_p8_0 ++ (ops_p8_1 ++ (ops_p8_2 ++ (ops_p8_3 ++ (ops_p8_4 ++ (ops_p8_5 ++ (ops_p8_6 ++ (ops_p8_7 ++ (ops_p8_8)))))))) := rfl

/-- Window 8 carries the staged reading from boundary 8 to boundary 9. -/
theorem step8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv8 V x0 x1 x2 x3 x4 x5 x6) : Inv9 (after ops_p8 V) x0 x1 x2 x3 x4 x5 x6 := by
  rw [ops_p8_split]; simp only [after_app]
  exact step8_8 _ x0 x1 x2 x3 x4 x5 x6 (step8_7 _ x0 x1 x2 x3 x4 x5 x6 (step8_6 _ x0 x1 x2 x3 x4 x5 x6 (step8_5 _ x0 x1 x2 x3 x4 x5 x6 (step8_4 _ x0 x1 x2 x3 x4 x5 x6 (step8_3 _ x0 x1 x2 x3 x4 x5 x6 (step8_2 _ x0 x1 x2 x3 x4 x5 x6 (step8_1 _ x0 x1 x2 x3 x4 x5 x6 (step8_0 V x0 x1 x2 x3 x4 x5 x6 h))))))))

end Cert.ReferenceIdeal.Hand

end
-- ==== Proof.Ref.W9.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 9 of @main: its operations 641 … 715 of 1688, in order. -/
def ops_p9 : List (HloOp τ sig (Elt F)) :=
  [ ternary main_v387 main_v389 main_v375 main_v390 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v380 main_v391 (broadcastInDim S409600x1 ![0] bcast_S409600_S409600x1_0 : (⟨S409600, .i32⟩ : BufTy).Contents (Elt F) → (⟨S409600x1, .i32⟩ : BufTy).Contents (Elt F)),
    unary main_v385 main_v392 (broadcastInDim S409600x1 ![0] bcast_S409600_S409600x1_0 : (⟨S409600, .i32⟩ : BufTy).Contents (Elt F) → (⟨S409600x1, .i32⟩ : BufTy).Contents (Elt F)),
    unary main_v390 main_v393 (broadcastInDim S409600x1 ![0] bcast_S409600_S409600x1_0 : (⟨S409600, .i32⟩ : BufTy).Contents (Elt F) → (⟨S409600x1, .i32⟩ : BufTy).Contents (Elt F)),
    nary ![main_v391, main_v392, main_v393] main_v394 (fun u => concatenate S409600x3 1 [⟨S409600x1, u 0⟩, ⟨S409600x1, u 1⟩, ⟨S409600x1, u 2⟩] concatenates_S409600x1_S409600x1_S409600x1_S409600x3_d1),
    binary main_v27 main_v394 main_v395 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_148 (constantI S_ 32 0#32),
    unary main_c_148 main_v396 (broadcastInDim S409600 ![] bcast_S_S409600 : (⟨S_, .i32⟩ : BufTy).Contents (Elt F) → (⟨S409600, .i32⟩ : BufTy).Contents (Elt F)),
    binary main_v395 main_v396 main_v397 (cmpi .sge : (⟨S409600, .i32⟩ : BufTy).Contents (Elt F) → (⟨S409600, .i32⟩ : BufTy).Contents (Elt F) → (⟨S409600, .i1⟩ : BufTy).Contents (Elt F)),
    binary main_v373 main_v397 main_v398 (andi : (⟨S409600, .i1⟩ : BufTy).Contents (Elt F) → (⟨S409600, .i1⟩ : BufTy).Contents (Elt F) → (⟨S409600, .i1⟩ : BufTy).Contents (Elt F)),
    nullary main_c_149 (constantI S_ 32 0#32),
    unary main_c_149 main_call26_v0 (id : (⟨S_, .i32⟩ : BufTy).Contents (Elt F) → (⟨S_, .i32⟩ : BufTy).Contents (Elt F)),
    unary main_call26_v0 main_call26_v1 ((broadcastInDim S409600 ![] bcast_S_S409600) : (⟨S_, .i32⟩ : BufTy).Contents (Elt F) → (⟨S409600, .i32⟩ : BufTy).Contents (Elt F)),
    ternary main_v398 main_v395 main_call26_v1 main_v399 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_150 (constantI S_ 32 0#32),
    unary main_c_150 main_v400 (broadcastInDim S409600 ![] bcast_S_S409600 : (⟨S_, .i32⟩ : BufTy).Contents (Elt F) → (⟨S409600, .i32⟩ : BufTy).Contents (Elt F)),
    binary main_v399 main_v400 main_v401 (cmpi .slt : (⟨S409600, .i32⟩ : BufTy).Contents (Elt F) → (⟨S409600, .i32⟩ : BufTy).Contents (Elt F) → (⟨S409600, .i1⟩ : BufTy).Contents (Elt F)),
    nullary main_c_151 (constantI S_ 32 409600#32),
    unary main_c_151 main_v402 (broadcastInDim S409600 ![] bcast_S_S409600 : (⟨S_, .i32⟩ : BufTy).Contents (Elt F) → (⟨S409600, .i32⟩ : BufTy).Contents (Elt F)),
    binary main_v399 main_v402 main_v403 (addi : (⟨S409600, .i32⟩ : BufTy).Contents (Elt F) → (⟨S409600, .i32⟩ : BufTy).Contents (Elt F) → (⟨S409600, .i32⟩ : BufTy).Contents (Elt F)),
    ternary main_v401 main_v403 main_v399 main_v404 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v404 main_v405 (broadcastInDim S409600x1 ![0] bcast_S409600_S409600x1_0 : (⟨S409600, .i32⟩ : BufTy).Contents (Elt F) → (⟨S409600x1, .i32⟩ : BufTy).Contents (Elt F)),
    binary main_arg0 main_v405 main_v406 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v398 main_v407 (broadcastInDim S409600x1 ![0] bcast_S409600_S409600x1_0 : (⟨S409600, .i1⟩ : BufTy).Contents (Elt F) → (⟨S409600x1, .i1⟩ : BufTy).Contents (Elt F)),
    nullary main_cst_152 (constant S_ .f32 0x00000000#32),
    unary main_cst_152 main_call27_v0 (id : (⟨S_, .f32⟩ : BufTy).Contents (Elt F) → (⟨S_, .f32⟩ : BufTy).Contents (Elt F)),
    unary main_v407 main_call27_v1 ((broadcastInDim S409600x64 ![0, 1] bcast_S409600x1_S409600x64_0_1) : (⟨S409600x1, .i1⟩ : BufTy).Contents (Elt F) → (⟨S409600x64, .i1⟩ : BufTy).Contents (Elt F)),
    unary main_call27_v0 main_call27_v2 ((broadcastInDim S409600x64 ![] bcast_S_S409600x64) : (⟨S_, .f32⟩ : BufTy).Contents (Elt F) → (⟨S409600x64, .f32⟩ : BufTy).Contents (Elt F)),
    ternary main_call27_v1 main_v406 main_call27_v2 main_v408 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v409 ((extractStridedSlice S1x1x64x64 ![2, 0, 0, 0] · slices_S3x3x64x64_S1x1x64x64_2_0_0_0) : (⟨S3x3x64x64, .f32⟩ : BufTy).Contents (Elt F) → (⟨S1x1x64x64, .f32⟩ : BufTy).Contents (Elt F)),
    reshape main_v409 main_v410 rfl shapeCasts_S1x1x64x64_S64x64,
    binary main_v408 main_v410 main_v411 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v358 main_v411 main_v412 (addf : (⟨S409600x64, .f32⟩ : BufTy).Contents (Elt F) → (⟨S409600x64, .f32⟩ : BufTy).Contents (Elt F) → (⟨S409600x64, .f32⟩ : BufTy).Contents (Elt F)),
    nullary main_c_153 (constantI S_ 32 1#32),
    unary main_c_153 main_v413 (broadcastInDim S409600 ![] bcast_S_S409600 : (⟨S_, .i32⟩ : BufTy).Contents (Elt F) → (⟨S409600, .i32⟩ : BufTy).Contents (Elt F)),
    binary main_v31 main_v413 main_v414 (addi : (⟨S409600, .i32⟩ : BufTy).Contents (Elt F) → (⟨S409600, .i32⟩ : BufTy).Contents (Elt F) → (⟨S409600, .i32⟩ : BufTy).Contents (Elt F)),
    nullary main_c_154 (constantI S_ 32 0#32),
    unary main_c_154 main_v415 (broadcastInDim S409600 ![] bcast_S_S409600 : (⟨S_, .i32⟩ : BufTy).Contents (Elt F) → (⟨S409600, .i32⟩ : BufTy).Contents (Elt F)),
    binary main_v33 main_v415 main_v416 (addi : (⟨S409600, .i32⟩ : BufTy).Contents (Elt F) → (⟨S409600, .i32⟩ : BufTy).Contents (Elt F) → (⟨S409600, .i32⟩ : BufTy).Contents (Elt F)),
    nullary main_c_155 (constantI S_ 32 0#32),
    unary main_c_155 main_v417 (broadcastInDim S409600 ![] bcast_S_S409600 : (⟨S_, .i32⟩ : BufTy).Contents (Elt F) → (⟨S409600, .i32⟩ : BufTy).Contents (Elt F)),
    binary main_v414 main_v417 main_v418 (cmpi .sge : (⟨S409600, .i32⟩ : BufTy).Contents (Elt F) → (⟨S409600, .i32⟩ : BufTy).Contents (Elt F) → (⟨S409600, .i1⟩ : BufTy).Contents (Elt F)),
    nullary main_c_156 (constantI S_ 32 640#32),
    unary main_c_156 main_v419 (broadcastInDim S409600 ![] bcast_S_S409600 : (⟨S_, .i32⟩ : BufTy).Contents (Elt F) → (⟨S409600, .i32⟩ : BufTy).Contents (Elt F)),
    binary main_v414 main_v419 main_v420 (cmpi .slt : (⟨S409600, .i32⟩ : BufTy).Contents (Elt F) → (⟨S409600, .i32⟩ : BufTy).Contents (Elt F) → (⟨S409600, .i1⟩ : BufTy).Contents (Elt F)),
    binary main_v418 main_v420 main_v421 (andi : (⟨S409600, .i1⟩ : BufTy).Contents (Elt F) → (⟨S409600, .i1⟩ : BufTy).Contents (Elt F) → (⟨S409600, .i1⟩ : BufTy).Contents (Elt F)),
    nullary main_c_157 (constantI S_ 32 0#32),
    unary main_c_157 main_v422 (broadcastInDim S409600 ![] bcast_S_S409600 : (⟨S_, .i32⟩ : BufTy).Contents (Elt F) → (⟨S409600, .i32⟩ : BufTy).Contents (Elt F)),
    binary main_v416 main_v422 main_v423 (cmpi .sge : (⟨S409600, .i32⟩ : BufTy).Contents (Elt F) → (⟨S409600, .i32⟩ : BufTy).Contents (Elt F) → (⟨S409600, .i1⟩ : BufTy).Contents (Elt F)),
    binary main_v421 main_v423 main_v424 (andi : (⟨S409600, .i1⟩ : BufTy).Contents (Elt F) → (⟨S409600, .i1⟩ : BufTy).Contents (Elt F) → (⟨S409600, .i1⟩ : BufTy).Contents (Elt F)),
    nullary main_c_158 (constantI S_ 32 640#32),
    unary main_c_158 main_v425 (broadcastInDim S409600 ![] bcast_S_S409600 : (⟨S_, .i32⟩ : BufTy).Contents (Elt F) → (⟨S409600, .i32⟩ : BufTy).Contents (Elt F)),
    binary main_v416 main_v425 main_v426 (cmpi .slt : (⟨S409600, .i32⟩ : BufTy).Contents (Elt F) → (⟨S409600, .i32⟩ : BufTy).Contents (Elt F) → (⟨S409600, .i1⟩ : BufTy).Contents (Elt F)),
    binary main_v424 main_v426 main_v427 (andi : (⟨S409600, .i1⟩ : BufTy).Contents (Elt F) → (⟨S409600, .i1⟩ : BufTy).Contents (Elt F) → (⟨S409600, .i1⟩ : BufTy).Contents (Elt F)),
    nullary main_c_159 (constantI S_ 32 0#32),
    nullary main_c_160 (constantI S_ 32 639#32),
    unary main_c_159 main_call28_v0 (id : (⟨S_, .i32⟩ : BufTy).Contents (Elt F) → (⟨S_, .i32⟩ : BufTy).Contents (Elt F)),
    unary main_call28_v0 main_call28_v1 ((broadcastInDim S409600 ![] bcast_S_S409600) : (⟨S_, .i32⟩ : BufTy).Contents (Elt F) → (⟨S409600, .i32⟩ : BufTy).Contents (Elt F)),
    binary main_call28_v1 main_v414 main_call28_v2 (maxsi : (⟨S409600, .i32⟩ : BufTy).Contents (Elt F) → (⟨S409600, .i32⟩ : BufTy).Contents (Elt F) → (⟨S409600, .i32⟩ : BufTy).Contents (Elt F)),
    unary main_c_160 main_call28_v3 (id : (⟨S_, .i32⟩ : BufTy).Contents (Elt F) → (⟨S_, .i32⟩ : BufTy).Contents (Elt F)),
    unary main_call28_v3 main_call28_v4 ((broadcastInDim S409600 ![] bcast_S_S409600) : (⟨S_, .i32⟩ : BufTy).Contents (Elt F) → (⟨S409600, .i32⟩ : BufTy).Contents (Elt F)),
    binary main_call28_v4 main_call28_v2 main_v428 (minsi : (⟨S409600, .i32⟩ : BufTy).Contents (Elt F) → (⟨S409600, .i32⟩ : BufTy).Contents (Elt F) → (⟨S409600, .i32⟩ : BufTy).Contents (Elt F)),
    nullary main_c_161 (constantI S_ 32 0#32),
    nullary main_c_162 (constantI S_ 32 639#32),
    unary main_c_161 main_call29_v0 (id : (⟨S_, .i32⟩ : BufTy).Contents (Elt F) → (⟨S_, .i32⟩ : BufTy).Contents (Elt F)),
    unary main_call29_v0 main_call29_v1 ((broadcastInDim S409600 ![] bcast_S_S409600) : (⟨S_, .i32⟩ : BufTy).Contents (Elt F) → (⟨S409600, .i32⟩ : BufTy).Contents (Elt F)),
    binary main_call29_v1 main_v416 main_call29_v2 (maxsi : (⟨S409600, .i32⟩ : BufTy).Contents (Elt F) → (⟨S409600, .i32⟩ : BufTy).Contents (Elt F) → (⟨S409600, .i32⟩ : BufTy).Contents (Elt F)),
    unary main_c_162 main_call29_v3 (id : (⟨S_, .i32⟩ : BufTy).Contents (Elt F) → (⟨S_, .i32⟩ : BufTy).Contents (Elt F)),
    unary main_call29_v3 main_call29_v4 ((broadcastInDim S409600 ![] bcast_S_S409600) : (⟨S_, .i32⟩ : BufTy).Contents (Elt F) → (⟨S409600, .i32⟩ : BufTy).Contents (Elt F)),
    binary main_call29_v4 main_call29_v2 main_v429 (minsi : (⟨S409600, .i32⟩ : BufTy).Contents (Elt F) → (⟨S409600, .i32⟩ : BufTy).Contents (Elt F) → (⟨S409600, .i32⟩ : BufTy).Contents (Elt F)),
    nullary main_c_163 (constantI S_ 32 0#32),
    unary main_c_163 main_v430 (broadcastInDim S409600 ![] bcast_S_S409600 : (⟨S_, .i32⟩ : BufTy).Contents (Elt F) → (⟨S409600, .i32⟩ : BufTy).Contents (Elt F)),
    binary main_v29 main_v430 main_v431 (cmpi .slt : (⟨S409600, .i32⟩ : BufTy).Contents (Elt F) → (⟨S409600, .i32⟩ : BufTy).Contents (Elt F) → (⟨S409600, .i1⟩ : BufTy).Contents (Elt F)),
    nullary main_c_164 (constantI S_ 32 2#32),
    unary main_c_164 main_v432 (broadcastInDim S409600 ![] bcast_S_S409600 : (⟨S_, .i32⟩ : BufTy).Contents (Elt F) → (⟨S409600, .i32⟩ : BufTy).Contents (Elt F)) ]

set_option maxRecDepth 8192 in
set_option maxHeartbeats 4000000 in
theorem main_part9_eq (c : Dev nD) : main_part9 (F := F) c = seq ops_p9 := by
  simp only [main_part9, ops_p9, fn_clip.body, fn_where.body, fn_where_0.body, fn_relu.body, seq, bind_assoc, pure_bind]
  rfl

set_option maxRecDepth 8192 in
theorem ops_p9_sub : (ops_p9 : List (HloOp τ sig (Elt F))).Forall fun op => op.bufs ⊆ tcRefs τ sig :=
  ⟨ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub ..⟩

set_option maxRecDepth 8192 in
theorem ops_p9_fresh : ∀ op ∈ (ops_p9 : List (HloOp τ sig (Elt F))), op.fresh = ∅ := by
  unfold ops_p9; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 649 on hold before it. -/
structure Inv9_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v373 : V (Proc.devRef .tc main_v373) = val_main_v373 (F := F) x1
  main_v395 : V (Proc.devRef .tc main_v395) = val_main_v395 (F := F) x1
  main_v396 : V (Proc.devRef .tc main_v396) = val_main_v396 (F := F)

/-- What the buffers read from operation 657 on hold before it. -/
structure Inv9_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v398 : V (Proc.devRef .tc main_v398) = val_main_v398 (F := F) x1
  main_v399 : V (Proc.devRef .tc main_v399) = val_main_v399 (F := F) x1
  main_v400 : V (Proc.devRef .tc main_v400) = val_main_v400 (F := F)

/-- What the buffers read from operation 665 on hold before it. -/
structure Inv9_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v406 : V (Proc.devRef .tc main_v406) = val_main_v406 (F := F) x0 x1
  main_v407 : V (Proc.devRef .tc main_v407) = val_main_v407 (F := F) x1

/-- What the buffers read from operation 673 on hold before it. -/
structure Inv9_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v358 : V (Proc.devRef .tc main_v358) = val_main_v358 (F := F) x0 x1 x2
  main_v411 : V (Proc.devRef .tc main_v411) = val_main_v411 (F := F) x0 x1 x2

/-- What the buffers read from operation 681 on hold before it. -/
structure Inv9_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v414 : V (Proc.devRef .tc main_v414) = val_main_v414 (F := F) x1
  main_v416 : V (Proc.devRef .tc main_v416) = val_main_v416 (F := F) x1
  main_c_155 : V (Proc.devRef .tc main_c_155) = val_main_c_155 (F := F)

/-- What the buffers read from operation 689 on hold before it. -/
structure Inv9_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v414 : V (Proc.devRef .tc main_v414) = val_main_v414 (F := F) x1
  main_v416 : V (Proc.devRef .tc main_v416) = val_main_v416 (F := F) x1
  main_v421 : V (Proc.devRef .tc main_v421) = val_main_v421 (F := F) x1
  main_v422 : V (Proc.devRef .tc main_v422) = val_main_v422 (F := F)

/-- What the buffers read from operation 697 on hold before it. -/
structure Inv9_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v414 : V (Proc.devRef .tc main_v414) = val_main_v414 (F := F) x1
  main_v416 : V (Proc.devRef .tc main_v416) = val_main_v416 (F := F) x1
  main_v427 : V (Proc.devRef .tc main_v427) = val_main_v427 (F := F) x1
  main_c_159 : V (Proc.devRef .tc main_c_159) = val_main_c_159 (F := F)
  main_c_160 : V (Proc.devRef .tc main_c_160) = val_main_c_160 (F := F)

/-- What the buffers read from operation 705 on hold before it. -/
structure Inv9_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v416 : V (Proc.devRef .tc main_v416) = val_main_v416 (F := F) x1
  main_v427 : V (Proc.devRef .tc main_v427) = val_main_v427 (F := F) x1
  main_v428 : V (Proc.devRef .tc main_v428) = val_main_v428 (F := F) x1
  main_c_161 : V (Proc.devRef .tc main_c_161) = val_main_c_161 (F := F)
  main_c_162 : V (Proc.devRef .tc main_c_162) = val_main_c_162 (F := F)

/-- What the buffers read from operation 713 on hold before it. -/
structure Inv9_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v427 : V (Proc.devRef .tc main_v427) = val_main_v427 (F := F) x1
  main_v428 : V (Proc.devRef .tc main_v428) = val_main_v428 (F := F) x1
  main_v429 : V (Proc.devRef .tc main_v429) = val_main_v429 (F := F) x1
  main_v430 : V (Proc.devRef .tc main_v430) = val_main_v430 (F := F)

/-- Stretch 0 of window 9: @main's operations 641 … 648. -/
def ops_p9_0 : List (HloOp τ sig (Elt F)) :=
  [ ternary main_v387 main_v389 main_v375 main_v390 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v380 main_v391 (broadcastInDim S409600x1 ![0] bcast_S409600_S409600x1_0 : (⟨S409600, .i32⟩ : BufTy).Contents (Elt F) → (⟨S409600x1, .i32⟩ : BufTy).Contents (Elt F)),
    unary main_v385 main_v392 (broadcastInDim S409600x1 ![0] bcast_S409600_S409600x1_0 : (⟨S409600, .i32⟩ : BufTy).Contents (Elt F) → (⟨S409600x1, .i32⟩ : BufTy).Contents (Elt F)),
    unary main_v390 main_v393 (broadcastInDim S409600x1 ![0] bcast_S409600_S409600x1_0 : (⟨S409600, .i32⟩ : BufTy).Contents (Elt F) → (⟨S409600x1, .i32⟩ : BufTy).Contents (Elt F)),
    nary ![main_v391, main_v392, main_v393] main_v394 (fun u => concatenate S409600x3 1 [⟨S409600x1, u 0⟩, ⟨S409600x1, u 1⟩, ⟨S409600x1, u 2⟩] concatenates_S409600x1_S409600x1_S409600x1_S409600x3_d1),
    binary main_v27 main_v394 main_v395 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_148 (constantI S_ 32 0#32),
    unary main_c_148 main_v396 (broadcastInDim S409600 ![] bcast_S_S409600 : (⟨S_, .i32⟩ : BufTy).Contents (Elt F) → (⟨S409600, .i32⟩ : BufTy).Contents (Elt F)) ]
abbrev ops_p9_0_W : List (Ref sig .tc) := [main_v390, main_v391, main_v392, main_v393, main_v394, main_v395, main_c_148, main_v396]
theorem ops_p9_0_writes : (ops_p9_0 : List (HloOp τ sig (Elt F))).Forall fun op => op.writes ⊆ (ops_p9_0_W.map (Proc.devRef (τ := τ) .tc)).toFinset := by
  simp only [ops_p9_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p9_0_keep (V : Valuation τ sig (Elt F)) (r : Ref sig .tc) (h : r ∉ ops_p9_0_W) :
    after ops_p9_0 V (Proc.devRef .tc r) = V (Proc.devRef .tc r) :=
  after_of_writes_sub ops_p9_0 _ ops_p9_0_writes h

set_option maxRecDepth 8192 in
set_option maxHeartbeats 1000000 in
theorem w9_0_main_v395 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9 V x0 x1 x2 x3 x4 x5 x6) :
    after ops_p9_0 V (Proc.devRef .tc main_v395) = val_main_v395 (F := F) x1 := by
  simp only [ops_p9_0]
  after_results_w
  simp only [h.main_v375, h.main_v389, h.main_v387, h.main_v385, h.main_v380, h.main_v27]
  rfl

set_option maxRecDepth 8192 in
set_option maxHeartbeats 1000000 in
theorem w9_0_main_v396 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9 V x0 x1 x2 x3 x4 x5 x6) :
    after ops_p9_0 V (Proc.devRef .tc main_v396) = val_main_v396 (F := F) := by
  simp only [ops_p9_0]
  after_results_w
  rfl

theorem step9_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9 V x0 x1 x2 x3 x4 x5 x6) : Inv9_1 (after ops_p9_0 V) x0 x1 x2 x3 x4 x5 x6 where
  main_arg0 := (ops_p9_0_keep V main_arg0 (by decide)).trans h.main_arg0
  main_arg1 := (ops_p9_0_keep V main_arg1 (by decide)).trans h.main_arg1
  main_arg2 := (ops_p9_0_keep V main_arg2 (by decide)).trans h.main_arg2
  main_arg3 := (ops_p9_0_keep V main_arg3 (by decide)).trans h.main_arg3
  main_arg4 := (ops_p9_0_keep V main_arg4 (by decide)).trans h.main_arg4
  main_arg5 := (ops_p9_0_keep V main_arg5 (by decide)).trans h.main_arg5
  main_arg6 := (ops_p9_0_keep V main_arg6 (by decide)).trans h.main_arg6
  main_v27 := (ops_p9_0_keep V main_v27 (by decide)).trans h.main_v27
  main_v29 := (ops_p9_0_keep V main_v29 (by decide)).trans h.main_v29
  main_v31 := (ops_p9_0_keep V main_v31 (by decide)).trans h.main_v31
  main_v33 := (ops_p9_0_keep V main_v33 (by decide)).trans h.main_v33
  main_v358 := (ops_p9_0_keep V main_v358 (by decide)).trans h.main_v358
  main_v373 := (ops_p9_0_keep V main_v373 (by decide)).trans h.main_v373
  main_v395 := w9_0_main_v395 V x0 x1 x2 x3 x4 x5 x6 h
  main_v396 := w9_0_main_v396 V x0 x1 x2 x3 x4 x5 x6 h

/-- Stretch 1 of window 9: @main's operations 649 … 656. -/
def ops_p9_1 : List (HloOp τ sig (Elt F)) :=
  [ binary main_v395 main_v396 main_v397 (cmpi .sge : (⟨S409600, .i32⟩ : BufTy).Contents (Elt F) → (⟨S409600, .i32⟩ : BufTy).Contents (Elt F) → (⟨S409600, .i1⟩ : BufTy).Contents (Elt F)),
    binary main_v373 main_v397 main_v398 (andi : (⟨S409600, .i1⟩ : BufTy).Contents (Elt F) → (⟨S409600, .i1⟩ : BufTy).Contents (Elt F) → (⟨S409600, .i1⟩ : BufTy).Contents (Elt F)),
    nullary main_c_149 (constantI S_ 32 0#32),
    unary main_c_149 main_call26_v0 (id : (⟨S_, .i32⟩ : BufTy).Contents (Elt F) → (⟨S_, .i32⟩ : BufTy).Contents (Elt F)),
    unary main_call26_v0 main_call26_v1 ((broadcastInDim S409600 ![] bcast_S_S409600) : (⟨S_, .i32⟩ : BufTy).Contents (Elt F) → (⟨S409600, .i32⟩ : BufTy).Contents (Elt F)),
    ternary main_v398 main_v395 main_call26_v1 main_v399 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_150 (constantI S_ 32 0#32),
    unary main_c_150 main_v400 (broadcastInDim S409600 ![] bcast_S_S409600 : (⟨S_, .i32⟩ : BufTy).Contents (Elt F) → (⟨S409600, .i32⟩ : BufTy).Contents (Elt F)) ]
abbrev ops_p9_1_W : List (Ref sig .tc) := [main_v397, main_v398, main_c_149, main_call26_v0, main_call26_v1, main_v399, main_c_150, main_v400]
theorem ops_p9_1_writes : (ops_p9_1 : List (HloOp τ sig (Elt F))).Forall fun op => op.writes ⊆ (ops_p9_1_W.map (Proc.devRef (τ := τ) .tc)).toFinset := by
  simp only [ops_p9_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p9_1_keep (V : Valuation τ sig (Elt F)) (r : Ref sig .tc) (h : r ∉ ops_p9_1_W) :
    after ops_p9_1 V (Proc.devRef .tc r) = V (Proc.devRef .tc r) :=
  after_of_writes_sub ops_p9_1 _ ops_p9_1_writes h

set_option maxRecDepth 8192 in
set_option maxHeartbeats 1000000 in
theorem w9_1_main_v398 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_1 V x0 x1 x2 x3 x4 x5 x6) :
    after ops_p9_1 V (Proc.devRef .tc main_v398) = val_main_v398 (F := F) x1 := by
  simp only [ops_p9_1]
  after_results_w
  simp only [h.main_v396, h.main_v395, h.main_v373]
  rfl

set_option maxRecDepth 8192 in
set_option maxHeartbeats 1000000 in
theorem w9_1_main_v399 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_1 V x0 x1 x2 x3 x4 x5 x6) :
    after ops_p9_1 V (Proc.devRef .tc main_v399) = val_main_v399 (F := F) x1 := by
  simp only [ops_p9_1]
  after_results_w
  simp only [h.main_v395, h.main_v396, h.main_v373]
  rfl

set_option maxRecDepth 8192 in
set_option maxHeartbeats 1000000 in
theorem w9_1_main_v400 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_1 V x0 x1 x2 x3 x4 x5 x6) :
    after ops_p9_1 V (Proc.devRef .tc main_v400) = val_main_v400 (F := F) := by
  simp only [ops_p9_1]
  after_results_w
  rfl

theorem step9_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_1 V x0 x1 x2 x3 x4 x5 x6) : Inv9_2 (after ops_p9_1 V) x0 x1 x2 x3 x4 x5 x6 where
  main_arg0 := (ops_p9_1_keep V main_arg0 (by decide)).trans h.main_arg0
  main_arg1 := (ops_p9_1_keep V main_arg1 (by decide)).trans h.main_arg1
  main_arg2 := (ops_p9_1_keep V main_arg2 (by decide)).trans h.main_arg2
  main_arg3 := (ops_p9_1_keep V main_arg3 (by decide)).trans h.main_arg3
  main_arg4 := (ops_p9_1_keep V main_arg4 (by decide)).trans h.main_arg4
  main_arg5 := (ops_p9_1_keep V main_arg5 (by decide)).trans h.main_arg5
  main_arg6 := (ops_p9_1_keep V main_arg6 (by decide)).trans h.main_arg6
  main_v27 := (ops_p9_1_keep V main_v27 (by decide)).trans h.main_v27
  main_v29 := (ops_p9_1_keep V main_v29 (by decide)).trans h.main_v29
  main_v31 := (ops_p9_1_keep V main_v31 (by decide)).trans h.main_v31
  main_v33 := (ops_p9_1_keep V main_v33 (by decide)).trans h.main_v33
  main_v358 := (ops_p9_1_keep V main_v358 (by decide)).trans h.main_v358
  main_v398 := w9_1_main_v398 V x0 x1 x2 x3 x4 x5 x6 h
  main_v399 := w9_1_main_v399 V x0 x1 x2 x3 x4 x5 x6 h
  main_v400 := w9_1_main_v400 V x0 x1 x2 x3 x4 x5 x6 h

/-- Stretch 2 of window 9: @main's operations 657 … 664. -/
def ops_p9_2 : List (HloOp τ sig (Elt F)) :=
  [ binary main_v399 main_v400 main_v401 (cmpi .slt : (⟨S409600, .i32⟩ : BufTy).Contents (Elt F) → (⟨S409600, .i32⟩ : BufTy).Contents (Elt F) → (⟨S409600, .i1⟩ : BufTy).Contents (Elt F)),
    nullary main_c_151 (constantI S_ 32 409600#32),
    unary main_c_151 main_v402 (broadcastInDim S409600 ![] bcast_S_S409600 : (⟨S_, .i32⟩ : BufTy).Contents (Elt F) → (⟨S409600, .i32⟩ : BufTy).Contents (Elt F)),
    binary main_v399 main_v402 main_v403 (addi : (⟨S409600, .i32⟩ : BufTy).Contents (Elt F) → (⟨S409600, .i32⟩ : BufTy).Contents (Elt F) → (⟨S409600, .i32⟩ : BufTy).Contents (Elt F)),
    ternary main_v401 main_v403 main_v399 main_v404 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v404 main_v405 (broadcastInDim S409600x1 ![0] bcast_S409600_S409600x1_0 : (⟨S409600, .i32⟩ : BufTy).Contents (Elt F) → (⟨S409600x1, .i32⟩ : BufTy).Contents (Elt F)),
    binary main_arg0 main_v405 main_v406 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v398 main_v407 (broadcastInDim S409600x1 ![0] bcast_S409600_S409600x1_0 : (⟨S409600, .i1⟩ : BufTy).Contents (Elt F) → (⟨S409600x1, .i1⟩ : BufTy).Contents (Elt F)) ]
abbrev ops_p9_2_W : List (Ref sig .tc) := [main_v401, main_c_151, main_v402, main_v403, main_v404, main_v405, main_v406, main_v407]
theorem ops_p9_2_writes : (ops_p9_2 : List (HloOp τ sig (Elt F))).Forall fun op => op.writes ⊆ (ops_p9_2_W.map (Proc.devRef (τ := τ) .tc)).toFinset := by
  simp only [ops_p9_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p9_2_keep (V : Valuation τ sig (Elt F)) (r : Ref sig .tc) (h : r ∉ ops_p9_2_W) :
    after ops_p9_2 V (Proc.devRef .tc r) = V (Proc.devRef .tc r) :=
  after_of_writes_sub ops_p9_2 _ ops_p9_2_writes h

set_option maxRecDepth 8192 in
set_option maxHeartbeats 1000000 in
theorem w9_2_main_v406 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_2 V x0 x1 x2 x3 x4 x5 x6) :
    after ops_p9_2 V (Proc.devRef .tc main_v406) = val_main_v406 (F := F) x0 x1 := by
  simp only [ops_p9_2]
  after_results_w
  simp only [h.main_v399, h.main_v400, h.main_arg0]
  rfl

set_option maxRecDepth 8192 in
set_option maxHeartbeats 1000000 in
theorem w9_2_main_v407 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_2 V x0 x1 x2 x3 x4 x5 x6) :
    after ops_p9_2 V (Proc.devRef .tc main_v407) = val_main_v407 (F := F) x1 := by
  simp only [ops_p9_2]
  after_results_w
  simp only [h.main_v398]
  rfl

theorem step9_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_2 V x0 x1 x2 x3 x4 x5 x6) : Inv9_3 (after ops_p9_2 V) x0 x1 x2 x3 x4 x5 x6 where
  main_arg0 := (ops_p9_2_keep V main_arg0 (by decide)).trans h.main_arg0
  main_arg1 := (ops_p9_2_keep V main_arg1 (by decide)).trans h.main_arg1
  main_arg2 := (ops_p9_2_keep V main_arg2 (by decide)).trans h.main_arg2
  main_arg3 := (ops_p9_2_keep V main_arg3 (by decide)).trans h.main_arg3
  main_arg4 := (ops_p9_2_keep V main_arg4 (by decide)).trans h.main_arg4
  main_arg5 := (ops_p9_2_keep V main_arg5 (by decide)).trans h.main_arg5
  main_arg6 := (ops_p9_2_keep V main_arg6 (by decide)).trans h.main_arg6
  main_v27 := (ops_p9_2_keep V main_v27 (by decide)).trans h.main_v27
  main_v29 := (ops_p9_2_keep V main_v29 (by decide)).trans h.main_v29
  main_v31 := (ops_p9_2_keep V main_v31 (by decide)).trans h.main_v31
  main_v33 := (ops_p9_2_keep V main_v33 (by decide)).trans h.main_v33
  main_v358 := (ops_p9_2_keep V main_v358 (by decide)).trans h.main_v358
  main_v406 := w9_2_main_v406 V x0 x1 x2 x3 x4 x5 x6 h
  main_v407 := w9_2_main_v407 V x0 x1 x2 x3 x4 x5 x6 h

/-- Stretch 3 of window 9: @main's operations 665 … 672. -/
def ops_p9_3 : List (HloOp τ sig (Elt F)) :=
  [ nullary main_cst_152 (constant S_ .f32 0x00000000#32),
    unary main_cst_152 main_call27_v0 (id : (⟨S_, .f32⟩ : BufTy).Contents (Elt F) → (⟨S_, .f32⟩ : BufTy).Contents (Elt F)),
    unary main_v407 main_call27_v1 ((broadcastInDim S409600x64 ![0, 1] bcast_S409600x1_S409600x64_0_1) : (⟨S409600x1, .i1⟩ : BufTy).Contents (Elt F) → (⟨S409600x64, .i1⟩ : BufTy).Contents (Elt F)),
    unary main_call27_v0 main_call27_v2 ((broadcastInDim S409600x64 ![] bcast_S_S409600x64) : (⟨S_, .f32⟩ : BufTy).Contents (Elt F) → (⟨S409600x64, .f32⟩ : BufTy).Contents (Elt F)),
    ternary main_call27_v1 main_v406 main_call27_v2 main_v408 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v409 ((extractStridedSlice S1x1x64x64 ![2, 0, 0, 0] · slices_S3x3x64x64_S1x1x64x64_2_0_0_0) : (⟨S3x3x64x64, .f32⟩ : BufTy).Contents (Elt F) → (⟨S1x1x64x64, .f32⟩ : BufTy).Contents (Elt F)),
    reshape main_v409 main_v410 rfl shapeCasts_S1x1x64x64_S64x64,
    binary main_v408 main_v410 main_v411 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)) ]
abbrev ops_p9_3_W : List (Ref sig .tc) := [main_cst_152, main_call27_v0, main_call27_v1, main_call27_v2, main_v408, main_v409, main_v410, main_v411]
theorem ops_p9_3_writes : (ops_p9_3 : List (HloOp τ sig (Elt F))).Forall fun op => op.writes ⊆ (ops_p9_3_W.map (Proc.devRef (τ := τ) .tc)).toFinset := by
  simp only [ops_p9_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p9_3_keep (V : Valuation τ sig (Elt F)) (r : Ref sig .tc) (h : r ∉ ops_p9_3_W) :
    after ops_p9_3 V (Proc.devRef .tc r) = V (Proc.devRef .tc r) :=
  after_of_writes_sub ops_p9_3 _ ops_p9_3_writes h

set_option maxRecDepth 8192 in
set_option maxHeartbeats 1000000 in
theorem w9_3_main_v411 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_3 V x0 x1 x2 x3 x4 x5 x6) :
    after ops_p9_3 V (Proc.devRef .tc main_v411) = val_main_v411 (F := F) x0 x1 x2 := by
  simp only [ops_p9_3]
  after_results_w
  simp only [h.main_arg2, h.main_v406, h.main_v407]
  rfl

theorem step9_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_3 V x0 x1 x2 x3 x4 x5 x6) : Inv9_4 (after ops_p9_3 V) x0 x1 x2 x3 x4 x5 x6 where
  main_arg0 := (ops_p9_3_keep V main_arg0 (by decide)).trans h.main_arg0
  main_arg1 := (ops_p9_3_keep V main_arg1 (by decide)).trans h.main_arg1
  main_arg2 := (ops_p9_3_keep V main_arg2 (by decide)).trans h.main_arg2
  main_arg3 := (ops_p9_3_keep V main_arg3 (by decide)).trans h.main_arg3
  main_arg4 := (ops_p9_3_keep V main_arg4 (by decide)).trans h.main_arg4
  main_arg5 := (ops_p9_3_keep V main_arg5 (by decide)).trans h.main_arg5
  main_arg6 := (ops_p9_3_keep V main_arg6 (by decide)).trans h.main_arg6
  main_v27 := (ops_p9_3_keep V main_v27 (by decide)).trans h.main_v27
  main_v29 := (ops_p9_3_keep V main_v29 (by decide)).trans h.main_v29
  main_v31 := (ops_p9_3_keep V main_v31 (by decide)).trans h.main_v31
  main_v33 := (ops_p9_3_keep V main_v33 (by decide)).trans h.main_v33
  main_v358 := (ops_p9_3_keep V main_v358 (by decide)).trans h.main_v358
  main_v411 := w9_3_main_v411 V x0 x1 x2 x3 x4 x5 x6 h

/-- Stretch 4 of window 9: @main's operations 673 … 680. -/
def ops_p9_4 : List (HloOp τ sig (Elt F)) :=
  [ binary main_v358 main_v411 main_v412 (addf : (⟨S409600x64, .f32⟩ : BufTy).Contents (Elt F) → (⟨S409600x64, .f32⟩ : BufTy).Contents (Elt F) → (⟨S409600x64, .f32⟩ : BufTy).Contents (Elt F)),
    nullary main_c_153 (constantI S_ 32 1#32),
    unary main_c_153 main_v413 (broadcastInDim S409600 ![] bcast_S_S409600 : (⟨S_, .i32⟩ : BufTy).Contents (Elt F) → (⟨S409600, .i32⟩ : BufTy).Contents (Elt F)),
    binary main_v31 main_v413 main_v414 (addi : (⟨S409600, .i32⟩ : BufTy).Contents (Elt F) → (⟨S409600, .i32⟩ : BufTy).Contents (Elt F) → (⟨S409600, .i32⟩ : BufTy).Contents (Elt F)),
    nullary main_c_154 (constantI S_ 32 0#32),
    unary main_c_154 main_v415 (broadcastInDim S409600 ![] bcast_S_S409600 : (⟨S_, .i32⟩ : BufTy).Contents (Elt F) → (⟨S409600, .i32⟩ : BufTy).Contents (Elt F)),
    binary main_v33 main_v415 main_v416 (addi : (⟨S409600, .i32⟩ : BufTy).Contents (Elt F) → (⟨S409600, .i32⟩ : BufTy).Contents (Elt F) → (⟨S409600, .i32⟩ : BufTy).Contents (Elt F)),
    nullary main_c_155 (constantI S_ 32 0#32) ]
abbrev ops_p9_4_W : List (Ref sig .tc) := [main_v412, main_c_153, main_v413, main_v414, main_c_154, main_v415, main_v416, main_c_155]
theorem ops_p9_4_writes : (ops_p9_4 : List (HloOp τ sig (Elt F))).Forall fun op => op.writes ⊆ (ops_p9_4_W.map (Proc.devRef (τ := τ) .tc)).toFinset := by
  simp only [ops_p9_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p9_4_keep (V : Valuation τ sig (Elt F)) (r : Ref sig .tc) (h : r ∉ ops_p9_4_W) :
    after ops_p9_4 V (Proc.devRef .tc r) = V (Proc.devRef .tc r) :=
  after_of_writes_sub ops_p9_4 _ ops_p9_4_writes h

set_option maxRecDepth 8192 in
set_option maxHeartbeats 1000000 in
theorem w9_4_main_v412 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_4 V x0 x1 x2 x3 x4 x5 x6) :
    after ops_p9_4 V (Proc.devRef .tc main_v412) = val_main_v412 (F := F) x0 x1 x2 := by
  simp only [ops_p9_4]
  after_results_w
  simp only [h.main_v411, h.main_v358]
  rfl

set_option maxRecDepth 8192 in
set_option maxHeartbeats 1000000 in
theorem w9_4_main_v414 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_4 V x0 x1 x2 x3 x4 x5 x6) :
    after ops_p9_4 V (Proc.devRef .tc main_v414) = val_main_v414 (F := F) x1 := by
  simp only [ops_p9_4]
  after_results_w
  simp only [h.main_v31]
  rfl

set_option maxRecDepth 8192 in
set_option maxHeartbeats 1000000 in
theorem w9_4_main_v416 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_4 V x0 x1 x2 x3 x4 x5 x6) :
    after ops_p9_4 V (Proc.devRef .tc main_v416) = val_main_v416 (F := F) x1 := by
  simp only [ops_p9_4]
  after_results_w
  simp only [h.main_v33]
  rfl

set_option maxRecDepth 8192 in
set_option maxHeartbeats 1000000 in
theorem w9_4_main_c_155 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_4 V x0 x1 x2 x3 x4 x5 x6) :
    after ops_p9_4 V (Proc.devRef .tc main_c_155) = val_main_c_155 (F := F) := by
  simp only [ops_p9_4]
  after_results_w
  rfl

theorem step9_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_4 V x0 x1 x2 x3 x4 x5 x6) : Inv9_5 (after ops_p9_4 V) x0 x1 x2 x3 x4 x5 x6 where
  main_arg0 := (ops_p9_4_keep V main_arg0 (by decide)).trans h.main_arg0
  main_arg1 := (ops_p9_4_keep V main_arg1 (by decide)).trans h.main_arg1
  main_arg2 := (ops_p9_4_keep V main_arg2 (by decide)).trans h.main_arg2
  main_arg3 := (ops_p9_4_keep V main_arg3 (by decide)).trans h.main_arg3
  main_arg4 := (ops_p9_4_keep V main_arg4 (by decide)).trans h.main_arg4
  main_arg5 := (ops_p9_4_keep V main_arg5 (by decide)).trans h.main_arg5
  main_arg6 := (ops_p9_4_keep V main_arg6 (by decide)).trans h.main_arg6
  main_v27 := (ops_p9_4_keep V main_v27 (by decide)).trans h.main_v27
  main_v29 := (ops_p9_4_keep V main_v29 (by decide)).trans h.main_v29
  main_v31 := (ops_p9_4_keep V main_v31 (by decide)).trans h.main_v31
  main_v33 := (ops_p9_4_keep V main_v33 (by decide)).trans h.main_v33
  main_v412 := w9_4_main_v412 V x0 x1 x2 x3 x4 x5 x6 h
  main_v414 := w9_4_main_v414 V x0 x1 x2 x3 x4 x5 x6 h
  main_v416 := w9_4_main_v416 V x0 x1 x2 x3 x4 x5 x6 h
  main_c_155 := w9_4_main_c_155 V x0 x1 x2 x3 x4 x5 x6 h

/-- Stretch 5 of window 9: @main's operations 681 … 688. -/
def ops_p9_5 : List (HloOp τ sig (Elt F)) :=
  [ unary main_c_155 main_v417 (broadcastInDim S409600 ![] bcast_S_S409600 : (⟨S_, .i32⟩ : BufTy).Contents (Elt F) → (⟨S409600, .i32⟩ : BufTy).Contents (Elt F)),
    binary main_v414 main_v417 main_v418 (cmpi .sge : (⟨S409600, .i32⟩ : BufTy).Contents (Elt F) → (⟨S409600, .i32⟩ : BufTy).Contents (Elt F) → (⟨S409600, .i1⟩ : BufTy).Contents (Elt F)),
    nullary main_c_156 (constantI S_ 32 640#32),
    unary main_c_156 main_v419 (broadcastInDim S409600 ![] bcast_S_S409600 : (⟨S_, .i32⟩ : BufTy).Contents (Elt F) → (⟨S409600, .i32⟩ : BufTy).Contents (Elt F)),
    binary main_v414 main_v419 main_v420 (cmpi .slt : (⟨S409600, .i32⟩ : BufTy).Contents (Elt F) → (⟨S409600, .i32⟩ : BufTy).Contents (Elt F) → (⟨S409600, .i1⟩ : BufTy).Contents (Elt F)),
    binary main_v418 main_v420 main_v421 (andi : (⟨S409600, .i1⟩ : BufTy).Contents (Elt F) → (⟨S409600, .i1⟩ : BufTy).Contents (Elt F) → (⟨S409600, .i1⟩ : BufTy).Contents (Elt F)),
    nullary main_c_157 (constantI S_ 32 0#32),
    unary main_c_157 main_v422 (broadcastInDim S409600 ![] bcast_S_S409600 : (⟨S_, .i32⟩ : BufTy).Contents (Elt F) → (⟨S409600, .i32⟩ : BufTy).Contents (Elt F)) ]
abbrev ops_p9_5_W : List (Ref sig .tc) := [main_v417, main_v418, main_c_156, main_v419, main_v420, main_v421, main_c_157, main_v422]
theorem ops_p9_5_writes : (ops_p9_5 : List (HloOp τ sig (Elt F))).Forall fun op => op.writes ⊆ (ops_p9_5_W.map (Proc.devRef (τ := τ) .tc)).toFinset := by
  simp only [ops_p9_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p9_5_keep (V : Valuation τ sig (Elt F)) (r : Ref sig .tc) (h : r ∉ ops_p9_5_W) :
    after ops_p9_5 V (Proc.devRef .tc r) = V (Proc.devRef .tc r) :=
  after_of_writes_sub ops_p9_5 _ ops_p9_5_writes h

set_option maxRecDepth 8192 in
set_option maxHeartbeats 1000000 in
theorem w9_5_main_v421 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_5 V x0 x1 x2 x3 x4 x5 x6) :
    after ops_p9_5 V (Proc.devRef .tc main_v421) = val_main_v421 (F := F) x1 := by
  simp only [ops_p9_5]
  after_results_w
  simp only [h.main_v414, h.main_c_155]
  rfl

set_option maxRecDepth 8192 in
set_option maxHeartbeats 1000000 in
theorem w9_5_main_v422 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_5 V x0 x1 x2 x3 x4 x5 x6) :
    after ops_p9_5 V (Proc.devRef .tc main_v422) = val_main_v422 (F := F) := by
  simp only [ops_p9_5]
  after_results_w
  rfl

theorem step9_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_5 V x0 x1 x2 x3 x4 x5 x6) : Inv9_6 (after ops_p9_5 V) x0 x1 x2 x3 x4 x5 x6 where
  main_arg0 := (ops_p9_5_keep V main_arg0 (by decide)).trans h.main_arg0
  main_arg1 := (ops_p9_5_keep V main_arg1 (by decide)).trans h.main_arg1
  main_arg2 := (ops_p9_5_keep V main_arg2 (by decide)).trans h.main_arg2
  main_arg3 := (ops_p9_5_keep V main_arg3 (by decide)).trans h.main_arg3
  main_arg4 := (ops_p9_5_keep V main_arg4 (by decide)).trans h.main_arg4
  main_arg5 := (ops_p9_5_keep V main_arg5 (by decide)).trans h.main_arg5
  main_arg6 := (ops_p9_5_keep V main_arg6 (by decide)).trans h.main_arg6
  main_v27 := (ops_p9_5_keep V main_v27 (by decide)).trans h.main_v27
  main_v29 := (ops_p9_5_keep V main_v29 (by decide)).trans h.main_v29
  main_v31 := (ops_p9_5_keep V main_v31 (by decide)).trans h.main_v31
  main_v33 := (ops_p9_5_keep V main_v33 (by decide)).trans h.main_v33
  main_v412 := (ops_p9_5_keep V main_v412 (by decide)).trans h.main_v412
  main_v414 := (ops_p9_5_keep V main_v414 (by decide)).trans h.main_v414
  main_v416 := (ops_p9_5_keep V main_v416 (by decide)).trans h.main_v416
  main_v421 := w9_5_main_v421 V x0 x1 x2 x3 x4 x5 x6 h
  main_v422 := w9_5_main_v422 V x0 x1 x2 x3 x4 x5 x6 h

/-- Stretch 6 of window 9: @main's operations 689 … 696. -/
def ops_p9_6 : List (HloOp τ sig (Elt F)) :=
  [ binary main_v416 main_v422 main_v423 (cmpi .sge : (⟨S409600, .i32⟩ : BufTy).Contents (Elt F) → (⟨S409600, .i32⟩ : BufTy).Contents (Elt F) → (⟨S409600, .i1⟩ : BufTy).Contents (Elt F)),
    binary main_v421 main_v423 main_v424 (andi : (⟨S409600, .i1⟩ : BufTy).Contents (Elt F) → (⟨S409600, .i1⟩ : BufTy).Contents (Elt F) → (⟨S409600, .i1⟩ : BufTy).Contents (Elt F)),
    nullary main_c_158 (constantI S_ 32 640#32),
    unary main_c_158 main_v425 (broadcastInDim S409600 ![] bcast_S_S409600 : (⟨S_, .i32⟩ : BufTy).Contents (Elt F) → (⟨S409600, .i32⟩ : BufTy).Contents (Elt F)),
    binary main_v416 main_v425 main_v426 (cmpi .slt : (⟨S409600, .i32⟩ : BufTy).Contents (Elt F) → (⟨S409600, .i32⟩ : BufTy).Contents (Elt F) → (⟨S409600, .i1⟩ : BufTy).Contents (Elt F)),
    binary main_v424 main_v426 main_v427 (andi : (⟨S409600, .i1⟩ : BufTy).Contents (Elt F) → (⟨S409600, .i1⟩ : BufTy).Contents (Elt F) → (⟨S409600, .i1⟩ : BufTy).Contents (Elt F)),
    nullary main_c_159 (constantI S_ 32 0#32),
    nullary main_c_160 (constantI S_ 32 639#32) ]
abbrev ops_p9_6_W : List (Ref sig .tc) := [main_v423, main_v424, main_c_158, main_v425, main_v426, main_v427, main_c_159, main_c_160]
theorem ops_p9_6_writes : (ops_p9_6 : List (HloOp τ sig (Elt F))).Forall fun op => op.writes ⊆ (ops_p9_6_W.map (Proc.devRef (τ := τ) .tc)).toFinset := by
  simp only [ops_p9_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p9_6_keep (V : Valuation τ sig (Elt F)) (r : Ref sig .tc) (h : r ∉ ops_p9_6_W) :
    after ops_p9_6 V (Proc.devRef .tc r) = V (Proc.devRef .tc r) :=
  after_of_writes_sub ops_p9_6 _ ops_p9_6_writes h

set_option maxRecDepth 8192 in
set_option maxHeartbeats 1000000 in
theorem w9_6_main_v427 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_6 V x0 x1 x2 x3 x4 x5 x6) :
    after ops_p9_6 V (Proc.devRef .tc main_v427) = val_main_v427 (F := F) x1 := by
  simp only [ops_p9_6]
  after_results_w
  simp only [h.main_v416, h.main_v422, h.main_v421]
  rfl

set_option maxRecDepth 8192 in
set_option maxHeartbeats 1000000 in
theorem w9_6_main_c_159 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_6 V x0 x1 x2 x3 x4 x5 x6) :
    after ops_p9_6 V (Proc.devRef .tc main_c_159) = val_main_c_159 (F := F) := by
  simp only [ops_p9_6]
  after_results_w
  rfl

set_option maxRecDepth 8192 in
set_option maxHeartbeats 1000000 in
theorem w9_6_main_c_160 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_6 V x0 x1 x2 x3 x4 x5 x6) :
    after ops_p9_6 V (Proc.devRef .tc main_c_160) = val_main_c_160 (F := F) := by
  simp only [ops_p9_6]
  after_results_w
  rfl

theorem step9_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_6 V x0 x1 x2 x3 x4 x5 x6) : Inv9_7 (after ops_p9_6 V) x0 x1 x2 x3 x4 x5 x6 where
  main_arg0 := (ops_p9_6_keep V main_arg0 (by decide)).trans h.main_arg0
  main_arg1 := (ops_p9_6_keep V main_arg1 (by decide)).trans h.main_arg1
  main_arg2 := (ops_p9_6_keep V main_arg2 (by decide)).trans h.main_arg2
  main_arg3 := (ops_p9_6_keep V main_arg3 (by decide)).trans h.main_arg3
  main_arg4 := (ops_p9_6_keep V main_arg4 (by decide)).trans h.main_arg4
  main_arg5 := (ops_p9_6_keep V main_arg5 (by decide)).trans h.main_arg5
  main_arg6 := (ops_p9_6_keep V main_arg6 (by decide)).trans h.main_arg6
  main_v27 := (ops_p9_6_keep V main_v27 (by decide)).trans h.main_v27
  main_v29 := (ops_p9_6_keep V main_v29 (by decide)).trans h.main_v29
  main_v31 := (ops_p9_6_keep V main_v31 (by decide)).trans h.main_v31
  main_v33 := (ops_p9_6_keep V main_v33 (by decide)).trans h.main_v33
  main_v412 := (ops_p9_6_keep V main_v412 (by decide)).trans h.main_v412
  main_v414 := (ops_p9_6_keep V main_v414 (by decide)).trans h.main_v414
  main_v416 := (ops_p9_6_keep V main_v416 (by decide)).trans h.main_v416
  main_v427 := w9_6_main_v427 V x0 x1 x2 x3 x4 x5 x6 h
  main_c_159 := w9_6_main_c_159 V x0 x1 x2 x3 x4 x5 x6 h
  main_c_160 := w9_6_main_c_160 V x0 x1 x2 x3 x4 x5 x6 h

/-- Stretch 7 of window 9: @main's operations 697 … 704. -/
def ops_p9_7 : List (HloOp τ sig (Elt F)) :=
  [ unary main_c_159 main_call28_v0 (id : (⟨S_, .i32⟩ : BufTy).Contents (Elt F) → (⟨S_, .i32⟩ : BufTy).Contents (Elt F)),
    unary main_call28_v0 main_call28_v1 ((broadcastInDim S409600 ![] bcast_S_S409600) : (⟨S_, .i32⟩ : BufTy).Contents (Elt F) → (⟨S409600, .i32⟩ : BufTy).Contents (Elt F)),
    binary main_call28_v1 main_v414 main_call28_v2 (maxsi : (⟨S409600, .i32⟩ : BufTy).Contents (Elt F) → (⟨S409600, .i32⟩ : BufTy).Contents (Elt F) → (⟨S409600, .i32⟩ : BufTy).Contents (Elt F)),
    unary main_c_160 main_call28_v3 (id : (⟨S_, .i32⟩ : BufTy).Contents (Elt F) → (⟨S_, .i32⟩ : BufTy).Contents (Elt F)),
    unary main_call28_v3 main_call28_v4 ((broadcastInDim S409600 ![] bcast_S_S409600) : (⟨S_, .i32⟩ : BufTy).Contents (Elt F) → (⟨S409600, .i32⟩ : BufTy).Contents (Elt F)),
    binary main_call28_v4 main_call28_v2 main_v428 (minsi : (⟨S409600, .i32⟩ : BufTy).Contents (Elt F) → (⟨S409600, .i32⟩ : BufTy).Contents (Elt F) → (⟨S409600, .i32⟩ : BufTy).Contents (Elt F)),
    nullary main_c_161 (constantI S_ 32 0#32),
    nullary main_c_162 (constantI S_ 32 639#32) ]
abbrev ops_p9_7_W : List (Ref sig .tc) := [main_call28_v0, main_call28_v1, main_call28_v2, main_call28_v3, main_call28_v4, main_v428, main_c_161, main_c_162]
theorem ops_p9_7_writes : (ops_p9_7 : List (HloOp τ sig (Elt F))).Forall fun op => op.writes ⊆ (ops_p9_7_W.map (Proc.devRef (τ := τ) .tc)).toFinset := by
  simp only [ops_p9_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p9_7_keep (V : Valuation τ sig (Elt F)) (r : Ref sig .tc) (h : r ∉ ops_p9_7_W) :
    after ops_p9_7 V (Proc.devRef .tc r) = V (Proc.devRef .tc r) :=
  after_of_writes_sub ops_p9_7 _ ops_p9_7_writes h

set_option maxRecDepth 8192 in
set_option maxHeartbeats 1000000 in
theorem w9_7_main_v428 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_7 V x0 x1 x2 x3 x4 x5 x6) :
    after ops_p9_7 V (Proc.devRef .tc main_v428) = val_main_v428 (F := F) x1 := by
  simp only [ops_p9_7]
  after_results_w
  simp only [h.main_v414, h.main_c_159, h.main_c_160]
  rfl

set_option maxRecDepth 8192 in
set_option maxHeartbeats 1000000 in
theorem w9_7_main_c_161 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_7 V x0 x1 x2 x3 x4 x5 x6) :
    after ops_p9_7 V (Proc.devRef .tc main_c_161) = val_main_c_161 (F := F) := by
  simp only [ops_p9_7]
  after_results_w
  rfl

set_option maxRecDepth 8192 in
set_option maxHeartbeats 1000000 in
theorem w9_7_main_c_162 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_7 V x0 x1 x2 x3 x4 x5 x6) :
    after ops_p9_7 V (Proc.devRef .tc main_c_162) = val_main_c_162 (F := F) := by
  simp only [ops_p9_7]
  after_results_w
  rfl

theorem step9_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_7 V x0 x1 x2 x3 x4 x5 x6) : Inv9_8 (after ops_p9_7 V) x0 x1 x2 x3 x4 x5 x6 where
  main_arg0 := (ops_p9_7_keep V main_arg0 (by decide)).trans h.main_arg0
  main_arg1 := (ops_p9_7_keep V main_arg1 (by decide)).trans h.main_arg1
  main_arg2 := (ops_p9_7_keep V main_arg2 (by decide)).trans h.main_arg2
  main_arg3 := (ops_p9_7_keep V main_arg3 (by decide)).trans h.main_arg3
  main_arg4 := (ops_p9_7_keep V main_arg4 (by decide)).trans h.main_arg4
  main_arg5 := (ops_p9_7_keep V main_arg5 (by decide)).trans h.main_arg5
  main_arg6 := (ops_p9_7_keep V main_arg6 (by decide)).trans h.main_arg6
  main_v27 := (ops_p9_7_keep V main_v27 (by decide)).trans h.main_v27
  main_v29 := (ops_p9_7_keep V main_v29 (by decide)).trans h.main_v29
  main_v31 := (ops_p9_7_keep V main_v31 (by decide)).trans h.main_v31
  main_v33 := (ops_p9_7_keep V main_v33 (by decide)).trans h.main_v33
  main_v412 := (ops_p9_7_keep V main_v412 (by decide)).trans h.main_v412
  main_v416 := (ops_p9_7_keep V main_v416 (by decide)).trans h.main_v416
  main_v427 := (ops_p9_7_keep V main_v427 (by decide)).trans h.main_v427
  main_v428 := w9_7_main_v428 V x0 x1 x2 x3 x4 x5 x6 h
  main_c_161 := w9_7_main_c_161 V x0 x1 x2 x3 x4 x5 x6 h
  main_c_162 := w9_7_main_c_162 V x0 x1 x2 x3 x4 x5 x6 h

/-- Stretch 8 of window 9: @main's operations 705 … 712. -/
def ops_p9_8 : List (HloOp τ sig (Elt F)) :=
  [ unary main_c_161 main_call29_v0 (id : (⟨S_, .i32⟩ : BufTy).Contents (Elt F) → (⟨S_, .i32⟩ : BufTy).Contents (Elt F)),
    unary main_call29_v0 main_call29_v1 ((broadcastInDim S409600 ![] bcast_S_S409600) : (⟨S_, .i32⟩ : BufTy).Contents (Elt F) → (⟨S409600, .i32⟩ : BufTy).Contents (Elt F)),
    binary main_call29_v1 main_v416 main_call29_v2 (maxsi : (⟨S409600, .i32⟩ : BufTy).Contents (Elt F) → (⟨S409600, .i32⟩ : BufTy).Contents (Elt F) → (⟨S409600, .i32⟩ : BufTy).Contents (Elt F)),
    unary main_c_162 main_call29_v3 (id : (⟨S_, .i32⟩ : BufTy).Contents (Elt F) → (⟨S_, .i32⟩ : BufTy).Contents (Elt F)),
    unary main_call29_v3 main_call29_v4 ((broadcastInDim S409600 ![] bcast_S_S409600) : (⟨S_, .i32⟩ : BufTy).Contents (Elt F) → (⟨S409600, .i32⟩ : BufTy).Contents (Elt F)),
    binary main_call29_v4 main_call29_v2 main_v429 (minsi : (⟨S409600, .i32⟩ : BufTy).Contents (Elt F) → (⟨S409600, .i32⟩ : BufTy).Contents (Elt F) → (⟨S409600, .i32⟩ : BufTy).Contents (Elt F)),
    nullary main_c_163 (constantI S_ 32 0#32),
    unary main_c_163 main_v430 (broadcastInDim S409600 ![] bcast_S_S409600 : (⟨S_, .i32⟩ : BufTy).Contents (Elt F) → (⟨S409600, .i32⟩ : BufTy).Contents (Elt F)) ]
abbrev ops_p9_8_W : List (Ref sig .tc) := [main_call29_v0, main_call29_v1, main_call29_v2, main_call29_v3, main_call29_v4, main_v429, main_c_163, main_v430]
theorem ops_p9_8_writes : (ops_p9_8 : List (HloOp τ sig (Elt F))).Forall fun op => op.writes ⊆ (ops_p9_8_W.map (Proc.devRef (τ := τ) .tc)).toFinset := by
  simp only [ops_p9_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p9_8_keep (V : Valuation τ sig (Elt F)) (r : Ref sig .tc) (h : r ∉ ops_p9_8_W) :
    after ops_p9_8 V (Proc.devRef .tc r) = V (Proc.devRef .tc r) :=
  after_of_writes_sub ops_p9_8 _ ops_p9_8_writes h

set_option maxRecDepth 8192 in
set_option maxHeartbeats 1000000 in
theorem w9_8_main_v429 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_8 V x0 x1 x2 x3 x4 x5 x6) :
    after ops_p9_8 V (Proc.devRef .tc main_v429) = val_main_v429 (F := F) x1 := by
  simp only [ops_p9_8]
  after_results_w
  simp only [h.main_v416, h.main_c_161, h.main_c_162]
  rfl

set_option maxRecDepth 8192 in
set_option maxHeartbeats 1000000 in
theorem w9_8_main_v430 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_8 V x0 x1 x2 x3 x4 x5 x6) :
    after ops_p9_8 V (Proc.devRef .tc main_v430) = val_main_v430 (F := F) := by
  simp only [ops_p9_8]
  after_results_w
  rfl

theorem step9_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_8 V x0 x1 x2 x3 x4 x5 x6) : Inv9_9 (after ops_p9_8 V) x0 x1 x2 x3 x4 x5 x6 where
  main_arg0 := (ops_p9_8_keep V main_arg0 (by decide)).trans h.main_arg0
  main_arg1 := (ops_p9_8_keep V main_arg1 (by decide)).trans h.main_arg1
  main_arg2 := (ops_p9_8_keep V main_arg2 (by decide)).trans h.main_arg2
  main_arg3 := (ops_p9_8_keep V main_arg3 (by decide)).trans h.main_arg3
  main_arg4 := (ops_p9_8_keep V main_arg4 (by decide)).trans h.main_arg4
  main_arg5 := (ops_p9_8_keep V main_arg5 (by decide)).trans h.main_arg5
  main_arg6 := (ops_p9_8_keep V main_arg6 (by decide)).trans h.main_arg6
  main_v27 := (ops_p9_8_keep V main_v27 (by decide)).trans h.main_v27
  main_v29 := (ops_p9_8_keep V main_v29 (by decide)).trans h.main_v29
  main_v31 := (ops_p9_8_keep V main_v31 (by decide)).trans h.main_v31
  main_v33 := (ops_p9_8_keep V main_v33 (by decide)).trans h.main_v33
  main_v412 := (ops_p9_8_keep V main_v412 (by decide)).trans h.main_v412
  main_v427 := (ops_p9_8_keep V main_v427 (by decide)).trans h.main_v427
  main_v428 := (ops_p9_8_keep V main_v428 (by decide)).trans h.main_v428
  main_v429 := w9_8_main_v429 V x0 x1 x2 x3 x4 x5 x6 h
  main_v430 := w9_8_main_v430 V x0 x1 x2 x3 x4 x5 x6 h

/-- Stretch 9 of window 9: @main's operations 713 … 715. -/
def ops_p9_9 : List (HloOp τ sig (Elt F)) :=
  [ binary main_v29 main_v430 main_v431 (cmpi .slt : (⟨S409600, .i32⟩ : BufTy).Contents (Elt F) → (⟨S409600, .i32⟩ : BufTy).Contents (Elt F) → (⟨S409600, .i1⟩ : BufTy).Contents (Elt F)),
    nullary main_c_164 (constantI S_ 32 2#32),
    unary main_c_164 main_v432 (broadcastInDim S409600 ![] bcast_S_S409600 : (⟨S_, .i32⟩ : BufTy).Contents (Elt F) → (⟨S409600, .i32⟩ : BufTy).Contents (Elt F)) ]
abbrev ops_p9_9_W : List (Ref sig .tc) := [main_v431, main_c_164, main_v432]
theorem ops_p9_9_writes : (ops_p9_9 : List (HloOp τ sig (Elt F))).Forall fun op => op.writes ⊆ (ops_p9_9_W.map (Proc.devRef (τ := τ) .tc)).toFinset := by
  simp only [ops_p9_9, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p9_9_keep (V : Valuation τ sig (Elt F)) (r : Ref sig .tc) (h : r ∉ ops_p9_9_W) :
    after ops_p9_9 V (Proc.devRef .tc r) = V (Proc.devRef .tc r) :=
  after_of_writes_sub ops_p9_9 _ ops_p9_9_writes h

set_option maxRecDepth 8192 in
set_option maxHeartbeats 1000000 in
theorem w9_9_main_v431 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_9 V x0 x1 x2 x3 x4 x5 x6) :
    after ops_p9_9 V (Proc.devRef .tc main_v431) = val_main_v431 (F := F) x1 := by
  simp only [ops_p9_9]
  after_results_w
  simp only [h.main_v430, h.main_v29]
  rfl

set_option maxRecDepth 8192 in
set_option maxHeartbeats 1000000 in
theorem w9_9_main_v432 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_9 V x0 x1 x2 x3 x4 x5 x6) :
    after ops_p9_9 V (Proc.devRef .tc main_v432) = val_main_v432 (F := F) := by
  simp only [ops_p9_9]
  after_results_w
  rfl

theorem step9_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9_9 V x0 x1 x2 x3 x4 x5 x6) : Inv10 (after ops_p9_9 V) x0 x1 x2 x3 x4 x5 x6 where
  main_arg0 := (ops_p9_9_keep V main_arg0 (by decide)).trans h.main_arg0
  main_arg1 := (ops_p9_9_keep V main_arg1 (by decide)).trans h.main_arg1
  main_arg2 := (ops_p9_9_keep V main_arg2 (by decide)).trans h.main_arg2
  main_arg3 := (ops_p9_9_keep V main_arg3 (by decide)).trans h.main_arg3
  main_arg4 := (ops_p9_9_keep V main_arg4 (by decide)).trans h.main_arg4
  main_arg5 := (ops_p9_9_keep V main_arg5 (by decide)).trans h.main_arg5
  main_arg6 := (ops_p9_9_keep V main_arg6 (by decide)).trans h.main_arg6
  main_v27 := (ops_p9_9_keep V main_v27 (by decide)).trans h.main_v27
  main_v29 := (ops_p9_9_keep V main_v29 (by decide)).trans h.main_v29
  main_v31 := (ops_p9_9_keep V main_v31 (by decide)).trans h.main_v31
  main_v33 := (ops_p9_9_keep V main_v33 (by decide)).trans h.main_v33
  main_v412 := (ops_p9_9_keep V main_v412 (by decide)).trans h.main_v412
  main_v427 := (ops_p9_9_keep V main_v427 (by decide)).trans h.main_v427
  main_v428 := (ops_p9_9_keep V main_v428 (by decide)).trans h.main_v428
  main_v429 := (ops_p9_9_keep V main_v429 (by decide)).trans h.main_v429
  main_v431 := w9_9_main_v431 V x0 x1 x2 x3 x4 x5 x6 h
  main_v432 := w9_9_main_v432 V x0 x1 x2 x3 x4 x5 x6 h

set_option maxRecDepth 8192 in
theorem ops_p9_split : (ops_p9 : List (HloOp τ sig (Elt F))) = ops_p9_0 ++ (ops_p9_1 ++ (ops_p9_2 ++ (ops_p9_3 ++ (ops_p9_4 ++ (ops_p9_5 ++ (ops_p9_6 ++ (ops_p9_7 ++ (ops_p9_8 ++ (ops_p9_9))))))))) := rfl

/-- Window 9 carries the staged reading from boundary 9 to boundary 10. -/
theorem step9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv9 V x0 x1 x2 x3 x4 x5 x6) : Inv10 (after ops_p9 V) x0 x1 x2 x3 x4 x5 x6 := by
  rw [ops_p9_split]; simp only [after_app]
  exact step9_9 _ x0 x1 x2 x3 x4 x5 x6 (step9_8 _ x0 x1 x2 x3 x4 x5 x6 (step9_7 _ x0 x1 x2 x3 x4 x5 x6 (step9_6 _ x0 x1 x2 x3 x4 x5 x6 (step9_5 _ x0 x1 x2 x3 x4 x5 x6 (step9_4 _ x0 x1 x2 x3 x4 x5 x6 (step9_3 _ x0 x1 x2 x3 x4 x5 x6 (step9_2 _ x0 x1 x2 x3 x4 x5 x6 (step9_1 _ x0 x1 x2 x3 x4 x5 x6 (step9_0 V x0 x1 x2 x3 x4 x5 x6 h)))))))))

end Cert.ReferenceIdeal.Hand

end
-- ==== Proof.Ref.W10.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 10 of @main: its operations 716 … 780 of 1688, in order. -/
def ops_p10 : List (HloOp τ sig (Elt F)) :=
  [ binary main_v29 main_v432 main_v433 (addi : (⟨S409600, .i32⟩ : BufTy).Contents (Elt F) → (⟨S409600, .i32⟩ : BufTy).Contents (Elt F) → (⟨S409600, .i32⟩ : BufTy).Contents (Elt F)),
    ternary main_v431 main_v433 main_v29 main_v434 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_165 (constantI S_ 32 0#32),
    unary main_c_165 main_v435 (broadcastInDim S409600 ![] bcast_S_S409600 : (⟨S_, .i32⟩ : BufTy).Contents (Elt F) → (⟨S409600, .i32⟩ : BufTy).Contents (Elt F)),
    binary main_v428 main_v435 main_v436 (cmpi .slt : (⟨S409600, .i32⟩ : BufTy).Contents (Elt F) → (⟨S409600, .i32⟩ : BufTy).Contents (Elt F) → (⟨S409600, .i1⟩ : BufTy).Contents (Elt F)),
    nullary main_c_166 (constantI S_ 32 640#32),
    unary main_c_166 main_v437 (broadcastInDim S409600 ![] bcast_S_S409600 : (⟨S_, .i32⟩ : BufTy).Contents (Elt F) → (⟨S409600, .i32⟩ : BufTy).Contents (Elt F)),
    binary main_v428 main_v437 main_v438 (addi : (⟨S409600, .i32⟩ : BufTy).Contents (Elt F) → (⟨S409600, .i32⟩ : BufTy).Contents (Elt F) → (⟨S409600, .i32⟩ : BufTy).Contents (Elt F)),
    ternary main_v436 main_v438 main_v428 main_v439 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_167 (constantI S_ 32 0#32),
    unary main_c_167 main_v440 (broadcastInDim S409600 ![] bcast_S_S409600 : (⟨S_, .i32⟩ : BufTy).Contents (Elt F) → (⟨S409600, .i32⟩ : BufTy).Contents (Elt F)),
    binary main_v429 main_v440 main_v441 (cmpi .slt : (⟨S409600, .i32⟩ : BufTy).Contents (Elt F) → (⟨S409600, .i32⟩ : BufTy).Contents (Elt F) → (⟨S409600, .i1⟩ : BufTy).Contents (Elt F)),
    nullary main_c_168 (constantI S_ 32 640#32),
    unary main_c_168 main_v442 (broadcastInDim S409600 ![] bcast_S_S409600 : (⟨S_, .i32⟩ : BufTy).Contents (Elt F) → (⟨S409600, .i32⟩ : BufTy).Contents (Elt F)),
    binary main_v429 main_v442 main_v443 (addi : (⟨S409600, .i32⟩ : BufTy).Contents (Elt F) → (⟨S409600, .i32⟩ : BufTy).Contents (Elt F) → (⟨S409600, .i32⟩ : BufTy).Contents (Elt F)),
    ternary main_v441 main_v443 main_v429 main_v444 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v434 main_v445 (broadcastInDim S409600x1 ![0] bcast_S409600_S409600x1_0 : (⟨S409600, .i32⟩ : BufTy).Contents (Elt F) → (⟨S409600x1, .i32⟩ : BufTy).Contents (Elt F)),
    unary main_v439 main_v446 (broadcastInDim S409600x1 ![0] bcast_S409600_S409600x1_0 : (⟨S409600, .i32⟩ : BufTy).Contents (Elt F) → (⟨S409600x1, .i32⟩ : BufTy).Contents (Elt F)),
    unary main_v444 main_v447 (broadcastInDim S409600x1 ![0] bcast_S409600_S409600x1_0 : (⟨S409600, .i32⟩ : BufTy).Contents (Elt F) → (⟨S409600x1, .i32⟩ : BufTy).Contents (Elt F)),
    nary ![main_v445, main_v446, main_v447] main_v448 (fun u => concatenate S409600x3 1 [⟨S409600x1, u 0⟩, ⟨S409600x1, u 1⟩, ⟨S409600x1, u 2⟩] concatenates_S409600x1_S409600x1_S409600x1_S409600x3_d1),
    binary main_v27 main_v448 main_v449 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_169 (constantI S_ 32 0#32),
    unary main_c_169 main_v450 (broadcastInDim S409600 ![] bcast_S_S409600 : (⟨S_, .i32⟩ : BufTy).Contents (Elt F) → (⟨S409600, .i32⟩ : BufTy).Contents (Elt F)),
    binary main_v449 main_v450 main_v451 (cmpi .sge : (⟨S409600, .i32⟩ : BufTy).Contents (Elt F) → (⟨S409600, .i32⟩ : BufTy).Contents (Elt F) → (⟨S409600, .i1⟩ : BufTy).Contents (Elt F)),
    binary main_v427 main_v451 main_v452 (andi : (⟨S409600, .i1⟩ : BufTy).Contents (Elt F) → (⟨S409600, .i1⟩ : BufTy).Contents (Elt F) → (⟨S409600, .i1⟩ : BufTy).Contents (Elt F)),
    nullary main_c_170 (constantI S_ 32 0#32),
    unary main_c_170 main_call30_v0 (id : (⟨S_, .i32⟩ : BufTy).Contents (Elt F) → (⟨S_, .i32⟩ : BufTy).Contents (Elt F)),
    unary main_call30_v0 main_call30_v1 ((broadcastInDim S409600 ![] bcast_S_S409600) : (⟨S_, .i32⟩ : BufTy).Contents (Elt F) → (⟨S409600, .i32⟩ : BufTy).Contents (Elt F)),
    ternary main_v452 main_v449 main_call30_v1 main_v453 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_171 (constantI S_ 32 0#32),
    unary main_c_171 main_v454 (broadcastInDim S409600 ![] bcast_S_S409600 : (⟨S_, .i32⟩ : BufTy).Contents (Elt F) → (⟨S409600, .i32⟩ : BufTy).Contents (Elt F)),
    binary main_v453 main_v454 main_v455 (cmpi .slt : (⟨S409600, .i32⟩ : BufTy).Contents (Elt F) → (⟨S409600, .i32⟩ : BufTy).Contents (Elt F) → (⟨S409600, .i1⟩ : BufTy).Contents (Elt F)),
    nullary main_c_172 (constantI S_ 32 409600#32),
    unary main_c_172 main_v456 (broadcastInDim S409600 ![] bcast_S_S409600 : (⟨S_, .i32⟩ : BufTy).Contents (Elt F) → (⟨S409600, .i32⟩ : BufTy).Contents (Elt F)),
    binary main_v453 main_v456 main_v457 (addi : (⟨S409600, .i32⟩ : BufTy).Contents (Elt F) → (⟨S409600, .i32⟩ : BufTy).Contents (Elt F) → (⟨S409600, .i32⟩ : BufTy).Contents (Elt F)),
    ternary main_v455 main_v457 main_v453 main_v458 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v458 main_v459 (broadcastInDim S409600x1 ![0] bcast_S409600_S409600x1_0 : (⟨S409600, .i32⟩ : BufTy).Contents (Elt F) → (⟨S409600x1, .i32⟩ : BufTy).Contents (Elt F)),
    binary main_arg0 main_v459 main_v460 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v452 main_v461 (broadcastInDim S409600x1 ![0] bcast_S409600_S409600x1_0 : (⟨S409600, .i1⟩ : BufTy).Contents (Elt F) → (⟨S409600x1, .i1⟩ : BufTy).Contents (Elt F)),
    nullary main_cst_173 (constant S_ .f32 0x00000000#32),
    unary main_cst_173 main_call31_v0 (id : (⟨S_, .f32⟩ : BufTy).Contents (Elt F) → (⟨S_, .f32⟩ : BufTy).Contents (Elt F)),
    unary main_v461 main_call31_v1 ((broadcastInDim S409600x64 ![0, 1] bcast_S409600x1_S409600x64_0_1) : (⟨S409600x1, .i1⟩ : BufTy).Contents (Elt F) → (⟨S409600x64, .i1⟩ : BufTy).Contents (Elt F)),
    unary main_call31_v0 main_call31_v2 ((broadcastInDim S409600x64 ![] bcast_S_S409600x64) : (⟨S_, .f32⟩ : BufTy).Contents (Elt F) → (⟨S409600x64, .f32⟩ : BufTy).Contents (Elt F)),
    ternary main_call31_v1 main_v460 main_call31_v2 main_v462 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v463 ((extractStridedSlice S1x1x64x64 ![2, 1, 0, 0] · slices_S3x3x64x64_S1x1x64x64_2_1_0_0) : (⟨S3x3x64x64, .f32⟩ : BufTy).Contents (Elt F) → (⟨S1x1x64x64, .f32⟩ : BufTy).Contents (Elt F)),
    reshape main_v463 main_v464 rfl shapeCasts_S1x1x64x64_S64x64,
    binary main_v462 main_v464 main_v465 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v412 main_v465 main_v466 (addf : (⟨S409600x64, .f32⟩ : BufTy).Contents (Elt F) → (⟨S409600x64, .f32⟩ : BufTy).Contents (Elt F) → (⟨S409600x64, .f32⟩ : BufTy).Contents (Elt F)),
    nullary main_c_174 (constantI S_ 32 1#32),
    unary main_c_174 main_v467 (broadcastInDim S409600 ![] bcast_S_S409600 : (⟨S_, .i32⟩ : BufTy).Contents (Elt F) → (⟨S409600, .i32⟩ : BufTy).Contents (Elt F)),
    binary main_v31 main_v467 main_v468 (addi : (⟨S409600, .i32⟩ : BufTy).Contents (Elt F) → (⟨S409600, .i32⟩ : BufTy).Contents (Elt F) → (⟨S409600, .i32⟩ : BufTy).Contents (Elt F)),
    nullary main_c_175 (constantI S_ 32 1#32),
    unary main_c_175 main_v469 (broadcastInDim S409600 ![] bcast_S_S409600 : (⟨S_, .i32⟩ : BufTy).Contents (Elt F) → (⟨S409600, .i32⟩ : BufTy).Contents (Elt F)),
    binary main_v33 main_v469 main_v470 (addi : (⟨S409600, .i32⟩ : BufTy).Contents (Elt F) → (⟨S409600, .i32⟩ : BufTy).Contents (Elt F) → (⟨S409600, .i32⟩ : BufTy).Contents (Elt F)),
    nullary main_c_176 (constantI S_ 32 0#32),
    unary main_c_176 main_v471 (broadcastInDim S409600 ![] bcast_S_S409600 : (⟨S_, .i32⟩ : BufTy).Contents (Elt F) → (⟨S409600, .i32⟩ : BufTy).Contents (Elt F)),
    binary main_v468 main_v471 main_v472 (cmpi .sge : (⟨S409600, .i32⟩ : BufTy).Contents (Elt F) → (⟨S409600, .i32⟩ : BufTy).Contents (Elt F) → (⟨S409600, .i1⟩ : BufTy).Contents (Elt F)),
    nullary main_c_177 (constantI S_ 32 640#32),
    unary main_c_177 main_v473 (broadcastInDim S409600 ![] bcast_S_S409600 : (⟨S_, .i32⟩ : BufTy).Contents (Elt F) → (⟨S409600, .i32⟩ : BufTy).Contents (Elt F)),
    binary main_v468 main_v473 main_v474 (cmpi .slt : (⟨S409600, .i32⟩ : BufTy).Contents (Elt F) → (⟨S409600, .i32⟩ : BufTy).Contents (Elt F) → (⟨S409600, .i1⟩ : BufTy).Contents (Elt F)),
    binary main_v472 main_v474 main_v475 (andi : (⟨S409600, .i1⟩ : BufTy).Contents (Elt F) → (⟨S409600, .i1⟩ : BufTy).Contents (Elt F) → (⟨S409600, .i1⟩ : BufTy).Contents (Elt F)),
    nullary main_c_178 (constantI S_ 32 0#32),
    unary main_c_178 main_v476 (broadcastInDim S409600 ![] bcast_S_S409600 : (⟨S_, .i32⟩ : BufTy).Contents (Elt F) → (⟨S409600, .i32⟩ : BufTy).Contents (Elt F)),
    binary main_v470 main_v476 main_v477 (cmpi .sge : (⟨S409600, .i32⟩ : BufTy).Contents (Elt F) → (⟨S409600, .i32⟩ : BufTy).Contents (Elt F) → (⟨S409600, .i1⟩ : BufTy).Contents (Elt F)),
    binary main_v475 main_v477 main_v478 (andi : (⟨S409600, .i1⟩ : BufTy).Contents (Elt F) → (⟨S409600, .i1⟩ : BufTy).Contents (Elt F) → (⟨S409600, .i1⟩ : BufTy).Contents (Elt F)) ]

set_option maxRecDepth 8192 in
set_option maxHeartbeats 4000000 in
theorem main_part10_eq (c : Dev nD) : main_part10 (F := F) c = seq ops_p10 := by
  simp only [main_part10, ops_p10, fn_clip.body, fn_where.body, fn_where_0.body, fn_relu.body, seq, bind_assoc, pure_bind]
  rfl

set_option maxRecDepth 8192 in
theorem ops_p10_sub : (ops_p10 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩

set_option maxRecDepth 8192 in
theorem ops_p10_fresh : ∀ op ∈ (ops_p10 : List (HloOp τ sig (Elt F))), op.fresh = ∅ := by
  unfold ops_p10; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 724 on hold before it. -/
structure Inv10_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v427 : V (Proc.devRef .tc main_v427) = val_main_v427 (F := F) x1
  main_v428 : V (Proc.devRef .tc main_v428) = val_main_v428 (F := F) x1
  main_v429 : V (Proc.devRef .tc main_v429) = val_main_v429 (F := F) x1
  main_v434 : V (Proc.devRef .tc main_v434) = val_main_v434 (F := F) x1
  main_v436 : V (Proc.devRef .tc main_v436) = val_main_v436 (F := F) x1
  main_v438 : V (Proc.devRef .tc main_v438) = val_main_v438 (F := F) x1

/-- What the buffers read from operation 732 on hold before it. -/
structure Inv10_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v427 : V (Proc.devRef .tc main_v427) = val_main_v427 (F := F) x1
  main_v434 : V (Proc.devRef .tc main_v434) = val_main_v434 (F := F) x1
  main_v439 : V (Proc.devRef .tc main_v439) = val_main_v439 (F := F) x1
  main_v444 : V (Proc.devRef .tc main_v444) = val_main_v444 (F := F) x1

/-- What the buffers read from operation 740 on hold before it. -/
structure Inv10_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v427 : V (Proc.devRef .tc main_v427) = val_main_v427 (F := F) x1
  main_v449 : V (Proc.devRef .tc main_v449) = val_main_v449 (F := F) x1
  main_v451 : V (Proc.devRef .tc main_v451) = val_main_v451 (F := F) x1

/-- What the buffers read from operation 748 on hold before it. -/
structure Inv10_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v452 : V (Proc.devRef .tc main_v452) = val_main_v452 (F := F) x1
  main_v453 : V (Proc.devRef .tc main_v453) = val_main_v453 (F := F) x1
  main_v455 : V (Proc.devRef .tc main_v455) = val_main_v455 (F := F) x1

/-- What the buffers read from operation 756 on hold before it. -/
structure Inv10_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v412 : V (Proc.devRef .tc main_v412) = val_main_v412 (F := F) x0 x1 x2
  main_v460 : V (Proc.devRef .tc main_v460) = val_main_v460 (F := F) x0 x1
  main_v461 : V (Proc.devRef .tc main_v461) = val_main_v461 (F := F) x1
  main_cst_173 : V (Proc.devRef .tc main_cst_173) = val_main_cst_173 (F := F)

/-- What the buffers read from operation 764 on hold before it. -/
structure Inv10_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v31 : V (Proc.devRef .tc main_v31) = val_main_v31 (F := F) x1
  main_v33 : V (Proc.devRef .tc main_v33) = val_main_v33 (F := F) x1
  main_v466 : V (Proc.devRef .tc main_v466) = val_main_v466 (F := F) x0 x1 x2

/-- What the buffers read from operation 772 on hold before it. -/
structure Inv10_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v466 : V (Proc.devRef .tc main_v466) = val_main_v466 (F := F) x0 x1 x2
  main_v468 : V (Proc.devRef .tc main_v468) = val_main_v468 (F := F) x1
  main_v470 : V (Proc.devRef .tc main_v470) = val_main_v470 (F := F) x1
  main_v471 : V (Proc.devRef .tc main_v471) = val_main_v471 (F := F)

/-- Stretch 0 of window 10: @main's operations 716 … 723. -/
def ops_p10_0 : List (HloOp τ sig (Elt F)) :=
  [ binary main_v29 main_v432 main_v433 (addi : (⟨S409600, .i32⟩ : BufTy).Contents (Elt F) → (⟨S409600, .i32⟩ : BufTy).Contents (Elt F) → (⟨S409600, .i32⟩ : BufTy).Contents (Elt F)),
    ternary main_v431 main_v433 main_v29 main_v434 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_165 (constantI S_ 32 0#32),
    unary main_c_165 main_v435 (broadcastInDim S409600 ![] bcast_S_S409600 : (⟨S_, .i32⟩ : BufTy).Contents (Elt F) → (⟨S409600, .i32⟩ : BufTy).Contents (Elt F)),
    binary main_v428 main_v435 main_v436 (cmpi .slt : (⟨S409600, .i32⟩ : BufTy).Contents (Elt F) → (⟨S409600, .i32⟩ : BufTy).Contents (Elt F) → (⟨S409600, .i1⟩ : BufTy).Contents (Elt F)),
    nullary main_c_166 (constantI S_ 32 640#32),
    unary main_c_166 main_v437 (broadcastInDim S409600 ![] bcast_S_S409600 : (⟨S_, .i32⟩ : BufTy).Contents (Elt F) → (⟨S409600, .i32⟩ : BufTy).Contents (Elt F)),
    binary main_v428 main_v437 main_v438 (addi : (⟨S409600, .i32⟩ : BufTy).Contents (Elt F) → (⟨S409600, .i32⟩ : BufTy).Contents (Elt F) → (⟨S409600, .i32⟩ : BufTy).Contents (Elt F)) ]
abbrev ops_p10_0_W : List (Ref sig .tc) := [main_v433, main_v434, main_c_165, main_v435, main_v436, main_c_166, main_v437, main_v438]
theorem ops_p10_0_writes : (ops_p10_0 : List (HloOp τ sig (Elt F))).Forall fun op => op.writes ⊆ (ops_p10_0_W.map (Proc.devRef (τ := τ) .tc)).toFinset := by
  simp only [ops_p10_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p10_0_keep (V : Valuation τ sig (Elt F)) (r : Ref sig .tc) (h : r ∉ ops_p10_0_W) :
    after ops_p10_0 V (Proc.devRef .tc r) = V (Proc.devRef .tc r) :=
  after_of_writes_sub ops_p10_0 _ ops_p10_0_writes h

set_option maxRecDepth 8192 in
set_option maxHeartbeats 1000000 in
theorem w10_0_main_v434 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10 V x0 x1 x2 x3 x4 x5 x6) :
    after ops_p10_0 V (Proc.devRef .tc main_v434) = val_main_v434 (F := F) x1 := by
  simp only [ops_p10_0]
  after_results_w
  simp only [h.main_v29, h.main_v432, h.main_v431]
  rfl

set_option maxRecDepth 8192 in
set_option maxHeartbeats 1000000 in
theorem w10_0_main_v436 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10 V x0 x1 x2 x3 x4 x5 x6) :
    after ops_p10_0 V (Proc.devRef .tc main_v436) = val_main_v436 (F := F) x1 := by
  simp only [ops_p10_0]
  after_results_w
  simp only [h.main_v428]
  rfl

set_option maxRecDepth 8192 in
set_option maxHeartbeats 1000000 in
theorem w10_0_main_v438 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10 V x0 x1 x2 x3 x4 x5 x6) :
    after ops_p10_0 V (Proc.devRef .tc main_v438) = val_main_v438 (F := F) x1 := by
  simp only [ops_p10_0]
  after_results_w
  simp only [h.main_v428]
  rfl

theorem step10_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10 V x0 x1 x2 x3 x4 x5 x6) : Inv10_1 (after ops_p10_0 V) x0 x1 x2 x3 x4 x5 x6 where
  main_arg0 := (ops_p10_0_keep V main_arg0 (by decide)).trans h.main_arg0
  main_arg1 := (ops_p10_0_keep V main_arg1 (by decide)).trans h.main_arg1
  main_arg2 := (ops_p10_0_keep V main_arg2 (by decide)).trans h.main_arg2
  main_arg3 := (ops_p10_0_keep V main_arg3 (by decide)).trans h.main_arg3
  main_arg4 := (ops_p10_0_keep V main_arg4 (by decide)).trans h.main_arg4
  main_arg5 := (ops_p10_0_keep V main_arg5 (by decide)).trans h.main_arg5
  main_arg6 := (ops_p10_0_keep V main_arg6 (by decide)).trans h.main_arg6
  main_v27 := (ops_p10_0_keep V main_v27 (by decide)).trans h.main_v27
  main_v29 := (ops_p10_0_keep V main_v29 (by decide)).trans h.main_v29
  main_v31 := (ops_p10_0_keep V main_v31 (by decide)).trans h.main_v31
  main_v33 := (ops_p10_0_keep V main_v33 (by decide)).trans h.main_v33
  main_v412 := (ops_p10_0_keep V main_v412 (by decide)).trans h.main_v412
  main_v427 := (ops_p10_0_keep V main_v427 (by decide)).trans h.main_v427
  main_v428 := (ops_p10_0_keep V main_v428 (by decide)).trans h.main_v428
  main_v429 := (ops_p10_0_keep V main_v429 (by decide)).trans h.main_v429
  main_v434 := w10_0_main_v434 V x0 x1 x2 x3 x4 x5 x6 h
  main_v436 := w10_0_main_v436 V x0 x1 x2 x3 x4 x5 x6 h
  main_v438 := w10_0_main_v438 V x0 x1 x2 x3 x4 x5 x6 h

/-- Stretch 1 of window 10: @main's operations 724 … 731. -/
def ops_p10_1 : List (HloOp τ sig (Elt F)) :=
  [ ternary main_v436 main_v438 main_v428 main_v439 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_167 (constantI S_ 32 0#32),
    unary main_c_167 main_v440 (broadcastInDim S409600 ![] bcast_S_S409600 : (⟨S_, .i32⟩ : BufTy).Contents (Elt F) → (⟨S409600, .i32⟩ : BufTy).Contents (Elt F)),
    binary main_v429 main_v440 main_v441 (cmpi .slt : (⟨S409600, .i32⟩ : BufTy).Contents (Elt F) → (⟨S409600, .i32⟩ : BufTy).Contents (Elt F) → (⟨S409600, .i1⟩ : BufTy).Contents (Elt F)),
    nullary main_c_168 (constantI S_ 32 640#32),
    unary main_c_168 main_v442 (broadcastInDim S409600 ![] bcast_S_S409600 : (⟨S_, .i32⟩ : BufTy).Contents (Elt F) → (⟨S409600, .i32⟩ : BufTy).Contents (Elt F)),
    binary main_v429 main_v442 main_v443 (addi : (⟨S409600, .i32⟩ : BufTy).Contents (Elt F) → (⟨S409600, .i32⟩ : BufTy).Contents (Elt F) → (⟨S409600, .i32⟩ : BufTy).Contents (Elt F)),
    ternary main_v441 main_v443 main_v429 main_v444 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)) ]
abbrev ops_p10_1_W : List (Ref sig .tc) := [main_v439, main_c_167, main_v440, main_v441, main_c_168, main_v442, main_v443, main_v444]
theorem ops_p10_1_writes : (ops_p10_1 : List (HloOp τ sig (Elt F))).Forall fun op => op.writes ⊆ (ops_p10_1_W.map (Proc.devRef (τ := τ) .tc)).toFinset := by
  simp only [ops_p10_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p10_1_keep (V : Valuation τ sig (Elt F)) (r : Ref sig .tc) (h : r ∉ ops_p10_1_W) :
    after ops_p10_1 V (Proc.devRef .tc r) = V (Proc.devRef .tc r) :=
  after_of_writes_sub ops_p10_1 _ ops_p10_1_writes h

set_option maxRecDepth 8192 in
set_option maxHeartbeats 1000000 in
theorem w10_1_main_v439 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_1 V x0 x1 x2 x3 x4 x5 x6) :
    after ops_p10_1 V (Proc.devRef .tc main_v439) = val_main_v439 (F := F) x1 := by
  simp only [ops_p10_1]
  after_results_w
  simp only [h.main_v428, h.main_v438, h.main_v436]
  rfl

set_option maxRecDepth 8192 in
set_option maxHeartbeats 1000000 in
theorem w10_1_main_v444 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_1 V x0 x1 x2 x3 x4 x5 x6) :
    after ops_p10_1 V (Proc.devRef .tc main_v444) = val_main_v444 (F := F) x1 := by
  simp only [ops_p10_1]
  after_results_w
  simp only [h.main_v429]
  rfl

theorem step10_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_1 V x0 x1 x2 x3 x4 x5 x6) : Inv10_2 (after ops_p10_1 V) x0 x1 x2 x3 x4 x5 x6 where
  main_arg0 := (ops_p10_1_keep V main_arg0 (by decide)).trans h.main_arg0
  main_arg1 := (ops_p10_1_keep V main_arg1 (by decide)).trans h.main_arg1
  main_arg2 := (ops_p10_1_keep V main_arg2 (by decide)).trans h.main_arg2
  main_arg3 := (ops_p10_1_keep V main_arg3 (by decide)).trans h.main_arg3
  main_arg4 := (ops_p10_1_keep V main_arg4 (by decide)).trans h.main_arg4
  main_arg5 := (ops_p10_1_keep V main_arg5 (by decide)).trans h.main_arg5
  main_arg6 := (ops_p10_1_keep V main_arg6 (by decide)).trans h.main_arg6
  main_v27 := (ops_p10_1_keep V main_v27 (by decide)).trans h.main_v27
  main_v29 := (ops_p10_1_keep V main_v29 (by decide)).trans h.main_v29
  main_v31 := (ops_p10_1_keep V main_v31 (by decide)).trans h.main_v31
  main_v33 := (ops_p10_1_keep V main_v33 (by decide)).trans h.main_v33
  main_v412 := (ops_p10_1_keep V main_v412 (by decide)).trans h.main_v412
  main_v427 := (ops_p10_1_keep V main_v427 (by decide)).trans h.main_v427
  main_v434 := (ops_p10_1_keep V main_v434 (by decide)).trans h.main_v434
  main_v439 := w10_1_main_v439 V x0 x1 x2 x3 x4 x5 x6 h
  main_v444 := w10_1_main_v444 V x0 x1 x2 x3 x4 x5 x6 h

/-- Stretch 2 of window 10: @main's operations 732 … 739. -/
def ops_p10_2 : List (HloOp τ sig (Elt F)) :=
  [ unary main_v434 main_v445 (broadcastInDim S409600x1 ![0] bcast_S409600_S409600x1_0 : (⟨S409600, .i32⟩ : BufTy).Contents (Elt F) → (⟨S409600x1, .i32⟩ : BufTy).Contents (Elt F)),
    unary main_v439 main_v446 (broadcastInDim S409600x1 ![0] bcast_S409600_S409600x1_0 : (⟨S409600, .i32⟩ : BufTy).Contents (Elt F) → (⟨S409600x1, .i32⟩ : BufTy).Contents (Elt F)),
    unary main_v444 main_v447 (broadcastInDim S409600x1 ![0] bcast_S409600_S409600x1_0 : (⟨S409600, .i32⟩ : BufTy).Contents (Elt F) → (⟨S409600x1, .i32⟩ : BufTy).Contents (Elt F)),
    nary ![main_v445, main_v446, main_v447] main_v448 (fun u => concatenate S409600x3 1 [⟨S409600x1, u 0⟩, ⟨S409600x1, u 1⟩, ⟨S409600x1, u 2⟩] concatenates_S409600x1_S409600x1_S409600x1_S409600x3_d1),
    binary main_v27 main_v448 main_v449 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_169 (constantI S_ 32 0#32),
    unary main_c_169 main_v450 (broadcastInDim S409600 ![] bcast_S_S409600 : (⟨S_, .i32⟩ : BufTy).Contents (Elt F) → (⟨S409600, .i32⟩ : BufTy).Contents (Elt F)),
    binary main_v449 main_v450 main_v451 (cmpi .sge : (⟨S409600, .i32⟩ : BufTy).Contents (Elt F) → (⟨S409600, .i32⟩ : BufTy).Contents (Elt F) → (⟨S409600, .i1⟩ : BufTy).Contents (Elt F)) ]
abbrev ops_p10_2_W : List (Ref sig .tc) := [main_v445, main_v446, main_v447, main_v448, main_v449, main_c_169, main_v450, main_v451]
theorem ops_p10_2_writes : (ops_p10_2 : List (HloOp τ sig (Elt F))).Forall fun op => op.writes ⊆ (ops_p10_2_W.map (Proc.devRef (τ := τ) .tc)).toFinset := by
  simp only [ops_p10_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p10_2_keep (V : Valuation τ sig (Elt F)) (r : Ref sig .tc) (h : r ∉ ops_p10_2_W) :
    after ops_p10_2 V (Proc.devRef .tc r) = V (Proc.devRef .tc r) :=
  after_of_writes_sub ops_p10_2 _ ops_p10_2_writes h

set_option maxRecDepth 8192 in
set_option maxHeartbeats 1000000 in
theorem w10_2_main_v449 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_2 V x0 x1 x2 x3 x4 x5 x6) :
    after ops_p10_2 V (Proc.devRef .tc main_v449) = val_main_v449 (F := F) x1 := by
  simp only [ops_p10_2]
  after_results_w
  simp only [h.main_v444, h.main_v439, h.main_v434, h.main_v27]
  rfl

set_option maxRecDepth 8192 in
set_option maxHeartbeats 1000000 in
theorem w10_2_main_v451 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_2 V x0 x1 x2 x3 x4 x5 x6) :
    after ops_p10_2 V (Proc.devRef .tc main_v451) = val_main_v451 (F := F) x1 := by
  simp only [ops_p10_2]
  after_results_w
  simp only [h.main_v444, h.main_v439, h.main_v434, h.main_v27]
  rfl

theorem step10_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_2 V x0 x1 x2 x3 x4 x5 x6) : Inv10_3 (after ops_p10_2 V) x0 x1 x2 x3 x4 x5 x6 where
  main_arg0 := (ops_p10_2_keep V main_arg0 (by decide)).trans h.main_arg0
  main_arg1 := (ops_p10_2_keep V main_arg1 (by decide)).trans h.main_arg1
  main_arg2 := (ops_p10_2_keep V main_arg2 (by decide)).trans h.main_arg2
  main_arg3 := (ops_p10_2_keep V main_arg3 (by decide)).trans h.main_arg3
  main_arg4 := (ops_p10_2_keep V main_arg4 (by decide)).trans h.main_arg4
  main_arg5 := (ops_p10_2_keep V main_arg5 (by decide)).trans h.main_arg5
  main_arg6 := (ops_p10_2_keep V main_arg6 (by decide)).trans h.main_arg6
  main_v27 := (ops_p10_2_keep V main_v27 (by decide)).trans h.main_v27
  main_v29 := (ops_p10_2_keep V main_v29 (by decide)).trans h.main_v29
  main_v31 := (ops_p10_2_keep V main_v31 (by decide)).trans h.main_v31
  main_v33 := (ops_p10_2_keep V main_v33 (by decide)).trans h.main_v33
  main_v412 := (ops_p10_2_keep V main_v412 (by decide)).trans h.main_v412
  main_v427 := (ops_p10_2_keep V main_v427 (by decide)).trans h.main_v427
  main_v449 := w10_2_main_v449 V x0 x1 x2 x3 x4 x5 x6 h
  main_v451 := w10_2_main_v451 V x0 x1 x2 x3 x4 x5 x6 h

/-- Stretch 3 of window 10: @main's operations 740 … 747. -/
def ops_p10_3 : List (HloOp τ sig (Elt F)) :=
  [ binary main_v427 main_v451 main_v452 (andi : (⟨S409600, .i1⟩ : BufTy).Contents (Elt F) → (⟨S409600, .i1⟩ : BufTy).Contents (Elt F) → (⟨S409600, .i1⟩ : BufTy).Contents (Elt F)),
    nullary main_c_170 (constantI S_ 32 0#32),
    unary main_c_170 main_call30_v0 (id : (⟨S_, .i32⟩ : BufTy).Contents (Elt F) → (⟨S_, .i32⟩ : BufTy).Contents (Elt F)),
    unary main_call30_v0 main_call30_v1 ((broadcastInDim S409600 ![] bcast_S_S409600) : (⟨S_, .i32⟩ : BufTy).Contents (Elt F) → (⟨S409600, .i32⟩ : BufTy).Contents (Elt F)),
    ternary main_v452 main_v449 main_call30_v1 main_v453 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_171 (constantI S_ 32 0#32),
    unary main_c_171 main_v454 (broadcastInDim S409600 ![] bcast_S_S409600 : (⟨S_, .i32⟩ : BufTy).Contents (Elt F) → (⟨S409600, .i32⟩ : BufTy).Contents (Elt F)),
    binary main_v453 main_v454 main_v455 (cmpi .slt : (⟨S409600, .i32⟩ : BufTy).Contents (Elt F) → (⟨S409600, .i32⟩ : BufTy).Contents (Elt F) → (⟨S409600, .i1⟩ : BufTy).Contents (Elt F)) ]
abbrev ops_p10_3_W : List (Ref sig .tc) := [main_v452, main_c_170, main_call30_v0, main_call30_v1, main_v453, main_c_171, main_v454, main_v455]
theorem ops_p10_3_writes : (ops_p10_3 : List (HloOp τ sig (Elt F))).Forall fun op => op.writes ⊆ (ops_p10_3_W.map (Proc.devRef (τ := τ) .tc)).toFinset := by
  simp only [ops_p10_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p10_3_keep (V : Valuation τ sig (Elt F)) (r : Ref sig .tc) (h : r ∉ ops_p10_3_W) :
    after ops_p10_3 V (Proc.devRef .tc r) = V (Proc.devRef .tc r) :=
  after_of_writes_sub ops_p10_3 _ ops_p10_3_writes h

set_option maxRecDepth 8192 in
set_option maxHeartbeats 1000000 in
theorem w10_3_main_v452 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_3 V x0 x1 x2 x3 x4 x5 x6) :
    after ops_p10_3 V (Proc.devRef .tc main_v452) = val_main_v452 (F := F) x1 := by
  simp only [ops_p10_3]
  after_results_w
  simp only [h.main_v451, h.main_v427]
  rfl

set_option maxRecDepth 8192 in
set_option maxHeartbeats 1000000 in
theorem w10_3_main_v453 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_3 V x0 x1 x2 x3 x4 x5 x6) :
    after ops_p10_3 V (Proc.devRef .tc main_v453) = val_main_v453 (F := F) x1 := by
  simp only [ops_p10_3]
  after_results_w
  simp only [h.main_v449, h.main_v451, h.main_v427]
  rfl

set_option maxRecDepth 8192 in
set_option maxHeartbeats 1000000 in
theorem w10_3_main_v455 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_3 V x0 x1 x2 x3 x4 x5 x6) :
    after ops_p10_3 V (Proc.devRef .tc main_v455) = val_main_v455 (F := F) x1 := by
  simp only [ops_p10_3]
  after_results_w
  simp only [h.main_v449, h.main_v451, h.main_v427]
  rfl

theorem step10_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_3 V x0 x1 x2 x3 x4 x5 x6) : Inv10_4 (after ops_p10_3 V) x0 x1 x2 x3 x4 x5 x6 where
  main_arg0 := (ops_p10_3_keep V main_arg0 (by decide)).trans h.main_arg0
  main_arg1 := (ops_p10_3_keep V main_arg1 (by decide)).trans h.main_arg1
  main_arg2 := (ops_p10_3_keep V main_arg2 (by decide)).trans h.main_arg2
  main_arg3 := (ops_p10_3_keep V main_arg3 (by decide)).trans h.main_arg3
  main_arg4 := (ops_p10_3_keep V main_arg4 (by decide)).trans h.main_arg4
  main_arg5 := (ops_p10_3_keep V main_arg5 (by decide)).trans h.main_arg5
  main_arg6 := (ops_p10_3_keep V main_arg6 (by decide)).trans h.main_arg6
  main_v27 := (ops_p10_3_keep V main_v27 (by decide)).trans h.main_v27
  main_v29 := (ops_p10_3_keep V main_v29 (by decide)).trans h.main_v29
  main_v31 := (ops_p10_3_keep V main_v31 (by decide)).trans h.main_v31
  main_v33 := (ops_p10_3_keep V main_v33 (by decide)).trans h.main_v33
  main_v412 := (ops_p10_3_keep V main_v412 (by decide)).trans h.main_v412
  main_v452 := w10_3_main_v452 V x0 x1 x2 x3 x4 x5 x6 h
  main_v453 := w10_3_main_v453 V x0 x1 x2 x3 x4 x5 x6 h
  main_v455 := w10_3_main_v455 V x0 x1 x2 x3 x4 x5 x6 h

/-- Stretch 4 of window 10: @main's operations 748 … 755. -/
def ops_p10_4 : List (HloOp τ sig (Elt F)) :=
  [ nullary main_c_172 (constantI S_ 32 409600#32),
    unary main_c_172 main_v456 (broadcastInDim S409600 ![] bcast_S_S409600 : (⟨S_, .i32⟩ : BufTy).Contents (Elt F) → (⟨S409600, .i32⟩ : BufTy).Contents (Elt F)),
    binary main_v453 main_v456 main_v457 (addi : (⟨S409600, .i32⟩ : BufTy).Contents (Elt F) → (⟨S409600, .i32⟩ : BufTy).Contents (Elt F) → (⟨S409600, .i32⟩ : BufTy).Contents (Elt F)),
    ternary main_v455 main_v457 main_v453 main_v458 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v458 main_v459 (broadcastInDim S409600x1 ![0] bcast_S409600_S409600x1_0 : (⟨S409600, .i32⟩ : BufTy).Contents (Elt F) → (⟨S409600x1, .i32⟩ : BufTy).Contents (Elt F)),
    binary main_arg0 main_v459 main_v460 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v452 main_v461 (broadcastInDim S409600x1 ![0] bcast_S409600_S409600x1_0 : (⟨S409600, .i1⟩ : BufTy).Contents (Elt F) → (⟨S409600x1, .i1⟩ : BufTy).Contents (Elt F)),
    nullary main_cst_173 (constant S_ .f32 0x00000000#32) ]
abbrev ops_p10_4_W : List (Ref sig .tc) := [main_c_172, main_v456, main_v457, main_v458, main_v459, main_v460, main_v461, main_cst_173]
theorem ops_p10_4_writes : (ops_p10_4 : List (HloOp τ sig (Elt F))).Forall fun op => op.writes ⊆ (ops_p10_4_W.map (Proc.devRef (τ := τ) .tc)).toFinset := by
  simp only [ops_p10_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p10_4_keep (V : Valuation τ sig (Elt F)) (r : Ref sig .tc) (h : r ∉ ops_p10_4_W) :
    after ops_p10_4 V (Proc.devRef .tc r) = V (Proc.devRef .tc r) :=
  after_of_writes_sub ops_p10_4 _ ops_p10_4_writes h

set_option maxRecDepth 8192 in
set_option maxHeartbeats 1000000 in
theorem w10_4_main_v460 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_4 V x0 x1 x2 x3 x4 x5 x6) :
    after ops_p10_4 V (Proc.devRef .tc main_v460) = val_main_v460 (F := F) x0 x1 := by
  simp only [ops_p10_4]
  after_results_w
  simp only [h.main_v453, h.main_v455, h.main_arg0]
  rfl

set_option maxRecDepth 8192 in
set_option maxHeartbeats 1000000 in
theorem w10_4_main_v461 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_4 V x0 x1 x2 x3 x4 x5 x6) :
    after ops_p10_4 V (Proc.devRef .tc main_v461) = val_main_v461 (F := F) x1 := by
  simp only [ops_p10_4]
  after_results_w
  simp only [h.main_v452]
  rfl

set_option maxRecDepth 8192 in
set_option maxHeartbeats 1000000 in
theorem w10_4_main_cst_173 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_4 V x0 x1 x2 x3 x4 x5 x6) :
    after ops_p10_4 V (Proc.devRef .tc main_cst_173) = val_main_cst_173 (F := F) := by
  simp only [ops_p10_4]
  after_results_w
  rfl

theorem step10_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_4 V x0 x1 x2 x3 x4 x5 x6) : Inv10_5 (after ops_p10_4 V) x0 x1 x2 x3 x4 x5 x6 where
  main_arg0 := (ops_p10_4_keep V main_arg0 (by decide)).trans h.main_arg0
  main_arg1 := (ops_p10_4_keep V main_arg1 (by decide)).trans h.main_arg1
  main_arg2 := (ops_p10_4_keep V main_arg2 (by decide)).trans h.main_arg2
  main_arg3 := (ops_p10_4_keep V main_arg3 (by decide)).trans h.main_arg3
  main_arg4 := (ops_p10_4_keep V main_arg4 (by decide)).trans h.main_arg4
  main_arg5 := (ops_p10_4_keep V main_arg5 (by decide)).trans h.main_arg5
  main_arg6 := (ops_p10_4_keep V main_arg6 (by decide)).trans h.main_arg6
  main_v27 := (ops_p10_4_keep V main_v27 (by decide)).trans h.main_v27
  main_v29 := (ops_p10_4_keep V main_v29 (by decide)).trans h.main_v29
  main_v31 := (ops_p10_4_keep V main_v31 (by decide)).trans h.main_v31
  main_v33 := (ops_p10_4_keep V main_v33 (by decide)).trans h.main_v33
  main_v412 := (ops_p10_4_keep V main_v412 (by decide)).trans h.main_v412
  main_v460 := w10_4_main_v460 V x0 x1 x2 x3 x4 x5 x6 h
  main_v461 := w10_4_main_v461 V x0 x1 x2 x3 x4 x5 x6 h
  main_cst_173 := w10_4_main_cst_173 V x0 x1 x2 x3 x4 x5 x6 h

/-- Stretch 5 of window 10: @main's operations 756 … 763. -/
def ops_p10_5 : List (HloOp τ sig (Elt F)) :=
  [ unary main_cst_173 main_call31_v0 (id : (⟨S_, .f32⟩ : BufTy).Contents (Elt F) → (⟨S_, .f32⟩ : BufTy).Contents (Elt F)),
    unary main_v461 main_call31_v1 ((broadcastInDim S409600x64 ![0, 1] bcast_S409600x1_S409600x64_0_1) : (⟨S409600x1, .i1⟩ : BufTy).Contents (Elt F) → (⟨S409600x64, .i1⟩ : BufTy).Contents (Elt F)),
    unary main_call31_v0 main_call31_v2 ((broadcastInDim S409600x64 ![] bcast_S_S409600x64) : (⟨S_, .f32⟩ : BufTy).Contents (Elt F) → (⟨S409600x64, .f32⟩ : BufTy).Contents (Elt F)),
    ternary main_call31_v1 main_v460 main_call31_v2 main_v462 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v463 ((extractStridedSlice S1x1x64x64 ![2, 1, 0, 0] · slices_S3x3x64x64_S1x1x64x64_2_1_0_0) : (⟨S3x3x64x64, .f32⟩ : BufTy).Contents (Elt F) → (⟨S1x1x64x64, .f32⟩ : BufTy).Contents (Elt F)),
    reshape main_v463 main_v464 rfl shapeCasts_S1x1x64x64_S64x64,
    binary main_v462 main_v464 main_v465 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v412 main_v465 main_v466 (addf : (⟨S409600x64, .f32⟩ : BufTy).Contents (Elt F) → (⟨S409600x64, .f32⟩ : BufTy).Contents (Elt F) → (⟨S409600x64, .f32⟩ : BufTy).Contents (Elt F)) ]
abbrev ops_p10_5_W : List (Ref sig .tc) := [main_call31_v0, main_call31_v1, main_call31_v2, main_v462, main_v463, main_v464, main_v465, main_v466]
theorem ops_p10_5_writes : (ops_p10_5 : List (HloOp τ sig (Elt F))).Forall fun op => op.writes ⊆ (ops_p10_5_W.map (Proc.devRef (τ := τ) .tc)).toFinset := by
  simp only [ops_p10_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p10_5_keep (V : Valuation τ sig (Elt F)) (r : Ref sig .tc) (h : r ∉ ops_p10_5_W) :
    after ops_p10_5 V (Proc.devRef .tc r) = V (Proc.devRef .tc r) :=
  after_of_writes_sub ops_p10_5 _ ops_p10_5_writes h

set_option maxRecDepth 8192 in
set_option maxHeartbeats 1000000 in
theorem w10_5_main_v466 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_5 V x0 x1 x2 x3 x4 x5 x6) :
    after ops_p10_5 V (Proc.devRef .tc main_v466) = val_main_v466 (F := F) x0 x1 x2 := by
  simp only [ops_p10_5]
  after_results_w
  simp only [h.main_arg2, h.main_cst_173, h.main_v460, h.main_v461, h.main_v412]
  rfl

theorem step10_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_5 V x0 x1 x2 x3 x4 x5 x6) : Inv10_6 (after ops_p10_5 V) x0 x1 x2 x3 x4 x5 x6 where
  main_arg0 := (ops_p10_5_keep V main_arg0 (by decide)).trans h.main_arg0
  main_arg1 := (ops_p10_5_keep V main_arg1 (by decide)).trans h.main_arg1
  main_arg2 := (ops_p10_5_keep V main_arg2 (by decide)).trans h.main_arg2
  main_arg3 := (ops_p10_5_keep V main_arg3 (by decide)).trans h.main_arg3
  main_arg4 := (ops_p10_5_keep V main_arg4 (by decide)).trans h.main_arg4
  main_arg5 := (ops_p10_5_keep V main_arg5 (by decide)).trans h.main_arg5
  main_arg6 := (ops_p10_5_keep V main_arg6 (by decide)).trans h.main_arg6
  main_v27 := (ops_p10_5_keep V main_v27 (by decide)).trans h.main_v27
  main_v29 := (ops_p10_5_keep V main_v29 (by decide)).trans h.main_v29
  main_v31 := (ops_p10_5_keep V main_v31 (by decide)).trans h.main_v31
  main_v33 := (ops_p10_5_keep V main_v33 (by decide)).trans h.main_v33
  main_v466 := w10_5_main_v466 V x0 x1 x2 x3 x4 x5 x6 h

/-- Stretch 6 of window 10: @main's operations 764 … 771. -/
def ops_p10_6 : List (HloOp τ sig (Elt F)) :=
  [ nullary main_c_174 (constantI S_ 32 1#32),
    unary main_c_174 main_v467 (broadcastInDim S409600 ![] bcast_S_S409600 : (⟨S_, .i32⟩ : BufTy).Contents (Elt F) → (⟨S409600, .i32⟩ : BufTy).Contents (Elt F)),
    binary main_v31 main_v467 main_v468 (addi : (⟨S409600, .i32⟩ : BufTy).Contents (Elt F) → (⟨S409600, .i32⟩ : BufTy).Contents (Elt F) → (⟨S409600, .i32⟩ : BufTy).Contents (Elt F)),
    nullary main_c_175 (constantI S_ 32 1#32),
    unary main_c_175 main_v469 (broadcastInDim S409600 ![] bcast_S_S409600 : (⟨S_, .i32⟩ : BufTy).Contents (Elt F) → (⟨S409600, .i32⟩ : BufTy).Contents (Elt F)),
    binary main_v33 main_v469 main_v470 (addi : (⟨S409600, .i32⟩ : BufTy).Contents (Elt F) → (⟨S409600, .i32⟩ : BufTy).Contents (Elt F) → (⟨S409600, .i32⟩ : BufTy).Contents (Elt F)),
    nullary main_c_176 (constantI S_ 32 0#32),
    unary main_c_176 main_v471 (broadcastInDim S409600 ![] bcast_S_S409600 : (⟨S_, .i32⟩ : BufTy).Contents (Elt F) → (⟨S409600, .i32⟩ : BufTy).Contents (Elt F)) ]
abbrev ops_p10_6_W : List (Ref sig .tc) := [main_c_174, main_v467, main_v468, main_c_175, main_v469, main_v470, main_c_176, main_v471]
theorem ops_p10_6_writes : (ops_p10_6 : List (HloOp τ sig (Elt F))).Forall fun op => op.writes ⊆ (ops_p10_6_W.map (Proc.devRef (τ := τ) .tc)).toFinset := by
  simp only [ops_p10_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p10_6_keep (V : Valuation τ sig (Elt F)) (r : Ref sig .tc) (h : r ∉ ops_p10_6_W) :
    after ops_p10_6 V (Proc.devRef .tc r) = V (Proc.devRef .tc r) :=
  after_of_writes_sub ops_p10_6 _ ops_p10_6_writes h

set_option maxRecDepth 8192 in
set_option maxHeartbeats 1000000 in
theorem w10_6_main_v468 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_6 V x0 x1 x2 x3 x4 x5 x6) :
    after ops_p10_6 V (Proc.devRef .tc main_v468) = val_main_v468 (F := F) x1 := by
  simp only [ops_p10_6]
  after_results_w
  simp only [h.main_v31]
  rfl

set_option maxRecDepth 8192 in
set_option maxHeartbeats 1000000 in
theorem w10_6_main_v470 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_6 V x0 x1 x2 x3 x4 x5 x6) :
    after ops_p10_6 V (Proc.devRef .tc main_v470) = val_main_v470 (F := F) x1 := by
  simp only [ops_p10_6]
  after_results_w
  simp only [h.main_v33]
  rfl

set_option maxRecDepth 8192 in
set_option maxHeartbeats 1000000 in
theorem w10_6_main_v471 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_6 V x0 x1 x2 x3 x4 x5 x6) :
    after ops_p10_6 V (Proc.devRef .tc main_v471) = val_main_v471 (F := F) := by
  simp only [ops_p10_6]
  after_results_w
  rfl

theorem step10_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_6 V x0 x1 x2 x3 x4 x5 x6) : Inv10_7 (after ops_p10_6 V) x0 x1 x2 x3 x4 x5 x6 where
  main_arg0 := (ops_p10_6_keep V main_arg0 (by decide)).trans h.main_arg0
  main_arg1 := (ops_p10_6_keep V main_arg1 (by decide)).trans h.main_arg1
  main_arg2 := (ops_p10_6_keep V main_arg2 (by decide)).trans h.main_arg2
  main_arg3 := (ops_p10_6_keep V main_arg3 (by decide)).trans h.main_arg3
  main_arg4 := (ops_p10_6_keep V main_arg4 (by decide)).trans h.main_arg4
  main_arg5 := (ops_p10_6_keep V main_arg5 (by decide)).trans h.main_arg5
  main_arg6 := (ops_p10_6_keep V main_arg6 (by decide)).trans h.main_arg6
  main_v27 := (ops_p10_6_keep V main_v27 (by decide)).trans h.main_v27
  main_v29 := (ops_p10_6_keep V main_v29 (by decide)).trans h.main_v29
  main_v466 := (ops_p10_6_keep V main_v466 (by decide)).trans h.main_v466
  main_v468 := w10_6_main_v468 V x0 x1 x2 x3 x4 x5 x6 h
  main_v470 := w10_6_main_v470 V x0 x1 x2 x3 x4 x5 x6 h
  main_v471 := w10_6_main_v471 V x0 x1 x2 x3 x4 x5 x6 h

/-- Stretch 7 of window 10: @main's operations 772 … 780. -/
def ops_p10_7 : List (HloOp τ sig (Elt F)) :=
  [ binary main_v468 main_v471 main_v472 (cmpi .sge : (⟨S409600, .i32⟩ : BufTy).Contents (Elt F) → (⟨S409600, .i32⟩ : BufTy).Contents (Elt F) → (⟨S409600, .i1⟩ : BufTy).Contents (Elt F)),
    nullary main_c_177 (constantI S_ 32 640#32),
    unary main_c_177 main_v473 (broadcastInDim S409600 ![] bcast_S_S409600 : (⟨S_, .i32⟩ : BufTy).Contents (Elt F) → (⟨S409600, .i32⟩ : BufTy).Contents (Elt F)),
    binary main_v468 main_v473 main_v474 (cmpi .slt : (⟨S409600, .i32⟩ : BufTy).Contents (Elt F) → (⟨S409600, .i32⟩ : BufTy).Contents (Elt F) → (⟨S409600, .i1⟩ : BufTy).Contents (Elt F)),
    binary main_v472 main_v474 main_v475 (andi : (⟨S409600, .i1⟩ : BufTy).Contents (Elt F) → (⟨S409600, .i1⟩ : BufTy).Contents (Elt F) → (⟨S409600, .i1⟩ : BufTy).Contents (Elt F)),
    nullary main_c_178 (constantI S_ 32 0#32),
    unary main_c_178 main_v476 (broadcastInDim S409600 ![] bcast_S_S409600 : (⟨S_, .i32⟩ : BufTy).Contents (Elt F) → (⟨S409600, .i32⟩ : BufTy).Contents (Elt F)),
    binary main_v470 main_v476 main_v477 (cmpi .sge : (⟨S409600, .i32⟩ : BufTy).Contents (Elt F) → (⟨S409600, .i32⟩ : BufTy).Contents (Elt F) → (⟨S409600, .i1⟩ : BufTy).Contents (Elt F)),
    binary main_v475 main_v477 main_v478 (andi : (⟨S409600, .i1⟩ : BufTy).Contents (Elt F) → (⟨S409600, .i1⟩ : BufTy).Contents (Elt F) → (⟨S409600, .i1⟩ : BufTy).Contents (Elt F)) ]
abbrev ops_p10_7_W : List (Ref sig .tc) := [main_v472, main_c_177, main_v473, main_v474, main_v475, main_c_178, main_v476, main_v477, main_v478]
theorem ops_p10_7_writes : (ops_p10_7 : List (HloOp τ sig (Elt F))).Forall fun op => op.writes ⊆ (ops_p10_7_W.map (Proc.devRef (τ := τ) .tc)).toFinset := by
  simp only [ops_p10_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p10_7_keep (V : Valuation τ sig (Elt F)) (r : Ref sig .tc) (h : r ∉ ops_p10_7_W) :
    after ops_p10_7 V (Proc.devRef .tc r) = V (Proc.devRef .tc r) :=
  after_of_writes_sub ops_p10_7 _ ops_p10_7_writes h

set_option maxRecDepth 8192 in
set_option maxHeartbeats 1000000 in
theorem w10_7_main_v478 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_7 V x0 x1 x2 x3 x4 x5 x6) :
    after ops_p10_7 V (Proc.devRef .tc main_v478) = val_main_v478 (F := F) x1 := by
  simp only [ops_p10_7]
  after_results_w
  simp only [h.main_v470, h.main_v468, h.main_v471]
  rfl

theorem step10_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10_7 V x0 x1 x2 x3 x4 x5 x6) : Inv11 (after ops_p10_7 V) x0 x1 x2 x3 x4 x5 x6 where
  main_arg0 := (ops_p10_7_keep V main_arg0 (by decide)).trans h.main_arg0
  main_arg1 := (ops_p10_7_keep V main_arg1 (by decide)).trans h.main_arg1
  main_arg2 := (ops_p10_7_keep V main_arg2 (by decide)).trans h.main_arg2
  main_arg3 := (ops_p10_7_keep V main_arg3 (by decide)).trans h.main_arg3
  main_arg4 := (ops_p10_7_keep V main_arg4 (by decide)).trans h.main_arg4
  main_arg5 := (ops_p10_7_keep V main_arg5 (by decide)).trans h.main_arg5
  main_arg6 := (ops_p10_7_keep V main_arg6 (by decide)).trans h.main_arg6
  main_v27 := (ops_p10_7_keep V main_v27 (by decide)).trans h.main_v27
  main_v29 := (ops_p10_7_keep V main_v29 (by decide)).trans h.main_v29
  main_v466 := (ops_p10_7_keep V main_v466 (by decide)).trans h.main_v466
  main_v468 := (ops_p10_7_keep V main_v468 (by decide)).trans h.main_v468
  main_v470 := (ops_p10_7_keep V main_v470 (by decide)).trans h.main_v470
  main_v478 := w10_7_main_v478 V x0 x1 x2 x3 x4 x5 x6 h

set_option maxRecDepth 8192 in
theorem ops_p10_split : (ops_p10 : List (HloOp τ sig (Elt F))) = ops_p10_0 ++ (ops_p10_1 ++ (ops_p10_2 ++ (ops_p10_3 ++ (ops_p10_4 ++ (ops_p10_5 ++ (ops_p10_6 ++ (ops_p10_7))))))) := rfl

/-- Window 10 carries the staged reading from boundary 10 to boundary 11. -/
theorem step10 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv10 V x0 x1 x2 x3 x4 x5 x6) : Inv11 (after ops_p10 V) x0 x1 x2 x3 x4 x5 x6 := by
  rw [ops_p10_split]; simp only [after_app]
  exact step10_7 _ x0 x1 x2 x3 x4 x5 x6 (step10_6 _ x0 x1 x2 x3 x4 x5 x6 (step10_5 _ x0 x1 x2 x3 x4 x5 x6 (step10_4 _ x0 x1 x2 x3 x4 x5 x6 (step10_3 _ x0 x1 x2 x3 x4 x5 x6 (step10_2 _ x0 x1 x2 x3 x4 x5 x6 (step10_1 _ x0 x1 x2 x3 x4 x5 x6 (step10_0 V x0 x1 x2 x3 x4 x5 x6 h)))))))

end Cert.ReferenceIdeal.Hand

end
-- ==== Proof.Ref.W11.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 11 of @main: its operations 781 … 855 of 1688, in order. -/
def ops_p11 : List (HloOp τ sig (Elt F)) :=
  [ nullary main_c_179 (constantI S_ 32 640#32),
    unary main_c_179 main_v479 (broadcastInDim S409600 ![] bcast_S_S409600 : (⟨S_, .i32⟩ : BufTy).Contents (Elt F) → (⟨S409600, .i32⟩ : BufTy).Contents (Elt F)),
    binary main_v470 main_v479 main_v480 (cmpi .slt : (⟨S409600, .i32⟩ : BufTy).Contents (Elt F) → (⟨S409600, .i32⟩ : BufTy).Contents (Elt F) → (⟨S409600, .i1⟩ : BufTy).Contents (Elt F)),
    binary main_v478 main_v480 main_v481 (andi : (⟨S409600, .i1⟩ : BufTy).Contents (Elt F) → (⟨S409600, .i1⟩ : BufTy).Contents (Elt F) → (⟨S409600, .i1⟩ : BufTy).Contents (Elt F)),
    nullary main_c_180 (constantI S_ 32 0#32),
    nullary main_c_181 (constantI S_ 32 639#32),
    unary main_c_180 main_call32_v0 (id : (⟨S_, .i32⟩ : BufTy).Contents (Elt F) → (⟨S_, .i32⟩ : BufTy).Contents (Elt F)),
    unary main_call32_v0 main_call32_v1 ((broadcastInDim S409600 ![] bcast_S_S409600) : (⟨S_, .i32⟩ : BufTy).Contents (Elt F) → (⟨S409600, .i32⟩ : BufTy).Contents (Elt F)),
    binary main_call32_v1 main_v468 main_call32_v2 (maxsi : (⟨S409600, .i32⟩ : BufTy).Contents (Elt F) → (⟨S409600, .i32⟩ : BufTy).Contents (Elt F) → (⟨S409600, .i32⟩ : BufTy).Contents (Elt F)),
    unary main_c_181 main_call32_v3 (id : (⟨S_, .i32⟩ : BufTy).Contents (Elt F) → (⟨S_, .i32⟩ : BufTy).Contents (Elt F)),
    unary main_call32_v3 main_call32_v4 ((broadcastInDim S409600 ![] bcast_S_S409600) : (⟨S_, .i32⟩ : BufTy).Contents (Elt F) → (⟨S409600, .i32⟩ : BufTy).Contents (Elt F)),
    binary main_call32_v4 main_call32_v2 main_v482 (minsi : (⟨S409600, .i32⟩ : BufTy).Contents (Elt F) → (⟨S409600, .i32⟩ : BufTy).Contents (Elt F) → (⟨S409600, .i32⟩ : BufTy).Contents (Elt F)),
    nullary main_c_182 (constantI S_ 32 0#32),
    nullary main_c_183 (constantI S_ 32 639#32),
    unary main_c_182 main_call33_v0 (id : (⟨S_, .i32⟩ : BufTy).Contents (Elt F) → (⟨S_, .i32⟩ : BufTy).Contents (Elt F)),
    unary main_call33_v0 main_call33_v1 ((broadcastInDim S409600 ![] bcast_S_S409600) : (⟨S_, .i32⟩ : BufTy).Contents (Elt F) → (⟨S409600, .i32⟩ : BufTy).Contents (Elt F)),
    binary main_call33_v1 main_v470 main_call33_v2 (maxsi : (⟨S409600, .i32⟩ : BufTy).Contents (Elt F) → (⟨S409600, .i32⟩ : BufTy).Contents (Elt F) → (⟨S409600, .i32⟩ : BufTy).Contents (Elt F)),
    unary main_c_183 main_call33_v3 (id : (⟨S_, .i32⟩ : BufTy).Contents (Elt F) → (⟨S_, .i32⟩ : BufTy).Contents (Elt F)),
    unary main_call33_v3 main_call33_v4 ((broadcastInDim S409600 ![] bcast_S_S409600) : (⟨S_, .i32⟩ : BufTy).Contents (Elt F) → (⟨S409600, .i32⟩ : BufTy).Contents (Elt F)),
    binary main_call33_v4 main_call33_v2 main_v483 (minsi : (⟨S409600, .i32⟩ : BufTy).Contents (Elt F) → (⟨S409600, .i32⟩ : BufTy).Contents (Elt F) → (⟨S409600, .i32⟩ : BufTy).Contents (Elt F)),
    nullary main_c_184 (constantI S_ 32 0#32),
    unary main_c_184 main_v484 (broadcastInDim S409600 ![] bcast_S_S409600 : (⟨S_, .i32⟩ : BufTy).Contents (Elt F) → (⟨S409600, .i32⟩ : BufTy).Contents (Elt F)),
    binary main_v29 main_v484 main_v485 (cmpi .slt : (⟨S409600, .i32⟩ : BufTy).Contents (Elt F) → (⟨S409600, .i32⟩ : BufTy).Contents (Elt F) → (⟨S409600, .i1⟩ : BufTy).Contents (Elt F)),
    nullary main_c_185 (constantI S_ 32 2#32),
    unary main_c_185 main_v486 (broadcastInDim S409600 ![] bcast_S_S409600 : (⟨S_, .i32⟩ : BufTy).Contents (Elt F) → (⟨S409600, .i32⟩ : BufTy).Contents (Elt F)),
    binary main_v29 main_v486 main_v487 (addi : (⟨S409600, .i32⟩ : BufTy).Contents (Elt F) → (⟨S409600, .i32⟩ : BufTy).Contents (Elt F) → (⟨S409600, .i32⟩ : BufTy).Contents (Elt F)),
    ternary main_v485 main_v487 main_v29 main_v488 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_186 (constantI S_ 32 0#32),
    unary main_c_186 main_v489 (broadcastInDim S409600 ![] bcast_S_S409600 : (⟨S_, .i32⟩ : BufTy).Contents (Elt F) → (⟨S409600, .i32⟩ : BufTy).Contents (Elt F)),
    binary main_v482 main_v489 main_v490 (cmpi .slt : (⟨S409600, .i32⟩ : BufTy).Contents (Elt F) → (⟨S409600, .i32⟩ : BufTy).Contents (Elt F) → (⟨S409600, .i1⟩ : BufTy).Contents (Elt F)),
    nullary main_c_187 (constantI S_ 32 640#32),
    unary main_c_187 main_v491 (broadcastInDim S409600 ![] bcast_S_S409600 : (⟨S_, .i32⟩ : BufTy).Contents (Elt F) → (⟨S409600, .i32⟩ : BufTy).Contents (Elt F)),
    binary main_v482 main_v491 main_v492 (addi : (⟨S409600, .i32⟩ : BufTy).Contents (Elt F) → (⟨S409600, .i32⟩ : BufTy).Contents (Elt F) → (⟨S409600, .i32⟩ : BufTy).Contents (Elt F)),
    ternary main_v490 main_v492 main_v482 main_v493 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_188 (constantI S_ 32 0#32),
    unary main_c_188 main_v494 (broadcastInDim S409600 ![] bcast_S_S409600 : (⟨S_, .i32⟩ : BufTy).Contents (Elt F) → (⟨S409600, .i32⟩ : BufTy).Contents (Elt F)),
    binary main_v483 main_v494 main_v495 (cmpi .slt : (⟨S409600, .i32⟩ : BufTy).Contents (Elt F) → (⟨S409600, .i32⟩ : BufTy).Contents (Elt F) → (⟨S409600, .i1⟩ : BufTy).Contents (Elt F)),
    nullary main_c_189 (constantI S_ 32 640#32),
    unary main_c_189 main_v496 (broadcastInDim S409600 ![] bcast_S_S409600 : (⟨S_, .i32⟩ : BufTy).Contents (Elt F) → (⟨S409600, .i32⟩ : BufTy).Contents (Elt F)),
    binary main_v483 main_v496 main_v497 (addi : (⟨S409600, .i32⟩ : BufTy).Contents (Elt F) → (⟨S409600, .i32⟩ : BufTy).Contents (Elt F) → (⟨S409600, .i32⟩ : BufTy).Contents (Elt F)),
    ternary main_v495 main_v497 main_v483 main_v498 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v488 main_v499 (broadcastInDim S409600x1 ![0] bcast_S409600_S409600x1_0 : (⟨S409600, .i32⟩ : BufTy).Contents (Elt F) → (⟨S409600x1, .i32⟩ : BufTy).Contents (Elt F)),
    unary main_v493 main_v500 (broadcastInDim S409600x1 ![0] bcast_S409600_S409600x1_0 : (⟨S409600, .i32⟩ : BufTy).Contents (Elt F) → (⟨S409600x1, .i32⟩ : BufTy).Contents (Elt F)),
    unary main_v498 main_v501 (broadcastInDim S409600x1 ![0] bcast_S409600_S409600x1_0 : (⟨S409600, .i32⟩ : BufTy).Contents (Elt F) → (⟨S409600x1, .i32⟩ : BufTy).Contents (Elt F)),
    nary ![main_v499, main_v500, main_v501] main_v502 (fun u => concatenate S409600x3 1 [⟨S409600x1, u 0⟩, ⟨S409600x1, u 1⟩, ⟨S409600x1, u 2⟩] concatenates_S409600x1_S409600x1_S409600x1_S409600x3_d1),
    binary main_v27 main_v502 main_v503 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_190 (constantI S_ 32 0#32),
    unary main_c_190 main_v504 (broadcastInDim S409600 ![] bcast_S_S409600 : (⟨S_, .i32⟩ : BufTy).Contents (Elt F) → (⟨S409600, .i32⟩ : BufTy).Contents (Elt F)),
    binary main_v503 main_v504 main_v505 (cmpi .sge : (⟨S409600, .i32⟩ : BufTy).Contents (Elt F) → (⟨S409600, .i32⟩ : BufTy).Contents (Elt F) → (⟨S409600, .i1⟩ : BufTy).Contents (Elt F)),
    binary main_v481 main_v505 main_v506 (andi : (⟨S409600, .i1⟩ : BufTy).Contents (Elt F) → (⟨S409600, .i1⟩ : BufTy).Contents (Elt F) → (⟨S409600, .i1⟩ : BufTy).Contents (Elt F)),
    nullary main_c_191 (constantI S_ 32 0#32),
    unary main_c_191 main_call34_v0 (id : (⟨S_, .i32⟩ : BufTy).Contents (Elt F) → (⟨S_, .i32⟩ : BufTy).Contents (Elt F)),
    unary main_call34_v0 main_call34_v1 ((broadcastInDim S409600 ![] bcast_S_S409600) : (⟨S_, .i32⟩ : BufTy).Contents (Elt F) → (⟨S409600, .i32⟩ : BufTy).Contents (Elt F)),
    ternary main_v506 main_v503 main_call34_v1 main_v507 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_192 (constantI S_ 32 0#32),
    unary main_c_192 main_v508 (broadcastInDim S409600 ![] bcast_S_S409600 : (⟨S_, .i32⟩ : BufTy).Contents (Elt F) → (⟨S409600, .i32⟩ : BufTy).Contents (Elt F)),
    binary main_v507 main_v508 main_v509 (cmpi .slt : (⟨S409600, .i32⟩ : BufTy).Contents (Elt F) → (⟨S409600, .i32⟩ : BufTy).Contents (Elt F) → (⟨S409600, .i1⟩ : BufTy).Contents (Elt F)),
    nullary main_c_193 (constantI S_ 32 409600#32),
    unary main_c_193 main_v510 (broadcastInDim S409600 ![] bcast_S_S409600 : (⟨S_, .i32⟩ : BufTy).Contents (Elt F) → (⟨S409600, .i32⟩ : BufTy).Contents (Elt F)),
    binary main_v507 main_v510 main_v511 (addi : (⟨S409600, .i32⟩ : BufTy).Contents (Elt F) → (⟨S409600, .i32⟩ : BufTy).Contents (Elt F) → (⟨S409600, .i32⟩ : BufTy).Contents (Elt F)),
    ternary main_v509 main_v511 main_v507 main_v512 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v512 main_v513 (broadcastInDim S409600x1 ![0] bcast_S409600_S409600x1_0 : (⟨S409600, .i32⟩ : BufTy).Contents (Elt F) → (⟨S409600x1, .i32⟩ : BufTy).Contents (Elt F)),
    binary main_arg0 main_v513 main_v514 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v506 main_v515 (broadcastInDim S409600x1 ![0] bcast_S409600_S409600x1_0 : (⟨S409600, .i1⟩ : BufTy).Contents (Elt F) → (⟨S409600x1, .i1⟩ : BufTy).Contents (Elt F)),
    nullary main_cst_194 (constant S_ .f32 0x00000000#32),
    unary main_cst_194 main_call35_v0 (id : (⟨S_, .f32⟩ : BufTy).Contents (Elt F) → (⟨S_, .f32⟩ : BufTy).Contents (Elt F)),
    unary main_v515 main_call35_v1 ((broadcastInDim S409600x64 ![0, 1] bcast_S409600x1_S409600x64_0_1) : (⟨S409600x1, .i1⟩ : BufTy).Contents (Elt F) → (⟨S409600x64, .i1⟩ : BufTy).Contents (Elt F)),
    unary main_call35_v0 main_call35_v2 ((broadcastInDim S409600x64 ![] bcast_S_S409600x64) : (⟨S_, .f32⟩ : BufTy).Contents (Elt F) → (⟨S409600x64, .f32⟩ : BufTy).Contents (Elt F)),
    ternary main_call35_v1 main_v514 main_call35_v2 main_v516 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v517 ((extractStridedSlice S1x1x64x64 ![2, 2, 0, 0] · slices_S3x3x64x64_S1x1x64x64_2_2_0_0) : (⟨S3x3x64x64, .f32⟩ : BufTy).Contents (Elt F) → (⟨S1x1x64x64, .f32⟩ : BufTy).Contents (Elt F)),
    reshape main_v517 main_v518 rfl shapeCasts_S1x1x64x64_S64x64,
    binary main_v516 main_v518 main_v519 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v466 main_v519 main_v520 (addf : (⟨S409600x64, .f32⟩ : BufTy).Contents (Elt F) → (⟨S409600x64, .f32⟩ : BufTy).Contents (Elt F) → (⟨S409600x64, .f32⟩ : BufTy).Contents (Elt F)),
    unary main_arg3 main_v521 (broadcastInDim S1x64 ![1] bcast_S64_S1x64_1 : (⟨S64, .f32⟩ : BufTy).Contents (Elt F) → (⟨S1x64, .f32⟩ : BufTy).Contents (Elt F)),
    unary main_v521 main_v522 (broadcastInDim S409600x64 ![0, 1] bcast_S1x64_S409600x64_0_1 : (⟨S1x64, .f32⟩ : BufTy).Contents (Elt F) → (⟨S409600x64, .f32⟩ : BufTy).Contents (Elt F)) ]

set_option maxRecDepth 8192 in
set_option maxHeartbeats 4000000 in
theorem main_part11_eq (c : Dev nD) : main_part11 (F := F) c = seq ops_p11 := by
  simp only [main_part11, ops_p11, fn_clip.body, fn_where.body, fn_where_0.body, fn_relu.body, seq, bind_assoc, pure_bind]
  rfl

set_option maxRecDepth 8192 in
theorem ops_p11_sub : (ops_p11 : List (HloOp τ sig (Elt F))).Forall fun op => op.bufs ⊆ tcRefs τ sig :=
  ⟨nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., unary_bufs_sub .., unary_bufs_sub ..⟩

set_option maxRecDepth 8192 in
theorem ops_p11_fresh : ∀ op ∈ (ops_p11 : List (HloOp τ sig (Elt F))), op.fresh = ∅ := by
  unfold ops_p11; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 789 on hold before it. -/
structure Inv11_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v466 : V (Proc.devRef .tc main_v466) = val_main_v466 (F := F) x0 x1 x2
  main_v468 : V (Proc.devRef .tc main_v468) = val_main_v468 (F := F) x1
  main_v470 : V (Proc.devRef .tc main_v470) = val_main_v470 (F := F) x1
  main_v481 : V (Proc.devRef .tc main_v481) = val_main_v481 (F := F) x1
  main_c_181 : V (Proc.devRef .tc main_c_181) = val_main_c_181 (F := F)
  main_call32_v1 : V (Proc.devRef .tc main_call32_v1) = val_main_call32_v1 (F := F)

/-- What the buffers read from operation 797 on hold before it. -/
structure Inv11_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v466 : V (Proc.devRef .tc main_v466) = val_main_v466 (F := F) x0 x1 x2
  main_v470 : V (Proc.devRef .tc main_v470) = val_main_v470 (F := F) x1
  main_v481 : V (Proc.devRef .tc main_v481) = val_main_v481 (F := F) x1
  main_v482 : V (Proc.devRef .tc main_v482) = val_main_v482 (F := F) x1
  main_c_183 : V (Proc.devRef .tc main_c_183) = val_main_c_183 (F := F)
  main_call33_v1 : V (Proc.devRef .tc main_call33_v1) = val_main_call33_v1 (F := F)

/-- What the buffers read from operation 805 on hold before it. -/
structure Inv11_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v29 : V (Proc.devRef .tc main_v29) = val_main_v29 (F := F) x1
  main_v466 : V (Proc.devRef .tc main_v466) = val_main_v466 (F := F) x0 x1 x2
  main_v481 : V (Proc.devRef .tc main_v481) = val_main_v481 (F := F) x1
  main_v482 : V (Proc.devRef .tc main_v482) = val_main_v482 (F := F) x1
  main_v483 : V (Proc.devRef .tc main_v483) = val_main_v483 (F := F) x1
  main_v485 : V (Proc.devRef .tc main_v485) = val_main_v485 (F := F) x1
  main_c_185 : V (Proc.devRef .tc main_c_185) = val_main_c_185 (F := F)

/-- What the buffers read from operation 813 on hold before it. -/
structure Inv11_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v466 : V (Proc.devRef .tc main_v466) = val_main_v466 (F := F) x0 x1 x2
  main_v481 : V (Proc.devRef .tc main_v481) = val_main_v481 (F := F) x1
  main_v482 : V (Proc.devRef .tc main_v482) = val_main_v482 (F := F) x1
  main_v483 : V (Proc.devRef .tc main_v483) = val_main_v483 (F := F) x1
  main_v488 : V (Proc.devRef .tc main_v488) = val_main_v488 (F := F) x1
  main_v490 : V (Proc.devRef .tc main_v490) = val_main_v490 (F := F) x1
  main_v491 : V (Proc.devRef .tc main_v491) = val_main_v491 (F := F)

/-- What the buffers read from operation 821 on hold before it. -/
structure Inv11_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v466 : V (Proc.devRef .tc main_v466) = val_main_v466 (F := F) x0 x1 x2
  main_v481 : V (Proc.devRef .tc main_v481) = val_main_v481 (F := F) x1
  main_v483 : V (Proc.devRef .tc main_v483) = val_main_v483 (F := F) x1
  main_v488 : V (Proc.devRef .tc main_v488) = val_main_v488 (F := F) x1
  main_v493 : V (Proc.devRef .tc main_v493) = val_main_v493 (F := F) x1
  main_v495 : V (Proc.devRef .tc main_v495) = val_main_v495 (F := F) x1
  main_v497 : V (Proc.devRef .tc main_v497) = val_main_v497 (F := F) x1

/-- What the buffers read from operation 829 on hold before it. -/
structure Inv11_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v466 : V (Proc.devRef .tc main_v466) = val_main_v466 (F := F) x0 x1 x2
  main_v481 : V (Proc.devRef .tc main_v481) = val_main_v481 (F := F) x1
  main_v503 : V (Proc.devRef .tc main_v503) = val_main_v503 (F := F) x1
  main_v504 : V (Proc.devRef .tc main_v504) = val_main_v504 (F := F)

/-- What the buffers read from operation 837 on hold before it. -/
structure Inv11_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v466 : V (Proc.devRef .tc main_v466) = val_main_v466 (F := F) x0 x1 x2
  main_v506 : V (Proc.devRef .tc main_v506) = val_main_v506 (F := F) x1
  main_v507 : V (Proc.devRef .tc main_v507) = val_main_v507 (F := F) x1
  main_v508 : V (Proc.devRef .tc main_v508) = val_main_v508 (F := F)

/-- What the buffers read from operation 845 on hold before it. -/
structure Inv11_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v466 : V (Proc.devRef .tc main_v466) = val_main_v466 (F := F) x0 x1 x2
  main_v514 : V (Proc.devRef .tc main_v514) = val_main_v514 (F := F) x0 x1
  main_v515 : V (Proc.devRef .tc main_v515) = val_main_v515 (F := F) x1

/-- What the buffers read from operation 853 on hold before it. -/
structure Inv11_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v466 : V (Proc.devRef .tc main_v466) = val_main_v466 (F := F) x0 x1 x2
  main_v519 : V (Proc.devRef .tc main_v519) = val_main_v519 (F := F) x0 x1 x2

/-- Stretch 0 of window 11: @main's operations 781 … 788. -/
def ops_p11_0 : List (HloOp τ sig (Elt F)) :=
  [ nullary main_c_179 (constantI S_ 32 640#32),
    unary main_c_179 main_v479 (broadcastInDim S409600 ![] bcast_S_S409600 : (⟨S_, .i32⟩ : BufTy).Contents (Elt F) → (⟨S409600, .i32⟩ : BufTy).Contents (Elt F)),
    binary main_v470 main_v479 main_v480 (cmpi .slt : (⟨S409600, .i32⟩ : BufTy).Contents (Elt F) → (⟨S409600, .i32⟩ : BufTy).Contents (Elt F) → (⟨S409600, .i1⟩ : BufTy).Contents (Elt F)),
    binary main_v478 main_v480 main_v481 (andi : (⟨S409600, .i1⟩ : BufTy).Contents (Elt F) → (⟨S409600, .i1⟩ : BufTy).Contents (Elt F) → (⟨S409600, .i1⟩ : BufTy).Contents (Elt F)),
    nullary main_c_180 (constantI S_ 32 0#32),
    nullary main_c_181 (constantI S_ 32 639#32),
    unary main_c_180 main_call32_v0 (id : (⟨S_, .i32⟩ : BufTy).Contents (Elt F) → (⟨S_, .i32⟩ : BufTy).Contents (Elt F)),
    unary main_call32_v0 main_call32_v1 ((broadcastInDim S409600 ![] bcast_S_S409600) : (⟨S_, .i32⟩ : BufTy).Contents (Elt F) → (⟨S409600, .i32⟩ : BufTy).Contents (Elt F)) ]
abbrev ops_p11_0_W : List (Ref sig .tc) := [main_c_179, main_v479, main_v480, main_v481, main_c_180, main_c_181, main_call32_v0, main_call32_v1]
theorem ops_p11_0_writes : (ops_p11_0 : List (HloOp τ sig (Elt F))).Forall fun op => op.writes ⊆ (ops_p11_0_W.map (Proc.devRef (τ := τ) .tc)).toFinset := by
  simp only [ops_p11_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p11_0_keep (V : Valuation τ sig (Elt F)) (r : Ref sig .tc) (h : r ∉ ops_p11_0_W) :
    after ops_p11_0 V (Proc.devRef .tc r) = V (Proc.devRef .tc r) :=
  after_of_writes_sub ops_p11_0 _ ops_p11_0_writes h

set_option maxRecDepth 8192 in
set_option maxHeartbeats 1000000 in
theorem w11_0_main_v481 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11 V x0 x1 x2 x3 x4 x5 x6) :
    after ops_p11_0 V (Proc.devRef .tc main_v481) = val_main_v481 (F := F) x1 := by
  simp only [ops_p11_0]
  after_results_w
  simp only [h.main_v470, h.main_v478]
  rfl

set_option maxRecDepth 8192 in
set_option maxHeartbeats 1000000 in
theorem w11_0_main_c_181 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11 V x0 x1 x2 x3 x4 x5 x6) :
    after ops_p11_0 V (Proc.devRef .tc main_c_181) = val_main_c_181 (F := F) := by
  simp only [ops_p11_0]
  after_results_w
  rfl

set_option maxRecDepth 8192 in
set_option maxHeartbeats 1000000 in
theorem w11_0_main_call32_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11 V x0 x1 x2 x3 x4 x5 x6) :
    after ops_p11_0 V (Proc.devRef .tc main_call32_v1) = val_main_call32_v1 (F := F) := by
  simp only [ops_p11_0]
  after_results_w
  rfl

theorem step11_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11 V x0 x1 x2 x3 x4 x5 x6) : Inv11_1 (after ops_p11_0 V) x0 x1 x2 x3 x4 x5 x6 where
  main_arg0 := (ops_p11_0_keep V main_arg0 (by decide)).trans h.main_arg0
  main_arg1 := (ops_p11_0_keep V main_arg1 (by decide)).trans h.main_arg1
  main_arg2 := (ops_p11_0_keep V main_arg2 (by decide)).trans h.main_arg2
  main_arg3 := (ops_p11_0_keep V main_arg3 (by decide)).trans h.main_arg3
  main_arg4 := (ops_p11_0_keep V main_arg4 (by decide)).trans h.main_arg4
  main_arg5 := (ops_p11_0_keep V main_arg5 (by decide)).trans h.main_arg5
  main_arg6 := (ops_p11_0_keep V main_arg6 (by decide)).trans h.main_arg6
  main_v27 := (ops_p11_0_keep V main_v27 (by decide)).trans h.main_v27
  main_v29 := (ops_p11_0_keep V main_v29 (by decide)).trans h.main_v29
  main_v466 := (ops_p11_0_keep V main_v466 (by decide)).trans h.main_v466
  main_v468 := (ops_p11_0_keep V main_v468 (by decide)).trans h.main_v468
  main_v470 := (ops_p11_0_keep V main_v470 (by decide)).trans h.main_v470
  main_v481 := w11_0_main_v481 V x0 x1 x2 x3 x4 x5 x6 h
  main_c_181 := w11_0_main_c_181 V x0 x1 x2 x3 x4 x5 x6 h
  main_call32_v1 := w11_0_main_call32_v1 V x0 x1 x2 x3 x4 x5 x6 h

/-- Stretch 1 of window 11: @main's operations 789 … 796. -/
def ops_p11_1 : List (HloOp τ sig (Elt F)) :=
  [ binary main_call32_v1 main_v468 main_call32_v2 (maxsi : (⟨S409600, .i32⟩ : BufTy).Contents (Elt F) → (⟨S409600, .i32⟩ : BufTy).Contents (Elt F) → (⟨S409600, .i32⟩ : BufTy).Contents (Elt F)),
    unary main_c_181 main_call32_v3 (id : (⟨S_, .i32⟩ : BufTy).Contents (Elt F) → (⟨S_, .i32⟩ : BufTy).Contents (Elt F)),
    unary main_call32_v3 main_call32_v4 ((broadcastInDim S409600 ![] bcast_S_S409600) : (⟨S_, .i32⟩ : BufTy).Contents (Elt F) → (⟨S409600, .i32⟩ : BufTy).Contents (Elt F)),
    binary main_call32_v4 main_call32_v2 main_v482 (minsi : (⟨S409600, .i32⟩ : BufTy).Contents (Elt F) → (⟨S409600, .i32⟩ : BufTy).Contents (Elt F) → (⟨S409600, .i32⟩ : BufTy).Contents (Elt F)),
    nullary main_c_182 (constantI S_ 32 0#32),
    nullary main_c_183 (constantI S_ 32 639#32),
    unary main_c_182 main_call33_v0 (id : (⟨S_, .i32⟩ : BufTy).Contents (Elt F) → (⟨S_, .i32⟩ : BufTy).Contents (Elt F)),
    unary main_call33_v0 main_call33_v1 ((broadcastInDim S409600 ![] bcast_S_S409600) : (⟨S_, .i32⟩ : BufTy).Contents (Elt F) → (⟨S409600, .i32⟩ : BufTy).Contents (Elt F)) ]
abbrev ops_p11_1_W : List (Ref sig .tc) := [main_call32_v2, main_call32_v3, main_call32_v4, main_v482, main_c_182, main_c_183, main_call33_v0, main_call33_v1]
theorem ops_p11_1_writes : (ops_p11_1 : List (HloOp τ sig (Elt F))).Forall fun op => op.writes ⊆ (ops_p11_1_W.map (Proc.devRef (τ := τ) .tc)).toFinset := by
  simp only [ops_p11_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p11_1_keep (V : Valuation τ sig (Elt F)) (r : Ref sig .tc) (h : r ∉ ops_p11_1_W) :
    after ops_p11_1 V (Proc.devRef .tc r) = V (Proc.devRef .tc r) :=
  after_of_writes_sub ops_p11_1 _ ops_p11_1_writes h

set_option maxRecDepth 8192 in
set_option maxHeartbeats 1000000 in
theorem w11_1_main_v482 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_1 V x0 x1 x2 x3 x4 x5 x6) :
    after ops_p11_1 V (Proc.devRef .tc main_v482) = val_main_v482 (F := F) x1 := by
  simp only [ops_p11_1]
  after_results_w
  simp only [h.main_v468, h.main_call32_v1, h.main_c_181]
  rfl

set_option maxRecDepth 8192 in
set_option maxHeartbeats 1000000 in
theorem w11_1_main_c_183 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_1 V x0 x1 x2 x3 x4 x5 x6) :
    after ops_p11_1 V (Proc.devRef .tc main_c_183) = val_main_c_183 (F := F) := by
  simp only [ops_p11_1]
  after_results_w
  rfl

set_option maxRecDepth 8192 in
set_option maxHeartbeats 1000000 in
theorem w11_1_main_call33_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_1 V x0 x1 x2 x3 x4 x5 x6) :
    after ops_p11_1 V (Proc.devRef .tc main_call33_v1) = val_main_call33_v1 (F := F) := by
  simp only [ops_p11_1]
  after_results_w
  rfl

theorem step11_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_1 V x0 x1 x2 x3 x4 x5 x6) : Inv11_2 (after ops_p11_1 V) x0 x1 x2 x3 x4 x5 x6 where
  main_arg0 := (ops_p11_1_keep V main_arg0 (by decide)).trans h.main_arg0
  main_arg1 := (ops_p11_1_keep V main_arg1 (by decide)).trans h.main_arg1
  main_arg2 := (ops_p11_1_keep V main_arg2 (by decide)).trans h.main_arg2
  main_arg3 := (ops_p11_1_keep V main_arg3 (by decide)).trans h.main_arg3
  main_arg4 := (ops_p11_1_keep V main_arg4 (by decide)).trans h.main_arg4
  main_arg5 := (ops_p11_1_keep V main_arg5 (by decide)).trans h.main_arg5
  main_arg6 := (ops_p11_1_keep V main_arg6 (by decide)).trans h.main_arg6
  main_v27 := (ops_p11_1_keep V main_v27 (by decide)).trans h.main_v27
  main_v29 := (ops_p11_1_keep V main_v29 (by decide)).trans h.main_v29
  main_v466 := (ops_p11_1_keep V main_v466 (by decide)).trans h.main_v466
  main_v470 := (ops_p11_1_keep V main_v470 (by decide)).trans h.main_v470
  main_v481 := (ops_p11_1_keep V main_v481 (by decide)).trans h.main_v481
  main_v482 := w11_1_main_v482 V x0 x1 x2 x3 x4 x5 x6 h
  main_c_183 := w11_1_main_c_183 V x0 x1 x2 x3 x4 x5 x6 h
  main_call33_v1 := w11_1_main_call33_v1 V x0 x1 x2 x3 x4 x5 x6 h

/-- Stretch 2 of window 11: @main's operations 797 … 804. -/
def ops_p11_2 : List (HloOp τ sig (Elt F)) :=
  [ binary main_call33_v1 main_v470 main_call33_v2 (maxsi : (⟨S409600, .i32⟩ : BufTy).Contents (Elt F) → (⟨S409600, .i32⟩ : BufTy).Contents (Elt F) → (⟨S409600, .i32⟩ : BufTy).Contents (Elt F)),
    unary main_c_183 main_call33_v3 (id : (⟨S_, .i32⟩ : BufTy).Contents (Elt F) → (⟨S_, .i32⟩ : BufTy).Contents (Elt F)),
    unary main_call33_v3 main_call33_v4 ((broadcastInDim S409600 ![] bcast_S_S409600) : (⟨S_, .i32⟩ : BufTy).Contents (Elt F) → (⟨S409600, .i32⟩ : BufTy).Contents (Elt F)),
    binary main_call33_v4 main_call33_v2 main_v483 (minsi : (⟨S409600, .i32⟩ : BufTy).Contents (Elt F) → (⟨S409600, .i32⟩ : BufTy).Contents (Elt F) → (⟨S409600, .i32⟩ : BufTy).Contents (Elt F)),
    nullary main_c_184 (constantI S_ 32 0#32),
    unary main_c_184 main_v484 (broadcastInDim S409600 ![] bcast_S_S409600 : (⟨S_, .i32⟩ : BufTy).Contents (Elt F) → (⟨S409600, .i32⟩ : BufTy).Contents (Elt F)),
    binary main_v29 main_v484 main_v485 (cmpi .slt : (⟨S409600, .i32⟩ : BufTy).Contents (Elt F) → (⟨S409600, .i32⟩ : BufTy).Contents (Elt F) → (⟨S409600, .i1⟩ : BufTy).Contents (Elt F)),
    nullary main_c_185 (constantI S_ 32 2#32) ]
abbrev ops_p11_2_W : List (Ref sig .tc) := [main_call33_v2, main_call33_v3, main_call33_v4, main_v483, main_c_184, main_v484, main_v485, main_c_185]
theorem ops_p11_2_writes : (ops_p11_2 : List (HloOp τ sig (Elt F))).Forall fun op => op.writes ⊆ (ops_p11_2_W.map (Proc.devRef (τ := τ) .tc)).toFinset := by
  simp only [ops_p11_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p11_2_keep (V : Valuation τ sig (Elt F)) (r : Ref sig .tc) (h : r ∉ ops_p11_2_W) :
    after ops_p11_2 V (Proc.devRef .tc r) = V (Proc.devRef .tc r) :=
  after_of_writes_sub ops_p11_2 _ ops_p11_2_writes h

set_option maxRecDepth 8192 in
set_option maxHeartbeats 1000000 in
theorem w11_2_main_v483 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_2 V x0 x1 x2 x3 x4 x5 x6) :
    after ops_p11_2 V (Proc.devRef .tc main_v483) = val_main_v483 (F := F) x1 := by
  simp only [ops_p11_2]
  after_results_w
  simp only [h.main_v470, h.main_call33_v1, h.main_c_183]
  rfl

set_option maxRecDepth 8192 in
set_option maxHeartbeats 1000000 in
theorem w11_2_main_v485 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_2 V x0 x1 x2 x3 x4 x5 x6) :
    after ops_p11_2 V (Proc.devRef .tc main_v485) = val_main_v485 (F := F) x1 := by
  simp only [ops_p11_2]
  after_results_w
  simp only [h.main_v29]
  rfl

set_option maxRecDepth 8192 in
set_option maxHeartbeats 1000000 in
theorem w11_2_main_c_185 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_2 V x0 x1 x2 x3 x4 x5 x6) :
    after ops_p11_2 V (Proc.devRef .tc main_c_185) = val_main_c_185 (F := F) := by
  simp only [ops_p11_2]
  after_results_w
  rfl

theorem step11_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_2 V x0 x1 x2 x3 x4 x5 x6) : Inv11_3 (after ops_p11_2 V) x0 x1 x2 x3 x4 x5 x6 where
  main_arg0 := (ops_p11_2_keep V main_arg0 (by decide)).trans h.main_arg0
  main_arg1 := (ops_p11_2_keep V main_arg1 (by decide)).trans h.main_arg1
  main_arg2 := (ops_p11_2_keep V main_arg2 (by decide)).trans h.main_arg2
  main_arg3 := (ops_p11_2_keep V main_arg3 (by decide)).trans h.main_arg3
  main_arg4 := (ops_p11_2_keep V main_arg4 (by decide)).trans h.main_arg4
  main_arg5 := (ops_p11_2_keep V main_arg5 (by decide)).trans h.main_arg5
  main_arg6 := (ops_p11_2_keep V main_arg6 (by decide)).trans h.main_arg6
  main_v27 := (ops_p11_2_keep V main_v27 (by decide)).trans h.main_v27
  main_v29 := (ops_p11_2_keep V main_v29 (by decide)).trans h.main_v29
  main_v466 := (ops_p11_2_keep V main_v466 (by decide)).trans h.main_v466
  main_v481 := (ops_p11_2_keep V main_v481 (by decide)).trans h.main_v481
  main_v482 := (ops_p11_2_keep V main_v482 (by decide)).trans h.main_v482
  main_v483 := w11_2_main_v483 V x0 x1 x2 x3 x4 x5 x6 h
  main_v485 := w11_2_main_v485 V x0 x1 x2 x3 x4 x5 x6 h
  main_c_185 := w11_2_main_c_185 V x0 x1 x2 x3 x4 x5 x6 h

/-- Stretch 3 of window 11: @main's operations 805 … 812. -/
def ops_p11_3 : List (HloOp τ sig (Elt F)) :=
  [ unary main_c_185 main_v486 (broadcastInDim S409600 ![] bcast_S_S409600 : (⟨S_, .i32⟩ : BufTy).Contents (Elt F) → (⟨S409600, .i32⟩ : BufTy).Contents (Elt F)),
    binary main_v29 main_v486 main_v487 (addi : (⟨S409600, .i32⟩ : BufTy).Contents (Elt F) → (⟨S409600, .i32⟩ : BufTy).Contents (Elt F) → (⟨S409600, .i32⟩ : BufTy).Contents (Elt F)),
    ternary main_v485 main_v487 main_v29 main_v488 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_186 (constantI S_ 32 0#32),
    unary main_c_186 main_v489 (broadcastInDim S409600 ![] bcast_S_S409600 : (⟨S_, .i32⟩ : BufTy).Contents (Elt F) → (⟨S409600, .i32⟩ : BufTy).Contents (Elt F)),
    binary main_v482 main_v489 main_v490 (cmpi .slt : (⟨S409600, .i32⟩ : BufTy).Contents (Elt F) → (⟨S409600, .i32⟩ : BufTy).Contents (Elt F) → (⟨S409600, .i1⟩ : BufTy).Contents (Elt F)),
    nullary main_c_187 (constantI S_ 32 640#32),
    unary main_c_187 main_v491 (broadcastInDim S409600 ![] bcast_S_S409600 : (⟨S_, .i32⟩ : BufTy).Contents (Elt F) → (⟨S409600, .i32⟩ : BufTy).Contents (Elt F)) ]
abbrev ops_p11_3_W : List (Ref sig .tc) := [main_v486, main_v487, main_v488, main_c_186, main_v489, main_v490, main_c_187, main_v491]
theorem ops_p11_3_writes : (ops_p11_3 : List (HloOp τ sig (Elt F))).Forall fun op => op.writes ⊆ (ops_p11_3_W.map (Proc.devRef (τ := τ) .tc)).toFinset := by
  simp only [ops_p11_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p11_3_keep (V : Valuation τ sig (Elt F)) (r : Ref sig .tc) (h : r ∉ ops_p11_3_W) :
    after ops_p11_3 V (Proc.devRef .tc r) = V (Proc.devRef .tc r) :=
  after_of_writes_sub ops_p11_3 _ ops_p11_3_writes h

set_option maxRecDepth 8192 in
set_option maxHeartbeats 1000000 in
theorem w11_3_main_v488 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_3 V x0 x1 x2 x3 x4 x5 x6) :
    after ops_p11_3 V (Proc.devRef .tc main_v488) = val_main_v488 (F := F) x1 := by
  simp only [ops_p11_3]
  after_results_w
  simp only [h.main_v29, h.main_c_185, h.main_v485]
  rfl

set_option maxRecDepth 8192 in
set_option maxHeartbeats 1000000 in
theorem w11_3_main_v490 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_3 V x0 x1 x2 x3 x4 x5 x6) :
    after ops_p11_3 V (Proc.devRef .tc main_v490) = val_main_v490 (F := F) x1 := by
  simp only [ops_p11_3]
  after_results_w
  simp only [h.main_v482]
  rfl

set_option maxRecDepth 8192 in
set_option maxHeartbeats 1000000 in
theorem w11_3_main_v491 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_3 V x0 x1 x2 x3 x4 x5 x6) :
    after ops_p11_3 V (Proc.devRef .tc main_v491) = val_main_v491 (F := F) := by
  simp only [ops_p11_3]
  after_results_w
  rfl

theorem step11_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_3 V x0 x1 x2 x3 x4 x5 x6) : Inv11_4 (after ops_p11_3 V) x0 x1 x2 x3 x4 x5 x6 where
  main_arg0 := (ops_p11_3_keep V main_arg0 (by decide)).trans h.main_arg0
  main_arg1 := (ops_p11_3_keep V main_arg1 (by decide)).trans h.main_arg1
  main_arg2 := (ops_p11_3_keep V main_arg2 (by decide)).trans h.main_arg2
  main_arg3 := (ops_p11_3_keep V main_arg3 (by decide)).trans h.main_arg3
  main_arg4 := (ops_p11_3_keep V main_arg4 (by decide)).trans h.main_arg4
  main_arg5 := (ops_p11_3_keep V main_arg5 (by decide)).trans h.main_arg5
  main_arg6 := (ops_p11_3_keep V main_arg6 (by decide)).trans h.main_arg6
  main_v27 := (ops_p11_3_keep V main_v27 (by decide)).trans h.main_v27
  main_v466 := (ops_p11_3_keep V main_v466 (by decide)).trans h.main_v466
  main_v481 := (ops_p11_3_keep V main_v481 (by decide)).trans h.main_v481
  main_v482 := (ops_p11_3_keep V main_v482 (by decide)).trans h.main_v482
  main_v483 := (ops_p11_3_keep V main_v483 (by decide)).trans h.main_v483
  main_v488 := w11_3_main_v488 V x0 x1 x2 x3 x4 x5 x6 h
  main_v490 := w11_3_main_v490 V x0 x1 x2 x3 x4 x5 x6 h
  main_v491 := w11_3_main_v491 V x0 x1 x2 x3 x4 x5 x6 h

/-- Stretch 4 of window 11: @main's operations 813 … 820. -/
def ops_p11_4 : List (HloOp τ sig (Elt F)) :=
  [ binary main_v482 main_v491 main_v492 (addi : (⟨S409600, .i32⟩ : BufTy).Contents (Elt F) → (⟨S409600, .i32⟩ : BufTy).Contents (Elt F) → (⟨S409600, .i32⟩ : BufTy).Contents (Elt F)),
    ternary main_v490 main_v492 main_v482 main_v493 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_188 (constantI S_ 32 0#32),
    unary main_c_188 main_v494 (broadcastInDim S409600 ![] bcast_S_S409600 : (⟨S_, .i32⟩ : BufTy).Contents (Elt F) → (⟨S409600, .i32⟩ : BufTy).Contents (Elt F)),
    binary main_v483 main_v494 main_v495 (cmpi .slt : (⟨S409600, .i32⟩ : BufTy).Contents (Elt F) → (⟨S409600, .i32⟩ : BufTy).Contents (Elt F) → (⟨S409600, .i1⟩ : BufTy).Contents (Elt F)),
    nullary main_c_189 (constantI S_ 32 640#32),
    unary main_c_189 main_v496 (broadcastInDim S409600 ![] bcast_S_S409600 : (⟨S_, .i32⟩ : BufTy).Contents (Elt F) → (⟨S409600, .i32⟩ : BufTy).Contents (Elt F)),
    binary main_v483 main_v496 main_v497 (addi : (⟨S409600, .i32⟩ : BufTy).Contents (Elt F) → (⟨S409600, .i32⟩ : BufTy).Contents (Elt F) → (⟨S409600, .i32⟩ : BufTy).Contents (Elt F)) ]
abbrev ops_p11_4_W : List (Ref sig .tc) := [main_v492, main_v493, main_c_188, main_v494, main_v495, main_c_189, main_v496, main_v497]
theorem ops_p11_4_writes : (ops_p11_4 : List (HloOp τ sig (Elt F))).Forall fun op => op.writes ⊆ (ops_p11_4_W.map (Proc.devRef (τ := τ) .tc)).toFinset := by
  simp only [ops_p11_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p11_4_keep (V : Valuation τ sig (Elt F)) (r : Ref sig .tc) (h : r ∉ ops_p11_4_W) :
    after ops_p11_4 V (Proc.devRef .tc r) = V (Proc.devRef .tc r) :=
  after_of_writes_sub ops_p11_4 _ ops_p11_4_writes h

set_option maxRecDepth 8192 in
set_option maxHeartbeats 1000000 in
theorem w11_4_main_v493 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_4 V x0 x1 x2 x3 x4 x5 x6) :
    after ops_p11_4 V (Proc.devRef .tc main_v493) = val_main_v493 (F := F) x1 := by
  simp only [ops_p11_4]
  after_results_w
  simp only [h.main_v482, h.main_v491, h.main_v490]
  rfl

set_option maxRecDepth 8192 in
set_option maxHeartbeats 1000000 in
theorem w11_4_main_v495 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_4 V x0 x1 x2 x3 x4 x5 x6) :
    after ops_p11_4 V (Proc.devRef .tc main_v495) = val_main_v495 (F := F) x1 := by
  simp only [ops_p11_4]
  after_results_w
  simp only [h.main_v483]
  rfl

set_option maxRecDepth 8192 in
set_option maxHeartbeats 1000000 in
theorem w11_4_main_v497 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_4 V x0 x1 x2 x3 x4 x5 x6) :
    after ops_p11_4 V (Proc.devRef .tc main_v497) = val_main_v497 (F := F) x1 := by
  simp only [ops_p11_4]
  after_results_w
  simp only [h.main_v483]
  rfl

theorem step11_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_4 V x0 x1 x2 x3 x4 x5 x6) : Inv11_5 (after ops_p11_4 V) x0 x1 x2 x3 x4 x5 x6 where
  main_arg0 := (ops_p11_4_keep V main_arg0 (by decide)).trans h.main_arg0
  main_arg1 := (ops_p11_4_keep V main_arg1 (by decide)).trans h.main_arg1
  main_arg2 := (ops_p11_4_keep V main_arg2 (by decide)).trans h.main_arg2
  main_arg3 := (ops_p11_4_keep V main_arg3 (by decide)).trans h.main_arg3
  main_arg4 := (ops_p11_4_keep V main_arg4 (by decide)).trans h.main_arg4
  main_arg5 := (ops_p11_4_keep V main_arg5 (by decide)).trans h.main_arg5
  main_arg6 := (ops_p11_4_keep V main_arg6 (by decide)).trans h.main_arg6
  main_v27 := (ops_p11_4_keep V main_v27 (by decide)).trans h.main_v27
  main_v466 := (ops_p11_4_keep V main_v466 (by decide)).trans h.main_v466
  main_v481 := (ops_p11_4_keep V main_v481 (by decide)).trans h.main_v481
  main_v483 := (ops_p11_4_keep V main_v483 (by decide)).trans h.main_v483
  main_v488 := (ops_p11_4_keep V main_v488 (by decide)).trans h.main_v488
  main_v493 := w11_4_main_v493 V x0 x1 x2 x3 x4 x5 x6 h
  main_v495 := w11_4_main_v495 V x0 x1 x2 x3 x4 x5 x6 h
  main_v497 := w11_4_main_v497 V x0 x1 x2 x3 x4 x5 x6 h

/-- Stretch 5 of window 11: @main's operations 821 … 828. -/
def ops_p11_5 : List (HloOp τ sig (Elt F)) :=
  [ ternary main_v495 main_v497 main_v483 main_v498 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v488 main_v499 (broadcastInDim S409600x1 ![0] bcast_S409600_S409600x1_0 : (⟨S409600, .i32⟩ : BufTy).Contents (Elt F) → (⟨S409600x1, .i32⟩ : BufTy).Contents (Elt F)),
    unary main_v493 main_v500 (broadcastInDim S409600x1 ![0] bcast_S409600_S409600x1_0 : (⟨S409600, .i32⟩ : BufTy).Contents (Elt F) → (⟨S409600x1, .i32⟩ : BufTy).Contents (Elt F)),
    unary main_v498 main_v501 (broadcastInDim S409600x1 ![0] bcast_S409600_S409600x1_0 : (⟨S409600, .i32⟩ : BufTy).Contents (Elt F) → (⟨S409600x1, .i32⟩ : BufTy).Contents (Elt F)),
    nary ![main_v499, main_v500, main_v501] main_v502 (fun u => concatenate S409600x3 1 [⟨S409600x1, u 0⟩, ⟨S409600x1, u 1⟩, ⟨S409600x1, u 2⟩] concatenates_S409600x1_S409600x1_S409600x1_S409600x3_d1),
    binary main_v27 main_v502 main_v503 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_190 (constantI S_ 32 0#32),
    unary main_c_190 main_v504 (broadcastInDim S409600 ![] bcast_S_S409600 : (⟨S_, .i32⟩ : BufTy).Contents (Elt F) → (⟨S409600, .i32⟩ : BufTy).Contents (Elt F)) ]
abbrev ops_p11_5_W : List (Ref sig .tc) := [main_v498, main_v499, main_v500, main_v501, main_v502, main_v503, main_c_190, main_v504]
theorem ops_p11_5_writes : (ops_p11_5 : List (HloOp τ sig (Elt F))).Forall fun op => op.writes ⊆ (ops_p11_5_W.map (Proc.devRef (τ := τ) .tc)).toFinset := by
  simp only [ops_p11_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p11_5_keep (V : Valuation τ sig (Elt F)) (r : Ref sig .tc) (h : r ∉ ops_p11_5_W) :
    after ops_p11_5 V (Proc.devRef .tc r) = V (Proc.devRef .tc r) :=
  after_of_writes_sub ops_p11_5 _ ops_p11_5_writes h

set_option maxRecDepth 8192 in
set_option maxHeartbeats 1000000 in
theorem w11_5_main_v503 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_5 V x0 x1 x2 x3 x4 x5 x6) :
    after ops_p11_5 V (Proc.devRef .tc main_v503) = val_main_v503 (F := F) x1 := by
  simp only [ops_p11_5]
  after_results_w
  simp only [h.main_v483, h.main_v497, h.main_v495, h.main_v493, h.main_v488, h.main_v27]
  rfl

set_option maxRecDepth 8192 in
set_option maxHeartbeats 1000000 in
theorem w11_5_main_v504 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_5 V x0 x1 x2 x3 x4 x5 x6) :
    after ops_p11_5 V (Proc.devRef .tc main_v504) = val_main_v504 (F := F) := by
  simp only [ops_p11_5]
  after_results_w
  rfl

theorem step11_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_5 V x0 x1 x2 x3 x4 x5 x6) : Inv11_6 (after ops_p11_5 V) x0 x1 x2 x3 x4 x5 x6 where
  main_arg0 := (ops_p11_5_keep V main_arg0 (by decide)).trans h.main_arg0
  main_arg1 := (ops_p11_5_keep V main_arg1 (by decide)).trans h.main_arg1
  main_arg2 := (ops_p11_5_keep V main_arg2 (by decide)).trans h.main_arg2
  main_arg3 := (ops_p11_5_keep V main_arg3 (by decide)).trans h.main_arg3
  main_arg4 := (ops_p11_5_keep V main_arg4 (by decide)).trans h.main_arg4
  main_arg5 := (ops_p11_5_keep V main_arg5 (by decide)).trans h.main_arg5
  main_arg6 := (ops_p11_5_keep V main_arg6 (by decide)).trans h.main_arg6
  main_v27 := (ops_p11_5_keep V main_v27 (by decide)).trans h.main_v27
  main_v466 := (ops_p11_5_keep V main_v466 (by decide)).trans h.main_v466
  main_v481 := (ops_p11_5_keep V main_v481 (by decide)).trans h.main_v481
  main_v503 := w11_5_main_v503 V x0 x1 x2 x3 x4 x5 x6 h
  main_v504 := w11_5_main_v504 V x0 x1 x2 x3 x4 x5 x6 h

/-- Stretch 6 of window 11: @main's operations 829 … 836. -/
def ops_p11_6 : List (HloOp τ sig (Elt F)) :=
  [ binary main_v503 main_v504 main_v505 (cmpi .sge : (⟨S409600, .i32⟩ : BufTy).Contents (Elt F) → (⟨S409600, .i32⟩ : BufTy).Contents (Elt F) → (⟨S409600, .i1⟩ : BufTy).Contents (Elt F)),
    binary main_v481 main_v505 main_v506 (andi : (⟨S409600, .i1⟩ : BufTy).Contents (Elt F) → (⟨S409600, .i1⟩ : BufTy).Contents (Elt F) → (⟨S409600, .i1⟩ : BufTy).Contents (Elt F)),
    nullary main_c_191 (constantI S_ 32 0#32),
    unary main_c_191 main_call34_v0 (id : (⟨S_, .i32⟩ : BufTy).Contents (Elt F) → (⟨S_, .i32⟩ : BufTy).Contents (Elt F)),
    unary main_call34_v0 main_call34_v1 ((broadcastInDim S409600 ![] bcast_S_S409600) : (⟨S_, .i32⟩ : BufTy).Contents (Elt F) → (⟨S409600, .i32⟩ : BufTy).Contents (Elt F)),
    ternary main_v506 main_v503 main_call34_v1 main_v507 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_192 (constantI S_ 32 0#32),
    unary main_c_192 main_v508 (broadcastInDim S409600 ![] bcast_S_S409600 : (⟨S_, .i32⟩ : BufTy).Contents (Elt F) → (⟨S409600, .i32⟩ : BufTy).Contents (Elt F)) ]
abbrev ops_p11_6_W : List (Ref sig .tc) := [main_v505, main_v506, main_c_191, main_call34_v0, main_call34_v1, main_v507, main_c_192, main_v508]
theorem ops_p11_6_writes : (ops_p11_6 : List (HloOp τ sig (Elt F))).Forall fun op => op.writes ⊆ (ops_p11_6_W.map (Proc.devRef (τ := τ) .tc)).toFinset := by
  simp only [ops_p11_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p11_6_keep (V : Valuation τ sig (Elt F)) (r : Ref sig .tc) (h : r ∉ ops_p11_6_W) :
    after ops_p11_6 V (Proc.devRef .tc r) = V (Proc.devRef .tc r) :=
  after_of_writes_sub ops_p11_6 _ ops_p11_6_writes h

set_option maxRecDepth 8192 in
set_option maxHeartbeats 1000000 in
theorem w11_6_main_v506 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_6 V x0 x1 x2 x3 x4 x5 x6) :
    after ops_p11_6 V (Proc.devRef .tc main_v506) = val_main_v506 (F := F) x1 := by
  simp only [ops_p11_6]
  after_results_w
  simp only [h.main_v504, h.main_v503, h.main_v481]
  rfl

set_option maxRecDepth 8192 in
set_option maxHeartbeats 1000000 in
theorem w11_6_main_v507 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_6 V x0 x1 x2 x3 x4 x5 x6) :
    after ops_p11_6 V (Proc.devRef .tc main_v507) = val_main_v507 (F := F) x1 := by
  simp only [ops_p11_6]
  after_results_w
  simp only [h.main_v503, h.main_v504, h.main_v481]
  rfl

set_option maxRecDepth 8192 in
set_option maxHeartbeats 1000000 in
theorem w11_6_main_v508 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_6 V x0 x1 x2 x3 x4 x5 x6) :
    after ops_p11_6 V (Proc.devRef .tc main_v508) = val_main_v508 (F := F) := by
  simp only [ops_p11_6]
  after_results_w
  rfl

theorem step11_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_6 V x0 x1 x2 x3 x4 x5 x6) : Inv11_7 (after ops_p11_6 V) x0 x1 x2 x3 x4 x5 x6 where
  main_arg0 := (ops_p11_6_keep V main_arg0 (by decide)).trans h.main_arg0
  main_arg1 := (ops_p11_6_keep V main_arg1 (by decide)).trans h.main_arg1
  main_arg2 := (ops_p11_6_keep V main_arg2 (by decide)).trans h.main_arg2
  main_arg3 := (ops_p11_6_keep V main_arg3 (by decide)).trans h.main_arg3
  main_arg4 := (ops_p11_6_keep V main_arg4 (by decide)).trans h.main_arg4
  main_arg5 := (ops_p11_6_keep V main_arg5 (by decide)).trans h.main_arg5
  main_arg6 := (ops_p11_6_keep V main_arg6 (by decide)).trans h.main_arg6
  main_v27 := (ops_p11_6_keep V main_v27 (by decide)).trans h.main_v27
  main_v466 := (ops_p11_6_keep V main_v466 (by decide)).trans h.main_v466
  main_v506 := w11_6_main_v506 V x0 x1 x2 x3 x4 x5 x6 h
  main_v507 := w11_6_main_v507 V x0 x1 x2 x3 x4 x5 x6 h
  main_v508 := w11_6_main_v508 V x0 x1 x2 x3 x4 x5 x6 h

/-- Stretch 7 of window 11: @main's operations 837 … 844. -/
def ops_p11_7 : List (HloOp τ sig (Elt F)) :=
  [ binary main_v507 main_v508 main_v509 (cmpi .slt : (⟨S409600, .i32⟩ : BufTy).Contents (Elt F) → (⟨S409600, .i32⟩ : BufTy).Contents (Elt F) → (⟨S409600, .i1⟩ : BufTy).Contents (Elt F)),
    nullary main_c_193 (constantI S_ 32 409600#32),
    unary main_c_193 main_v510 (broadcastInDim S409600 ![] bcast_S_S409600 : (⟨S_, .i32⟩ : BufTy).Contents (Elt F) → (⟨S409600, .i32⟩ : BufTy).Contents (Elt F)),
    binary main_v507 main_v510 main_v511 (addi : (⟨S409600, .i32⟩ : BufTy).Contents (Elt F) → (⟨S409600, .i32⟩ : BufTy).Contents (Elt F) → (⟨S409600, .i32⟩ : BufTy).Contents (Elt F)),
    ternary main_v509 main_v511 main_v507 main_v512 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v512 main_v513 (broadcastInDim S409600x1 ![0] bcast_S409600_S409600x1_0 : (⟨S409600, .i32⟩ : BufTy).Contents (Elt F) → (⟨S409600x1, .i32⟩ : BufTy).Contents (Elt F)),
    binary main_arg0 main_v513 main_v514 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v506 main_v515 (broadcastInDim S409600x1 ![0] bcast_S409600_S409600x1_0 : (⟨S409600, .i1⟩ : BufTy).Contents (Elt F) → (⟨S409600x1, .i1⟩ : BufTy).Contents (Elt F)) ]
abbrev ops_p11_7_W : List (Ref sig .tc) := [main_v509, main_c_193, main_v510, main_v511, main_v512, main_v513, main_v514, main_v515]
theorem ops_p11_7_writes : (ops_p11_7 : List (HloOp τ sig (Elt F))).Forall fun op => op.writes ⊆ (ops_p11_7_W.map (Proc.devRef (τ := τ) .tc)).toFinset := by
  simp only [ops_p11_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p11_7_keep (V : Valuation τ sig (Elt F)) (r : Ref sig .tc) (h : r ∉ ops_p11_7_W) :
    after ops_p11_7 V (Proc.devRef .tc r) = V (Proc.devRef .tc r) :=
  after_of_writes_sub ops_p11_7 _ ops_p11_7_writes h

set_option maxRecDepth 8192 in
set_option maxHeartbeats 1000000 in
theorem w11_7_main_v514 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_7 V x0 x1 x2 x3 x4 x5 x6) :
    after ops_p11_7 V (Proc.devRef .tc main_v514) = val_main_v514 (F := F) x0 x1 := by
  simp only [ops_p11_7]
  after_results_w
  simp only [h.main_v507, h.main_v508, h.main_arg0]
  rfl

set_option maxRecDepth 8192 in
set_option maxHeartbeats 1000000 in
theorem w11_7_main_v515 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_7 V x0 x1 x2 x3 x4 x5 x6) :
    after ops_p11_7 V (Proc.devRef .tc main_v515) = val_main_v515 (F := F) x1 := by
  simp only [ops_p11_7]
  after_results_w
  simp only [h.main_v506]
  rfl

theorem step11_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_7 V x0 x1 x2 x3 x4 x5 x6) : Inv11_8 (after ops_p11_7 V) x0 x1 x2 x3 x4 x5 x6 where
  main_arg0 := (ops_p11_7_keep V main_arg0 (by decide)).trans h.main_arg0
  main_arg1 := (ops_p11_7_keep V main_arg1 (by decide)).trans h.main_arg1
  main_arg2 := (ops_p11_7_keep V main_arg2 (by decide)).trans h.main_arg2
  main_arg3 := (ops_p11_7_keep V main_arg3 (by decide)).trans h.main_arg3
  main_arg4 := (ops_p11_7_keep V main_arg4 (by decide)).trans h.main_arg4
  main_arg5 := (ops_p11_7_keep V main_arg5 (by decide)).trans h.main_arg5
  main_arg6 := (ops_p11_7_keep V main_arg6 (by decide)).trans h.main_arg6
  main_v27 := (ops_p11_7_keep V main_v27 (by decide)).trans h.main_v27
  main_v466 := (ops_p11_7_keep V main_v466 (by decide)).trans h.main_v466
  main_v514 := w11_7_main_v514 V x0 x1 x2 x3 x4 x5 x6 h
  main_v515 := w11_7_main_v515 V x0 x1 x2 x3 x4 x5 x6 h

/-- Stretch 8 of window 11: @main's operations 845 … 852. -/
def ops_p11_8 : List (HloOp τ sig (Elt F)) :=
  [ nullary main_cst_194 (constant S_ .f32 0x00000000#32),
    unary main_cst_194 main_call35_v0 (id : (⟨S_, .f32⟩ : BufTy).Contents (Elt F) → (⟨S_, .f32⟩ : BufTy).Contents (Elt F)),
    unary main_v515 main_call35_v1 ((broadcastInDim S409600x64 ![0, 1] bcast_S409600x1_S409600x64_0_1) : (⟨S409600x1, .i1⟩ : BufTy).Contents (Elt F) → (⟨S409600x64, .i1⟩ : BufTy).Contents (Elt F)),
    unary main_call35_v0 main_call35_v2 ((broadcastInDim S409600x64 ![] bcast_S_S409600x64) : (⟨S_, .f32⟩ : BufTy).Contents (Elt F) → (⟨S409600x64, .f32⟩ : BufTy).Contents (Elt F)),
    ternary main_call35_v1 main_v514 main_call35_v2 main_v516 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg2 main_v517 ((extractStridedSlice S1x1x64x64 ![2, 2, 0, 0] · slices_S3x3x64x64_S1x1x64x64_2_2_0_0) : (⟨S3x3x64x64, .f32⟩ : BufTy).Contents (Elt F) → (⟨S1x1x64x64, .f32⟩ : BufTy).Contents (Elt F)),
    reshape main_v517 main_v518 rfl shapeCasts_S1x1x64x64_S64x64,
    binary main_v516 main_v518 main_v519 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)) ]
abbrev ops_p11_8_W : List (Ref sig .tc) := [main_cst_194, main_call35_v0, main_call35_v1, main_call35_v2, main_v516, main_v517, main_v518, main_v519]
theorem ops_p11_8_writes : (ops_p11_8 : List (HloOp τ sig (Elt F))).Forall fun op => op.writes ⊆ (ops_p11_8_W.map (Proc.devRef (τ := τ) .tc)).toFinset := by
  simp only [ops_p11_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p11_8_keep (V : Valuation τ sig (Elt F)) (r : Ref sig .tc) (h : r ∉ ops_p11_8_W) :
    after ops_p11_8 V (Proc.devRef .tc r) = V (Proc.devRef .tc r) :=
  after_of_writes_sub ops_p11_8 _ ops_p11_8_writes h

set_option maxRecDepth 8192 in
set_option maxHeartbeats 1000000 in
theorem w11_8_main_v519 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_8 V x0 x1 x2 x3 x4 x5 x6) :
    after ops_p11_8 V (Proc.devRef .tc main_v519) = val_main_v519 (F := F) x0 x1 x2 := by
  simp only [ops_p11_8]
  after_results_w
  simp only [h.main_arg2, h.main_v514, h.main_v515]
  rfl

theorem step11_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_8 V x0 x1 x2 x3 x4 x5 x6) : Inv11_9 (after ops_p11_8 V) x0 x1 x2 x3 x4 x5 x6 where
  main_arg0 := (ops_p11_8_keep V main_arg0 (by decide)).trans h.main_arg0
  main_arg1 := (ops_p11_8_keep V main_arg1 (by decide)).trans h.main_arg1
  main_arg2 := (ops_p11_8_keep V main_arg2 (by decide)).trans h.main_arg2
  main_arg3 := (ops_p11_8_keep V main_arg3 (by decide)).trans h.main_arg3
  main_arg4 := (ops_p11_8_keep V main_arg4 (by decide)).trans h.main_arg4
  main_arg5 := (ops_p11_8_keep V main_arg5 (by decide)).trans h.main_arg5
  main_arg6 := (ops_p11_8_keep V main_arg6 (by decide)).trans h.main_arg6
  main_v27 := (ops_p11_8_keep V main_v27 (by decide)).trans h.main_v27
  main_v466 := (ops_p11_8_keep V main_v466 (by decide)).trans h.main_v466
  main_v519 := w11_8_main_v519 V x0 x1 x2 x3 x4 x5 x6 h

/-- Stretch 9 of window 11: @main's operations 853 … 855. -/
def ops_p11_9 : List (HloOp τ sig (Elt F)) :=
  [ binary main_v466 main_v519 main_v520 (addf : (⟨S409600x64, .f32⟩ : BufTy).Contents (Elt F) → (⟨S409600x64, .f32⟩ : BufTy).Contents (Elt F) → (⟨S409600x64, .f32⟩ : BufTy).Contents (Elt F)),
    unary main_arg3 main_v521 (broadcastInDim S1x64 ![1] bcast_S64_S1x64_1 : (⟨S64, .f32⟩ : BufTy).Contents (Elt F) → (⟨S1x64, .f32⟩ : BufTy).Contents (Elt F)),
    unary main_v521 main_v522 (broadcastInDim S409600x64 ![0, 1] bcast_S1x64_S409600x64_0_1 : (⟨S1x64, .f32⟩ : BufTy).Contents (Elt F) → (⟨S409600x64, .f32⟩ : BufTy).Contents (Elt F)) ]
abbrev ops_p11_9_W : List (Ref sig .tc) := [main_v520, main_v521, main_v522]
theorem ops_p11_9_writes : (ops_p11_9 : List (HloOp τ sig (Elt F))).Forall fun op => op.writes ⊆ (ops_p11_9_W.map (Proc.devRef (τ := τ) .tc)).toFinset := by
  simp only [ops_p11_9, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p11_9_keep (V : Valuation τ sig (Elt F)) (r : Ref sig .tc) (h : r ∉ ops_p11_9_W) :
    after ops_p11_9 V (Proc.devRef .tc r) = V (Proc.devRef .tc r) :=
  after_of_writes_sub ops_p11_9 _ ops_p11_9_writes h

set_option maxRecDepth 8192 in
set_option maxHeartbeats 1000000 in
theorem w11_9_main_v520 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_9 V x0 x1 x2 x3 x4 x5 x6) :
    after ops_p11_9 V (Proc.devRef .tc main_v520) = val_main_v520 (F := F) x0 x1 x2 := by
  simp only [ops_p11_9]
  after_results_w
  simp only [h.main_v519, h.main_v466]
  rfl

set_option maxRecDepth 8192 in
set_option maxHeartbeats 1000000 in
theorem w11_9_main_v522 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_9 V x0 x1 x2 x3 x4 x5 x6) :
    after ops_p11_9 V (Proc.devRef .tc main_v522) = val_main_v522 (F := F) x3 := by
  simp only [ops_p11_9]
  after_results_w
  simp only [h.main_arg3]
  rfl

theorem step11_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11_9 V x0 x1 x2 x3 x4 x5 x6) : Inv12 (after ops_p11_9 V) x0 x1 x2 x3 x4 x5 x6 where
  main_arg0 := (ops_p11_9_keep V main_arg0 (by decide)).trans h.main_arg0
  main_arg1 := (ops_p11_9_keep V main_arg1 (by decide)).trans h.main_arg1
  main_arg2 := (ops_p11_9_keep V main_arg2 (by decide)).trans h.main_arg2
  main_arg3 := (ops_p11_9_keep V main_arg3 (by decide)).trans h.main_arg3
  main_arg4 := (ops_p11_9_keep V main_arg4 (by decide)).trans h.main_arg4
  main_arg5 := (ops_p11_9_keep V main_arg5 (by decide)).trans h.main_arg5
  main_arg6 := (ops_p11_9_keep V main_arg6 (by decide)).trans h.main_arg6
  main_v27 := (ops_p11_9_keep V main_v27 (by decide)).trans h.main_v27
  main_v520 := w11_9_main_v520 V x0 x1 x2 x3 x4 x5 x6 h
  main_v522 := w11_9_main_v522 V x0 x1 x2 x3 x4 x5 x6 h

set_option maxRecDepth 8192 in
theorem ops_p11_split : (ops_p11 : List (HloOp τ sig (Elt F))) = ops_p11_0 ++ (ops_p11_1 ++ (ops_p11_2 ++ (ops_p11_3 ++ (ops_p11_4 ++ (ops_p11_5 ++ (ops_p11_6 ++ (ops_p11_7 ++ (ops_p11_8 ++ (ops_p11_9))))))))) := rfl

/-- Window 11 carries the staged reading from boundary 11 to boundary 12. -/
theorem step11 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv11 V x0 x1 x2 x3 x4 x5 x6) : Inv12 (after ops_p11 V) x0 x1 x2 x3 x4 x5 x6 := by
  rw [ops_p11_split]; simp only [after_app]
  exact step11_9 _ x0 x1 x2 x3 x4 x5 x6 (step11_8 _ x0 x1 x2 x3 x4 x5 x6 (step11_7 _ x0 x1 x2 x3 x4 x5 x6 (step11_6 _ x0 x1 x2 x3 x4 x5 x6 (step11_5 _ x0 x1 x2 x3 x4 x5 x6 (step11_4 _ x0 x1 x2 x3 x4 x5 x6 (step11_3 _ x0 x1 x2 x3 x4 x5 x6 (step11_2 _ x0 x1 x2 x3 x4 x5 x6 (step11_1 _ x0 x1 x2 x3 x4 x5 x6 (step11_0 V x0 x1 x2 x3 x4 x5 x6 h)))))))))

end Cert.ReferenceIdeal.Hand

end
-- ==== Proof.Ref.W12.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 12 of @main: its operations 856 … 927 of 1688, in order. -/
def ops_p12 : List (HloOp τ sig (Elt F)) :=
  [ binary main_v520 main_v522 main_v523 (addf : (⟨S409600x64, .f32⟩ : BufTy).Contents (Elt F) → (⟨S409600x64, .f32⟩ : BufTy).Contents (Elt F) → (⟨S409600x64, .f32⟩ : BufTy).Contents (Elt F)),
    nullary main_call36_cst ((constant S_ .f32 0x00000000#32) : (⟨S_, .f32⟩ : BufTy).Contents (Elt F)),
    unary main_call36_cst main_call36_v0 ((broadcastInDim S409600x64 ![] bcast_S_S409600x64) : (⟨S_, .f32⟩ : BufTy).Contents (Elt F) → (⟨S409600x64, .f32⟩ : BufTy).Contents (Elt F)),
    binary main_v523 main_call36_v0 main_v524 (maximumf : (⟨S409600x64, .f32⟩ : BufTy).Contents (Elt F) → (⟨S409600x64, .f32⟩ : BufTy).Contents (Elt F) → (⟨S409600x64, .f32⟩ : BufTy).Contents (Elt F)),
    unary main_arg1 main_v525 ((extractStridedSlice S409600x1 ![0, 0] · slices_S409600x3_S409600x1_0_0) : (⟨S409600x3, .i32⟩ : BufTy).Contents (Elt F) → (⟨S409600x1, .i32⟩ : BufTy).Contents (Elt F)),
    reshape main_v525 main_v526 rfl shapeCasts_S409600x1_S409600,
    unary main_arg1 main_v527 ((extractStridedSlice S409600x1 ![0, 1] · slices_S409600x3_S409600x1_0_1) : (⟨S409600x3, .i32⟩ : BufTy).Contents (Elt F) → (⟨S409600x1, .i32⟩ : BufTy).Contents (Elt F)),
    reshape main_v527 main_v528 rfl shapeCasts_S409600x1_S409600,
    unary main_arg1 main_v529 ((extractStridedSlice S409600x1 ![0, 2] · slices_S409600x3_S409600x1_0_2) : (⟨S409600x3, .i32⟩ : BufTy).Contents (Elt F) → (⟨S409600x1, .i32⟩ : BufTy).Contents (Elt F)),
    reshape main_v529 main_v530 rfl shapeCasts_S409600x1_S409600,
    nullary main_cst_195 (constant S_ .f32 0x00000000#32),
    unary main_cst_195 main_v531 (broadcastInDim S409600x64 ![] bcast_S_S409600x64 : (⟨S_, .f32⟩ : BufTy).Contents (Elt F) → (⟨S409600x64, .f32⟩ : BufTy).Contents (Elt F)),
    nullary main_c_196 (constantI S_ 32 4294967295#32),
    unary main_c_196 main_v532 (broadcastInDim S409600 ![] bcast_S_S409600 : (⟨S_, .i32⟩ : BufTy).Contents (Elt F) → (⟨S409600, .i32⟩ : BufTy).Contents (Elt F)),
    binary main_v528 main_v532 main_v533 (addi : (⟨S409600, .i32⟩ : BufTy).Contents (Elt F) → (⟨S409600, .i32⟩ : BufTy).Contents (Elt F) → (⟨S409600, .i32⟩ : BufTy).Contents (Elt F)),
    nullary main_c_197 (constantI S_ 32 4294967295#32),
    unary main_c_197 main_v534 (broadcastInDim S409600 ![] bcast_S_S409600 : (⟨S_, .i32⟩ : BufTy).Contents (Elt F) → (⟨S409600, .i32⟩ : BufTy).Contents (Elt F)),
    binary main_v530 main_v534 main_v535 (addi : (⟨S409600, .i32⟩ : BufTy).Contents (Elt F) → (⟨S409600, .i32⟩ : BufTy).Contents (Elt F) → (⟨S409600, .i32⟩ : BufTy).Contents (Elt F)),
    nullary main_c_198 (constantI S_ 32 0#32),
    unary main_c_198 main_v536 (broadcastInDim S409600 ![] bcast_S_S409600 : (⟨S_, .i32⟩ : BufTy).Contents (Elt F) → (⟨S409600, .i32⟩ : BufTy).Contents (Elt F)),
    binary main_v533 main_v536 main_v537 (cmpi .sge : (⟨S409600, .i32⟩ : BufTy).Contents (Elt F) → (⟨S409600, .i32⟩ : BufTy).Contents (Elt F) → (⟨S409600, .i1⟩ : BufTy).Contents (Elt F)),
    nullary main_c_199 (constantI S_ 32 640#32),
    unary main_c_199 main_v538 (broadcastInDim S409600 ![] bcast_S_S409600 : (⟨S_, .i32⟩ : BufTy).Contents (Elt F) → (⟨S409600, .i32⟩ : BufTy).Contents (Elt F)),
    binary main_v533 main_v538 main_v539 (cmpi .slt : (⟨S409600, .i32⟩ : BufTy).Contents (Elt F) → (⟨S409600, .i32⟩ : BufTy).Contents (Elt F) → (⟨S409600, .i1⟩ : BufTy).Contents (Elt F)),
    binary main_v537 main_v539 main_v540 (andi : (⟨S409600, .i1⟩ : BufTy).Contents (Elt F) → (⟨S409600, .i1⟩ : BufTy).Contents (Elt F) → (⟨S409600, .i1⟩ : BufTy).Contents (Elt F)),
    nullary main_c_200 (constantI S_ 32 0#32),
    unary main_c_200 main_v541 (broadcastInDim S409600 ![] bcast_S_S409600 : (⟨S_, .i32⟩ : BufTy).Contents (Elt F) → (⟨S409600, .i32⟩ : BufTy).Contents (Elt F)),
    binary main_v535 main_v541 main_v542 (cmpi .sge : (⟨S409600, .i32⟩ : BufTy).Contents (Elt F) → (⟨S409600, .i32⟩ : BufTy).Contents (Elt F) → (⟨S409600, .i1⟩ : BufTy).Contents (Elt F)),
    binary main_v540 main_v542 main_v543 (andi : (⟨S409600, .i1⟩ : BufTy).Contents (Elt F) → (⟨S409600, .i1⟩ : BufTy).Contents (Elt F) → (⟨S409600, .i1⟩ : BufTy).Contents (Elt F)),
    nullary main_c_201 (constantI S_ 32 640#32),
    unary main_c_201 main_v544 (broadcastInDim S409600 ![] bcast_S_S409600 : (⟨S_, .i32⟩ : BufTy).Contents (Elt F) → (⟨S409600, .i32⟩ : BufTy).Contents (Elt F)),
    binary main_v535 main_v544 main_v545 (cmpi .slt : (⟨S409600, .i32⟩ : BufTy).Contents (Elt F) → (⟨S409600, .i32⟩ : BufTy).Contents (Elt F) → (⟨S409600, .i1⟩ : BufTy).Contents (Elt F)),
    binary main_v543 main_v545 main_v546 (andi : (⟨S409600, .i1⟩ : BufTy).Contents (Elt F) → (⟨S409600, .i1⟩ : BufTy).Contents (Elt F) → (⟨S409600, .i1⟩ : BufTy).Contents (Elt F)),
    nullary main_c_202 (constantI S_ 32 0#32),
    nullary main_c_203 (constantI S_ 32 639#32),
    unary main_c_202 main_call37_v0 (id : (⟨S_, .i32⟩ : BufTy).Contents (Elt F) → (⟨S_, .i32⟩ : BufTy).Contents (Elt F)),
    unary main_call37_v0 main_call37_v1 ((broadcastInDim S409600 ![] bcast_S_S409600) : (⟨S_, .i32⟩ : BufTy).Contents (Elt F) → (⟨S409600, .i32⟩ : BufTy).Contents (Elt F)),
    binary main_call37_v1 main_v533 main_call37_v2 (maxsi : (⟨S409600, .i32⟩ : BufTy).Contents (Elt F) → (⟨S409600, .i32⟩ : BufTy).Contents (Elt F) → (⟨S409600, .i32⟩ : BufTy).Contents (Elt F)),
    unary main_c_203 main_call37_v3 (id : (⟨S_, .i32⟩ : BufTy).Contents (Elt F) → (⟨S_, .i32⟩ : BufTy).Contents (Elt F)),
    unary main_call37_v3 main_call37_v4 ((broadcastInDim S409600 ![] bcast_S_S409600) : (⟨S_, .i32⟩ : BufTy).Contents (Elt F) → (⟨S409600, .i32⟩ : BufTy).Contents (Elt F)),
    binary main_call37_v4 main_call37_v2 main_v547 (minsi : (⟨S409600, .i32⟩ : BufTy).Contents (Elt F) → (⟨S409600, .i32⟩ : BufTy).Contents (Elt F) → (⟨S409600, .i32⟩ : BufTy).Contents (Elt F)),
    nullary main_c_204 (constantI S_ 32 0#32),
    nullary main_c_205 (constantI S_ 32 639#32),
    unary main_c_204 main_call38_v0 (id : (⟨S_, .i32⟩ : BufTy).Contents (Elt F) → (⟨S_, .i32⟩ : BufTy).Contents (Elt F)),
    unary main_call38_v0 main_call38_v1 ((broadcastInDim S409600 ![] bcast_S_S409600) : (⟨S_, .i32⟩ : BufTy).Contents (Elt F) → (⟨S409600, .i32⟩ : BufTy).Contents (Elt F)),
    binary main_call38_v1 main_v535 main_call38_v2 (maxsi : (⟨S409600, .i32⟩ : BufTy).Contents (Elt F) → (⟨S409600, .i32⟩ : BufTy).Contents (Elt F) → (⟨S409600, .i32⟩ : BufTy).Contents (Elt F)),
    unary main_c_205 main_call38_v3 (id : (⟨S_, .i32⟩ : BufTy).Contents (Elt F) → (⟨S_, .i32⟩ : BufTy).Contents (Elt F)),
    unary main_call38_v3 main_call38_v4 ((broadcastInDim S409600 ![] bcast_S_S409600) : (⟨S_, .i32⟩ : BufTy).Contents (Elt F) → (⟨S409600, .i32⟩ : BufTy).Contents (Elt F)),
    binary main_call38_v4 main_call38_v2 main_v548 (minsi : (⟨S409600, .i32⟩ : BufTy).Contents (Elt F) → (⟨S409600, .i32⟩ : BufTy).Contents (Elt F) → (⟨S409600, .i32⟩ : BufTy).Contents (Elt F)),
    nullary main_c_206 (constantI S_ 32 0#32),
    unary main_c_206 main_v549 (broadcastInDim S409600 ![] bcast_S_S409600 : (⟨S_, .i32⟩ : BufTy).Contents (Elt F) → (⟨S409600, .i32⟩ : BufTy).Contents (Elt F)),
    binary main_v526 main_v549 main_v550 (cmpi .slt : (⟨S409600, .i32⟩ : BufTy).Contents (Elt F) → (⟨S409600, .i32⟩ : BufTy).Contents (Elt F) → (⟨S409600, .i1⟩ : BufTy).Contents (Elt F)),
    nullary main_c_207 (constantI S_ 32 2#32),
    unary main_c_207 main_v551 (broadcastInDim S409600 ![] bcast_S_S409600 : (⟨S_, .i32⟩ : BufTy).Contents (Elt F) → (⟨S409600, .i32⟩ : BufTy).Contents (Elt F)),
    binary main_v526 main_v551 main_v552 (addi : (⟨S409600, .i32⟩ : BufTy).Contents (Elt F) → (⟨S409600, .i32⟩ : BufTy).Contents (Elt F) → (⟨S409600, .i32⟩ : BufTy).Contents (Elt F)),
    ternary main_v550 main_v552 main_v526 main_v553 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_208 (constantI S_ 32 0#32),
    unary main_c_208 main_v554 (broadcastInDim S409600 ![] bcast_S_S409600 : (⟨S_, .i32⟩ : BufTy).Contents (Elt F) → (⟨S409600, .i32⟩ : BufTy).Contents (Elt F)),
    binary main_v547 main_v554 main_v555 (cmpi .slt : (⟨S409600, .i32⟩ : BufTy).Contents (Elt F) → (⟨S409600, .i32⟩ : BufTy).Contents (Elt F) → (⟨S409600, .i1⟩ : BufTy).Contents (Elt F)),
    nullary main_c_209 (constantI S_ 32 640#32),
    unary main_c_209 main_v556 (broadcastInDim S409600 ![] bcast_S_S409600 : (⟨S_, .i32⟩ : BufTy).Contents (Elt F) → (⟨S409600, .i32⟩ : BufTy).Contents (Elt F)),
    binary main_v547 main_v556 main_v557 (addi : (⟨S409600, .i32⟩ : BufTy).Contents (Elt F) → (⟨S409600, .i32⟩ : BufTy).Contents (Elt F) → (⟨S409600, .i32⟩ : BufTy).Contents (Elt F)),
    ternary main_v555 main_v557 main_v547 main_v558 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_210 (constantI S_ 32 0#32),
    unary main_c_210 main_v559 (broadcastInDim S409600 ![] bcast_S_S409600 : (⟨S_, .i32⟩ : BufTy).Contents (Elt F) → (⟨S409600, .i32⟩ : BufTy).Contents (Elt F)),
    binary main_v548 main_v559 main_v560 (cmpi .slt : (⟨S409600, .i32⟩ : BufTy).Contents (Elt F) → (⟨S409600, .i32⟩ : BufTy).Contents (Elt F) → (⟨S409600, .i1⟩ : BufTy).Contents (Elt F)),
    nullary main_c_211 (constantI S_ 32 640#32),
    unary main_c_211 main_v561 (broadcastInDim S409600 ![] bcast_S_S409600 : (⟨S_, .i32⟩ : BufTy).Contents (Elt F) → (⟨S409600, .i32⟩ : BufTy).Contents (Elt F)),
    binary main_v548 main_v561 main_v562 (addi : (⟨S409600, .i32⟩ : BufTy).Contents (Elt F) → (⟨S409600, .i32⟩ : BufTy).Contents (Elt F) → (⟨S409600, .i32⟩ : BufTy).Contents (Elt F)),
    ternary main_v560 main_v562 main_v548 main_v563 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v553 main_v564 (broadcastInDim S409600x1 ![0] bcast_S409600_S409600x1_0 : (⟨S409600, .i32⟩ : BufTy).Contents (Elt F) → (⟨S409600x1, .i32⟩ : BufTy).Contents (Elt F)),
    unary main_v558 main_v565 (broadcastInDim S409600x1 ![0] bcast_S409600_S409600x1_0 : (⟨S409600, .i32⟩ : BufTy).Contents (Elt F) → (⟨S409600x1, .i32⟩ : BufTy).Contents (Elt F)) ]

set_option maxRecDepth 8192 in
set_option maxHeartbeats 4000000 in
theorem main_part12_eq (c : Dev nD) : main_part12 (F := F) c = seq ops_p12 := by
  simp only [main_part12, ops_p12, fn_clip.body, fn_where.body, fn_where_0.body, fn_relu.body, seq, bind_assoc, pure_bind]
  rfl

set_option maxRecDepth 8192 in
theorem ops_p12_sub : (ops_p12 : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

set_option maxRecDepth 8192 in
theorem ops_p12_fresh : ∀ op ∈ (ops_p12 : List (HloOp τ sig (Elt F))), op.fresh = ∅ := by
  unfold ops_p12; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 864 on hold before it. -/
structure Inv12_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1

/-- What the buffers read from operation 872 on hold before it. -/
structure Inv12_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v533 : V (Proc.devRef .tc main_v533) = val_main_v533 (F := F) x1
  main_c_197 : V (Proc.devRef .tc main_c_197) = val_main_c_197 (F := F)

/-- What the buffers read from operation 880 on hold before it. -/
structure Inv12_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v533 : V (Proc.devRef .tc main_v533) = val_main_v533 (F := F) x1
  main_v535 : V (Proc.devRef .tc main_v535) = val_main_v535 (F := F) x1
  main_v537 : V (Proc.devRef .tc main_v537) = val_main_v537 (F := F) x1
  main_v539 : V (Proc.devRef .tc main_v539) = val_main_v539 (F := F) x1

/-- What the buffers read from operation 888 on hold before it. -/
structure Inv12_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v533 : V (Proc.devRef .tc main_v533) = val_main_v533 (F := F) x1
  main_v535 : V (Proc.devRef .tc main_v535) = val_main_v535 (F := F) x1
  main_v543 : V (Proc.devRef .tc main_v543) = val_main_v543 (F := F) x1
  main_v545 : V (Proc.devRef .tc main_v545) = val_main_v545 (F := F) x1

/-- What the buffers read from operation 896 on hold before it. -/
structure Inv12_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v535 : V (Proc.devRef .tc main_v535) = val_main_v535 (F := F) x1
  main_v546 : V (Proc.devRef .tc main_v546) = val_main_v546 (F := F) x1
  main_call37_v2 : V (Proc.devRef .tc main_call37_v2) = val_main_call37_v2 (F := F) x1
  main_call37_v4 : V (Proc.devRef .tc main_call37_v4) = val_main_call37_v4 (F := F)

/-- What the buffers read from operation 904 on hold before it. -/
structure Inv12_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v546 : V (Proc.devRef .tc main_v546) = val_main_v546 (F := F) x1
  main_v547 : V (Proc.devRef .tc main_v547) = val_main_v547 (F := F) x1
  main_call38_v2 : V (Proc.devRef .tc main_call38_v2) = val_main_call38_v2 (F := F) x1
  main_call38_v4 : V (Proc.devRef .tc main_call38_v4) = val_main_call38_v4 (F := F)

/-- What the buffers read from operation 912 on hold before it. -/
structure Inv12_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v546 : V (Proc.devRef .tc main_v546) = val_main_v546 (F := F) x1
  main_v547 : V (Proc.devRef .tc main_v547) = val_main_v547 (F := F) x1
  main_v548 : V (Proc.devRef .tc main_v548) = val_main_v548 (F := F) x1
  main_v553 : V (Proc.devRef .tc main_v553) = val_main_v553 (F := F) x1

/-- What the buffers read from operation 920 on hold before it. -/
structure Inv12_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v546 : V (Proc.devRef .tc main_v546) = val_main_v546 (F := F) x1
  main_v548 : V (Proc.devRef .tc main_v548) = val_main_v548 (F := F) x1
  main_v553 : V (Proc.devRef .tc main_v553) = val_main_v553 (F := F) x1
  main_v558 : V (Proc.devRef .tc main_v558) = val_main_v558 (F := F) x1
  main_c_210 : V (Proc.devRef .tc main_c_210) = val_main_c_210 (F := F)

/-- Stretch 0 of window 12: @main's operations 856 … 863. -/
def ops_p12_0 : List (HloOp τ sig (Elt F)) :=
  [ binary main_v520 main_v522 main_v523 (addf : (⟨S409600x64, .f32⟩ : BufTy).Contents (Elt F) → (⟨S409600x64, .f32⟩ : BufTy).Contents (Elt F) → (⟨S409600x64, .f32⟩ : BufTy).Contents (Elt F)),
    nullary main_call36_cst ((constant S_ .f32 0x00000000#32) : (⟨S_, .f32⟩ : BufTy).Contents (Elt F)),
    unary main_call36_cst main_call36_v0 ((broadcastInDim S409600x64 ![] bcast_S_S409600x64) : (⟨S_, .f32⟩ : BufTy).Contents (Elt F) → (⟨S409600x64, .f32⟩ : BufTy).Contents (Elt F)),
    binary main_v523 main_call36_v0 main_v524 (maximumf : (⟨S409600x64, .f32⟩ : BufTy).Contents (Elt F) → (⟨S409600x64, .f32⟩ : BufTy).Contents (Elt F) → (⟨S409600x64, .f32⟩ : BufTy).Contents (Elt F)),
    unary main_arg1 main_v525 ((extractStridedSlice S409600x1 ![0, 0] · slices_S409600x3_S409600x1_0_0) : (⟨S409600x3, .i32⟩ : BufTy).Contents (Elt F) → (⟨S409600x1, .i32⟩ : BufTy).Contents (Elt F)),
    reshape main_v525 main_v526 rfl shapeCasts_S409600x1_S409600,
    unary main_arg1 main_v527 ((extractStridedSlice S409600x1 ![0, 1] · slices_S409600x3_S409600x1_0_1) : (⟨S409600x3, .i32⟩ : BufTy).Contents (Elt F) → (⟨S409600x1, .i32⟩ : BufTy).Contents (Elt F)),
    reshape main_v527 main_v528 rfl shapeCasts_S409600x1_S409600 ]
abbrev ops_p12_0_W : List (Ref sig .tc) := [main_v523, main_call36_cst, main_call36_v0, main_v524, main_v525, main_v526, main_v527, main_v528]
theorem ops_p12_0_writes : (ops_p12_0 : List (HloOp τ sig (Elt F))).Forall fun op => op.writes ⊆ (ops_p12_0_W.map (Proc.devRef (τ := τ) .tc)).toFinset := by
  simp only [ops_p12_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p12_0_keep (V : Valuation τ sig (Elt F)) (r : Ref sig .tc) (h : r ∉ ops_p12_0_W) :
    after ops_p12_0 V (Proc.devRef .tc r) = V (Proc.devRef .tc r) :=
  after_of_writes_sub ops_p12_0 _ ops_p12_0_writes h

set_option maxRecDepth 8192 in
set_option maxHeartbeats 1000000 in
theorem w12_0_main_v524 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12 V x0 x1 x2 x3 x4 x5 x6) :
    after ops_p12_0 V (Proc.devRef .tc main_v524) = val_main_v524 (F := F) x0 x1 x2 x3 := by
  simp only [ops_p12_0]
  after_results_w
  simp only [h.main_v522, h.main_v520]
  rfl

set_option maxRecDepth 8192 in
set_option maxHeartbeats 1000000 in
theorem w12_0_main_v526 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12 V x0 x1 x2 x3 x4 x5 x6) :
    after ops_p12_0 V (Proc.devRef .tc main_v526) = val_main_v526 (F := F) x1 := by
  simp only [ops_p12_0]
  after_results_w
  simp only [h.main_arg1]
  rfl

set_option maxRecDepth 8192 in
set_option maxHeartbeats 1000000 in
theorem w12_0_main_v528 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12 V x0 x1 x2 x3 x4 x5 x6) :
    after ops_p12_0 V (Proc.devRef .tc main_v528) = val_main_v528 (F := F) x1 := by
  simp only [ops_p12_0]
  after_results_w
  simp only [h.main_arg1]
  rfl

theorem step12_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12 V x0 x1 x2 x3 x4 x5 x6) : Inv12_1 (after ops_p12_0 V) x0 x1 x2 x3 x4 x5 x6 where
  main_arg0 := (ops_p12_0_keep V main_arg0 (by decide)).trans h.main_arg0
  main_arg1 := (ops_p12_0_keep V main_arg1 (by decide)).trans h.main_arg1
  main_arg2 := (ops_p12_0_keep V main_arg2 (by decide)).trans h.main_arg2
  main_arg3 := (ops_p12_0_keep V main_arg3 (by decide)).trans h.main_arg3
  main_arg4 := (ops_p12_0_keep V main_arg4 (by decide)).trans h.main_arg4
  main_arg5 := (ops_p12_0_keep V main_arg5 (by decide)).trans h.main_arg5
  main_arg6 := (ops_p12_0_keep V main_arg6 (by decide)).trans h.main_arg6
  main_v27 := (ops_p12_0_keep V main_v27 (by decide)).trans h.main_v27
  main_v524 := w12_0_main_v524 V x0 x1 x2 x3 x4 x5 x6 h
  main_v526 := w12_0_main_v526 V x0 x1 x2 x3 x4 x5 x6 h
  main_v528 := w12_0_main_v528 V x0 x1 x2 x3 x4 x5 x6 h

/-- Stretch 1 of window 12: @main's operations 864 … 871. -/
def ops_p12_1 : List (HloOp τ sig (Elt F)) :=
  [ unary main_arg1 main_v529 ((extractStridedSlice S409600x1 ![0, 2] · slices_S409600x3_S409600x1_0_2) : (⟨S409600x3, .i32⟩ : BufTy).Contents (Elt F) → (⟨S409600x1, .i32⟩ : BufTy).Contents (Elt F)),
    reshape main_v529 main_v530 rfl shapeCasts_S409600x1_S409600,
    nullary main_cst_195 (constant S_ .f32 0x00000000#32),
    unary main_cst_195 main_v531 (broadcastInDim S409600x64 ![] bcast_S_S409600x64 : (⟨S_, .f32⟩ : BufTy).Contents (Elt F) → (⟨S409600x64, .f32⟩ : BufTy).Contents (Elt F)),
    nullary main_c_196 (constantI S_ 32 4294967295#32),
    unary main_c_196 main_v532 (broadcastInDim S409600 ![] bcast_S_S409600 : (⟨S_, .i32⟩ : BufTy).Contents (Elt F) → (⟨S409600, .i32⟩ : BufTy).Contents (Elt F)),
    binary main_v528 main_v532 main_v533 (addi : (⟨S409600, .i32⟩ : BufTy).Contents (Elt F) → (⟨S409600, .i32⟩ : BufTy).Contents (Elt F) → (⟨S409600, .i32⟩ : BufTy).Contents (Elt F)),
    nullary main_c_197 (constantI S_ 32 4294967295#32) ]
abbrev ops_p12_1_W : List (Ref sig .tc) := [main_v529, main_v530, main_cst_195, main_v531, main_c_196, main_v532, main_v533, main_c_197]
theorem ops_p12_1_writes : (ops_p12_1 : List (HloOp τ sig (Elt F))).Forall fun op => op.writes ⊆ (ops_p12_1_W.map (Proc.devRef (τ := τ) .tc)).toFinset := by
  simp only [ops_p12_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p12_1_keep (V : Valuation τ sig (Elt F)) (r : Ref sig .tc) (h : r ∉ ops_p12_1_W) :
    after ops_p12_1 V (Proc.devRef .tc r) = V (Proc.devRef .tc r) :=
  after_of_writes_sub ops_p12_1 _ ops_p12_1_writes h

set_option maxRecDepth 8192 in
set_option maxHeartbeats 1000000 in
theorem w12_1_main_v530 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_1 V x0 x1 x2 x3 x4 x5 x6) :
    after ops_p12_1 V (Proc.devRef .tc main_v530) = val_main_v530 (F := F) x1 := by
  simp only [ops_p12_1]
  after_results_w
  simp only [h.main_arg1]
  rfl

set_option maxRecDepth 8192 in
set_option maxHeartbeats 1000000 in
theorem w12_1_main_v531 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_1 V x0 x1 x2 x3 x4 x5 x6) :
    after ops_p12_1 V (Proc.devRef .tc main_v531) = val_main_v531 (F := F) := by
  simp only [ops_p12_1]
  after_results_w
  rfl

set_option maxRecDepth 8192 in
set_option maxHeartbeats 1000000 in
theorem w12_1_main_v533 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_1 V x0 x1 x2 x3 x4 x5 x6) :
    after ops_p12_1 V (Proc.devRef .tc main_v533) = val_main_v533 (F := F) x1 := by
  simp only [ops_p12_1]
  after_results_w
  simp only [h.main_v528]
  rfl

set_option maxRecDepth 8192 in
set_option maxHeartbeats 1000000 in
theorem w12_1_main_c_197 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_1 V x0 x1 x2 x3 x4 x5 x6) :
    after ops_p12_1 V (Proc.devRef .tc main_c_197) = val_main_c_197 (F := F) := by
  simp only [ops_p12_1]
  after_results_w
  rfl

theorem step12_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_1 V x0 x1 x2 x3 x4 x5 x6) : Inv12_2 (after ops_p12_1 V) x0 x1 x2 x3 x4 x5 x6 where
  main_arg0 := (ops_p12_1_keep V main_arg0 (by decide)).trans h.main_arg0
  main_arg1 := (ops_p12_1_keep V main_arg1 (by decide)).trans h.main_arg1
  main_arg2 := (ops_p12_1_keep V main_arg2 (by decide)).trans h.main_arg2
  main_arg3 := (ops_p12_1_keep V main_arg3 (by decide)).trans h.main_arg3
  main_arg4 := (ops_p12_1_keep V main_arg4 (by decide)).trans h.main_arg4
  main_arg5 := (ops_p12_1_keep V main_arg5 (by decide)).trans h.main_arg5
  main_arg6 := (ops_p12_1_keep V main_arg6 (by decide)).trans h.main_arg6
  main_v27 := (ops_p12_1_keep V main_v27 (by decide)).trans h.main_v27
  main_v524 := (ops_p12_1_keep V main_v524 (by decide)).trans h.main_v524
  main_v526 := (ops_p12_1_keep V main_v526 (by decide)).trans h.main_v526
  main_v528 := (ops_p12_1_keep V main_v528 (by decide)).trans h.main_v528
  main_v530 := w12_1_main_v530 V x0 x1 x2 x3 x4 x5 x6 h
  main_v531 := w12_1_main_v531 V x0 x1 x2 x3 x4 x5 x6 h
  main_v533 := w12_1_main_v533 V x0 x1 x2 x3 x4 x5 x6 h
  main_c_197 := w12_1_main_c_197 V x0 x1 x2 x3 x4 x5 x6 h

/-- Stretch 2 of window 12: @main's operations 872 … 879. -/
def ops_p12_2 : List (HloOp τ sig (Elt F)) :=
  [ unary main_c_197 main_v534 (broadcastInDim S409600 ![] bcast_S_S409600 : (⟨S_, .i32⟩ : BufTy).Contents (Elt F) → (⟨S409600, .i32⟩ : BufTy).Contents (Elt F)),
    binary main_v530 main_v534 main_v535 (addi : (⟨S409600, .i32⟩ : BufTy).Contents (Elt F) → (⟨S409600, .i32⟩ : BufTy).Contents (Elt F) → (⟨S409600, .i32⟩ : BufTy).Contents (Elt F)),
    nullary main_c_198 (constantI S_ 32 0#32),
    unary main_c_198 main_v536 (broadcastInDim S409600 ![] bcast_S_S409600 : (⟨S_, .i32⟩ : BufTy).Contents (Elt F) → (⟨S409600, .i32⟩ : BufTy).Contents (Elt F)),
    binary main_v533 main_v536 main_v537 (cmpi .sge : (⟨S409600, .i32⟩ : BufTy).Contents (Elt F) → (⟨S409600, .i32⟩ : BufTy).Contents (Elt F) → (⟨S409600, .i1⟩ : BufTy).Contents (Elt F)),
    nullary main_c_199 (constantI S_ 32 640#32),
    unary main_c_199 main_v538 (broadcastInDim S409600 ![] bcast_S_S409600 : (⟨S_, .i32⟩ : BufTy).Contents (Elt F) → (⟨S409600, .i32⟩ : BufTy).Contents (Elt F)),
    binary main_v533 main_v538 main_v539 (cmpi .slt : (⟨S409600, .i32⟩ : BufTy).Contents (Elt F) → (⟨S409600, .i32⟩ : BufTy).Contents (Elt F) → (⟨S409600, .i1⟩ : BufTy).Contents (Elt F)) ]
abbrev ops_p12_2_W : List (Ref sig .tc) := [main_v534, main_v535, main_c_198, main_v536, main_v537, main_c_199, main_v538, main_v539]
theorem ops_p12_2_writes : (ops_p12_2 : List (HloOp τ sig (Elt F))).Forall fun op => op.writes ⊆ (ops_p12_2_W.map (Proc.devRef (τ := τ) .tc)).toFinset := by
  simp only [ops_p12_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p12_2_keep (V : Valuation τ sig (Elt F)) (r : Ref sig .tc) (h : r ∉ ops_p12_2_W) :
    after ops_p12_2 V (Proc.devRef .tc r) = V (Proc.devRef .tc r) :=
  after_of_writes_sub ops_p12_2 _ ops_p12_2_writes h

set_option maxRecDepth 8192 in
set_option maxHeartbeats 1000000 in
theorem w12_2_main_v535 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_2 V x0 x1 x2 x3 x4 x5 x6) :
    after ops_p12_2 V (Proc.devRef .tc main_v535) = val_main_v535 (F := F) x1 := by
  simp only [ops_p12_2]
  after_results_w
  simp only [h.main_c_197, h.main_v530]
  rfl

set_option maxRecDepth 8192 in
set_option maxHeartbeats 1000000 in
theorem w12_2_main_v537 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_2 V x0 x1 x2 x3 x4 x5 x6) :
    after ops_p12_2 V (Proc.devRef .tc main_v537) = val_main_v537 (F := F) x1 := by
  simp only [ops_p12_2]
  after_results_w
  simp only [h.main_v533]
  rfl

set_option maxRecDepth 8192 in
set_option maxHeartbeats 1000000 in
theorem w12_2_main_v539 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_2 V x0 x1 x2 x3 x4 x5 x6) :
    after ops_p12_2 V (Proc.devRef .tc main_v539) = val_main_v539 (F := F) x1 := by
  simp only [ops_p12_2]
  after_results_w
  simp only [h.main_v533]
  rfl

theorem step12_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_2 V x0 x1 x2 x3 x4 x5 x6) : Inv12_3 (after ops_p12_2 V) x0 x1 x2 x3 x4 x5 x6 where
  main_arg0 := (ops_p12_2_keep V main_arg0 (by decide)).trans h.main_arg0
  main_arg1 := (ops_p12_2_keep V main_arg1 (by decide)).trans h.main_arg1
  main_arg2 := (ops_p12_2_keep V main_arg2 (by decide)).trans h.main_arg2
  main_arg3 := (ops_p12_2_keep V main_arg3 (by decide)).trans h.main_arg3
  main_arg4 := (ops_p12_2_keep V main_arg4 (by decide)).trans h.main_arg4
  main_arg5 := (ops_p12_2_keep V main_arg5 (by decide)).trans h.main_arg5
  main_arg6 := (ops_p12_2_keep V main_arg6 (by decide)).trans h.main_arg6
  main_v27 := (ops_p12_2_keep V main_v27 (by decide)).trans h.main_v27
  main_v524 := (ops_p12_2_keep V main_v524 (by decide)).trans h.main_v524
  main_v526 := (ops_p12_2_keep V main_v526 (by decide)).trans h.main_v526
  main_v528 := (ops_p12_2_keep V main_v528 (by decide)).trans h.main_v528
  main_v530 := (ops_p12_2_keep V main_v530 (by decide)).trans h.main_v530
  main_v531 := (ops_p12_2_keep V main_v531 (by decide)).trans h.main_v531
  main_v533 := (ops_p12_2_keep V main_v533 (by decide)).trans h.main_v533
  main_v535 := w12_2_main_v535 V x0 x1 x2 x3 x4 x5 x6 h
  main_v537 := w12_2_main_v537 V x0 x1 x2 x3 x4 x5 x6 h
  main_v539 := w12_2_main_v539 V x0 x1 x2 x3 x4 x5 x6 h

/-- Stretch 3 of window 12: @main's operations 880 … 887. -/
def ops_p12_3 : List (HloOp τ sig (Elt F)) :=
  [ binary main_v537 main_v539 main_v540 (andi : (⟨S409600, .i1⟩ : BufTy).Contents (Elt F) → (⟨S409600, .i1⟩ : BufTy).Contents (Elt F) → (⟨S409600, .i1⟩ : BufTy).Contents (Elt F)),
    nullary main_c_200 (constantI S_ 32 0#32),
    unary main_c_200 main_v541 (broadcastInDim S409600 ![] bcast_S_S409600 : (⟨S_, .i32⟩ : BufTy).Contents (Elt F) → (⟨S409600, .i32⟩ : BufTy).Contents (Elt F)),
    binary main_v535 main_v541 main_v542 (cmpi .sge : (⟨S409600, .i32⟩ : BufTy).Contents (Elt F) → (⟨S409600, .i32⟩ : BufTy).Contents (Elt F) → (⟨S409600, .i1⟩ : BufTy).Contents (Elt F)),
    binary main_v540 main_v542 main_v543 (andi : (⟨S409600, .i1⟩ : BufTy).Contents (Elt F) → (⟨S409600, .i1⟩ : BufTy).Contents (Elt F) → (⟨S409600, .i1⟩ : BufTy).Contents (Elt F)),
    nullary main_c_201 (constantI S_ 32 640#32),
    unary main_c_201 main_v544 (broadcastInDim S409600 ![] bcast_S_S409600 : (⟨S_, .i32⟩ : BufTy).Contents (Elt F) → (⟨S409600, .i32⟩ : BufTy).Contents (Elt F)),
    binary main_v535 main_v544 main_v545 (cmpi .slt : (⟨S409600, .i32⟩ : BufTy).Contents (Elt F) → (⟨S409600, .i32⟩ : BufTy).Contents (Elt F) → (⟨S409600, .i1⟩ : BufTy).Contents (Elt F)) ]
abbrev ops_p12_3_W : List (Ref sig .tc) := [main_v540, main_c_200, main_v541, main_v542, main_v543, main_c_201, main_v544, main_v545]
theorem ops_p12_3_writes : (ops_p12_3 : List (HloOp τ sig (Elt F))).Forall fun op => op.writes ⊆ (ops_p12_3_W.map (Proc.devRef (τ := τ) .tc)).toFinset := by
  simp only [ops_p12_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p12_3_keep (V : Valuation τ sig (Elt F)) (r : Ref sig .tc) (h : r ∉ ops_p12_3_W) :
    after ops_p12_3 V (Proc.devRef .tc r) = V (Proc.devRef .tc r) :=
  after_of_writes_sub ops_p12_3 _ ops_p12_3_writes h

set_option maxRecDepth 8192 in
set_option maxHeartbeats 1000000 in
theorem w12_3_main_v543 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_3 V x0 x1 x2 x3 x4 x5 x6) :
    after ops_p12_3 V (Proc.devRef .tc main_v543) = val_main_v543 (F := F) x1 := by
  simp only [ops_p12_3]
  after_results_w
  simp only [h.main_v535, h.main_v539, h.main_v537]
  rfl

set_option maxRecDepth 8192 in
set_option maxHeartbeats 1000000 in
theorem w12_3_main_v545 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_3 V x0 x1 x2 x3 x4 x5 x6) :
    after ops_p12_3 V (Proc.devRef .tc main_v545) = val_main_v545 (F := F) x1 := by
  simp only [ops_p12_3]
  after_results_w
  simp only [h.main_v535]
  rfl

theorem step12_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_3 V x0 x1 x2 x3 x4 x5 x6) : Inv12_4 (after ops_p12_3 V) x0 x1 x2 x3 x4 x5 x6 where
  main_arg0 := (ops_p12_3_keep V main_arg0 (by decide)).trans h.main_arg0
  main_arg1 := (ops_p12_3_keep V main_arg1 (by decide)).trans h.main_arg1
  main_arg2 := (ops_p12_3_keep V main_arg2 (by decide)).trans h.main_arg2
  main_arg3 := (ops_p12_3_keep V main_arg3 (by decide)).trans h.main_arg3
  main_arg4 := (ops_p12_3_keep V main_arg4 (by decide)).trans h.main_arg4
  main_arg5 := (ops_p12_3_keep V main_arg5 (by decide)).trans h.main_arg5
  main_arg6 := (ops_p12_3_keep V main_arg6 (by decide)).trans h.main_arg6
  main_v27 := (ops_p12_3_keep V main_v27 (by decide)).trans h.main_v27
  main_v524 := (ops_p12_3_keep V main_v524 (by decide)).trans h.main_v524
  main_v526 := (ops_p12_3_keep V main_v526 (by decide)).trans h.main_v526
  main_v528 := (ops_p12_3_keep V main_v528 (by decide)).trans h.main_v528
  main_v530 := (ops_p12_3_keep V main_v530 (by decide)).trans h.main_v530
  main_v531 := (ops_p12_3_keep V main_v531 (by decide)).trans h.main_v531
  main_v533 := (ops_p12_3_keep V main_v533 (by decide)).trans h.main_v533
  main_v535 := (ops_p12_3_keep V main_v535 (by decide)).trans h.main_v535
  main_v543 := w12_3_main_v543 V x0 x1 x2 x3 x4 x5 x6 h
  main_v545 := w12_3_main_v545 V x0 x1 x2 x3 x4 x5 x6 h

/-- Stretch 4 of window 12: @main's operations 888 … 895. -/
def ops_p12_4 : List (HloOp τ sig (Elt F)) :=
  [ binary main_v543 main_v545 main_v546 (andi : (⟨S409600, .i1⟩ : BufTy).Contents (Elt F) → (⟨S409600, .i1⟩ : BufTy).Contents (Elt F) → (⟨S409600, .i1⟩ : BufTy).Contents (Elt F)),
    nullary main_c_202 (constantI S_ 32 0#32),
    nullary main_c_203 (constantI S_ 32 639#32),
    unary main_c_202 main_call37_v0 (id : (⟨S_, .i32⟩ : BufTy).Contents (Elt F) → (⟨S_, .i32⟩ : BufTy).Contents (Elt F)),
    unary main_call37_v0 main_call37_v1 ((broadcastInDim S409600 ![] bcast_S_S409600) : (⟨S_, .i32⟩ : BufTy).Contents (Elt F) → (⟨S409600, .i32⟩ : BufTy).Contents (Elt F)),
    binary main_call37_v1 main_v533 main_call37_v2 (maxsi : (⟨S409600, .i32⟩ : BufTy).Contents (Elt F) → (⟨S409600, .i32⟩ : BufTy).Contents (Elt F) → (⟨S409600, .i32⟩ : BufTy).Contents (Elt F)),
    unary main_c_203 main_call37_v3 (id : (⟨S_, .i32⟩ : BufTy).Contents (Elt F) → (⟨S_, .i32⟩ : BufTy).Contents (Elt F)),
    unary main_call37_v3 main_call37_v4 ((broadcastInDim S409600 ![] bcast_S_S409600) : (⟨S_, .i32⟩ : BufTy).Contents (Elt F) → (⟨S409600, .i32⟩ : BufTy).Contents (Elt F)) ]
abbrev ops_p12_4_W : List (Ref sig .tc) := [main_v546, main_c_202, main_c_203, main_call37_v0, main_call37_v1, main_call37_v2, main_call37_v3, main_call37_v4]
theorem ops_p12_4_writes : (ops_p12_4 : List (HloOp τ sig (Elt F))).Forall fun op => op.writes ⊆ (ops_p12_4_W.map (Proc.devRef (τ := τ) .tc)).toFinset := by
  simp only [ops_p12_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p12_4_keep (V : Valuation τ sig (Elt F)) (r : Ref sig .tc) (h : r ∉ ops_p12_4_W) :
    after ops_p12_4 V (Proc.devRef .tc r) = V (Proc.devRef .tc r) :=
  after_of_writes_sub ops_p12_4 _ ops_p12_4_writes h

set_option maxRecDepth 8192 in
set_option maxHeartbeats 1000000 in
theorem w12_4_main_v546 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_4 V x0 x1 x2 x3 x4 x5 x6) :
    after ops_p12_4 V (Proc.devRef .tc main_v546) = val_main_v546 (F := F) x1 := by
  simp only [ops_p12_4]
  after_results_w
  simp only [h.main_v545, h.main_v543]
  rfl

set_option maxRecDepth 8192 in
set_option maxHeartbeats 1000000 in
theorem w12_4_main_call37_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_4 V x0 x1 x2 x3 x4 x5 x6) :
    after ops_p12_4 V (Proc.devRef .tc main_call37_v2) = val_main_call37_v2 (F := F) x1 := by
  simp only [ops_p12_4]
  after_results_w
  simp only [h.main_v533]
  rfl

set_option maxRecDepth 8192 in
set_option maxHeartbeats 1000000 in
theorem w12_4_main_call37_v4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_4 V x0 x1 x2 x3 x4 x5 x6) :
    after ops_p12_4 V (Proc.devRef .tc main_call37_v4) = val_main_call37_v4 (F := F) := by
  simp only [ops_p12_4]
  after_results_w
  rfl

theorem step12_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_4 V x0 x1 x2 x3 x4 x5 x6) : Inv12_5 (after ops_p12_4 V) x0 x1 x2 x3 x4 x5 x6 where
  main_arg0 := (ops_p12_4_keep V main_arg0 (by decide)).trans h.main_arg0
  main_arg1 := (ops_p12_4_keep V main_arg1 (by decide)).trans h.main_arg1
  main_arg2 := (ops_p12_4_keep V main_arg2 (by decide)).trans h.main_arg2
  main_arg3 := (ops_p12_4_keep V main_arg3 (by decide)).trans h.main_arg3
  main_arg4 := (ops_p12_4_keep V main_arg4 (by decide)).trans h.main_arg4
  main_arg5 := (ops_p12_4_keep V main_arg5 (by decide)).trans h.main_arg5
  main_arg6 := (ops_p12_4_keep V main_arg6 (by decide)).trans h.main_arg6
  main_v27 := (ops_p12_4_keep V main_v27 (by decide)).trans h.main_v27
  main_v524 := (ops_p12_4_keep V main_v524 (by decide)).trans h.main_v524
  main_v526 := (ops_p12_4_keep V main_v526 (by decide)).trans h.main_v526
  main_v528 := (ops_p12_4_keep V main_v528 (by decide)).trans h.main_v528
  main_v530 := (ops_p12_4_keep V main_v530 (by decide)).trans h.main_v530
  main_v531 := (ops_p12_4_keep V main_v531 (by decide)).trans h.main_v531
  main_v535 := (ops_p12_4_keep V main_v535 (by decide)).trans h.main_v535
  main_v546 := w12_4_main_v546 V x0 x1 x2 x3 x4 x5 x6 h
  main_call37_v2 := w12_4_main_call37_v2 V x0 x1 x2 x3 x4 x5 x6 h
  main_call37_v4 := w12_4_main_call37_v4 V x0 x1 x2 x3 x4 x5 x6 h

/-- Stretch 5 of window 12: @main's operations 896 … 903. -/
def ops_p12_5 : List (HloOp τ sig (Elt F)) :=
  [ binary main_call37_v4 main_call37_v2 main_v547 (minsi : (⟨S409600, .i32⟩ : BufTy).Contents (Elt F) → (⟨S409600, .i32⟩ : BufTy).Contents (Elt F) → (⟨S409600, .i32⟩ : BufTy).Contents (Elt F)),
    nullary main_c_204 (constantI S_ 32 0#32),
    nullary main_c_205 (constantI S_ 32 639#32),
    unary main_c_204 main_call38_v0 (id : (⟨S_, .i32⟩ : BufTy).Contents (Elt F) → (⟨S_, .i32⟩ : BufTy).Contents (Elt F)),
    unary main_call38_v0 main_call38_v1 ((broadcastInDim S409600 ![] bcast_S_S409600) : (⟨S_, .i32⟩ : BufTy).Contents (Elt F) → (⟨S409600, .i32⟩ : BufTy).Contents (Elt F)),
    binary main_call38_v1 main_v535 main_call38_v2 (maxsi : (⟨S409600, .i32⟩ : BufTy).Contents (Elt F) → (⟨S409600, .i32⟩ : BufTy).Contents (Elt F) → (⟨S409600, .i32⟩ : BufTy).Contents (Elt F)),
    unary main_c_205 main_call38_v3 (id : (⟨S_, .i32⟩ : BufTy).Contents (Elt F) → (⟨S_, .i32⟩ : BufTy).Contents (Elt F)),
    unary main_call38_v3 main_call38_v4 ((broadcastInDim S409600 ![] bcast_S_S409600) : (⟨S_, .i32⟩ : BufTy).Contents (Elt F) → (⟨S409600, .i32⟩ : BufTy).Contents (Elt F)) ]
abbrev ops_p12_5_W : List (Ref sig .tc) := [main_v547, main_c_204, main_c_205, main_call38_v0, main_call38_v1, main_call38_v2, main_call38_v3, main_call38_v4]
theorem ops_p12_5_writes : (ops_p12_5 : List (HloOp τ sig (Elt F))).Forall fun op => op.writes ⊆ (ops_p12_5_W.map (Proc.devRef (τ := τ) .tc)).toFinset := by
  simp only [ops_p12_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p12_5_keep (V : Valuation τ sig (Elt F)) (r : Ref sig .tc) (h : r ∉ ops_p12_5_W) :
    after ops_p12_5 V (Proc.devRef .tc r) = V (Proc.devRef .tc r) :=
  after_of_writes_sub ops_p12_5 _ ops_p12_5_writes h

set_option maxRecDepth 8192 in
set_option maxHeartbeats 1000000 in
theorem w12_5_main_v547 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_5 V x0 x1 x2 x3 x4 x5 x6) :
    after ops_p12_5 V (Proc.devRef .tc main_v547) = val_main_v547 (F := F) x1 := by
  simp only [ops_p12_5]
  after_results_w
  simp only [h.main_call37_v2, h.main_call37_v4]
  rfl

set_option maxRecDepth 8192 in
set_option maxHeartbeats 1000000 in
theorem w12_5_main_call38_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_5 V x0 x1 x2 x3 x4 x5 x6) :
    after ops_p12_5 V (Proc.devRef .tc main_call38_v2) = val_main_call38_v2 (F := F) x1 := by
  simp only [ops_p12_5]
  after_results_w
  simp only [h.main_v535]
  rfl

set_option maxRecDepth 8192 in
set_option maxHeartbeats 1000000 in
theorem w12_5_main_call38_v4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_5 V x0 x1 x2 x3 x4 x5 x6) :
    after ops_p12_5 V (Proc.devRef .tc main_call38_v4) = val_main_call38_v4 (F := F) := by
  simp only [ops_p12_5]
  after_results_w
  rfl

theorem step12_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_5 V x0 x1 x2 x3 x4 x5 x6) : Inv12_6 (after ops_p12_5 V) x0 x1 x2 x3 x4 x5 x6 where
  main_arg0 := (ops_p12_5_keep V main_arg0 (by decide)).trans h.main_arg0
  main_arg1 := (ops_p12_5_keep V main_arg1 (by decide)).trans h.main_arg1
  main_arg2 := (ops_p12_5_keep V main_arg2 (by decide)).trans h.main_arg2
  main_arg3 := (ops_p12_5_keep V main_arg3 (by decide)).trans h.main_arg3
  main_arg4 := (ops_p12_5_keep V main_arg4 (by decide)).trans h.main_arg4
  main_arg5 := (ops_p12_5_keep V main_arg5 (by decide)).trans h.main_arg5
  main_arg6 := (ops_p12_5_keep V main_arg6 (by decide)).trans h.main_arg6
  main_v27 := (ops_p12_5_keep V main_v27 (by decide)).trans h.main_v27
  main_v524 := (ops_p12_5_keep V main_v524 (by decide)).trans h.main_v524
  main_v526 := (ops_p12_5_keep V main_v526 (by decide)).trans h.main_v526
  main_v528 := (ops_p12_5_keep V main_v528 (by decide)).trans h.main_v528
  main_v530 := (ops_p12_5_keep V main_v530 (by decide)).trans h.main_v530
  main_v531 := (ops_p12_5_keep V main_v531 (by decide)).trans h.main_v531
  main_v546 := (ops_p12_5_keep V main_v546 (by decide)).trans h.main_v546
  main_v547 := w12_5_main_v547 V x0 x1 x2 x3 x4 x5 x6 h
  main_call38_v2 := w12_5_main_call38_v2 V x0 x1 x2 x3 x4 x5 x6 h
  main_call38_v4 := w12_5_main_call38_v4 V x0 x1 x2 x3 x4 x5 x6 h

/-- Stretch 6 of window 12: @main's operations 904 … 911. -/
def ops_p12_6 : List (HloOp τ sig (Elt F)) :=
  [ binary main_call38_v4 main_call38_v2 main_v548 (minsi : (⟨S409600, .i32⟩ : BufTy).Contents (Elt F) → (⟨S409600, .i32⟩ : BufTy).Contents (Elt F) → (⟨S409600, .i32⟩ : BufTy).Contents (Elt F)),
    nullary main_c_206 (constantI S_ 32 0#32),
    unary main_c_206 main_v549 (broadcastInDim S409600 ![] bcast_S_S409600 : (⟨S_, .i32⟩ : BufTy).Contents (Elt F) → (⟨S409600, .i32⟩ : BufTy).Contents (Elt F)),
    binary main_v526 main_v549 main_v550 (cmpi .slt : (⟨S409600, .i32⟩ : BufTy).Contents (Elt F) → (⟨S409600, .i32⟩ : BufTy).Contents (Elt F) → (⟨S409600, .i1⟩ : BufTy).Contents (Elt F)),
    nullary main_c_207 (constantI S_ 32 2#32),
    unary main_c_207 main_v551 (broadcastInDim S409600 ![] bcast_S_S409600 : (⟨S_, .i32⟩ : BufTy).Contents (Elt F) → (⟨S409600, .i32⟩ : BufTy).Contents (Elt F)),
    binary main_v526 main_v551 main_v552 (addi : (⟨S409600, .i32⟩ : BufTy).Contents (Elt F) → (⟨S409600, .i32⟩ : BufTy).Contents (Elt F) → (⟨S409600, .i32⟩ : BufTy).Contents (Elt F)),
    ternary main_v550 main_v552 main_v526 main_v553 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)) ]
abbrev ops_p12_6_W : List (Ref sig .tc) := [main_v548, main_c_206, main_v549, main_v550, main_c_207, main_v551, main_v552, main_v553]
theorem ops_p12_6_writes : (ops_p12_6 : List (HloOp τ sig (Elt F))).Forall fun op => op.writes ⊆ (ops_p12_6_W.map (Proc.devRef (τ := τ) .tc)).toFinset := by
  simp only [ops_p12_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p12_6_keep (V : Valuation τ sig (Elt F)) (r : Ref sig .tc) (h : r ∉ ops_p12_6_W) :
    after ops_p12_6 V (Proc.devRef .tc r) = V (Proc.devRef .tc r) :=
  after_of_writes_sub ops_p12_6 _ ops_p12_6_writes h

set_option maxRecDepth 8192 in
set_option maxHeartbeats 1000000 in
theorem w12_6_main_v548 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_6 V x0 x1 x2 x3 x4 x5 x6) :
    after ops_p12_6 V (Proc.devRef .tc main_v548) = val_main_v548 (F := F) x1 := by
  simp only [ops_p12_6]
  after_results_w
  simp only [h.main_call38_v2, h.main_call38_v4]
  rfl

set_option maxRecDepth 8192 in
set_option maxHeartbeats 1000000 in
theorem w12_6_main_v553 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_6 V x0 x1 x2 x3 x4 x5 x6) :
    after ops_p12_6 V (Proc.devRef .tc main_v553) = val_main_v553 (F := F) x1 := by
  simp only [ops_p12_6]
  after_results_w
  simp only [h.main_v526]
  rfl

theorem step12_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_6 V x0 x1 x2 x3 x4 x5 x6) : Inv12_7 (after ops_p12_6 V) x0 x1 x2 x3 x4 x5 x6 where
  main_arg0 := (ops_p12_6_keep V main_arg0 (by decide)).trans h.main_arg0
  main_arg1 := (ops_p12_6_keep V main_arg1 (by decide)).trans h.main_arg1
  main_arg2 := (ops_p12_6_keep V main_arg2 (by decide)).trans h.main_arg2
  main_arg3 := (ops_p12_6_keep V main_arg3 (by decide)).trans h.main_arg3
  main_arg4 := (ops_p12_6_keep V main_arg4 (by decide)).trans h.main_arg4
  main_arg5 := (ops_p12_6_keep V main_arg5 (by decide)).trans h.main_arg5
  main_arg6 := (ops_p12_6_keep V main_arg6 (by decide)).trans h.main_arg6
  main_v27 := (ops_p12_6_keep V main_v27 (by decide)).trans h.main_v27
  main_v524 := (ops_p12_6_keep V main_v524 (by decide)).trans h.main_v524
  main_v526 := (ops_p12_6_keep V main_v526 (by decide)).trans h.main_v526
  main_v528 := (ops_p12_6_keep V main_v528 (by decide)).trans h.main_v528
  main_v530 := (ops_p12_6_keep V main_v530 (by decide)).trans h.main_v530
  main_v531 := (ops_p12_6_keep V main_v531 (by decide)).trans h.main_v531
  main_v546 := (ops_p12_6_keep V main_v546 (by decide)).trans h.main_v546
  main_v547 := (ops_p12_6_keep V main_v547 (by decide)).trans h.main_v547
  main_v548 := w12_6_main_v548 V x0 x1 x2 x3 x4 x5 x6 h
  main_v553 := w12_6_main_v553 V x0 x1 x2 x3 x4 x5 x6 h

/-- Stretch 7 of window 12: @main's operations 912 … 919. -/
def ops_p12_7 : List (HloOp τ sig (Elt F)) :=
  [ nullary main_c_208 (constantI S_ 32 0#32),
    unary main_c_208 main_v554 (broadcastInDim S409600 ![] bcast_S_S409600 : (⟨S_, .i32⟩ : BufTy).Contents (Elt F) → (⟨S409600, .i32⟩ : BufTy).Contents (Elt F)),
    binary main_v547 main_v554 main_v555 (cmpi .slt : (⟨S409600, .i32⟩ : BufTy).Contents (Elt F) → (⟨S409600, .i32⟩ : BufTy).Contents (Elt F) → (⟨S409600, .i1⟩ : BufTy).Contents (Elt F)),
    nullary main_c_209 (constantI S_ 32 640#32),
    unary main_c_209 main_v556 (broadcastInDim S409600 ![] bcast_S_S409600 : (⟨S_, .i32⟩ : BufTy).Contents (Elt F) → (⟨S409600, .i32⟩ : BufTy).Contents (Elt F)),
    binary main_v547 main_v556 main_v557 (addi : (⟨S409600, .i32⟩ : BufTy).Contents (Elt F) → (⟨S409600, .i32⟩ : BufTy).Contents (Elt F) → (⟨S409600, .i32⟩ : BufTy).Contents (Elt F)),
    ternary main_v555 main_v557 main_v547 main_v558 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_210 (constantI S_ 32 0#32) ]
abbrev ops_p12_7_W : List (Ref sig .tc) := [main_c_208, main_v554, main_v555, main_c_209, main_v556, main_v557, main_v558, main_c_210]
theorem ops_p12_7_writes : (ops_p12_7 : List (HloOp τ sig (Elt F))).Forall fun op => op.writes ⊆ (ops_p12_7_W.map (Proc.devRef (τ := τ) .tc)).toFinset := by
  simp only [ops_p12_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p12_7_keep (V : Valuation τ sig (Elt F)) (r : Ref sig .tc) (h : r ∉ ops_p12_7_W) :
    after ops_p12_7 V (Proc.devRef .tc r) = V (Proc.devRef .tc r) :=
  after_of_writes_sub ops_p12_7 _ ops_p12_7_writes h

set_option maxRecDepth 8192 in
set_option maxHeartbeats 1000000 in
theorem w12_7_main_v558 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_7 V x0 x1 x2 x3 x4 x5 x6) :
    after ops_p12_7 V (Proc.devRef .tc main_v558) = val_main_v558 (F := F) x1 := by
  simp only [ops_p12_7]
  after_results_w
  simp only [h.main_v547]
  rfl

set_option maxRecDepth 8192 in
set_option maxHeartbeats 1000000 in
theorem w12_7_main_c_210 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_7 V x0 x1 x2 x3 x4 x5 x6) :
    after ops_p12_7 V (Proc.devRef .tc main_c_210) = val_main_c_210 (F := F) := by
  simp only [ops_p12_7]
  after_results_w
  rfl

theorem step12_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_7 V x0 x1 x2 x3 x4 x5 x6) : Inv12_8 (after ops_p12_7 V) x0 x1 x2 x3 x4 x5 x6 where
  main_arg0 := (ops_p12_7_keep V main_arg0 (by decide)).trans h.main_arg0
  main_arg1 := (ops_p12_7_keep V main_arg1 (by decide)).trans h.main_arg1
  main_arg2 := (ops_p12_7_keep V main_arg2 (by decide)).trans h.main_arg2
  main_arg3 := (ops_p12_7_keep V main_arg3 (by decide)).trans h.main_arg3
  main_arg4 := (ops_p12_7_keep V main_arg4 (by decide)).trans h.main_arg4
  main_arg5 := (ops_p12_7_keep V main_arg5 (by decide)).trans h.main_arg5
  main_arg6 := (ops_p12_7_keep V main_arg6 (by decide)).trans h.main_arg6
  main_v27 := (ops_p12_7_keep V main_v27 (by decide)).trans h.main_v27
  main_v524 := (ops_p12_7_keep V main_v524 (by decide)).trans h.main_v524
  main_v526 := (ops_p12_7_keep V main_v526 (by decide)).trans h.main_v526
  main_v528 := (ops_p12_7_keep V main_v528 (by decide)).trans h.main_v528
  main_v530 := (ops_p12_7_keep V main_v530 (by decide)).trans h.main_v530
  main_v531 := (ops_p12_7_keep V main_v531 (by decide)).trans h.main_v531
  main_v546 := (ops_p12_7_keep V main_v546 (by decide)).trans h.main_v546
  main_v548 := (ops_p12_7_keep V main_v548 (by decide)).trans h.main_v548
  main_v553 := (ops_p12_7_keep V main_v553 (by decide)).trans h.main_v553
  main_v558 := w12_7_main_v558 V x0 x1 x2 x3 x4 x5 x6 h
  main_c_210 := w12_7_main_c_210 V x0 x1 x2 x3 x4 x5 x6 h

/-- Stretch 8 of window 12: @main's operations 920 … 927. -/
def ops_p12_8 : List (HloOp τ sig (Elt F)) :=
  [ unary main_c_210 main_v559 (broadcastInDim S409600 ![] bcast_S_S409600 : (⟨S_, .i32⟩ : BufTy).Contents (Elt F) → (⟨S409600, .i32⟩ : BufTy).Contents (Elt F)),
    binary main_v548 main_v559 main_v560 (cmpi .slt : (⟨S409600, .i32⟩ : BufTy).Contents (Elt F) → (⟨S409600, .i32⟩ : BufTy).Contents (Elt F) → (⟨S409600, .i1⟩ : BufTy).Contents (Elt F)),
    nullary main_c_211 (constantI S_ 32 640#32),
    unary main_c_211 main_v561 (broadcastInDim S409600 ![] bcast_S_S409600 : (⟨S_, .i32⟩ : BufTy).Contents (Elt F) → (⟨S409600, .i32⟩ : BufTy).Contents (Elt F)),
    binary main_v548 main_v561 main_v562 (addi : (⟨S409600, .i32⟩ : BufTy).Contents (Elt F) → (⟨S409600, .i32⟩ : BufTy).Contents (Elt F) → (⟨S409600, .i32⟩ : BufTy).Contents (Elt F)),
    ternary main_v560 main_v562 main_v548 main_v563 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v553 main_v564 (broadcastInDim S409600x1 ![0] bcast_S409600_S409600x1_0 : (⟨S409600, .i32⟩ : BufTy).Contents (Elt F) → (⟨S409600x1, .i32⟩ : BufTy).Contents (Elt F)),
    unary main_v558 main_v565 (broadcastInDim S409600x1 ![0] bcast_S409600_S409600x1_0 : (⟨S409600, .i32⟩ : BufTy).Contents (Elt F) → (⟨S409600x1, .i32⟩ : BufTy).Contents (Elt F)) ]
abbrev ops_p12_8_W : List (Ref sig .tc) := [main_v559, main_v560, main_c_211, main_v561, main_v562, main_v563, main_v564, main_v565]
theorem ops_p12_8_writes : (ops_p12_8 : List (HloOp τ sig (Elt F))).Forall fun op => op.writes ⊆ (ops_p12_8_W.map (Proc.devRef (τ := τ) .tc)).toFinset := by
  simp only [ops_p12_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p12_8_keep (V : Valuation τ sig (Elt F)) (r : Ref sig .tc) (h : r ∉ ops_p12_8_W) :
    after ops_p12_8 V (Proc.devRef .tc r) = V (Proc.devRef .tc r) :=
  after_of_writes_sub ops_p12_8 _ ops_p12_8_writes h

set_option maxRecDepth 8192 in
set_option maxHeartbeats 1000000 in
theorem w12_8_main_v563 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_8 V x0 x1 x2 x3 x4 x5 x6) :
    after ops_p12_8 V (Proc.devRef .tc main_v563) = val_main_v563 (F := F) x1 := by
  simp only [ops_p12_8]
  after_results_w
  simp only [h.main_v548, h.main_c_210]
  rfl

set_option maxRecDepth 8192 in
set_option maxHeartbeats 1000000 in
theorem w12_8_main_v564 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_8 V x0 x1 x2 x3 x4 x5 x6) :
    after ops_p12_8 V (Proc.devRef .tc main_v564) = val_main_v564 (F := F) x1 := by
  simp only [ops_p12_8]
  after_results_w
  simp only [h.main_v553]
  rfl

set_option maxRecDepth 8192 in
set_option maxHeartbeats 1000000 in
theorem w12_8_main_v565 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_8 V x0 x1 x2 x3 x4 x5 x6) :
    after ops_p12_8 V (Proc.devRef .tc main_v565) = val_main_v565 (F := F) x1 := by
  simp only [ops_p12_8]
  after_results_w
  simp only [h.main_v558]
  rfl

theorem step12_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12_8 V x0 x1 x2 x3 x4 x5 x6) : Inv13 (after ops_p12_8 V) x0 x1 x2 x3 x4 x5 x6 where
  main_arg0 := (ops_p12_8_keep V main_arg0 (by decide)).trans h.main_arg0
  main_arg1 := (ops_p12_8_keep V main_arg1 (by decide)).trans h.main_arg1
  main_arg2 := (ops_p12_8_keep V main_arg2 (by decide)).trans h.main_arg2
  main_arg3 := (ops_p12_8_keep V main_arg3 (by decide)).trans h.main_arg3
  main_arg4 := (ops_p12_8_keep V main_arg4 (by decide)).trans h.main_arg4
  main_arg5 := (ops_p12_8_keep V main_arg5 (by decide)).trans h.main_arg5
  main_arg6 := (ops_p12_8_keep V main_arg6 (by decide)).trans h.main_arg6
  main_v27 := (ops_p12_8_keep V main_v27 (by decide)).trans h.main_v27
  main_v524 := (ops_p12_8_keep V main_v524 (by decide)).trans h.main_v524
  main_v526 := (ops_p12_8_keep V main_v526 (by decide)).trans h.main_v526
  main_v528 := (ops_p12_8_keep V main_v528 (by decide)).trans h.main_v528
  main_v530 := (ops_p12_8_keep V main_v530 (by decide)).trans h.main_v530
  main_v531 := (ops_p12_8_keep V main_v531 (by decide)).trans h.main_v531
  main_v546 := (ops_p12_8_keep V main_v546 (by decide)).trans h.main_v546
  main_v563 := w12_8_main_v563 V x0 x1 x2 x3 x4 x5 x6 h
  main_v564 := w12_8_main_v564 V x0 x1 x2 x3 x4 x5 x6 h
  main_v565 := w12_8_main_v565 V x0 x1 x2 x3 x4 x5 x6 h

set_option maxRecDepth 8192 in
theorem ops_p12_split : (ops_p12 : List (HloOp τ sig (Elt F))) = ops_p12_0 ++ (ops_p12_1 ++ (ops_p12_2 ++ (ops_p12_3 ++ (ops_p12_4 ++ (ops_p12_5 ++ (ops_p12_6 ++ (ops_p12_7 ++ (ops_p12_8)))))))) := rfl

/-- Window 12 carries the staged reading from boundary 12 to boundary 13. -/
theorem step12 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv12 V x0 x1 x2 x3 x4 x5 x6) : Inv13 (after ops_p12 V) x0 x1 x2 x3 x4 x5 x6 := by
  rw [ops_p12_split]; simp only [after_app]
  exact step12_8 _ x0 x1 x2 x3 x4 x5 x6 (step12_7 _ x0 x1 x2 x3 x4 x5 x6 (step12_6 _ x0 x1 x2 x3 x4 x5 x6 (step12_5 _ x0 x1 x2 x3 x4 x5 x6 (step12_4 _ x0 x1 x2 x3 x4 x5 x6 (step12_3 _ x0 x1 x2 x3 x4 x5 x6 (step12_2 _ x0 x1 x2 x3 x4 x5 x6 (step12_1 _ x0 x1 x2 x3 x4 x5 x6 (step12_0 V x0 x1 x2 x3 x4 x5 x6 h))))))))

end Cert.ReferenceIdeal.Hand

end
-- ==== Proof.Ref.W13.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 13 of @main: its operations 928 … 1002 of 1688, in order. -/
def ops_p13 : List (HloOp τ sig (Elt F)) :=
  [ unary main_v563 main_v566 (broadcastInDim S409600x1 ![0] bcast_S409600_S409600x1_0 : (⟨S409600, .i32⟩ : BufTy).Contents (Elt F) → (⟨S409600x1, .i32⟩ : BufTy).Contents (Elt F)),
    nary ![main_v564, main_v565, main_v566] main_v567 (fun u => concatenate S409600x3 1 [⟨S409600x1, u 0⟩, ⟨S409600x1, u 1⟩, ⟨S409600x1, u 2⟩] concatenates_S409600x1_S409600x1_S409600x1_S409600x3_d1),
    binary main_v27 main_v567 main_v568 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_212 (constantI S_ 32 0#32),
    unary main_c_212 main_v569 (broadcastInDim S409600 ![] bcast_S_S409600 : (⟨S_, .i32⟩ : BufTy).Contents (Elt F) → (⟨S409600, .i32⟩ : BufTy).Contents (Elt F)),
    binary main_v568 main_v569 main_v570 (cmpi .sge : (⟨S409600, .i32⟩ : BufTy).Contents (Elt F) → (⟨S409600, .i32⟩ : BufTy).Contents (Elt F) → (⟨S409600, .i1⟩ : BufTy).Contents (Elt F)),
    binary main_v546 main_v570 main_v571 (andi : (⟨S409600, .i1⟩ : BufTy).Contents (Elt F) → (⟨S409600, .i1⟩ : BufTy).Contents (Elt F) → (⟨S409600, .i1⟩ : BufTy).Contents (Elt F)),
    nullary main_c_213 (constantI S_ 32 0#32),
    unary main_c_213 main_call39_v0 (id : (⟨S_, .i32⟩ : BufTy).Contents (Elt F) → (⟨S_, .i32⟩ : BufTy).Contents (Elt F)),
    unary main_call39_v0 main_call39_v1 ((broadcastInDim S409600 ![] bcast_S_S409600) : (⟨S_, .i32⟩ : BufTy).Contents (Elt F) → (⟨S409600, .i32⟩ : BufTy).Contents (Elt F)),
    ternary main_v571 main_v568 main_call39_v1 main_v572 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_214 (constantI S_ 32 0#32),
    unary main_c_214 main_v573 (broadcastInDim S409600 ![] bcast_S_S409600 : (⟨S_, .i32⟩ : BufTy).Contents (Elt F) → (⟨S409600, .i32⟩ : BufTy).Contents (Elt F)),
    binary main_v572 main_v573 main_v574 (cmpi .slt : (⟨S409600, .i32⟩ : BufTy).Contents (Elt F) → (⟨S409600, .i32⟩ : BufTy).Contents (Elt F) → (⟨S409600, .i1⟩ : BufTy).Contents (Elt F)),
    nullary main_c_215 (constantI S_ 32 409600#32),
    unary main_c_215 main_v575 (broadcastInDim S409600 ![] bcast_S_S409600 : (⟨S_, .i32⟩ : BufTy).Contents (Elt F) → (⟨S409600, .i32⟩ : BufTy).Contents (Elt F)),
    binary main_v572 main_v575 main_v576 (addi : (⟨S409600, .i32⟩ : BufTy).Contents (Elt F) → (⟨S409600, .i32⟩ : BufTy).Contents (Elt F) → (⟨S409600, .i32⟩ : BufTy).Contents (Elt F)),
    ternary main_v574 main_v576 main_v572 main_v577 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v577 main_v578 (broadcastInDim S409600x1 ![0] bcast_S409600_S409600x1_0 : (⟨S409600, .i32⟩ : BufTy).Contents (Elt F) → (⟨S409600x1, .i32⟩ : BufTy).Contents (Elt F)),
    binary main_v524 main_v578 main_v579 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v571 main_v580 (broadcastInDim S409600x1 ![0] bcast_S409600_S409600x1_0 : (⟨S409600, .i1⟩ : BufTy).Contents (Elt F) → (⟨S409600x1, .i1⟩ : BufTy).Contents (Elt F)),
    nullary main_cst_216 (constant S_ .f32 0x00000000#32),
    unary main_cst_216 main_call40_v0 (id : (⟨S_, .f32⟩ : BufTy).Contents (Elt F) → (⟨S_, .f32⟩ : BufTy).Contents (Elt F)),
    unary main_v580 main_call40_v1 ((broadcastInDim S409600x64 ![0, 1] bcast_S409600x1_S409600x64_0_1) : (⟨S409600x1, .i1⟩ : BufTy).Contents (Elt F) → (⟨S409600x64, .i1⟩ : BufTy).Contents (Elt F)),
    unary main_call40_v0 main_call40_v2 ((broadcastInDim S409600x64 ![] bcast_S_S409600x64) : (⟨S_, .f32⟩ : BufTy).Contents (Elt F) → (⟨S409600x64, .f32⟩ : BufTy).Contents (Elt F)),
    ternary main_call40_v1 main_v579 main_call40_v2 main_v581 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v582 ((extractStridedSlice S1x1x64x64 ![0, 0, 0, 0] · slices_S3x3x64x64_S1x1x64x64_0_0_0_0) : (⟨S3x3x64x64, .f32⟩ : BufTy).Contents (Elt F) → (⟨S1x1x64x64, .f32⟩ : BufTy).Contents (Elt F)),
    reshape main_v582 main_v583 rfl shapeCasts_S1x1x64x64_S64x64,
    binary main_v581 main_v583 main_v584 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v531 main_v584 main_v585 (addf : (⟨S409600x64, .f32⟩ : BufTy).Contents (Elt F) → (⟨S409600x64, .f32⟩ : BufTy).Contents (Elt F) → (⟨S409600x64, .f32⟩ : BufTy).Contents (Elt F)),
    nullary main_c_217 (constantI S_ 32 4294967295#32),
    unary main_c_217 main_v586 (broadcastInDim S409600 ![] bcast_S_S409600 : (⟨S_, .i32⟩ : BufTy).Contents (Elt F) → (⟨S409600, .i32⟩ : BufTy).Contents (Elt F)),
    binary main_v528 main_v586 main_v587 (addi : (⟨S409600, .i32⟩ : BufTy).Contents (Elt F) → (⟨S409600, .i32⟩ : BufTy).Contents (Elt F) → (⟨S409600, .i32⟩ : BufTy).Contents (Elt F)),
    nullary main_c_218 (constantI S_ 32 0#32),
    unary main_c_218 main_v588 (broadcastInDim S409600 ![] bcast_S_S409600 : (⟨S_, .i32⟩ : BufTy).Contents (Elt F) → (⟨S409600, .i32⟩ : BufTy).Contents (Elt F)),
    binary main_v530 main_v588 main_v589 (addi : (⟨S409600, .i32⟩ : BufTy).Contents (Elt F) → (⟨S409600, .i32⟩ : BufTy).Contents (Elt F) → (⟨S409600, .i32⟩ : BufTy).Contents (Elt F)),
    nullary main_c_219 (constantI S_ 32 0#32),
    unary main_c_219 main_v590 (broadcastInDim S409600 ![] bcast_S_S409600 : (⟨S_, .i32⟩ : BufTy).Contents (Elt F) → (⟨S409600, .i32⟩ : BufTy).Contents (Elt F)),
    binary main_v587 main_v590 main_v591 (cmpi .sge : (⟨S409600, .i32⟩ : BufTy).Contents (Elt F) → (⟨S409600, .i32⟩ : BufTy).Contents (Elt F) → (⟨S409600, .i1⟩ : BufTy).Contents (Elt F)),
    nullary main_c_220 (constantI S_ 32 640#32),
    unary main_c_220 main_v592 (broadcastInDim S409600 ![] bcast_S_S409600 : (⟨S_, .i32⟩ : BufTy).Contents (Elt F) → (⟨S409600, .i32⟩ : BufTy).Contents (Elt F)),
    binary main_v587 main_v592 main_v593 (cmpi .slt : (⟨S409600, .i32⟩ : BufTy).Contents (Elt F) → (⟨S409600, .i32⟩ : BufTy).Contents (Elt F) → (⟨S409600, .i1⟩ : BufTy).Contents (Elt F)),
    binary main_v591 main_v593 main_v594 (andi : (⟨S409600, .i1⟩ : BufTy).Contents (Elt F) → (⟨S409600, .i1⟩ : BufTy).Contents (Elt F) → (⟨S409600, .i1⟩ : BufTy).Contents (Elt F)),
    nullary main_c_221 (constantI S_ 32 0#32),
    unary main_c_221 main_v595 (broadcastInDim S409600 ![] bcast_S_S409600 : (⟨S_, .i32⟩ : BufTy).Contents (Elt F) → (⟨S409600, .i32⟩ : BufTy).Contents (Elt F)),
    binary main_v589 main_v595 main_v596 (cmpi .sge : (⟨S409600, .i32⟩ : BufTy).Contents (Elt F) → (⟨S409600, .i32⟩ : BufTy).Contents (Elt F) → (⟨S409600, .i1⟩ : BufTy).Contents (Elt F)),
    binary main_v594 main_v596 main_v597 (andi : (⟨S409600, .i1⟩ : BufTy).Contents (Elt F) → (⟨S409600, .i1⟩ : BufTy).Contents (Elt F) → (⟨S409600, .i1⟩ : BufTy).Contents (Elt F)),
    nullary main_c_222 (constantI S_ 32 640#32),
    unary main_c_222 main_v598 (broadcastInDim S409600 ![] bcast_S_S409600 : (⟨S_, .i32⟩ : BufTy).Contents (Elt F) → (⟨S409600, .i32⟩ : BufTy).Contents (Elt F)),
    binary main_v589 main_v598 main_v599 (cmpi .slt : (⟨S409600, .i32⟩ : BufTy).Contents (Elt F) → (⟨S409600, .i32⟩ : BufTy).Contents (Elt F) → (⟨S409600, .i1⟩ : BufTy).Contents (Elt F)),
    binary main_v597 main_v599 main_v600 (andi : (⟨S409600, .i1⟩ : BufTy).Contents (Elt F) → (⟨S409600, .i1⟩ : BufTy).Contents (Elt F) → (⟨S409600, .i1⟩ : BufTy).Contents (Elt F)),
    nullary main_c_223 (constantI S_ 32 0#32),
    nullary main_c_224 (constantI S_ 32 639#32),
    unary main_c_223 main_call41_v0 (id : (⟨S_, .i32⟩ : BufTy).Contents (Elt F) → (⟨S_, .i32⟩ : BufTy).Contents (Elt F)),
    unary main_call41_v0 main_call41_v1 ((broadcastInDim S409600 ![] bcast_S_S409600) : (⟨S_, .i32⟩ : BufTy).Contents (Elt F) → (⟨S409600, .i32⟩ : BufTy).Contents (Elt F)),
    binary main_call41_v1 main_v587 main_call41_v2 (maxsi : (⟨S409600, .i32⟩ : BufTy).Contents (Elt F) → (⟨S409600, .i32⟩ : BufTy).Contents (Elt F) → (⟨S409600, .i32⟩ : BufTy).Contents (Elt F)),
    unary main_c_224 main_call41_v3 (id : (⟨S_, .i32⟩ : BufTy).Contents (Elt F) → (⟨S_, .i32⟩ : BufTy).Contents (Elt F)),
    unary main_call41_v3 main_call41_v4 ((broadcastInDim S409600 ![] bcast_S_S409600) : (⟨S_, .i32⟩ : BufTy).Contents (Elt F) → (⟨S409600, .i32⟩ : BufTy).Contents (Elt F)),
    binary main_call41_v4 main_call41_v2 main_v601 (minsi : (⟨S409600, .i32⟩ : BufTy).Contents (Elt F) → (⟨S409600, .i32⟩ : BufTy).Contents (Elt F) → (⟨S409600, .i32⟩ : BufTy).Contents (Elt F)),
    nullary main_c_225 (constantI S_ 32 0#32),
    nullary main_c_226 (constantI S_ 32 639#32),
    unary main_c_225 main_call42_v0 (id : (⟨S_, .i32⟩ : BufTy).Contents (Elt F) → (⟨S_, .i32⟩ : BufTy).Contents (Elt F)),
    unary main_call42_v0 main_call42_v1 ((broadcastInDim S409600 ![] bcast_S_S409600) : (⟨S_, .i32⟩ : BufTy).Contents (Elt F) → (⟨S409600, .i32⟩ : BufTy).Contents (Elt F)),
    binary main_call42_v1 main_v589 main_call42_v2 (maxsi : (⟨S409600, .i32⟩ : BufTy).Contents (Elt F) → (⟨S409600, .i32⟩ : BufTy).Contents (Elt F) → (⟨S409600, .i32⟩ : BufTy).Contents (Elt F)),
    unary main_c_226 main_call42_v3 (id : (⟨S_, .i32⟩ : BufTy).Contents (Elt F) → (⟨S_, .i32⟩ : BufTy).Contents (Elt F)),
    unary main_call42_v3 main_call42_v4 ((broadcastInDim S409600 ![] bcast_S_S409600) : (⟨S_, .i32⟩ : BufTy).Contents (Elt F) → (⟨S409600, .i32⟩ : BufTy).Contents (Elt F)),
    binary main_call42_v4 main_call42_v2 main_v602 (minsi : (⟨S409600, .i32⟩ : BufTy).Contents (Elt F) → (⟨S409600, .i32⟩ : BufTy).Contents (Elt F) → (⟨S409600, .i32⟩ : BufTy).Contents (Elt F)),
    nullary main_c_227 (constantI S_ 32 0#32),
    unary main_c_227 main_v603 (broadcastInDim S409600 ![] bcast_S_S409600 : (⟨S_, .i32⟩ : BufTy).Contents (Elt F) → (⟨S409600, .i32⟩ : BufTy).Contents (Elt F)),
    binary main_v526 main_v603 main_v604 (cmpi .slt : (⟨S409600, .i32⟩ : BufTy).Contents (Elt F) → (⟨S409600, .i32⟩ : BufTy).Contents (Elt F) → (⟨S409600, .i1⟩ : BufTy).Contents (Elt F)),
    nullary main_c_228 (constantI S_ 32 2#32),
    unary main_c_228 main_v605 (broadcastInDim S409600 ![] bcast_S_S409600 : (⟨S_, .i32⟩ : BufTy).Contents (Elt F) → (⟨S409600, .i32⟩ : BufTy).Contents (Elt F)),
    binary main_v526 main_v605 main_v606 (addi : (⟨S409600, .i32⟩ : BufTy).Contents (Elt F) → (⟨S409600, .i32⟩ : BufTy).Contents (Elt F) → (⟨S409600, .i32⟩ : BufTy).Contents (Elt F)),
    ternary main_v604 main_v606 main_v526 main_v607 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_229 (constantI S_ 32 0#32) ]

set_option maxRecDepth 8192 in
set_option maxHeartbeats 4000000 in
theorem main_part13_eq (c : Dev nD) : main_part13 (F := F) c = seq ops_p13 := by
  simp only [main_part13, ops_p13, fn_clip.body, fn_where.body, fn_where_0.body, fn_relu.body, seq, bind_assoc, pure_bind]
  rfl

set_option maxRecDepth 8192 in
theorem ops_p13_sub : (ops_p13 : List (HloOp τ sig (Elt F))).Forall fun op => op.bufs ⊆ tcRefs τ sig :=
  ⟨unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub ..⟩

set_option maxRecDepth 8192 in
theorem ops_p13_fresh : ∀ op ∈ (ops_p13 : List (HloOp τ sig (Elt F))), op.fresh = ∅ := by
  unfold ops_p13; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 936 on hold before it. -/
structure Inv13_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v568 : V (Proc.devRef .tc main_v568) = val_main_v568 (F := F) x1
  main_v571 : V (Proc.devRef .tc main_v571) = val_main_v571 (F := F) x1
  main_c_213 : V (Proc.devRef .tc main_c_213) = val_main_c_213 (F := F)

/-- What the buffers read from operation 944 on hold before it. -/
structure Inv13_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v571 : V (Proc.devRef .tc main_v571) = val_main_v571 (F := F) x1
  main_v572 : V (Proc.devRef .tc main_v572) = val_main_v572 (F := F) x1
  main_v574 : V (Proc.devRef .tc main_v574) = val_main_v574 (F := F) x1
  main_v575 : V (Proc.devRef .tc main_v575) = val_main_v575 (F := F)

/-- What the buffers read from operation 952 on hold before it. -/
structure Inv13_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v531 : V (Proc.devRef .tc main_v531) = val_main_v531 (F := F)
  main_v579 : V (Proc.devRef .tc main_v579) = val_main_v579 (F := F) x0 x1 x2 x3
  main_call40_v0 : V (Proc.devRef .tc main_call40_v0) = val_main_call40_v0 (F := F)
  main_call40_v1 : V (Proc.devRef .tc main_call40_v1) = val_main_call40_v1 (F := F) x1

/-- What the buffers read from operation 960 on hold before it. -/
structure Inv13_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v586 : V (Proc.devRef .tc main_v586) = val_main_v586 (F := F)

/-- What the buffers read from operation 968 on hold before it. -/
structure Inv13_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v587 : V (Proc.devRef .tc main_v587) = val_main_v587 (F := F) x1
  main_v589 : V (Proc.devRef .tc main_v589) = val_main_v589 (F := F) x1
  main_v591 : V (Proc.devRef .tc main_v591) = val_main_v591 (F := F) x1
  main_c_220 : V (Proc.devRef .tc main_c_220) = val_main_c_220 (F := F)

/-- What the buffers read from operation 976 on hold before it. -/
structure Inv13_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v587 : V (Proc.devRef .tc main_v587) = val_main_v587 (F := F) x1
  main_v589 : V (Proc.devRef .tc main_v589) = val_main_v589 (F := F) x1
  main_v597 : V (Proc.devRef .tc main_v597) = val_main_v597 (F := F) x1
  main_c_222 : V (Proc.devRef .tc main_c_222) = val_main_c_222 (F := F)

/-- What the buffers read from operation 984 on hold before it. -/
structure Inv13_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v589 : V (Proc.devRef .tc main_v589) = val_main_v589 (F := F) x1
  main_v600 : V (Proc.devRef .tc main_v600) = val_main_v600 (F := F) x1
  main_c_224 : V (Proc.devRef .tc main_c_224) = val_main_c_224 (F := F)
  main_call41_v2 : V (Proc.devRef .tc main_call41_v2) = val_main_call41_v2 (F := F) x1

/-- What the buffers read from operation 992 on hold before it. -/
structure Inv13_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v600 : V (Proc.devRef .tc main_v600) = val_main_v600 (F := F) x1
  main_v601 : V (Proc.devRef .tc main_v601) = val_main_v601 (F := F) x1
  main_c_226 : V (Proc.devRef .tc main_c_226) = val_main_c_226 (F := F)
  main_call42_v2 : V (Proc.devRef .tc main_call42_v2) = val_main_call42_v2 (F := F) x1

/-- What the buffers read from operation 1000 on hold before it. -/
structure Inv13_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v600 : V (Proc.devRef .tc main_v600) = val_main_v600 (F := F) x1
  main_v601 : V (Proc.devRef .tc main_v601) = val_main_v601 (F := F) x1
  main_v602 : V (Proc.devRef .tc main_v602) = val_main_v602 (F := F) x1
  main_v604 : V (Proc.devRef .tc main_v604) = val_main_v604 (F := F) x1
  main_v605 : V (Proc.devRef .tc main_v605) = val_main_v605 (F := F)

/-- Stretch 0 of window 13: @main's operations 928 … 935. -/
def ops_p13_0 : List (HloOp τ sig (Elt F)) :=
  [ unary main_v563 main_v566 (broadcastInDim S409600x1 ![0] bcast_S409600_S409600x1_0 : (⟨S409600, .i32⟩ : BufTy).Contents (Elt F) → (⟨S409600x1, .i32⟩ : BufTy).Contents (Elt F)),
    nary ![main_v564, main_v565, main_v566] main_v567 (fun u => concatenate S409600x3 1 [⟨S409600x1, u 0⟩, ⟨S409600x1, u 1⟩, ⟨S409600x1, u 2⟩] concatenates_S409600x1_S409600x1_S409600x1_S409600x3_d1),
    binary main_v27 main_v567 main_v568 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_212 (constantI S_ 32 0#32),
    unary main_c_212 main_v569 (broadcastInDim S409600 ![] bcast_S_S409600 : (⟨S_, .i32⟩ : BufTy).Contents (Elt F) → (⟨S409600, .i32⟩ : BufTy).Contents (Elt F)),
    binary main_v568 main_v569 main_v570 (cmpi .sge : (⟨S409600, .i32⟩ : BufTy).Contents (Elt F) → (⟨S409600, .i32⟩ : BufTy).Contents (Elt F) → (⟨S409600, .i1⟩ : BufTy).Contents (Elt F)),
    binary main_v546 main_v570 main_v571 (andi : (⟨S409600, .i1⟩ : BufTy).Contents (Elt F) → (⟨S409600, .i1⟩ : BufTy).Contents (Elt F) → (⟨S409600, .i1⟩ : BufTy).Contents (Elt F)),
    nullary main_c_213 (constantI S_ 32 0#32) ]
abbrev ops_p13_0_W : List (Ref sig .tc) := [main_v566, main_v567, main_v568, main_c_212, main_v569, main_v570, main_v571, main_c_213]
theorem ops_p13_0_writes : (ops_p13_0 : List (HloOp τ sig (Elt F))).Forall fun op => op.writes ⊆ (ops_p13_0_W.map (Proc.devRef (τ := τ) .tc)).toFinset := by
  simp only [ops_p13_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p13_0_keep (V : Valuation τ sig (Elt F)) (r : Ref sig .tc) (h : r ∉ ops_p13_0_W) :
    after ops_p13_0 V (Proc.devRef .tc r) = V (Proc.devRef .tc r) :=
  after_of_writes_sub ops_p13_0 _ ops_p13_0_writes h

set_option maxRecDepth 8192 in
set_option maxHeartbeats 1000000 in
theorem w13_0_main_v568 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13 V x0 x1 x2 x3 x4 x5 x6) :
    after ops_p13_0 V (Proc.devRef .tc main_v568) = val_main_v568 (F := F) x1 := by
  simp only [ops_p13_0]
  after_results_w
  simp only [h.main_v563, h.main_v565, h.main_v564, h.main_v27]
  rfl

set_option maxRecDepth 8192 in
set_option maxHeartbeats 1000000 in
theorem w13_0_main_v571 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13 V x0 x1 x2 x3 x4 x5 x6) :
    after ops_p13_0 V (Proc.devRef .tc main_v571) = val_main_v571 (F := F) x1 := by
  simp only [ops_p13_0]
  after_results_w
  simp only [h.main_v563, h.main_v565, h.main_v564, h.main_v27, h.main_v546]
  rfl

set_option maxRecDepth 8192 in
set_option maxHeartbeats 1000000 in
theorem w13_0_main_c_213 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13 V x0 x1 x2 x3 x4 x5 x6) :
    after ops_p13_0 V (Proc.devRef .tc main_c_213) = val_main_c_213 (F := F) := by
  simp only [ops_p13_0]
  after_results_w
  rfl

theorem step13_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13 V x0 x1 x2 x3 x4 x5 x6) : Inv13_1 (after ops_p13_0 V) x0 x1 x2 x3 x4 x5 x6 where
  main_arg0 := (ops_p13_0_keep V main_arg0 (by decide)).trans h.main_arg0
  main_arg1 := (ops_p13_0_keep V main_arg1 (by decide)).trans h.main_arg1
  main_arg2 := (ops_p13_0_keep V main_arg2 (by decide)).trans h.main_arg2
  main_arg3 := (ops_p13_0_keep V main_arg3 (by decide)).trans h.main_arg3
  main_arg4 := (ops_p13_0_keep V main_arg4 (by decide)).trans h.main_arg4
  main_arg5 := (ops_p13_0_keep V main_arg5 (by decide)).trans h.main_arg5
  main_arg6 := (ops_p13_0_keep V main_arg6 (by decide)).trans h.main_arg6
  main_v27 := (ops_p13_0_keep V main_v27 (by decide)).trans h.main_v27
  main_v524 := (ops_p13_0_keep V main_v524 (by decide)).trans h.main_v524
  main_v526 := (ops_p13_0_keep V main_v526 (by decide)).trans h.main_v526
  main_v528 := (ops_p13_0_keep V main_v528 (by decide)).trans h.main_v528
  main_v530 := (ops_p13_0_keep V main_v530 (by decide)).trans h.main_v530
  main_v531 := (ops_p13_0_keep V main_v531 (by decide)).trans h.main_v531
  main_v568 := w13_0_main_v568 V x0 x1 x2 x3 x4 x5 x6 h
  main_v571 := w13_0_main_v571 V x0 x1 x2 x3 x4 x5 x6 h
  main_c_213 := w13_0_main_c_213 V x0 x1 x2 x3 x4 x5 x6 h

/-- Stretch 1 of window 13: @main's operations 936 … 943. -/
def ops_p13_1 : List (HloOp τ sig (Elt F)) :=
  [ unary main_c_213 main_call39_v0 (id : (⟨S_, .i32⟩ : BufTy).Contents (Elt F) → (⟨S_, .i32⟩ : BufTy).Contents (Elt F)),
    unary main_call39_v0 main_call39_v1 ((broadcastInDim S409600 ![] bcast_S_S409600) : (⟨S_, .i32⟩ : BufTy).Contents (Elt F) → (⟨S409600, .i32⟩ : BufTy).Contents (Elt F)),
    ternary main_v571 main_v568 main_call39_v1 main_v572 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_214 (constantI S_ 32 0#32),
    unary main_c_214 main_v573 (broadcastInDim S409600 ![] bcast_S_S409600 : (⟨S_, .i32⟩ : BufTy).Contents (Elt F) → (⟨S409600, .i32⟩ : BufTy).Contents (Elt F)),
    binary main_v572 main_v573 main_v574 (cmpi .slt : (⟨S409600, .i32⟩ : BufTy).Contents (Elt F) → (⟨S409600, .i32⟩ : BufTy).Contents (Elt F) → (⟨S409600, .i1⟩ : BufTy).Contents (Elt F)),
    nullary main_c_215 (constantI S_ 32 409600#32),
    unary main_c_215 main_v575 (broadcastInDim S409600 ![] bcast_S_S409600 : (⟨S_, .i32⟩ : BufTy).Contents (Elt F) → (⟨S409600, .i32⟩ : BufTy).Contents (Elt F)) ]
abbrev ops_p13_1_W : List (Ref sig .tc) := [main_call39_v0, main_call39_v1, main_v572, main_c_214, main_v573, main_v574, main_c_215, main_v575]
theorem ops_p13_1_writes : (ops_p13_1 : List (HloOp τ sig (Elt F))).Forall fun op => op.writes ⊆ (ops_p13_1_W.map (Proc.devRef (τ := τ) .tc)).toFinset := by
  simp only [ops_p13_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p13_1_keep (V : Valuation τ sig (Elt F)) (r : Ref sig .tc) (h : r ∉ ops_p13_1_W) :
    after ops_p13_1 V (Proc.devRef .tc r) = V (Proc.devRef .tc r) :=
  after_of_writes_sub ops_p13_1 _ ops_p13_1_writes h

set_option maxRecDepth 8192 in
set_option maxHeartbeats 1000000 in
theorem w13_1_main_v572 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_1 V x0 x1 x2 x3 x4 x5 x6) :
    after ops_p13_1 V (Proc.devRef .tc main_v572) = val_main_v572 (F := F) x1 := by
  simp only [ops_p13_1]
  after_results_w
  simp only [h.main_c_213, h.main_v568, h.main_v571]
  rfl

set_option maxRecDepth 8192 in
set_option maxHeartbeats 1000000 in
theorem w13_1_main_v574 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_1 V x0 x1 x2 x3 x4 x5 x6) :
    after ops_p13_1 V (Proc.devRef .tc main_v574) = val_main_v574 (F := F) x1 := by
  simp only [ops_p13_1]
  after_results_w
  simp only [h.main_c_213, h.main_v568, h.main_v571]
  rfl

set_option maxRecDepth 8192 in
set_option maxHeartbeats 1000000 in
theorem w13_1_main_v575 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_1 V x0 x1 x2 x3 x4 x5 x6) :
    after ops_p13_1 V (Proc.devRef .tc main_v575) = val_main_v575 (F := F) := by
  simp only [ops_p13_1]
  after_results_w
  rfl

theorem step13_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_1 V x0 x1 x2 x3 x4 x5 x6) : Inv13_2 (after ops_p13_1 V) x0 x1 x2 x3 x4 x5 x6 where
  main_arg0 := (ops_p13_1_keep V main_arg0 (by decide)).trans h.main_arg0
  main_arg1 := (ops_p13_1_keep V main_arg1 (by decide)).trans h.main_arg1
  main_arg2 := (ops_p13_1_keep V main_arg2 (by decide)).trans h.main_arg2
  main_arg3 := (ops_p13_1_keep V main_arg3 (by decide)).trans h.main_arg3
  main_arg4 := (ops_p13_1_keep V main_arg4 (by decide)).trans h.main_arg4
  main_arg5 := (ops_p13_1_keep V main_arg5 (by decide)).trans h.main_arg5
  main_arg6 := (ops_p13_1_keep V main_arg6 (by decide)).trans h.main_arg6
  main_v27 := (ops_p13_1_keep V main_v27 (by decide)).trans h.main_v27
  main_v524 := (ops_p13_1_keep V main_v524 (by decide)).trans h.main_v524
  main_v526 := (ops_p13_1_keep V main_v526 (by decide)).trans h.main_v526
  main_v528 := (ops_p13_1_keep V main_v528 (by decide)).trans h.main_v528
  main_v530 := (ops_p13_1_keep V main_v530 (by decide)).trans h.main_v530
  main_v531 := (ops_p13_1_keep V main_v531 (by decide)).trans h.main_v531
  main_v571 := (ops_p13_1_keep V main_v571 (by decide)).trans h.main_v571
  main_v572 := w13_1_main_v572 V x0 x1 x2 x3 x4 x5 x6 h
  main_v574 := w13_1_main_v574 V x0 x1 x2 x3 x4 x5 x6 h
  main_v575 := w13_1_main_v575 V x0 x1 x2 x3 x4 x5 x6 h

/-- Stretch 2 of window 13: @main's operations 944 … 951. -/
def ops_p13_2 : List (HloOp τ sig (Elt F)) :=
  [ binary main_v572 main_v575 main_v576 (addi : (⟨S409600, .i32⟩ : BufTy).Contents (Elt F) → (⟨S409600, .i32⟩ : BufTy).Contents (Elt F) → (⟨S409600, .i32⟩ : BufTy).Contents (Elt F)),
    ternary main_v574 main_v576 main_v572 main_v577 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v577 main_v578 (broadcastInDim S409600x1 ![0] bcast_S409600_S409600x1_0 : (⟨S409600, .i32⟩ : BufTy).Contents (Elt F) → (⟨S409600x1, .i32⟩ : BufTy).Contents (Elt F)),
    binary main_v524 main_v578 main_v579 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v571 main_v580 (broadcastInDim S409600x1 ![0] bcast_S409600_S409600x1_0 : (⟨S409600, .i1⟩ : BufTy).Contents (Elt F) → (⟨S409600x1, .i1⟩ : BufTy).Contents (Elt F)),
    nullary main_cst_216 (constant S_ .f32 0x00000000#32),
    unary main_cst_216 main_call40_v0 (id : (⟨S_, .f32⟩ : BufTy).Contents (Elt F) → (⟨S_, .f32⟩ : BufTy).Contents (Elt F)),
    unary main_v580 main_call40_v1 ((broadcastInDim S409600x64 ![0, 1] bcast_S409600x1_S409600x64_0_1) : (⟨S409600x1, .i1⟩ : BufTy).Contents (Elt F) → (⟨S409600x64, .i1⟩ : BufTy).Contents (Elt F)) ]
abbrev ops_p13_2_W : List (Ref sig .tc) := [main_v576, main_v577, main_v578, main_v579, main_v580, main_cst_216, main_call40_v0, main_call40_v1]
theorem ops_p13_2_writes : (ops_p13_2 : List (HloOp τ sig (Elt F))).Forall fun op => op.writes ⊆ (ops_p13_2_W.map (Proc.devRef (τ := τ) .tc)).toFinset := by
  simp only [ops_p13_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p13_2_keep (V : Valuation τ sig (Elt F)) (r : Ref sig .tc) (h : r ∉ ops_p13_2_W) :
    after ops_p13_2 V (Proc.devRef .tc r) = V (Proc.devRef .tc r) :=
  after_of_writes_sub ops_p13_2 _ ops_p13_2_writes h

set_option maxRecDepth 8192 in
set_option maxHeartbeats 1000000 in
theorem w13_2_main_v579 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_2 V x0 x1 x2 x3 x4 x5 x6) :
    after ops_p13_2 V (Proc.devRef .tc main_v579) = val_main_v579 (F := F) x0 x1 x2 x3 := by
  simp only [ops_p13_2]
  after_results_w
  simp only [h.main_v572, h.main_v575, h.main_v574, h.main_v524]
  rfl

set_option maxRecDepth 8192 in
set_option maxHeartbeats 1000000 in
theorem w13_2_main_call40_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_2 V x0 x1 x2 x3 x4 x5 x6) :
    after ops_p13_2 V (Proc.devRef .tc main_call40_v0) = val_main_call40_v0 (F := F) := by
  simp only [ops_p13_2]
  after_results_w
  rfl

set_option maxRecDepth 8192 in
set_option maxHeartbeats 1000000 in
theorem w13_2_main_call40_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_2 V x0 x1 x2 x3 x4 x5 x6) :
    after ops_p13_2 V (Proc.devRef .tc main_call40_v1) = val_main_call40_v1 (F := F) x1 := by
  simp only [ops_p13_2]
  after_results_w
  simp only [h.main_v571]
  rfl

theorem step13_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_2 V x0 x1 x2 x3 x4 x5 x6) : Inv13_3 (after ops_p13_2 V) x0 x1 x2 x3 x4 x5 x6 where
  main_arg0 := (ops_p13_2_keep V main_arg0 (by decide)).trans h.main_arg0
  main_arg1 := (ops_p13_2_keep V main_arg1 (by decide)).trans h.main_arg1
  main_arg2 := (ops_p13_2_keep V main_arg2 (by decide)).trans h.main_arg2
  main_arg3 := (ops_p13_2_keep V main_arg3 (by decide)).trans h.main_arg3
  main_arg4 := (ops_p13_2_keep V main_arg4 (by decide)).trans h.main_arg4
  main_arg5 := (ops_p13_2_keep V main_arg5 (by decide)).trans h.main_arg5
  main_arg6 := (ops_p13_2_keep V main_arg6 (by decide)).trans h.main_arg6
  main_v27 := (ops_p13_2_keep V main_v27 (by decide)).trans h.main_v27
  main_v524 := (ops_p13_2_keep V main_v524 (by decide)).trans h.main_v524
  main_v526 := (ops_p13_2_keep V main_v526 (by decide)).trans h.main_v526
  main_v528 := (ops_p13_2_keep V main_v528 (by decide)).trans h.main_v528
  main_v530 := (ops_p13_2_keep V main_v530 (by decide)).trans h.main_v530
  main_v531 := (ops_p13_2_keep V main_v531 (by decide)).trans h.main_v531
  main_v579 := w13_2_main_v579 V x0 x1 x2 x3 x4 x5 x6 h
  main_call40_v0 := w13_2_main_call40_v0 V x0 x1 x2 x3 x4 x5 x6 h
  main_call40_v1 := w13_2_main_call40_v1 V x0 x1 x2 x3 x4 x5 x6 h

/-- Stretch 3 of window 13: @main's operations 952 … 959. -/
def ops_p13_3 : List (HloOp τ sig (Elt F)) :=
  [ unary main_call40_v0 main_call40_v2 ((broadcastInDim S409600x64 ![] bcast_S_S409600x64) : (⟨S_, .f32⟩ : BufTy).Contents (Elt F) → (⟨S409600x64, .f32⟩ : BufTy).Contents (Elt F)),
    ternary main_call40_v1 main_v579 main_call40_v2 main_v581 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v582 ((extractStridedSlice S1x1x64x64 ![0, 0, 0, 0] · slices_S3x3x64x64_S1x1x64x64_0_0_0_0) : (⟨S3x3x64x64, .f32⟩ : BufTy).Contents (Elt F) → (⟨S1x1x64x64, .f32⟩ : BufTy).Contents (Elt F)),
    reshape main_v582 main_v583 rfl shapeCasts_S1x1x64x64_S64x64,
    binary main_v581 main_v583 main_v584 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v531 main_v584 main_v585 (addf : (⟨S409600x64, .f32⟩ : BufTy).Contents (Elt F) → (⟨S409600x64, .f32⟩ : BufTy).Contents (Elt F) → (⟨S409600x64, .f32⟩ : BufTy).Contents (Elt F)),
    nullary main_c_217 (constantI S_ 32 4294967295#32),
    unary main_c_217 main_v586 (broadcastInDim S409600 ![] bcast_S_S409600 : (⟨S_, .i32⟩ : BufTy).Contents (Elt F) → (⟨S409600, .i32⟩ : BufTy).Contents (Elt F)) ]
abbrev ops_p13_3_W : List (Ref sig .tc) := [main_call40_v2, main_v581, main_v582, main_v583, main_v584, main_v585, main_c_217, main_v586]
theorem ops_p13_3_writes : (ops_p13_3 : List (HloOp τ sig (Elt F))).Forall fun op => op.writes ⊆ (ops_p13_3_W.map (Proc.devRef (τ := τ) .tc)).toFinset := by
  simp only [ops_p13_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p13_3_keep (V : Valuation τ sig (Elt F)) (r : Ref sig .tc) (h : r ∉ ops_p13_3_W) :
    after ops_p13_3 V (Proc.devRef .tc r) = V (Proc.devRef .tc r) :=
  after_of_writes_sub ops_p13_3 _ ops_p13_3_writes h

set_option maxRecDepth 8192 in
set_option maxHeartbeats 1000000 in
theorem w13_3_main_v585 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_3 V x0 x1 x2 x3 x4 x5 x6) :
    after ops_p13_3 V (Proc.devRef .tc main_v585) = val_main_v585 (F := F) x0 x1 x2 x3 x4 := by
  simp only [ops_p13_3]
  after_results_w
  simp only [h.main_arg4, h.main_call40_v0, h.main_v579, h.main_call40_v1, h.main_v531]
  rfl

set_option maxRecDepth 8192 in
set_option maxHeartbeats 1000000 in
theorem w13_3_main_v586 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_3 V x0 x1 x2 x3 x4 x5 x6) :
    after ops_p13_3 V (Proc.devRef .tc main_v586) = val_main_v586 (F := F) := by
  simp only [ops_p13_3]
  after_results_w
  rfl

theorem step13_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_3 V x0 x1 x2 x3 x4 x5 x6) : Inv13_4 (after ops_p13_3 V) x0 x1 x2 x3 x4 x5 x6 where
  main_arg0 := (ops_p13_3_keep V main_arg0 (by decide)).trans h.main_arg0
  main_arg1 := (ops_p13_3_keep V main_arg1 (by decide)).trans h.main_arg1
  main_arg2 := (ops_p13_3_keep V main_arg2 (by decide)).trans h.main_arg2
  main_arg3 := (ops_p13_3_keep V main_arg3 (by decide)).trans h.main_arg3
  main_arg4 := (ops_p13_3_keep V main_arg4 (by decide)).trans h.main_arg4
  main_arg5 := (ops_p13_3_keep V main_arg5 (by decide)).trans h.main_arg5
  main_arg6 := (ops_p13_3_keep V main_arg6 (by decide)).trans h.main_arg6
  main_v27 := (ops_p13_3_keep V main_v27 (by decide)).trans h.main_v27
  main_v524 := (ops_p13_3_keep V main_v524 (by decide)).trans h.main_v524
  main_v526 := (ops_p13_3_keep V main_v526 (by decide)).trans h.main_v526
  main_v528 := (ops_p13_3_keep V main_v528 (by decide)).trans h.main_v528
  main_v530 := (ops_p13_3_keep V main_v530 (by decide)).trans h.main_v530
  main_v585 := w13_3_main_v585 V x0 x1 x2 x3 x4 x5 x6 h
  main_v586 := w13_3_main_v586 V x0 x1 x2 x3 x4 x5 x6 h

/-- Stretch 4 of window 13: @main's operations 960 … 967. -/
def ops_p13_4 : List (HloOp τ sig (Elt F)) :=
  [ binary main_v528 main_v586 main_v587 (addi : (⟨S409600, .i32⟩ : BufTy).Contents (Elt F) → (⟨S409600, .i32⟩ : BufTy).Contents (Elt F) → (⟨S409600, .i32⟩ : BufTy).Contents (Elt F)),
    nullary main_c_218 (constantI S_ 32 0#32),
    unary main_c_218 main_v588 (broadcastInDim S409600 ![] bcast_S_S409600 : (⟨S_, .i32⟩ : BufTy).Contents (Elt F) → (⟨S409600, .i32⟩ : BufTy).Contents (Elt F)),
    binary main_v530 main_v588 main_v589 (addi : (⟨S409600, .i32⟩ : BufTy).Contents (Elt F) → (⟨S409600, .i32⟩ : BufTy).Contents (Elt F) → (⟨S409600, .i32⟩ : BufTy).Contents (Elt F)),
    nullary main_c_219 (constantI S_ 32 0#32),
    unary main_c_219 main_v590 (broadcastInDim S409600 ![] bcast_S_S409600 : (⟨S_, .i32⟩ : BufTy).Contents (Elt F) → (⟨S409600, .i32⟩ : BufTy).Contents (Elt F)),
    binary main_v587 main_v590 main_v591 (cmpi .sge : (⟨S409600, .i32⟩ : BufTy).Contents (Elt F) → (⟨S409600, .i32⟩ : BufTy).Contents (Elt F) → (⟨S409600, .i1⟩ : BufTy).Contents (Elt F)),
    nullary main_c_220 (constantI S_ 32 640#32) ]
abbrev ops_p13_4_W : List (Ref sig .tc) := [main_v587, main_c_218, main_v588, main_v589, main_c_219, main_v590, main_v591, main_c_220]
theorem ops_p13_4_writes : (ops_p13_4 : List (HloOp τ sig (Elt F))).Forall fun op => op.writes ⊆ (ops_p13_4_W.map (Proc.devRef (τ := τ) .tc)).toFinset := by
  simp only [ops_p13_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p13_4_keep (V : Valuation τ sig (Elt F)) (r : Ref sig .tc) (h : r ∉ ops_p13_4_W) :
    after ops_p13_4 V (Proc.devRef .tc r) = V (Proc.devRef .tc r) :=
  after_of_writes_sub ops_p13_4 _ ops_p13_4_writes h

set_option maxRecDepth 8192 in
set_option maxHeartbeats 1000000 in
theorem w13_4_main_v587 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_4 V x0 x1 x2 x3 x4 x5 x6) :
    after ops_p13_4 V (Proc.devRef .tc main_v587) = val_main_v587 (F := F) x1 := by
  simp only [ops_p13_4]
  after_results_w
  simp only [h.main_v586, h.main_v528]
  rfl

set_option maxRecDepth 8192 in
set_option maxHeartbeats 1000000 in
theorem w13_4_main_v589 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_4 V x0 x1 x2 x3 x4 x5 x6) :
    after ops_p13_4 V (Proc.devRef .tc main_v589) = val_main_v589 (F := F) x1 := by
  simp only [ops_p13_4]
  after_results_w
  simp only [h.main_v530]
  rfl

set_option maxRecDepth 8192 in
set_option maxHeartbeats 1000000 in
theorem w13_4_main_v591 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_4 V x0 x1 x2 x3 x4 x5 x6) :
    after ops_p13_4 V (Proc.devRef .tc main_v591) = val_main_v591 (F := F) x1 := by
  simp only [ops_p13_4]
  after_results_w
  simp only [h.main_v586, h.main_v528]
  rfl

set_option maxRecDepth 8192 in
set_option maxHeartbeats 1000000 in
theorem w13_4_main_c_220 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_4 V x0 x1 x2 x3 x4 x5 x6) :
    after ops_p13_4 V (Proc.devRef .tc main_c_220) = val_main_c_220 (F := F) := by
  simp only [ops_p13_4]
  after_results_w
  rfl

theorem step13_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_4 V x0 x1 x2 x3 x4 x5 x6) : Inv13_5 (after ops_p13_4 V) x0 x1 x2 x3 x4 x5 x6 where
  main_arg0 := (ops_p13_4_keep V main_arg0 (by decide)).trans h.main_arg0
  main_arg1 := (ops_p13_4_keep V main_arg1 (by decide)).trans h.main_arg1
  main_arg2 := (ops_p13_4_keep V main_arg2 (by decide)).trans h.main_arg2
  main_arg3 := (ops_p13_4_keep V main_arg3 (by decide)).trans h.main_arg3
  main_arg4 := (ops_p13_4_keep V main_arg4 (by decide)).trans h.main_arg4
  main_arg5 := (ops_p13_4_keep V main_arg5 (by decide)).trans h.main_arg5
  main_arg6 := (ops_p13_4_keep V main_arg6 (by decide)).trans h.main_arg6
  main_v27 := (ops_p13_4_keep V main_v27 (by decide)).trans h.main_v27
  main_v524 := (ops_p13_4_keep V main_v524 (by decide)).trans h.main_v524
  main_v526 := (ops_p13_4_keep V main_v526 (by decide)).trans h.main_v526
  main_v528 := (ops_p13_4_keep V main_v528 (by decide)).trans h.main_v528
  main_v530 := (ops_p13_4_keep V main_v530 (by decide)).trans h.main_v530
  main_v585 := (ops_p13_4_keep V main_v585 (by decide)).trans h.main_v585
  main_v587 := w13_4_main_v587 V x0 x1 x2 x3 x4 x5 x6 h
  main_v589 := w13_4_main_v589 V x0 x1 x2 x3 x4 x5 x6 h
  main_v591 := w13_4_main_v591 V x0 x1 x2 x3 x4 x5 x6 h
  main_c_220 := w13_4_main_c_220 V x0 x1 x2 x3 x4 x5 x6 h

/-- Stretch 5 of window 13: @main's operations 968 … 975. -/
def ops_p13_5 : List (HloOp τ sig (Elt F)) :=
  [ unary main_c_220 main_v592 (broadcastInDim S409600 ![] bcast_S_S409600 : (⟨S_, .i32⟩ : BufTy).Contents (Elt F) → (⟨S409600, .i32⟩ : BufTy).Contents (Elt F)),
    binary main_v587 main_v592 main_v593 (cmpi .slt : (⟨S409600, .i32⟩ : BufTy).Contents (Elt F) → (⟨S409600, .i32⟩ : BufTy).Contents (Elt F) → (⟨S409600, .i1⟩ : BufTy).Contents (Elt F)),
    binary main_v591 main_v593 main_v594 (andi : (⟨S409600, .i1⟩ : BufTy).Contents (Elt F) → (⟨S409600, .i1⟩ : BufTy).Contents (Elt F) → (⟨S409600, .i1⟩ : BufTy).Contents (Elt F)),
    nullary main_c_221 (constantI S_ 32 0#32),
    unary main_c_221 main_v595 (broadcastInDim S409600 ![] bcast_S_S409600 : (⟨S_, .i32⟩ : BufTy).Contents (Elt F) → (⟨S409600, .i32⟩ : BufTy).Contents (Elt F)),
    binary main_v589 main_v595 main_v596 (cmpi .sge : (⟨S409600, .i32⟩ : BufTy).Contents (Elt F) → (⟨S409600, .i32⟩ : BufTy).Contents (Elt F) → (⟨S409600, .i1⟩ : BufTy).Contents (Elt F)),
    binary main_v594 main_v596 main_v597 (andi : (⟨S409600, .i1⟩ : BufTy).Contents (Elt F) → (⟨S409600, .i1⟩ : BufTy).Contents (Elt F) → (⟨S409600, .i1⟩ : BufTy).Contents (Elt F)),
    nullary main_c_222 (constantI S_ 32 640#32) ]
abbrev ops_p13_5_W : List (Ref sig .tc) := [main_v592, main_v593, main_v594, main_c_221, main_v595, main_v596, main_v597, main_c_222]
theorem ops_p13_5_writes : (ops_p13_5 : List (HloOp τ sig (Elt F))).Forall fun op => op.writes ⊆ (ops_p13_5_W.map (Proc.devRef (τ := τ) .tc)).toFinset := by
  simp only [ops_p13_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p13_5_keep (V : Valuation τ sig (Elt F)) (r : Ref sig .tc) (h : r ∉ ops_p13_5_W) :
    after ops_p13_5 V (Proc.devRef .tc r) = V (Proc.devRef .tc r) :=
  after_of_writes_sub ops_p13_5 _ ops_p13_5_writes h

set_option maxRecDepth 8192 in
set_option maxHeartbeats 1000000 in
theorem w13_5_main_v597 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_5 V x0 x1 x2 x3 x4 x5 x6) :
    after ops_p13_5 V (Proc.devRef .tc main_v597) = val_main_v597 (F := F) x1 := by
  simp only [ops_p13_5]
  after_results_w
  simp only [h.main_v589, h.main_c_220, h.main_v587, h.main_v591]
  rfl

set_option maxRecDepth 8192 in
set_option maxHeartbeats 1000000 in
theorem w13_5_main_c_222 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_5 V x0 x1 x2 x3 x4 x5 x6) :
    after ops_p13_5 V (Proc.devRef .tc main_c_222) = val_main_c_222 (F := F) := by
  simp only [ops_p13_5]
  after_results_w
  rfl

theorem step13_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_5 V x0 x1 x2 x3 x4 x5 x6) : Inv13_6 (after ops_p13_5 V) x0 x1 x2 x3 x4 x5 x6 where
  main_arg0 := (ops_p13_5_keep V main_arg0 (by decide)).trans h.main_arg0
  main_arg1 := (ops_p13_5_keep V main_arg1 (by decide)).trans h.main_arg1
  main_arg2 := (ops_p13_5_keep V main_arg2 (by decide)).trans h.main_arg2
  main_arg3 := (ops_p13_5_keep V main_arg3 (by decide)).trans h.main_arg3
  main_arg4 := (ops_p13_5_keep V main_arg4 (by decide)).trans h.main_arg4
  main_arg5 := (ops_p13_5_keep V main_arg5 (by decide)).trans h.main_arg5
  main_arg6 := (ops_p13_5_keep V main_arg6 (by decide)).trans h.main_arg6
  main_v27 := (ops_p13_5_keep V main_v27 (by decide)).trans h.main_v27
  main_v524 := (ops_p13_5_keep V main_v524 (by decide)).trans h.main_v524
  main_v526 := (ops_p13_5_keep V main_v526 (by decide)).trans h.main_v526
  main_v528 := (ops_p13_5_keep V main_v528 (by decide)).trans h.main_v528
  main_v530 := (ops_p13_5_keep V main_v530 (by decide)).trans h.main_v530
  main_v585 := (ops_p13_5_keep V main_v585 (by decide)).trans h.main_v585
  main_v587 := (ops_p13_5_keep V main_v587 (by decide)).trans h.main_v587
  main_v589 := (ops_p13_5_keep V main_v589 (by decide)).trans h.main_v589
  main_v597 := w13_5_main_v597 V x0 x1 x2 x3 x4 x5 x6 h
  main_c_222 := w13_5_main_c_222 V x0 x1 x2 x3 x4 x5 x6 h

/-- Stretch 6 of window 13: @main's operations 976 … 983. -/
def ops_p13_6 : List (HloOp τ sig (Elt F)) :=
  [ unary main_c_222 main_v598 (broadcastInDim S409600 ![] bcast_S_S409600 : (⟨S_, .i32⟩ : BufTy).Contents (Elt F) → (⟨S409600, .i32⟩ : BufTy).Contents (Elt F)),
    binary main_v589 main_v598 main_v599 (cmpi .slt : (⟨S409600, .i32⟩ : BufTy).Contents (Elt F) → (⟨S409600, .i32⟩ : BufTy).Contents (Elt F) → (⟨S409600, .i1⟩ : BufTy).Contents (Elt F)),
    binary main_v597 main_v599 main_v600 (andi : (⟨S409600, .i1⟩ : BufTy).Contents (Elt F) → (⟨S409600, .i1⟩ : BufTy).Contents (Elt F) → (⟨S409600, .i1⟩ : BufTy).Contents (Elt F)),
    nullary main_c_223 (constantI S_ 32 0#32),
    nullary main_c_224 (constantI S_ 32 639#32),
    unary main_c_223 main_call41_v0 (id : (⟨S_, .i32⟩ : BufTy).Contents (Elt F) → (⟨S_, .i32⟩ : BufTy).Contents (Elt F)),
    unary main_call41_v0 main_call41_v1 ((broadcastInDim S409600 ![] bcast_S_S409600) : (⟨S_, .i32⟩ : BufTy).Contents (Elt F) → (⟨S409600, .i32⟩ : BufTy).Contents (Elt F)),
    binary main_call41_v1 main_v587 main_call41_v2 (maxsi : (⟨S409600, .i32⟩ : BufTy).Contents (Elt F) → (⟨S409600, .i32⟩ : BufTy).Contents (Elt F) → (⟨S409600, .i32⟩ : BufTy).Contents (Elt F)) ]
abbrev ops_p13_6_W : List (Ref sig .tc) := [main_v598, main_v599, main_v600, main_c_223, main_c_224, main_call41_v0, main_call41_v1, main_call41_v2]
theorem ops_p13_6_writes : (ops_p13_6 : List (HloOp τ sig (Elt F))).Forall fun op => op.writes ⊆ (ops_p13_6_W.map (Proc.devRef (τ := τ) .tc)).toFinset := by
  simp only [ops_p13_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p13_6_keep (V : Valuation τ sig (Elt F)) (r : Ref sig .tc) (h : r ∉ ops_p13_6_W) :
    after ops_p13_6 V (Proc.devRef .tc r) = V (Proc.devRef .tc r) :=
  after_of_writes_sub ops_p13_6 _ ops_p13_6_writes h

set_option maxRecDepth 8192 in
set_option maxHeartbeats 1000000 in
theorem w13_6_main_v600 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_6 V x0 x1 x2 x3 x4 x5 x6) :
    after ops_p13_6 V (Proc.devRef .tc main_v600) = val_main_v600 (F := F) x1 := by
  simp only [ops_p13_6]
  after_results_w
  simp only [h.main_c_222, h.main_v589, h.main_v597]
  rfl

set_option maxRecDepth 8192 in
set_option maxHeartbeats 1000000 in
theorem w13_6_main_c_224 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_6 V x0 x1 x2 x3 x4 x5 x6) :
    after ops_p13_6 V (Proc.devRef .tc main_c_224) = val_main_c_224 (F := F) := by
  simp only [ops_p13_6]
  after_results_w
  rfl

set_option maxRecDepth 8192 in
set_option maxHeartbeats 1000000 in
theorem w13_6_main_call41_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_6 V x0 x1 x2 x3 x4 x5 x6) :
    after ops_p13_6 V (Proc.devRef .tc main_call41_v2) = val_main_call41_v2 (F := F) x1 := by
  simp only [ops_p13_6]
  after_results_w
  simp only [h.main_v587]
  rfl

theorem step13_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_6 V x0 x1 x2 x3 x4 x5 x6) : Inv13_7 (after ops_p13_6 V) x0 x1 x2 x3 x4 x5 x6 where
  main_arg0 := (ops_p13_6_keep V main_arg0 (by decide)).trans h.main_arg0
  main_arg1 := (ops_p13_6_keep V main_arg1 (by decide)).trans h.main_arg1
  main_arg2 := (ops_p13_6_keep V main_arg2 (by decide)).trans h.main_arg2
  main_arg3 := (ops_p13_6_keep V main_arg3 (by decide)).trans h.main_arg3
  main_arg4 := (ops_p13_6_keep V main_arg4 (by decide)).trans h.main_arg4
  main_arg5 := (ops_p13_6_keep V main_arg5 (by decide)).trans h.main_arg5
  main_arg6 := (ops_p13_6_keep V main_arg6 (by decide)).trans h.main_arg6
  main_v27 := (ops_p13_6_keep V main_v27 (by decide)).trans h.main_v27
  main_v524 := (ops_p13_6_keep V main_v524 (by decide)).trans h.main_v524
  main_v526 := (ops_p13_6_keep V main_v526 (by decide)).trans h.main_v526
  main_v528 := (ops_p13_6_keep V main_v528 (by decide)).trans h.main_v528
  main_v530 := (ops_p13_6_keep V main_v530 (by decide)).trans h.main_v530
  main_v585 := (ops_p13_6_keep V main_v585 (by decide)).trans h.main_v585
  main_v589 := (ops_p13_6_keep V main_v589 (by decide)).trans h.main_v589
  main_v600 := w13_6_main_v600 V x0 x1 x2 x3 x4 x5 x6 h
  main_c_224 := w13_6_main_c_224 V x0 x1 x2 x3 x4 x5 x6 h
  main_call41_v2 := w13_6_main_call41_v2 V x0 x1 x2 x3 x4 x5 x6 h

/-- Stretch 7 of window 13: @main's operations 984 … 991. -/
def ops_p13_7 : List (HloOp τ sig (Elt F)) :=
  [ unary main_c_224 main_call41_v3 (id : (⟨S_, .i32⟩ : BufTy).Contents (Elt F) → (⟨S_, .i32⟩ : BufTy).Contents (Elt F)),
    unary main_call41_v3 main_call41_v4 ((broadcastInDim S409600 ![] bcast_S_S409600) : (⟨S_, .i32⟩ : BufTy).Contents (Elt F) → (⟨S409600, .i32⟩ : BufTy).Contents (Elt F)),
    binary main_call41_v4 main_call41_v2 main_v601 (minsi : (⟨S409600, .i32⟩ : BufTy).Contents (Elt F) → (⟨S409600, .i32⟩ : BufTy).Contents (Elt F) → (⟨S409600, .i32⟩ : BufTy).Contents (Elt F)),
    nullary main_c_225 (constantI S_ 32 0#32),
    nullary main_c_226 (constantI S_ 32 639#32),
    unary main_c_225 main_call42_v0 (id : (⟨S_, .i32⟩ : BufTy).Contents (Elt F) → (⟨S_, .i32⟩ : BufTy).Contents (Elt F)),
    unary main_call42_v0 main_call42_v1 ((broadcastInDim S409600 ![] bcast_S_S409600) : (⟨S_, .i32⟩ : BufTy).Contents (Elt F) → (⟨S409600, .i32⟩ : BufTy).Contents (Elt F)),
    binary main_call42_v1 main_v589 main_call42_v2 (maxsi : (⟨S409600, .i32⟩ : BufTy).Contents (Elt F) → (⟨S409600, .i32⟩ : BufTy).Contents (Elt F) → (⟨S409600, .i32⟩ : BufTy).Contents (Elt F)) ]
abbrev ops_p13_7_W : List (Ref sig .tc) := [main_call41_v3, main_call41_v4, main_v601, main_c_225, main_c_226, main_call42_v0, main_call42_v1, main_call42_v2]
theorem ops_p13_7_writes : (ops_p13_7 : List (HloOp τ sig (Elt F))).Forall fun op => op.writes ⊆ (ops_p13_7_W.map (Proc.devRef (τ := τ) .tc)).toFinset := by
  simp only [ops_p13_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p13_7_keep (V : Valuation τ sig (Elt F)) (r : Ref sig .tc) (h : r ∉ ops_p13_7_W) :
    after ops_p13_7 V (Proc.devRef .tc r) = V (Proc.devRef .tc r) :=
  after_of_writes_sub ops_p13_7 _ ops_p13_7_writes h

set_option maxRecDepth 8192 in
set_option maxHeartbeats 1000000 in
theorem w13_7_main_v601 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_7 V x0 x1 x2 x3 x4 x5 x6) :
    after ops_p13_7 V (Proc.devRef .tc main_v601) = val_main_v601 (F := F) x1 := by
  simp only [ops_p13_7]
  after_results_w
  simp only [h.main_call41_v2, h.main_c_224]
  rfl

set_option maxRecDepth 8192 in
set_option maxHeartbeats 1000000 in
theorem w13_7_main_c_226 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_7 V x0 x1 x2 x3 x4 x5 x6) :
    after ops_p13_7 V (Proc.devRef .tc main_c_226) = val_main_c_226 (F := F) := by
  simp only [ops_p13_7]
  after_results_w
  rfl

set_option maxRecDepth 8192 in
set_option maxHeartbeats 1000000 in
theorem w13_7_main_call42_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_7 V x0 x1 x2 x3 x4 x5 x6) :
    after ops_p13_7 V (Proc.devRef .tc main_call42_v2) = val_main_call42_v2 (F := F) x1 := by
  simp only [ops_p13_7]
  after_results_w
  simp only [h.main_v589]
  rfl

theorem step13_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_7 V x0 x1 x2 x3 x4 x5 x6) : Inv13_8 (after ops_p13_7 V) x0 x1 x2 x3 x4 x5 x6 where
  main_arg0 := (ops_p13_7_keep V main_arg0 (by decide)).trans h.main_arg0
  main_arg1 := (ops_p13_7_keep V main_arg1 (by decide)).trans h.main_arg1
  main_arg2 := (ops_p13_7_keep V main_arg2 (by decide)).trans h.main_arg2
  main_arg3 := (ops_p13_7_keep V main_arg3 (by decide)).trans h.main_arg3
  main_arg4 := (ops_p13_7_keep V main_arg4 (by decide)).trans h.main_arg4
  main_arg5 := (ops_p13_7_keep V main_arg5 (by decide)).trans h.main_arg5
  main_arg6 := (ops_p13_7_keep V main_arg6 (by decide)).trans h.main_arg6
  main_v27 := (ops_p13_7_keep V main_v27 (by decide)).trans h.main_v27
  main_v524 := (ops_p13_7_keep V main_v524 (by decide)).trans h.main_v524
  main_v526 := (ops_p13_7_keep V main_v526 (by decide)).trans h.main_v526
  main_v528 := (ops_p13_7_keep V main_v528 (by decide)).trans h.main_v528
  main_v530 := (ops_p13_7_keep V main_v530 (by decide)).trans h.main_v530
  main_v585 := (ops_p13_7_keep V main_v585 (by decide)).trans h.main_v585
  main_v600 := (ops_p13_7_keep V main_v600 (by decide)).trans h.main_v600
  main_v601 := w13_7_main_v601 V x0 x1 x2 x3 x4 x5 x6 h
  main_c_226 := w13_7_main_c_226 V x0 x1 x2 x3 x4 x5 x6 h
  main_call42_v2 := w13_7_main_call42_v2 V x0 x1 x2 x3 x4 x5 x6 h

/-- Stretch 8 of window 13: @main's operations 992 … 999. -/
def ops_p13_8 : List (HloOp τ sig (Elt F)) :=
  [ unary main_c_226 main_call42_v3 (id : (⟨S_, .i32⟩ : BufTy).Contents (Elt F) → (⟨S_, .i32⟩ : BufTy).Contents (Elt F)),
    unary main_call42_v3 main_call42_v4 ((broadcastInDim S409600 ![] bcast_S_S409600) : (⟨S_, .i32⟩ : BufTy).Contents (Elt F) → (⟨S409600, .i32⟩ : BufTy).Contents (Elt F)),
    binary main_call42_v4 main_call42_v2 main_v602 (minsi : (⟨S409600, .i32⟩ : BufTy).Contents (Elt F) → (⟨S409600, .i32⟩ : BufTy).Contents (Elt F) → (⟨S409600, .i32⟩ : BufTy).Contents (Elt F)),
    nullary main_c_227 (constantI S_ 32 0#32),
    unary main_c_227 main_v603 (broadcastInDim S409600 ![] bcast_S_S409600 : (⟨S_, .i32⟩ : BufTy).Contents (Elt F) → (⟨S409600, .i32⟩ : BufTy).Contents (Elt F)),
    binary main_v526 main_v603 main_v604 (cmpi .slt : (⟨S409600, .i32⟩ : BufTy).Contents (Elt F) → (⟨S409600, .i32⟩ : BufTy).Contents (Elt F) → (⟨S409600, .i1⟩ : BufTy).Contents (Elt F)),
    nullary main_c_228 (constantI S_ 32 2#32),
    unary main_c_228 main_v605 (broadcastInDim S409600 ![] bcast_S_S409600 : (⟨S_, .i32⟩ : BufTy).Contents (Elt F) → (⟨S409600, .i32⟩ : BufTy).Contents (Elt F)) ]
abbrev ops_p13_8_W : List (Ref sig .tc) := [main_call42_v3, main_call42_v4, main_v602, main_c_227, main_v603, main_v604, main_c_228, main_v605]
theorem ops_p13_8_writes : (ops_p13_8 : List (HloOp τ sig (Elt F))).Forall fun op => op.writes ⊆ (ops_p13_8_W.map (Proc.devRef (τ := τ) .tc)).toFinset := by
  simp only [ops_p13_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p13_8_keep (V : Valuation τ sig (Elt F)) (r : Ref sig .tc) (h : r ∉ ops_p13_8_W) :
    after ops_p13_8 V (Proc.devRef .tc r) = V (Proc.devRef .tc r) :=
  after_of_writes_sub ops_p13_8 _ ops_p13_8_writes h

set_option maxRecDepth 8192 in
set_option maxHeartbeats 1000000 in
theorem w13_8_main_v602 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_8 V x0 x1 x2 x3 x4 x5 x6) :
    after ops_p13_8 V (Proc.devRef .tc main_v602) = val_main_v602 (F := F) x1 := by
  simp only [ops_p13_8]
  after_results_w
  simp only [h.main_call42_v2, h.main_c_226]
  rfl

set_option maxRecDepth 8192 in
set_option maxHeartbeats 1000000 in
theorem w13_8_main_v604 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_8 V x0 x1 x2 x3 x4 x5 x6) :
    after ops_p13_8 V (Proc.devRef .tc main_v604) = val_main_v604 (F := F) x1 := by
  simp only [ops_p13_8]
  after_results_w
  simp only [h.main_v526]
  rfl

set_option maxRecDepth 8192 in
set_option maxHeartbeats 1000000 in
theorem w13_8_main_v605 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_8 V x0 x1 x2 x3 x4 x5 x6) :
    after ops_p13_8 V (Proc.devRef .tc main_v605) = val_main_v605 (F := F) := by
  simp only [ops_p13_8]
  after_results_w
  rfl

theorem step13_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_8 V x0 x1 x2 x3 x4 x5 x6) : Inv13_9 (after ops_p13_8 V) x0 x1 x2 x3 x4 x5 x6 where
  main_arg0 := (ops_p13_8_keep V main_arg0 (by decide)).trans h.main_arg0
  main_arg1 := (ops_p13_8_keep V main_arg1 (by decide)).trans h.main_arg1
  main_arg2 := (ops_p13_8_keep V main_arg2 (by decide)).trans h.main_arg2
  main_arg3 := (ops_p13_8_keep V main_arg3 (by decide)).trans h.main_arg3
  main_arg4 := (ops_p13_8_keep V main_arg4 (by decide)).trans h.main_arg4
  main_arg5 := (ops_p13_8_keep V main_arg5 (by decide)).trans h.main_arg5
  main_arg6 := (ops_p13_8_keep V main_arg6 (by decide)).trans h.main_arg6
  main_v27 := (ops_p13_8_keep V main_v27 (by decide)).trans h.main_v27
  main_v524 := (ops_p13_8_keep V main_v524 (by decide)).trans h.main_v524
  main_v526 := (ops_p13_8_keep V main_v526 (by decide)).trans h.main_v526
  main_v528 := (ops_p13_8_keep V main_v528 (by decide)).trans h.main_v528
  main_v530 := (ops_p13_8_keep V main_v530 (by decide)).trans h.main_v530
  main_v585 := (ops_p13_8_keep V main_v585 (by decide)).trans h.main_v585
  main_v600 := (ops_p13_8_keep V main_v600 (by decide)).trans h.main_v600
  main_v601 := (ops_p13_8_keep V main_v601 (by decide)).trans h.main_v601
  main_v602 := w13_8_main_v602 V x0 x1 x2 x3 x4 x5 x6 h
  main_v604 := w13_8_main_v604 V x0 x1 x2 x3 x4 x5 x6 h
  main_v605 := w13_8_main_v605 V x0 x1 x2 x3 x4 x5 x6 h

/-- Stretch 9 of window 13: @main's operations 1000 … 1002. -/
def ops_p13_9 : List (HloOp τ sig (Elt F)) :=
  [ binary main_v526 main_v605 main_v606 (addi : (⟨S409600, .i32⟩ : BufTy).Contents (Elt F) → (⟨S409600, .i32⟩ : BufTy).Contents (Elt F) → (⟨S409600, .i32⟩ : BufTy).Contents (Elt F)),
    ternary main_v604 main_v606 main_v526 main_v607 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_229 (constantI S_ 32 0#32) ]
abbrev ops_p13_9_W : List (Ref sig .tc) := [main_v606, main_v607, main_c_229]
theorem ops_p13_9_writes : (ops_p13_9 : List (HloOp τ sig (Elt F))).Forall fun op => op.writes ⊆ (ops_p13_9_W.map (Proc.devRef (τ := τ) .tc)).toFinset := by
  simp only [ops_p13_9, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p13_9_keep (V : Valuation τ sig (Elt F)) (r : Ref sig .tc) (h : r ∉ ops_p13_9_W) :
    after ops_p13_9 V (Proc.devRef .tc r) = V (Proc.devRef .tc r) :=
  after_of_writes_sub ops_p13_9 _ ops_p13_9_writes h

set_option maxRecDepth 8192 in
set_option maxHeartbeats 1000000 in
theorem w13_9_main_v607 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_9 V x0 x1 x2 x3 x4 x5 x6) :
    after ops_p13_9 V (Proc.devRef .tc main_v607) = val_main_v607 (F := F) x1 := by
  simp only [ops_p13_9]
  after_results_w
  simp only [h.main_v526, h.main_v605, h.main_v604]
  rfl

set_option maxRecDepth 8192 in
set_option maxHeartbeats 1000000 in
theorem w13_9_main_c_229 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_9 V x0 x1 x2 x3 x4 x5 x6) :
    after ops_p13_9 V (Proc.devRef .tc main_c_229) = val_main_c_229 (F := F) := by
  simp only [ops_p13_9]
  after_results_w
  rfl

theorem step13_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13_9 V x0 x1 x2 x3 x4 x5 x6) : Inv14 (after ops_p13_9 V) x0 x1 x2 x3 x4 x5 x6 where
  main_arg0 := (ops_p13_9_keep V main_arg0 (by decide)).trans h.main_arg0
  main_arg1 := (ops_p13_9_keep V main_arg1 (by decide)).trans h.main_arg1
  main_arg2 := (ops_p13_9_keep V main_arg2 (by decide)).trans h.main_arg2
  main_arg3 := (ops_p13_9_keep V main_arg3 (by decide)).trans h.main_arg3
  main_arg4 := (ops_p13_9_keep V main_arg4 (by decide)).trans h.main_arg4
  main_arg5 := (ops_p13_9_keep V main_arg5 (by decide)).trans h.main_arg5
  main_arg6 := (ops_p13_9_keep V main_arg6 (by decide)).trans h.main_arg6
  main_v27 := (ops_p13_9_keep V main_v27 (by decide)).trans h.main_v27
  main_v524 := (ops_p13_9_keep V main_v524 (by decide)).trans h.main_v524
  main_v526 := (ops_p13_9_keep V main_v526 (by decide)).trans h.main_v526
  main_v528 := (ops_p13_9_keep V main_v528 (by decide)).trans h.main_v528
  main_v530 := (ops_p13_9_keep V main_v530 (by decide)).trans h.main_v530
  main_v585 := (ops_p13_9_keep V main_v585 (by decide)).trans h.main_v585
  main_v600 := (ops_p13_9_keep V main_v600 (by decide)).trans h.main_v600
  main_v601 := (ops_p13_9_keep V main_v601 (by decide)).trans h.main_v601
  main_v602 := (ops_p13_9_keep V main_v602 (by decide)).trans h.main_v602
  main_v607 := w13_9_main_v607 V x0 x1 x2 x3 x4 x5 x6 h
  main_c_229 := w13_9_main_c_229 V x0 x1 x2 x3 x4 x5 x6 h

set_option maxRecDepth 8192 in
theorem ops_p13_split : (ops_p13 : List (HloOp τ sig (Elt F))) = ops_p13_0 ++ (ops_p13_1 ++ (ops_p13_2 ++ (ops_p13_3 ++ (ops_p13_4 ++ (ops_p13_5 ++ (ops_p13_6 ++ (ops_p13_7 ++ (ops_p13_8 ++ (ops_p13_9))))))))) := rfl

/-- Window 13 carries the staged reading from boundary 13 to boundary 14. -/
theorem step13 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv13 V x0 x1 x2 x3 x4 x5 x6) : Inv14 (after ops_p13 V) x0 x1 x2 x3 x4 x5 x6 := by
  rw [ops_p13_split]; simp only [after_app]
  exact step13_9 _ x0 x1 x2 x3 x4 x5 x6 (step13_8 _ x0 x1 x2 x3 x4 x5 x6 (step13_7 _ x0 x1 x2 x3 x4 x5 x6 (step13_6 _ x0 x1 x2 x3 x4 x5 x6 (step13_5 _ x0 x1 x2 x3 x4 x5 x6 (step13_4 _ x0 x1 x2 x3 x4 x5 x6 (step13_3 _ x0 x1 x2 x3 x4 x5 x6 (step13_2 _ x0 x1 x2 x3 x4 x5 x6 (step13_1 _ x0 x1 x2 x3 x4 x5 x6 (step13_0 V x0 x1 x2 x3 x4 x5 x6 h)))))))))

end Cert.ReferenceIdeal.Hand

end
-- ==== Proof.Ref.W14.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 14 of @main: its operations 1003 … 1067 of 1688, in order. -/
def ops_p14 : List (HloOp τ sig (Elt F)) :=
  [ unary main_c_229 main_v608 (broadcastInDim S409600 ![] bcast_S_S409600 : (⟨S_, .i32⟩ : BufTy).Contents (Elt F) → (⟨S409600, .i32⟩ : BufTy).Contents (Elt F)),
    binary main_v601 main_v608 main_v609 (cmpi .slt : (⟨S409600, .i32⟩ : BufTy).Contents (Elt F) → (⟨S409600, .i32⟩ : BufTy).Contents (Elt F) → (⟨S409600, .i1⟩ : BufTy).Contents (Elt F)),
    nullary main_c_230 (constantI S_ 32 640#32),
    unary main_c_230 main_v610 (broadcastInDim S409600 ![] bcast_S_S409600 : (⟨S_, .i32⟩ : BufTy).Contents (Elt F) → (⟨S409600, .i32⟩ : BufTy).Contents (Elt F)),
    binary main_v601 main_v610 main_v611 (addi : (⟨S409600, .i32⟩ : BufTy).Contents (Elt F) → (⟨S409600, .i32⟩ : BufTy).Contents (Elt F) → (⟨S409600, .i32⟩ : BufTy).Contents (Elt F)),
    ternary main_v609 main_v611 main_v601 main_v612 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_231 (constantI S_ 32 0#32),
    unary main_c_231 main_v613 (broadcastInDim S409600 ![] bcast_S_S409600 : (⟨S_, .i32⟩ : BufTy).Contents (Elt F) → (⟨S409600, .i32⟩ : BufTy).Contents (Elt F)),
    binary main_v602 main_v613 main_v614 (cmpi .slt : (⟨S409600, .i32⟩ : BufTy).Contents (Elt F) → (⟨S409600, .i32⟩ : BufTy).Contents (Elt F) → (⟨S409600, .i1⟩ : BufTy).Contents (Elt F)),
    nullary main_c_232 (constantI S_ 32 640#32),
    unary main_c_232 main_v615 (broadcastInDim S409600 ![] bcast_S_S409600 : (⟨S_, .i32⟩ : BufTy).Contents (Elt F) → (⟨S409600, .i32⟩ : BufTy).Contents (Elt F)),
    binary main_v602 main_v615 main_v616 (addi : (⟨S409600, .i32⟩ : BufTy).Contents (Elt F) → (⟨S409600, .i32⟩ : BufTy).Contents (Elt F) → (⟨S409600, .i32⟩ : BufTy).Contents (Elt F)),
    ternary main_v614 main_v616 main_v602 main_v617 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v607 main_v618 (broadcastInDim S409600x1 ![0] bcast_S409600_S409600x1_0 : (⟨S409600, .i32⟩ : BufTy).Contents (Elt F) → (⟨S409600x1, .i32⟩ : BufTy).Contents (Elt F)),
    unary main_v612 main_v619 (broadcastInDim S409600x1 ![0] bcast_S409600_S409600x1_0 : (⟨S409600, .i32⟩ : BufTy).Contents (Elt F) → (⟨S409600x1, .i32⟩ : BufTy).Contents (Elt F)),
    unary main_v617 main_v620 (broadcastInDim S409600x1 ![0] bcast_S409600_S409600x1_0 : (⟨S409600, .i32⟩ : BufTy).Contents (Elt F) → (⟨S409600x1, .i32⟩ : BufTy).Contents (Elt F)),
    nary ![main_v618, main_v619, main_v620] main_v621 (fun u => concatenate S409600x3 1 [⟨S409600x1, u 0⟩, ⟨S409600x1, u 1⟩, ⟨S409600x1, u 2⟩] concatenates_S409600x1_S409600x1_S409600x1_S409600x3_d1),
    binary main_v27 main_v621 main_v622 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_233 (constantI S_ 32 0#32),
    unary main_c_233 main_v623 (broadcastInDim S409600 ![] bcast_S_S409600 : (⟨S_, .i32⟩ : BufTy).Contents (Elt F) → (⟨S409600, .i32⟩ : BufTy).Contents (Elt F)),
    binary main_v622 main_v623 main_v624 (cmpi .sge : (⟨S409600, .i32⟩ : BufTy).Contents (Elt F) → (⟨S409600, .i32⟩ : BufTy).Contents (Elt F) → (⟨S409600, .i1⟩ : BufTy).Contents (Elt F)),
    binary main_v600 main_v624 main_v625 (andi : (⟨S409600, .i1⟩ : BufTy).Contents (Elt F) → (⟨S409600, .i1⟩ : BufTy).Contents (Elt F) → (⟨S409600, .i1⟩ : BufTy).Contents (Elt F)),
    nullary main_c_234 (constantI S_ 32 0#32),
    unary main_c_234 main_call43_v0 (id : (⟨S_, .i32⟩ : BufTy).Contents (Elt F) → (⟨S_, .i32⟩ : BufTy).Contents (Elt F)),
    unary main_call43_v0 main_call43_v1 ((broadcastInDim S409600 ![] bcast_S_S409600) : (⟨S_, .i32⟩ : BufTy).Contents (Elt F) → (⟨S409600, .i32⟩ : BufTy).Contents (Elt F)),
    ternary main_v625 main_v622 main_call43_v1 main_v626 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_235 (constantI S_ 32 0#32),
    unary main_c_235 main_v627 (broadcastInDim S409600 ![] bcast_S_S409600 : (⟨S_, .i32⟩ : BufTy).Contents (Elt F) → (⟨S409600, .i32⟩ : BufTy).Contents (Elt F)),
    binary main_v626 main_v627 main_v628 (cmpi .slt : (⟨S409600, .i32⟩ : BufTy).Contents (Elt F) → (⟨S409600, .i32⟩ : BufTy).Contents (Elt F) → (⟨S409600, .i1⟩ : BufTy).Contents (Elt F)),
    nullary main_c_236 (constantI S_ 32 409600#32),
    unary main_c_236 main_v629 (broadcastInDim S409600 ![] bcast_S_S409600 : (⟨S_, .i32⟩ : BufTy).Contents (Elt F) → (⟨S409600, .i32⟩ : BufTy).Contents (Elt F)),
    binary main_v626 main_v629 main_v630 (addi : (⟨S409600, .i32⟩ : BufTy).Contents (Elt F) → (⟨S409600, .i32⟩ : BufTy).Contents (Elt F) → (⟨S409600, .i32⟩ : BufTy).Contents (Elt F)),
    ternary main_v628 main_v630 main_v626 main_v631 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v631 main_v632 (broadcastInDim S409600x1 ![0] bcast_S409600_S409600x1_0 : (⟨S409600, .i32⟩ : BufTy).Contents (Elt F) → (⟨S409600x1, .i32⟩ : BufTy).Contents (Elt F)),
    binary main_v524 main_v632 main_v633 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v625 main_v634 (broadcastInDim S409600x1 ![0] bcast_S409600_S409600x1_0 : (⟨S409600, .i1⟩ : BufTy).Contents (Elt F) → (⟨S409600x1, .i1⟩ : BufTy).Contents (Elt F)),
    nullary main_cst_237 (constant S_ .f32 0x00000000#32),
    unary main_cst_237 main_call44_v0 (id : (⟨S_, .f32⟩ : BufTy).Contents (Elt F) → (⟨S_, .f32⟩ : BufTy).Contents (Elt F)),
    unary main_v634 main_call44_v1 ((broadcastInDim S409600x64 ![0, 1] bcast_S409600x1_S409600x64_0_1) : (⟨S409600x1, .i1⟩ : BufTy).Contents (Elt F) → (⟨S409600x64, .i1⟩ : BufTy).Contents (Elt F)),
    unary main_call44_v0 main_call44_v2 ((broadcastInDim S409600x64 ![] bcast_S_S409600x64) : (⟨S_, .f32⟩ : BufTy).Contents (Elt F) → (⟨S409600x64, .f32⟩ : BufTy).Contents (Elt F)),
    ternary main_call44_v1 main_v633 main_call44_v2 main_v635 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v636 ((extractStridedSlice S1x1x64x64 ![0, 1, 0, 0] · slices_S3x3x64x64_S1x1x64x64_0_1_0_0) : (⟨S3x3x64x64, .f32⟩ : BufTy).Contents (Elt F) → (⟨S1x1x64x64, .f32⟩ : BufTy).Contents (Elt F)),
    reshape main_v636 main_v637 rfl shapeCasts_S1x1x64x64_S64x64,
    binary main_v635 main_v637 main_v638 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v585 main_v638 main_v639 (addf : (⟨S409600x64, .f32⟩ : BufTy).Contents (Elt F) → (⟨S409600x64, .f32⟩ : BufTy).Contents (Elt F) → (⟨S409600x64, .f32⟩ : BufTy).Contents (Elt F)),
    nullary main_c_238 (constantI S_ 32 4294967295#32),
    unary main_c_238 main_v640 (broadcastInDim S409600 ![] bcast_S_S409600 : (⟨S_, .i32⟩ : BufTy).Contents (Elt F) → (⟨S409600, .i32⟩ : BufTy).Contents (Elt F)),
    binary main_v528 main_v640 main_v641 (addi : (⟨S409600, .i32⟩ : BufTy).Contents (Elt F) → (⟨S409600, .i32⟩ : BufTy).Contents (Elt F) → (⟨S409600, .i32⟩ : BufTy).Contents (Elt F)),
    nullary main_c_239 (constantI S_ 32 1#32),
    unary main_c_239 main_v642 (broadcastInDim S409600 ![] bcast_S_S409600 : (⟨S_, .i32⟩ : BufTy).Contents (Elt F) → (⟨S409600, .i32⟩ : BufTy).Contents (Elt F)),
    binary main_v530 main_v642 main_v643 (addi : (⟨S409600, .i32⟩ : BufTy).Contents (Elt F) → (⟨S409600, .i32⟩ : BufTy).Contents (Elt F) → (⟨S409600, .i32⟩ : BufTy).Contents (Elt F)),
    nullary main_c_240 (constantI S_ 32 0#32),
    unary main_c_240 main_v644 (broadcastInDim S409600 ![] bcast_S_S409600 : (⟨S_, .i32⟩ : BufTy).Contents (Elt F) → (⟨S409600, .i32⟩ : BufTy).Contents (Elt F)),
    binary main_v641 main_v644 main_v645 (cmpi .sge : (⟨S409600, .i32⟩ : BufTy).Contents (Elt F) → (⟨S409600, .i32⟩ : BufTy).Contents (Elt F) → (⟨S409600, .i1⟩ : BufTy).Contents (Elt F)),
    nullary main_c_241 (constantI S_ 32 640#32),
    unary main_c_241 main_v646 (broadcastInDim S409600 ![] bcast_S_S409600 : (⟨S_, .i32⟩ : BufTy).Contents (Elt F) → (⟨S409600, .i32⟩ : BufTy).Contents (Elt F)),
    binary main_v641 main_v646 main_v647 (cmpi .slt : (⟨S409600, .i32⟩ : BufTy).Contents (Elt F) → (⟨S409600, .i32⟩ : BufTy).Contents (Elt F) → (⟨S409600, .i1⟩ : BufTy).Contents (Elt F)),
    binary main_v645 main_v647 main_v648 (andi : (⟨S409600, .i1⟩ : BufTy).Contents (Elt F) → (⟨S409600, .i1⟩ : BufTy).Contents (Elt F) → (⟨S409600, .i1⟩ : BufTy).Contents (Elt F)),
    nullary main_c_242 (constantI S_ 32 0#32),
    unary main_c_242 main_v649 (broadcastInDim S409600 ![] bcast_S_S409600 : (⟨S_, .i32⟩ : BufTy).Contents (Elt F) → (⟨S409600, .i32⟩ : BufTy).Contents (Elt F)),
    binary main_v643 main_v649 main_v650 (cmpi .sge : (⟨S409600, .i32⟩ : BufTy).Contents (Elt F) → (⟨S409600, .i32⟩ : BufTy).Contents (Elt F) → (⟨S409600, .i1⟩ : BufTy).Contents (Elt F)),
    binary main_v648 main_v650 main_v651 (andi : (⟨S409600, .i1⟩ : BufTy).Contents (Elt F) → (⟨S409600, .i1⟩ : BufTy).Contents (Elt F) → (⟨S409600, .i1⟩ : BufTy).Contents (Elt F)),
    nullary main_c_243 (constantI S_ 32 640#32),
    unary main_c_243 main_v652 (broadcastInDim S409600 ![] bcast_S_S409600 : (⟨S_, .i32⟩ : BufTy).Contents (Elt F) → (⟨S409600, .i32⟩ : BufTy).Contents (Elt F)),
    binary main_v643 main_v652 main_v653 (cmpi .slt : (⟨S409600, .i32⟩ : BufTy).Contents (Elt F) → (⟨S409600, .i32⟩ : BufTy).Contents (Elt F) → (⟨S409600, .i1⟩ : BufTy).Contents (Elt F)) ]

set_option maxRecDepth 8192 in
set_option maxHeartbeats 4000000 in
theorem main_part14_eq (c : Dev nD) : main_part14 (F := F) c = seq ops_p14 := by
  simp only [main_part14, ops_p14, fn_clip.body, fn_where.body, fn_where_0.body, fn_relu.body, seq, bind_assoc, pure_bind]
  rfl

set_option maxRecDepth 8192 in
theorem ops_p14_sub : (ops_p14 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

set_option maxRecDepth 8192 in
theorem ops_p14_fresh : ∀ op ∈ (ops_p14 : List (HloOp τ sig (Elt F))), op.fresh = ∅ := by
  unfold ops_p14; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 1011 on hold before it. -/
structure Inv14_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v600 : V (Proc.devRef .tc main_v600) = val_main_v600 (F := F) x1
  main_v602 : V (Proc.devRef .tc main_v602) = val_main_v602 (F := F) x1
  main_v607 : V (Proc.devRef .tc main_v607) = val_main_v607 (F := F) x1
  main_v612 : V (Proc.devRef .tc main_v612) = val_main_v612 (F := F) x1
  main_v613 : V (Proc.devRef .tc main_v613) = val_main_v613 (F := F)

/-- What the buffers read from operation 1019 on hold before it. -/
structure Inv14_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v600 : V (Proc.devRef .tc main_v600) = val_main_v600 (F := F) x1
  main_v618 : V (Proc.devRef .tc main_v618) = val_main_v618 (F := F) x1
  main_v619 : V (Proc.devRef .tc main_v619) = val_main_v619 (F := F) x1
  main_v620 : V (Proc.devRef .tc main_v620) = val_main_v620 (F := F) x1

/-- What the buffers read from operation 1027 on hold before it. -/
structure Inv14_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v622 : V (Proc.devRef .tc main_v622) = val_main_v622 (F := F) x1
  main_v625 : V (Proc.devRef .tc main_v625) = val_main_v625 (F := F) x1
  main_call43_v0 : V (Proc.devRef .tc main_call43_v0) = val_main_call43_v0 (F := F)

/-- What the buffers read from operation 1035 on hold before it. -/
structure Inv14_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v625 : V (Proc.devRef .tc main_v625) = val_main_v625 (F := F) x1
  main_v626 : V (Proc.devRef .tc main_v626) = val_main_v626 (F := F) x1
  main_v628 : V (Proc.devRef .tc main_v628) = val_main_v628 (F := F) x1
  main_v630 : V (Proc.devRef .tc main_v630) = val_main_v630 (F := F) x1

/-- What the buffers read from operation 1043 on hold before it. -/
structure Inv14_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v585 : V (Proc.devRef .tc main_v585) = val_main_v585 (F := F) x0 x1 x2 x3 x4
  main_v633 : V (Proc.devRef .tc main_v633) = val_main_v633 (F := F) x0 x1 x2 x3
  main_call44_v1 : V (Proc.devRef .tc main_call44_v1) = val_main_call44_v1 (F := F) x1
  main_call44_v2 : V (Proc.devRef .tc main_call44_v2) = val_main_call44_v2 (F := F)

/-- What the buffers read from operation 1051 on hold before it. -/
structure Inv14_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v641 : V (Proc.devRef .tc main_v641) = val_main_v641 (F := F) x1

/-- What the buffers read from operation 1059 on hold before it. -/
structure Inv14_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v641 : V (Proc.devRef .tc main_v641) = val_main_v641 (F := F) x1
  main_v643 : V (Proc.devRef .tc main_v643) = val_main_v643 (F := F) x1
  main_v645 : V (Proc.devRef .tc main_v645) = val_main_v645 (F := F) x1
  main_v646 : V (Proc.devRef .tc main_v646) = val_main_v646 (F := F)

/-- Stretch 0 of window 14: @main's operations 1003 … 1010. -/
def ops_p14_0 : List (HloOp τ sig (Elt F)) :=
  [ unary main_c_229 main_v608 (broadcastInDim S409600 ![] bcast_S_S409600 : (⟨S_, .i32⟩ : BufTy).Contents (Elt F) → (⟨S409600, .i32⟩ : BufTy).Contents (Elt F)),
    binary main_v601 main_v608 main_v609 (cmpi .slt : (⟨S409600, .i32⟩ : BufTy).Contents (Elt F) → (⟨S409600, .i32⟩ : BufTy).Contents (Elt F) → (⟨S409600, .i1⟩ : BufTy).Contents (Elt F)),
    nullary main_c_230 (constantI S_ 32 640#32),
    unary main_c_230 main_v610 (broadcastInDim S409600 ![] bcast_S_S409600 : (⟨S_, .i32⟩ : BufTy).Contents (Elt F) → (⟨S409600, .i32⟩ : BufTy).Contents (Elt F)),
    binary main_v601 main_v610 main_v611 (addi : (⟨S409600, .i32⟩ : BufTy).Contents (Elt F) → (⟨S409600, .i32⟩ : BufTy).Contents (Elt F) → (⟨S409600, .i32⟩ : BufTy).Contents (Elt F)),
    ternary main_v609 main_v611 main_v601 main_v612 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_231 (constantI S_ 32 0#32),
    unary main_c_231 main_v613 (broadcastInDim S409600 ![] bcast_S_S409600 : (⟨S_, .i32⟩ : BufTy).Contents (Elt F) → (⟨S409600, .i32⟩ : BufTy).Contents (Elt F)) ]
abbrev ops_p14_0_W : List (Ref sig .tc) := [main_v608, main_v609, main_c_230, main_v610, main_v611, main_v612, main_c_231, main_v613]
theorem ops_p14_0_writes : (ops_p14_0 : List (HloOp τ sig (Elt F))).Forall fun op => op.writes ⊆ (ops_p14_0_W.map (Proc.devRef (τ := τ) .tc)).toFinset := by
  simp only [ops_p14_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p14_0_keep (V : Valuation τ sig (Elt F)) (r : Ref sig .tc) (h : r ∉ ops_p14_0_W) :
    after ops_p14_0 V (Proc.devRef .tc r) = V (Proc.devRef .tc r) :=
  after_of_writes_sub ops_p14_0 _ ops_p14_0_writes h

set_option maxRecDepth 8192 in
set_option maxHeartbeats 1000000 in
theorem w14_0_main_v612 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14 V x0 x1 x2 x3 x4 x5 x6) :
    after ops_p14_0 V (Proc.devRef .tc main_v612) = val_main_v612 (F := F) x1 := by
  simp only [ops_p14_0]
  after_results_w
  simp only [h.main_v601, h.main_c_229]
  rfl

set_option maxRecDepth 8192 in
set_option maxHeartbeats 1000000 in
theorem w14_0_main_v613 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14 V x0 x1 x2 x3 x4 x5 x6) :
    after ops_p14_0 V (Proc.devRef .tc main_v613) = val_main_v613 (F := F) := by
  simp only [ops_p14_0]
  after_results_w
  rfl

theorem step14_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14 V x0 x1 x2 x3 x4 x5 x6) : Inv14_1 (after ops_p14_0 V) x0 x1 x2 x3 x4 x5 x6 where
  main_arg0 := (ops_p14_0_keep V main_arg0 (by decide)).trans h.main_arg0
  main_arg1 := (ops_p14_0_keep V main_arg1 (by decide)).trans h.main_arg1
  main_arg2 := (ops_p14_0_keep V main_arg2 (by decide)).trans h.main_arg2
  main_arg3 := (ops_p14_0_keep V main_arg3 (by decide)).trans h.main_arg3
  main_arg4 := (ops_p14_0_keep V main_arg4 (by decide)).trans h.main_arg4
  main_arg5 := (ops_p14_0_keep V main_arg5 (by decide)).trans h.main_arg5
  main_arg6 := (ops_p14_0_keep V main_arg6 (by decide)).trans h.main_arg6
  main_v27 := (ops_p14_0_keep V main_v27 (by decide)).trans h.main_v27
  main_v524 := (ops_p14_0_keep V main_v524 (by decide)).trans h.main_v524
  main_v526 := (ops_p14_0_keep V main_v526 (by decide)).trans h.main_v526
  main_v528 := (ops_p14_0_keep V main_v528 (by decide)).trans h.main_v528
  main_v530 := (ops_p14_0_keep V main_v530 (by decide)).trans h.main_v530
  main_v585 := (ops_p14_0_keep V main_v585 (by decide)).trans h.main_v585
  main_v600 := (ops_p14_0_keep V main_v600 (by decide)).trans h.main_v600
  main_v602 := (ops_p14_0_keep V main_v602 (by decide)).trans h.main_v602
  main_v607 := (ops_p14_0_keep V main_v607 (by decide)).trans h.main_v607
  main_v612 := w14_0_main_v612 V x0 x1 x2 x3 x4 x5 x6 h
  main_v613 := w14_0_main_v613 V x0 x1 x2 x3 x4 x5 x6 h

/-- Stretch 1 of window 14: @main's operations 1011 … 1018. -/
def ops_p14_1 : List (HloOp τ sig (Elt F)) :=
  [ binary main_v602 main_v613 main_v614 (cmpi .slt : (⟨S409600, .i32⟩ : BufTy).Contents (Elt F) → (⟨S409600, .i32⟩ : BufTy).Contents (Elt F) → (⟨S409600, .i1⟩ : BufTy).Contents (Elt F)),
    nullary main_c_232 (constantI S_ 32 640#32),
    unary main_c_232 main_v615 (broadcastInDim S409600 ![] bcast_S_S409600 : (⟨S_, .i32⟩ : BufTy).Contents (Elt F) → (⟨S409600, .i32⟩ : BufTy).Contents (Elt F)),
    binary main_v602 main_v615 main_v616 (addi : (⟨S409600, .i32⟩ : BufTy).Contents (Elt F) → (⟨S409600, .i32⟩ : BufTy).Contents (Elt F) → (⟨S409600, .i32⟩ : BufTy).Contents (Elt F)),
    ternary main_v614 main_v616 main_v602 main_v617 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v607 main_v618 (broadcastInDim S409600x1 ![0] bcast_S409600_S409600x1_0 : (⟨S409600, .i32⟩ : BufTy).Contents (Elt F) → (⟨S409600x1, .i32⟩ : BufTy).Contents (Elt F)),
    unary main_v612 main_v619 (broadcastInDim S409600x1 ![0] bcast_S409600_S409600x1_0 : (⟨S409600, .i32⟩ : BufTy).Contents (Elt F) → (⟨S409600x1, .i32⟩ : BufTy).Contents (Elt F)),
    unary main_v617 main_v620 (broadcastInDim S409600x1 ![0] bcast_S409600_S409600x1_0 : (⟨S409600, .i32⟩ : BufTy).Contents (Elt F) → (⟨S409600x1, .i32⟩ : BufTy).Contents (Elt F)) ]
abbrev ops_p14_1_W : List (Ref sig .tc) := [main_v614, main_c_232, main_v615, main_v616, main_v617, main_v618, main_v619, main_v620]
theorem ops_p14_1_writes : (ops_p14_1 : List (HloOp τ sig (Elt F))).Forall fun op => op.writes ⊆ (ops_p14_1_W.map (Proc.devRef (τ := τ) .tc)).toFinset := by
  simp only [ops_p14_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p14_1_keep (V : Valuation τ sig (Elt F)) (r : Ref sig .tc) (h : r ∉ ops_p14_1_W) :
    after ops_p14_1 V (Proc.devRef .tc r) = V (Proc.devRef .tc r) :=
  after_of_writes_sub ops_p14_1 _ ops_p14_1_writes h

set_option maxRecDepth 8192 in
set_option maxHeartbeats 1000000 in
theorem w14_1_main_v618 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_1 V x0 x1 x2 x3 x4 x5 x6) :
    after ops_p14_1 V (Proc.devRef .tc main_v618) = val_main_v618 (F := F) x1 := by
  simp only [ops_p14_1]
  after_results_w
  simp only [h.main_v607]
  rfl

set_option maxRecDepth 8192 in
set_option maxHeartbeats 1000000 in
theorem w14_1_main_v619 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_1 V x0 x1 x2 x3 x4 x5 x6) :
    after ops_p14_1 V (Proc.devRef .tc main_v619) = val_main_v619 (F := F) x1 := by
  simp only [ops_p14_1]
  after_results_w
  simp only [h.main_v612]
  rfl

set_option maxRecDepth 8192 in
set_option maxHeartbeats 1000000 in
theorem w14_1_main_v620 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_1 V x0 x1 x2 x3 x4 x5 x6) :
    after ops_p14_1 V (Proc.devRef .tc main_v620) = val_main_v620 (F := F) x1 := by
  simp only [ops_p14_1]
  after_results_w
  simp only [h.main_v602, h.main_v613]
  rfl

theorem step14_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_1 V x0 x1 x2 x3 x4 x5 x6) : Inv14_2 (after ops_p14_1 V) x0 x1 x2 x3 x4 x5 x6 where
  main_arg0 := (ops_p14_1_keep V main_arg0 (by decide)).trans h.main_arg0
  main_arg1 := (ops_p14_1_keep V main_arg1 (by decide)).trans h.main_arg1
  main_arg2 := (ops_p14_1_keep V main_arg2 (by decide)).trans h.main_arg2
  main_arg3 := (ops_p14_1_keep V main_arg3 (by decide)).trans h.main_arg3
  main_arg4 := (ops_p14_1_keep V main_arg4 (by decide)).trans h.main_arg4
  main_arg5 := (ops_p14_1_keep V main_arg5 (by decide)).trans h.main_arg5
  main_arg6 := (ops_p14_1_keep V main_arg6 (by decide)).trans h.main_arg6
  main_v27 := (ops_p14_1_keep V main_v27 (by decide)).trans h.main_v27
  main_v524 := (ops_p14_1_keep V main_v524 (by decide)).trans h.main_v524
  main_v526 := (ops_p14_1_keep V main_v526 (by decide)).trans h.main_v526
  main_v528 := (ops_p14_1_keep V main_v528 (by decide)).trans h.main_v528
  main_v530 := (ops_p14_1_keep V main_v530 (by decide)).trans h.main_v530
  main_v585 := (ops_p14_1_keep V main_v585 (by decide)).trans h.main_v585
  main_v600 := (ops_p14_1_keep V main_v600 (by decide)).trans h.main_v600
  main_v618 := w14_1_main_v618 V x0 x1 x2 x3 x4 x5 x6 h
  main_v619 := w14_1_main_v619 V x0 x1 x2 x3 x4 x5 x6 h
  main_v620 := w14_1_main_v620 V x0 x1 x2 x3 x4 x5 x6 h

/-- Stretch 2 of window 14: @main's operations 1019 … 1026. -/
def ops_p14_2 : List (HloOp τ sig (Elt F)) :=
  [ nary ![main_v618, main_v619, main_v620] main_v621 (fun u => concatenate S409600x3 1 [⟨S409600x1, u 0⟩, ⟨S409600x1, u 1⟩, ⟨S409600x1, u 2⟩] concatenates_S409600x1_S409600x1_S409600x1_S409600x3_d1),
    binary main_v27 main_v621 main_v622 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_233 (constantI S_ 32 0#32),
    unary main_c_233 main_v623 (broadcastInDim S409600 ![] bcast_S_S409600 : (⟨S_, .i32⟩ : BufTy).Contents (Elt F) → (⟨S409600, .i32⟩ : BufTy).Contents (Elt F)),
    binary main_v622 main_v623 main_v624 (cmpi .sge : (⟨S409600, .i32⟩ : BufTy).Contents (Elt F) → (⟨S409600, .i32⟩ : BufTy).Contents (Elt F) → (⟨S409600, .i1⟩ : BufTy).Contents (Elt F)),
    binary main_v600 main_v624 main_v625 (andi : (⟨S409600, .i1⟩ : BufTy).Contents (Elt F) → (⟨S409600, .i1⟩ : BufTy).Contents (Elt F) → (⟨S409600, .i1⟩ : BufTy).Contents (Elt F)),
    nullary main_c_234 (constantI S_ 32 0#32),
    unary main_c_234 main_call43_v0 (id : (⟨S_, .i32⟩ : BufTy).Contents (Elt F) → (⟨S_, .i32⟩ : BufTy).Contents (Elt F)) ]
abbrev ops_p14_2_W : List (Ref sig .tc) := [main_v621, main_v622, main_c_233, main_v623, main_v624, main_v625, main_c_234, main_call43_v0]
theorem ops_p14_2_writes : (ops_p14_2 : List (HloOp τ sig (Elt F))).Forall fun op => op.writes ⊆ (ops_p14_2_W.map (Proc.devRef (τ := τ) .tc)).toFinset := by
  simp only [ops_p14_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p14_2_keep (V : Valuation τ sig (Elt F)) (r : Ref sig .tc) (h : r ∉ ops_p14_2_W) :
    after ops_p14_2 V (Proc.devRef .tc r) = V (Proc.devRef .tc r) :=
  after_of_writes_sub ops_p14_2 _ ops_p14_2_writes h

set_option maxRecDepth 8192 in
set_option maxHeartbeats 1000000 in
theorem w14_2_main_v622 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_2 V x0 x1 x2 x3 x4 x5 x6) :
    after ops_p14_2 V (Proc.devRef .tc main_v622) = val_main_v622 (F := F) x1 := by
  simp only [ops_p14_2]
  after_results_w
  simp only [h.main_v620, h.main_v619, h.main_v618, h.main_v27]
  rfl

set_option maxRecDepth 8192 in
set_option maxHeartbeats 1000000 in
theorem w14_2_main_v625 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_2 V x0 x1 x2 x3 x4 x5 x6) :
    after ops_p14_2 V (Proc.devRef .tc main_v625) = val_main_v625 (F := F) x1 := by
  simp only [ops_p14_2]
  after_results_w
  simp only [h.main_v620, h.main_v619, h.main_v618, h.main_v27, h.main_v600]
  rfl

set_option maxRecDepth 8192 in
set_option maxHeartbeats 1000000 in
theorem w14_2_main_call43_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_2 V x0 x1 x2 x3 x4 x5 x6) :
    after ops_p14_2 V (Proc.devRef .tc main_call43_v0) = val_main_call43_v0 (F := F) := by
  simp only [ops_p14_2]
  after_results_w
  rfl

theorem step14_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_2 V x0 x1 x2 x3 x4 x5 x6) : Inv14_3 (after ops_p14_2 V) x0 x1 x2 x3 x4 x5 x6 where
  main_arg0 := (ops_p14_2_keep V main_arg0 (by decide)).trans h.main_arg0
  main_arg1 := (ops_p14_2_keep V main_arg1 (by decide)).trans h.main_arg1
  main_arg2 := (ops_p14_2_keep V main_arg2 (by decide)).trans h.main_arg2
  main_arg3 := (ops_p14_2_keep V main_arg3 (by decide)).trans h.main_arg3
  main_arg4 := (ops_p14_2_keep V main_arg4 (by decide)).trans h.main_arg4
  main_arg5 := (ops_p14_2_keep V main_arg5 (by decide)).trans h.main_arg5
  main_arg6 := (ops_p14_2_keep V main_arg6 (by decide)).trans h.main_arg6
  main_v27 := (ops_p14_2_keep V main_v27 (by decide)).trans h.main_v27
  main_v524 := (ops_p14_2_keep V main_v524 (by decide)).trans h.main_v524
  main_v526 := (ops_p14_2_keep V main_v526 (by decide)).trans h.main_v526
  main_v528 := (ops_p14_2_keep V main_v528 (by decide)).trans h.main_v528
  main_v530 := (ops_p14_2_keep V main_v530 (by decide)).trans h.main_v530
  main_v585 := (ops_p14_2_keep V main_v585 (by decide)).trans h.main_v585
  main_v622 := w14_2_main_v622 V x0 x1 x2 x3 x4 x5 x6 h
  main_v625 := w14_2_main_v625 V x0 x1 x2 x3 x4 x5 x6 h
  main_call43_v0 := w14_2_main_call43_v0 V x0 x1 x2 x3 x4 x5 x6 h

/-- Stretch 3 of window 14: @main's operations 1027 … 1034. -/
def ops_p14_3 : List (HloOp τ sig (Elt F)) :=
  [ unary main_call43_v0 main_call43_v1 ((broadcastInDim S409600 ![] bcast_S_S409600) : (⟨S_, .i32⟩ : BufTy).Contents (Elt F) → (⟨S409600, .i32⟩ : BufTy).Contents (Elt F)),
    ternary main_v625 main_v622 main_call43_v1 main_v626 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_235 (constantI S_ 32 0#32),
    unary main_c_235 main_v627 (broadcastInDim S409600 ![] bcast_S_S409600 : (⟨S_, .i32⟩ : BufTy).Contents (Elt F) → (⟨S409600, .i32⟩ : BufTy).Contents (Elt F)),
    binary main_v626 main_v627 main_v628 (cmpi .slt : (⟨S409600, .i32⟩ : BufTy).Contents (Elt F) → (⟨S409600, .i32⟩ : BufTy).Contents (Elt F) → (⟨S409600, .i1⟩ : BufTy).Contents (Elt F)),
    nullary main_c_236 (constantI S_ 32 409600#32),
    unary main_c_236 main_v629 (broadcastInDim S409600 ![] bcast_S_S409600 : (⟨S_, .i32⟩ : BufTy).Contents (Elt F) → (⟨S409600, .i32⟩ : BufTy).Contents (Elt F)),
    binary main_v626 main_v629 main_v630 (addi : (⟨S409600, .i32⟩ : BufTy).Contents (Elt F) → (⟨S409600, .i32⟩ : BufTy).Contents (Elt F) → (⟨S409600, .i32⟩ : BufTy).Contents (Elt F)) ]
abbrev ops_p14_3_W : List (Ref sig .tc) := [main_call43_v1, main_v626, main_c_235, main_v627, main_v628, main_c_236, main_v629, main_v630]
theorem ops_p14_3_writes : (ops_p14_3 : List (HloOp τ sig (Elt F))).Forall fun op => op.writes ⊆ (ops_p14_3_W.map (Proc.devRef (τ := τ) .tc)).toFinset := by
  simp only [ops_p14_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p14_3_keep (V : Valuation τ sig (Elt F)) (r : Ref sig .tc) (h : r ∉ ops_p14_3_W) :
    after ops_p14_3 V (Proc.devRef .tc r) = V (Proc.devRef .tc r) :=
  after_of_writes_sub ops_p14_3 _ ops_p14_3_writes h

set_option maxRecDepth 8192 in
set_option maxHeartbeats 1000000 in
theorem w14_3_main_v626 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_3 V x0 x1 x2 x3 x4 x5 x6) :
    after ops_p14_3 V (Proc.devRef .tc main_v626) = val_main_v626 (F := F) x1 := by
  simp only [ops_p14_3]
  after_results_w
  simp only [h.main_call43_v0, h.main_v622, h.main_v625]
  rfl

set_option maxRecDepth 8192 in
set_option maxHeartbeats 1000000 in
theorem w14_3_main_v628 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_3 V x0 x1 x2 x3 x4 x5 x6) :
    after ops_p14_3 V (Proc.devRef .tc main_v628) = val_main_v628 (F := F) x1 := by
  simp only [ops_p14_3]
  after_results_w
  simp only [h.main_call43_v0, h.main_v622, h.main_v625]
  rfl

set_option maxRecDepth 8192 in
set_option maxHeartbeats 1000000 in
theorem w14_3_main_v630 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_3 V x0 x1 x2 x3 x4 x5 x6) :
    after ops_p14_3 V (Proc.devRef .tc main_v630) = val_main_v630 (F := F) x1 := by
  simp only [ops_p14_3]
  after_results_w
  simp only [h.main_call43_v0, h.main_v622, h.main_v625]
  rfl

theorem step14_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_3 V x0 x1 x2 x3 x4 x5 x6) : Inv14_4 (after ops_p14_3 V) x0 x1 x2 x3 x4 x5 x6 where
  main_arg0 := (ops_p14_3_keep V main_arg0 (by decide)).trans h.main_arg0
  main_arg1 := (ops_p14_3_keep V main_arg1 (by decide)).trans h.main_arg1
  main_arg2 := (ops_p14_3_keep V main_arg2 (by decide)).trans h.main_arg2
  main_arg3 := (ops_p14_3_keep V main_arg3 (by decide)).trans h.main_arg3
  main_arg4 := (ops_p14_3_keep V main_arg4 (by decide)).trans h.main_arg4
  main_arg5 := (ops_p14_3_keep V main_arg5 (by decide)).trans h.main_arg5
  main_arg6 := (ops_p14_3_keep V main_arg6 (by decide)).trans h.main_arg6
  main_v27 := (ops_p14_3_keep V main_v27 (by decide)).trans h.main_v27
  main_v524 := (ops_p14_3_keep V main_v524 (by decide)).trans h.main_v524
  main_v526 := (ops_p14_3_keep V main_v526 (by decide)).trans h.main_v526
  main_v528 := (ops_p14_3_keep V main_v528 (by decide)).trans h.main_v528
  main_v530 := (ops_p14_3_keep V main_v530 (by decide)).trans h.main_v530
  main_v585 := (ops_p14_3_keep V main_v585 (by decide)).trans h.main_v585
  main_v625 := (ops_p14_3_keep V main_v625 (by decide)).trans h.main_v625
  main_v626 := w14_3_main_v626 V x0 x1 x2 x3 x4 x5 x6 h
  main_v628 := w14_3_main_v628 V x0 x1 x2 x3 x4 x5 x6 h
  main_v630 := w14_3_main_v630 V x0 x1 x2 x3 x4 x5 x6 h

/-- Stretch 4 of window 14: @main's operations 1035 … 1042. -/
def ops_p14_4 : List (HloOp τ sig (Elt F)) :=
  [ ternary main_v628 main_v630 main_v626 main_v631 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v631 main_v632 (broadcastInDim S409600x1 ![0] bcast_S409600_S409600x1_0 : (⟨S409600, .i32⟩ : BufTy).Contents (Elt F) → (⟨S409600x1, .i32⟩ : BufTy).Contents (Elt F)),
    binary main_v524 main_v632 main_v633 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v625 main_v634 (broadcastInDim S409600x1 ![0] bcast_S409600_S409600x1_0 : (⟨S409600, .i1⟩ : BufTy).Contents (Elt F) → (⟨S409600x1, .i1⟩ : BufTy).Contents (Elt F)),
    nullary main_cst_237 (constant S_ .f32 0x00000000#32),
    unary main_cst_237 main_call44_v0 (id : (⟨S_, .f32⟩ : BufTy).Contents (Elt F) → (⟨S_, .f32⟩ : BufTy).Contents (Elt F)),
    unary main_v634 main_call44_v1 ((broadcastInDim S409600x64 ![0, 1] bcast_S409600x1_S409600x64_0_1) : (⟨S409600x1, .i1⟩ : BufTy).Contents (Elt F) → (⟨S409600x64, .i1⟩ : BufTy).Contents (Elt F)),
    unary main_call44_v0 main_call44_v2 ((broadcastInDim S409600x64 ![] bcast_S_S409600x64) : (⟨S_, .f32⟩ : BufTy).Contents (Elt F) → (⟨S409600x64, .f32⟩ : BufTy).Contents (Elt F)) ]
abbrev ops_p14_4_W : List (Ref sig .tc) := [main_v631, main_v632, main_v633, main_v634, main_cst_237, main_call44_v0, main_call44_v1, main_call44_v2]
theorem ops_p14_4_writes : (ops_p14_4 : List (HloOp τ sig (Elt F))).Forall fun op => op.writes ⊆ (ops_p14_4_W.map (Proc.devRef (τ := τ) .tc)).toFinset := by
  simp only [ops_p14_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p14_4_keep (V : Valuation τ sig (Elt F)) (r : Ref sig .tc) (h : r ∉ ops_p14_4_W) :
    after ops_p14_4 V (Proc.devRef .tc r) = V (Proc.devRef .tc r) :=
  after_of_writes_sub ops_p14_4 _ ops_p14_4_writes h

set_option maxRecDepth 8192 in
set_option maxHeartbeats 1000000 in
theorem w14_4_main_v633 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_4 V x0 x1 x2 x3 x4 x5 x6) :
    after ops_p14_4 V (Proc.devRef .tc main_v633) = val_main_v633 (F := F) x0 x1 x2 x3 := by
  simp only [ops_p14_4]
  after_results_w
  simp only [h.main_v626, h.main_v630, h.main_v628, h.main_v524]
  rfl

set_option maxRecDepth 8192 in
set_option maxHeartbeats 1000000 in
theorem w14_4_main_call44_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_4 V x0 x1 x2 x3 x4 x5 x6) :
    after ops_p14_4 V (Proc.devRef .tc main_call44_v1) = val_main_call44_v1 (F := F) x1 := by
  simp only [ops_p14_4]
  after_results_w
  simp only [h.main_v625]
  rfl

set_option maxRecDepth 8192 in
set_option maxHeartbeats 1000000 in
theorem w14_4_main_call44_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_4 V x0 x1 x2 x3 x4 x5 x6) :
    after ops_p14_4 V (Proc.devRef .tc main_call44_v2) = val_main_call44_v2 (F := F) := by
  simp only [ops_p14_4]
  after_results_w
  rfl

theorem step14_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_4 V x0 x1 x2 x3 x4 x5 x6) : Inv14_5 (after ops_p14_4 V) x0 x1 x2 x3 x4 x5 x6 where
  main_arg0 := (ops_p14_4_keep V main_arg0 (by decide)).trans h.main_arg0
  main_arg1 := (ops_p14_4_keep V main_arg1 (by decide)).trans h.main_arg1
  main_arg2 := (ops_p14_4_keep V main_arg2 (by decide)).trans h.main_arg2
  main_arg3 := (ops_p14_4_keep V main_arg3 (by decide)).trans h.main_arg3
  main_arg4 := (ops_p14_4_keep V main_arg4 (by decide)).trans h.main_arg4
  main_arg5 := (ops_p14_4_keep V main_arg5 (by decide)).trans h.main_arg5
  main_arg6 := (ops_p14_4_keep V main_arg6 (by decide)).trans h.main_arg6
  main_v27 := (ops_p14_4_keep V main_v27 (by decide)).trans h.main_v27
  main_v524 := (ops_p14_4_keep V main_v524 (by decide)).trans h.main_v524
  main_v526 := (ops_p14_4_keep V main_v526 (by decide)).trans h.main_v526
  main_v528 := (ops_p14_4_keep V main_v528 (by decide)).trans h.main_v528
  main_v530 := (ops_p14_4_keep V main_v530 (by decide)).trans h.main_v530
  main_v585 := (ops_p14_4_keep V main_v585 (by decide)).trans h.main_v585
  main_v633 := w14_4_main_v633 V x0 x1 x2 x3 x4 x5 x6 h
  main_call44_v1 := w14_4_main_call44_v1 V x0 x1 x2 x3 x4 x5 x6 h
  main_call44_v2 := w14_4_main_call44_v2 V x0 x1 x2 x3 x4 x5 x6 h

/-- Stretch 5 of window 14: @main's operations 1043 … 1050. -/
def ops_p14_5 : List (HloOp τ sig (Elt F)) :=
  [ ternary main_call44_v1 main_v633 main_call44_v2 main_v635 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v636 ((extractStridedSlice S1x1x64x64 ![0, 1, 0, 0] · slices_S3x3x64x64_S1x1x64x64_0_1_0_0) : (⟨S3x3x64x64, .f32⟩ : BufTy).Contents (Elt F) → (⟨S1x1x64x64, .f32⟩ : BufTy).Contents (Elt F)),
    reshape main_v636 main_v637 rfl shapeCasts_S1x1x64x64_S64x64,
    binary main_v635 main_v637 main_v638 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v585 main_v638 main_v639 (addf : (⟨S409600x64, .f32⟩ : BufTy).Contents (Elt F) → (⟨S409600x64, .f32⟩ : BufTy).Contents (Elt F) → (⟨S409600x64, .f32⟩ : BufTy).Contents (Elt F)),
    nullary main_c_238 (constantI S_ 32 4294967295#32),
    unary main_c_238 main_v640 (broadcastInDim S409600 ![] bcast_S_S409600 : (⟨S_, .i32⟩ : BufTy).Contents (Elt F) → (⟨S409600, .i32⟩ : BufTy).Contents (Elt F)),
    binary main_v528 main_v640 main_v641 (addi : (⟨S409600, .i32⟩ : BufTy).Contents (Elt F) → (⟨S409600, .i32⟩ : BufTy).Contents (Elt F) → (⟨S409600, .i32⟩ : BufTy).Contents (Elt F)) ]
abbrev ops_p14_5_W : List (Ref sig .tc) := [main_v635, main_v636, main_v637, main_v638, main_v639, main_c_238, main_v640, main_v641]
theorem ops_p14_5_writes : (ops_p14_5 : List (HloOp τ sig (Elt F))).Forall fun op => op.writes ⊆ (ops_p14_5_W.map (Proc.devRef (τ := τ) .tc)).toFinset := by
  simp only [ops_p14_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p14_5_keep (V : Valuation τ sig (Elt F)) (r : Ref sig .tc) (h : r ∉ ops_p14_5_W) :
    after ops_p14_5 V (Proc.devRef .tc r) = V (Proc.devRef .tc r) :=
  after_of_writes_sub ops_p14_5 _ ops_p14_5_writes h

set_option maxRecDepth 8192 in
set_option maxHeartbeats 1000000 in
theorem w14_5_main_v639 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_5 V x0 x1 x2 x3 x4 x5 x6) :
    after ops_p14_5 V (Proc.devRef .tc main_v639) = val_main_v639 (F := F) x0 x1 x2 x3 x4 := by
  simp only [ops_p14_5]
  after_results_w
  simp only [h.main_arg4, h.main_call44_v2, h.main_v633, h.main_call44_v1, h.main_v585]
  rfl

set_option maxRecDepth 8192 in
set_option maxHeartbeats 1000000 in
theorem w14_5_main_v641 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_5 V x0 x1 x2 x3 x4 x5 x6) :
    after ops_p14_5 V (Proc.devRef .tc main_v641) = val_main_v641 (F := F) x1 := by
  simp only [ops_p14_5]
  after_results_w
  simp only [h.main_v528]
  rfl

theorem step14_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_5 V x0 x1 x2 x3 x4 x5 x6) : Inv14_6 (after ops_p14_5 V) x0 x1 x2 x3 x4 x5 x6 where
  main_arg0 := (ops_p14_5_keep V main_arg0 (by decide)).trans h.main_arg0
  main_arg1 := (ops_p14_5_keep V main_arg1 (by decide)).trans h.main_arg1
  main_arg2 := (ops_p14_5_keep V main_arg2 (by decide)).trans h.main_arg2
  main_arg3 := (ops_p14_5_keep V main_arg3 (by decide)).trans h.main_arg3
  main_arg4 := (ops_p14_5_keep V main_arg4 (by decide)).trans h.main_arg4
  main_arg5 := (ops_p14_5_keep V main_arg5 (by decide)).trans h.main_arg5
  main_arg6 := (ops_p14_5_keep V main_arg6 (by decide)).trans h.main_arg6
  main_v27 := (ops_p14_5_keep V main_v27 (by decide)).trans h.main_v27
  main_v524 := (ops_p14_5_keep V main_v524 (by decide)).trans h.main_v524
  main_v526 := (ops_p14_5_keep V main_v526 (by decide)).trans h.main_v526
  main_v528 := (ops_p14_5_keep V main_v528 (by decide)).trans h.main_v528
  main_v530 := (ops_p14_5_keep V main_v530 (by decide)).trans h.main_v530
  main_v639 := w14_5_main_v639 V x0 x1 x2 x3 x4 x5 x6 h
  main_v641 := w14_5_main_v641 V x0 x1 x2 x3 x4 x5 x6 h

/-- Stretch 6 of window 14: @main's operations 1051 … 1058. -/
def ops_p14_6 : List (HloOp τ sig (Elt F)) :=
  [ nullary main_c_239 (constantI S_ 32 1#32),
    unary main_c_239 main_v642 (broadcastInDim S409600 ![] bcast_S_S409600 : (⟨S_, .i32⟩ : BufTy).Contents (Elt F) → (⟨S409600, .i32⟩ : BufTy).Contents (Elt F)),
    binary main_v530 main_v642 main_v643 (addi : (⟨S409600, .i32⟩ : BufTy).Contents (Elt F) → (⟨S409600, .i32⟩ : BufTy).Contents (Elt F) → (⟨S409600, .i32⟩ : BufTy).Contents (Elt F)),
    nullary main_c_240 (constantI S_ 32 0#32),
    unary main_c_240 main_v644 (broadcastInDim S409600 ![] bcast_S_S409600 : (⟨S_, .i32⟩ : BufTy).Contents (Elt F) → (⟨S409600, .i32⟩ : BufTy).Contents (Elt F)),
    binary main_v641 main_v644 main_v645 (cmpi .sge : (⟨S409600, .i32⟩ : BufTy).Contents (Elt F) → (⟨S409600, .i32⟩ : BufTy).Contents (Elt F) → (⟨S409600, .i1⟩ : BufTy).Contents (Elt F)),
    nullary main_c_241 (constantI S_ 32 640#32),
    unary main_c_241 main_v646 (broadcastInDim S409600 ![] bcast_S_S409600 : (⟨S_, .i32⟩ : BufTy).Contents (Elt F) → (⟨S409600, .i32⟩ : BufTy).Contents (Elt F)) ]
abbrev ops_p14_6_W : List (Ref sig .tc) := [main_c_239, main_v642, main_v643, main_c_240, main_v644, main_v645, main_c_241, main_v646]
theorem ops_p14_6_writes : (ops_p14_6 : List (HloOp τ sig (Elt F))).Forall fun op => op.writes ⊆ (ops_p14_6_W.map (Proc.devRef (τ := τ) .tc)).toFinset := by
  simp only [ops_p14_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p14_6_keep (V : Valuation τ sig (Elt F)) (r : Ref sig .tc) (h : r ∉ ops_p14_6_W) :
    after ops_p14_6 V (Proc.devRef .tc r) = V (Proc.devRef .tc r) :=
  after_of_writes_sub ops_p14_6 _ ops_p14_6_writes h

set_option maxRecDepth 8192 in
set_option maxHeartbeats 1000000 in
theorem w14_6_main_v643 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_6 V x0 x1 x2 x3 x4 x5 x6) :
    after ops_p14_6 V (Proc.devRef .tc main_v643) = val_main_v643 (F := F) x1 := by
  simp only [ops_p14_6]
  after_results_w
  simp only [h.main_v530]
  rfl

set_option maxRecDepth 8192 in
set_option maxHeartbeats 1000000 in
theorem w14_6_main_v645 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_6 V x0 x1 x2 x3 x4 x5 x6) :
    after ops_p14_6 V (Proc.devRef .tc main_v645) = val_main_v645 (F := F) x1 := by
  simp only [ops_p14_6]
  after_results_w
  simp only [h.main_v641]
  rfl

set_option maxRecDepth 8192 in
set_option maxHeartbeats 1000000 in
theorem w14_6_main_v646 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_6 V x0 x1 x2 x3 x4 x5 x6) :
    after ops_p14_6 V (Proc.devRef .tc main_v646) = val_main_v646 (F := F) := by
  simp only [ops_p14_6]
  after_results_w
  rfl

theorem step14_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_6 V x0 x1 x2 x3 x4 x5 x6) : Inv14_7 (after ops_p14_6 V) x0 x1 x2 x3 x4 x5 x6 where
  main_arg0 := (ops_p14_6_keep V main_arg0 (by decide)).trans h.main_arg0
  main_arg1 := (ops_p14_6_keep V main_arg1 (by decide)).trans h.main_arg1
  main_arg2 := (ops_p14_6_keep V main_arg2 (by decide)).trans h.main_arg2
  main_arg3 := (ops_p14_6_keep V main_arg3 (by decide)).trans h.main_arg3
  main_arg4 := (ops_p14_6_keep V main_arg4 (by decide)).trans h.main_arg4
  main_arg5 := (ops_p14_6_keep V main_arg5 (by decide)).trans h.main_arg5
  main_arg6 := (ops_p14_6_keep V main_arg6 (by decide)).trans h.main_arg6
  main_v27 := (ops_p14_6_keep V main_v27 (by decide)).trans h.main_v27
  main_v524 := (ops_p14_6_keep V main_v524 (by decide)).trans h.main_v524
  main_v526 := (ops_p14_6_keep V main_v526 (by decide)).trans h.main_v526
  main_v528 := (ops_p14_6_keep V main_v528 (by decide)).trans h.main_v528
  main_v530 := (ops_p14_6_keep V main_v530 (by decide)).trans h.main_v530
  main_v639 := (ops_p14_6_keep V main_v639 (by decide)).trans h.main_v639
  main_v641 := (ops_p14_6_keep V main_v641 (by decide)).trans h.main_v641
  main_v643 := w14_6_main_v643 V x0 x1 x2 x3 x4 x5 x6 h
  main_v645 := w14_6_main_v645 V x0 x1 x2 x3 x4 x5 x6 h
  main_v646 := w14_6_main_v646 V x0 x1 x2 x3 x4 x5 x6 h

/-- Stretch 7 of window 14: @main's operations 1059 … 1067. -/
def ops_p14_7 : List (HloOp τ sig (Elt F)) :=
  [ binary main_v641 main_v646 main_v647 (cmpi .slt : (⟨S409600, .i32⟩ : BufTy).Contents (Elt F) → (⟨S409600, .i32⟩ : BufTy).Contents (Elt F) → (⟨S409600, .i1⟩ : BufTy).Contents (Elt F)),
    binary main_v645 main_v647 main_v648 (andi : (⟨S409600, .i1⟩ : BufTy).Contents (Elt F) → (⟨S409600, .i1⟩ : BufTy).Contents (Elt F) → (⟨S409600, .i1⟩ : BufTy).Contents (Elt F)),
    nullary main_c_242 (constantI S_ 32 0#32),
    unary main_c_242 main_v649 (broadcastInDim S409600 ![] bcast_S_S409600 : (⟨S_, .i32⟩ : BufTy).Contents (Elt F) → (⟨S409600, .i32⟩ : BufTy).Contents (Elt F)),
    binary main_v643 main_v649 main_v650 (cmpi .sge : (⟨S409600, .i32⟩ : BufTy).Contents (Elt F) → (⟨S409600, .i32⟩ : BufTy).Contents (Elt F) → (⟨S409600, .i1⟩ : BufTy).Contents (Elt F)),
    binary main_v648 main_v650 main_v651 (andi : (⟨S409600, .i1⟩ : BufTy).Contents (Elt F) → (⟨S409600, .i1⟩ : BufTy).Contents (Elt F) → (⟨S409600, .i1⟩ : BufTy).Contents (Elt F)),
    nullary main_c_243 (constantI S_ 32 640#32),
    unary main_c_243 main_v652 (broadcastInDim S409600 ![] bcast_S_S409600 : (⟨S_, .i32⟩ : BufTy).Contents (Elt F) → (⟨S409600, .i32⟩ : BufTy).Contents (Elt F)),
    binary main_v643 main_v652 main_v653 (cmpi .slt : (⟨S409600, .i32⟩ : BufTy).Contents (Elt F) → (⟨S409600, .i32⟩ : BufTy).Contents (Elt F) → (⟨S409600, .i1⟩ : BufTy).Contents (Elt F)) ]
abbrev ops_p14_7_W : List (Ref sig .tc) := [main_v647, main_v648, main_c_242, main_v649, main_v650, main_v651, main_c_243, main_v652, main_v653]
theorem ops_p14_7_writes : (ops_p14_7 : List (HloOp τ sig (Elt F))).Forall fun op => op.writes ⊆ (ops_p14_7_W.map (Proc.devRef (τ := τ) .tc)).toFinset := by
  simp only [ops_p14_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p14_7_keep (V : Valuation τ sig (Elt F)) (r : Ref sig .tc) (h : r ∉ ops_p14_7_W) :
    after ops_p14_7 V (Proc.devRef .tc r) = V (Proc.devRef .tc r) :=
  after_of_writes_sub ops_p14_7 _ ops_p14_7_writes h

set_option maxRecDepth 8192 in
set_option maxHeartbeats 1000000 in
theorem w14_7_main_v651 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_7 V x0 x1 x2 x3 x4 x5 x6) :
    after ops_p14_7 V (Proc.devRef .tc main_v651) = val_main_v651 (F := F) x1 := by
  simp only [ops_p14_7]
  after_results_w
  simp only [h.main_v643, h.main_v646, h.main_v641, h.main_v645]
  rfl

set_option maxRecDepth 8192 in
set_option maxHeartbeats 1000000 in
theorem w14_7_main_v653 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_7 V x0 x1 x2 x3 x4 x5 x6) :
    after ops_p14_7 V (Proc.devRef .tc main_v653) = val_main_v653 (F := F) x1 := by
  simp only [ops_p14_7]
  after_results_w
  simp only [h.main_v643]
  rfl

theorem step14_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14_7 V x0 x1 x2 x3 x4 x5 x6) : Inv15 (after ops_p14_7 V) x0 x1 x2 x3 x4 x5 x6 where
  main_arg0 := (ops_p14_7_keep V main_arg0 (by decide)).trans h.main_arg0
  main_arg1 := (ops_p14_7_keep V main_arg1 (by decide)).trans h.main_arg1
  main_arg2 := (ops_p14_7_keep V main_arg2 (by decide)).trans h.main_arg2
  main_arg3 := (ops_p14_7_keep V main_arg3 (by decide)).trans h.main_arg3
  main_arg4 := (ops_p14_7_keep V main_arg4 (by decide)).trans h.main_arg4
  main_arg5 := (ops_p14_7_keep V main_arg5 (by decide)).trans h.main_arg5
  main_arg6 := (ops_p14_7_keep V main_arg6 (by decide)).trans h.main_arg6
  main_v27 := (ops_p14_7_keep V main_v27 (by decide)).trans h.main_v27
  main_v524 := (ops_p14_7_keep V main_v524 (by decide)).trans h.main_v524
  main_v526 := (ops_p14_7_keep V main_v526 (by decide)).trans h.main_v526
  main_v528 := (ops_p14_7_keep V main_v528 (by decide)).trans h.main_v528
  main_v530 := (ops_p14_7_keep V main_v530 (by decide)).trans h.main_v530
  main_v639 := (ops_p14_7_keep V main_v639 (by decide)).trans h.main_v639
  main_v641 := (ops_p14_7_keep V main_v641 (by decide)).trans h.main_v641
  main_v643 := (ops_p14_7_keep V main_v643 (by decide)).trans h.main_v643
  main_v651 := w14_7_main_v651 V x0 x1 x2 x3 x4 x5 x6 h
  main_v653 := w14_7_main_v653 V x0 x1 x2 x3 x4 x5 x6 h

set_option maxRecDepth 8192 in
theorem ops_p14_split : (ops_p14 : List (HloOp τ sig (Elt F))) = ops_p14_0 ++ (ops_p14_1 ++ (ops_p14_2 ++ (ops_p14_3 ++ (ops_p14_4 ++ (ops_p14_5 ++ (ops_p14_6 ++ (ops_p14_7))))))) := rfl

/-- Window 14 carries the staged reading from boundary 14 to boundary 15. -/
theorem step14 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv14 V x0 x1 x2 x3 x4 x5 x6) : Inv15 (after ops_p14 V) x0 x1 x2 x3 x4 x5 x6 := by
  rw [ops_p14_split]; simp only [after_app]
  exact step14_7 _ x0 x1 x2 x3 x4 x5 x6 (step14_6 _ x0 x1 x2 x3 x4 x5 x6 (step14_5 _ x0 x1 x2 x3 x4 x5 x6 (step14_4 _ x0 x1 x2 x3 x4 x5 x6 (step14_3 _ x0 x1 x2 x3 x4 x5 x6 (step14_2 _ x0 x1 x2 x3 x4 x5 x6 (step14_1 _ x0 x1 x2 x3 x4 x5 x6 (step14_0 V x0 x1 x2 x3 x4 x5 x6 h)))))))

end Cert.ReferenceIdeal.Hand

end
-- ==== Proof.Ref.W15.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 15 of @main: its operations 1068 … 1142 of 1688, in order. -/
def ops_p15 : List (HloOp τ sig (Elt F)) :=
  [ binary main_v651 main_v653 main_v654 (andi : (⟨S409600, .i1⟩ : BufTy).Contents (Elt F) → (⟨S409600, .i1⟩ : BufTy).Contents (Elt F) → (⟨S409600, .i1⟩ : BufTy).Contents (Elt F)),
    nullary main_c_244 (constantI S_ 32 0#32),
    nullary main_c_245 (constantI S_ 32 639#32),
    unary main_c_244 main_call45_v0 (id : (⟨S_, .i32⟩ : BufTy).Contents (Elt F) → (⟨S_, .i32⟩ : BufTy).Contents (Elt F)),
    unary main_call45_v0 main_call45_v1 ((broadcastInDim S409600 ![] bcast_S_S409600) : (⟨S_, .i32⟩ : BufTy).Contents (Elt F) → (⟨S409600, .i32⟩ : BufTy).Contents (Elt F)),
    binary main_call45_v1 main_v641 main_call45_v2 (maxsi : (⟨S409600, .i32⟩ : BufTy).Contents (Elt F) → (⟨S409600, .i32⟩ : BufTy).Contents (Elt F) → (⟨S409600, .i32⟩ : BufTy).Contents (Elt F)),
    unary main_c_245 main_call45_v3 (id : (⟨S_, .i32⟩ : BufTy).Contents (Elt F) → (⟨S_, .i32⟩ : BufTy).Contents (Elt F)),
    unary main_call45_v3 main_call45_v4 ((broadcastInDim S409600 ![] bcast_S_S409600) : (⟨S_, .i32⟩ : BufTy).Contents (Elt F) → (⟨S409600, .i32⟩ : BufTy).Contents (Elt F)),
    binary main_call45_v4 main_call45_v2 main_v655 (minsi : (⟨S409600, .i32⟩ : BufTy).Contents (Elt F) → (⟨S409600, .i32⟩ : BufTy).Contents (Elt F) → (⟨S409600, .i32⟩ : BufTy).Contents (Elt F)),
    nullary main_c_246 (constantI S_ 32 0#32),
    nullary main_c_247 (constantI S_ 32 639#32),
    unary main_c_246 main_call46_v0 (id : (⟨S_, .i32⟩ : BufTy).Contents (Elt F) → (⟨S_, .i32⟩ : BufTy).Contents (Elt F)),
    unary main_call46_v0 main_call46_v1 ((broadcastInDim S409600 ![] bcast_S_S409600) : (⟨S_, .i32⟩ : BufTy).Contents (Elt F) → (⟨S409600, .i32⟩ : BufTy).Contents (Elt F)),
    binary main_call46_v1 main_v643 main_call46_v2 (maxsi : (⟨S409600, .i32⟩ : BufTy).Contents (Elt F) → (⟨S409600, .i32⟩ : BufTy).Contents (Elt F) → (⟨S409600, .i32⟩ : BufTy).Contents (Elt F)),
    unary main_c_247 main_call46_v3 (id : (⟨S_, .i32⟩ : BufTy).Contents (Elt F) → (⟨S_, .i32⟩ : BufTy).Contents (Elt F)),
    unary main_call46_v3 main_call46_v4 ((broadcastInDim S409600 ![] bcast_S_S409600) : (⟨S_, .i32⟩ : BufTy).Contents (Elt F) → (⟨S409600, .i32⟩ : BufTy).Contents (Elt F)),
    binary main_call46_v4 main_call46_v2 main_v656 (minsi : (⟨S409600, .i32⟩ : BufTy).Contents (Elt F) → (⟨S409600, .i32⟩ : BufTy).Contents (Elt F) → (⟨S409600, .i32⟩ : BufTy).Contents (Elt F)),
    nullary main_c_248 (constantI S_ 32 0#32),
    unary main_c_248 main_v657 (broadcastInDim S409600 ![] bcast_S_S409600 : (⟨S_, .i32⟩ : BufTy).Contents (Elt F) → (⟨S409600, .i32⟩ : BufTy).Contents (Elt F)),
    binary main_v526 main_v657 main_v658 (cmpi .slt : (⟨S409600, .i32⟩ : BufTy).Contents (Elt F) → (⟨S409600, .i32⟩ : BufTy).Contents (Elt F) → (⟨S409600, .i1⟩ : BufTy).Contents (Elt F)),
    nullary main_c_249 (constantI S_ 32 2#32),
    unary main_c_249 main_v659 (broadcastInDim S409600 ![] bcast_S_S409600 : (⟨S_, .i32⟩ : BufTy).Contents (Elt F) → (⟨S409600, .i32⟩ : BufTy).Contents (Elt F)),
    binary main_v526 main_v659 main_v660 (addi : (⟨S409600, .i32⟩ : BufTy).Contents (Elt F) → (⟨S409600, .i32⟩ : BufTy).Contents (Elt F) → (⟨S409600, .i32⟩ : BufTy).Contents (Elt F)),
    ternary main_v658 main_v660 main_v526 main_v661 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_250 (constantI S_ 32 0#32),
    unary main_c_250 main_v662 (broadcastInDim S409600 ![] bcast_S_S409600 : (⟨S_, .i32⟩ : BufTy).Contents (Elt F) → (⟨S409600, .i32⟩ : BufTy).Contents (Elt F)),
    binary main_v655 main_v662 main_v663 (cmpi .slt : (⟨S409600, .i32⟩ : BufTy).Contents (Elt F) → (⟨S409600, .i32⟩ : BufTy).Contents (Elt F) → (⟨S409600, .i1⟩ : BufTy).Contents (Elt F)),
    nullary main_c_251 (constantI S_ 32 640#32),
    unary main_c_251 main_v664 (broadcastInDim S409600 ![] bcast_S_S409600 : (⟨S_, .i32⟩ : BufTy).Contents (Elt F) → (⟨S409600, .i32⟩ : BufTy).Contents (Elt F)),
    binary main_v655 main_v664 main_v665 (addi : (⟨S409600, .i32⟩ : BufTy).Contents (Elt F) → (⟨S409600, .i32⟩ : BufTy).Contents (Elt F) → (⟨S409600, .i32⟩ : BufTy).Contents (Elt F)),
    ternary main_v663 main_v665 main_v655 main_v666 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_252 (constantI S_ 32 0#32),
    unary main_c_252 main_v667 (broadcastInDim S409600 ![] bcast_S_S409600 : (⟨S_, .i32⟩ : BufTy).Contents (Elt F) → (⟨S409600, .i32⟩ : BufTy).Contents (Elt F)),
    binary main_v656 main_v667 main_v668 (cmpi .slt : (⟨S409600, .i32⟩ : BufTy).Contents (Elt F) → (⟨S409600, .i32⟩ : BufTy).Contents (Elt F) → (⟨S409600, .i1⟩ : BufTy).Contents (Elt F)),
    nullary main_c_253 (constantI S_ 32 640#32),
    unary main_c_253 main_v669 (broadcastInDim S409600 ![] bcast_S_S409600 : (⟨S_, .i32⟩ : BufTy).Contents (Elt F) → (⟨S409600, .i32⟩ : BufTy).Contents (Elt F)),
    binary main_v656 main_v669 main_v670 (addi : (⟨S409600, .i32⟩ : BufTy).Contents (Elt F) → (⟨S409600, .i32⟩ : BufTy).Contents (Elt F) → (⟨S409600, .i32⟩ : BufTy).Contents (Elt F)),
    ternary main_v668 main_v670 main_v656 main_v671 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v661 main_v672 (broadcastInDim S409600x1 ![0] bcast_S409600_S409600x1_0 : (⟨S409600, .i32⟩ : BufTy).Contents (Elt F) → (⟨S409600x1, .i32⟩ : BufTy).Contents (Elt F)),
    unary main_v666 main_v673 (broadcastInDim S409600x1 ![0] bcast_S409600_S409600x1_0 : (⟨S409600, .i32⟩ : BufTy).Contents (Elt F) → (⟨S409600x1, .i32⟩ : BufTy).Contents (Elt F)),
    unary main_v671 main_v674 (broadcastInDim S409600x1 ![0] bcast_S409600_S409600x1_0 : (⟨S409600, .i32⟩ : BufTy).Contents (Elt F) → (⟨S409600x1, .i32⟩ : BufTy).Contents (Elt F)),
    nary ![main_v672, main_v673, main_v674] main_v675 (fun u => concatenate S409600x3 1 [⟨S409600x1, u 0⟩, ⟨S409600x1, u 1⟩, ⟨S409600x1, u 2⟩] concatenates_S409600x1_S409600x1_S409600x1_S409600x3_d1),
    binary main_v27 main_v675 main_v676 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_254 (constantI S_ 32 0#32),
    unary main_c_254 main_v677 (broadcastInDim S409600 ![] bcast_S_S409600 : (⟨S_, .i32⟩ : BufTy).Contents (Elt F) → (⟨S409600, .i32⟩ : BufTy).Contents (Elt F)),
    binary main_v676 main_v677 main_v678 (cmpi .sge : (⟨S409600, .i32⟩ : BufTy).Contents (Elt F) → (⟨S409600, .i32⟩ : BufTy).Contents (Elt F) → (⟨S409600, .i1⟩ : BufTy).Contents (Elt F)),
    binary main_v654 main_v678 main_v679 (andi : (⟨S409600, .i1⟩ : BufTy).Contents (Elt F) → (⟨S409600, .i1⟩ : BufTy).Contents (Elt F) → (⟨S409600, .i1⟩ : BufTy).Contents (Elt F)),
    nullary main_c_255 (constantI S_ 32 0#32),
    unary main_c_255 main_call47_v0 (id : (⟨S_, .i32⟩ : BufTy).Contents (Elt F) → (⟨S_, .i32⟩ : BufTy).Contents (Elt F)),
    unary main_call47_v0 main_call47_v1 ((broadcastInDim S409600 ![] bcast_S_S409600) : (⟨S_, .i32⟩ : BufTy).Contents (Elt F) → (⟨S409600, .i32⟩ : BufTy).Contents (Elt F)),
    ternary main_v679 main_v676 main_call47_v1 main_v680 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_256 (constantI S_ 32 0#32),
    unary main_c_256 main_v681 (broadcastInDim S409600 ![] bcast_S_S409600 : (⟨S_, .i32⟩ : BufTy).Contents (Elt F) → (⟨S409600, .i32⟩ : BufTy).Contents (Elt F)),
    binary main_v680 main_v681 main_v682 (cmpi .slt : (⟨S409600, .i32⟩ : BufTy).Contents (Elt F) → (⟨S409600, .i32⟩ : BufTy).Contents (Elt F) → (⟨S409600, .i1⟩ : BufTy).Contents (Elt F)),
    nullary main_c_257 (constantI S_ 32 409600#32),
    unary main_c_257 main_v683 (broadcastInDim S409600 ![] bcast_S_S409600 : (⟨S_, .i32⟩ : BufTy).Contents (Elt F) → (⟨S409600, .i32⟩ : BufTy).Contents (Elt F)),
    binary main_v680 main_v683 main_v684 (addi : (⟨S409600, .i32⟩ : BufTy).Contents (Elt F) → (⟨S409600, .i32⟩ : BufTy).Contents (Elt F) → (⟨S409600, .i32⟩ : BufTy).Contents (Elt F)),
    ternary main_v682 main_v684 main_v680 main_v685 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v685 main_v686 (broadcastInDim S409600x1 ![0] bcast_S409600_S409600x1_0 : (⟨S409600, .i32⟩ : BufTy).Contents (Elt F) → (⟨S409600x1, .i32⟩ : BufTy).Contents (Elt F)),
    binary main_v524 main_v686 main_v687 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v679 main_v688 (broadcastInDim S409600x1 ![0] bcast_S409600_S409600x1_0 : (⟨S409600, .i1⟩ : BufTy).Contents (Elt F) → (⟨S409600x1, .i1⟩ : BufTy).Contents (Elt F)),
    nullary main_cst_258 (constant S_ .f32 0x00000000#32),
    unary main_cst_258 main_call48_v0 (id : (⟨S_, .f32⟩ : BufTy).Contents (Elt F) → (⟨S_, .f32⟩ : BufTy).Contents (Elt F)),
    unary main_v688 main_call48_v1 ((broadcastInDim S409600x64 ![0, 1] bcast_S409600x1_S409600x64_0_1) : (⟨S409600x1, .i1⟩ : BufTy).Contents (Elt F) → (⟨S409600x64, .i1⟩ : BufTy).Contents (Elt F)),
    unary main_call48_v0 main_call48_v2 ((broadcastInDim S409600x64 ![] bcast_S_S409600x64) : (⟨S_, .f32⟩ : BufTy).Contents (Elt F) → (⟨S409600x64, .f32⟩ : BufTy).Contents (Elt F)),
    ternary main_call48_v1 main_v687 main_call48_v2 main_v689 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v690 ((extractStridedSlice S1x1x64x64 ![0, 2, 0, 0] · slices_S3x3x64x64_S1x1x64x64_0_2_0_0) : (⟨S3x3x64x64, .f32⟩ : BufTy).Contents (Elt F) → (⟨S1x1x64x64, .f32⟩ : BufTy).Contents (Elt F)),
    reshape main_v690 main_v691 rfl shapeCasts_S1x1x64x64_S64x64,
    binary main_v689 main_v691 main_v692 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v639 main_v692 main_v693 (addf : (⟨S409600x64, .f32⟩ : BufTy).Contents (Elt F) → (⟨S409600x64, .f32⟩ : BufTy).Contents (Elt F) → (⟨S409600x64, .f32⟩ : BufTy).Contents (Elt F)),
    nullary main_c_259 (constantI S_ 32 0#32),
    unary main_c_259 main_v694 (broadcastInDim S409600 ![] bcast_S_S409600 : (⟨S_, .i32⟩ : BufTy).Contents (Elt F) → (⟨S409600, .i32⟩ : BufTy).Contents (Elt F)),
    binary main_v528 main_v694 main_v695 (addi : (⟨S409600, .i32⟩ : BufTy).Contents (Elt F) → (⟨S409600, .i32⟩ : BufTy).Contents (Elt F) → (⟨S409600, .i32⟩ : BufTy).Contents (Elt F)),
    nullary main_c_260 (constantI S_ 32 4294967295#32),
    unary main_c_260 main_v696 (broadcastInDim S409600 ![] bcast_S_S409600 : (⟨S_, .i32⟩ : BufTy).Contents (Elt F) → (⟨S409600, .i32⟩ : BufTy).Contents (Elt F)) ]

set_option maxRecDepth 8192 in
set_option maxHeartbeats 4000000 in
theorem main_part15_eq (c : Dev nD) : main_part15 (F := F) c = seq ops_p15 := by
  simp only [main_part15, ops_p15, fn_clip.body, fn_where.body, fn_where_0.body, fn_relu.body, seq, bind_assoc, pure_bind]
  rfl

set_option maxRecDepth 8192 in
theorem ops_p15_sub : (ops_p15 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub ..⟩

set_option maxRecDepth 8192 in
theorem ops_p15_fresh : ∀ op ∈ (ops_p15 : List (HloOp τ sig (Elt F))), op.fresh = ∅ := by
  unfold ops_p15; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 1076 on hold before it. -/
structure Inv15_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v643 : V (Proc.devRef .tc main_v643) = val_main_v643 (F := F) x1
  main_v654 : V (Proc.devRef .tc main_v654) = val_main_v654 (F := F) x1
  main_call45_v2 : V (Proc.devRef .tc main_call45_v2) = val_main_call45_v2 (F := F) x1
  main_call45_v4 : V (Proc.devRef .tc main_call45_v4) = val_main_call45_v4 (F := F)

/-- What the buffers read from operation 1084 on hold before it. -/
structure Inv15_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v654 : V (Proc.devRef .tc main_v654) = val_main_v654 (F := F) x1
  main_v655 : V (Proc.devRef .tc main_v655) = val_main_v655 (F := F) x1
  main_call46_v2 : V (Proc.devRef .tc main_call46_v2) = val_main_call46_v2 (F := F) x1
  main_call46_v4 : V (Proc.devRef .tc main_call46_v4) = val_main_call46_v4 (F := F)

/-- What the buffers read from operation 1092 on hold before it. -/
structure Inv15_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v654 : V (Proc.devRef .tc main_v654) = val_main_v654 (F := F) x1
  main_v655 : V (Proc.devRef .tc main_v655) = val_main_v655 (F := F) x1
  main_v656 : V (Proc.devRef .tc main_v656) = val_main_v656 (F := F) x1
  main_v661 : V (Proc.devRef .tc main_v661) = val_main_v661 (F := F) x1

/-- What the buffers read from operation 1100 on hold before it. -/
structure Inv15_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v654 : V (Proc.devRef .tc main_v654) = val_main_v654 (F := F) x1
  main_v656 : V (Proc.devRef .tc main_v656) = val_main_v656 (F := F) x1
  main_v661 : V (Proc.devRef .tc main_v661) = val_main_v661 (F := F) x1
  main_v666 : V (Proc.devRef .tc main_v666) = val_main_v666 (F := F) x1
  main_c_252 : V (Proc.devRef .tc main_c_252) = val_main_c_252 (F := F)

/-- What the buffers read from operation 1108 on hold before it. -/
structure Inv15_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v654 : V (Proc.devRef .tc main_v654) = val_main_v654 (F := F) x1
  main_v671 : V (Proc.devRef .tc main_v671) = val_main_v671 (F := F) x1
  main_v672 : V (Proc.devRef .tc main_v672) = val_main_v672 (F := F) x1
  main_v673 : V (Proc.devRef .tc main_v673) = val_main_v673 (F := F) x1

/-- What the buffers read from operation 1116 on hold before it. -/
structure Inv15_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v676 : V (Proc.devRef .tc main_v676) = val_main_v676 (F := F) x1
  main_v679 : V (Proc.devRef .tc main_v679) = val_main_v679 (F := F) x1
  main_c_255 : V (Proc.devRef .tc main_c_255) = val_main_c_255 (F := F)

/-- What the buffers read from operation 1124 on hold before it. -/
structure Inv15_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v679 : V (Proc.devRef .tc main_v679) = val_main_v679 (F := F) x1
  main_v680 : V (Proc.devRef .tc main_v680) = val_main_v680 (F := F) x1
  main_v682 : V (Proc.devRef .tc main_v682) = val_main_v682 (F := F) x1
  main_v683 : V (Proc.devRef .tc main_v683) = val_main_v683 (F := F)

/-- What the buffers read from operation 1132 on hold before it. -/
structure Inv15_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v639 : V (Proc.devRef .tc main_v639) = val_main_v639 (F := F) x0 x1 x2 x3 x4
  main_v687 : V (Proc.devRef .tc main_v687) = val_main_v687 (F := F) x0 x1 x2 x3
  main_call48_v0 : V (Proc.devRef .tc main_call48_v0) = val_main_call48_v0 (F := F)
  main_call48_v1 : V (Proc.devRef .tc main_call48_v1) = val_main_call48_v1 (F := F) x1

/-- What the buffers read from operation 1140 on hold before it. -/
structure Inv15_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v694 : V (Proc.devRef .tc main_v694) = val_main_v694 (F := F)

/-- Stretch 0 of window 15: @main's operations 1068 … 1075. -/
def ops_p15_0 : List (HloOp τ sig (Elt F)) :=
  [ binary main_v651 main_v653 main_v654 (andi : (⟨S409600, .i1⟩ : BufTy).Contents (Elt F) → (⟨S409600, .i1⟩ : BufTy).Contents (Elt F) → (⟨S409600, .i1⟩ : BufTy).Contents (Elt F)),
    nullary main_c_244 (constantI S_ 32 0#32),
    nullary main_c_245 (constantI S_ 32 639#32),
    unary main_c_244 main_call45_v0 (id : (⟨S_, .i32⟩ : BufTy).Contents (Elt F) → (⟨S_, .i32⟩ : BufTy).Contents (Elt F)),
    unary main_call45_v0 main_call45_v1 ((broadcastInDim S409600 ![] bcast_S_S409600) : (⟨S_, .i32⟩ : BufTy).Contents (Elt F) → (⟨S409600, .i32⟩ : BufTy).Contents (Elt F)),
    binary main_call45_v1 main_v641 main_call45_v2 (maxsi : (⟨S409600, .i32⟩ : BufTy).Contents (Elt F) → (⟨S409600, .i32⟩ : BufTy).Contents (Elt F) → (⟨S409600, .i32⟩ : BufTy).Contents (Elt F)),
    unary main_c_245 main_call45_v3 (id : (⟨S_, .i32⟩ : BufTy).Contents (Elt F) → (⟨S_, .i32⟩ : BufTy).Contents (Elt F)),
    unary main_call45_v3 main_call45_v4 ((broadcastInDim S409600 ![] bcast_S_S409600) : (⟨S_, .i32⟩ : BufTy).Contents (Elt F) → (⟨S409600, .i32⟩ : BufTy).Contents (Elt F)) ]
abbrev ops_p15_0_W : List (Ref sig .tc) := [main_v654, main_c_244, main_c_245, main_call45_v0, main_call45_v1, main_call45_v2, main_call45_v3, main_call45_v4]
theorem ops_p15_0_writes : (ops_p15_0 : List (HloOp τ sig (Elt F))).Forall fun op => op.writes ⊆ (ops_p15_0_W.map (Proc.devRef (τ := τ) .tc)).toFinset := by
  simp only [ops_p15_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p15_0_keep (V : Valuation τ sig (Elt F)) (r : Ref sig .tc) (h : r ∉ ops_p15_0_W) :
    after ops_p15_0 V (Proc.devRef .tc r) = V (Proc.devRef .tc r) :=
  after_of_writes_sub ops_p15_0 _ ops_p15_0_writes h

set_option maxRecDepth 8192 in
set_option maxHeartbeats 1000000 in
theorem w15_0_main_v654 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15 V x0 x1 x2 x3 x4 x5 x6) :
    after ops_p15_0 V (Proc.devRef .tc main_v654) = val_main_v654 (F := F) x1 := by
  simp only [ops_p15_0]
  after_results_w
  simp only [h.main_v653, h.main_v651]
  rfl

set_option maxRecDepth 8192 in
set_option maxHeartbeats 1000000 in
theorem w15_0_main_call45_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15 V x0 x1 x2 x3 x4 x5 x6) :
    after ops_p15_0 V (Proc.devRef .tc main_call45_v2) = val_main_call45_v2 (F := F) x1 := by
  simp only [ops_p15_0]
  after_results_w
  simp only [h.main_v641]
  rfl

set_option maxRecDepth 8192 in
set_option maxHeartbeats 1000000 in
theorem w15_0_main_call45_v4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15 V x0 x1 x2 x3 x4 x5 x6) :
    after ops_p15_0 V (Proc.devRef .tc main_call45_v4) = val_main_call45_v4 (F := F) := by
  simp only [ops_p15_0]
  after_results_w
  rfl

theorem step15_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15 V x0 x1 x2 x3 x4 x5 x6) : Inv15_1 (after ops_p15_0 V) x0 x1 x2 x3 x4 x5 x6 where
  main_arg0 := (ops_p15_0_keep V main_arg0 (by decide)).trans h.main_arg0
  main_arg1 := (ops_p15_0_keep V main_arg1 (by decide)).trans h.main_arg1
  main_arg2 := (ops_p15_0_keep V main_arg2 (by decide)).trans h.main_arg2
  main_arg3 := (ops_p15_0_keep V main_arg3 (by decide)).trans h.main_arg3
  main_arg4 := (ops_p15_0_keep V main_arg4 (by decide)).trans h.main_arg4
  main_arg5 := (ops_p15_0_keep V main_arg5 (by decide)).trans h.main_arg5
  main_arg6 := (ops_p15_0_keep V main_arg6 (by decide)).trans h.main_arg6
  main_v27 := (ops_p15_0_keep V main_v27 (by decide)).trans h.main_v27
  main_v524 := (ops_p15_0_keep V main_v524 (by decide)).trans h.main_v524
  main_v526 := (ops_p15_0_keep V main_v526 (by decide)).trans h.main_v526
  main_v528 := (ops_p15_0_keep V main_v528 (by decide)).trans h.main_v528
  main_v530 := (ops_p15_0_keep V main_v530 (by decide)).trans h.main_v530
  main_v639 := (ops_p15_0_keep V main_v639 (by decide)).trans h.main_v639
  main_v643 := (ops_p15_0_keep V main_v643 (by decide)).trans h.main_v643
  main_v654 := w15_0_main_v654 V x0 x1 x2 x3 x4 x5 x6 h
  main_call45_v2 := w15_0_main_call45_v2 V x0 x1 x2 x3 x4 x5 x6 h
  main_call45_v4 := w15_0_main_call45_v4 V x0 x1 x2 x3 x4 x5 x6 h

/-- Stretch 1 of window 15: @main's operations 1076 … 1083. -/
def ops_p15_1 : List (HloOp τ sig (Elt F)) :=
  [ binary main_call45_v4 main_call45_v2 main_v655 (minsi : (⟨S409600, .i32⟩ : BufTy).Contents (Elt F) → (⟨S409600, .i32⟩ : BufTy).Contents (Elt F) → (⟨S409600, .i32⟩ : BufTy).Contents (Elt F)),
    nullary main_c_246 (constantI S_ 32 0#32),
    nullary main_c_247 (constantI S_ 32 639#32),
    unary main_c_246 main_call46_v0 (id : (⟨S_, .i32⟩ : BufTy).Contents (Elt F) → (⟨S_, .i32⟩ : BufTy).Contents (Elt F)),
    unary main_call46_v0 main_call46_v1 ((broadcastInDim S409600 ![] bcast_S_S409600) : (⟨S_, .i32⟩ : BufTy).Contents (Elt F) → (⟨S409600, .i32⟩ : BufTy).Contents (Elt F)),
    binary main_call46_v1 main_v643 main_call46_v2 (maxsi : (⟨S409600, .i32⟩ : BufTy).Contents (Elt F) → (⟨S409600, .i32⟩ : BufTy).Contents (Elt F) → (⟨S409600, .i32⟩ : BufTy).Contents (Elt F)),
    unary main_c_247 main_call46_v3 (id : (⟨S_, .i32⟩ : BufTy).Contents (Elt F) → (⟨S_, .i32⟩ : BufTy).Contents (Elt F)),
    unary main_call46_v3 main_call46_v4 ((broadcastInDim S409600 ![] bcast_S_S409600) : (⟨S_, .i32⟩ : BufTy).Contents (Elt F) → (⟨S409600, .i32⟩ : BufTy).Contents (Elt F)) ]
abbrev ops_p15_1_W : List (Ref sig .tc) := [main_v655, main_c_246, main_c_247, main_call46_v0, main_call46_v1, main_call46_v2, main_call46_v3, main_call46_v4]
theorem ops_p15_1_writes : (ops_p15_1 : List (HloOp τ sig (Elt F))).Forall fun op => op.writes ⊆ (ops_p15_1_W.map (Proc.devRef (τ := τ) .tc)).toFinset := by
  simp only [ops_p15_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p15_1_keep (V : Valuation τ sig (Elt F)) (r : Ref sig .tc) (h : r ∉ ops_p15_1_W) :
    after ops_p15_1 V (Proc.devRef .tc r) = V (Proc.devRef .tc r) :=
  after_of_writes_sub ops_p15_1 _ ops_p15_1_writes h

set_option maxRecDepth 8192 in
set_option maxHeartbeats 1000000 in
theorem w15_1_main_v655 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_1 V x0 x1 x2 x3 x4 x5 x6) :
    after ops_p15_1 V (Proc.devRef .tc main_v655) = val_main_v655 (F := F) x1 := by
  simp only [ops_p15_1]
  after_results_w
  simp only [h.main_call45_v2, h.main_call45_v4]
  rfl

set_option maxRecDepth 8192 in
set_option maxHeartbeats 1000000 in
theorem w15_1_main_call46_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_1 V x0 x1 x2 x3 x4 x5 x6) :
    after ops_p15_1 V (Proc.devRef .tc main_call46_v2) = val_main_call46_v2 (F := F) x1 := by
  simp only [ops_p15_1]
  after_results_w
  simp only [h.main_v643]
  rfl

set_option maxRecDepth 8192 in
set_option maxHeartbeats 1000000 in
theorem w15_1_main_call46_v4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_1 V x0 x1 x2 x3 x4 x5 x6) :
    after ops_p15_1 V (Proc.devRef .tc main_call46_v4) = val_main_call46_v4 (F := F) := by
  simp only [ops_p15_1]
  after_results_w
  rfl

theorem step15_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_1 V x0 x1 x2 x3 x4 x5 x6) : Inv15_2 (after ops_p15_1 V) x0 x1 x2 x3 x4 x5 x6 where
  main_arg0 := (ops_p15_1_keep V main_arg0 (by decide)).trans h.main_arg0
  main_arg1 := (ops_p15_1_keep V main_arg1 (by decide)).trans h.main_arg1
  main_arg2 := (ops_p15_1_keep V main_arg2 (by decide)).trans h.main_arg2
  main_arg3 := (ops_p15_1_keep V main_arg3 (by decide)).trans h.main_arg3
  main_arg4 := (ops_p15_1_keep V main_arg4 (by decide)).trans h.main_arg4
  main_arg5 := (ops_p15_1_keep V main_arg5 (by decide)).trans h.main_arg5
  main_arg6 := (ops_p15_1_keep V main_arg6 (by decide)).trans h.main_arg6
  main_v27 := (ops_p15_1_keep V main_v27 (by decide)).trans h.main_v27
  main_v524 := (ops_p15_1_keep V main_v524 (by decide)).trans h.main_v524
  main_v526 := (ops_p15_1_keep V main_v526 (by decide)).trans h.main_v526
  main_v528 := (ops_p15_1_keep V main_v528 (by decide)).trans h.main_v528
  main_v530 := (ops_p15_1_keep V main_v530 (by decide)).trans h.main_v530
  main_v639 := (ops_p15_1_keep V main_v639 (by decide)).trans h.main_v639
  main_v654 := (ops_p15_1_keep V main_v654 (by decide)).trans h.main_v654
  main_v655 := w15_1_main_v655 V x0 x1 x2 x3 x4 x5 x6 h
  main_call46_v2 := w15_1_main_call46_v2 V x0 x1 x2 x3 x4 x5 x6 h
  main_call46_v4 := w15_1_main_call46_v4 V x0 x1 x2 x3 x4 x5 x6 h

/-- Stretch 2 of window 15: @main's operations 1084 … 1091. -/
def ops_p15_2 : List (HloOp τ sig (Elt F)) :=
  [ binary main_call46_v4 main_call46_v2 main_v656 (minsi : (⟨S409600, .i32⟩ : BufTy).Contents (Elt F) → (⟨S409600, .i32⟩ : BufTy).Contents (Elt F) → (⟨S409600, .i32⟩ : BufTy).Contents (Elt F)),
    nullary main_c_248 (constantI S_ 32 0#32),
    unary main_c_248 main_v657 (broadcastInDim S409600 ![] bcast_S_S409600 : (⟨S_, .i32⟩ : BufTy).Contents (Elt F) → (⟨S409600, .i32⟩ : BufTy).Contents (Elt F)),
    binary main_v526 main_v657 main_v658 (cmpi .slt : (⟨S409600, .i32⟩ : BufTy).Contents (Elt F) → (⟨S409600, .i32⟩ : BufTy).Contents (Elt F) → (⟨S409600, .i1⟩ : BufTy).Contents (Elt F)),
    nullary main_c_249 (constantI S_ 32 2#32),
    unary main_c_249 main_v659 (broadcastInDim S409600 ![] bcast_S_S409600 : (⟨S_, .i32⟩ : BufTy).Contents (Elt F) → (⟨S409600, .i32⟩ : BufTy).Contents (Elt F)),
    binary main_v526 main_v659 main_v660 (addi : (⟨S409600, .i32⟩ : BufTy).Contents (Elt F) → (⟨S409600, .i32⟩ : BufTy).Contents (Elt F) → (⟨S409600, .i32⟩ : BufTy).Contents (Elt F)),
    ternary main_v658 main_v660 main_v526 main_v661 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)) ]
abbrev ops_p15_2_W : List (Ref sig .tc) := [main_v656, main_c_248, main_v657, main_v658, main_c_249, main_v659, main_v660, main_v661]
theorem ops_p15_2_writes : (ops_p15_2 : List (HloOp τ sig (Elt F))).Forall fun op => op.writes ⊆ (ops_p15_2_W.map (Proc.devRef (τ := τ) .tc)).toFinset := by
  simp only [ops_p15_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p15_2_keep (V : Valuation τ sig (Elt F)) (r : Ref sig .tc) (h : r ∉ ops_p15_2_W) :
    after ops_p15_2 V (Proc.devRef .tc r) = V (Proc.devRef .tc r) :=
  after_of_writes_sub ops_p15_2 _ ops_p15_2_writes h

set_option maxRecDepth 8192 in
set_option maxHeartbeats 1000000 in
theorem w15_2_main_v656 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_2 V x0 x1 x2 x3 x4 x5 x6) :
    after ops_p15_2 V (Proc.devRef .tc main_v656) = val_main_v656 (F := F) x1 := by
  simp only [ops_p15_2]
  after_results_w
  simp only [h.main_call46_v2, h.main_call46_v4]
  rfl

set_option maxRecDepth 8192 in
set_option maxHeartbeats 1000000 in
theorem w15_2_main_v661 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_2 V x0 x1 x2 x3 x4 x5 x6) :
    after ops_p15_2 V (Proc.devRef .tc main_v661) = val_main_v661 (F := F) x1 := by
  simp only [ops_p15_2]
  after_results_w
  simp only [h.main_v526]
  rfl

theorem step15_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_2 V x0 x1 x2 x3 x4 x5 x6) : Inv15_3 (after ops_p15_2 V) x0 x1 x2 x3 x4 x5 x6 where
  main_arg0 := (ops_p15_2_keep V main_arg0 (by decide)).trans h.main_arg0
  main_arg1 := (ops_p15_2_keep V main_arg1 (by decide)).trans h.main_arg1
  main_arg2 := (ops_p15_2_keep V main_arg2 (by decide)).trans h.main_arg2
  main_arg3 := (ops_p15_2_keep V main_arg3 (by decide)).trans h.main_arg3
  main_arg4 := (ops_p15_2_keep V main_arg4 (by decide)).trans h.main_arg4
  main_arg5 := (ops_p15_2_keep V main_arg5 (by decide)).trans h.main_arg5
  main_arg6 := (ops_p15_2_keep V main_arg6 (by decide)).trans h.main_arg6
  main_v27 := (ops_p15_2_keep V main_v27 (by decide)).trans h.main_v27
  main_v524 := (ops_p15_2_keep V main_v524 (by decide)).trans h.main_v524
  main_v526 := (ops_p15_2_keep V main_v526 (by decide)).trans h.main_v526
  main_v528 := (ops_p15_2_keep V main_v528 (by decide)).trans h.main_v528
  main_v530 := (ops_p15_2_keep V main_v530 (by decide)).trans h.main_v530
  main_v639 := (ops_p15_2_keep V main_v639 (by decide)).trans h.main_v639
  main_v654 := (ops_p15_2_keep V main_v654 (by decide)).trans h.main_v654
  main_v655 := (ops_p15_2_keep V main_v655 (by decide)).trans h.main_v655
  main_v656 := w15_2_main_v656 V x0 x1 x2 x3 x4 x5 x6 h
  main_v661 := w15_2_main_v661 V x0 x1 x2 x3 x4 x5 x6 h

/-- Stretch 3 of window 15: @main's operations 1092 … 1099. -/
def ops_p15_3 : List (HloOp τ sig (Elt F)) :=
  [ nullary main_c_250 (constantI S_ 32 0#32),
    unary main_c_250 main_v662 (broadcastInDim S409600 ![] bcast_S_S409600 : (⟨S_, .i32⟩ : BufTy).Contents (Elt F) → (⟨S409600, .i32⟩ : BufTy).Contents (Elt F)),
    binary main_v655 main_v662 main_v663 (cmpi .slt : (⟨S409600, .i32⟩ : BufTy).Contents (Elt F) → (⟨S409600, .i32⟩ : BufTy).Contents (Elt F) → (⟨S409600, .i1⟩ : BufTy).Contents (Elt F)),
    nullary main_c_251 (constantI S_ 32 640#32),
    unary main_c_251 main_v664 (broadcastInDim S409600 ![] bcast_S_S409600 : (⟨S_, .i32⟩ : BufTy).Contents (Elt F) → (⟨S409600, .i32⟩ : BufTy).Contents (Elt F)),
    binary main_v655 main_v664 main_v665 (addi : (⟨S409600, .i32⟩ : BufTy).Contents (Elt F) → (⟨S409600, .i32⟩ : BufTy).Contents (Elt F) → (⟨S409600, .i32⟩ : BufTy).Contents (Elt F)),
    ternary main_v663 main_v665 main_v655 main_v666 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_252 (constantI S_ 32 0#32) ]
abbrev ops_p15_3_W : List (Ref sig .tc) := [main_c_250, main_v662, main_v663, main_c_251, main_v664, main_v665, main_v666, main_c_252]
theorem ops_p15_3_writes : (ops_p15_3 : List (HloOp τ sig (Elt F))).Forall fun op => op.writes ⊆ (ops_p15_3_W.map (Proc.devRef (τ := τ) .tc)).toFinset := by
  simp only [ops_p15_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p15_3_keep (V : Valuation τ sig (Elt F)) (r : Ref sig .tc) (h : r ∉ ops_p15_3_W) :
    after ops_p15_3 V (Proc.devRef .tc r) = V (Proc.devRef .tc r) :=
  after_of_writes_sub ops_p15_3 _ ops_p15_3_writes h

set_option maxRecDepth 8192 in
set_option maxHeartbeats 1000000 in
theorem w15_3_main_v666 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_3 V x0 x1 x2 x3 x4 x5 x6) :
    after ops_p15_3 V (Proc.devRef .tc main_v666) = val_main_v666 (F := F) x1 := by
  simp only [ops_p15_3]
  after_results_w
  simp only [h.main_v655]
  rfl

set_option maxRecDepth 8192 in
set_option maxHeartbeats 1000000 in
theorem w15_3_main_c_252 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_3 V x0 x1 x2 x3 x4 x5 x6) :
    after ops_p15_3 V (Proc.devRef .tc main_c_252) = val_main_c_252 (F := F) := by
  simp only [ops_p15_3]
  after_results_w
  rfl

theorem step15_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_3 V x0 x1 x2 x3 x4 x5 x6) : Inv15_4 (after ops_p15_3 V) x0 x1 x2 x3 x4 x5 x6 where
  main_arg0 := (ops_p15_3_keep V main_arg0 (by decide)).trans h.main_arg0
  main_arg1 := (ops_p15_3_keep V main_arg1 (by decide)).trans h.main_arg1
  main_arg2 := (ops_p15_3_keep V main_arg2 (by decide)).trans h.main_arg2
  main_arg3 := (ops_p15_3_keep V main_arg3 (by decide)).trans h.main_arg3
  main_arg4 := (ops_p15_3_keep V main_arg4 (by decide)).trans h.main_arg4
  main_arg5 := (ops_p15_3_keep V main_arg5 (by decide)).trans h.main_arg5
  main_arg6 := (ops_p15_3_keep V main_arg6 (by decide)).trans h.main_arg6
  main_v27 := (ops_p15_3_keep V main_v27 (by decide)).trans h.main_v27
  main_v524 := (ops_p15_3_keep V main_v524 (by decide)).trans h.main_v524
  main_v526 := (ops_p15_3_keep V main_v526 (by decide)).trans h.main_v526
  main_v528 := (ops_p15_3_keep V main_v528 (by decide)).trans h.main_v528
  main_v530 := (ops_p15_3_keep V main_v530 (by decide)).trans h.main_v530
  main_v639 := (ops_p15_3_keep V main_v639 (by decide)).trans h.main_v639
  main_v654 := (ops_p15_3_keep V main_v654 (by decide)).trans h.main_v654
  main_v656 := (ops_p15_3_keep V main_v656 (by decide)).trans h.main_v656
  main_v661 := (ops_p15_3_keep V main_v661 (by decide)).trans h.main_v661
  main_v666 := w15_3_main_v666 V x0 x1 x2 x3 x4 x5 x6 h
  main_c_252 := w15_3_main_c_252 V x0 x1 x2 x3 x4 x5 x6 h

/-- Stretch 4 of window 15: @main's operations 1100 … 1107. -/
def ops_p15_4 : List (HloOp τ sig (Elt F)) :=
  [ unary main_c_252 main_v667 (broadcastInDim S409600 ![] bcast_S_S409600 : (⟨S_, .i32⟩ : BufTy).Contents (Elt F) → (⟨S409600, .i32⟩ : BufTy).Contents (Elt F)),
    binary main_v656 main_v667 main_v668 (cmpi .slt : (⟨S409600, .i32⟩ : BufTy).Contents (Elt F) → (⟨S409600, .i32⟩ : BufTy).Contents (Elt F) → (⟨S409600, .i1⟩ : BufTy).Contents (Elt F)),
    nullary main_c_253 (constantI S_ 32 640#32),
    unary main_c_253 main_v669 (broadcastInDim S409600 ![] bcast_S_S409600 : (⟨S_, .i32⟩ : BufTy).Contents (Elt F) → (⟨S409600, .i32⟩ : BufTy).Contents (Elt F)),
    binary main_v656 main_v669 main_v670 (addi : (⟨S409600, .i32⟩ : BufTy).Contents (Elt F) → (⟨S409600, .i32⟩ : BufTy).Contents (Elt F) → (⟨S409600, .i32⟩ : BufTy).Contents (Elt F)),
    ternary main_v668 main_v670 main_v656 main_v671 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v661 main_v672 (broadcastInDim S409600x1 ![0] bcast_S409600_S409600x1_0 : (⟨S409600, .i32⟩ : BufTy).Contents (Elt F) → (⟨S409600x1, .i32⟩ : BufTy).Contents (Elt F)),
    unary main_v666 main_v673 (broadcastInDim S409600x1 ![0] bcast_S409600_S409600x1_0 : (⟨S409600, .i32⟩ : BufTy).Contents (Elt F) → (⟨S409600x1, .i32⟩ : BufTy).Contents (Elt F)) ]
abbrev ops_p15_4_W : List (Ref sig .tc) := [main_v667, main_v668, main_c_253, main_v669, main_v670, main_v671, main_v672, main_v673]
theorem ops_p15_4_writes : (ops_p15_4 : List (HloOp τ sig (Elt F))).Forall fun op => op.writes ⊆ (ops_p15_4_W.map (Proc.devRef (τ := τ) .tc)).toFinset := by
  simp only [ops_p15_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p15_4_keep (V : Valuation τ sig (Elt F)) (r : Ref sig .tc) (h : r ∉ ops_p15_4_W) :
    after ops_p15_4 V (Proc.devRef .tc r) = V (Proc.devRef .tc r) :=
  after_of_writes_sub ops_p15_4 _ ops_p15_4_writes h

set_option maxRecDepth 8192 in
set_option maxHeartbeats 1000000 in
theorem w15_4_main_v671 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_4 V x0 x1 x2 x3 x4 x5 x6) :
    after ops_p15_4 V (Proc.devRef .tc main_v671) = val_main_v671 (F := F) x1 := by
  simp only [ops_p15_4]
  after_results_w
  simp only [h.main_v656, h.main_c_252]
  rfl

set_option maxRecDepth 8192 in
set_option maxHeartbeats 1000000 in
theorem w15_4_main_v672 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_4 V x0 x1 x2 x3 x4 x5 x6) :
    after ops_p15_4 V (Proc.devRef .tc main_v672) = val_main_v672 (F := F) x1 := by
  simp only [ops_p15_4]
  after_results_w
  simp only [h.main_v661]
  rfl

set_option maxRecDepth 8192 in
set_option maxHeartbeats 1000000 in
theorem w15_4_main_v673 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_4 V x0 x1 x2 x3 x4 x5 x6) :
    after ops_p15_4 V (Proc.devRef .tc main_v673) = val_main_v673 (F := F) x1 := by
  simp only [ops_p15_4]
  after_results_w
  simp only [h.main_v666]
  rfl

theorem step15_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_4 V x0 x1 x2 x3 x4 x5 x6) : Inv15_5 (after ops_p15_4 V) x0 x1 x2 x3 x4 x5 x6 where
  main_arg0 := (ops_p15_4_keep V main_arg0 (by decide)).trans h.main_arg0
  main_arg1 := (ops_p15_4_keep V main_arg1 (by decide)).trans h.main_arg1
  main_arg2 := (ops_p15_4_keep V main_arg2 (by decide)).trans h.main_arg2
  main_arg3 := (ops_p15_4_keep V main_arg3 (by decide)).trans h.main_arg3
  main_arg4 := (ops_p15_4_keep V main_arg4 (by decide)).trans h.main_arg4
  main_arg5 := (ops_p15_4_keep V main_arg5 (by decide)).trans h.main_arg5
  main_arg6 := (ops_p15_4_keep V main_arg6 (by decide)).trans h.main_arg6
  main_v27 := (ops_p15_4_keep V main_v27 (by decide)).trans h.main_v27
  main_v524 := (ops_p15_4_keep V main_v524 (by decide)).trans h.main_v524
  main_v526 := (ops_p15_4_keep V main_v526 (by decide)).trans h.main_v526
  main_v528 := (ops_p15_4_keep V main_v528 (by decide)).trans h.main_v528
  main_v530 := (ops_p15_4_keep V main_v530 (by decide)).trans h.main_v530
  main_v639 := (ops_p15_4_keep V main_v639 (by decide)).trans h.main_v639
  main_v654 := (ops_p15_4_keep V main_v654 (by decide)).trans h.main_v654
  main_v671 := w15_4_main_v671 V x0 x1 x2 x3 x4 x5 x6 h
  main_v672 := w15_4_main_v672 V x0 x1 x2 x3 x4 x5 x6 h
  main_v673 := w15_4_main_v673 V x0 x1 x2 x3 x4 x5 x6 h

/-- Stretch 5 of window 15: @main's operations 1108 … 1115. -/
def ops_p15_5 : List (HloOp τ sig (Elt F)) :=
  [ unary main_v671 main_v674 (broadcastInDim S409600x1 ![0] bcast_S409600_S409600x1_0 : (⟨S409600, .i32⟩ : BufTy).Contents (Elt F) → (⟨S409600x1, .i32⟩ : BufTy).Contents (Elt F)),
    nary ![main_v672, main_v673, main_v674] main_v675 (fun u => concatenate S409600x3 1 [⟨S409600x1, u 0⟩, ⟨S409600x1, u 1⟩, ⟨S409600x1, u 2⟩] concatenates_S409600x1_S409600x1_S409600x1_S409600x3_d1),
    binary main_v27 main_v675 main_v676 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_254 (constantI S_ 32 0#32),
    unary main_c_254 main_v677 (broadcastInDim S409600 ![] bcast_S_S409600 : (⟨S_, .i32⟩ : BufTy).Contents (Elt F) → (⟨S409600, .i32⟩ : BufTy).Contents (Elt F)),
    binary main_v676 main_v677 main_v678 (cmpi .sge : (⟨S409600, .i32⟩ : BufTy).Contents (Elt F) → (⟨S409600, .i32⟩ : BufTy).Contents (Elt F) → (⟨S409600, .i1⟩ : BufTy).Contents (Elt F)),
    binary main_v654 main_v678 main_v679 (andi : (⟨S409600, .i1⟩ : BufTy).Contents (Elt F) → (⟨S409600, .i1⟩ : BufTy).Contents (Elt F) → (⟨S409600, .i1⟩ : BufTy).Contents (Elt F)),
    nullary main_c_255 (constantI S_ 32 0#32) ]
abbrev ops_p15_5_W : List (Ref sig .tc) := [main_v674, main_v675, main_v676, main_c_254, main_v677, main_v678, main_v679, main_c_255]
theorem ops_p15_5_writes : (ops_p15_5 : List (HloOp τ sig (Elt F))).Forall fun op => op.writes ⊆ (ops_p15_5_W.map (Proc.devRef (τ := τ) .tc)).toFinset := by
  simp only [ops_p15_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p15_5_keep (V : Valuation τ sig (Elt F)) (r : Ref sig .tc) (h : r ∉ ops_p15_5_W) :
    after ops_p15_5 V (Proc.devRef .tc r) = V (Proc.devRef .tc r) :=
  after_of_writes_sub ops_p15_5 _ ops_p15_5_writes h

set_option maxRecDepth 8192 in
set_option maxHeartbeats 1000000 in
theorem w15_5_main_v676 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_5 V x0 x1 x2 x3 x4 x5 x6) :
    after ops_p15_5 V (Proc.devRef .tc main_v676) = val_main_v676 (F := F) x1 := by
  simp only [ops_p15_5]
  after_results_w
  simp only [h.main_v671, h.main_v673, h.main_v672, h.main_v27]
  rfl

set_option maxRecDepth 8192 in
set_option maxHeartbeats 1000000 in
theorem w15_5_main_v679 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_5 V x0 x1 x2 x3 x4 x5 x6) :
    after ops_p15_5 V (Proc.devRef .tc main_v679) = val_main_v679 (F := F) x1 := by
  simp only [ops_p15_5]
  after_results_w
  simp only [h.main_v671, h.main_v673, h.main_v672, h.main_v27, h.main_v654]
  rfl

set_option maxRecDepth 8192 in
set_option maxHeartbeats 1000000 in
theorem w15_5_main_c_255 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_5 V x0 x1 x2 x3 x4 x5 x6) :
    after ops_p15_5 V (Proc.devRef .tc main_c_255) = val_main_c_255 (F := F) := by
  simp only [ops_p15_5]
  after_results_w
  rfl

theorem step15_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_5 V x0 x1 x2 x3 x4 x5 x6) : Inv15_6 (after ops_p15_5 V) x0 x1 x2 x3 x4 x5 x6 where
  main_arg0 := (ops_p15_5_keep V main_arg0 (by decide)).trans h.main_arg0
  main_arg1 := (ops_p15_5_keep V main_arg1 (by decide)).trans h.main_arg1
  main_arg2 := (ops_p15_5_keep V main_arg2 (by decide)).trans h.main_arg2
  main_arg3 := (ops_p15_5_keep V main_arg3 (by decide)).trans h.main_arg3
  main_arg4 := (ops_p15_5_keep V main_arg4 (by decide)).trans h.main_arg4
  main_arg5 := (ops_p15_5_keep V main_arg5 (by decide)).trans h.main_arg5
  main_arg6 := (ops_p15_5_keep V main_arg6 (by decide)).trans h.main_arg6
  main_v27 := (ops_p15_5_keep V main_v27 (by decide)).trans h.main_v27
  main_v524 := (ops_p15_5_keep V main_v524 (by decide)).trans h.main_v524
  main_v526 := (ops_p15_5_keep V main_v526 (by decide)).trans h.main_v526
  main_v528 := (ops_p15_5_keep V main_v528 (by decide)).trans h.main_v528
  main_v530 := (ops_p15_5_keep V main_v530 (by decide)).trans h.main_v530
  main_v639 := (ops_p15_5_keep V main_v639 (by decide)).trans h.main_v639
  main_v676 := w15_5_main_v676 V x0 x1 x2 x3 x4 x5 x6 h
  main_v679 := w15_5_main_v679 V x0 x1 x2 x3 x4 x5 x6 h
  main_c_255 := w15_5_main_c_255 V x0 x1 x2 x3 x4 x5 x6 h

/-- Stretch 6 of window 15: @main's operations 1116 … 1123. -/
def ops_p15_6 : List (HloOp τ sig (Elt F)) :=
  [ unary main_c_255 main_call47_v0 (id : (⟨S_, .i32⟩ : BufTy).Contents (Elt F) → (⟨S_, .i32⟩ : BufTy).Contents (Elt F)),
    unary main_call47_v0 main_call47_v1 ((broadcastInDim S409600 ![] bcast_S_S409600) : (⟨S_, .i32⟩ : BufTy).Contents (Elt F) → (⟨S409600, .i32⟩ : BufTy).Contents (Elt F)),
    ternary main_v679 main_v676 main_call47_v1 main_v680 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_256 (constantI S_ 32 0#32),
    unary main_c_256 main_v681 (broadcastInDim S409600 ![] bcast_S_S409600 : (⟨S_, .i32⟩ : BufTy).Contents (Elt F) → (⟨S409600, .i32⟩ : BufTy).Contents (Elt F)),
    binary main_v680 main_v681 main_v682 (cmpi .slt : (⟨S409600, .i32⟩ : BufTy).Contents (Elt F) → (⟨S409600, .i32⟩ : BufTy).Contents (Elt F) → (⟨S409600, .i1⟩ : BufTy).Contents (Elt F)),
    nullary main_c_257 (constantI S_ 32 409600#32),
    unary main_c_257 main_v683 (broadcastInDim S409600 ![] bcast_S_S409600 : (⟨S_, .i32⟩ : BufTy).Contents (Elt F) → (⟨S409600, .i32⟩ : BufTy).Contents (Elt F)) ]
abbrev ops_p15_6_W : List (Ref sig .tc) := [main_call47_v0, main_call47_v1, main_v680, main_c_256, main_v681, main_v682, main_c_257, main_v683]
theorem ops_p15_6_writes : (ops_p15_6 : List (HloOp τ sig (Elt F))).Forall fun op => op.writes ⊆ (ops_p15_6_W.map (Proc.devRef (τ := τ) .tc)).toFinset := by
  simp only [ops_p15_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p15_6_keep (V : Valuation τ sig (Elt F)) (r : Ref sig .tc) (h : r ∉ ops_p15_6_W) :
    after ops_p15_6 V (Proc.devRef .tc r) = V (Proc.devRef .tc r) :=
  after_of_writes_sub ops_p15_6 _ ops_p15_6_writes h

set_option maxRecDepth 8192 in
set_option maxHeartbeats 1000000 in
theorem w15_6_main_v680 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_6 V x0 x1 x2 x3 x4 x5 x6) :
    after ops_p15_6 V (Proc.devRef .tc main_v680) = val_main_v680 (F := F) x1 := by
  simp only [ops_p15_6]
  after_results_w
  simp only [h.main_c_255, h.main_v676, h.main_v679]
  rfl

set_option maxRecDepth 8192 in
set_option maxHeartbeats 1000000 in
theorem w15_6_main_v682 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_6 V x0 x1 x2 x3 x4 x5 x6) :
    after ops_p15_6 V (Proc.devRef .tc main_v682) = val_main_v682 (F := F) x1 := by
  simp only [ops_p15_6]
  after_results_w
  simp only [h.main_c_255, h.main_v676, h.main_v679]
  rfl

set_option maxRecDepth 8192 in
set_option maxHeartbeats 1000000 in
theorem w15_6_main_v683 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_6 V x0 x1 x2 x3 x4 x5 x6) :
    after ops_p15_6 V (Proc.devRef .tc main_v683) = val_main_v683 (F := F) := by
  simp only [ops_p15_6]
  after_results_w
  rfl

theorem step15_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_6 V x0 x1 x2 x3 x4 x5 x6) : Inv15_7 (after ops_p15_6 V) x0 x1 x2 x3 x4 x5 x6 where
  main_arg0 := (ops_p15_6_keep V main_arg0 (by decide)).trans h.main_arg0
  main_arg1 := (ops_p15_6_keep V main_arg1 (by decide)).trans h.main_arg1
  main_arg2 := (ops_p15_6_keep V main_arg2 (by decide)).trans h.main_arg2
  main_arg3 := (ops_p15_6_keep V main_arg3 (by decide)).trans h.main_arg3
  main_arg4 := (ops_p15_6_keep V main_arg4 (by decide)).trans h.main_arg4
  main_arg5 := (ops_p15_6_keep V main_arg5 (by decide)).trans h.main_arg5
  main_arg6 := (ops_p15_6_keep V main_arg6 (by decide)).trans h.main_arg6
  main_v27 := (ops_p15_6_keep V main_v27 (by decide)).trans h.main_v27
  main_v524 := (ops_p15_6_keep V main_v524 (by decide)).trans h.main_v524
  main_v526 := (ops_p15_6_keep V main_v526 (by decide)).trans h.main_v526
  main_v528 := (ops_p15_6_keep V main_v528 (by decide)).trans h.main_v528
  main_v530 := (ops_p15_6_keep V main_v530 (by decide)).trans h.main_v530
  main_v639 := (ops_p15_6_keep V main_v639 (by decide)).trans h.main_v639
  main_v679 := (ops_p15_6_keep V main_v679 (by decide)).trans h.main_v679
  main_v680 := w15_6_main_v680 V x0 x1 x2 x3 x4 x5 x6 h
  main_v682 := w15_6_main_v682 V x0 x1 x2 x3 x4 x5 x6 h
  main_v683 := w15_6_main_v683 V x0 x1 x2 x3 x4 x5 x6 h

/-- Stretch 7 of window 15: @main's operations 1124 … 1131. -/
def ops_p15_7 : List (HloOp τ sig (Elt F)) :=
  [ binary main_v680 main_v683 main_v684 (addi : (⟨S409600, .i32⟩ : BufTy).Contents (Elt F) → (⟨S409600, .i32⟩ : BufTy).Contents (Elt F) → (⟨S409600, .i32⟩ : BufTy).Contents (Elt F)),
    ternary main_v682 main_v684 main_v680 main_v685 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v685 main_v686 (broadcastInDim S409600x1 ![0] bcast_S409600_S409600x1_0 : (⟨S409600, .i32⟩ : BufTy).Contents (Elt F) → (⟨S409600x1, .i32⟩ : BufTy).Contents (Elt F)),
    binary main_v524 main_v686 main_v687 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v679 main_v688 (broadcastInDim S409600x1 ![0] bcast_S409600_S409600x1_0 : (⟨S409600, .i1⟩ : BufTy).Contents (Elt F) → (⟨S409600x1, .i1⟩ : BufTy).Contents (Elt F)),
    nullary main_cst_258 (constant S_ .f32 0x00000000#32),
    unary main_cst_258 main_call48_v0 (id : (⟨S_, .f32⟩ : BufTy).Contents (Elt F) → (⟨S_, .f32⟩ : BufTy).Contents (Elt F)),
    unary main_v688 main_call48_v1 ((broadcastInDim S409600x64 ![0, 1] bcast_S409600x1_S409600x64_0_1) : (⟨S409600x1, .i1⟩ : BufTy).Contents (Elt F) → (⟨S409600x64, .i1⟩ : BufTy).Contents (Elt F)) ]
abbrev ops_p15_7_W : List (Ref sig .tc) := [main_v684, main_v685, main_v686, main_v687, main_v688, main_cst_258, main_call48_v0, main_call48_v1]
theorem ops_p15_7_writes : (ops_p15_7 : List (HloOp τ sig (Elt F))).Forall fun op => op.writes ⊆ (ops_p15_7_W.map (Proc.devRef (τ := τ) .tc)).toFinset := by
  simp only [ops_p15_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p15_7_keep (V : Valuation τ sig (Elt F)) (r : Ref sig .tc) (h : r ∉ ops_p15_7_W) :
    after ops_p15_7 V (Proc.devRef .tc r) = V (Proc.devRef .tc r) :=
  after_of_writes_sub ops_p15_7 _ ops_p15_7_writes h

set_option maxRecDepth 8192 in
set_option maxHeartbeats 1000000 in
theorem w15_7_main_v687 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_7 V x0 x1 x2 x3 x4 x5 x6) :
    after ops_p15_7 V (Proc.devRef .tc main_v687) = val_main_v687 (F := F) x0 x1 x2 x3 := by
  simp only [ops_p15_7]
  after_results_w
  simp only [h.main_v680, h.main_v683, h.main_v682, h.main_v524]
  rfl

set_option maxRecDepth 8192 in
set_option maxHeartbeats 1000000 in
theorem w15_7_main_call48_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_7 V x0 x1 x2 x3 x4 x5 x6) :
    after ops_p15_7 V (Proc.devRef .tc main_call48_v0) = val_main_call48_v0 (F := F) := by
  simp only [ops_p15_7]
  after_results_w
  rfl

set_option maxRecDepth 8192 in
set_option maxHeartbeats 1000000 in
theorem w15_7_main_call48_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_7 V x0 x1 x2 x3 x4 x5 x6) :
    after ops_p15_7 V (Proc.devRef .tc main_call48_v1) = val_main_call48_v1 (F := F) x1 := by
  simp only [ops_p15_7]
  after_results_w
  simp only [h.main_v679]
  rfl

theorem step15_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_7 V x0 x1 x2 x3 x4 x5 x6) : Inv15_8 (after ops_p15_7 V) x0 x1 x2 x3 x4 x5 x6 where
  main_arg0 := (ops_p15_7_keep V main_arg0 (by decide)).trans h.main_arg0
  main_arg1 := (ops_p15_7_keep V main_arg1 (by decide)).trans h.main_arg1
  main_arg2 := (ops_p15_7_keep V main_arg2 (by decide)).trans h.main_arg2
  main_arg3 := (ops_p15_7_keep V main_arg3 (by decide)).trans h.main_arg3
  main_arg4 := (ops_p15_7_keep V main_arg4 (by decide)).trans h.main_arg4
  main_arg5 := (ops_p15_7_keep V main_arg5 (by decide)).trans h.main_arg5
  main_arg6 := (ops_p15_7_keep V main_arg6 (by decide)).trans h.main_arg6
  main_v27 := (ops_p15_7_keep V main_v27 (by decide)).trans h.main_v27
  main_v524 := (ops_p15_7_keep V main_v524 (by decide)).trans h.main_v524
  main_v526 := (ops_p15_7_keep V main_v526 (by decide)).trans h.main_v526
  main_v528 := (ops_p15_7_keep V main_v528 (by decide)).trans h.main_v528
  main_v530 := (ops_p15_7_keep V main_v530 (by decide)).trans h.main_v530
  main_v639 := (ops_p15_7_keep V main_v639 (by decide)).trans h.main_v639
  main_v687 := w15_7_main_v687 V x0 x1 x2 x3 x4 x5 x6 h
  main_call48_v0 := w15_7_main_call48_v0 V x0 x1 x2 x3 x4 x5 x6 h
  main_call48_v1 := w15_7_main_call48_v1 V x0 x1 x2 x3 x4 x5 x6 h

/-- Stretch 8 of window 15: @main's operations 1132 … 1139. -/
def ops_p15_8 : List (HloOp τ sig (Elt F)) :=
  [ unary main_call48_v0 main_call48_v2 ((broadcastInDim S409600x64 ![] bcast_S_S409600x64) : (⟨S_, .f32⟩ : BufTy).Contents (Elt F) → (⟨S409600x64, .f32⟩ : BufTy).Contents (Elt F)),
    ternary main_call48_v1 main_v687 main_call48_v2 main_v689 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v690 ((extractStridedSlice S1x1x64x64 ![0, 2, 0, 0] · slices_S3x3x64x64_S1x1x64x64_0_2_0_0) : (⟨S3x3x64x64, .f32⟩ : BufTy).Contents (Elt F) → (⟨S1x1x64x64, .f32⟩ : BufTy).Contents (Elt F)),
    reshape main_v690 main_v691 rfl shapeCasts_S1x1x64x64_S64x64,
    binary main_v689 main_v691 main_v692 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v639 main_v692 main_v693 (addf : (⟨S409600x64, .f32⟩ : BufTy).Contents (Elt F) → (⟨S409600x64, .f32⟩ : BufTy).Contents (Elt F) → (⟨S409600x64, .f32⟩ : BufTy).Contents (Elt F)),
    nullary main_c_259 (constantI S_ 32 0#32),
    unary main_c_259 main_v694 (broadcastInDim S409600 ![] bcast_S_S409600 : (⟨S_, .i32⟩ : BufTy).Contents (Elt F) → (⟨S409600, .i32⟩ : BufTy).Contents (Elt F)) ]
abbrev ops_p15_8_W : List (Ref sig .tc) := [main_call48_v2, main_v689, main_v690, main_v691, main_v692, main_v693, main_c_259, main_v694]
theorem ops_p15_8_writes : (ops_p15_8 : List (HloOp τ sig (Elt F))).Forall fun op => op.writes ⊆ (ops_p15_8_W.map (Proc.devRef (τ := τ) .tc)).toFinset := by
  simp only [ops_p15_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p15_8_keep (V : Valuation τ sig (Elt F)) (r : Ref sig .tc) (h : r ∉ ops_p15_8_W) :
    after ops_p15_8 V (Proc.devRef .tc r) = V (Proc.devRef .tc r) :=
  after_of_writes_sub ops_p15_8 _ ops_p15_8_writes h

set_option maxRecDepth 8192 in
set_option maxHeartbeats 1000000 in
theorem w15_8_main_v693 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_8 V x0 x1 x2 x3 x4 x5 x6) :
    after ops_p15_8 V (Proc.devRef .tc main_v693) = val_main_v693 (F := F) x0 x1 x2 x3 x4 := by
  simp only [ops_p15_8]
  after_results_w
  simp only [h.main_arg4, h.main_call48_v0, h.main_v687, h.main_call48_v1, h.main_v639]
  rfl

set_option maxRecDepth 8192 in
set_option maxHeartbeats 1000000 in
theorem w15_8_main_v694 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_8 V x0 x1 x2 x3 x4 x5 x6) :
    after ops_p15_8 V (Proc.devRef .tc main_v694) = val_main_v694 (F := F) := by
  simp only [ops_p15_8]
  after_results_w
  rfl

theorem step15_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_8 V x0 x1 x2 x3 x4 x5 x6) : Inv15_9 (after ops_p15_8 V) x0 x1 x2 x3 x4 x5 x6 where
  main_arg0 := (ops_p15_8_keep V main_arg0 (by decide)).trans h.main_arg0
  main_arg1 := (ops_p15_8_keep V main_arg1 (by decide)).trans h.main_arg1
  main_arg2 := (ops_p15_8_keep V main_arg2 (by decide)).trans h.main_arg2
  main_arg3 := (ops_p15_8_keep V main_arg3 (by decide)).trans h.main_arg3
  main_arg4 := (ops_p15_8_keep V main_arg4 (by decide)).trans h.main_arg4
  main_arg5 := (ops_p15_8_keep V main_arg5 (by decide)).trans h.main_arg5
  main_arg6 := (ops_p15_8_keep V main_arg6 (by decide)).trans h.main_arg6
  main_v27 := (ops_p15_8_keep V main_v27 (by decide)).trans h.main_v27
  main_v524 := (ops_p15_8_keep V main_v524 (by decide)).trans h.main_v524
  main_v526 := (ops_p15_8_keep V main_v526 (by decide)).trans h.main_v526
  main_v528 := (ops_p15_8_keep V main_v528 (by decide)).trans h.main_v528
  main_v530 := (ops_p15_8_keep V main_v530 (by decide)).trans h.main_v530
  main_v693 := w15_8_main_v693 V x0 x1 x2 x3 x4 x5 x6 h
  main_v694 := w15_8_main_v694 V x0 x1 x2 x3 x4 x5 x6 h

/-- Stretch 9 of window 15: @main's operations 1140 … 1142. -/
def ops_p15_9 : List (HloOp τ sig (Elt F)) :=
  [ binary main_v528 main_v694 main_v695 (addi : (⟨S409600, .i32⟩ : BufTy).Contents (Elt F) → (⟨S409600, .i32⟩ : BufTy).Contents (Elt F) → (⟨S409600, .i32⟩ : BufTy).Contents (Elt F)),
    nullary main_c_260 (constantI S_ 32 4294967295#32),
    unary main_c_260 main_v696 (broadcastInDim S409600 ![] bcast_S_S409600 : (⟨S_, .i32⟩ : BufTy).Contents (Elt F) → (⟨S409600, .i32⟩ : BufTy).Contents (Elt F)) ]
abbrev ops_p15_9_W : List (Ref sig .tc) := [main_v695, main_c_260, main_v696]
theorem ops_p15_9_writes : (ops_p15_9 : List (HloOp τ sig (Elt F))).Forall fun op => op.writes ⊆ (ops_p15_9_W.map (Proc.devRef (τ := τ) .tc)).toFinset := by
  simp only [ops_p15_9, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p15_9_keep (V : Valuation τ sig (Elt F)) (r : Ref sig .tc) (h : r ∉ ops_p15_9_W) :
    after ops_p15_9 V (Proc.devRef .tc r) = V (Proc.devRef .tc r) :=
  after_of_writes_sub ops_p15_9 _ ops_p15_9_writes h

set_option maxRecDepth 8192 in
set_option maxHeartbeats 1000000 in
theorem w15_9_main_v695 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_9 V x0 x1 x2 x3 x4 x5 x6) :
    after ops_p15_9 V (Proc.devRef .tc main_v695) = val_main_v695 (F := F) x1 := by
  simp only [ops_p15_9]
  after_results_w
  simp only [h.main_v694, h.main_v528]
  rfl

set_option maxRecDepth 8192 in
set_option maxHeartbeats 1000000 in
theorem w15_9_main_v696 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_9 V x0 x1 x2 x3 x4 x5 x6) :
    after ops_p15_9 V (Proc.devRef .tc main_v696) = val_main_v696 (F := F) := by
  simp only [ops_p15_9]
  after_results_w
  rfl

theorem step15_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15_9 V x0 x1 x2 x3 x4 x5 x6) : Inv16 (after ops_p15_9 V) x0 x1 x2 x3 x4 x5 x6 where
  main_arg0 := (ops_p15_9_keep V main_arg0 (by decide)).trans h.main_arg0
  main_arg1 := (ops_p15_9_keep V main_arg1 (by decide)).trans h.main_arg1
  main_arg2 := (ops_p15_9_keep V main_arg2 (by decide)).trans h.main_arg2
  main_arg3 := (ops_p15_9_keep V main_arg3 (by decide)).trans h.main_arg3
  main_arg4 := (ops_p15_9_keep V main_arg4 (by decide)).trans h.main_arg4
  main_arg5 := (ops_p15_9_keep V main_arg5 (by decide)).trans h.main_arg5
  main_arg6 := (ops_p15_9_keep V main_arg6 (by decide)).trans h.main_arg6
  main_v27 := (ops_p15_9_keep V main_v27 (by decide)).trans h.main_v27
  main_v524 := (ops_p15_9_keep V main_v524 (by decide)).trans h.main_v524
  main_v526 := (ops_p15_9_keep V main_v526 (by decide)).trans h.main_v526
  main_v528 := (ops_p15_9_keep V main_v528 (by decide)).trans h.main_v528
  main_v530 := (ops_p15_9_keep V main_v530 (by decide)).trans h.main_v530
  main_v693 := (ops_p15_9_keep V main_v693 (by decide)).trans h.main_v693
  main_v695 := w15_9_main_v695 V x0 x1 x2 x3 x4 x5 x6 h
  main_v696 := w15_9_main_v696 V x0 x1 x2 x3 x4 x5 x6 h

set_option maxRecDepth 8192 in
theorem ops_p15_split : (ops_p15 : List (HloOp τ sig (Elt F))) = ops_p15_0 ++ (ops_p15_1 ++ (ops_p15_2 ++ (ops_p15_3 ++ (ops_p15_4 ++ (ops_p15_5 ++ (ops_p15_6 ++ (ops_p15_7 ++ (ops_p15_8 ++ (ops_p15_9))))))))) := rfl

/-- Window 15 carries the staged reading from boundary 15 to boundary 16. -/
theorem step15 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv15 V x0 x1 x2 x3 x4 x5 x6) : Inv16 (after ops_p15 V) x0 x1 x2 x3 x4 x5 x6 := by
  rw [ops_p15_split]; simp only [after_app]
  exact step15_9 _ x0 x1 x2 x3 x4 x5 x6 (step15_8 _ x0 x1 x2 x3 x4 x5 x6 (step15_7 _ x0 x1 x2 x3 x4 x5 x6 (step15_6 _ x0 x1 x2 x3 x4 x5 x6 (step15_5 _ x0 x1 x2 x3 x4 x5 x6 (step15_4 _ x0 x1 x2 x3 x4 x5 x6 (step15_3 _ x0 x1 x2 x3 x4 x5 x6 (step15_2 _ x0 x1 x2 x3 x4 x5 x6 (step15_1 _ x0 x1 x2 x3 x4 x5 x6 (step15_0 V x0 x1 x2 x3 x4 x5 x6 h)))))))))

end Cert.ReferenceIdeal.Hand

end
-- ==== Proof.Ref.W16.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 16 of @main: its operations 1143 … 1214 of 1688, in order. -/
def ops_p16 : List (HloOp τ sig (Elt F)) :=
  [ binary main_v530 main_v696 main_v697 (addi : (⟨S409600, .i32⟩ : BufTy).Contents (Elt F) → (⟨S409600, .i32⟩ : BufTy).Contents (Elt F) → (⟨S409600, .i32⟩ : BufTy).Contents (Elt F)),
    nullary main_c_261 (constantI S_ 32 0#32),
    unary main_c_261 main_v698 (broadcastInDim S409600 ![] bcast_S_S409600 : (⟨S_, .i32⟩ : BufTy).Contents (Elt F) → (⟨S409600, .i32⟩ : BufTy).Contents (Elt F)),
    binary main_v695 main_v698 main_v699 (cmpi .sge : (⟨S409600, .i32⟩ : BufTy).Contents (Elt F) → (⟨S409600, .i32⟩ : BufTy).Contents (Elt F) → (⟨S409600, .i1⟩ : BufTy).Contents (Elt F)),
    nullary main_c_262 (constantI S_ 32 640#32),
    unary main_c_262 main_v700 (broadcastInDim S409600 ![] bcast_S_S409600 : (⟨S_, .i32⟩ : BufTy).Contents (Elt F) → (⟨S409600, .i32⟩ : BufTy).Contents (Elt F)),
    binary main_v695 main_v700 main_v701 (cmpi .slt : (⟨S409600, .i32⟩ : BufTy).Contents (Elt F) → (⟨S409600, .i32⟩ : BufTy).Contents (Elt F) → (⟨S409600, .i1⟩ : BufTy).Contents (Elt F)),
    binary main_v699 main_v701 main_v702 (andi : (⟨S409600, .i1⟩ : BufTy).Contents (Elt F) → (⟨S409600, .i1⟩ : BufTy).Contents (Elt F) → (⟨S409600, .i1⟩ : BufTy).Contents (Elt F)),
    nullary main_c_263 (constantI S_ 32 0#32),
    unary main_c_263 main_v703 (broadcastInDim S409600 ![] bcast_S_S409600 : (⟨S_, .i32⟩ : BufTy).Contents (Elt F) → (⟨S409600, .i32⟩ : BufTy).Contents (Elt F)),
    binary main_v697 main_v703 main_v704 (cmpi .sge : (⟨S409600, .i32⟩ : BufTy).Contents (Elt F) → (⟨S409600, .i32⟩ : BufTy).Contents (Elt F) → (⟨S409600, .i1⟩ : BufTy).Contents (Elt F)),
    binary main_v702 main_v704 main_v705 (andi : (⟨S409600, .i1⟩ : BufTy).Contents (Elt F) → (⟨S409600, .i1⟩ : BufTy).Contents (Elt F) → (⟨S409600, .i1⟩ : BufTy).Contents (Elt F)),
    nullary main_c_264 (constantI S_ 32 640#32),
    unary main_c_264 main_v706 (broadcastInDim S409600 ![] bcast_S_S409600 : (⟨S_, .i32⟩ : BufTy).Contents (Elt F) → (⟨S409600, .i32⟩ : BufTy).Contents (Elt F)),
    binary main_v697 main_v706 main_v707 (cmpi .slt : (⟨S409600, .i32⟩ : BufTy).Contents (Elt F) → (⟨S409600, .i32⟩ : BufTy).Contents (Elt F) → (⟨S409600, .i1⟩ : BufTy).Contents (Elt F)),
    binary main_v705 main_v707 main_v708 (andi : (⟨S409600, .i1⟩ : BufTy).Contents (Elt F) → (⟨S409600, .i1⟩ : BufTy).Contents (Elt F) → (⟨S409600, .i1⟩ : BufTy).Contents (Elt F)),
    nullary main_c_265 (constantI S_ 32 0#32),
    nullary main_c_266 (constantI S_ 32 639#32),
    unary main_c_265 main_call49_v0 (id : (⟨S_, .i32⟩ : BufTy).Contents (Elt F) → (⟨S_, .i32⟩ : BufTy).Contents (Elt F)),
    unary main_call49_v0 main_call49_v1 ((broadcastInDim S409600 ![] bcast_S_S409600) : (⟨S_, .i32⟩ : BufTy).Contents (Elt F) → (⟨S409600, .i32⟩ : BufTy).Contents (Elt F)),
    binary main_call49_v1 main_v695 main_call49_v2 (maxsi : (⟨S409600, .i32⟩ : BufTy).Contents (Elt F) → (⟨S409600, .i32⟩ : BufTy).Contents (Elt F) → (⟨S409600, .i32⟩ : BufTy).Contents (Elt F)),
    unary main_c_266 main_call49_v3 (id : (⟨S_, .i32⟩ : BufTy).Contents (Elt F) → (⟨S_, .i32⟩ : BufTy).Contents (Elt F)),
    unary main_call49_v3 main_call49_v4 ((broadcastInDim S409600 ![] bcast_S_S409600) : (⟨S_, .i32⟩ : BufTy).Contents (Elt F) → (⟨S409600, .i32⟩ : BufTy).Contents (Elt F)),
    binary main_call49_v4 main_call49_v2 main_v709 (minsi : (⟨S409600, .i32⟩ : BufTy).Contents (Elt F) → (⟨S409600, .i32⟩ : BufTy).Contents (Elt F) → (⟨S409600, .i32⟩ : BufTy).Contents (Elt F)),
    nullary main_c_267 (constantI S_ 32 0#32),
    nullary main_c_268 (constantI S_ 32 639#32),
    unary main_c_267 main_call50_v0 (id : (⟨S_, .i32⟩ : BufTy).Contents (Elt F) → (⟨S_, .i32⟩ : BufTy).Contents (Elt F)),
    unary main_call50_v0 main_call50_v1 ((broadcastInDim S409600 ![] bcast_S_S409600) : (⟨S_, .i32⟩ : BufTy).Contents (Elt F) → (⟨S409600, .i32⟩ : BufTy).Contents (Elt F)),
    binary main_call50_v1 main_v697 main_call50_v2 (maxsi : (⟨S409600, .i32⟩ : BufTy).Contents (Elt F) → (⟨S409600, .i32⟩ : BufTy).Contents (Elt F) → (⟨S409600, .i32⟩ : BufTy).Contents (Elt F)),
    unary main_c_268 main_call50_v3 (id : (⟨S_, .i32⟩ : BufTy).Contents (Elt F) → (⟨S_, .i32⟩ : BufTy).Contents (Elt F)),
    unary main_call50_v3 main_call50_v4 ((broadcastInDim S409600 ![] bcast_S_S409600) : (⟨S_, .i32⟩ : BufTy).Contents (Elt F) → (⟨S409600, .i32⟩ : BufTy).Contents (Elt F)),
    binary main_call50_v4 main_call50_v2 main_v710 (minsi : (⟨S409600, .i32⟩ : BufTy).Contents (Elt F) → (⟨S409600, .i32⟩ : BufTy).Contents (Elt F) → (⟨S409600, .i32⟩ : BufTy).Contents (Elt F)),
    nullary main_c_269 (constantI S_ 32 0#32),
    unary main_c_269 main_v711 (broadcastInDim S409600 ![] bcast_S_S409600 : (⟨S_, .i32⟩ : BufTy).Contents (Elt F) → (⟨S409600, .i32⟩ : BufTy).Contents (Elt F)),
    binary main_v526 main_v711 main_v712 (cmpi .slt : (⟨S409600, .i32⟩ : BufTy).Contents (Elt F) → (⟨S409600, .i32⟩ : BufTy).Contents (Elt F) → (⟨S409600, .i1⟩ : BufTy).Contents (Elt F)),
    nullary main_c_270 (constantI S_ 32 2#32),
    unary main_c_270 main_v713 (broadcastInDim S409600 ![] bcast_S_S409600 : (⟨S_, .i32⟩ : BufTy).Contents (Elt F) → (⟨S409600, .i32⟩ : BufTy).Contents (Elt F)),
    binary main_v526 main_v713 main_v714 (addi : (⟨S409600, .i32⟩ : BufTy).Contents (Elt F) → (⟨S409600, .i32⟩ : BufTy).Contents (Elt F) → (⟨S409600, .i32⟩ : BufTy).Contents (Elt F)),
    ternary main_v712 main_v714 main_v526 main_v715 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_271 (constantI S_ 32 0#32),
    unary main_c_271 main_v716 (broadcastInDim S409600 ![] bcast_S_S409600 : (⟨S_, .i32⟩ : BufTy).Contents (Elt F) → (⟨S409600, .i32⟩ : BufTy).Contents (Elt F)),
    binary main_v709 main_v716 main_v717 (cmpi .slt : (⟨S409600, .i32⟩ : BufTy).Contents (Elt F) → (⟨S409600, .i32⟩ : BufTy).Contents (Elt F) → (⟨S409600, .i1⟩ : BufTy).Contents (Elt F)),
    nullary main_c_272 (constantI S_ 32 640#32),
    unary main_c_272 main_v718 (broadcastInDim S409600 ![] bcast_S_S409600 : (⟨S_, .i32⟩ : BufTy).Contents (Elt F) → (⟨S409600, .i32⟩ : BufTy).Contents (Elt F)),
    binary main_v709 main_v718 main_v719 (addi : (⟨S409600, .i32⟩ : BufTy).Contents (Elt F) → (⟨S409600, .i32⟩ : BufTy).Contents (Elt F) → (⟨S409600, .i32⟩ : BufTy).Contents (Elt F)),
    ternary main_v717 main_v719 main_v709 main_v720 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_273 (constantI S_ 32 0#32),
    unary main_c_273 main_v721 (broadcastInDim S409600 ![] bcast_S_S409600 : (⟨S_, .i32⟩ : BufTy).Contents (Elt F) → (⟨S409600, .i32⟩ : BufTy).Contents (Elt F)),
    binary main_v710 main_v721 main_v722 (cmpi .slt : (⟨S409600, .i32⟩ : BufTy).Contents (Elt F) → (⟨S409600, .i32⟩ : BufTy).Contents (Elt F) → (⟨S409600, .i1⟩ : BufTy).Contents (Elt F)),
    nullary main_c_274 (constantI S_ 32 640#32),
    unary main_c_274 main_v723 (broadcastInDim S409600 ![] bcast_S_S409600 : (⟨S_, .i32⟩ : BufTy).Contents (Elt F) → (⟨S409600, .i32⟩ : BufTy).Contents (Elt F)),
    binary main_v710 main_v723 main_v724 (addi : (⟨S409600, .i32⟩ : BufTy).Contents (Elt F) → (⟨S409600, .i32⟩ : BufTy).Contents (Elt F) → (⟨S409600, .i32⟩ : BufTy).Contents (Elt F)),
    ternary main_v722 main_v724 main_v710 main_v725 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v715 main_v726 (broadcastInDim S409600x1 ![0] bcast_S409600_S409600x1_0 : (⟨S409600, .i32⟩ : BufTy).Contents (Elt F) → (⟨S409600x1, .i32⟩ : BufTy).Contents (Elt F)),
    unary main_v720 main_v727 (broadcastInDim S409600x1 ![0] bcast_S409600_S409600x1_0 : (⟨S409600, .i32⟩ : BufTy).Contents (Elt F) → (⟨S409600x1, .i32⟩ : BufTy).Contents (Elt F)),
    unary main_v725 main_v728 (broadcastInDim S409600x1 ![0] bcast_S409600_S409600x1_0 : (⟨S409600, .i32⟩ : BufTy).Contents (Elt F) → (⟨S409600x1, .i32⟩ : BufTy).Contents (Elt F)),
    nary ![main_v726, main_v727, main_v728] main_v729 (fun u => concatenate S409600x3 1 [⟨S409600x1, u 0⟩, ⟨S409600x1, u 1⟩, ⟨S409600x1, u 2⟩] concatenates_S409600x1_S409600x1_S409600x1_S409600x3_d1),
    binary main_v27 main_v729 main_v730 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_275 (constantI S_ 32 0#32),
    unary main_c_275 main_v731 (broadcastInDim S409600 ![] bcast_S_S409600 : (⟨S_, .i32⟩ : BufTy).Contents (Elt F) → (⟨S409600, .i32⟩ : BufTy).Contents (Elt F)),
    binary main_v730 main_v731 main_v732 (cmpi .sge : (⟨S409600, .i32⟩ : BufTy).Contents (Elt F) → (⟨S409600, .i32⟩ : BufTy).Contents (Elt F) → (⟨S409600, .i1⟩ : BufTy).Contents (Elt F)),
    binary main_v708 main_v732 main_v733 (andi : (⟨S409600, .i1⟩ : BufTy).Contents (Elt F) → (⟨S409600, .i1⟩ : BufTy).Contents (Elt F) → (⟨S409600, .i1⟩ : BufTy).Contents (Elt F)),
    nullary main_c_276 (constantI S_ 32 0#32),
    unary main_c_276 main_call51_v0 (id : (⟨S_, .i32⟩ : BufTy).Contents (Elt F) → (⟨S_, .i32⟩ : BufTy).Contents (Elt F)),
    unary main_call51_v0 main_call51_v1 ((broadcastInDim S409600 ![] bcast_S_S409600) : (⟨S_, .i32⟩ : BufTy).Contents (Elt F) → (⟨S409600, .i32⟩ : BufTy).Contents (Elt F)),
    ternary main_v733 main_v730 main_call51_v1 main_v734 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_277 (constantI S_ 32 0#32),
    unary main_c_277 main_v735 (broadcastInDim S409600 ![] bcast_S_S409600 : (⟨S_, .i32⟩ : BufTy).Contents (Elt F) → (⟨S409600, .i32⟩ : BufTy).Contents (Elt F)),
    binary main_v734 main_v735 main_v736 (cmpi .slt : (⟨S409600, .i32⟩ : BufTy).Contents (Elt F) → (⟨S409600, .i32⟩ : BufTy).Contents (Elt F) → (⟨S409600, .i1⟩ : BufTy).Contents (Elt F)),
    nullary main_c_278 (constantI S_ 32 409600#32),
    unary main_c_278 main_v737 (broadcastInDim S409600 ![] bcast_S_S409600 : (⟨S_, .i32⟩ : BufTy).Contents (Elt F) → (⟨S409600, .i32⟩ : BufTy).Contents (Elt F)),
    binary main_v734 main_v737 main_v738 (addi : (⟨S409600, .i32⟩ : BufTy).Contents (Elt F) → (⟨S409600, .i32⟩ : BufTy).Contents (Elt F) → (⟨S409600, .i32⟩ : BufTy).Contents (Elt F)) ]

set_option maxRecDepth 8192 in
set_option maxHeartbeats 4000000 in
theorem main_part16_eq (c : Dev nD) : main_part16 (F := F) c = seq ops_p16 := by
  simp only [main_part16, ops_p16, fn_clip.body, fn_where.body, fn_where_0.body, fn_relu.body, seq, bind_assoc, pure_bind]
  rfl

set_option maxRecDepth 8192 in
theorem ops_p16_sub : (ops_p16 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩

set_option maxRecDepth 8192 in
theorem ops_p16_fresh : ∀ op ∈ (ops_p16 : List (HloOp τ sig (Elt F))), op.fresh = ∅ := by
  unfold ops_p16; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 1151 on hold before it. -/
structure Inv16_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v695 : V (Proc.devRef .tc main_v695) = val_main_v695 (F := F) x1
  main_v697 : V (Proc.devRef .tc main_v697) = val_main_v697 (F := F) x1
  main_v702 : V (Proc.devRef .tc main_v702) = val_main_v702 (F := F) x1

/-- What the buffers read from operation 1159 on hold before it. -/
structure Inv16_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v695 : V (Proc.devRef .tc main_v695) = val_main_v695 (F := F) x1
  main_v697 : V (Proc.devRef .tc main_v697) = val_main_v697 (F := F) x1
  main_v708 : V (Proc.devRef .tc main_v708) = val_main_v708 (F := F) x1

/-- What the buffers read from operation 1167 on hold before it. -/
structure Inv16_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v697 : V (Proc.devRef .tc main_v697) = val_main_v697 (F := F) x1
  main_v708 : V (Proc.devRef .tc main_v708) = val_main_v708 (F := F) x1
  main_v709 : V (Proc.devRef .tc main_v709) = val_main_v709 (F := F) x1

/-- What the buffers read from operation 1175 on hold before it. -/
structure Inv16_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v708 : V (Proc.devRef .tc main_v708) = val_main_v708 (F := F) x1
  main_v709 : V (Proc.devRef .tc main_v709) = val_main_v709 (F := F) x1
  main_v710 : V (Proc.devRef .tc main_v710) = val_main_v710 (F := F) x1

/-- What the buffers read from operation 1183 on hold before it. -/
structure Inv16_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v708 : V (Proc.devRef .tc main_v708) = val_main_v708 (F := F) x1
  main_v709 : V (Proc.devRef .tc main_v709) = val_main_v709 (F := F) x1
  main_v710 : V (Proc.devRef .tc main_v710) = val_main_v710 (F := F) x1
  main_v715 : V (Proc.devRef .tc main_v715) = val_main_v715 (F := F) x1
  main_c_271 : V (Proc.devRef .tc main_c_271) = val_main_c_271 (F := F)

/-- What the buffers read from operation 1191 on hold before it. -/
structure Inv16_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v708 : V (Proc.devRef .tc main_v708) = val_main_v708 (F := F) x1
  main_v710 : V (Proc.devRef .tc main_v710) = val_main_v710 (F := F) x1
  main_v715 : V (Proc.devRef .tc main_v715) = val_main_v715 (F := F) x1
  main_v720 : V (Proc.devRef .tc main_v720) = val_main_v720 (F := F) x1
  main_v721 : V (Proc.devRef .tc main_v721) = val_main_v721 (F := F)

/-- What the buffers read from operation 1199 on hold before it. -/
structure Inv16_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v708 : V (Proc.devRef .tc main_v708) = val_main_v708 (F := F) x1
  main_v726 : V (Proc.devRef .tc main_v726) = val_main_v726 (F := F) x1
  main_v727 : V (Proc.devRef .tc main_v727) = val_main_v727 (F := F) x1
  main_v728 : V (Proc.devRef .tc main_v728) = val_main_v728 (F := F) x1

/-- What the buffers read from operation 1207 on hold before it. -/
structure Inv16_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v730 : V (Proc.devRef .tc main_v730) = val_main_v730 (F := F) x1
  main_v733 : V (Proc.devRef .tc main_v733) = val_main_v733 (F := F) x1
  main_call51_v0 : V (Proc.devRef .tc main_call51_v0) = val_main_call51_v0 (F := F)

/-- Stretch 0 of window 16: @main's operations 1143 … 1150. -/
def ops_p16_0 : List (HloOp τ sig (Elt F)) :=
  [ binary main_v530 main_v696 main_v697 (addi : (⟨S409600, .i32⟩ : BufTy).Contents (Elt F) → (⟨S409600, .i32⟩ : BufTy).Contents (Elt F) → (⟨S409600, .i32⟩ : BufTy).Contents (Elt F)),
    nullary main_c_261 (constantI S_ 32 0#32),
    unary main_c_261 main_v698 (broadcastInDim S409600 ![] bcast_S_S409600 : (⟨S_, .i32⟩ : BufTy).Contents (Elt F) → (⟨S409600, .i32⟩ : BufTy).Contents (Elt F)),
    binary main_v695 main_v698 main_v699 (cmpi .sge : (⟨S409600, .i32⟩ : BufTy).Contents (Elt F) → (⟨S409600, .i32⟩ : BufTy).Contents (Elt F) → (⟨S409600, .i1⟩ : BufTy).Contents (Elt F)),
    nullary main_c_262 (constantI S_ 32 640#32),
    unary main_c_262 main_v700 (broadcastInDim S409600 ![] bcast_S_S409600 : (⟨S_, .i32⟩ : BufTy).Contents (Elt F) → (⟨S409600, .i32⟩ : BufTy).Contents (Elt F)),
    binary main_v695 main_v700 main_v701 (cmpi .slt : (⟨S409600, .i32⟩ : BufTy).Contents (Elt F) → (⟨S409600, .i32⟩ : BufTy).Contents (Elt F) → (⟨S409600, .i1⟩ : BufTy).Contents (Elt F)),
    binary main_v699 main_v701 main_v702 (andi : (⟨S409600, .i1⟩ : BufTy).Contents (Elt F) → (⟨S409600, .i1⟩ : BufTy).Contents (Elt F) → (⟨S409600, .i1⟩ : BufTy).Contents (Elt F)) ]
abbrev ops_p16_0_W : List (Ref sig .tc) := [main_v697, main_c_261, main_v698, main_v699, main_c_262, main_v700, main_v701, main_v702]
theorem ops_p16_0_writes : (ops_p16_0 : List (HloOp τ sig (Elt F))).Forall fun op => op.writes ⊆ (ops_p16_0_W.map (Proc.devRef (τ := τ) .tc)).toFinset := by
  simp only [ops_p16_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p16_0_keep (V : Valuation τ sig (Elt F)) (r : Ref sig .tc) (h : r ∉ ops_p16_0_W) :
    after ops_p16_0 V (Proc.devRef .tc r) = V (Proc.devRef .tc r) :=
  after_of_writes_sub ops_p16_0 _ ops_p16_0_writes h

set_option maxRecDepth 8192 in
set_option maxHeartbeats 1000000 in
theorem w16_0_main_v697 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16 V x0 x1 x2 x3 x4 x5 x6) :
    after ops_p16_0 V (Proc.devRef .tc main_v697) = val_main_v697 (F := F) x1 := by
  simp only [ops_p16_0]
  after_results_w
  simp only [h.main_v696, h.main_v530]
  rfl

set_option maxRecDepth 8192 in
set_option maxHeartbeats 1000000 in
theorem w16_0_main_v702 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16 V x0 x1 x2 x3 x4 x5 x6) :
    after ops_p16_0 V (Proc.devRef .tc main_v702) = val_main_v702 (F := F) x1 := by
  simp only [ops_p16_0]
  after_results_w
  simp only [h.main_v695]
  rfl

theorem step16_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16 V x0 x1 x2 x3 x4 x5 x6) : Inv16_1 (after ops_p16_0 V) x0 x1 x2 x3 x4 x5 x6 where
  main_arg0 := (ops_p16_0_keep V main_arg0 (by decide)).trans h.main_arg0
  main_arg1 := (ops_p16_0_keep V main_arg1 (by decide)).trans h.main_arg1
  main_arg2 := (ops_p16_0_keep V main_arg2 (by decide)).trans h.main_arg2
  main_arg3 := (ops_p16_0_keep V main_arg3 (by decide)).trans h.main_arg3
  main_arg4 := (ops_p16_0_keep V main_arg4 (by decide)).trans h.main_arg4
  main_arg5 := (ops_p16_0_keep V main_arg5 (by decide)).trans h.main_arg5
  main_arg6 := (ops_p16_0_keep V main_arg6 (by decide)).trans h.main_arg6
  main_v27 := (ops_p16_0_keep V main_v27 (by decide)).trans h.main_v27
  main_v524 := (ops_p16_0_keep V main_v524 (by decide)).trans h.main_v524
  main_v526 := (ops_p16_0_keep V main_v526 (by decide)).trans h.main_v526
  main_v528 := (ops_p16_0_keep V main_v528 (by decide)).trans h.main_v528
  main_v530 := (ops_p16_0_keep V main_v530 (by decide)).trans h.main_v530
  main_v693 := (ops_p16_0_keep V main_v693 (by decide)).trans h.main_v693
  main_v695 := (ops_p16_0_keep V main_v695 (by decide)).trans h.main_v695
  main_v697 := w16_0_main_v697 V x0 x1 x2 x3 x4 x5 x6 h
  main_v702 := w16_0_main_v702 V x0 x1 x2 x3 x4 x5 x6 h

/-- Stretch 1 of window 16: @main's operations 1151 … 1158. -/
def ops_p16_1 : List (HloOp τ sig (Elt F)) :=
  [ nullary main_c_263 (constantI S_ 32 0#32),
    unary main_c_263 main_v703 (broadcastInDim S409600 ![] bcast_S_S409600 : (⟨S_, .i32⟩ : BufTy).Contents (Elt F) → (⟨S409600, .i32⟩ : BufTy).Contents (Elt F)),
    binary main_v697 main_v703 main_v704 (cmpi .sge : (⟨S409600, .i32⟩ : BufTy).Contents (Elt F) → (⟨S409600, .i32⟩ : BufTy).Contents (Elt F) → (⟨S409600, .i1⟩ : BufTy).Contents (Elt F)),
    binary main_v702 main_v704 main_v705 (andi : (⟨S409600, .i1⟩ : BufTy).Contents (Elt F) → (⟨S409600, .i1⟩ : BufTy).Contents (Elt F) → (⟨S409600, .i1⟩ : BufTy).Contents (Elt F)),
    nullary main_c_264 (constantI S_ 32 640#32),
    unary main_c_264 main_v706 (broadcastInDim S409600 ![] bcast_S_S409600 : (⟨S_, .i32⟩ : BufTy).Contents (Elt F) → (⟨S409600, .i32⟩ : BufTy).Contents (Elt F)),
    binary main_v697 main_v706 main_v707 (cmpi .slt : (⟨S409600, .i32⟩ : BufTy).Contents (Elt F) → (⟨S409600, .i32⟩ : BufTy).Contents (Elt F) → (⟨S409600, .i1⟩ : BufTy).Contents (Elt F)),
    binary main_v705 main_v707 main_v708 (andi : (⟨S409600, .i1⟩ : BufTy).Contents (Elt F) → (⟨S409600, .i1⟩ : BufTy).Contents (Elt F) → (⟨S409600, .i1⟩ : BufTy).Contents (Elt F)) ]
abbrev ops_p16_1_W : List (Ref sig .tc) := [main_c_263, main_v703, main_v704, main_v705, main_c_264, main_v706, main_v707, main_v708]
theorem ops_p16_1_writes : (ops_p16_1 : List (HloOp τ sig (Elt F))).Forall fun op => op.writes ⊆ (ops_p16_1_W.map (Proc.devRef (τ := τ) .tc)).toFinset := by
  simp only [ops_p16_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p16_1_keep (V : Valuation τ sig (Elt F)) (r : Ref sig .tc) (h : r ∉ ops_p16_1_W) :
    after ops_p16_1 V (Proc.devRef .tc r) = V (Proc.devRef .tc r) :=
  after_of_writes_sub ops_p16_1 _ ops_p16_1_writes h

set_option maxRecDepth 8192 in
set_option maxHeartbeats 1000000 in
theorem w16_1_main_v708 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_1 V x0 x1 x2 x3 x4 x5 x6) :
    after ops_p16_1 V (Proc.devRef .tc main_v708) = val_main_v708 (F := F) x1 := by
  simp only [ops_p16_1]
  after_results_w
  simp only [h.main_v697, h.main_v702]
  rfl

theorem step16_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_1 V x0 x1 x2 x3 x4 x5 x6) : Inv16_2 (after ops_p16_1 V) x0 x1 x2 x3 x4 x5 x6 where
  main_arg0 := (ops_p16_1_keep V main_arg0 (by decide)).trans h.main_arg0
  main_arg1 := (ops_p16_1_keep V main_arg1 (by decide)).trans h.main_arg1
  main_arg2 := (ops_p16_1_keep V main_arg2 (by decide)).trans h.main_arg2
  main_arg3 := (ops_p16_1_keep V main_arg3 (by decide)).trans h.main_arg3
  main_arg4 := (ops_p16_1_keep V main_arg4 (by decide)).trans h.main_arg4
  main_arg5 := (ops_p16_1_keep V main_arg5 (by decide)).trans h.main_arg5
  main_arg6 := (ops_p16_1_keep V main_arg6 (by decide)).trans h.main_arg6
  main_v27 := (ops_p16_1_keep V main_v27 (by decide)).trans h.main_v27
  main_v524 := (ops_p16_1_keep V main_v524 (by decide)).trans h.main_v524
  main_v526 := (ops_p16_1_keep V main_v526 (by decide)).trans h.main_v526
  main_v528 := (ops_p16_1_keep V main_v528 (by decide)).trans h.main_v528
  main_v530 := (ops_p16_1_keep V main_v530 (by decide)).trans h.main_v530
  main_v693 := (ops_p16_1_keep V main_v693 (by decide)).trans h.main_v693
  main_v695 := (ops_p16_1_keep V main_v695 (by decide)).trans h.main_v695
  main_v697 := (ops_p16_1_keep V main_v697 (by decide)).trans h.main_v697
  main_v708 := w16_1_main_v708 V x0 x1 x2 x3 x4 x5 x6 h

/-- Stretch 2 of window 16: @main's operations 1159 … 1166. -/
def ops_p16_2 : List (HloOp τ sig (Elt F)) :=
  [ nullary main_c_265 (constantI S_ 32 0#32),
    nullary main_c_266 (constantI S_ 32 639#32),
    unary main_c_265 main_call49_v0 (id : (⟨S_, .i32⟩ : BufTy).Contents (Elt F) → (⟨S_, .i32⟩ : BufTy).Contents (Elt F)),
    unary main_call49_v0 main_call49_v1 ((broadcastInDim S409600 ![] bcast_S_S409600) : (⟨S_, .i32⟩ : BufTy).Contents (Elt F) → (⟨S409600, .i32⟩ : BufTy).Contents (Elt F)),
    binary main_call49_v1 main_v695 main_call49_v2 (maxsi : (⟨S409600, .i32⟩ : BufTy).Contents (Elt F) → (⟨S409600, .i32⟩ : BufTy).Contents (Elt F) → (⟨S409600, .i32⟩ : BufTy).Contents (Elt F)),
    unary main_c_266 main_call49_v3 (id : (⟨S_, .i32⟩ : BufTy).Contents (Elt F) → (⟨S_, .i32⟩ : BufTy).Contents (Elt F)),
    unary main_call49_v3 main_call49_v4 ((broadcastInDim S409600 ![] bcast_S_S409600) : (⟨S_, .i32⟩ : BufTy).Contents (Elt F) → (⟨S409600, .i32⟩ : BufTy).Contents (Elt F)),
    binary main_call49_v4 main_call49_v2 main_v709 (minsi : (⟨S409600, .i32⟩ : BufTy).Contents (Elt F) → (⟨S409600, .i32⟩ : BufTy).Contents (Elt F) → (⟨S409600, .i32⟩ : BufTy).Contents (Elt F)) ]
abbrev ops_p16_2_W : List (Ref sig .tc) := [main_c_265, main_c_266, main_call49_v0, main_call49_v1, main_call49_v2, main_call49_v3, main_call49_v4, main_v709]
theorem ops_p16_2_writes : (ops_p16_2 : List (HloOp τ sig (Elt F))).Forall fun op => op.writes ⊆ (ops_p16_2_W.map (Proc.devRef (τ := τ) .tc)).toFinset := by
  simp only [ops_p16_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p16_2_keep (V : Valuation τ sig (Elt F)) (r : Ref sig .tc) (h : r ∉ ops_p16_2_W) :
    after ops_p16_2 V (Proc.devRef .tc r) = V (Proc.devRef .tc r) :=
  after_of_writes_sub ops_p16_2 _ ops_p16_2_writes h

set_option maxRecDepth 8192 in
set_option maxHeartbeats 1000000 in
theorem w16_2_main_v709 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_2 V x0 x1 x2 x3 x4 x5 x6) :
    after ops_p16_2 V (Proc.devRef .tc main_v709) = val_main_v709 (F := F) x1 := by
  simp only [ops_p16_2]
  after_results_w
  simp only [h.main_v695]
  rfl

theorem step16_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_2 V x0 x1 x2 x3 x4 x5 x6) : Inv16_3 (after ops_p16_2 V) x0 x1 x2 x3 x4 x5 x6 where
  main_arg0 := (ops_p16_2_keep V main_arg0 (by decide)).trans h.main_arg0
  main_arg1 := (ops_p16_2_keep V main_arg1 (by decide)).trans h.main_arg1
  main_arg2 := (ops_p16_2_keep V main_arg2 (by decide)).trans h.main_arg2
  main_arg3 := (ops_p16_2_keep V main_arg3 (by decide)).trans h.main_arg3
  main_arg4 := (ops_p16_2_keep V main_arg4 (by decide)).trans h.main_arg4
  main_arg5 := (ops_p16_2_keep V main_arg5 (by decide)).trans h.main_arg5
  main_arg6 := (ops_p16_2_keep V main_arg6 (by decide)).trans h.main_arg6
  main_v27 := (ops_p16_2_keep V main_v27 (by decide)).trans h.main_v27
  main_v524 := (ops_p16_2_keep V main_v524 (by decide)).trans h.main_v524
  main_v526 := (ops_p16_2_keep V main_v526 (by decide)).trans h.main_v526
  main_v528 := (ops_p16_2_keep V main_v528 (by decide)).trans h.main_v528
  main_v530 := (ops_p16_2_keep V main_v530 (by decide)).trans h.main_v530
  main_v693 := (ops_p16_2_keep V main_v693 (by decide)).trans h.main_v693
  main_v697 := (ops_p16_2_keep V main_v697 (by decide)).trans h.main_v697
  main_v708 := (ops_p16_2_keep V main_v708 (by decide)).trans h.main_v708
  main_v709 := w16_2_main_v709 V x0 x1 x2 x3 x4 x5 x6 h

/-- Stretch 3 of window 16: @main's operations 1167 … 1174. -/
def ops_p16_3 : List (HloOp τ sig (Elt F)) :=
  [ nullary main_c_267 (constantI S_ 32 0#32),
    nullary main_c_268 (constantI S_ 32 639#32),
    unary main_c_267 main_call50_v0 (id : (⟨S_, .i32⟩ : BufTy).Contents (Elt F) → (⟨S_, .i32⟩ : BufTy).Contents (Elt F)),
    unary main_call50_v0 main_call50_v1 ((broadcastInDim S409600 ![] bcast_S_S409600) : (⟨S_, .i32⟩ : BufTy).Contents (Elt F) → (⟨S409600, .i32⟩ : BufTy).Contents (Elt F)),
    binary main_call50_v1 main_v697 main_call50_v2 (maxsi : (⟨S409600, .i32⟩ : BufTy).Contents (Elt F) → (⟨S409600, .i32⟩ : BufTy).Contents (Elt F) → (⟨S409600, .i32⟩ : BufTy).Contents (Elt F)),
    unary main_c_268 main_call50_v3 (id : (⟨S_, .i32⟩ : BufTy).Contents (Elt F) → (⟨S_, .i32⟩ : BufTy).Contents (Elt F)),
    unary main_call50_v3 main_call50_v4 ((broadcastInDim S409600 ![] bcast_S_S409600) : (⟨S_, .i32⟩ : BufTy).Contents (Elt F) → (⟨S409600, .i32⟩ : BufTy).Contents (Elt F)),
    binary main_call50_v4 main_call50_v2 main_v710 (minsi : (⟨S409600, .i32⟩ : BufTy).Contents (Elt F) → (⟨S409600, .i32⟩ : BufTy).Contents (Elt F) → (⟨S409600, .i32⟩ : BufTy).Contents (Elt F)) ]
abbrev ops_p16_3_W : List (Ref sig .tc) := [main_c_267, main_c_268, main_call50_v0, main_call50_v1, main_call50_v2, main_call50_v3, main_call50_v4, main_v710]
theorem ops_p16_3_writes : (ops_p16_3 : List (HloOp τ sig (Elt F))).Forall fun op => op.writes ⊆ (ops_p16_3_W.map (Proc.devRef (τ := τ) .tc)).toFinset := by
  simp only [ops_p16_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p16_3_keep (V : Valuation τ sig (Elt F)) (r : Ref sig .tc) (h : r ∉ ops_p16_3_W) :
    after ops_p16_3 V (Proc.devRef .tc r) = V (Proc.devRef .tc r) :=
  after_of_writes_sub ops_p16_3 _ ops_p16_3_writes h

set_option maxRecDepth 8192 in
set_option maxHeartbeats 1000000 in
theorem w16_3_main_v710 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_3 V x0 x1 x2 x3 x4 x5 x6) :
    after ops_p16_3 V (Proc.devRef .tc main_v710) = val_main_v710 (F := F) x1 := by
  simp only [ops_p16_3]
  after_results_w
  simp only [h.main_v697]
  rfl

theorem step16_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_3 V x0 x1 x2 x3 x4 x5 x6) : Inv16_4 (after ops_p16_3 V) x0 x1 x2 x3 x4 x5 x6 where
  main_arg0 := (ops_p16_3_keep V main_arg0 (by decide)).trans h.main_arg0
  main_arg1 := (ops_p16_3_keep V main_arg1 (by decide)).trans h.main_arg1
  main_arg2 := (ops_p16_3_keep V main_arg2 (by decide)).trans h.main_arg2
  main_arg3 := (ops_p16_3_keep V main_arg3 (by decide)).trans h.main_arg3
  main_arg4 := (ops_p16_3_keep V main_arg4 (by decide)).trans h.main_arg4
  main_arg5 := (ops_p16_3_keep V main_arg5 (by decide)).trans h.main_arg5
  main_arg6 := (ops_p16_3_keep V main_arg6 (by decide)).trans h.main_arg6
  main_v27 := (ops_p16_3_keep V main_v27 (by decide)).trans h.main_v27
  main_v524 := (ops_p16_3_keep V main_v524 (by decide)).trans h.main_v524
  main_v526 := (ops_p16_3_keep V main_v526 (by decide)).trans h.main_v526
  main_v528 := (ops_p16_3_keep V main_v528 (by decide)).trans h.main_v528
  main_v530 := (ops_p16_3_keep V main_v530 (by decide)).trans h.main_v530
  main_v693 := (ops_p16_3_keep V main_v693 (by decide)).trans h.main_v693
  main_v708 := (ops_p16_3_keep V main_v708 (by decide)).trans h.main_v708
  main_v709 := (ops_p16_3_keep V main_v709 (by decide)).trans h.main_v709
  main_v710 := w16_3_main_v710 V x0 x1 x2 x3 x4 x5 x6 h

/-- Stretch 4 of window 16: @main's operations 1175 … 1182. -/
def ops_p16_4 : List (HloOp τ sig (Elt F)) :=
  [ nullary main_c_269 (constantI S_ 32 0#32),
    unary main_c_269 main_v711 (broadcastInDim S409600 ![] bcast_S_S409600 : (⟨S_, .i32⟩ : BufTy).Contents (Elt F) → (⟨S409600, .i32⟩ : BufTy).Contents (Elt F)),
    binary main_v526 main_v711 main_v712 (cmpi .slt : (⟨S409600, .i32⟩ : BufTy).Contents (Elt F) → (⟨S409600, .i32⟩ : BufTy).Contents (Elt F) → (⟨S409600, .i1⟩ : BufTy).Contents (Elt F)),
    nullary main_c_270 (constantI S_ 32 2#32),
    unary main_c_270 main_v713 (broadcastInDim S409600 ![] bcast_S_S409600 : (⟨S_, .i32⟩ : BufTy).Contents (Elt F) → (⟨S409600, .i32⟩ : BufTy).Contents (Elt F)),
    binary main_v526 main_v713 main_v714 (addi : (⟨S409600, .i32⟩ : BufTy).Contents (Elt F) → (⟨S409600, .i32⟩ : BufTy).Contents (Elt F) → (⟨S409600, .i32⟩ : BufTy).Contents (Elt F)),
    ternary main_v712 main_v714 main_v526 main_v715 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_271 (constantI S_ 32 0#32) ]
abbrev ops_p16_4_W : List (Ref sig .tc) := [main_c_269, main_v711, main_v712, main_c_270, main_v713, main_v714, main_v715, main_c_271]
theorem ops_p16_4_writes : (ops_p16_4 : List (HloOp τ sig (Elt F))).Forall fun op => op.writes ⊆ (ops_p16_4_W.map (Proc.devRef (τ := τ) .tc)).toFinset := by
  simp only [ops_p16_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p16_4_keep (V : Valuation τ sig (Elt F)) (r : Ref sig .tc) (h : r ∉ ops_p16_4_W) :
    after ops_p16_4 V (Proc.devRef .tc r) = V (Proc.devRef .tc r) :=
  after_of_writes_sub ops_p16_4 _ ops_p16_4_writes h

set_option maxRecDepth 8192 in
set_option maxHeartbeats 1000000 in
theorem w16_4_main_v715 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_4 V x0 x1 x2 x3 x4 x5 x6) :
    after ops_p16_4 V (Proc.devRef .tc main_v715) = val_main_v715 (F := F) x1 := by
  simp only [ops_p16_4]
  after_results_w
  simp only [h.main_v526]
  rfl

set_option maxRecDepth 8192 in
set_option maxHeartbeats 1000000 in
theorem w16_4_main_c_271 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_4 V x0 x1 x2 x3 x4 x5 x6) :
    after ops_p16_4 V (Proc.devRef .tc main_c_271) = val_main_c_271 (F := F) := by
  simp only [ops_p16_4]
  after_results_w
  rfl

theorem step16_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_4 V x0 x1 x2 x3 x4 x5 x6) : Inv16_5 (after ops_p16_4 V) x0 x1 x2 x3 x4 x5 x6 where
  main_arg0 := (ops_p16_4_keep V main_arg0 (by decide)).trans h.main_arg0
  main_arg1 := (ops_p16_4_keep V main_arg1 (by decide)).trans h.main_arg1
  main_arg2 := (ops_p16_4_keep V main_arg2 (by decide)).trans h.main_arg2
  main_arg3 := (ops_p16_4_keep V main_arg3 (by decide)).trans h.main_arg3
  main_arg4 := (ops_p16_4_keep V main_arg4 (by decide)).trans h.main_arg4
  main_arg5 := (ops_p16_4_keep V main_arg5 (by decide)).trans h.main_arg5
  main_arg6 := (ops_p16_4_keep V main_arg6 (by decide)).trans h.main_arg6
  main_v27 := (ops_p16_4_keep V main_v27 (by decide)).trans h.main_v27
  main_v524 := (ops_p16_4_keep V main_v524 (by decide)).trans h.main_v524
  main_v526 := (ops_p16_4_keep V main_v526 (by decide)).trans h.main_v526
  main_v528 := (ops_p16_4_keep V main_v528 (by decide)).trans h.main_v528
  main_v530 := (ops_p16_4_keep V main_v530 (by decide)).trans h.main_v530
  main_v693 := (ops_p16_4_keep V main_v693 (by decide)).trans h.main_v693
  main_v708 := (ops_p16_4_keep V main_v708 (by decide)).trans h.main_v708
  main_v709 := (ops_p16_4_keep V main_v709 (by decide)).trans h.main_v709
  main_v710 := (ops_p16_4_keep V main_v710 (by decide)).trans h.main_v710
  main_v715 := w16_4_main_v715 V x0 x1 x2 x3 x4 x5 x6 h
  main_c_271 := w16_4_main_c_271 V x0 x1 x2 x3 x4 x5 x6 h

/-- Stretch 5 of window 16: @main's operations 1183 … 1190. -/
def ops_p16_5 : List (HloOp τ sig (Elt F)) :=
  [ unary main_c_271 main_v716 (broadcastInDim S409600 ![] bcast_S_S409600 : (⟨S_, .i32⟩ : BufTy).Contents (Elt F) → (⟨S409600, .i32⟩ : BufTy).Contents (Elt F)),
    binary main_v709 main_v716 main_v717 (cmpi .slt : (⟨S409600, .i32⟩ : BufTy).Contents (Elt F) → (⟨S409600, .i32⟩ : BufTy).Contents (Elt F) → (⟨S409600, .i1⟩ : BufTy).Contents (Elt F)),
    nullary main_c_272 (constantI S_ 32 640#32),
    unary main_c_272 main_v718 (broadcastInDim S409600 ![] bcast_S_S409600 : (⟨S_, .i32⟩ : BufTy).Contents (Elt F) → (⟨S409600, .i32⟩ : BufTy).Contents (Elt F)),
    binary main_v709 main_v718 main_v719 (addi : (⟨S409600, .i32⟩ : BufTy).Contents (Elt F) → (⟨S409600, .i32⟩ : BufTy).Contents (Elt F) → (⟨S409600, .i32⟩ : BufTy).Contents (Elt F)),
    ternary main_v717 main_v719 main_v709 main_v720 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_273 (constantI S_ 32 0#32),
    unary main_c_273 main_v721 (broadcastInDim S409600 ![] bcast_S_S409600 : (⟨S_, .i32⟩ : BufTy).Contents (Elt F) → (⟨S409600, .i32⟩ : BufTy).Contents (Elt F)) ]
abbrev ops_p16_5_W : List (Ref sig .tc) := [main_v716, main_v717, main_c_272, main_v718, main_v719, main_v720, main_c_273, main_v721]
theorem ops_p16_5_writes : (ops_p16_5 : List (HloOp τ sig (Elt F))).Forall fun op => op.writes ⊆ (ops_p16_5_W.map (Proc.devRef (τ := τ) .tc)).toFinset := by
  simp only [ops_p16_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p16_5_keep (V : Valuation τ sig (Elt F)) (r : Ref sig .tc) (h : r ∉ ops_p16_5_W) :
    after ops_p16_5 V (Proc.devRef .tc r) = V (Proc.devRef .tc r) :=
  after_of_writes_sub ops_p16_5 _ ops_p16_5_writes h

set_option maxRecDepth 8192 in
set_option maxHeartbeats 1000000 in
theorem w16_5_main_v720 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_5 V x0 x1 x2 x3 x4 x5 x6) :
    after ops_p16_5 V (Proc.devRef .tc main_v720) = val_main_v720 (F := F) x1 := by
  simp only [ops_p16_5]
  after_results_w
  simp only [h.main_v709, h.main_c_271]
  rfl

set_option maxRecDepth 8192 in
set_option maxHeartbeats 1000000 in
theorem w16_5_main_v721 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_5 V x0 x1 x2 x3 x4 x5 x6) :
    after ops_p16_5 V (Proc.devRef .tc main_v721) = val_main_v721 (F := F) := by
  simp only [ops_p16_5]
  after_results_w
  rfl

theorem step16_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_5 V x0 x1 x2 x3 x4 x5 x6) : Inv16_6 (after ops_p16_5 V) x0 x1 x2 x3 x4 x5 x6 where
  main_arg0 := (ops_p16_5_keep V main_arg0 (by decide)).trans h.main_arg0
  main_arg1 := (ops_p16_5_keep V main_arg1 (by decide)).trans h.main_arg1
  main_arg2 := (ops_p16_5_keep V main_arg2 (by decide)).trans h.main_arg2
  main_arg3 := (ops_p16_5_keep V main_arg3 (by decide)).trans h.main_arg3
  main_arg4 := (ops_p16_5_keep V main_arg4 (by decide)).trans h.main_arg4
  main_arg5 := (ops_p16_5_keep V main_arg5 (by decide)).trans h.main_arg5
  main_arg6 := (ops_p16_5_keep V main_arg6 (by decide)).trans h.main_arg6
  main_v27 := (ops_p16_5_keep V main_v27 (by decide)).trans h.main_v27
  main_v524 := (ops_p16_5_keep V main_v524 (by decide)).trans h.main_v524
  main_v526 := (ops_p16_5_keep V main_v526 (by decide)).trans h.main_v526
  main_v528 := (ops_p16_5_keep V main_v528 (by decide)).trans h.main_v528
  main_v530 := (ops_p16_5_keep V main_v530 (by decide)).trans h.main_v530
  main_v693 := (ops_p16_5_keep V main_v693 (by decide)).trans h.main_v693
  main_v708 := (ops_p16_5_keep V main_v708 (by decide)).trans h.main_v708
  main_v710 := (ops_p16_5_keep V main_v710 (by decide)).trans h.main_v710
  main_v715 := (ops_p16_5_keep V main_v715 (by decide)).trans h.main_v715
  main_v720 := w16_5_main_v720 V x0 x1 x2 x3 x4 x5 x6 h
  main_v721 := w16_5_main_v721 V x0 x1 x2 x3 x4 x5 x6 h

/-- Stretch 6 of window 16: @main's operations 1191 … 1198. -/
def ops_p16_6 : List (HloOp τ sig (Elt F)) :=
  [ binary main_v710 main_v721 main_v722 (cmpi .slt : (⟨S409600, .i32⟩ : BufTy).Contents (Elt F) → (⟨S409600, .i32⟩ : BufTy).Contents (Elt F) → (⟨S409600, .i1⟩ : BufTy).Contents (Elt F)),
    nullary main_c_274 (constantI S_ 32 640#32),
    unary main_c_274 main_v723 (broadcastInDim S409600 ![] bcast_S_S409600 : (⟨S_, .i32⟩ : BufTy).Contents (Elt F) → (⟨S409600, .i32⟩ : BufTy).Contents (Elt F)),
    binary main_v710 main_v723 main_v724 (addi : (⟨S409600, .i32⟩ : BufTy).Contents (Elt F) → (⟨S409600, .i32⟩ : BufTy).Contents (Elt F) → (⟨S409600, .i32⟩ : BufTy).Contents (Elt F)),
    ternary main_v722 main_v724 main_v710 main_v725 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v715 main_v726 (broadcastInDim S409600x1 ![0] bcast_S409600_S409600x1_0 : (⟨S409600, .i32⟩ : BufTy).Contents (Elt F) → (⟨S409600x1, .i32⟩ : BufTy).Contents (Elt F)),
    unary main_v720 main_v727 (broadcastInDim S409600x1 ![0] bcast_S409600_S409600x1_0 : (⟨S409600, .i32⟩ : BufTy).Contents (Elt F) → (⟨S409600x1, .i32⟩ : BufTy).Contents (Elt F)),
    unary main_v725 main_v728 (broadcastInDim S409600x1 ![0] bcast_S409600_S409600x1_0 : (⟨S409600, .i32⟩ : BufTy).Contents (Elt F) → (⟨S409600x1, .i32⟩ : BufTy).Contents (Elt F)) ]
abbrev ops_p16_6_W : List (Ref sig .tc) := [main_v722, main_c_274, main_v723, main_v724, main_v725, main_v726, main_v727, main_v728]
theorem ops_p16_6_writes : (ops_p16_6 : List (HloOp τ sig (Elt F))).Forall fun op => op.writes ⊆ (ops_p16_6_W.map (Proc.devRef (τ := τ) .tc)).toFinset := by
  simp only [ops_p16_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p16_6_keep (V : Valuation τ sig (Elt F)) (r : Ref sig .tc) (h : r ∉ ops_p16_6_W) :
    after ops_p16_6 V (Proc.devRef .tc r) = V (Proc.devRef .tc r) :=
  after_of_writes_sub ops_p16_6 _ ops_p16_6_writes h

set_option maxRecDepth 8192 in
set_option maxHeartbeats 1000000 in
theorem w16_6_main_v726 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_6 V x0 x1 x2 x3 x4 x5 x6) :
    after ops_p16_6 V (Proc.devRef .tc main_v726) = val_main_v726 (F := F) x1 := by
  simp only [ops_p16_6]
  after_results_w
  simp only [h.main_v715]
  rfl

set_option maxRecDepth 8192 in
set_option maxHeartbeats 1000000 in
theorem w16_6_main_v727 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_6 V x0 x1 x2 x3 x4 x5 x6) :
    after ops_p16_6 V (Proc.devRef .tc main_v727) = val_main_v727 (F := F) x1 := by
  simp only [ops_p16_6]
  after_results_w
  simp only [h.main_v720]
  rfl

set_option maxRecDepth 8192 in
set_option maxHeartbeats 1000000 in
theorem w16_6_main_v728 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_6 V x0 x1 x2 x3 x4 x5 x6) :
    after ops_p16_6 V (Proc.devRef .tc main_v728) = val_main_v728 (F := F) x1 := by
  simp only [ops_p16_6]
  after_results_w
  simp only [h.main_v710, h.main_v721]
  rfl

theorem step16_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_6 V x0 x1 x2 x3 x4 x5 x6) : Inv16_7 (after ops_p16_6 V) x0 x1 x2 x3 x4 x5 x6 where
  main_arg0 := (ops_p16_6_keep V main_arg0 (by decide)).trans h.main_arg0
  main_arg1 := (ops_p16_6_keep V main_arg1 (by decide)).trans h.main_arg1
  main_arg2 := (ops_p16_6_keep V main_arg2 (by decide)).trans h.main_arg2
  main_arg3 := (ops_p16_6_keep V main_arg3 (by decide)).trans h.main_arg3
  main_arg4 := (ops_p16_6_keep V main_arg4 (by decide)).trans h.main_arg4
  main_arg5 := (ops_p16_6_keep V main_arg5 (by decide)).trans h.main_arg5
  main_arg6 := (ops_p16_6_keep V main_arg6 (by decide)).trans h.main_arg6
  main_v27 := (ops_p16_6_keep V main_v27 (by decide)).trans h.main_v27
  main_v524 := (ops_p16_6_keep V main_v524 (by decide)).trans h.main_v524
  main_v526 := (ops_p16_6_keep V main_v526 (by decide)).trans h.main_v526
  main_v528 := (ops_p16_6_keep V main_v528 (by decide)).trans h.main_v528
  main_v530 := (ops_p16_6_keep V main_v530 (by decide)).trans h.main_v530
  main_v693 := (ops_p16_6_keep V main_v693 (by decide)).trans h.main_v693
  main_v708 := (ops_p16_6_keep V main_v708 (by decide)).trans h.main_v708
  main_v726 := w16_6_main_v726 V x0 x1 x2 x3 x4 x5 x6 h
  main_v727 := w16_6_main_v727 V x0 x1 x2 x3 x4 x5 x6 h
  main_v728 := w16_6_main_v728 V x0 x1 x2 x3 x4 x5 x6 h

/-- Stretch 7 of window 16: @main's operations 1199 … 1206. -/
def ops_p16_7 : List (HloOp τ sig (Elt F)) :=
  [ nary ![main_v726, main_v727, main_v728] main_v729 (fun u => concatenate S409600x3 1 [⟨S409600x1, u 0⟩, ⟨S409600x1, u 1⟩, ⟨S409600x1, u 2⟩] concatenates_S409600x1_S409600x1_S409600x1_S409600x3_d1),
    binary main_v27 main_v729 main_v730 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_275 (constantI S_ 32 0#32),
    unary main_c_275 main_v731 (broadcastInDim S409600 ![] bcast_S_S409600 : (⟨S_, .i32⟩ : BufTy).Contents (Elt F) → (⟨S409600, .i32⟩ : BufTy).Contents (Elt F)),
    binary main_v730 main_v731 main_v732 (cmpi .sge : (⟨S409600, .i32⟩ : BufTy).Contents (Elt F) → (⟨S409600, .i32⟩ : BufTy).Contents (Elt F) → (⟨S409600, .i1⟩ : BufTy).Contents (Elt F)),
    binary main_v708 main_v732 main_v733 (andi : (⟨S409600, .i1⟩ : BufTy).Contents (Elt F) → (⟨S409600, .i1⟩ : BufTy).Contents (Elt F) → (⟨S409600, .i1⟩ : BufTy).Contents (Elt F)),
    nullary main_c_276 (constantI S_ 32 0#32),
    unary main_c_276 main_call51_v0 (id : (⟨S_, .i32⟩ : BufTy).Contents (Elt F) → (⟨S_, .i32⟩ : BufTy).Contents (Elt F)) ]
abbrev ops_p16_7_W : List (Ref sig .tc) := [main_v729, main_v730, main_c_275, main_v731, main_v732, main_v733, main_c_276, main_call51_v0]
theorem ops_p16_7_writes : (ops_p16_7 : List (HloOp τ sig (Elt F))).Forall fun op => op.writes ⊆ (ops_p16_7_W.map (Proc.devRef (τ := τ) .tc)).toFinset := by
  simp only [ops_p16_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p16_7_keep (V : Valuation τ sig (Elt F)) (r : Ref sig .tc) (h : r ∉ ops_p16_7_W) :
    after ops_p16_7 V (Proc.devRef .tc r) = V (Proc.devRef .tc r) :=
  after_of_writes_sub ops_p16_7 _ ops_p16_7_writes h

set_option maxRecDepth 8192 in
set_option maxHeartbeats 1000000 in
theorem w16_7_main_v730 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_7 V x0 x1 x2 x3 x4 x5 x6) :
    after ops_p16_7 V (Proc.devRef .tc main_v730) = val_main_v730 (F := F) x1 := by
  simp only [ops_p16_7]
  after_results_w
  simp only [h.main_v728, h.main_v727, h.main_v726, h.main_v27]
  rfl

set_option maxRecDepth 8192 in
set_option maxHeartbeats 1000000 in
theorem w16_7_main_v733 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_7 V x0 x1 x2 x3 x4 x5 x6) :
    after ops_p16_7 V (Proc.devRef .tc main_v733) = val_main_v733 (F := F) x1 := by
  simp only [ops_p16_7]
  after_results_w
  simp only [h.main_v728, h.main_v727, h.main_v726, h.main_v27, h.main_v708]
  rfl

set_option maxRecDepth 8192 in
set_option maxHeartbeats 1000000 in
theorem w16_7_main_call51_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_7 V x0 x1 x2 x3 x4 x5 x6) :
    after ops_p16_7 V (Proc.devRef .tc main_call51_v0) = val_main_call51_v0 (F := F) := by
  simp only [ops_p16_7]
  after_results_w
  rfl

theorem step16_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_7 V x0 x1 x2 x3 x4 x5 x6) : Inv16_8 (after ops_p16_7 V) x0 x1 x2 x3 x4 x5 x6 where
  main_arg0 := (ops_p16_7_keep V main_arg0 (by decide)).trans h.main_arg0
  main_arg1 := (ops_p16_7_keep V main_arg1 (by decide)).trans h.main_arg1
  main_arg2 := (ops_p16_7_keep V main_arg2 (by decide)).trans h.main_arg2
  main_arg3 := (ops_p16_7_keep V main_arg3 (by decide)).trans h.main_arg3
  main_arg4 := (ops_p16_7_keep V main_arg4 (by decide)).trans h.main_arg4
  main_arg5 := (ops_p16_7_keep V main_arg5 (by decide)).trans h.main_arg5
  main_arg6 := (ops_p16_7_keep V main_arg6 (by decide)).trans h.main_arg6
  main_v27 := (ops_p16_7_keep V main_v27 (by decide)).trans h.main_v27
  main_v524 := (ops_p16_7_keep V main_v524 (by decide)).trans h.main_v524
  main_v526 := (ops_p16_7_keep V main_v526 (by decide)).trans h.main_v526
  main_v528 := (ops_p16_7_keep V main_v528 (by decide)).trans h.main_v528
  main_v530 := (ops_p16_7_keep V main_v530 (by decide)).trans h.main_v530
  main_v693 := (ops_p16_7_keep V main_v693 (by decide)).trans h.main_v693
  main_v730 := w16_7_main_v730 V x0 x1 x2 x3 x4 x5 x6 h
  main_v733 := w16_7_main_v733 V x0 x1 x2 x3 x4 x5 x6 h
  main_call51_v0 := w16_7_main_call51_v0 V x0 x1 x2 x3 x4 x5 x6 h

/-- Stretch 8 of window 16: @main's operations 1207 … 1214. -/
def ops_p16_8 : List (HloOp τ sig (Elt F)) :=
  [ unary main_call51_v0 main_call51_v1 ((broadcastInDim S409600 ![] bcast_S_S409600) : (⟨S_, .i32⟩ : BufTy).Contents (Elt F) → (⟨S409600, .i32⟩ : BufTy).Contents (Elt F)),
    ternary main_v733 main_v730 main_call51_v1 main_v734 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_277 (constantI S_ 32 0#32),
    unary main_c_277 main_v735 (broadcastInDim S409600 ![] bcast_S_S409600 : (⟨S_, .i32⟩ : BufTy).Contents (Elt F) → (⟨S409600, .i32⟩ : BufTy).Contents (Elt F)),
    binary main_v734 main_v735 main_v736 (cmpi .slt : (⟨S409600, .i32⟩ : BufTy).Contents (Elt F) → (⟨S409600, .i32⟩ : BufTy).Contents (Elt F) → (⟨S409600, .i1⟩ : BufTy).Contents (Elt F)),
    nullary main_c_278 (constantI S_ 32 409600#32),
    unary main_c_278 main_v737 (broadcastInDim S409600 ![] bcast_S_S409600 : (⟨S_, .i32⟩ : BufTy).Contents (Elt F) → (⟨S409600, .i32⟩ : BufTy).Contents (Elt F)),
    binary main_v734 main_v737 main_v738 (addi : (⟨S409600, .i32⟩ : BufTy).Contents (Elt F) → (⟨S409600, .i32⟩ : BufTy).Contents (Elt F) → (⟨S409600, .i32⟩ : BufTy).Contents (Elt F)) ]
abbrev ops_p16_8_W : List (Ref sig .tc) := [main_call51_v1, main_v734, main_c_277, main_v735, main_v736, main_c_278, main_v737, main_v738]
theorem ops_p16_8_writes : (ops_p16_8 : List (HloOp τ sig (Elt F))).Forall fun op => op.writes ⊆ (ops_p16_8_W.map (Proc.devRef (τ := τ) .tc)).toFinset := by
  simp only [ops_p16_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p16_8_keep (V : Valuation τ sig (Elt F)) (r : Ref sig .tc) (h : r ∉ ops_p16_8_W) :
    after ops_p16_8 V (Proc.devRef .tc r) = V (Proc.devRef .tc r) :=
  after_of_writes_sub ops_p16_8 _ ops_p16_8_writes h

set_option maxRecDepth 8192 in
set_option maxHeartbeats 1000000 in
theorem w16_8_main_v734 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_8 V x0 x1 x2 x3 x4 x5 x6) :
    after ops_p16_8 V (Proc.devRef .tc main_v734) = val_main_v734 (F := F) x1 := by
  simp only [ops_p16_8]
  after_results_w
  simp only [h.main_call51_v0, h.main_v730, h.main_v733]
  rfl

set_option maxRecDepth 8192 in
set_option maxHeartbeats 1000000 in
theorem w16_8_main_v736 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_8 V x0 x1 x2 x3 x4 x5 x6) :
    after ops_p16_8 V (Proc.devRef .tc main_v736) = val_main_v736 (F := F) x1 := by
  simp only [ops_p16_8]
  after_results_w
  simp only [h.main_call51_v0, h.main_v730, h.main_v733]
  rfl

set_option maxRecDepth 8192 in
set_option maxHeartbeats 1000000 in
theorem w16_8_main_v738 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_8 V x0 x1 x2 x3 x4 x5 x6) :
    after ops_p16_8 V (Proc.devRef .tc main_v738) = val_main_v738 (F := F) x1 := by
  simp only [ops_p16_8]
  after_results_w
  simp only [h.main_call51_v0, h.main_v730, h.main_v733]
  rfl

theorem step16_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16_8 V x0 x1 x2 x3 x4 x5 x6) : Inv17 (after ops_p16_8 V) x0 x1 x2 x3 x4 x5 x6 where
  main_arg0 := (ops_p16_8_keep V main_arg0 (by decide)).trans h.main_arg0
  main_arg1 := (ops_p16_8_keep V main_arg1 (by decide)).trans h.main_arg1
  main_arg2 := (ops_p16_8_keep V main_arg2 (by decide)).trans h.main_arg2
  main_arg3 := (ops_p16_8_keep V main_arg3 (by decide)).trans h.main_arg3
  main_arg4 := (ops_p16_8_keep V main_arg4 (by decide)).trans h.main_arg4
  main_arg5 := (ops_p16_8_keep V main_arg5 (by decide)).trans h.main_arg5
  main_arg6 := (ops_p16_8_keep V main_arg6 (by decide)).trans h.main_arg6
  main_v27 := (ops_p16_8_keep V main_v27 (by decide)).trans h.main_v27
  main_v524 := (ops_p16_8_keep V main_v524 (by decide)).trans h.main_v524
  main_v526 := (ops_p16_8_keep V main_v526 (by decide)).trans h.main_v526
  main_v528 := (ops_p16_8_keep V main_v528 (by decide)).trans h.main_v528
  main_v530 := (ops_p16_8_keep V main_v530 (by decide)).trans h.main_v530
  main_v693 := (ops_p16_8_keep V main_v693 (by decide)).trans h.main_v693
  main_v733 := (ops_p16_8_keep V main_v733 (by decide)).trans h.main_v733
  main_v734 := w16_8_main_v734 V x0 x1 x2 x3 x4 x5 x6 h
  main_v736 := w16_8_main_v736 V x0 x1 x2 x3 x4 x5 x6 h
  main_v738 := w16_8_main_v738 V x0 x1 x2 x3 x4 x5 x6 h

set_option maxRecDepth 8192 in
theorem ops_p16_split : (ops_p16 : List (HloOp τ sig (Elt F))) = ops_p16_0 ++ (ops_p16_1 ++ (ops_p16_2 ++ (ops_p16_3 ++ (ops_p16_4 ++ (ops_p16_5 ++ (ops_p16_6 ++ (ops_p16_7 ++ (ops_p16_8)))))))) := rfl

/-- Window 16 carries the staged reading from boundary 16 to boundary 17. -/
theorem step16 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv16 V x0 x1 x2 x3 x4 x5 x6) : Inv17 (after ops_p16 V) x0 x1 x2 x3 x4 x5 x6 := by
  rw [ops_p16_split]; simp only [after_app]
  exact step16_8 _ x0 x1 x2 x3 x4 x5 x6 (step16_7 _ x0 x1 x2 x3 x4 x5 x6 (step16_6 _ x0 x1 x2 x3 x4 x5 x6 (step16_5 _ x0 x1 x2 x3 x4 x5 x6 (step16_4 _ x0 x1 x2 x3 x4 x5 x6 (step16_3 _ x0 x1 x2 x3 x4 x5 x6 (step16_2 _ x0 x1 x2 x3 x4 x5 x6 (step16_1 _ x0 x1 x2 x3 x4 x5 x6 (step16_0 V x0 x1 x2 x3 x4 x5 x6 h))))))))

end Cert.ReferenceIdeal.Hand

end
-- ==== Proof.Ref.W17.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 17 of @main: its operations 1215 … 1287 of 1688, in order. -/
def ops_p17 : List (HloOp τ sig (Elt F)) :=
  [ ternary main_v736 main_v738 main_v734 main_v739 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v739 main_v740 (broadcastInDim S409600x1 ![0] bcast_S409600_S409600x1_0 : (⟨S409600, .i32⟩ : BufTy).Contents (Elt F) → (⟨S409600x1, .i32⟩ : BufTy).Contents (Elt F)),
    binary main_v524 main_v740 main_v741 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v733 main_v742 (broadcastInDim S409600x1 ![0] bcast_S409600_S409600x1_0 : (⟨S409600, .i1⟩ : BufTy).Contents (Elt F) → (⟨S409600x1, .i1⟩ : BufTy).Contents (Elt F)),
    nullary main_cst_279 (constant S_ .f32 0x00000000#32),
    unary main_cst_279 main_call52_v0 (id : (⟨S_, .f32⟩ : BufTy).Contents (Elt F) → (⟨S_, .f32⟩ : BufTy).Contents (Elt F)),
    unary main_v742 main_call52_v1 ((broadcastInDim S409600x64 ![0, 1] bcast_S409600x1_S409600x64_0_1) : (⟨S409600x1, .i1⟩ : BufTy).Contents (Elt F) → (⟨S409600x64, .i1⟩ : BufTy).Contents (Elt F)),
    unary main_call52_v0 main_call52_v2 ((broadcastInDim S409600x64 ![] bcast_S_S409600x64) : (⟨S_, .f32⟩ : BufTy).Contents (Elt F) → (⟨S409600x64, .f32⟩ : BufTy).Contents (Elt F)),
    ternary main_call52_v1 main_v741 main_call52_v2 main_v743 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v744 ((extractStridedSlice S1x1x64x64 ![1, 0, 0, 0] · slices_S3x3x64x64_S1x1x64x64_1_0_0_0) : (⟨S3x3x64x64, .f32⟩ : BufTy).Contents (Elt F) → (⟨S1x1x64x64, .f32⟩ : BufTy).Contents (Elt F)),
    reshape main_v744 main_v745 rfl shapeCasts_S1x1x64x64_S64x64,
    binary main_v743 main_v745 main_v746 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v693 main_v746 main_v747 (addf : (⟨S409600x64, .f32⟩ : BufTy).Contents (Elt F) → (⟨S409600x64, .f32⟩ : BufTy).Contents (Elt F) → (⟨S409600x64, .f32⟩ : BufTy).Contents (Elt F)),
    nullary main_c_280 (constantI S_ 32 0#32),
    unary main_c_280 main_v748 (broadcastInDim S409600 ![] bcast_S_S409600 : (⟨S_, .i32⟩ : BufTy).Contents (Elt F) → (⟨S409600, .i32⟩ : BufTy).Contents (Elt F)),
    binary main_v528 main_v748 main_v749 (addi : (⟨S409600, .i32⟩ : BufTy).Contents (Elt F) → (⟨S409600, .i32⟩ : BufTy).Contents (Elt F) → (⟨S409600, .i32⟩ : BufTy).Contents (Elt F)),
    nullary main_c_281 (constantI S_ 32 0#32),
    unary main_c_281 main_v750 (broadcastInDim S409600 ![] bcast_S_S409600 : (⟨S_, .i32⟩ : BufTy).Contents (Elt F) → (⟨S409600, .i32⟩ : BufTy).Contents (Elt F)),
    binary main_v530 main_v750 main_v751 (addi : (⟨S409600, .i32⟩ : BufTy).Contents (Elt F) → (⟨S409600, .i32⟩ : BufTy).Contents (Elt F) → (⟨S409600, .i32⟩ : BufTy).Contents (Elt F)),
    nullary main_c_282 (constantI S_ 32 0#32),
    unary main_c_282 main_v752 (broadcastInDim S409600 ![] bcast_S_S409600 : (⟨S_, .i32⟩ : BufTy).Contents (Elt F) → (⟨S409600, .i32⟩ : BufTy).Contents (Elt F)),
    binary main_v749 main_v752 main_v753 (cmpi .sge : (⟨S409600, .i32⟩ : BufTy).Contents (Elt F) → (⟨S409600, .i32⟩ : BufTy).Contents (Elt F) → (⟨S409600, .i1⟩ : BufTy).Contents (Elt F)),
    nullary main_c_283 (constantI S_ 32 640#32),
    unary main_c_283 main_v754 (broadcastInDim S409600 ![] bcast_S_S409600 : (⟨S_, .i32⟩ : BufTy).Contents (Elt F) → (⟨S409600, .i32⟩ : BufTy).Contents (Elt F)),
    binary main_v749 main_v754 main_v755 (cmpi .slt : (⟨S409600, .i32⟩ : BufTy).Contents (Elt F) → (⟨S409600, .i32⟩ : BufTy).Contents (Elt F) → (⟨S409600, .i1⟩ : BufTy).Contents (Elt F)),
    binary main_v753 main_v755 main_v756 (andi : (⟨S409600, .i1⟩ : BufTy).Contents (Elt F) → (⟨S409600, .i1⟩ : BufTy).Contents (Elt F) → (⟨S409600, .i1⟩ : BufTy).Contents (Elt F)),
    nullary main_c_284 (constantI S_ 32 0#32),
    unary main_c_284 main_v757 (broadcastInDim S409600 ![] bcast_S_S409600 : (⟨S_, .i32⟩ : BufTy).Contents (Elt F) → (⟨S409600, .i32⟩ : BufTy).Contents (Elt F)),
    binary main_v751 main_v757 main_v758 (cmpi .sge : (⟨S409600, .i32⟩ : BufTy).Contents (Elt F) → (⟨S409600, .i32⟩ : BufTy).Contents (Elt F) → (⟨S409600, .i1⟩ : BufTy).Contents (Elt F)),
    binary main_v756 main_v758 main_v759 (andi : (⟨S409600, .i1⟩ : BufTy).Contents (Elt F) → (⟨S409600, .i1⟩ : BufTy).Contents (Elt F) → (⟨S409600, .i1⟩ : BufTy).Contents (Elt F)),
    nullary main_c_285 (constantI S_ 32 640#32),
    unary main_c_285 main_v760 (broadcastInDim S409600 ![] bcast_S_S409600 : (⟨S_, .i32⟩ : BufTy).Contents (Elt F) → (⟨S409600, .i32⟩ : BufTy).Contents (Elt F)),
    binary main_v751 main_v760 main_v761 (cmpi .slt : (⟨S409600, .i32⟩ : BufTy).Contents (Elt F) → (⟨S409600, .i32⟩ : BufTy).Contents (Elt F) → (⟨S409600, .i1⟩ : BufTy).Contents (Elt F)),
    binary main_v759 main_v761 main_v762 (andi : (⟨S409600, .i1⟩ : BufTy).Contents (Elt F) → (⟨S409600, .i1⟩ : BufTy).Contents (Elt F) → (⟨S409600, .i1⟩ : BufTy).Contents (Elt F)),
    nullary main_c_286 (constantI S_ 32 0#32),
    nullary main_c_287 (constantI S_ 32 639#32),
    unary main_c_286 main_call53_v0 (id : (⟨S_, .i32⟩ : BufTy).Contents (Elt F) → (⟨S_, .i32⟩ : BufTy).Contents (Elt F)),
    unary main_call53_v0 main_call53_v1 ((broadcastInDim S409600 ![] bcast_S_S409600) : (⟨S_, .i32⟩ : BufTy).Contents (Elt F) → (⟨S409600, .i32⟩ : BufTy).Contents (Elt F)),
    binary main_call53_v1 main_v749 main_call53_v2 (maxsi : (⟨S409600, .i32⟩ : BufTy).Contents (Elt F) → (⟨S409600, .i32⟩ : BufTy).Contents (Elt F) → (⟨S409600, .i32⟩ : BufTy).Contents (Elt F)),
    unary main_c_287 main_call53_v3 (id : (⟨S_, .i32⟩ : BufTy).Contents (Elt F) → (⟨S_, .i32⟩ : BufTy).Contents (Elt F)),
    unary main_call53_v3 main_call53_v4 ((broadcastInDim S409600 ![] bcast_S_S409600) : (⟨S_, .i32⟩ : BufTy).Contents (Elt F) → (⟨S409600, .i32⟩ : BufTy).Contents (Elt F)),
    binary main_call53_v4 main_call53_v2 main_v763 (minsi : (⟨S409600, .i32⟩ : BufTy).Contents (Elt F) → (⟨S409600, .i32⟩ : BufTy).Contents (Elt F) → (⟨S409600, .i32⟩ : BufTy).Contents (Elt F)),
    nullary main_c_288 (constantI S_ 32 0#32),
    nullary main_c_289 (constantI S_ 32 639#32),
    unary main_c_288 main_call54_v0 (id : (⟨S_, .i32⟩ : BufTy).Contents (Elt F) → (⟨S_, .i32⟩ : BufTy).Contents (Elt F)),
    unary main_call54_v0 main_call54_v1 ((broadcastInDim S409600 ![] bcast_S_S409600) : (⟨S_, .i32⟩ : BufTy).Contents (Elt F) → (⟨S409600, .i32⟩ : BufTy).Contents (Elt F)),
    binary main_call54_v1 main_v751 main_call54_v2 (maxsi : (⟨S409600, .i32⟩ : BufTy).Contents (Elt F) → (⟨S409600, .i32⟩ : BufTy).Contents (Elt F) → (⟨S409600, .i32⟩ : BufTy).Contents (Elt F)),
    unary main_c_289 main_call54_v3 (id : (⟨S_, .i32⟩ : BufTy).Contents (Elt F) → (⟨S_, .i32⟩ : BufTy).Contents (Elt F)),
    unary main_call54_v3 main_call54_v4 ((broadcastInDim S409600 ![] bcast_S_S409600) : (⟨S_, .i32⟩ : BufTy).Contents (Elt F) → (⟨S409600, .i32⟩ : BufTy).Contents (Elt F)),
    binary main_call54_v4 main_call54_v2 main_v764 (minsi : (⟨S409600, .i32⟩ : BufTy).Contents (Elt F) → (⟨S409600, .i32⟩ : BufTy).Contents (Elt F) → (⟨S409600, .i32⟩ : BufTy).Contents (Elt F)),
    nullary main_c_290 (constantI S_ 32 0#32),
    unary main_c_290 main_v765 (broadcastInDim S409600 ![] bcast_S_S409600 : (⟨S_, .i32⟩ : BufTy).Contents (Elt F) → (⟨S409600, .i32⟩ : BufTy).Contents (Elt F)),
    binary main_v526 main_v765 main_v766 (cmpi .slt : (⟨S409600, .i32⟩ : BufTy).Contents (Elt F) → (⟨S409600, .i32⟩ : BufTy).Contents (Elt F) → (⟨S409600, .i1⟩ : BufTy).Contents (Elt F)),
    nullary main_c_291 (constantI S_ 32 2#32),
    unary main_c_291 main_v767 (broadcastInDim S409600 ![] bcast_S_S409600 : (⟨S_, .i32⟩ : BufTy).Contents (Elt F) → (⟨S409600, .i32⟩ : BufTy).Contents (Elt F)),
    binary main_v526 main_v767 main_v768 (addi : (⟨S409600, .i32⟩ : BufTy).Contents (Elt F) → (⟨S409600, .i32⟩ : BufTy).Contents (Elt F) → (⟨S409600, .i32⟩ : BufTy).Contents (Elt F)),
    ternary main_v766 main_v768 main_v526 main_v769 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_292 (constantI S_ 32 0#32),
    unary main_c_292 main_v770 (broadcastInDim S409600 ![] bcast_S_S409600 : (⟨S_, .i32⟩ : BufTy).Contents (Elt F) → (⟨S409600, .i32⟩ : BufTy).Contents (Elt F)),
    binary main_v763 main_v770 main_v771 (cmpi .slt : (⟨S409600, .i32⟩ : BufTy).Contents (Elt F) → (⟨S409600, .i32⟩ : BufTy).Contents (Elt F) → (⟨S409600, .i1⟩ : BufTy).Contents (Elt F)),
    nullary main_c_293 (constantI S_ 32 640#32),
    unary main_c_293 main_v772 (broadcastInDim S409600 ![] bcast_S_S409600 : (⟨S_, .i32⟩ : BufTy).Contents (Elt F) → (⟨S409600, .i32⟩ : BufTy).Contents (Elt F)),
    binary main_v763 main_v772 main_v773 (addi : (⟨S409600, .i32⟩ : BufTy).Contents (Elt F) → (⟨S409600, .i32⟩ : BufTy).Contents (Elt F) → (⟨S409600, .i32⟩ : BufTy).Contents (Elt F)),
    ternary main_v771 main_v773 main_v763 main_v774 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_294 (constantI S_ 32 0#32),
    unary main_c_294 main_v775 (broadcastInDim S409600 ![] bcast_S_S409600 : (⟨S_, .i32⟩ : BufTy).Contents (Elt F) → (⟨S409600, .i32⟩ : BufTy).Contents (Elt F)),
    binary main_v764 main_v775 main_v776 (cmpi .slt : (⟨S409600, .i32⟩ : BufTy).Contents (Elt F) → (⟨S409600, .i32⟩ : BufTy).Contents (Elt F) → (⟨S409600, .i1⟩ : BufTy).Contents (Elt F)),
    nullary main_c_295 (constantI S_ 32 640#32),
    unary main_c_295 main_v777 (broadcastInDim S409600 ![] bcast_S_S409600 : (⟨S_, .i32⟩ : BufTy).Contents (Elt F) → (⟨S409600, .i32⟩ : BufTy).Contents (Elt F)),
    binary main_v764 main_v777 main_v778 (addi : (⟨S409600, .i32⟩ : BufTy).Contents (Elt F) → (⟨S409600, .i32⟩ : BufTy).Contents (Elt F) → (⟨S409600, .i32⟩ : BufTy).Contents (Elt F)),
    ternary main_v776 main_v778 main_v764 main_v779 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v769 main_v780 (broadcastInDim S409600x1 ![0] bcast_S409600_S409600x1_0 : (⟨S409600, .i32⟩ : BufTy).Contents (Elt F) → (⟨S409600x1, .i32⟩ : BufTy).Contents (Elt F)),
    unary main_v774 main_v781 (broadcastInDim S409600x1 ![0] bcast_S409600_S409600x1_0 : (⟨S409600, .i32⟩ : BufTy).Contents (Elt F) → (⟨S409600x1, .i32⟩ : BufTy).Contents (Elt F)) ]

set_option maxRecDepth 8192 in
set_option maxHeartbeats 4000000 in
theorem main_part17_eq (c : Dev nD) : main_part17 (F := F) c = seq ops_p17 := by
  simp only [main_part17, ops_p17, fn_clip.body, fn_where.body, fn_where_0.body, fn_relu.body, seq, bind_assoc, pure_bind]
  rfl

set_option maxRecDepth 8192 in
theorem ops_p17_sub : (ops_p17 : List (HloOp τ sig (Elt F))).Forall fun op => op.bufs ⊆ tcRefs τ sig :=
  ⟨ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

set_option maxRecDepth 8192 in
theorem ops_p17_fresh : ∀ op ∈ (ops_p17 : List (HloOp τ sig (Elt F))), op.fresh = ∅ := by
  unfold ops_p17; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 1223 on hold before it. -/
structure Inv17_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v693 : V (Proc.devRef .tc main_v693) = val_main_v693 (F := F) x0 x1 x2 x3 x4
  main_v741 : V (Proc.devRef .tc main_v741) = val_main_v741 (F := F) x0 x1 x2 x3
  main_call52_v1 : V (Proc.devRef .tc main_call52_v1) = val_main_call52_v1 (F := F) x1
  main_call52_v2 : V (Proc.devRef .tc main_call52_v2) = val_main_call52_v2 (F := F)

/-- What the buffers read from operation 1231 on hold before it. -/
structure Inv17_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v749 : V (Proc.devRef .tc main_v749) = val_main_v749 (F := F) x1

/-- What the buffers read from operation 1239 on hold before it. -/
structure Inv17_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v749 : V (Proc.devRef .tc main_v749) = val_main_v749 (F := F) x1
  main_v751 : V (Proc.devRef .tc main_v751) = val_main_v751 (F := F) x1
  main_v753 : V (Proc.devRef .tc main_v753) = val_main_v753 (F := F) x1
  main_v754 : V (Proc.devRef .tc main_v754) = val_main_v754 (F := F)

/-- What the buffers read from operation 1247 on hold before it. -/
structure Inv17_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v749 : V (Proc.devRef .tc main_v749) = val_main_v749 (F := F) x1
  main_v751 : V (Proc.devRef .tc main_v751) = val_main_v751 (F := F) x1
  main_v759 : V (Proc.devRef .tc main_v759) = val_main_v759 (F := F) x1
  main_v760 : V (Proc.devRef .tc main_v760) = val_main_v760 (F := F)

/-- What the buffers read from operation 1255 on hold before it. -/
structure Inv17_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v751 : V (Proc.devRef .tc main_v751) = val_main_v751 (F := F) x1
  main_v762 : V (Proc.devRef .tc main_v762) = val_main_v762 (F := F) x1
  main_call53_v2 : V (Proc.devRef .tc main_call53_v2) = val_main_call53_v2 (F := F) x1
  main_call53_v3 : V (Proc.devRef .tc main_call53_v3) = val_main_call53_v3 (F := F)

/-- What the buffers read from operation 1263 on hold before it. -/
structure Inv17_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v762 : V (Proc.devRef .tc main_v762) = val_main_v762 (F := F) x1
  main_v763 : V (Proc.devRef .tc main_v763) = val_main_v763 (F := F) x1
  main_call54_v2 : V (Proc.devRef .tc main_call54_v2) = val_main_call54_v2 (F := F) x1
  main_call54_v3 : V (Proc.devRef .tc main_call54_v3) = val_main_call54_v3 (F := F)

/-- What the buffers read from operation 1271 on hold before it. -/
structure Inv17_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v762 : V (Proc.devRef .tc main_v762) = val_main_v762 (F := F) x1
  main_v763 : V (Proc.devRef .tc main_v763) = val_main_v763 (F := F) x1
  main_v764 : V (Proc.devRef .tc main_v764) = val_main_v764 (F := F) x1
  main_v766 : V (Proc.devRef .tc main_v766) = val_main_v766 (F := F) x1
  main_v768 : V (Proc.devRef .tc main_v768) = val_main_v768 (F := F) x1

/-- What the buffers read from operation 1279 on hold before it. -/
structure Inv17_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v762 : V (Proc.devRef .tc main_v762) = val_main_v762 (F := F) x1
  main_v764 : V (Proc.devRef .tc main_v764) = val_main_v764 (F := F) x1
  main_v769 : V (Proc.devRef .tc main_v769) = val_main_v769 (F := F) x1
  main_v774 : V (Proc.devRef .tc main_v774) = val_main_v774 (F := F) x1

/-- Stretch 0 of window 17: @main's operations 1215 … 1222. -/
def ops_p17_0 : List (HloOp τ sig (Elt F)) :=
  [ ternary main_v736 main_v738 main_v734 main_v739 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v739 main_v740 (broadcastInDim S409600x1 ![0] bcast_S409600_S409600x1_0 : (⟨S409600, .i32⟩ : BufTy).Contents (Elt F) → (⟨S409600x1, .i32⟩ : BufTy).Contents (Elt F)),
    binary main_v524 main_v740 main_v741 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v733 main_v742 (broadcastInDim S409600x1 ![0] bcast_S409600_S409600x1_0 : (⟨S409600, .i1⟩ : BufTy).Contents (Elt F) → (⟨S409600x1, .i1⟩ : BufTy).Contents (Elt F)),
    nullary main_cst_279 (constant S_ .f32 0x00000000#32),
    unary main_cst_279 main_call52_v0 (id : (⟨S_, .f32⟩ : BufTy).Contents (Elt F) → (⟨S_, .f32⟩ : BufTy).Contents (Elt F)),
    unary main_v742 main_call52_v1 ((broadcastInDim S409600x64 ![0, 1] bcast_S409600x1_S409600x64_0_1) : (⟨S409600x1, .i1⟩ : BufTy).Contents (Elt F) → (⟨S409600x64, .i1⟩ : BufTy).Contents (Elt F)),
    unary main_call52_v0 main_call52_v2 ((broadcastInDim S409600x64 ![] bcast_S_S409600x64) : (⟨S_, .f32⟩ : BufTy).Contents (Elt F) → (⟨S409600x64, .f32⟩ : BufTy).Contents (Elt F)) ]
abbrev ops_p17_0_W : List (Ref sig .tc) := [main_v739, main_v740, main_v741, main_v742, main_cst_279, main_call52_v0, main_call52_v1, main_call52_v2]
theorem ops_p17_0_writes : (ops_p17_0 : List (HloOp τ sig (Elt F))).Forall fun op => op.writes ⊆ (ops_p17_0_W.map (Proc.devRef (τ := τ) .tc)).toFinset := by
  simp only [ops_p17_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p17_0_keep (V : Valuation τ sig (Elt F)) (r : Ref sig .tc) (h : r ∉ ops_p17_0_W) :
    after ops_p17_0 V (Proc.devRef .tc r) = V (Proc.devRef .tc r) :=
  after_of_writes_sub ops_p17_0 _ ops_p17_0_writes h

set_option maxRecDepth 8192 in
set_option maxHeartbeats 1000000 in
theorem w17_0_main_v741 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17 V x0 x1 x2 x3 x4 x5 x6) :
    after ops_p17_0 V (Proc.devRef .tc main_v741) = val_main_v741 (F := F) x0 x1 x2 x3 := by
  simp only [ops_p17_0]
  after_results_w
  simp only [h.main_v734, h.main_v738, h.main_v736, h.main_v524]
  rfl

set_option maxRecDepth 8192 in
set_option maxHeartbeats 1000000 in
theorem w17_0_main_call52_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17 V x0 x1 x2 x3 x4 x5 x6) :
    after ops_p17_0 V (Proc.devRef .tc main_call52_v1) = val_main_call52_v1 (F := F) x1 := by
  simp only [ops_p17_0]
  after_results_w
  simp only [h.main_v733]
  rfl

set_option maxRecDepth 8192 in
set_option maxHeartbeats 1000000 in
theorem w17_0_main_call52_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17 V x0 x1 x2 x3 x4 x5 x6) :
    after ops_p17_0 V (Proc.devRef .tc main_call52_v2) = val_main_call52_v2 (F := F) := by
  simp only [ops_p17_0]
  after_results_w
  rfl

theorem step17_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17 V x0 x1 x2 x3 x4 x5 x6) : Inv17_1 (after ops_p17_0 V) x0 x1 x2 x3 x4 x5 x6 where
  main_arg0 := (ops_p17_0_keep V main_arg0 (by decide)).trans h.main_arg0
  main_arg1 := (ops_p17_0_keep V main_arg1 (by decide)).trans h.main_arg1
  main_arg2 := (ops_p17_0_keep V main_arg2 (by decide)).trans h.main_arg2
  main_arg3 := (ops_p17_0_keep V main_arg3 (by decide)).trans h.main_arg3
  main_arg4 := (ops_p17_0_keep V main_arg4 (by decide)).trans h.main_arg4
  main_arg5 := (ops_p17_0_keep V main_arg5 (by decide)).trans h.main_arg5
  main_arg6 := (ops_p17_0_keep V main_arg6 (by decide)).trans h.main_arg6
  main_v27 := (ops_p17_0_keep V main_v27 (by decide)).trans h.main_v27
  main_v524 := (ops_p17_0_keep V main_v524 (by decide)).trans h.main_v524
  main_v526 := (ops_p17_0_keep V main_v526 (by decide)).trans h.main_v526
  main_v528 := (ops_p17_0_keep V main_v528 (by decide)).trans h.main_v528
  main_v530 := (ops_p17_0_keep V main_v530 (by decide)).trans h.main_v530
  main_v693 := (ops_p17_0_keep V main_v693 (by decide)).trans h.main_v693
  main_v741 := w17_0_main_v741 V x0 x1 x2 x3 x4 x5 x6 h
  main_call52_v1 := w17_0_main_call52_v1 V x0 x1 x2 x3 x4 x5 x6 h
  main_call52_v2 := w17_0_main_call52_v2 V x0 x1 x2 x3 x4 x5 x6 h

/-- Stretch 1 of window 17: @main's operations 1223 … 1230. -/
def ops_p17_1 : List (HloOp τ sig (Elt F)) :=
  [ ternary main_call52_v1 main_v741 main_call52_v2 main_v743 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v744 ((extractStridedSlice S1x1x64x64 ![1, 0, 0, 0] · slices_S3x3x64x64_S1x1x64x64_1_0_0_0) : (⟨S3x3x64x64, .f32⟩ : BufTy).Contents (Elt F) → (⟨S1x1x64x64, .f32⟩ : BufTy).Contents (Elt F)),
    reshape main_v744 main_v745 rfl shapeCasts_S1x1x64x64_S64x64,
    binary main_v743 main_v745 main_v746 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v693 main_v746 main_v747 (addf : (⟨S409600x64, .f32⟩ : BufTy).Contents (Elt F) → (⟨S409600x64, .f32⟩ : BufTy).Contents (Elt F) → (⟨S409600x64, .f32⟩ : BufTy).Contents (Elt F)),
    nullary main_c_280 (constantI S_ 32 0#32),
    unary main_c_280 main_v748 (broadcastInDim S409600 ![] bcast_S_S409600 : (⟨S_, .i32⟩ : BufTy).Contents (Elt F) → (⟨S409600, .i32⟩ : BufTy).Contents (Elt F)),
    binary main_v528 main_v748 main_v749 (addi : (⟨S409600, .i32⟩ : BufTy).Contents (Elt F) → (⟨S409600, .i32⟩ : BufTy).Contents (Elt F) → (⟨S409600, .i32⟩ : BufTy).Contents (Elt F)) ]
abbrev ops_p17_1_W : List (Ref sig .tc) := [main_v743, main_v744, main_v745, main_v746, main_v747, main_c_280, main_v748, main_v749]
theorem ops_p17_1_writes : (ops_p17_1 : List (HloOp τ sig (Elt F))).Forall fun op => op.writes ⊆ (ops_p17_1_W.map (Proc.devRef (τ := τ) .tc)).toFinset := by
  simp only [ops_p17_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p17_1_keep (V : Valuation τ sig (Elt F)) (r : Ref sig .tc) (h : r ∉ ops_p17_1_W) :
    after ops_p17_1 V (Proc.devRef .tc r) = V (Proc.devRef .tc r) :=
  after_of_writes_sub ops_p17_1 _ ops_p17_1_writes h

set_option maxRecDepth 8192 in
set_option maxHeartbeats 1000000 in
theorem w17_1_main_v747 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_1 V x0 x1 x2 x3 x4 x5 x6) :
    after ops_p17_1 V (Proc.devRef .tc main_v747) = val_main_v747 (F := F) x0 x1 x2 x3 x4 := by
  simp only [ops_p17_1]
  after_results_w
  simp only [h.main_arg4, h.main_call52_v2, h.main_v741, h.main_call52_v1, h.main_v693]
  rfl

set_option maxRecDepth 8192 in
set_option maxHeartbeats 1000000 in
theorem w17_1_main_v749 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_1 V x0 x1 x2 x3 x4 x5 x6) :
    after ops_p17_1 V (Proc.devRef .tc main_v749) = val_main_v749 (F := F) x1 := by
  simp only [ops_p17_1]
  after_results_w
  simp only [h.main_v528]
  rfl

theorem step17_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_1 V x0 x1 x2 x3 x4 x5 x6) : Inv17_2 (after ops_p17_1 V) x0 x1 x2 x3 x4 x5 x6 where
  main_arg0 := (ops_p17_1_keep V main_arg0 (by decide)).trans h.main_arg0
  main_arg1 := (ops_p17_1_keep V main_arg1 (by decide)).trans h.main_arg1
  main_arg2 := (ops_p17_1_keep V main_arg2 (by decide)).trans h.main_arg2
  main_arg3 := (ops_p17_1_keep V main_arg3 (by decide)).trans h.main_arg3
  main_arg4 := (ops_p17_1_keep V main_arg4 (by decide)).trans h.main_arg4
  main_arg5 := (ops_p17_1_keep V main_arg5 (by decide)).trans h.main_arg5
  main_arg6 := (ops_p17_1_keep V main_arg6 (by decide)).trans h.main_arg6
  main_v27 := (ops_p17_1_keep V main_v27 (by decide)).trans h.main_v27
  main_v524 := (ops_p17_1_keep V main_v524 (by decide)).trans h.main_v524
  main_v526 := (ops_p17_1_keep V main_v526 (by decide)).trans h.main_v526
  main_v528 := (ops_p17_1_keep V main_v528 (by decide)).trans h.main_v528
  main_v530 := (ops_p17_1_keep V main_v530 (by decide)).trans h.main_v530
  main_v747 := w17_1_main_v747 V x0 x1 x2 x3 x4 x5 x6 h
  main_v749 := w17_1_main_v749 V x0 x1 x2 x3 x4 x5 x6 h

/-- Stretch 2 of window 17: @main's operations 1231 … 1238. -/
def ops_p17_2 : List (HloOp τ sig (Elt F)) :=
  [ nullary main_c_281 (constantI S_ 32 0#32),
    unary main_c_281 main_v750 (broadcastInDim S409600 ![] bcast_S_S409600 : (⟨S_, .i32⟩ : BufTy).Contents (Elt F) → (⟨S409600, .i32⟩ : BufTy).Contents (Elt F)),
    binary main_v530 main_v750 main_v751 (addi : (⟨S409600, .i32⟩ : BufTy).Contents (Elt F) → (⟨S409600, .i32⟩ : BufTy).Contents (Elt F) → (⟨S409600, .i32⟩ : BufTy).Contents (Elt F)),
    nullary main_c_282 (constantI S_ 32 0#32),
    unary main_c_282 main_v752 (broadcastInDim S409600 ![] bcast_S_S409600 : (⟨S_, .i32⟩ : BufTy).Contents (Elt F) → (⟨S409600, .i32⟩ : BufTy).Contents (Elt F)),
    binary main_v749 main_v752 main_v753 (cmpi .sge : (⟨S409600, .i32⟩ : BufTy).Contents (Elt F) → (⟨S409600, .i32⟩ : BufTy).Contents (Elt F) → (⟨S409600, .i1⟩ : BufTy).Contents (Elt F)),
    nullary main_c_283 (constantI S_ 32 640#32),
    unary main_c_283 main_v754 (broadcastInDim S409600 ![] bcast_S_S409600 : (⟨S_, .i32⟩ : BufTy).Contents (Elt F) → (⟨S409600, .i32⟩ : BufTy).Contents (Elt F)) ]
abbrev ops_p17_2_W : List (Ref sig .tc) := [main_c_281, main_v750, main_v751, main_c_282, main_v752, main_v753, main_c_283, main_v754]
theorem ops_p17_2_writes : (ops_p17_2 : List (HloOp τ sig (Elt F))).Forall fun op => op.writes ⊆ (ops_p17_2_W.map (Proc.devRef (τ := τ) .tc)).toFinset := by
  simp only [ops_p17_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p17_2_keep (V : Valuation τ sig (Elt F)) (r : Ref sig .tc) (h : r ∉ ops_p17_2_W) :
    after ops_p17_2 V (Proc.devRef .tc r) = V (Proc.devRef .tc r) :=
  after_of_writes_sub ops_p17_2 _ ops_p17_2_writes h

set_option maxRecDepth 8192 in
set_option maxHeartbeats 1000000 in
theorem w17_2_main_v751 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_2 V x0 x1 x2 x3 x4 x5 x6) :
    after ops_p17_2 V (Proc.devRef .tc main_v751) = val_main_v751 (F := F) x1 := by
  simp only [ops_p17_2]
  after_results_w
  simp only [h.main_v530]
  rfl

set_option maxRecDepth 8192 in
set_option maxHeartbeats 1000000 in
theorem w17_2_main_v753 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_2 V x0 x1 x2 x3 x4 x5 x6) :
    after ops_p17_2 V (Proc.devRef .tc main_v753) = val_main_v753 (F := F) x1 := by
  simp only [ops_p17_2]
  after_results_w
  simp only [h.main_v749]
  rfl

set_option maxRecDepth 8192 in
set_option maxHeartbeats 1000000 in
theorem w17_2_main_v754 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_2 V x0 x1 x2 x3 x4 x5 x6) :
    after ops_p17_2 V (Proc.devRef .tc main_v754) = val_main_v754 (F := F) := by
  simp only [ops_p17_2]
  after_results_w
  rfl

theorem step17_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_2 V x0 x1 x2 x3 x4 x5 x6) : Inv17_3 (after ops_p17_2 V) x0 x1 x2 x3 x4 x5 x6 where
  main_arg0 := (ops_p17_2_keep V main_arg0 (by decide)).trans h.main_arg0
  main_arg1 := (ops_p17_2_keep V main_arg1 (by decide)).trans h.main_arg1
  main_arg2 := (ops_p17_2_keep V main_arg2 (by decide)).trans h.main_arg2
  main_arg3 := (ops_p17_2_keep V main_arg3 (by decide)).trans h.main_arg3
  main_arg4 := (ops_p17_2_keep V main_arg4 (by decide)).trans h.main_arg4
  main_arg5 := (ops_p17_2_keep V main_arg5 (by decide)).trans h.main_arg5
  main_arg6 := (ops_p17_2_keep V main_arg6 (by decide)).trans h.main_arg6
  main_v27 := (ops_p17_2_keep V main_v27 (by decide)).trans h.main_v27
  main_v524 := (ops_p17_2_keep V main_v524 (by decide)).trans h.main_v524
  main_v526 := (ops_p17_2_keep V main_v526 (by decide)).trans h.main_v526
  main_v528 := (ops_p17_2_keep V main_v528 (by decide)).trans h.main_v528
  main_v530 := (ops_p17_2_keep V main_v530 (by decide)).trans h.main_v530
  main_v747 := (ops_p17_2_keep V main_v747 (by decide)).trans h.main_v747
  main_v749 := (ops_p17_2_keep V main_v749 (by decide)).trans h.main_v749
  main_v751 := w17_2_main_v751 V x0 x1 x2 x3 x4 x5 x6 h
  main_v753 := w17_2_main_v753 V x0 x1 x2 x3 x4 x5 x6 h
  main_v754 := w17_2_main_v754 V x0 x1 x2 x3 x4 x5 x6 h

/-- Stretch 3 of window 17: @main's operations 1239 … 1246. -/
def ops_p17_3 : List (HloOp τ sig (Elt F)) :=
  [ binary main_v749 main_v754 main_v755 (cmpi .slt : (⟨S409600, .i32⟩ : BufTy).Contents (Elt F) → (⟨S409600, .i32⟩ : BufTy).Contents (Elt F) → (⟨S409600, .i1⟩ : BufTy).Contents (Elt F)),
    binary main_v753 main_v755 main_v756 (andi : (⟨S409600, .i1⟩ : BufTy).Contents (Elt F) → (⟨S409600, .i1⟩ : BufTy).Contents (Elt F) → (⟨S409600, .i1⟩ : BufTy).Contents (Elt F)),
    nullary main_c_284 (constantI S_ 32 0#32),
    unary main_c_284 main_v757 (broadcastInDim S409600 ![] bcast_S_S409600 : (⟨S_, .i32⟩ : BufTy).Contents (Elt F) → (⟨S409600, .i32⟩ : BufTy).Contents (Elt F)),
    binary main_v751 main_v757 main_v758 (cmpi .sge : (⟨S409600, .i32⟩ : BufTy).Contents (Elt F) → (⟨S409600, .i32⟩ : BufTy).Contents (Elt F) → (⟨S409600, .i1⟩ : BufTy).Contents (Elt F)),
    binary main_v756 main_v758 main_v759 (andi : (⟨S409600, .i1⟩ : BufTy).Contents (Elt F) → (⟨S409600, .i1⟩ : BufTy).Contents (Elt F) → (⟨S409600, .i1⟩ : BufTy).Contents (Elt F)),
    nullary main_c_285 (constantI S_ 32 640#32),
    unary main_c_285 main_v760 (broadcastInDim S409600 ![] bcast_S_S409600 : (⟨S_, .i32⟩ : BufTy).Contents (Elt F) → (⟨S409600, .i32⟩ : BufTy).Contents (Elt F)) ]
abbrev ops_p17_3_W : List (Ref sig .tc) := [main_v755, main_v756, main_c_284, main_v757, main_v758, main_v759, main_c_285, main_v760]
theorem ops_p17_3_writes : (ops_p17_3 : List (HloOp τ sig (Elt F))).Forall fun op => op.writes ⊆ (ops_p17_3_W.map (Proc.devRef (τ := τ) .tc)).toFinset := by
  simp only [ops_p17_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p17_3_keep (V : Valuation τ sig (Elt F)) (r : Ref sig .tc) (h : r ∉ ops_p17_3_W) :
    after ops_p17_3 V (Proc.devRef .tc r) = V (Proc.devRef .tc r) :=
  after_of_writes_sub ops_p17_3 _ ops_p17_3_writes h

set_option maxRecDepth 8192 in
set_option maxHeartbeats 1000000 in
theorem w17_3_main_v759 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_3 V x0 x1 x2 x3 x4 x5 x6) :
    after ops_p17_3 V (Proc.devRef .tc main_v759) = val_main_v759 (F := F) x1 := by
  simp only [ops_p17_3]
  after_results_w
  simp only [h.main_v751, h.main_v754, h.main_v749, h.main_v753]
  rfl

set_option maxRecDepth 8192 in
set_option maxHeartbeats 1000000 in
theorem w17_3_main_v760 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_3 V x0 x1 x2 x3 x4 x5 x6) :
    after ops_p17_3 V (Proc.devRef .tc main_v760) = val_main_v760 (F := F) := by
  simp only [ops_p17_3]
  after_results_w
  rfl

theorem step17_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_3 V x0 x1 x2 x3 x4 x5 x6) : Inv17_4 (after ops_p17_3 V) x0 x1 x2 x3 x4 x5 x6 where
  main_arg0 := (ops_p17_3_keep V main_arg0 (by decide)).trans h.main_arg0
  main_arg1 := (ops_p17_3_keep V main_arg1 (by decide)).trans h.main_arg1
  main_arg2 := (ops_p17_3_keep V main_arg2 (by decide)).trans h.main_arg2
  main_arg3 := (ops_p17_3_keep V main_arg3 (by decide)).trans h.main_arg3
  main_arg4 := (ops_p17_3_keep V main_arg4 (by decide)).trans h.main_arg4
  main_arg5 := (ops_p17_3_keep V main_arg5 (by decide)).trans h.main_arg5
  main_arg6 := (ops_p17_3_keep V main_arg6 (by decide)).trans h.main_arg6
  main_v27 := (ops_p17_3_keep V main_v27 (by decide)).trans h.main_v27
  main_v524 := (ops_p17_3_keep V main_v524 (by decide)).trans h.main_v524
  main_v526 := (ops_p17_3_keep V main_v526 (by decide)).trans h.main_v526
  main_v528 := (ops_p17_3_keep V main_v528 (by decide)).trans h.main_v528
  main_v530 := (ops_p17_3_keep V main_v530 (by decide)).trans h.main_v530
  main_v747 := (ops_p17_3_keep V main_v747 (by decide)).trans h.main_v747
  main_v749 := (ops_p17_3_keep V main_v749 (by decide)).trans h.main_v749
  main_v751 := (ops_p17_3_keep V main_v751 (by decide)).trans h.main_v751
  main_v759 := w17_3_main_v759 V x0 x1 x2 x3 x4 x5 x6 h
  main_v760 := w17_3_main_v760 V x0 x1 x2 x3 x4 x5 x6 h

/-- Stretch 4 of window 17: @main's operations 1247 … 1254. -/
def ops_p17_4 : List (HloOp τ sig (Elt F)) :=
  [ binary main_v751 main_v760 main_v761 (cmpi .slt : (⟨S409600, .i32⟩ : BufTy).Contents (Elt F) → (⟨S409600, .i32⟩ : BufTy).Contents (Elt F) → (⟨S409600, .i1⟩ : BufTy).Contents (Elt F)),
    binary main_v759 main_v761 main_v762 (andi : (⟨S409600, .i1⟩ : BufTy).Contents (Elt F) → (⟨S409600, .i1⟩ : BufTy).Contents (Elt F) → (⟨S409600, .i1⟩ : BufTy).Contents (Elt F)),
    nullary main_c_286 (constantI S_ 32 0#32),
    nullary main_c_287 (constantI S_ 32 639#32),
    unary main_c_286 main_call53_v0 (id : (⟨S_, .i32⟩ : BufTy).Contents (Elt F) → (⟨S_, .i32⟩ : BufTy).Contents (Elt F)),
    unary main_call53_v0 main_call53_v1 ((broadcastInDim S409600 ![] bcast_S_S409600) : (⟨S_, .i32⟩ : BufTy).Contents (Elt F) → (⟨S409600, .i32⟩ : BufTy).Contents (Elt F)),
    binary main_call53_v1 main_v749 main_call53_v2 (maxsi : (⟨S409600, .i32⟩ : BufTy).Contents (Elt F) → (⟨S409600, .i32⟩ : BufTy).Contents (Elt F) → (⟨S409600, .i32⟩ : BufTy).Contents (Elt F)),
    unary main_c_287 main_call53_v3 (id : (⟨S_, .i32⟩ : BufTy).Contents (Elt F) → (⟨S_, .i32⟩ : BufTy).Contents (Elt F)) ]
abbrev ops_p17_4_W : List (Ref sig .tc) := [main_v761, main_v762, main_c_286, main_c_287, main_call53_v0, main_call53_v1, main_call53_v2, main_call53_v3]
theorem ops_p17_4_writes : (ops_p17_4 : List (HloOp τ sig (Elt F))).Forall fun op => op.writes ⊆ (ops_p17_4_W.map (Proc.devRef (τ := τ) .tc)).toFinset := by
  simp only [ops_p17_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p17_4_keep (V : Valuation τ sig (Elt F)) (r : Ref sig .tc) (h : r ∉ ops_p17_4_W) :
    after ops_p17_4 V (Proc.devRef .tc r) = V (Proc.devRef .tc r) :=
  after_of_writes_sub ops_p17_4 _ ops_p17_4_writes h

set_option maxRecDepth 8192 in
set_option maxHeartbeats 1000000 in
theorem w17_4_main_v762 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_4 V x0 x1 x2 x3 x4 x5 x6) :
    after ops_p17_4 V (Proc.devRef .tc main_v762) = val_main_v762 (F := F) x1 := by
  simp only [ops_p17_4]
  after_results_w
  simp only [h.main_v760, h.main_v751, h.main_v759]
  rfl

set_option maxRecDepth 8192 in
set_option maxHeartbeats 1000000 in
theorem w17_4_main_call53_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_4 V x0 x1 x2 x3 x4 x5 x6) :
    after ops_p17_4 V (Proc.devRef .tc main_call53_v2) = val_main_call53_v2 (F := F) x1 := by
  simp only [ops_p17_4]
  after_results_w
  simp only [h.main_v749]
  rfl

set_option maxRecDepth 8192 in
set_option maxHeartbeats 1000000 in
theorem w17_4_main_call53_v3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_4 V x0 x1 x2 x3 x4 x5 x6) :
    after ops_p17_4 V (Proc.devRef .tc main_call53_v3) = val_main_call53_v3 (F := F) := by
  simp only [ops_p17_4]
  after_results_w
  rfl

theorem step17_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_4 V x0 x1 x2 x3 x4 x5 x6) : Inv17_5 (after ops_p17_4 V) x0 x1 x2 x3 x4 x5 x6 where
  main_arg0 := (ops_p17_4_keep V main_arg0 (by decide)).trans h.main_arg0
  main_arg1 := (ops_p17_4_keep V main_arg1 (by decide)).trans h.main_arg1
  main_arg2 := (ops_p17_4_keep V main_arg2 (by decide)).trans h.main_arg2
  main_arg3 := (ops_p17_4_keep V main_arg3 (by decide)).trans h.main_arg3
  main_arg4 := (ops_p17_4_keep V main_arg4 (by decide)).trans h.main_arg4
  main_arg5 := (ops_p17_4_keep V main_arg5 (by decide)).trans h.main_arg5
  main_arg6 := (ops_p17_4_keep V main_arg6 (by decide)).trans h.main_arg6
  main_v27 := (ops_p17_4_keep V main_v27 (by decide)).trans h.main_v27
  main_v524 := (ops_p17_4_keep V main_v524 (by decide)).trans h.main_v524
  main_v526 := (ops_p17_4_keep V main_v526 (by decide)).trans h.main_v526
  main_v528 := (ops_p17_4_keep V main_v528 (by decide)).trans h.main_v528
  main_v530 := (ops_p17_4_keep V main_v530 (by decide)).trans h.main_v530
  main_v747 := (ops_p17_4_keep V main_v747 (by decide)).trans h.main_v747
  main_v751 := (ops_p17_4_keep V main_v751 (by decide)).trans h.main_v751
  main_v762 := w17_4_main_v762 V x0 x1 x2 x3 x4 x5 x6 h
  main_call53_v2 := w17_4_main_call53_v2 V x0 x1 x2 x3 x4 x5 x6 h
  main_call53_v3 := w17_4_main_call53_v3 V x0 x1 x2 x3 x4 x5 x6 h

/-- Stretch 5 of window 17: @main's operations 1255 … 1262. -/
def ops_p17_5 : List (HloOp τ sig (Elt F)) :=
  [ unary main_call53_v3 main_call53_v4 ((broadcastInDim S409600 ![] bcast_S_S409600) : (⟨S_, .i32⟩ : BufTy).Contents (Elt F) → (⟨S409600, .i32⟩ : BufTy).Contents (Elt F)),
    binary main_call53_v4 main_call53_v2 main_v763 (minsi : (⟨S409600, .i32⟩ : BufTy).Contents (Elt F) → (⟨S409600, .i32⟩ : BufTy).Contents (Elt F) → (⟨S409600, .i32⟩ : BufTy).Contents (Elt F)),
    nullary main_c_288 (constantI S_ 32 0#32),
    nullary main_c_289 (constantI S_ 32 639#32),
    unary main_c_288 main_call54_v0 (id : (⟨S_, .i32⟩ : BufTy).Contents (Elt F) → (⟨S_, .i32⟩ : BufTy).Contents (Elt F)),
    unary main_call54_v0 main_call54_v1 ((broadcastInDim S409600 ![] bcast_S_S409600) : (⟨S_, .i32⟩ : BufTy).Contents (Elt F) → (⟨S409600, .i32⟩ : BufTy).Contents (Elt F)),
    binary main_call54_v1 main_v751 main_call54_v2 (maxsi : (⟨S409600, .i32⟩ : BufTy).Contents (Elt F) → (⟨S409600, .i32⟩ : BufTy).Contents (Elt F) → (⟨S409600, .i32⟩ : BufTy).Contents (Elt F)),
    unary main_c_289 main_call54_v3 (id : (⟨S_, .i32⟩ : BufTy).Contents (Elt F) → (⟨S_, .i32⟩ : BufTy).Contents (Elt F)) ]
abbrev ops_p17_5_W : List (Ref sig .tc) := [main_call53_v4, main_v763, main_c_288, main_c_289, main_call54_v0, main_call54_v1, main_call54_v2, main_call54_v3]
theorem ops_p17_5_writes : (ops_p17_5 : List (HloOp τ sig (Elt F))).Forall fun op => op.writes ⊆ (ops_p17_5_W.map (Proc.devRef (τ := τ) .tc)).toFinset := by
  simp only [ops_p17_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p17_5_keep (V : Valuation τ sig (Elt F)) (r : Ref sig .tc) (h : r ∉ ops_p17_5_W) :
    after ops_p17_5 V (Proc.devRef .tc r) = V (Proc.devRef .tc r) :=
  after_of_writes_sub ops_p17_5 _ ops_p17_5_writes h

set_option maxRecDepth 8192 in
set_option maxHeartbeats 1000000 in
theorem w17_5_main_v763 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_5 V x0 x1 x2 x3 x4 x5 x6) :
    after ops_p17_5 V (Proc.devRef .tc main_v763) = val_main_v763 (F := F) x1 := by
  simp only [ops_p17_5]
  after_results_w
  simp only [h.main_call53_v2, h.main_call53_v3]
  rfl

set_option maxRecDepth 8192 in
set_option maxHeartbeats 1000000 in
theorem w17_5_main_call54_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_5 V x0 x1 x2 x3 x4 x5 x6) :
    after ops_p17_5 V (Proc.devRef .tc main_call54_v2) = val_main_call54_v2 (F := F) x1 := by
  simp only [ops_p17_5]
  after_results_w
  simp only [h.main_v751]
  rfl

set_option maxRecDepth 8192 in
set_option maxHeartbeats 1000000 in
theorem w17_5_main_call54_v3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_5 V x0 x1 x2 x3 x4 x5 x6) :
    after ops_p17_5 V (Proc.devRef .tc main_call54_v3) = val_main_call54_v3 (F := F) := by
  simp only [ops_p17_5]
  after_results_w
  rfl

theorem step17_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_5 V x0 x1 x2 x3 x4 x5 x6) : Inv17_6 (after ops_p17_5 V) x0 x1 x2 x3 x4 x5 x6 where
  main_arg0 := (ops_p17_5_keep V main_arg0 (by decide)).trans h.main_arg0
  main_arg1 := (ops_p17_5_keep V main_arg1 (by decide)).trans h.main_arg1
  main_arg2 := (ops_p17_5_keep V main_arg2 (by decide)).trans h.main_arg2
  main_arg3 := (ops_p17_5_keep V main_arg3 (by decide)).trans h.main_arg3
  main_arg4 := (ops_p17_5_keep V main_arg4 (by decide)).trans h.main_arg4
  main_arg5 := (ops_p17_5_keep V main_arg5 (by decide)).trans h.main_arg5
  main_arg6 := (ops_p17_5_keep V main_arg6 (by decide)).trans h.main_arg6
  main_v27 := (ops_p17_5_keep V main_v27 (by decide)).trans h.main_v27
  main_v524 := (ops_p17_5_keep V main_v524 (by decide)).trans h.main_v524
  main_v526 := (ops_p17_5_keep V main_v526 (by decide)).trans h.main_v526
  main_v528 := (ops_p17_5_keep V main_v528 (by decide)).trans h.main_v528
  main_v530 := (ops_p17_5_keep V main_v530 (by decide)).trans h.main_v530
  main_v747 := (ops_p17_5_keep V main_v747 (by decide)).trans h.main_v747
  main_v762 := (ops_p17_5_keep V main_v762 (by decide)).trans h.main_v762
  main_v763 := w17_5_main_v763 V x0 x1 x2 x3 x4 x5 x6 h
  main_call54_v2 := w17_5_main_call54_v2 V x0 x1 x2 x3 x4 x5 x6 h
  main_call54_v3 := w17_5_main_call54_v3 V x0 x1 x2 x3 x4 x5 x6 h

/-- Stretch 6 of window 17: @main's operations 1263 … 1270. -/
def ops_p17_6 : List (HloOp τ sig (Elt F)) :=
  [ unary main_call54_v3 main_call54_v4 ((broadcastInDim S409600 ![] bcast_S_S409600) : (⟨S_, .i32⟩ : BufTy).Contents (Elt F) → (⟨S409600, .i32⟩ : BufTy).Contents (Elt F)),
    binary main_call54_v4 main_call54_v2 main_v764 (minsi : (⟨S409600, .i32⟩ : BufTy).Contents (Elt F) → (⟨S409600, .i32⟩ : BufTy).Contents (Elt F) → (⟨S409600, .i32⟩ : BufTy).Contents (Elt F)),
    nullary main_c_290 (constantI S_ 32 0#32),
    unary main_c_290 main_v765 (broadcastInDim S409600 ![] bcast_S_S409600 : (⟨S_, .i32⟩ : BufTy).Contents (Elt F) → (⟨S409600, .i32⟩ : BufTy).Contents (Elt F)),
    binary main_v526 main_v765 main_v766 (cmpi .slt : (⟨S409600, .i32⟩ : BufTy).Contents (Elt F) → (⟨S409600, .i32⟩ : BufTy).Contents (Elt F) → (⟨S409600, .i1⟩ : BufTy).Contents (Elt F)),
    nullary main_c_291 (constantI S_ 32 2#32),
    unary main_c_291 main_v767 (broadcastInDim S409600 ![] bcast_S_S409600 : (⟨S_, .i32⟩ : BufTy).Contents (Elt F) → (⟨S409600, .i32⟩ : BufTy).Contents (Elt F)),
    binary main_v526 main_v767 main_v768 (addi : (⟨S409600, .i32⟩ : BufTy).Contents (Elt F) → (⟨S409600, .i32⟩ : BufTy).Contents (Elt F) → (⟨S409600, .i32⟩ : BufTy).Contents (Elt F)) ]
abbrev ops_p17_6_W : List (Ref sig .tc) := [main_call54_v4, main_v764, main_c_290, main_v765, main_v766, main_c_291, main_v767, main_v768]
theorem ops_p17_6_writes : (ops_p17_6 : List (HloOp τ sig (Elt F))).Forall fun op => op.writes ⊆ (ops_p17_6_W.map (Proc.devRef (τ := τ) .tc)).toFinset := by
  simp only [ops_p17_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p17_6_keep (V : Valuation τ sig (Elt F)) (r : Ref sig .tc) (h : r ∉ ops_p17_6_W) :
    after ops_p17_6 V (Proc.devRef .tc r) = V (Proc.devRef .tc r) :=
  after_of_writes_sub ops_p17_6 _ ops_p17_6_writes h

set_option maxRecDepth 8192 in
set_option maxHeartbeats 1000000 in
theorem w17_6_main_v764 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_6 V x0 x1 x2 x3 x4 x5 x6) :
    after ops_p17_6 V (Proc.devRef .tc main_v764) = val_main_v764 (F := F) x1 := by
  simp only [ops_p17_6]
  after_results_w
  simp only [h.main_call54_v2, h.main_call54_v3]
  rfl

set_option maxRecDepth 8192 in
set_option maxHeartbeats 1000000 in
theorem w17_6_main_v766 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_6 V x0 x1 x2 x3 x4 x5 x6) :
    after ops_p17_6 V (Proc.devRef .tc main_v766) = val_main_v766 (F := F) x1 := by
  simp only [ops_p17_6]
  after_results_w
  simp only [h.main_v526]
  rfl

set_option maxRecDepth 8192 in
set_option maxHeartbeats 1000000 in
theorem w17_6_main_v768 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_6 V x0 x1 x2 x3 x4 x5 x6) :
    after ops_p17_6 V (Proc.devRef .tc main_v768) = val_main_v768 (F := F) x1 := by
  simp only [ops_p17_6]
  after_results_w
  simp only [h.main_v526]
  rfl

theorem step17_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_6 V x0 x1 x2 x3 x4 x5 x6) : Inv17_7 (after ops_p17_6 V) x0 x1 x2 x3 x4 x5 x6 where
  main_arg0 := (ops_p17_6_keep V main_arg0 (by decide)).trans h.main_arg0
  main_arg1 := (ops_p17_6_keep V main_arg1 (by decide)).trans h.main_arg1
  main_arg2 := (ops_p17_6_keep V main_arg2 (by decide)).trans h.main_arg2
  main_arg3 := (ops_p17_6_keep V main_arg3 (by decide)).trans h.main_arg3
  main_arg4 := (ops_p17_6_keep V main_arg4 (by decide)).trans h.main_arg4
  main_arg5 := (ops_p17_6_keep V main_arg5 (by decide)).trans h.main_arg5
  main_arg6 := (ops_p17_6_keep V main_arg6 (by decide)).trans h.main_arg6
  main_v27 := (ops_p17_6_keep V main_v27 (by decide)).trans h.main_v27
  main_v524 := (ops_p17_6_keep V main_v524 (by decide)).trans h.main_v524
  main_v526 := (ops_p17_6_keep V main_v526 (by decide)).trans h.main_v526
  main_v528 := (ops_p17_6_keep V main_v528 (by decide)).trans h.main_v528
  main_v530 := (ops_p17_6_keep V main_v530 (by decide)).trans h.main_v530
  main_v747 := (ops_p17_6_keep V main_v747 (by decide)).trans h.main_v747
  main_v762 := (ops_p17_6_keep V main_v762 (by decide)).trans h.main_v762
  main_v763 := (ops_p17_6_keep V main_v763 (by decide)).trans h.main_v763
  main_v764 := w17_6_main_v764 V x0 x1 x2 x3 x4 x5 x6 h
  main_v766 := w17_6_main_v766 V x0 x1 x2 x3 x4 x5 x6 h
  main_v768 := w17_6_main_v768 V x0 x1 x2 x3 x4 x5 x6 h

/-- Stretch 7 of window 17: @main's operations 1271 … 1278. -/
def ops_p17_7 : List (HloOp τ sig (Elt F)) :=
  [ ternary main_v766 main_v768 main_v526 main_v769 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_292 (constantI S_ 32 0#32),
    unary main_c_292 main_v770 (broadcastInDim S409600 ![] bcast_S_S409600 : (⟨S_, .i32⟩ : BufTy).Contents (Elt F) → (⟨S409600, .i32⟩ : BufTy).Contents (Elt F)),
    binary main_v763 main_v770 main_v771 (cmpi .slt : (⟨S409600, .i32⟩ : BufTy).Contents (Elt F) → (⟨S409600, .i32⟩ : BufTy).Contents (Elt F) → (⟨S409600, .i1⟩ : BufTy).Contents (Elt F)),
    nullary main_c_293 (constantI S_ 32 640#32),
    unary main_c_293 main_v772 (broadcastInDim S409600 ![] bcast_S_S409600 : (⟨S_, .i32⟩ : BufTy).Contents (Elt F) → (⟨S409600, .i32⟩ : BufTy).Contents (Elt F)),
    binary main_v763 main_v772 main_v773 (addi : (⟨S409600, .i32⟩ : BufTy).Contents (Elt F) → (⟨S409600, .i32⟩ : BufTy).Contents (Elt F) → (⟨S409600, .i32⟩ : BufTy).Contents (Elt F)),
    ternary main_v771 main_v773 main_v763 main_v774 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)) ]
abbrev ops_p17_7_W : List (Ref sig .tc) := [main_v769, main_c_292, main_v770, main_v771, main_c_293, main_v772, main_v773, main_v774]
theorem ops_p17_7_writes : (ops_p17_7 : List (HloOp τ sig (Elt F))).Forall fun op => op.writes ⊆ (ops_p17_7_W.map (Proc.devRef (τ := τ) .tc)).toFinset := by
  simp only [ops_p17_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p17_7_keep (V : Valuation τ sig (Elt F)) (r : Ref sig .tc) (h : r ∉ ops_p17_7_W) :
    after ops_p17_7 V (Proc.devRef .tc r) = V (Proc.devRef .tc r) :=
  after_of_writes_sub ops_p17_7 _ ops_p17_7_writes h

set_option maxRecDepth 8192 in
set_option maxHeartbeats 1000000 in
theorem w17_7_main_v769 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_7 V x0 x1 x2 x3 x4 x5 x6) :
    after ops_p17_7 V (Proc.devRef .tc main_v769) = val_main_v769 (F := F) x1 := by
  simp only [ops_p17_7]
  after_results_w
  simp only [h.main_v526, h.main_v768, h.main_v766]
  rfl

set_option maxRecDepth 8192 in
set_option maxHeartbeats 1000000 in
theorem w17_7_main_v774 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_7 V x0 x1 x2 x3 x4 x5 x6) :
    after ops_p17_7 V (Proc.devRef .tc main_v774) = val_main_v774 (F := F) x1 := by
  simp only [ops_p17_7]
  after_results_w
  simp only [h.main_v763]
  rfl

theorem step17_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_7 V x0 x1 x2 x3 x4 x5 x6) : Inv17_8 (after ops_p17_7 V) x0 x1 x2 x3 x4 x5 x6 where
  main_arg0 := (ops_p17_7_keep V main_arg0 (by decide)).trans h.main_arg0
  main_arg1 := (ops_p17_7_keep V main_arg1 (by decide)).trans h.main_arg1
  main_arg2 := (ops_p17_7_keep V main_arg2 (by decide)).trans h.main_arg2
  main_arg3 := (ops_p17_7_keep V main_arg3 (by decide)).trans h.main_arg3
  main_arg4 := (ops_p17_7_keep V main_arg4 (by decide)).trans h.main_arg4
  main_arg5 := (ops_p17_7_keep V main_arg5 (by decide)).trans h.main_arg5
  main_arg6 := (ops_p17_7_keep V main_arg6 (by decide)).trans h.main_arg6
  main_v27 := (ops_p17_7_keep V main_v27 (by decide)).trans h.main_v27
  main_v524 := (ops_p17_7_keep V main_v524 (by decide)).trans h.main_v524
  main_v526 := (ops_p17_7_keep V main_v526 (by decide)).trans h.main_v526
  main_v528 := (ops_p17_7_keep V main_v528 (by decide)).trans h.main_v528
  main_v530 := (ops_p17_7_keep V main_v530 (by decide)).trans h.main_v530
  main_v747 := (ops_p17_7_keep V main_v747 (by decide)).trans h.main_v747
  main_v762 := (ops_p17_7_keep V main_v762 (by decide)).trans h.main_v762
  main_v764 := (ops_p17_7_keep V main_v764 (by decide)).trans h.main_v764
  main_v769 := w17_7_main_v769 V x0 x1 x2 x3 x4 x5 x6 h
  main_v774 := w17_7_main_v774 V x0 x1 x2 x3 x4 x5 x6 h

/-- Stretch 8 of window 17: @main's operations 1279 … 1287. -/
def ops_p17_8 : List (HloOp τ sig (Elt F)) :=
  [ nullary main_c_294 (constantI S_ 32 0#32),
    unary main_c_294 main_v775 (broadcastInDim S409600 ![] bcast_S_S409600 : (⟨S_, .i32⟩ : BufTy).Contents (Elt F) → (⟨S409600, .i32⟩ : BufTy).Contents (Elt F)),
    binary main_v764 main_v775 main_v776 (cmpi .slt : (⟨S409600, .i32⟩ : BufTy).Contents (Elt F) → (⟨S409600, .i32⟩ : BufTy).Contents (Elt F) → (⟨S409600, .i1⟩ : BufTy).Contents (Elt F)),
    nullary main_c_295 (constantI S_ 32 640#32),
    unary main_c_295 main_v777 (broadcastInDim S409600 ![] bcast_S_S409600 : (⟨S_, .i32⟩ : BufTy).Contents (Elt F) → (⟨S409600, .i32⟩ : BufTy).Contents (Elt F)),
    binary main_v764 main_v777 main_v778 (addi : (⟨S409600, .i32⟩ : BufTy).Contents (Elt F) → (⟨S409600, .i32⟩ : BufTy).Contents (Elt F) → (⟨S409600, .i32⟩ : BufTy).Contents (Elt F)),
    ternary main_v776 main_v778 main_v764 main_v779 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v769 main_v780 (broadcastInDim S409600x1 ![0] bcast_S409600_S409600x1_0 : (⟨S409600, .i32⟩ : BufTy).Contents (Elt F) → (⟨S409600x1, .i32⟩ : BufTy).Contents (Elt F)),
    unary main_v774 main_v781 (broadcastInDim S409600x1 ![0] bcast_S409600_S409600x1_0 : (⟨S409600, .i32⟩ : BufTy).Contents (Elt F) → (⟨S409600x1, .i32⟩ : BufTy).Contents (Elt F)) ]
abbrev ops_p17_8_W : List (Ref sig .tc) := [main_c_294, main_v775, main_v776, main_c_295, main_v777, main_v778, main_v779, main_v780, main_v781]
theorem ops_p17_8_writes : (ops_p17_8 : List (HloOp τ sig (Elt F))).Forall fun op => op.writes ⊆ (ops_p17_8_W.map (Proc.devRef (τ := τ) .tc)).toFinset := by
  simp only [ops_p17_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p17_8_keep (V : Valuation τ sig (Elt F)) (r : Ref sig .tc) (h : r ∉ ops_p17_8_W) :
    after ops_p17_8 V (Proc.devRef .tc r) = V (Proc.devRef .tc r) :=
  after_of_writes_sub ops_p17_8 _ ops_p17_8_writes h

set_option maxRecDepth 8192 in
set_option maxHeartbeats 1000000 in
theorem w17_8_main_v779 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_8 V x0 x1 x2 x3 x4 x5 x6) :
    after ops_p17_8 V (Proc.devRef .tc main_v779) = val_main_v779 (F := F) x1 := by
  simp only [ops_p17_8]
  after_results_w
  simp only [h.main_v764]
  rfl

set_option maxRecDepth 8192 in
set_option maxHeartbeats 1000000 in
theorem w17_8_main_v780 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_8 V x0 x1 x2 x3 x4 x5 x6) :
    after ops_p17_8 V (Proc.devRef .tc main_v780) = val_main_v780 (F := F) x1 := by
  simp only [ops_p17_8]
  after_results_w
  simp only [h.main_v769]
  rfl

set_option maxRecDepth 8192 in
set_option maxHeartbeats 1000000 in
theorem w17_8_main_v781 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_8 V x0 x1 x2 x3 x4 x5 x6) :
    after ops_p17_8 V (Proc.devRef .tc main_v781) = val_main_v781 (F := F) x1 := by
  simp only [ops_p17_8]
  after_results_w
  simp only [h.main_v774]
  rfl

theorem step17_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17_8 V x0 x1 x2 x3 x4 x5 x6) : Inv18 (after ops_p17_8 V) x0 x1 x2 x3 x4 x5 x6 where
  main_arg0 := (ops_p17_8_keep V main_arg0 (by decide)).trans h.main_arg0
  main_arg1 := (ops_p17_8_keep V main_arg1 (by decide)).trans h.main_arg1
  main_arg2 := (ops_p17_8_keep V main_arg2 (by decide)).trans h.main_arg2
  main_arg3 := (ops_p17_8_keep V main_arg3 (by decide)).trans h.main_arg3
  main_arg4 := (ops_p17_8_keep V main_arg4 (by decide)).trans h.main_arg4
  main_arg5 := (ops_p17_8_keep V main_arg5 (by decide)).trans h.main_arg5
  main_arg6 := (ops_p17_8_keep V main_arg6 (by decide)).trans h.main_arg6
  main_v27 := (ops_p17_8_keep V main_v27 (by decide)).trans h.main_v27
  main_v524 := (ops_p17_8_keep V main_v524 (by decide)).trans h.main_v524
  main_v526 := (ops_p17_8_keep V main_v526 (by decide)).trans h.main_v526
  main_v528 := (ops_p17_8_keep V main_v528 (by decide)).trans h.main_v528
  main_v530 := (ops_p17_8_keep V main_v530 (by decide)).trans h.main_v530
  main_v747 := (ops_p17_8_keep V main_v747 (by decide)).trans h.main_v747
  main_v762 := (ops_p17_8_keep V main_v762 (by decide)).trans h.main_v762
  main_v779 := w17_8_main_v779 V x0 x1 x2 x3 x4 x5 x6 h
  main_v780 := w17_8_main_v780 V x0 x1 x2 x3 x4 x5 x6 h
  main_v781 := w17_8_main_v781 V x0 x1 x2 x3 x4 x5 x6 h

set_option maxRecDepth 8192 in
theorem ops_p17_split : (ops_p17 : List (HloOp τ sig (Elt F))) = ops_p17_0 ++ (ops_p17_1 ++ (ops_p17_2 ++ (ops_p17_3 ++ (ops_p17_4 ++ (ops_p17_5 ++ (ops_p17_6 ++ (ops_p17_7 ++ (ops_p17_8)))))))) := rfl

/-- Window 17 carries the staged reading from boundary 17 to boundary 18. -/
theorem step17 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv17 V x0 x1 x2 x3 x4 x5 x6) : Inv18 (after ops_p17 V) x0 x1 x2 x3 x4 x5 x6 := by
  rw [ops_p17_split]; simp only [after_app]
  exact step17_8 _ x0 x1 x2 x3 x4 x5 x6 (step17_7 _ x0 x1 x2 x3 x4 x5 x6 (step17_6 _ x0 x1 x2 x3 x4 x5 x6 (step17_5 _ x0 x1 x2 x3 x4 x5 x6 (step17_4 _ x0 x1 x2 x3 x4 x5 x6 (step17_3 _ x0 x1 x2 x3 x4 x5 x6 (step17_2 _ x0 x1 x2 x3 x4 x5 x6 (step17_1 _ x0 x1 x2 x3 x4 x5 x6 (step17_0 V x0 x1 x2 x3 x4 x5 x6 h))))))))

end Cert.ReferenceIdeal.Hand

end
-- ==== Proof.Ref.W18.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 18 of @main: its operations 1288 … 1362 of 1688, in order. -/
def ops_p18 : List (HloOp τ sig (Elt F)) :=
  [ unary main_v779 main_v782 (broadcastInDim S409600x1 ![0] bcast_S409600_S409600x1_0 : (⟨S409600, .i32⟩ : BufTy).Contents (Elt F) → (⟨S409600x1, .i32⟩ : BufTy).Contents (Elt F)),
    nary ![main_v780, main_v781, main_v782] main_v783 (fun u => concatenate S409600x3 1 [⟨S409600x1, u 0⟩, ⟨S409600x1, u 1⟩, ⟨S409600x1, u 2⟩] concatenates_S409600x1_S409600x1_S409600x1_S409600x3_d1),
    binary main_v27 main_v783 main_v784 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_296 (constantI S_ 32 0#32),
    unary main_c_296 main_v785 (broadcastInDim S409600 ![] bcast_S_S409600 : (⟨S_, .i32⟩ : BufTy).Contents (Elt F) → (⟨S409600, .i32⟩ : BufTy).Contents (Elt F)),
    binary main_v784 main_v785 main_v786 (cmpi .sge : (⟨S409600, .i32⟩ : BufTy).Contents (Elt F) → (⟨S409600, .i32⟩ : BufTy).Contents (Elt F) → (⟨S409600, .i1⟩ : BufTy).Contents (Elt F)),
    binary main_v762 main_v786 main_v787 (andi : (⟨S409600, .i1⟩ : BufTy).Contents (Elt F) → (⟨S409600, .i1⟩ : BufTy).Contents (Elt F) → (⟨S409600, .i1⟩ : BufTy).Contents (Elt F)),
    nullary main_c_297 (constantI S_ 32 0#32),
    unary main_c_297 main_call55_v0 (id : (⟨S_, .i32⟩ : BufTy).Contents (Elt F) → (⟨S_, .i32⟩ : BufTy).Contents (Elt F)),
    unary main_call55_v0 main_call55_v1 ((broadcastInDim S409600 ![] bcast_S_S409600) : (⟨S_, .i32⟩ : BufTy).Contents (Elt F) → (⟨S409600, .i32⟩ : BufTy).Contents (Elt F)),
    ternary main_v787 main_v784 main_call55_v1 main_v788 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_298 (constantI S_ 32 0#32),
    unary main_c_298 main_v789 (broadcastInDim S409600 ![] bcast_S_S409600 : (⟨S_, .i32⟩ : BufTy).Contents (Elt F) → (⟨S409600, .i32⟩ : BufTy).Contents (Elt F)),
    binary main_v788 main_v789 main_v790 (cmpi .slt : (⟨S409600, .i32⟩ : BufTy).Contents (Elt F) → (⟨S409600, .i32⟩ : BufTy).Contents (Elt F) → (⟨S409600, .i1⟩ : BufTy).Contents (Elt F)),
    nullary main_c_299 (constantI S_ 32 409600#32),
    unary main_c_299 main_v791 (broadcastInDim S409600 ![] bcast_S_S409600 : (⟨S_, .i32⟩ : BufTy).Contents (Elt F) → (⟨S409600, .i32⟩ : BufTy).Contents (Elt F)),
    binary main_v788 main_v791 main_v792 (addi : (⟨S409600, .i32⟩ : BufTy).Contents (Elt F) → (⟨S409600, .i32⟩ : BufTy).Contents (Elt F) → (⟨S409600, .i32⟩ : BufTy).Contents (Elt F)),
    ternary main_v790 main_v792 main_v788 main_v793 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v793 main_v794 (broadcastInDim S409600x1 ![0] bcast_S409600_S409600x1_0 : (⟨S409600, .i32⟩ : BufTy).Contents (Elt F) → (⟨S409600x1, .i32⟩ : BufTy).Contents (Elt F)),
    binary main_v524 main_v794 main_v795 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v787 main_v796 (broadcastInDim S409600x1 ![0] bcast_S409600_S409600x1_0 : (⟨S409600, .i1⟩ : BufTy).Contents (Elt F) → (⟨S409600x1, .i1⟩ : BufTy).Contents (Elt F)),
    nullary main_cst_300 (constant S_ .f32 0x00000000#32),
    unary main_cst_300 main_call56_v0 (id : (⟨S_, .f32⟩ : BufTy).Contents (Elt F) → (⟨S_, .f32⟩ : BufTy).Contents (Elt F)),
    unary main_v796 main_call56_v1 ((broadcastInDim S409600x64 ![0, 1] bcast_S409600x1_S409600x64_0_1) : (⟨S409600x1, .i1⟩ : BufTy).Contents (Elt F) → (⟨S409600x64, .i1⟩ : BufTy).Contents (Elt F)),
    unary main_call56_v0 main_call56_v2 ((broadcastInDim S409600x64 ![] bcast_S_S409600x64) : (⟨S_, .f32⟩ : BufTy).Contents (Elt F) → (⟨S409600x64, .f32⟩ : BufTy).Contents (Elt F)),
    ternary main_call56_v1 main_v795 main_call56_v2 main_v797 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v798 ((extractStridedSlice S1x1x64x64 ![1, 1, 0, 0] · slices_S3x3x64x64_S1x1x64x64_1_1_0_0) : (⟨S3x3x64x64, .f32⟩ : BufTy).Contents (Elt F) → (⟨S1x1x64x64, .f32⟩ : BufTy).Contents (Elt F)),
    reshape main_v798 main_v799 rfl shapeCasts_S1x1x64x64_S64x64,
    binary main_v797 main_v799 main_v800 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v747 main_v800 main_v801 (addf : (⟨S409600x64, .f32⟩ : BufTy).Contents (Elt F) → (⟨S409600x64, .f32⟩ : BufTy).Contents (Elt F) → (⟨S409600x64, .f32⟩ : BufTy).Contents (Elt F)),
    nullary main_c_301 (constantI S_ 32 0#32),
    unary main_c_301 main_v802 (broadcastInDim S409600 ![] bcast_S_S409600 : (⟨S_, .i32⟩ : BufTy).Contents (Elt F) → (⟨S409600, .i32⟩ : BufTy).Contents (Elt F)),
    binary main_v528 main_v802 main_v803 (addi : (⟨S409600, .i32⟩ : BufTy).Contents (Elt F) → (⟨S409600, .i32⟩ : BufTy).Contents (Elt F) → (⟨S409600, .i32⟩ : BufTy).Contents (Elt F)),
    nullary main_c_302 (constantI S_ 32 1#32),
    unary main_c_302 main_v804 (broadcastInDim S409600 ![] bcast_S_S409600 : (⟨S_, .i32⟩ : BufTy).Contents (Elt F) → (⟨S409600, .i32⟩ : BufTy).Contents (Elt F)),
    binary main_v530 main_v804 main_v805 (addi : (⟨S409600, .i32⟩ : BufTy).Contents (Elt F) → (⟨S409600, .i32⟩ : BufTy).Contents (Elt F) → (⟨S409600, .i32⟩ : BufTy).Contents (Elt F)),
    nullary main_c_303 (constantI S_ 32 0#32),
    unary main_c_303 main_v806 (broadcastInDim S409600 ![] bcast_S_S409600 : (⟨S_, .i32⟩ : BufTy).Contents (Elt F) → (⟨S409600, .i32⟩ : BufTy).Contents (Elt F)),
    binary main_v803 main_v806 main_v807 (cmpi .sge : (⟨S409600, .i32⟩ : BufTy).Contents (Elt F) → (⟨S409600, .i32⟩ : BufTy).Contents (Elt F) → (⟨S409600, .i1⟩ : BufTy).Contents (Elt F)),
    nullary main_c_304 (constantI S_ 32 640#32),
    unary main_c_304 main_v808 (broadcastInDim S409600 ![] bcast_S_S409600 : (⟨S_, .i32⟩ : BufTy).Contents (Elt F) → (⟨S409600, .i32⟩ : BufTy).Contents (Elt F)),
    binary main_v803 main_v808 main_v809 (cmpi .slt : (⟨S409600, .i32⟩ : BufTy).Contents (Elt F) → (⟨S409600, .i32⟩ : BufTy).Contents (Elt F) → (⟨S409600, .i1⟩ : BufTy).Contents (Elt F)),
    binary main_v807 main_v809 main_v810 (andi : (⟨S409600, .i1⟩ : BufTy).Contents (Elt F) → (⟨S409600, .i1⟩ : BufTy).Contents (Elt F) → (⟨S409600, .i1⟩ : BufTy).Contents (Elt F)),
    nullary main_c_305 (constantI S_ 32 0#32),
    unary main_c_305 main_v811 (broadcastInDim S409600 ![] bcast_S_S409600 : (⟨S_, .i32⟩ : BufTy).Contents (Elt F) → (⟨S409600, .i32⟩ : BufTy).Contents (Elt F)),
    binary main_v805 main_v811 main_v812 (cmpi .sge : (⟨S409600, .i32⟩ : BufTy).Contents (Elt F) → (⟨S409600, .i32⟩ : BufTy).Contents (Elt F) → (⟨S409600, .i1⟩ : BufTy).Contents (Elt F)),
    binary main_v810 main_v812 main_v813 (andi : (⟨S409600, .i1⟩ : BufTy).Contents (Elt F) → (⟨S409600, .i1⟩ : BufTy).Contents (Elt F) → (⟨S409600, .i1⟩ : BufTy).Contents (Elt F)),
    nullary main_c_306 (constantI S_ 32 640#32),
    unary main_c_306 main_v814 (broadcastInDim S409600 ![] bcast_S_S409600 : (⟨S_, .i32⟩ : BufTy).Contents (Elt F) → (⟨S409600, .i32⟩ : BufTy).Contents (Elt F)),
    binary main_v805 main_v814 main_v815 (cmpi .slt : (⟨S409600, .i32⟩ : BufTy).Contents (Elt F) → (⟨S409600, .i32⟩ : BufTy).Contents (Elt F) → (⟨S409600, .i1⟩ : BufTy).Contents (Elt F)),
    binary main_v813 main_v815 main_v816 (andi : (⟨S409600, .i1⟩ : BufTy).Contents (Elt F) → (⟨S409600, .i1⟩ : BufTy).Contents (Elt F) → (⟨S409600, .i1⟩ : BufTy).Contents (Elt F)),
    nullary main_c_307 (constantI S_ 32 0#32),
    nullary main_c_308 (constantI S_ 32 639#32),
    unary main_c_307 main_call57_v0 (id : (⟨S_, .i32⟩ : BufTy).Contents (Elt F) → (⟨S_, .i32⟩ : BufTy).Contents (Elt F)),
    unary main_call57_v0 main_call57_v1 ((broadcastInDim S409600 ![] bcast_S_S409600) : (⟨S_, .i32⟩ : BufTy).Contents (Elt F) → (⟨S409600, .i32⟩ : BufTy).Contents (Elt F)),
    binary main_call57_v1 main_v803 main_call57_v2 (maxsi : (⟨S409600, .i32⟩ : BufTy).Contents (Elt F) → (⟨S409600, .i32⟩ : BufTy).Contents (Elt F) → (⟨S409600, .i32⟩ : BufTy).Contents (Elt F)),
    unary main_c_308 main_call57_v3 (id : (⟨S_, .i32⟩ : BufTy).Contents (Elt F) → (⟨S_, .i32⟩ : BufTy).Contents (Elt F)),
    unary main_call57_v3 main_call57_v4 ((broadcastInDim S409600 ![] bcast_S_S409600) : (⟨S_, .i32⟩ : BufTy).Contents (Elt F) → (⟨S409600, .i32⟩ : BufTy).Contents (Elt F)),
    binary main_call57_v4 main_call57_v2 main_v817 (minsi : (⟨S409600, .i32⟩ : BufTy).Contents (Elt F) → (⟨S409600, .i32⟩ : BufTy).Contents (Elt F) → (⟨S409600, .i32⟩ : BufTy).Contents (Elt F)),
    nullary main_c_309 (constantI S_ 32 0#32),
    nullary main_c_310 (constantI S_ 32 639#32),
    unary main_c_309 main_call58_v0 (id : (⟨S_, .i32⟩ : BufTy).Contents (Elt F) → (⟨S_, .i32⟩ : BufTy).Contents (Elt F)),
    unary main_call58_v0 main_call58_v1 ((broadcastInDim S409600 ![] bcast_S_S409600) : (⟨S_, .i32⟩ : BufTy).Contents (Elt F) → (⟨S409600, .i32⟩ : BufTy).Contents (Elt F)),
    binary main_call58_v1 main_v805 main_call58_v2 (maxsi : (⟨S409600, .i32⟩ : BufTy).Contents (Elt F) → (⟨S409600, .i32⟩ : BufTy).Contents (Elt F) → (⟨S409600, .i32⟩ : BufTy).Contents (Elt F)),
    unary main_c_310 main_call58_v3 (id : (⟨S_, .i32⟩ : BufTy).Contents (Elt F) → (⟨S_, .i32⟩ : BufTy).Contents (Elt F)),
    unary main_call58_v3 main_call58_v4 ((broadcastInDim S409600 ![] bcast_S_S409600) : (⟨S_, .i32⟩ : BufTy).Contents (Elt F) → (⟨S409600, .i32⟩ : BufTy).Contents (Elt F)),
    binary main_call58_v4 main_call58_v2 main_v818 (minsi : (⟨S409600, .i32⟩ : BufTy).Contents (Elt F) → (⟨S409600, .i32⟩ : BufTy).Contents (Elt F) → (⟨S409600, .i32⟩ : BufTy).Contents (Elt F)),
    nullary main_c_311 (constantI S_ 32 0#32),
    unary main_c_311 main_v819 (broadcastInDim S409600 ![] bcast_S_S409600 : (⟨S_, .i32⟩ : BufTy).Contents (Elt F) → (⟨S409600, .i32⟩ : BufTy).Contents (Elt F)),
    binary main_v526 main_v819 main_v820 (cmpi .slt : (⟨S409600, .i32⟩ : BufTy).Contents (Elt F) → (⟨S409600, .i32⟩ : BufTy).Contents (Elt F) → (⟨S409600, .i1⟩ : BufTy).Contents (Elt F)),
    nullary main_c_312 (constantI S_ 32 2#32),
    unary main_c_312 main_v821 (broadcastInDim S409600 ![] bcast_S_S409600 : (⟨S_, .i32⟩ : BufTy).Contents (Elt F) → (⟨S409600, .i32⟩ : BufTy).Contents (Elt F)),
    binary main_v526 main_v821 main_v822 (addi : (⟨S409600, .i32⟩ : BufTy).Contents (Elt F) → (⟨S409600, .i32⟩ : BufTy).Contents (Elt F) → (⟨S409600, .i32⟩ : BufTy).Contents (Elt F)),
    ternary main_v820 main_v822 main_v526 main_v823 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_313 (constantI S_ 32 0#32) ]

set_option maxRecDepth 8192 in
set_option maxHeartbeats 4000000 in
theorem main_part18_eq (c : Dev nD) : main_part18 (F := F) c = seq ops_p18 := by
  simp only [main_part18, ops_p18, fn_clip.body, fn_where.body, fn_where_0.body, fn_relu.body, seq, bind_assoc, pure_bind]
  rfl

set_option maxRecDepth 8192 in
theorem ops_p18_sub : (ops_p18 : List (HloOp τ sig (Elt F))).Forall fun op => op.bufs ⊆ tcRefs τ sig :=
  ⟨unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub ..⟩

set_option maxRecDepth 8192 in
theorem ops_p18_fresh : ∀ op ∈ (ops_p18 : List (HloOp τ sig (Elt F))), op.fresh = ∅ := by
  unfold ops_p18; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 1296 on hold before it. -/
structure Inv18_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v784 : V (Proc.devRef .tc main_v784) = val_main_v784 (F := F) x1
  main_v787 : V (Proc.devRef .tc main_v787) = val_main_v787 (F := F) x1
  main_c_297 : V (Proc.devRef .tc main_c_297) = val_main_c_297 (F := F)

/-- What the buffers read from operation 1304 on hold before it. -/
structure Inv18_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v787 : V (Proc.devRef .tc main_v787) = val_main_v787 (F := F) x1
  main_v788 : V (Proc.devRef .tc main_v788) = val_main_v788 (F := F) x1
  main_v790 : V (Proc.devRef .tc main_v790) = val_main_v790 (F := F) x1
  main_v791 : V (Proc.devRef .tc main_v791) = val_main_v791 (F := F)

/-- What the buffers read from operation 1312 on hold before it. -/
structure Inv18_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v747 : V (Proc.devRef .tc main_v747) = val_main_v747 (F := F) x0 x1 x2 x3 x4
  main_v795 : V (Proc.devRef .tc main_v795) = val_main_v795 (F := F) x0 x1 x2 x3
  main_call56_v0 : V (Proc.devRef .tc main_call56_v0) = val_main_call56_v0 (F := F)
  main_call56_v1 : V (Proc.devRef .tc main_call56_v1) = val_main_call56_v1 (F := F) x1

/-- What the buffers read from operation 1320 on hold before it. -/
structure Inv18_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v802 : V (Proc.devRef .tc main_v802) = val_main_v802 (F := F)

/-- What the buffers read from operation 1328 on hold before it. -/
structure Inv18_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v803 : V (Proc.devRef .tc main_v803) = val_main_v803 (F := F) x1
  main_v805 : V (Proc.devRef .tc main_v805) = val_main_v805 (F := F) x1
  main_v807 : V (Proc.devRef .tc main_v807) = val_main_v807 (F := F) x1
  main_c_304 : V (Proc.devRef .tc main_c_304) = val_main_c_304 (F := F)

/-- What the buffers read from operation 1336 on hold before it. -/
structure Inv18_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v803 : V (Proc.devRef .tc main_v803) = val_main_v803 (F := F) x1
  main_v805 : V (Proc.devRef .tc main_v805) = val_main_v805 (F := F) x1
  main_v813 : V (Proc.devRef .tc main_v813) = val_main_v813 (F := F) x1
  main_c_306 : V (Proc.devRef .tc main_c_306) = val_main_c_306 (F := F)

/-- What the buffers read from operation 1344 on hold before it. -/
structure Inv18_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v805 : V (Proc.devRef .tc main_v805) = val_main_v805 (F := F) x1
  main_v816 : V (Proc.devRef .tc main_v816) = val_main_v816 (F := F) x1
  main_c_308 : V (Proc.devRef .tc main_c_308) = val_main_c_308 (F := F)
  main_call57_v2 : V (Proc.devRef .tc main_call57_v2) = val_main_call57_v2 (F := F) x1

/-- What the buffers read from operation 1352 on hold before it. -/
structure Inv18_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v816 : V (Proc.devRef .tc main_v816) = val_main_v816 (F := F) x1
  main_v817 : V (Proc.devRef .tc main_v817) = val_main_v817 (F := F) x1
  main_c_310 : V (Proc.devRef .tc main_c_310) = val_main_c_310 (F := F)
  main_call58_v2 : V (Proc.devRef .tc main_call58_v2) = val_main_call58_v2 (F := F) x1

/-- What the buffers read from operation 1360 on hold before it. -/
structure Inv18_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v816 : V (Proc.devRef .tc main_v816) = val_main_v816 (F := F) x1
  main_v817 : V (Proc.devRef .tc main_v817) = val_main_v817 (F := F) x1
  main_v818 : V (Proc.devRef .tc main_v818) = val_main_v818 (F := F) x1
  main_v820 : V (Proc.devRef .tc main_v820) = val_main_v820 (F := F) x1
  main_v821 : V (Proc.devRef .tc main_v821) = val_main_v821 (F := F)

/-- Stretch 0 of window 18: @main's operations 1288 … 1295. -/
def ops_p18_0 : List (HloOp τ sig (Elt F)) :=
  [ unary main_v779 main_v782 (broadcastInDim S409600x1 ![0] bcast_S409600_S409600x1_0 : (⟨S409600, .i32⟩ : BufTy).Contents (Elt F) → (⟨S409600x1, .i32⟩ : BufTy).Contents (Elt F)),
    nary ![main_v780, main_v781, main_v782] main_v783 (fun u => concatenate S409600x3 1 [⟨S409600x1, u 0⟩, ⟨S409600x1, u 1⟩, ⟨S409600x1, u 2⟩] concatenates_S409600x1_S409600x1_S409600x1_S409600x3_d1),
    binary main_v27 main_v783 main_v784 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_296 (constantI S_ 32 0#32),
    unary main_c_296 main_v785 (broadcastInDim S409600 ![] bcast_S_S409600 : (⟨S_, .i32⟩ : BufTy).Contents (Elt F) → (⟨S409600, .i32⟩ : BufTy).Contents (Elt F)),
    binary main_v784 main_v785 main_v786 (cmpi .sge : (⟨S409600, .i32⟩ : BufTy).Contents (Elt F) → (⟨S409600, .i32⟩ : BufTy).Contents (Elt F) → (⟨S409600, .i1⟩ : BufTy).Contents (Elt F)),
    binary main_v762 main_v786 main_v787 (andi : (⟨S409600, .i1⟩ : BufTy).Contents (Elt F) → (⟨S409600, .i1⟩ : BufTy).Contents (Elt F) → (⟨S409600, .i1⟩ : BufTy).Contents (Elt F)),
    nullary main_c_297 (constantI S_ 32 0#32) ]
abbrev ops_p18_0_W : List (Ref sig .tc) := [main_v782, main_v783, main_v784, main_c_296, main_v785, main_v786, main_v787, main_c_297]
theorem ops_p18_0_writes : (ops_p18_0 : List (HloOp τ sig (Elt F))).Forall fun op => op.writes ⊆ (ops_p18_0_W.map (Proc.devRef (τ := τ) .tc)).toFinset := by
  simp only [ops_p18_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p18_0_keep (V : Valuation τ sig (Elt F)) (r : Ref sig .tc) (h : r ∉ ops_p18_0_W) :
    after ops_p18_0 V (Proc.devRef .tc r) = V (Proc.devRef .tc r) :=
  after_of_writes_sub ops_p18_0 _ ops_p18_0_writes h

set_option maxRecDepth 8192 in
set_option maxHeartbeats 1000000 in
theorem w18_0_main_v784 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18 V x0 x1 x2 x3 x4 x5 x6) :
    after ops_p18_0 V (Proc.devRef .tc main_v784) = val_main_v784 (F := F) x1 := by
  simp only [ops_p18_0]
  after_results_w
  simp only [h.main_v779, h.main_v781, h.main_v780, h.main_v27]
  rfl

set_option maxRecDepth 8192 in
set_option maxHeartbeats 1000000 in
theorem w18_0_main_v787 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18 V x0 x1 x2 x3 x4 x5 x6) :
    after ops_p18_0 V (Proc.devRef .tc main_v787) = val_main_v787 (F := F) x1 := by
  simp only [ops_p18_0]
  after_results_w
  simp only [h.main_v779, h.main_v781, h.main_v780, h.main_v27, h.main_v762]
  rfl

set_option maxRecDepth 8192 in
set_option maxHeartbeats 1000000 in
theorem w18_0_main_c_297 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18 V x0 x1 x2 x3 x4 x5 x6) :
    after ops_p18_0 V (Proc.devRef .tc main_c_297) = val_main_c_297 (F := F) := by
  simp only [ops_p18_0]
  after_results_w
  rfl

theorem step18_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18 V x0 x1 x2 x3 x4 x5 x6) : Inv18_1 (after ops_p18_0 V) x0 x1 x2 x3 x4 x5 x6 where
  main_arg0 := (ops_p18_0_keep V main_arg0 (by decide)).trans h.main_arg0
  main_arg1 := (ops_p18_0_keep V main_arg1 (by decide)).trans h.main_arg1
  main_arg2 := (ops_p18_0_keep V main_arg2 (by decide)).trans h.main_arg2
  main_arg3 := (ops_p18_0_keep V main_arg3 (by decide)).trans h.main_arg3
  main_arg4 := (ops_p18_0_keep V main_arg4 (by decide)).trans h.main_arg4
  main_arg5 := (ops_p18_0_keep V main_arg5 (by decide)).trans h.main_arg5
  main_arg6 := (ops_p18_0_keep V main_arg6 (by decide)).trans h.main_arg6
  main_v27 := (ops_p18_0_keep V main_v27 (by decide)).trans h.main_v27
  main_v524 := (ops_p18_0_keep V main_v524 (by decide)).trans h.main_v524
  main_v526 := (ops_p18_0_keep V main_v526 (by decide)).trans h.main_v526
  main_v528 := (ops_p18_0_keep V main_v528 (by decide)).trans h.main_v528
  main_v530 := (ops_p18_0_keep V main_v530 (by decide)).trans h.main_v530
  main_v747 := (ops_p18_0_keep V main_v747 (by decide)).trans h.main_v747
  main_v784 := w18_0_main_v784 V x0 x1 x2 x3 x4 x5 x6 h
  main_v787 := w18_0_main_v787 V x0 x1 x2 x3 x4 x5 x6 h
  main_c_297 := w18_0_main_c_297 V x0 x1 x2 x3 x4 x5 x6 h

/-- Stretch 1 of window 18: @main's operations 1296 … 1303. -/
def ops_p18_1 : List (HloOp τ sig (Elt F)) :=
  [ unary main_c_297 main_call55_v0 (id : (⟨S_, .i32⟩ : BufTy).Contents (Elt F) → (⟨S_, .i32⟩ : BufTy).Contents (Elt F)),
    unary main_call55_v0 main_call55_v1 ((broadcastInDim S409600 ![] bcast_S_S409600) : (⟨S_, .i32⟩ : BufTy).Contents (Elt F) → (⟨S409600, .i32⟩ : BufTy).Contents (Elt F)),
    ternary main_v787 main_v784 main_call55_v1 main_v788 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_298 (constantI S_ 32 0#32),
    unary main_c_298 main_v789 (broadcastInDim S409600 ![] bcast_S_S409600 : (⟨S_, .i32⟩ : BufTy).Contents (Elt F) → (⟨S409600, .i32⟩ : BufTy).Contents (Elt F)),
    binary main_v788 main_v789 main_v790 (cmpi .slt : (⟨S409600, .i32⟩ : BufTy).Contents (Elt F) → (⟨S409600, .i32⟩ : BufTy).Contents (Elt F) → (⟨S409600, .i1⟩ : BufTy).Contents (Elt F)),
    nullary main_c_299 (constantI S_ 32 409600#32),
    unary main_c_299 main_v791 (broadcastInDim S409600 ![] bcast_S_S409600 : (⟨S_, .i32⟩ : BufTy).Contents (Elt F) → (⟨S409600, .i32⟩ : BufTy).Contents (Elt F)) ]
abbrev ops_p18_1_W : List (Ref sig .tc) := [main_call55_v0, main_call55_v1, main_v788, main_c_298, main_v789, main_v790, main_c_299, main_v791]
theorem ops_p18_1_writes : (ops_p18_1 : List (HloOp τ sig (Elt F))).Forall fun op => op.writes ⊆ (ops_p18_1_W.map (Proc.devRef (τ := τ) .tc)).toFinset := by
  simp only [ops_p18_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p18_1_keep (V : Valuation τ sig (Elt F)) (r : Ref sig .tc) (h : r ∉ ops_p18_1_W) :
    after ops_p18_1 V (Proc.devRef .tc r) = V (Proc.devRef .tc r) :=
  after_of_writes_sub ops_p18_1 _ ops_p18_1_writes h

set_option maxRecDepth 8192 in
set_option maxHeartbeats 1000000 in
theorem w18_1_main_v788 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_1 V x0 x1 x2 x3 x4 x5 x6) :
    after ops_p18_1 V (Proc.devRef .tc main_v788) = val_main_v788 (F := F) x1 := by
  simp only [ops_p18_1]
  after_results_w
  simp only [h.main_c_297, h.main_v784, h.main_v787]
  rfl

set_option maxRecDepth 8192 in
set_option maxHeartbeats 1000000 in
theorem w18_1_main_v790 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_1 V x0 x1 x2 x3 x4 x5 x6) :
    after ops_p18_1 V (Proc.devRef .tc main_v790) = val_main_v790 (F := F) x1 := by
  simp only [ops_p18_1]
  after_results_w
  simp only [h.main_c_297, h.main_v784, h.main_v787]
  rfl

set_option maxRecDepth 8192 in
set_option maxHeartbeats 1000000 in
theorem w18_1_main_v791 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_1 V x0 x1 x2 x3 x4 x5 x6) :
    after ops_p18_1 V (Proc.devRef .tc main_v791) = val_main_v791 (F := F) := by
  simp only [ops_p18_1]
  after_results_w
  rfl

theorem step18_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_1 V x0 x1 x2 x3 x4 x5 x6) : Inv18_2 (after ops_p18_1 V) x0 x1 x2 x3 x4 x5 x6 where
  main_arg0 := (ops_p18_1_keep V main_arg0 (by decide)).trans h.main_arg0
  main_arg1 := (ops_p18_1_keep V main_arg1 (by decide)).trans h.main_arg1
  main_arg2 := (ops_p18_1_keep V main_arg2 (by decide)).trans h.main_arg2
  main_arg3 := (ops_p18_1_keep V main_arg3 (by decide)).trans h.main_arg3
  main_arg4 := (ops_p18_1_keep V main_arg4 (by decide)).trans h.main_arg4
  main_arg5 := (ops_p18_1_keep V main_arg5 (by decide)).trans h.main_arg5
  main_arg6 := (ops_p18_1_keep V main_arg6 (by decide)).trans h.main_arg6
  main_v27 := (ops_p18_1_keep V main_v27 (by decide)).trans h.main_v27
  main_v524 := (ops_p18_1_keep V main_v524 (by decide)).trans h.main_v524
  main_v526 := (ops_p18_1_keep V main_v526 (by decide)).trans h.main_v526
  main_v528 := (ops_p18_1_keep V main_v528 (by decide)).trans h.main_v528
  main_v530 := (ops_p18_1_keep V main_v530 (by decide)).trans h.main_v530
  main_v747 := (ops_p18_1_keep V main_v747 (by decide)).trans h.main_v747
  main_v787 := (ops_p18_1_keep V main_v787 (by decide)).trans h.main_v787
  main_v788 := w18_1_main_v788 V x0 x1 x2 x3 x4 x5 x6 h
  main_v790 := w18_1_main_v790 V x0 x1 x2 x3 x4 x5 x6 h
  main_v791 := w18_1_main_v791 V x0 x1 x2 x3 x4 x5 x6 h

/-- Stretch 2 of window 18: @main's operations 1304 … 1311. -/
def ops_p18_2 : List (HloOp τ sig (Elt F)) :=
  [ binary main_v788 main_v791 main_v792 (addi : (⟨S409600, .i32⟩ : BufTy).Contents (Elt F) → (⟨S409600, .i32⟩ : BufTy).Contents (Elt F) → (⟨S409600, .i32⟩ : BufTy).Contents (Elt F)),
    ternary main_v790 main_v792 main_v788 main_v793 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v793 main_v794 (broadcastInDim S409600x1 ![0] bcast_S409600_S409600x1_0 : (⟨S409600, .i32⟩ : BufTy).Contents (Elt F) → (⟨S409600x1, .i32⟩ : BufTy).Contents (Elt F)),
    binary main_v524 main_v794 main_v795 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v787 main_v796 (broadcastInDim S409600x1 ![0] bcast_S409600_S409600x1_0 : (⟨S409600, .i1⟩ : BufTy).Contents (Elt F) → (⟨S409600x1, .i1⟩ : BufTy).Contents (Elt F)),
    nullary main_cst_300 (constant S_ .f32 0x00000000#32),
    unary main_cst_300 main_call56_v0 (id : (⟨S_, .f32⟩ : BufTy).Contents (Elt F) → (⟨S_, .f32⟩ : BufTy).Contents (Elt F)),
    unary main_v796 main_call56_v1 ((broadcastInDim S409600x64 ![0, 1] bcast_S409600x1_S409600x64_0_1) : (⟨S409600x1, .i1⟩ : BufTy).Contents (Elt F) → (⟨S409600x64, .i1⟩ : BufTy).Contents (Elt F)) ]
abbrev ops_p18_2_W : List (Ref sig .tc) := [main_v792, main_v793, main_v794, main_v795, main_v796, main_cst_300, main_call56_v0, main_call56_v1]
theorem ops_p18_2_writes : (ops_p18_2 : List (HloOp τ sig (Elt F))).Forall fun op => op.writes ⊆ (ops_p18_2_W.map (Proc.devRef (τ := τ) .tc)).toFinset := by
  simp only [ops_p18_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p18_2_keep (V : Valuation τ sig (Elt F)) (r : Ref sig .tc) (h : r ∉ ops_p18_2_W) :
    after ops_p18_2 V (Proc.devRef .tc r) = V (Proc.devRef .tc r) :=
  after_of_writes_sub ops_p18_2 _ ops_p18_2_writes h

set_option maxRecDepth 8192 in
set_option maxHeartbeats 1000000 in
theorem w18_2_main_v795 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_2 V x0 x1 x2 x3 x4 x5 x6) :
    after ops_p18_2 V (Proc.devRef .tc main_v795) = val_main_v795 (F := F) x0 x1 x2 x3 := by
  simp only [ops_p18_2]
  after_results_w
  simp only [h.main_v788, h.main_v791, h.main_v790, h.main_v524]
  rfl

set_option maxRecDepth 8192 in
set_option maxHeartbeats 1000000 in
theorem w18_2_main_call56_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_2 V x0 x1 x2 x3 x4 x5 x6) :
    after ops_p18_2 V (Proc.devRef .tc main_call56_v0) = val_main_call56_v0 (F := F) := by
  simp only [ops_p18_2]
  after_results_w
  rfl

set_option maxRecDepth 8192 in
set_option maxHeartbeats 1000000 in
theorem w18_2_main_call56_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_2 V x0 x1 x2 x3 x4 x5 x6) :
    after ops_p18_2 V (Proc.devRef .tc main_call56_v1) = val_main_call56_v1 (F := F) x1 := by
  simp only [ops_p18_2]
  after_results_w
  simp only [h.main_v787]
  rfl

theorem step18_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_2 V x0 x1 x2 x3 x4 x5 x6) : Inv18_3 (after ops_p18_2 V) x0 x1 x2 x3 x4 x5 x6 where
  main_arg0 := (ops_p18_2_keep V main_arg0 (by decide)).trans h.main_arg0
  main_arg1 := (ops_p18_2_keep V main_arg1 (by decide)).trans h.main_arg1
  main_arg2 := (ops_p18_2_keep V main_arg2 (by decide)).trans h.main_arg2
  main_arg3 := (ops_p18_2_keep V main_arg3 (by decide)).trans h.main_arg3
  main_arg4 := (ops_p18_2_keep V main_arg4 (by decide)).trans h.main_arg4
  main_arg5 := (ops_p18_2_keep V main_arg5 (by decide)).trans h.main_arg5
  main_arg6 := (ops_p18_2_keep V main_arg6 (by decide)).trans h.main_arg6
  main_v27 := (ops_p18_2_keep V main_v27 (by decide)).trans h.main_v27
  main_v524 := (ops_p18_2_keep V main_v524 (by decide)).trans h.main_v524
  main_v526 := (ops_p18_2_keep V main_v526 (by decide)).trans h.main_v526
  main_v528 := (ops_p18_2_keep V main_v528 (by decide)).trans h.main_v528
  main_v530 := (ops_p18_2_keep V main_v530 (by decide)).trans h.main_v530
  main_v747 := (ops_p18_2_keep V main_v747 (by decide)).trans h.main_v747
  main_v795 := w18_2_main_v795 V x0 x1 x2 x3 x4 x5 x6 h
  main_call56_v0 := w18_2_main_call56_v0 V x0 x1 x2 x3 x4 x5 x6 h
  main_call56_v1 := w18_2_main_call56_v1 V x0 x1 x2 x3 x4 x5 x6 h

/-- Stretch 3 of window 18: @main's operations 1312 … 1319. -/
def ops_p18_3 : List (HloOp τ sig (Elt F)) :=
  [ unary main_call56_v0 main_call56_v2 ((broadcastInDim S409600x64 ![] bcast_S_S409600x64) : (⟨S_, .f32⟩ : BufTy).Contents (Elt F) → (⟨S409600x64, .f32⟩ : BufTy).Contents (Elt F)),
    ternary main_call56_v1 main_v795 main_call56_v2 main_v797 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v798 ((extractStridedSlice S1x1x64x64 ![1, 1, 0, 0] · slices_S3x3x64x64_S1x1x64x64_1_1_0_0) : (⟨S3x3x64x64, .f32⟩ : BufTy).Contents (Elt F) → (⟨S1x1x64x64, .f32⟩ : BufTy).Contents (Elt F)),
    reshape main_v798 main_v799 rfl shapeCasts_S1x1x64x64_S64x64,
    binary main_v797 main_v799 main_v800 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v747 main_v800 main_v801 (addf : (⟨S409600x64, .f32⟩ : BufTy).Contents (Elt F) → (⟨S409600x64, .f32⟩ : BufTy).Contents (Elt F) → (⟨S409600x64, .f32⟩ : BufTy).Contents (Elt F)),
    nullary main_c_301 (constantI S_ 32 0#32),
    unary main_c_301 main_v802 (broadcastInDim S409600 ![] bcast_S_S409600 : (⟨S_, .i32⟩ : BufTy).Contents (Elt F) → (⟨S409600, .i32⟩ : BufTy).Contents (Elt F)) ]
abbrev ops_p18_3_W : List (Ref sig .tc) := [main_call56_v2, main_v797, main_v798, main_v799, main_v800, main_v801, main_c_301, main_v802]
theorem ops_p18_3_writes : (ops_p18_3 : List (HloOp τ sig (Elt F))).Forall fun op => op.writes ⊆ (ops_p18_3_W.map (Proc.devRef (τ := τ) .tc)).toFinset := by
  simp only [ops_p18_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p18_3_keep (V : Valuation τ sig (Elt F)) (r : Ref sig .tc) (h : r ∉ ops_p18_3_W) :
    after ops_p18_3 V (Proc.devRef .tc r) = V (Proc.devRef .tc r) :=
  after_of_writes_sub ops_p18_3 _ ops_p18_3_writes h

set_option maxRecDepth 8192 in
set_option maxHeartbeats 1000000 in
theorem w18_3_main_v801 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_3 V x0 x1 x2 x3 x4 x5 x6) :
    after ops_p18_3 V (Proc.devRef .tc main_v801) = val_main_v801 (F := F) x0 x1 x2 x3 x4 := by
  simp only [ops_p18_3]
  after_results_w
  simp only [h.main_arg4, h.main_call56_v0, h.main_v795, h.main_call56_v1, h.main_v747]
  rfl

set_option maxRecDepth 8192 in
set_option maxHeartbeats 1000000 in
theorem w18_3_main_v802 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_3 V x0 x1 x2 x3 x4 x5 x6) :
    after ops_p18_3 V (Proc.devRef .tc main_v802) = val_main_v802 (F := F) := by
  simp only [ops_p18_3]
  after_results_w
  rfl

theorem step18_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_3 V x0 x1 x2 x3 x4 x5 x6) : Inv18_4 (after ops_p18_3 V) x0 x1 x2 x3 x4 x5 x6 where
  main_arg0 := (ops_p18_3_keep V main_arg0 (by decide)).trans h.main_arg0
  main_arg1 := (ops_p18_3_keep V main_arg1 (by decide)).trans h.main_arg1
  main_arg2 := (ops_p18_3_keep V main_arg2 (by decide)).trans h.main_arg2
  main_arg3 := (ops_p18_3_keep V main_arg3 (by decide)).trans h.main_arg3
  main_arg4 := (ops_p18_3_keep V main_arg4 (by decide)).trans h.main_arg4
  main_arg5 := (ops_p18_3_keep V main_arg5 (by decide)).trans h.main_arg5
  main_arg6 := (ops_p18_3_keep V main_arg6 (by decide)).trans h.main_arg6
  main_v27 := (ops_p18_3_keep V main_v27 (by decide)).trans h.main_v27
  main_v524 := (ops_p18_3_keep V main_v524 (by decide)).trans h.main_v524
  main_v526 := (ops_p18_3_keep V main_v526 (by decide)).trans h.main_v526
  main_v528 := (ops_p18_3_keep V main_v528 (by decide)).trans h.main_v528
  main_v530 := (ops_p18_3_keep V main_v530 (by decide)).trans h.main_v530
  main_v801 := w18_3_main_v801 V x0 x1 x2 x3 x4 x5 x6 h
  main_v802 := w18_3_main_v802 V x0 x1 x2 x3 x4 x5 x6 h

/-- Stretch 4 of window 18: @main's operations 1320 … 1327. -/
def ops_p18_4 : List (HloOp τ sig (Elt F)) :=
  [ binary main_v528 main_v802 main_v803 (addi : (⟨S409600, .i32⟩ : BufTy).Contents (Elt F) → (⟨S409600, .i32⟩ : BufTy).Contents (Elt F) → (⟨S409600, .i32⟩ : BufTy).Contents (Elt F)),
    nullary main_c_302 (constantI S_ 32 1#32),
    unary main_c_302 main_v804 (broadcastInDim S409600 ![] bcast_S_S409600 : (⟨S_, .i32⟩ : BufTy).Contents (Elt F) → (⟨S409600, .i32⟩ : BufTy).Contents (Elt F)),
    binary main_v530 main_v804 main_v805 (addi : (⟨S409600, .i32⟩ : BufTy).Contents (Elt F) → (⟨S409600, .i32⟩ : BufTy).Contents (Elt F) → (⟨S409600, .i32⟩ : BufTy).Contents (Elt F)),
    nullary main_c_303 (constantI S_ 32 0#32),
    unary main_c_303 main_v806 (broadcastInDim S409600 ![] bcast_S_S409600 : (⟨S_, .i32⟩ : BufTy).Contents (Elt F) → (⟨S409600, .i32⟩ : BufTy).Contents (Elt F)),
    binary main_v803 main_v806 main_v807 (cmpi .sge : (⟨S409600, .i32⟩ : BufTy).Contents (Elt F) → (⟨S409600, .i32⟩ : BufTy).Contents (Elt F) → (⟨S409600, .i1⟩ : BufTy).Contents (Elt F)),
    nullary main_c_304 (constantI S_ 32 640#32) ]
abbrev ops_p18_4_W : List (Ref sig .tc) := [main_v803, main_c_302, main_v804, main_v805, main_c_303, main_v806, main_v807, main_c_304]
theorem ops_p18_4_writes : (ops_p18_4 : List (HloOp τ sig (Elt F))).Forall fun op => op.writes ⊆ (ops_p18_4_W.map (Proc.devRef (τ := τ) .tc)).toFinset := by
  simp only [ops_p18_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p18_4_keep (V : Valuation τ sig (Elt F)) (r : Ref sig .tc) (h : r ∉ ops_p18_4_W) :
    after ops_p18_4 V (Proc.devRef .tc r) = V (Proc.devRef .tc r) :=
  after_of_writes_sub ops_p18_4 _ ops_p18_4_writes h

set_option maxRecDepth 8192 in
set_option maxHeartbeats 1000000 in
theorem w18_4_main_v803 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_4 V x0 x1 x2 x3 x4 x5 x6) :
    after ops_p18_4 V (Proc.devRef .tc main_v803) = val_main_v803 (F := F) x1 := by
  simp only [ops_p18_4]
  after_results_w
  simp only [h.main_v802, h.main_v528]
  rfl

set_option maxRecDepth 8192 in
set_option maxHeartbeats 1000000 in
theorem w18_4_main_v805 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_4 V x0 x1 x2 x3 x4 x5 x6) :
    after ops_p18_4 V (Proc.devRef .tc main_v805) = val_main_v805 (F := F) x1 := by
  simp only [ops_p18_4]
  after_results_w
  simp only [h.main_v530]
  rfl

set_option maxRecDepth 8192 in
set_option maxHeartbeats 1000000 in
theorem w18_4_main_v807 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_4 V x0 x1 x2 x3 x4 x5 x6) :
    after ops_p18_4 V (Proc.devRef .tc main_v807) = val_main_v807 (F := F) x1 := by
  simp only [ops_p18_4]
  after_results_w
  simp only [h.main_v802, h.main_v528]
  rfl

set_option maxRecDepth 8192 in
set_option maxHeartbeats 1000000 in
theorem w18_4_main_c_304 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_4 V x0 x1 x2 x3 x4 x5 x6) :
    after ops_p18_4 V (Proc.devRef .tc main_c_304) = val_main_c_304 (F := F) := by
  simp only [ops_p18_4]
  after_results_w
  rfl

theorem step18_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_4 V x0 x1 x2 x3 x4 x5 x6) : Inv18_5 (after ops_p18_4 V) x0 x1 x2 x3 x4 x5 x6 where
  main_arg0 := (ops_p18_4_keep V main_arg0 (by decide)).trans h.main_arg0
  main_arg1 := (ops_p18_4_keep V main_arg1 (by decide)).trans h.main_arg1
  main_arg2 := (ops_p18_4_keep V main_arg2 (by decide)).trans h.main_arg2
  main_arg3 := (ops_p18_4_keep V main_arg3 (by decide)).trans h.main_arg3
  main_arg4 := (ops_p18_4_keep V main_arg4 (by decide)).trans h.main_arg4
  main_arg5 := (ops_p18_4_keep V main_arg5 (by decide)).trans h.main_arg5
  main_arg6 := (ops_p18_4_keep V main_arg6 (by decide)).trans h.main_arg6
  main_v27 := (ops_p18_4_keep V main_v27 (by decide)).trans h.main_v27
  main_v524 := (ops_p18_4_keep V main_v524 (by decide)).trans h.main_v524
  main_v526 := (ops_p18_4_keep V main_v526 (by decide)).trans h.main_v526
  main_v528 := (ops_p18_4_keep V main_v528 (by decide)).trans h.main_v528
  main_v530 := (ops_p18_4_keep V main_v530 (by decide)).trans h.main_v530
  main_v801 := (ops_p18_4_keep V main_v801 (by decide)).trans h.main_v801
  main_v803 := w18_4_main_v803 V x0 x1 x2 x3 x4 x5 x6 h
  main_v805 := w18_4_main_v805 V x0 x1 x2 x3 x4 x5 x6 h
  main_v807 := w18_4_main_v807 V x0 x1 x2 x3 x4 x5 x6 h
  main_c_304 := w18_4_main_c_304 V x0 x1 x2 x3 x4 x5 x6 h

/-- Stretch 5 of window 18: @main's operations 1328 … 1335. -/
def ops_p18_5 : List (HloOp τ sig (Elt F)) :=
  [ unary main_c_304 main_v808 (broadcastInDim S409600 ![] bcast_S_S409600 : (⟨S_, .i32⟩ : BufTy).Contents (Elt F) → (⟨S409600, .i32⟩ : BufTy).Contents (Elt F)),
    binary main_v803 main_v808 main_v809 (cmpi .slt : (⟨S409600, .i32⟩ : BufTy).Contents (Elt F) → (⟨S409600, .i32⟩ : BufTy).Contents (Elt F) → (⟨S409600, .i1⟩ : BufTy).Contents (Elt F)),
    binary main_v807 main_v809 main_v810 (andi : (⟨S409600, .i1⟩ : BufTy).Contents (Elt F) → (⟨S409600, .i1⟩ : BufTy).Contents (Elt F) → (⟨S409600, .i1⟩ : BufTy).Contents (Elt F)),
    nullary main_c_305 (constantI S_ 32 0#32),
    unary main_c_305 main_v811 (broadcastInDim S409600 ![] bcast_S_S409600 : (⟨S_, .i32⟩ : BufTy).Contents (Elt F) → (⟨S409600, .i32⟩ : BufTy).Contents (Elt F)),
    binary main_v805 main_v811 main_v812 (cmpi .sge : (⟨S409600, .i32⟩ : BufTy).Contents (Elt F) → (⟨S409600, .i32⟩ : BufTy).Contents (Elt F) → (⟨S409600, .i1⟩ : BufTy).Contents (Elt F)),
    binary main_v810 main_v812 main_v813 (andi : (⟨S409600, .i1⟩ : BufTy).Contents (Elt F) → (⟨S409600, .i1⟩ : BufTy).Contents (Elt F) → (⟨S409600, .i1⟩ : BufTy).Contents (Elt F)),
    nullary main_c_306 (constantI S_ 32 640#32) ]
abbrev ops_p18_5_W : List (Ref sig .tc) := [main_v808, main_v809, main_v810, main_c_305, main_v811, main_v812, main_v813, main_c_306]
theorem ops_p18_5_writes : (ops_p18_5 : List (HloOp τ sig (Elt F))).Forall fun op => op.writes ⊆ (ops_p18_5_W.map (Proc.devRef (τ := τ) .tc)).toFinset := by
  simp only [ops_p18_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p18_5_keep (V : Valuation τ sig (Elt F)) (r : Ref sig .tc) (h : r ∉ ops_p18_5_W) :
    after ops_p18_5 V (Proc.devRef .tc r) = V (Proc.devRef .tc r) :=
  after_of_writes_sub ops_p18_5 _ ops_p18_5_writes h

set_option maxRecDepth 8192 in
set_option maxHeartbeats 1000000 in
theorem w18_5_main_v813 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_5 V x0 x1 x2 x3 x4 x5 x6) :
    after ops_p18_5 V (Proc.devRef .tc main_v813) = val_main_v813 (F := F) x1 := by
  simp only [ops_p18_5]
  after_results_w
  simp only [h.main_v805, h.main_c_304, h.main_v803, h.main_v807]
  rfl

set_option maxRecDepth 8192 in
set_option maxHeartbeats 1000000 in
theorem w18_5_main_c_306 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_5 V x0 x1 x2 x3 x4 x5 x6) :
    after ops_p18_5 V (Proc.devRef .tc main_c_306) = val_main_c_306 (F := F) := by
  simp only [ops_p18_5]
  after_results_w
  rfl

theorem step18_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_5 V x0 x1 x2 x3 x4 x5 x6) : Inv18_6 (after ops_p18_5 V) x0 x1 x2 x3 x4 x5 x6 where
  main_arg0 := (ops_p18_5_keep V main_arg0 (by decide)).trans h.main_arg0
  main_arg1 := (ops_p18_5_keep V main_arg1 (by decide)).trans h.main_arg1
  main_arg2 := (ops_p18_5_keep V main_arg2 (by decide)).trans h.main_arg2
  main_arg3 := (ops_p18_5_keep V main_arg3 (by decide)).trans h.main_arg3
  main_arg4 := (ops_p18_5_keep V main_arg4 (by decide)).trans h.main_arg4
  main_arg5 := (ops_p18_5_keep V main_arg5 (by decide)).trans h.main_arg5
  main_arg6 := (ops_p18_5_keep V main_arg6 (by decide)).trans h.main_arg6
  main_v27 := (ops_p18_5_keep V main_v27 (by decide)).trans h.main_v27
  main_v524 := (ops_p18_5_keep V main_v524 (by decide)).trans h.main_v524
  main_v526 := (ops_p18_5_keep V main_v526 (by decide)).trans h.main_v526
  main_v528 := (ops_p18_5_keep V main_v528 (by decide)).trans h.main_v528
  main_v530 := (ops_p18_5_keep V main_v530 (by decide)).trans h.main_v530
  main_v801 := (ops_p18_5_keep V main_v801 (by decide)).trans h.main_v801
  main_v803 := (ops_p18_5_keep V main_v803 (by decide)).trans h.main_v803
  main_v805 := (ops_p18_5_keep V main_v805 (by decide)).trans h.main_v805
  main_v813 := w18_5_main_v813 V x0 x1 x2 x3 x4 x5 x6 h
  main_c_306 := w18_5_main_c_306 V x0 x1 x2 x3 x4 x5 x6 h

/-- Stretch 6 of window 18: @main's operations 1336 … 1343. -/
def ops_p18_6 : List (HloOp τ sig (Elt F)) :=
  [ unary main_c_306 main_v814 (broadcastInDim S409600 ![] bcast_S_S409600 : (⟨S_, .i32⟩ : BufTy).Contents (Elt F) → (⟨S409600, .i32⟩ : BufTy).Contents (Elt F)),
    binary main_v805 main_v814 main_v815 (cmpi .slt : (⟨S409600, .i32⟩ : BufTy).Contents (Elt F) → (⟨S409600, .i32⟩ : BufTy).Contents (Elt F) → (⟨S409600, .i1⟩ : BufTy).Contents (Elt F)),
    binary main_v813 main_v815 main_v816 (andi : (⟨S409600, .i1⟩ : BufTy).Contents (Elt F) → (⟨S409600, .i1⟩ : BufTy).Contents (Elt F) → (⟨S409600, .i1⟩ : BufTy).Contents (Elt F)),
    nullary main_c_307 (constantI S_ 32 0#32),
    nullary main_c_308 (constantI S_ 32 639#32),
    unary main_c_307 main_call57_v0 (id : (⟨S_, .i32⟩ : BufTy).Contents (Elt F) → (⟨S_, .i32⟩ : BufTy).Contents (Elt F)),
    unary main_call57_v0 main_call57_v1 ((broadcastInDim S409600 ![] bcast_S_S409600) : (⟨S_, .i32⟩ : BufTy).Contents (Elt F) → (⟨S409600, .i32⟩ : BufTy).Contents (Elt F)),
    binary main_call57_v1 main_v803 main_call57_v2 (maxsi : (⟨S409600, .i32⟩ : BufTy).Contents (Elt F) → (⟨S409600, .i32⟩ : BufTy).Contents (Elt F) → (⟨S409600, .i32⟩ : BufTy).Contents (Elt F)) ]
abbrev ops_p18_6_W : List (Ref sig .tc) := [main_v814, main_v815, main_v816, main_c_307, main_c_308, main_call57_v0, main_call57_v1, main_call57_v2]
theorem ops_p18_6_writes : (ops_p18_6 : List (HloOp τ sig (Elt F))).Forall fun op => op.writes ⊆ (ops_p18_6_W.map (Proc.devRef (τ := τ) .tc)).toFinset := by
  simp only [ops_p18_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p18_6_keep (V : Valuation τ sig (Elt F)) (r : Ref sig .tc) (h : r ∉ ops_p18_6_W) :
    after ops_p18_6 V (Proc.devRef .tc r) = V (Proc.devRef .tc r) :=
  after_of_writes_sub ops_p18_6 _ ops_p18_6_writes h

set_option maxRecDepth 8192 in
set_option maxHeartbeats 1000000 in
theorem w18_6_main_v816 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_6 V x0 x1 x2 x3 x4 x5 x6) :
    after ops_p18_6 V (Proc.devRef .tc main_v816) = val_main_v816 (F := F) x1 := by
  simp only [ops_p18_6]
  after_results_w
  simp only [h.main_c_306, h.main_v805, h.main_v813]
  rfl

set_option maxRecDepth 8192 in
set_option maxHeartbeats 1000000 in
theorem w18_6_main_c_308 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_6 V x0 x1 x2 x3 x4 x5 x6) :
    after ops_p18_6 V (Proc.devRef .tc main_c_308) = val_main_c_308 (F := F) := by
  simp only [ops_p18_6]
  after_results_w
  rfl

set_option maxRecDepth 8192 in
set_option maxHeartbeats 1000000 in
theorem w18_6_main_call57_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_6 V x0 x1 x2 x3 x4 x5 x6) :
    after ops_p18_6 V (Proc.devRef .tc main_call57_v2) = val_main_call57_v2 (F := F) x1 := by
  simp only [ops_p18_6]
  after_results_w
  simp only [h.main_v803]
  rfl

theorem step18_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_6 V x0 x1 x2 x3 x4 x5 x6) : Inv18_7 (after ops_p18_6 V) x0 x1 x2 x3 x4 x5 x6 where
  main_arg0 := (ops_p18_6_keep V main_arg0 (by decide)).trans h.main_arg0
  main_arg1 := (ops_p18_6_keep V main_arg1 (by decide)).trans h.main_arg1
  main_arg2 := (ops_p18_6_keep V main_arg2 (by decide)).trans h.main_arg2
  main_arg3 := (ops_p18_6_keep V main_arg3 (by decide)).trans h.main_arg3
  main_arg4 := (ops_p18_6_keep V main_arg4 (by decide)).trans h.main_arg4
  main_arg5 := (ops_p18_6_keep V main_arg5 (by decide)).trans h.main_arg5
  main_arg6 := (ops_p18_6_keep V main_arg6 (by decide)).trans h.main_arg6
  main_v27 := (ops_p18_6_keep V main_v27 (by decide)).trans h.main_v27
  main_v524 := (ops_p18_6_keep V main_v524 (by decide)).trans h.main_v524
  main_v526 := (ops_p18_6_keep V main_v526 (by decide)).trans h.main_v526
  main_v528 := (ops_p18_6_keep V main_v528 (by decide)).trans h.main_v528
  main_v530 := (ops_p18_6_keep V main_v530 (by decide)).trans h.main_v530
  main_v801 := (ops_p18_6_keep V main_v801 (by decide)).trans h.main_v801
  main_v805 := (ops_p18_6_keep V main_v805 (by decide)).trans h.main_v805
  main_v816 := w18_6_main_v816 V x0 x1 x2 x3 x4 x5 x6 h
  main_c_308 := w18_6_main_c_308 V x0 x1 x2 x3 x4 x5 x6 h
  main_call57_v2 := w18_6_main_call57_v2 V x0 x1 x2 x3 x4 x5 x6 h

/-- Stretch 7 of window 18: @main's operations 1344 … 1351. -/
def ops_p18_7 : List (HloOp τ sig (Elt F)) :=
  [ unary main_c_308 main_call57_v3 (id : (⟨S_, .i32⟩ : BufTy).Contents (Elt F) → (⟨S_, .i32⟩ : BufTy).Contents (Elt F)),
    unary main_call57_v3 main_call57_v4 ((broadcastInDim S409600 ![] bcast_S_S409600) : (⟨S_, .i32⟩ : BufTy).Contents (Elt F) → (⟨S409600, .i32⟩ : BufTy).Contents (Elt F)),
    binary main_call57_v4 main_call57_v2 main_v817 (minsi : (⟨S409600, .i32⟩ : BufTy).Contents (Elt F) → (⟨S409600, .i32⟩ : BufTy).Contents (Elt F) → (⟨S409600, .i32⟩ : BufTy).Contents (Elt F)),
    nullary main_c_309 (constantI S_ 32 0#32),
    nullary main_c_310 (constantI S_ 32 639#32),
    unary main_c_309 main_call58_v0 (id : (⟨S_, .i32⟩ : BufTy).Contents (Elt F) → (⟨S_, .i32⟩ : BufTy).Contents (Elt F)),
    unary main_call58_v0 main_call58_v1 ((broadcastInDim S409600 ![] bcast_S_S409600) : (⟨S_, .i32⟩ : BufTy).Contents (Elt F) → (⟨S409600, .i32⟩ : BufTy).Contents (Elt F)),
    binary main_call58_v1 main_v805 main_call58_v2 (maxsi : (⟨S409600, .i32⟩ : BufTy).Contents (Elt F) → (⟨S409600, .i32⟩ : BufTy).Contents (Elt F) → (⟨S409600, .i32⟩ : BufTy).Contents (Elt F)) ]
abbrev ops_p18_7_W : List (Ref sig .tc) := [main_call57_v3, main_call57_v4, main_v817, main_c_309, main_c_310, main_call58_v0, main_call58_v1, main_call58_v2]
theorem ops_p18_7_writes : (ops_p18_7 : List (HloOp τ sig (Elt F))).Forall fun op => op.writes ⊆ (ops_p18_7_W.map (Proc.devRef (τ := τ) .tc)).toFinset := by
  simp only [ops_p18_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p18_7_keep (V : Valuation τ sig (Elt F)) (r : Ref sig .tc) (h : r ∉ ops_p18_7_W) :
    after ops_p18_7 V (Proc.devRef .tc r) = V (Proc.devRef .tc r) :=
  after_of_writes_sub ops_p18_7 _ ops_p18_7_writes h

set_option maxRecDepth 8192 in
set_option maxHeartbeats 1000000 in
theorem w18_7_main_v817 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_7 V x0 x1 x2 x3 x4 x5 x6) :
    after ops_p18_7 V (Proc.devRef .tc main_v817) = val_main_v817 (F := F) x1 := by
  simp only [ops_p18_7]
  after_results_w
  simp only [h.main_call57_v2, h.main_c_308]
  rfl

set_option maxRecDepth 8192 in
set_option maxHeartbeats 1000000 in
theorem w18_7_main_c_310 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_7 V x0 x1 x2 x3 x4 x5 x6) :
    after ops_p18_7 V (Proc.devRef .tc main_c_310) = val_main_c_310 (F := F) := by
  simp only [ops_p18_7]
  after_results_w
  rfl

set_option maxRecDepth 8192 in
set_option maxHeartbeats 1000000 in
theorem w18_7_main_call58_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_7 V x0 x1 x2 x3 x4 x5 x6) :
    after ops_p18_7 V (Proc.devRef .tc main_call58_v2) = val_main_call58_v2 (F := F) x1 := by
  simp only [ops_p18_7]
  after_results_w
  simp only [h.main_v805]
  rfl

theorem step18_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_7 V x0 x1 x2 x3 x4 x5 x6) : Inv18_8 (after ops_p18_7 V) x0 x1 x2 x3 x4 x5 x6 where
  main_arg0 := (ops_p18_7_keep V main_arg0 (by decide)).trans h.main_arg0
  main_arg1 := (ops_p18_7_keep V main_arg1 (by decide)).trans h.main_arg1
  main_arg2 := (ops_p18_7_keep V main_arg2 (by decide)).trans h.main_arg2
  main_arg3 := (ops_p18_7_keep V main_arg3 (by decide)).trans h.main_arg3
  main_arg4 := (ops_p18_7_keep V main_arg4 (by decide)).trans h.main_arg4
  main_arg5 := (ops_p18_7_keep V main_arg5 (by decide)).trans h.main_arg5
  main_arg6 := (ops_p18_7_keep V main_arg6 (by decide)).trans h.main_arg6
  main_v27 := (ops_p18_7_keep V main_v27 (by decide)).trans h.main_v27
  main_v524 := (ops_p18_7_keep V main_v524 (by decide)).trans h.main_v524
  main_v526 := (ops_p18_7_keep V main_v526 (by decide)).trans h.main_v526
  main_v528 := (ops_p18_7_keep V main_v528 (by decide)).trans h.main_v528
  main_v530 := (ops_p18_7_keep V main_v530 (by decide)).trans h.main_v530
  main_v801 := (ops_p18_7_keep V main_v801 (by decide)).trans h.main_v801
  main_v816 := (ops_p18_7_keep V main_v816 (by decide)).trans h.main_v816
  main_v817 := w18_7_main_v817 V x0 x1 x2 x3 x4 x5 x6 h
  main_c_310 := w18_7_main_c_310 V x0 x1 x2 x3 x4 x5 x6 h
  main_call58_v2 := w18_7_main_call58_v2 V x0 x1 x2 x3 x4 x5 x6 h

/-- Stretch 8 of window 18: @main's operations 1352 … 1359. -/
def ops_p18_8 : List (HloOp τ sig (Elt F)) :=
  [ unary main_c_310 main_call58_v3 (id : (⟨S_, .i32⟩ : BufTy).Contents (Elt F) → (⟨S_, .i32⟩ : BufTy).Contents (Elt F)),
    unary main_call58_v3 main_call58_v4 ((broadcastInDim S409600 ![] bcast_S_S409600) : (⟨S_, .i32⟩ : BufTy).Contents (Elt F) → (⟨S409600, .i32⟩ : BufTy).Contents (Elt F)),
    binary main_call58_v4 main_call58_v2 main_v818 (minsi : (⟨S409600, .i32⟩ : BufTy).Contents (Elt F) → (⟨S409600, .i32⟩ : BufTy).Contents (Elt F) → (⟨S409600, .i32⟩ : BufTy).Contents (Elt F)),
    nullary main_c_311 (constantI S_ 32 0#32),
    unary main_c_311 main_v819 (broadcastInDim S409600 ![] bcast_S_S409600 : (⟨S_, .i32⟩ : BufTy).Contents (Elt F) → (⟨S409600, .i32⟩ : BufTy).Contents (Elt F)),
    binary main_v526 main_v819 main_v820 (cmpi .slt : (⟨S409600, .i32⟩ : BufTy).Contents (Elt F) → (⟨S409600, .i32⟩ : BufTy).Contents (Elt F) → (⟨S409600, .i1⟩ : BufTy).Contents (Elt F)),
    nullary main_c_312 (constantI S_ 32 2#32),
    unary main_c_312 main_v821 (broadcastInDim S409600 ![] bcast_S_S409600 : (⟨S_, .i32⟩ : BufTy).Contents (Elt F) → (⟨S409600, .i32⟩ : BufTy).Contents (Elt F)) ]
abbrev ops_p18_8_W : List (Ref sig .tc) := [main_call58_v3, main_call58_v4, main_v818, main_c_311, main_v819, main_v820, main_c_312, main_v821]
theorem ops_p18_8_writes : (ops_p18_8 : List (HloOp τ sig (Elt F))).Forall fun op => op.writes ⊆ (ops_p18_8_W.map (Proc.devRef (τ := τ) .tc)).toFinset := by
  simp only [ops_p18_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p18_8_keep (V : Valuation τ sig (Elt F)) (r : Ref sig .tc) (h : r ∉ ops_p18_8_W) :
    after ops_p18_8 V (Proc.devRef .tc r) = V (Proc.devRef .tc r) :=
  after_of_writes_sub ops_p18_8 _ ops_p18_8_writes h

set_option maxRecDepth 8192 in
set_option maxHeartbeats 1000000 in
theorem w18_8_main_v818 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_8 V x0 x1 x2 x3 x4 x5 x6) :
    after ops_p18_8 V (Proc.devRef .tc main_v818) = val_main_v818 (F := F) x1 := by
  simp only [ops_p18_8]
  after_results_w
  simp only [h.main_call58_v2, h.main_c_310]
  rfl

set_option maxRecDepth 8192 in
set_option maxHeartbeats 1000000 in
theorem w18_8_main_v820 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_8 V x0 x1 x2 x3 x4 x5 x6) :
    after ops_p18_8 V (Proc.devRef .tc main_v820) = val_main_v820 (F := F) x1 := by
  simp only [ops_p18_8]
  after_results_w
  simp only [h.main_v526]
  rfl

set_option maxRecDepth 8192 in
set_option maxHeartbeats 1000000 in
theorem w18_8_main_v821 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_8 V x0 x1 x2 x3 x4 x5 x6) :
    after ops_p18_8 V (Proc.devRef .tc main_v821) = val_main_v821 (F := F) := by
  simp only [ops_p18_8]
  after_results_w
  rfl

theorem step18_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_8 V x0 x1 x2 x3 x4 x5 x6) : Inv18_9 (after ops_p18_8 V) x0 x1 x2 x3 x4 x5 x6 where
  main_arg0 := (ops_p18_8_keep V main_arg0 (by decide)).trans h.main_arg0
  main_arg1 := (ops_p18_8_keep V main_arg1 (by decide)).trans h.main_arg1
  main_arg2 := (ops_p18_8_keep V main_arg2 (by decide)).trans h.main_arg2
  main_arg3 := (ops_p18_8_keep V main_arg3 (by decide)).trans h.main_arg3
  main_arg4 := (ops_p18_8_keep V main_arg4 (by decide)).trans h.main_arg4
  main_arg5 := (ops_p18_8_keep V main_arg5 (by decide)).trans h.main_arg5
  main_arg6 := (ops_p18_8_keep V main_arg6 (by decide)).trans h.main_arg6
  main_v27 := (ops_p18_8_keep V main_v27 (by decide)).trans h.main_v27
  main_v524 := (ops_p18_8_keep V main_v524 (by decide)).trans h.main_v524
  main_v526 := (ops_p18_8_keep V main_v526 (by decide)).trans h.main_v526
  main_v528 := (ops_p18_8_keep V main_v528 (by decide)).trans h.main_v528
  main_v530 := (ops_p18_8_keep V main_v530 (by decide)).trans h.main_v530
  main_v801 := (ops_p18_8_keep V main_v801 (by decide)).trans h.main_v801
  main_v816 := (ops_p18_8_keep V main_v816 (by decide)).trans h.main_v816
  main_v817 := (ops_p18_8_keep V main_v817 (by decide)).trans h.main_v817
  main_v818 := w18_8_main_v818 V x0 x1 x2 x3 x4 x5 x6 h
  main_v820 := w18_8_main_v820 V x0 x1 x2 x3 x4 x5 x6 h
  main_v821 := w18_8_main_v821 V x0 x1 x2 x3 x4 x5 x6 h

/-- Stretch 9 of window 18: @main's operations 1360 … 1362. -/
def ops_p18_9 : List (HloOp τ sig (Elt F)) :=
  [ binary main_v526 main_v821 main_v822 (addi : (⟨S409600, .i32⟩ : BufTy).Contents (Elt F) → (⟨S409600, .i32⟩ : BufTy).Contents (Elt F) → (⟨S409600, .i32⟩ : BufTy).Contents (Elt F)),
    ternary main_v820 main_v822 main_v526 main_v823 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_313 (constantI S_ 32 0#32) ]
abbrev ops_p18_9_W : List (Ref sig .tc) := [main_v822, main_v823, main_c_313]
theorem ops_p18_9_writes : (ops_p18_9 : List (HloOp τ sig (Elt F))).Forall fun op => op.writes ⊆ (ops_p18_9_W.map (Proc.devRef (τ := τ) .tc)).toFinset := by
  simp only [ops_p18_9, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p18_9_keep (V : Valuation τ sig (Elt F)) (r : Ref sig .tc) (h : r ∉ ops_p18_9_W) :
    after ops_p18_9 V (Proc.devRef .tc r) = V (Proc.devRef .tc r) :=
  after_of_writes_sub ops_p18_9 _ ops_p18_9_writes h

set_option maxRecDepth 8192 in
set_option maxHeartbeats 1000000 in
theorem w18_9_main_v823 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_9 V x0 x1 x2 x3 x4 x5 x6) :
    after ops_p18_9 V (Proc.devRef .tc main_v823) = val_main_v823 (F := F) x1 := by
  simp only [ops_p18_9]
  after_results_w
  simp only [h.main_v526, h.main_v821, h.main_v820]
  rfl

set_option maxRecDepth 8192 in
set_option maxHeartbeats 1000000 in
theorem w18_9_main_c_313 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_9 V x0 x1 x2 x3 x4 x5 x6) :
    after ops_p18_9 V (Proc.devRef .tc main_c_313) = val_main_c_313 (F := F) := by
  simp only [ops_p18_9]
  after_results_w
  rfl

theorem step18_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18_9 V x0 x1 x2 x3 x4 x5 x6) : Inv19 (after ops_p18_9 V) x0 x1 x2 x3 x4 x5 x6 where
  main_arg0 := (ops_p18_9_keep V main_arg0 (by decide)).trans h.main_arg0
  main_arg1 := (ops_p18_9_keep V main_arg1 (by decide)).trans h.main_arg1
  main_arg2 := (ops_p18_9_keep V main_arg2 (by decide)).trans h.main_arg2
  main_arg3 := (ops_p18_9_keep V main_arg3 (by decide)).trans h.main_arg3
  main_arg4 := (ops_p18_9_keep V main_arg4 (by decide)).trans h.main_arg4
  main_arg5 := (ops_p18_9_keep V main_arg5 (by decide)).trans h.main_arg5
  main_arg6 := (ops_p18_9_keep V main_arg6 (by decide)).trans h.main_arg6
  main_v27 := (ops_p18_9_keep V main_v27 (by decide)).trans h.main_v27
  main_v524 := (ops_p18_9_keep V main_v524 (by decide)).trans h.main_v524
  main_v526 := (ops_p18_9_keep V main_v526 (by decide)).trans h.main_v526
  main_v528 := (ops_p18_9_keep V main_v528 (by decide)).trans h.main_v528
  main_v530 := (ops_p18_9_keep V main_v530 (by decide)).trans h.main_v530
  main_v801 := (ops_p18_9_keep V main_v801 (by decide)).trans h.main_v801
  main_v816 := (ops_p18_9_keep V main_v816 (by decide)).trans h.main_v816
  main_v817 := (ops_p18_9_keep V main_v817 (by decide)).trans h.main_v817
  main_v818 := (ops_p18_9_keep V main_v818 (by decide)).trans h.main_v818
  main_v823 := w18_9_main_v823 V x0 x1 x2 x3 x4 x5 x6 h
  main_c_313 := w18_9_main_c_313 V x0 x1 x2 x3 x4 x5 x6 h

set_option maxRecDepth 8192 in
theorem ops_p18_split : (ops_p18 : List (HloOp τ sig (Elt F))) = ops_p18_0 ++ (ops_p18_1 ++ (ops_p18_2 ++ (ops_p18_3 ++ (ops_p18_4 ++ (ops_p18_5 ++ (ops_p18_6 ++ (ops_p18_7 ++ (ops_p18_8 ++ (ops_p18_9))))))))) := rfl

/-- Window 18 carries the staged reading from boundary 18 to boundary 19. -/
theorem step18 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv18 V x0 x1 x2 x3 x4 x5 x6) : Inv19 (after ops_p18 V) x0 x1 x2 x3 x4 x5 x6 := by
  rw [ops_p18_split]; simp only [after_app]
  exact step18_9 _ x0 x1 x2 x3 x4 x5 x6 (step18_8 _ x0 x1 x2 x3 x4 x5 x6 (step18_7 _ x0 x1 x2 x3 x4 x5 x6 (step18_6 _ x0 x1 x2 x3 x4 x5 x6 (step18_5 _ x0 x1 x2 x3 x4 x5 x6 (step18_4 _ x0 x1 x2 x3 x4 x5 x6 (step18_3 _ x0 x1 x2 x3 x4 x5 x6 (step18_2 _ x0 x1 x2 x3 x4 x5 x6 (step18_1 _ x0 x1 x2 x3 x4 x5 x6 (step18_0 V x0 x1 x2 x3 x4 x5 x6 h)))))))))

end Cert.ReferenceIdeal.Hand

end
-- ==== Proof.Ref.W19.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 19 of @main: its operations 1363 … 1427 of 1688, in order. -/
def ops_p19 : List (HloOp τ sig (Elt F)) :=
  [ unary main_c_313 main_v824 (broadcastInDim S409600 ![] bcast_S_S409600 : (⟨S_, .i32⟩ : BufTy).Contents (Elt F) → (⟨S409600, .i32⟩ : BufTy).Contents (Elt F)),
    binary main_v817 main_v824 main_v825 (cmpi .slt : (⟨S409600, .i32⟩ : BufTy).Contents (Elt F) → (⟨S409600, .i32⟩ : BufTy).Contents (Elt F) → (⟨S409600, .i1⟩ : BufTy).Contents (Elt F)),
    nullary main_c_314 (constantI S_ 32 640#32),
    unary main_c_314 main_v826 (broadcastInDim S409600 ![] bcast_S_S409600 : (⟨S_, .i32⟩ : BufTy).Contents (Elt F) → (⟨S409600, .i32⟩ : BufTy).Contents (Elt F)),
    binary main_v817 main_v826 main_v827 (addi : (⟨S409600, .i32⟩ : BufTy).Contents (Elt F) → (⟨S409600, .i32⟩ : BufTy).Contents (Elt F) → (⟨S409600, .i32⟩ : BufTy).Contents (Elt F)),
    ternary main_v825 main_v827 main_v817 main_v828 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_315 (constantI S_ 32 0#32),
    unary main_c_315 main_v829 (broadcastInDim S409600 ![] bcast_S_S409600 : (⟨S_, .i32⟩ : BufTy).Contents (Elt F) → (⟨S409600, .i32⟩ : BufTy).Contents (Elt F)),
    binary main_v818 main_v829 main_v830 (cmpi .slt : (⟨S409600, .i32⟩ : BufTy).Contents (Elt F) → (⟨S409600, .i32⟩ : BufTy).Contents (Elt F) → (⟨S409600, .i1⟩ : BufTy).Contents (Elt F)),
    nullary main_c_316 (constantI S_ 32 640#32),
    unary main_c_316 main_v831 (broadcastInDim S409600 ![] bcast_S_S409600 : (⟨S_, .i32⟩ : BufTy).Contents (Elt F) → (⟨S409600, .i32⟩ : BufTy).Contents (Elt F)),
    binary main_v818 main_v831 main_v832 (addi : (⟨S409600, .i32⟩ : BufTy).Contents (Elt F) → (⟨S409600, .i32⟩ : BufTy).Contents (Elt F) → (⟨S409600, .i32⟩ : BufTy).Contents (Elt F)),
    ternary main_v830 main_v832 main_v818 main_v833 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v823 main_v834 (broadcastInDim S409600x1 ![0] bcast_S409600_S409600x1_0 : (⟨S409600, .i32⟩ : BufTy).Contents (Elt F) → (⟨S409600x1, .i32⟩ : BufTy).Contents (Elt F)),
    unary main_v828 main_v835 (broadcastInDim S409600x1 ![0] bcast_S409600_S409600x1_0 : (⟨S409600, .i32⟩ : BufTy).Contents (Elt F) → (⟨S409600x1, .i32⟩ : BufTy).Contents (Elt F)),
    unary main_v833 main_v836 (broadcastInDim S409600x1 ![0] bcast_S409600_S409600x1_0 : (⟨S409600, .i32⟩ : BufTy).Contents (Elt F) → (⟨S409600x1, .i32⟩ : BufTy).Contents (Elt F)),
    nary ![main_v834, main_v835, main_v836] main_v837 (fun u => concatenate S409600x3 1 [⟨S409600x1, u 0⟩, ⟨S409600x1, u 1⟩, ⟨S409600x1, u 2⟩] concatenates_S409600x1_S409600x1_S409600x1_S409600x3_d1),
    binary main_v27 main_v837 main_v838 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_317 (constantI S_ 32 0#32),
    unary main_c_317 main_v839 (broadcastInDim S409600 ![] bcast_S_S409600 : (⟨S_, .i32⟩ : BufTy).Contents (Elt F) → (⟨S409600, .i32⟩ : BufTy).Contents (Elt F)),
    binary main_v838 main_v839 main_v840 (cmpi .sge : (⟨S409600, .i32⟩ : BufTy).Contents (Elt F) → (⟨S409600, .i32⟩ : BufTy).Contents (Elt F) → (⟨S409600, .i1⟩ : BufTy).Contents (Elt F)),
    binary main_v816 main_v840 main_v841 (andi : (⟨S409600, .i1⟩ : BufTy).Contents (Elt F) → (⟨S409600, .i1⟩ : BufTy).Contents (Elt F) → (⟨S409600, .i1⟩ : BufTy).Contents (Elt F)),
    nullary main_c_318 (constantI S_ 32 0#32),
    unary main_c_318 main_call59_v0 (id : (⟨S_, .i32⟩ : BufTy).Contents (Elt F) → (⟨S_, .i32⟩ : BufTy).Contents (Elt F)),
    unary main_call59_v0 main_call59_v1 ((broadcastInDim S409600 ![] bcast_S_S409600) : (⟨S_, .i32⟩ : BufTy).Contents (Elt F) → (⟨S409600, .i32⟩ : BufTy).Contents (Elt F)),
    ternary main_v841 main_v838 main_call59_v1 main_v842 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_319 (constantI S_ 32 0#32),
    unary main_c_319 main_v843 (broadcastInDim S409600 ![] bcast_S_S409600 : (⟨S_, .i32⟩ : BufTy).Contents (Elt F) → (⟨S409600, .i32⟩ : BufTy).Contents (Elt F)),
    binary main_v842 main_v843 main_v844 (cmpi .slt : (⟨S409600, .i32⟩ : BufTy).Contents (Elt F) → (⟨S409600, .i32⟩ : BufTy).Contents (Elt F) → (⟨S409600, .i1⟩ : BufTy).Contents (Elt F)),
    nullary main_c_320 (constantI S_ 32 409600#32),
    unary main_c_320 main_v845 (broadcastInDim S409600 ![] bcast_S_S409600 : (⟨S_, .i32⟩ : BufTy).Contents (Elt F) → (⟨S409600, .i32⟩ : BufTy).Contents (Elt F)),
    binary main_v842 main_v845 main_v846 (addi : (⟨S409600, .i32⟩ : BufTy).Contents (Elt F) → (⟨S409600, .i32⟩ : BufTy).Contents (Elt F) → (⟨S409600, .i32⟩ : BufTy).Contents (Elt F)),
    ternary main_v844 main_v846 main_v842 main_v847 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v847 main_v848 (broadcastInDim S409600x1 ![0] bcast_S409600_S409600x1_0 : (⟨S409600, .i32⟩ : BufTy).Contents (Elt F) → (⟨S409600x1, .i32⟩ : BufTy).Contents (Elt F)),
    binary main_v524 main_v848 main_v849 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v841 main_v850 (broadcastInDim S409600x1 ![0] bcast_S409600_S409600x1_0 : (⟨S409600, .i1⟩ : BufTy).Contents (Elt F) → (⟨S409600x1, .i1⟩ : BufTy).Contents (Elt F)),
    nullary main_cst_321 (constant S_ .f32 0x00000000#32),
    unary main_cst_321 main_call60_v0 (id : (⟨S_, .f32⟩ : BufTy).Contents (Elt F) → (⟨S_, .f32⟩ : BufTy).Contents (Elt F)),
    unary main_v850 main_call60_v1 ((broadcastInDim S409600x64 ![0, 1] bcast_S409600x1_S409600x64_0_1) : (⟨S409600x1, .i1⟩ : BufTy).Contents (Elt F) → (⟨S409600x64, .i1⟩ : BufTy).Contents (Elt F)),
    unary main_call60_v0 main_call60_v2 ((broadcastInDim S409600x64 ![] bcast_S_S409600x64) : (⟨S_, .f32⟩ : BufTy).Contents (Elt F) → (⟨S409600x64, .f32⟩ : BufTy).Contents (Elt F)),
    ternary main_call60_v1 main_v849 main_call60_v2 main_v851 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v852 ((extractStridedSlice S1x1x64x64 ![1, 2, 0, 0] · slices_S3x3x64x64_S1x1x64x64_1_2_0_0) : (⟨S3x3x64x64, .f32⟩ : BufTy).Contents (Elt F) → (⟨S1x1x64x64, .f32⟩ : BufTy).Contents (Elt F)),
    reshape main_v852 main_v853 rfl shapeCasts_S1x1x64x64_S64x64,
    binary main_v851 main_v853 main_v854 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v801 main_v854 main_v855 (addf : (⟨S409600x64, .f32⟩ : BufTy).Contents (Elt F) → (⟨S409600x64, .f32⟩ : BufTy).Contents (Elt F) → (⟨S409600x64, .f32⟩ : BufTy).Contents (Elt F)),
    nullary main_c_322 (constantI S_ 32 1#32),
    unary main_c_322 main_v856 (broadcastInDim S409600 ![] bcast_S_S409600 : (⟨S_, .i32⟩ : BufTy).Contents (Elt F) → (⟨S409600, .i32⟩ : BufTy).Contents (Elt F)),
    binary main_v528 main_v856 main_v857 (addi : (⟨S409600, .i32⟩ : BufTy).Contents (Elt F) → (⟨S409600, .i32⟩ : BufTy).Contents (Elt F) → (⟨S409600, .i32⟩ : BufTy).Contents (Elt F)),
    nullary main_c_323 (constantI S_ 32 4294967295#32),
    unary main_c_323 main_v858 (broadcastInDim S409600 ![] bcast_S_S409600 : (⟨S_, .i32⟩ : BufTy).Contents (Elt F) → (⟨S409600, .i32⟩ : BufTy).Contents (Elt F)),
    binary main_v530 main_v858 main_v859 (addi : (⟨S409600, .i32⟩ : BufTy).Contents (Elt F) → (⟨S409600, .i32⟩ : BufTy).Contents (Elt F) → (⟨S409600, .i32⟩ : BufTy).Contents (Elt F)),
    nullary main_c_324 (constantI S_ 32 0#32),
    unary main_c_324 main_v860 (broadcastInDim S409600 ![] bcast_S_S409600 : (⟨S_, .i32⟩ : BufTy).Contents (Elt F) → (⟨S409600, .i32⟩ : BufTy).Contents (Elt F)),
    binary main_v857 main_v860 main_v861 (cmpi .sge : (⟨S409600, .i32⟩ : BufTy).Contents (Elt F) → (⟨S409600, .i32⟩ : BufTy).Contents (Elt F) → (⟨S409600, .i1⟩ : BufTy).Contents (Elt F)),
    nullary main_c_325 (constantI S_ 32 640#32),
    unary main_c_325 main_v862 (broadcastInDim S409600 ![] bcast_S_S409600 : (⟨S_, .i32⟩ : BufTy).Contents (Elt F) → (⟨S409600, .i32⟩ : BufTy).Contents (Elt F)),
    binary main_v857 main_v862 main_v863 (cmpi .slt : (⟨S409600, .i32⟩ : BufTy).Contents (Elt F) → (⟨S409600, .i32⟩ : BufTy).Contents (Elt F) → (⟨S409600, .i1⟩ : BufTy).Contents (Elt F)),
    binary main_v861 main_v863 main_v864 (andi : (⟨S409600, .i1⟩ : BufTy).Contents (Elt F) → (⟨S409600, .i1⟩ : BufTy).Contents (Elt F) → (⟨S409600, .i1⟩ : BufTy).Contents (Elt F)),
    nullary main_c_326 (constantI S_ 32 0#32),
    unary main_c_326 main_v865 (broadcastInDim S409600 ![] bcast_S_S409600 : (⟨S_, .i32⟩ : BufTy).Contents (Elt F) → (⟨S409600, .i32⟩ : BufTy).Contents (Elt F)),
    binary main_v859 main_v865 main_v866 (cmpi .sge : (⟨S409600, .i32⟩ : BufTy).Contents (Elt F) → (⟨S409600, .i32⟩ : BufTy).Contents (Elt F) → (⟨S409600, .i1⟩ : BufTy).Contents (Elt F)),
    binary main_v864 main_v866 main_v867 (andi : (⟨S409600, .i1⟩ : BufTy).Contents (Elt F) → (⟨S409600, .i1⟩ : BufTy).Contents (Elt F) → (⟨S409600, .i1⟩ : BufTy).Contents (Elt F)),
    nullary main_c_327 (constantI S_ 32 640#32),
    unary main_c_327 main_v868 (broadcastInDim S409600 ![] bcast_S_S409600 : (⟨S_, .i32⟩ : BufTy).Contents (Elt F) → (⟨S409600, .i32⟩ : BufTy).Contents (Elt F)),
    binary main_v859 main_v868 main_v869 (cmpi .slt : (⟨S409600, .i32⟩ : BufTy).Contents (Elt F) → (⟨S409600, .i32⟩ : BufTy).Contents (Elt F) → (⟨S409600, .i1⟩ : BufTy).Contents (Elt F)) ]

set_option maxRecDepth 8192 in
set_option maxHeartbeats 4000000 in
theorem main_part19_eq (c : Dev nD) : main_part19 (F := F) c = seq ops_p19 := by
  simp only [main_part19, ops_p19, fn_clip.body, fn_where.body, fn_where_0.body, fn_relu.body, seq, bind_assoc, pure_bind]
  rfl

set_option maxRecDepth 8192 in
theorem ops_p19_sub : (ops_p19 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

set_option maxRecDepth 8192 in
theorem ops_p19_fresh : ∀ op ∈ (ops_p19 : List (HloOp τ sig (Elt F))), op.fresh = ∅ := by
  unfold ops_p19; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 1371 on hold before it. -/
structure Inv19_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v816 : V (Proc.devRef .tc main_v816) = val_main_v816 (F := F) x1
  main_v818 : V (Proc.devRef .tc main_v818) = val_main_v818 (F := F) x1
  main_v823 : V (Proc.devRef .tc main_v823) = val_main_v823 (F := F) x1
  main_v828 : V (Proc.devRef .tc main_v828) = val_main_v828 (F := F) x1
  main_v829 : V (Proc.devRef .tc main_v829) = val_main_v829 (F := F)

/-- What the buffers read from operation 1379 on hold before it. -/
structure Inv19_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v816 : V (Proc.devRef .tc main_v816) = val_main_v816 (F := F) x1
  main_v834 : V (Proc.devRef .tc main_v834) = val_main_v834 (F := F) x1
  main_v835 : V (Proc.devRef .tc main_v835) = val_main_v835 (F := F) x1
  main_v836 : V (Proc.devRef .tc main_v836) = val_main_v836 (F := F) x1

/-- What the buffers read from operation 1387 on hold before it. -/
structure Inv19_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v838 : V (Proc.devRef .tc main_v838) = val_main_v838 (F := F) x1
  main_v841 : V (Proc.devRef .tc main_v841) = val_main_v841 (F := F) x1
  main_call59_v0 : V (Proc.devRef .tc main_call59_v0) = val_main_call59_v0 (F := F)

/-- What the buffers read from operation 1395 on hold before it. -/
structure Inv19_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v841 : V (Proc.devRef .tc main_v841) = val_main_v841 (F := F) x1
  main_v842 : V (Proc.devRef .tc main_v842) = val_main_v842 (F := F) x1
  main_v844 : V (Proc.devRef .tc main_v844) = val_main_v844 (F := F) x1
  main_v846 : V (Proc.devRef .tc main_v846) = val_main_v846 (F := F) x1

/-- What the buffers read from operation 1403 on hold before it. -/
structure Inv19_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v801 : V (Proc.devRef .tc main_v801) = val_main_v801 (F := F) x0 x1 x2 x3 x4
  main_v849 : V (Proc.devRef .tc main_v849) = val_main_v849 (F := F) x0 x1 x2 x3
  main_call60_v1 : V (Proc.devRef .tc main_call60_v1) = val_main_call60_v1 (F := F) x1
  main_call60_v2 : V (Proc.devRef .tc main_call60_v2) = val_main_call60_v2 (F := F)

/-- What the buffers read from operation 1411 on hold before it. -/
structure Inv19_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v857 : V (Proc.devRef .tc main_v857) = val_main_v857 (F := F) x1

/-- What the buffers read from operation 1419 on hold before it. -/
structure Inv19_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v857 : V (Proc.devRef .tc main_v857) = val_main_v857 (F := F) x1
  main_v859 : V (Proc.devRef .tc main_v859) = val_main_v859 (F := F) x1
  main_v861 : V (Proc.devRef .tc main_v861) = val_main_v861 (F := F) x1
  main_v862 : V (Proc.devRef .tc main_v862) = val_main_v862 (F := F)

/-- Stretch 0 of window 19: @main's operations 1363 … 1370. -/
def ops_p19_0 : List (HloOp τ sig (Elt F)) :=
  [ unary main_c_313 main_v824 (broadcastInDim S409600 ![] bcast_S_S409600 : (⟨S_, .i32⟩ : BufTy).Contents (Elt F) → (⟨S409600, .i32⟩ : BufTy).Contents (Elt F)),
    binary main_v817 main_v824 main_v825 (cmpi .slt : (⟨S409600, .i32⟩ : BufTy).Contents (Elt F) → (⟨S409600, .i32⟩ : BufTy).Contents (Elt F) → (⟨S409600, .i1⟩ : BufTy).Contents (Elt F)),
    nullary main_c_314 (constantI S_ 32 640#32),
    unary main_c_314 main_v826 (broadcastInDim S409600 ![] bcast_S_S409600 : (⟨S_, .i32⟩ : BufTy).Contents (Elt F) → (⟨S409600, .i32⟩ : BufTy).Contents (Elt F)),
    binary main_v817 main_v826 main_v827 (addi : (⟨S409600, .i32⟩ : BufTy).Contents (Elt F) → (⟨S409600, .i32⟩ : BufTy).Contents (Elt F) → (⟨S409600, .i32⟩ : BufTy).Contents (Elt F)),
    ternary main_v825 main_v827 main_v817 main_v828 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_315 (constantI S_ 32 0#32),
    unary main_c_315 main_v829 (broadcastInDim S409600 ![] bcast_S_S409600 : (⟨S_, .i32⟩ : BufTy).Contents (Elt F) → (⟨S409600, .i32⟩ : BufTy).Contents (Elt F)) ]
abbrev ops_p19_0_W : List (Ref sig .tc) := [main_v824, main_v825, main_c_314, main_v826, main_v827, main_v828, main_c_315, main_v829]
theorem ops_p19_0_writes : (ops_p19_0 : List (HloOp τ sig (Elt F))).Forall fun op => op.writes ⊆ (ops_p19_0_W.map (Proc.devRef (τ := τ) .tc)).toFinset := by
  simp only [ops_p19_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p19_0_keep (V : Valuation τ sig (Elt F)) (r : Ref sig .tc) (h : r ∉ ops_p19_0_W) :
    after ops_p19_0 V (Proc.devRef .tc r) = V (Proc.devRef .tc r) :=
  after_of_writes_sub ops_p19_0 _ ops_p19_0_writes h

set_option maxRecDepth 8192 in
set_option maxHeartbeats 1000000 in
theorem w19_0_main_v828 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19 V x0 x1 x2 x3 x4 x5 x6) :
    after ops_p19_0 V (Proc.devRef .tc main_v828) = val_main_v828 (F := F) x1 := by
  simp only [ops_p19_0]
  after_results_w
  simp only [h.main_v817, h.main_c_313]
  rfl

set_option maxRecDepth 8192 in
set_option maxHeartbeats 1000000 in
theorem w19_0_main_v829 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19 V x0 x1 x2 x3 x4 x5 x6) :
    after ops_p19_0 V (Proc.devRef .tc main_v829) = val_main_v829 (F := F) := by
  simp only [ops_p19_0]
  after_results_w
  rfl

theorem step19_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19 V x0 x1 x2 x3 x4 x5 x6) : Inv19_1 (after ops_p19_0 V) x0 x1 x2 x3 x4 x5 x6 where
  main_arg0 := (ops_p19_0_keep V main_arg0 (by decide)).trans h.main_arg0
  main_arg1 := (ops_p19_0_keep V main_arg1 (by decide)).trans h.main_arg1
  main_arg2 := (ops_p19_0_keep V main_arg2 (by decide)).trans h.main_arg2
  main_arg3 := (ops_p19_0_keep V main_arg3 (by decide)).trans h.main_arg3
  main_arg4 := (ops_p19_0_keep V main_arg4 (by decide)).trans h.main_arg4
  main_arg5 := (ops_p19_0_keep V main_arg5 (by decide)).trans h.main_arg5
  main_arg6 := (ops_p19_0_keep V main_arg6 (by decide)).trans h.main_arg6
  main_v27 := (ops_p19_0_keep V main_v27 (by decide)).trans h.main_v27
  main_v524 := (ops_p19_0_keep V main_v524 (by decide)).trans h.main_v524
  main_v526 := (ops_p19_0_keep V main_v526 (by decide)).trans h.main_v526
  main_v528 := (ops_p19_0_keep V main_v528 (by decide)).trans h.main_v528
  main_v530 := (ops_p19_0_keep V main_v530 (by decide)).trans h.main_v530
  main_v801 := (ops_p19_0_keep V main_v801 (by decide)).trans h.main_v801
  main_v816 := (ops_p19_0_keep V main_v816 (by decide)).trans h.main_v816
  main_v818 := (ops_p19_0_keep V main_v818 (by decide)).trans h.main_v818
  main_v823 := (ops_p19_0_keep V main_v823 (by decide)).trans h.main_v823
  main_v828 := w19_0_main_v828 V x0 x1 x2 x3 x4 x5 x6 h
  main_v829 := w19_0_main_v829 V x0 x1 x2 x3 x4 x5 x6 h

/-- Stretch 1 of window 19: @main's operations 1371 … 1378. -/
def ops_p19_1 : List (HloOp τ sig (Elt F)) :=
  [ binary main_v818 main_v829 main_v830 (cmpi .slt : (⟨S409600, .i32⟩ : BufTy).Contents (Elt F) → (⟨S409600, .i32⟩ : BufTy).Contents (Elt F) → (⟨S409600, .i1⟩ : BufTy).Contents (Elt F)),
    nullary main_c_316 (constantI S_ 32 640#32),
    unary main_c_316 main_v831 (broadcastInDim S409600 ![] bcast_S_S409600 : (⟨S_, .i32⟩ : BufTy).Contents (Elt F) → (⟨S409600, .i32⟩ : BufTy).Contents (Elt F)),
    binary main_v818 main_v831 main_v832 (addi : (⟨S409600, .i32⟩ : BufTy).Contents (Elt F) → (⟨S409600, .i32⟩ : BufTy).Contents (Elt F) → (⟨S409600, .i32⟩ : BufTy).Contents (Elt F)),
    ternary main_v830 main_v832 main_v818 main_v833 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v823 main_v834 (broadcastInDim S409600x1 ![0] bcast_S409600_S409600x1_0 : (⟨S409600, .i32⟩ : BufTy).Contents (Elt F) → (⟨S409600x1, .i32⟩ : BufTy).Contents (Elt F)),
    unary main_v828 main_v835 (broadcastInDim S409600x1 ![0] bcast_S409600_S409600x1_0 : (⟨S409600, .i32⟩ : BufTy).Contents (Elt F) → (⟨S409600x1, .i32⟩ : BufTy).Contents (Elt F)),
    unary main_v833 main_v836 (broadcastInDim S409600x1 ![0] bcast_S409600_S409600x1_0 : (⟨S409600, .i32⟩ : BufTy).Contents (Elt F) → (⟨S409600x1, .i32⟩ : BufTy).Contents (Elt F)) ]
abbrev ops_p19_1_W : List (Ref sig .tc) := [main_v830, main_c_316, main_v831, main_v832, main_v833, main_v834, main_v835, main_v836]
theorem ops_p19_1_writes : (ops_p19_1 : List (HloOp τ sig (Elt F))).Forall fun op => op.writes ⊆ (ops_p19_1_W.map (Proc.devRef (τ := τ) .tc)).toFinset := by
  simp only [ops_p19_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p19_1_keep (V : Valuation τ sig (Elt F)) (r : Ref sig .tc) (h : r ∉ ops_p19_1_W) :
    after ops_p19_1 V (Proc.devRef .tc r) = V (Proc.devRef .tc r) :=
  after_of_writes_sub ops_p19_1 _ ops_p19_1_writes h

set_option maxRecDepth 8192 in
set_option maxHeartbeats 1000000 in
theorem w19_1_main_v834 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_1 V x0 x1 x2 x3 x4 x5 x6) :
    after ops_p19_1 V (Proc.devRef .tc main_v834) = val_main_v834 (F := F) x1 := by
  simp only [ops_p19_1]
  after_results_w
  simp only [h.main_v823]
  rfl

set_option maxRecDepth 8192 in
set_option maxHeartbeats 1000000 in
theorem w19_1_main_v835 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_1 V x0 x1 x2 x3 x4 x5 x6) :
    after ops_p19_1 V (Proc.devRef .tc main_v835) = val_main_v835 (F := F) x1 := by
  simp only [ops_p19_1]
  after_results_w
  simp only [h.main_v828]
  rfl

set_option maxRecDepth 8192 in
set_option maxHeartbeats 1000000 in
theorem w19_1_main_v836 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_1 V x0 x1 x2 x3 x4 x5 x6) :
    after ops_p19_1 V (Proc.devRef .tc main_v836) = val_main_v836 (F := F) x1 := by
  simp only [ops_p19_1]
  after_results_w
  simp only [h.main_v818, h.main_v829]
  rfl

theorem step19_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_1 V x0 x1 x2 x3 x4 x5 x6) : Inv19_2 (after ops_p19_1 V) x0 x1 x2 x3 x4 x5 x6 where
  main_arg0 := (ops_p19_1_keep V main_arg0 (by decide)).trans h.main_arg0
  main_arg1 := (ops_p19_1_keep V main_arg1 (by decide)).trans h.main_arg1
  main_arg2 := (ops_p19_1_keep V main_arg2 (by decide)).trans h.main_arg2
  main_arg3 := (ops_p19_1_keep V main_arg3 (by decide)).trans h.main_arg3
  main_arg4 := (ops_p19_1_keep V main_arg4 (by decide)).trans h.main_arg4
  main_arg5 := (ops_p19_1_keep V main_arg5 (by decide)).trans h.main_arg5
  main_arg6 := (ops_p19_1_keep V main_arg6 (by decide)).trans h.main_arg6
  main_v27 := (ops_p19_1_keep V main_v27 (by decide)).trans h.main_v27
  main_v524 := (ops_p19_1_keep V main_v524 (by decide)).trans h.main_v524
  main_v526 := (ops_p19_1_keep V main_v526 (by decide)).trans h.main_v526
  main_v528 := (ops_p19_1_keep V main_v528 (by decide)).trans h.main_v528
  main_v530 := (ops_p19_1_keep V main_v530 (by decide)).trans h.main_v530
  main_v801 := (ops_p19_1_keep V main_v801 (by decide)).trans h.main_v801
  main_v816 := (ops_p19_1_keep V main_v816 (by decide)).trans h.main_v816
  main_v834 := w19_1_main_v834 V x0 x1 x2 x3 x4 x5 x6 h
  main_v835 := w19_1_main_v835 V x0 x1 x2 x3 x4 x5 x6 h
  main_v836 := w19_1_main_v836 V x0 x1 x2 x3 x4 x5 x6 h

/-- Stretch 2 of window 19: @main's operations 1379 … 1386. -/
def ops_p19_2 : List (HloOp τ sig (Elt F)) :=
  [ nary ![main_v834, main_v835, main_v836] main_v837 (fun u => concatenate S409600x3 1 [⟨S409600x1, u 0⟩, ⟨S409600x1, u 1⟩, ⟨S409600x1, u 2⟩] concatenates_S409600x1_S409600x1_S409600x1_S409600x3_d1),
    binary main_v27 main_v837 main_v838 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_317 (constantI S_ 32 0#32),
    unary main_c_317 main_v839 (broadcastInDim S409600 ![] bcast_S_S409600 : (⟨S_, .i32⟩ : BufTy).Contents (Elt F) → (⟨S409600, .i32⟩ : BufTy).Contents (Elt F)),
    binary main_v838 main_v839 main_v840 (cmpi .sge : (⟨S409600, .i32⟩ : BufTy).Contents (Elt F) → (⟨S409600, .i32⟩ : BufTy).Contents (Elt F) → (⟨S409600, .i1⟩ : BufTy).Contents (Elt F)),
    binary main_v816 main_v840 main_v841 (andi : (⟨S409600, .i1⟩ : BufTy).Contents (Elt F) → (⟨S409600, .i1⟩ : BufTy).Contents (Elt F) → (⟨S409600, .i1⟩ : BufTy).Contents (Elt F)),
    nullary main_c_318 (constantI S_ 32 0#32),
    unary main_c_318 main_call59_v0 (id : (⟨S_, .i32⟩ : BufTy).Contents (Elt F) → (⟨S_, .i32⟩ : BufTy).Contents (Elt F)) ]
abbrev ops_p19_2_W : List (Ref sig .tc) := [main_v837, main_v838, main_c_317, main_v839, main_v840, main_v841, main_c_318, main_call59_v0]
theorem ops_p19_2_writes : (ops_p19_2 : List (HloOp τ sig (Elt F))).Forall fun op => op.writes ⊆ (ops_p19_2_W.map (Proc.devRef (τ := τ) .tc)).toFinset := by
  simp only [ops_p19_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p19_2_keep (V : Valuation τ sig (Elt F)) (r : Ref sig .tc) (h : r ∉ ops_p19_2_W) :
    after ops_p19_2 V (Proc.devRef .tc r) = V (Proc.devRef .tc r) :=
  after_of_writes_sub ops_p19_2 _ ops_p19_2_writes h

set_option maxRecDepth 8192 in
set_option maxHeartbeats 1000000 in
theorem w19_2_main_v838 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_2 V x0 x1 x2 x3 x4 x5 x6) :
    after ops_p19_2 V (Proc.devRef .tc main_v838) = val_main_v838 (F := F) x1 := by
  simp only [ops_p19_2]
  after_results_w
  simp only [h.main_v836, h.main_v835, h.main_v834, h.main_v27]
  rfl

set_option maxRecDepth 8192 in
set_option maxHeartbeats 1000000 in
theorem w19_2_main_v841 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_2 V x0 x1 x2 x3 x4 x5 x6) :
    after ops_p19_2 V (Proc.devRef .tc main_v841) = val_main_v841 (F := F) x1 := by
  simp only [ops_p19_2]
  after_results_w
  simp only [h.main_v836, h.main_v835, h.main_v834, h.main_v27, h.main_v816]
  rfl

set_option maxRecDepth 8192 in
set_option maxHeartbeats 1000000 in
theorem w19_2_main_call59_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_2 V x0 x1 x2 x3 x4 x5 x6) :
    after ops_p19_2 V (Proc.devRef .tc main_call59_v0) = val_main_call59_v0 (F := F) := by
  simp only [ops_p19_2]
  after_results_w
  rfl

theorem step19_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_2 V x0 x1 x2 x3 x4 x5 x6) : Inv19_3 (after ops_p19_2 V) x0 x1 x2 x3 x4 x5 x6 where
  main_arg0 := (ops_p19_2_keep V main_arg0 (by decide)).trans h.main_arg0
  main_arg1 := (ops_p19_2_keep V main_arg1 (by decide)).trans h.main_arg1
  main_arg2 := (ops_p19_2_keep V main_arg2 (by decide)).trans h.main_arg2
  main_arg3 := (ops_p19_2_keep V main_arg3 (by decide)).trans h.main_arg3
  main_arg4 := (ops_p19_2_keep V main_arg4 (by decide)).trans h.main_arg4
  main_arg5 := (ops_p19_2_keep V main_arg5 (by decide)).trans h.main_arg5
  main_arg6 := (ops_p19_2_keep V main_arg6 (by decide)).trans h.main_arg6
  main_v27 := (ops_p19_2_keep V main_v27 (by decide)).trans h.main_v27
  main_v524 := (ops_p19_2_keep V main_v524 (by decide)).trans h.main_v524
  main_v526 := (ops_p19_2_keep V main_v526 (by decide)).trans h.main_v526
  main_v528 := (ops_p19_2_keep V main_v528 (by decide)).trans h.main_v528
  main_v530 := (ops_p19_2_keep V main_v530 (by decide)).trans h.main_v530
  main_v801 := (ops_p19_2_keep V main_v801 (by decide)).trans h.main_v801
  main_v838 := w19_2_main_v838 V x0 x1 x2 x3 x4 x5 x6 h
  main_v841 := w19_2_main_v841 V x0 x1 x2 x3 x4 x5 x6 h
  main_call59_v0 := w19_2_main_call59_v0 V x0 x1 x2 x3 x4 x5 x6 h

/-- Stretch 3 of window 19: @main's operations 1387 … 1394. -/
def ops_p19_3 : List (HloOp τ sig (Elt F)) :=
  [ unary main_call59_v0 main_call59_v1 ((broadcastInDim S409600 ![] bcast_S_S409600) : (⟨S_, .i32⟩ : BufTy).Contents (Elt F) → (⟨S409600, .i32⟩ : BufTy).Contents (Elt F)),
    ternary main_v841 main_v838 main_call59_v1 main_v842 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_319 (constantI S_ 32 0#32),
    unary main_c_319 main_v843 (broadcastInDim S409600 ![] bcast_S_S409600 : (⟨S_, .i32⟩ : BufTy).Contents (Elt F) → (⟨S409600, .i32⟩ : BufTy).Contents (Elt F)),
    binary main_v842 main_v843 main_v844 (cmpi .slt : (⟨S409600, .i32⟩ : BufTy).Contents (Elt F) → (⟨S409600, .i32⟩ : BufTy).Contents (Elt F) → (⟨S409600, .i1⟩ : BufTy).Contents (Elt F)),
    nullary main_c_320 (constantI S_ 32 409600#32),
    unary main_c_320 main_v845 (broadcastInDim S409600 ![] bcast_S_S409600 : (⟨S_, .i32⟩ : BufTy).Contents (Elt F) → (⟨S409600, .i32⟩ : BufTy).Contents (Elt F)),
    binary main_v842 main_v845 main_v846 (addi : (⟨S409600, .i32⟩ : BufTy).Contents (Elt F) → (⟨S409600, .i32⟩ : BufTy).Contents (Elt F) → (⟨S409600, .i32⟩ : BufTy).Contents (Elt F)) ]
abbrev ops_p19_3_W : List (Ref sig .tc) := [main_call59_v1, main_v842, main_c_319, main_v843, main_v844, main_c_320, main_v845, main_v846]
theorem ops_p19_3_writes : (ops_p19_3 : List (HloOp τ sig (Elt F))).Forall fun op => op.writes ⊆ (ops_p19_3_W.map (Proc.devRef (τ := τ) .tc)).toFinset := by
  simp only [ops_p19_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p19_3_keep (V : Valuation τ sig (Elt F)) (r : Ref sig .tc) (h : r ∉ ops_p19_3_W) :
    after ops_p19_3 V (Proc.devRef .tc r) = V (Proc.devRef .tc r) :=
  after_of_writes_sub ops_p19_3 _ ops_p19_3_writes h

set_option maxRecDepth 8192 in
set_option maxHeartbeats 1000000 in
theorem w19_3_main_v842 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_3 V x0 x1 x2 x3 x4 x5 x6) :
    after ops_p19_3 V (Proc.devRef .tc main_v842) = val_main_v842 (F := F) x1 := by
  simp only [ops_p19_3]
  after_results_w
  simp only [h.main_call59_v0, h.main_v838, h.main_v841]
  rfl

set_option maxRecDepth 8192 in
set_option maxHeartbeats 1000000 in
theorem w19_3_main_v844 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_3 V x0 x1 x2 x3 x4 x5 x6) :
    after ops_p19_3 V (Proc.devRef .tc main_v844) = val_main_v844 (F := F) x1 := by
  simp only [ops_p19_3]
  after_results_w
  simp only [h.main_call59_v0, h.main_v838, h.main_v841]
  rfl

set_option maxRecDepth 8192 in
set_option maxHeartbeats 1000000 in
theorem w19_3_main_v846 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_3 V x0 x1 x2 x3 x4 x5 x6) :
    after ops_p19_3 V (Proc.devRef .tc main_v846) = val_main_v846 (F := F) x1 := by
  simp only [ops_p19_3]
  after_results_w
  simp only [h.main_call59_v0, h.main_v838, h.main_v841]
  rfl

theorem step19_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_3 V x0 x1 x2 x3 x4 x5 x6) : Inv19_4 (after ops_p19_3 V) x0 x1 x2 x3 x4 x5 x6 where
  main_arg0 := (ops_p19_3_keep V main_arg0 (by decide)).trans h.main_arg0
  main_arg1 := (ops_p19_3_keep V main_arg1 (by decide)).trans h.main_arg1
  main_arg2 := (ops_p19_3_keep V main_arg2 (by decide)).trans h.main_arg2
  main_arg3 := (ops_p19_3_keep V main_arg3 (by decide)).trans h.main_arg3
  main_arg4 := (ops_p19_3_keep V main_arg4 (by decide)).trans h.main_arg4
  main_arg5 := (ops_p19_3_keep V main_arg5 (by decide)).trans h.main_arg5
  main_arg6 := (ops_p19_3_keep V main_arg6 (by decide)).trans h.main_arg6
  main_v27 := (ops_p19_3_keep V main_v27 (by decide)).trans h.main_v27
  main_v524 := (ops_p19_3_keep V main_v524 (by decide)).trans h.main_v524
  main_v526 := (ops_p19_3_keep V main_v526 (by decide)).trans h.main_v526
  main_v528 := (ops_p19_3_keep V main_v528 (by decide)).trans h.main_v528
  main_v530 := (ops_p19_3_keep V main_v530 (by decide)).trans h.main_v530
  main_v801 := (ops_p19_3_keep V main_v801 (by decide)).trans h.main_v801
  main_v841 := (ops_p19_3_keep V main_v841 (by decide)).trans h.main_v841
  main_v842 := w19_3_main_v842 V x0 x1 x2 x3 x4 x5 x6 h
  main_v844 := w19_3_main_v844 V x0 x1 x2 x3 x4 x5 x6 h
  main_v846 := w19_3_main_v846 V x0 x1 x2 x3 x4 x5 x6 h

/-- Stretch 4 of window 19: @main's operations 1395 … 1402. -/
def ops_p19_4 : List (HloOp τ sig (Elt F)) :=
  [ ternary main_v844 main_v846 main_v842 main_v847 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v847 main_v848 (broadcastInDim S409600x1 ![0] bcast_S409600_S409600x1_0 : (⟨S409600, .i32⟩ : BufTy).Contents (Elt F) → (⟨S409600x1, .i32⟩ : BufTy).Contents (Elt F)),
    binary main_v524 main_v848 main_v849 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v841 main_v850 (broadcastInDim S409600x1 ![0] bcast_S409600_S409600x1_0 : (⟨S409600, .i1⟩ : BufTy).Contents (Elt F) → (⟨S409600x1, .i1⟩ : BufTy).Contents (Elt F)),
    nullary main_cst_321 (constant S_ .f32 0x00000000#32),
    unary main_cst_321 main_call60_v0 (id : (⟨S_, .f32⟩ : BufTy).Contents (Elt F) → (⟨S_, .f32⟩ : BufTy).Contents (Elt F)),
    unary main_v850 main_call60_v1 ((broadcastInDim S409600x64 ![0, 1] bcast_S409600x1_S409600x64_0_1) : (⟨S409600x1, .i1⟩ : BufTy).Contents (Elt F) → (⟨S409600x64, .i1⟩ : BufTy).Contents (Elt F)),
    unary main_call60_v0 main_call60_v2 ((broadcastInDim S409600x64 ![] bcast_S_S409600x64) : (⟨S_, .f32⟩ : BufTy).Contents (Elt F) → (⟨S409600x64, .f32⟩ : BufTy).Contents (Elt F)) ]
abbrev ops_p19_4_W : List (Ref sig .tc) := [main_v847, main_v848, main_v849, main_v850, main_cst_321, main_call60_v0, main_call60_v1, main_call60_v2]
theorem ops_p19_4_writes : (ops_p19_4 : List (HloOp τ sig (Elt F))).Forall fun op => op.writes ⊆ (ops_p19_4_W.map (Proc.devRef (τ := τ) .tc)).toFinset := by
  simp only [ops_p19_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p19_4_keep (V : Valuation τ sig (Elt F)) (r : Ref sig .tc) (h : r ∉ ops_p19_4_W) :
    after ops_p19_4 V (Proc.devRef .tc r) = V (Proc.devRef .tc r) :=
  after_of_writes_sub ops_p19_4 _ ops_p19_4_writes h

set_option maxRecDepth 8192 in
set_option maxHeartbeats 1000000 in
theorem w19_4_main_v849 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_4 V x0 x1 x2 x3 x4 x5 x6) :
    after ops_p19_4 V (Proc.devRef .tc main_v849) = val_main_v849 (F := F) x0 x1 x2 x3 := by
  simp only [ops_p19_4]
  after_results_w
  simp only [h.main_v842, h.main_v846, h.main_v844, h.main_v524]
  rfl

set_option maxRecDepth 8192 in
set_option maxHeartbeats 1000000 in
theorem w19_4_main_call60_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_4 V x0 x1 x2 x3 x4 x5 x6) :
    after ops_p19_4 V (Proc.devRef .tc main_call60_v1) = val_main_call60_v1 (F := F) x1 := by
  simp only [ops_p19_4]
  after_results_w
  simp only [h.main_v841]
  rfl

set_option maxRecDepth 8192 in
set_option maxHeartbeats 1000000 in
theorem w19_4_main_call60_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_4 V x0 x1 x2 x3 x4 x5 x6) :
    after ops_p19_4 V (Proc.devRef .tc main_call60_v2) = val_main_call60_v2 (F := F) := by
  simp only [ops_p19_4]
  after_results_w
  rfl

theorem step19_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_4 V x0 x1 x2 x3 x4 x5 x6) : Inv19_5 (after ops_p19_4 V) x0 x1 x2 x3 x4 x5 x6 where
  main_arg0 := (ops_p19_4_keep V main_arg0 (by decide)).trans h.main_arg0
  main_arg1 := (ops_p19_4_keep V main_arg1 (by decide)).trans h.main_arg1
  main_arg2 := (ops_p19_4_keep V main_arg2 (by decide)).trans h.main_arg2
  main_arg3 := (ops_p19_4_keep V main_arg3 (by decide)).trans h.main_arg3
  main_arg4 := (ops_p19_4_keep V main_arg4 (by decide)).trans h.main_arg4
  main_arg5 := (ops_p19_4_keep V main_arg5 (by decide)).trans h.main_arg5
  main_arg6 := (ops_p19_4_keep V main_arg6 (by decide)).trans h.main_arg6
  main_v27 := (ops_p19_4_keep V main_v27 (by decide)).trans h.main_v27
  main_v524 := (ops_p19_4_keep V main_v524 (by decide)).trans h.main_v524
  main_v526 := (ops_p19_4_keep V main_v526 (by decide)).trans h.main_v526
  main_v528 := (ops_p19_4_keep V main_v528 (by decide)).trans h.main_v528
  main_v530 := (ops_p19_4_keep V main_v530 (by decide)).trans h.main_v530
  main_v801 := (ops_p19_4_keep V main_v801 (by decide)).trans h.main_v801
  main_v849 := w19_4_main_v849 V x0 x1 x2 x3 x4 x5 x6 h
  main_call60_v1 := w19_4_main_call60_v1 V x0 x1 x2 x3 x4 x5 x6 h
  main_call60_v2 := w19_4_main_call60_v2 V x0 x1 x2 x3 x4 x5 x6 h

/-- Stretch 5 of window 19: @main's operations 1403 … 1410. -/
def ops_p19_5 : List (HloOp τ sig (Elt F)) :=
  [ ternary main_call60_v1 main_v849 main_call60_v2 main_v851 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v852 ((extractStridedSlice S1x1x64x64 ![1, 2, 0, 0] · slices_S3x3x64x64_S1x1x64x64_1_2_0_0) : (⟨S3x3x64x64, .f32⟩ : BufTy).Contents (Elt F) → (⟨S1x1x64x64, .f32⟩ : BufTy).Contents (Elt F)),
    reshape main_v852 main_v853 rfl shapeCasts_S1x1x64x64_S64x64,
    binary main_v851 main_v853 main_v854 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v801 main_v854 main_v855 (addf : (⟨S409600x64, .f32⟩ : BufTy).Contents (Elt F) → (⟨S409600x64, .f32⟩ : BufTy).Contents (Elt F) → (⟨S409600x64, .f32⟩ : BufTy).Contents (Elt F)),
    nullary main_c_322 (constantI S_ 32 1#32),
    unary main_c_322 main_v856 (broadcastInDim S409600 ![] bcast_S_S409600 : (⟨S_, .i32⟩ : BufTy).Contents (Elt F) → (⟨S409600, .i32⟩ : BufTy).Contents (Elt F)),
    binary main_v528 main_v856 main_v857 (addi : (⟨S409600, .i32⟩ : BufTy).Contents (Elt F) → (⟨S409600, .i32⟩ : BufTy).Contents (Elt F) → (⟨S409600, .i32⟩ : BufTy).Contents (Elt F)) ]
abbrev ops_p19_5_W : List (Ref sig .tc) := [main_v851, main_v852, main_v853, main_v854, main_v855, main_c_322, main_v856, main_v857]
theorem ops_p19_5_writes : (ops_p19_5 : List (HloOp τ sig (Elt F))).Forall fun op => op.writes ⊆ (ops_p19_5_W.map (Proc.devRef (τ := τ) .tc)).toFinset := by
  simp only [ops_p19_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p19_5_keep (V : Valuation τ sig (Elt F)) (r : Ref sig .tc) (h : r ∉ ops_p19_5_W) :
    after ops_p19_5 V (Proc.devRef .tc r) = V (Proc.devRef .tc r) :=
  after_of_writes_sub ops_p19_5 _ ops_p19_5_writes h

set_option maxRecDepth 8192 in
set_option maxHeartbeats 1000000 in
theorem w19_5_main_v855 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_5 V x0 x1 x2 x3 x4 x5 x6) :
    after ops_p19_5 V (Proc.devRef .tc main_v855) = val_main_v855 (F := F) x0 x1 x2 x3 x4 := by
  simp only [ops_p19_5]
  after_results_w
  simp only [h.main_arg4, h.main_call60_v2, h.main_v849, h.main_call60_v1, h.main_v801]
  rfl

set_option maxRecDepth 8192 in
set_option maxHeartbeats 1000000 in
theorem w19_5_main_v857 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_5 V x0 x1 x2 x3 x4 x5 x6) :
    after ops_p19_5 V (Proc.devRef .tc main_v857) = val_main_v857 (F := F) x1 := by
  simp only [ops_p19_5]
  after_results_w
  simp only [h.main_v528]
  rfl

theorem step19_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_5 V x0 x1 x2 x3 x4 x5 x6) : Inv19_6 (after ops_p19_5 V) x0 x1 x2 x3 x4 x5 x6 where
  main_arg0 := (ops_p19_5_keep V main_arg0 (by decide)).trans h.main_arg0
  main_arg1 := (ops_p19_5_keep V main_arg1 (by decide)).trans h.main_arg1
  main_arg2 := (ops_p19_5_keep V main_arg2 (by decide)).trans h.main_arg2
  main_arg3 := (ops_p19_5_keep V main_arg3 (by decide)).trans h.main_arg3
  main_arg4 := (ops_p19_5_keep V main_arg4 (by decide)).trans h.main_arg4
  main_arg5 := (ops_p19_5_keep V main_arg5 (by decide)).trans h.main_arg5
  main_arg6 := (ops_p19_5_keep V main_arg6 (by decide)).trans h.main_arg6
  main_v27 := (ops_p19_5_keep V main_v27 (by decide)).trans h.main_v27
  main_v524 := (ops_p19_5_keep V main_v524 (by decide)).trans h.main_v524
  main_v526 := (ops_p19_5_keep V main_v526 (by decide)).trans h.main_v526
  main_v528 := (ops_p19_5_keep V main_v528 (by decide)).trans h.main_v528
  main_v530 := (ops_p19_5_keep V main_v530 (by decide)).trans h.main_v530
  main_v855 := w19_5_main_v855 V x0 x1 x2 x3 x4 x5 x6 h
  main_v857 := w19_5_main_v857 V x0 x1 x2 x3 x4 x5 x6 h

/-- Stretch 6 of window 19: @main's operations 1411 … 1418. -/
def ops_p19_6 : List (HloOp τ sig (Elt F)) :=
  [ nullary main_c_323 (constantI S_ 32 4294967295#32),
    unary main_c_323 main_v858 (broadcastInDim S409600 ![] bcast_S_S409600 : (⟨S_, .i32⟩ : BufTy).Contents (Elt F) → (⟨S409600, .i32⟩ : BufTy).Contents (Elt F)),
    binary main_v530 main_v858 main_v859 (addi : (⟨S409600, .i32⟩ : BufTy).Contents (Elt F) → (⟨S409600, .i32⟩ : BufTy).Contents (Elt F) → (⟨S409600, .i32⟩ : BufTy).Contents (Elt F)),
    nullary main_c_324 (constantI S_ 32 0#32),
    unary main_c_324 main_v860 (broadcastInDim S409600 ![] bcast_S_S409600 : (⟨S_, .i32⟩ : BufTy).Contents (Elt F) → (⟨S409600, .i32⟩ : BufTy).Contents (Elt F)),
    binary main_v857 main_v860 main_v861 (cmpi .sge : (⟨S409600, .i32⟩ : BufTy).Contents (Elt F) → (⟨S409600, .i32⟩ : BufTy).Contents (Elt F) → (⟨S409600, .i1⟩ : BufTy).Contents (Elt F)),
    nullary main_c_325 (constantI S_ 32 640#32),
    unary main_c_325 main_v862 (broadcastInDim S409600 ![] bcast_S_S409600 : (⟨S_, .i32⟩ : BufTy).Contents (Elt F) → (⟨S409600, .i32⟩ : BufTy).Contents (Elt F)) ]
abbrev ops_p19_6_W : List (Ref sig .tc) := [main_c_323, main_v858, main_v859, main_c_324, main_v860, main_v861, main_c_325, main_v862]
theorem ops_p19_6_writes : (ops_p19_6 : List (HloOp τ sig (Elt F))).Forall fun op => op.writes ⊆ (ops_p19_6_W.map (Proc.devRef (τ := τ) .tc)).toFinset := by
  simp only [ops_p19_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p19_6_keep (V : Valuation τ sig (Elt F)) (r : Ref sig .tc) (h : r ∉ ops_p19_6_W) :
    after ops_p19_6 V (Proc.devRef .tc r) = V (Proc.devRef .tc r) :=
  after_of_writes_sub ops_p19_6 _ ops_p19_6_writes h

set_option maxRecDepth 8192 in
set_option maxHeartbeats 1000000 in
theorem w19_6_main_v859 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_6 V x0 x1 x2 x3 x4 x5 x6) :
    after ops_p19_6 V (Proc.devRef .tc main_v859) = val_main_v859 (F := F) x1 := by
  simp only [ops_p19_6]
  after_results_w
  simp only [h.main_v530]
  rfl

set_option maxRecDepth 8192 in
set_option maxHeartbeats 1000000 in
theorem w19_6_main_v861 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_6 V x0 x1 x2 x3 x4 x5 x6) :
    after ops_p19_6 V (Proc.devRef .tc main_v861) = val_main_v861 (F := F) x1 := by
  simp only [ops_p19_6]
  after_results_w
  simp only [h.main_v857]
  rfl

set_option maxRecDepth 8192 in
set_option maxHeartbeats 1000000 in
theorem w19_6_main_v862 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_6 V x0 x1 x2 x3 x4 x5 x6) :
    after ops_p19_6 V (Proc.devRef .tc main_v862) = val_main_v862 (F := F) := by
  simp only [ops_p19_6]
  after_results_w
  rfl

theorem step19_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_6 V x0 x1 x2 x3 x4 x5 x6) : Inv19_7 (after ops_p19_6 V) x0 x1 x2 x3 x4 x5 x6 where
  main_arg0 := (ops_p19_6_keep V main_arg0 (by decide)).trans h.main_arg0
  main_arg1 := (ops_p19_6_keep V main_arg1 (by decide)).trans h.main_arg1
  main_arg2 := (ops_p19_6_keep V main_arg2 (by decide)).trans h.main_arg2
  main_arg3 := (ops_p19_6_keep V main_arg3 (by decide)).trans h.main_arg3
  main_arg4 := (ops_p19_6_keep V main_arg4 (by decide)).trans h.main_arg4
  main_arg5 := (ops_p19_6_keep V main_arg5 (by decide)).trans h.main_arg5
  main_arg6 := (ops_p19_6_keep V main_arg6 (by decide)).trans h.main_arg6
  main_v27 := (ops_p19_6_keep V main_v27 (by decide)).trans h.main_v27
  main_v524 := (ops_p19_6_keep V main_v524 (by decide)).trans h.main_v524
  main_v526 := (ops_p19_6_keep V main_v526 (by decide)).trans h.main_v526
  main_v528 := (ops_p19_6_keep V main_v528 (by decide)).trans h.main_v528
  main_v530 := (ops_p19_6_keep V main_v530 (by decide)).trans h.main_v530
  main_v855 := (ops_p19_6_keep V main_v855 (by decide)).trans h.main_v855
  main_v857 := (ops_p19_6_keep V main_v857 (by decide)).trans h.main_v857
  main_v859 := w19_6_main_v859 V x0 x1 x2 x3 x4 x5 x6 h
  main_v861 := w19_6_main_v861 V x0 x1 x2 x3 x4 x5 x6 h
  main_v862 := w19_6_main_v862 V x0 x1 x2 x3 x4 x5 x6 h

/-- Stretch 7 of window 19: @main's operations 1419 … 1427. -/
def ops_p19_7 : List (HloOp τ sig (Elt F)) :=
  [ binary main_v857 main_v862 main_v863 (cmpi .slt : (⟨S409600, .i32⟩ : BufTy).Contents (Elt F) → (⟨S409600, .i32⟩ : BufTy).Contents (Elt F) → (⟨S409600, .i1⟩ : BufTy).Contents (Elt F)),
    binary main_v861 main_v863 main_v864 (andi : (⟨S409600, .i1⟩ : BufTy).Contents (Elt F) → (⟨S409600, .i1⟩ : BufTy).Contents (Elt F) → (⟨S409600, .i1⟩ : BufTy).Contents (Elt F)),
    nullary main_c_326 (constantI S_ 32 0#32),
    unary main_c_326 main_v865 (broadcastInDim S409600 ![] bcast_S_S409600 : (⟨S_, .i32⟩ : BufTy).Contents (Elt F) → (⟨S409600, .i32⟩ : BufTy).Contents (Elt F)),
    binary main_v859 main_v865 main_v866 (cmpi .sge : (⟨S409600, .i32⟩ : BufTy).Contents (Elt F) → (⟨S409600, .i32⟩ : BufTy).Contents (Elt F) → (⟨S409600, .i1⟩ : BufTy).Contents (Elt F)),
    binary main_v864 main_v866 main_v867 (andi : (⟨S409600, .i1⟩ : BufTy).Contents (Elt F) → (⟨S409600, .i1⟩ : BufTy).Contents (Elt F) → (⟨S409600, .i1⟩ : BufTy).Contents (Elt F)),
    nullary main_c_327 (constantI S_ 32 640#32),
    unary main_c_327 main_v868 (broadcastInDim S409600 ![] bcast_S_S409600 : (⟨S_, .i32⟩ : BufTy).Contents (Elt F) → (⟨S409600, .i32⟩ : BufTy).Contents (Elt F)),
    binary main_v859 main_v868 main_v869 (cmpi .slt : (⟨S409600, .i32⟩ : BufTy).Contents (Elt F) → (⟨S409600, .i32⟩ : BufTy).Contents (Elt F) → (⟨S409600, .i1⟩ : BufTy).Contents (Elt F)) ]
abbrev ops_p19_7_W : List (Ref sig .tc) := [main_v863, main_v864, main_c_326, main_v865, main_v866, main_v867, main_c_327, main_v868, main_v869]
theorem ops_p19_7_writes : (ops_p19_7 : List (HloOp τ sig (Elt F))).Forall fun op => op.writes ⊆ (ops_p19_7_W.map (Proc.devRef (τ := τ) .tc)).toFinset := by
  simp only [ops_p19_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p19_7_keep (V : Valuation τ sig (Elt F)) (r : Ref sig .tc) (h : r ∉ ops_p19_7_W) :
    after ops_p19_7 V (Proc.devRef .tc r) = V (Proc.devRef .tc r) :=
  after_of_writes_sub ops_p19_7 _ ops_p19_7_writes h

set_option maxRecDepth 8192 in
set_option maxHeartbeats 1000000 in
theorem w19_7_main_v867 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_7 V x0 x1 x2 x3 x4 x5 x6) :
    after ops_p19_7 V (Proc.devRef .tc main_v867) = val_main_v867 (F := F) x1 := by
  simp only [ops_p19_7]
  after_results_w
  simp only [h.main_v859, h.main_v862, h.main_v857, h.main_v861]
  rfl

set_option maxRecDepth 8192 in
set_option maxHeartbeats 1000000 in
theorem w19_7_main_v869 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_7 V x0 x1 x2 x3 x4 x5 x6) :
    after ops_p19_7 V (Proc.devRef .tc main_v869) = val_main_v869 (F := F) x1 := by
  simp only [ops_p19_7]
  after_results_w
  simp only [h.main_v859]
  rfl

theorem step19_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19_7 V x0 x1 x2 x3 x4 x5 x6) : Inv20 (after ops_p19_7 V) x0 x1 x2 x3 x4 x5 x6 where
  main_arg0 := (ops_p19_7_keep V main_arg0 (by decide)).trans h.main_arg0
  main_arg1 := (ops_p19_7_keep V main_arg1 (by decide)).trans h.main_arg1
  main_arg2 := (ops_p19_7_keep V main_arg2 (by decide)).trans h.main_arg2
  main_arg3 := (ops_p19_7_keep V main_arg3 (by decide)).trans h.main_arg3
  main_arg4 := (ops_p19_7_keep V main_arg4 (by decide)).trans h.main_arg4
  main_arg5 := (ops_p19_7_keep V main_arg5 (by decide)).trans h.main_arg5
  main_arg6 := (ops_p19_7_keep V main_arg6 (by decide)).trans h.main_arg6
  main_v27 := (ops_p19_7_keep V main_v27 (by decide)).trans h.main_v27
  main_v524 := (ops_p19_7_keep V main_v524 (by decide)).trans h.main_v524
  main_v526 := (ops_p19_7_keep V main_v526 (by decide)).trans h.main_v526
  main_v528 := (ops_p19_7_keep V main_v528 (by decide)).trans h.main_v528
  main_v530 := (ops_p19_7_keep V main_v530 (by decide)).trans h.main_v530
  main_v855 := (ops_p19_7_keep V main_v855 (by decide)).trans h.main_v855
  main_v857 := (ops_p19_7_keep V main_v857 (by decide)).trans h.main_v857
  main_v859 := (ops_p19_7_keep V main_v859 (by decide)).trans h.main_v859
  main_v867 := w19_7_main_v867 V x0 x1 x2 x3 x4 x5 x6 h
  main_v869 := w19_7_main_v869 V x0 x1 x2 x3 x4 x5 x6 h

set_option maxRecDepth 8192 in
theorem ops_p19_split : (ops_p19 : List (HloOp τ sig (Elt F))) = ops_p19_0 ++ (ops_p19_1 ++ (ops_p19_2 ++ (ops_p19_3 ++ (ops_p19_4 ++ (ops_p19_5 ++ (ops_p19_6 ++ (ops_p19_7))))))) := rfl

/-- Window 19 carries the staged reading from boundary 19 to boundary 20. -/
theorem step19 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv19 V x0 x1 x2 x3 x4 x5 x6) : Inv20 (after ops_p19 V) x0 x1 x2 x3 x4 x5 x6 := by
  rw [ops_p19_split]; simp only [after_app]
  exact step19_7 _ x0 x1 x2 x3 x4 x5 x6 (step19_6 _ x0 x1 x2 x3 x4 x5 x6 (step19_5 _ x0 x1 x2 x3 x4 x5 x6 (step19_4 _ x0 x1 x2 x3 x4 x5 x6 (step19_3 _ x0 x1 x2 x3 x4 x5 x6 (step19_2 _ x0 x1 x2 x3 x4 x5 x6 (step19_1 _ x0 x1 x2 x3 x4 x5 x6 (step19_0 V x0 x1 x2 x3 x4 x5 x6 h)))))))

end Cert.ReferenceIdeal.Hand

end
-- ==== Proof.Ref.W20.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 20 of @main: its operations 1428 … 1502 of 1688, in order. -/
def ops_p20 : List (HloOp τ sig (Elt F)) :=
  [ binary main_v867 main_v869 main_v870 (andi : (⟨S409600, .i1⟩ : BufTy).Contents (Elt F) → (⟨S409600, .i1⟩ : BufTy).Contents (Elt F) → (⟨S409600, .i1⟩ : BufTy).Contents (Elt F)),
    nullary main_c_328 (constantI S_ 32 0#32),
    nullary main_c_329 (constantI S_ 32 639#32),
    unary main_c_328 main_call61_v0 (id : (⟨S_, .i32⟩ : BufTy).Contents (Elt F) → (⟨S_, .i32⟩ : BufTy).Contents (Elt F)),
    unary main_call61_v0 main_call61_v1 ((broadcastInDim S409600 ![] bcast_S_S409600) : (⟨S_, .i32⟩ : BufTy).Contents (Elt F) → (⟨S409600, .i32⟩ : BufTy).Contents (Elt F)),
    binary main_call61_v1 main_v857 main_call61_v2 (maxsi : (⟨S409600, .i32⟩ : BufTy).Contents (Elt F) → (⟨S409600, .i32⟩ : BufTy).Contents (Elt F) → (⟨S409600, .i32⟩ : BufTy).Contents (Elt F)),
    unary main_c_329 main_call61_v3 (id : (⟨S_, .i32⟩ : BufTy).Contents (Elt F) → (⟨S_, .i32⟩ : BufTy).Contents (Elt F)),
    unary main_call61_v3 main_call61_v4 ((broadcastInDim S409600 ![] bcast_S_S409600) : (⟨S_, .i32⟩ : BufTy).Contents (Elt F) → (⟨S409600, .i32⟩ : BufTy).Contents (Elt F)),
    binary main_call61_v4 main_call61_v2 main_v871 (minsi : (⟨S409600, .i32⟩ : BufTy).Contents (Elt F) → (⟨S409600, .i32⟩ : BufTy).Contents (Elt F) → (⟨S409600, .i32⟩ : BufTy).Contents (Elt F)),
    nullary main_c_330 (constantI S_ 32 0#32),
    nullary main_c_331 (constantI S_ 32 639#32),
    unary main_c_330 main_call62_v0 (id : (⟨S_, .i32⟩ : BufTy).Contents (Elt F) → (⟨S_, .i32⟩ : BufTy).Contents (Elt F)),
    unary main_call62_v0 main_call62_v1 ((broadcastInDim S409600 ![] bcast_S_S409600) : (⟨S_, .i32⟩ : BufTy).Contents (Elt F) → (⟨S409600, .i32⟩ : BufTy).Contents (Elt F)),
    binary main_call62_v1 main_v859 main_call62_v2 (maxsi : (⟨S409600, .i32⟩ : BufTy).Contents (Elt F) → (⟨S409600, .i32⟩ : BufTy).Contents (Elt F) → (⟨S409600, .i32⟩ : BufTy).Contents (Elt F)),
    unary main_c_331 main_call62_v3 (id : (⟨S_, .i32⟩ : BufTy).Contents (Elt F) → (⟨S_, .i32⟩ : BufTy).Contents (Elt F)),
    unary main_call62_v3 main_call62_v4 ((broadcastInDim S409600 ![] bcast_S_S409600) : (⟨S_, .i32⟩ : BufTy).Contents (Elt F) → (⟨S409600, .i32⟩ : BufTy).Contents (Elt F)),
    binary main_call62_v4 main_call62_v2 main_v872 (minsi : (⟨S409600, .i32⟩ : BufTy).Contents (Elt F) → (⟨S409600, .i32⟩ : BufTy).Contents (Elt F) → (⟨S409600, .i32⟩ : BufTy).Contents (Elt F)),
    nullary main_c_332 (constantI S_ 32 0#32),
    unary main_c_332 main_v873 (broadcastInDim S409600 ![] bcast_S_S409600 : (⟨S_, .i32⟩ : BufTy).Contents (Elt F) → (⟨S409600, .i32⟩ : BufTy).Contents (Elt F)),
    binary main_v526 main_v873 main_v874 (cmpi .slt : (⟨S409600, .i32⟩ : BufTy).Contents (Elt F) → (⟨S409600, .i32⟩ : BufTy).Contents (Elt F) → (⟨S409600, .i1⟩ : BufTy).Contents (Elt F)),
    nullary main_c_333 (constantI S_ 32 2#32),
    unary main_c_333 main_v875 (broadcastInDim S409600 ![] bcast_S_S409600 : (⟨S_, .i32⟩ : BufTy).Contents (Elt F) → (⟨S409600, .i32⟩ : BufTy).Contents (Elt F)),
    binary main_v526 main_v875 main_v876 (addi : (⟨S409600, .i32⟩ : BufTy).Contents (Elt F) → (⟨S409600, .i32⟩ : BufTy).Contents (Elt F) → (⟨S409600, .i32⟩ : BufTy).Contents (Elt F)),
    ternary main_v874 main_v876 main_v526 main_v877 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_334 (constantI S_ 32 0#32),
    unary main_c_334 main_v878 (broadcastInDim S409600 ![] bcast_S_S409600 : (⟨S_, .i32⟩ : BufTy).Contents (Elt F) → (⟨S409600, .i32⟩ : BufTy).Contents (Elt F)),
    binary main_v871 main_v878 main_v879 (cmpi .slt : (⟨S409600, .i32⟩ : BufTy).Contents (Elt F) → (⟨S409600, .i32⟩ : BufTy).Contents (Elt F) → (⟨S409600, .i1⟩ : BufTy).Contents (Elt F)),
    nullary main_c_335 (constantI S_ 32 640#32),
    unary main_c_335 main_v880 (broadcastInDim S409600 ![] bcast_S_S409600 : (⟨S_, .i32⟩ : BufTy).Contents (Elt F) → (⟨S409600, .i32⟩ : BufTy).Contents (Elt F)),
    binary main_v871 main_v880 main_v881 (addi : (⟨S409600, .i32⟩ : BufTy).Contents (Elt F) → (⟨S409600, .i32⟩ : BufTy).Contents (Elt F) → (⟨S409600, .i32⟩ : BufTy).Contents (Elt F)),
    ternary main_v879 main_v881 main_v871 main_v882 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_336 (constantI S_ 32 0#32),
    unary main_c_336 main_v883 (broadcastInDim S409600 ![] bcast_S_S409600 : (⟨S_, .i32⟩ : BufTy).Contents (Elt F) → (⟨S409600, .i32⟩ : BufTy).Contents (Elt F)),
    binary main_v872 main_v883 main_v884 (cmpi .slt : (⟨S409600, .i32⟩ : BufTy).Contents (Elt F) → (⟨S409600, .i32⟩ : BufTy).Contents (Elt F) → (⟨S409600, .i1⟩ : BufTy).Contents (Elt F)),
    nullary main_c_337 (constantI S_ 32 640#32),
    unary main_c_337 main_v885 (broadcastInDim S409600 ![] bcast_S_S409600 : (⟨S_, .i32⟩ : BufTy).Contents (Elt F) → (⟨S409600, .i32⟩ : BufTy).Contents (Elt F)),
    binary main_v872 main_v885 main_v886 (addi : (⟨S409600, .i32⟩ : BufTy).Contents (Elt F) → (⟨S409600, .i32⟩ : BufTy).Contents (Elt F) → (⟨S409600, .i32⟩ : BufTy).Contents (Elt F)),
    ternary main_v884 main_v886 main_v872 main_v887 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v877 main_v888 (broadcastInDim S409600x1 ![0] bcast_S409600_S409600x1_0 : (⟨S409600, .i32⟩ : BufTy).Contents (Elt F) → (⟨S409600x1, .i32⟩ : BufTy).Contents (Elt F)),
    unary main_v882 main_v889 (broadcastInDim S409600x1 ![0] bcast_S409600_S409600x1_0 : (⟨S409600, .i32⟩ : BufTy).Contents (Elt F) → (⟨S409600x1, .i32⟩ : BufTy).Contents (Elt F)),
    unary main_v887 main_v890 (broadcastInDim S409600x1 ![0] bcast_S409600_S409600x1_0 : (⟨S409600, .i32⟩ : BufTy).Contents (Elt F) → (⟨S409600x1, .i32⟩ : BufTy).Contents (Elt F)),
    nary ![main_v888, main_v889, main_v890] main_v891 (fun u => concatenate S409600x3 1 [⟨S409600x1, u 0⟩, ⟨S409600x1, u 1⟩, ⟨S409600x1, u 2⟩] concatenates_S409600x1_S409600x1_S409600x1_S409600x3_d1),
    binary main_v27 main_v891 main_v892 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_338 (constantI S_ 32 0#32),
    unary main_c_338 main_v893 (broadcastInDim S409600 ![] bcast_S_S409600 : (⟨S_, .i32⟩ : BufTy).Contents (Elt F) → (⟨S409600, .i32⟩ : BufTy).Contents (Elt F)),
    binary main_v892 main_v893 main_v894 (cmpi .sge : (⟨S409600, .i32⟩ : BufTy).Contents (Elt F) → (⟨S409600, .i32⟩ : BufTy).Contents (Elt F) → (⟨S409600, .i1⟩ : BufTy).Contents (Elt F)),
    binary main_v870 main_v894 main_v895 (andi : (⟨S409600, .i1⟩ : BufTy).Contents (Elt F) → (⟨S409600, .i1⟩ : BufTy).Contents (Elt F) → (⟨S409600, .i1⟩ : BufTy).Contents (Elt F)),
    nullary main_c_339 (constantI S_ 32 0#32),
    unary main_c_339 main_call63_v0 (id : (⟨S_, .i32⟩ : BufTy).Contents (Elt F) → (⟨S_, .i32⟩ : BufTy).Contents (Elt F)),
    unary main_call63_v0 main_call63_v1 ((broadcastInDim S409600 ![] bcast_S_S409600) : (⟨S_, .i32⟩ : BufTy).Contents (Elt F) → (⟨S409600, .i32⟩ : BufTy).Contents (Elt F)),
    ternary main_v895 main_v892 main_call63_v1 main_v896 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_340 (constantI S_ 32 0#32),
    unary main_c_340 main_v897 (broadcastInDim S409600 ![] bcast_S_S409600 : (⟨S_, .i32⟩ : BufTy).Contents (Elt F) → (⟨S409600, .i32⟩ : BufTy).Contents (Elt F)),
    binary main_v896 main_v897 main_v898 (cmpi .slt : (⟨S409600, .i32⟩ : BufTy).Contents (Elt F) → (⟨S409600, .i32⟩ : BufTy).Contents (Elt F) → (⟨S409600, .i1⟩ : BufTy).Contents (Elt F)),
    nullary main_c_341 (constantI S_ 32 409600#32),
    unary main_c_341 main_v899 (broadcastInDim S409600 ![] bcast_S_S409600 : (⟨S_, .i32⟩ : BufTy).Contents (Elt F) → (⟨S409600, .i32⟩ : BufTy).Contents (Elt F)),
    binary main_v896 main_v899 main_v900 (addi : (⟨S409600, .i32⟩ : BufTy).Contents (Elt F) → (⟨S409600, .i32⟩ : BufTy).Contents (Elt F) → (⟨S409600, .i32⟩ : BufTy).Contents (Elt F)),
    ternary main_v898 main_v900 main_v896 main_v901 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v901 main_v902 (broadcastInDim S409600x1 ![0] bcast_S409600_S409600x1_0 : (⟨S409600, .i32⟩ : BufTy).Contents (Elt F) → (⟨S409600x1, .i32⟩ : BufTy).Contents (Elt F)),
    binary main_v524 main_v902 main_v903 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v895 main_v904 (broadcastInDim S409600x1 ![0] bcast_S409600_S409600x1_0 : (⟨S409600, .i1⟩ : BufTy).Contents (Elt F) → (⟨S409600x1, .i1⟩ : BufTy).Contents (Elt F)),
    nullary main_cst_342 (constant S_ .f32 0x00000000#32),
    unary main_cst_342 main_call64_v0 (id : (⟨S_, .f32⟩ : BufTy).Contents (Elt F) → (⟨S_, .f32⟩ : BufTy).Contents (Elt F)),
    unary main_v904 main_call64_v1 ((broadcastInDim S409600x64 ![0, 1] bcast_S409600x1_S409600x64_0_1) : (⟨S409600x1, .i1⟩ : BufTy).Contents (Elt F) → (⟨S409600x64, .i1⟩ : BufTy).Contents (Elt F)),
    unary main_call64_v0 main_call64_v2 ((broadcastInDim S409600x64 ![] bcast_S_S409600x64) : (⟨S_, .f32⟩ : BufTy).Contents (Elt F) → (⟨S409600x64, .f32⟩ : BufTy).Contents (Elt F)),
    ternary main_call64_v1 main_v903 main_call64_v2 main_v905 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v906 ((extractStridedSlice S1x1x64x64 ![2, 0, 0, 0] · slices_S3x3x64x64_S1x1x64x64_2_0_0_0) : (⟨S3x3x64x64, .f32⟩ : BufTy).Contents (Elt F) → (⟨S1x1x64x64, .f32⟩ : BufTy).Contents (Elt F)),
    reshape main_v906 main_v907 rfl shapeCasts_S1x1x64x64_S64x64,
    binary main_v905 main_v907 main_v908 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v855 main_v908 main_v909 (addf : (⟨S409600x64, .f32⟩ : BufTy).Contents (Elt F) → (⟨S409600x64, .f32⟩ : BufTy).Contents (Elt F) → (⟨S409600x64, .f32⟩ : BufTy).Contents (Elt F)),
    nullary main_c_343 (constantI S_ 32 1#32),
    unary main_c_343 main_v910 (broadcastInDim S409600 ![] bcast_S_S409600 : (⟨S_, .i32⟩ : BufTy).Contents (Elt F) → (⟨S409600, .i32⟩ : BufTy).Contents (Elt F)),
    binary main_v528 main_v910 main_v911 (addi : (⟨S409600, .i32⟩ : BufTy).Contents (Elt F) → (⟨S409600, .i32⟩ : BufTy).Contents (Elt F) → (⟨S409600, .i32⟩ : BufTy).Contents (Elt F)),
    nullary main_c_344 (constantI S_ 32 0#32),
    unary main_c_344 main_v912 (broadcastInDim S409600 ![] bcast_S_S409600 : (⟨S_, .i32⟩ : BufTy).Contents (Elt F) → (⟨S409600, .i32⟩ : BufTy).Contents (Elt F)) ]

set_option maxRecDepth 8192 in
set_option maxHeartbeats 4000000 in
theorem main_part20_eq (c : Dev nD) : main_part20 (F := F) c = seq ops_p20 := by
  simp only [main_part20, ops_p20, fn_clip.body, fn_where.body, fn_where_0.body, fn_relu.body, seq, bind_assoc, pure_bind]
  rfl

set_option maxRecDepth 8192 in
theorem ops_p20_sub : (ops_p20 : List (HloOp τ sig (Elt F))).Forall fun op => op.bufs ⊆ tcRefs τ sig :=
  ⟨binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub ..⟩

set_option maxRecDepth 8192 in
theorem ops_p20_fresh : ∀ op ∈ (ops_p20 : List (HloOp τ sig (Elt F))), op.fresh = ∅ := by
  unfold ops_p20; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 1436 on hold before it. -/
structure Inv20_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v859 : V (Proc.devRef .tc main_v859) = val_main_v859 (F := F) x1
  main_v870 : V (Proc.devRef .tc main_v870) = val_main_v870 (F := F) x1
  main_call61_v2 : V (Proc.devRef .tc main_call61_v2) = val_main_call61_v2 (F := F) x1
  main_call61_v4 : V (Proc.devRef .tc main_call61_v4) = val_main_call61_v4 (F := F)

/-- What the buffers read from operation 1444 on hold before it. -/
structure Inv20_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v870 : V (Proc.devRef .tc main_v870) = val_main_v870 (F := F) x1
  main_v871 : V (Proc.devRef .tc main_v871) = val_main_v871 (F := F) x1
  main_call62_v2 : V (Proc.devRef .tc main_call62_v2) = val_main_call62_v2 (F := F) x1
  main_call62_v4 : V (Proc.devRef .tc main_call62_v4) = val_main_call62_v4 (F := F)

/-- What the buffers read from operation 1452 on hold before it. -/
structure Inv20_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v870 : V (Proc.devRef .tc main_v870) = val_main_v870 (F := F) x1
  main_v871 : V (Proc.devRef .tc main_v871) = val_main_v871 (F := F) x1
  main_v872 : V (Proc.devRef .tc main_v872) = val_main_v872 (F := F) x1
  main_v877 : V (Proc.devRef .tc main_v877) = val_main_v877 (F := F) x1

/-- What the buffers read from operation 1460 on hold before it. -/
structure Inv20_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v870 : V (Proc.devRef .tc main_v870) = val_main_v870 (F := F) x1
  main_v872 : V (Proc.devRef .tc main_v872) = val_main_v872 (F := F) x1
  main_v877 : V (Proc.devRef .tc main_v877) = val_main_v877 (F := F) x1
  main_v882 : V (Proc.devRef .tc main_v882) = val_main_v882 (F := F) x1
  main_c_336 : V (Proc.devRef .tc main_c_336) = val_main_c_336 (F := F)

/-- What the buffers read from operation 1468 on hold before it. -/
structure Inv20_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v870 : V (Proc.devRef .tc main_v870) = val_main_v870 (F := F) x1
  main_v887 : V (Proc.devRef .tc main_v887) = val_main_v887 (F := F) x1
  main_v888 : V (Proc.devRef .tc main_v888) = val_main_v888 (F := F) x1
  main_v889 : V (Proc.devRef .tc main_v889) = val_main_v889 (F := F) x1

/-- What the buffers read from operation 1476 on hold before it. -/
structure Inv20_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v892 : V (Proc.devRef .tc main_v892) = val_main_v892 (F := F) x1
  main_v895 : V (Proc.devRef .tc main_v895) = val_main_v895 (F := F) x1
  main_c_339 : V (Proc.devRef .tc main_c_339) = val_main_c_339 (F := F)

/-- What the buffers read from operation 1484 on hold before it. -/
structure Inv20_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v895 : V (Proc.devRef .tc main_v895) = val_main_v895 (F := F) x1
  main_v896 : V (Proc.devRef .tc main_v896) = val_main_v896 (F := F) x1
  main_v898 : V (Proc.devRef .tc main_v898) = val_main_v898 (F := F) x1
  main_v899 : V (Proc.devRef .tc main_v899) = val_main_v899 (F := F)

/-- What the buffers read from operation 1492 on hold before it. -/
structure Inv20_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v855 : V (Proc.devRef .tc main_v855) = val_main_v855 (F := F) x0 x1 x2 x3 x4
  main_v903 : V (Proc.devRef .tc main_v903) = val_main_v903 (F := F) x0 x1 x2 x3
  main_call64_v0 : V (Proc.devRef .tc main_call64_v0) = val_main_call64_v0 (F := F)
  main_call64_v1 : V (Proc.devRef .tc main_call64_v1) = val_main_call64_v1 (F := F) x1

/-- What the buffers read from operation 1500 on hold before it. -/
structure Inv20_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v910 : V (Proc.devRef .tc main_v910) = val_main_v910 (F := F)

/-- Stretch 0 of window 20: @main's operations 1428 … 1435. -/
def ops_p20_0 : List (HloOp τ sig (Elt F)) :=
  [ binary main_v867 main_v869 main_v870 (andi : (⟨S409600, .i1⟩ : BufTy).Contents (Elt F) → (⟨S409600, .i1⟩ : BufTy).Contents (Elt F) → (⟨S409600, .i1⟩ : BufTy).Contents (Elt F)),
    nullary main_c_328 (constantI S_ 32 0#32),
    nullary main_c_329 (constantI S_ 32 639#32),
    unary main_c_328 main_call61_v0 (id : (⟨S_, .i32⟩ : BufTy).Contents (Elt F) → (⟨S_, .i32⟩ : BufTy).Contents (Elt F)),
    unary main_call61_v0 main_call61_v1 ((broadcastInDim S409600 ![] bcast_S_S409600) : (⟨S_, .i32⟩ : BufTy).Contents (Elt F) → (⟨S409600, .i32⟩ : BufTy).Contents (Elt F)),
    binary main_call61_v1 main_v857 main_call61_v2 (maxsi : (⟨S409600, .i32⟩ : BufTy).Contents (Elt F) → (⟨S409600, .i32⟩ : BufTy).Contents (Elt F) → (⟨S409600, .i32⟩ : BufTy).Contents (Elt F)),
    unary main_c_329 main_call61_v3 (id : (⟨S_, .i32⟩ : BufTy).Contents (Elt F) → (⟨S_, .i32⟩ : BufTy).Contents (Elt F)),
    unary main_call61_v3 main_call61_v4 ((broadcastInDim S409600 ![] bcast_S_S409600) : (⟨S_, .i32⟩ : BufTy).Contents (Elt F) → (⟨S409600, .i32⟩ : BufTy).Contents (Elt F)) ]
abbrev ops_p20_0_W : List (Ref sig .tc) := [main_v870, main_c_328, main_c_329, main_call61_v0, main_call61_v1, main_call61_v2, main_call61_v3, main_call61_v4]
theorem ops_p20_0_writes : (ops_p20_0 : List (HloOp τ sig (Elt F))).Forall fun op => op.writes ⊆ (ops_p20_0_W.map (Proc.devRef (τ := τ) .tc)).toFinset := by
  simp only [ops_p20_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p20_0_keep (V : Valuation τ sig (Elt F)) (r : Ref sig .tc) (h : r ∉ ops_p20_0_W) :
    after ops_p20_0 V (Proc.devRef .tc r) = V (Proc.devRef .tc r) :=
  after_of_writes_sub ops_p20_0 _ ops_p20_0_writes h

set_option maxRecDepth 8192 in
set_option maxHeartbeats 1000000 in
theorem w20_0_main_v870 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20 V x0 x1 x2 x3 x4 x5 x6) :
    after ops_p20_0 V (Proc.devRef .tc main_v870) = val_main_v870 (F := F) x1 := by
  simp only [ops_p20_0]
  after_results_w
  simp only [h.main_v869, h.main_v867]
  rfl

set_option maxRecDepth 8192 in
set_option maxHeartbeats 1000000 in
theorem w20_0_main_call61_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20 V x0 x1 x2 x3 x4 x5 x6) :
    after ops_p20_0 V (Proc.devRef .tc main_call61_v2) = val_main_call61_v2 (F := F) x1 := by
  simp only [ops_p20_0]
  after_results_w
  simp only [h.main_v857]
  rfl

set_option maxRecDepth 8192 in
set_option maxHeartbeats 1000000 in
theorem w20_0_main_call61_v4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20 V x0 x1 x2 x3 x4 x5 x6) :
    after ops_p20_0 V (Proc.devRef .tc main_call61_v4) = val_main_call61_v4 (F := F) := by
  simp only [ops_p20_0]
  after_results_w
  rfl

theorem step20_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20 V x0 x1 x2 x3 x4 x5 x6) : Inv20_1 (after ops_p20_0 V) x0 x1 x2 x3 x4 x5 x6 where
  main_arg0 := (ops_p20_0_keep V main_arg0 (by decide)).trans h.main_arg0
  main_arg1 := (ops_p20_0_keep V main_arg1 (by decide)).trans h.main_arg1
  main_arg2 := (ops_p20_0_keep V main_arg2 (by decide)).trans h.main_arg2
  main_arg3 := (ops_p20_0_keep V main_arg3 (by decide)).trans h.main_arg3
  main_arg4 := (ops_p20_0_keep V main_arg4 (by decide)).trans h.main_arg4
  main_arg5 := (ops_p20_0_keep V main_arg5 (by decide)).trans h.main_arg5
  main_arg6 := (ops_p20_0_keep V main_arg6 (by decide)).trans h.main_arg6
  main_v27 := (ops_p20_0_keep V main_v27 (by decide)).trans h.main_v27
  main_v524 := (ops_p20_0_keep V main_v524 (by decide)).trans h.main_v524
  main_v526 := (ops_p20_0_keep V main_v526 (by decide)).trans h.main_v526
  main_v528 := (ops_p20_0_keep V main_v528 (by decide)).trans h.main_v528
  main_v530 := (ops_p20_0_keep V main_v530 (by decide)).trans h.main_v530
  main_v855 := (ops_p20_0_keep V main_v855 (by decide)).trans h.main_v855
  main_v859 := (ops_p20_0_keep V main_v859 (by decide)).trans h.main_v859
  main_v870 := w20_0_main_v870 V x0 x1 x2 x3 x4 x5 x6 h
  main_call61_v2 := w20_0_main_call61_v2 V x0 x1 x2 x3 x4 x5 x6 h
  main_call61_v4 := w20_0_main_call61_v4 V x0 x1 x2 x3 x4 x5 x6 h

/-- Stretch 1 of window 20: @main's operations 1436 … 1443. -/
def ops_p20_1 : List (HloOp τ sig (Elt F)) :=
  [ binary main_call61_v4 main_call61_v2 main_v871 (minsi : (⟨S409600, .i32⟩ : BufTy).Contents (Elt F) → (⟨S409600, .i32⟩ : BufTy).Contents (Elt F) → (⟨S409600, .i32⟩ : BufTy).Contents (Elt F)),
    nullary main_c_330 (constantI S_ 32 0#32),
    nullary main_c_331 (constantI S_ 32 639#32),
    unary main_c_330 main_call62_v0 (id : (⟨S_, .i32⟩ : BufTy).Contents (Elt F) → (⟨S_, .i32⟩ : BufTy).Contents (Elt F)),
    unary main_call62_v0 main_call62_v1 ((broadcastInDim S409600 ![] bcast_S_S409600) : (⟨S_, .i32⟩ : BufTy).Contents (Elt F) → (⟨S409600, .i32⟩ : BufTy).Contents (Elt F)),
    binary main_call62_v1 main_v859 main_call62_v2 (maxsi : (⟨S409600, .i32⟩ : BufTy).Contents (Elt F) → (⟨S409600, .i32⟩ : BufTy).Contents (Elt F) → (⟨S409600, .i32⟩ : BufTy).Contents (Elt F)),
    unary main_c_331 main_call62_v3 (id : (⟨S_, .i32⟩ : BufTy).Contents (Elt F) → (⟨S_, .i32⟩ : BufTy).Contents (Elt F)),
    unary main_call62_v3 main_call62_v4 ((broadcastInDim S409600 ![] bcast_S_S409600) : (⟨S_, .i32⟩ : BufTy).Contents (Elt F) → (⟨S409600, .i32⟩ : BufTy).Contents (Elt F)) ]
abbrev ops_p20_1_W : List (Ref sig .tc) := [main_v871, main_c_330, main_c_331, main_call62_v0, main_call62_v1, main_call62_v2, main_call62_v3, main_call62_v4]
theorem ops_p20_1_writes : (ops_p20_1 : List (HloOp τ sig (Elt F))).Forall fun op => op.writes ⊆ (ops_p20_1_W.map (Proc.devRef (τ := τ) .tc)).toFinset := by
  simp only [ops_p20_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p20_1_keep (V : Valuation τ sig (Elt F)) (r : Ref sig .tc) (h : r ∉ ops_p20_1_W) :
    after ops_p20_1 V (Proc.devRef .tc r) = V (Proc.devRef .tc r) :=
  after_of_writes_sub ops_p20_1 _ ops_p20_1_writes h

set_option maxRecDepth 8192 in
set_option maxHeartbeats 1000000 in
theorem w20_1_main_v871 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_1 V x0 x1 x2 x3 x4 x5 x6) :
    after ops_p20_1 V (Proc.devRef .tc main_v871) = val_main_v871 (F := F) x1 := by
  simp only [ops_p20_1]
  after_results_w
  simp only [h.main_call61_v2, h.main_call61_v4]
  rfl

set_option maxRecDepth 8192 in
set_option maxHeartbeats 1000000 in
theorem w20_1_main_call62_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_1 V x0 x1 x2 x3 x4 x5 x6) :
    after ops_p20_1 V (Proc.devRef .tc main_call62_v2) = val_main_call62_v2 (F := F) x1 := by
  simp only [ops_p20_1]
  after_results_w
  simp only [h.main_v859]
  rfl

set_option maxRecDepth 8192 in
set_option maxHeartbeats 1000000 in
theorem w20_1_main_call62_v4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_1 V x0 x1 x2 x3 x4 x5 x6) :
    after ops_p20_1 V (Proc.devRef .tc main_call62_v4) = val_main_call62_v4 (F := F) := by
  simp only [ops_p20_1]
  after_results_w
  rfl

theorem step20_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_1 V x0 x1 x2 x3 x4 x5 x6) : Inv20_2 (after ops_p20_1 V) x0 x1 x2 x3 x4 x5 x6 where
  main_arg0 := (ops_p20_1_keep V main_arg0 (by decide)).trans h.main_arg0
  main_arg1 := (ops_p20_1_keep V main_arg1 (by decide)).trans h.main_arg1
  main_arg2 := (ops_p20_1_keep V main_arg2 (by decide)).trans h.main_arg2
  main_arg3 := (ops_p20_1_keep V main_arg3 (by decide)).trans h.main_arg3
  main_arg4 := (ops_p20_1_keep V main_arg4 (by decide)).trans h.main_arg4
  main_arg5 := (ops_p20_1_keep V main_arg5 (by decide)).trans h.main_arg5
  main_arg6 := (ops_p20_1_keep V main_arg6 (by decide)).trans h.main_arg6
  main_v27 := (ops_p20_1_keep V main_v27 (by decide)).trans h.main_v27
  main_v524 := (ops_p20_1_keep V main_v524 (by decide)).trans h.main_v524
  main_v526 := (ops_p20_1_keep V main_v526 (by decide)).trans h.main_v526
  main_v528 := (ops_p20_1_keep V main_v528 (by decide)).trans h.main_v528
  main_v530 := (ops_p20_1_keep V main_v530 (by decide)).trans h.main_v530
  main_v855 := (ops_p20_1_keep V main_v855 (by decide)).trans h.main_v855
  main_v870 := (ops_p20_1_keep V main_v870 (by decide)).trans h.main_v870
  main_v871 := w20_1_main_v871 V x0 x1 x2 x3 x4 x5 x6 h
  main_call62_v2 := w20_1_main_call62_v2 V x0 x1 x2 x3 x4 x5 x6 h
  main_call62_v4 := w20_1_main_call62_v4 V x0 x1 x2 x3 x4 x5 x6 h

/-- Stretch 2 of window 20: @main's operations 1444 … 1451. -/
def ops_p20_2 : List (HloOp τ sig (Elt F)) :=
  [ binary main_call62_v4 main_call62_v2 main_v872 (minsi : (⟨S409600, .i32⟩ : BufTy).Contents (Elt F) → (⟨S409600, .i32⟩ : BufTy).Contents (Elt F) → (⟨S409600, .i32⟩ : BufTy).Contents (Elt F)),
    nullary main_c_332 (constantI S_ 32 0#32),
    unary main_c_332 main_v873 (broadcastInDim S409600 ![] bcast_S_S409600 : (⟨S_, .i32⟩ : BufTy).Contents (Elt F) → (⟨S409600, .i32⟩ : BufTy).Contents (Elt F)),
    binary main_v526 main_v873 main_v874 (cmpi .slt : (⟨S409600, .i32⟩ : BufTy).Contents (Elt F) → (⟨S409600, .i32⟩ : BufTy).Contents (Elt F) → (⟨S409600, .i1⟩ : BufTy).Contents (Elt F)),
    nullary main_c_333 (constantI S_ 32 2#32),
    unary main_c_333 main_v875 (broadcastInDim S409600 ![] bcast_S_S409600 : (⟨S_, .i32⟩ : BufTy).Contents (Elt F) → (⟨S409600, .i32⟩ : BufTy).Contents (Elt F)),
    binary main_v526 main_v875 main_v876 (addi : (⟨S409600, .i32⟩ : BufTy).Contents (Elt F) → (⟨S409600, .i32⟩ : BufTy).Contents (Elt F) → (⟨S409600, .i32⟩ : BufTy).Contents (Elt F)),
    ternary main_v874 main_v876 main_v526 main_v877 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)) ]
abbrev ops_p20_2_W : List (Ref sig .tc) := [main_v872, main_c_332, main_v873, main_v874, main_c_333, main_v875, main_v876, main_v877]
theorem ops_p20_2_writes : (ops_p20_2 : List (HloOp τ sig (Elt F))).Forall fun op => op.writes ⊆ (ops_p20_2_W.map (Proc.devRef (τ := τ) .tc)).toFinset := by
  simp only [ops_p20_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p20_2_keep (V : Valuation τ sig (Elt F)) (r : Ref sig .tc) (h : r ∉ ops_p20_2_W) :
    after ops_p20_2 V (Proc.devRef .tc r) = V (Proc.devRef .tc r) :=
  after_of_writes_sub ops_p20_2 _ ops_p20_2_writes h

set_option maxRecDepth 8192 in
set_option maxHeartbeats 1000000 in
theorem w20_2_main_v872 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_2 V x0 x1 x2 x3 x4 x5 x6) :
    after ops_p20_2 V (Proc.devRef .tc main_v872) = val_main_v872 (F := F) x1 := by
  simp only [ops_p20_2]
  after_results_w
  simp only [h.main_call62_v2, h.main_call62_v4]
  rfl

set_option maxRecDepth 8192 in
set_option maxHeartbeats 1000000 in
theorem w20_2_main_v877 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_2 V x0 x1 x2 x3 x4 x5 x6) :
    after ops_p20_2 V (Proc.devRef .tc main_v877) = val_main_v877 (F := F) x1 := by
  simp only [ops_p20_2]
  after_results_w
  simp only [h.main_v526]
  rfl

theorem step20_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_2 V x0 x1 x2 x3 x4 x5 x6) : Inv20_3 (after ops_p20_2 V) x0 x1 x2 x3 x4 x5 x6 where
  main_arg0 := (ops_p20_2_keep V main_arg0 (by decide)).trans h.main_arg0
  main_arg1 := (ops_p20_2_keep V main_arg1 (by decide)).trans h.main_arg1
  main_arg2 := (ops_p20_2_keep V main_arg2 (by decide)).trans h.main_arg2
  main_arg3 := (ops_p20_2_keep V main_arg3 (by decide)).trans h.main_arg3
  main_arg4 := (ops_p20_2_keep V main_arg4 (by decide)).trans h.main_arg4
  main_arg5 := (ops_p20_2_keep V main_arg5 (by decide)).trans h.main_arg5
  main_arg6 := (ops_p20_2_keep V main_arg6 (by decide)).trans h.main_arg6
  main_v27 := (ops_p20_2_keep V main_v27 (by decide)).trans h.main_v27
  main_v524 := (ops_p20_2_keep V main_v524 (by decide)).trans h.main_v524
  main_v526 := (ops_p20_2_keep V main_v526 (by decide)).trans h.main_v526
  main_v528 := (ops_p20_2_keep V main_v528 (by decide)).trans h.main_v528
  main_v530 := (ops_p20_2_keep V main_v530 (by decide)).trans h.main_v530
  main_v855 := (ops_p20_2_keep V main_v855 (by decide)).trans h.main_v855
  main_v870 := (ops_p20_2_keep V main_v870 (by decide)).trans h.main_v870
  main_v871 := (ops_p20_2_keep V main_v871 (by decide)).trans h.main_v871
  main_v872 := w20_2_main_v872 V x0 x1 x2 x3 x4 x5 x6 h
  main_v877 := w20_2_main_v877 V x0 x1 x2 x3 x4 x5 x6 h

/-- Stretch 3 of window 20: @main's operations 1452 … 1459. -/
def ops_p20_3 : List (HloOp τ sig (Elt F)) :=
  [ nullary main_c_334 (constantI S_ 32 0#32),
    unary main_c_334 main_v878 (broadcastInDim S409600 ![] bcast_S_S409600 : (⟨S_, .i32⟩ : BufTy).Contents (Elt F) → (⟨S409600, .i32⟩ : BufTy).Contents (Elt F)),
    binary main_v871 main_v878 main_v879 (cmpi .slt : (⟨S409600, .i32⟩ : BufTy).Contents (Elt F) → (⟨S409600, .i32⟩ : BufTy).Contents (Elt F) → (⟨S409600, .i1⟩ : BufTy).Contents (Elt F)),
    nullary main_c_335 (constantI S_ 32 640#32),
    unary main_c_335 main_v880 (broadcastInDim S409600 ![] bcast_S_S409600 : (⟨S_, .i32⟩ : BufTy).Contents (Elt F) → (⟨S409600, .i32⟩ : BufTy).Contents (Elt F)),
    binary main_v871 main_v880 main_v881 (addi : (⟨S409600, .i32⟩ : BufTy).Contents (Elt F) → (⟨S409600, .i32⟩ : BufTy).Contents (Elt F) → (⟨S409600, .i32⟩ : BufTy).Contents (Elt F)),
    ternary main_v879 main_v881 main_v871 main_v882 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_336 (constantI S_ 32 0#32) ]
abbrev ops_p20_3_W : List (Ref sig .tc) := [main_c_334, main_v878, main_v879, main_c_335, main_v880, main_v881, main_v882, main_c_336]
theorem ops_p20_3_writes : (ops_p20_3 : List (HloOp τ sig (Elt F))).Forall fun op => op.writes ⊆ (ops_p20_3_W.map (Proc.devRef (τ := τ) .tc)).toFinset := by
  simp only [ops_p20_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p20_3_keep (V : Valuation τ sig (Elt F)) (r : Ref sig .tc) (h : r ∉ ops_p20_3_W) :
    after ops_p20_3 V (Proc.devRef .tc r) = V (Proc.devRef .tc r) :=
  after_of_writes_sub ops_p20_3 _ ops_p20_3_writes h

set_option maxRecDepth 8192 in
set_option maxHeartbeats 1000000 in
theorem w20_3_main_v882 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_3 V x0 x1 x2 x3 x4 x5 x6) :
    after ops_p20_3 V (Proc.devRef .tc main_v882) = val_main_v882 (F := F) x1 := by
  simp only [ops_p20_3]
  after_results_w
  simp only [h.main_v871]
  rfl

set_option maxRecDepth 8192 in
set_option maxHeartbeats 1000000 in
theorem w20_3_main_c_336 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_3 V x0 x1 x2 x3 x4 x5 x6) :
    after ops_p20_3 V (Proc.devRef .tc main_c_336) = val_main_c_336 (F := F) := by
  simp only [ops_p20_3]
  after_results_w
  rfl

theorem step20_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_3 V x0 x1 x2 x3 x4 x5 x6) : Inv20_4 (after ops_p20_3 V) x0 x1 x2 x3 x4 x5 x6 where
  main_arg0 := (ops_p20_3_keep V main_arg0 (by decide)).trans h.main_arg0
  main_arg1 := (ops_p20_3_keep V main_arg1 (by decide)).trans h.main_arg1
  main_arg2 := (ops_p20_3_keep V main_arg2 (by decide)).trans h.main_arg2
  main_arg3 := (ops_p20_3_keep V main_arg3 (by decide)).trans h.main_arg3
  main_arg4 := (ops_p20_3_keep V main_arg4 (by decide)).trans h.main_arg4
  main_arg5 := (ops_p20_3_keep V main_arg5 (by decide)).trans h.main_arg5
  main_arg6 := (ops_p20_3_keep V main_arg6 (by decide)).trans h.main_arg6
  main_v27 := (ops_p20_3_keep V main_v27 (by decide)).trans h.main_v27
  main_v524 := (ops_p20_3_keep V main_v524 (by decide)).trans h.main_v524
  main_v526 := (ops_p20_3_keep V main_v526 (by decide)).trans h.main_v526
  main_v528 := (ops_p20_3_keep V main_v528 (by decide)).trans h.main_v528
  main_v530 := (ops_p20_3_keep V main_v530 (by decide)).trans h.main_v530
  main_v855 := (ops_p20_3_keep V main_v855 (by decide)).trans h.main_v855
  main_v870 := (ops_p20_3_keep V main_v870 (by decide)).trans h.main_v870
  main_v872 := (ops_p20_3_keep V main_v872 (by decide)).trans h.main_v872
  main_v877 := (ops_p20_3_keep V main_v877 (by decide)).trans h.main_v877
  main_v882 := w20_3_main_v882 V x0 x1 x2 x3 x4 x5 x6 h
  main_c_336 := w20_3_main_c_336 V x0 x1 x2 x3 x4 x5 x6 h

/-- Stretch 4 of window 20: @main's operations 1460 … 1467. -/
def ops_p20_4 : List (HloOp τ sig (Elt F)) :=
  [ unary main_c_336 main_v883 (broadcastInDim S409600 ![] bcast_S_S409600 : (⟨S_, .i32⟩ : BufTy).Contents (Elt F) → (⟨S409600, .i32⟩ : BufTy).Contents (Elt F)),
    binary main_v872 main_v883 main_v884 (cmpi .slt : (⟨S409600, .i32⟩ : BufTy).Contents (Elt F) → (⟨S409600, .i32⟩ : BufTy).Contents (Elt F) → (⟨S409600, .i1⟩ : BufTy).Contents (Elt F)),
    nullary main_c_337 (constantI S_ 32 640#32),
    unary main_c_337 main_v885 (broadcastInDim S409600 ![] bcast_S_S409600 : (⟨S_, .i32⟩ : BufTy).Contents (Elt F) → (⟨S409600, .i32⟩ : BufTy).Contents (Elt F)),
    binary main_v872 main_v885 main_v886 (addi : (⟨S409600, .i32⟩ : BufTy).Contents (Elt F) → (⟨S409600, .i32⟩ : BufTy).Contents (Elt F) → (⟨S409600, .i32⟩ : BufTy).Contents (Elt F)),
    ternary main_v884 main_v886 main_v872 main_v887 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v877 main_v888 (broadcastInDim S409600x1 ![0] bcast_S409600_S409600x1_0 : (⟨S409600, .i32⟩ : BufTy).Contents (Elt F) → (⟨S409600x1, .i32⟩ : BufTy).Contents (Elt F)),
    unary main_v882 main_v889 (broadcastInDim S409600x1 ![0] bcast_S409600_S409600x1_0 : (⟨S409600, .i32⟩ : BufTy).Contents (Elt F) → (⟨S409600x1, .i32⟩ : BufTy).Contents (Elt F)) ]
abbrev ops_p20_4_W : List (Ref sig .tc) := [main_v883, main_v884, main_c_337, main_v885, main_v886, main_v887, main_v888, main_v889]
theorem ops_p20_4_writes : (ops_p20_4 : List (HloOp τ sig (Elt F))).Forall fun op => op.writes ⊆ (ops_p20_4_W.map (Proc.devRef (τ := τ) .tc)).toFinset := by
  simp only [ops_p20_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p20_4_keep (V : Valuation τ sig (Elt F)) (r : Ref sig .tc) (h : r ∉ ops_p20_4_W) :
    after ops_p20_4 V (Proc.devRef .tc r) = V (Proc.devRef .tc r) :=
  after_of_writes_sub ops_p20_4 _ ops_p20_4_writes h

set_option maxRecDepth 8192 in
set_option maxHeartbeats 1000000 in
theorem w20_4_main_v887 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_4 V x0 x1 x2 x3 x4 x5 x6) :
    after ops_p20_4 V (Proc.devRef .tc main_v887) = val_main_v887 (F := F) x1 := by
  simp only [ops_p20_4]
  after_results_w
  simp only [h.main_v872, h.main_c_336]
  rfl

set_option maxRecDepth 8192 in
set_option maxHeartbeats 1000000 in
theorem w20_4_main_v888 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_4 V x0 x1 x2 x3 x4 x5 x6) :
    after ops_p20_4 V (Proc.devRef .tc main_v888) = val_main_v888 (F := F) x1 := by
  simp only [ops_p20_4]
  after_results_w
  simp only [h.main_v877]
  rfl

set_option maxRecDepth 8192 in
set_option maxHeartbeats 1000000 in
theorem w20_4_main_v889 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_4 V x0 x1 x2 x3 x4 x5 x6) :
    after ops_p20_4 V (Proc.devRef .tc main_v889) = val_main_v889 (F := F) x1 := by
  simp only [ops_p20_4]
  after_results_w
  simp only [h.main_v882]
  rfl

theorem step20_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_4 V x0 x1 x2 x3 x4 x5 x6) : Inv20_5 (after ops_p20_4 V) x0 x1 x2 x3 x4 x5 x6 where
  main_arg0 := (ops_p20_4_keep V main_arg0 (by decide)).trans h.main_arg0
  main_arg1 := (ops_p20_4_keep V main_arg1 (by decide)).trans h.main_arg1
  main_arg2 := (ops_p20_4_keep V main_arg2 (by decide)).trans h.main_arg2
  main_arg3 := (ops_p20_4_keep V main_arg3 (by decide)).trans h.main_arg3
  main_arg4 := (ops_p20_4_keep V main_arg4 (by decide)).trans h.main_arg4
  main_arg5 := (ops_p20_4_keep V main_arg5 (by decide)).trans h.main_arg5
  main_arg6 := (ops_p20_4_keep V main_arg6 (by decide)).trans h.main_arg6
  main_v27 := (ops_p20_4_keep V main_v27 (by decide)).trans h.main_v27
  main_v524 := (ops_p20_4_keep V main_v524 (by decide)).trans h.main_v524
  main_v526 := (ops_p20_4_keep V main_v526 (by decide)).trans h.main_v526
  main_v528 := (ops_p20_4_keep V main_v528 (by decide)).trans h.main_v528
  main_v530 := (ops_p20_4_keep V main_v530 (by decide)).trans h.main_v530
  main_v855 := (ops_p20_4_keep V main_v855 (by decide)).trans h.main_v855
  main_v870 := (ops_p20_4_keep V main_v870 (by decide)).trans h.main_v870
  main_v887 := w20_4_main_v887 V x0 x1 x2 x3 x4 x5 x6 h
  main_v888 := w20_4_main_v888 V x0 x1 x2 x3 x4 x5 x6 h
  main_v889 := w20_4_main_v889 V x0 x1 x2 x3 x4 x5 x6 h

/-- Stretch 5 of window 20: @main's operations 1468 … 1475. -/
def ops_p20_5 : List (HloOp τ sig (Elt F)) :=
  [ unary main_v887 main_v890 (broadcastInDim S409600x1 ![0] bcast_S409600_S409600x1_0 : (⟨S409600, .i32⟩ : BufTy).Contents (Elt F) → (⟨S409600x1, .i32⟩ : BufTy).Contents (Elt F)),
    nary ![main_v888, main_v889, main_v890] main_v891 (fun u => concatenate S409600x3 1 [⟨S409600x1, u 0⟩, ⟨S409600x1, u 1⟩, ⟨S409600x1, u 2⟩] concatenates_S409600x1_S409600x1_S409600x1_S409600x3_d1),
    binary main_v27 main_v891 main_v892 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_338 (constantI S_ 32 0#32),
    unary main_c_338 main_v893 (broadcastInDim S409600 ![] bcast_S_S409600 : (⟨S_, .i32⟩ : BufTy).Contents (Elt F) → (⟨S409600, .i32⟩ : BufTy).Contents (Elt F)),
    binary main_v892 main_v893 main_v894 (cmpi .sge : (⟨S409600, .i32⟩ : BufTy).Contents (Elt F) → (⟨S409600, .i32⟩ : BufTy).Contents (Elt F) → (⟨S409600, .i1⟩ : BufTy).Contents (Elt F)),
    binary main_v870 main_v894 main_v895 (andi : (⟨S409600, .i1⟩ : BufTy).Contents (Elt F) → (⟨S409600, .i1⟩ : BufTy).Contents (Elt F) → (⟨S409600, .i1⟩ : BufTy).Contents (Elt F)),
    nullary main_c_339 (constantI S_ 32 0#32) ]
abbrev ops_p20_5_W : List (Ref sig .tc) := [main_v890, main_v891, main_v892, main_c_338, main_v893, main_v894, main_v895, main_c_339]
theorem ops_p20_5_writes : (ops_p20_5 : List (HloOp τ sig (Elt F))).Forall fun op => op.writes ⊆ (ops_p20_5_W.map (Proc.devRef (τ := τ) .tc)).toFinset := by
  simp only [ops_p20_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p20_5_keep (V : Valuation τ sig (Elt F)) (r : Ref sig .tc) (h : r ∉ ops_p20_5_W) :
    after ops_p20_5 V (Proc.devRef .tc r) = V (Proc.devRef .tc r) :=
  after_of_writes_sub ops_p20_5 _ ops_p20_5_writes h

set_option maxRecDepth 8192 in
set_option maxHeartbeats 1000000 in
theorem w20_5_main_v892 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_5 V x0 x1 x2 x3 x4 x5 x6) :
    after ops_p20_5 V (Proc.devRef .tc main_v892) = val_main_v892 (F := F) x1 := by
  simp only [ops_p20_5]
  after_results_w
  simp only [h.main_v887, h.main_v889, h.main_v888, h.main_v27]
  rfl

set_option maxRecDepth 8192 in
set_option maxHeartbeats 1000000 in
theorem w20_5_main_v895 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_5 V x0 x1 x2 x3 x4 x5 x6) :
    after ops_p20_5 V (Proc.devRef .tc main_v895) = val_main_v895 (F := F) x1 := by
  simp only [ops_p20_5]
  after_results_w
  simp only [h.main_v887, h.main_v889, h.main_v888, h.main_v27, h.main_v870]
  rfl

set_option maxRecDepth 8192 in
set_option maxHeartbeats 1000000 in
theorem w20_5_main_c_339 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_5 V x0 x1 x2 x3 x4 x5 x6) :
    after ops_p20_5 V (Proc.devRef .tc main_c_339) = val_main_c_339 (F := F) := by
  simp only [ops_p20_5]
  after_results_w
  rfl

theorem step20_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_5 V x0 x1 x2 x3 x4 x5 x6) : Inv20_6 (after ops_p20_5 V) x0 x1 x2 x3 x4 x5 x6 where
  main_arg0 := (ops_p20_5_keep V main_arg0 (by decide)).trans h.main_arg0
  main_arg1 := (ops_p20_5_keep V main_arg1 (by decide)).trans h.main_arg1
  main_arg2 := (ops_p20_5_keep V main_arg2 (by decide)).trans h.main_arg2
  main_arg3 := (ops_p20_5_keep V main_arg3 (by decide)).trans h.main_arg3
  main_arg4 := (ops_p20_5_keep V main_arg4 (by decide)).trans h.main_arg4
  main_arg5 := (ops_p20_5_keep V main_arg5 (by decide)).trans h.main_arg5
  main_arg6 := (ops_p20_5_keep V main_arg6 (by decide)).trans h.main_arg6
  main_v27 := (ops_p20_5_keep V main_v27 (by decide)).trans h.main_v27
  main_v524 := (ops_p20_5_keep V main_v524 (by decide)).trans h.main_v524
  main_v526 := (ops_p20_5_keep V main_v526 (by decide)).trans h.main_v526
  main_v528 := (ops_p20_5_keep V main_v528 (by decide)).trans h.main_v528
  main_v530 := (ops_p20_5_keep V main_v530 (by decide)).trans h.main_v530
  main_v855 := (ops_p20_5_keep V main_v855 (by decide)).trans h.main_v855
  main_v892 := w20_5_main_v892 V x0 x1 x2 x3 x4 x5 x6 h
  main_v895 := w20_5_main_v895 V x0 x1 x2 x3 x4 x5 x6 h
  main_c_339 := w20_5_main_c_339 V x0 x1 x2 x3 x4 x5 x6 h

/-- Stretch 6 of window 20: @main's operations 1476 … 1483. -/
def ops_p20_6 : List (HloOp τ sig (Elt F)) :=
  [ unary main_c_339 main_call63_v0 (id : (⟨S_, .i32⟩ : BufTy).Contents (Elt F) → (⟨S_, .i32⟩ : BufTy).Contents (Elt F)),
    unary main_call63_v0 main_call63_v1 ((broadcastInDim S409600 ![] bcast_S_S409600) : (⟨S_, .i32⟩ : BufTy).Contents (Elt F) → (⟨S409600, .i32⟩ : BufTy).Contents (Elt F)),
    ternary main_v895 main_v892 main_call63_v1 main_v896 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_340 (constantI S_ 32 0#32),
    unary main_c_340 main_v897 (broadcastInDim S409600 ![] bcast_S_S409600 : (⟨S_, .i32⟩ : BufTy).Contents (Elt F) → (⟨S409600, .i32⟩ : BufTy).Contents (Elt F)),
    binary main_v896 main_v897 main_v898 (cmpi .slt : (⟨S409600, .i32⟩ : BufTy).Contents (Elt F) → (⟨S409600, .i32⟩ : BufTy).Contents (Elt F) → (⟨S409600, .i1⟩ : BufTy).Contents (Elt F)),
    nullary main_c_341 (constantI S_ 32 409600#32),
    unary main_c_341 main_v899 (broadcastInDim S409600 ![] bcast_S_S409600 : (⟨S_, .i32⟩ : BufTy).Contents (Elt F) → (⟨S409600, .i32⟩ : BufTy).Contents (Elt F)) ]
abbrev ops_p20_6_W : List (Ref sig .tc) := [main_call63_v0, main_call63_v1, main_v896, main_c_340, main_v897, main_v898, main_c_341, main_v899]
theorem ops_p20_6_writes : (ops_p20_6 : List (HloOp τ sig (Elt F))).Forall fun op => op.writes ⊆ (ops_p20_6_W.map (Proc.devRef (τ := τ) .tc)).toFinset := by
  simp only [ops_p20_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p20_6_keep (V : Valuation τ sig (Elt F)) (r : Ref sig .tc) (h : r ∉ ops_p20_6_W) :
    after ops_p20_6 V (Proc.devRef .tc r) = V (Proc.devRef .tc r) :=
  after_of_writes_sub ops_p20_6 _ ops_p20_6_writes h

set_option maxRecDepth 8192 in
set_option maxHeartbeats 1000000 in
theorem w20_6_main_v896 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_6 V x0 x1 x2 x3 x4 x5 x6) :
    after ops_p20_6 V (Proc.devRef .tc main_v896) = val_main_v896 (F := F) x1 := by
  simp only [ops_p20_6]
  after_results_w
  simp only [h.main_c_339, h.main_v892, h.main_v895]
  rfl

set_option maxRecDepth 8192 in
set_option maxHeartbeats 1000000 in
theorem w20_6_main_v898 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_6 V x0 x1 x2 x3 x4 x5 x6) :
    after ops_p20_6 V (Proc.devRef .tc main_v898) = val_main_v898 (F := F) x1 := by
  simp only [ops_p20_6]
  after_results_w
  simp only [h.main_c_339, h.main_v892, h.main_v895]
  rfl

set_option maxRecDepth 8192 in
set_option maxHeartbeats 1000000 in
theorem w20_6_main_v899 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_6 V x0 x1 x2 x3 x4 x5 x6) :
    after ops_p20_6 V (Proc.devRef .tc main_v899) = val_main_v899 (F := F) := by
  simp only [ops_p20_6]
  after_results_w
  rfl

theorem step20_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_6 V x0 x1 x2 x3 x4 x5 x6) : Inv20_7 (after ops_p20_6 V) x0 x1 x2 x3 x4 x5 x6 where
  main_arg0 := (ops_p20_6_keep V main_arg0 (by decide)).trans h.main_arg0
  main_arg1 := (ops_p20_6_keep V main_arg1 (by decide)).trans h.main_arg1
  main_arg2 := (ops_p20_6_keep V main_arg2 (by decide)).trans h.main_arg2
  main_arg3 := (ops_p20_6_keep V main_arg3 (by decide)).trans h.main_arg3
  main_arg4 := (ops_p20_6_keep V main_arg4 (by decide)).trans h.main_arg4
  main_arg5 := (ops_p20_6_keep V main_arg5 (by decide)).trans h.main_arg5
  main_arg6 := (ops_p20_6_keep V main_arg6 (by decide)).trans h.main_arg6
  main_v27 := (ops_p20_6_keep V main_v27 (by decide)).trans h.main_v27
  main_v524 := (ops_p20_6_keep V main_v524 (by decide)).trans h.main_v524
  main_v526 := (ops_p20_6_keep V main_v526 (by decide)).trans h.main_v526
  main_v528 := (ops_p20_6_keep V main_v528 (by decide)).trans h.main_v528
  main_v530 := (ops_p20_6_keep V main_v530 (by decide)).trans h.main_v530
  main_v855 := (ops_p20_6_keep V main_v855 (by decide)).trans h.main_v855
  main_v895 := (ops_p20_6_keep V main_v895 (by decide)).trans h.main_v895
  main_v896 := w20_6_main_v896 V x0 x1 x2 x3 x4 x5 x6 h
  main_v898 := w20_6_main_v898 V x0 x1 x2 x3 x4 x5 x6 h
  main_v899 := w20_6_main_v899 V x0 x1 x2 x3 x4 x5 x6 h

/-- Stretch 7 of window 20: @main's operations 1484 … 1491. -/
def ops_p20_7 : List (HloOp τ sig (Elt F)) :=
  [ binary main_v896 main_v899 main_v900 (addi : (⟨S409600, .i32⟩ : BufTy).Contents (Elt F) → (⟨S409600, .i32⟩ : BufTy).Contents (Elt F) → (⟨S409600, .i32⟩ : BufTy).Contents (Elt F)),
    ternary main_v898 main_v900 main_v896 main_v901 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v901 main_v902 (broadcastInDim S409600x1 ![0] bcast_S409600_S409600x1_0 : (⟨S409600, .i32⟩ : BufTy).Contents (Elt F) → (⟨S409600x1, .i32⟩ : BufTy).Contents (Elt F)),
    binary main_v524 main_v902 main_v903 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v895 main_v904 (broadcastInDim S409600x1 ![0] bcast_S409600_S409600x1_0 : (⟨S409600, .i1⟩ : BufTy).Contents (Elt F) → (⟨S409600x1, .i1⟩ : BufTy).Contents (Elt F)),
    nullary main_cst_342 (constant S_ .f32 0x00000000#32),
    unary main_cst_342 main_call64_v0 (id : (⟨S_, .f32⟩ : BufTy).Contents (Elt F) → (⟨S_, .f32⟩ : BufTy).Contents (Elt F)),
    unary main_v904 main_call64_v1 ((broadcastInDim S409600x64 ![0, 1] bcast_S409600x1_S409600x64_0_1) : (⟨S409600x1, .i1⟩ : BufTy).Contents (Elt F) → (⟨S409600x64, .i1⟩ : BufTy).Contents (Elt F)) ]
abbrev ops_p20_7_W : List (Ref sig .tc) := [main_v900, main_v901, main_v902, main_v903, main_v904, main_cst_342, main_call64_v0, main_call64_v1]
theorem ops_p20_7_writes : (ops_p20_7 : List (HloOp τ sig (Elt F))).Forall fun op => op.writes ⊆ (ops_p20_7_W.map (Proc.devRef (τ := τ) .tc)).toFinset := by
  simp only [ops_p20_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p20_7_keep (V : Valuation τ sig (Elt F)) (r : Ref sig .tc) (h : r ∉ ops_p20_7_W) :
    after ops_p20_7 V (Proc.devRef .tc r) = V (Proc.devRef .tc r) :=
  after_of_writes_sub ops_p20_7 _ ops_p20_7_writes h

set_option maxRecDepth 8192 in
set_option maxHeartbeats 1000000 in
theorem w20_7_main_v903 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_7 V x0 x1 x2 x3 x4 x5 x6) :
    after ops_p20_7 V (Proc.devRef .tc main_v903) = val_main_v903 (F := F) x0 x1 x2 x3 := by
  simp only [ops_p20_7]
  after_results_w
  simp only [h.main_v896, h.main_v899, h.main_v898, h.main_v524]
  rfl

set_option maxRecDepth 8192 in
set_option maxHeartbeats 1000000 in
theorem w20_7_main_call64_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_7 V x0 x1 x2 x3 x4 x5 x6) :
    after ops_p20_7 V (Proc.devRef .tc main_call64_v0) = val_main_call64_v0 (F := F) := by
  simp only [ops_p20_7]
  after_results_w
  rfl

set_option maxRecDepth 8192 in
set_option maxHeartbeats 1000000 in
theorem w20_7_main_call64_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_7 V x0 x1 x2 x3 x4 x5 x6) :
    after ops_p20_7 V (Proc.devRef .tc main_call64_v1) = val_main_call64_v1 (F := F) x1 := by
  simp only [ops_p20_7]
  after_results_w
  simp only [h.main_v895]
  rfl

theorem step20_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_7 V x0 x1 x2 x3 x4 x5 x6) : Inv20_8 (after ops_p20_7 V) x0 x1 x2 x3 x4 x5 x6 where
  main_arg0 := (ops_p20_7_keep V main_arg0 (by decide)).trans h.main_arg0
  main_arg1 := (ops_p20_7_keep V main_arg1 (by decide)).trans h.main_arg1
  main_arg2 := (ops_p20_7_keep V main_arg2 (by decide)).trans h.main_arg2
  main_arg3 := (ops_p20_7_keep V main_arg3 (by decide)).trans h.main_arg3
  main_arg4 := (ops_p20_7_keep V main_arg4 (by decide)).trans h.main_arg4
  main_arg5 := (ops_p20_7_keep V main_arg5 (by decide)).trans h.main_arg5
  main_arg6 := (ops_p20_7_keep V main_arg6 (by decide)).trans h.main_arg6
  main_v27 := (ops_p20_7_keep V main_v27 (by decide)).trans h.main_v27
  main_v524 := (ops_p20_7_keep V main_v524 (by decide)).trans h.main_v524
  main_v526 := (ops_p20_7_keep V main_v526 (by decide)).trans h.main_v526
  main_v528 := (ops_p20_7_keep V main_v528 (by decide)).trans h.main_v528
  main_v530 := (ops_p20_7_keep V main_v530 (by decide)).trans h.main_v530
  main_v855 := (ops_p20_7_keep V main_v855 (by decide)).trans h.main_v855
  main_v903 := w20_7_main_v903 V x0 x1 x2 x3 x4 x5 x6 h
  main_call64_v0 := w20_7_main_call64_v0 V x0 x1 x2 x3 x4 x5 x6 h
  main_call64_v1 := w20_7_main_call64_v1 V x0 x1 x2 x3 x4 x5 x6 h

/-- Stretch 8 of window 20: @main's operations 1492 … 1499. -/
def ops_p20_8 : List (HloOp τ sig (Elt F)) :=
  [ unary main_call64_v0 main_call64_v2 ((broadcastInDim S409600x64 ![] bcast_S_S409600x64) : (⟨S_, .f32⟩ : BufTy).Contents (Elt F) → (⟨S409600x64, .f32⟩ : BufTy).Contents (Elt F)),
    ternary main_call64_v1 main_v903 main_call64_v2 main_v905 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v906 ((extractStridedSlice S1x1x64x64 ![2, 0, 0, 0] · slices_S3x3x64x64_S1x1x64x64_2_0_0_0) : (⟨S3x3x64x64, .f32⟩ : BufTy).Contents (Elt F) → (⟨S1x1x64x64, .f32⟩ : BufTy).Contents (Elt F)),
    reshape main_v906 main_v907 rfl shapeCasts_S1x1x64x64_S64x64,
    binary main_v905 main_v907 main_v908 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v855 main_v908 main_v909 (addf : (⟨S409600x64, .f32⟩ : BufTy).Contents (Elt F) → (⟨S409600x64, .f32⟩ : BufTy).Contents (Elt F) → (⟨S409600x64, .f32⟩ : BufTy).Contents (Elt F)),
    nullary main_c_343 (constantI S_ 32 1#32),
    unary main_c_343 main_v910 (broadcastInDim S409600 ![] bcast_S_S409600 : (⟨S_, .i32⟩ : BufTy).Contents (Elt F) → (⟨S409600, .i32⟩ : BufTy).Contents (Elt F)) ]
abbrev ops_p20_8_W : List (Ref sig .tc) := [main_call64_v2, main_v905, main_v906, main_v907, main_v908, main_v909, main_c_343, main_v910]
theorem ops_p20_8_writes : (ops_p20_8 : List (HloOp τ sig (Elt F))).Forall fun op => op.writes ⊆ (ops_p20_8_W.map (Proc.devRef (τ := τ) .tc)).toFinset := by
  simp only [ops_p20_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p20_8_keep (V : Valuation τ sig (Elt F)) (r : Ref sig .tc) (h : r ∉ ops_p20_8_W) :
    after ops_p20_8 V (Proc.devRef .tc r) = V (Proc.devRef .tc r) :=
  after_of_writes_sub ops_p20_8 _ ops_p20_8_writes h

set_option maxRecDepth 8192 in
set_option maxHeartbeats 1000000 in
theorem w20_8_main_v909 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_8 V x0 x1 x2 x3 x4 x5 x6) :
    after ops_p20_8 V (Proc.devRef .tc main_v909) = val_main_v909 (F := F) x0 x1 x2 x3 x4 := by
  simp only [ops_p20_8]
  after_results_w
  simp only [h.main_arg4, h.main_call64_v0, h.main_v903, h.main_call64_v1, h.main_v855]
  rfl

set_option maxRecDepth 8192 in
set_option maxHeartbeats 1000000 in
theorem w20_8_main_v910 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_8 V x0 x1 x2 x3 x4 x5 x6) :
    after ops_p20_8 V (Proc.devRef .tc main_v910) = val_main_v910 (F := F) := by
  simp only [ops_p20_8]
  after_results_w
  rfl

theorem step20_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_8 V x0 x1 x2 x3 x4 x5 x6) : Inv20_9 (after ops_p20_8 V) x0 x1 x2 x3 x4 x5 x6 where
  main_arg0 := (ops_p20_8_keep V main_arg0 (by decide)).trans h.main_arg0
  main_arg1 := (ops_p20_8_keep V main_arg1 (by decide)).trans h.main_arg1
  main_arg2 := (ops_p20_8_keep V main_arg2 (by decide)).trans h.main_arg2
  main_arg3 := (ops_p20_8_keep V main_arg3 (by decide)).trans h.main_arg3
  main_arg4 := (ops_p20_8_keep V main_arg4 (by decide)).trans h.main_arg4
  main_arg5 := (ops_p20_8_keep V main_arg5 (by decide)).trans h.main_arg5
  main_arg6 := (ops_p20_8_keep V main_arg6 (by decide)).trans h.main_arg6
  main_v27 := (ops_p20_8_keep V main_v27 (by decide)).trans h.main_v27
  main_v524 := (ops_p20_8_keep V main_v524 (by decide)).trans h.main_v524
  main_v526 := (ops_p20_8_keep V main_v526 (by decide)).trans h.main_v526
  main_v528 := (ops_p20_8_keep V main_v528 (by decide)).trans h.main_v528
  main_v530 := (ops_p20_8_keep V main_v530 (by decide)).trans h.main_v530
  main_v909 := w20_8_main_v909 V x0 x1 x2 x3 x4 x5 x6 h
  main_v910 := w20_8_main_v910 V x0 x1 x2 x3 x4 x5 x6 h

/-- Stretch 9 of window 20: @main's operations 1500 … 1502. -/
def ops_p20_9 : List (HloOp τ sig (Elt F)) :=
  [ binary main_v528 main_v910 main_v911 (addi : (⟨S409600, .i32⟩ : BufTy).Contents (Elt F) → (⟨S409600, .i32⟩ : BufTy).Contents (Elt F) → (⟨S409600, .i32⟩ : BufTy).Contents (Elt F)),
    nullary main_c_344 (constantI S_ 32 0#32),
    unary main_c_344 main_v912 (broadcastInDim S409600 ![] bcast_S_S409600 : (⟨S_, .i32⟩ : BufTy).Contents (Elt F) → (⟨S409600, .i32⟩ : BufTy).Contents (Elt F)) ]
abbrev ops_p20_9_W : List (Ref sig .tc) := [main_v911, main_c_344, main_v912]
theorem ops_p20_9_writes : (ops_p20_9 : List (HloOp τ sig (Elt F))).Forall fun op => op.writes ⊆ (ops_p20_9_W.map (Proc.devRef (τ := τ) .tc)).toFinset := by
  simp only [ops_p20_9, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p20_9_keep (V : Valuation τ sig (Elt F)) (r : Ref sig .tc) (h : r ∉ ops_p20_9_W) :
    after ops_p20_9 V (Proc.devRef .tc r) = V (Proc.devRef .tc r) :=
  after_of_writes_sub ops_p20_9 _ ops_p20_9_writes h

set_option maxRecDepth 8192 in
set_option maxHeartbeats 1000000 in
theorem w20_9_main_v911 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_9 V x0 x1 x2 x3 x4 x5 x6) :
    after ops_p20_9 V (Proc.devRef .tc main_v911) = val_main_v911 (F := F) x1 := by
  simp only [ops_p20_9]
  after_results_w
  simp only [h.main_v910, h.main_v528]
  rfl

set_option maxRecDepth 8192 in
set_option maxHeartbeats 1000000 in
theorem w20_9_main_v912 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_9 V x0 x1 x2 x3 x4 x5 x6) :
    after ops_p20_9 V (Proc.devRef .tc main_v912) = val_main_v912 (F := F) := by
  simp only [ops_p20_9]
  after_results_w
  rfl

theorem step20_9 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20_9 V x0 x1 x2 x3 x4 x5 x6) : Inv21 (after ops_p20_9 V) x0 x1 x2 x3 x4 x5 x6 where
  main_arg0 := (ops_p20_9_keep V main_arg0 (by decide)).trans h.main_arg0
  main_arg1 := (ops_p20_9_keep V main_arg1 (by decide)).trans h.main_arg1
  main_arg2 := (ops_p20_9_keep V main_arg2 (by decide)).trans h.main_arg2
  main_arg3 := (ops_p20_9_keep V main_arg3 (by decide)).trans h.main_arg3
  main_arg4 := (ops_p20_9_keep V main_arg4 (by decide)).trans h.main_arg4
  main_arg5 := (ops_p20_9_keep V main_arg5 (by decide)).trans h.main_arg5
  main_arg6 := (ops_p20_9_keep V main_arg6 (by decide)).trans h.main_arg6
  main_v27 := (ops_p20_9_keep V main_v27 (by decide)).trans h.main_v27
  main_v524 := (ops_p20_9_keep V main_v524 (by decide)).trans h.main_v524
  main_v526 := (ops_p20_9_keep V main_v526 (by decide)).trans h.main_v526
  main_v528 := (ops_p20_9_keep V main_v528 (by decide)).trans h.main_v528
  main_v530 := (ops_p20_9_keep V main_v530 (by decide)).trans h.main_v530
  main_v909 := (ops_p20_9_keep V main_v909 (by decide)).trans h.main_v909
  main_v911 := w20_9_main_v911 V x0 x1 x2 x3 x4 x5 x6 h
  main_v912 := w20_9_main_v912 V x0 x1 x2 x3 x4 x5 x6 h

set_option maxRecDepth 8192 in
theorem ops_p20_split : (ops_p20 : List (HloOp τ sig (Elt F))) = ops_p20_0 ++ (ops_p20_1 ++ (ops_p20_2 ++ (ops_p20_3 ++ (ops_p20_4 ++ (ops_p20_5 ++ (ops_p20_6 ++ (ops_p20_7 ++ (ops_p20_8 ++ (ops_p20_9))))))))) := rfl

/-- Window 20 carries the staged reading from boundary 20 to boundary 21. -/
theorem step20 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv20 V x0 x1 x2 x3 x4 x5 x6) : Inv21 (after ops_p20 V) x0 x1 x2 x3 x4 x5 x6 := by
  rw [ops_p20_split]; simp only [after_app]
  exact step20_9 _ x0 x1 x2 x3 x4 x5 x6 (step20_8 _ x0 x1 x2 x3 x4 x5 x6 (step20_7 _ x0 x1 x2 x3 x4 x5 x6 (step20_6 _ x0 x1 x2 x3 x4 x5 x6 (step20_5 _ x0 x1 x2 x3 x4 x5 x6 (step20_4 _ x0 x1 x2 x3 x4 x5 x6 (step20_3 _ x0 x1 x2 x3 x4 x5 x6 (step20_2 _ x0 x1 x2 x3 x4 x5 x6 (step20_1 _ x0 x1 x2 x3 x4 x5 x6 (step20_0 V x0 x1 x2 x3 x4 x5 x6 h)))))))))

end Cert.ReferenceIdeal.Hand

end
-- ==== Proof.Ref.W21.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 21 of @main: its operations 1503 … 1574 of 1688, in order. -/
def ops_p21 : List (HloOp τ sig (Elt F)) :=
  [ binary main_v530 main_v912 main_v913 (addi : (⟨S409600, .i32⟩ : BufTy).Contents (Elt F) → (⟨S409600, .i32⟩ : BufTy).Contents (Elt F) → (⟨S409600, .i32⟩ : BufTy).Contents (Elt F)),
    nullary main_c_345 (constantI S_ 32 0#32),
    unary main_c_345 main_v914 (broadcastInDim S409600 ![] bcast_S_S409600 : (⟨S_, .i32⟩ : BufTy).Contents (Elt F) → (⟨S409600, .i32⟩ : BufTy).Contents (Elt F)),
    binary main_v911 main_v914 main_v915 (cmpi .sge : (⟨S409600, .i32⟩ : BufTy).Contents (Elt F) → (⟨S409600, .i32⟩ : BufTy).Contents (Elt F) → (⟨S409600, .i1⟩ : BufTy).Contents (Elt F)),
    nullary main_c_346 (constantI S_ 32 640#32),
    unary main_c_346 main_v916 (broadcastInDim S409600 ![] bcast_S_S409600 : (⟨S_, .i32⟩ : BufTy).Contents (Elt F) → (⟨S409600, .i32⟩ : BufTy).Contents (Elt F)),
    binary main_v911 main_v916 main_v917 (cmpi .slt : (⟨S409600, .i32⟩ : BufTy).Contents (Elt F) → (⟨S409600, .i32⟩ : BufTy).Contents (Elt F) → (⟨S409600, .i1⟩ : BufTy).Contents (Elt F)),
    binary main_v915 main_v917 main_v918 (andi : (⟨S409600, .i1⟩ : BufTy).Contents (Elt F) → (⟨S409600, .i1⟩ : BufTy).Contents (Elt F) → (⟨S409600, .i1⟩ : BufTy).Contents (Elt F)),
    nullary main_c_347 (constantI S_ 32 0#32),
    unary main_c_347 main_v919 (broadcastInDim S409600 ![] bcast_S_S409600 : (⟨S_, .i32⟩ : BufTy).Contents (Elt F) → (⟨S409600, .i32⟩ : BufTy).Contents (Elt F)),
    binary main_v913 main_v919 main_v920 (cmpi .sge : (⟨S409600, .i32⟩ : BufTy).Contents (Elt F) → (⟨S409600, .i32⟩ : BufTy).Contents (Elt F) → (⟨S409600, .i1⟩ : BufTy).Contents (Elt F)),
    binary main_v918 main_v920 main_v921 (andi : (⟨S409600, .i1⟩ : BufTy).Contents (Elt F) → (⟨S409600, .i1⟩ : BufTy).Contents (Elt F) → (⟨S409600, .i1⟩ : BufTy).Contents (Elt F)),
    nullary main_c_348 (constantI S_ 32 640#32),
    unary main_c_348 main_v922 (broadcastInDim S409600 ![] bcast_S_S409600 : (⟨S_, .i32⟩ : BufTy).Contents (Elt F) → (⟨S409600, .i32⟩ : BufTy).Contents (Elt F)),
    binary main_v913 main_v922 main_v923 (cmpi .slt : (⟨S409600, .i32⟩ : BufTy).Contents (Elt F) → (⟨S409600, .i32⟩ : BufTy).Contents (Elt F) → (⟨S409600, .i1⟩ : BufTy).Contents (Elt F)),
    binary main_v921 main_v923 main_v924 (andi : (⟨S409600, .i1⟩ : BufTy).Contents (Elt F) → (⟨S409600, .i1⟩ : BufTy).Contents (Elt F) → (⟨S409600, .i1⟩ : BufTy).Contents (Elt F)),
    nullary main_c_349 (constantI S_ 32 0#32),
    nullary main_c_350 (constantI S_ 32 639#32),
    unary main_c_349 main_call65_v0 (id : (⟨S_, .i32⟩ : BufTy).Contents (Elt F) → (⟨S_, .i32⟩ : BufTy).Contents (Elt F)),
    unary main_call65_v0 main_call65_v1 ((broadcastInDim S409600 ![] bcast_S_S409600) : (⟨S_, .i32⟩ : BufTy).Contents (Elt F) → (⟨S409600, .i32⟩ : BufTy).Contents (Elt F)),
    binary main_call65_v1 main_v911 main_call65_v2 (maxsi : (⟨S409600, .i32⟩ : BufTy).Contents (Elt F) → (⟨S409600, .i32⟩ : BufTy).Contents (Elt F) → (⟨S409600, .i32⟩ : BufTy).Contents (Elt F)),
    unary main_c_350 main_call65_v3 (id : (⟨S_, .i32⟩ : BufTy).Contents (Elt F) → (⟨S_, .i32⟩ : BufTy).Contents (Elt F)),
    unary main_call65_v3 main_call65_v4 ((broadcastInDim S409600 ![] bcast_S_S409600) : (⟨S_, .i32⟩ : BufTy).Contents (Elt F) → (⟨S409600, .i32⟩ : BufTy).Contents (Elt F)),
    binary main_call65_v4 main_call65_v2 main_v925 (minsi : (⟨S409600, .i32⟩ : BufTy).Contents (Elt F) → (⟨S409600, .i32⟩ : BufTy).Contents (Elt F) → (⟨S409600, .i32⟩ : BufTy).Contents (Elt F)),
    nullary main_c_351 (constantI S_ 32 0#32),
    nullary main_c_352 (constantI S_ 32 639#32),
    unary main_c_351 main_call66_v0 (id : (⟨S_, .i32⟩ : BufTy).Contents (Elt F) → (⟨S_, .i32⟩ : BufTy).Contents (Elt F)),
    unary main_call66_v0 main_call66_v1 ((broadcastInDim S409600 ![] bcast_S_S409600) : (⟨S_, .i32⟩ : BufTy).Contents (Elt F) → (⟨S409600, .i32⟩ : BufTy).Contents (Elt F)),
    binary main_call66_v1 main_v913 main_call66_v2 (maxsi : (⟨S409600, .i32⟩ : BufTy).Contents (Elt F) → (⟨S409600, .i32⟩ : BufTy).Contents (Elt F) → (⟨S409600, .i32⟩ : BufTy).Contents (Elt F)),
    unary main_c_352 main_call66_v3 (id : (⟨S_, .i32⟩ : BufTy).Contents (Elt F) → (⟨S_, .i32⟩ : BufTy).Contents (Elt F)),
    unary main_call66_v3 main_call66_v4 ((broadcastInDim S409600 ![] bcast_S_S409600) : (⟨S_, .i32⟩ : BufTy).Contents (Elt F) → (⟨S409600, .i32⟩ : BufTy).Contents (Elt F)),
    binary main_call66_v4 main_call66_v2 main_v926 (minsi : (⟨S409600, .i32⟩ : BufTy).Contents (Elt F) → (⟨S409600, .i32⟩ : BufTy).Contents (Elt F) → (⟨S409600, .i32⟩ : BufTy).Contents (Elt F)),
    nullary main_c_353 (constantI S_ 32 0#32),
    unary main_c_353 main_v927 (broadcastInDim S409600 ![] bcast_S_S409600 : (⟨S_, .i32⟩ : BufTy).Contents (Elt F) → (⟨S409600, .i32⟩ : BufTy).Contents (Elt F)),
    binary main_v526 main_v927 main_v928 (cmpi .slt : (⟨S409600, .i32⟩ : BufTy).Contents (Elt F) → (⟨S409600, .i32⟩ : BufTy).Contents (Elt F) → (⟨S409600, .i1⟩ : BufTy).Contents (Elt F)),
    nullary main_c_354 (constantI S_ 32 2#32),
    unary main_c_354 main_v929 (broadcastInDim S409600 ![] bcast_S_S409600 : (⟨S_, .i32⟩ : BufTy).Contents (Elt F) → (⟨S409600, .i32⟩ : BufTy).Contents (Elt F)),
    binary main_v526 main_v929 main_v930 (addi : (⟨S409600, .i32⟩ : BufTy).Contents (Elt F) → (⟨S409600, .i32⟩ : BufTy).Contents (Elt F) → (⟨S409600, .i32⟩ : BufTy).Contents (Elt F)),
    ternary main_v928 main_v930 main_v526 main_v931 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_355 (constantI S_ 32 0#32),
    unary main_c_355 main_v932 (broadcastInDim S409600 ![] bcast_S_S409600 : (⟨S_, .i32⟩ : BufTy).Contents (Elt F) → (⟨S409600, .i32⟩ : BufTy).Contents (Elt F)),
    binary main_v925 main_v932 main_v933 (cmpi .slt : (⟨S409600, .i32⟩ : BufTy).Contents (Elt F) → (⟨S409600, .i32⟩ : BufTy).Contents (Elt F) → (⟨S409600, .i1⟩ : BufTy).Contents (Elt F)),
    nullary main_c_356 (constantI S_ 32 640#32),
    unary main_c_356 main_v934 (broadcastInDim S409600 ![] bcast_S_S409600 : (⟨S_, .i32⟩ : BufTy).Contents (Elt F) → (⟨S409600, .i32⟩ : BufTy).Contents (Elt F)),
    binary main_v925 main_v934 main_v935 (addi : (⟨S409600, .i32⟩ : BufTy).Contents (Elt F) → (⟨S409600, .i32⟩ : BufTy).Contents (Elt F) → (⟨S409600, .i32⟩ : BufTy).Contents (Elt F)),
    ternary main_v933 main_v935 main_v925 main_v936 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_357 (constantI S_ 32 0#32),
    unary main_c_357 main_v937 (broadcastInDim S409600 ![] bcast_S_S409600 : (⟨S_, .i32⟩ : BufTy).Contents (Elt F) → (⟨S409600, .i32⟩ : BufTy).Contents (Elt F)),
    binary main_v926 main_v937 main_v938 (cmpi .slt : (⟨S409600, .i32⟩ : BufTy).Contents (Elt F) → (⟨S409600, .i32⟩ : BufTy).Contents (Elt F) → (⟨S409600, .i1⟩ : BufTy).Contents (Elt F)),
    nullary main_c_358 (constantI S_ 32 640#32),
    unary main_c_358 main_v939 (broadcastInDim S409600 ![] bcast_S_S409600 : (⟨S_, .i32⟩ : BufTy).Contents (Elt F) → (⟨S409600, .i32⟩ : BufTy).Contents (Elt F)),
    binary main_v926 main_v939 main_v940 (addi : (⟨S409600, .i32⟩ : BufTy).Contents (Elt F) → (⟨S409600, .i32⟩ : BufTy).Contents (Elt F) → (⟨S409600, .i32⟩ : BufTy).Contents (Elt F)),
    ternary main_v938 main_v940 main_v926 main_v941 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v931 main_v942 (broadcastInDim S409600x1 ![0] bcast_S409600_S409600x1_0 : (⟨S409600, .i32⟩ : BufTy).Contents (Elt F) → (⟨S409600x1, .i32⟩ : BufTy).Contents (Elt F)),
    unary main_v936 main_v943 (broadcastInDim S409600x1 ![0] bcast_S409600_S409600x1_0 : (⟨S409600, .i32⟩ : BufTy).Contents (Elt F) → (⟨S409600x1, .i32⟩ : BufTy).Contents (Elt F)),
    unary main_v941 main_v944 (broadcastInDim S409600x1 ![0] bcast_S409600_S409600x1_0 : (⟨S409600, .i32⟩ : BufTy).Contents (Elt F) → (⟨S409600x1, .i32⟩ : BufTy).Contents (Elt F)),
    nary ![main_v942, main_v943, main_v944] main_v945 (fun u => concatenate S409600x3 1 [⟨S409600x1, u 0⟩, ⟨S409600x1, u 1⟩, ⟨S409600x1, u 2⟩] concatenates_S409600x1_S409600x1_S409600x1_S409600x3_d1),
    binary main_v27 main_v945 main_v946 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_359 (constantI S_ 32 0#32),
    unary main_c_359 main_v947 (broadcastInDim S409600 ![] bcast_S_S409600 : (⟨S_, .i32⟩ : BufTy).Contents (Elt F) → (⟨S409600, .i32⟩ : BufTy).Contents (Elt F)),
    binary main_v946 main_v947 main_v948 (cmpi .sge : (⟨S409600, .i32⟩ : BufTy).Contents (Elt F) → (⟨S409600, .i32⟩ : BufTy).Contents (Elt F) → (⟨S409600, .i1⟩ : BufTy).Contents (Elt F)),
    binary main_v924 main_v948 main_v949 (andi : (⟨S409600, .i1⟩ : BufTy).Contents (Elt F) → (⟨S409600, .i1⟩ : BufTy).Contents (Elt F) → (⟨S409600, .i1⟩ : BufTy).Contents (Elt F)),
    nullary main_c_360 (constantI S_ 32 0#32),
    unary main_c_360 main_call67_v0 (id : (⟨S_, .i32⟩ : BufTy).Contents (Elt F) → (⟨S_, .i32⟩ : BufTy).Contents (Elt F)),
    unary main_call67_v0 main_call67_v1 ((broadcastInDim S409600 ![] bcast_S_S409600) : (⟨S_, .i32⟩ : BufTy).Contents (Elt F) → (⟨S409600, .i32⟩ : BufTy).Contents (Elt F)),
    ternary main_v949 main_v946 main_call67_v1 main_v950 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_361 (constantI S_ 32 0#32),
    unary main_c_361 main_v951 (broadcastInDim S409600 ![] bcast_S_S409600 : (⟨S_, .i32⟩ : BufTy).Contents (Elt F) → (⟨S409600, .i32⟩ : BufTy).Contents (Elt F)),
    binary main_v950 main_v951 main_v952 (cmpi .slt : (⟨S409600, .i32⟩ : BufTy).Contents (Elt F) → (⟨S409600, .i32⟩ : BufTy).Contents (Elt F) → (⟨S409600, .i1⟩ : BufTy).Contents (Elt F)),
    nullary main_c_362 (constantI S_ 32 409600#32),
    unary main_c_362 main_v953 (broadcastInDim S409600 ![] bcast_S_S409600 : (⟨S_, .i32⟩ : BufTy).Contents (Elt F) → (⟨S409600, .i32⟩ : BufTy).Contents (Elt F)),
    binary main_v950 main_v953 main_v954 (addi : (⟨S409600, .i32⟩ : BufTy).Contents (Elt F) → (⟨S409600, .i32⟩ : BufTy).Contents (Elt F) → (⟨S409600, .i32⟩ : BufTy).Contents (Elt F)) ]

set_option maxRecDepth 8192 in
set_option maxHeartbeats 4000000 in
theorem main_part21_eq (c : Dev nD) : main_part21 (F := F) c = seq ops_p21 := by
  simp only [main_part21, ops_p21, fn_clip.body, fn_where.body, fn_where_0.body, fn_relu.body, seq, bind_assoc, pure_bind]
  rfl

set_option maxRecDepth 8192 in
theorem ops_p21_sub : (ops_p21 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub ..⟩

set_option maxRecDepth 8192 in
theorem ops_p21_fresh : ∀ op ∈ (ops_p21 : List (HloOp τ sig (Elt F))), op.fresh = ∅ := by
  unfold ops_p21; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 1511 on hold before it. -/
structure Inv21_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v911 : V (Proc.devRef .tc main_v911) = val_main_v911 (F := F) x1
  main_v913 : V (Proc.devRef .tc main_v913) = val_main_v913 (F := F) x1
  main_v918 : V (Proc.devRef .tc main_v918) = val_main_v918 (F := F) x1

/-- What the buffers read from operation 1519 on hold before it. -/
structure Inv21_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v911 : V (Proc.devRef .tc main_v911) = val_main_v911 (F := F) x1
  main_v913 : V (Proc.devRef .tc main_v913) = val_main_v913 (F := F) x1
  main_v924 : V (Proc.devRef .tc main_v924) = val_main_v924 (F := F) x1

/-- What the buffers read from operation 1527 on hold before it. -/
structure Inv21_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v913 : V (Proc.devRef .tc main_v913) = val_main_v913 (F := F) x1
  main_v924 : V (Proc.devRef .tc main_v924) = val_main_v924 (F := F) x1
  main_v925 : V (Proc.devRef .tc main_v925) = val_main_v925 (F := F) x1

/-- What the buffers read from operation 1535 on hold before it. -/
structure Inv21_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v924 : V (Proc.devRef .tc main_v924) = val_main_v924 (F := F) x1
  main_v925 : V (Proc.devRef .tc main_v925) = val_main_v925 (F := F) x1
  main_v926 : V (Proc.devRef .tc main_v926) = val_main_v926 (F := F) x1

/-- What the buffers read from operation 1543 on hold before it. -/
structure Inv21_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v924 : V (Proc.devRef .tc main_v924) = val_main_v924 (F := F) x1
  main_v925 : V (Proc.devRef .tc main_v925) = val_main_v925 (F := F) x1
  main_v926 : V (Proc.devRef .tc main_v926) = val_main_v926 (F := F) x1
  main_v931 : V (Proc.devRef .tc main_v931) = val_main_v931 (F := F) x1
  main_c_355 : V (Proc.devRef .tc main_c_355) = val_main_c_355 (F := F)

/-- What the buffers read from operation 1551 on hold before it. -/
structure Inv21_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v924 : V (Proc.devRef .tc main_v924) = val_main_v924 (F := F) x1
  main_v926 : V (Proc.devRef .tc main_v926) = val_main_v926 (F := F) x1
  main_v931 : V (Proc.devRef .tc main_v931) = val_main_v931 (F := F) x1
  main_v936 : V (Proc.devRef .tc main_v936) = val_main_v936 (F := F) x1
  main_v937 : V (Proc.devRef .tc main_v937) = val_main_v937 (F := F)

/-- What the buffers read from operation 1559 on hold before it. -/
structure Inv21_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v924 : V (Proc.devRef .tc main_v924) = val_main_v924 (F := F) x1
  main_v942 : V (Proc.devRef .tc main_v942) = val_main_v942 (F := F) x1
  main_v943 : V (Proc.devRef .tc main_v943) = val_main_v943 (F := F) x1
  main_v944 : V (Proc.devRef .tc main_v944) = val_main_v944 (F := F) x1

/-- What the buffers read from operation 1567 on hold before it. -/
structure Inv21_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v946 : V (Proc.devRef .tc main_v946) = val_main_v946 (F := F) x1
  main_v949 : V (Proc.devRef .tc main_v949) = val_main_v949 (F := F) x1
  main_call67_v0 : V (Proc.devRef .tc main_call67_v0) = val_main_call67_v0 (F := F)

/-- Stretch 0 of window 21: @main's operations 1503 … 1510. -/
def ops_p21_0 : List (HloOp τ sig (Elt F)) :=
  [ binary main_v530 main_v912 main_v913 (addi : (⟨S409600, .i32⟩ : BufTy).Contents (Elt F) → (⟨S409600, .i32⟩ : BufTy).Contents (Elt F) → (⟨S409600, .i32⟩ : BufTy).Contents (Elt F)),
    nullary main_c_345 (constantI S_ 32 0#32),
    unary main_c_345 main_v914 (broadcastInDim S409600 ![] bcast_S_S409600 : (⟨S_, .i32⟩ : BufTy).Contents (Elt F) → (⟨S409600, .i32⟩ : BufTy).Contents (Elt F)),
    binary main_v911 main_v914 main_v915 (cmpi .sge : (⟨S409600, .i32⟩ : BufTy).Contents (Elt F) → (⟨S409600, .i32⟩ : BufTy).Contents (Elt F) → (⟨S409600, .i1⟩ : BufTy).Contents (Elt F)),
    nullary main_c_346 (constantI S_ 32 640#32),
    unary main_c_346 main_v916 (broadcastInDim S409600 ![] bcast_S_S409600 : (⟨S_, .i32⟩ : BufTy).Contents (Elt F) → (⟨S409600, .i32⟩ : BufTy).Contents (Elt F)),
    binary main_v911 main_v916 main_v917 (cmpi .slt : (⟨S409600, .i32⟩ : BufTy).Contents (Elt F) → (⟨S409600, .i32⟩ : BufTy).Contents (Elt F) → (⟨S409600, .i1⟩ : BufTy).Contents (Elt F)),
    binary main_v915 main_v917 main_v918 (andi : (⟨S409600, .i1⟩ : BufTy).Contents (Elt F) → (⟨S409600, .i1⟩ : BufTy).Contents (Elt F) → (⟨S409600, .i1⟩ : BufTy).Contents (Elt F)) ]
abbrev ops_p21_0_W : List (Ref sig .tc) := [main_v913, main_c_345, main_v914, main_v915, main_c_346, main_v916, main_v917, main_v918]
theorem ops_p21_0_writes : (ops_p21_0 : List (HloOp τ sig (Elt F))).Forall fun op => op.writes ⊆ (ops_p21_0_W.map (Proc.devRef (τ := τ) .tc)).toFinset := by
  simp only [ops_p21_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p21_0_keep (V : Valuation τ sig (Elt F)) (r : Ref sig .tc) (h : r ∉ ops_p21_0_W) :
    after ops_p21_0 V (Proc.devRef .tc r) = V (Proc.devRef .tc r) :=
  after_of_writes_sub ops_p21_0 _ ops_p21_0_writes h

set_option maxRecDepth 8192 in
set_option maxHeartbeats 1000000 in
theorem w21_0_main_v913 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21 V x0 x1 x2 x3 x4 x5 x6) :
    after ops_p21_0 V (Proc.devRef .tc main_v913) = val_main_v913 (F := F) x1 := by
  simp only [ops_p21_0]
  after_results_w
  simp only [h.main_v912, h.main_v530]
  rfl

set_option maxRecDepth 8192 in
set_option maxHeartbeats 1000000 in
theorem w21_0_main_v918 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21 V x0 x1 x2 x3 x4 x5 x6) :
    after ops_p21_0 V (Proc.devRef .tc main_v918) = val_main_v918 (F := F) x1 := by
  simp only [ops_p21_0]
  after_results_w
  simp only [h.main_v911]
  rfl

theorem step21_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21 V x0 x1 x2 x3 x4 x5 x6) : Inv21_1 (after ops_p21_0 V) x0 x1 x2 x3 x4 x5 x6 where
  main_arg0 := (ops_p21_0_keep V main_arg0 (by decide)).trans h.main_arg0
  main_arg1 := (ops_p21_0_keep V main_arg1 (by decide)).trans h.main_arg1
  main_arg2 := (ops_p21_0_keep V main_arg2 (by decide)).trans h.main_arg2
  main_arg3 := (ops_p21_0_keep V main_arg3 (by decide)).trans h.main_arg3
  main_arg4 := (ops_p21_0_keep V main_arg4 (by decide)).trans h.main_arg4
  main_arg5 := (ops_p21_0_keep V main_arg5 (by decide)).trans h.main_arg5
  main_arg6 := (ops_p21_0_keep V main_arg6 (by decide)).trans h.main_arg6
  main_v27 := (ops_p21_0_keep V main_v27 (by decide)).trans h.main_v27
  main_v524 := (ops_p21_0_keep V main_v524 (by decide)).trans h.main_v524
  main_v526 := (ops_p21_0_keep V main_v526 (by decide)).trans h.main_v526
  main_v528 := (ops_p21_0_keep V main_v528 (by decide)).trans h.main_v528
  main_v530 := (ops_p21_0_keep V main_v530 (by decide)).trans h.main_v530
  main_v909 := (ops_p21_0_keep V main_v909 (by decide)).trans h.main_v909
  main_v911 := (ops_p21_0_keep V main_v911 (by decide)).trans h.main_v911
  main_v913 := w21_0_main_v913 V x0 x1 x2 x3 x4 x5 x6 h
  main_v918 := w21_0_main_v918 V x0 x1 x2 x3 x4 x5 x6 h

/-- Stretch 1 of window 21: @main's operations 1511 … 1518. -/
def ops_p21_1 : List (HloOp τ sig (Elt F)) :=
  [ nullary main_c_347 (constantI S_ 32 0#32),
    unary main_c_347 main_v919 (broadcastInDim S409600 ![] bcast_S_S409600 : (⟨S_, .i32⟩ : BufTy).Contents (Elt F) → (⟨S409600, .i32⟩ : BufTy).Contents (Elt F)),
    binary main_v913 main_v919 main_v920 (cmpi .sge : (⟨S409600, .i32⟩ : BufTy).Contents (Elt F) → (⟨S409600, .i32⟩ : BufTy).Contents (Elt F) → (⟨S409600, .i1⟩ : BufTy).Contents (Elt F)),
    binary main_v918 main_v920 main_v921 (andi : (⟨S409600, .i1⟩ : BufTy).Contents (Elt F) → (⟨S409600, .i1⟩ : BufTy).Contents (Elt F) → (⟨S409600, .i1⟩ : BufTy).Contents (Elt F)),
    nullary main_c_348 (constantI S_ 32 640#32),
    unary main_c_348 main_v922 (broadcastInDim S409600 ![] bcast_S_S409600 : (⟨S_, .i32⟩ : BufTy).Contents (Elt F) → (⟨S409600, .i32⟩ : BufTy).Contents (Elt F)),
    binary main_v913 main_v922 main_v923 (cmpi .slt : (⟨S409600, .i32⟩ : BufTy).Contents (Elt F) → (⟨S409600, .i32⟩ : BufTy).Contents (Elt F) → (⟨S409600, .i1⟩ : BufTy).Contents (Elt F)),
    binary main_v921 main_v923 main_v924 (andi : (⟨S409600, .i1⟩ : BufTy).Contents (Elt F) → (⟨S409600, .i1⟩ : BufTy).Contents (Elt F) → (⟨S409600, .i1⟩ : BufTy).Contents (Elt F)) ]
abbrev ops_p21_1_W : List (Ref sig .tc) := [main_c_347, main_v919, main_v920, main_v921, main_c_348, main_v922, main_v923, main_v924]
theorem ops_p21_1_writes : (ops_p21_1 : List (HloOp τ sig (Elt F))).Forall fun op => op.writes ⊆ (ops_p21_1_W.map (Proc.devRef (τ := τ) .tc)).toFinset := by
  simp only [ops_p21_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p21_1_keep (V : Valuation τ sig (Elt F)) (r : Ref sig .tc) (h : r ∉ ops_p21_1_W) :
    after ops_p21_1 V (Proc.devRef .tc r) = V (Proc.devRef .tc r) :=
  after_of_writes_sub ops_p21_1 _ ops_p21_1_writes h

set_option maxRecDepth 8192 in
set_option maxHeartbeats 1000000 in
theorem w21_1_main_v924 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_1 V x0 x1 x2 x3 x4 x5 x6) :
    after ops_p21_1 V (Proc.devRef .tc main_v924) = val_main_v924 (F := F) x1 := by
  simp only [ops_p21_1]
  after_results_w
  simp only [h.main_v913, h.main_v918]
  rfl

theorem step21_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_1 V x0 x1 x2 x3 x4 x5 x6) : Inv21_2 (after ops_p21_1 V) x0 x1 x2 x3 x4 x5 x6 where
  main_arg0 := (ops_p21_1_keep V main_arg0 (by decide)).trans h.main_arg0
  main_arg1 := (ops_p21_1_keep V main_arg1 (by decide)).trans h.main_arg1
  main_arg2 := (ops_p21_1_keep V main_arg2 (by decide)).trans h.main_arg2
  main_arg3 := (ops_p21_1_keep V main_arg3 (by decide)).trans h.main_arg3
  main_arg4 := (ops_p21_1_keep V main_arg4 (by decide)).trans h.main_arg4
  main_arg5 := (ops_p21_1_keep V main_arg5 (by decide)).trans h.main_arg5
  main_arg6 := (ops_p21_1_keep V main_arg6 (by decide)).trans h.main_arg6
  main_v27 := (ops_p21_1_keep V main_v27 (by decide)).trans h.main_v27
  main_v524 := (ops_p21_1_keep V main_v524 (by decide)).trans h.main_v524
  main_v526 := (ops_p21_1_keep V main_v526 (by decide)).trans h.main_v526
  main_v528 := (ops_p21_1_keep V main_v528 (by decide)).trans h.main_v528
  main_v530 := (ops_p21_1_keep V main_v530 (by decide)).trans h.main_v530
  main_v909 := (ops_p21_1_keep V main_v909 (by decide)).trans h.main_v909
  main_v911 := (ops_p21_1_keep V main_v911 (by decide)).trans h.main_v911
  main_v913 := (ops_p21_1_keep V main_v913 (by decide)).trans h.main_v913
  main_v924 := w21_1_main_v924 V x0 x1 x2 x3 x4 x5 x6 h

/-- Stretch 2 of window 21: @main's operations 1519 … 1526. -/
def ops_p21_2 : List (HloOp τ sig (Elt F)) :=
  [ nullary main_c_349 (constantI S_ 32 0#32),
    nullary main_c_350 (constantI S_ 32 639#32),
    unary main_c_349 main_call65_v0 (id : (⟨S_, .i32⟩ : BufTy).Contents (Elt F) → (⟨S_, .i32⟩ : BufTy).Contents (Elt F)),
    unary main_call65_v0 main_call65_v1 ((broadcastInDim S409600 ![] bcast_S_S409600) : (⟨S_, .i32⟩ : BufTy).Contents (Elt F) → (⟨S409600, .i32⟩ : BufTy).Contents (Elt F)),
    binary main_call65_v1 main_v911 main_call65_v2 (maxsi : (⟨S409600, .i32⟩ : BufTy).Contents (Elt F) → (⟨S409600, .i32⟩ : BufTy).Contents (Elt F) → (⟨S409600, .i32⟩ : BufTy).Contents (Elt F)),
    unary main_c_350 main_call65_v3 (id : (⟨S_, .i32⟩ : BufTy).Contents (Elt F) → (⟨S_, .i32⟩ : BufTy).Contents (Elt F)),
    unary main_call65_v3 main_call65_v4 ((broadcastInDim S409600 ![] bcast_S_S409600) : (⟨S_, .i32⟩ : BufTy).Contents (Elt F) → (⟨S409600, .i32⟩ : BufTy).Contents (Elt F)),
    binary main_call65_v4 main_call65_v2 main_v925 (minsi : (⟨S409600, .i32⟩ : BufTy).Contents (Elt F) → (⟨S409600, .i32⟩ : BufTy).Contents (Elt F) → (⟨S409600, .i32⟩ : BufTy).Contents (Elt F)) ]
abbrev ops_p21_2_W : List (Ref sig .tc) := [main_c_349, main_c_350, main_call65_v0, main_call65_v1, main_call65_v2, main_call65_v3, main_call65_v4, main_v925]
theorem ops_p21_2_writes : (ops_p21_2 : List (HloOp τ sig (Elt F))).Forall fun op => op.writes ⊆ (ops_p21_2_W.map (Proc.devRef (τ := τ) .tc)).toFinset := by
  simp only [ops_p21_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p21_2_keep (V : Valuation τ sig (Elt F)) (r : Ref sig .tc) (h : r ∉ ops_p21_2_W) :
    after ops_p21_2 V (Proc.devRef .tc r) = V (Proc.devRef .tc r) :=
  after_of_writes_sub ops_p21_2 _ ops_p21_2_writes h

set_option maxRecDepth 8192 in
set_option maxHeartbeats 1000000 in
theorem w21_2_main_v925 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_2 V x0 x1 x2 x3 x4 x5 x6) :
    after ops_p21_2 V (Proc.devRef .tc main_v925) = val_main_v925 (F := F) x1 := by
  simp only [ops_p21_2]
  after_results_w
  simp only [h.main_v911]
  rfl

theorem step21_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_2 V x0 x1 x2 x3 x4 x5 x6) : Inv21_3 (after ops_p21_2 V) x0 x1 x2 x3 x4 x5 x6 where
  main_arg0 := (ops_p21_2_keep V main_arg0 (by decide)).trans h.main_arg0
  main_arg1 := (ops_p21_2_keep V main_arg1 (by decide)).trans h.main_arg1
  main_arg2 := (ops_p21_2_keep V main_arg2 (by decide)).trans h.main_arg2
  main_arg3 := (ops_p21_2_keep V main_arg3 (by decide)).trans h.main_arg3
  main_arg4 := (ops_p21_2_keep V main_arg4 (by decide)).trans h.main_arg4
  main_arg5 := (ops_p21_2_keep V main_arg5 (by decide)).trans h.main_arg5
  main_arg6 := (ops_p21_2_keep V main_arg6 (by decide)).trans h.main_arg6
  main_v27 := (ops_p21_2_keep V main_v27 (by decide)).trans h.main_v27
  main_v524 := (ops_p21_2_keep V main_v524 (by decide)).trans h.main_v524
  main_v526 := (ops_p21_2_keep V main_v526 (by decide)).trans h.main_v526
  main_v528 := (ops_p21_2_keep V main_v528 (by decide)).trans h.main_v528
  main_v530 := (ops_p21_2_keep V main_v530 (by decide)).trans h.main_v530
  main_v909 := (ops_p21_2_keep V main_v909 (by decide)).trans h.main_v909
  main_v913 := (ops_p21_2_keep V main_v913 (by decide)).trans h.main_v913
  main_v924 := (ops_p21_2_keep V main_v924 (by decide)).trans h.main_v924
  main_v925 := w21_2_main_v925 V x0 x1 x2 x3 x4 x5 x6 h

/-- Stretch 3 of window 21: @main's operations 1527 … 1534. -/
def ops_p21_3 : List (HloOp τ sig (Elt F)) :=
  [ nullary main_c_351 (constantI S_ 32 0#32),
    nullary main_c_352 (constantI S_ 32 639#32),
    unary main_c_351 main_call66_v0 (id : (⟨S_, .i32⟩ : BufTy).Contents (Elt F) → (⟨S_, .i32⟩ : BufTy).Contents (Elt F)),
    unary main_call66_v0 main_call66_v1 ((broadcastInDim S409600 ![] bcast_S_S409600) : (⟨S_, .i32⟩ : BufTy).Contents (Elt F) → (⟨S409600, .i32⟩ : BufTy).Contents (Elt F)),
    binary main_call66_v1 main_v913 main_call66_v2 (maxsi : (⟨S409600, .i32⟩ : BufTy).Contents (Elt F) → (⟨S409600, .i32⟩ : BufTy).Contents (Elt F) → (⟨S409600, .i32⟩ : BufTy).Contents (Elt F)),
    unary main_c_352 main_call66_v3 (id : (⟨S_, .i32⟩ : BufTy).Contents (Elt F) → (⟨S_, .i32⟩ : BufTy).Contents (Elt F)),
    unary main_call66_v3 main_call66_v4 ((broadcastInDim S409600 ![] bcast_S_S409600) : (⟨S_, .i32⟩ : BufTy).Contents (Elt F) → (⟨S409600, .i32⟩ : BufTy).Contents (Elt F)),
    binary main_call66_v4 main_call66_v2 main_v926 (minsi : (⟨S409600, .i32⟩ : BufTy).Contents (Elt F) → (⟨S409600, .i32⟩ : BufTy).Contents (Elt F) → (⟨S409600, .i32⟩ : BufTy).Contents (Elt F)) ]
abbrev ops_p21_3_W : List (Ref sig .tc) := [main_c_351, main_c_352, main_call66_v0, main_call66_v1, main_call66_v2, main_call66_v3, main_call66_v4, main_v926]
theorem ops_p21_3_writes : (ops_p21_3 : List (HloOp τ sig (Elt F))).Forall fun op => op.writes ⊆ (ops_p21_3_W.map (Proc.devRef (τ := τ) .tc)).toFinset := by
  simp only [ops_p21_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p21_3_keep (V : Valuation τ sig (Elt F)) (r : Ref sig .tc) (h : r ∉ ops_p21_3_W) :
    after ops_p21_3 V (Proc.devRef .tc r) = V (Proc.devRef .tc r) :=
  after_of_writes_sub ops_p21_3 _ ops_p21_3_writes h

set_option maxRecDepth 8192 in
set_option maxHeartbeats 1000000 in
theorem w21_3_main_v926 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_3 V x0 x1 x2 x3 x4 x5 x6) :
    after ops_p21_3 V (Proc.devRef .tc main_v926) = val_main_v926 (F := F) x1 := by
  simp only [ops_p21_3]
  after_results_w
  simp only [h.main_v913]
  rfl

theorem step21_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_3 V x0 x1 x2 x3 x4 x5 x6) : Inv21_4 (after ops_p21_3 V) x0 x1 x2 x3 x4 x5 x6 where
  main_arg0 := (ops_p21_3_keep V main_arg0 (by decide)).trans h.main_arg0
  main_arg1 := (ops_p21_3_keep V main_arg1 (by decide)).trans h.main_arg1
  main_arg2 := (ops_p21_3_keep V main_arg2 (by decide)).trans h.main_arg2
  main_arg3 := (ops_p21_3_keep V main_arg3 (by decide)).trans h.main_arg3
  main_arg4 := (ops_p21_3_keep V main_arg4 (by decide)).trans h.main_arg4
  main_arg5 := (ops_p21_3_keep V main_arg5 (by decide)).trans h.main_arg5
  main_arg6 := (ops_p21_3_keep V main_arg6 (by decide)).trans h.main_arg6
  main_v27 := (ops_p21_3_keep V main_v27 (by decide)).trans h.main_v27
  main_v524 := (ops_p21_3_keep V main_v524 (by decide)).trans h.main_v524
  main_v526 := (ops_p21_3_keep V main_v526 (by decide)).trans h.main_v526
  main_v528 := (ops_p21_3_keep V main_v528 (by decide)).trans h.main_v528
  main_v530 := (ops_p21_3_keep V main_v530 (by decide)).trans h.main_v530
  main_v909 := (ops_p21_3_keep V main_v909 (by decide)).trans h.main_v909
  main_v924 := (ops_p21_3_keep V main_v924 (by decide)).trans h.main_v924
  main_v925 := (ops_p21_3_keep V main_v925 (by decide)).trans h.main_v925
  main_v926 := w21_3_main_v926 V x0 x1 x2 x3 x4 x5 x6 h

/-- Stretch 4 of window 21: @main's operations 1535 … 1542. -/
def ops_p21_4 : List (HloOp τ sig (Elt F)) :=
  [ nullary main_c_353 (constantI S_ 32 0#32),
    unary main_c_353 main_v927 (broadcastInDim S409600 ![] bcast_S_S409600 : (⟨S_, .i32⟩ : BufTy).Contents (Elt F) → (⟨S409600, .i32⟩ : BufTy).Contents (Elt F)),
    binary main_v526 main_v927 main_v928 (cmpi .slt : (⟨S409600, .i32⟩ : BufTy).Contents (Elt F) → (⟨S409600, .i32⟩ : BufTy).Contents (Elt F) → (⟨S409600, .i1⟩ : BufTy).Contents (Elt F)),
    nullary main_c_354 (constantI S_ 32 2#32),
    unary main_c_354 main_v929 (broadcastInDim S409600 ![] bcast_S_S409600 : (⟨S_, .i32⟩ : BufTy).Contents (Elt F) → (⟨S409600, .i32⟩ : BufTy).Contents (Elt F)),
    binary main_v526 main_v929 main_v930 (addi : (⟨S409600, .i32⟩ : BufTy).Contents (Elt F) → (⟨S409600, .i32⟩ : BufTy).Contents (Elt F) → (⟨S409600, .i32⟩ : BufTy).Contents (Elt F)),
    ternary main_v928 main_v930 main_v526 main_v931 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_355 (constantI S_ 32 0#32) ]
abbrev ops_p21_4_W : List (Ref sig .tc) := [main_c_353, main_v927, main_v928, main_c_354, main_v929, main_v930, main_v931, main_c_355]
theorem ops_p21_4_writes : (ops_p21_4 : List (HloOp τ sig (Elt F))).Forall fun op => op.writes ⊆ (ops_p21_4_W.map (Proc.devRef (τ := τ) .tc)).toFinset := by
  simp only [ops_p21_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p21_4_keep (V : Valuation τ sig (Elt F)) (r : Ref sig .tc) (h : r ∉ ops_p21_4_W) :
    after ops_p21_4 V (Proc.devRef .tc r) = V (Proc.devRef .tc r) :=
  after_of_writes_sub ops_p21_4 _ ops_p21_4_writes h

set_option maxRecDepth 8192 in
set_option maxHeartbeats 1000000 in
theorem w21_4_main_v931 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_4 V x0 x1 x2 x3 x4 x5 x6) :
    after ops_p21_4 V (Proc.devRef .tc main_v931) = val_main_v931 (F := F) x1 := by
  simp only [ops_p21_4]
  after_results_w
  simp only [h.main_v526]
  rfl

set_option maxRecDepth 8192 in
set_option maxHeartbeats 1000000 in
theorem w21_4_main_c_355 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_4 V x0 x1 x2 x3 x4 x5 x6) :
    after ops_p21_4 V (Proc.devRef .tc main_c_355) = val_main_c_355 (F := F) := by
  simp only [ops_p21_4]
  after_results_w
  rfl

theorem step21_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_4 V x0 x1 x2 x3 x4 x5 x6) : Inv21_5 (after ops_p21_4 V) x0 x1 x2 x3 x4 x5 x6 where
  main_arg0 := (ops_p21_4_keep V main_arg0 (by decide)).trans h.main_arg0
  main_arg1 := (ops_p21_4_keep V main_arg1 (by decide)).trans h.main_arg1
  main_arg2 := (ops_p21_4_keep V main_arg2 (by decide)).trans h.main_arg2
  main_arg3 := (ops_p21_4_keep V main_arg3 (by decide)).trans h.main_arg3
  main_arg4 := (ops_p21_4_keep V main_arg4 (by decide)).trans h.main_arg4
  main_arg5 := (ops_p21_4_keep V main_arg5 (by decide)).trans h.main_arg5
  main_arg6 := (ops_p21_4_keep V main_arg6 (by decide)).trans h.main_arg6
  main_v27 := (ops_p21_4_keep V main_v27 (by decide)).trans h.main_v27
  main_v524 := (ops_p21_4_keep V main_v524 (by decide)).trans h.main_v524
  main_v526 := (ops_p21_4_keep V main_v526 (by decide)).trans h.main_v526
  main_v528 := (ops_p21_4_keep V main_v528 (by decide)).trans h.main_v528
  main_v530 := (ops_p21_4_keep V main_v530 (by decide)).trans h.main_v530
  main_v909 := (ops_p21_4_keep V main_v909 (by decide)).trans h.main_v909
  main_v924 := (ops_p21_4_keep V main_v924 (by decide)).trans h.main_v924
  main_v925 := (ops_p21_4_keep V main_v925 (by decide)).trans h.main_v925
  main_v926 := (ops_p21_4_keep V main_v926 (by decide)).trans h.main_v926
  main_v931 := w21_4_main_v931 V x0 x1 x2 x3 x4 x5 x6 h
  main_c_355 := w21_4_main_c_355 V x0 x1 x2 x3 x4 x5 x6 h

/-- Stretch 5 of window 21: @main's operations 1543 … 1550. -/
def ops_p21_5 : List (HloOp τ sig (Elt F)) :=
  [ unary main_c_355 main_v932 (broadcastInDim S409600 ![] bcast_S_S409600 : (⟨S_, .i32⟩ : BufTy).Contents (Elt F) → (⟨S409600, .i32⟩ : BufTy).Contents (Elt F)),
    binary main_v925 main_v932 main_v933 (cmpi .slt : (⟨S409600, .i32⟩ : BufTy).Contents (Elt F) → (⟨S409600, .i32⟩ : BufTy).Contents (Elt F) → (⟨S409600, .i1⟩ : BufTy).Contents (Elt F)),
    nullary main_c_356 (constantI S_ 32 640#32),
    unary main_c_356 main_v934 (broadcastInDim S409600 ![] bcast_S_S409600 : (⟨S_, .i32⟩ : BufTy).Contents (Elt F) → (⟨S409600, .i32⟩ : BufTy).Contents (Elt F)),
    binary main_v925 main_v934 main_v935 (addi : (⟨S409600, .i32⟩ : BufTy).Contents (Elt F) → (⟨S409600, .i32⟩ : BufTy).Contents (Elt F) → (⟨S409600, .i32⟩ : BufTy).Contents (Elt F)),
    ternary main_v933 main_v935 main_v925 main_v936 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_357 (constantI S_ 32 0#32),
    unary main_c_357 main_v937 (broadcastInDim S409600 ![] bcast_S_S409600 : (⟨S_, .i32⟩ : BufTy).Contents (Elt F) → (⟨S409600, .i32⟩ : BufTy).Contents (Elt F)) ]
abbrev ops_p21_5_W : List (Ref sig .tc) := [main_v932, main_v933, main_c_356, main_v934, main_v935, main_v936, main_c_357, main_v937]
theorem ops_p21_5_writes : (ops_p21_5 : List (HloOp τ sig (Elt F))).Forall fun op => op.writes ⊆ (ops_p21_5_W.map (Proc.devRef (τ := τ) .tc)).toFinset := by
  simp only [ops_p21_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p21_5_keep (V : Valuation τ sig (Elt F)) (r : Ref sig .tc) (h : r ∉ ops_p21_5_W) :
    after ops_p21_5 V (Proc.devRef .tc r) = V (Proc.devRef .tc r) :=
  after_of_writes_sub ops_p21_5 _ ops_p21_5_writes h

set_option maxRecDepth 8192 in
set_option maxHeartbeats 1000000 in
theorem w21_5_main_v936 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_5 V x0 x1 x2 x3 x4 x5 x6) :
    after ops_p21_5 V (Proc.devRef .tc main_v936) = val_main_v936 (F := F) x1 := by
  simp only [ops_p21_5]
  after_results_w
  simp only [h.main_v925, h.main_c_355]
  rfl

set_option maxRecDepth 8192 in
set_option maxHeartbeats 1000000 in
theorem w21_5_main_v937 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_5 V x0 x1 x2 x3 x4 x5 x6) :
    after ops_p21_5 V (Proc.devRef .tc main_v937) = val_main_v937 (F := F) := by
  simp only [ops_p21_5]
  after_results_w
  rfl

theorem step21_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_5 V x0 x1 x2 x3 x4 x5 x6) : Inv21_6 (after ops_p21_5 V) x0 x1 x2 x3 x4 x5 x6 where
  main_arg0 := (ops_p21_5_keep V main_arg0 (by decide)).trans h.main_arg0
  main_arg1 := (ops_p21_5_keep V main_arg1 (by decide)).trans h.main_arg1
  main_arg2 := (ops_p21_5_keep V main_arg2 (by decide)).trans h.main_arg2
  main_arg3 := (ops_p21_5_keep V main_arg3 (by decide)).trans h.main_arg3
  main_arg4 := (ops_p21_5_keep V main_arg4 (by decide)).trans h.main_arg4
  main_arg5 := (ops_p21_5_keep V main_arg5 (by decide)).trans h.main_arg5
  main_arg6 := (ops_p21_5_keep V main_arg6 (by decide)).trans h.main_arg6
  main_v27 := (ops_p21_5_keep V main_v27 (by decide)).trans h.main_v27
  main_v524 := (ops_p21_5_keep V main_v524 (by decide)).trans h.main_v524
  main_v526 := (ops_p21_5_keep V main_v526 (by decide)).trans h.main_v526
  main_v528 := (ops_p21_5_keep V main_v528 (by decide)).trans h.main_v528
  main_v530 := (ops_p21_5_keep V main_v530 (by decide)).trans h.main_v530
  main_v909 := (ops_p21_5_keep V main_v909 (by decide)).trans h.main_v909
  main_v924 := (ops_p21_5_keep V main_v924 (by decide)).trans h.main_v924
  main_v926 := (ops_p21_5_keep V main_v926 (by decide)).trans h.main_v926
  main_v931 := (ops_p21_5_keep V main_v931 (by decide)).trans h.main_v931
  main_v936 := w21_5_main_v936 V x0 x1 x2 x3 x4 x5 x6 h
  main_v937 := w21_5_main_v937 V x0 x1 x2 x3 x4 x5 x6 h

/-- Stretch 6 of window 21: @main's operations 1551 … 1558. -/
def ops_p21_6 : List (HloOp τ sig (Elt F)) :=
  [ binary main_v926 main_v937 main_v938 (cmpi .slt : (⟨S409600, .i32⟩ : BufTy).Contents (Elt F) → (⟨S409600, .i32⟩ : BufTy).Contents (Elt F) → (⟨S409600, .i1⟩ : BufTy).Contents (Elt F)),
    nullary main_c_358 (constantI S_ 32 640#32),
    unary main_c_358 main_v939 (broadcastInDim S409600 ![] bcast_S_S409600 : (⟨S_, .i32⟩ : BufTy).Contents (Elt F) → (⟨S409600, .i32⟩ : BufTy).Contents (Elt F)),
    binary main_v926 main_v939 main_v940 (addi : (⟨S409600, .i32⟩ : BufTy).Contents (Elt F) → (⟨S409600, .i32⟩ : BufTy).Contents (Elt F) → (⟨S409600, .i32⟩ : BufTy).Contents (Elt F)),
    ternary main_v938 main_v940 main_v926 main_v941 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v931 main_v942 (broadcastInDim S409600x1 ![0] bcast_S409600_S409600x1_0 : (⟨S409600, .i32⟩ : BufTy).Contents (Elt F) → (⟨S409600x1, .i32⟩ : BufTy).Contents (Elt F)),
    unary main_v936 main_v943 (broadcastInDim S409600x1 ![0] bcast_S409600_S409600x1_0 : (⟨S409600, .i32⟩ : BufTy).Contents (Elt F) → (⟨S409600x1, .i32⟩ : BufTy).Contents (Elt F)),
    unary main_v941 main_v944 (broadcastInDim S409600x1 ![0] bcast_S409600_S409600x1_0 : (⟨S409600, .i32⟩ : BufTy).Contents (Elt F) → (⟨S409600x1, .i32⟩ : BufTy).Contents (Elt F)) ]
abbrev ops_p21_6_W : List (Ref sig .tc) := [main_v938, main_c_358, main_v939, main_v940, main_v941, main_v942, main_v943, main_v944]
theorem ops_p21_6_writes : (ops_p21_6 : List (HloOp τ sig (Elt F))).Forall fun op => op.writes ⊆ (ops_p21_6_W.map (Proc.devRef (τ := τ) .tc)).toFinset := by
  simp only [ops_p21_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p21_6_keep (V : Valuation τ sig (Elt F)) (r : Ref sig .tc) (h : r ∉ ops_p21_6_W) :
    after ops_p21_6 V (Proc.devRef .tc r) = V (Proc.devRef .tc r) :=
  after_of_writes_sub ops_p21_6 _ ops_p21_6_writes h

set_option maxRecDepth 8192 in
set_option maxHeartbeats 1000000 in
theorem w21_6_main_v942 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_6 V x0 x1 x2 x3 x4 x5 x6) :
    after ops_p21_6 V (Proc.devRef .tc main_v942) = val_main_v942 (F := F) x1 := by
  simp only [ops_p21_6]
  after_results_w
  simp only [h.main_v931]
  rfl

set_option maxRecDepth 8192 in
set_option maxHeartbeats 1000000 in
theorem w21_6_main_v943 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_6 V x0 x1 x2 x3 x4 x5 x6) :
    after ops_p21_6 V (Proc.devRef .tc main_v943) = val_main_v943 (F := F) x1 := by
  simp only [ops_p21_6]
  after_results_w
  simp only [h.main_v936]
  rfl

set_option maxRecDepth 8192 in
set_option maxHeartbeats 1000000 in
theorem w21_6_main_v944 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_6 V x0 x1 x2 x3 x4 x5 x6) :
    after ops_p21_6 V (Proc.devRef .tc main_v944) = val_main_v944 (F := F) x1 := by
  simp only [ops_p21_6]
  after_results_w
  simp only [h.main_v926, h.main_v937]
  rfl

theorem step21_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_6 V x0 x1 x2 x3 x4 x5 x6) : Inv21_7 (after ops_p21_6 V) x0 x1 x2 x3 x4 x5 x6 where
  main_arg0 := (ops_p21_6_keep V main_arg0 (by decide)).trans h.main_arg0
  main_arg1 := (ops_p21_6_keep V main_arg1 (by decide)).trans h.main_arg1
  main_arg2 := (ops_p21_6_keep V main_arg2 (by decide)).trans h.main_arg2
  main_arg3 := (ops_p21_6_keep V main_arg3 (by decide)).trans h.main_arg3
  main_arg4 := (ops_p21_6_keep V main_arg4 (by decide)).trans h.main_arg4
  main_arg5 := (ops_p21_6_keep V main_arg5 (by decide)).trans h.main_arg5
  main_arg6 := (ops_p21_6_keep V main_arg6 (by decide)).trans h.main_arg6
  main_v27 := (ops_p21_6_keep V main_v27 (by decide)).trans h.main_v27
  main_v524 := (ops_p21_6_keep V main_v524 (by decide)).trans h.main_v524
  main_v526 := (ops_p21_6_keep V main_v526 (by decide)).trans h.main_v526
  main_v528 := (ops_p21_6_keep V main_v528 (by decide)).trans h.main_v528
  main_v530 := (ops_p21_6_keep V main_v530 (by decide)).trans h.main_v530
  main_v909 := (ops_p21_6_keep V main_v909 (by decide)).trans h.main_v909
  main_v924 := (ops_p21_6_keep V main_v924 (by decide)).trans h.main_v924
  main_v942 := w21_6_main_v942 V x0 x1 x2 x3 x4 x5 x6 h
  main_v943 := w21_6_main_v943 V x0 x1 x2 x3 x4 x5 x6 h
  main_v944 := w21_6_main_v944 V x0 x1 x2 x3 x4 x5 x6 h

/-- Stretch 7 of window 21: @main's operations 1559 … 1566. -/
def ops_p21_7 : List (HloOp τ sig (Elt F)) :=
  [ nary ![main_v942, main_v943, main_v944] main_v945 (fun u => concatenate S409600x3 1 [⟨S409600x1, u 0⟩, ⟨S409600x1, u 1⟩, ⟨S409600x1, u 2⟩] concatenates_S409600x1_S409600x1_S409600x1_S409600x3_d1),
    binary main_v27 main_v945 main_v946 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_359 (constantI S_ 32 0#32),
    unary main_c_359 main_v947 (broadcastInDim S409600 ![] bcast_S_S409600 : (⟨S_, .i32⟩ : BufTy).Contents (Elt F) → (⟨S409600, .i32⟩ : BufTy).Contents (Elt F)),
    binary main_v946 main_v947 main_v948 (cmpi .sge : (⟨S409600, .i32⟩ : BufTy).Contents (Elt F) → (⟨S409600, .i32⟩ : BufTy).Contents (Elt F) → (⟨S409600, .i1⟩ : BufTy).Contents (Elt F)),
    binary main_v924 main_v948 main_v949 (andi : (⟨S409600, .i1⟩ : BufTy).Contents (Elt F) → (⟨S409600, .i1⟩ : BufTy).Contents (Elt F) → (⟨S409600, .i1⟩ : BufTy).Contents (Elt F)),
    nullary main_c_360 (constantI S_ 32 0#32),
    unary main_c_360 main_call67_v0 (id : (⟨S_, .i32⟩ : BufTy).Contents (Elt F) → (⟨S_, .i32⟩ : BufTy).Contents (Elt F)) ]
abbrev ops_p21_7_W : List (Ref sig .tc) := [main_v945, main_v946, main_c_359, main_v947, main_v948, main_v949, main_c_360, main_call67_v0]
theorem ops_p21_7_writes : (ops_p21_7 : List (HloOp τ sig (Elt F))).Forall fun op => op.writes ⊆ (ops_p21_7_W.map (Proc.devRef (τ := τ) .tc)).toFinset := by
  simp only [ops_p21_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p21_7_keep (V : Valuation τ sig (Elt F)) (r : Ref sig .tc) (h : r ∉ ops_p21_7_W) :
    after ops_p21_7 V (Proc.devRef .tc r) = V (Proc.devRef .tc r) :=
  after_of_writes_sub ops_p21_7 _ ops_p21_7_writes h

set_option maxRecDepth 8192 in
set_option maxHeartbeats 1000000 in
theorem w21_7_main_v946 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_7 V x0 x1 x2 x3 x4 x5 x6) :
    after ops_p21_7 V (Proc.devRef .tc main_v946) = val_main_v946 (F := F) x1 := by
  simp only [ops_p21_7]
  after_results_w
  simp only [h.main_v944, h.main_v943, h.main_v942, h.main_v27]
  rfl

set_option maxRecDepth 8192 in
set_option maxHeartbeats 1000000 in
theorem w21_7_main_v949 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_7 V x0 x1 x2 x3 x4 x5 x6) :
    after ops_p21_7 V (Proc.devRef .tc main_v949) = val_main_v949 (F := F) x1 := by
  simp only [ops_p21_7]
  after_results_w
  simp only [h.main_v944, h.main_v943, h.main_v942, h.main_v27, h.main_v924]
  rfl

set_option maxRecDepth 8192 in
set_option maxHeartbeats 1000000 in
theorem w21_7_main_call67_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_7 V x0 x1 x2 x3 x4 x5 x6) :
    after ops_p21_7 V (Proc.devRef .tc main_call67_v0) = val_main_call67_v0 (F := F) := by
  simp only [ops_p21_7]
  after_results_w
  rfl

theorem step21_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_7 V x0 x1 x2 x3 x4 x5 x6) : Inv21_8 (after ops_p21_7 V) x0 x1 x2 x3 x4 x5 x6 where
  main_arg0 := (ops_p21_7_keep V main_arg0 (by decide)).trans h.main_arg0
  main_arg1 := (ops_p21_7_keep V main_arg1 (by decide)).trans h.main_arg1
  main_arg2 := (ops_p21_7_keep V main_arg2 (by decide)).trans h.main_arg2
  main_arg3 := (ops_p21_7_keep V main_arg3 (by decide)).trans h.main_arg3
  main_arg4 := (ops_p21_7_keep V main_arg4 (by decide)).trans h.main_arg4
  main_arg5 := (ops_p21_7_keep V main_arg5 (by decide)).trans h.main_arg5
  main_arg6 := (ops_p21_7_keep V main_arg6 (by decide)).trans h.main_arg6
  main_v27 := (ops_p21_7_keep V main_v27 (by decide)).trans h.main_v27
  main_v524 := (ops_p21_7_keep V main_v524 (by decide)).trans h.main_v524
  main_v526 := (ops_p21_7_keep V main_v526 (by decide)).trans h.main_v526
  main_v528 := (ops_p21_7_keep V main_v528 (by decide)).trans h.main_v528
  main_v530 := (ops_p21_7_keep V main_v530 (by decide)).trans h.main_v530
  main_v909 := (ops_p21_7_keep V main_v909 (by decide)).trans h.main_v909
  main_v946 := w21_7_main_v946 V x0 x1 x2 x3 x4 x5 x6 h
  main_v949 := w21_7_main_v949 V x0 x1 x2 x3 x4 x5 x6 h
  main_call67_v0 := w21_7_main_call67_v0 V x0 x1 x2 x3 x4 x5 x6 h

/-- Stretch 8 of window 21: @main's operations 1567 … 1574. -/
def ops_p21_8 : List (HloOp τ sig (Elt F)) :=
  [ unary main_call67_v0 main_call67_v1 ((broadcastInDim S409600 ![] bcast_S_S409600) : (⟨S_, .i32⟩ : BufTy).Contents (Elt F) → (⟨S409600, .i32⟩ : BufTy).Contents (Elt F)),
    ternary main_v949 main_v946 main_call67_v1 main_v950 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_361 (constantI S_ 32 0#32),
    unary main_c_361 main_v951 (broadcastInDim S409600 ![] bcast_S_S409600 : (⟨S_, .i32⟩ : BufTy).Contents (Elt F) → (⟨S409600, .i32⟩ : BufTy).Contents (Elt F)),
    binary main_v950 main_v951 main_v952 (cmpi .slt : (⟨S409600, .i32⟩ : BufTy).Contents (Elt F) → (⟨S409600, .i32⟩ : BufTy).Contents (Elt F) → (⟨S409600, .i1⟩ : BufTy).Contents (Elt F)),
    nullary main_c_362 (constantI S_ 32 409600#32),
    unary main_c_362 main_v953 (broadcastInDim S409600 ![] bcast_S_S409600 : (⟨S_, .i32⟩ : BufTy).Contents (Elt F) → (⟨S409600, .i32⟩ : BufTy).Contents (Elt F)),
    binary main_v950 main_v953 main_v954 (addi : (⟨S409600, .i32⟩ : BufTy).Contents (Elt F) → (⟨S409600, .i32⟩ : BufTy).Contents (Elt F) → (⟨S409600, .i32⟩ : BufTy).Contents (Elt F)) ]
abbrev ops_p21_8_W : List (Ref sig .tc) := [main_call67_v1, main_v950, main_c_361, main_v951, main_v952, main_c_362, main_v953, main_v954]
theorem ops_p21_8_writes : (ops_p21_8 : List (HloOp τ sig (Elt F))).Forall fun op => op.writes ⊆ (ops_p21_8_W.map (Proc.devRef (τ := τ) .tc)).toFinset := by
  simp only [ops_p21_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p21_8_keep (V : Valuation τ sig (Elt F)) (r : Ref sig .tc) (h : r ∉ ops_p21_8_W) :
    after ops_p21_8 V (Proc.devRef .tc r) = V (Proc.devRef .tc r) :=
  after_of_writes_sub ops_p21_8 _ ops_p21_8_writes h

set_option maxRecDepth 8192 in
set_option maxHeartbeats 1000000 in
theorem w21_8_main_v950 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_8 V x0 x1 x2 x3 x4 x5 x6) :
    after ops_p21_8 V (Proc.devRef .tc main_v950) = val_main_v950 (F := F) x1 := by
  simp only [ops_p21_8]
  after_results_w
  simp only [h.main_call67_v0, h.main_v946, h.main_v949]
  rfl

set_option maxRecDepth 8192 in
set_option maxHeartbeats 1000000 in
theorem w21_8_main_v952 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_8 V x0 x1 x2 x3 x4 x5 x6) :
    after ops_p21_8 V (Proc.devRef .tc main_v952) = val_main_v952 (F := F) x1 := by
  simp only [ops_p21_8]
  after_results_w
  simp only [h.main_call67_v0, h.main_v946, h.main_v949]
  rfl

set_option maxRecDepth 8192 in
set_option maxHeartbeats 1000000 in
theorem w21_8_main_v954 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_8 V x0 x1 x2 x3 x4 x5 x6) :
    after ops_p21_8 V (Proc.devRef .tc main_v954) = val_main_v954 (F := F) x1 := by
  simp only [ops_p21_8]
  after_results_w
  simp only [h.main_call67_v0, h.main_v946, h.main_v949]
  rfl

theorem step21_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21_8 V x0 x1 x2 x3 x4 x5 x6) : Inv22 (after ops_p21_8 V) x0 x1 x2 x3 x4 x5 x6 where
  main_arg0 := (ops_p21_8_keep V main_arg0 (by decide)).trans h.main_arg0
  main_arg1 := (ops_p21_8_keep V main_arg1 (by decide)).trans h.main_arg1
  main_arg2 := (ops_p21_8_keep V main_arg2 (by decide)).trans h.main_arg2
  main_arg3 := (ops_p21_8_keep V main_arg3 (by decide)).trans h.main_arg3
  main_arg4 := (ops_p21_8_keep V main_arg4 (by decide)).trans h.main_arg4
  main_arg5 := (ops_p21_8_keep V main_arg5 (by decide)).trans h.main_arg5
  main_arg6 := (ops_p21_8_keep V main_arg6 (by decide)).trans h.main_arg6
  main_v27 := (ops_p21_8_keep V main_v27 (by decide)).trans h.main_v27
  main_v524 := (ops_p21_8_keep V main_v524 (by decide)).trans h.main_v524
  main_v526 := (ops_p21_8_keep V main_v526 (by decide)).trans h.main_v526
  main_v528 := (ops_p21_8_keep V main_v528 (by decide)).trans h.main_v528
  main_v530 := (ops_p21_8_keep V main_v530 (by decide)).trans h.main_v530
  main_v909 := (ops_p21_8_keep V main_v909 (by decide)).trans h.main_v909
  main_v949 := (ops_p21_8_keep V main_v949 (by decide)).trans h.main_v949
  main_v950 := w21_8_main_v950 V x0 x1 x2 x3 x4 x5 x6 h
  main_v952 := w21_8_main_v952 V x0 x1 x2 x3 x4 x5 x6 h
  main_v954 := w21_8_main_v954 V x0 x1 x2 x3 x4 x5 x6 h

set_option maxRecDepth 8192 in
theorem ops_p21_split : (ops_p21 : List (HloOp τ sig (Elt F))) = ops_p21_0 ++ (ops_p21_1 ++ (ops_p21_2 ++ (ops_p21_3 ++ (ops_p21_4 ++ (ops_p21_5 ++ (ops_p21_6 ++ (ops_p21_7 ++ (ops_p21_8)))))))) := rfl

/-- Window 21 carries the staged reading from boundary 21 to boundary 22. -/
theorem step21 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv21 V x0 x1 x2 x3 x4 x5 x6) : Inv22 (after ops_p21 V) x0 x1 x2 x3 x4 x5 x6 := by
  rw [ops_p21_split]; simp only [after_app]
  exact step21_8 _ x0 x1 x2 x3 x4 x5 x6 (step21_7 _ x0 x1 x2 x3 x4 x5 x6 (step21_6 _ x0 x1 x2 x3 x4 x5 x6 (step21_5 _ x0 x1 x2 x3 x4 x5 x6 (step21_4 _ x0 x1 x2 x3 x4 x5 x6 (step21_3 _ x0 x1 x2 x3 x4 x5 x6 (step21_2 _ x0 x1 x2 x3 x4 x5 x6 (step21_1 _ x0 x1 x2 x3 x4 x5 x6 (step21_0 V x0 x1 x2 x3 x4 x5 x6 h))))))))

end Cert.ReferenceIdeal.Hand

end
-- ==== Proof.Ref.W22.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 22 of @main: its operations 1575 … 1647 of 1688, in order. -/
def ops_p22 : List (HloOp τ sig (Elt F)) :=
  [ ternary main_v952 main_v954 main_v950 main_v955 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v955 main_v956 (broadcastInDim S409600x1 ![0] bcast_S409600_S409600x1_0 : (⟨S409600, .i32⟩ : BufTy).Contents (Elt F) → (⟨S409600x1, .i32⟩ : BufTy).Contents (Elt F)),
    binary main_v524 main_v956 main_v957 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v949 main_v958 (broadcastInDim S409600x1 ![0] bcast_S409600_S409600x1_0 : (⟨S409600, .i1⟩ : BufTy).Contents (Elt F) → (⟨S409600x1, .i1⟩ : BufTy).Contents (Elt F)),
    nullary main_cst_363 (constant S_ .f32 0x00000000#32),
    unary main_cst_363 main_call68_v0 (id : (⟨S_, .f32⟩ : BufTy).Contents (Elt F) → (⟨S_, .f32⟩ : BufTy).Contents (Elt F)),
    unary main_v958 main_call68_v1 ((broadcastInDim S409600x64 ![0, 1] bcast_S409600x1_S409600x64_0_1) : (⟨S409600x1, .i1⟩ : BufTy).Contents (Elt F) → (⟨S409600x64, .i1⟩ : BufTy).Contents (Elt F)),
    unary main_call68_v0 main_call68_v2 ((broadcastInDim S409600x64 ![] bcast_S_S409600x64) : (⟨S_, .f32⟩ : BufTy).Contents (Elt F) → (⟨S409600x64, .f32⟩ : BufTy).Contents (Elt F)),
    ternary main_call68_v1 main_v957 main_call68_v2 main_v959 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v960 ((extractStridedSlice S1x1x64x64 ![2, 1, 0, 0] · slices_S3x3x64x64_S1x1x64x64_2_1_0_0) : (⟨S3x3x64x64, .f32⟩ : BufTy).Contents (Elt F) → (⟨S1x1x64x64, .f32⟩ : BufTy).Contents (Elt F)),
    reshape main_v960 main_v961 rfl shapeCasts_S1x1x64x64_S64x64,
    binary main_v959 main_v961 main_v962 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v909 main_v962 main_v963 (addf : (⟨S409600x64, .f32⟩ : BufTy).Contents (Elt F) → (⟨S409600x64, .f32⟩ : BufTy).Contents (Elt F) → (⟨S409600x64, .f32⟩ : BufTy).Contents (Elt F)),
    nullary main_c_364 (constantI S_ 32 1#32),
    unary main_c_364 main_v964 (broadcastInDim S409600 ![] bcast_S_S409600 : (⟨S_, .i32⟩ : BufTy).Contents (Elt F) → (⟨S409600, .i32⟩ : BufTy).Contents (Elt F)),
    binary main_v528 main_v964 main_v965 (addi : (⟨S409600, .i32⟩ : BufTy).Contents (Elt F) → (⟨S409600, .i32⟩ : BufTy).Contents (Elt F) → (⟨S409600, .i32⟩ : BufTy).Contents (Elt F)),
    nullary main_c_365 (constantI S_ 32 1#32),
    unary main_c_365 main_v966 (broadcastInDim S409600 ![] bcast_S_S409600 : (⟨S_, .i32⟩ : BufTy).Contents (Elt F) → (⟨S409600, .i32⟩ : BufTy).Contents (Elt F)),
    binary main_v530 main_v966 main_v967 (addi : (⟨S409600, .i32⟩ : BufTy).Contents (Elt F) → (⟨S409600, .i32⟩ : BufTy).Contents (Elt F) → (⟨S409600, .i32⟩ : BufTy).Contents (Elt F)),
    nullary main_c_366 (constantI S_ 32 0#32),
    unary main_c_366 main_v968 (broadcastInDim S409600 ![] bcast_S_S409600 : (⟨S_, .i32⟩ : BufTy).Contents (Elt F) → (⟨S409600, .i32⟩ : BufTy).Contents (Elt F)),
    binary main_v965 main_v968 main_v969 (cmpi .sge : (⟨S409600, .i32⟩ : BufTy).Contents (Elt F) → (⟨S409600, .i32⟩ : BufTy).Contents (Elt F) → (⟨S409600, .i1⟩ : BufTy).Contents (Elt F)),
    nullary main_c_367 (constantI S_ 32 640#32),
    unary main_c_367 main_v970 (broadcastInDim S409600 ![] bcast_S_S409600 : (⟨S_, .i32⟩ : BufTy).Contents (Elt F) → (⟨S409600, .i32⟩ : BufTy).Contents (Elt F)),
    binary main_v965 main_v970 main_v971 (cmpi .slt : (⟨S409600, .i32⟩ : BufTy).Contents (Elt F) → (⟨S409600, .i32⟩ : BufTy).Contents (Elt F) → (⟨S409600, .i1⟩ : BufTy).Contents (Elt F)),
    binary main_v969 main_v971 main_v972 (andi : (⟨S409600, .i1⟩ : BufTy).Contents (Elt F) → (⟨S409600, .i1⟩ : BufTy).Contents (Elt F) → (⟨S409600, .i1⟩ : BufTy).Contents (Elt F)),
    nullary main_c_368 (constantI S_ 32 0#32),
    unary main_c_368 main_v973 (broadcastInDim S409600 ![] bcast_S_S409600 : (⟨S_, .i32⟩ : BufTy).Contents (Elt F) → (⟨S409600, .i32⟩ : BufTy).Contents (Elt F)),
    binary main_v967 main_v973 main_v974 (cmpi .sge : (⟨S409600, .i32⟩ : BufTy).Contents (Elt F) → (⟨S409600, .i32⟩ : BufTy).Contents (Elt F) → (⟨S409600, .i1⟩ : BufTy).Contents (Elt F)),
    binary main_v972 main_v974 main_v975 (andi : (⟨S409600, .i1⟩ : BufTy).Contents (Elt F) → (⟨S409600, .i1⟩ : BufTy).Contents (Elt F) → (⟨S409600, .i1⟩ : BufTy).Contents (Elt F)),
    nullary main_c_369 (constantI S_ 32 640#32),
    unary main_c_369 main_v976 (broadcastInDim S409600 ![] bcast_S_S409600 : (⟨S_, .i32⟩ : BufTy).Contents (Elt F) → (⟨S409600, .i32⟩ : BufTy).Contents (Elt F)),
    binary main_v967 main_v976 main_v977 (cmpi .slt : (⟨S409600, .i32⟩ : BufTy).Contents (Elt F) → (⟨S409600, .i32⟩ : BufTy).Contents (Elt F) → (⟨S409600, .i1⟩ : BufTy).Contents (Elt F)),
    binary main_v975 main_v977 main_v978 (andi : (⟨S409600, .i1⟩ : BufTy).Contents (Elt F) → (⟨S409600, .i1⟩ : BufTy).Contents (Elt F) → (⟨S409600, .i1⟩ : BufTy).Contents (Elt F)),
    nullary main_c_370 (constantI S_ 32 0#32),
    nullary main_c_371 (constantI S_ 32 639#32),
    unary main_c_370 main_call69_v0 (id : (⟨S_, .i32⟩ : BufTy).Contents (Elt F) → (⟨S_, .i32⟩ : BufTy).Contents (Elt F)),
    unary main_call69_v0 main_call69_v1 ((broadcastInDim S409600 ![] bcast_S_S409600) : (⟨S_, .i32⟩ : BufTy).Contents (Elt F) → (⟨S409600, .i32⟩ : BufTy).Contents (Elt F)),
    binary main_call69_v1 main_v965 main_call69_v2 (maxsi : (⟨S409600, .i32⟩ : BufTy).Contents (Elt F) → (⟨S409600, .i32⟩ : BufTy).Contents (Elt F) → (⟨S409600, .i32⟩ : BufTy).Contents (Elt F)),
    unary main_c_371 main_call69_v3 (id : (⟨S_, .i32⟩ : BufTy).Contents (Elt F) → (⟨S_, .i32⟩ : BufTy).Contents (Elt F)),
    unary main_call69_v3 main_call69_v4 ((broadcastInDim S409600 ![] bcast_S_S409600) : (⟨S_, .i32⟩ : BufTy).Contents (Elt F) → (⟨S409600, .i32⟩ : BufTy).Contents (Elt F)),
    binary main_call69_v4 main_call69_v2 main_v979 (minsi : (⟨S409600, .i32⟩ : BufTy).Contents (Elt F) → (⟨S409600, .i32⟩ : BufTy).Contents (Elt F) → (⟨S409600, .i32⟩ : BufTy).Contents (Elt F)),
    nullary main_c_372 (constantI S_ 32 0#32),
    nullary main_c_373 (constantI S_ 32 639#32),
    unary main_c_372 main_call70_v0 (id : (⟨S_, .i32⟩ : BufTy).Contents (Elt F) → (⟨S_, .i32⟩ : BufTy).Contents (Elt F)),
    unary main_call70_v0 main_call70_v1 ((broadcastInDim S409600 ![] bcast_S_S409600) : (⟨S_, .i32⟩ : BufTy).Contents (Elt F) → (⟨S409600, .i32⟩ : BufTy).Contents (Elt F)),
    binary main_call70_v1 main_v967 main_call70_v2 (maxsi : (⟨S409600, .i32⟩ : BufTy).Contents (Elt F) → (⟨S409600, .i32⟩ : BufTy).Contents (Elt F) → (⟨S409600, .i32⟩ : BufTy).Contents (Elt F)),
    unary main_c_373 main_call70_v3 (id : (⟨S_, .i32⟩ : BufTy).Contents (Elt F) → (⟨S_, .i32⟩ : BufTy).Contents (Elt F)),
    unary main_call70_v3 main_call70_v4 ((broadcastInDim S409600 ![] bcast_S_S409600) : (⟨S_, .i32⟩ : BufTy).Contents (Elt F) → (⟨S409600, .i32⟩ : BufTy).Contents (Elt F)),
    binary main_call70_v4 main_call70_v2 main_v980 (minsi : (⟨S409600, .i32⟩ : BufTy).Contents (Elt F) → (⟨S409600, .i32⟩ : BufTy).Contents (Elt F) → (⟨S409600, .i32⟩ : BufTy).Contents (Elt F)),
    nullary main_c_374 (constantI S_ 32 0#32),
    unary main_c_374 main_v981 (broadcastInDim S409600 ![] bcast_S_S409600 : (⟨S_, .i32⟩ : BufTy).Contents (Elt F) → (⟨S409600, .i32⟩ : BufTy).Contents (Elt F)),
    binary main_v526 main_v981 main_v982 (cmpi .slt : (⟨S409600, .i32⟩ : BufTy).Contents (Elt F) → (⟨S409600, .i32⟩ : BufTy).Contents (Elt F) → (⟨S409600, .i1⟩ : BufTy).Contents (Elt F)),
    nullary main_c_375 (constantI S_ 32 2#32),
    unary main_c_375 main_v983 (broadcastInDim S409600 ![] bcast_S_S409600 : (⟨S_, .i32⟩ : BufTy).Contents (Elt F) → (⟨S409600, .i32⟩ : BufTy).Contents (Elt F)),
    binary main_v526 main_v983 main_v984 (addi : (⟨S409600, .i32⟩ : BufTy).Contents (Elt F) → (⟨S409600, .i32⟩ : BufTy).Contents (Elt F) → (⟨S409600, .i32⟩ : BufTy).Contents (Elt F)),
    ternary main_v982 main_v984 main_v526 main_v985 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_376 (constantI S_ 32 0#32),
    unary main_c_376 main_v986 (broadcastInDim S409600 ![] bcast_S_S409600 : (⟨S_, .i32⟩ : BufTy).Contents (Elt F) → (⟨S409600, .i32⟩ : BufTy).Contents (Elt F)),
    binary main_v979 main_v986 main_v987 (cmpi .slt : (⟨S409600, .i32⟩ : BufTy).Contents (Elt F) → (⟨S409600, .i32⟩ : BufTy).Contents (Elt F) → (⟨S409600, .i1⟩ : BufTy).Contents (Elt F)),
    nullary main_c_377 (constantI S_ 32 640#32),
    unary main_c_377 main_v988 (broadcastInDim S409600 ![] bcast_S_S409600 : (⟨S_, .i32⟩ : BufTy).Contents (Elt F) → (⟨S409600, .i32⟩ : BufTy).Contents (Elt F)),
    binary main_v979 main_v988 main_v989 (addi : (⟨S409600, .i32⟩ : BufTy).Contents (Elt F) → (⟨S409600, .i32⟩ : BufTy).Contents (Elt F) → (⟨S409600, .i32⟩ : BufTy).Contents (Elt F)),
    ternary main_v987 main_v989 main_v979 main_v990 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_378 (constantI S_ 32 0#32),
    unary main_c_378 main_v991 (broadcastInDim S409600 ![] bcast_S_S409600 : (⟨S_, .i32⟩ : BufTy).Contents (Elt F) → (⟨S409600, .i32⟩ : BufTy).Contents (Elt F)),
    binary main_v980 main_v991 main_v992 (cmpi .slt : (⟨S409600, .i32⟩ : BufTy).Contents (Elt F) → (⟨S409600, .i32⟩ : BufTy).Contents (Elt F) → (⟨S409600, .i1⟩ : BufTy).Contents (Elt F)),
    nullary main_c_379 (constantI S_ 32 640#32),
    unary main_c_379 main_v993 (broadcastInDim S409600 ![] bcast_S_S409600 : (⟨S_, .i32⟩ : BufTy).Contents (Elt F) → (⟨S409600, .i32⟩ : BufTy).Contents (Elt F)),
    binary main_v980 main_v993 main_v994 (addi : (⟨S409600, .i32⟩ : BufTy).Contents (Elt F) → (⟨S409600, .i32⟩ : BufTy).Contents (Elt F) → (⟨S409600, .i32⟩ : BufTy).Contents (Elt F)),
    ternary main_v992 main_v994 main_v980 main_v995 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v985 main_v996 (broadcastInDim S409600x1 ![0] bcast_S409600_S409600x1_0 : (⟨S409600, .i32⟩ : BufTy).Contents (Elt F) → (⟨S409600x1, .i32⟩ : BufTy).Contents (Elt F)),
    unary main_v990 main_v997 (broadcastInDim S409600x1 ![0] bcast_S409600_S409600x1_0 : (⟨S409600, .i32⟩ : BufTy).Contents (Elt F) → (⟨S409600x1, .i32⟩ : BufTy).Contents (Elt F)) ]

set_option maxRecDepth 8192 in
set_option maxHeartbeats 4000000 in
theorem main_part22_eq (c : Dev nD) : main_part22 (F := F) c = seq ops_p22 := by
  simp only [main_part22, ops_p22, fn_clip.body, fn_where.body, fn_where_0.body, fn_relu.body, seq, bind_assoc, pure_bind]
  rfl

set_option maxRecDepth 8192 in
theorem ops_p22_sub : (ops_p22 : List (HloOp τ sig (Elt F))).Forall fun op => op.bufs ⊆ tcRefs τ sig :=
  ⟨ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

set_option maxRecDepth 8192 in
theorem ops_p22_fresh : ∀ op ∈ (ops_p22 : List (HloOp τ sig (Elt F))), op.fresh = ∅ := by
  unfold ops_p22; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 1583 on hold before it. -/
structure Inv22_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v528 : V (Proc.devRef .tc main_v528) = val_main_v528 (F := F) x1
  main_v530 : V (Proc.devRef .tc main_v530) = val_main_v530 (F := F) x1
  main_v909 : V (Proc.devRef .tc main_v909) = val_main_v909 (F := F) x0 x1 x2 x3 x4
  main_v957 : V (Proc.devRef .tc main_v957) = val_main_v957 (F := F) x0 x1 x2 x3
  main_call68_v1 : V (Proc.devRef .tc main_call68_v1) = val_main_call68_v1 (F := F) x1
  main_call68_v2 : V (Proc.devRef .tc main_call68_v2) = val_main_call68_v2 (F := F)

/-- What the buffers read from operation 1591 on hold before it. -/
structure Inv22_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v530 : V (Proc.devRef .tc main_v530) = val_main_v530 (F := F) x1
  main_v963 : V (Proc.devRef .tc main_v963) = val_main_v963 (F := F) x0 x1 x2 x3 x4
  main_v965 : V (Proc.devRef .tc main_v965) = val_main_v965 (F := F) x1

/-- What the buffers read from operation 1599 on hold before it. -/
structure Inv22_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v963 : V (Proc.devRef .tc main_v963) = val_main_v963 (F := F) x0 x1 x2 x3 x4
  main_v965 : V (Proc.devRef .tc main_v965) = val_main_v965 (F := F) x1
  main_v967 : V (Proc.devRef .tc main_v967) = val_main_v967 (F := F) x1
  main_v969 : V (Proc.devRef .tc main_v969) = val_main_v969 (F := F) x1
  main_v970 : V (Proc.devRef .tc main_v970) = val_main_v970 (F := F)

/-- What the buffers read from operation 1607 on hold before it. -/
structure Inv22_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v963 : V (Proc.devRef .tc main_v963) = val_main_v963 (F := F) x0 x1 x2 x3 x4
  main_v965 : V (Proc.devRef .tc main_v965) = val_main_v965 (F := F) x1
  main_v967 : V (Proc.devRef .tc main_v967) = val_main_v967 (F := F) x1
  main_v975 : V (Proc.devRef .tc main_v975) = val_main_v975 (F := F) x1
  main_v976 : V (Proc.devRef .tc main_v976) = val_main_v976 (F := F)

/-- What the buffers read from operation 1615 on hold before it. -/
structure Inv22_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v963 : V (Proc.devRef .tc main_v963) = val_main_v963 (F := F) x0 x1 x2 x3 x4
  main_v967 : V (Proc.devRef .tc main_v967) = val_main_v967 (F := F) x1
  main_v978 : V (Proc.devRef .tc main_v978) = val_main_v978 (F := F) x1
  main_call69_v2 : V (Proc.devRef .tc main_call69_v2) = val_main_call69_v2 (F := F) x1
  main_call69_v3 : V (Proc.devRef .tc main_call69_v3) = val_main_call69_v3 (F := F)

/-- What the buffers read from operation 1623 on hold before it. -/
structure Inv22_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v963 : V (Proc.devRef .tc main_v963) = val_main_v963 (F := F) x0 x1 x2 x3 x4
  main_v978 : V (Proc.devRef .tc main_v978) = val_main_v978 (F := F) x1
  main_v979 : V (Proc.devRef .tc main_v979) = val_main_v979 (F := F) x1
  main_call70_v2 : V (Proc.devRef .tc main_call70_v2) = val_main_call70_v2 (F := F) x1
  main_call70_v3 : V (Proc.devRef .tc main_call70_v3) = val_main_call70_v3 (F := F)

/-- What the buffers read from operation 1631 on hold before it. -/
structure Inv22_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v526 : V (Proc.devRef .tc main_v526) = val_main_v526 (F := F) x1
  main_v963 : V (Proc.devRef .tc main_v963) = val_main_v963 (F := F) x0 x1 x2 x3 x4
  main_v978 : V (Proc.devRef .tc main_v978) = val_main_v978 (F := F) x1
  main_v979 : V (Proc.devRef .tc main_v979) = val_main_v979 (F := F) x1
  main_v980 : V (Proc.devRef .tc main_v980) = val_main_v980 (F := F) x1
  main_v982 : V (Proc.devRef .tc main_v982) = val_main_v982 (F := F) x1
  main_v984 : V (Proc.devRef .tc main_v984) = val_main_v984 (F := F) x1

/-- What the buffers read from operation 1639 on hold before it. -/
structure Inv22_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v27 : V (Proc.devRef .tc main_v27) = val_main_v27 (F := F) x1
  main_v524 : V (Proc.devRef .tc main_v524) = val_main_v524 (F := F) x0 x1 x2 x3
  main_v963 : V (Proc.devRef .tc main_v963) = val_main_v963 (F := F) x0 x1 x2 x3 x4
  main_v978 : V (Proc.devRef .tc main_v978) = val_main_v978 (F := F) x1
  main_v980 : V (Proc.devRef .tc main_v980) = val_main_v980 (F := F) x1
  main_v985 : V (Proc.devRef .tc main_v985) = val_main_v985 (F := F) x1
  main_v990 : V (Proc.devRef .tc main_v990) = val_main_v990 (F := F) x1

/-- Stretch 0 of window 22: @main's operations 1575 … 1582. -/
def ops_p22_0 : List (HloOp τ sig (Elt F)) :=
  [ ternary main_v952 main_v954 main_v950 main_v955 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v955 main_v956 (broadcastInDim S409600x1 ![0] bcast_S409600_S409600x1_0 : (⟨S409600, .i32⟩ : BufTy).Contents (Elt F) → (⟨S409600x1, .i32⟩ : BufTy).Contents (Elt F)),
    binary main_v524 main_v956 main_v957 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v949 main_v958 (broadcastInDim S409600x1 ![0] bcast_S409600_S409600x1_0 : (⟨S409600, .i1⟩ : BufTy).Contents (Elt F) → (⟨S409600x1, .i1⟩ : BufTy).Contents (Elt F)),
    nullary main_cst_363 (constant S_ .f32 0x00000000#32),
    unary main_cst_363 main_call68_v0 (id : (⟨S_, .f32⟩ : BufTy).Contents (Elt F) → (⟨S_, .f32⟩ : BufTy).Contents (Elt F)),
    unary main_v958 main_call68_v1 ((broadcastInDim S409600x64 ![0, 1] bcast_S409600x1_S409600x64_0_1) : (⟨S409600x1, .i1⟩ : BufTy).Contents (Elt F) → (⟨S409600x64, .i1⟩ : BufTy).Contents (Elt F)),
    unary main_call68_v0 main_call68_v2 ((broadcastInDim S409600x64 ![] bcast_S_S409600x64) : (⟨S_, .f32⟩ : BufTy).Contents (Elt F) → (⟨S409600x64, .f32⟩ : BufTy).Contents (Elt F)) ]
abbrev ops_p22_0_W : List (Ref sig .tc) := [main_v955, main_v956, main_v957, main_v958, main_cst_363, main_call68_v0, main_call68_v1, main_call68_v2]
theorem ops_p22_0_writes : (ops_p22_0 : List (HloOp τ sig (Elt F))).Forall fun op => op.writes ⊆ (ops_p22_0_W.map (Proc.devRef (τ := τ) .tc)).toFinset := by
  simp only [ops_p22_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p22_0_keep (V : Valuation τ sig (Elt F)) (r : Ref sig .tc) (h : r ∉ ops_p22_0_W) :
    after ops_p22_0 V (Proc.devRef .tc r) = V (Proc.devRef .tc r) :=
  after_of_writes_sub ops_p22_0 _ ops_p22_0_writes h

set_option maxRecDepth 8192 in
set_option maxHeartbeats 1000000 in
theorem w22_0_main_v957 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22 V x0 x1 x2 x3 x4 x5 x6) :
    after ops_p22_0 V (Proc.devRef .tc main_v957) = val_main_v957 (F := F) x0 x1 x2 x3 := by
  simp only [ops_p22_0]
  after_results_w
  simp only [h.main_v950, h.main_v954, h.main_v952, h.main_v524]
  rfl

set_option maxRecDepth 8192 in
set_option maxHeartbeats 1000000 in
theorem w22_0_main_call68_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22 V x0 x1 x2 x3 x4 x5 x6) :
    after ops_p22_0 V (Proc.devRef .tc main_call68_v1) = val_main_call68_v1 (F := F) x1 := by
  simp only [ops_p22_0]
  after_results_w
  simp only [h.main_v949]
  rfl

set_option maxRecDepth 8192 in
set_option maxHeartbeats 1000000 in
theorem w22_0_main_call68_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22 V x0 x1 x2 x3 x4 x5 x6) :
    after ops_p22_0 V (Proc.devRef .tc main_call68_v2) = val_main_call68_v2 (F := F) := by
  simp only [ops_p22_0]
  after_results_w
  rfl

theorem step22_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22 V x0 x1 x2 x3 x4 x5 x6) : Inv22_1 (after ops_p22_0 V) x0 x1 x2 x3 x4 x5 x6 where
  main_arg0 := (ops_p22_0_keep V main_arg0 (by decide)).trans h.main_arg0
  main_arg1 := (ops_p22_0_keep V main_arg1 (by decide)).trans h.main_arg1
  main_arg2 := (ops_p22_0_keep V main_arg2 (by decide)).trans h.main_arg2
  main_arg3 := (ops_p22_0_keep V main_arg3 (by decide)).trans h.main_arg3
  main_arg4 := (ops_p22_0_keep V main_arg4 (by decide)).trans h.main_arg4
  main_arg5 := (ops_p22_0_keep V main_arg5 (by decide)).trans h.main_arg5
  main_arg6 := (ops_p22_0_keep V main_arg6 (by decide)).trans h.main_arg6
  main_v27 := (ops_p22_0_keep V main_v27 (by decide)).trans h.main_v27
  main_v524 := (ops_p22_0_keep V main_v524 (by decide)).trans h.main_v524
  main_v526 := (ops_p22_0_keep V main_v526 (by decide)).trans h.main_v526
  main_v528 := (ops_p22_0_keep V main_v528 (by decide)).trans h.main_v528
  main_v530 := (ops_p22_0_keep V main_v530 (by decide)).trans h.main_v530
  main_v909 := (ops_p22_0_keep V main_v909 (by decide)).trans h.main_v909
  main_v957 := w22_0_main_v957 V x0 x1 x2 x3 x4 x5 x6 h
  main_call68_v1 := w22_0_main_call68_v1 V x0 x1 x2 x3 x4 x5 x6 h
  main_call68_v2 := w22_0_main_call68_v2 V x0 x1 x2 x3 x4 x5 x6 h

/-- Stretch 1 of window 22: @main's operations 1583 … 1590. -/
def ops_p22_1 : List (HloOp τ sig (Elt F)) :=
  [ ternary main_call68_v1 main_v957 main_call68_v2 main_v959 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v960 ((extractStridedSlice S1x1x64x64 ![2, 1, 0, 0] · slices_S3x3x64x64_S1x1x64x64_2_1_0_0) : (⟨S3x3x64x64, .f32⟩ : BufTy).Contents (Elt F) → (⟨S1x1x64x64, .f32⟩ : BufTy).Contents (Elt F)),
    reshape main_v960 main_v961 rfl shapeCasts_S1x1x64x64_S64x64,
    binary main_v959 main_v961 main_v962 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v909 main_v962 main_v963 (addf : (⟨S409600x64, .f32⟩ : BufTy).Contents (Elt F) → (⟨S409600x64, .f32⟩ : BufTy).Contents (Elt F) → (⟨S409600x64, .f32⟩ : BufTy).Contents (Elt F)),
    nullary main_c_364 (constantI S_ 32 1#32),
    unary main_c_364 main_v964 (broadcastInDim S409600 ![] bcast_S_S409600 : (⟨S_, .i32⟩ : BufTy).Contents (Elt F) → (⟨S409600, .i32⟩ : BufTy).Contents (Elt F)),
    binary main_v528 main_v964 main_v965 (addi : (⟨S409600, .i32⟩ : BufTy).Contents (Elt F) → (⟨S409600, .i32⟩ : BufTy).Contents (Elt F) → (⟨S409600, .i32⟩ : BufTy).Contents (Elt F)) ]
abbrev ops_p22_1_W : List (Ref sig .tc) := [main_v959, main_v960, main_v961, main_v962, main_v963, main_c_364, main_v964, main_v965]
theorem ops_p22_1_writes : (ops_p22_1 : List (HloOp τ sig (Elt F))).Forall fun op => op.writes ⊆ (ops_p22_1_W.map (Proc.devRef (τ := τ) .tc)).toFinset := by
  simp only [ops_p22_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p22_1_keep (V : Valuation τ sig (Elt F)) (r : Ref sig .tc) (h : r ∉ ops_p22_1_W) :
    after ops_p22_1 V (Proc.devRef .tc r) = V (Proc.devRef .tc r) :=
  after_of_writes_sub ops_p22_1 _ ops_p22_1_writes h

set_option maxRecDepth 8192 in
set_option maxHeartbeats 1000000 in
theorem w22_1_main_v963 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_1 V x0 x1 x2 x3 x4 x5 x6) :
    after ops_p22_1 V (Proc.devRef .tc main_v963) = val_main_v963 (F := F) x0 x1 x2 x3 x4 := by
  simp only [ops_p22_1]
  after_results_w
  simp only [h.main_arg4, h.main_call68_v2, h.main_v957, h.main_call68_v1, h.main_v909]
  rfl

set_option maxRecDepth 8192 in
set_option maxHeartbeats 1000000 in
theorem w22_1_main_v965 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_1 V x0 x1 x2 x3 x4 x5 x6) :
    after ops_p22_1 V (Proc.devRef .tc main_v965) = val_main_v965 (F := F) x1 := by
  simp only [ops_p22_1]
  after_results_w
  simp only [h.main_v528]
  rfl

theorem step22_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_1 V x0 x1 x2 x3 x4 x5 x6) : Inv22_2 (after ops_p22_1 V) x0 x1 x2 x3 x4 x5 x6 where
  main_arg0 := (ops_p22_1_keep V main_arg0 (by decide)).trans h.main_arg0
  main_arg1 := (ops_p22_1_keep V main_arg1 (by decide)).trans h.main_arg1
  main_arg2 := (ops_p22_1_keep V main_arg2 (by decide)).trans h.main_arg2
  main_arg3 := (ops_p22_1_keep V main_arg3 (by decide)).trans h.main_arg3
  main_arg4 := (ops_p22_1_keep V main_arg4 (by decide)).trans h.main_arg4
  main_arg5 := (ops_p22_1_keep V main_arg5 (by decide)).trans h.main_arg5
  main_arg6 := (ops_p22_1_keep V main_arg6 (by decide)).trans h.main_arg6
  main_v27 := (ops_p22_1_keep V main_v27 (by decide)).trans h.main_v27
  main_v524 := (ops_p22_1_keep V main_v524 (by decide)).trans h.main_v524
  main_v526 := (ops_p22_1_keep V main_v526 (by decide)).trans h.main_v526
  main_v530 := (ops_p22_1_keep V main_v530 (by decide)).trans h.main_v530
  main_v963 := w22_1_main_v963 V x0 x1 x2 x3 x4 x5 x6 h
  main_v965 := w22_1_main_v965 V x0 x1 x2 x3 x4 x5 x6 h

/-- Stretch 2 of window 22: @main's operations 1591 … 1598. -/
def ops_p22_2 : List (HloOp τ sig (Elt F)) :=
  [ nullary main_c_365 (constantI S_ 32 1#32),
    unary main_c_365 main_v966 (broadcastInDim S409600 ![] bcast_S_S409600 : (⟨S_, .i32⟩ : BufTy).Contents (Elt F) → (⟨S409600, .i32⟩ : BufTy).Contents (Elt F)),
    binary main_v530 main_v966 main_v967 (addi : (⟨S409600, .i32⟩ : BufTy).Contents (Elt F) → (⟨S409600, .i32⟩ : BufTy).Contents (Elt F) → (⟨S409600, .i32⟩ : BufTy).Contents (Elt F)),
    nullary main_c_366 (constantI S_ 32 0#32),
    unary main_c_366 main_v968 (broadcastInDim S409600 ![] bcast_S_S409600 : (⟨S_, .i32⟩ : BufTy).Contents (Elt F) → (⟨S409600, .i32⟩ : BufTy).Contents (Elt F)),
    binary main_v965 main_v968 main_v969 (cmpi .sge : (⟨S409600, .i32⟩ : BufTy).Contents (Elt F) → (⟨S409600, .i32⟩ : BufTy).Contents (Elt F) → (⟨S409600, .i1⟩ : BufTy).Contents (Elt F)),
    nullary main_c_367 (constantI S_ 32 640#32),
    unary main_c_367 main_v970 (broadcastInDim S409600 ![] bcast_S_S409600 : (⟨S_, .i32⟩ : BufTy).Contents (Elt F) → (⟨S409600, .i32⟩ : BufTy).Contents (Elt F)) ]
abbrev ops_p22_2_W : List (Ref sig .tc) := [main_c_365, main_v966, main_v967, main_c_366, main_v968, main_v969, main_c_367, main_v970]
theorem ops_p22_2_writes : (ops_p22_2 : List (HloOp τ sig (Elt F))).Forall fun op => op.writes ⊆ (ops_p22_2_W.map (Proc.devRef (τ := τ) .tc)).toFinset := by
  simp only [ops_p22_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p22_2_keep (V : Valuation τ sig (Elt F)) (r : Ref sig .tc) (h : r ∉ ops_p22_2_W) :
    after ops_p22_2 V (Proc.devRef .tc r) = V (Proc.devRef .tc r) :=
  after_of_writes_sub ops_p22_2 _ ops_p22_2_writes h

set_option maxRecDepth 8192 in
set_option maxHeartbeats 1000000 in
theorem w22_2_main_v967 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_2 V x0 x1 x2 x3 x4 x5 x6) :
    after ops_p22_2 V (Proc.devRef .tc main_v967) = val_main_v967 (F := F) x1 := by
  simp only [ops_p22_2]
  after_results_w
  simp only [h.main_v530]
  rfl

set_option maxRecDepth 8192 in
set_option maxHeartbeats 1000000 in
theorem w22_2_main_v969 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_2 V x0 x1 x2 x3 x4 x5 x6) :
    after ops_p22_2 V (Proc.devRef .tc main_v969) = val_main_v969 (F := F) x1 := by
  simp only [ops_p22_2]
  after_results_w
  simp only [h.main_v965]
  rfl

set_option maxRecDepth 8192 in
set_option maxHeartbeats 1000000 in
theorem w22_2_main_v970 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_2 V x0 x1 x2 x3 x4 x5 x6) :
    after ops_p22_2 V (Proc.devRef .tc main_v970) = val_main_v970 (F := F) := by
  simp only [ops_p22_2]
  after_results_w
  rfl

theorem step22_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_2 V x0 x1 x2 x3 x4 x5 x6) : Inv22_3 (after ops_p22_2 V) x0 x1 x2 x3 x4 x5 x6 where
  main_arg0 := (ops_p22_2_keep V main_arg0 (by decide)).trans h.main_arg0
  main_arg1 := (ops_p22_2_keep V main_arg1 (by decide)).trans h.main_arg1
  main_arg2 := (ops_p22_2_keep V main_arg2 (by decide)).trans h.main_arg2
  main_arg3 := (ops_p22_2_keep V main_arg3 (by decide)).trans h.main_arg3
  main_arg4 := (ops_p22_2_keep V main_arg4 (by decide)).trans h.main_arg4
  main_arg5 := (ops_p22_2_keep V main_arg5 (by decide)).trans h.main_arg5
  main_arg6 := (ops_p22_2_keep V main_arg6 (by decide)).trans h.main_arg6
  main_v27 := (ops_p22_2_keep V main_v27 (by decide)).trans h.main_v27
  main_v524 := (ops_p22_2_keep V main_v524 (by decide)).trans h.main_v524
  main_v526 := (ops_p22_2_keep V main_v526 (by decide)).trans h.main_v526
  main_v963 := (ops_p22_2_keep V main_v963 (by decide)).trans h.main_v963
  main_v965 := (ops_p22_2_keep V main_v965 (by decide)).trans h.main_v965
  main_v967 := w22_2_main_v967 V x0 x1 x2 x3 x4 x5 x6 h
  main_v969 := w22_2_main_v969 V x0 x1 x2 x3 x4 x5 x6 h
  main_v970 := w22_2_main_v970 V x0 x1 x2 x3 x4 x5 x6 h

/-- Stretch 3 of window 22: @main's operations 1599 … 1606. -/
def ops_p22_3 : List (HloOp τ sig (Elt F)) :=
  [ binary main_v965 main_v970 main_v971 (cmpi .slt : (⟨S409600, .i32⟩ : BufTy).Contents (Elt F) → (⟨S409600, .i32⟩ : BufTy).Contents (Elt F) → (⟨S409600, .i1⟩ : BufTy).Contents (Elt F)),
    binary main_v969 main_v971 main_v972 (andi : (⟨S409600, .i1⟩ : BufTy).Contents (Elt F) → (⟨S409600, .i1⟩ : BufTy).Contents (Elt F) → (⟨S409600, .i1⟩ : BufTy).Contents (Elt F)),
    nullary main_c_368 (constantI S_ 32 0#32),
    unary main_c_368 main_v973 (broadcastInDim S409600 ![] bcast_S_S409600 : (⟨S_, .i32⟩ : BufTy).Contents (Elt F) → (⟨S409600, .i32⟩ : BufTy).Contents (Elt F)),
    binary main_v967 main_v973 main_v974 (cmpi .sge : (⟨S409600, .i32⟩ : BufTy).Contents (Elt F) → (⟨S409600, .i32⟩ : BufTy).Contents (Elt F) → (⟨S409600, .i1⟩ : BufTy).Contents (Elt F)),
    binary main_v972 main_v974 main_v975 (andi : (⟨S409600, .i1⟩ : BufTy).Contents (Elt F) → (⟨S409600, .i1⟩ : BufTy).Contents (Elt F) → (⟨S409600, .i1⟩ : BufTy).Contents (Elt F)),
    nullary main_c_369 (constantI S_ 32 640#32),
    unary main_c_369 main_v976 (broadcastInDim S409600 ![] bcast_S_S409600 : (⟨S_, .i32⟩ : BufTy).Contents (Elt F) → (⟨S409600, .i32⟩ : BufTy).Contents (Elt F)) ]
abbrev ops_p22_3_W : List (Ref sig .tc) := [main_v971, main_v972, main_c_368, main_v973, main_v974, main_v975, main_c_369, main_v976]
theorem ops_p22_3_writes : (ops_p22_3 : List (HloOp τ sig (Elt F))).Forall fun op => op.writes ⊆ (ops_p22_3_W.map (Proc.devRef (τ := τ) .tc)).toFinset := by
  simp only [ops_p22_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p22_3_keep (V : Valuation τ sig (Elt F)) (r : Ref sig .tc) (h : r ∉ ops_p22_3_W) :
    after ops_p22_3 V (Proc.devRef .tc r) = V (Proc.devRef .tc r) :=
  after_of_writes_sub ops_p22_3 _ ops_p22_3_writes h

set_option maxRecDepth 8192 in
set_option maxHeartbeats 1000000 in
theorem w22_3_main_v975 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_3 V x0 x1 x2 x3 x4 x5 x6) :
    after ops_p22_3 V (Proc.devRef .tc main_v975) = val_main_v975 (F := F) x1 := by
  simp only [ops_p22_3]
  after_results_w
  simp only [h.main_v967, h.main_v970, h.main_v965, h.main_v969]
  rfl

set_option maxRecDepth 8192 in
set_option maxHeartbeats 1000000 in
theorem w22_3_main_v976 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_3 V x0 x1 x2 x3 x4 x5 x6) :
    after ops_p22_3 V (Proc.devRef .tc main_v976) = val_main_v976 (F := F) := by
  simp only [ops_p22_3]
  after_results_w
  rfl

theorem step22_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_3 V x0 x1 x2 x3 x4 x5 x6) : Inv22_4 (after ops_p22_3 V) x0 x1 x2 x3 x4 x5 x6 where
  main_arg0 := (ops_p22_3_keep V main_arg0 (by decide)).trans h.main_arg0
  main_arg1 := (ops_p22_3_keep V main_arg1 (by decide)).trans h.main_arg1
  main_arg2 := (ops_p22_3_keep V main_arg2 (by decide)).trans h.main_arg2
  main_arg3 := (ops_p22_3_keep V main_arg3 (by decide)).trans h.main_arg3
  main_arg4 := (ops_p22_3_keep V main_arg4 (by decide)).trans h.main_arg4
  main_arg5 := (ops_p22_3_keep V main_arg5 (by decide)).trans h.main_arg5
  main_arg6 := (ops_p22_3_keep V main_arg6 (by decide)).trans h.main_arg6
  main_v27 := (ops_p22_3_keep V main_v27 (by decide)).trans h.main_v27
  main_v524 := (ops_p22_3_keep V main_v524 (by decide)).trans h.main_v524
  main_v526 := (ops_p22_3_keep V main_v526 (by decide)).trans h.main_v526
  main_v963 := (ops_p22_3_keep V main_v963 (by decide)).trans h.main_v963
  main_v965 := (ops_p22_3_keep V main_v965 (by decide)).trans h.main_v965
  main_v967 := (ops_p22_3_keep V main_v967 (by decide)).trans h.main_v967
  main_v975 := w22_3_main_v975 V x0 x1 x2 x3 x4 x5 x6 h
  main_v976 := w22_3_main_v976 V x0 x1 x2 x3 x4 x5 x6 h

/-- Stretch 4 of window 22: @main's operations 1607 … 1614. -/
def ops_p22_4 : List (HloOp τ sig (Elt F)) :=
  [ binary main_v967 main_v976 main_v977 (cmpi .slt : (⟨S409600, .i32⟩ : BufTy).Contents (Elt F) → (⟨S409600, .i32⟩ : BufTy).Contents (Elt F) → (⟨S409600, .i1⟩ : BufTy).Contents (Elt F)),
    binary main_v975 main_v977 main_v978 (andi : (⟨S409600, .i1⟩ : BufTy).Contents (Elt F) → (⟨S409600, .i1⟩ : BufTy).Contents (Elt F) → (⟨S409600, .i1⟩ : BufTy).Contents (Elt F)),
    nullary main_c_370 (constantI S_ 32 0#32),
    nullary main_c_371 (constantI S_ 32 639#32),
    unary main_c_370 main_call69_v0 (id : (⟨S_, .i32⟩ : BufTy).Contents (Elt F) → (⟨S_, .i32⟩ : BufTy).Contents (Elt F)),
    unary main_call69_v0 main_call69_v1 ((broadcastInDim S409600 ![] bcast_S_S409600) : (⟨S_, .i32⟩ : BufTy).Contents (Elt F) → (⟨S409600, .i32⟩ : BufTy).Contents (Elt F)),
    binary main_call69_v1 main_v965 main_call69_v2 (maxsi : (⟨S409600, .i32⟩ : BufTy).Contents (Elt F) → (⟨S409600, .i32⟩ : BufTy).Contents (Elt F) → (⟨S409600, .i32⟩ : BufTy).Contents (Elt F)),
    unary main_c_371 main_call69_v3 (id : (⟨S_, .i32⟩ : BufTy).Contents (Elt F) → (⟨S_, .i32⟩ : BufTy).Contents (Elt F)) ]
abbrev ops_p22_4_W : List (Ref sig .tc) := [main_v977, main_v978, main_c_370, main_c_371, main_call69_v0, main_call69_v1, main_call69_v2, main_call69_v3]
theorem ops_p22_4_writes : (ops_p22_4 : List (HloOp τ sig (Elt F))).Forall fun op => op.writes ⊆ (ops_p22_4_W.map (Proc.devRef (τ := τ) .tc)).toFinset := by
  simp only [ops_p22_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p22_4_keep (V : Valuation τ sig (Elt F)) (r : Ref sig .tc) (h : r ∉ ops_p22_4_W) :
    after ops_p22_4 V (Proc.devRef .tc r) = V (Proc.devRef .tc r) :=
  after_of_writes_sub ops_p22_4 _ ops_p22_4_writes h

set_option maxRecDepth 8192 in
set_option maxHeartbeats 1000000 in
theorem w22_4_main_v978 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_4 V x0 x1 x2 x3 x4 x5 x6) :
    after ops_p22_4 V (Proc.devRef .tc main_v978) = val_main_v978 (F := F) x1 := by
  simp only [ops_p22_4]
  after_results_w
  simp only [h.main_v976, h.main_v967, h.main_v975]
  rfl

set_option maxRecDepth 8192 in
set_option maxHeartbeats 1000000 in
theorem w22_4_main_call69_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_4 V x0 x1 x2 x3 x4 x5 x6) :
    after ops_p22_4 V (Proc.devRef .tc main_call69_v2) = val_main_call69_v2 (F := F) x1 := by
  simp only [ops_p22_4]
  after_results_w
  simp only [h.main_v965]
  rfl

set_option maxRecDepth 8192 in
set_option maxHeartbeats 1000000 in
theorem w22_4_main_call69_v3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_4 V x0 x1 x2 x3 x4 x5 x6) :
    after ops_p22_4 V (Proc.devRef .tc main_call69_v3) = val_main_call69_v3 (F := F) := by
  simp only [ops_p22_4]
  after_results_w
  rfl

theorem step22_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_4 V x0 x1 x2 x3 x4 x5 x6) : Inv22_5 (after ops_p22_4 V) x0 x1 x2 x3 x4 x5 x6 where
  main_arg0 := (ops_p22_4_keep V main_arg0 (by decide)).trans h.main_arg0
  main_arg1 := (ops_p22_4_keep V main_arg1 (by decide)).trans h.main_arg1
  main_arg2 := (ops_p22_4_keep V main_arg2 (by decide)).trans h.main_arg2
  main_arg3 := (ops_p22_4_keep V main_arg3 (by decide)).trans h.main_arg3
  main_arg4 := (ops_p22_4_keep V main_arg4 (by decide)).trans h.main_arg4
  main_arg5 := (ops_p22_4_keep V main_arg5 (by decide)).trans h.main_arg5
  main_arg6 := (ops_p22_4_keep V main_arg6 (by decide)).trans h.main_arg6
  main_v27 := (ops_p22_4_keep V main_v27 (by decide)).trans h.main_v27
  main_v524 := (ops_p22_4_keep V main_v524 (by decide)).trans h.main_v524
  main_v526 := (ops_p22_4_keep V main_v526 (by decide)).trans h.main_v526
  main_v963 := (ops_p22_4_keep V main_v963 (by decide)).trans h.main_v963
  main_v967 := (ops_p22_4_keep V main_v967 (by decide)).trans h.main_v967
  main_v978 := w22_4_main_v978 V x0 x1 x2 x3 x4 x5 x6 h
  main_call69_v2 := w22_4_main_call69_v2 V x0 x1 x2 x3 x4 x5 x6 h
  main_call69_v3 := w22_4_main_call69_v3 V x0 x1 x2 x3 x4 x5 x6 h

/-- Stretch 5 of window 22: @main's operations 1615 … 1622. -/
def ops_p22_5 : List (HloOp τ sig (Elt F)) :=
  [ unary main_call69_v3 main_call69_v4 ((broadcastInDim S409600 ![] bcast_S_S409600) : (⟨S_, .i32⟩ : BufTy).Contents (Elt F) → (⟨S409600, .i32⟩ : BufTy).Contents (Elt F)),
    binary main_call69_v4 main_call69_v2 main_v979 (minsi : (⟨S409600, .i32⟩ : BufTy).Contents (Elt F) → (⟨S409600, .i32⟩ : BufTy).Contents (Elt F) → (⟨S409600, .i32⟩ : BufTy).Contents (Elt F)),
    nullary main_c_372 (constantI S_ 32 0#32),
    nullary main_c_373 (constantI S_ 32 639#32),
    unary main_c_372 main_call70_v0 (id : (⟨S_, .i32⟩ : BufTy).Contents (Elt F) → (⟨S_, .i32⟩ : BufTy).Contents (Elt F)),
    unary main_call70_v0 main_call70_v1 ((broadcastInDim S409600 ![] bcast_S_S409600) : (⟨S_, .i32⟩ : BufTy).Contents (Elt F) → (⟨S409600, .i32⟩ : BufTy).Contents (Elt F)),
    binary main_call70_v1 main_v967 main_call70_v2 (maxsi : (⟨S409600, .i32⟩ : BufTy).Contents (Elt F) → (⟨S409600, .i32⟩ : BufTy).Contents (Elt F) → (⟨S409600, .i32⟩ : BufTy).Contents (Elt F)),
    unary main_c_373 main_call70_v3 (id : (⟨S_, .i32⟩ : BufTy).Contents (Elt F) → (⟨S_, .i32⟩ : BufTy).Contents (Elt F)) ]
abbrev ops_p22_5_W : List (Ref sig .tc) := [main_call69_v4, main_v979, main_c_372, main_c_373, main_call70_v0, main_call70_v1, main_call70_v2, main_call70_v3]
theorem ops_p22_5_writes : (ops_p22_5 : List (HloOp τ sig (Elt F))).Forall fun op => op.writes ⊆ (ops_p22_5_W.map (Proc.devRef (τ := τ) .tc)).toFinset := by
  simp only [ops_p22_5, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p22_5_keep (V : Valuation τ sig (Elt F)) (r : Ref sig .tc) (h : r ∉ ops_p22_5_W) :
    after ops_p22_5 V (Proc.devRef .tc r) = V (Proc.devRef .tc r) :=
  after_of_writes_sub ops_p22_5 _ ops_p22_5_writes h

set_option maxRecDepth 8192 in
set_option maxHeartbeats 1000000 in
theorem w22_5_main_v979 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_5 V x0 x1 x2 x3 x4 x5 x6) :
    after ops_p22_5 V (Proc.devRef .tc main_v979) = val_main_v979 (F := F) x1 := by
  simp only [ops_p22_5]
  after_results_w
  simp only [h.main_call69_v2, h.main_call69_v3]
  rfl

set_option maxRecDepth 8192 in
set_option maxHeartbeats 1000000 in
theorem w22_5_main_call70_v2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_5 V x0 x1 x2 x3 x4 x5 x6) :
    after ops_p22_5 V (Proc.devRef .tc main_call70_v2) = val_main_call70_v2 (F := F) x1 := by
  simp only [ops_p22_5]
  after_results_w
  simp only [h.main_v967]
  rfl

set_option maxRecDepth 8192 in
set_option maxHeartbeats 1000000 in
theorem w22_5_main_call70_v3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_5 V x0 x1 x2 x3 x4 x5 x6) :
    after ops_p22_5 V (Proc.devRef .tc main_call70_v3) = val_main_call70_v3 (F := F) := by
  simp only [ops_p22_5]
  after_results_w
  rfl

theorem step22_5 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_5 V x0 x1 x2 x3 x4 x5 x6) : Inv22_6 (after ops_p22_5 V) x0 x1 x2 x3 x4 x5 x6 where
  main_arg0 := (ops_p22_5_keep V main_arg0 (by decide)).trans h.main_arg0
  main_arg1 := (ops_p22_5_keep V main_arg1 (by decide)).trans h.main_arg1
  main_arg2 := (ops_p22_5_keep V main_arg2 (by decide)).trans h.main_arg2
  main_arg3 := (ops_p22_5_keep V main_arg3 (by decide)).trans h.main_arg3
  main_arg4 := (ops_p22_5_keep V main_arg4 (by decide)).trans h.main_arg4
  main_arg5 := (ops_p22_5_keep V main_arg5 (by decide)).trans h.main_arg5
  main_arg6 := (ops_p22_5_keep V main_arg6 (by decide)).trans h.main_arg6
  main_v27 := (ops_p22_5_keep V main_v27 (by decide)).trans h.main_v27
  main_v524 := (ops_p22_5_keep V main_v524 (by decide)).trans h.main_v524
  main_v526 := (ops_p22_5_keep V main_v526 (by decide)).trans h.main_v526
  main_v963 := (ops_p22_5_keep V main_v963 (by decide)).trans h.main_v963
  main_v978 := (ops_p22_5_keep V main_v978 (by decide)).trans h.main_v978
  main_v979 := w22_5_main_v979 V x0 x1 x2 x3 x4 x5 x6 h
  main_call70_v2 := w22_5_main_call70_v2 V x0 x1 x2 x3 x4 x5 x6 h
  main_call70_v3 := w22_5_main_call70_v3 V x0 x1 x2 x3 x4 x5 x6 h

/-- Stretch 6 of window 22: @main's operations 1623 … 1630. -/
def ops_p22_6 : List (HloOp τ sig (Elt F)) :=
  [ unary main_call70_v3 main_call70_v4 ((broadcastInDim S409600 ![] bcast_S_S409600) : (⟨S_, .i32⟩ : BufTy).Contents (Elt F) → (⟨S409600, .i32⟩ : BufTy).Contents (Elt F)),
    binary main_call70_v4 main_call70_v2 main_v980 (minsi : (⟨S409600, .i32⟩ : BufTy).Contents (Elt F) → (⟨S409600, .i32⟩ : BufTy).Contents (Elt F) → (⟨S409600, .i32⟩ : BufTy).Contents (Elt F)),
    nullary main_c_374 (constantI S_ 32 0#32),
    unary main_c_374 main_v981 (broadcastInDim S409600 ![] bcast_S_S409600 : (⟨S_, .i32⟩ : BufTy).Contents (Elt F) → (⟨S409600, .i32⟩ : BufTy).Contents (Elt F)),
    binary main_v526 main_v981 main_v982 (cmpi .slt : (⟨S409600, .i32⟩ : BufTy).Contents (Elt F) → (⟨S409600, .i32⟩ : BufTy).Contents (Elt F) → (⟨S409600, .i1⟩ : BufTy).Contents (Elt F)),
    nullary main_c_375 (constantI S_ 32 2#32),
    unary main_c_375 main_v983 (broadcastInDim S409600 ![] bcast_S_S409600 : (⟨S_, .i32⟩ : BufTy).Contents (Elt F) → (⟨S409600, .i32⟩ : BufTy).Contents (Elt F)),
    binary main_v526 main_v983 main_v984 (addi : (⟨S409600, .i32⟩ : BufTy).Contents (Elt F) → (⟨S409600, .i32⟩ : BufTy).Contents (Elt F) → (⟨S409600, .i32⟩ : BufTy).Contents (Elt F)) ]
abbrev ops_p22_6_W : List (Ref sig .tc) := [main_call70_v4, main_v980, main_c_374, main_v981, main_v982, main_c_375, main_v983, main_v984]
theorem ops_p22_6_writes : (ops_p22_6 : List (HloOp τ sig (Elt F))).Forall fun op => op.writes ⊆ (ops_p22_6_W.map (Proc.devRef (τ := τ) .tc)).toFinset := by
  simp only [ops_p22_6, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p22_6_keep (V : Valuation τ sig (Elt F)) (r : Ref sig .tc) (h : r ∉ ops_p22_6_W) :
    after ops_p22_6 V (Proc.devRef .tc r) = V (Proc.devRef .tc r) :=
  after_of_writes_sub ops_p22_6 _ ops_p22_6_writes h

set_option maxRecDepth 8192 in
set_option maxHeartbeats 1000000 in
theorem w22_6_main_v980 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_6 V x0 x1 x2 x3 x4 x5 x6) :
    after ops_p22_6 V (Proc.devRef .tc main_v980) = val_main_v980 (F := F) x1 := by
  simp only [ops_p22_6]
  after_results_w
  simp only [h.main_call70_v2, h.main_call70_v3]
  rfl

set_option maxRecDepth 8192 in
set_option maxHeartbeats 1000000 in
theorem w22_6_main_v982 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_6 V x0 x1 x2 x3 x4 x5 x6) :
    after ops_p22_6 V (Proc.devRef .tc main_v982) = val_main_v982 (F := F) x1 := by
  simp only [ops_p22_6]
  after_results_w
  simp only [h.main_v526]
  rfl

set_option maxRecDepth 8192 in
set_option maxHeartbeats 1000000 in
theorem w22_6_main_v984 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_6 V x0 x1 x2 x3 x4 x5 x6) :
    after ops_p22_6 V (Proc.devRef .tc main_v984) = val_main_v984 (F := F) x1 := by
  simp only [ops_p22_6]
  after_results_w
  simp only [h.main_v526]
  rfl

theorem step22_6 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_6 V x0 x1 x2 x3 x4 x5 x6) : Inv22_7 (after ops_p22_6 V) x0 x1 x2 x3 x4 x5 x6 where
  main_arg0 := (ops_p22_6_keep V main_arg0 (by decide)).trans h.main_arg0
  main_arg1 := (ops_p22_6_keep V main_arg1 (by decide)).trans h.main_arg1
  main_arg2 := (ops_p22_6_keep V main_arg2 (by decide)).trans h.main_arg2
  main_arg3 := (ops_p22_6_keep V main_arg3 (by decide)).trans h.main_arg3
  main_arg4 := (ops_p22_6_keep V main_arg4 (by decide)).trans h.main_arg4
  main_arg5 := (ops_p22_6_keep V main_arg5 (by decide)).trans h.main_arg5
  main_arg6 := (ops_p22_6_keep V main_arg6 (by decide)).trans h.main_arg6
  main_v27 := (ops_p22_6_keep V main_v27 (by decide)).trans h.main_v27
  main_v524 := (ops_p22_6_keep V main_v524 (by decide)).trans h.main_v524
  main_v526 := (ops_p22_6_keep V main_v526 (by decide)).trans h.main_v526
  main_v963 := (ops_p22_6_keep V main_v963 (by decide)).trans h.main_v963
  main_v978 := (ops_p22_6_keep V main_v978 (by decide)).trans h.main_v978
  main_v979 := (ops_p22_6_keep V main_v979 (by decide)).trans h.main_v979
  main_v980 := w22_6_main_v980 V x0 x1 x2 x3 x4 x5 x6 h
  main_v982 := w22_6_main_v982 V x0 x1 x2 x3 x4 x5 x6 h
  main_v984 := w22_6_main_v984 V x0 x1 x2 x3 x4 x5 x6 h

/-- Stretch 7 of window 22: @main's operations 1631 … 1638. -/
def ops_p22_7 : List (HloOp τ sig (Elt F)) :=
  [ ternary main_v982 main_v984 main_v526 main_v985 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_376 (constantI S_ 32 0#32),
    unary main_c_376 main_v986 (broadcastInDim S409600 ![] bcast_S_S409600 : (⟨S_, .i32⟩ : BufTy).Contents (Elt F) → (⟨S409600, .i32⟩ : BufTy).Contents (Elt F)),
    binary main_v979 main_v986 main_v987 (cmpi .slt : (⟨S409600, .i32⟩ : BufTy).Contents (Elt F) → (⟨S409600, .i32⟩ : BufTy).Contents (Elt F) → (⟨S409600, .i1⟩ : BufTy).Contents (Elt F)),
    nullary main_c_377 (constantI S_ 32 640#32),
    unary main_c_377 main_v988 (broadcastInDim S409600 ![] bcast_S_S409600 : (⟨S_, .i32⟩ : BufTy).Contents (Elt F) → (⟨S409600, .i32⟩ : BufTy).Contents (Elt F)),
    binary main_v979 main_v988 main_v989 (addi : (⟨S409600, .i32⟩ : BufTy).Contents (Elt F) → (⟨S409600, .i32⟩ : BufTy).Contents (Elt F) → (⟨S409600, .i32⟩ : BufTy).Contents (Elt F)),
    ternary main_v987 main_v989 main_v979 main_v990 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)) ]
abbrev ops_p22_7_W : List (Ref sig .tc) := [main_v985, main_c_376, main_v986, main_v987, main_c_377, main_v988, main_v989, main_v990]
theorem ops_p22_7_writes : (ops_p22_7 : List (HloOp τ sig (Elt F))).Forall fun op => op.writes ⊆ (ops_p22_7_W.map (Proc.devRef (τ := τ) .tc)).toFinset := by
  simp only [ops_p22_7, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p22_7_keep (V : Valuation τ sig (Elt F)) (r : Ref sig .tc) (h : r ∉ ops_p22_7_W) :
    after ops_p22_7 V (Proc.devRef .tc r) = V (Proc.devRef .tc r) :=
  after_of_writes_sub ops_p22_7 _ ops_p22_7_writes h

set_option maxRecDepth 8192 in
set_option maxHeartbeats 1000000 in
theorem w22_7_main_v985 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_7 V x0 x1 x2 x3 x4 x5 x6) :
    after ops_p22_7 V (Proc.devRef .tc main_v985) = val_main_v985 (F := F) x1 := by
  simp only [ops_p22_7]
  after_results_w
  simp only [h.main_v526, h.main_v984, h.main_v982]
  rfl

set_option maxRecDepth 8192 in
set_option maxHeartbeats 1000000 in
theorem w22_7_main_v990 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_7 V x0 x1 x2 x3 x4 x5 x6) :
    after ops_p22_7 V (Proc.devRef .tc main_v990) = val_main_v990 (F := F) x1 := by
  simp only [ops_p22_7]
  after_results_w
  simp only [h.main_v979]
  rfl

theorem step22_7 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_7 V x0 x1 x2 x3 x4 x5 x6) : Inv22_8 (after ops_p22_7 V) x0 x1 x2 x3 x4 x5 x6 where
  main_arg0 := (ops_p22_7_keep V main_arg0 (by decide)).trans h.main_arg0
  main_arg1 := (ops_p22_7_keep V main_arg1 (by decide)).trans h.main_arg1
  main_arg2 := (ops_p22_7_keep V main_arg2 (by decide)).trans h.main_arg2
  main_arg3 := (ops_p22_7_keep V main_arg3 (by decide)).trans h.main_arg3
  main_arg4 := (ops_p22_7_keep V main_arg4 (by decide)).trans h.main_arg4
  main_arg5 := (ops_p22_7_keep V main_arg5 (by decide)).trans h.main_arg5
  main_arg6 := (ops_p22_7_keep V main_arg6 (by decide)).trans h.main_arg6
  main_v27 := (ops_p22_7_keep V main_v27 (by decide)).trans h.main_v27
  main_v524 := (ops_p22_7_keep V main_v524 (by decide)).trans h.main_v524
  main_v963 := (ops_p22_7_keep V main_v963 (by decide)).trans h.main_v963
  main_v978 := (ops_p22_7_keep V main_v978 (by decide)).trans h.main_v978
  main_v980 := (ops_p22_7_keep V main_v980 (by decide)).trans h.main_v980
  main_v985 := w22_7_main_v985 V x0 x1 x2 x3 x4 x5 x6 h
  main_v990 := w22_7_main_v990 V x0 x1 x2 x3 x4 x5 x6 h

/-- Stretch 8 of window 22: @main's operations 1639 … 1647. -/
def ops_p22_8 : List (HloOp τ sig (Elt F)) :=
  [ nullary main_c_378 (constantI S_ 32 0#32),
    unary main_c_378 main_v991 (broadcastInDim S409600 ![] bcast_S_S409600 : (⟨S_, .i32⟩ : BufTy).Contents (Elt F) → (⟨S409600, .i32⟩ : BufTy).Contents (Elt F)),
    binary main_v980 main_v991 main_v992 (cmpi .slt : (⟨S409600, .i32⟩ : BufTy).Contents (Elt F) → (⟨S409600, .i32⟩ : BufTy).Contents (Elt F) → (⟨S409600, .i1⟩ : BufTy).Contents (Elt F)),
    nullary main_c_379 (constantI S_ 32 640#32),
    unary main_c_379 main_v993 (broadcastInDim S409600 ![] bcast_S_S409600 : (⟨S_, .i32⟩ : BufTy).Contents (Elt F) → (⟨S409600, .i32⟩ : BufTy).Contents (Elt F)),
    binary main_v980 main_v993 main_v994 (addi : (⟨S409600, .i32⟩ : BufTy).Contents (Elt F) → (⟨S409600, .i32⟩ : BufTy).Contents (Elt F) → (⟨S409600, .i32⟩ : BufTy).Contents (Elt F)),
    ternary main_v992 main_v994 main_v980 main_v995 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v985 main_v996 (broadcastInDim S409600x1 ![0] bcast_S409600_S409600x1_0 : (⟨S409600, .i32⟩ : BufTy).Contents (Elt F) → (⟨S409600x1, .i32⟩ : BufTy).Contents (Elt F)),
    unary main_v990 main_v997 (broadcastInDim S409600x1 ![0] bcast_S409600_S409600x1_0 : (⟨S409600, .i32⟩ : BufTy).Contents (Elt F) → (⟨S409600x1, .i32⟩ : BufTy).Contents (Elt F)) ]
abbrev ops_p22_8_W : List (Ref sig .tc) := [main_c_378, main_v991, main_v992, main_c_379, main_v993, main_v994, main_v995, main_v996, main_v997]
theorem ops_p22_8_writes : (ops_p22_8 : List (HloOp τ sig (Elt F))).Forall fun op => op.writes ⊆ (ops_p22_8_W.map (Proc.devRef (τ := τ) .tc)).toFinset := by
  simp only [ops_p22_8, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p22_8_keep (V : Valuation τ sig (Elt F)) (r : Ref sig .tc) (h : r ∉ ops_p22_8_W) :
    after ops_p22_8 V (Proc.devRef .tc r) = V (Proc.devRef .tc r) :=
  after_of_writes_sub ops_p22_8 _ ops_p22_8_writes h

set_option maxRecDepth 8192 in
set_option maxHeartbeats 1000000 in
theorem w22_8_main_v995 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_8 V x0 x1 x2 x3 x4 x5 x6) :
    after ops_p22_8 V (Proc.devRef .tc main_v995) = val_main_v995 (F := F) x1 := by
  simp only [ops_p22_8]
  after_results_w
  simp only [h.main_v980]
  rfl

set_option maxRecDepth 8192 in
set_option maxHeartbeats 1000000 in
theorem w22_8_main_v996 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_8 V x0 x1 x2 x3 x4 x5 x6) :
    after ops_p22_8 V (Proc.devRef .tc main_v996) = val_main_v996 (F := F) x1 := by
  simp only [ops_p22_8]
  after_results_w
  simp only [h.main_v985]
  rfl

set_option maxRecDepth 8192 in
set_option maxHeartbeats 1000000 in
theorem w22_8_main_v997 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_8 V x0 x1 x2 x3 x4 x5 x6) :
    after ops_p22_8 V (Proc.devRef .tc main_v997) = val_main_v997 (F := F) x1 := by
  simp only [ops_p22_8]
  after_results_w
  simp only [h.main_v990]
  rfl

theorem step22_8 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22_8 V x0 x1 x2 x3 x4 x5 x6) : Inv23 (after ops_p22_8 V) x0 x1 x2 x3 x4 x5 x6 where
  main_arg0 := (ops_p22_8_keep V main_arg0 (by decide)).trans h.main_arg0
  main_arg1 := (ops_p22_8_keep V main_arg1 (by decide)).trans h.main_arg1
  main_arg2 := (ops_p22_8_keep V main_arg2 (by decide)).trans h.main_arg2
  main_arg3 := (ops_p22_8_keep V main_arg3 (by decide)).trans h.main_arg3
  main_arg4 := (ops_p22_8_keep V main_arg4 (by decide)).trans h.main_arg4
  main_arg5 := (ops_p22_8_keep V main_arg5 (by decide)).trans h.main_arg5
  main_arg6 := (ops_p22_8_keep V main_arg6 (by decide)).trans h.main_arg6
  main_v27 := (ops_p22_8_keep V main_v27 (by decide)).trans h.main_v27
  main_v524 := (ops_p22_8_keep V main_v524 (by decide)).trans h.main_v524
  main_v963 := (ops_p22_8_keep V main_v963 (by decide)).trans h.main_v963
  main_v978 := (ops_p22_8_keep V main_v978 (by decide)).trans h.main_v978
  main_v995 := w22_8_main_v995 V x0 x1 x2 x3 x4 x5 x6 h
  main_v996 := w22_8_main_v996 V x0 x1 x2 x3 x4 x5 x6 h
  main_v997 := w22_8_main_v997 V x0 x1 x2 x3 x4 x5 x6 h

set_option maxRecDepth 8192 in
theorem ops_p22_split : (ops_p22 : List (HloOp τ sig (Elt F))) = ops_p22_0 ++ (ops_p22_1 ++ (ops_p22_2 ++ (ops_p22_3 ++ (ops_p22_4 ++ (ops_p22_5 ++ (ops_p22_6 ++ (ops_p22_7 ++ (ops_p22_8)))))))) := rfl

/-- Window 22 carries the staged reading from boundary 22 to boundary 23. -/
theorem step22 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv22 V x0 x1 x2 x3 x4 x5 x6) : Inv23 (after ops_p22 V) x0 x1 x2 x3 x4 x5 x6 := by
  rw [ops_p22_split]; simp only [after_app]
  exact step22_8 _ x0 x1 x2 x3 x4 x5 x6 (step22_7 _ x0 x1 x2 x3 x4 x5 x6 (step22_6 _ x0 x1 x2 x3 x4 x5 x6 (step22_5 _ x0 x1 x2 x3 x4 x5 x6 (step22_4 _ x0 x1 x2 x3 x4 x5 x6 (step22_3 _ x0 x1 x2 x3 x4 x5 x6 (step22_2 _ x0 x1 x2 x3 x4 x5 x6 (step22_1 _ x0 x1 x2 x3 x4 x5 x6 (step22_0 V x0 x1 x2 x3 x4 x5 x6 h))))))))

end Cert.ReferenceIdeal.Hand

end
-- ==== Proof.Ref.W23.lean ====
import proofs.«412627_j82471962018590_2_alg».proof.Proof.Ref.Inv
import proofs.«412627_j82471962018590_2_alg».proof.Proof.Ref.Nary3

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Window 23 of @main: its operations 1648 … 1688 of 1688, in order. -/
def ops_p23 : List (HloOp τ sig (Elt F)) :=
  [ unary main_v995 main_v998 (broadcastInDim S409600x1 ![0] bcast_S409600_S409600x1_0 : (⟨S409600, .i32⟩ : BufTy).Contents (Elt F) → (⟨S409600x1, .i32⟩ : BufTy).Contents (Elt F)),
    nary ![main_v996, main_v997, main_v998] main_v999 (fun u => concatenate S409600x3 1 [⟨S409600x1, u 0⟩, ⟨S409600x1, u 1⟩, ⟨S409600x1, u 2⟩] concatenates_S409600x1_S409600x1_S409600x1_S409600x3_d1),
    binary main_v27 main_v999 main_v1000 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_380 (constantI S_ 32 0#32),
    unary main_c_380 main_v1001 (broadcastInDim S409600 ![] bcast_S_S409600 : (⟨S_, .i32⟩ : BufTy).Contents (Elt F) → (⟨S409600, .i32⟩ : BufTy).Contents (Elt F)),
    binary main_v1000 main_v1001 main_v1002 (cmpi .sge : (⟨S409600, .i32⟩ : BufTy).Contents (Elt F) → (⟨S409600, .i32⟩ : BufTy).Contents (Elt F) → (⟨S409600, .i1⟩ : BufTy).Contents (Elt F)),
    binary main_v978 main_v1002 main_v1003 (andi : (⟨S409600, .i1⟩ : BufTy).Contents (Elt F) → (⟨S409600, .i1⟩ : BufTy).Contents (Elt F) → (⟨S409600, .i1⟩ : BufTy).Contents (Elt F)),
    nullary main_c_381 (constantI S_ 32 0#32),
    unary main_c_381 main_call71_v0 (id : (⟨S_, .i32⟩ : BufTy).Contents (Elt F) → (⟨S_, .i32⟩ : BufTy).Contents (Elt F)),
    unary main_call71_v0 main_call71_v1 ((broadcastInDim S409600 ![] bcast_S_S409600) : (⟨S_, .i32⟩ : BufTy).Contents (Elt F) → (⟨S409600, .i32⟩ : BufTy).Contents (Elt F)),
    ternary main_v1003 main_v1000 main_call71_v1 main_v1004 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_382 (constantI S_ 32 0#32),
    unary main_c_382 main_v1005 (broadcastInDim S409600 ![] bcast_S_S409600 : (⟨S_, .i32⟩ : BufTy).Contents (Elt F) → (⟨S409600, .i32⟩ : BufTy).Contents (Elt F)),
    binary main_v1004 main_v1005 main_v1006 (cmpi .slt : (⟨S409600, .i32⟩ : BufTy).Contents (Elt F) → (⟨S409600, .i32⟩ : BufTy).Contents (Elt F) → (⟨S409600, .i1⟩ : BufTy).Contents (Elt F)),
    nullary main_c_383 (constantI S_ 32 409600#32),
    unary main_c_383 main_v1007 (broadcastInDim S409600 ![] bcast_S_S409600 : (⟨S_, .i32⟩ : BufTy).Contents (Elt F) → (⟨S409600, .i32⟩ : BufTy).Contents (Elt F)),
    binary main_v1004 main_v1007 main_v1008 (addi : (⟨S409600, .i32⟩ : BufTy).Contents (Elt F) → (⟨S409600, .i32⟩ : BufTy).Contents (Elt F) → (⟨S409600, .i32⟩ : BufTy).Contents (Elt F)),
    ternary main_v1006 main_v1008 main_v1004 main_v1009 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v1009 main_v1010 (broadcastInDim S409600x1 ![0] bcast_S409600_S409600x1_0 : (⟨S409600, .i32⟩ : BufTy).Contents (Elt F) → (⟨S409600x1, .i32⟩ : BufTy).Contents (Elt F)),
    binary main_v524 main_v1010 main_v1011 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v1003 main_v1012 (broadcastInDim S409600x1 ![0] bcast_S409600_S409600x1_0 : (⟨S409600, .i1⟩ : BufTy).Contents (Elt F) → (⟨S409600x1, .i1⟩ : BufTy).Contents (Elt F)),
    nullary main_cst_384 (constant S_ .f32 0x00000000#32),
    unary main_cst_384 main_call72_v0 (id : (⟨S_, .f32⟩ : BufTy).Contents (Elt F) → (⟨S_, .f32⟩ : BufTy).Contents (Elt F)),
    unary main_v1012 main_call72_v1 ((broadcastInDim S409600x64 ![0, 1] bcast_S409600x1_S409600x64_0_1) : (⟨S409600x1, .i1⟩ : BufTy).Contents (Elt F) → (⟨S409600x64, .i1⟩ : BufTy).Contents (Elt F)),
    unary main_call72_v0 main_call72_v2 ((broadcastInDim S409600x64 ![] bcast_S_S409600x64) : (⟨S_, .f32⟩ : BufTy).Contents (Elt F) → (⟨S409600x64, .f32⟩ : BufTy).Contents (Elt F)),
    ternary main_call72_v1 main_v1011 main_call72_v2 main_v1013 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v1014 ((extractStridedSlice S1x1x64x64 ![2, 2, 0, 0] · slices_S3x3x64x64_S1x1x64x64_2_2_0_0) : (⟨S3x3x64x64, .f32⟩ : BufTy).Contents (Elt F) → (⟨S1x1x64x64, .f32⟩ : BufTy).Contents (Elt F)),
    reshape main_v1014 main_v1015 rfl shapeCasts_S1x1x64x64_S64x64,
    binary main_v1013 main_v1015 main_v1016 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v963 main_v1016 main_v1017 (addf : (⟨S409600x64, .f32⟩ : BufTy).Contents (Elt F) → (⟨S409600x64, .f32⟩ : BufTy).Contents (Elt F) → (⟨S409600x64, .f32⟩ : BufTy).Contents (Elt F)),
    unary main_arg5 main_v1018 (broadcastInDim S1x64 ![1] bcast_S64_S1x64_1 : (⟨S64, .f32⟩ : BufTy).Contents (Elt F) → (⟨S1x64, .f32⟩ : BufTy).Contents (Elt F)),
    unary main_v1018 main_v1019 (broadcastInDim S409600x64 ![0, 1] bcast_S1x64_S409600x64_0_1 : (⟨S1x64, .f32⟩ : BufTy).Contents (Elt F) → (⟨S409600x64, .f32⟩ : BufTy).Contents (Elt F)),
    binary main_v1017 main_v1019 main_v1020 (addf : (⟨S409600x64, .f32⟩ : BufTy).Contents (Elt F) → (⟨S409600x64, .f32⟩ : BufTy).Contents (Elt F) → (⟨S409600x64, .f32⟩ : BufTy).Contents (Elt F)),
    nullary main_call73_cst ((constant S_ .f32 0x00000000#32) : (⟨S_, .f32⟩ : BufTy).Contents (Elt F)),
    unary main_call73_cst main_call73_v0 ((broadcastInDim S409600x64 ![] bcast_S_S409600x64) : (⟨S_, .f32⟩ : BufTy).Contents (Elt F) → (⟨S409600x64, .f32⟩ : BufTy).Contents (Elt F)),
    binary main_v1020 main_call73_v0 main_v1021 (maximumf : (⟨S409600x64, .f32⟩ : BufTy).Contents (Elt F) → (⟨S409600x64, .f32⟩ : BufTy).Contents (Elt F) → (⟨S409600x64, .f32⟩ : BufTy).Contents (Elt F)),
    binary main_arg0 main_arg6 main_v1022 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v1021 main_v1022 main_v1023 (addf : (⟨S409600x64, .f32⟩ : BufTy).Contents (Elt F) → (⟨S409600x64, .f32⟩ : BufTy).Contents (Elt F) → (⟨S409600x64, .f32⟩ : BufTy).Contents (Elt F)),
    nullary main_call74_cst ((constant S_ .f32 0x00000000#32) : (⟨S_, .f32⟩ : BufTy).Contents (Elt F)),
    unary main_call74_cst main_call74_v0 ((broadcastInDim S409600x64 ![] bcast_S_S409600x64) : (⟨S_, .f32⟩ : BufTy).Contents (Elt F) → (⟨S409600x64, .f32⟩ : BufTy).Contents (Elt F)),
    binary main_v1023 main_call74_v0 main_v1024 (maximumf : (⟨S409600x64, .f32⟩ : BufTy).Contents (Elt F) → (⟨S409600x64, .f32⟩ : BufTy).Contents (Elt F) → (⟨S409600x64, .f32⟩ : BufTy).Contents (Elt F)) ]

set_option maxRecDepth 8192 in
set_option maxHeartbeats 4000000 in
theorem main_part23_eq (c : Dev nD) : main_part23 (F := F) c = seq ops_p23 := by
  simp only [main_part23, ops_p23, fn_clip.body, fn_where.body, fn_where_0.body, fn_relu.body, seq, bind_assoc, pure_bind]
  rfl

set_option maxRecDepth 8192 in
theorem ops_p23_sub : (ops_p23 : List (HloOp τ sig (Elt F))).Forall fun op => op.bufs ⊆ tcRefs τ sig :=
  ⟨unary_bufs_sub .., nary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., unary_bufs_sub .., reshape_bufs_sub .., binary_bufs_sub .., binary_bufs_sub .., unary_bufs_sub .., unary_bufs_sub .., binary_bufs_sub .., nullary_bufs_sub .., unary_bufs_sub .., binary_bufs_sub .., binary_bufs_sub .., binary_bufs_sub .., nullary_bufs_sub .., unary_bufs_sub .., binary_bufs_sub ..⟩

set_option maxRecDepth 8192 in
theorem ops_p23_fresh : ∀ op ∈ (ops_p23 : List (HloOp τ sig (Elt F))), op.fresh = ∅ := by
  unfold ops_p23; intro _ h; (repeat (cases h with | head => rfl | tail _ h => ?_)); exact nomatch h

private theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- What the buffers read from operation 1656 on hold before it. -/
structure Inv23_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v524 : V (Proc.devRef .tc main_v524) = val_main_v524 (F := F) x0 x1 x2 x3
  main_v963 : V (Proc.devRef .tc main_v963) = val_main_v963 (F := F) x0 x1 x2 x3 x4
  main_v1000 : V (Proc.devRef .tc main_v1000) = val_main_v1000 (F := F) x1
  main_v1003 : V (Proc.devRef .tc main_v1003) = val_main_v1003 (F := F) x1
  main_c_381 : V (Proc.devRef .tc main_c_381) = val_main_c_381 (F := F)

/-- What the buffers read from operation 1664 on hold before it. -/
structure Inv23_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v524 : V (Proc.devRef .tc main_v524) = val_main_v524 (F := F) x0 x1 x2 x3
  main_v963 : V (Proc.devRef .tc main_v963) = val_main_v963 (F := F) x0 x1 x2 x3 x4
  main_v1003 : V (Proc.devRef .tc main_v1003) = val_main_v1003 (F := F) x1
  main_v1004 : V (Proc.devRef .tc main_v1004) = val_main_v1004 (F := F) x1
  main_v1006 : V (Proc.devRef .tc main_v1006) = val_main_v1006 (F := F) x1
  main_v1007 : V (Proc.devRef .tc main_v1007) = val_main_v1007 (F := F)

/-- What the buffers read from operation 1672 on hold before it. -/
structure Inv23_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v963 : V (Proc.devRef .tc main_v963) = val_main_v963 (F := F) x0 x1 x2 x3 x4
  main_v1011 : V (Proc.devRef .tc main_v1011) = val_main_v1011 (F := F) x0 x1 x2 x3
  main_call72_v0 : V (Proc.devRef .tc main_call72_v0) = val_main_call72_v0 (F := F)
  main_call72_v1 : V (Proc.devRef .tc main_call72_v1) = val_main_call72_v1 (F := F) x1

/-- What the buffers read from operation 1680 on hold before it. -/
structure Inv23_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) : Prop where
  main_arg0 : V (Proc.devRef .tc main_arg0) = x0
  main_arg1 : V (Proc.devRef .tc main_arg1) = x1
  main_arg2 : V (Proc.devRef .tc main_arg2) = x2
  main_arg3 : V (Proc.devRef .tc main_arg3) = x3
  main_arg4 : V (Proc.devRef .tc main_arg4) = x4
  main_arg5 : V (Proc.devRef .tc main_arg5) = x5
  main_arg6 : V (Proc.devRef .tc main_arg6) = x6
  main_v1017 : V (Proc.devRef .tc main_v1017) = val_main_v1017 (F := F) x0 x1 x2 x3 x4
  main_v1019 : V (Proc.devRef .tc main_v1019) = val_main_v1019 (F := F) x5

/-- Stretch 0 of window 23: @main's operations 1648 … 1655. -/
def ops_p23_0 : List (HloOp τ sig (Elt F)) :=
  [ unary main_v995 main_v998 (broadcastInDim S409600x1 ![0] bcast_S409600_S409600x1_0 : (⟨S409600, .i32⟩ : BufTy).Contents (Elt F) → (⟨S409600x1, .i32⟩ : BufTy).Contents (Elt F)),
    nary ![main_v996, main_v997, main_v998] main_v999 (fun u => concatenate S409600x3 1 [⟨S409600x1, u 0⟩, ⟨S409600x1, u 1⟩, ⟨S409600x1, u 2⟩] concatenates_S409600x1_S409600x1_S409600x1_S409600x3_d1),
    binary main_v27 main_v999 main_v1000 ((fun x i => Host.gather gather_S2x640x640_S409600x3_S409600_n_012_n_n_012_1_111 x i) : (⟨S2x640x640, .i32⟩ : BufTy).Contents (Elt F) → (⟨S409600x3, .i32⟩ : BufTy).Contents (Elt F) → (⟨S409600, .i32⟩ : BufTy).Contents (Elt F)),
    nullary main_c_380 (constantI S_ 32 0#32),
    unary main_c_380 main_v1001 (broadcastInDim S409600 ![] bcast_S_S409600 : (⟨S_, .i32⟩ : BufTy).Contents (Elt F) → (⟨S409600, .i32⟩ : BufTy).Contents (Elt F)),
    binary main_v1000 main_v1001 main_v1002 (cmpi .sge : (⟨S409600, .i32⟩ : BufTy).Contents (Elt F) → (⟨S409600, .i32⟩ : BufTy).Contents (Elt F) → (⟨S409600, .i1⟩ : BufTy).Contents (Elt F)),
    binary main_v978 main_v1002 main_v1003 (andi : (⟨S409600, .i1⟩ : BufTy).Contents (Elt F) → (⟨S409600, .i1⟩ : BufTy).Contents (Elt F) → (⟨S409600, .i1⟩ : BufTy).Contents (Elt F)),
    nullary main_c_381 (constantI S_ 32 0#32) ]
abbrev ops_p23_0_W : List (Ref sig .tc) := [main_v998, main_v999, main_v1000, main_c_380, main_v1001, main_v1002, main_v1003, main_c_381]
theorem ops_p23_0_writes : (ops_p23_0 : List (HloOp τ sig (Elt F))).Forall fun op => op.writes ⊆ (ops_p23_0_W.map (Proc.devRef (τ := τ) .tc)).toFinset := by
  simp only [ops_p23_0, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p23_0_keep (V : Valuation τ sig (Elt F)) (r : Ref sig .tc) (h : r ∉ ops_p23_0_W) :
    after ops_p23_0 V (Proc.devRef .tc r) = V (Proc.devRef .tc r) :=
  after_of_writes_sub ops_p23_0 _ ops_p23_0_writes h

set_option maxRecDepth 8192 in
set_option maxHeartbeats 1000000 in
theorem w23_0_main_v1000 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23 V x0 x1 x2 x3 x4 x5 x6) :
    after ops_p23_0 V (Proc.devRef .tc main_v1000) = val_main_v1000 (F := F) x1 := by
  simp only [ops_p23_0]
  after_results_w
  simp only [h.main_v995, h.main_v997, h.main_v996, h.main_v27]
  rfl

set_option maxRecDepth 8192 in
set_option maxHeartbeats 1000000 in
theorem w23_0_main_v1003 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23 V x0 x1 x2 x3 x4 x5 x6) :
    after ops_p23_0 V (Proc.devRef .tc main_v1003) = val_main_v1003 (F := F) x1 := by
  simp only [ops_p23_0]
  after_results_w
  simp only [h.main_v995, h.main_v997, h.main_v996, h.main_v27, h.main_v978]
  rfl

set_option maxRecDepth 8192 in
set_option maxHeartbeats 1000000 in
theorem w23_0_main_c_381 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23 V x0 x1 x2 x3 x4 x5 x6) :
    after ops_p23_0 V (Proc.devRef .tc main_c_381) = val_main_c_381 (F := F) := by
  simp only [ops_p23_0]
  after_results_w
  rfl

theorem step23_0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23 V x0 x1 x2 x3 x4 x5 x6) : Inv23_1 (after ops_p23_0 V) x0 x1 x2 x3 x4 x5 x6 where
  main_arg0 := (ops_p23_0_keep V main_arg0 (by decide)).trans h.main_arg0
  main_arg1 := (ops_p23_0_keep V main_arg1 (by decide)).trans h.main_arg1
  main_arg2 := (ops_p23_0_keep V main_arg2 (by decide)).trans h.main_arg2
  main_arg3 := (ops_p23_0_keep V main_arg3 (by decide)).trans h.main_arg3
  main_arg4 := (ops_p23_0_keep V main_arg4 (by decide)).trans h.main_arg4
  main_arg5 := (ops_p23_0_keep V main_arg5 (by decide)).trans h.main_arg5
  main_arg6 := (ops_p23_0_keep V main_arg6 (by decide)).trans h.main_arg6
  main_v524 := (ops_p23_0_keep V main_v524 (by decide)).trans h.main_v524
  main_v963 := (ops_p23_0_keep V main_v963 (by decide)).trans h.main_v963
  main_v1000 := w23_0_main_v1000 V x0 x1 x2 x3 x4 x5 x6 h
  main_v1003 := w23_0_main_v1003 V x0 x1 x2 x3 x4 x5 x6 h
  main_c_381 := w23_0_main_c_381 V x0 x1 x2 x3 x4 x5 x6 h

/-- Stretch 1 of window 23: @main's operations 1656 … 1663. -/
def ops_p23_1 : List (HloOp τ sig (Elt F)) :=
  [ unary main_c_381 main_call71_v0 (id : (⟨S_, .i32⟩ : BufTy).Contents (Elt F) → (⟨S_, .i32⟩ : BufTy).Contents (Elt F)),
    unary main_call71_v0 main_call71_v1 ((broadcastInDim S409600 ![] bcast_S_S409600) : (⟨S_, .i32⟩ : BufTy).Contents (Elt F) → (⟨S409600, .i32⟩ : BufTy).Contents (Elt F)),
    ternary main_v1003 main_v1000 main_call71_v1 main_v1004 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    nullary main_c_382 (constantI S_ 32 0#32),
    unary main_c_382 main_v1005 (broadcastInDim S409600 ![] bcast_S_S409600 : (⟨S_, .i32⟩ : BufTy).Contents (Elt F) → (⟨S409600, .i32⟩ : BufTy).Contents (Elt F)),
    binary main_v1004 main_v1005 main_v1006 (cmpi .slt : (⟨S409600, .i32⟩ : BufTy).Contents (Elt F) → (⟨S409600, .i32⟩ : BufTy).Contents (Elt F) → (⟨S409600, .i1⟩ : BufTy).Contents (Elt F)),
    nullary main_c_383 (constantI S_ 32 409600#32),
    unary main_c_383 main_v1007 (broadcastInDim S409600 ![] bcast_S_S409600 : (⟨S_, .i32⟩ : BufTy).Contents (Elt F) → (⟨S409600, .i32⟩ : BufTy).Contents (Elt F)) ]
abbrev ops_p23_1_W : List (Ref sig .tc) := [main_call71_v0, main_call71_v1, main_v1004, main_c_382, main_v1005, main_v1006, main_c_383, main_v1007]
theorem ops_p23_1_writes : (ops_p23_1 : List (HloOp τ sig (Elt F))).Forall fun op => op.writes ⊆ (ops_p23_1_W.map (Proc.devRef (τ := τ) .tc)).toFinset := by
  simp only [ops_p23_1, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p23_1_keep (V : Valuation τ sig (Elt F)) (r : Ref sig .tc) (h : r ∉ ops_p23_1_W) :
    after ops_p23_1 V (Proc.devRef .tc r) = V (Proc.devRef .tc r) :=
  after_of_writes_sub ops_p23_1 _ ops_p23_1_writes h

set_option maxRecDepth 8192 in
set_option maxHeartbeats 1000000 in
theorem w23_1_main_v1004 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_1 V x0 x1 x2 x3 x4 x5 x6) :
    after ops_p23_1 V (Proc.devRef .tc main_v1004) = val_main_v1004 (F := F) x1 := by
  simp only [ops_p23_1]
  after_results_w
  simp only [h.main_c_381, h.main_v1000, h.main_v1003]
  rfl

set_option maxRecDepth 8192 in
set_option maxHeartbeats 1000000 in
theorem w23_1_main_v1006 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_1 V x0 x1 x2 x3 x4 x5 x6) :
    after ops_p23_1 V (Proc.devRef .tc main_v1006) = val_main_v1006 (F := F) x1 := by
  simp only [ops_p23_1]
  after_results_w
  simp only [h.main_c_381, h.main_v1000, h.main_v1003]
  rfl

set_option maxRecDepth 8192 in
set_option maxHeartbeats 1000000 in
theorem w23_1_main_v1007 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_1 V x0 x1 x2 x3 x4 x5 x6) :
    after ops_p23_1 V (Proc.devRef .tc main_v1007) = val_main_v1007 (F := F) := by
  simp only [ops_p23_1]
  after_results_w
  rfl

theorem step23_1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_1 V x0 x1 x2 x3 x4 x5 x6) : Inv23_2 (after ops_p23_1 V) x0 x1 x2 x3 x4 x5 x6 where
  main_arg0 := (ops_p23_1_keep V main_arg0 (by decide)).trans h.main_arg0
  main_arg1 := (ops_p23_1_keep V main_arg1 (by decide)).trans h.main_arg1
  main_arg2 := (ops_p23_1_keep V main_arg2 (by decide)).trans h.main_arg2
  main_arg3 := (ops_p23_1_keep V main_arg3 (by decide)).trans h.main_arg3
  main_arg4 := (ops_p23_1_keep V main_arg4 (by decide)).trans h.main_arg4
  main_arg5 := (ops_p23_1_keep V main_arg5 (by decide)).trans h.main_arg5
  main_arg6 := (ops_p23_1_keep V main_arg6 (by decide)).trans h.main_arg6
  main_v524 := (ops_p23_1_keep V main_v524 (by decide)).trans h.main_v524
  main_v963 := (ops_p23_1_keep V main_v963 (by decide)).trans h.main_v963
  main_v1003 := (ops_p23_1_keep V main_v1003 (by decide)).trans h.main_v1003
  main_v1004 := w23_1_main_v1004 V x0 x1 x2 x3 x4 x5 x6 h
  main_v1006 := w23_1_main_v1006 V x0 x1 x2 x3 x4 x5 x6 h
  main_v1007 := w23_1_main_v1007 V x0 x1 x2 x3 x4 x5 x6 h

/-- Stretch 2 of window 23: @main's operations 1664 … 1671. -/
def ops_p23_2 : List (HloOp τ sig (Elt F)) :=
  [ binary main_v1004 main_v1007 main_v1008 (addi : (⟨S409600, .i32⟩ : BufTy).Contents (Elt F) → (⟨S409600, .i32⟩ : BufTy).Contents (Elt F) → (⟨S409600, .i32⟩ : BufTy).Contents (Elt F)),
    ternary main_v1006 main_v1008 main_v1004 main_v1009 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v1009 main_v1010 (broadcastInDim S409600x1 ![0] bcast_S409600_S409600x1_0 : (⟨S409600, .i32⟩ : BufTy).Contents (Elt F) → (⟨S409600x1, .i32⟩ : BufTy).Contents (Elt F)),
    binary main_v524 main_v1010 main_v1011 ((fun x i => Host.gather gather_S409600x64_S409600x1_S409600x64_1_0_n_n_0_1_164 x i) : (⟨S409600x64, .f32⟩ : BufTy).Contents (Elt F) → (⟨S409600x1, .i32⟩ : BufTy).Contents (Elt F) → (⟨S409600x64, .f32⟩ : BufTy).Contents (Elt F)),
    unary main_v1003 main_v1012 (broadcastInDim S409600x1 ![0] bcast_S409600_S409600x1_0 : (⟨S409600, .i1⟩ : BufTy).Contents (Elt F) → (⟨S409600x1, .i1⟩ : BufTy).Contents (Elt F)),
    nullary main_cst_384 (constant S_ .f32 0x00000000#32),
    unary main_cst_384 main_call72_v0 (id : (⟨S_, .f32⟩ : BufTy).Contents (Elt F) → (⟨S_, .f32⟩ : BufTy).Contents (Elt F)),
    unary main_v1012 main_call72_v1 ((broadcastInDim S409600x64 ![0, 1] bcast_S409600x1_S409600x64_0_1) : (⟨S409600x1, .i1⟩ : BufTy).Contents (Elt F) → (⟨S409600x64, .i1⟩ : BufTy).Contents (Elt F)) ]
abbrev ops_p23_2_W : List (Ref sig .tc) := [main_v1008, main_v1009, main_v1010, main_v1011, main_v1012, main_cst_384, main_call72_v0, main_call72_v1]
theorem ops_p23_2_writes : (ops_p23_2 : List (HloOp τ sig (Elt F))).Forall fun op => op.writes ⊆ (ops_p23_2_W.map (Proc.devRef (τ := τ) .tc)).toFinset := by
  simp only [ops_p23_2, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p23_2_keep (V : Valuation τ sig (Elt F)) (r : Ref sig .tc) (h : r ∉ ops_p23_2_W) :
    after ops_p23_2 V (Proc.devRef .tc r) = V (Proc.devRef .tc r) :=
  after_of_writes_sub ops_p23_2 _ ops_p23_2_writes h

set_option maxRecDepth 8192 in
set_option maxHeartbeats 1000000 in
theorem w23_2_main_v1011 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_2 V x0 x1 x2 x3 x4 x5 x6) :
    after ops_p23_2 V (Proc.devRef .tc main_v1011) = val_main_v1011 (F := F) x0 x1 x2 x3 := by
  simp only [ops_p23_2]
  after_results_w
  simp only [h.main_v1004, h.main_v1007, h.main_v1006, h.main_v524]
  rfl

set_option maxRecDepth 8192 in
set_option maxHeartbeats 1000000 in
theorem w23_2_main_call72_v0 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_2 V x0 x1 x2 x3 x4 x5 x6) :
    after ops_p23_2 V (Proc.devRef .tc main_call72_v0) = val_main_call72_v0 (F := F) := by
  simp only [ops_p23_2]
  after_results_w
  rfl

set_option maxRecDepth 8192 in
set_option maxHeartbeats 1000000 in
theorem w23_2_main_call72_v1 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_2 V x0 x1 x2 x3 x4 x5 x6) :
    after ops_p23_2 V (Proc.devRef .tc main_call72_v1) = val_main_call72_v1 (F := F) x1 := by
  simp only [ops_p23_2]
  after_results_w
  simp only [h.main_v1003]
  rfl

theorem step23_2 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_2 V x0 x1 x2 x3 x4 x5 x6) : Inv23_3 (after ops_p23_2 V) x0 x1 x2 x3 x4 x5 x6 where
  main_arg0 := (ops_p23_2_keep V main_arg0 (by decide)).trans h.main_arg0
  main_arg1 := (ops_p23_2_keep V main_arg1 (by decide)).trans h.main_arg1
  main_arg2 := (ops_p23_2_keep V main_arg2 (by decide)).trans h.main_arg2
  main_arg3 := (ops_p23_2_keep V main_arg3 (by decide)).trans h.main_arg3
  main_arg4 := (ops_p23_2_keep V main_arg4 (by decide)).trans h.main_arg4
  main_arg5 := (ops_p23_2_keep V main_arg5 (by decide)).trans h.main_arg5
  main_arg6 := (ops_p23_2_keep V main_arg6 (by decide)).trans h.main_arg6
  main_v963 := (ops_p23_2_keep V main_v963 (by decide)).trans h.main_v963
  main_v1011 := w23_2_main_v1011 V x0 x1 x2 x3 x4 x5 x6 h
  main_call72_v0 := w23_2_main_call72_v0 V x0 x1 x2 x3 x4 x5 x6 h
  main_call72_v1 := w23_2_main_call72_v1 V x0 x1 x2 x3 x4 x5 x6 h

/-- Stretch 3 of window 23: @main's operations 1672 … 1679. -/
def ops_p23_3 : List (HloOp τ sig (Elt F)) :=
  [ unary main_call72_v0 main_call72_v2 ((broadcastInDim S409600x64 ![] bcast_S_S409600x64) : (⟨S_, .f32⟩ : BufTy).Contents (Elt F) → (⟨S409600x64, .f32⟩ : BufTy).Contents (Elt F)),
    ternary main_call72_v1 main_v1011 main_call72_v2 main_v1013 (select : (⟨S409600x64, .i1⟩ : BufTy).Contents (Elt F) → (⟨S409600x64, .f32⟩ : BufTy).Contents (Elt F) → (⟨S409600x64, .f32⟩ : BufTy).Contents (Elt F) → (⟨S409600x64, .f32⟩ : BufTy).Contents (Elt F)),
    unary main_arg4 main_v1014 ((extractStridedSlice S1x1x64x64 ![2, 2, 0, 0] · slices_S3x3x64x64_S1x1x64x64_2_2_0_0) : (⟨S3x3x64x64, .f32⟩ : BufTy).Contents (Elt F) → (⟨S1x1x64x64, .f32⟩ : BufTy).Contents (Elt F)),
    reshape main_v1014 main_v1015 rfl shapeCasts_S1x1x64x64_S64x64,
    binary main_v1013 main_v1015 main_v1016 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v963 main_v1016 main_v1017 (addf : (⟨S409600x64, .f32⟩ : BufTy).Contents (Elt F) → (⟨S409600x64, .f32⟩ : BufTy).Contents (Elt F) → (⟨S409600x64, .f32⟩ : BufTy).Contents (Elt F)),
    unary main_arg5 main_v1018 (broadcastInDim S1x64 ![1] bcast_S64_S1x64_1 : (⟨S64, .f32⟩ : BufTy).Contents (Elt F) → (⟨S1x64, .f32⟩ : BufTy).Contents (Elt F)),
    unary main_v1018 main_v1019 (broadcastInDim S409600x64 ![0, 1] bcast_S1x64_S409600x64_0_1 : (⟨S1x64, .f32⟩ : BufTy).Contents (Elt F) → (⟨S409600x64, .f32⟩ : BufTy).Contents (Elt F)) ]
abbrev ops_p23_3_W : List (Ref sig .tc) := [main_call72_v2, main_v1013, main_v1014, main_v1015, main_v1016, main_v1017, main_v1018, main_v1019]
theorem ops_p23_3_writes : (ops_p23_3 : List (HloOp τ sig (Elt F))).Forall fun op => op.writes ⊆ (ops_p23_3_W.map (Proc.devRef (τ := τ) .tc)).toFinset := by
  simp only [ops_p23_3, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p23_3_keep (V : Valuation τ sig (Elt F)) (r : Ref sig .tc) (h : r ∉ ops_p23_3_W) :
    after ops_p23_3 V (Proc.devRef .tc r) = V (Proc.devRef .tc r) :=
  after_of_writes_sub ops_p23_3 _ ops_p23_3_writes h

set_option maxRecDepth 8192 in
set_option maxHeartbeats 1000000 in
theorem w23_3_main_v1017 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_3 V x0 x1 x2 x3 x4 x5 x6) :
    after ops_p23_3 V (Proc.devRef .tc main_v1017) = val_main_v1017 (F := F) x0 x1 x2 x3 x4 := by
  simp only [ops_p23_3]
  after_results_w
  simp only [h.main_arg4, h.main_call72_v0, h.main_v1011, h.main_call72_v1, h.main_v963]
  rfl

set_option maxRecDepth 8192 in
set_option maxHeartbeats 1000000 in
theorem w23_3_main_v1019 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_3 V x0 x1 x2 x3 x4 x5 x6) :
    after ops_p23_3 V (Proc.devRef .tc main_v1019) = val_main_v1019 (F := F) x5 := by
  simp only [ops_p23_3]
  after_results_w
  simp only [h.main_arg5]
  rfl

theorem step23_3 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_3 V x0 x1 x2 x3 x4 x5 x6) : Inv23_4 (after ops_p23_3 V) x0 x1 x2 x3 x4 x5 x6 where
  main_arg0 := (ops_p23_3_keep V main_arg0 (by decide)).trans h.main_arg0
  main_arg1 := (ops_p23_3_keep V main_arg1 (by decide)).trans h.main_arg1
  main_arg2 := (ops_p23_3_keep V main_arg2 (by decide)).trans h.main_arg2
  main_arg3 := (ops_p23_3_keep V main_arg3 (by decide)).trans h.main_arg3
  main_arg4 := (ops_p23_3_keep V main_arg4 (by decide)).trans h.main_arg4
  main_arg5 := (ops_p23_3_keep V main_arg5 (by decide)).trans h.main_arg5
  main_arg6 := (ops_p23_3_keep V main_arg6 (by decide)).trans h.main_arg6
  main_v1017 := w23_3_main_v1017 V x0 x1 x2 x3 x4 x5 x6 h
  main_v1019 := w23_3_main_v1019 V x0 x1 x2 x3 x4 x5 x6 h

/-- Stretch 4 of window 23: @main's operations 1680 … 1688. -/
def ops_p23_4 : List (HloOp τ sig (Elt F)) :=
  [ binary main_v1017 main_v1019 main_v1020 (addf : (⟨S409600x64, .f32⟩ : BufTy).Contents (Elt F) → (⟨S409600x64, .f32⟩ : BufTy).Contents (Elt F) → (⟨S409600x64, .f32⟩ : BufTy).Contents (Elt F)),
    nullary main_call73_cst ((constant S_ .f32 0x00000000#32) : (⟨S_, .f32⟩ : BufTy).Contents (Elt F)),
    unary main_call73_cst main_call73_v0 ((broadcastInDim S409600x64 ![] bcast_S_S409600x64) : (⟨S_, .f32⟩ : BufTy).Contents (Elt F) → (⟨S409600x64, .f32⟩ : BufTy).Contents (Elt F)),
    binary main_v1020 main_call73_v0 main_v1021 (maximumf : (⟨S409600x64, .f32⟩ : BufTy).Contents (Elt F) → (⟨S409600x64, .f32⟩ : BufTy).Contents (Elt F) → (⟨S409600x64, .f32⟩ : BufTy).Contents (Elt F)),
    binary main_arg0 main_arg6 main_v1022 ((fun l r => Host.dotGeneral dot_S409600x64_S64x64_S409600x64_1_0_0_1_n_n none l r) : (⟨S409600x64, .f32⟩ : BufTy).Contents (Elt F) → (⟨S64x64, .f32⟩ : BufTy).Contents (Elt F) → (⟨S409600x64, .f32⟩ : BufTy).Contents (Elt F)),
    binary main_v1021 main_v1022 main_v1023 (addf : (⟨S409600x64, .f32⟩ : BufTy).Contents (Elt F) → (⟨S409600x64, .f32⟩ : BufTy).Contents (Elt F) → (⟨S409600x64, .f32⟩ : BufTy).Contents (Elt F)),
    nullary main_call74_cst ((constant S_ .f32 0x00000000#32) : (⟨S_, .f32⟩ : BufTy).Contents (Elt F)),
    unary main_call74_cst main_call74_v0 ((broadcastInDim S409600x64 ![] bcast_S_S409600x64) : (⟨S_, .f32⟩ : BufTy).Contents (Elt F) → (⟨S409600x64, .f32⟩ : BufTy).Contents (Elt F)),
    binary main_v1023 main_call74_v0 main_v1024 (maximumf : (⟨S409600x64, .f32⟩ : BufTy).Contents (Elt F) → (⟨S409600x64, .f32⟩ : BufTy).Contents (Elt F) → (⟨S409600x64, .f32⟩ : BufTy).Contents (Elt F)) ]
abbrev ops_p23_4_W : List (Ref sig .tc) := [main_v1020, main_call73_cst, main_call73_v0, main_v1021, main_v1022, main_v1023, main_call74_cst, main_call74_v0, main_v1024]
theorem ops_p23_4_writes : (ops_p23_4 : List (HloOp τ sig (Elt F))).Forall fun op => op.writes ⊆ (ops_p23_4_W.map (Proc.devRef (τ := τ) .tc)).toFinset := by
  simp only [ops_p23_4, List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ops_p23_4_keep (V : Valuation τ sig (Elt F)) (r : Ref sig .tc) (h : r ∉ ops_p23_4_W) :
    after ops_p23_4 V (Proc.devRef .tc r) = V (Proc.devRef .tc r) :=
  after_of_writes_sub ops_p23_4 _ ops_p23_4_writes h

set_option maxRecDepth 8192 in
set_option maxHeartbeats 1000000 in
theorem w23_4_main_v1024 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_4 V x0 x1 x2 x3 x4 x5 x6) :
    after ops_p23_4 V (Proc.devRef .tc main_v1024) = val_main_v1024 (F := F) x0 x1 x2 x3 x4 x5 x6 := by
  simp only [ops_p23_4]
  after_results_w
  simp only [h.main_arg6, h.main_arg0, h.main_v1019, h.main_v1017]
  rfl

theorem step23_4 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23_4 V x0 x1 x2 x3 x4 x5 x6) : Inv24 (after ops_p23_4 V) x0 x1 x2 x3 x4 x5 x6 where
  main_arg0 := (ops_p23_4_keep V main_arg0 (by decide)).trans h.main_arg0
  main_arg1 := (ops_p23_4_keep V main_arg1 (by decide)).trans h.main_arg1
  main_arg2 := (ops_p23_4_keep V main_arg2 (by decide)).trans h.main_arg2
  main_arg3 := (ops_p23_4_keep V main_arg3 (by decide)).trans h.main_arg3
  main_arg4 := (ops_p23_4_keep V main_arg4 (by decide)).trans h.main_arg4
  main_arg5 := (ops_p23_4_keep V main_arg5 (by decide)).trans h.main_arg5
  main_arg6 := (ops_p23_4_keep V main_arg6 (by decide)).trans h.main_arg6
  main_v1024 := w23_4_main_v1024 V x0 x1 x2 x3 x4 x5 x6 h

set_option maxRecDepth 8192 in
theorem ops_p23_split : (ops_p23 : List (HloOp τ sig (Elt F))) = ops_p23_0 ++ (ops_p23_1 ++ (ops_p23_2 ++ (ops_p23_3 ++ (ops_p23_4)))) := rfl

/-- Window 23 carries the staged reading from boundary 23 to boundary 24. -/
theorem step23 (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F)) (h : Inv23 V x0 x1 x2 x3 x4 x5 x6) : Inv24 (after ops_p23 V) x0 x1 x2 x3 x4 x5 x6 := by
  rw [ops_p23_split]; simp only [after_app]
  exact step23_4 _ x0 x1 x2 x3 x4 x5 x6 (step23_3 _ x0 x1 x2 x3 x4 x5 x6 (step23_2 _ x0 x1 x2 x3 x4 x5 x6 (step23_1 _ x0 x1 x2 x3 x4 x5 x6 (step23_0 V x0 x1 x2 x3 x4 x5 x6 h))))

end Cert.ReferenceIdeal.Hand

end
-- ==== Proof.Ref.Run.lean ====
/- The reference's run. @main is 24 windows of host operations, each a straight line; their concatenation is one
   straight line, whose run leaves every buffer at the fold of the operations over the launch contents. The windows'
   steps carry "each live buffer holds its staged reading of the arguments" from the launch to the end, where the result
   buffer holds the staged reading of the whole program and the arguments are as they were. -/
import proofs.«412627_j82471962018590_2_alg».proof.Proof.Ref.W0
import proofs.«412627_j82471962018590_2_alg».proof.Proof.Ref.W1
import proofs.«412627_j82471962018590_2_alg».proof.Proof.Ref.W2
import proofs.«412627_j82471962018590_2_alg».proof.Proof.Ref.W3
import proofs.«412627_j82471962018590_2_alg».proof.Proof.Ref.W4
import proofs.«412627_j82471962018590_2_alg».proof.Proof.Ref.W5
import proofs.«412627_j82471962018590_2_alg».proof.Proof.Ref.W6
import proofs.«412627_j82471962018590_2_alg».proof.Proof.Ref.W7
import proofs.«412627_j82471962018590_2_alg».proof.Proof.Ref.W8
import proofs.«412627_j82471962018590_2_alg».proof.Proof.Ref.W9
import proofs.«412627_j82471962018590_2_alg».proof.Proof.Ref.W10
import proofs.«412627_j82471962018590_2_alg».proof.Proof.Ref.W11
import proofs.«412627_j82471962018590_2_alg».proof.Proof.Ref.W12
import proofs.«412627_j82471962018590_2_alg».proof.Proof.Ref.W13
import proofs.«412627_j82471962018590_2_alg».proof.Proof.Ref.W14
import proofs.«412627_j82471962018590_2_alg».proof.Proof.Ref.W15
import proofs.«412627_j82471962018590_2_alg».proof.Proof.Ref.W16
import proofs.«412627_j82471962018590_2_alg».proof.Proof.Ref.W17
import proofs.«412627_j82471962018590_2_alg».proof.Proof.Ref.W18
import proofs.«412627_j82471962018590_2_alg».proof.Proof.Ref.W19
import proofs.«412627_j82471962018590_2_alg».proof.Proof.Ref.W20
import proofs.«412627_j82471962018590_2_alg».proof.Proof.Ref.W21
import proofs.«412627_j82471962018590_2_alg».proof.Proof.Ref.W22
import proofs.«412627_j82471962018590_2_alg».proof.Proof.Ref.W23
import Idealize.ShloMosaic.Lib.StableHlo.Run

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The line of operations -/

/-- @main's host operations, in order: the 24 windows' lists, one after the other. -/
def ops : List (HloOp τ sig (Elt F)) :=
  ops_p0 ++ (ops_p1 ++ (ops_p2 ++ (ops_p3 ++ (ops_p4 ++ (ops_p5 ++ (ops_p6 ++ (ops_p7 ++ (ops_p8 ++ (ops_p9 ++ (ops_p10 ++ (ops_p11 ++ (ops_p12 ++ (ops_p13 ++ (ops_p14 ++ (ops_p15 ++ (ops_p16 ++ (ops_p17 ++ (ops_p18 ++ (ops_p19 ++ (ops_p20 ++ (ops_p21 ++ (ops_p22 ++ (ops_p23)))))))))))))))))))))))

/-- @main runs its windows in turn, each a straight line: it is the straight line of them all. -/
theorem main_eq (c : Dev nD) : main (F := F) c = seq ops := by
  unfold main ops
  simp only [seq_append, main_part0_eq, main_part1_eq, main_part2_eq, main_part3_eq, main_part4_eq, main_part5_eq, main_part6_eq, main_part7_eq, main_part8_eq, main_part9_eq, main_part10_eq, main_part11_eq, main_part12_eq, main_part13_eq, main_part14_eq, main_part15_eq, main_part16_eq, main_part17_eq, main_part18_eq, main_part19_eq, main_part20_eq, main_part21_eq, main_part22_eq, main_part23_eq]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem fresh_app {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.1 h).elim (h₁ op) (h₂ op)

/-- Every operation touches TensorCore buffers only. -/
theorem ops_sub : (ops : List (HloOp τ sig (Elt F))).Forall fun op => op.bufs ⊆ tcRefs τ sig :=
  forall_app ops_p0_sub (forall_app ops_p1_sub (forall_app ops_p2_sub (forall_app ops_p3_sub (forall_app ops_p4_sub (forall_app ops_p5_sub (forall_app ops_p6_sub (forall_app ops_p7_sub (forall_app ops_p8_sub (forall_app ops_p9_sub (forall_app ops_p10_sub (forall_app ops_p11_sub (forall_app ops_p12_sub (forall_app ops_p13_sub (forall_app ops_p14_sub (forall_app ops_p15_sub (forall_app ops_p16_sub (forall_app ops_p17_sub (forall_app ops_p18_sub (forall_app ops_p19_sub (forall_app ops_p20_sub (forall_app ops_p21_sub (forall_app ops_p22_sub (ops_p23_sub)))))))))))))))))))))))

/-- Every operation determines its results. -/
theorem ops_fresh : ∀ op ∈ (ops : List (HloOp τ sig (Elt F))), op.fresh = ∅ :=
  fresh_app ops_p0_fresh (fresh_app ops_p1_fresh (fresh_app ops_p2_fresh (fresh_app ops_p3_fresh (fresh_app ops_p4_fresh (fresh_app ops_p5_fresh (fresh_app ops_p6_fresh (fresh_app ops_p7_fresh (fresh_app ops_p8_fresh (fresh_app ops_p9_fresh (fresh_app ops_p10_fresh (fresh_app ops_p11_fresh (fresh_app ops_p12_fresh (fresh_app ops_p13_fresh (fresh_app ops_p14_fresh (fresh_app ops_p15_fresh (fresh_app ops_p16_fresh (fresh_app ops_p17_fresh (fresh_app ops_p18_fresh (fresh_app ops_p19_fresh (fresh_app ops_p20_fresh (fresh_app ops_p21_fresh (fresh_app ops_p22_fresh (ops_p23_fresh)))))))))))))))))))))))

/-! ## The contents after the line -/

/-- The contents after two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- From contents holding the arguments, the whole line ends with the arguments in place and the result buffer at the
    staged reading of the arguments: the windows' steps, chained from boundary 0 to boundary 24. -/
theorem inv_ops (V : Valuation τ sig (Elt F)) (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) (x5 : (⟨S64, .f32⟩ : BufTy).Contents (Elt F)) (x6 : (⟨S64x64, .f32⟩ : BufTy).Contents (Elt F))
    (h : Inv0 V x0 x1 x2 x3 x4 x5 x6) : Inv24 (after ops V) x0 x1 x2 x3 x4 x5 x6 := by
  unfold ops
  simp only [after_app]
  exact step23 _ x0 x1 x2 x3 x4 x5 x6 (step22 _ x0 x1 x2 x3 x4 x5 x6 (step21 _ x0 x1 x2 x3 x4 x5 x6 (step20 _ x0 x1 x2 x3 x4 x5 x6 (step19 _ x0 x1 x2 x3 x4 x5 x6 (step18 _ x0 x1 x2 x3 x4 x5 x6 (step17 _ x0 x1 x2 x3 x4 x5 x6 (step16 _ x0 x1 x2 x3 x4 x5 x6 (step15 _ x0 x1 x2 x3 x4 x5 x6 (step14 _ x0 x1 x2 x3 x4 x5 x6 (step13 _ x0 x1 x2 x3 x4 x5 x6 (step12 _ x0 x1 x2 x3 x4 x5 x6 (step11 _ x0 x1 x2 x3 x4 x5 x6 (step10 _ x0 x1 x2 x3 x4 x5 x6 (step9 _ x0 x1 x2 x3 x4 x5 x6 (step8 _ x0 x1 x2 x3 x4 x5 x6 (step7 _ x0 x1 x2 x3 x4 x5 x6 (step6 _ x0 x1 x2 x3 x4 x5 x6 (step5 _ x0 x1 x2 x3 x4 x5 x6 (step4 _ x0 x1 x2 x3 x4 x5 x6 (step3 _ x0 x1 x2 x3 x4 x5 x6 (step2 _ x0 x1 x2 x3 x4 x5 x6 (step1 _ x0 x1 x2 x3 x4 x5 x6 (step0 V x0 x1 x2 x3 x4 x5 x6 h)))))))))))))))))))))))

/-! ## The run -/

/-- On every device, for any float values, from any memory with zero counters: every weakly fair execution of @main
    terminates with the result buffer at the staged reading of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1024) = val_main_v1024 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      have I := inv_ops (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨rfl, rfl, rfl, rfl, rfl, rfl, rfl⟩
      exact ⟨(h c main_v1024).trans I.main_v1024, (h c main_arg0).trans I.main_arg0, (h c main_arg1).trans I.main_arg1,
        (h c main_arg2).trans I.main_arg2, (h c main_arg3).trans I.main_arg3, (h c main_arg4).trans I.main_arg4,
        (h c main_arg5).trans I.main_arg5, (h c main_arg6).trans I.main_arg6⟩)
    (run_seq scopedRefs_eq scopedSems_eq defs main (fun _ => ops) main_eq (fun _ => ops_sub) m ρ (fun _ => ops_fresh))

end Cert.ReferenceIdeal.Hand

end
-- ==== Proof.Ref.TapDef.lean ====
/- One tap of the reference's sparse convolution as a pure function of the coordinate columns, the grid of site
   numbers, the layer's input rows, the tap's weight slice and the running sum, built stage by stage; the first
   tap of the first layer is this function of the program's values. -/
import proofs.«412627_j82471962018590_2_alg».proof.Proof.Ref.ReadP
import proofs.«412627_j82471962018590_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

namespace Cert.ReferenceIdeal.Tap

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## The stages of a tap -/

section Stages

variable {F : FTy → Type} [FloatOps F]

/-- The neighbour's coordinate word: the site's word plus the tap's offset. -/
def nyW (dC : BitVec 32) (c : IVec S409600 32) : IVec S409600 32 :=
  addi c (broadcastInDim S409600 ![] bcast_S_S409600 (constantI S_ 32 dC))

/-- Both neighbour words inside [0, 640). -/
def inbW (ny nx : IVec S409600 32) : IVec S409600 1 :=
  andi (andi (andi (cmpi .sge ny (broadcastInDim S409600 ![] bcast_S_S409600 (constantI S_ 32 0#32)))
                   (cmpi .slt ny (broadcastInDim S409600 ![] bcast_S_S409600 (constantI S_ 32 640#32))))
             (cmpi .sge nx (broadcastInDim S409600 ![] bcast_S_S409600 (constantI S_ 32 0#32))))
       (cmpi .slt nx (broadcastInDim S409600 ![] bcast_S_S409600 (constantI S_ 32 640#32)))

/-- A word clipped into [0, 639]. -/
def clipW (v : IVec S409600 32) : IVec S409600 32 :=
  minsi (broadcastInDim S409600 ![] bcast_S_S409600 (id (constantI S_ 32 639#32)))
    (maxsi (broadcastInDim S409600 ![] bcast_S_S409600 (id (constantI S_ 32 0#32))) v)

/-- A negative index word moved up by the axis size. -/
def normW (size : BitVec 32) (v : IVec S409600 32) : IVec S409600 32 :=
  select (cmpi .slt v (broadcastInDim S409600 ![] bcast_S_S409600 (constantI S_ 32 0#32)))
    (addi v (broadcastInDim S409600 ![] bcast_S_S409600 (constantI S_ 32 size))) v

/-- Three index columns side by side. -/
def idx3 (a b c : IVec S409600 32) : IVec S409600x3 32 :=
  concatenate S409600x3 1 [⟨S409600x1, broadcastInDim S409600x1 ![0] bcast_S409600_S409600x1_0 a⟩,
    ⟨S409600x1, broadcastInDim S409600x1 ![0] bcast_S409600_S409600x1_0 b⟩,
    ⟨S409600x1, broadcastInDim S409600x1 ![0] bcast_S409600_S409600x1_0 c⟩] concatenates_S409600x1_S409600x1_S409600x1_S409600x3_d1

/-- The site number at the neighbouring cell. -/
def nidxW (grid : IVec S2x640x640 32) (cb cyc cxc : IVec S409600 32) : IVec S409600 32 :=
  Host.gather gather_S2x640x640_S409600x3_S409600_n_012_n_n_012_1_111 grid
    (idx3 (normW 2#32 cb) (normW 640#32 cyc) (normW 640#32 cxc))

/-- Inside the grid and occupied. -/
def validW (inb : IVec S409600 1) (nidx : IVec S409600 32) : IVec S409600 1 :=
  andi inb (cmpi .sge nidx (broadcastInDim S409600 ![] bcast_S_S409600 (constantI S_ 32 0#32)))

/-- The row to read: the neighbour's site number, zero when not valid. -/
def selW (valid : IVec S409600 1) (nidx : IVec S409600 32) : IVec S409600 32 :=
  select valid nidx (broadcastInDim S409600 ![] bcast_S_S409600 (id (constantI S_ 32 0#32)))

/-- The gathered rows, zero where not valid. -/
def rowsW (valid : IVec S409600 1) (sel : IVec S409600 32) (X : FVec F S409600x64 .f32) : FVec F S409600x64 .f32 :=
  select (broadcastInDim S409600x64 ![0, 1] bcast_S409600x1_S409600x64_0_1 (broadcastInDim S409600x1 ![0] bcast_S409600_S409600x1_0 valid))
    (Host.gather gather_S409600x64_S409600x1_S409600x64_1_0_n_n_0_1_164 X
      (broadcastInDim S409600x1 ![0] bcast_S409600_S409600x1_0 (normW 409600#32 sel)))
    (broadcastInDim S409600x64 ![] bcast_S_S409600x64 (id (constant S_ .f32 0x00000000#32)))

/-- One tap: the running sum plus the gathered rows times the weight slice. -/
def tapTerm (dyC dxC : BitVec 32) (cb cy cx : IVec S409600 32) (grid : IVec S2x640x640 32)
    (X : FVec F S409600x64 .f32) (wk : FVec F S64x64 .f32) (acc : FVec F S409600x64 .f32) : FVec F S409600x64 .f32 :=
  let ny := nyW dyC cy
  let nx := nyW dxC cx
  let inb := inbW ny nx
  let nidx := nidxW grid cb (clipW ny) (clipW nx)
  let valid := validW inb nidx
  addf acc (Host.dotGeneral dot_S409600x64_S64x64_S409600x64_1_0_0_1_n_n none (rowsW valid (selW valid nidx) X) wk)

end Stages

/-! ## The first tap of the first layer is this function -/

theorem tap1_eq {F : FTy → Type} [FloatOps F] (x0 : (⟨S409600x64, .f32⟩ : BufTy).Contents (Elt F))
    (x1 : (⟨S409600x3, .i32⟩ : BufTy).Contents (Elt F)) (x2 : (⟨S3x3x64x64, .f32⟩ : BufTy).Contents (Elt F)) :
    ReadP.val_main_v88 (F := F) x0 x1 x2
      = tapTerm 4294967295#32 4294967295#32 (ReadP.val_main_v29 (F := F) x1) (ReadP.val_main_v31 (F := F) x1) (ReadP.val_main_v33 (F := F) x1)
          (ReadP.val_main_v27 (F := F) x1) x0 (ReadP.val_main_v86 (F := F) x2) (ReadP.val_main_v34 (F := F)) := by
  rfl

end Cert.ReferenceIdeal.Tap

end
-- ==== Proof.Ref.Tap.lean ====
/- One tap of the reference's sparse convolution read at one index: the running sum plus the contraction of the
   neighbouring site's row (the zero row when the neighbouring cell is outside the grid or empty) with the tap's
   weight slice. -/
import proofs.«412627_j82471962018590_2_alg».proof.Proof.Ref.TapDef
import proofs.«412627_j82471962018590_2_alg».proof.Proof.Ref.ReadP
import proofs.«412627_j82471962018590_2_alg».proof.Proof.Spec
import proofs.«412627_j82471962018590_2_alg».proof.Proof.LibGather3
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

namespace Cert.ReferenceIdeal.Tap

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## Word facts -/

section Words

theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- The signed comparisons read on the signed values. -/
theorem sge_iff (a b : BitVec 32) : IntOp.cmpi .sge a b = 1#1 ↔ b.toInt ≤ a.toInt := by
  simp only [IntOp.cmpi, Predicate.ofBool_eq_one_iff, BitVec.sle, decide_eq_true_eq]

theorem slt_iff (a b : BitVec 32) : IntOp.cmpi .slt a b = 1#1 ↔ a.toInt < b.toInt := by
  simp only [IntOp.cmpi, Predicate.ofBool_eq_one_iff, BitVec.slt, decide_eq_true_eq]

theorem toInt_zero32 : (0#32 : BitVec 32).toInt = 0 := by decide
theorem toInt_639 : (639#32 : BitVec 32).toInt = 639 := by decide
theorem toInt_neg1 : (4294967295#32 : BitVec 32).toInt = -1 := by decide

/-- A tap's offset word reads signed as the offset. -/
theorem toInt_off (k : Fin 3) : (BitVec.ofInt 32 ((k.val : Int) - 1)).toInt = (k.val : Int) - 1 := by
  rw [BitVec.toInt_ofInt]
  have := k.isLt
  exact Int.bmod_eq_of_le (by omega) (by omega)

/-- A sum of words that stays inside the signed range does not wrap. -/
theorem toInt_addi (a b : BitVec 32) (h1 : -2 ^ 31 ≤ a.toInt + b.toInt) (h2 : a.toInt + b.toInt < 2 ^ 31) :
    (IntOp.addi a b).toInt = a.toInt + b.toInt := by
  unfold IntOp.addi
  rw [BitVec.toInt_add]
  exact Int.bmod_eq_of_le (by omega) (by omega)

/-- The clip into [0, 639] of a word already there. -/
theorem clip_id (v : BitVec 32) (h0 : 0 ≤ v.toInt) (h1 : v.toInt < 640) : IntOp.minsi 639#32 (IntOp.maxsi 0#32 v) = v := by
  have hmax : IntOp.maxsi 0#32 v = v := by
    unfold IntOp.maxsi
    rw [if_neg]
    simp only [BitVec.slt, toInt_zero32, decide_eq_true_eq]
    omega
  rw [hmax]
  unfold IntOp.minsi
  rw [if_neg]
  simp only [BitVec.slt, toInt_639, decide_eq_true_eq]
  omega

/-- The move of a negative index up by the axis size leaves a non-negative word alone. -/
theorem norm_id (size v : BitVec 32) (h0 : 0 ≤ v.toInt) :
    Scalar.select (IntOp.cmpi .slt v 0#32) (IntOp.addi v size) v = v := by
  unfold Scalar.select
  rw [if_neg]
  show ¬ IntOp.cmpi .slt v 0#32 = 1#1
  rw [slt_iff, toInt_zero32]
  omega

/-- A word whose signed value is a position of the axis clamps to that position. -/
theorem clampW_eq {N : Nat} (hN : 0 < N) (x : BitVec 32) (m : Fin N) (h : x.toInt = (m.val : Int)) :
    Cert.Spec.clampW N hN x = m := by
  apply Fin.ext
  have := m.isLt
  simp only [Cert.Spec.clampW]
  omega

end Words

/-! ## The stages read at a site -/

section Reads

theorem bc_apply (c : BitVec 32) (i : S409600.Idx) :
    broadcastInDim S409600 ![] bcast_S_S409600 (constantI S_ 32 c) i = c :=
  broadcastInDim_apply _ bcast_S_S409600 (constantI S_ 32 c) i (fun a => a.elim0) (fun a => a.elim0)

theorem bc_id_apply (c : BitVec 32) (i : S409600.Idx) :
    broadcastInDim S409600 ![] bcast_S_S409600 (id (constantI S_ 32 c)) i = c := bc_apply c i

theorem nyW_apply (dC : BitVec 32) (c : IVec S409600 32) (i : S409600.Idx) : nyW dC c i = IntOp.addi (c i) dC := by
  show IntOp.addi (c i) (broadcastInDim S409600 ![] bcast_S_S409600 (constantI S_ 32 dC) i) = _
  rw [bc_apply]

theorem inbW_iff (ny nx : IVec S409600 32) (i : S409600.Idx) :
    inbW ny nx i = 1#1 ↔ (0 ≤ (ny i).toInt ∧ (ny i).toInt < 640) ∧ (0 ≤ (nx i).toInt ∧ (nx i).toInt < 640) := by
  show IntOp.andi (IntOp.andi (IntOp.andi
        (IntOp.cmpi .sge (ny i) (broadcastInDim S409600 ![] bcast_S_S409600 (constantI S_ 32 0#32) i))
        (IntOp.cmpi .slt (ny i) (broadcastInDim S409600 ![] bcast_S_S409600 (constantI S_ 32 640#32) i)))
        (IntOp.cmpi .sge (nx i) (broadcastInDim S409600 ![] bcast_S_S409600 (constantI S_ 32 0#32) i)))
        (IntOp.cmpi .slt (nx i) (broadcastInDim S409600 ![] bcast_S_S409600 (constantI S_ 32 640#32) i)) = 1#1 ↔ _
  rw [bc_apply, bc_apply, andi_eq_one_iff, andi_eq_one_iff, andi_eq_one_iff, sge_iff, slt_iff, sge_iff, slt_iff, toInt_zero32]
  have e640 : (640#32 : BitVec 32).toInt = 640 := by decide
  rw [e640]
  tauto

theorem clipW_apply (v : IVec S409600 32) (i : S409600.Idx) : clipW v i = IntOp.minsi 639#32 (IntOp.maxsi 0#32 (v i)) := by
  show IntOp.minsi (broadcastInDim S409600 ![] bcast_S_S409600 (id (constantI S_ 32 639#32)) i)
    (IntOp.maxsi (broadcastInDim S409600 ![] bcast_S_S409600 (id (constantI S_ 32 0#32)) i) (v i)) = _
  rw [bc_id_apply, bc_id_apply]

theorem normW_apply (size : BitVec 32) (v : IVec S409600 32) (i : S409600.Idx) :
    normW size v i = Scalar.select (IntOp.cmpi .slt (v i) 0#32) (IntOp.addi (v i) size) (v i) := by
  show Scalar.select (IntOp.cmpi .slt (v i) (broadcastInDim S409600 ![] bcast_S_S409600 (constantI S_ 32 0#32) i))
    (IntOp.addi (v i) (broadcastInDim S409600 ![] bcast_S_S409600 (constantI S_ 32 size) i)) (v i) = _
  rw [bc_apply, bc_apply]

/-- A vector kept as a column, read at a row. -/
theorem col_apply {α : Type} (v : S409600.Idx → α) (n : Fin 409600) (k : Fin 1) :
    broadcastInDim S409600x1 ![0] bcast_S409600_S409600x1_0 v (ix2 n k) = v (ix1 n) :=
  broadcastInDim_apply _ bcast_S409600_S409600x1_0 v (ix2 n k) (ix1 n) (fun a => match a with
    | ⟨0, _⟩ => by show n.val = if (409600 : Nat) = 1 then 0 else n.val; rw [if_neg (by decide)])

theorem validW_iff (inb : IVec S409600 1) (nidx : IVec S409600 32) (i : S409600.Idx) :
    validW inb nidx i = 1#1 ↔ inb i = 1#1 ∧ 0 ≤ (nidx i).toInt := by
  show IntOp.andi (inb i) (IntOp.cmpi .sge (nidx i) (broadcastInDim S409600 ![] bcast_S_S409600 (constantI S_ 32 0#32) i)) = 1#1 ↔ _
  rw [bc_apply, andi_eq_one_iff, sge_iff, toInt_zero32]

theorem selW_apply (valid : IVec S409600 1) (nidx : IVec S409600 32) (i : S409600.Idx) :
    selW valid nidx i = Scalar.select (valid i) (nidx i) 0#32 := by
  show Scalar.select (valid i) (nidx i) (broadcastInDim S409600 ![] bcast_S_S409600 (id (constantI S_ 32 0#32)) i) = _
  rw [bc_id_apply]

end Reads

/-! ## The index triple, the two gathers, the mask and the zero row -/

section Gathers

theorem idx3_apply0 (a b c : IVec S409600 32) (n : Fin 409600) : idx3 a b c (ix2 n 0) = a (ix1 n) := by
  unfold idx3
  exact (concatenate_apply_piece (t := S409600x3) (1 : Fin 2)
    [⟨S409600x1, broadcastInDim S409600x1 ![0] bcast_S409600_S409600x1_0 a⟩,
      ⟨S409600x1, broadcastInDim S409600x1 ![0] bcast_S409600_S409600x1_0 b⟩,
      ⟨S409600x1, broadcastInDim S409600x1 ![0] bcast_S409600_S409600x1_0 c⟩]
    concatenates_S409600x1_S409600x1_S409600x1_S409600x3_d1 (ix2 n 0) 0 (by show (0 : Nat) < 3; decide)
    S409600x1 (broadcastInDim S409600x1 ![0] bcast_S409600_S409600x1_0 a) rfl rfl 0 rfl (ix2 n 0) (fun b hb => by
      match b with
      | ⟨0, _⟩ => rfl
      | ⟨1, _⟩ => exact absurd rfl hb) rfl).trans (col_apply a n 0)

theorem idx3_apply1 (a b c : IVec S409600 32) (n : Fin 409600) : idx3 a b c (ix2 n 1) = b (ix1 n) := by
  unfold idx3
  exact (concatenate_apply_piece (t := S409600x3) (1 : Fin 2)
    [⟨S409600x1, broadcastInDim S409600x1 ![0] bcast_S409600_S409600x1_0 a⟩,
      ⟨S409600x1, broadcastInDim S409600x1 ![0] bcast_S409600_S409600x1_0 b⟩,
      ⟨S409600x1, broadcastInDim S409600x1 ![0] bcast_S409600_S409600x1_0 c⟩]
    concatenates_S409600x1_S409600x1_S409600x1_S409600x3_d1 (ix2 n 1) 1 (by show (1 : Nat) < 3; decide)
    S409600x1 (broadcastInDim S409600x1 ![0] bcast_S409600_S409600x1_0 b) rfl rfl 1 rfl (ix2 n 0) (fun b hb => by
      match b with
      | ⟨0, _⟩ => rfl
      | ⟨1, _⟩ => exact absurd rfl hb) rfl).trans (col_apply b n 0)

theorem idx3_apply2 (a b c : IVec S409600 32) (n : Fin 409600) : idx3 a b c (ix2 n 2) = c (ix1 n) := by
  unfold idx3
  exact (concatenate_apply_piece (t := S409600x3) (1 : Fin 2)
    [⟨S409600x1, broadcastInDim S409600x1 ![0] bcast_S409600_S409600x1_0 a⟩,
      ⟨S409600x1, broadcastInDim S409600x1 ![0] bcast_S409600_S409600x1_0 b⟩,
      ⟨S409600x1, broadcastInDim S409600x1 ![0] bcast_S409600_S409600x1_0 c⟩]
    concatenates_S409600x1_S409600x1_S409600x1_S409600x3_d1 (ix2 n 2) 2 (by show (2 : Nat) < 3; decide)
    S409600x1 (broadcastInDim S409600x1 ![0] bcast_S409600_S409600x1_0 c) rfl rfl 2 rfl (ix2 n 0) (fun b hb => by
      match b with
      | ⟨0, _⟩ => rfl
      | ⟨1, _⟩ => exact absurd rfl hb) rfl).trans (col_apply c n 0)

/-- The grid read at the cell the site's three index words name. -/
theorem grid_gather_apply (grid : IVec S2x640x640 32) (idx : IVec S409600x3 32) (n : Fin 409600) :
    Host.gather gather_S2x640x640_S409600x3_S409600_n_012_n_n_012_1_111 grid idx (ix1 n)
      = grid (ix3 (Cert.Spec.clampW 2 (by decide) (idx (ix2 n 0))) (Cert.Spec.clampW 640 (by decide) (idx (ix2 n 1)))
          (Cert.Spec.clampW 640 (by decide) (idx (ix2 n 2)))) :=
  Cert.Gather3.gather3_apply (by decide) (by decide) (by decide) gather_S2x640x640_S409600x3_S409600_n_012_n_n_012_1_111
    rfl rfl rfl rfl rfl rfl grid idx n

/-- The row of the layer's input the site's index word names. -/
theorem rows_gather_apply {α : Type} (X : S409600x64.Idx → α) (idx : IVec S409600x1 32) (n : Fin 409600) (ci : Fin 64) :
    Host.gather gather_S409600x64_S409600x1_S409600x64_1_0_n_n_0_1_164 X idx (ix2 n ci)
      = X (ix2 (Cert.Spec.clampW 409600 (by decide) (idx (ix2 n 0))) ci) :=
  Cert.Gather3.gather_rows_clamp (by decide) gather_S409600x64_S409600x1_S409600x64_1_0_n_n_0_1_164
    rfl rfl rfl rfl rfl rfl rfl X idx n ci

theorem mask_apply (m : IVec S409600 1) (n : Fin 409600) (ci : Fin 64) :
    broadcastInDim S409600x64 ![0, 1] bcast_S409600x1_S409600x64_0_1
      (broadcastInDim S409600x1 ![0] bcast_S409600_S409600x1_0 m) (ix2 n ci) = m (ix1 n) := by
  rw [broadcastInDim_apply _ bcast_S409600x1_S409600x64_0_1 _ (ix2 n ci) (ix2 n 0) (fun a => match a with
    | ⟨0, _⟩ => by show n.val = if (409600 : Nat) = 1 then 0 else n.val; rw [if_neg (by decide)]
    | ⟨1, _⟩ => by show 0 = if (1 : Nat) = 1 then 0 else ci.val; rw [if_pos rfl])]
  exact col_apply m n 0

theorem zeroF_apply (i : S409600x64.Idx) :
    broadcastInDim S409600x64 ![] bcast_S_S409600x64 (id (constant (F := Ideal) S_ .f32 0x00000000#32)) i = 0 := by
  rw [broadcastInDim_apply _ bcast_S_S409600x64 _ i (fun a => a.elim0) (fun a => a.elim0)]
  exact Ideal.ofBits_zero_f32

/-- The gathered rows at a site: the row its index word names where valid, the zero row elsewhere. -/
theorem rowsW_apply (valid : IVec S409600 1) (sel : IVec S409600 32) (X : FVec Ideal S409600x64 .f32) (n : Fin 409600) (ci : Fin 64) :
    rowsW valid sel X (ix2 n ci)
      = if valid (ix1 n) = 1#1 then X (ix2 (Cert.Spec.clampW 409600 (by decide) (normW 409600#32 sel (ix1 n))) ci) else 0 := by
  unfold rowsW
  rw [select_apply, mask_apply, rows_gather_apply, col_apply, zeroF_apply]
  rfl

end Gathers

/-! ## The contraction -/

section Contraction

theorem dot_apply (A : FVec Ideal S409600x64 .f32) (W : FVec Ideal S64x64 .f32) (n : Fin 409600) (co : Fin 64) :
    Host.dotGeneral dot_S409600x64_S64x64_S409600x64_1_0_0_1_n_n none A W (ix2 n co) = ∑ ci : Fin 64, A (ix2 n ci) * W (ix2 ci co) := by
  simp only [Host.dotGeneral]
  rw [Ideal.dotGeneral_apply, ← Equiv.sum_comp (ValueIdx.contrEquiv1 dot_S409600x64_S64x64_S409600x64_1_0_0_1_n_n 64 rfl rfl).symm]
  refine Finset.sum_congr rfl fun k _ => ?_
  have hk := ValueIdx.contrEquiv1_symm_val dot_S409600x64_S64x64_S409600x64_1_0_0_1_n_n 64 rfl rfl k
  have el : dot_S409600x64_S64x64_S409600x64_1_0_0_1_n_n.lhsIdx (ix2 n co)
      ((ValueIdx.contrEquiv1 dot_S409600x64_S64x64_S409600x64_1_0_0_1_n_n 64 rfl rfl).symm k) = ix2 n k := funext fun a => Fin.ext (by
    match a with
    | ⟨0, _⟩ => exact ReadP.lhs_main_v87_0 _ _
    | ⟨1, _⟩ => exact (ReadP.lhs_main_v87_1 _ _).trans hk)
  have er : dot_S409600x64_S64x64_S409600x64_1_0_0_1_n_n.rhsIdx (ix2 n co)
      ((ValueIdx.contrEquiv1 dot_S409600x64_S64x64_S409600x64_1_0_0_1_n_n 64 rfl rfl).symm k) = ix2 k co := funext fun a => Fin.ext (by
    match a with
    | ⟨0, _⟩ => exact (ReadP.rhs_main_v87_0 _ _).trans hk
    | ⟨1, _⟩ => exact ReadP.rhs_main_v87_1 _ _)
  rw [el, er]

end Contraction

/-! ## One tap at a site -/

section Tap

theorem nbr_eq_some (y : Fin 640) (k : Fin 3) (h : 1 ≤ y.val + k.val ∧ y.val + k.val < 641) :
    Cert.Spec.nbr y k = some ⟨y.val + k.val - 1, by omega⟩ := dif_pos h

theorem nbr_eq_none (y : Fin 640) (k : Fin 3) (h : ¬(1 ≤ y.val + k.val ∧ y.val + k.val < 641)) :
    Cert.Spec.nbr y k = none := dif_neg h

/-- The neighbour's coordinate word does not wrap: it reads signed as the coordinate plus the offset. -/
theorem ny_toInt (k : Fin 3) (c : IVec S409600 32) (i : S409600.Idx) (h0 : 0 ≤ (c i).toInt) (h1 : (c i).toInt < 640) :
    (nyW (BitVec.ofInt 32 ((k.val : Int) - 1)) c i).toInt = (c i).toInt + (k.val : Int) - 1 := by
  have := k.isLt
  rw [nyW_apply, toInt_addi _ _ (by rw [toInt_off]; omega) (by rw [toInt_off]; omega), toInt_off]
  omega

/-- Where a neighbour word is outside the grid the gathered row is the zero row. -/
theorem rows_zero (inb : IVec S409600 1) (nidx sel : IVec S409600 32) (X : FVec Ideal S409600x64 .f32) (n : Fin 409600) (ci : Fin 64)
    (h : ¬ inb (ix1 n) = 1#1) : rowsW (validW inb nidx) sel X (ix2 n ci) = 0 := by
  rw [rowsW_apply, if_neg]
  rw [validW_iff]
  exact fun hh => h hh.1

/-- Where both neighbour words are inside the grid the gathered row is the row of the site the grid names at the
    neighbouring cell, the zero row when the cell is empty. -/
theorem rows_inrange (cb ny nx : IVec S409600 32) (grid : IVec S2x640x640 32) (X : FVec Ideal S409600x64 .f32)
    (Lw : Cert.Spec.Loc → Option (Fin 409600))
    (hG : ∀ l : Cert.Spec.Loc, grid (ix3 l.1 l.2.1 l.2.2) = match Lw l with | some n => BitVec.ofNat 32 n.val | none => 4294967295#32)
    (n : Fin 409600) (ci : Fin 64) (y' x' : Fin 640)
    (hb0 : 0 ≤ (cb (ix1 n)).toInt) (hyv : (ny (ix1 n)).toInt = (y'.val : Int)) (hxv : (nx (ix1 n)).toInt = (x'.val : Int)) :
    rowsW (validW (inbW ny nx) (nidxW grid cb (clipW ny) (clipW nx)))
        (selW (validW (inbW ny nx) (nidxW grid cb (clipW ny) (clipW nx))) (nidxW grid cb (clipW ny) (clipW nx))) X (ix2 n ci)
      = match Lw (Cert.Spec.clampW 2 (by decide) (cb (ix1 n)), y', x') with | some n' => X (ix2 n' ci) | none => 0 := by
  have hy'l := y'.isLt
  have hx'l := x'.isLt
  have hinb : inbW ny nx (ix1 n) = 1#1 := (inbW_iff ny nx (ix1 n)).2 ⟨⟨by omega, by omega⟩, by omega, by omega⟩
  have hnidx : nidxW grid cb (clipW ny) (clipW nx) (ix1 n)
      = grid (ix3 (Cert.Spec.clampW 2 (by decide) (cb (ix1 n))) y' x') := by
    unfold nidxW
    rw [grid_gather_apply, idx3_apply0, idx3_apply1, idx3_apply2, normW_apply, normW_apply, normW_apply, clipW_apply, clipW_apply,
      clip_id (ny (ix1 n)) (by omega) (by omega), clip_id (nx (ix1 n)) (by omega) (by omega), norm_id _ (cb (ix1 n)) hb0,
      norm_id _ (ny (ix1 n)) (by omega), norm_id _ (nx (ix1 n)) (by omega),
      clampW_eq _ (ny (ix1 n)) y' hyv, clampW_eq _ (nx (ix1 n)) x' hxv]
  have hG' : grid (ix3 (Cert.Spec.clampW 2 (by decide) (cb (ix1 n))) y' x')
      = match Lw (Cert.Spec.clampW 2 (by decide) (cb (ix1 n)), y', x') with | some n => BitVec.ofNat 32 n.val | none => 4294967295#32 :=
    hG (Cert.Spec.clampW 2 (by decide) (cb (ix1 n)), y', x')
  rw [hG'] at hnidx
  generalize nidxW grid cb (clipW ny) (clipW nx) = nidx at hnidx ⊢
  rw [rowsW_apply]
  cases hL : Lw (Cert.Spec.clampW 2 (by decide) (cb (ix1 n)), y', x') with
  | none =>
    rw [hL] at hnidx
    dsimp only at hnidx ⊢
    rw [if_neg]
    rw [validW_iff, hnidx, toInt_neg1]
    omega
  | some n' =>
    rw [hL] at hnidx
    dsimp only at hnidx ⊢
    have hn' := n'.isLt
    have hti : (nidx (ix1 n)).toInt = (n'.val : Int) := by
      rw [hnidx]; exact Predicate.toInt_ofNat_small n'.val (by omega)
    have hv : validW (inbW ny nx) nidx (ix1 n) = 1#1 := (validW_iff _ _ _).2 ⟨hinb, by omega⟩
    rw [if_pos hv, normW_apply, selW_apply, hv, ValueIdx.select_one, norm_id _ _ (by omega), clampW_eq _ _ n' hti]

/-- ONE TAP AT A SITE: the running sum plus the contraction with the weight slice of the row of the site the
    grid names at the neighbouring cell: the zero row when that cell is outside the grid or empty. -/
theorem tapTerm_apply (ky kx : Fin 3) (dyC dxC : BitVec 32) (hdy : dyC = BitVec.ofInt 32 ((ky.val : Int) - 1))
    (hdx : dxC = BitVec.ofInt 32 ((kx.val : Int) - 1)) (cb cy cx : IVec S409600 32) (grid : IVec S2x640x640 32)
    (X : FVec Ideal S409600x64 .f32) (wk : FVec Ideal S64x64 .f32) (acc : FVec Ideal S409600x64 .f32)
    (Lw : Cert.Spec.Loc → Option (Fin 409600))
    (hG : ∀ l : Cert.Spec.Loc, grid (ix3 l.1 l.2.1 l.2.2) = match Lw l with | some n => BitVec.ofNat 32 n.val | none => 4294967295#32)
    (hb : ∀ n : Fin 409600, 0 ≤ (cb (ix1 n)).toInt ∧ (cb (ix1 n)).toInt < 2)
    (hy : ∀ n : Fin 409600, 0 ≤ (cy (ix1 n)).toInt ∧ (cy (ix1 n)).toInt < 640)
    (hx : ∀ n : Fin 409600, 0 ≤ (cx (ix1 n)).toInt ∧ (cx (ix1 n)).toInt < 640)
    (n : Fin 409600) (co : Fin 64) :
    tapTerm (F := Ideal) dyC dxC cb cy cx grid X wk acc (ix2 n co)
      = acc (ix2 n co) + ∑ ci : Fin 64,
          (match Cert.Spec.nbr (Cert.Spec.clampW 640 (by decide) (cy (ix1 n))) ky,
                 Cert.Spec.nbr (Cert.Spec.clampW 640 (by decide) (cx (ix1 n))) kx with
            | some y', some x' =>
              (match Lw (Cert.Spec.clampW 2 (by decide) (cb (ix1 n)), y', x') with
                | some n' => X (ix2 n' ci)
                | none => 0)
            | _, _ => 0) * wk (ix2 ci co) := by
  subst hdy hdx
  have hkY := ky.isLt
  have hkX := kx.isLt
  obtain ⟨hb0, hb1⟩ := hb n
  obtain ⟨hy0, hy1⟩ := hy n
  obtain ⟨hx0, hx1⟩ := hx n
  simp only [tapTerm]
  rw [addf_apply, dot_apply]
  congr 1
  refine Finset.sum_congr rfl fun ci _ => ?_
  congr 1
  have hnyv := ny_toInt ky cy (ix1 n) hy0 hy1
  have hnxv := ny_toInt kx cx (ix1 n) hx0 hx1
  generalize nyW (BitVec.ofInt 32 ((ky.val : Int) - 1)) cy = ny at hnyv ⊢
  generalize nyW (BitVec.ofInt 32 ((kx.val : Int) - 1)) cx = nx at hnxv ⊢
  have hyc : ((Cert.Spec.clampW 640 (by decide) (cy (ix1 n))).val : Int) = (cy (ix1 n)).toInt := by
    simp only [Cert.Spec.clampW]; omega
  have hxc : ((Cert.Spec.clampW 640 (by decide) (cx (ix1 n))).val : Int) = (cx (ix1 n)).toInt := by
    simp only [Cert.Spec.clampW]; omega
  generalize Cert.Spec.clampW 640 (by decide) (cy (ix1 n)) = y at hyc ⊢
  generalize Cert.Spec.clampW 640 (by decide) (cx (ix1 n)) = x at hxc ⊢
  by_cases hY : 1 ≤ y.val + ky.val ∧ y.val + ky.val < 641
  · by_cases hX : 1 ≤ x.val + kx.val ∧ x.val + kx.val < 641
    · rw [nbr_eq_some y ky hY, nbr_eq_some x kx hX]
      dsimp only
      exact rows_inrange cb ny nx grid X Lw hG n ci _ _ hb0 (by rw [hnyv]; simp only []; omega) (by rw [hnxv]; simp only []; omega)
    · rw [nbr_eq_some y ky hY, nbr_eq_none x kx hX]
      dsimp only
      exact rows_zero _ _ _ X n ci (fun h => hX (by have := (inbW_iff ny nx (ix1 n)).1 h; omega))
  · rw [nbr_eq_none y ky hY]
    dsimp only
    exact rows_zero _ _ _ X n ci (fun h => hY (by have := (inbW_iff ny nx (ix1 n)).1 h; omega))

end Tap

end Cert.ReferenceIdeal.Tap

end
-- ==== Proof.Ref.ValueGrid.lean ====
/- The reference's grid of site numbers read at a cell: the number of the last site whose coordinate words name the
   cell, minus one (the all-ones word) at a cell no site names. The scatter's index array is the three coordinate
   columns, each moved up by its axis size where negative, side by side; for coordinates inside the grid no word is
   negative and the index array is the coordinate array. -/
import proofs.«412627_j82471962018590_2_alg».proof.Proof.Ref.ReadP
import proofs.«412627_j82471962018590_2_alg».proof.Proof.Spec
import proofs.«412627_j82471962018590_2_alg».proof.Proof.LibScatter3
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec
open scoped BigOperators

variable {F : FTy → Type} [FloatOps F]

/-- A select on "the word is negative" takes its second operand at a word that is not. -/
theorem select_slt_zero {α : Type} (w : BitVec 32) (h : 0 ≤ w.toInt) (a b : α) :
    Scalar.select (IntOp.cmpi .slt w 0#32) a b = b := by
  have hc : IntOp.cmpi .slt w 0#32 = 0#1 := by
    unfold IntOp.cmpi
    have hs : w.slt 0#32 = false := by
      unfold BitVec.slt
      exact decide_eq_false (by rw [BitVec.toInt_zero]; omega)
    show BitVec.ofBool (w.slt 0#32) = 0#1
    rw [hs]; rfl
  rw [hc]; exact select_zero a b

/-- The three coordinate columns, as the program slices and reshapes them, are the coordinate array's columns. -/
theorem col0_apply (x1 : (⟨S409600x3, .i32⟩ : BufTy).Contents (Elt F)) (e : Fin 409600) :
    ReadP.val_main_v2 (F := F) x1 (ix1 e) = x1 (ix2 e 0) := by
  rw [ReadP.val_main_v2_apply, ReadP.val_main_v1_apply]
  congr 1
  funext a
  match a with
  | ⟨0, _⟩ => exact Fin.ext (by show e.val / 1 = e.val; omega)
  | ⟨1, _⟩ => rfl
theorem col1_apply (x1 : (⟨S409600x3, .i32⟩ : BufTy).Contents (Elt F)) (e : Fin 409600) :
    ReadP.val_main_v4 (F := F) x1 (ix1 e) = x1 (ix2 e 1) := by
  rw [ReadP.val_main_v4_apply, ReadP.val_main_v3_apply]
  congr 1
  funext a
  match a with
  | ⟨0, _⟩ => exact Fin.ext (by show e.val / 1 = e.val; omega)
  | ⟨1, _⟩ => rfl
theorem col2_apply (x1 : (⟨S409600x3, .i32⟩ : BufTy).Contents (Elt F)) (e : Fin 409600) :
    ReadP.val_main_v6 (F := F) x1 (ix1 e) = x1 (ix2 e 2) := by
  rw [ReadP.val_main_v6_apply, ReadP.val_main_v5_apply]
  congr 1
  funext a
  match a with
  | ⟨0, _⟩ => exact Fin.ext (by show e.val / 1 = e.val; omega)
  | ⟨1, _⟩ => rfl

/-- The scatter's index array at column 0: the batch word, which is not negative. -/
theorem normIdx0 (x1 : (⟨S409600x3, .i32⟩ : BufTy).Contents (Elt F)) (hin : InRange x1) (e : Fin 409600) :
    ReadP.val_main_v26 (F := F) x1 (ix2 e 0) = x1 (ix2 e 0) := by
  unfold ReadP.val_main_v26
  refine (concatenate_apply_piece (t := S409600x3) 1
    [⟨S409600x1, ReadP.val_main_v23 (F := F) x1⟩, ⟨S409600x1, ReadP.val_main_v24 (F := F) x1⟩, ⟨S409600x1, ReadP.val_main_v25 (F := F) x1⟩]
    concatenates_S409600x1_S409600x1_S409600x1_S409600x3_d1 (ix2 e 0)
    0 (by show 0 < 3; omega) S409600x1 (ReadP.val_main_v23 (F := F) x1) rfl rfl 0 rfl (ix2 e 0) ?_ rfl).trans ?_
  · intro b hb
    match b with
    | ⟨0, _⟩ => rfl
    | ⟨1, _⟩ => exact absurd rfl hb
  · rw [ReadP.val_main_v23_apply]
    show ReadP.val_main_v12 (F := F) x1 (ix1 e) = _
    rw [ReadP.val_main_v12_apply, ReadP.val_main_v9_apply, col0_apply]
    exact select_slt_zero _ (hin e).1.1 _ _
theorem normIdx1 (x1 : (⟨S409600x3, .i32⟩ : BufTy).Contents (Elt F)) (hin : InRange x1) (e : Fin 409600) :
    ReadP.val_main_v26 (F := F) x1 (ix2 e 1) = x1 (ix2 e 1) := by
  unfold ReadP.val_main_v26
  refine (concatenate_apply_piece (t := S409600x3) 1
    [⟨S409600x1, ReadP.val_main_v23 (F := F) x1⟩, ⟨S409600x1, ReadP.val_main_v24 (F := F) x1⟩, ⟨S409600x1, ReadP.val_main_v25 (F := F) x1⟩]
    concatenates_S409600x1_S409600x1_S409600x1_S409600x3_d1 (ix2 e 1)
    1 (by show 1 < 3; omega) S409600x1 (ReadP.val_main_v24 (F := F) x1) rfl rfl 1 rfl (ix2 e 0) ?_ rfl).trans ?_
  · intro b hb
    match b with
    | ⟨0, _⟩ => rfl
    | ⟨1, _⟩ => exact absurd rfl hb
  · rw [ReadP.val_main_v24_apply]
    show ReadP.val_main_v17 (F := F) x1 (ix1 e) = _
    rw [ReadP.val_main_v17_apply, ReadP.val_main_v14_apply, col1_apply]
    exact select_slt_zero _ (hin e).2.1.1 _ _
theorem normIdx2 (x1 : (⟨S409600x3, .i32⟩ : BufTy).Contents (Elt F)) (hin : InRange x1) (e : Fin 409600) :
    ReadP.val_main_v26 (F := F) x1 (ix2 e 2) = x1 (ix2 e 2) := by
  unfold ReadP.val_main_v26
  refine (concatenate_apply_piece (t := S409600x3) 1
    [⟨S409600x1, ReadP.val_main_v23 (F := F) x1⟩, ⟨S409600x1, ReadP.val_main_v24 (F := F) x1⟩, ⟨S409600x1, ReadP.val_main_v25 (F := F) x1⟩]
    concatenates_S409600x1_S409600x1_S409600x1_S409600x3_d1 (ix2 e 2)
    2 (by show 2 < 3; omega) S409600x1 (ReadP.val_main_v25 (F := F) x1) rfl rfl 2 rfl (ix2 e 0) ?_ rfl).trans ?_
  · intro b hb
    match b with
    | ⟨0, _⟩ => rfl
    | ⟨1, _⟩ => exact absurd rfl hb
  · rw [ReadP.val_main_v25_apply]
    show ReadP.val_main_v22 (F := F) x1 (ix1 e) = _
    rw [ReadP.val_main_v22_apply, ReadP.val_main_v19_apply, col2_apply]
    exact select_slt_zero _ (hin e).2.2.1 _ _

/-- THE GRID AT A CELL: the last site naming it, as a word; the all-ones word when none does. -/
theorem grid_eq (x1 : (⟨S409600x3, .i32⟩ : BufTy).Contents (Elt F)) (hin : InRange x1) (l : Loc) :
    ReadP.val_main_v27 (F := F) x1 (ix3 l.1 l.2.1 l.2.2)
      = match lastAt x1 l with | some n => BitVec.ofNat 32 n.val | none => 4294967295#32 := by
  unfold ReadP.val_main_v27
  rw [Cert.Scatter3.scatter3_set_apply _ rfl rfl rfl rfl]
  have hcongr : lastSat (fun e : Fin 409600 => tgt3 2 640 640 (ReadP.val_main_v26 (F := F) x1 (ix2 e 0))
      (ReadP.val_main_v26 (F := F) x1 (ix2 e 1)) (ReadP.val_main_v26 (F := F) x1 (ix2 e 2)) = some (l.1, l.2.1, l.2.2))
      = lastAt x1 l := by
    unfold lastAt cellOf
    exact lastSat_congr _ _ (fun e => by rw [normIdx0 x1 hin, normIdx1 x1 hin, normIdx2 x1 hin])
  rw [hcongr]
  cases lastAt x1 l with
  | none =>
    show ReadP.val_main_v0 (F := F) (ix3 l.1 l.2.1 l.2.2) = _
    rw [ReadP.val_main_v0_apply]; rfl
  | some n => rfl

end Cert.ReferenceIdeal.Hand

end
-- ==== Proof.Ref.ValueTaps.lean ====
/- The eighteen taps of the reference's two sparse layers: each tap's running sum is the one-tap function of the
   coordinate columns, the grid, the layer's input rows, the tap's weight slice and the previous running sum; and
   each tap's weight slice, read at (ci, co), is the layer's weight array at (ky, kx, ci, co). Tap k of a layer has
   ky = k / 3 and kx = k % 3, with offsets ky - 1 and kx - 1 as 32-bit words. -/
import proofs.«412627_j82471962018590_2_alg».proof.Proof.Ref.TapDef

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## Layer 1 -/

/-- Layer 1, tap (0, 0). -/
theorem l1t0_eq (x0 : (⟨S409600x64, .f32⟩ : BufTy).Contents (Elt F)) (x1 : (⟨S409600x3, .i32⟩ : BufTy).Contents (Elt F)) (x2 : (⟨S3x3x64x64, .f32⟩ : BufTy).Contents (Elt F)) :
    ReadP.val_main_v88 (F := F) x0 x1 x2
      = Tap.tapTerm 4294967295#32 4294967295#32 (ReadP.val_main_v29 (F := F) x1) (ReadP.val_main_v31 (F := F) x1) (ReadP.val_main_v33 (F := F) x1)
          (ReadP.val_main_v27 (F := F) x1) x0 (ReadP.val_main_v86 (F := F) x2) (ReadP.val_main_v34 (F := F)) := by
  rfl
/-- Layer 1, tap (0, 0): its weight slice at an index. -/
theorem l1w0_apply (x2 : (⟨S3x3x64x64, .f32⟩ : BufTy).Contents (Elt F)) (ci co : Fin 64) :
    ReadP.val_main_v86 (F := F) x2 (ix2 ci co) = x2 (ix4 0 0 ci co) := by
  rw [ReadP.val_main_v86_apply, ReadP.val_main_v85_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 1, tap (0, 1). -/
theorem l1t1_eq (x0 : (⟨S409600x64, .f32⟩ : BufTy).Contents (Elt F)) (x1 : (⟨S409600x3, .i32⟩ : BufTy).Contents (Elt F)) (x2 : (⟨S3x3x64x64, .f32⟩ : BufTy).Contents (Elt F)) :
    ReadP.val_main_v142 (F := F) x0 x1 x2
      = Tap.tapTerm 4294967295#32 0#32 (ReadP.val_main_v29 (F := F) x1) (ReadP.val_main_v31 (F := F) x1) (ReadP.val_main_v33 (F := F) x1)
          (ReadP.val_main_v27 (F := F) x1) x0 (ReadP.val_main_v140 (F := F) x2) (ReadP.val_main_v88 (F := F) x0 x1 x2) := by
  rfl
/-- Layer 1, tap (0, 1): its weight slice at an index. -/
theorem l1w1_apply (x2 : (⟨S3x3x64x64, .f32⟩ : BufTy).Contents (Elt F)) (ci co : Fin 64) :
    ReadP.val_main_v140 (F := F) x2 (ix2 ci co) = x2 (ix4 0 1 ci co) := by
  rw [ReadP.val_main_v140_apply, ReadP.val_main_v139_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 1, tap (0, 2). -/
theorem l1t2_eq (x0 : (⟨S409600x64, .f32⟩ : BufTy).Contents (Elt F)) (x1 : (⟨S409600x3, .i32⟩ : BufTy).Contents (Elt F)) (x2 : (⟨S3x3x64x64, .f32⟩ : BufTy).Contents (Elt F)) :
    ReadP.val_main_v196 (F := F) x0 x1 x2
      = Tap.tapTerm 4294967295#32 1#32 (ReadP.val_main_v29 (F := F) x1) (ReadP.val_main_v31 (F := F) x1) (ReadP.val_main_v33 (F := F) x1)
          (ReadP.val_main_v27 (F := F) x1) x0 (ReadP.val_main_v194 (F := F) x2) (ReadP.val_main_v142 (F := F) x0 x1 x2) := by
  rfl
/-- Layer 1, tap (0, 2): its weight slice at an index. -/
theorem l1w2_apply (x2 : (⟨S3x3x64x64, .f32⟩ : BufTy).Contents (Elt F)) (ci co : Fin 64) :
    ReadP.val_main_v194 (F := F) x2 (ix2 ci co) = x2 (ix4 0 2 ci co) := by
  rw [ReadP.val_main_v194_apply, ReadP.val_main_v193_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 1, tap (1, 0). -/
theorem l1t3_eq (x0 : (⟨S409600x64, .f32⟩ : BufTy).Contents (Elt F)) (x1 : (⟨S409600x3, .i32⟩ : BufTy).Contents (Elt F)) (x2 : (⟨S3x3x64x64, .f32⟩ : BufTy).Contents (Elt F)) :
    ReadP.val_main_v250 (F := F) x0 x1 x2
      = Tap.tapTerm 0#32 4294967295#32 (ReadP.val_main_v29 (F := F) x1) (ReadP.val_main_v31 (F := F) x1) (ReadP.val_main_v33 (F := F) x1)
          (ReadP.val_main_v27 (F := F) x1) x0 (ReadP.val_main_v248 (F := F) x2) (ReadP.val_main_v196 (F := F) x0 x1 x2) := by
  rfl
/-- Layer 1, tap (1, 0): its weight slice at an index. -/
theorem l1w3_apply (x2 : (⟨S3x3x64x64, .f32⟩ : BufTy).Contents (Elt F)) (ci co : Fin 64) :
    ReadP.val_main_v248 (F := F) x2 (ix2 ci co) = x2 (ix4 1 0 ci co) := by
  rw [ReadP.val_main_v248_apply, ReadP.val_main_v247_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 1, tap (1, 1). -/
theorem l1t4_eq (x0 : (⟨S409600x64, .f32⟩ : BufTy).Contents (Elt F)) (x1 : (⟨S409600x3, .i32⟩ : BufTy).Contents (Elt F)) (x2 : (⟨S3x3x64x64, .f32⟩ : BufTy).Contents (Elt F)) :
    ReadP.val_main_v304 (F := F) x0 x1 x2
      = Tap.tapTerm 0#32 0#32 (ReadP.val_main_v29 (F := F) x1) (ReadP.val_main_v31 (F := F) x1) (ReadP.val_main_v33 (F := F) x1)
          (ReadP.val_main_v27 (F := F) x1) x0 (ReadP.val_main_v302 (F := F) x2) (ReadP.val_main_v250 (F := F) x0 x1 x2) := by
  rfl
/-- Layer 1, tap (1, 1): its weight slice at an index. -/
theorem l1w4_apply (x2 : (⟨S3x3x64x64, .f32⟩ : BufTy).Contents (Elt F)) (ci co : Fin 64) :
    ReadP.val_main_v302 (F := F) x2 (ix2 ci co) = x2 (ix4 1 1 ci co) := by
  rw [ReadP.val_main_v302_apply, ReadP.val_main_v301_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 1, tap (1, 2). -/
theorem l1t5_eq (x0 : (⟨S409600x64, .f32⟩ : BufTy).Contents (Elt F)) (x1 : (⟨S409600x3, .i32⟩ : BufTy).Contents (Elt F)) (x2 : (⟨S3x3x64x64, .f32⟩ : BufTy).Contents (Elt F)) :
    ReadP.val_main_v358 (F := F) x0 x1 x2
      = Tap.tapTerm 0#32 1#32 (ReadP.val_main_v29 (F := F) x1) (ReadP.val_main_v31 (F := F) x1) (ReadP.val_main_v33 (F := F) x1)
          (ReadP.val_main_v27 (F := F) x1) x0 (ReadP.val_main_v356 (F := F) x2) (ReadP.val_main_v304 (F := F) x0 x1 x2) := by
  rfl
/-- Layer 1, tap (1, 2): its weight slice at an index. -/
theorem l1w5_apply (x2 : (⟨S3x3x64x64, .f32⟩ : BufTy).Contents (Elt F)) (ci co : Fin 64) :
    ReadP.val_main_v356 (F := F) x2 (ix2 ci co) = x2 (ix4 1 2 ci co) := by
  rw [ReadP.val_main_v356_apply, ReadP.val_main_v355_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 1, tap (2, 0). -/
theorem l1t6_eq (x0 : (⟨S409600x64, .f32⟩ : BufTy).Contents (Elt F)) (x1 : (⟨S409600x3, .i32⟩ : BufTy).Contents (Elt F)) (x2 : (⟨S3x3x64x64, .f32⟩ : BufTy).Contents (Elt F)) :
    ReadP.val_main_v412 (F := F) x0 x1 x2
      = Tap.tapTerm 1#32 4294967295#32 (ReadP.val_main_v29 (F := F) x1) (ReadP.val_main_v31 (F := F) x1) (ReadP.val_main_v33 (F := F) x1)
          (ReadP.val_main_v27 (F := F) x1) x0 (ReadP.val_main_v410 (F := F) x2) (ReadP.val_main_v358 (F := F) x0 x1 x2) := by
  rfl
/-- Layer 1, tap (2, 0): its weight slice at an index. -/
theorem l1w6_apply (x2 : (⟨S3x3x64x64, .f32⟩ : BufTy).Contents (Elt F)) (ci co : Fin 64) :
    ReadP.val_main_v410 (F := F) x2 (ix2 ci co) = x2 (ix4 2 0 ci co) := by
  rw [ReadP.val_main_v410_apply, ReadP.val_main_v409_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 1, tap (2, 1). -/
theorem l1t7_eq (x0 : (⟨S409600x64, .f32⟩ : BufTy).Contents (Elt F)) (x1 : (⟨S409600x3, .i32⟩ : BufTy).Contents (Elt F)) (x2 : (⟨S3x3x64x64, .f32⟩ : BufTy).Contents (Elt F)) :
    ReadP.val_main_v466 (F := F) x0 x1 x2
      = Tap.tapTerm 1#32 0#32 (ReadP.val_main_v29 (F := F) x1) (ReadP.val_main_v31 (F := F) x1) (ReadP.val_main_v33 (F := F) x1)
          (ReadP.val_main_v27 (F := F) x1) x0 (ReadP.val_main_v464 (F := F) x2) (ReadP.val_main_v412 (F := F) x0 x1 x2) := by
  rfl
/-- Layer 1, tap (2, 1): its weight slice at an index. -/
theorem l1w7_apply (x2 : (⟨S3x3x64x64, .f32⟩ : BufTy).Contents (Elt F)) (ci co : Fin 64) :
    ReadP.val_main_v464 (F := F) x2 (ix2 ci co) = x2 (ix4 2 1 ci co) := by
  rw [ReadP.val_main_v464_apply, ReadP.val_main_v463_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 1, tap (2, 2). -/
theorem l1t8_eq (x0 : (⟨S409600x64, .f32⟩ : BufTy).Contents (Elt F)) (x1 : (⟨S409600x3, .i32⟩ : BufTy).Contents (Elt F)) (x2 : (⟨S3x3x64x64, .f32⟩ : BufTy).Contents (Elt F)) :
    ReadP.val_main_v520 (F := F) x0 x1 x2
      = Tap.tapTerm 1#32 1#32 (ReadP.val_main_v29 (F := F) x1) (ReadP.val_main_v31 (F := F) x1) (ReadP.val_main_v33 (F := F) x1)
          (ReadP.val_main_v27 (F := F) x1) x0 (ReadP.val_main_v518 (F := F) x2) (ReadP.val_main_v466 (F := F) x0 x1 x2) := by
  rfl
/-- Layer 1, tap (2, 2): its weight slice at an index. -/
theorem l1w8_apply (x2 : (⟨S3x3x64x64, .f32⟩ : BufTy).Contents (Elt F)) (ci co : Fin 64) :
    ReadP.val_main_v518 (F := F) x2 (ix2 ci co) = x2 (ix4 2 2 ci co) := by
  rw [ReadP.val_main_v518_apply, ReadP.val_main_v517_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-! ## Layer 2 -/

/-- Layer 2, tap (0, 0). -/
theorem l2t0_eq (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) :
    ReadP.val_main_v585 (F := F) x0 x1 x2 x3 x4
      = Tap.tapTerm 4294967295#32 4294967295#32 (ReadP.val_main_v526 (F := F) x1) (ReadP.val_main_v528 (F := F) x1) (ReadP.val_main_v530 (F := F) x1)
          (ReadP.val_main_v27 (F := F) x1) (ReadP.val_main_v524 (F := F) x0 x1 x2 x3) (ReadP.val_main_v583 (F := F) x4) (ReadP.val_main_v531 (F := F)) := by
  rfl
/-- Layer 2, tap (0, 0): its weight slice at an index. -/
theorem l2w0_apply (x4 : (⟨S3x3x64x64, .f32⟩ : BufTy).Contents (Elt F)) (ci co : Fin 64) :
    ReadP.val_main_v583 (F := F) x4 (ix2 ci co) = x4 (ix4 0 0 ci co) := by
  rw [ReadP.val_main_v583_apply, ReadP.val_main_v582_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 2, tap (0, 1). -/
theorem l2t1_eq (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) :
    ReadP.val_main_v639 (F := F) x0 x1 x2 x3 x4
      = Tap.tapTerm 4294967295#32 0#32 (ReadP.val_main_v526 (F := F) x1) (ReadP.val_main_v528 (F := F) x1) (ReadP.val_main_v530 (F := F) x1)
          (ReadP.val_main_v27 (F := F) x1) (ReadP.val_main_v524 (F := F) x0 x1 x2 x3) (ReadP.val_main_v637 (F := F) x4) (ReadP.val_main_v585 (F := F) x0 x1 x2 x3 x4) := by
  rfl
/-- Layer 2, tap (0, 1): its weight slice at an index. -/
theorem l2w1_apply (x4 : (⟨S3x3x64x64, .f32⟩ : BufTy).Contents (Elt F)) (ci co : Fin 64) :
    ReadP.val_main_v637 (F := F) x4 (ix2 ci co) = x4 (ix4 0 1 ci co) := by
  rw [ReadP.val_main_v637_apply, ReadP.val_main_v636_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 2, tap (0, 2). -/
theorem l2t2_eq (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) :
    ReadP.val_main_v693 (F := F) x0 x1 x2 x3 x4
      = Tap.tapTerm 4294967295#32 1#32 (ReadP.val_main_v526 (F := F) x1) (ReadP.val_main_v528 (F := F) x1) (ReadP.val_main_v530 (F := F) x1)
          (ReadP.val_main_v27 (F := F) x1) (ReadP.val_main_v524 (F := F) x0 x1 x2 x3) (ReadP.val_main_v691 (F := F) x4) (ReadP.val_main_v639 (F := F) x0 x1 x2 x3 x4) := by
  rfl
/-- Layer 2, tap (0, 2): its weight slice at an index. -/
theorem l2w2_apply (x4 : (⟨S3x3x64x64, .f32⟩ : BufTy).Contents (Elt F)) (ci co : Fin 64) :
    ReadP.val_main_v691 (F := F) x4 (ix2 ci co) = x4 (ix4 0 2 ci co) := by
  rw [ReadP.val_main_v691_apply, ReadP.val_main_v690_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 2, tap (1, 0). -/
theorem l2t3_eq (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) :
    ReadP.val_main_v747 (F := F) x0 x1 x2 x3 x4
      = Tap.tapTerm 0#32 4294967295#32 (ReadP.val_main_v526 (F := F) x1) (ReadP.val_main_v528 (F := F) x1) (ReadP.val_main_v530 (F := F) x1)
          (ReadP.val_main_v27 (F := F) x1) (ReadP.val_main_v524 (F := F) x0 x1 x2 x3) (ReadP.val_main_v745 (F := F) x4) (ReadP.val_main_v693 (F := F) x0 x1 x2 x3 x4) := by
  rfl
/-- Layer 2, tap (1, 0): its weight slice at an index. -/
theorem l2w3_apply (x4 : (⟨S3x3x64x64, .f32⟩ : BufTy).Contents (Elt F)) (ci co : Fin 64) :
    ReadP.val_main_v745 (F := F) x4 (ix2 ci co) = x4 (ix4 1 0 ci co) := by
  rw [ReadP.val_main_v745_apply, ReadP.val_main_v744_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 2, tap (1, 1). -/
theorem l2t4_eq (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) :
    ReadP.val_main_v801 (F := F) x0 x1 x2 x3 x4
      = Tap.tapTerm 0#32 0#32 (ReadP.val_main_v526 (F := F) x1) (ReadP.val_main_v528 (F := F) x1) (ReadP.val_main_v530 (F := F) x1)
          (ReadP.val_main_v27 (F := F) x1) (ReadP.val_main_v524 (F := F) x0 x1 x2 x3) (ReadP.val_main_v799 (F := F) x4) (ReadP.val_main_v747 (F := F) x0 x1 x2 x3 x4) := by
  rfl
/-- Layer 2, tap (1, 1): its weight slice at an index. -/
theorem l2w4_apply (x4 : (⟨S3x3x64x64, .f32⟩ : BufTy).Contents (Elt F)) (ci co : Fin 64) :
    ReadP.val_main_v799 (F := F) x4 (ix2 ci co) = x4 (ix4 1 1 ci co) := by
  rw [ReadP.val_main_v799_apply, ReadP.val_main_v798_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 2, tap (1, 2). -/
theorem l2t5_eq (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) :
    ReadP.val_main_v855 (F := F) x0 x1 x2 x3 x4
      = Tap.tapTerm 0#32 1#32 (ReadP.val_main_v526 (F := F) x1) (ReadP.val_main_v528 (F := F) x1) (ReadP.val_main_v530 (F := F) x1)
          (ReadP.val_main_v27 (F := F) x1) (ReadP.val_main_v524 (F := F) x0 x1 x2 x3) (ReadP.val_main_v853 (F := F) x4) (ReadP.val_main_v801 (F := F) x0 x1 x2 x3 x4) := by
  rfl
/-- Layer 2, tap (1, 2): its weight slice at an index. -/
theorem l2w5_apply (x4 : (⟨S3x3x64x64, .f32⟩ : BufTy).Contents (Elt F)) (ci co : Fin 64) :
    ReadP.val_main_v853 (F := F) x4 (ix2 ci co) = x4 (ix4 1 2 ci co) := by
  rw [ReadP.val_main_v853_apply, ReadP.val_main_v852_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 2, tap (2, 0). -/
theorem l2t6_eq (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) :
    ReadP.val_main_v909 (F := F) x0 x1 x2 x3 x4
      = Tap.tapTerm 1#32 4294967295#32 (ReadP.val_main_v526 (F := F) x1) (ReadP.val_main_v528 (F := F) x1) (ReadP.val_main_v530 (F := F) x1)
          (ReadP.val_main_v27 (F := F) x1) (ReadP.val_main_v524 (F := F) x0 x1 x2 x3) (ReadP.val_main_v907 (F := F) x4) (ReadP.val_main_v855 (F := F) x0 x1 x2 x3 x4) := by
  rfl
/-- Layer 2, tap (2, 0): its weight slice at an index. -/
theorem l2w6_apply (x4 : (⟨S3x3x64x64, .f32⟩ : BufTy).Contents (Elt F)) (ci co : Fin 64) :
    ReadP.val_main_v907 (F := F) x4 (ix2 ci co) = x4 (ix4 2 0 ci co) := by
  rw [ReadP.val_main_v907_apply, ReadP.val_main_v906_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 2, tap (2, 1). -/
theorem l2t7_eq (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) :
    ReadP.val_main_v963 (F := F) x0 x1 x2 x3 x4
      = Tap.tapTerm 1#32 0#32 (ReadP.val_main_v526 (F := F) x1) (ReadP.val_main_v528 (F := F) x1) (ReadP.val_main_v530 (F := F) x1)
          (ReadP.val_main_v27 (F := F) x1) (ReadP.val_main_v524 (F := F) x0 x1 x2 x3) (ReadP.val_main_v961 (F := F) x4) (ReadP.val_main_v909 (F := F) x0 x1 x2 x3 x4) := by
  rfl
/-- Layer 2, tap (2, 1): its weight slice at an index. -/
theorem l2w7_apply (x4 : (⟨S3x3x64x64, .f32⟩ : BufTy).Contents (Elt F)) (ci co : Fin 64) :
    ReadP.val_main_v961 (F := F) x4 (ix2 ci co) = x4 (ix4 2 1 ci co) := by
  rw [ReadP.val_main_v961_apply, ReadP.val_main_v960_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

/-- Layer 2, tap (2, 2). -/
theorem l2t8_eq (x0 : (⟨S409600x64, .f32⟩ : BufTy).Contents (Elt F)) (x1 : (⟨S409600x3, .i32⟩ : BufTy).Contents (Elt F)) (x2 : (⟨S3x3x64x64, .f32⟩ : BufTy).Contents (Elt F)) (x3 : (⟨S64, .f32⟩ : BufTy).Contents (Elt F)) (x4 : (⟨S3x3x64x64, .f32⟩ : BufTy).Contents (Elt F)) :
    ReadP.val_main_v1017 (F := F) x0 x1 x2 x3 x4
      = Tap.tapTerm 1#32 1#32 (ReadP.val_main_v526 (F := F) x1) (ReadP.val_main_v528 (F := F) x1) (ReadP.val_main_v530 (F := F) x1)
          (ReadP.val_main_v27 (F := F) x1) (ReadP.val_main_v524 (F := F) x0 x1 x2 x3) (ReadP.val_main_v1015 (F := F) x4) (ReadP.val_main_v963 (F := F) x0 x1 x2 x3 x4) := by
  rfl
/-- Layer 2, tap (2, 2): its weight slice at an index. -/
theorem l2w8_apply (x4 : (⟨S3x3x64x64, .f32⟩ : BufTy).Contents (Elt F)) (ci co : Fin 64) :
    ReadP.val_main_v1015 (F := F) x4 (ix2 ci co) = x4 (ix4 2 2 ci co) := by
  rw [ReadP.val_main_v1015_apply, ReadP.val_main_v1014_apply]
  congr 1
  funext a
  have h0 := ci.isLt
  have h1 := co.isLt
  match a with
  | ⟨0, _⟩ => rfl
  | ⟨1, _⟩ => rfl
  | ⟨2, _⟩ => exact Fin.ext (by show (ci.val * 64 + co.val) / 64 % 64 = ci.val; omega)
  | ⟨3, _⟩ => exact Fin.ext (by show (ci.val * 64 + co.val) % 64 = co.val; omega)

end Cert.ReferenceIdeal.Hand

end
-- ==== Proof.Ref.Value.lean ====
/- The reference's result at a site and a channel is the specification's: each sparse layer is nine taps summed
   from zero, every tap the contraction of the neighbouring site's row (zero outside the grid or at an empty cell)
   with the tap's weight slice, then the bias and the maximum with zero; the second layer reads the first's output;
   the last stage adds the site's own row contracted with the pointwise weights and takes the maximum with zero. -/
import proofs.«412627_j82471962018590_2_alg».proof.Proof.Ref.ReadP
import proofs.«412627_j82471962018590_2_alg».proof.Proof.Spec
import proofs.«412627_j82471962018590_2_alg».proof.Proof.Ref.Tap
import proofs.«412627_j82471962018590_2_alg».proof.Proof.Ref.ValueGrid
import proofs.«412627_j82471962018590_2_alg».proof.Proof.Ref.ValueTaps
import Idealize.ShloMosaic.Lib.ValueIdx
import Idealize.ShloMosaic.PureOps.Ideal.Laws
import Mathlib.Algebra.BigOperators.Fin

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec
open scoped BigOperators

/- The winner of a cell is a fold over all sites: nothing below needs its definition, and no term that names it is
   to be evaluated. -/
attribute [local irreducible] Cert.Spec.lastAt

/-! ## The coordinate columns each layer slices -/

theorem cols1_b {F : FTy → Type} [FloatOps F] (x1 : (⟨S409600x3, .i32⟩ : BufTy).Contents (Elt F)) (e : Fin 409600) :
    ReadP.val_main_v29 (F := F) x1 (ix1 e) = x1 (ix2 e 0) := by
  rw [ReadP.val_main_v29_apply, ReadP.val_main_v28_apply]
  congr 1
  funext a
  match a with
  | ⟨0, _⟩ => exact Fin.ext (by show e.val / 1 = e.val; omega)
  | ⟨1, _⟩ => rfl
theorem cols1_y {F : FTy → Type} [FloatOps F] (x1 : (⟨S409600x3, .i32⟩ : BufTy).Contents (Elt F)) (e : Fin 409600) :
    ReadP.val_main_v31 (F := F) x1 (ix1 e) = x1 (ix2 e 1) := by
  rw [ReadP.val_main_v31_apply, ReadP.val_main_v30_apply]
  congr 1
  funext a
  match a with
  | ⟨0, _⟩ => exact Fin.ext (by show e.val / 1 = e.val; omega)
  | ⟨1, _⟩ => rfl
theorem cols1_x {F : FTy → Type} [FloatOps F] (x1 : (⟨S409600x3, .i32⟩ : BufTy).Contents (Elt F)) (e : Fin 409600) :
    ReadP.val_main_v33 (F := F) x1 (ix1 e) = x1 (ix2 e 2) := by
  rw [ReadP.val_main_v33_apply, ReadP.val_main_v32_apply]
  congr 1
  funext a
  match a with
  | ⟨0, _⟩ => exact Fin.ext (by show e.val / 1 = e.val; omega)
  | ⟨1, _⟩ => rfl
theorem cols2_b {F : FTy → Type} [FloatOps F] (x1 : (⟨S409600x3, .i32⟩ : BufTy).Contents (Elt F)) (e : Fin 409600) :
    ReadP.val_main_v526 (F := F) x1 (ix1 e) = x1 (ix2 e 0) := by
  rw [ReadP.val_main_v526_apply, ReadP.val_main_v525_apply]
  congr 1
  funext a
  match a with
  | ⟨0, _⟩ => exact Fin.ext (by show e.val / 1 = e.val; omega)
  | ⟨1, _⟩ => rfl
theorem cols2_y {F : FTy → Type} [FloatOps F] (x1 : (⟨S409600x3, .i32⟩ : BufTy).Contents (Elt F)) (e : Fin 409600) :
    ReadP.val_main_v528 (F := F) x1 (ix1 e) = x1 (ix2 e 1) := by
  rw [ReadP.val_main_v528_apply, ReadP.val_main_v527_apply]
  congr 1
  funext a
  match a with
  | ⟨0, _⟩ => exact Fin.ext (by show e.val / 1 = e.val; omega)
  | ⟨1, _⟩ => rfl
theorem cols2_x {F : FTy → Type} [FloatOps F] (x1 : (⟨S409600x3, .i32⟩ : BufTy).Contents (Elt F)) (e : Fin 409600) :
    ReadP.val_main_v530 (F := F) x1 (ix1 e) = x1 (ix2 e 2) := by
  rw [ReadP.val_main_v530_apply, ReadP.val_main_v529_apply]
  congr 1
  funext a
  match a with
  | ⟨0, _⟩ => exact Fin.ext (by show e.val / 1 = e.val; omega)
  | ⟨1, _⟩ => rfl

/-! ## The zero constants and the bias rows -/

theorem zero_v34 (i : S409600x64.Idx) : ReadP.val_main_v34 (F := Ideal) i = 0 := by
  rw [ReadP.val_main_v34_apply, ReadP.val_main_cst_apply]
  exact Ideal.ofBits_zero_f32
theorem zero_v531 (i : S409600x64.Idx) : ReadP.val_main_v531 (F := Ideal) i = 0 := by
  rw [ReadP.val_main_v531_apply, ReadP.val_main_cst_195_apply]
  exact Ideal.ofBits_zero_f32
theorem zero_relu1 (i : S409600x64.Idx) : ReadP.val_main_call36_v0 (F := Ideal) i = 0 := by
  rw [ReadP.val_main_call36_v0_apply, ReadP.val_main_call36_cst_apply]
  exact Ideal.ofBits_zero_f32
theorem zero_relu2 (i : S409600x64.Idx) : ReadP.val_main_call73_v0 (F := Ideal) i = 0 := by
  rw [ReadP.val_main_call73_v0_apply, ReadP.val_main_call73_cst_apply]
  exact Ideal.ofBits_zero_f32
theorem zero_relu3 (i : S409600x64.Idx) : ReadP.val_main_call74_v0 (F := Ideal) i = 0 := by
  rw [ReadP.val_main_call74_v0_apply, ReadP.val_main_call74_cst_apply]
  exact Ideal.ofBits_zero_f32
theorem bias1_apply (x3 : FVec Ideal S64 .f32) (n : Fin 409600) (co : Fin 64) :
    ReadP.val_main_v522 (F := Ideal) x3 (ix2 n co) = x3 (ix1 co) := by
  rw [ReadP.val_main_v522_apply, ReadP.val_main_v521_apply]
  congr 1
  funext a
  match a with
  | ⟨0, _⟩ => rfl
theorem bias2_apply (x5 : FVec Ideal S64 .f32) (n : Fin 409600) (co : Fin 64) :
    ReadP.val_main_v1019 (F := Ideal) x5 (ix2 n co) = x5 (ix1 co) := by
  rw [ReadP.val_main_v1019_apply, ReadP.val_main_v1018_apply]
  congr 1
  funext a
  match a with
  | ⟨0, _⟩ => rfl

/-! ## One tap at a site, in the specification's words

The winner of a cell is a fold over every site, so no step below lets a term that names it be evaluated: wherever two
case distinctions on a winner (or on a neighbour) have to be compared, what they distinguish is first replaced by an
arbitrary value and the cases are taken one by one. -/

/-- The word the grid holds for a cell's winner: its number, or the all-ones word at an empty cell. -/
def siteWord (o : Option (Fin 409600)) : BitVec 32 :=
  match o with | some n => BitVec.ofNat 32 n.val | none => 4294967295#32

/-- The specification's tap at cell `(b, y, x)` over an arbitrary assignment of winners to cells. -/
def tapG (Lw : Loc → Option (Fin 409600)) (X : Fin 409600 → Fin 64 → EReal) (b : Fin 2) (y x : Fin 640)
    (ky kx : Fin 3) (ci : Fin 64) : EReal :=
  match nbr y ky, nbr x kx with
  | some y', some x' => (match Lw (b, y', x') with | some n' => X n' ci | none => 0)
  | _, _ => 0

/-- The specification's tap is that one at the site's cell and the actual winners. -/
theorem tapR_eq_tapG (X : Fin 409600 → Fin 64 → EReal) (coords : Coords) (n : Fin 409600) (ky kx : Fin 3) (ci : Fin 64) :
    tapR X coords n ky kx ci
      = tapG (lastAt coords) X (cell coords n).1 (cell coords n).2.1 (cell coords n).2.2 ky kx ci := by
  unfold tapR tapG
  generalize lastAt coords = Lw
  generalize nbr (cell coords n).2.1 ky = oy
  generalize nbr (cell coords n).2.2 kx = ox
  generalize (cell coords n).1 = b
  cases oy with
  | none => rfl
  | some y' =>
    cases ox with
    | none => rfl
    | some x' =>
      dsimp only
      generalize Lw (b, y', x') = o
      cases o <;> rfl

/-- The grid at a cell is the word of the cell's winner. -/
theorem grid_word (x1 : IVec S409600x3 32) (hin : InRange x1) (l : Loc) :
    ReadP.val_main_v27 (F := Ideal) x1 (ix3 l.1 l.2.1 l.2.2) = siteWord (lastAt x1 l) := by
  have h := grid_eq (F := Ideal) x1 hin l
  revert h
  generalize lastAt x1 l = o
  intro h
  rw [h]
  cases o <;> rfl

/-- One tap over a grid that holds an assignment of winners: the running sum plus the tap over that assignment, at
    the cell the site's three words name, contracted with the weight slice. -/
theorem tap_read (ky kx : Fin 3) (dyC dxC : BitVec 32) (hdy : dyC = BitVec.ofInt 32 ((ky.val : Int) - 1))
    (hdx : dxC = BitVec.ofInt 32 ((kx.val : Int) - 1)) (cb cy cx : IVec S409600 32) (grid : IVec S2x640x640 32)
    (X : FVec Ideal S409600x64 .f32) (wk : FVec Ideal S64x64 .f32) (acc : FVec Ideal S409600x64 .f32)
    (Lw : Loc → Option (Fin 409600)) (hG : ∀ l : Loc, grid (ix3 l.1 l.2.1 l.2.2) = siteWord (Lw l))
    (hb : ∀ n : Fin 409600, 0 ≤ (cb (ix1 n)).toInt ∧ (cb (ix1 n)).toInt < 2)
    (hy : ∀ n : Fin 409600, 0 ≤ (cy (ix1 n)).toInt ∧ (cy (ix1 n)).toInt < 640)
    (hx : ∀ n : Fin 409600, 0 ≤ (cx (ix1 n)).toInt ∧ (cx (ix1 n)).toInt < 640)
    (n : Fin 409600) (co : Fin 64) :
    Tap.tapTerm dyC dxC cb cy cx grid X wk acc (ix2 n co)
      = acc (ix2 n co) + ∑ ci : Fin 64,
          tapG Lw (fun n c => X (ix2 n c)) (clampW 2 (by decide) (cb (ix1 n))) (clampW 640 (by decide) (cy (ix1 n)))
            (clampW 640 (by decide) (cx (ix1 n))) ky kx ci * wk (ix2 ci co) := by
  rw [Tap.tapTerm_apply ky kx dyC dxC hdy hdx cb cy cx grid X wk acc Lw
    (fun l => (hG l).trans (by generalize Lw l = o; cases o <;> rfl)) hb hy hx n co]
  rfl

/-- The same over coordinate columns that are the coordinate array's, the actual winners, and a weight slice that is
    the layer's weights at `(ky, kx)`: the running sum plus the specification's tap contracted with the weights. -/
theorem tap_step (ky kx : Fin 3) (dyC dxC : BitVec 32) (hdy : dyC = BitVec.ofInt 32 ((ky.val : Int) - 1))
    (hdx : dxC = BitVec.ofInt 32 ((kx.val : Int) - 1)) (x1 : IVec S409600x3 32) (hin : InRange x1)
    (cb cy cx : IVec S409600 32) (hcb : ∀ n : Fin 409600, cb (ix1 n) = x1 (ix2 n 0))
    (hcy : ∀ n : Fin 409600, cy (ix1 n) = x1 (ix2 n 1)) (hcx : ∀ n : Fin 409600, cx (ix1 n) = x1 (ix2 n 2))
    (grid : IVec S2x640x640 32) (hG : ∀ l : Loc, grid (ix3 l.1 l.2.1 l.2.2) = siteWord (lastAt x1 l))
    (X : FVec Ideal S409600x64 .f32) (w : FVec Ideal S3x3x64x64 .f32) (wk : FVec Ideal S64x64 .f32)
    (hwk : ∀ ci co : Fin 64, wk (ix2 ci co) = w (ix4 ky kx ci co)) (acc : FVec Ideal S409600x64 .f32)
    (n : Fin 409600) (co : Fin 64) :
    Tap.tapTerm dyC dxC cb cy cx grid X wk acc (ix2 n co)
      = acc (ix2 n co) + ∑ ci : Fin 64, tapR (fun n c => X (ix2 n c)) x1 n ky kx ci * w (ix4 ky kx ci co) := by
  rw [tap_read ky kx dyC dxC hdy hdx cb cy cx grid X wk acc (lastAt x1) hG
    (fun m => by rw [hcb]; exact (hin m).1) (fun m => by rw [hcy]; exact (hin m).2.1)
    (fun m => by rw [hcx]; exact (hin m).2.2) n co]
  congr 1
  refine Finset.sum_congr rfl fun ci _ => ?_
  rw [tapR_eq_tapG, hwk, hcb, hcy, hcx]
  rfl

/-- Nine terms added one after another to zero are the double sum over the tap grid. -/
theorem nine_sum (T : Fin 3 → Fin 3 → EReal) :
    0 + T 0 0 + T 0 1 + T 0 2 + T 1 0 + T 1 1 + T 1 2 + T 2 0 + T 2 1 + T 2 2 = ∑ ky : Fin 3, ∑ kx : Fin 3, T ky kx := by
  simp only [Fin.sum_univ_three, zero_add, add_assoc]

/-! ## The first layer -/

/-- The first layer's nine taps, summed. -/
theorem conv1_eq (x0 : FVec Ideal S409600x64 .f32) (x1 : IVec S409600x3 32) (x2 : FVec Ideal S3x3x64x64 .f32)
    (hin : InRange x1) (n : Fin 409600) (co : Fin 64) :
    ReadP.val_main_v520 (F := Ideal) x0 x1 x2 (ix2 n co)
      = ∑ ky : Fin 3, ∑ kx : Fin 3, ∑ ci : Fin 64, tapR (fun n c => x0 (ix2 n c)) x1 n ky kx ci * x2 (ix4 ky kx ci co) := by
  obtain ⟨T, hT⟩ : ∃ T : Fin 3 → Fin 3 → EReal, ∀ ky kx, T ky kx
      = ∑ ci : Fin 64, tapR (fun n c => x0 (ix2 n c)) x1 n ky kx ci * x2 (ix4 ky kx ci co) := ⟨_, fun _ _ => rfl⟩
  have h0 : ReadP.val_main_v88 (F := Ideal) x0 x1 x2 (ix2 n co) = ReadP.val_main_v34 (F := Ideal) (ix2 n co) + T 0 0 := by
    rw [hT, l1t0_eq]
    exact tap_step 0 0 _ _ (by decide) (by decide) x1 hin _ _ _ (cols1_b (F := Ideal) x1) (cols1_y (F := Ideal) x1) (cols1_x (F := Ideal) x1) _ (grid_word x1 hin) _ x2 _ (l1w0_apply (F := Ideal) x2) _ n co
  have h1 : ReadP.val_main_v142 (F := Ideal) x0 x1 x2 (ix2 n co) = ReadP.val_main_v88 (F := Ideal) x0 x1 x2 (ix2 n co) + T 0 1 := by
    rw [hT, l1t1_eq]
    exact tap_step 0 1 _ _ (by decide) (by decide) x1 hin _ _ _ (cols1_b (F := Ideal) x1) (cols1_y (F := Ideal) x1) (cols1_x (F := Ideal) x1) _ (grid_word x1 hin) _ x2 _ (l1w1_apply (F := Ideal) x2) _ n co
  have h2 : ReadP.val_main_v196 (F := Ideal) x0 x1 x2 (ix2 n co) = ReadP.val_main_v142 (F := Ideal) x0 x1 x2 (ix2 n co) + T 0 2 := by
    rw [hT, l1t2_eq]
    exact tap_step 0 2 _ _ (by decide) (by decide) x1 hin _ _ _ (cols1_b (F := Ideal) x1) (cols1_y (F := Ideal) x1) (cols1_x (F := Ideal) x1) _ (grid_word x1 hin) _ x2 _ (l1w2_apply (F := Ideal) x2) _ n co
  have h3 : ReadP.val_main_v250 (F := Ideal) x0 x1 x2 (ix2 n co) = ReadP.val_main_v196 (F := Ideal) x0 x1 x2 (ix2 n co) + T 1 0 := by
    rw [hT, l1t3_eq]
    exact tap_step 1 0 _ _ (by decide) (by decide) x1 hin _ _ _ (cols1_b (F := Ideal) x1) (cols1_y (F := Ideal) x1) (cols1_x (F := Ideal) x1) _ (grid_word x1 hin) _ x2 _ (l1w3_apply (F := Ideal) x2) _ n co
  have h4 : ReadP.val_main_v304 (F := Ideal) x0 x1 x2 (ix2 n co) = ReadP.val_main_v250 (F := Ideal) x0 x1 x2 (ix2 n co) + T 1 1 := by
    rw [hT, l1t4_eq]
    exact tap_step 1 1 _ _ (by decide) (by decide) x1 hin _ _ _ (cols1_b (F := Ideal) x1) (cols1_y (F := Ideal) x1) (cols1_x (F := Ideal) x1) _ (grid_word x1 hin) _ x2 _ (l1w4_apply (F := Ideal) x2) _ n co
  have h5 : ReadP.val_main_v358 (F := Ideal) x0 x1 x2 (ix2 n co) = ReadP.val_main_v304 (F := Ideal) x0 x1 x2 (ix2 n co) + T 1 2 := by
    rw [hT, l1t5_eq]
    exact tap_step 1 2 _ _ (by decide) (by decide) x1 hin _ _ _ (cols1_b (F := Ideal) x1) (cols1_y (F := Ideal) x1) (cols1_x (F := Ideal) x1) _ (grid_word x1 hin) _ x2 _ (l1w5_apply (F := Ideal) x2) _ n co
  have h6 : ReadP.val_main_v412 (F := Ideal) x0 x1 x2 (ix2 n co) = ReadP.val_main_v358 (F := Ideal) x0 x1 x2 (ix2 n co) + T 2 0 := by
    rw [hT, l1t6_eq]
    exact tap_step 2 0 _ _ (by decide) (by decide) x1 hin _ _ _ (cols1_b (F := Ideal) x1) (cols1_y (F := Ideal) x1) (cols1_x (F := Ideal) x1) _ (grid_word x1 hin) _ x2 _ (l1w6_apply (F := Ideal) x2) _ n co
  have h7 : ReadP.val_main_v466 (F := Ideal) x0 x1 x2 (ix2 n co) = ReadP.val_main_v412 (F := Ideal) x0 x1 x2 (ix2 n co) + T 2 1 := by
    rw [hT, l1t7_eq]
    exact tap_step 2 1 _ _ (by decide) (by decide) x1 hin _ _ _ (cols1_b (F := Ideal) x1) (cols1_y (F := Ideal) x1) (cols1_x (F := Ideal) x1) _ (grid_word x1 hin) _ x2 _ (l1w7_apply (F := Ideal) x2) _ n co
  have h8 : ReadP.val_main_v520 (F := Ideal) x0 x1 x2 (ix2 n co) = ReadP.val_main_v466 (F := Ideal) x0 x1 x2 (ix2 n co) + T 2 2 := by
    rw [hT, l1t8_eq]
    exact tap_step 2 2 _ _ (by decide) (by decide) x1 hin _ _ _ (cols1_b (F := Ideal) x1) (cols1_y (F := Ideal) x1) (cols1_x (F := Ideal) x1) _ (grid_word x1 hin) _ x2 _ (l1w8_apply (F := Ideal) x2) _ n co
  rw [h8, h7, h6, h5, h4, h3, h2, h1, h0, zero_v34, nine_sum T]
  exact Finset.sum_congr rfl fun ky _ => Finset.sum_congr rfl fun kx _ => hT ky kx

/-- The first layer's output. -/
theorem layer1_eq (x0 : FVec Ideal S409600x64 .f32) (x1 : IVec S409600x3 32) (x2 : FVec Ideal S3x3x64x64 .f32)
    (x3 : FVec Ideal S64 .f32) (hin : InRange x1) (n : Fin 409600) (co : Fin 64) :
    ReadP.val_main_v524 (F := Ideal) x0 x1 x2 x3 (ix2 n co)
      = reluR (convR (fun n ch => x0 (ix2 n ch)) x1 (fun ky kx ci co => x2 (ix4 ky kx ci co)) (fun c => x3 (ix1 c))) n co := by
  rw [ReadP.val_main_v524_apply, ReadP.val_main_v523_apply, zero_relu1, bias1_apply, conv1_eq x0 x1 x2 hin]
  unfold reluR convR
  rfl

/-! ## The second layer -/

/-- The second layer's nine taps, summed, over the first layer's output. -/
theorem conv2_eq (x0 : FVec Ideal S409600x64 .f32) (x1 : IVec S409600x3 32) (x2 : FVec Ideal S3x3x64x64 .f32)
    (x3 : FVec Ideal S64 .f32) (x4 : FVec Ideal S3x3x64x64 .f32) (hin : InRange x1) (n : Fin 409600) (co : Fin 64) :
    ReadP.val_main_v1017 (F := Ideal) x0 x1 x2 x3 x4 (ix2 n co)
      = ∑ ky : Fin 3, ∑ kx : Fin 3, ∑ ci : Fin 64,
          tapR (fun n c => ReadP.val_main_v524 (F := Ideal) x0 x1 x2 x3 (ix2 n c)) x1 n ky kx ci * x4 (ix4 ky kx ci co) := by
  obtain ⟨T, hT⟩ : ∃ T : Fin 3 → Fin 3 → EReal, ∀ ky kx, T ky kx
      = ∑ ci : Fin 64, tapR (fun n c => (ReadP.val_main_v524 (F := Ideal) x0 x1 x2 x3) (ix2 n c)) x1 n ky kx ci * x4 (ix4 ky kx ci co) := ⟨_, fun _ _ => rfl⟩
  have h0 : ReadP.val_main_v585 (F := Ideal) x0 x1 x2 x3 x4 (ix2 n co) = ReadP.val_main_v531 (F := Ideal) (ix2 n co) + T 0 0 := by
    rw [hT, l2t0_eq]
    exact tap_step 0 0 _ _ (by decide) (by decide) x1 hin _ _ _ (cols2_b (F := Ideal) x1) (cols2_y (F := Ideal) x1) (cols2_x (F := Ideal) x1) _ (grid_word x1 hin) _ x4 _ (l2w0_apply (F := Ideal) x4) _ n co
  have h1 : ReadP.val_main_v639 (F := Ideal) x0 x1 x2 x3 x4 (ix2 n co) = ReadP.val_main_v585 (F := Ideal) x0 x1 x2 x3 x4 (ix2 n co) + T 0 1 := by
    rw [hT, l2t1_eq]
    exact tap_step 0 1 _ _ (by decide) (by decide) x1 hin _ _ _ (cols2_b (F := Ideal) x1) (cols2_y (F := Ideal) x1) (cols2_x (F := Ideal) x1) _ (grid_word x1 hin) _ x4 _ (l2w1_apply (F := Ideal) x4) _ n co
  have h2 : ReadP.val_main_v693 (F := Ideal) x0 x1 x2 x3 x4 (ix2 n co) = ReadP.val_main_v639 (F := Ideal) x0 x1 x2 x3 x4 (ix2 n co) + T 0 2 := by
    rw [hT, l2t2_eq]
    exact tap_step 0 2 _ _ (by decide) (by decide) x1 hin _ _ _ (cols2_b (F := Ideal) x1) (cols2_y (F := Ideal) x1) (cols2_x (F := Ideal) x1) _ (grid_word x1 hin) _ x4 _ (l2w2_apply (F := Ideal) x4) _ n co
  have h3 : ReadP.val_main_v747 (F := Ideal) x0 x1 x2 x3 x4 (ix2 n co) = ReadP.val_main_v693 (F := Ideal) x0 x1 x2 x3 x4 (ix2 n co) + T 1 0 := by
    rw [hT, l2t3_eq]
    exact tap_step 1 0 _ _ (by decide) (by decide) x1 hin _ _ _ (cols2_b (F := Ideal) x1) (cols2_y (F := Ideal) x1) (cols2_x (F := Ideal) x1) _ (grid_word x1 hin) _ x4 _ (l2w3_apply (F := Ideal) x4) _ n co
  have h4 : ReadP.val_main_v801 (F := Ideal) x0 x1 x2 x3 x4 (ix2 n co) = ReadP.val_main_v747 (F := Ideal) x0 x1 x2 x3 x4 (ix2 n co) + T 1 1 := by
    rw [hT, l2t4_eq]
    exact tap_step 1 1 _ _ (by decide) (by decide) x1 hin _ _ _ (cols2_b (F := Ideal) x1) (cols2_y (F := Ideal) x1) (cols2_x (F := Ideal) x1) _ (grid_word x1 hin) _ x4 _ (l2w4_apply (F := Ideal) x4) _ n co
  have h5 : ReadP.val_main_v855 (F := Ideal) x0 x1 x2 x3 x4 (ix2 n co) = ReadP.val_main_v801 (F := Ideal) x0 x1 x2 x3 x4 (ix2 n co) + T 1 2 := by
    rw [hT, l2t5_eq]
    exact tap_step 1 2 _ _ (by decide) (by decide) x1 hin _ _ _ (cols2_b (F := Ideal) x1) (cols2_y (F := Ideal) x1) (cols2_x (F := Ideal) x1) _ (grid_word x1 hin) _ x4 _ (l2w5_apply (F := Ideal) x4) _ n co
  have h6 : ReadP.val_main_v909 (F := Ideal) x0 x1 x2 x3 x4 (ix2 n co) = ReadP.val_main_v855 (F := Ideal) x0 x1 x2 x3 x4 (ix2 n co) + T 2 0 := by
    rw [hT, l2t6_eq]
    exact tap_step 2 0 _ _ (by decide) (by decide) x1 hin _ _ _ (cols2_b (F := Ideal) x1) (cols2_y (F := Ideal) x1) (cols2_x (F := Ideal) x1) _ (grid_word x1 hin) _ x4 _ (l2w6_apply (F := Ideal) x4) _ n co
  have h7 : ReadP.val_main_v963 (F := Ideal) x0 x1 x2 x3 x4 (ix2 n co) = ReadP.val_main_v909 (F := Ideal) x0 x1 x2 x3 x4 (ix2 n co) + T 2 1 := by
    rw [hT, l2t7_eq]
    exact tap_step 2 1 _ _ (by decide) (by decide) x1 hin _ _ _ (cols2_b (F := Ideal) x1) (cols2_y (F := Ideal) x1) (cols2_x (F := Ideal) x1) _ (grid_word x1 hin) _ x4 _ (l2w7_apply (F := Ideal) x4) _ n co
  have h8 : ReadP.val_main_v1017 (F := Ideal) x0 x1 x2 x3 x4 (ix2 n co) = ReadP.val_main_v963 (F := Ideal) x0 x1 x2 x3 x4 (ix2 n co) + T 2 2 := by
    rw [hT, l2t8_eq]
    exact tap_step 2 2 _ _ (by decide) (by decide) x1 hin _ _ _ (cols2_b (F := Ideal) x1) (cols2_y (F := Ideal) x1) (cols2_x (F := Ideal) x1) _ (grid_word x1 hin) _ x4 _ (l2w8_apply (F := Ideal) x4) _ n co
  rw [h8, h7, h6, h5, h4, h3, h2, h1, h0, zero_v531, nine_sum T]
  exact Finset.sum_congr rfl fun ky _ => Finset.sum_congr rfl fun kx _ => hT ky kx

/-- The second layer's output. -/
theorem layer2_eq (x0 : FVec Ideal S409600x64 .f32) (x1 : IVec S409600x3 32) (x2 : FVec Ideal S3x3x64x64 .f32)
    (x3 : FVec Ideal S64 .f32) (x4 : FVec Ideal S3x3x64x64 .f32) (x5 : FVec Ideal S64 .f32) (hin : InRange x1)
    (n : Fin 409600) (co : Fin 64) :
    ReadP.val_main_v1021 (F := Ideal) x0 x1 x2 x3 x4 x5 (ix2 n co)
      = reluR (convR (reluR (convR (fun n ch => x0 (ix2 n ch)) x1 (fun ky kx ci co => x2 (ix4 ky kx ci co)) (fun c => x3 (ix1 c))))
          x1 (fun ky kx ci co => x4 (ix4 ky kx ci co)) (fun c => x5 (ix1 c))) n co := by
  have hX : (fun n c => ReadP.val_main_v524 (F := Ideal) x0 x1 x2 x3 (ix2 n c))
      = reluR (convR (fun n ch => x0 (ix2 n ch)) x1 (fun ky kx ci co => x2 (ix4 ky kx ci co)) (fun c => x3 (ix1 c))) :=
    funext fun m => funext fun c => layer1_eq x0 x1 x2 x3 hin m c
  rw [ReadP.val_main_v1021_apply, ReadP.val_main_v1020_apply, zero_relu2, bias2_apply, conv2_eq x0 x1 x2 x3 x4 hin, hX]
  generalize reluR (convR (fun n ch => x0 (ix2 n ch)) x1 (fun ky kx ci co => x2 (ix4 ky kx ci co)) (fun c => x3 (ix1 c))) = Y
  unfold reluR convR
  rfl

/-! ## The last stage -/

/-- The site's own row contracted with the pointwise weights. -/
theorem resid_apply (x0 : FVec Ideal S409600x64 .f32) (x6 : FVec Ideal S64x64 .f32) (n : Fin 409600) (co : Fin 64) :
    ReadP.val_main_v1022 (F := Ideal) x0 x6 (ix2 n co) = ∑ ci : Fin 64, x0 (ix2 n ci) * x6 (ix2 ci co) := by
  rw [ReadP.val_main_v1022_apply]
  refine Finset.sum_congr rfl fun ci _ => ?_
  congr 2
  · funext a
    match a with
    | ⟨0, _⟩ => rfl
    | ⟨1, _⟩ => rfl
  · funext a
    match a with
    | ⟨0, _⟩ => rfl
    | ⟨1, _⟩ => rfl

/-- THE REFERENCE'S RESULT is the specification's. -/
theorem refOut_eq (x0 : FVec Ideal S409600x64 .f32) (x1 : IVec S409600x3 32) (x2 : FVec Ideal S3x3x64x64 .f32)
    (x3 : FVec Ideal S64 .f32) (x4 : FVec Ideal S3x3x64x64 .f32) (x5 : FVec Ideal S64 .f32) (x6 : FVec Ideal S64x64 .f32)
    (hin : Cert.Spec.InRange x1) (n : Fin 409600) (co : Fin 64) :
    ReadP.val_main_v1024 (F := Ideal) x0 x1 x2 x3 x4 x5 x6 (ix2 n co)
      = Cert.Spec.RSpec (fun n ch => x0 (ix2 n ch)) x1 (fun ky kx ci co => x2 (ix4 ky kx ci co)) (fun c => x3 (ix1 c))
          (fun ky kx ci co => x4 (ix4 ky kx ci co)) (fun c => x5 (ix1 c)) (fun ci co => x6 (ix2 ci co)) n co := by
  rw [ReadP.val_main_v1024_apply, ReadP.val_main_v1023_apply, zero_relu3, layer2_eq x0 x1 x2 x3 x4 x5 hin,
    resid_apply]
  unfold RSpec
  rfl

end Cert.ReferenceIdeal.Hand

end
-- ==== Proof.SpecEq.lean ====
/- The two specifications agree when every site's coordinate words are inside the grid.

   An in-range word is its own clamp, so the cell a site's words name for a scatter is the site's cell. A cell
   some site names therefore has a winner, and the winner of a cell sits at that cell. The dense grid read at a
   tap of a site's cell is the reference's tap of that site; so one dense layer, at an occupied cell, is the
   ReLU of the sparse layer at the winner (mask one), and at an empty cell is zero (mask zero): one dense layer
   of the scattered rows is the scattered ReLU of the sparse layer. Twice, and the last sum commutes. -/
import proofs.«412627_j82471962018590_2_alg».proof.Proof.Spec
import Mathlib.Data.EReal.Basic
import Mathlib.Data.EReal.Operations
import Mathlib.Util.TermReduce
import Mathlib.Tactic.DefEqTransformations

noncomputable section

namespace Cert.Spec

open Idealize.ShloMosaic Idealize.ShloMosaic.ValueIdx
open scoped BigOperators

/-- In range, the cell a site's words name for a scatter is the site's cell. -/
theorem cellOf_eq_cell (coords : Coords) (hin : InRange coords) (n : Fin NS) :
    cellOf coords n = some (cell coords n) := by
  obtain ⟨⟨h0a, h0b⟩, ⟨h1a, h1b⟩, ⟨h2a, h2b⟩⟩ := hin n
  unfold cellOf tgt3
  split
  · unfold cell clampW
    refine congrArg some (Prod.ext (Fin.ext ?_) (Prod.ext (Fin.ext ?_) (Fin.ext ?_))) <;> simp only <;> omega
  · omega

/-- A site's cell has a winner. -/
theorem lastAt_cell_ne_none (coords : Coords) (hin : InRange coords) (n : Fin NS) :
    lastAt coords (cell coords n) ≠ none := by
  unfold lastAt
  exact lastSat_ne_none _ n (cellOf_eq_cell coords hin n)

/-- The winner of a cell sits at that cell. -/
theorem cell_of_lastAt (coords : Coords) (hin : InRange coords) (l : Loc) (n' : Fin NS)
    (h : lastAt coords l = some n') : cell coords n' = l := by
  unfold lastAt at h
  have h1 := (lastSat_some _ n' h).1
  rw [cellOf_eq_cell coords hin n'] at h1
  exact Option.some.inj h1

/- From here on the winner of a cell is only used through the facts above. -/
attribute [local irreducible] lastAt

/-- The scattered rows as a function of the cell, spelled out. -/
theorem dense_fun (X : Fin NS → Fin 64 → EReal) (coords : Coords) :
    dense X coords = delta% (dense X coords) := rfl

/-- The mask as a function of the cell, spelled out. -/
theorem mask_fun (coords : Coords) : mask coords = delta% (mask coords) := rfl

/-- The scattered rows at a cell with a winner: the winner's row. -/
theorem dense_of_some (X : Fin NS → Fin 64 → EReal) (coords : Coords) (l : Loc) (n' : Fin NS)
    (h : lastAt coords l = some n') (ch : Fin 64) : dense X coords l ch = X n' ch := by
  rw [dense_fun]
  generalize lastAt coords = L at h ⊢
  beta_reduce
  rw [h] <;> rfl

/-- The scattered rows at an empty cell: zero. -/
theorem dense_of_none (X : Fin NS → Fin 64 → EReal) (coords : Coords) (l : Loc)
    (h : lastAt coords l = none) (ch : Fin 64) : dense X coords l ch = 0 := by
  rw [dense_fun]
  generalize lastAt coords = L at h ⊢
  beta_reduce
  rw [h] <;> rfl

/-- The mask at a cell with a winner: one. -/
theorem mask_of_some (coords : Coords) (l : Loc) (n' : Fin NS) (h : lastAt coords l = some n') :
    mask coords l = 1 := by
  rw [mask_fun]
  generalize lastAt coords = L at h ⊢
  beta_reduce
  rw [h] <;> rfl

/-- The mask at an empty cell: zero. -/
theorem mask_of_none (coords : Coords) (l : Loc) (h : lastAt coords l = none) : mask coords l = 0 := by
  rw [mask_fun]
  generalize lastAt coords = L at h ⊢
  beta_reduce
  rw [h] <;> rfl

/-- The dense grid of scattered rows read at a tap of a site's cell is the reference's tap of that site. -/
theorem padRead_dense (X : Fin NS → Fin 64 → EReal) (coords : Coords) (n : Fin NS) (ky kx : Fin 3) (ci : Fin 64) :
    padRead (dense X coords) (cell coords n).1 (cell coords n).2.1 (cell coords n).2.2 ky kx ci
      = tapR X coords n ky kx ci := by
  rw [padRead, tapR, dense_fun]

/-- One dense layer of the scattered rows, at a site's cell, is the ReLU of the sparse layer at that site. -/
theorem convK_at_cell (X : Fin NS → Fin 64 → EReal) (coords : Coords) (hin : InRange coords)
    (w : Fin 3 → Fin 3 → Fin 64 → Fin 64 → EReal) (bias : Fin 64 → EReal) (n : Fin NS) (co : Fin 64) :
    convK (dense X coords) (mask coords) w bias (cell coords n) co = reluR (convR X coords w bias) n co := by
  obtain ⟨n', hn'⟩ := Option.ne_none_iff_exists'.mp (lastAt_cell_ne_none coords hin n)
  rw [convK, reluR, convR, mask_of_some coords _ n' hn', mul_one]
  simp only [padRead_dense]

/-- One dense layer of the scattered rows is the scattered ReLU of the sparse layer, at every cell. -/
theorem convK_dense (X : Fin NS → Fin 64 → EReal) (coords : Coords) (hin : InRange coords)
    (w : Fin 3 → Fin 3 → Fin 64 → Fin 64 → EReal) (bias : Fin 64 → EReal) :
    convK (dense X coords) (mask coords) w bias = dense (reluR (convR X coords w bias)) coords := by
  funext l co
  cases h : lastAt coords l with
  | none =>
    rw [dense_of_none _ coords l h, convK, mask_of_none coords l h, mul_zero]
  | some n' =>
    have hc := cell_of_lastAt coords hin l n' h
    rw [dense_of_some _ coords l n' h]
    subst hc
    exact convK_at_cell X coords hin w bias n' co

/-- The kernel's specification and the reference's agree. -/
theorem KSpec_eq_RSpec (feat : Fin NS → Fin 64 → EReal) (coords : Coords)
    (w1 : Fin 3 → Fin 3 → Fin 64 → Fin 64 → EReal) (b1 : Fin 64 → EReal)
    (w2 : Fin 3 → Fin 3 → Fin 64 → Fin 64 → EReal) (b2 : Fin 64 → EReal) (wd : Fin 64 → Fin 64 → EReal)
    (hin : InRange coords) : KSpec feat coords w1 b1 w2 b2 wd = RSpec feat coords w1 b1 w2 b2 wd := by
  funext n co
  unfold KSpec RSpec
  rw [convK_dense feat coords hin w1 b1, convK_at_cell _ coords hin w2 b2 n co, add_comm]

end Cert.Spec

end
-- ==== Proof.PreRange.lean ====
import proofs.«412627_j82471962018590_2_alg».proof.Pre_finite_inputs
import proofs.«412627_j82471962018590_2_alg».proof.Proof.Gen.Pre_finite_inputs
import proofs.«412627_j82471962018590_2_alg».proof.Proof.Spec
import Idealize.ShloMosaic.Lib.ReduceAll
import Idealize.ShloMosaic.Lib.StableHlo.Predicate
import Idealize.ShloMosaic.Lib.ValueLayout

/-! # From the printed precondition to the coordinate range

The precondition is a conjunction of all-reductions. Its last three conjuncts say, column by column of the coordinate
words, that every word read signed is at least 0 and below the axis extent (2, 640, 640). Read back at one site, they
are the range statement of the specification. -/

namespace Cert.PreRange

open Idealize.ShloMosaic Idealize.ShloMosaic.ValueIdx
open Cert.Pre_finite_inputs

/-- The rank-0 shape has one index. -/
instance subsingleton_S_ : Subsingleton S_.Idx := ⟨fun a b => funext fun d => d.elim0⟩

/-- Column `k` of the coordinate words as a vector over the sites (the slice of that column, its unit axis dropped)
    reads, at site `n`, the word `(n, k)`. -/
theorem col_apply (a1 : IVec S409600x3 32) (o : Nat) (k : Fin 3) (hk : k.val = o) (hs : S409600x3.Slices ![0, o] S409600x1)
    (hc : S409600x1.ShapeCasts S409600) (n : Fin 409600) :
    shapeCast S409600 (extractStridedSlice S409600x1 ![0, o] a1 hs) hc (ix1 n) = a1 (ix2 n k) := by
  rw [shapeCast_apply _ hc (ix1 n) (ix2 n (0 : Fin 1)) (by
    rw [Shape.rowMajor_val_two, Shape.rowMajor_val_one]
    show n.val * 1 + 0 = n.val
    omega)]
  exact slice2_axis1_apply o a1 hs n 0 k (by rw [hk]; rfl)

/-- An all-reduction of `lo ≤ x ∧ y < hi` (signed compares against broadcast constants) that came out 1 says so at
    every site. -/
theorem range_of_reduce [Facts] (x y : IVec S409600 32) (lo hi : BitVec 32) (init : IVec S_ 1) (j : S_.Idx)
    (h : Host.reduce IntOp.andi
        (andi (cmpi .sge x (broadcastInDim S409600 ![] Facts.bcast_S_S409600 (constantI S_ 32 lo)))
          (cmpi .slt y (broadcastInDim S409600 ![] Facts.bcast_S_S409600 (constantI S_ 32 hi))))
        init Facts.reducesTo_S409600_S_d0 Facts.h_S_ j = 1#1) (n : Fin 409600) :
    lo.toInt ≤ (x (ix1 n)).toInt ∧ (y (ix1 n)).toInt < hi.toInt := by
  have e := Host.reduce_andi_all _ _ _ _ j h (ix1 n)
  obtain ⟨e1, e2⟩ := IntOp.andi_eq_one.1 e
  exact ⟨IntOp.cmpi_sge.1 e1, IntOp.cmpi_slt.1 e2⟩

/-- The precondition holding, every site's three coordinate words are inside the grid. -/
theorem inRange_of_pre {F : FTy → Type} [FloatOps F] [Cert.Pre_finite_inputs.Facts]
    (a0 : FVec F Cert.Pre_finite_inputs.S409600x64 .f32) (a1 : IVec Cert.Pre_finite_inputs.S409600x3 32)
    (a2 : FVec F Cert.Pre_finite_inputs.S3x3x64x64 .f32) (a3 : FVec F Cert.Pre_finite_inputs.S64 .f32)
    (a4 : FVec F Cert.Pre_finite_inputs.S3x3x64x64 .f32) (a5 : FVec F Cert.Pre_finite_inputs.S64 .f32)
    (a6 : FVec F Cert.Pre_finite_inputs.S64x64 .f32)
    (h : Cert.Pre_finite_inputs.fn (F := F) a0 a1 a2 a3 a4 a5 a6 = fun _ => 1#1) : Cert.Spec.InRange a1 := by
  have h0 := congrFun h ix0
  simp only [fn, fn_part1, fn_part2, fn_part3] at h0
  obtain ⟨h1, h60⟩ := IntOp.andi_eq_one.1 h0
  obtain ⟨h2, h49⟩ := IntOp.andi_eq_one.1 h1
  obtain ⟨-, h38⟩ := IntOp.andi_eq_one.1 h2
  intro n
  have r0 := range_of_reduce _ _ _ _ _ _ h38 n
  have r1 := range_of_reduce _ _ _ _ _ _ h49 n
  have r2 := range_of_reduce _ _ _ _ _ _ h60 n
  rw [col_apply a1 0 0 rfl] at r0
  rw [col_apply a1 1 1 rfl] at r1
  rw [col_apply a1 2 2 rfl] at r2
  have z : (0#32).toInt = 0 := by decide
  have t2 : (2#32).toInt = 2 := by decide
  have t640 : (640#32).toInt = 640 := by decide
  rw [z, t2] at r0
  rw [z, t640] at r1 r2
  exact ⟨r0, r1, r2⟩

end Cert.PreRange
-- ==== Proof.Assembly.lean ====
/- The five claims, one theorem each. The two kernel programs and the reference run and leave their arguments as they
   were; over the extended reals the kernel's result and the reference's are one function of the arguments wherever every
   site's coordinate words lie inside the grid, which the precondition states. -/
import proofs.«412627_j82471962018590_2_alg».proof.Defs
import proofs.«412627_j82471962018590_2_alg».proof.Proof.Gen.Kernel
import proofs.«412627_j82471962018590_2_alg».proof.Proof.Gen.KernelIdeal
import proofs.«412627_j82471962018590_2_alg».proof.Proof.Gen.ReferenceIdeal
import proofs.«412627_j82471962018590_2_alg».proof.Proof.Gen.Pre_finite_inputs
import proofs.«412627_j82471962018590_2_alg».proof.Proof.K.Run
import proofs.«412627_j82471962018590_2_alg».proof.Proof.KI.Run
import proofs.«412627_j82471962018590_2_alg».proof.Proof.KI.Value
import proofs.«412627_j82471962018590_2_alg».proof.Proof.Ref.Run
import proofs.«412627_j82471962018590_2_alg».proof.Proof.Ref.Value
import proofs.«412627_j82471962018590_2_alg».proof.Proof.SpecEq
import proofs.«412627_j82471962018590_2_alg».proof.Proof.PreRange
import Idealize.ShloMosaic.Lib.ValueIdx
import Idealize.ShloMosaic.Adequacy
import Idealize.ShloMosaic.Init

noncomputable section

namespace Cert.Proof.Parts

open Idealize.ShloMosaic Idealize.ShloMosaic.TcCoe Idealize.SL.Sem Idealize.ShloMosaic.ValueIdx

/-- The word-level program runs and leaves its arguments as they were. -/
theorem frame_k : Cert.frame_Kernel := fun m ρ _ => Cert.Kernel.Hand.frame (F := Bits) m ρ

/-- So does the program read over the extended reals. -/
theorem frame_ki : Cert.frame_KernelIdeal := fun m ρ _ => Cert.KernelIdeal.Hand.frame (F := Ideal) m ρ

/-- The reference runs and leaves its arguments as they were: its run, the result's equation dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- Over the extended reals, from memories that agree on the arguments, the two programs end at one array: the kernel's
    result is its specification `KSpec` of the arguments, the reference's is `RSpec` of the same arguments, and the two
    specifications agree wherever every site's coordinate words are inside the grid, which the precondition states. -/
theorem algebraic : Cert.algebraic_KernelIdeal_ReferenceIdeal := by
  intro m ρ m' ρ' hpre hagree
  refine ⟨Cert.KernelIdeal.Hand.outK (F := Ideal) m ρ, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6⟩ := hagree c
  rw [e0, e1, e2, e3, e4, e5, e6]
  have hin := Cert.PreRange.inRange_of_pre _ _ _ _ _ _ _ (hpre c)
  refine funext fun (i : (⟨2, ![409600, 64]⟩ : Shape).Idx) => ?_
  obtain ⟨n, co, rfl⟩ : ∃ (n : Fin 409600) (co : Fin 64), i = ix2 n co := ⟨i 0, i 1, eq_ix2 i⟩
  rw [Cert.ReferenceIdeal.Hand.refOut_eq _ _ _ _ _ _ _ hin, Cert.KernelIdeal.Hand.outK_eq_KSpec m ρ c hin,
    Cert.Spec.KSpec_eq_RSpec _ _ _ _ _ _ _ hin]

end Cert.Proof.Parts

end
-- ==== Proof.lean ====
/- The certificate's claim: the word-level kernel, the kernel over the extended reals and the reference each run and
   leave their arguments unchanged, the idealization rewrote nothing, and over the extended reals the kernel's result
   equals the reference's from memories that agree on the arguments. The witnesses of the programs' stated side
   conditions come first; each conjunct is a theorem of `Cert.Proof.Parts`. -/
import proofs.«412627_j82471962018590_2_alg».proof.Defs
import proofs.«412627_j82471962018590_2_alg».proof.Proof.Gen.Kernel
import proofs.«412627_j82471962018590_2_alg».proof.Proof.Gen.Kernel.Skeleton
import proofs.«412627_j82471962018590_2_alg».proof.Proof.Gen.Kernel.Launch
import proofs.«412627_j82471962018590_2_alg».proof.Proof.Gen.Kernel.Regions
import proofs.«412627_j82471962018590_2_alg».proof.Proof.Gen.Kernel.Points
import proofs.«412627_j82471962018590_2_alg».proof.Proof.Gen.KernelIdeal
import proofs.«412627_j82471962018590_2_alg».proof.Proof.Gen.KernelIdeal.Skeleton
import proofs.«412627_j82471962018590_2_alg».proof.Proof.Gen.KernelIdeal.Launch
import proofs.«412627_j82471962018590_2_alg».proof.Proof.Gen.KernelIdeal.Regions
import proofs.«412627_j82471962018590_2_alg».proof.Proof.Gen.KernelIdeal.Points
import proofs.«412627_j82471962018590_2_alg».proof.Proof.Gen.ReferenceIdeal
import proofs.«412627_j82471962018590_2_alg».proof.Proof.Gen.Pre_finite_inputs
import Idealize.ShloMosaic.Adequacy
import Idealize.ShloMosaic.Init
import proofs.«412627_j82471962018590_2_alg».proof.Proof.Assembly

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Parts.frame_k, Parts.frame_ki, Parts.frame_ri, Parts.preserves, Parts.algebraic⟩

end Cert.Proof

end
